-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S2048 : Shape := ⟨1, ![2048]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x4096x1024 .f32) (main_arg1 : FVec F S8x4096x1024 .f32) (main_arg2 : IVec S2048 32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg2 main_v9
  let main_c_3 : IVec S_ 32 := constantI S_ 32 4096#32
  let main_v11 : IVec S2048 32 := broadcastInDim S2048 ![] bcast_S_S2048 main_c_3
  let main_v12 : IVec S2048 1 := cmpi .slt main_arg2 main_v11
  let main_v13 : IVec S2048 1 := andi main_v10 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v8 main_v14
  main_v15
-- ==== Kernel.lean ====
abbrev S8x4096x1024 : Shape := ⟨3, ![8, 4096, 1024]⟩
abbrev S2048 : Shape := ⟨1, ![2048]⟩
abbrev S_ : Shape := ⟨0, ![]⟩
abbrev S8x2048x1024 : Shape := ⟨3, ![8, 2048, 1024]⟩
abbrev S8x64x1024 : Shape := ⟨3, ![8, 64, 1024]⟩
abbrev S2x8x64x1024 : Shape := ⟨4, ![2, 8, 64, 1024]⟩
abbrev S2 : Shape := ⟨1, ![2]⟩
abbrev S1 : Shape := ⟨1, ![1]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1x8x64x1024 : Shape := ⟨4, ![1, 8, 64, 1024]⟩

abbrev nBuf : Space → Nat
  | .hbm => 11
  | .vmem => 4
  | .smem => 1
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2048, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S8x2048x1024, .f32⟩
  | .local _ .vmem, ⟨0, _⟩ => ⟨S8x64x1024, .f32⟩
  | .local _ .vmem, ⟨1, _⟩ => ⟨S8x64x1024, .f32⟩
  | .local _ .vmem, ⟨2, _⟩ => ⟨S2x8x64x1024, .f32⟩
  | .local _ .vmem, ⟨3, _⟩ => ⟨S2x8x64x1024, .f32⟩
  | .local _ .smem, ⟨0, _⟩ => ⟨S2048, .i32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32_3 : BitVec 32 := 0#32
  let v12 : BitVec 1 := Scalar.cmpi .eq arg1 c0_i32_3
  let v13 : BitVec 32 := Scalar.extui v12
  let c0_i32_4 : BitVec 32 := 0#32
  let v14 : BitVec 1 := Scalar.cmpi .ne v13 c0_i32_4
  v14

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v802 : BitVec 32 := Scalar.muli v1 c64_i32
  let c0_i32_725 : BitVec 32 := 0#32
  let v803 : BitVec 32 := Scalar.addi v802 c0_i32_725
  let v804 : Index := Scalar.indexCast v803
  ![v804.toNat]
def k0_off2 (v805 : BitVec 32) : Fin 3 → Nat :=
  let c0_i32_731 : BitVec 32 := 0#32
  let c0_i32_732 : BitVec 32 := 0#32
  ![0, v805.toNat, 0]

def k0_chk1 (i : grid0.Coords) (v805 : BitVec 32) : Prop :=
  (∀ (k0_h1 : k0_cond1 i = 1#1), ∀ a, (k0_off2 v805) a + S8x1x1024.size a ≤ S8x4096x1024.size a)
instance k0_chk1.dec : ∀ (i : grid0.Coords) (v805 : BitVec 32), Decidable (k0_chk1 i v805) := fun i v805 => decidable_of_iff' _ (Iff.of_eq (k0_chk1.eq_1 i v805))
theorem k0_off2_inb : ∀ (i : grid0.Coords) (v805 : BitVec 32) (k0_hw1 : k0_chk1 i v805), ∀ (k0_h1 : k0_cond1 i = 1#1), ∀ a, (k0_off2 v805) a + S8x1x1024.size a ≤ S8x4096x1024.size a := fun i v805 k0_hw1 k0_h1 => k0_hw1 k0_h1

def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_740 : BitVec 32 := 64#32
  let v818 : BitVec 32 := Scalar.muli v1 c64_i32_740
  let c1_i32_741 : BitVec 32 := 1#32
  let v819 : BitVec 32 := Scalar.addi v818 c1_i32_741
  let v820 : Index := Scalar.indexCast v819
  ![v820.toNat]
def k0_off4 (v821 : BitVec 32) : Fin 3 → Nat :=
  let c0_i32_747 : BitVec 32 := 0#32
  let c0_i32_748 : BitVec 32 := 0#32
  ![0, v821.toNat, 0]

def k0_chk2 (i : grid0.Coords) (v821 : BitVec 32) : Prop :=
  (∀ (k0_h1 : k0_cond1 i = 1#1), ∀ a, (k0_off4 v821) a + S8x1x1024.size a ≤ S8x4096x1024.size a)
instance k0_chk2.dec : ∀ (i : grid0.Coords) (v821 : BitVec 32), Decidable (k0_chk2 i v821) := fun i v821 => decidable_of_iff' _ (Iff.of_eq (k0_chk2.eq_1 i v821))
theorem k0_off4_inb : ∀ (i : grid0.Coords) (v821 : BitVec 32) (k0_hw2 : k0_chk2 i v821), ∀ (k0_h1 : k0_cond1 i = 1#1), ∀ a, (k0_off4 v821) a + S8x1x1024.size a ≤ S8x4096x1024.size a := fun i v821 k0_hw2 k0_h1 => k0_hw2 k0_h1

def k0_off5 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_756 : BitVec 32 := 64#32
  let v834 : BitVec 32 := Scalar.muli v1 c64_i32_756
  let c2_i32_757 : BitVec 32 := 2#32
  let v835 : BitVec 32 := Scalar.addi v834 c2_i32_757
  let v836 : Index := Scalar.indexCast v835
  ![v836.toNat]
def k0_off6 (v837 : BitVec 32) : Fin 3 → Nat :=
  let c0_i32_763 : BitVec 32 := 0#32
  let c0_i32_764 : BitVec 32 := 0#32
  ![0, v837.toNat, 0]

def k0_chk3 (i : grid0.Coords) (v837 : BitVec 32) : Prop :=
  (∀ (k0_h1 : k0_cond1 i = 1#1), ∀ a, (k0_off6 v837) a + S8x1x1024.size a ≤ S8x4096x1024.size a)
instance k0_chk3.dec : ∀ (i : grid0.Coords) (v837 : BitVec 32), Decidable (k0_chk3 i v837) := fun i v837 => decidable_of_iff' _ (Iff.of_eq (k0_chk3.eq_1 i v837))
theorem k0_off6_inb : ∀ (i : grid0.Coords) (v837 : BitVec 32) (k0_hw3 : k0_chk3 i v837), ∀ (k0_h1 : k0_cond1 i = 1#1), ∀ a, (k0_off6 v837) a + S8x1x1024.size a ≤ S8x4096x1024.size a := fun i v837 k0_hw3 k0_h1 => k0_hw3 k0_h1

def k0_off7 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_772 : BitVec 32 := 64#32
  let v850 : BitVec 32 := Scalar.muli v1 c64_i32_772
  let c3_i32_773 : BitVec 32 := 3#32
  let v851 : BitVec 32 := Scalar.addi v850 c3_i32_773
  let v852 : Index := Scalar.indexCast v851
  ![v852.toNat]
def k0_off8 (v853 : BitVec 32) : Fin 3 → Nat :=
  let c0_i32_779 : BitVec 32 := 0#32
  let c0_i32_780 : BitVec 32 := 0#32
  ![0, v853.toNat, 0]

def k0_chk4 (i : grid0.Coords) (v853 : BitVec 32) : Prop :=
  (∀ (k0_h1 : k0_cond1 i = 1#1), ∀ a, (k0_off8 v853) a + S8x1x1024.size a ≤ S8x4096x1024.size a)
instance k0_chk4.dec : ∀ (i : grid0.Coords) (v853 : BitVec 32), Decidable (k0_chk4 i v853) := fun i v853 => decidable_of_iff' _ (Iff.of_eq (k0_chk4.eq_1 i v853))
theorem k0_off8_inb : ∀ (i : grid0.Coords) (v853 : BitVec 32) (k0_hw4 : k0_chk4 i v853), ∀ (k0_h1 : k0_cond1 i = 1#1), ∀ a, (k0_off8 v853) a + S8x1x1024.size a ≤ S8x4096x1024.size a := fun i v853 k0_hw4 k0_h1 => k0_hw4 k0_h1

def k0_off9 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_788 : BitVec 32 := 64#32
  let v866 : BitVec 32 := Scalar.muli v1 c64_i32_788
  let c4_i32_789 : BitVec 32 := 4#32
  let v867 : BitVec 32 := Scalar.addi v866 c4_i32_789
  let v868 : Index := Scalar.indexCast v867
  ![v868.toNat]
def k0_off10 (v869 : BitVec 32) : Fin 3 → Nat :=
  let c0_i32_795 : BitVec 32 := 0#32
  let c0_i32_796 : BitVec 32 := 0#32
  ![0, v869.toNat, 0]

def k0_chk5 (i : grid0.Coords) (v869 : BitVec 32) : Prop :=
  (∀ (k0_h1 : k0_cond1 i = 1#1), ∀ a, (k0_off10 v869) a + S8x1x1024.size a ≤ S8x4096x1024.size a)
instance k0_chk5.dec : ∀ (i : grid0.Coords) (v869 : BitVec 32), Decidable (k0_chk5 i v869) := fun i v869 => decidable_of_iff' _ (Iff.of_eq (k0_chk5.eq_1 i v869))
theorem k0_off10_inb : ∀ (i : grid0.Coords) (v869 : BitVec 32) (k0_hw5 : k0_chk5 i v869), ∀ (k0_h1 : k0_cond1 i = 1#1), ∀ a, (k0_off10 v869) a + S8x1x1024.size a ≤ S8x4096x1024.size a := fun i v869 k0_hw5 k0_h1 => k0_hw5 k0_h1

def k0_off11 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_804 : BitVec 32 := 64#32
  let v882 : BitVec 32 := Scalar.muli v1 c64_i32_804
  let c5_i32_805 : BitVec 32 := 5#32
  let v883 : BitVec 32 := Scalar.addi v882 c5_i32_805
  let v884 : Index := Scalar.indexCast v883
  ![v884.toNat]
def k0_off12 (v885 : BitVec 32) : Fin 3 → Nat :=
  let c0_i32_811 : BitVec 32 := 0#32
  let c0_i32_812 : BitVec 32 := 0#32
  ![0, v885.toNat, 0]

def k0_chk6 (i : grid0.Coords) (v885 : BitVec 32) : Prop :=
  (∀ (k0_h1 : k0_cond1 i = 1#1), ∀ a, (k0_off12 v885) a + S8x1x1024.size a ≤ S8x4096x1024.size a)
instance k0_chk6.dec : ∀ (i : grid0.Coords) (v885 : BitVec 32), Decidable (k0_chk6 i v885) := fun i v885 => decidable_of_iff' _ (Iff.of_eq (k0_chk6.eq_1 i v885))
theorem k0_off12_inb : ∀ (i : grid0.Coords) (v885 : BitVec 32) (k0_hw6 : k0_chk6 i v885), ∀ (k0_h1 : k0_cond1 i = 1#1), ∀ a, (k0_off12 v885) a + S8x1x1024.size a ≤ S8x4096x1024.size a := fun i v885 k0_hw6 k0_h1 => k0_hw6 k0_h1

def k0_off13 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_820 : BitVec 32 := 64#32
  let v898 : BitVec 32 := Scalar.muli v1 c64_i32_820
  let c6_i32_821 : BitVec 32 := 6#32
  let v899 : BitVec 32 := Scalar.addi v898 c6_i32_821
  let v900 : Index := Scalar.indexCast v899
  ![v900.toNat]
def k0_off14 (v901 : BitVec 32) : Fin 3 → Nat :=
  let c0_i32_827 : BitVec 32 := 0#32
  let c0_i32_828 : BitVec 32 := 0#32
  ![0, v901.toNat, 0]

def k0_chk7 (i : grid0.Coords) (v901 : BitVec 32) : Prop :=
  (∀ (k0_h1 : k0_cond1 i = 1#1), ∀ a, (k0_off14 v901) a + S8x1x1024.size a ≤ S8x4096x1024.size a)
instance k0_chk7.dec : ∀ (i : grid0.Coords) (v901 : BitVec 32), Decidable (k0_chk7 i v901) := fun i v901 => decidable_of_iff' _ (Iff.of_eq (k0_chk7.eq_1 i v901))
theorem k0_off14_inb : ∀ (i : grid0.Coords) (v901 : BitVec 32) (k0_hw7 : k0_chk7 i v901), ∀ (k0_h1 : k0_cond1 i = 1#1), ∀ a, (k0_off14 v901) a + S8x1x1024.size a ≤ S8x4096x1024.size a := fun i v901 k0_hw7 k0_h1 => k0_hw7 k0_h1

def k0_off15 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_836 : BitVec 32 := 64#32
  let v914 : BitVec 32 := Scalar.muli v1 c64_i32_836
  let c7_i32_837 : BitVec 32 := 7#32
  let v915 : BitVec 32 := Scalar.addi v914 c7_i32_837
  let v916 : Index := Scalar.indexCast v915
  ![v916.toNat]
def k0_off16 (v917 : BitVec 32) : Fin 3 → Nat :=
  let c0_i32_843 : BitVec 32 := 0#32
  let c0_i32_844 : BitVec 32 := 0#32
  ![0, v917.toNat, 0]

def k0_chk8 (i : grid0.Coords) (v917 : BitVec 32) : Prop :=
  (∀ (k0_h1 : k0_cond1 i = 1#1), ∀ a, (k0_off16 v917) a + S8x1x1024.size a ≤ S8x4096x1024.size a)
instance k0_chk8.dec : ∀ (i : grid0.Coords) (v917 : BitVec 32), Decidable (k0_chk8 i v917) := fun i v917 => decidable_of_iff' _ (Iff.of_eq (k0_chk8.eq_1 i v917))
theorem k0_off16_inb : ∀ (i : grid0.Coords) (v917 : BitVec 32) (k0_hw8 : k0_chk8 i v917), ∀ (k0_h1 : k0_cond1 i = 1#1), ∀ a, (k0_off16 v917) a + S8x1x1024.size a ≤ S8x4096x1024.size a := fun i v917 k0_hw8 k0_h1 => k0_hw8 k0_h1

def k0_off17 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_852 : BitVec 32 := 64#32
  let v930 : BitVec 32 := Scalar.muli v1 c64_i32_852
  let c8_i32_853 : BitVec 32 := 8#32
  let v931 : BitVec 32 := Scalar.addi v930 c8_i32_853
  let v932 : Index := Scalar.indexCast v931
  ![v932.toNat]
def k0_off18 (v933 : BitVec 32) : Fin 3 → Nat :=
  let c0_i32_859 : BitVec 32 := 0#32
  let c0_i32_860 : BitVec 32 := 0#32
  ![0, v933.toNat, 0]

def k0_chk9 (i : grid0.Coords) (v933 : BitVec 32) : Prop :=
  (∀ (k0_h1 : k0_cond1 i = 1#1), ∀ a, (k0_off18 v933) a + S8x1x1024.size a ≤ S8x4096x1024.size a)
instance k0_chk9.dec : ∀ (i : grid0.Coords) (v933 : BitVec 32), Decidable (k0_chk9 i v933) := fun i v933 => decidable_of_iff' _ (Iff.of_eq (k0_chk9.eq_1 i v933))
theorem k0_off18_inb : ∀ (i : grid0.Coords) (v933 : BitVec 32) (k0_hw9 : k0_chk9 i v933), ∀ (k0_h1 : k0_cond1 i = 1#1), ∀ a, (k0_off18 v933) a + S8x1x1024.size a ≤ S8x4096x1024.size a := fun i v933 k0_hw9 k0_h1 => k0_hw9 k0_h1

def k0_off19 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_868 : BitVec 32 := 64#32
  let v946 : BitVec 32 := Scalar.muli v1 c64_i32_868
  let c9_i32_869 : BitVec 32 := 9#32
  let v947 : BitVec 32 := Scalar.addi v946 c9_i32_869
  let v948 : Index := Scalar.indexCast v947
  ![v948.toNat]
def k0_off20 (v949 : BitVec 32) : Fin 3 → Nat :=
  let c0_i32_875 : BitVec 32 := 0#32
  let c0_i32_876 : BitVec 32 := 0#32
  ![0, v949.toNat, 0]

def k0_chk10 (i : grid0.Coords) (v949 : BitVec 32) : Prop :=
  (∀ (k0_h1 : k0_cond1 i = 1#1), ∀ a, (k0_off20 v949) a + S8x1x1024.size a ≤ S8x4096x1024.size a)
instance k0_chk10.dec : ∀ (i : grid0.Coords) (v949 : BitVec 32), Decidable (k0_chk10 i v949) := fun i v949 => decidable_of_iff' _ (Iff.of_eq (k0_chk10.eq_1 i v949))
theorem k0_off20_inb : ∀ (i : grid0.Coords) (v949 : BitVec 32) (k0_hw10 : k0_chk10 i v949), ∀ (k0_h1 : k0_cond1 i = 1#1), ∀ a, (k0_off20 v949) a + S8x1x1024.size a ≤ S8x4096x1024.size a := fun i v949 k0_hw10 k0_h1 => k0_hw10 k0_h1

def k0_off21 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_884 : BitVec 32 := 64#32
  let v962 : BitVec 32 := Scalar.muli v1 c64_i32_884
  let c10_i32_885 : BitVec 32 := 10#32
  let v963 : BitVec 32 := Scalar.addi v962 c10_i32_885
  let v964 : Index := Scalar.indexCast v963
  ![v964.toNat]
def k0_off22 (v965 : BitVec 32) : Fin 3 → Nat :=
  let c0_i32_891 : BitVec 32 := 0#32
  let c0_i32_892 : BitVec 32 := 0#32
  ![0, v965.toNat, 0]

def k0_chk11 (i : grid0.Coords) (v965 : BitVec 32) : Prop :=
  (∀ (k0_h1 : k0_cond1 i = 1#1), ∀ a, (k0_off22 v965) a + S8x1x1024.size a ≤ S8x4096x1024.size a)
instance k0_chk11.dec : ∀ (i : grid0.Coords) (v965 : BitVec 32), Decidable (k0_chk11 i v965) := fun i v965 => decidable_of_iff' _ (Iff.of_eq (k0_chk11.eq_1 i v965))
theorem k0_off22_inb : ∀ (i : grid0.Coords) (v965 : BitVec 32) (k0_hw11 : k0_chk11 i v965), ∀ (k0_h1 : k0_cond1 i = 1#1), ∀ a, (k0_off22 v965) a + S8x1x1024.size a ≤ S8x4096x1024.size a := fun i v965 k0_hw11 k0_h1 => k0_hw11 k0_h1

def k0_off23 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_900 : BitVec 32 := 64#32
  let v978 : BitVec 32 := Scalar.muli v1 c64_i32_900
  let c11_i32_901 : BitVec 32 := 11#32
  let v979 : BitVec 32 := Scalar.addi v978 c11_i32_901
  let v980 : Index := Scalar.indexCast v979
  ![v980.toNat]
def k0_off24 (v981 : BitVec 32) : Fin 3 → Nat :=
  let c0_i32_907 : BitVec 32 := 0#32
  let c0_i32_908 : BitVec 32 := 0#32
  ![0, v981.toNat, 0]

def k0_chk12 (i : grid0.Coords) (v981 : BitVec 32) : Prop :=
  (∀ (k0_h1 : k0_cond1 i = 1#1), ∀ a, (k0_off24 v981) a + S8x1x1024.size a ≤ S8x4096x1024.size a)
instance k0_chk12.dec : ∀ (i : grid0.Coords) (v981 : BitVec 32), Decidable (k0_chk12 i v981) := fun i v981 => decidable_of_iff' _ (Iff.of_eq (k0_chk12.eq_1 i v981))
theorem k0_off24_inb : ∀ (i : grid0.Coords) (v981 : BitVec 32) (k0_hw12 : k0_chk12 i v981), ∀ (k0_h1 : k0_cond1 i = 1#1), ∀ a, (k0_off24 v981) a + S8x1x1024.size a ≤ S8x4096x1024.size a := fun i v981 k0_hw12 k0_h1 => k0_hw12 k0_h1

def k0_off25 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_916 : BitVec 32 := 64#32
  let v994 : BitVec 32 := Scalar.muli v1 c64_i32_916
  let c12_i32_917 : BitVec 32 := 12#32
  let v995 : BitVec 32 := Scalar.addi v994 c12_i32_917
  let v996 : Index := Scalar.indexCast v995
  ![v996.toNat]
def k0_off26 (v997 : BitVec 32) : Fin 3 → Nat :=
  let c0_i32_923 : BitVec 32 := 0#32
  let c0_i32_924 : BitVec 32 := 0#32
  ![0, v997.toNat, 0]

def k0_chk13 (i : grid0.Coords) (v997 : BitVec 32) : Prop :=
  (∀ (k0_h1 : k0_cond1 i = 1#1), ∀ a, (k0_off26 v997) a + S8x1x1024.size a ≤ S8x4096x1024.size a)
instance k0_chk13.dec : ∀ (i : grid0.Coords) (v997 : BitVec 32), Decidable (k0_chk13 i v997) := fun i v997 => decidable_of_iff' _ (Iff.of_eq (k0_chk13.eq_1 i v997))
theorem k0_off26_inb : ∀ (i : grid0.Coords) (v997 : BitVec 32) (k0_hw13 : k0_chk13 i v997), ∀ (k0_h1 : k0_cond1 i = 1#1), ∀ a, (k0_off26 v997) a + S8x1x1024.size a ≤ S8x4096x1024.size a := fun i v997 k0_hw13 k0_h1 => k0_hw13 k0_h1

def k0_off27 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_932 : BitVec 32 := 64#32
  let v1010 : BitVec 32 := Scalar.muli v1 c64_i32_932
  let c13_i32_933 : BitVec 32 := 13#32
  let v1011 : BitVec 32 := Scalar.addi v1010 c13_i32_933
  let v1012 : Index := Scalar.indexCast v1011
  ![v1012.toNat]
def k0_off28 (v1013 : BitVec 32) : Fin 3 → Nat :=
  let c0_i32_939 : BitVec 32 := 0#32
  let c0_i32_940 : BitVec 32 := 0#32
  ![0, v1013.toNat, 0]

def k0_chk14 (i : grid0.Coords) (v1013 : BitVec 32) : Prop :=
  (∀ (k0_h1 : k0_cond1 i = 1#1), ∀ a, (k0_off28 v1013) a + S8x1x1024.size a ≤ S8x4096x1024.size a)
instance k0_chk14.dec : ∀ (i : grid0.Coords) (v1013 : BitVec 32), Decidable (k0_chk14 i v1013) := fun i v1013 => decidable_of_iff' _ (Iff.of_eq (k0_chk14.eq_1 i v1013))
theorem k0_off28_inb : ∀ (i : grid0.Coords) (v1013 : BitVec 32) (k0_hw14 : k0_chk14 i v1013), ∀ (k0_h1 : k0_cond1 i = 1#1), ∀ a, (k0_off28 v1013) a + S8x1x1024.size a ≤ S8x4096x1024.size a := fun i v1013 k0_hw14 k0_h1 => k0_hw14 k0_h1

def k0_off29 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_948 : BitVec 32 := 64#32
  let v1026 : BitVec 32 := Scalar.muli v1 c64_i32_948
  let c14_i32_949 : BitVec 32 := 14#32
  let v1027 : BitVec 32 := Scalar.addi v1026 c14_i32_949
  let v1028 : Index := Scalar.indexCast v1027
  ![v1028.toNat]
def k0_off30 (v1029 : BitVec 32) : Fin 3 → Nat :=
  let c0_i32_955 : BitVec 32 := 0#32
  let c0_i32_956 : BitVec 32 := 0#32
  ![0, v1029.toNat, 0]

def k0_chk15 (i : grid0.Coords) (v1029 : BitVec 32) : Prop :=
  (∀ (k0_h1 : k0_cond1 i = 1#1), ∀ a, (k0_off30 v1029) a + S8x1x1024.size a ≤ S8x4096x1024.size a)
instance k0_chk15.dec : ∀ (i : grid0.Coords) (v1029 : BitVec 32), Decidable (k0_chk15 i v1029) := fun i v1029 => decidable_of_iff' _ (Iff.of_eq (k0_chk15.eq_1 i v1029))
theorem k0_off30_inb : ∀ (i : grid0.Coords) (v1029 : BitVec 32) (k0_hw15 : k0_chk15 i v1029), ∀ (k0_h1 : k0_cond1 i = 1#1), ∀ a, (k0_off30 v1029) a + S8x1x1024.size a ≤ S8x4096x1024.size a := fun i v1029 k0_hw15 k0_h1 => k0_hw15 k0_h1

def k0_off31 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_964 : BitVec 32 := 64#32
  let v1042 : BitVec 32 := Scalar.muli v1 c64_i32_964
  let c15_i32_965 : BitVec 32 := 15#32
  let v1043 : BitVec 32 := Scalar.addi v1042 c15_i32_965
  let v1044 : Index := Scalar.indexCast v1043
  ![v1044.toNat]
def k0_off32 (v1045 : BitVec 32) : Fin 3 → Nat :=
  let c0_i32_971 : BitVec 32 := 0#32
  let c0_i32_972 : BitVec 32 := 0#32
  ![0, v1045.toNat, 0]

def k0_chk16 (i : grid0.Coords) (v1045 : BitVec 32) : Prop :=
  (∀ (k0_h1 : k0_cond1 i = 1#1), ∀ a, (k0_off32 v1045) a + S8x1x1024.size a ≤ S8x4096x1024.size a)
instance k0_chk16.dec : ∀ (i : grid0.Coords) (v1045 : BitVec 32), Decidable (k0_chk16 i v1045) := fun i v1045 => decidable_of_iff' _ (Iff.of_eq (k0_chk16.eq_1 i v1045))
theorem k0_off32_inb : ∀ (i : grid0.Coords) (v1045 : BitVec 32) (k0_hw16 : k0_chk16 i v1045), ∀ (k0_h1 : k0_cond1 i = 1#1), ∀ a, (k0_off32 v1045) a + S8x1x1024.size a ≤ S8x4096x1024.size a := fun i v1045 k0_hw16 k0_h1 => k0_hw16 k0_h1

def k0_off33 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_980 : BitVec 32 := 64#32
  let v1058 : BitVec 32 := Scalar.muli v1 c64_i32_980
  let c16_i32_981 : BitVec 32 := 16#32
  let v1059 : BitVec 32 := Scalar.addi v1058 c16_i32_981
  let v1060 : Index := Scalar.indexCast v1059
  ![v1060.toNat]
def k0_off34 (v1061 : BitVec 32) : Fin 3 → Nat :=
  let c0_i32_987 : BitVec 32 := 0#32
  let c0_i32_988 : BitVec 32 := 0#32
  ![0, v1061.toNat, 0]

def k0_chk17 (i : grid0.Coords) (v1061 : BitVec 32) : Prop :=
  (∀ (k0_h1 : k0_cond1 i = 1#1), ∀ a, (k0_off34 v1061) a + S8x1x1024.size a ≤ S8x4096x1024.size a)
instance k0_chk17.dec : ∀ (i : grid0.Coords) (v1061 : BitVec 32), Decidable (k0_chk17 i v1061) := fun i v1061 => decidable_of_iff' _ (Iff.of_eq (k0_chk17.eq_1 i v1061))
theorem k0_off34_inb : ∀ (i : grid0.Coords) (v1061 : BitVec 32) (k0_hw17 : k0_chk17 i v1061), ∀ (k0_h1 : k0_cond1 i = 1#1), ∀ a, (k0_off34 v1061) a + S8x1x1024.size a ≤ S8x4096x1024.size a := fun i v1061 k0_hw17 k0_h1 => k0_hw17 k0_h1

def k0_off35 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_996 : BitVec 32 := 64#32
  let v1074 : BitVec 32 := Scalar.muli v1 c64_i32_996
  let c17_i32_997 : BitVec 32 := 17#32
  let v1075 : BitVec 32 := Scalar.addi v1074 c17_i32_997
  let v1076 : Index := Scalar.indexCast v1075
  ![v1076.toNat]
def k0_off36 (v1077 : BitVec 32) : Fin 3 → Nat :=
  let c0_i32_1003 : BitVec 32 := 0#32
  let c0_i32_1004 : BitVec 32 := 0#32
  ![0, v1077.toNat, 0]

def k0_chk18 (i : grid0.Coords) (v1077 : BitVec 32) : Prop :=
  (∀ (k0_h1 : k0_cond1 i = 1#1), ∀ a, (k0_off36 v1077) a + S8x1x1024.size a ≤ S8x4096x1024.size a)
instance k0_chk18.dec : ∀ (i : grid0.Coords) (v1077 : BitVec 32), Decidable (k0_chk18 i v1077) := fun i v1077 => decidable_of_iff' _ (Iff.of_eq (k0_chk18.eq_1 i v1077))
theorem k0_off36_inb : ∀ (i : grid0.Coords) (v1077 : BitVec 32) (k0_hw18 : k0_chk18 i v1077), ∀ (k0_h1 : k0_cond1 i = 1#1), ∀ a, (k0_off36 v1077) a + S8x1x1024.size a ≤ S8x4096x1024.size a := fun i v1077 k0_hw18 k0_h1 => k0_hw18 k0_h1

def k0_off37 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1012 : BitVec 32 := 64#32
  let v1090 : BitVec 32 := Scalar.muli v1 c64_i32_1012
  let c18_i32_1013 : BitVec 32 := 18#32
  let v1091 : BitVec 32 := Scalar.addi v1090 c18_i32_1013
  let v1092 : Index := Scalar.indexCast v1091
  ![v1092.toNat]
def k0_off38 (v1093 : BitVec 32) : Fin 3 → Nat :=
  let c0_i32_1019 : BitVec 32 := 0#32
  let c0_i32_1020 : BitVec 32 := 0#32
  ![0, v1093.toNat, 0]

def k0_chk19 (i : grid0.Coords) (v1093 : BitVec 32) : Prop :=
  (∀ (k0_h1 : k0_cond1 i = 1#1), ∀ a, (k0_off38 v1093) a + S8x1x1024.size a ≤ S8x4096x1024.size a)
instance k0_chk19.dec : ∀ (i : grid0.Coords) (v1093 : BitVec 32), Decidable (k0_chk19 i v1093) := fun i v1093 => decidable_of_iff' _ (Iff.of_eq (k0_chk19.eq_1 i v1093))
theorem k0_off38_inb : ∀ (i : grid0.Coords) (v1093 : BitVec 32) (k0_hw19 : k0_chk19 i v1093), ∀ (k0_h1 : k0_cond1 i = 1#1), ∀ a, (k0_off38 v1093) a + S8x1x1024.size a ≤ S8x4096x1024.size a := fun i v1093 k0_hw19 k0_h1 => k0_hw19 k0_h1

def k0_off39 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1028 : BitVec 32 := 64#32
  let v1106 : BitVec 32 := Scalar.muli v1 c64_i32_1028
  let c19_i32_1029 : BitVec 32 := 19#32
  let v1107 : BitVec 32 := Scalar.addi v1106 c19_i32_1029
  let v1108 : Index := Scalar.indexCast v1107
  ![v1108.toNat]
def k0_off40 (v1109 : BitVec 32) : Fin 3 → Nat :=
  let c0_i32_1035 : BitVec 32 := 0#32
  let c0_i32_1036 : BitVec 32 := 0#32
  ![0, v1109.toNat, 0]

def k0_chk20 (i : grid0.Coords) (v1109 : BitVec 32) : Prop :=
  (∀ (k0_h1 : k0_cond1 i = 1#1), ∀ a, (k0_off40 v1109) a + S8x1x1024.size a ≤ S8x4096x1024.size a)
instance k0_chk20.dec : ∀ (i : grid0.Coords) (v1109 : BitVec 32), Decidable (k0_chk20 i v1109) := fun i v1109 => decidable_of_iff' _ (Iff.of_eq (k0_chk20.eq_1 i v1109))
theorem k0_off40_inb : ∀ (i : grid0.Coords) (v1109 : BitVec 32) (k0_hw20 : k0_chk20 i v1109), ∀ (k0_h1 : k0_cond1 i = 1#1), ∀ a, (k0_off40 v1109) a + S8x1x1024.size a ≤ S8x4096x1024.size a := fun i v1109 k0_hw20 k0_h1 => k0_hw20 k0_h1

def k0_off41 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1044 : BitVec 32 := 64#32
  let v1122 : BitVec 32 := Scalar.muli v1 c64_i32_1044
  let c20_i32_1045 : BitVec 32 := 20#32
  let v1123 : BitVec 32 := Scalar.addi v1122 c20_i32_1045
  let v1124 : Index := Scalar.indexCast v1123
  ![v1124.toNat]
def k0_off42 (v1125 : BitVec 32) : Fin 3 → Nat :=
  let c0_i32_1051 : BitVec 32 := 0#32
  let c0_i32_1052 : BitVec 32 := 0#32
  ![0, v1125.toNat, 0]

def k0_chk21 (i : grid0.Coords) (v1125 : BitVec 32) : Prop :=
  (∀ (k0_h1 : k0_cond1 i = 1#1), ∀ a, (k0_off42 v1125) a + S8x1x1024.size a ≤ S8x4096x1024.size a)
instance k0_chk21.dec : ∀ (i : grid0.Coords) (v1125 : BitVec 32), Decidable (k0_chk21 i v1125) := fun i v1125 => decidable_of_iff' _ (Iff.of_eq (k0_chk21.eq_1 i v1125))
theorem k0_off42_inb : ∀ (i : grid0.Coords) (v1125 : BitVec 32) (k0_hw21 : k0_chk21 i v1125), ∀ (k0_h1 : k0_cond1 i = 1#1), ∀ a, (k0_off42 v1125) a + S8x1x1024.size a ≤ S8x4096x1024.size a := fun i v1125 k0_hw21 k0_h1 => k0_hw21 k0_h1

def k0_off43 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1060 : BitVec 32 := 64#32
  let v1138 : BitVec 32 := Scalar.muli v1 c64_i32_1060
  let c21_i32_1061 : BitVec 32 := 21#32
  let v1139 : BitVec 32 := Scalar.addi v1138 c21_i32_1061
  let v1140 : Index := Scalar.indexCast v1139
  ![v1140.toNat]
def k0_off44 (v1141 : BitVec 32) : Fin 3 → Nat :=
  let c0_i32_1067 : BitVec 32 := 0#32
  let c0_i32_1068 : BitVec 32 := 0#32
  ![0, v1141.toNat, 0]

def k0_chk22 (i : grid0.Coords) (v1141 : BitVec 32) : Prop :=
  (∀ (k0_h1 : k0_cond1 i = 1#1), ∀ a, (k0_off44 v1141) a + S8x1x1024.size a ≤ S8x4096x1024.size a)
instance k0_chk22.dec : ∀ (i : grid0.Coords) (v1141 : BitVec 32), Decidable (k0_chk22 i v1141) := fun i v1141 => decidable_of_iff' _ (Iff.of_eq (k0_chk22.eq_1 i v1141))
theorem k0_off44_inb : ∀ (i : grid0.Coords) (v1141 : BitVec 32) (k0_hw22 : k0_chk22 i v1141), ∀ (k0_h1 : k0_cond1 i = 1#1), ∀ a, (k0_off44 v1141) a + S8x1x1024.size a ≤ S8x4096x1024.size a := fun i v1141 k0_hw22 k0_h1 => k0_hw22 k0_h1

def k0_off45 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1076 : BitVec 32 := 64#32
  let v1154 : BitVec 32 := Scalar.muli v1 c64_i32_1076
  let c22_i32_1077 : BitVec 32 := 22#32
  let v1155 : BitVec 32 := Scalar.addi v1154 c22_i32_1077
  let v1156 : Index := Scalar.indexCast v1155
  ![v1156.toNat]
def k0_off46 (v1157 : BitVec 32) : Fin 3 → Nat :=
  let c0_i32_1083 : BitVec 32 := 0#32
  let c0_i32_1084 : BitVec 32 := 0#32
  ![0, v1157.toNat, 0]

def k0_chk23 (i : grid0.Coords) (v1157 : BitVec 32) : Prop :=
  (∀ (k0_h1 : k0_cond1 i = 1#1), ∀ a, (k0_off46 v1157) a + S8x1x1024.size a ≤ S8x4096x1024.size a)
instance k0_chk23.dec : ∀ (i : grid0.Coords) (v1157 : BitVec 32), Decidable (k0_chk23 i v1157) := fun i v1157 => decidable_of_iff' _ (Iff.of_eq (k0_chk23.eq_1 i v1157))
theorem k0_off46_inb : ∀ (i : grid0.Coords) (v1157 : BitVec 32) (k0_hw23 : k0_chk23 i v1157), ∀ (k0_h1 : k0_cond1 i = 1#1), ∀ a, (k0_off46 v1157) a + S8x1x1024.size a ≤ S8x4096x1024.size a := fun i v1157 k0_hw23 k0_h1 => k0_hw23 k0_h1

def k0_off47 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1092 : BitVec 32 := 64#32
  let v1170 : BitVec 32 := Scalar.muli v1 c64_i32_1092
  let c23_i32_1093 : BitVec 32 := 23#32
  let v1171 : BitVec 32 := Scalar.addi v1170 c23_i32_1093
  let v1172 : Index := Scalar.indexCast v1171
  ![v1172.toNat]
def k0_off48 (v1173 : BitVec 32) : Fin 3 → Nat :=
  let c0_i32_1099 : BitVec 32 := 0#32
  let c0_i32_1100 : BitVec 32 := 0#32
  ![0, v1173.toNat, 0]

def k0_chk24 (i : grid0.Coords) (v1173 : BitVec 32) : Prop :=
  (∀ (k0_h1 : k0_cond1 i = 1#1), ∀ a, (k0_off48 v1173) a + S8x1x1024.size a ≤ S8x4096x1024.size a)
instance k0_chk24.dec : ∀ (i : grid0.Coords) (v1173 : BitVec 32), Decidable (k0_chk24 i v1173) := fun i v1173 => decidable_of_iff' _ (Iff.of_eq (k0_chk24.eq_1 i v1173))
theorem k0_off48_inb : ∀ (i : grid0.Coords) (v1173 : BitVec 32) (k0_hw24 : k0_chk24 i v1173), ∀ (k0_h1 : k0_cond1 i = 1#1), ∀ a, (k0_off48 v1173) a + S8x1x1024.size a ≤ S8x4096x1024.size a := fun i v1173 k0_hw24 k0_h1 => k0_hw24 k0_h1

def k0_off49 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1108 : BitVec 32 := 64#32
  let v1186 : BitVec 32 := Scalar.muli v1 c64_i32_1108
  let c24_i32_1109 : BitVec 32 := 24#32
  let v1187 : BitVec 32 := Scalar.addi v1186 c24_i32_1109
  let v1188 : Index := Scalar.indexCast v1187
  ![v1188.toNat]
def k0_off50 (v1189 : BitVec 32) : Fin 3 → Nat :=
  let c0_i32_1115 : BitVec 32 := 0#32
  let c0_i32_1116 : BitVec 32 := 0#32
  ![0, v1189.toNat, 0]

def k0_chk25 (i : grid0.Coords) (v1189 : BitVec 32) : Prop :=
  (∀ (k0_h1 : k0_cond1 i = 1#1), ∀ a, (k0_off50 v1189) a + S8x1x1024.size a ≤ S8x4096x1024.size a)
instance k0_chk25.dec : ∀ (i : grid0.Coords) (v1189 : BitVec 32), Decidable (k0_chk25 i v1189) := fun i v1189 => decidable_of_iff' _ (Iff.of_eq (k0_chk25.eq_1 i v1189))
theorem k0_off50_inb : ∀ (i : grid0.Coords) (v1189 : BitVec 32) (k0_hw25 : k0_chk25 i v1189), ∀ (k0_h1 : k0_cond1 i = 1#1), ∀ a, (k0_off50 v1189) a + S8x1x1024.size a ≤ S8x4096x1024.size a := fun i v1189 k0_hw25 k0_h1 => k0_hw25 k0_h1

def k0_off51 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1124 : BitVec 32 := 64#32
  let v1202 : BitVec 32 := Scalar.muli v1 c64_i32_1124
  let c25_i32_1125 : BitVec 32 := 25#32
  let v1203 : BitVec 32 := Scalar.addi v1202 c25_i32_1125
  let v1204 : Index := Scalar.indexCast v1203
  ![v1204.toNat]
def k0_off52 (v1205 : BitVec 32) : Fin 3 → Nat :=
  let c0_i32_1131 : BitVec 32 := 0#32
  let c0_i32_1132 : BitVec 32 := 0#32
  ![0, v1205.toNat, 0]

def k0_chk26 (i : grid0.Coords) (v1205 : BitVec 32) : Prop :=
  (∀ (k0_h1 : k0_cond1 i = 1#1), ∀ a, (k0_off52 v1205) a + S8x1x1024.size a ≤ S8x4096x1024.size a)
instance k0_chk26.dec : ∀ (i : grid0.Coords) (v1205 : BitVec 32), Decidable (k0_chk26 i v1205) := fun i v1205 => decidable_of_iff' _ (Iff.of_eq (k0_chk26.eq_1 i v1205))
theorem k0_off52_inb : ∀ (i : grid0.Coords) (v1205 : BitVec 32) (k0_hw26 : k0_chk26 i v1205), ∀ (k0_h1 : k0_cond1 i = 1#1), ∀ a, (k0_off52 v1205) a + S8x1x1024.size a ≤ S8x4096x1024.size a := fun i v1205 k0_hw26 k0_h1 => k0_hw26 k0_h1

def k0_off53 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1140 : BitVec 32 := 64#32
  let v1218 : BitVec 32 := Scalar.muli v1 c64_i32_1140
  let c26_i32_1141 : BitVec 32 := 26#32
  let v1219 : BitVec 32 := Scalar.addi v1218 c26_i32_1141
  let v1220 : Index := Scalar.indexCast v1219
  ![v1220.toNat]
def k0_off54 (v1221 : BitVec 32) : Fin 3 → Nat :=
  let c0_i32_1147 : BitVec 32 := 0#32
  let c0_i32_1148 : BitVec 32 := 0#32
  ![0, v1221.toNat, 0]

def k0_chk27 (i : grid0.Coords) (v1221 : BitVec 32) : Prop :=
  (∀ (k0_h1 : k0_cond1 i = 1#1), ∀ a, (k0_off54 v1221) a + S8x1x1024.size a ≤ S8x4096x1024.size a)
instance k0_chk27.dec : ∀ (i : grid0.Coords) (v1221 : BitVec 32), Decidable (k0_chk27 i v1221) := fun i v1221 => decidable_of_iff' _ (Iff.of_eq (k0_chk27.eq_1 i v1221))
theorem k0_off54_inb : ∀ (i : grid0.Coords) (v1221 : BitVec 32) (k0_hw27 : k0_chk27 i v1221), ∀ (k0_h1 : k0_cond1 i = 1#1), ∀ a, (k0_off54 v1221) a + S8x1x1024.size a ≤ S8x4096x1024.size a := fun i v1221 k0_hw27 k0_h1 => k0_hw27 k0_h1

def k0_off55 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1156 : BitVec 32 := 64#32
  let v1234 : BitVec 32 := Scalar.muli v1 c64_i32_1156
  let c27_i32_1157 : BitVec 32 := 27#32
  let v1235 : BitVec 32 := Scalar.addi v1234 c27_i32_1157
  let v1236 : Index := Scalar.indexCast v1235
  ![v1236.toNat]
def k0_off56 (v1237 : BitVec 32) : Fin 3 → Nat :=
  let c0_i32_1163 : BitVec 32 := 0#32
  let c0_i32_1164 : BitVec 32 := 0#32
  ![0, v1237.toNat, 0]

def k0_chk28 (i : grid0.Coords) (v1237 : BitVec 32) : Prop :=
  (∀ (k0_h1 : k0_cond1 i = 1#1), ∀ a, (k0_off56 v1237) a + S8x1x1024.size a ≤ S8x4096x1024.size a)
instance k0_chk28.dec : ∀ (i : grid0.Coords) (v1237 : BitVec 32), Decidable (k0_chk28 i v1237) := fun i v1237 => decidable_of_iff' _ (Iff.of_eq (k0_chk28.eq_1 i v1237))
theorem k0_off56_inb : ∀ (i : grid0.Coords) (v1237 : BitVec 32) (k0_hw28 : k0_chk28 i v1237), ∀ (k0_h1 : k0_cond1 i = 1#1), ∀ a, (k0_off56 v1237) a + S8x1x1024.size a ≤ S8x4096x1024.size a := fun i v1237 k0_hw28 k0_h1 => k0_hw28 k0_h1

def k0_off57 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1172 : BitVec 32 := 64#32
  let v1250 : BitVec 32 := Scalar.muli v1 c64_i32_1172
  let c28_i32_1173 : BitVec 32 := 28#32
  let v1251 : BitVec 32 := Scalar.addi v1250 c28_i32_1173
  let v1252 : Index := Scalar.indexCast v1251
  ![v1252.toNat]
def k0_off58 (v1253 : BitVec 32) : Fin 3 → Nat :=
  let c0_i32_1179 : BitVec 32 := 0#32
  let c0_i32_1180 : BitVec 32 := 0#32
  ![0, v1253.toNat, 0]

def k0_chk29 (i : grid0.Coords) (v1253 : BitVec 32) : Prop :=
  (∀ (k0_h1 : k0_cond1 i = 1#1), ∀ a, (k0_off58 v1253) a + S8x1x1024.size a ≤ S8x4096x1024.size a)
instance k0_chk29.dec : ∀ (i : grid0.Coords) (v1253 : BitVec 32), Decidable (k0_chk29 i v1253) := fun i v1253 => decidable_of_iff' _ (Iff.of_eq (k0_chk29.eq_1 i v1253))
theorem k0_off58_inb : ∀ (i : grid0.Coords) (v1253 : BitVec 32) (k0_hw29 : k0_chk29 i v1253), ∀ (k0_h1 : k0_cond1 i = 1#1), ∀ a, (k0_off58 v1253) a + S8x1x1024.size a ≤ S8x4096x1024.size a := fun i v1253 k0_hw29 k0_h1 => k0_hw29 k0_h1

def k0_off59 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1188 : BitVec 32 := 64#32
  let v1266 : BitVec 32 := Scalar.muli v1 c64_i32_1188
  let c29_i32_1189 : BitVec 32 := 29#32
  let v1267 : BitVec 32 := Scalar.addi v1266 c29_i32_1189
  let v1268 : Index := Scalar.indexCast v1267
  ![v1268.toNat]
def k0_off60 (v1269 : BitVec 32) : Fin 3 → Nat :=
  let c0_i32_1195 : BitVec 32 := 0#32
  let c0_i32_1196 : BitVec 32 := 0#32
  ![0, v1269.toNat, 0]

def k0_chk30 (i : grid0.Coords) (v1269 : BitVec 32) : Prop :=
  (∀ (k0_h1 : k0_cond1 i = 1#1), ∀ a, (k0_off60 v1269) a + S8x1x1024.size a ≤ S8x4096x1024.size a)
instance k0_chk30.dec : ∀ (i : grid0.Coords) (v1269 : BitVec 32), Decidable (k0_chk30 i v1269) := fun i v1269 => decidable_of_iff' _ (Iff.of_eq (k0_chk30.eq_1 i v1269))
theorem k0_off60_inb : ∀ (i : grid0.Coords) (v1269 : BitVec 32) (k0_hw30 : k0_chk30 i v1269), ∀ (k0_h1 : k0_cond1 i = 1#1), ∀ a, (k0_off60 v1269) a + S8x1x1024.size a ≤ S8x4096x1024.size a := fun i v1269 k0_hw30 k0_h1 => k0_hw30 k0_h1

def k0_off61 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1204 : BitVec 32 := 64#32
  let v1282 : BitVec 32 := Scalar.muli v1 c64_i32_1204
  let c30_i32_1205 : BitVec 32 := 30#32
  let v1283 : BitVec 32 := Scalar.addi v1282 c30_i32_1205
  let v1284 : Index := Scalar.indexCast v1283
  ![v1284.toNat]
def k0_off62 (v1285 : BitVec 32) : Fin 3 → Nat :=
  let c0_i32_1211 : BitVec 32 := 0#32
  let c0_i32_1212 : BitVec 32 := 0#32
  ![0, v1285.toNat, 0]

def k0_chk31 (i : grid0.Coords) (v1285 : BitVec 32) : Prop :=
  (∀ (k0_h1 : k0_cond1 i = 1#1), ∀ a, (k0_off62 v1285) a + S8x1x1024.size a ≤ S8x4096x1024.size a)
instance k0_chk31.dec : ∀ (i : grid0.Coords) (v1285 : BitVec 32), Decidable (k0_chk31 i v1285) := fun i v1285 => decidable_of_iff' _ (Iff.of_eq (k0_chk31.eq_1 i v1285))
theorem k0_off62_inb : ∀ (i : grid0.Coords) (v1285 : BitVec 32) (k0_hw31 : k0_chk31 i v1285), ∀ (k0_h1 : k0_cond1 i = 1#1), ∀ a, (k0_off62 v1285) a + S8x1x1024.size a ≤ S8x4096x1024.size a := fun i v1285 k0_hw31 k0_h1 => k0_hw31 k0_h1

def k0_off63 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1220 : BitVec 32 := 64#32
  let v1298 : BitVec 32 := Scalar.muli v1 c64_i32_1220
  let c31_i32_1221 : BitVec 32 := 31#32
  let v1299 : BitVec 32 := Scalar.addi v1298 c31_i32_1221
  let v1300 : Index := Scalar.indexCast v1299
  ![v1300.toNat]
def k0_off64 (v1301 : BitVec 32) : Fin 3 → Nat :=
  let c0_i32_1227 : BitVec 32 := 0#32
  let c0_i32_1228 : BitVec 32 := 0#32
  ![0, v1301.toNat, 0]

def k0_chk32 (i : grid0.Coords) (v1301 : BitVec 32) : Prop :=
  (∀ (k0_h1 : k0_cond1 i = 1#1), ∀ a, (k0_off64 v1301) a + S8x1x1024.size a ≤ S8x4096x1024.size a)
instance k0_chk32.dec : ∀ (i : grid0.Coords) (v1301 : BitVec 32), Decidable (k0_chk32 i v1301) := fun i v1301 => decidable_of_iff' _ (Iff.of_eq (k0_chk32.eq_1 i v1301))
theorem k0_off64_inb : ∀ (i : grid0.Coords) (v1301 : BitVec 32) (k0_hw32 : k0_chk32 i v1301), ∀ (k0_h1 : k0_cond1 i = 1#1), ∀ a, (k0_off64 v1301) a + S8x1x1024.size a ≤ S8x4096x1024.size a := fun i v1301 k0_hw32 k0_h1 => k0_hw32 k0_h1

def k0_off65 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1236 : BitVec 32 := 64#32
  let v1314 : BitVec 32 := Scalar.muli v1 c64_i32_1236
  let c32_i32_1237 : BitVec 32 := 32#32
  let v1315 : BitVec 32 := Scalar.addi v1314 c32_i32_1237
  let v1316 : Index := Scalar.indexCast v1315
  ![v1316.toNat]
def k0_off66 (v1317 : BitVec 32) : Fin 3 → Nat :=
  let c0_i32_1243 : BitVec 32 := 0#32
  let c0_i32_1244 : BitVec 32 := 0#32
  ![0, v1317.toNat, 0]

def k0_chk33 (i : grid0.Coords) (v1317 : BitVec 32) : Prop :=
  (∀ (k0_h1 : k0_cond1 i = 1#1), ∀ a, (k0_off66 v1317) a + S8x1x1024.size a ≤ S8x4096x1024.size a)
instance k0_chk33.dec : ∀ (i : grid0.Coords) (v1317 : BitVec 32), Decidable (k0_chk33 i v1317) := fun i v1317 => decidable_of_iff' _ (Iff.of_eq (k0_chk33.eq_1 i v1317))
theorem k0_off66_inb : ∀ (i : grid0.Coords) (v1317 : BitVec 32) (k0_hw33 : k0_chk33 i v1317), ∀ (k0_h1 : k0_cond1 i = 1#1), ∀ a, (k0_off66 v1317) a + S8x1x1024.size a ≤ S8x4096x1024.size a := fun i v1317 k0_hw33 k0_h1 => k0_hw33 k0_h1

def k0_off67 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1252 : BitVec 32 := 64#32
  let v1330 : BitVec 32 := Scalar.muli v1 c64_i32_1252
  let c33_i32_1253 : BitVec 32 := 33#32
  let v1331 : BitVec 32 := Scalar.addi v1330 c33_i32_1253
  let v1332 : Index := Scalar.indexCast v1331
  ![v1332.toNat]
def k0_off68 (v1333 : BitVec 32) : Fin 3 → Nat :=
  let c0_i32_1259 : BitVec 32 := 0#32
  let c0_i32_1260 : BitVec 32 := 0#32
  ![0, v1333.toNat, 0]

def k0_chk34 (i : grid0.Coords) (v1333 : BitVec 32) : Prop :=
  (∀ (k0_h1 : k0_cond1 i = 1#1), ∀ a, (k0_off68 v1333) a + S8x1x1024.size a ≤ S8x4096x1024.size a)
instance k0_chk34.dec : ∀ (i : grid0.Coords) (v1333 : BitVec 32), Decidable (k0_chk34 i v1333) := fun i v1333 => decidable_of_iff' _ (Iff.of_eq (k0_chk34.eq_1 i v1333))
theorem k0_off68_inb : ∀ (i : grid0.Coords) (v1333 : BitVec 32) (k0_hw34 : k0_chk34 i v1333), ∀ (k0_h1 : k0_cond1 i = 1#1), ∀ a, (k0_off68 v1333) a + S8x1x1024.size a ≤ S8x4096x1024.size a := fun i v1333 k0_hw34 k0_h1 => k0_hw34 k0_h1

def k0_off69 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1268 : BitVec 32 := 64#32
  let v1346 : BitVec 32 := Scalar.muli v1 c64_i32_1268
  let c34_i32_1269 : BitVec 32 := 34#32
  let v1347 : BitVec 32 := Scalar.addi v1346 c34_i32_1269
  let v1348 : Index := Scalar.indexCast v1347
  ![v1348.toNat]
def k0_off70 (v1349 : BitVec 32) : Fin 3 → Nat :=
  let c0_i32_1275 : BitVec 32 := 0#32
  let c0_i32_1276 : BitVec 32 := 0#32
  ![0, v1349.toNat, 0]

def k0_chk35 (i : grid0.Coords) (v1349 : BitVec 32) : Prop :=
  (∀ (k0_h1 : k0_cond1 i = 1#1), ∀ a, (k0_off70 v1349) a + S8x1x1024.size a ≤ S8x4096x1024.size a)
instance k0_chk35.dec : ∀ (i : grid0.Coords) (v1349 : BitVec 32), Decidable (k0_chk35 i v1349) := fun i v1349 => decidable_of_iff' _ (Iff.of_eq (k0_chk35.eq_1 i v1349))
theorem k0_off70_inb : ∀ (i : grid0.Coords) (v1349 : BitVec 32) (k0_hw35 : k0_chk35 i v1349), ∀ (k0_h1 : k0_cond1 i = 1#1), ∀ a, (k0_off70 v1349) a + S8x1x1024.size a ≤ S8x4096x1024.size a := fun i v1349 k0_hw35 k0_h1 => k0_hw35 k0_h1

def k0_off71 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1284 : BitVec 32 := 64#32
  let v1362 : BitVec 32 := Scalar.muli v1 c64_i32_1284
  let c35_i32_1285 : BitVec 32 := 35#32
  let v1363 : BitVec 32 := Scalar.addi v1362 c35_i32_1285
  let v1364 : Index := Scalar.indexCast v1363
  ![v1364.toNat]
def k0_off72 (v1365 : BitVec 32) : Fin 3 → Nat :=
  let c0_i32_1291 : BitVec 32 := 0#32
  let c0_i32_1292 : BitVec 32 := 0#32
  ![0, v1365.toNat, 0]

def k0_chk36 (i : grid0.Coords) (v1365 : BitVec 32) : Prop :=
  (∀ (k0_h1 : k0_cond1 i = 1#1), ∀ a, (k0_off72 v1365) a + S8x1x1024.size a ≤ S8x4096x1024.size a)
instance k0_chk36.dec : ∀ (i : grid0.Coords) (v1365 : BitVec 32), Decidable (k0_chk36 i v1365) := fun i v1365 => decidable_of_iff' _ (Iff.of_eq (k0_chk36.eq_1 i v1365))
theorem k0_off72_inb : ∀ (i : grid0.Coords) (v1365 : BitVec 32) (k0_hw36 : k0_chk36 i v1365), ∀ (k0_h1 : k0_cond1 i = 1#1), ∀ a, (k0_off72 v1365) a + S8x1x1024.size a ≤ S8x4096x1024.size a := fun i v1365 k0_hw36 k0_h1 => k0_hw36 k0_h1

def k0_off73 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1300 : BitVec 32 := 64#32
  let v1378 : BitVec 32 := Scalar.muli v1 c64_i32_1300
  let c36_i32_1301 : BitVec 32 := 36#32
  let v1379 : BitVec 32 := Scalar.addi v1378 c36_i32_1301
  let v1380 : Index := Scalar.indexCast v1379
  ![v1380.toNat]
def k0_off74 (v1381 : BitVec 32) : Fin 3 → Nat :=
  let c0_i32_1307 : BitVec 32 := 0#32
  let c0_i32_1308 : BitVec 32 := 0#32
  ![0, v1381.toNat, 0]

def k0_chk37 (i : grid0.Coords) (v1381 : BitVec 32) : Prop :=
  (∀ (k0_h1 : k0_cond1 i = 1#1), ∀ a, (k0_off74 v1381) a + S8x1x1024.size a ≤ S8x4096x1024.size a)
instance k0_chk37.dec : ∀ (i : grid0.Coords) (v1381 : BitVec 32), Decidable (k0_chk37 i v1381) := fun i v1381 => decidable_of_iff' _ (Iff.of_eq (k0_chk37.eq_1 i v1381))
theorem k0_off74_inb : ∀ (i : grid0.Coords) (v1381 : BitVec 32) (k0_hw37 : k0_chk37 i v1381), ∀ (k0_h1 : k0_cond1 i = 1#1), ∀ a, (k0_off74 v1381) a + S8x1x1024.size a ≤ S8x4096x1024.size a := fun i v1381 k0_hw37 k0_h1 => k0_hw37 k0_h1

def k0_off75 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1316 : BitVec 32 := 64#32
  let v1394 : BitVec 32 := Scalar.muli v1 c64_i32_1316
  let c37_i32_1317 : BitVec 32 := 37#32
  let v1395 : BitVec 32 := Scalar.addi v1394 c37_i32_1317
  let v1396 : Index := Scalar.indexCast v1395
  ![v1396.toNat]
def k0_off76 (v1397 : BitVec 32) : Fin 3 → Nat :=
  let c0_i32_1323 : BitVec 32 := 0#32
  let c0_i32_1324 : BitVec 32 := 0#32
  ![0, v1397.toNat, 0]

def k0_chk38 (i : grid0.Coords) (v1397 : BitVec 32) : Prop :=
  (∀ (k0_h1 : k0_cond1 i = 1#1), ∀ a, (k0_off76 v1397) a + S8x1x1024.size a ≤ S8x4096x1024.size a)
instance k0_chk38.dec : ∀ (i : grid0.Coords) (v1397 : BitVec 32), Decidable (k0_chk38 i v1397) := fun i v1397 => decidable_of_iff' _ (Iff.of_eq (k0_chk38.eq_1 i v1397))
theorem k0_off76_inb : ∀ (i : grid0.Coords) (v1397 : BitVec 32) (k0_hw38 : k0_chk38 i v1397), ∀ (k0_h1 : k0_cond1 i = 1#1), ∀ a, (k0_off76 v1397) a + S8x1x1024.size a ≤ S8x4096x1024.size a := fun i v1397 k0_hw38 k0_h1 => k0_hw38 k0_h1

def k0_off77 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1332 : BitVec 32 := 64#32
  let v1410 : BitVec 32 := Scalar.muli v1 c64_i32_1332
  let c38_i32_1333 : BitVec 32 := 38#32
  let v1411 : BitVec 32 := Scalar.addi v1410 c38_i32_1333
  let v1412 : Index := Scalar.indexCast v1411
  ![v1412.toNat]
def k0_off78 (v1413 : BitVec 32) : Fin 3 → Nat :=
  let c0_i32_1339 : BitVec 32 := 0#32
  let c0_i32_1340 : BitVec 32 := 0#32
  ![0, v1413.toNat, 0]

def k0_chk39 (i : grid0.Coords) (v1413 : BitVec 32) : Prop :=
  (∀ (k0_h1 : k0_cond1 i = 1#1), ∀ a, (k0_off78 v1413) a + S8x1x1024.size a ≤ S8x4096x1024.size a)
instance k0_chk39.dec : ∀ (i : grid0.Coords) (v1413 : BitVec 32), Decidable (k0_chk39 i v1413) := fun i v1413 => decidable_of_iff' _ (Iff.of_eq (k0_chk39.eq_1 i v1413))
theorem k0_off78_inb : ∀ (i : grid0.Coords) (v1413 : BitVec 32) (k0_hw39 : k0_chk39 i v1413), ∀ (k0_h1 : k0_cond1 i = 1#1), ∀ a, (k0_off78 v1413) a + S8x1x1024.size a ≤ S8x4096x1024.size a := fun i v1413 k0_hw39 k0_h1 => k0_hw39 k0_h1

def k0_off79 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1348 : BitVec 32 := 64#32
  let v1426 : BitVec 32 := Scalar.muli v1 c64_i32_1348
  let c39_i32_1349 : BitVec 32 := 39#32
  let v1427 : BitVec 32 := Scalar.addi v1426 c39_i32_1349
  let v1428 : Index := Scalar.indexCast v1427
  ![v1428.toNat]
def k0_off80 (v1429 : BitVec 32) : Fin 3 → Nat :=
  let c0_i32_1355 : BitVec 32 := 0#32
  let c0_i32_1356 : BitVec 32 := 0#32
  ![0, v1429.toNat, 0]

def k0_chk40 (i : grid0.Coords) (v1429 : BitVec 32) : Prop :=
  (∀ (k0_h1 : k0_cond1 i = 1#1), ∀ a, (k0_off80 v1429) a + S8x1x1024.size a ≤ S8x4096x1024.size a)
instance k0_chk40.dec : ∀ (i : grid0.Coords) (v1429 : BitVec 32), Decidable (k0_chk40 i v1429) := fun i v1429 => decidable_of_iff' _ (Iff.of_eq (k0_chk40.eq_1 i v1429))
theorem k0_off80_inb : ∀ (i : grid0.Coords) (v1429 : BitVec 32) (k0_hw40 : k0_chk40 i v1429), ∀ (k0_h1 : k0_cond1 i = 1#1), ∀ a, (k0_off80 v1429) a + S8x1x1024.size a ≤ S8x4096x1024.size a := fun i v1429 k0_hw40 k0_h1 => k0_hw40 k0_h1

def k0_off81 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1364 : BitVec 32 := 64#32
  let v1442 : BitVec 32 := Scalar.muli v1 c64_i32_1364
  let c40_i32_1365 : BitVec 32 := 40#32
  let v1443 : BitVec 32 := Scalar.addi v1442 c40_i32_1365
  let v1444 : Index := Scalar.indexCast v1443
  ![v1444.toNat]
def k0_off82 (v1445 : BitVec 32) : Fin 3 → Nat :=
  let c0_i32_1371 : BitVec 32 := 0#32
  let c0_i32_1372 : BitVec 32 := 0#32
  ![0, v1445.toNat, 0]

def k0_chk41 (i : grid0.Coords) (v1445 : BitVec 32) : Prop :=
  (∀ (k0_h1 : k0_cond1 i = 1#1), ∀ a, (k0_off82 v1445) a + S8x1x1024.size a ≤ S8x4096x1024.size a)
instance k0_chk41.dec : ∀ (i : grid0.Coords) (v1445 : BitVec 32), Decidable (k0_chk41 i v1445) := fun i v1445 => decidable_of_iff' _ (Iff.of_eq (k0_chk41.eq_1 i v1445))
theorem k0_off82_inb : ∀ (i : grid0.Coords) (v1445 : BitVec 32) (k0_hw41 : k0_chk41 i v1445), ∀ (k0_h1 : k0_cond1 i = 1#1), ∀ a, (k0_off82 v1445) a + S8x1x1024.size a ≤ S8x4096x1024.size a := fun i v1445 k0_hw41 k0_h1 => k0_hw41 k0_h1

def k0_off83 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1380 : BitVec 32 := 64#32
  let v1458 : BitVec 32 := Scalar.muli v1 c64_i32_1380
  let c41_i32_1381 : BitVec 32 := 41#32
  let v1459 : BitVec 32 := Scalar.addi v1458 c41_i32_1381
  let v1460 : Index := Scalar.indexCast v1459
  ![v1460.toNat]
def k0_off84 (v1461 : BitVec 32) : Fin 3 → Nat :=
  let c0_i32_1387 : BitVec 32 := 0#32
  let c0_i32_1388 : BitVec 32 := 0#32
  ![0, v1461.toNat, 0]

def k0_chk42 (i : grid0.Coords) (v1461 : BitVec 32) : Prop :=
  (∀ (k0_h1 : k0_cond1 i = 1#1), ∀ a, (k0_off84 v1461) a + S8x1x1024.size a ≤ S8x4096x1024.size a)
instance k0_chk42.dec : ∀ (i : grid0.Coords) (v1461 : BitVec 32), Decidable (k0_chk42 i v1461) := fun i v1461 => decidable_of_iff' _ (Iff.of_eq (k0_chk42.eq_1 i v1461))
theorem k0_off84_inb : ∀ (i : grid0.Coords) (v1461 : BitVec 32) (k0_hw42 : k0_chk42 i v1461), ∀ (k0_h1 : k0_cond1 i = 1#1), ∀ a, (k0_off84 v1461) a + S8x1x1024.size a ≤ S8x4096x1024.size a := fun i v1461 k0_hw42 k0_h1 => k0_hw42 k0_h1

def k0_off85 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1396 : BitVec 32 := 64#32
  let v1474 : BitVec 32 := Scalar.muli v1 c64_i32_1396
  let c42_i32_1397 : BitVec 32 := 42#32
  let v1475 : BitVec 32 := Scalar.addi v1474 c42_i32_1397
  let v1476 : Index := Scalar.indexCast v1475
  ![v1476.toNat]
def k0_off86 (v1477 : BitVec 32) : Fin 3 → Nat :=
  let c0_i32_1403 : BitVec 32 := 0#32
  let c0_i32_1404 : BitVec 32 := 0#32
  ![0, v1477.toNat, 0]

def k0_chk43 (i : grid0.Coords) (v1477 : BitVec 32) : Prop :=
  (∀ (k0_h1 : k0_cond1 i = 1#1), ∀ a, (k0_off86 v1477) a + S8x1x1024.size a ≤ S8x4096x1024.size a)
instance k0_chk43.dec : ∀ (i : grid0.Coords) (v1477 : BitVec 32), Decidable (k0_chk43 i v1477) := fun i v1477 => decidable_of_iff' _ (Iff.of_eq (k0_chk43.eq_1 i v1477))
theorem k0_off86_inb : ∀ (i : grid0.Coords) (v1477 : BitVec 32) (k0_hw43 : k0_chk43 i v1477), ∀ (k0_h1 : k0_cond1 i = 1#1), ∀ a, (k0_off86 v1477) a + S8x1x1024.size a ≤ S8x4096x1024.size a := fun i v1477 k0_hw43 k0_h1 => k0_hw43 k0_h1

def k0_off87 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1412 : BitVec 32 := 64#32
  let v1490 : BitVec 32 := Scalar.muli v1 c64_i32_1412
  let c43_i32_1413 : BitVec 32 := 43#32
  let v1491 : BitVec 32 := Scalar.addi v1490 c43_i32_1413
  let v1492 : Index := Scalar.indexCast v1491
  ![v1492.toNat]
def k0_off88 (v1493 : BitVec 32) : Fin 3 → Nat :=
  let c0_i32_1419 : BitVec 32 := 0#32
  let c0_i32_1420 : BitVec 32 := 0#32
  ![0, v1493.toNat, 0]

def k0_chk44 (i : grid0.Coords) (v1493 : BitVec 32) : Prop :=
  (∀ (k0_h1 : k0_cond1 i = 1#1), ∀ a, (k0_off88 v1493) a + S8x1x1024.size a ≤ S8x4096x1024.size a)
instance k0_chk44.dec : ∀ (i : grid0.Coords) (v1493 : BitVec 32), Decidable (k0_chk44 i v1493) := fun i v1493 => decidable_of_iff' _ (Iff.of_eq (k0_chk44.eq_1 i v1493))
theorem k0_off88_inb : ∀ (i : grid0.Coords) (v1493 : BitVec 32) (k0_hw44 : k0_chk44 i v1493), ∀ (k0_h1 : k0_cond1 i = 1#1), ∀ a, (k0_off88 v1493) a + S8x1x1024.size a ≤ S8x4096x1024.size a := fun i v1493 k0_hw44 k0_h1 => k0_hw44 k0_h1

def k0_off89 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1428 : BitVec 32 := 64#32
  let v1506 : BitVec 32 := Scalar.muli v1 c64_i32_1428
  let c44_i32_1429 : BitVec 32 := 44#32
  let v1507 : BitVec 32 := Scalar.addi v1506 c44_i32_1429
  let v1508 : Index := Scalar.indexCast v1507
  ![v1508.toNat]
def k0_off90 (v1509 : BitVec 32) : Fin 3 → Nat :=
  let c0_i32_1435 : BitVec 32 := 0#32
  let c0_i32_1436 : BitVec 32 := 0#32
  ![0, v1509.toNat, 0]

def k0_chk45 (i : grid0.Coords) (v1509 : BitVec 32) : Prop :=
  (∀ (k0_h1 : k0_cond1 i = 1#1), ∀ a, (k0_off90 v1509) a + S8x1x1024.size a ≤ S8x4096x1024.size a)
instance k0_chk45.dec : ∀ (i : grid0.Coords) (v1509 : BitVec 32), Decidable (k0_chk45 i v1509) := fun i v1509 => decidable_of_iff' _ (Iff.of_eq (k0_chk45.eq_1 i v1509))
theorem k0_off90_inb : ∀ (i : grid0.Coords) (v1509 : BitVec 32) (k0_hw45 : k0_chk45 i v1509), ∀ (k0_h1 : k0_cond1 i = 1#1), ∀ a, (k0_off90 v1509) a + S8x1x1024.size a ≤ S8x4096x1024.size a := fun i v1509 k0_hw45 k0_h1 => k0_hw45 k0_h1

def k0_off91 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1444 : BitVec 32 := 64#32
  let v1522 : BitVec 32 := Scalar.muli v1 c64_i32_1444
  let c45_i32_1445 : BitVec 32 := 45#32
  let v1523 : BitVec 32 := Scalar.addi v1522 c45_i32_1445
  let v1524 : Index := Scalar.indexCast v1523
  ![v1524.toNat]
def k0_off92 (v1525 : BitVec 32) : Fin 3 → Nat :=
  let c0_i32_1451 : BitVec 32 := 0#32
  let c0_i32_1452 : BitVec 32 := 0#32
  ![0, v1525.toNat, 0]

def k0_chk46 (i : grid0.Coords) (v1525 : BitVec 32) : Prop :=
  (∀ (k0_h1 : k0_cond1 i = 1#1), ∀ a, (k0_off92 v1525) a + S8x1x1024.size a ≤ S8x4096x1024.size a)
instance k0_chk46.dec : ∀ (i : grid0.Coords) (v1525 : BitVec 32), Decidable (k0_chk46 i v1525) := fun i v1525 => decidable_of_iff' _ (Iff.of_eq (k0_chk46.eq_1 i v1525))
theorem k0_off92_inb : ∀ (i : grid0.Coords) (v1525 : BitVec 32) (k0_hw46 : k0_chk46 i v1525), ∀ (k0_h1 : k0_cond1 i = 1#1), ∀ a, (k0_off92 v1525) a + S8x1x1024.size a ≤ S8x4096x1024.size a := fun i v1525 k0_hw46 k0_h1 => k0_hw46 k0_h1

def k0_off93 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1460 : BitVec 32 := 64#32
  let v1538 : BitVec 32 := Scalar.muli v1 c64_i32_1460
  let c46_i32_1461 : BitVec 32 := 46#32
  let v1539 : BitVec 32 := Scalar.addi v1538 c46_i32_1461
  let v1540 : Index := Scalar.indexCast v1539
  ![v1540.toNat]
def k0_off94 (v1541 : BitVec 32) : Fin 3 → Nat :=
  let c0_i32_1467 : BitVec 32 := 0#32
  let c0_i32_1468 : BitVec 32 := 0#32
  ![0, v1541.toNat, 0]

def k0_chk47 (i : grid0.Coords) (v1541 : BitVec 32) : Prop :=
  (∀ (k0_h1 : k0_cond1 i = 1#1), ∀ a, (k0_off94 v1541) a + S8x1x1024.size a ≤ S8x4096x1024.size a)
instance k0_chk47.dec : ∀ (i : grid0.Coords) (v1541 : BitVec 32), Decidable (k0_chk47 i v1541) := fun i v1541 => decidable_of_iff' _ (Iff.of_eq (k0_chk47.eq_1 i v1541))
theorem k0_off94_inb : ∀ (i : grid0.Coords) (v1541 : BitVec 32) (k0_hw47 : k0_chk47 i v1541), ∀ (k0_h1 : k0_cond1 i = 1#1), ∀ a, (k0_off94 v1541) a + S8x1x1024.size a ≤ S8x4096x1024.size a := fun i v1541 k0_hw47 k0_h1 => k0_hw47 k0_h1

def k0_off95 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1476 : BitVec 32 := 64#32
  let v1554 : BitVec 32 := Scalar.muli v1 c64_i32_1476
  let c47_i32_1477 : BitVec 32 := 47#32
  let v1555 : BitVec 32 := Scalar.addi v1554 c47_i32_1477
  let v1556 : Index := Scalar.indexCast v1555
  ![v1556.toNat]
def k0_off96 (v1557 : BitVec 32) : Fin 3 → Nat :=
  let c0_i32_1483 : BitVec 32 := 0#32
  let c0_i32_1484 : BitVec 32 := 0#32
  ![0, v1557.toNat, 0]

def k0_chk48 (i : grid0.Coords) (v1557 : BitVec 32) : Prop :=
  (∀ (k0_h1 : k0_cond1 i = 1#1), ∀ a, (k0_off96 v1557) a + S8x1x1024.size a ≤ S8x4096x1024.size a)
instance k0_chk48.dec : ∀ (i : grid0.Coords) (v1557 : BitVec 32), Decidable (k0_chk48 i v1557) := fun i v1557 => decidable_of_iff' _ (Iff.of_eq (k0_chk48.eq_1 i v1557))
theorem k0_off96_inb : ∀ (i : grid0.Coords) (v1557 : BitVec 32) (k0_hw48 : k0_chk48 i v1557), ∀ (k0_h1 : k0_cond1 i = 1#1), ∀ a, (k0_off96 v1557) a + S8x1x1024.size a ≤ S8x4096x1024.size a := fun i v1557 k0_hw48 k0_h1 => k0_hw48 k0_h1

def k0_off97 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1492 : BitVec 32 := 64#32
  let v1570 : BitVec 32 := Scalar.muli v1 c64_i32_1492
  let c48_i32_1493 : BitVec 32 := 48#32
  let v1571 : BitVec 32 := Scalar.addi v1570 c48_i32_1493
  let v1572 : Index := Scalar.indexCast v1571
  ![v1572.toNat]
def k0_off98 (v1573 : BitVec 32) : Fin 3 → Nat :=
  let c0_i32_1499 : BitVec 32 := 0#32
  let c0_i32_1500 : BitVec 32 := 0#32
  ![0, v1573.toNat, 0]

def k0_chk49 (i : grid0.Coords) (v1573 : BitVec 32) : Prop :=
  (∀ (k0_h1 : k0_cond1 i = 1#1), ∀ a, (k0_off98 v1573) a + S8x1x1024.size a ≤ S8x4096x1024.size a)
instance k0_chk49.dec : ∀ (i : grid0.Coords) (v1573 : BitVec 32), Decidable (k0_chk49 i v1573) := fun i v1573 => decidable_of_iff' _ (Iff.of_eq (k0_chk49.eq_1 i v1573))
theorem k0_off98_inb : ∀ (i : grid0.Coords) (v1573 : BitVec 32) (k0_hw49 : k0_chk49 i v1573), ∀ (k0_h1 : k0_cond1 i = 1#1), ∀ a, (k0_off98 v1573) a + S8x1x1024.size a ≤ S8x4096x1024.size a := fun i v1573 k0_hw49 k0_h1 => k0_hw49 k0_h1

def k0_off99 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1508 : BitVec 32 := 64#32
  let v1586 : BitVec 32 := Scalar.muli v1 c64_i32_1508
  let c49_i32_1509 : BitVec 32 := 49#32
  let v1587 : BitVec 32 := Scalar.addi v1586 c49_i32_1509
  let v1588 : Index := Scalar.indexCast v1587
  ![v1588.toNat]
def k0_off100 (v1589 : BitVec 32) : Fin 3 → Nat :=
  let c0_i32_1515 : BitVec 32 := 0#32
  let c0_i32_1516 : BitVec 32 := 0#32
  ![0, v1589.toNat, 0]

def k0_chk50 (i : grid0.Coords) (v1589 : BitVec 32) : Prop :=
  (∀ (k0_h1 : k0_cond1 i = 1#1), ∀ a, (k0_off100 v1589) a + S8x1x1024.size a ≤ S8x4096x1024.size a)
instance k0_chk50.dec : ∀ (i : grid0.Coords) (v1589 : BitVec 32), Decidable (k0_chk50 i v1589) := fun i v1589 => decidable_of_iff' _ (Iff.of_eq (k0_chk50.eq_1 i v1589))
theorem k0_off100_inb : ∀ (i : grid0.Coords) (v1589 : BitVec 32) (k0_hw50 : k0_chk50 i v1589), ∀ (k0_h1 : k0_cond1 i = 1#1), ∀ a, (k0_off100 v1589) a + S8x1x1024.size a ≤ S8x4096x1024.size a := fun i v1589 k0_hw50 k0_h1 => k0_hw50 k0_h1

def k0_off101 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1524 : BitVec 32 := 64#32
  let v1602 : BitVec 32 := Scalar.muli v1 c64_i32_1524
  let c50_i32_1525 : BitVec 32 := 50#32
  let v1603 : BitVec 32 := Scalar.addi v1602 c50_i32_1525
  let v1604 : Index := Scalar.indexCast v1603
  ![v1604.toNat]
def k0_off102 (v1605 : BitVec 32) : Fin 3 → Nat :=
  let c0_i32_1531 : BitVec 32 := 0#32
  let c0_i32_1532 : BitVec 32 := 0#32
  ![0, v1605.toNat, 0]

def k0_chk51 (i : grid0.Coords) (v1605 : BitVec 32) : Prop :=
  (∀ (k0_h1 : k0_cond1 i = 1#1), ∀ a, (k0_off102 v1605) a + S8x1x1024.size a ≤ S8x4096x1024.size a)
instance k0_chk51.dec : ∀ (i : grid0.Coords) (v1605 : BitVec 32), Decidable (k0_chk51 i v1605) := fun i v1605 => decidable_of_iff' _ (Iff.of_eq (k0_chk51.eq_1 i v1605))
theorem k0_off102_inb : ∀ (i : grid0.Coords) (v1605 : BitVec 32) (k0_hw51 : k0_chk51 i v1605), ∀ (k0_h1 : k0_cond1 i = 1#1), ∀ a, (k0_off102 v1605) a + S8x1x1024.size a ≤ S8x4096x1024.size a := fun i v1605 k0_hw51 k0_h1 => k0_hw51 k0_h1

def k0_off103 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1540 : BitVec 32 := 64#32
  let v1618 : BitVec 32 := Scalar.muli v1 c64_i32_1540
  let c51_i32_1541 : BitVec 32 := 51#32
  let v1619 : BitVec 32 := Scalar.addi v1618 c51_i32_1541
  let v1620 : Index := Scalar.indexCast v1619
  ![v1620.toNat]
def k0_off104 (v1621 : BitVec 32) : Fin 3 → Nat :=
  let c0_i32_1547 : BitVec 32 := 0#32
  let c0_i32_1548 : BitVec 32 := 0#32
  ![0, v1621.toNat, 0]

def k0_chk52 (i : grid0.Coords) (v1621 : BitVec 32) : Prop :=
  (∀ (k0_h1 : k0_cond1 i = 1#1), ∀ a, (k0_off104 v1621) a + S8x1x1024.size a ≤ S8x4096x1024.size a)
instance k0_chk52.dec : ∀ (i : grid0.Coords) (v1621 : BitVec 32), Decidable (k0_chk52 i v1621) := fun i v1621 => decidable_of_iff' _ (Iff.of_eq (k0_chk52.eq_1 i v1621))
theorem k0_off104_inb : ∀ (i : grid0.Coords) (v1621 : BitVec 32) (k0_hw52 : k0_chk52 i v1621), ∀ (k0_h1 : k0_cond1 i = 1#1), ∀ a, (k0_off104 v1621) a + S8x1x1024.size a ≤ S8x4096x1024.size a := fun i v1621 k0_hw52 k0_h1 => k0_hw52 k0_h1

def k0_off105 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1556 : BitVec 32 := 64#32
  let v1634 : BitVec 32 := Scalar.muli v1 c64_i32_1556
  let c52_i32_1557 : BitVec 32 := 52#32
  let v1635 : BitVec 32 := Scalar.addi v1634 c52_i32_1557
  let v1636 : Index := Scalar.indexCast v1635
  ![v1636.toNat]
def k0_off106 (v1637 : BitVec 32) : Fin 3 → Nat :=
  let c0_i32_1563 : BitVec 32 := 0#32
  let c0_i32_1564 : BitVec 32 := 0#32
  ![0, v1637.toNat, 0]

def k0_chk53 (i : grid0.Coords) (v1637 : BitVec 32) : Prop :=
  (∀ (k0_h1 : k0_cond1 i = 1#1), ∀ a, (k0_off106 v1637) a + S8x1x1024.size a ≤ S8x4096x1024.size a)
instance k0_chk53.dec : ∀ (i : grid0.Coords) (v1637 : BitVec 32), Decidable (k0_chk53 i v1637) := fun i v1637 => decidable_of_iff' _ (Iff.of_eq (k0_chk53.eq_1 i v1637))
theorem k0_off106_inb : ∀ (i : grid0.Coords) (v1637 : BitVec 32) (k0_hw53 : k0_chk53 i v1637), ∀ (k0_h1 : k0_cond1 i = 1#1), ∀ a, (k0_off106 v1637) a + S8x1x1024.size a ≤ S8x4096x1024.size a := fun i v1637 k0_hw53 k0_h1 => k0_hw53 k0_h1

def k0_off107 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1572 : BitVec 32 := 64#32
  let v1650 : BitVec 32 := Scalar.muli v1 c64_i32_1572
  let c53_i32_1573 : BitVec 32 := 53#32
  let v1651 : BitVec 32 := Scalar.addi v1650 c53_i32_1573
  let v1652 : Index := Scalar.indexCast v1651
  ![v1652.toNat]
def k0_off108 (v1653 : BitVec 32) : Fin 3 → Nat :=
  let c0_i32_1579 : BitVec 32 := 0#32
  let c0_i32_1580 : BitVec 32 := 0#32
  ![0, v1653.toNat, 0]

def k0_chk54 (i : grid0.Coords) (v1653 : BitVec 32) : Prop :=
  (∀ (k0_h1 : k0_cond1 i = 1#1), ∀ a, (k0_off108 v1653) a + S8x1x1024.size a ≤ S8x4096x1024.size a)
instance k0_chk54.dec : ∀ (i : grid0.Coords) (v1653 : BitVec 32), Decidable (k0_chk54 i v1653) := fun i v1653 => decidable_of_iff' _ (Iff.of_eq (k0_chk54.eq_1 i v1653))
theorem k0_off108_inb : ∀ (i : grid0.Coords) (v1653 : BitVec 32) (k0_hw54 : k0_chk54 i v1653), ∀ (k0_h1 : k0_cond1 i = 1#1), ∀ a, (k0_off108 v1653) a + S8x1x1024.size a ≤ S8x4096x1024.size a := fun i v1653 k0_hw54 k0_h1 => k0_hw54 k0_h1

def k0_off109 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1588 : BitVec 32 := 64#32
  let v1666 : BitVec 32 := Scalar.muli v1 c64_i32_1588
  let c54_i32_1589 : BitVec 32 := 54#32
  let v1667 : BitVec 32 := Scalar.addi v1666 c54_i32_1589
  let v1668 : Index := Scalar.indexCast v1667
  ![v1668.toNat]
def k0_off110 (v1669 : BitVec 32) : Fin 3 → Nat :=
  let c0_i32_1595 : BitVec 32 := 0#32
  let c0_i32_1596 : BitVec 32 := 0#32
  ![0, v1669.toNat, 0]

def k0_chk55 (i : grid0.Coords) (v1669 : BitVec 32) : Prop :=
  (∀ (k0_h1 : k0_cond1 i = 1#1), ∀ a, (k0_off110 v1669) a + S8x1x1024.size a ≤ S8x4096x1024.size a)
instance k0_chk55.dec : ∀ (i : grid0.Coords) (v1669 : BitVec 32), Decidable (k0_chk55 i v1669) := fun i v1669 => decidable_of_iff' _ (Iff.of_eq (k0_chk55.eq_1 i v1669))
theorem k0_off110_inb : ∀ (i : grid0.Coords) (v1669 : BitVec 32) (k0_hw55 : k0_chk55 i v1669), ∀ (k0_h1 : k0_cond1 i = 1#1), ∀ a, (k0_off110 v1669) a + S8x1x1024.size a ≤ S8x4096x1024.size a := fun i v1669 k0_hw55 k0_h1 => k0_hw55 k0_h1

def k0_off111 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1604 : BitVec 32 := 64#32
  let v1682 : BitVec 32 := Scalar.muli v1 c64_i32_1604
  let c55_i32_1605 : BitVec 32 := 55#32
  let v1683 : BitVec 32 := Scalar.addi v1682 c55_i32_1605
  let v1684 : Index := Scalar.indexCast v1683
  ![v1684.toNat]
def k0_off112 (v1685 : BitVec 32) : Fin 3 → Nat :=
  let c0_i32_1611 : BitVec 32 := 0#32
  let c0_i32_1612 : BitVec 32 := 0#32
  ![0, v1685.toNat, 0]

def k0_chk56 (i : grid0.Coords) (v1685 : BitVec 32) : Prop :=
  (∀ (k0_h1 : k0_cond1 i = 1#1), ∀ a, (k0_off112 v1685) a + S8x1x1024.size a ≤ S8x4096x1024.size a)
instance k0_chk56.dec : ∀ (i : grid0.Coords) (v1685 : BitVec 32), Decidable (k0_chk56 i v1685) := fun i v1685 => decidable_of_iff' _ (Iff.of_eq (k0_chk56.eq_1 i v1685))
theorem k0_off112_inb : ∀ (i : grid0.Coords) (v1685 : BitVec 32) (k0_hw56 : k0_chk56 i v1685), ∀ (k0_h1 : k0_cond1 i = 1#1), ∀ a, (k0_off112 v1685) a + S8x1x1024.size a ≤ S8x4096x1024.size a := fun i v1685 k0_hw56 k0_h1 => k0_hw56 k0_h1

def k0_off113 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1620 : BitVec 32 := 64#32
  let v1698 : BitVec 32 := Scalar.muli v1 c64_i32_1620
  let c56_i32_1621 : BitVec 32 := 56#32
  let v1699 : BitVec 32 := Scalar.addi v1698 c56_i32_1621
  let v1700 : Index := Scalar.indexCast v1699
  ![v1700.toNat]
def k0_off114 (v1701 : BitVec 32) : Fin 3 → Nat :=
  let c0_i32_1627 : BitVec 32 := 0#32
  let c0_i32_1628 : BitVec 32 := 0#32
  ![0, v1701.toNat, 0]

def k0_chk57 (i : grid0.Coords) (v1701 : BitVec 32) : Prop :=
  (∀ (k0_h1 : k0_cond1 i = 1#1), ∀ a, (k0_off114 v1701) a + S8x1x1024.size a ≤ S8x4096x1024.size a)
instance k0_chk57.dec : ∀ (i : grid0.Coords) (v1701 : BitVec 32), Decidable (k0_chk57 i v1701) := fun i v1701 => decidable_of_iff' _ (Iff.of_eq (k0_chk57.eq_1 i v1701))
theorem k0_off114_inb : ∀ (i : grid0.Coords) (v1701 : BitVec 32) (k0_hw57 : k0_chk57 i v1701), ∀ (k0_h1 : k0_cond1 i = 1#1), ∀ a, (k0_off114 v1701) a + S8x1x1024.size a ≤ S8x4096x1024.size a := fun i v1701 k0_hw57 k0_h1 => k0_hw57 k0_h1

def k0_off115 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1636 : BitVec 32 := 64#32
  let v1714 : BitVec 32 := Scalar.muli v1 c64_i32_1636
  let c57_i32_1637 : BitVec 32 := 57#32
  let v1715 : BitVec 32 := Scalar.addi v1714 c57_i32_1637
  let v1716 : Index := Scalar.indexCast v1715
  ![v1716.toNat]
def k0_off116 (v1717 : BitVec 32) : Fin 3 → Nat :=
  let c0_i32_1643 : BitVec 32 := 0#32
  let c0_i32_1644 : BitVec 32 := 0#32
  ![0, v1717.toNat, 0]

def k0_chk58 (i : grid0.Coords) (v1717 : BitVec 32) : Prop :=
  (∀ (k0_h1 : k0_cond1 i = 1#1), ∀ a, (k0_off116 v1717) a + S8x1x1024.size a ≤ S8x4096x1024.size a)
instance k0_chk58.dec : ∀ (i : grid0.Coords) (v1717 : BitVec 32), Decidable (k0_chk58 i v1717) := fun i v1717 => decidable_of_iff' _ (Iff.of_eq (k0_chk58.eq_1 i v1717))
theorem k0_off116_inb : ∀ (i : grid0.Coords) (v1717 : BitVec 32) (k0_hw58 : k0_chk58 i v1717), ∀ (k0_h1 : k0_cond1 i = 1#1), ∀ a, (k0_off116 v1717) a + S8x1x1024.size a ≤ S8x4096x1024.size a := fun i v1717 k0_hw58 k0_h1 => k0_hw58 k0_h1

def k0_off117 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1652 : BitVec 32 := 64#32
  let v1730 : BitVec 32 := Scalar.muli v1 c64_i32_1652
  let c58_i32_1653 : BitVec 32 := 58#32
  let v1731 : BitVec 32 := Scalar.addi v1730 c58_i32_1653
  let v1732 : Index := Scalar.indexCast v1731
  ![v1732.toNat]
def k0_off118 (v1733 : BitVec 32) : Fin 3 → Nat :=
  let c0_i32_1659 : BitVec 32 := 0#32
  let c0_i32_1660 : BitVec 32 := 0#32
  ![0, v1733.toNat, 0]

def k0_chk59 (i : grid0.Coords) (v1733 : BitVec 32) : Prop :=
  (∀ (k0_h1 : k0_cond1 i = 1#1), ∀ a, (k0_off118 v1733) a + S8x1x1024.size a ≤ S8x4096x1024.size a)
instance k0_chk59.dec : ∀ (i : grid0.Coords) (v1733 : BitVec 32), Decidable (k0_chk59 i v1733) := fun i v1733 => decidable_of_iff' _ (Iff.of_eq (k0_chk59.eq_1 i v1733))
theorem k0_off118_inb : ∀ (i : grid0.Coords) (v1733 : BitVec 32) (k0_hw59 : k0_chk59 i v1733), ∀ (k0_h1 : k0_cond1 i = 1#1), ∀ a, (k0_off118 v1733) a + S8x1x1024.size a ≤ S8x4096x1024.size a := fun i v1733 k0_hw59 k0_h1 => k0_hw59 k0_h1

def k0_off119 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1668 : BitVec 32 := 64#32
  let v1746 : BitVec 32 := Scalar.muli v1 c64_i32_1668
  let c59_i32_1669 : BitVec 32 := 59#32
  let v1747 : BitVec 32 := Scalar.addi v1746 c59_i32_1669
  let v1748 : Index := Scalar.indexCast v1747
  ![v1748.toNat]
def k0_off120 (v1749 : BitVec 32) : Fin 3 → Nat :=
  let c0_i32_1675 : BitVec 32 := 0#32
  let c0_i32_1676 : BitVec 32 := 0#32
  ![0, v1749.toNat, 0]

def k0_chk60 (i : grid0.Coords) (v1749 : BitVec 32) : Prop :=
  (∀ (k0_h1 : k0_cond1 i = 1#1), ∀ a, (k0_off120 v1749) a + S8x1x1024.size a ≤ S8x4096x1024.size a)
instance k0_chk60.dec : ∀ (i : grid0.Coords) (v1749 : BitVec 32), Decidable (k0_chk60 i v1749) := fun i v1749 => decidable_of_iff' _ (Iff.of_eq (k0_chk60.eq_1 i v1749))
theorem k0_off120_inb : ∀ (i : grid0.Coords) (v1749 : BitVec 32) (k0_hw60 : k0_chk60 i v1749), ∀ (k0_h1 : k0_cond1 i = 1#1), ∀ a, (k0_off120 v1749) a + S8x1x1024.size a ≤ S8x4096x1024.size a := fun i v1749 k0_hw60 k0_h1 => k0_hw60 k0_h1

def k0_off121 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1684 : BitVec 32 := 64#32
  let v1762 : BitVec 32 := Scalar.muli v1 c64_i32_1684
  let c60_i32_1685 : BitVec 32 := 60#32
  let v1763 : BitVec 32 := Scalar.addi v1762 c60_i32_1685
  let v1764 : Index := Scalar.indexCast v1763
  ![v1764.toNat]
def k0_off122 (v1765 : BitVec 32) : Fin 3 → Nat :=
  let c0_i32_1691 : BitVec 32 := 0#32
  let c0_i32_1692 : BitVec 32 := 0#32
  ![0, v1765.toNat, 0]

def k0_chk61 (i : grid0.Coords) (v1765 : BitVec 32) : Prop :=
  (∀ (k0_h1 : k0_cond1 i = 1#1), ∀ a, (k0_off122 v1765) a + S8x1x1024.size a ≤ S8x4096x1024.size a)
instance k0_chk61.dec : ∀ (i : grid0.Coords) (v1765 : BitVec 32), Decidable (k0_chk61 i v1765) := fun i v1765 => decidable_of_iff' _ (Iff.of_eq (k0_chk61.eq_1 i v1765))
theorem k0_off122_inb : ∀ (i : grid0.Coords) (v1765 : BitVec 32) (k0_hw61 : k0_chk61 i v1765), ∀ (k0_h1 : k0_cond1 i = 1#1), ∀ a, (k0_off122 v1765) a + S8x1x1024.size a ≤ S8x4096x1024.size a := fun i v1765 k0_hw61 k0_h1 => k0_hw61 k0_h1

def k0_off123 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1700 : BitVec 32 := 64#32
  let v1778 : BitVec 32 := Scalar.muli v1 c64_i32_1700
  let c61_i32_1701 : BitVec 32 := 61#32
  let v1779 : BitVec 32 := Scalar.addi v1778 c61_i32_1701
  let v1780 : Index := Scalar.indexCast v1779
  ![v1780.toNat]
def k0_off124 (v1781 : BitVec 32) : Fin 3 → Nat :=
  let c0_i32_1707 : BitVec 32 := 0#32
  let c0_i32_1708 : BitVec 32 := 0#32
  ![0, v1781.toNat, 0]

def k0_chk62 (i : grid0.Coords) (v1781 : BitVec 32) : Prop :=
  (∀ (k0_h1 : k0_cond1 i = 1#1), ∀ a, (k0_off124 v1781) a + S8x1x1024.size a ≤ S8x4096x1024.size a)
instance k0_chk62.dec : ∀ (i : grid0.Coords) (v1781 : BitVec 32), Decidable (k0_chk62 i v1781) := fun i v1781 => decidable_of_iff' _ (Iff.of_eq (k0_chk62.eq_1 i v1781))
theorem k0_off124_inb : ∀ (i : grid0.Coords) (v1781 : BitVec 32) (k0_hw62 : k0_chk62 i v1781), ∀ (k0_h1 : k0_cond1 i = 1#1), ∀ a, (k0_off124 v1781) a + S8x1x1024.size a ≤ S8x4096x1024.size a := fun i v1781 k0_hw62 k0_h1 => k0_hw62 k0_h1

def k0_off125 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1716 : BitVec 32 := 64#32
  let v1794 : BitVec 32 := Scalar.muli v1 c64_i32_1716
  let c62_i32_1717 : BitVec 32 := 62#32
  let v1795 : BitVec 32 := Scalar.addi v1794 c62_i32_1717
  let v1796 : Index := Scalar.indexCast v1795
  ![v1796.toNat]
def k0_off126 (v1797 : BitVec 32) : Fin 3 → Nat :=
  let c0_i32_1723 : BitVec 32 := 0#32
  let c0_i32_1724 : BitVec 32 := 0#32
  ![0, v1797.toNat, 0]

def k0_chk63 (i : grid0.Coords) (v1797 : BitVec 32) : Prop :=
  (∀ (k0_h1 : k0_cond1 i = 1#1), ∀ a, (k0_off126 v1797) a + S8x1x1024.size a ≤ S8x4096x1024.size a)
instance k0_chk63.dec : ∀ (i : grid0.Coords) (v1797 : BitVec 32), Decidable (k0_chk63 i v1797) := fun i v1797 => decidable_of_iff' _ (Iff.of_eq (k0_chk63.eq_1 i v1797))
theorem k0_off126_inb : ∀ (i : grid0.Coords) (v1797 : BitVec 32) (k0_hw63 : k0_chk63 i v1797), ∀ (k0_h1 : k0_cond1 i = 1#1), ∀ a, (k0_off126 v1797) a + S8x1x1024.size a ≤ S8x4096x1024.size a := fun i v1797 k0_hw63 k0_h1 => k0_hw63 k0_h1

def k0_off127 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_1732 : BitVec 32 := 64#32
  let v1810 : BitVec 32 := Scalar.muli v1 c64_i32_1732
  let c63_i32_1733 : BitVec 32 := 63#32
  let v1811 : BitVec 32 := Scalar.addi v1810 c63_i32_1733
  let v1812 : Index := Scalar.indexCast v1811
  ![v1812.toNat]
def k0_off128 (v1813 : BitVec 32) : Fin 3 → Nat :=
  let c0_i32_1739 : BitVec 32 := 0#32
  let c0_i32_1740 : BitVec 32 := 0#32
  ![0, v1813.toNat, 0]

def k0_chk64 (i : grid0.Coords) (v1813 : BitVec 32) : Prop :=
  (∀ (k0_h1 : k0_cond1 i = 1#1), ∀ a, (k0_off128 v1813) a + S8x1x1024.size a ≤ S8x4096x1024.size a)
instance k0_chk64.dec : ∀ (i : grid0.Coords) (v1813 : BitVec 32), Decidable (k0_chk64 i v1813) := fun i v1813 => decidable_of_iff' _ (Iff.of_eq (k0_chk64.eq_1 i v1813))
theorem k0_off128_inb : ∀ (i : grid0.Coords) (v1813 : BitVec 32) (k0_hw64 : k0_chk64 i v1813), ∀ (k0_h1 : k0_cond1 i = 1#1), ∀ a, (k0_off128 v1813) a + S8x1x1024.size a ≤ S8x4096x1024.size a := fun i v1813 k0_hw64 k0_h1 => k0_hw64 k0_h1

def k0_off129 (i : grid0.Coords) : Fin 1 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off130 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_7 : BitVec 32 := 0#32
  let c0_i32_6 : BitVec 32 := 0#32
  let c0_i32_8 : BitVec 32 := 0#32
  ![v11.toNat, 0, 0, 0]
def k0_off131 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_19 : BitVec 32 := 0#32
  let c1_i32_18 : BitVec 32 := 1#32
  let c0_i32_20 : BitVec 32 := 0#32
  ![v11.toNat, 0, 1, 0]
def k0_off132 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  let c2_i32_30 : BitVec 32 := 2#32
  let c0_i32_32 : BitVec 32 := 0#32
  ![v11.toNat, 0, 2, 0]
def k0_off133 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_42 : BitVec 32 := 0#32
  let c3_i32 : BitVec 32 := 3#32
  let c0_i32_43 : BitVec 32 := 0#32
  ![v11.toNat, 0, 3, 0]
def k0_off134 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_53 : BitVec 32 := 0#32
  let c4_i32 : BitVec 32 := 4#32
  let c0_i32_54 : BitVec 32 := 0#32
  ![v11.toNat, 0, 4, 0]
def k0_off135 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_64 : BitVec 32 := 0#32
  let c5_i32 : BitVec 32 := 5#32
  let c0_i32_65 : BitVec 32 := 0#32
  ![v11.toNat, 0, 5, 0]
def k0_off136 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_75 : BitVec 32 := 0#32
  let c6_i32 : BitVec 32 := 6#32
  let c0_i32_76 : BitVec 32 := 0#32
  ![v11.toNat, 0, 6, 0]
def k0_off137 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_86 : BitVec 32 := 0#32
  let c7_i32 : BitVec 32 := 7#32
  let c0_i32_87 : BitVec 32 := 0#32
  ![v11.toNat, 0, 7, 0]
def k0_off138 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_97 : BitVec 32 := 0#32
  let c8_i32 : BitVec 32 := 8#32
  let c0_i32_98 : BitVec 32 := 0#32
  ![v11.toNat, 0, 8, 0]
def k0_off139 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_108 : BitVec 32 := 0#32
  let c9_i32 : BitVec 32 := 9#32
  let c0_i32_109 : BitVec 32 := 0#32
  ![v11.toNat, 0, 9, 0]
def k0_off140 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_119 : BitVec 32 := 0#32
  let c10_i32 : BitVec 32 := 10#32
  let c0_i32_120 : BitVec 32 := 0#32
  ![v11.toNat, 0, 10, 0]
def k0_off141 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_130 : BitVec 32 := 0#32
  let c11_i32 : BitVec 32 := 11#32
  let c0_i32_131 : BitVec 32 := 0#32
  ![v11.toNat, 0, 11, 0]
def k0_off142 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_141 : BitVec 32 := 0#32
  let c12_i32 : BitVec 32 := 12#32
  let c0_i32_142 : BitVec 32 := 0#32
  ![v11.toNat, 0, 12, 0]
def k0_off143 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_152 : BitVec 32 := 0#32
  let c13_i32 : BitVec 32 := 13#32
  let c0_i32_153 : BitVec 32 := 0#32
  ![v11.toNat, 0, 13, 0]
def k0_off144 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_163 : BitVec 32 := 0#32
  let c14_i32 : BitVec 32 := 14#32
  let c0_i32_164 : BitVec 32 := 0#32
  ![v11.toNat, 0, 14, 0]
def k0_off145 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_174 : BitVec 32 := 0#32
  let c15_i32 : BitVec 32 := 15#32
  let c0_i32_175 : BitVec 32 := 0#32
  ![v11.toNat, 0, 15, 0]
def k0_off146 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_186 : BitVec 32 := 0#32
  let c16_i32_185 : BitVec 32 := 16#32
  let c0_i32_187 : BitVec 32 := 0#32
  ![v11.toNat, 0, 16, 0]
def k0_off147 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_197 : BitVec 32 := 0#32
  let c17_i32 : BitVec 32 := 17#32
  let c0_i32_198 : BitVec 32 := 0#32
  ![v11.toNat, 0, 17, 0]
def k0_off148 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_208 : BitVec 32 := 0#32
  let c18_i32 : BitVec 32 := 18#32
  let c0_i32_209 : BitVec 32 := 0#32
  ![v11.toNat, 0, 18, 0]
def k0_off149 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_219 : BitVec 32 := 0#32
  let c19_i32 : BitVec 32 := 19#32
  let c0_i32_220 : BitVec 32 := 0#32
  ![v11.toNat, 0, 19, 0]
def k0_off150 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_230 : BitVec 32 := 0#32
  let c20_i32 : BitVec 32 := 20#32
  let c0_i32_231 : BitVec 32 := 0#32
  ![v11.toNat, 0, 20, 0]
def k0_off151 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_241 : BitVec 32 := 0#32
  let c21_i32 : BitVec 32 := 21#32
  let c0_i32_242 : BitVec 32 := 0#32
  ![v11.toNat, 0, 21, 0]
def k0_off152 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_252 : BitVec 32 := 0#32
  let c22_i32 : BitVec 32 := 22#32
  let c0_i32_253 : BitVec 32 := 0#32
  ![v11.toNat, 0, 22, 0]
def k0_off153 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_263 : BitVec 32 := 0#32
  let c23_i32 : BitVec 32 := 23#32
  let c0_i32_264 : BitVec 32 := 0#32
  ![v11.toNat, 0, 23, 0]
def k0_off154 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_274 : BitVec 32 := 0#32
  let c24_i32 : BitVec 32 := 24#32
  let c0_i32_275 : BitVec 32 := 0#32
  ![v11.toNat, 0, 24, 0]
def k0_off155 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_285 : BitVec 32 := 0#32
  let c25_i32 : BitVec 32 := 25#32
  let c0_i32_286 : BitVec 32 := 0#32
  ![v11.toNat, 0, 25, 0]
def k0_off156 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_296 : BitVec 32 := 0#32
  let c26_i32 : BitVec 32 := 26#32
  let c0_i32_297 : BitVec 32 := 0#32
  ![v11.toNat, 0, 26, 0]
def k0_off157 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_307 : BitVec 32 := 0#32
  let c27_i32 : BitVec 32 := 27#32
  let c0_i32_308 : BitVec 32 := 0#32
  ![v11.toNat, 0, 27, 0]
def k0_off158 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_318 : BitVec 32 := 0#32
  let c28_i32 : BitVec 32 := 28#32
  let c0_i32_319 : BitVec 32 := 0#32
  ![v11.toNat, 0, 28, 0]
def k0_off159 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_329 : BitVec 32 := 0#32
  let c29_i32 : BitVec 32 := 29#32
  let c0_i32_330 : BitVec 32 := 0#32
  ![v11.toNat, 0, 29, 0]
def k0_off160 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_340 : BitVec 32 := 0#32
  let c30_i32 : BitVec 32 := 30#32
  let c0_i32_341 : BitVec 32 := 0#32
  ![v11.toNat, 0, 30, 0]
def k0_off161 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_351 : BitVec 32 := 0#32
  let c31_i32 : BitVec 32 := 31#32
  let c0_i32_352 : BitVec 32 := 0#32
  ![v11.toNat, 0, 31, 0]
def k0_off162 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_362 : BitVec 32 := 0#32
  let c32_i32 : BitVec 32 := 32#32
  let c0_i32_363 : BitVec 32 := 0#32
  ![v11.toNat, 0, 32, 0]
def k0_off163 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_373 : BitVec 32 := 0#32
  let c33_i32 : BitVec 32 := 33#32
  let c0_i32_374 : BitVec 32 := 0#32
  ![v11.toNat, 0, 33, 0]
def k0_off164 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_384 : BitVec 32 := 0#32
  let c34_i32 : BitVec 32 := 34#32
  let c0_i32_385 : BitVec 32 := 0#32
  ![v11.toNat, 0, 34, 0]
def k0_off165 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_395 : BitVec 32 := 0#32
  let c35_i32 : BitVec 32 := 35#32
  let c0_i32_396 : BitVec 32 := 0#32
  ![v11.toNat, 0, 35, 0]
def k0_off166 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_406 : BitVec 32 := 0#32
  let c36_i32 : BitVec 32 := 36#32
  let c0_i32_407 : BitVec 32 := 0#32
  ![v11.toNat, 0, 36, 0]
def k0_off167 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_417 : BitVec 32 := 0#32
  let c37_i32 : BitVec 32 := 37#32
  let c0_i32_418 : BitVec 32 := 0#32
  ![v11.toNat, 0, 37, 0]
def k0_off168 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_428 : BitVec 32 := 0#32
  let c38_i32 : BitVec 32 := 38#32
  let c0_i32_429 : BitVec 32 := 0#32
  ![v11.toNat, 0, 38, 0]
def k0_off169 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_439 : BitVec 32 := 0#32
  let c39_i32 : BitVec 32 := 39#32
  let c0_i32_440 : BitVec 32 := 0#32
  ![v11.toNat, 0, 39, 0]
def k0_off170 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_450 : BitVec 32 := 0#32
  let c40_i32 : BitVec 32 := 40#32
  let c0_i32_451 : BitVec 32 := 0#32
  ![v11.toNat, 0, 40, 0]
def k0_off171 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_461 : BitVec 32 := 0#32
  let c41_i32 : BitVec 32 := 41#32
  let c0_i32_462 : BitVec 32 := 0#32
  ![v11.toNat, 0, 41, 0]
def k0_off172 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_472 : BitVec 32 := 0#32
  let c42_i32 : BitVec 32 := 42#32
  let c0_i32_473 : BitVec 32 := 0#32
  ![v11.toNat, 0, 42, 0]
def k0_off173 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_483 : BitVec 32 := 0#32
  let c43_i32 : BitVec 32 := 43#32
  let c0_i32_484 : BitVec 32 := 0#32
  ![v11.toNat, 0, 43, 0]
def k0_off174 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_494 : BitVec 32 := 0#32
  let c44_i32 : BitVec 32 := 44#32
  let c0_i32_495 : BitVec 32 := 0#32
  ![v11.toNat, 0, 44, 0]
def k0_off175 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_505 : BitVec 32 := 0#32
  let c45_i32 : BitVec 32 := 45#32
  let c0_i32_506 : BitVec 32 := 0#32
  ![v11.toNat, 0, 45, 0]
def k0_off176 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_516 : BitVec 32 := 0#32
  let c46_i32 : BitVec 32 := 46#32
  let c0_i32_517 : BitVec 32 := 0#32
  ![v11.toNat, 0, 46, 0]
def k0_off177 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_527 : BitVec 32 := 0#32
  let c47_i32 : BitVec 32 := 47#32
  let c0_i32_528 : BitVec 32 := 0#32
  ![v11.toNat, 0, 47, 0]
def k0_off178 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_538 : BitVec 32 := 0#32
  let c48_i32 : BitVec 32 := 48#32
  let c0_i32_539 : BitVec 32 := 0#32
  ![v11.toNat, 0, 48, 0]
def k0_off179 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_549 : BitVec 32 := 0#32
  let c49_i32 : BitVec 32 := 49#32
  let c0_i32_550 : BitVec 32 := 0#32
  ![v11.toNat, 0, 49, 0]
def k0_off180 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_560 : BitVec 32 := 0#32
  let c50_i32 : BitVec 32 := 50#32
  let c0_i32_561 : BitVec 32 := 0#32
  ![v11.toNat, 0, 50, 0]
def k0_off181 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_571 : BitVec 32 := 0#32
  let c51_i32 : BitVec 32 := 51#32
  let c0_i32_572 : BitVec 32 := 0#32
  ![v11.toNat, 0, 51, 0]
def k0_off182 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_582 : BitVec 32 := 0#32
  let c52_i32 : BitVec 32 := 52#32
  let c0_i32_583 : BitVec 32 := 0#32
  ![v11.toNat, 0, 52, 0]
def k0_off183 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_593 : BitVec 32 := 0#32
  let c53_i32 : BitVec 32 := 53#32
  let c0_i32_594 : BitVec 32 := 0#32
  ![v11.toNat, 0, 53, 0]
def k0_off184 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_604 : BitVec 32 := 0#32
  let c54_i32 : BitVec 32 := 54#32
  let c0_i32_605 : BitVec 32 := 0#32
  ![v11.toNat, 0, 54, 0]
def k0_off185 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_615 : BitVec 32 := 0#32
  let c55_i32 : BitVec 32 := 55#32
  let c0_i32_616 : BitVec 32 := 0#32
  ![v11.toNat, 0, 55, 0]
def k0_off186 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_626 : BitVec 32 := 0#32
  let c56_i32 : BitVec 32 := 56#32
  let c0_i32_627 : BitVec 32 := 0#32
  ![v11.toNat, 0, 56, 0]
def k0_off187 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_637 : BitVec 32 := 0#32
  let c57_i32 : BitVec 32 := 57#32
  let c0_i32_638 : BitVec 32 := 0#32
  ![v11.toNat, 0, 57, 0]
def k0_off188 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_648 : BitVec 32 := 0#32
  let c58_i32 : BitVec 32 := 58#32
  let c0_i32_649 : BitVec 32 := 0#32
  ![v11.toNat, 0, 58, 0]
def k0_off189 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_659 : BitVec 32 := 0#32
  let c59_i32 : BitVec 32 := 59#32
  let c0_i32_660 : BitVec 32 := 0#32
  ![v11.toNat, 0, 59, 0]
def k0_off190 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_670 : BitVec 32 := 0#32
  let c60_i32 : BitVec 32 := 60#32
  let c0_i32_671 : BitVec 32 := 0#32
  ![v11.toNat, 0, 60, 0]
def k0_off191 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_681 : BitVec 32 := 0#32
  let c61_i32 : BitVec 32 := 61#32
  let c0_i32_682 : BitVec 32 := 0#32
  ![v11.toNat, 0, 61, 0]
def k0_off192 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_692 : BitVec 32 := 0#32
  let c62_i32 : BitVec 32 := 62#32
  let c0_i32_693 : BitVec 32 := 0#32
  ![v11.toNat, 0, 62, 0]
def k0_off193 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_703 : BitVec 32 := 0#32
  let c63_i32 : BitVec 32 := 63#32
  let c0_i32_704 : BitVec 32 := 0#32
  ![v11.toNat, 0, 63, 0]
def k0_cond2 (i : grid0.Coords) : BitVec 1 :=
  let arg1 : BitVec 32 := BitVec.ofNat 32 (i 1).val
  let c1_i32_713 : BitVec 32 := 1#32
  let v783 : BitVec 32 := Scalar.addi arg1 c1_i32_713
  let c16_i32_714 : BitVec 32 := 16#32
  let v784 : BitVec 1 := Scalar.cmpi .slt v783 c16_i32_714
  let v785 : BitVec 32 := Scalar.extui v784
  let c0_i32_715 : BitVec 32 := 0#32
  let v786 : BitVec 1 := Scalar.cmpi .ne v785 c0_i32_715
  v786

def k0_off194 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32 : BitVec 32 := 64#32
  let v804 : BitVec 32 := Scalar.muli v802 c64_i32
  let c0_i32_727 : BitVec 32 := 0#32
  let v805 : BitVec 32 := Scalar.addi v804 c0_i32_727
  let v806 : Index := Scalar.indexCast v805
  ![v806.toNat]
def k0_off195 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off196 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_729 : BitVec 32 := 0#32
  let c0_i32_728 : BitVec 32 := 0#32
  let c0_i32_730 : BitVec 32 := 0#32
  ![v803.toNat, 0, 0, 0]
def k0_off197 (v807 : BitVec 32) : Fin 3 → Nat :=
  let c0_i32_731 : BitVec 32 := 0#32
  let c0_i32_732 : BitVec 32 := 0#32
  ![0, v807.toNat, 0]

def k0_chk65 (i : grid0.Coords) (v807 : BitVec 32) : Prop :=
  (∀ (k0_h2 : k0_cond2 i = 1#1), ∀ a, (k0_off197 v807) a + S8x1x1024.size a ≤ S8x4096x1024.size a)
instance k0_chk65.dec : ∀ (i : grid0.Coords) (v807 : BitVec 32), Decidable (k0_chk65 i v807) := fun i v807 => decidable_of_iff' _ (Iff.of_eq (k0_chk65.eq_1 i v807))
theorem k0_off197_inb : ∀ (i : grid0.Coords) (v807 : BitVec 32) (k0_hw65 : k0_chk65 i v807), ∀ (k0_h2 : k0_cond2 i = 1#1), ∀ a, (k0_off197 v807) a + S8x1x1024.size a ≤ S8x4096x1024.size a := fun i v807 k0_hw65 k0_h2 => k0_hw65 k0_h2

def k0_off198 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off199 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_734 : BitVec 32 := 0#32
  let c0_i32_733 : BitVec 32 := 0#32
  let c0_i32_735 : BitVec 32 := 0#32
  ![v803.toNat, 0, 0, 0]
def k0_off200 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_738 : BitVec 32 := 64#32
  let v820 : BitVec 32 := Scalar.muli v802 c64_i32_738
  let c1_i32_739 : BitVec 32 := 1#32
  let v821 : BitVec 32 := Scalar.addi v820 c1_i32_739
  let v822 : Index := Scalar.indexCast v821
  ![v822.toNat]
def k0_off201 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_741 : BitVec 32 := 0#32
  let c1_i32_740 : BitVec 32 := 1#32
  let c0_i32_742 : BitVec 32 := 0#32
  ![v803.toNat, 0, 1, 0]
def k0_off202 (v823 : BitVec 32) : Fin 3 → Nat :=
  let c0_i32_743 : BitVec 32 := 0#32
  let c0_i32_744 : BitVec 32 := 0#32
  ![0, v823.toNat, 0]

def k0_chk66 (i : grid0.Coords) (v823 : BitVec 32) : Prop :=
  (∀ (k0_h2 : k0_cond2 i = 1#1), ∀ a, (k0_off202 v823) a + S8x1x1024.size a ≤ S8x4096x1024.size a)
instance k0_chk66.dec : ∀ (i : grid0.Coords) (v823 : BitVec 32), Decidable (k0_chk66 i v823) := fun i v823 => decidable_of_iff' _ (Iff.of_eq (k0_chk66.eq_1 i v823))
theorem k0_off202_inb : ∀ (i : grid0.Coords) (v823 : BitVec 32) (k0_hw66 : k0_chk66 i v823), ∀ (k0_h2 : k0_cond2 i = 1#1), ∀ a, (k0_off202 v823) a + S8x1x1024.size a ≤ S8x4096x1024.size a := fun i v823 k0_hw66 k0_h2 => k0_hw66 k0_h2

def k0_off203 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off204 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_746 : BitVec 32 := 0#32
  let c1_i32_745 : BitVec 32 := 1#32
  let c0_i32_747 : BitVec 32 := 0#32
  ![v803.toNat, 0, 1, 0]
def k0_off205 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_750 : BitVec 32 := 64#32
  let v836 : BitVec 32 := Scalar.muli v802 c64_i32_750
  let c2_i32_751 : BitVec 32 := 2#32
  let v837 : BitVec 32 := Scalar.addi v836 c2_i32_751
  let v838 : Index := Scalar.indexCast v837
  ![v838.toNat]
def k0_off206 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_753 : BitVec 32 := 0#32
  let c2_i32_752 : BitVec 32 := 2#32
  let c0_i32_754 : BitVec 32 := 0#32
  ![v803.toNat, 0, 2, 0]
def k0_off207 (v839 : BitVec 32) : Fin 3 → Nat :=
  let c0_i32_755 : BitVec 32 := 0#32
  let c0_i32_756 : BitVec 32 := 0#32
  ![0, v839.toNat, 0]

def k0_chk67 (i : grid0.Coords) (v839 : BitVec 32) : Prop :=
  (∀ (k0_h2 : k0_cond2 i = 1#1), ∀ a, (k0_off207 v839) a + S8x1x1024.size a ≤ S8x4096x1024.size a)
instance k0_chk67.dec : ∀ (i : grid0.Coords) (v839 : BitVec 32), Decidable (k0_chk67 i v839) := fun i v839 => decidable_of_iff' _ (Iff.of_eq (k0_chk67.eq_1 i v839))
theorem k0_off207_inb : ∀ (i : grid0.Coords) (v839 : BitVec 32) (k0_hw67 : k0_chk67 i v839), ∀ (k0_h2 : k0_cond2 i = 1#1), ∀ a, (k0_off207 v839) a + S8x1x1024.size a ≤ S8x4096x1024.size a := fun i v839 k0_hw67 k0_h2 => k0_hw67 k0_h2

def k0_off208 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off209 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_758 : BitVec 32 := 0#32
  let c2_i32_757 : BitVec 32 := 2#32
  let c0_i32_759 : BitVec 32 := 0#32
  ![v803.toNat, 0, 2, 0]
def k0_off210 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_762 : BitVec 32 := 64#32
  let v852 : BitVec 32 := Scalar.muli v802 c64_i32_762
  let c3_i32_763 : BitVec 32 := 3#32
  let v853 : BitVec 32 := Scalar.addi v852 c3_i32_763
  let v854 : Index := Scalar.indexCast v853
  ![v854.toNat]
def k0_off211 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_765 : BitVec 32 := 0#32
  let c3_i32_764 : BitVec 32 := 3#32
  let c0_i32_766 : BitVec 32 := 0#32
  ![v803.toNat, 0, 3, 0]
def k0_off212 (v855 : BitVec 32) : Fin 3 → Nat :=
  let c0_i32_767 : BitVec 32 := 0#32
  let c0_i32_768 : BitVec 32 := 0#32
  ![0, v855.toNat, 0]

def k0_chk68 (i : grid0.Coords) (v855 : BitVec 32) : Prop :=
  (∀ (k0_h2 : k0_cond2 i = 1#1), ∀ a, (k0_off212 v855) a + S8x1x1024.size a ≤ S8x4096x1024.size a)
instance k0_chk68.dec : ∀ (i : grid0.Coords) (v855 : BitVec 32), Decidable (k0_chk68 i v855) := fun i v855 => decidable_of_iff' _ (Iff.of_eq (k0_chk68.eq_1 i v855))
theorem k0_off212_inb : ∀ (i : grid0.Coords) (v855 : BitVec 32) (k0_hw68 : k0_chk68 i v855), ∀ (k0_h2 : k0_cond2 i = 1#1), ∀ a, (k0_off212 v855) a + S8x1x1024.size a ≤ S8x4096x1024.size a := fun i v855 k0_hw68 k0_h2 => k0_hw68 k0_h2

def k0_off213 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off214 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_770 : BitVec 32 := 0#32
  let c3_i32_769 : BitVec 32 := 3#32
  let c0_i32_771 : BitVec 32 := 0#32
  ![v803.toNat, 0, 3, 0]
def k0_off215 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_774 : BitVec 32 := 64#32
  let v868 : BitVec 32 := Scalar.muli v802 c64_i32_774
  let c4_i32_775 : BitVec 32 := 4#32
  let v869 : BitVec 32 := Scalar.addi v868 c4_i32_775
  let v870 : Index := Scalar.indexCast v869
  ![v870.toNat]
def k0_off216 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_777 : BitVec 32 := 0#32
  let c4_i32_776 : BitVec 32 := 4#32
  let c0_i32_778 : BitVec 32 := 0#32
  ![v803.toNat, 0, 4, 0]
def k0_off217 (v871 : BitVec 32) : Fin 3 → Nat :=
  let c0_i32_779 : BitVec 32 := 0#32
  let c0_i32_780 : BitVec 32 := 0#32
  ![0, v871.toNat, 0]

def k0_chk69 (i : grid0.Coords) (v871 : BitVec 32) : Prop :=
  (∀ (k0_h2 : k0_cond2 i = 1#1), ∀ a, (k0_off217 v871) a + S8x1x1024.size a ≤ S8x4096x1024.size a)
instance k0_chk69.dec : ∀ (i : grid0.Coords) (v871 : BitVec 32), Decidable (k0_chk69 i v871) := fun i v871 => decidable_of_iff' _ (Iff.of_eq (k0_chk69.eq_1 i v871))
theorem k0_off217_inb : ∀ (i : grid0.Coords) (v871 : BitVec 32) (k0_hw69 : k0_chk69 i v871), ∀ (k0_h2 : k0_cond2 i = 1#1), ∀ a, (k0_off217 v871) a + S8x1x1024.size a ≤ S8x4096x1024.size a := fun i v871 k0_hw69 k0_h2 => k0_hw69 k0_h2

def k0_off218 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off219 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_782 : BitVec 32 := 0#32
  let c4_i32_781 : BitVec 32 := 4#32
  let c0_i32_783 : BitVec 32 := 0#32
  ![v803.toNat, 0, 4, 0]
def k0_off220 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_786 : BitVec 32 := 64#32
  let v884 : BitVec 32 := Scalar.muli v802 c64_i32_786
  let c5_i32_787 : BitVec 32 := 5#32
  let v885 : BitVec 32 := Scalar.addi v884 c5_i32_787
  let v886 : Index := Scalar.indexCast v885
  ![v886.toNat]
def k0_off221 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_789 : BitVec 32 := 0#32
  let c5_i32_788 : BitVec 32 := 5#32
  let c0_i32_790 : BitVec 32 := 0#32
  ![v803.toNat, 0, 5, 0]
def k0_off222 (v887 : BitVec 32) : Fin 3 → Nat :=
  let c0_i32_791 : BitVec 32 := 0#32
  let c0_i32_792 : BitVec 32 := 0#32
  ![0, v887.toNat, 0]

def k0_chk70 (i : grid0.Coords) (v887 : BitVec 32) : Prop :=
  (∀ (k0_h2 : k0_cond2 i = 1#1), ∀ a, (k0_off222 v887) a + S8x1x1024.size a ≤ S8x4096x1024.size a)
instance k0_chk70.dec : ∀ (i : grid0.Coords) (v887 : BitVec 32), Decidable (k0_chk70 i v887) := fun i v887 => decidable_of_iff' _ (Iff.of_eq (k0_chk70.eq_1 i v887))
theorem k0_off222_inb : ∀ (i : grid0.Coords) (v887 : BitVec 32) (k0_hw70 : k0_chk70 i v887), ∀ (k0_h2 : k0_cond2 i = 1#1), ∀ a, (k0_off222 v887) a + S8x1x1024.size a ≤ S8x4096x1024.size a := fun i v887 k0_hw70 k0_h2 => k0_hw70 k0_h2

def k0_off223 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off224 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_794 : BitVec 32 := 0#32
  let c5_i32_793 : BitVec 32 := 5#32
  let c0_i32_795 : BitVec 32 := 0#32
  ![v803.toNat, 0, 5, 0]
def k0_off225 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_798 : BitVec 32 := 64#32
  let v900 : BitVec 32 := Scalar.muli v802 c64_i32_798
  let c6_i32_799 : BitVec 32 := 6#32
  let v901 : BitVec 32 := Scalar.addi v900 c6_i32_799
  let v902 : Index := Scalar.indexCast v901
  ![v902.toNat]
def k0_off226 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_801 : BitVec 32 := 0#32
  let c6_i32_800 : BitVec 32 := 6#32
  let c0_i32_802 : BitVec 32 := 0#32
  ![v803.toNat, 0, 6, 0]
def k0_off227 (v903 : BitVec 32) : Fin 3 → Nat :=
  let c0_i32_803 : BitVec 32 := 0#32
  let c0_i32_804 : BitVec 32 := 0#32
  ![0, v903.toNat, 0]

def k0_chk71 (i : grid0.Coords) (v903 : BitVec 32) : Prop :=
  (∀ (k0_h2 : k0_cond2 i = 1#1), ∀ a, (k0_off227 v903) a + S8x1x1024.size a ≤ S8x4096x1024.size a)
instance k0_chk71.dec : ∀ (i : grid0.Coords) (v903 : BitVec 32), Decidable (k0_chk71 i v903) := fun i v903 => decidable_of_iff' _ (Iff.of_eq (k0_chk71.eq_1 i v903))
theorem k0_off227_inb : ∀ (i : grid0.Coords) (v903 : BitVec 32) (k0_hw71 : k0_chk71 i v903), ∀ (k0_h2 : k0_cond2 i = 1#1), ∀ a, (k0_off227 v903) a + S8x1x1024.size a ≤ S8x4096x1024.size a := fun i v903 k0_hw71 k0_h2 => k0_hw71 k0_h2

def k0_off228 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off229 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_806 : BitVec 32 := 0#32
  let c6_i32_805 : BitVec 32 := 6#32
  let c0_i32_807 : BitVec 32 := 0#32
  ![v803.toNat, 0, 6, 0]
def k0_off230 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_810 : BitVec 32 := 64#32
  let v916 : BitVec 32 := Scalar.muli v802 c64_i32_810
  let c7_i32_811 : BitVec 32 := 7#32
  let v917 : BitVec 32 := Scalar.addi v916 c7_i32_811
  let v918 : Index := Scalar.indexCast v917
  ![v918.toNat]
def k0_off231 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_813 : BitVec 32 := 0#32
  let c7_i32_812 : BitVec 32 := 7#32
  let c0_i32_814 : BitVec 32 := 0#32
  ![v803.toNat, 0, 7, 0]
def k0_off232 (v919 : BitVec 32) : Fin 3 → Nat :=
  let c0_i32_815 : BitVec 32 := 0#32
  let c0_i32_816 : BitVec 32 := 0#32
  ![0, v919.toNat, 0]

def k0_chk72 (i : grid0.Coords) (v919 : BitVec 32) : Prop :=
  (∀ (k0_h2 : k0_cond2 i = 1#1), ∀ a, (k0_off232 v919) a + S8x1x1024.size a ≤ S8x4096x1024.size a)
instance k0_chk72.dec : ∀ (i : grid0.Coords) (v919 : BitVec 32), Decidable (k0_chk72 i v919) := fun i v919 => decidable_of_iff' _ (Iff.of_eq (k0_chk72.eq_1 i v919))
theorem k0_off232_inb : ∀ (i : grid0.Coords) (v919 : BitVec 32) (k0_hw72 : k0_chk72 i v919), ∀ (k0_h2 : k0_cond2 i = 1#1), ∀ a, (k0_off232 v919) a + S8x1x1024.size a ≤ S8x4096x1024.size a := fun i v919 k0_hw72 k0_h2 => k0_hw72 k0_h2

def k0_off233 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off234 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_818 : BitVec 32 := 0#32
  let c7_i32_817 : BitVec 32 := 7#32
  let c0_i32_819 : BitVec 32 := 0#32
  ![v803.toNat, 0, 7, 0]
def k0_off235 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_822 : BitVec 32 := 64#32
  let v932 : BitVec 32 := Scalar.muli v802 c64_i32_822
  let c8_i32_823 : BitVec 32 := 8#32
  let v933 : BitVec 32 := Scalar.addi v932 c8_i32_823
  let v934 : Index := Scalar.indexCast v933
  ![v934.toNat]
def k0_off236 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_825 : BitVec 32 := 0#32
  let c8_i32_824 : BitVec 32 := 8#32
  let c0_i32_826 : BitVec 32 := 0#32
  ![v803.toNat, 0, 8, 0]
def k0_off237 (v935 : BitVec 32) : Fin 3 → Nat :=
  let c0_i32_827 : BitVec 32 := 0#32
  let c0_i32_828 : BitVec 32 := 0#32
  ![0, v935.toNat, 0]

def k0_chk73 (i : grid0.Coords) (v935 : BitVec 32) : Prop :=
  (∀ (k0_h2 : k0_cond2 i = 1#1), ∀ a, (k0_off237 v935) a + S8x1x1024.size a ≤ S8x4096x1024.size a)
instance k0_chk73.dec : ∀ (i : grid0.Coords) (v935 : BitVec 32), Decidable (k0_chk73 i v935) := fun i v935 => decidable_of_iff' _ (Iff.of_eq (k0_chk73.eq_1 i v935))
theorem k0_off237_inb : ∀ (i : grid0.Coords) (v935 : BitVec 32) (k0_hw73 : k0_chk73 i v935), ∀ (k0_h2 : k0_cond2 i = 1#1), ∀ a, (k0_off237 v935) a + S8x1x1024.size a ≤ S8x4096x1024.size a := fun i v935 k0_hw73 k0_h2 => k0_hw73 k0_h2

def k0_off238 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off239 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_830 : BitVec 32 := 0#32
  let c8_i32_829 : BitVec 32 := 8#32
  let c0_i32_831 : BitVec 32 := 0#32
  ![v803.toNat, 0, 8, 0]
def k0_off240 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_834 : BitVec 32 := 64#32
  let v948 : BitVec 32 := Scalar.muli v802 c64_i32_834
  let c9_i32_835 : BitVec 32 := 9#32
  let v949 : BitVec 32 := Scalar.addi v948 c9_i32_835
  let v950 : Index := Scalar.indexCast v949
  ![v950.toNat]
def k0_off241 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_837 : BitVec 32 := 0#32
  let c9_i32_836 : BitVec 32 := 9#32
  let c0_i32_838 : BitVec 32 := 0#32
  ![v803.toNat, 0, 9, 0]
def k0_off242 (v951 : BitVec 32) : Fin 3 → Nat :=
  let c0_i32_839 : BitVec 32 := 0#32
  let c0_i32_840 : BitVec 32 := 0#32
  ![0, v951.toNat, 0]

def k0_chk74 (i : grid0.Coords) (v951 : BitVec 32) : Prop :=
  (∀ (k0_h2 : k0_cond2 i = 1#1), ∀ a, (k0_off242 v951) a + S8x1x1024.size a ≤ S8x4096x1024.size a)
instance k0_chk74.dec : ∀ (i : grid0.Coords) (v951 : BitVec 32), Decidable (k0_chk74 i v951) := fun i v951 => decidable_of_iff' _ (Iff.of_eq (k0_chk74.eq_1 i v951))
theorem k0_off242_inb : ∀ (i : grid0.Coords) (v951 : BitVec 32) (k0_hw74 : k0_chk74 i v951), ∀ (k0_h2 : k0_cond2 i = 1#1), ∀ a, (k0_off242 v951) a + S8x1x1024.size a ≤ S8x4096x1024.size a := fun i v951 k0_hw74 k0_h2 => k0_hw74 k0_h2

def k0_off243 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off244 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_842 : BitVec 32 := 0#32
  let c9_i32_841 : BitVec 32 := 9#32
  let c0_i32_843 : BitVec 32 := 0#32
  ![v803.toNat, 0, 9, 0]
def k0_off245 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_846 : BitVec 32 := 64#32
  let v964 : BitVec 32 := Scalar.muli v802 c64_i32_846
  let c10_i32_847 : BitVec 32 := 10#32
  let v965 : BitVec 32 := Scalar.addi v964 c10_i32_847
  let v966 : Index := Scalar.indexCast v965
  ![v966.toNat]
def k0_off246 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_849 : BitVec 32 := 0#32
  let c10_i32_848 : BitVec 32 := 10#32
  let c0_i32_850 : BitVec 32 := 0#32
  ![v803.toNat, 0, 10, 0]
def k0_off247 (v967 : BitVec 32) : Fin 3 → Nat :=
  let c0_i32_851 : BitVec 32 := 0#32
  let c0_i32_852 : BitVec 32 := 0#32
  ![0, v967.toNat, 0]

def k0_chk75 (i : grid0.Coords) (v967 : BitVec 32) : Prop :=
  (∀ (k0_h2 : k0_cond2 i = 1#1), ∀ a, (k0_off247 v967) a + S8x1x1024.size a ≤ S8x4096x1024.size a)
instance k0_chk75.dec : ∀ (i : grid0.Coords) (v967 : BitVec 32), Decidable (k0_chk75 i v967) := fun i v967 => decidable_of_iff' _ (Iff.of_eq (k0_chk75.eq_1 i v967))
theorem k0_off247_inb : ∀ (i : grid0.Coords) (v967 : BitVec 32) (k0_hw75 : k0_chk75 i v967), ∀ (k0_h2 : k0_cond2 i = 1#1), ∀ a, (k0_off247 v967) a + S8x1x1024.size a ≤ S8x4096x1024.size a := fun i v967 k0_hw75 k0_h2 => k0_hw75 k0_h2

def k0_off248 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off249 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_854 : BitVec 32 := 0#32
  let c10_i32_853 : BitVec 32 := 10#32
  let c0_i32_855 : BitVec 32 := 0#32
  ![v803.toNat, 0, 10, 0]
def k0_off250 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_858 : BitVec 32 := 64#32
  let v980 : BitVec 32 := Scalar.muli v802 c64_i32_858
  let c11_i32_859 : BitVec 32 := 11#32
  let v981 : BitVec 32 := Scalar.addi v980 c11_i32_859
  let v982 : Index := Scalar.indexCast v981
  ![v982.toNat]
def k0_off251 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_861 : BitVec 32 := 0#32
  let c11_i32_860 : BitVec 32 := 11#32
  let c0_i32_862 : BitVec 32 := 0#32
  ![v803.toNat, 0, 11, 0]
def k0_off252 (v983 : BitVec 32) : Fin 3 → Nat :=
  let c0_i32_863 : BitVec 32 := 0#32
  let c0_i32_864 : BitVec 32 := 0#32
  ![0, v983.toNat, 0]

def k0_chk76 (i : grid0.Coords) (v983 : BitVec 32) : Prop :=
  (∀ (k0_h2 : k0_cond2 i = 1#1), ∀ a, (k0_off252 v983) a + S8x1x1024.size a ≤ S8x4096x1024.size a)
instance k0_chk76.dec : ∀ (i : grid0.Coords) (v983 : BitVec 32), Decidable (k0_chk76 i v983) := fun i v983 => decidable_of_iff' _ (Iff.of_eq (k0_chk76.eq_1 i v983))
theorem k0_off252_inb : ∀ (i : grid0.Coords) (v983 : BitVec 32) (k0_hw76 : k0_chk76 i v983), ∀ (k0_h2 : k0_cond2 i = 1#1), ∀ a, (k0_off252 v983) a + S8x1x1024.size a ≤ S8x4096x1024.size a := fun i v983 k0_hw76 k0_h2 => k0_hw76 k0_h2

def k0_off253 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off254 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_866 : BitVec 32 := 0#32
  let c11_i32_865 : BitVec 32 := 11#32
  let c0_i32_867 : BitVec 32 := 0#32
  ![v803.toNat, 0, 11, 0]
def k0_off255 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_870 : BitVec 32 := 64#32
  let v996 : BitVec 32 := Scalar.muli v802 c64_i32_870
  let c12_i32_871 : BitVec 32 := 12#32
  let v997 : BitVec 32 := Scalar.addi v996 c12_i32_871
  let v998 : Index := Scalar.indexCast v997
  ![v998.toNat]
def k0_off256 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_873 : BitVec 32 := 0#32
  let c12_i32_872 : BitVec 32 := 12#32
  let c0_i32_874 : BitVec 32 := 0#32
  ![v803.toNat, 0, 12, 0]
def k0_off257 (v999 : BitVec 32) : Fin 3 → Nat :=
  let c0_i32_875 : BitVec 32 := 0#32
  let c0_i32_876 : BitVec 32 := 0#32
  ![0, v999.toNat, 0]

def k0_chk77 (i : grid0.Coords) (v999 : BitVec 32) : Prop :=
  (∀ (k0_h2 : k0_cond2 i = 1#1), ∀ a, (k0_off257 v999) a + S8x1x1024.size a ≤ S8x4096x1024.size a)
instance k0_chk77.dec : ∀ (i : grid0.Coords) (v999 : BitVec 32), Decidable (k0_chk77 i v999) := fun i v999 => decidable_of_iff' _ (Iff.of_eq (k0_chk77.eq_1 i v999))
theorem k0_off257_inb : ∀ (i : grid0.Coords) (v999 : BitVec 32) (k0_hw77 : k0_chk77 i v999), ∀ (k0_h2 : k0_cond2 i = 1#1), ∀ a, (k0_off257 v999) a + S8x1x1024.size a ≤ S8x4096x1024.size a := fun i v999 k0_hw77 k0_h2 => k0_hw77 k0_h2

def k0_off258 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off259 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_878 : BitVec 32 := 0#32
  let c12_i32_877 : BitVec 32 := 12#32
  let c0_i32_879 : BitVec 32 := 0#32
  ![v803.toNat, 0, 12, 0]
def k0_off260 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_882 : BitVec 32 := 64#32
  let v1012 : BitVec 32 := Scalar.muli v802 c64_i32_882
  let c13_i32_883 : BitVec 32 := 13#32
  let v1013 : BitVec 32 := Scalar.addi v1012 c13_i32_883
  let v1014 : Index := Scalar.indexCast v1013
  ![v1014.toNat]
def k0_off261 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_885 : BitVec 32 := 0#32
  let c13_i32_884 : BitVec 32 := 13#32
  let c0_i32_886 : BitVec 32 := 0#32
  ![v803.toNat, 0, 13, 0]
def k0_off262 (v1015 : BitVec 32) : Fin 3 → Nat :=
  let c0_i32_887 : BitVec 32 := 0#32
  let c0_i32_888 : BitVec 32 := 0#32
  ![0, v1015.toNat, 0]

def k0_chk78 (i : grid0.Coords) (v1015 : BitVec 32) : Prop :=
  (∀ (k0_h2 : k0_cond2 i = 1#1), ∀ a, (k0_off262 v1015) a + S8x1x1024.size a ≤ S8x4096x1024.size a)
instance k0_chk78.dec : ∀ (i : grid0.Coords) (v1015 : BitVec 32), Decidable (k0_chk78 i v1015) := fun i v1015 => decidable_of_iff' _ (Iff.of_eq (k0_chk78.eq_1 i v1015))
theorem k0_off262_inb : ∀ (i : grid0.Coords) (v1015 : BitVec 32) (k0_hw78 : k0_chk78 i v1015), ∀ (k0_h2 : k0_cond2 i = 1#1), ∀ a, (k0_off262 v1015) a + S8x1x1024.size a ≤ S8x4096x1024.size a := fun i v1015 k0_hw78 k0_h2 => k0_hw78 k0_h2

def k0_off263 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off264 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_890 : BitVec 32 := 0#32
  let c13_i32_889 : BitVec 32 := 13#32
  let c0_i32_891 : BitVec 32 := 0#32
  ![v803.toNat, 0, 13, 0]
def k0_off265 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_894 : BitVec 32 := 64#32
  let v1028 : BitVec 32 := Scalar.muli v802 c64_i32_894
  let c14_i32_895 : BitVec 32 := 14#32
  let v1029 : BitVec 32 := Scalar.addi v1028 c14_i32_895
  let v1030 : Index := Scalar.indexCast v1029
  ![v1030.toNat]
def k0_off266 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_897 : BitVec 32 := 0#32
  let c14_i32_896 : BitVec 32 := 14#32
  let c0_i32_898 : BitVec 32 := 0#32
  ![v803.toNat, 0, 14, 0]
def k0_off267 (v1031 : BitVec 32) : Fin 3 → Nat :=
  let c0_i32_899 : BitVec 32 := 0#32
  let c0_i32_900 : BitVec 32 := 0#32
  ![0, v1031.toNat, 0]

def k0_chk79 (i : grid0.Coords) (v1031 : BitVec 32) : Prop :=
  (∀ (k0_h2 : k0_cond2 i = 1#1), ∀ a, (k0_off267 v1031) a + S8x1x1024.size a ≤ S8x4096x1024.size a)
instance k0_chk79.dec : ∀ (i : grid0.Coords) (v1031 : BitVec 32), Decidable (k0_chk79 i v1031) := fun i v1031 => decidable_of_iff' _ (Iff.of_eq (k0_chk79.eq_1 i v1031))
theorem k0_off267_inb : ∀ (i : grid0.Coords) (v1031 : BitVec 32) (k0_hw79 : k0_chk79 i v1031), ∀ (k0_h2 : k0_cond2 i = 1#1), ∀ a, (k0_off267 v1031) a + S8x1x1024.size a ≤ S8x4096x1024.size a := fun i v1031 k0_hw79 k0_h2 => k0_hw79 k0_h2

def k0_off268 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off269 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_902 : BitVec 32 := 0#32
  let c14_i32_901 : BitVec 32 := 14#32
  let c0_i32_903 : BitVec 32 := 0#32
  ![v803.toNat, 0, 14, 0]
def k0_off270 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_906 : BitVec 32 := 64#32
  let v1044 : BitVec 32 := Scalar.muli v802 c64_i32_906
  let c15_i32_907 : BitVec 32 := 15#32
  let v1045 : BitVec 32 := Scalar.addi v1044 c15_i32_907
  let v1046 : Index := Scalar.indexCast v1045
  ![v1046.toNat]
def k0_off271 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_909 : BitVec 32 := 0#32
  let c15_i32_908 : BitVec 32 := 15#32
  let c0_i32_910 : BitVec 32 := 0#32
  ![v803.toNat, 0, 15, 0]
def k0_off272 (v1047 : BitVec 32) : Fin 3 → Nat :=
  let c0_i32_911 : BitVec 32 := 0#32
  let c0_i32_912 : BitVec 32 := 0#32
  ![0, v1047.toNat, 0]

def k0_chk80 (i : grid0.Coords) (v1047 : BitVec 32) : Prop :=
  (∀ (k0_h2 : k0_cond2 i = 1#1), ∀ a, (k0_off272 v1047) a + S8x1x1024.size a ≤ S8x4096x1024.size a)
instance k0_chk80.dec : ∀ (i : grid0.Coords) (v1047 : BitVec 32), Decidable (k0_chk80 i v1047) := fun i v1047 => decidable_of_iff' _ (Iff.of_eq (k0_chk80.eq_1 i v1047))
theorem k0_off272_inb : ∀ (i : grid0.Coords) (v1047 : BitVec 32) (k0_hw80 : k0_chk80 i v1047), ∀ (k0_h2 : k0_cond2 i = 1#1), ∀ a, (k0_off272 v1047) a + S8x1x1024.size a ≤ S8x4096x1024.size a := fun i v1047 k0_hw80 k0_h2 => k0_hw80 k0_h2

def k0_off273 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off274 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_914 : BitVec 32 := 0#32
  let c15_i32_913 : BitVec 32 := 15#32
  let c0_i32_915 : BitVec 32 := 0#32
  ![v803.toNat, 0, 15, 0]
def k0_off275 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_918 : BitVec 32 := 64#32
  let v1060 : BitVec 32 := Scalar.muli v802 c64_i32_918
  let c16_i32_919 : BitVec 32 := 16#32
  let v1061 : BitVec 32 := Scalar.addi v1060 c16_i32_919
  let v1062 : Index := Scalar.indexCast v1061
  ![v1062.toNat]
def k0_off276 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_921 : BitVec 32 := 0#32
  let c16_i32_920 : BitVec 32 := 16#32
  let c0_i32_922 : BitVec 32 := 0#32
  ![v803.toNat, 0, 16, 0]
def k0_off277 (v1063 : BitVec 32) : Fin 3 → Nat :=
  let c0_i32_923 : BitVec 32 := 0#32
  let c0_i32_924 : BitVec 32 := 0#32
  ![0, v1063.toNat, 0]

def k0_chk81 (i : grid0.Coords) (v1063 : BitVec 32) : Prop :=
  (∀ (k0_h2 : k0_cond2 i = 1#1), ∀ a, (k0_off277 v1063) a + S8x1x1024.size a ≤ S8x4096x1024.size a)
instance k0_chk81.dec : ∀ (i : grid0.Coords) (v1063 : BitVec 32), Decidable (k0_chk81 i v1063) := fun i v1063 => decidable_of_iff' _ (Iff.of_eq (k0_chk81.eq_1 i v1063))
theorem k0_off277_inb : ∀ (i : grid0.Coords) (v1063 : BitVec 32) (k0_hw81 : k0_chk81 i v1063), ∀ (k0_h2 : k0_cond2 i = 1#1), ∀ a, (k0_off277 v1063) a + S8x1x1024.size a ≤ S8x4096x1024.size a := fun i v1063 k0_hw81 k0_h2 => k0_hw81 k0_h2

def k0_off278 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off279 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_926 : BitVec 32 := 0#32
  let c16_i32_925 : BitVec 32 := 16#32
  let c0_i32_927 : BitVec 32 := 0#32
  ![v803.toNat, 0, 16, 0]
def k0_off280 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_930 : BitVec 32 := 64#32
  let v1076 : BitVec 32 := Scalar.muli v802 c64_i32_930
  let c17_i32_931 : BitVec 32 := 17#32
  let v1077 : BitVec 32 := Scalar.addi v1076 c17_i32_931
  let v1078 : Index := Scalar.indexCast v1077
  ![v1078.toNat]
def k0_off281 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_933 : BitVec 32 := 0#32
  let c17_i32_932 : BitVec 32 := 17#32
  let c0_i32_934 : BitVec 32 := 0#32
  ![v803.toNat, 0, 17, 0]
def k0_off282 (v1079 : BitVec 32) : Fin 3 → Nat :=
  let c0_i32_935 : BitVec 32 := 0#32
  let c0_i32_936 : BitVec 32 := 0#32
  ![0, v1079.toNat, 0]

def k0_chk82 (i : grid0.Coords) (v1079 : BitVec 32) : Prop :=
  (∀ (k0_h2 : k0_cond2 i = 1#1), ∀ a, (k0_off282 v1079) a + S8x1x1024.size a ≤ S8x4096x1024.size a)
instance k0_chk82.dec : ∀ (i : grid0.Coords) (v1079 : BitVec 32), Decidable (k0_chk82 i v1079) := fun i v1079 => decidable_of_iff' _ (Iff.of_eq (k0_chk82.eq_1 i v1079))
theorem k0_off282_inb : ∀ (i : grid0.Coords) (v1079 : BitVec 32) (k0_hw82 : k0_chk82 i v1079), ∀ (k0_h2 : k0_cond2 i = 1#1), ∀ a, (k0_off282 v1079) a + S8x1x1024.size a ≤ S8x4096x1024.size a := fun i v1079 k0_hw82 k0_h2 => k0_hw82 k0_h2

def k0_off283 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off284 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_938 : BitVec 32 := 0#32
  let c17_i32_937 : BitVec 32 := 17#32
  let c0_i32_939 : BitVec 32 := 0#32
  ![v803.toNat, 0, 17, 0]
def k0_off285 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_942 : BitVec 32 := 64#32
  let v1092 : BitVec 32 := Scalar.muli v802 c64_i32_942
  let c18_i32_943 : BitVec 32 := 18#32
  let v1093 : BitVec 32 := Scalar.addi v1092 c18_i32_943
  let v1094 : Index := Scalar.indexCast v1093
  ![v1094.toNat]
def k0_off286 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_945 : BitVec 32 := 0#32
  let c18_i32_944 : BitVec 32 := 18#32
  let c0_i32_946 : BitVec 32 := 0#32
  ![v803.toNat, 0, 18, 0]
def k0_off287 (v1095 : BitVec 32) : Fin 3 → Nat :=
  let c0_i32_947 : BitVec 32 := 0#32
  let c0_i32_948 : BitVec 32 := 0#32
  ![0, v1095.toNat, 0]

def k0_chk83 (i : grid0.Coords) (v1095 : BitVec 32) : Prop :=
  (∀ (k0_h2 : k0_cond2 i = 1#1), ∀ a, (k0_off287 v1095) a + S8x1x1024.size a ≤ S8x4096x1024.size a)
instance k0_chk83.dec : ∀ (i : grid0.Coords) (v1095 : BitVec 32), Decidable (k0_chk83 i v1095) := fun i v1095 => decidable_of_iff' _ (Iff.of_eq (k0_chk83.eq_1 i v1095))
theorem k0_off287_inb : ∀ (i : grid0.Coords) (v1095 : BitVec 32) (k0_hw83 : k0_chk83 i v1095), ∀ (k0_h2 : k0_cond2 i = 1#1), ∀ a, (k0_off287 v1095) a + S8x1x1024.size a ≤ S8x4096x1024.size a := fun i v1095 k0_hw83 k0_h2 => k0_hw83 k0_h2

def k0_off288 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off289 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_950 : BitVec 32 := 0#32
  let c18_i32_949 : BitVec 32 := 18#32
  let c0_i32_951 : BitVec 32 := 0#32
  ![v803.toNat, 0, 18, 0]
def k0_off290 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_954 : BitVec 32 := 64#32
  let v1108 : BitVec 32 := Scalar.muli v802 c64_i32_954
  let c19_i32_955 : BitVec 32 := 19#32
  let v1109 : BitVec 32 := Scalar.addi v1108 c19_i32_955
  let v1110 : Index := Scalar.indexCast v1109
  ![v1110.toNat]
def k0_off291 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_957 : BitVec 32 := 0#32
  let c19_i32_956 : BitVec 32 := 19#32
  let c0_i32_958 : BitVec 32 := 0#32
  ![v803.toNat, 0, 19, 0]
def k0_off292 (v1111 : BitVec 32) : Fin 3 → Nat :=
  let c0_i32_959 : BitVec 32 := 0#32
  let c0_i32_960 : BitVec 32 := 0#32
  ![0, v1111.toNat, 0]

def k0_chk84 (i : grid0.Coords) (v1111 : BitVec 32) : Prop :=
  (∀ (k0_h2 : k0_cond2 i = 1#1), ∀ a, (k0_off292 v1111) a + S8x1x1024.size a ≤ S8x4096x1024.size a)
instance k0_chk84.dec : ∀ (i : grid0.Coords) (v1111 : BitVec 32), Decidable (k0_chk84 i v1111) := fun i v1111 => decidable_of_iff' _ (Iff.of_eq (k0_chk84.eq_1 i v1111))
theorem k0_off292_inb : ∀ (i : grid0.Coords) (v1111 : BitVec 32) (k0_hw84 : k0_chk84 i v1111), ∀ (k0_h2 : k0_cond2 i = 1#1), ∀ a, (k0_off292 v1111) a + S8x1x1024.size a ≤ S8x4096x1024.size a := fun i v1111 k0_hw84 k0_h2 => k0_hw84 k0_h2

def k0_off293 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off294 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_962 : BitVec 32 := 0#32
  let c19_i32_961 : BitVec 32 := 19#32
  let c0_i32_963 : BitVec 32 := 0#32
  ![v803.toNat, 0, 19, 0]
def k0_off295 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_966 : BitVec 32 := 64#32
  let v1124 : BitVec 32 := Scalar.muli v802 c64_i32_966
  let c20_i32_967 : BitVec 32 := 20#32
  let v1125 : BitVec 32 := Scalar.addi v1124 c20_i32_967
  let v1126 : Index := Scalar.indexCast v1125
  ![v1126.toNat]
def k0_off296 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_969 : BitVec 32 := 0#32
  let c20_i32_968 : BitVec 32 := 20#32
  let c0_i32_970 : BitVec 32 := 0#32
  ![v803.toNat, 0, 20, 0]
def k0_off297 (v1127 : BitVec 32) : Fin 3 → Nat :=
  let c0_i32_971 : BitVec 32 := 0#32
  let c0_i32_972 : BitVec 32 := 0#32
  ![0, v1127.toNat, 0]

def k0_chk85 (i : grid0.Coords) (v1127 : BitVec 32) : Prop :=
  (∀ (k0_h2 : k0_cond2 i = 1#1), ∀ a, (k0_off297 v1127) a + S8x1x1024.size a ≤ S8x4096x1024.size a)
instance k0_chk85.dec : ∀ (i : grid0.Coords) (v1127 : BitVec 32), Decidable (k0_chk85 i v1127) := fun i v1127 => decidable_of_iff' _ (Iff.of_eq (k0_chk85.eq_1 i v1127))
theorem k0_off297_inb : ∀ (i : grid0.Coords) (v1127 : BitVec 32) (k0_hw85 : k0_chk85 i v1127), ∀ (k0_h2 : k0_cond2 i = 1#1), ∀ a, (k0_off297 v1127) a + S8x1x1024.size a ≤ S8x4096x1024.size a := fun i v1127 k0_hw85 k0_h2 => k0_hw85 k0_h2

def k0_off298 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off299 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_974 : BitVec 32 := 0#32
  let c20_i32_973 : BitVec 32 := 20#32
  let c0_i32_975 : BitVec 32 := 0#32
  ![v803.toNat, 0, 20, 0]
def k0_off300 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_978 : BitVec 32 := 64#32
  let v1140 : BitVec 32 := Scalar.muli v802 c64_i32_978
  let c21_i32_979 : BitVec 32 := 21#32
  let v1141 : BitVec 32 := Scalar.addi v1140 c21_i32_979
  let v1142 : Index := Scalar.indexCast v1141
  ![v1142.toNat]
def k0_off301 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_981 : BitVec 32 := 0#32
  let c21_i32_980 : BitVec 32 := 21#32
  let c0_i32_982 : BitVec 32 := 0#32
  ![v803.toNat, 0, 21, 0]
def k0_off302 (v1143 : BitVec 32) : Fin 3 → Nat :=
  let c0_i32_983 : BitVec 32 := 0#32
  let c0_i32_984 : BitVec 32 := 0#32
  ![0, v1143.toNat, 0]

def k0_chk86 (i : grid0.Coords) (v1143 : BitVec 32) : Prop :=
  (∀ (k0_h2 : k0_cond2 i = 1#1), ∀ a, (k0_off302 v1143) a + S8x1x1024.size a ≤ S8x4096x1024.size a)
instance k0_chk86.dec : ∀ (i : grid0.Coords) (v1143 : BitVec 32), Decidable (k0_chk86 i v1143) := fun i v1143 => decidable_of_iff' _ (Iff.of_eq (k0_chk86.eq_1 i v1143))
theorem k0_off302_inb : ∀ (i : grid0.Coords) (v1143 : BitVec 32) (k0_hw86 : k0_chk86 i v1143), ∀ (k0_h2 : k0_cond2 i = 1#1), ∀ a, (k0_off302 v1143) a + S8x1x1024.size a ≤ S8x4096x1024.size a := fun i v1143 k0_hw86 k0_h2 => k0_hw86 k0_h2

def k0_off303 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off304 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_986 : BitVec 32 := 0#32
  let c21_i32_985 : BitVec 32 := 21#32
  let c0_i32_987 : BitVec 32 := 0#32
  ![v803.toNat, 0, 21, 0]
def k0_off305 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_990 : BitVec 32 := 64#32
  let v1156 : BitVec 32 := Scalar.muli v802 c64_i32_990
  let c22_i32_991 : BitVec 32 := 22#32
  let v1157 : BitVec 32 := Scalar.addi v1156 c22_i32_991
  let v1158 : Index := Scalar.indexCast v1157
  ![v1158.toNat]
def k0_off306 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_993 : BitVec 32 := 0#32
  let c22_i32_992 : BitVec 32 := 22#32
  let c0_i32_994 : BitVec 32 := 0#32
  ![v803.toNat, 0, 22, 0]
def k0_off307 (v1159 : BitVec 32) : Fin 3 → Nat :=
  let c0_i32_995 : BitVec 32 := 0#32
  let c0_i32_996 : BitVec 32 := 0#32
  ![0, v1159.toNat, 0]

def k0_chk87 (i : grid0.Coords) (v1159 : BitVec 32) : Prop :=
  (∀ (k0_h2 : k0_cond2 i = 1#1), ∀ a, (k0_off307 v1159) a + S8x1x1024.size a ≤ S8x4096x1024.size a)
instance k0_chk87.dec : ∀ (i : grid0.Coords) (v1159 : BitVec 32), Decidable (k0_chk87 i v1159) := fun i v1159 => decidable_of_iff' _ (Iff.of_eq (k0_chk87.eq_1 i v1159))
theorem k0_off307_inb : ∀ (i : grid0.Coords) (v1159 : BitVec 32) (k0_hw87 : k0_chk87 i v1159), ∀ (k0_h2 : k0_cond2 i = 1#1), ∀ a, (k0_off307 v1159) a + S8x1x1024.size a ≤ S8x4096x1024.size a := fun i v1159 k0_hw87 k0_h2 => k0_hw87 k0_h2

def k0_off308 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off309 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_998 : BitVec 32 := 0#32
  let c22_i32_997 : BitVec 32 := 22#32
  let c0_i32_999 : BitVec 32 := 0#32
  ![v803.toNat, 0, 22, 0]
def k0_off310 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1002 : BitVec 32 := 64#32
  let v1172 : BitVec 32 := Scalar.muli v802 c64_i32_1002
  let c23_i32_1003 : BitVec 32 := 23#32
  let v1173 : BitVec 32 := Scalar.addi v1172 c23_i32_1003
  let v1174 : Index := Scalar.indexCast v1173
  ![v1174.toNat]
def k0_off311 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1005 : BitVec 32 := 0#32
  let c23_i32_1004 : BitVec 32 := 23#32
  let c0_i32_1006 : BitVec 32 := 0#32
  ![v803.toNat, 0, 23, 0]
def k0_off312 (v1175 : BitVec 32) : Fin 3 → Nat :=
  let c0_i32_1007 : BitVec 32 := 0#32
  let c0_i32_1008 : BitVec 32 := 0#32
  ![0, v1175.toNat, 0]

def k0_chk88 (i : grid0.Coords) (v1175 : BitVec 32) : Prop :=
  (∀ (k0_h2 : k0_cond2 i = 1#1), ∀ a, (k0_off312 v1175) a + S8x1x1024.size a ≤ S8x4096x1024.size a)
instance k0_chk88.dec : ∀ (i : grid0.Coords) (v1175 : BitVec 32), Decidable (k0_chk88 i v1175) := fun i v1175 => decidable_of_iff' _ (Iff.of_eq (k0_chk88.eq_1 i v1175))
theorem k0_off312_inb : ∀ (i : grid0.Coords) (v1175 : BitVec 32) (k0_hw88 : k0_chk88 i v1175), ∀ (k0_h2 : k0_cond2 i = 1#1), ∀ a, (k0_off312 v1175) a + S8x1x1024.size a ≤ S8x4096x1024.size a := fun i v1175 k0_hw88 k0_h2 => k0_hw88 k0_h2

def k0_off313 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off314 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1010 : BitVec 32 := 0#32
  let c23_i32_1009 : BitVec 32 := 23#32
  let c0_i32_1011 : BitVec 32 := 0#32
  ![v803.toNat, 0, 23, 0]
def k0_off315 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1014 : BitVec 32 := 64#32
  let v1188 : BitVec 32 := Scalar.muli v802 c64_i32_1014
  let c24_i32_1015 : BitVec 32 := 24#32
  let v1189 : BitVec 32 := Scalar.addi v1188 c24_i32_1015
  let v1190 : Index := Scalar.indexCast v1189
  ![v1190.toNat]
def k0_off316 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1017 : BitVec 32 := 0#32
  let c24_i32_1016 : BitVec 32 := 24#32
  let c0_i32_1018 : BitVec 32 := 0#32
  ![v803.toNat, 0, 24, 0]
def k0_off317 (v1191 : BitVec 32) : Fin 3 → Nat :=
  let c0_i32_1019 : BitVec 32 := 0#32
  let c0_i32_1020 : BitVec 32 := 0#32
  ![0, v1191.toNat, 0]

def k0_chk89 (i : grid0.Coords) (v1191 : BitVec 32) : Prop :=
  (∀ (k0_h2 : k0_cond2 i = 1#1), ∀ a, (k0_off317 v1191) a + S8x1x1024.size a ≤ S8x4096x1024.size a)
instance k0_chk89.dec : ∀ (i : grid0.Coords) (v1191 : BitVec 32), Decidable (k0_chk89 i v1191) := fun i v1191 => decidable_of_iff' _ (Iff.of_eq (k0_chk89.eq_1 i v1191))
theorem k0_off317_inb : ∀ (i : grid0.Coords) (v1191 : BitVec 32) (k0_hw89 : k0_chk89 i v1191), ∀ (k0_h2 : k0_cond2 i = 1#1), ∀ a, (k0_off317 v1191) a + S8x1x1024.size a ≤ S8x4096x1024.size a := fun i v1191 k0_hw89 k0_h2 => k0_hw89 k0_h2

def k0_off318 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off319 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1022 : BitVec 32 := 0#32
  let c24_i32_1021 : BitVec 32 := 24#32
  let c0_i32_1023 : BitVec 32 := 0#32
  ![v803.toNat, 0, 24, 0]
def k0_off320 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1026 : BitVec 32 := 64#32
  let v1204 : BitVec 32 := Scalar.muli v802 c64_i32_1026
  let c25_i32_1027 : BitVec 32 := 25#32
  let v1205 : BitVec 32 := Scalar.addi v1204 c25_i32_1027
  let v1206 : Index := Scalar.indexCast v1205
  ![v1206.toNat]
def k0_off321 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1029 : BitVec 32 := 0#32
  let c25_i32_1028 : BitVec 32 := 25#32
  let c0_i32_1030 : BitVec 32 := 0#32
  ![v803.toNat, 0, 25, 0]
def k0_off322 (v1207 : BitVec 32) : Fin 3 → Nat :=
  let c0_i32_1031 : BitVec 32 := 0#32
  let c0_i32_1032 : BitVec 32 := 0#32
  ![0, v1207.toNat, 0]

def k0_chk90 (i : grid0.Coords) (v1207 : BitVec 32) : Prop :=
  (∀ (k0_h2 : k0_cond2 i = 1#1), ∀ a, (k0_off322 v1207) a + S8x1x1024.size a ≤ S8x4096x1024.size a)
instance k0_chk90.dec : ∀ (i : grid0.Coords) (v1207 : BitVec 32), Decidable (k0_chk90 i v1207) := fun i v1207 => decidable_of_iff' _ (Iff.of_eq (k0_chk90.eq_1 i v1207))
theorem k0_off322_inb : ∀ (i : grid0.Coords) (v1207 : BitVec 32) (k0_hw90 : k0_chk90 i v1207), ∀ (k0_h2 : k0_cond2 i = 1#1), ∀ a, (k0_off322 v1207) a + S8x1x1024.size a ≤ S8x4096x1024.size a := fun i v1207 k0_hw90 k0_h2 => k0_hw90 k0_h2

def k0_off323 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off324 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1034 : BitVec 32 := 0#32
  let c25_i32_1033 : BitVec 32 := 25#32
  let c0_i32_1035 : BitVec 32 := 0#32
  ![v803.toNat, 0, 25, 0]
def k0_off325 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1038 : BitVec 32 := 64#32
  let v1220 : BitVec 32 := Scalar.muli v802 c64_i32_1038
  let c26_i32_1039 : BitVec 32 := 26#32
  let v1221 : BitVec 32 := Scalar.addi v1220 c26_i32_1039
  let v1222 : Index := Scalar.indexCast v1221
  ![v1222.toNat]
def k0_off326 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1041 : BitVec 32 := 0#32
  let c26_i32_1040 : BitVec 32 := 26#32
  let c0_i32_1042 : BitVec 32 := 0#32
  ![v803.toNat, 0, 26, 0]
def k0_off327 (v1223 : BitVec 32) : Fin 3 → Nat :=
  let c0_i32_1043 : BitVec 32 := 0#32
  let c0_i32_1044 : BitVec 32 := 0#32
  ![0, v1223.toNat, 0]

def k0_chk91 (i : grid0.Coords) (v1223 : BitVec 32) : Prop :=
  (∀ (k0_h2 : k0_cond2 i = 1#1), ∀ a, (k0_off327 v1223) a + S8x1x1024.size a ≤ S8x4096x1024.size a)
instance k0_chk91.dec : ∀ (i : grid0.Coords) (v1223 : BitVec 32), Decidable (k0_chk91 i v1223) := fun i v1223 => decidable_of_iff' _ (Iff.of_eq (k0_chk91.eq_1 i v1223))
theorem k0_off327_inb : ∀ (i : grid0.Coords) (v1223 : BitVec 32) (k0_hw91 : k0_chk91 i v1223), ∀ (k0_h2 : k0_cond2 i = 1#1), ∀ a, (k0_off327 v1223) a + S8x1x1024.size a ≤ S8x4096x1024.size a := fun i v1223 k0_hw91 k0_h2 => k0_hw91 k0_h2

def k0_off328 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off329 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1046 : BitVec 32 := 0#32
  let c26_i32_1045 : BitVec 32 := 26#32
  let c0_i32_1047 : BitVec 32 := 0#32
  ![v803.toNat, 0, 26, 0]
def k0_off330 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1050 : BitVec 32 := 64#32
  let v1236 : BitVec 32 := Scalar.muli v802 c64_i32_1050
  let c27_i32_1051 : BitVec 32 := 27#32
  let v1237 : BitVec 32 := Scalar.addi v1236 c27_i32_1051
  let v1238 : Index := Scalar.indexCast v1237
  ![v1238.toNat]
def k0_off331 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1053 : BitVec 32 := 0#32
  let c27_i32_1052 : BitVec 32 := 27#32
  let c0_i32_1054 : BitVec 32 := 0#32
  ![v803.toNat, 0, 27, 0]
def k0_off332 (v1239 : BitVec 32) : Fin 3 → Nat :=
  let c0_i32_1055 : BitVec 32 := 0#32
  let c0_i32_1056 : BitVec 32 := 0#32
  ![0, v1239.toNat, 0]

def k0_chk92 (i : grid0.Coords) (v1239 : BitVec 32) : Prop :=
  (∀ (k0_h2 : k0_cond2 i = 1#1), ∀ a, (k0_off332 v1239) a + S8x1x1024.size a ≤ S8x4096x1024.size a)
instance k0_chk92.dec : ∀ (i : grid0.Coords) (v1239 : BitVec 32), Decidable (k0_chk92 i v1239) := fun i v1239 => decidable_of_iff' _ (Iff.of_eq (k0_chk92.eq_1 i v1239))
theorem k0_off332_inb : ∀ (i : grid0.Coords) (v1239 : BitVec 32) (k0_hw92 : k0_chk92 i v1239), ∀ (k0_h2 : k0_cond2 i = 1#1), ∀ a, (k0_off332 v1239) a + S8x1x1024.size a ≤ S8x4096x1024.size a := fun i v1239 k0_hw92 k0_h2 => k0_hw92 k0_h2

def k0_off333 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off334 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1058 : BitVec 32 := 0#32
  let c27_i32_1057 : BitVec 32 := 27#32
  let c0_i32_1059 : BitVec 32 := 0#32
  ![v803.toNat, 0, 27, 0]
def k0_off335 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1062 : BitVec 32 := 64#32
  let v1252 : BitVec 32 := Scalar.muli v802 c64_i32_1062
  let c28_i32_1063 : BitVec 32 := 28#32
  let v1253 : BitVec 32 := Scalar.addi v1252 c28_i32_1063
  let v1254 : Index := Scalar.indexCast v1253
  ![v1254.toNat]
def k0_off336 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1065 : BitVec 32 := 0#32
  let c28_i32_1064 : BitVec 32 := 28#32
  let c0_i32_1066 : BitVec 32 := 0#32
  ![v803.toNat, 0, 28, 0]
def k0_off337 (v1255 : BitVec 32) : Fin 3 → Nat :=
  let c0_i32_1067 : BitVec 32 := 0#32
  let c0_i32_1068 : BitVec 32 := 0#32
  ![0, v1255.toNat, 0]

def k0_chk93 (i : grid0.Coords) (v1255 : BitVec 32) : Prop :=
  (∀ (k0_h2 : k0_cond2 i = 1#1), ∀ a, (k0_off337 v1255) a + S8x1x1024.size a ≤ S8x4096x1024.size a)
instance k0_chk93.dec : ∀ (i : grid0.Coords) (v1255 : BitVec 32), Decidable (k0_chk93 i v1255) := fun i v1255 => decidable_of_iff' _ (Iff.of_eq (k0_chk93.eq_1 i v1255))
theorem k0_off337_inb : ∀ (i : grid0.Coords) (v1255 : BitVec 32) (k0_hw93 : k0_chk93 i v1255), ∀ (k0_h2 : k0_cond2 i = 1#1), ∀ a, (k0_off337 v1255) a + S8x1x1024.size a ≤ S8x4096x1024.size a := fun i v1255 k0_hw93 k0_h2 => k0_hw93 k0_h2

def k0_off338 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off339 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1070 : BitVec 32 := 0#32
  let c28_i32_1069 : BitVec 32 := 28#32
  let c0_i32_1071 : BitVec 32 := 0#32
  ![v803.toNat, 0, 28, 0]
def k0_off340 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1074 : BitVec 32 := 64#32
  let v1268 : BitVec 32 := Scalar.muli v802 c64_i32_1074
  let c29_i32_1075 : BitVec 32 := 29#32
  let v1269 : BitVec 32 := Scalar.addi v1268 c29_i32_1075
  let v1270 : Index := Scalar.indexCast v1269
  ![v1270.toNat]
def k0_off341 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1077 : BitVec 32 := 0#32
  let c29_i32_1076 : BitVec 32 := 29#32
  let c0_i32_1078 : BitVec 32 := 0#32
  ![v803.toNat, 0, 29, 0]
def k0_off342 (v1271 : BitVec 32) : Fin 3 → Nat :=
  let c0_i32_1079 : BitVec 32 := 0#32
  let c0_i32_1080 : BitVec 32 := 0#32
  ![0, v1271.toNat, 0]

def k0_chk94 (i : grid0.Coords) (v1271 : BitVec 32) : Prop :=
  (∀ (k0_h2 : k0_cond2 i = 1#1), ∀ a, (k0_off342 v1271) a + S8x1x1024.size a ≤ S8x4096x1024.size a)
instance k0_chk94.dec : ∀ (i : grid0.Coords) (v1271 : BitVec 32), Decidable (k0_chk94 i v1271) := fun i v1271 => decidable_of_iff' _ (Iff.of_eq (k0_chk94.eq_1 i v1271))
theorem k0_off342_inb : ∀ (i : grid0.Coords) (v1271 : BitVec 32) (k0_hw94 : k0_chk94 i v1271), ∀ (k0_h2 : k0_cond2 i = 1#1), ∀ a, (k0_off342 v1271) a + S8x1x1024.size a ≤ S8x4096x1024.size a := fun i v1271 k0_hw94 k0_h2 => k0_hw94 k0_h2

def k0_off343 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off344 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1082 : BitVec 32 := 0#32
  let c29_i32_1081 : BitVec 32 := 29#32
  let c0_i32_1083 : BitVec 32 := 0#32
  ![v803.toNat, 0, 29, 0]
def k0_off345 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1086 : BitVec 32 := 64#32
  let v1284 : BitVec 32 := Scalar.muli v802 c64_i32_1086
  let c30_i32_1087 : BitVec 32 := 30#32
  let v1285 : BitVec 32 := Scalar.addi v1284 c30_i32_1087
  let v1286 : Index := Scalar.indexCast v1285
  ![v1286.toNat]
def k0_off346 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1089 : BitVec 32 := 0#32
  let c30_i32_1088 : BitVec 32 := 30#32
  let c0_i32_1090 : BitVec 32 := 0#32
  ![v803.toNat, 0, 30, 0]
def k0_off347 (v1287 : BitVec 32) : Fin 3 → Nat :=
  let c0_i32_1091 : BitVec 32 := 0#32
  let c0_i32_1092 : BitVec 32 := 0#32
  ![0, v1287.toNat, 0]

def k0_chk95 (i : grid0.Coords) (v1287 : BitVec 32) : Prop :=
  (∀ (k0_h2 : k0_cond2 i = 1#1), ∀ a, (k0_off347 v1287) a + S8x1x1024.size a ≤ S8x4096x1024.size a)
instance k0_chk95.dec : ∀ (i : grid0.Coords) (v1287 : BitVec 32), Decidable (k0_chk95 i v1287) := fun i v1287 => decidable_of_iff' _ (Iff.of_eq (k0_chk95.eq_1 i v1287))
theorem k0_off347_inb : ∀ (i : grid0.Coords) (v1287 : BitVec 32) (k0_hw95 : k0_chk95 i v1287), ∀ (k0_h2 : k0_cond2 i = 1#1), ∀ a, (k0_off347 v1287) a + S8x1x1024.size a ≤ S8x4096x1024.size a := fun i v1287 k0_hw95 k0_h2 => k0_hw95 k0_h2

def k0_off348 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off349 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1094 : BitVec 32 := 0#32
  let c30_i32_1093 : BitVec 32 := 30#32
  let c0_i32_1095 : BitVec 32 := 0#32
  ![v803.toNat, 0, 30, 0]
def k0_off350 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1098 : BitVec 32 := 64#32
  let v1300 : BitVec 32 := Scalar.muli v802 c64_i32_1098
  let c31_i32_1099 : BitVec 32 := 31#32
  let v1301 : BitVec 32 := Scalar.addi v1300 c31_i32_1099
  let v1302 : Index := Scalar.indexCast v1301
  ![v1302.toNat]
def k0_off351 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1101 : BitVec 32 := 0#32
  let c31_i32_1100 : BitVec 32 := 31#32
  let c0_i32_1102 : BitVec 32 := 0#32
  ![v803.toNat, 0, 31, 0]
def k0_off352 (v1303 : BitVec 32) : Fin 3 → Nat :=
  let c0_i32_1103 : BitVec 32 := 0#32
  let c0_i32_1104 : BitVec 32 := 0#32
  ![0, v1303.toNat, 0]

def k0_chk96 (i : grid0.Coords) (v1303 : BitVec 32) : Prop :=
  (∀ (k0_h2 : k0_cond2 i = 1#1), ∀ a, (k0_off352 v1303) a + S8x1x1024.size a ≤ S8x4096x1024.size a)
instance k0_chk96.dec : ∀ (i : grid0.Coords) (v1303 : BitVec 32), Decidable (k0_chk96 i v1303) := fun i v1303 => decidable_of_iff' _ (Iff.of_eq (k0_chk96.eq_1 i v1303))
theorem k0_off352_inb : ∀ (i : grid0.Coords) (v1303 : BitVec 32) (k0_hw96 : k0_chk96 i v1303), ∀ (k0_h2 : k0_cond2 i = 1#1), ∀ a, (k0_off352 v1303) a + S8x1x1024.size a ≤ S8x4096x1024.size a := fun i v1303 k0_hw96 k0_h2 => k0_hw96 k0_h2

def k0_off353 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off354 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1106 : BitVec 32 := 0#32
  let c31_i32_1105 : BitVec 32 := 31#32
  let c0_i32_1107 : BitVec 32 := 0#32
  ![v803.toNat, 0, 31, 0]
def k0_off355 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1110 : BitVec 32 := 64#32
  let v1316 : BitVec 32 := Scalar.muli v802 c64_i32_1110
  let c32_i32_1111 : BitVec 32 := 32#32
  let v1317 : BitVec 32 := Scalar.addi v1316 c32_i32_1111
  let v1318 : Index := Scalar.indexCast v1317
  ![v1318.toNat]
def k0_off356 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1113 : BitVec 32 := 0#32
  let c32_i32_1112 : BitVec 32 := 32#32
  let c0_i32_1114 : BitVec 32 := 0#32
  ![v803.toNat, 0, 32, 0]
def k0_off357 (v1319 : BitVec 32) : Fin 3 → Nat :=
  let c0_i32_1115 : BitVec 32 := 0#32
  let c0_i32_1116 : BitVec 32 := 0#32
  ![0, v1319.toNat, 0]

def k0_chk97 (i : grid0.Coords) (v1319 : BitVec 32) : Prop :=
  (∀ (k0_h2 : k0_cond2 i = 1#1), ∀ a, (k0_off357 v1319) a + S8x1x1024.size a ≤ S8x4096x1024.size a)
instance k0_chk97.dec : ∀ (i : grid0.Coords) (v1319 : BitVec 32), Decidable (k0_chk97 i v1319) := fun i v1319 => decidable_of_iff' _ (Iff.of_eq (k0_chk97.eq_1 i v1319))
theorem k0_off357_inb : ∀ (i : grid0.Coords) (v1319 : BitVec 32) (k0_hw97 : k0_chk97 i v1319), ∀ (k0_h2 : k0_cond2 i = 1#1), ∀ a, (k0_off357 v1319) a + S8x1x1024.size a ≤ S8x4096x1024.size a := fun i v1319 k0_hw97 k0_h2 => k0_hw97 k0_h2

def k0_off358 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off359 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1118 : BitVec 32 := 0#32
  let c32_i32_1117 : BitVec 32 := 32#32
  let c0_i32_1119 : BitVec 32 := 0#32
  ![v803.toNat, 0, 32, 0]
def k0_off360 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1122 : BitVec 32 := 64#32
  let v1332 : BitVec 32 := Scalar.muli v802 c64_i32_1122
  let c33_i32_1123 : BitVec 32 := 33#32
  let v1333 : BitVec 32 := Scalar.addi v1332 c33_i32_1123
  let v1334 : Index := Scalar.indexCast v1333
  ![v1334.toNat]
def k0_off361 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1125 : BitVec 32 := 0#32
  let c33_i32_1124 : BitVec 32 := 33#32
  let c0_i32_1126 : BitVec 32 := 0#32
  ![v803.toNat, 0, 33, 0]
def k0_off362 (v1335 : BitVec 32) : Fin 3 → Nat :=
  let c0_i32_1127 : BitVec 32 := 0#32
  let c0_i32_1128 : BitVec 32 := 0#32
  ![0, v1335.toNat, 0]

def k0_chk98 (i : grid0.Coords) (v1335 : BitVec 32) : Prop :=
  (∀ (k0_h2 : k0_cond2 i = 1#1), ∀ a, (k0_off362 v1335) a + S8x1x1024.size a ≤ S8x4096x1024.size a)
instance k0_chk98.dec : ∀ (i : grid0.Coords) (v1335 : BitVec 32), Decidable (k0_chk98 i v1335) := fun i v1335 => decidable_of_iff' _ (Iff.of_eq (k0_chk98.eq_1 i v1335))
theorem k0_off362_inb : ∀ (i : grid0.Coords) (v1335 : BitVec 32) (k0_hw98 : k0_chk98 i v1335), ∀ (k0_h2 : k0_cond2 i = 1#1), ∀ a, (k0_off362 v1335) a + S8x1x1024.size a ≤ S8x4096x1024.size a := fun i v1335 k0_hw98 k0_h2 => k0_hw98 k0_h2

def k0_off363 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off364 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1130 : BitVec 32 := 0#32
  let c33_i32_1129 : BitVec 32 := 33#32
  let c0_i32_1131 : BitVec 32 := 0#32
  ![v803.toNat, 0, 33, 0]
def k0_off365 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1134 : BitVec 32 := 64#32
  let v1348 : BitVec 32 := Scalar.muli v802 c64_i32_1134
  let c34_i32_1135 : BitVec 32 := 34#32
  let v1349 : BitVec 32 := Scalar.addi v1348 c34_i32_1135
  let v1350 : Index := Scalar.indexCast v1349
  ![v1350.toNat]
def k0_off366 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1137 : BitVec 32 := 0#32
  let c34_i32_1136 : BitVec 32 := 34#32
  let c0_i32_1138 : BitVec 32 := 0#32
  ![v803.toNat, 0, 34, 0]
def k0_off367 (v1351 : BitVec 32) : Fin 3 → Nat :=
  let c0_i32_1139 : BitVec 32 := 0#32
  let c0_i32_1140 : BitVec 32 := 0#32
  ![0, v1351.toNat, 0]

def k0_chk99 (i : grid0.Coords) (v1351 : BitVec 32) : Prop :=
  (∀ (k0_h2 : k0_cond2 i = 1#1), ∀ a, (k0_off367 v1351) a + S8x1x1024.size a ≤ S8x4096x1024.size a)
instance k0_chk99.dec : ∀ (i : grid0.Coords) (v1351 : BitVec 32), Decidable (k0_chk99 i v1351) := fun i v1351 => decidable_of_iff' _ (Iff.of_eq (k0_chk99.eq_1 i v1351))
theorem k0_off367_inb : ∀ (i : grid0.Coords) (v1351 : BitVec 32) (k0_hw99 : k0_chk99 i v1351), ∀ (k0_h2 : k0_cond2 i = 1#1), ∀ a, (k0_off367 v1351) a + S8x1x1024.size a ≤ S8x4096x1024.size a := fun i v1351 k0_hw99 k0_h2 => k0_hw99 k0_h2

def k0_off368 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off369 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1142 : BitVec 32 := 0#32
  let c34_i32_1141 : BitVec 32 := 34#32
  let c0_i32_1143 : BitVec 32 := 0#32
  ![v803.toNat, 0, 34, 0]
def k0_off370 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1146 : BitVec 32 := 64#32
  let v1364 : BitVec 32 := Scalar.muli v802 c64_i32_1146
  let c35_i32_1147 : BitVec 32 := 35#32
  let v1365 : BitVec 32 := Scalar.addi v1364 c35_i32_1147
  let v1366 : Index := Scalar.indexCast v1365
  ![v1366.toNat]
def k0_off371 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1149 : BitVec 32 := 0#32
  let c35_i32_1148 : BitVec 32 := 35#32
  let c0_i32_1150 : BitVec 32 := 0#32
  ![v803.toNat, 0, 35, 0]
def k0_off372 (v1367 : BitVec 32) : Fin 3 → Nat :=
  let c0_i32_1151 : BitVec 32 := 0#32
  let c0_i32_1152 : BitVec 32 := 0#32
  ![0, v1367.toNat, 0]

def k0_chk100 (i : grid0.Coords) (v1367 : BitVec 32) : Prop :=
  (∀ (k0_h2 : k0_cond2 i = 1#1), ∀ a, (k0_off372 v1367) a + S8x1x1024.size a ≤ S8x4096x1024.size a)
instance k0_chk100.dec : ∀ (i : grid0.Coords) (v1367 : BitVec 32), Decidable (k0_chk100 i v1367) := fun i v1367 => decidable_of_iff' _ (Iff.of_eq (k0_chk100.eq_1 i v1367))
theorem k0_off372_inb : ∀ (i : grid0.Coords) (v1367 : BitVec 32) (k0_hw100 : k0_chk100 i v1367), ∀ (k0_h2 : k0_cond2 i = 1#1), ∀ a, (k0_off372 v1367) a + S8x1x1024.size a ≤ S8x4096x1024.size a := fun i v1367 k0_hw100 k0_h2 => k0_hw100 k0_h2

def k0_off373 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off374 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1154 : BitVec 32 := 0#32
  let c35_i32_1153 : BitVec 32 := 35#32
  let c0_i32_1155 : BitVec 32 := 0#32
  ![v803.toNat, 0, 35, 0]
def k0_off375 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1158 : BitVec 32 := 64#32
  let v1380 : BitVec 32 := Scalar.muli v802 c64_i32_1158
  let c36_i32_1159 : BitVec 32 := 36#32
  let v1381 : BitVec 32 := Scalar.addi v1380 c36_i32_1159
  let v1382 : Index := Scalar.indexCast v1381
  ![v1382.toNat]
def k0_off376 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1161 : BitVec 32 := 0#32
  let c36_i32_1160 : BitVec 32 := 36#32
  let c0_i32_1162 : BitVec 32 := 0#32
  ![v803.toNat, 0, 36, 0]
def k0_off377 (v1383 : BitVec 32) : Fin 3 → Nat :=
  let c0_i32_1163 : BitVec 32 := 0#32
  let c0_i32_1164 : BitVec 32 := 0#32
  ![0, v1383.toNat, 0]

def k0_chk101 (i : grid0.Coords) (v1383 : BitVec 32) : Prop :=
  (∀ (k0_h2 : k0_cond2 i = 1#1), ∀ a, (k0_off377 v1383) a + S8x1x1024.size a ≤ S8x4096x1024.size a)
instance k0_chk101.dec : ∀ (i : grid0.Coords) (v1383 : BitVec 32), Decidable (k0_chk101 i v1383) := fun i v1383 => decidable_of_iff' _ (Iff.of_eq (k0_chk101.eq_1 i v1383))
theorem k0_off377_inb : ∀ (i : grid0.Coords) (v1383 : BitVec 32) (k0_hw101 : k0_chk101 i v1383), ∀ (k0_h2 : k0_cond2 i = 1#1), ∀ a, (k0_off377 v1383) a + S8x1x1024.size a ≤ S8x4096x1024.size a := fun i v1383 k0_hw101 k0_h2 => k0_hw101 k0_h2

def k0_off378 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off379 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1166 : BitVec 32 := 0#32
  let c36_i32_1165 : BitVec 32 := 36#32
  let c0_i32_1167 : BitVec 32 := 0#32
  ![v803.toNat, 0, 36, 0]
def k0_off380 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1170 : BitVec 32 := 64#32
  let v1396 : BitVec 32 := Scalar.muli v802 c64_i32_1170
  let c37_i32_1171 : BitVec 32 := 37#32
  let v1397 : BitVec 32 := Scalar.addi v1396 c37_i32_1171
  let v1398 : Index := Scalar.indexCast v1397
  ![v1398.toNat]
def k0_off381 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1173 : BitVec 32 := 0#32
  let c37_i32_1172 : BitVec 32 := 37#32
  let c0_i32_1174 : BitVec 32 := 0#32
  ![v803.toNat, 0, 37, 0]
def k0_off382 (v1399 : BitVec 32) : Fin 3 → Nat :=
  let c0_i32_1175 : BitVec 32 := 0#32
  let c0_i32_1176 : BitVec 32 := 0#32
  ![0, v1399.toNat, 0]

def k0_chk102 (i : grid0.Coords) (v1399 : BitVec 32) : Prop :=
  (∀ (k0_h2 : k0_cond2 i = 1#1), ∀ a, (k0_off382 v1399) a + S8x1x1024.size a ≤ S8x4096x1024.size a)
instance k0_chk102.dec : ∀ (i : grid0.Coords) (v1399 : BitVec 32), Decidable (k0_chk102 i v1399) := fun i v1399 => decidable_of_iff' _ (Iff.of_eq (k0_chk102.eq_1 i v1399))
theorem k0_off382_inb : ∀ (i : grid0.Coords) (v1399 : BitVec 32) (k0_hw102 : k0_chk102 i v1399), ∀ (k0_h2 : k0_cond2 i = 1#1), ∀ a, (k0_off382 v1399) a + S8x1x1024.size a ≤ S8x4096x1024.size a := fun i v1399 k0_hw102 k0_h2 => k0_hw102 k0_h2

def k0_off383 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off384 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1178 : BitVec 32 := 0#32
  let c37_i32_1177 : BitVec 32 := 37#32
  let c0_i32_1179 : BitVec 32 := 0#32
  ![v803.toNat, 0, 37, 0]
def k0_off385 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1182 : BitVec 32 := 64#32
  let v1412 : BitVec 32 := Scalar.muli v802 c64_i32_1182
  let c38_i32_1183 : BitVec 32 := 38#32
  let v1413 : BitVec 32 := Scalar.addi v1412 c38_i32_1183
  let v1414 : Index := Scalar.indexCast v1413
  ![v1414.toNat]
def k0_off386 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1185 : BitVec 32 := 0#32
  let c38_i32_1184 : BitVec 32 := 38#32
  let c0_i32_1186 : BitVec 32 := 0#32
  ![v803.toNat, 0, 38, 0]
def k0_off387 (v1415 : BitVec 32) : Fin 3 → Nat :=
  let c0_i32_1187 : BitVec 32 := 0#32
  let c0_i32_1188 : BitVec 32 := 0#32
  ![0, v1415.toNat, 0]

def k0_chk103 (i : grid0.Coords) (v1415 : BitVec 32) : Prop :=
  (∀ (k0_h2 : k0_cond2 i = 1#1), ∀ a, (k0_off387 v1415) a + S8x1x1024.size a ≤ S8x4096x1024.size a)
instance k0_chk103.dec : ∀ (i : grid0.Coords) (v1415 : BitVec 32), Decidable (k0_chk103 i v1415) := fun i v1415 => decidable_of_iff' _ (Iff.of_eq (k0_chk103.eq_1 i v1415))
theorem k0_off387_inb : ∀ (i : grid0.Coords) (v1415 : BitVec 32) (k0_hw103 : k0_chk103 i v1415), ∀ (k0_h2 : k0_cond2 i = 1#1), ∀ a, (k0_off387 v1415) a + S8x1x1024.size a ≤ S8x4096x1024.size a := fun i v1415 k0_hw103 k0_h2 => k0_hw103 k0_h2

def k0_off388 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off389 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1190 : BitVec 32 := 0#32
  let c38_i32_1189 : BitVec 32 := 38#32
  let c0_i32_1191 : BitVec 32 := 0#32
  ![v803.toNat, 0, 38, 0]
def k0_off390 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1194 : BitVec 32 := 64#32
  let v1428 : BitVec 32 := Scalar.muli v802 c64_i32_1194
  let c39_i32_1195 : BitVec 32 := 39#32
  let v1429 : BitVec 32 := Scalar.addi v1428 c39_i32_1195
  let v1430 : Index := Scalar.indexCast v1429
  ![v1430.toNat]
def k0_off391 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1197 : BitVec 32 := 0#32
  let c39_i32_1196 : BitVec 32 := 39#32
  let c0_i32_1198 : BitVec 32 := 0#32
  ![v803.toNat, 0, 39, 0]
def k0_off392 (v1431 : BitVec 32) : Fin 3 → Nat :=
  let c0_i32_1199 : BitVec 32 := 0#32
  let c0_i32_1200 : BitVec 32 := 0#32
  ![0, v1431.toNat, 0]

def k0_chk104 (i : grid0.Coords) (v1431 : BitVec 32) : Prop :=
  (∀ (k0_h2 : k0_cond2 i = 1#1), ∀ a, (k0_off392 v1431) a + S8x1x1024.size a ≤ S8x4096x1024.size a)
instance k0_chk104.dec : ∀ (i : grid0.Coords) (v1431 : BitVec 32), Decidable (k0_chk104 i v1431) := fun i v1431 => decidable_of_iff' _ (Iff.of_eq (k0_chk104.eq_1 i v1431))
theorem k0_off392_inb : ∀ (i : grid0.Coords) (v1431 : BitVec 32) (k0_hw104 : k0_chk104 i v1431), ∀ (k0_h2 : k0_cond2 i = 1#1), ∀ a, (k0_off392 v1431) a + S8x1x1024.size a ≤ S8x4096x1024.size a := fun i v1431 k0_hw104 k0_h2 => k0_hw104 k0_h2

def k0_off393 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off394 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1202 : BitVec 32 := 0#32
  let c39_i32_1201 : BitVec 32 := 39#32
  let c0_i32_1203 : BitVec 32 := 0#32
  ![v803.toNat, 0, 39, 0]
def k0_off395 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1206 : BitVec 32 := 64#32
  let v1444 : BitVec 32 := Scalar.muli v802 c64_i32_1206
  let c40_i32_1207 : BitVec 32 := 40#32
  let v1445 : BitVec 32 := Scalar.addi v1444 c40_i32_1207
  let v1446 : Index := Scalar.indexCast v1445
  ![v1446.toNat]
def k0_off396 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1209 : BitVec 32 := 0#32
  let c40_i32_1208 : BitVec 32 := 40#32
  let c0_i32_1210 : BitVec 32 := 0#32
  ![v803.toNat, 0, 40, 0]
def k0_off397 (v1447 : BitVec 32) : Fin 3 → Nat :=
  let c0_i32_1211 : BitVec 32 := 0#32
  let c0_i32_1212 : BitVec 32 := 0#32
  ![0, v1447.toNat, 0]

def k0_chk105 (i : grid0.Coords) (v1447 : BitVec 32) : Prop :=
  (∀ (k0_h2 : k0_cond2 i = 1#1), ∀ a, (k0_off397 v1447) a + S8x1x1024.size a ≤ S8x4096x1024.size a)
instance k0_chk105.dec : ∀ (i : grid0.Coords) (v1447 : BitVec 32), Decidable (k0_chk105 i v1447) := fun i v1447 => decidable_of_iff' _ (Iff.of_eq (k0_chk105.eq_1 i v1447))
theorem k0_off397_inb : ∀ (i : grid0.Coords) (v1447 : BitVec 32) (k0_hw105 : k0_chk105 i v1447), ∀ (k0_h2 : k0_cond2 i = 1#1), ∀ a, (k0_off397 v1447) a + S8x1x1024.size a ≤ S8x4096x1024.size a := fun i v1447 k0_hw105 k0_h2 => k0_hw105 k0_h2

def k0_off398 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off399 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1214 : BitVec 32 := 0#32
  let c40_i32_1213 : BitVec 32 := 40#32
  let c0_i32_1215 : BitVec 32 := 0#32
  ![v803.toNat, 0, 40, 0]
def k0_off400 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1218 : BitVec 32 := 64#32
  let v1460 : BitVec 32 := Scalar.muli v802 c64_i32_1218
  let c41_i32_1219 : BitVec 32 := 41#32
  let v1461 : BitVec 32 := Scalar.addi v1460 c41_i32_1219
  let v1462 : Index := Scalar.indexCast v1461
  ![v1462.toNat]
def k0_off401 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1221 : BitVec 32 := 0#32
  let c41_i32_1220 : BitVec 32 := 41#32
  let c0_i32_1222 : BitVec 32 := 0#32
  ![v803.toNat, 0, 41, 0]
def k0_off402 (v1463 : BitVec 32) : Fin 3 → Nat :=
  let c0_i32_1223 : BitVec 32 := 0#32
  let c0_i32_1224 : BitVec 32 := 0#32
  ![0, v1463.toNat, 0]

def k0_chk106 (i : grid0.Coords) (v1463 : BitVec 32) : Prop :=
  (∀ (k0_h2 : k0_cond2 i = 1#1), ∀ a, (k0_off402 v1463) a + S8x1x1024.size a ≤ S8x4096x1024.size a)
instance k0_chk106.dec : ∀ (i : grid0.Coords) (v1463 : BitVec 32), Decidable (k0_chk106 i v1463) := fun i v1463 => decidable_of_iff' _ (Iff.of_eq (k0_chk106.eq_1 i v1463))
theorem k0_off402_inb : ∀ (i : grid0.Coords) (v1463 : BitVec 32) (k0_hw106 : k0_chk106 i v1463), ∀ (k0_h2 : k0_cond2 i = 1#1), ∀ a, (k0_off402 v1463) a + S8x1x1024.size a ≤ S8x4096x1024.size a := fun i v1463 k0_hw106 k0_h2 => k0_hw106 k0_h2

def k0_off403 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off404 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1226 : BitVec 32 := 0#32
  let c41_i32_1225 : BitVec 32 := 41#32
  let c0_i32_1227 : BitVec 32 := 0#32
  ![v803.toNat, 0, 41, 0]
def k0_off405 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1230 : BitVec 32 := 64#32
  let v1476 : BitVec 32 := Scalar.muli v802 c64_i32_1230
  let c42_i32_1231 : BitVec 32 := 42#32
  let v1477 : BitVec 32 := Scalar.addi v1476 c42_i32_1231
  let v1478 : Index := Scalar.indexCast v1477
  ![v1478.toNat]
def k0_off406 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1233 : BitVec 32 := 0#32
  let c42_i32_1232 : BitVec 32 := 42#32
  let c0_i32_1234 : BitVec 32 := 0#32
  ![v803.toNat, 0, 42, 0]
def k0_off407 (v1479 : BitVec 32) : Fin 3 → Nat :=
  let c0_i32_1235 : BitVec 32 := 0#32
  let c0_i32_1236 : BitVec 32 := 0#32
  ![0, v1479.toNat, 0]

def k0_chk107 (i : grid0.Coords) (v1479 : BitVec 32) : Prop :=
  (∀ (k0_h2 : k0_cond2 i = 1#1), ∀ a, (k0_off407 v1479) a + S8x1x1024.size a ≤ S8x4096x1024.size a)
instance k0_chk107.dec : ∀ (i : grid0.Coords) (v1479 : BitVec 32), Decidable (k0_chk107 i v1479) := fun i v1479 => decidable_of_iff' _ (Iff.of_eq (k0_chk107.eq_1 i v1479))
theorem k0_off407_inb : ∀ (i : grid0.Coords) (v1479 : BitVec 32) (k0_hw107 : k0_chk107 i v1479), ∀ (k0_h2 : k0_cond2 i = 1#1), ∀ a, (k0_off407 v1479) a + S8x1x1024.size a ≤ S8x4096x1024.size a := fun i v1479 k0_hw107 k0_h2 => k0_hw107 k0_h2

def k0_off408 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off409 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1238 : BitVec 32 := 0#32
  let c42_i32_1237 : BitVec 32 := 42#32
  let c0_i32_1239 : BitVec 32 := 0#32
  ![v803.toNat, 0, 42, 0]
def k0_off410 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1242 : BitVec 32 := 64#32
  let v1492 : BitVec 32 := Scalar.muli v802 c64_i32_1242
  let c43_i32_1243 : BitVec 32 := 43#32
  let v1493 : BitVec 32 := Scalar.addi v1492 c43_i32_1243
  let v1494 : Index := Scalar.indexCast v1493
  ![v1494.toNat]
def k0_off411 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1245 : BitVec 32 := 0#32
  let c43_i32_1244 : BitVec 32 := 43#32
  let c0_i32_1246 : BitVec 32 := 0#32
  ![v803.toNat, 0, 43, 0]
def k0_off412 (v1495 : BitVec 32) : Fin 3 → Nat :=
  let c0_i32_1247 : BitVec 32 := 0#32
  let c0_i32_1248 : BitVec 32 := 0#32
  ![0, v1495.toNat, 0]

def k0_chk108 (i : grid0.Coords) (v1495 : BitVec 32) : Prop :=
  (∀ (k0_h2 : k0_cond2 i = 1#1), ∀ a, (k0_off412 v1495) a + S8x1x1024.size a ≤ S8x4096x1024.size a)
instance k0_chk108.dec : ∀ (i : grid0.Coords) (v1495 : BitVec 32), Decidable (k0_chk108 i v1495) := fun i v1495 => decidable_of_iff' _ (Iff.of_eq (k0_chk108.eq_1 i v1495))
theorem k0_off412_inb : ∀ (i : grid0.Coords) (v1495 : BitVec 32) (k0_hw108 : k0_chk108 i v1495), ∀ (k0_h2 : k0_cond2 i = 1#1), ∀ a, (k0_off412 v1495) a + S8x1x1024.size a ≤ S8x4096x1024.size a := fun i v1495 k0_hw108 k0_h2 => k0_hw108 k0_h2

def k0_off413 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off414 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1250 : BitVec 32 := 0#32
  let c43_i32_1249 : BitVec 32 := 43#32
  let c0_i32_1251 : BitVec 32 := 0#32
  ![v803.toNat, 0, 43, 0]
def k0_off415 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1254 : BitVec 32 := 64#32
  let v1508 : BitVec 32 := Scalar.muli v802 c64_i32_1254
  let c44_i32_1255 : BitVec 32 := 44#32
  let v1509 : BitVec 32 := Scalar.addi v1508 c44_i32_1255
  let v1510 : Index := Scalar.indexCast v1509
  ![v1510.toNat]
def k0_off416 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1257 : BitVec 32 := 0#32
  let c44_i32_1256 : BitVec 32 := 44#32
  let c0_i32_1258 : BitVec 32 := 0#32
  ![v803.toNat, 0, 44, 0]
def k0_off417 (v1511 : BitVec 32) : Fin 3 → Nat :=
  let c0_i32_1259 : BitVec 32 := 0#32
  let c0_i32_1260 : BitVec 32 := 0#32
  ![0, v1511.toNat, 0]

def k0_chk109 (i : grid0.Coords) (v1511 : BitVec 32) : Prop :=
  (∀ (k0_h2 : k0_cond2 i = 1#1), ∀ a, (k0_off417 v1511) a + S8x1x1024.size a ≤ S8x4096x1024.size a)
instance k0_chk109.dec : ∀ (i : grid0.Coords) (v1511 : BitVec 32), Decidable (k0_chk109 i v1511) := fun i v1511 => decidable_of_iff' _ (Iff.of_eq (k0_chk109.eq_1 i v1511))
theorem k0_off417_inb : ∀ (i : grid0.Coords) (v1511 : BitVec 32) (k0_hw109 : k0_chk109 i v1511), ∀ (k0_h2 : k0_cond2 i = 1#1), ∀ a, (k0_off417 v1511) a + S8x1x1024.size a ≤ S8x4096x1024.size a := fun i v1511 k0_hw109 k0_h2 => k0_hw109 k0_h2

def k0_off418 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off419 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1262 : BitVec 32 := 0#32
  let c44_i32_1261 : BitVec 32 := 44#32
  let c0_i32_1263 : BitVec 32 := 0#32
  ![v803.toNat, 0, 44, 0]
def k0_off420 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1266 : BitVec 32 := 64#32
  let v1524 : BitVec 32 := Scalar.muli v802 c64_i32_1266
  let c45_i32_1267 : BitVec 32 := 45#32
  let v1525 : BitVec 32 := Scalar.addi v1524 c45_i32_1267
  let v1526 : Index := Scalar.indexCast v1525
  ![v1526.toNat]
def k0_off421 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1269 : BitVec 32 := 0#32
  let c45_i32_1268 : BitVec 32 := 45#32
  let c0_i32_1270 : BitVec 32 := 0#32
  ![v803.toNat, 0, 45, 0]
def k0_off422 (v1527 : BitVec 32) : Fin 3 → Nat :=
  let c0_i32_1271 : BitVec 32 := 0#32
  let c0_i32_1272 : BitVec 32 := 0#32
  ![0, v1527.toNat, 0]

def k0_chk110 (i : grid0.Coords) (v1527 : BitVec 32) : Prop :=
  (∀ (k0_h2 : k0_cond2 i = 1#1), ∀ a, (k0_off422 v1527) a + S8x1x1024.size a ≤ S8x4096x1024.size a)
instance k0_chk110.dec : ∀ (i : grid0.Coords) (v1527 : BitVec 32), Decidable (k0_chk110 i v1527) := fun i v1527 => decidable_of_iff' _ (Iff.of_eq (k0_chk110.eq_1 i v1527))
theorem k0_off422_inb : ∀ (i : grid0.Coords) (v1527 : BitVec 32) (k0_hw110 : k0_chk110 i v1527), ∀ (k0_h2 : k0_cond2 i = 1#1), ∀ a, (k0_off422 v1527) a + S8x1x1024.size a ≤ S8x4096x1024.size a := fun i v1527 k0_hw110 k0_h2 => k0_hw110 k0_h2

def k0_off423 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off424 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1274 : BitVec 32 := 0#32
  let c45_i32_1273 : BitVec 32 := 45#32
  let c0_i32_1275 : BitVec 32 := 0#32
  ![v803.toNat, 0, 45, 0]
def k0_off425 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1278 : BitVec 32 := 64#32
  let v1540 : BitVec 32 := Scalar.muli v802 c64_i32_1278
  let c46_i32_1279 : BitVec 32 := 46#32
  let v1541 : BitVec 32 := Scalar.addi v1540 c46_i32_1279
  let v1542 : Index := Scalar.indexCast v1541
  ![v1542.toNat]
def k0_off426 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1281 : BitVec 32 := 0#32
  let c46_i32_1280 : BitVec 32 := 46#32
  let c0_i32_1282 : BitVec 32 := 0#32
  ![v803.toNat, 0, 46, 0]
def k0_off427 (v1543 : BitVec 32) : Fin 3 → Nat :=
  let c0_i32_1283 : BitVec 32 := 0#32
  let c0_i32_1284 : BitVec 32 := 0#32
  ![0, v1543.toNat, 0]

def k0_chk111 (i : grid0.Coords) (v1543 : BitVec 32) : Prop :=
  (∀ (k0_h2 : k0_cond2 i = 1#1), ∀ a, (k0_off427 v1543) a + S8x1x1024.size a ≤ S8x4096x1024.size a)
instance k0_chk111.dec : ∀ (i : grid0.Coords) (v1543 : BitVec 32), Decidable (k0_chk111 i v1543) := fun i v1543 => decidable_of_iff' _ (Iff.of_eq (k0_chk111.eq_1 i v1543))
theorem k0_off427_inb : ∀ (i : grid0.Coords) (v1543 : BitVec 32) (k0_hw111 : k0_chk111 i v1543), ∀ (k0_h2 : k0_cond2 i = 1#1), ∀ a, (k0_off427 v1543) a + S8x1x1024.size a ≤ S8x4096x1024.size a := fun i v1543 k0_hw111 k0_h2 => k0_hw111 k0_h2

def k0_off428 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off429 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1286 : BitVec 32 := 0#32
  let c46_i32_1285 : BitVec 32 := 46#32
  let c0_i32_1287 : BitVec 32 := 0#32
  ![v803.toNat, 0, 46, 0]
def k0_off430 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1290 : BitVec 32 := 64#32
  let v1556 : BitVec 32 := Scalar.muli v802 c64_i32_1290
  let c47_i32_1291 : BitVec 32 := 47#32
  let v1557 : BitVec 32 := Scalar.addi v1556 c47_i32_1291
  let v1558 : Index := Scalar.indexCast v1557
  ![v1558.toNat]
def k0_off431 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1293 : BitVec 32 := 0#32
  let c47_i32_1292 : BitVec 32 := 47#32
  let c0_i32_1294 : BitVec 32 := 0#32
  ![v803.toNat, 0, 47, 0]
def k0_off432 (v1559 : BitVec 32) : Fin 3 → Nat :=
  let c0_i32_1295 : BitVec 32 := 0#32
  let c0_i32_1296 : BitVec 32 := 0#32
  ![0, v1559.toNat, 0]

def k0_chk112 (i : grid0.Coords) (v1559 : BitVec 32) : Prop :=
  (∀ (k0_h2 : k0_cond2 i = 1#1), ∀ a, (k0_off432 v1559) a + S8x1x1024.size a ≤ S8x4096x1024.size a)
instance k0_chk112.dec : ∀ (i : grid0.Coords) (v1559 : BitVec 32), Decidable (k0_chk112 i v1559) := fun i v1559 => decidable_of_iff' _ (Iff.of_eq (k0_chk112.eq_1 i v1559))
theorem k0_off432_inb : ∀ (i : grid0.Coords) (v1559 : BitVec 32) (k0_hw112 : k0_chk112 i v1559), ∀ (k0_h2 : k0_cond2 i = 1#1), ∀ a, (k0_off432 v1559) a + S8x1x1024.size a ≤ S8x4096x1024.size a := fun i v1559 k0_hw112 k0_h2 => k0_hw112 k0_h2

def k0_off433 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off434 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1298 : BitVec 32 := 0#32
  let c47_i32_1297 : BitVec 32 := 47#32
  let c0_i32_1299 : BitVec 32 := 0#32
  ![v803.toNat, 0, 47, 0]
def k0_off435 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1302 : BitVec 32 := 64#32
  let v1572 : BitVec 32 := Scalar.muli v802 c64_i32_1302
  let c48_i32_1303 : BitVec 32 := 48#32
  let v1573 : BitVec 32 := Scalar.addi v1572 c48_i32_1303
  let v1574 : Index := Scalar.indexCast v1573
  ![v1574.toNat]
def k0_off436 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1305 : BitVec 32 := 0#32
  let c48_i32_1304 : BitVec 32 := 48#32
  let c0_i32_1306 : BitVec 32 := 0#32
  ![v803.toNat, 0, 48, 0]
def k0_off437 (v1575 : BitVec 32) : Fin 3 → Nat :=
  let c0_i32_1307 : BitVec 32 := 0#32
  let c0_i32_1308 : BitVec 32 := 0#32
  ![0, v1575.toNat, 0]

def k0_chk113 (i : grid0.Coords) (v1575 : BitVec 32) : Prop :=
  (∀ (k0_h2 : k0_cond2 i = 1#1), ∀ a, (k0_off437 v1575) a + S8x1x1024.size a ≤ S8x4096x1024.size a)
instance k0_chk113.dec : ∀ (i : grid0.Coords) (v1575 : BitVec 32), Decidable (k0_chk113 i v1575) := fun i v1575 => decidable_of_iff' _ (Iff.of_eq (k0_chk113.eq_1 i v1575))
theorem k0_off437_inb : ∀ (i : grid0.Coords) (v1575 : BitVec 32) (k0_hw113 : k0_chk113 i v1575), ∀ (k0_h2 : k0_cond2 i = 1#1), ∀ a, (k0_off437 v1575) a + S8x1x1024.size a ≤ S8x4096x1024.size a := fun i v1575 k0_hw113 k0_h2 => k0_hw113 k0_h2

def k0_off438 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off439 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1310 : BitVec 32 := 0#32
  let c48_i32_1309 : BitVec 32 := 48#32
  let c0_i32_1311 : BitVec 32 := 0#32
  ![v803.toNat, 0, 48, 0]
def k0_off440 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1314 : BitVec 32 := 64#32
  let v1588 : BitVec 32 := Scalar.muli v802 c64_i32_1314
  let c49_i32_1315 : BitVec 32 := 49#32
  let v1589 : BitVec 32 := Scalar.addi v1588 c49_i32_1315
  let v1590 : Index := Scalar.indexCast v1589
  ![v1590.toNat]
def k0_off441 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1317 : BitVec 32 := 0#32
  let c49_i32_1316 : BitVec 32 := 49#32
  let c0_i32_1318 : BitVec 32 := 0#32
  ![v803.toNat, 0, 49, 0]
def k0_off442 (v1591 : BitVec 32) : Fin 3 → Nat :=
  let c0_i32_1319 : BitVec 32 := 0#32
  let c0_i32_1320 : BitVec 32 := 0#32
  ![0, v1591.toNat, 0]

def k0_chk114 (i : grid0.Coords) (v1591 : BitVec 32) : Prop :=
  (∀ (k0_h2 : k0_cond2 i = 1#1), ∀ a, (k0_off442 v1591) a + S8x1x1024.size a ≤ S8x4096x1024.size a)
instance k0_chk114.dec : ∀ (i : grid0.Coords) (v1591 : BitVec 32), Decidable (k0_chk114 i v1591) := fun i v1591 => decidable_of_iff' _ (Iff.of_eq (k0_chk114.eq_1 i v1591))
theorem k0_off442_inb : ∀ (i : grid0.Coords) (v1591 : BitVec 32) (k0_hw114 : k0_chk114 i v1591), ∀ (k0_h2 : k0_cond2 i = 1#1), ∀ a, (k0_off442 v1591) a + S8x1x1024.size a ≤ S8x4096x1024.size a := fun i v1591 k0_hw114 k0_h2 => k0_hw114 k0_h2

def k0_off443 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off444 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1322 : BitVec 32 := 0#32
  let c49_i32_1321 : BitVec 32 := 49#32
  let c0_i32_1323 : BitVec 32 := 0#32
  ![v803.toNat, 0, 49, 0]
def k0_off445 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1326 : BitVec 32 := 64#32
  let v1604 : BitVec 32 := Scalar.muli v802 c64_i32_1326
  let c50_i32_1327 : BitVec 32 := 50#32
  let v1605 : BitVec 32 := Scalar.addi v1604 c50_i32_1327
  let v1606 : Index := Scalar.indexCast v1605
  ![v1606.toNat]
def k0_off446 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1329 : BitVec 32 := 0#32
  let c50_i32_1328 : BitVec 32 := 50#32
  let c0_i32_1330 : BitVec 32 := 0#32
  ![v803.toNat, 0, 50, 0]
def k0_off447 (v1607 : BitVec 32) : Fin 3 → Nat :=
  let c0_i32_1331 : BitVec 32 := 0#32
  let c0_i32_1332 : BitVec 32 := 0#32
  ![0, v1607.toNat, 0]

def k0_chk115 (i : grid0.Coords) (v1607 : BitVec 32) : Prop :=
  (∀ (k0_h2 : k0_cond2 i = 1#1), ∀ a, (k0_off447 v1607) a + S8x1x1024.size a ≤ S8x4096x1024.size a)
instance k0_chk115.dec : ∀ (i : grid0.Coords) (v1607 : BitVec 32), Decidable (k0_chk115 i v1607) := fun i v1607 => decidable_of_iff' _ (Iff.of_eq (k0_chk115.eq_1 i v1607))
theorem k0_off447_inb : ∀ (i : grid0.Coords) (v1607 : BitVec 32) (k0_hw115 : k0_chk115 i v1607), ∀ (k0_h2 : k0_cond2 i = 1#1), ∀ a, (k0_off447 v1607) a + S8x1x1024.size a ≤ S8x4096x1024.size a := fun i v1607 k0_hw115 k0_h2 => k0_hw115 k0_h2

def k0_off448 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off449 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1334 : BitVec 32 := 0#32
  let c50_i32_1333 : BitVec 32 := 50#32
  let c0_i32_1335 : BitVec 32 := 0#32
  ![v803.toNat, 0, 50, 0]
def k0_off450 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1338 : BitVec 32 := 64#32
  let v1620 : BitVec 32 := Scalar.muli v802 c64_i32_1338
  let c51_i32_1339 : BitVec 32 := 51#32
  let v1621 : BitVec 32 := Scalar.addi v1620 c51_i32_1339
  let v1622 : Index := Scalar.indexCast v1621
  ![v1622.toNat]
def k0_off451 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1341 : BitVec 32 := 0#32
  let c51_i32_1340 : BitVec 32 := 51#32
  let c0_i32_1342 : BitVec 32 := 0#32
  ![v803.toNat, 0, 51, 0]
def k0_off452 (v1623 : BitVec 32) : Fin 3 → Nat :=
  let c0_i32_1343 : BitVec 32 := 0#32
  let c0_i32_1344 : BitVec 32 := 0#32
  ![0, v1623.toNat, 0]

def k0_chk116 (i : grid0.Coords) (v1623 : BitVec 32) : Prop :=
  (∀ (k0_h2 : k0_cond2 i = 1#1), ∀ a, (k0_off452 v1623) a + S8x1x1024.size a ≤ S8x4096x1024.size a)
instance k0_chk116.dec : ∀ (i : grid0.Coords) (v1623 : BitVec 32), Decidable (k0_chk116 i v1623) := fun i v1623 => decidable_of_iff' _ (Iff.of_eq (k0_chk116.eq_1 i v1623))
theorem k0_off452_inb : ∀ (i : grid0.Coords) (v1623 : BitVec 32) (k0_hw116 : k0_chk116 i v1623), ∀ (k0_h2 : k0_cond2 i = 1#1), ∀ a, (k0_off452 v1623) a + S8x1x1024.size a ≤ S8x4096x1024.size a := fun i v1623 k0_hw116 k0_h2 => k0_hw116 k0_h2

def k0_off453 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off454 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1346 : BitVec 32 := 0#32
  let c51_i32_1345 : BitVec 32 := 51#32
  let c0_i32_1347 : BitVec 32 := 0#32
  ![v803.toNat, 0, 51, 0]
def k0_off455 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1350 : BitVec 32 := 64#32
  let v1636 : BitVec 32 := Scalar.muli v802 c64_i32_1350
  let c52_i32_1351 : BitVec 32 := 52#32
  let v1637 : BitVec 32 := Scalar.addi v1636 c52_i32_1351
  let v1638 : Index := Scalar.indexCast v1637
  ![v1638.toNat]
def k0_off456 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1353 : BitVec 32 := 0#32
  let c52_i32_1352 : BitVec 32 := 52#32
  let c0_i32_1354 : BitVec 32 := 0#32
  ![v803.toNat, 0, 52, 0]
def k0_off457 (v1639 : BitVec 32) : Fin 3 → Nat :=
  let c0_i32_1355 : BitVec 32 := 0#32
  let c0_i32_1356 : BitVec 32 := 0#32
  ![0, v1639.toNat, 0]

def k0_chk117 (i : grid0.Coords) (v1639 : BitVec 32) : Prop :=
  (∀ (k0_h2 : k0_cond2 i = 1#1), ∀ a, (k0_off457 v1639) a + S8x1x1024.size a ≤ S8x4096x1024.size a)
instance k0_chk117.dec : ∀ (i : grid0.Coords) (v1639 : BitVec 32), Decidable (k0_chk117 i v1639) := fun i v1639 => decidable_of_iff' _ (Iff.of_eq (k0_chk117.eq_1 i v1639))
theorem k0_off457_inb : ∀ (i : grid0.Coords) (v1639 : BitVec 32) (k0_hw117 : k0_chk117 i v1639), ∀ (k0_h2 : k0_cond2 i = 1#1), ∀ a, (k0_off457 v1639) a + S8x1x1024.size a ≤ S8x4096x1024.size a := fun i v1639 k0_hw117 k0_h2 => k0_hw117 k0_h2

def k0_off458 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off459 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1358 : BitVec 32 := 0#32
  let c52_i32_1357 : BitVec 32 := 52#32
  let c0_i32_1359 : BitVec 32 := 0#32
  ![v803.toNat, 0, 52, 0]
def k0_off460 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1362 : BitVec 32 := 64#32
  let v1652 : BitVec 32 := Scalar.muli v802 c64_i32_1362
  let c53_i32_1363 : BitVec 32 := 53#32
  let v1653 : BitVec 32 := Scalar.addi v1652 c53_i32_1363
  let v1654 : Index := Scalar.indexCast v1653
  ![v1654.toNat]
def k0_off461 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1365 : BitVec 32 := 0#32
  let c53_i32_1364 : BitVec 32 := 53#32
  let c0_i32_1366 : BitVec 32 := 0#32
  ![v803.toNat, 0, 53, 0]
def k0_off462 (v1655 : BitVec 32) : Fin 3 → Nat :=
  let c0_i32_1367 : BitVec 32 := 0#32
  let c0_i32_1368 : BitVec 32 := 0#32
  ![0, v1655.toNat, 0]

def k0_chk118 (i : grid0.Coords) (v1655 : BitVec 32) : Prop :=
  (∀ (k0_h2 : k0_cond2 i = 1#1), ∀ a, (k0_off462 v1655) a + S8x1x1024.size a ≤ S8x4096x1024.size a)
instance k0_chk118.dec : ∀ (i : grid0.Coords) (v1655 : BitVec 32), Decidable (k0_chk118 i v1655) := fun i v1655 => decidable_of_iff' _ (Iff.of_eq (k0_chk118.eq_1 i v1655))
theorem k0_off462_inb : ∀ (i : grid0.Coords) (v1655 : BitVec 32) (k0_hw118 : k0_chk118 i v1655), ∀ (k0_h2 : k0_cond2 i = 1#1), ∀ a, (k0_off462 v1655) a + S8x1x1024.size a ≤ S8x4096x1024.size a := fun i v1655 k0_hw118 k0_h2 => k0_hw118 k0_h2

def k0_off463 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off464 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1370 : BitVec 32 := 0#32
  let c53_i32_1369 : BitVec 32 := 53#32
  let c0_i32_1371 : BitVec 32 := 0#32
  ![v803.toNat, 0, 53, 0]
def k0_off465 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1374 : BitVec 32 := 64#32
  let v1668 : BitVec 32 := Scalar.muli v802 c64_i32_1374
  let c54_i32_1375 : BitVec 32 := 54#32
  let v1669 : BitVec 32 := Scalar.addi v1668 c54_i32_1375
  let v1670 : Index := Scalar.indexCast v1669
  ![v1670.toNat]
def k0_off466 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1377 : BitVec 32 := 0#32
  let c54_i32_1376 : BitVec 32 := 54#32
  let c0_i32_1378 : BitVec 32 := 0#32
  ![v803.toNat, 0, 54, 0]
def k0_off467 (v1671 : BitVec 32) : Fin 3 → Nat :=
  let c0_i32_1379 : BitVec 32 := 0#32
  let c0_i32_1380 : BitVec 32 := 0#32
  ![0, v1671.toNat, 0]

def k0_chk119 (i : grid0.Coords) (v1671 : BitVec 32) : Prop :=
  (∀ (k0_h2 : k0_cond2 i = 1#1), ∀ a, (k0_off467 v1671) a + S8x1x1024.size a ≤ S8x4096x1024.size a)
instance k0_chk119.dec : ∀ (i : grid0.Coords) (v1671 : BitVec 32), Decidable (k0_chk119 i v1671) := fun i v1671 => decidable_of_iff' _ (Iff.of_eq (k0_chk119.eq_1 i v1671))
theorem k0_off467_inb : ∀ (i : grid0.Coords) (v1671 : BitVec 32) (k0_hw119 : k0_chk119 i v1671), ∀ (k0_h2 : k0_cond2 i = 1#1), ∀ a, (k0_off467 v1671) a + S8x1x1024.size a ≤ S8x4096x1024.size a := fun i v1671 k0_hw119 k0_h2 => k0_hw119 k0_h2

def k0_off468 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off469 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1382 : BitVec 32 := 0#32
  let c54_i32_1381 : BitVec 32 := 54#32
  let c0_i32_1383 : BitVec 32 := 0#32
  ![v803.toNat, 0, 54, 0]
def k0_off470 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1386 : BitVec 32 := 64#32
  let v1684 : BitVec 32 := Scalar.muli v802 c64_i32_1386
  let c55_i32_1387 : BitVec 32 := 55#32
  let v1685 : BitVec 32 := Scalar.addi v1684 c55_i32_1387
  let v1686 : Index := Scalar.indexCast v1685
  ![v1686.toNat]
def k0_off471 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1389 : BitVec 32 := 0#32
  let c55_i32_1388 : BitVec 32 := 55#32
  let c0_i32_1390 : BitVec 32 := 0#32
  ![v803.toNat, 0, 55, 0]
def k0_off472 (v1687 : BitVec 32) : Fin 3 → Nat :=
  let c0_i32_1391 : BitVec 32 := 0#32
  let c0_i32_1392 : BitVec 32 := 0#32
  ![0, v1687.toNat, 0]

def k0_chk120 (i : grid0.Coords) (v1687 : BitVec 32) : Prop :=
  (∀ (k0_h2 : k0_cond2 i = 1#1), ∀ a, (k0_off472 v1687) a + S8x1x1024.size a ≤ S8x4096x1024.size a)
instance k0_chk120.dec : ∀ (i : grid0.Coords) (v1687 : BitVec 32), Decidable (k0_chk120 i v1687) := fun i v1687 => decidable_of_iff' _ (Iff.of_eq (k0_chk120.eq_1 i v1687))
theorem k0_off472_inb : ∀ (i : grid0.Coords) (v1687 : BitVec 32) (k0_hw120 : k0_chk120 i v1687), ∀ (k0_h2 : k0_cond2 i = 1#1), ∀ a, (k0_off472 v1687) a + S8x1x1024.size a ≤ S8x4096x1024.size a := fun i v1687 k0_hw120 k0_h2 => k0_hw120 k0_h2

def k0_off473 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off474 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1394 : BitVec 32 := 0#32
  let c55_i32_1393 : BitVec 32 := 55#32
  let c0_i32_1395 : BitVec 32 := 0#32
  ![v803.toNat, 0, 55, 0]
def k0_off475 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1398 : BitVec 32 := 64#32
  let v1700 : BitVec 32 := Scalar.muli v802 c64_i32_1398
  let c56_i32_1399 : BitVec 32 := 56#32
  let v1701 : BitVec 32 := Scalar.addi v1700 c56_i32_1399
  let v1702 : Index := Scalar.indexCast v1701
  ![v1702.toNat]
def k0_off476 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1401 : BitVec 32 := 0#32
  let c56_i32_1400 : BitVec 32 := 56#32
  let c0_i32_1402 : BitVec 32 := 0#32
  ![v803.toNat, 0, 56, 0]
def k0_off477 (v1703 : BitVec 32) : Fin 3 → Nat :=
  let c0_i32_1403 : BitVec 32 := 0#32
  let c0_i32_1404 : BitVec 32 := 0#32
  ![0, v1703.toNat, 0]

def k0_chk121 (i : grid0.Coords) (v1703 : BitVec 32) : Prop :=
  (∀ (k0_h2 : k0_cond2 i = 1#1), ∀ a, (k0_off477 v1703) a + S8x1x1024.size a ≤ S8x4096x1024.size a)
instance k0_chk121.dec : ∀ (i : grid0.Coords) (v1703 : BitVec 32), Decidable (k0_chk121 i v1703) := fun i v1703 => decidable_of_iff' _ (Iff.of_eq (k0_chk121.eq_1 i v1703))
theorem k0_off477_inb : ∀ (i : grid0.Coords) (v1703 : BitVec 32) (k0_hw121 : k0_chk121 i v1703), ∀ (k0_h2 : k0_cond2 i = 1#1), ∀ a, (k0_off477 v1703) a + S8x1x1024.size a ≤ S8x4096x1024.size a := fun i v1703 k0_hw121 k0_h2 => k0_hw121 k0_h2

def k0_off478 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off479 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1406 : BitVec 32 := 0#32
  let c56_i32_1405 : BitVec 32 := 56#32
  let c0_i32_1407 : BitVec 32 := 0#32
  ![v803.toNat, 0, 56, 0]
def k0_off480 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1410 : BitVec 32 := 64#32
  let v1716 : BitVec 32 := Scalar.muli v802 c64_i32_1410
  let c57_i32_1411 : BitVec 32 := 57#32
  let v1717 : BitVec 32 := Scalar.addi v1716 c57_i32_1411
  let v1718 : Index := Scalar.indexCast v1717
  ![v1718.toNat]
def k0_off481 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1413 : BitVec 32 := 0#32
  let c57_i32_1412 : BitVec 32 := 57#32
  let c0_i32_1414 : BitVec 32 := 0#32
  ![v803.toNat, 0, 57, 0]
def k0_off482 (v1719 : BitVec 32) : Fin 3 → Nat :=
  let c0_i32_1415 : BitVec 32 := 0#32
  let c0_i32_1416 : BitVec 32 := 0#32
  ![0, v1719.toNat, 0]

def k0_chk122 (i : grid0.Coords) (v1719 : BitVec 32) : Prop :=
  (∀ (k0_h2 : k0_cond2 i = 1#1), ∀ a, (k0_off482 v1719) a + S8x1x1024.size a ≤ S8x4096x1024.size a)
instance k0_chk122.dec : ∀ (i : grid0.Coords) (v1719 : BitVec 32), Decidable (k0_chk122 i v1719) := fun i v1719 => decidable_of_iff' _ (Iff.of_eq (k0_chk122.eq_1 i v1719))
theorem k0_off482_inb : ∀ (i : grid0.Coords) (v1719 : BitVec 32) (k0_hw122 : k0_chk122 i v1719), ∀ (k0_h2 : k0_cond2 i = 1#1), ∀ a, (k0_off482 v1719) a + S8x1x1024.size a ≤ S8x4096x1024.size a := fun i v1719 k0_hw122 k0_h2 => k0_hw122 k0_h2

def k0_off483 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off484 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1418 : BitVec 32 := 0#32
  let c57_i32_1417 : BitVec 32 := 57#32
  let c0_i32_1419 : BitVec 32 := 0#32
  ![v803.toNat, 0, 57, 0]
def k0_off485 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1422 : BitVec 32 := 64#32
  let v1732 : BitVec 32 := Scalar.muli v802 c64_i32_1422
  let c58_i32_1423 : BitVec 32 := 58#32
  let v1733 : BitVec 32 := Scalar.addi v1732 c58_i32_1423
  let v1734 : Index := Scalar.indexCast v1733
  ![v1734.toNat]
def k0_off486 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1425 : BitVec 32 := 0#32
  let c58_i32_1424 : BitVec 32 := 58#32
  let c0_i32_1426 : BitVec 32 := 0#32
  ![v803.toNat, 0, 58, 0]
def k0_off487 (v1735 : BitVec 32) : Fin 3 → Nat :=
  let c0_i32_1427 : BitVec 32 := 0#32
  let c0_i32_1428 : BitVec 32 := 0#32
  ![0, v1735.toNat, 0]

def k0_chk123 (i : grid0.Coords) (v1735 : BitVec 32) : Prop :=
  (∀ (k0_h2 : k0_cond2 i = 1#1), ∀ a, (k0_off487 v1735) a + S8x1x1024.size a ≤ S8x4096x1024.size a)
instance k0_chk123.dec : ∀ (i : grid0.Coords) (v1735 : BitVec 32), Decidable (k0_chk123 i v1735) := fun i v1735 => decidable_of_iff' _ (Iff.of_eq (k0_chk123.eq_1 i v1735))
theorem k0_off487_inb : ∀ (i : grid0.Coords) (v1735 : BitVec 32) (k0_hw123 : k0_chk123 i v1735), ∀ (k0_h2 : k0_cond2 i = 1#1), ∀ a, (k0_off487 v1735) a + S8x1x1024.size a ≤ S8x4096x1024.size a := fun i v1735 k0_hw123 k0_h2 => k0_hw123 k0_h2

def k0_off488 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off489 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1430 : BitVec 32 := 0#32
  let c58_i32_1429 : BitVec 32 := 58#32
  let c0_i32_1431 : BitVec 32 := 0#32
  ![v803.toNat, 0, 58, 0]
def k0_off490 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1434 : BitVec 32 := 64#32
  let v1748 : BitVec 32 := Scalar.muli v802 c64_i32_1434
  let c59_i32_1435 : BitVec 32 := 59#32
  let v1749 : BitVec 32 := Scalar.addi v1748 c59_i32_1435
  let v1750 : Index := Scalar.indexCast v1749
  ![v1750.toNat]
def k0_off491 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1437 : BitVec 32 := 0#32
  let c59_i32_1436 : BitVec 32 := 59#32
  let c0_i32_1438 : BitVec 32 := 0#32
  ![v803.toNat, 0, 59, 0]
def k0_off492 (v1751 : BitVec 32) : Fin 3 → Nat :=
  let c0_i32_1439 : BitVec 32 := 0#32
  let c0_i32_1440 : BitVec 32 := 0#32
  ![0, v1751.toNat, 0]

def k0_chk124 (i : grid0.Coords) (v1751 : BitVec 32) : Prop :=
  (∀ (k0_h2 : k0_cond2 i = 1#1), ∀ a, (k0_off492 v1751) a + S8x1x1024.size a ≤ S8x4096x1024.size a)
instance k0_chk124.dec : ∀ (i : grid0.Coords) (v1751 : BitVec 32), Decidable (k0_chk124 i v1751) := fun i v1751 => decidable_of_iff' _ (Iff.of_eq (k0_chk124.eq_1 i v1751))
theorem k0_off492_inb : ∀ (i : grid0.Coords) (v1751 : BitVec 32) (k0_hw124 : k0_chk124 i v1751), ∀ (k0_h2 : k0_cond2 i = 1#1), ∀ a, (k0_off492 v1751) a + S8x1x1024.size a ≤ S8x4096x1024.size a := fun i v1751 k0_hw124 k0_h2 => k0_hw124 k0_h2

def k0_off493 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off494 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1442 : BitVec 32 := 0#32
  let c59_i32_1441 : BitVec 32 := 59#32
  let c0_i32_1443 : BitVec 32 := 0#32
  ![v803.toNat, 0, 59, 0]
def k0_off495 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1446 : BitVec 32 := 64#32
  let v1764 : BitVec 32 := Scalar.muli v802 c64_i32_1446
  let c60_i32_1447 : BitVec 32 := 60#32
  let v1765 : BitVec 32 := Scalar.addi v1764 c60_i32_1447
  let v1766 : Index := Scalar.indexCast v1765
  ![v1766.toNat]
def k0_off496 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1449 : BitVec 32 := 0#32
  let c60_i32_1448 : BitVec 32 := 60#32
  let c0_i32_1450 : BitVec 32 := 0#32
  ![v803.toNat, 0, 60, 0]
def k0_off497 (v1767 : BitVec 32) : Fin 3 → Nat :=
  let c0_i32_1451 : BitVec 32 := 0#32
  let c0_i32_1452 : BitVec 32 := 0#32
  ![0, v1767.toNat, 0]

def k0_chk125 (i : grid0.Coords) (v1767 : BitVec 32) : Prop :=
  (∀ (k0_h2 : k0_cond2 i = 1#1), ∀ a, (k0_off497 v1767) a + S8x1x1024.size a ≤ S8x4096x1024.size a)
instance k0_chk125.dec : ∀ (i : grid0.Coords) (v1767 : BitVec 32), Decidable (k0_chk125 i v1767) := fun i v1767 => decidable_of_iff' _ (Iff.of_eq (k0_chk125.eq_1 i v1767))
theorem k0_off497_inb : ∀ (i : grid0.Coords) (v1767 : BitVec 32) (k0_hw125 : k0_chk125 i v1767), ∀ (k0_h2 : k0_cond2 i = 1#1), ∀ a, (k0_off497 v1767) a + S8x1x1024.size a ≤ S8x4096x1024.size a := fun i v1767 k0_hw125 k0_h2 => k0_hw125 k0_h2

def k0_off498 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off499 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1454 : BitVec 32 := 0#32
  let c60_i32_1453 : BitVec 32 := 60#32
  let c0_i32_1455 : BitVec 32 := 0#32
  ![v803.toNat, 0, 60, 0]
def k0_off500 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1458 : BitVec 32 := 64#32
  let v1780 : BitVec 32 := Scalar.muli v802 c64_i32_1458
  let c61_i32_1459 : BitVec 32 := 61#32
  let v1781 : BitVec 32 := Scalar.addi v1780 c61_i32_1459
  let v1782 : Index := Scalar.indexCast v1781
  ![v1782.toNat]
def k0_off501 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1461 : BitVec 32 := 0#32
  let c61_i32_1460 : BitVec 32 := 61#32
  let c0_i32_1462 : BitVec 32 := 0#32
  ![v803.toNat, 0, 61, 0]
def k0_off502 (v1783 : BitVec 32) : Fin 3 → Nat :=
  let c0_i32_1463 : BitVec 32 := 0#32
  let c0_i32_1464 : BitVec 32 := 0#32
  ![0, v1783.toNat, 0]

def k0_chk126 (i : grid0.Coords) (v1783 : BitVec 32) : Prop :=
  (∀ (k0_h2 : k0_cond2 i = 1#1), ∀ a, (k0_off502 v1783) a + S8x1x1024.size a ≤ S8x4096x1024.size a)
instance k0_chk126.dec : ∀ (i : grid0.Coords) (v1783 : BitVec 32), Decidable (k0_chk126 i v1783) := fun i v1783 => decidable_of_iff' _ (Iff.of_eq (k0_chk126.eq_1 i v1783))
theorem k0_off502_inb : ∀ (i : grid0.Coords) (v1783 : BitVec 32) (k0_hw126 : k0_chk126 i v1783), ∀ (k0_h2 : k0_cond2 i = 1#1), ∀ a, (k0_off502 v1783) a + S8x1x1024.size a ≤ S8x4096x1024.size a := fun i v1783 k0_hw126 k0_h2 => k0_hw126 k0_h2

def k0_off503 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off504 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1466 : BitVec 32 := 0#32
  let c61_i32_1465 : BitVec 32 := 61#32
  let c0_i32_1467 : BitVec 32 := 0#32
  ![v803.toNat, 0, 61, 0]
def k0_off505 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1470 : BitVec 32 := 64#32
  let v1796 : BitVec 32 := Scalar.muli v802 c64_i32_1470
  let c62_i32_1471 : BitVec 32 := 62#32
  let v1797 : BitVec 32 := Scalar.addi v1796 c62_i32_1471
  let v1798 : Index := Scalar.indexCast v1797
  ![v1798.toNat]
def k0_off506 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1473 : BitVec 32 := 0#32
  let c62_i32_1472 : BitVec 32 := 62#32
  let c0_i32_1474 : BitVec 32 := 0#32
  ![v803.toNat, 0, 62, 0]
def k0_off507 (v1799 : BitVec 32) : Fin 3 → Nat :=
  let c0_i32_1475 : BitVec 32 := 0#32
  let c0_i32_1476 : BitVec 32 := 0#32
  ![0, v1799.toNat, 0]

def k0_chk127 (i : grid0.Coords) (v1799 : BitVec 32) : Prop :=
  (∀ (k0_h2 : k0_cond2 i = 1#1), ∀ a, (k0_off507 v1799) a + S8x1x1024.size a ≤ S8x4096x1024.size a)
instance k0_chk127.dec : ∀ (i : grid0.Coords) (v1799 : BitVec 32), Decidable (k0_chk127 i v1799) := fun i v1799 => decidable_of_iff' _ (Iff.of_eq (k0_chk127.eq_1 i v1799))
theorem k0_off507_inb : ∀ (i : grid0.Coords) (v1799 : BitVec 32) (k0_hw127 : k0_chk127 i v1799), ∀ (k0_h2 : k0_cond2 i = 1#1), ∀ a, (k0_off507 v1799) a + S8x1x1024.size a ≤ S8x4096x1024.size a := fun i v1799 k0_hw127 k0_h2 => k0_hw127 k0_h2

def k0_off508 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off509 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1478 : BitVec 32 := 0#32
  let c62_i32_1477 : BitVec 32 := 62#32
  let c0_i32_1479 : BitVec 32 := 0#32
  ![v803.toNat, 0, 62, 0]
def k0_off510 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_725 : BitVec 32 := 1#32
  let v802 : BitVec 32 := Scalar.addi v1 c1_i32_725
  let c64_i32_1482 : BitVec 32 := 64#32
  let v1812 : BitVec 32 := Scalar.muli v802 c64_i32_1482
  let c63_i32_1483 : BitVec 32 := 63#32
  let v1813 : BitVec 32 := Scalar.addi v1812 c63_i32_1483
  let v1814 : Index := Scalar.indexCast v1813
  ![v1814.toNat]
def k0_off511 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1485 : BitVec 32 := 0#32
  let c63_i32_1484 : BitVec 32 := 63#32
  let c0_i32_1486 : BitVec 32 := 0#32
  ![v803.toNat, 0, 63, 0]
def k0_off512 (v1815 : BitVec 32) : Fin 3 → Nat :=
  let c0_i32_1487 : BitVec 32 := 0#32
  let c0_i32_1488 : BitVec 32 := 0#32
  ![0, v1815.toNat, 0]

def k0_chk128 (i : grid0.Coords) (v1815 : BitVec 32) : Prop :=
  (∀ (k0_h2 : k0_cond2 i = 1#1), ∀ a, (k0_off512 v1815) a + S8x1x1024.size a ≤ S8x4096x1024.size a)
instance k0_chk128.dec : ∀ (i : grid0.Coords) (v1815 : BitVec 32), Decidable (k0_chk128 i v1815) := fun i v1815 => decidable_of_iff' _ (Iff.of_eq (k0_chk128.eq_1 i v1815))
theorem k0_off512_inb : ∀ (i : grid0.Coords) (v1815 : BitVec 32) (k0_hw128 : k0_chk128 i v1815), ∀ (k0_h2 : k0_cond2 i = 1#1), ∀ a, (k0_off512 v1815) a + S8x1x1024.size a ≤ S8x4096x1024.size a := fun i v1815 k0_hw128 k0_h2 => k0_hw128 k0_h2

def k0_off513 (i : grid0.Coords) : Fin 1 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  ![v803.toNat]
def k0_off514 (i : grid0.Coords) : Fin 4 → Nat :=
  let c1_i32_726 : BitVec 32 := 1#32
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v803 : BitVec 32 := Scalar.subi c1_i32_726 v11
  let c0_i32_1490 : BitVec 32 := 0#32
  let c63_i32_1489 : BitVec 32 := 63#32
  let c0_i32_1491 : BitVec 32 := 0#32
  ![v803.toNat, 0, 63, 0]
def k0_off515 (i : grid0.Coords) : Fin 4 → Nat :=
  let arg1 : BitVec 32 := BitVec.ofNat 32 (i 1).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v787 : Index := Scalar.indexCast v11
  let c0 : Index := 0#32
  let c0_716 : Index := 0#32
  let c0_717 : Index := 0#32
  ![v787.toNat, 0, 0, 0]
def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  bcast_S_S2048 : S_.BroadcastsInDim S2048 (![] : Fin 0 → Fin S2048.rank)
  numel1_S1 : S1.numel = 1
  inb_S2_S1_0 : ∀ a, (![0] : Fin 1 → Nat) a + S1.size a ≤ S2.size a
  squeezes_S1_S_ : S1.Squeezes S_
  inb_S2x8x64x1024_S1x8x1x1024_0_0_0_0 : ∀ a, (![0, 0, 0, 0] : Fin 4 → Nat) a + S1x8x1x1024.size a ≤ S2x8x64x1024.size a
  squeezes_S1x8x1x1024_S8x1024 : S1x8x1x1024.Squeezes S8x1024
  squeezes_S8x1x1024_S8x1024 : S8x1x1024.Squeezes S8x1024
  inb_S2x8x64x1024_S1x8x1x1024_0_0_1_0 : ∀ a, (![0, 0, 1, 0] : Fin 4 → Nat) a + S1x8x1x1024.size a ≤ S2x8x64x1024.size a
  inb_S2x8x64x1024_S1x8x1x1024_0_0_2_0 : ∀ a, (![0, 0, 2, 0] : Fin 4 → Nat) a + S1x8x1x1024.size a ≤ S2x8x64x1024.size a
  inb_S2x8x64x1024_S1x8x1x1024_0_0_3_0 : ∀ a, (![0, 0, 3, 0] : Fin 4 → Nat) a + S1x8x1x1024.size a ≤ S2x8x64x1024.size a
  inb_S2x8x64x1024_S1x8x1x1024_0_0_4_0 : ∀ a, (![0, 0, 4, 0] : Fin 4 → Nat) a + S1x8x1x1024.size a ≤ S2x8x64x1024.size a
  inb_S2x8x64x1024_S1x8x1x1024_0_0_5_0 : ∀ a, (![0, 0, 5, 0] : Fin 4 → Nat) a + S1x8x1x1024.size a ≤ S2x8x64x1024.size a
  inb_S2x8x64x1024_S1x8x1x1024_0_0_6_0 : ∀ a, (![0, 0, 6, 0] : Fin 4 → Nat) a + S1x8x1x1024.size a ≤ S2x8x64x1024.size a
  inb_S2x8x64x1024_S1x8x1x1024_0_0_7_0 : ∀ a, (![0, 0, 7, 0] : Fin 4 → Nat) a + S1x8x1x1024.size a ≤ S2x8x64x1024.size a
  inb_S2x8x64x1024_S1x8x1x1024_0_0_8_0 : ∀ a, (![0, 0, 8, 0] : Fin 4 → Nat) a + S1x8x1x1024.size a ≤ S2x8x64x1024.size a
  inb_S2x8x64x1024_S1x8x1x1024_0_0_9_0 : ∀ a, (![0, 0, 9, 0] : Fin 4 → Nat) a + S1x8x1x1024.size a ≤ S2x8x64x1024.size a
  inb_S2x8x64x1024_S1x8x1x1024_0_0_10_0 : ∀ a, (![0, 0, 10, 0] : Fin 4 → Nat) a + S1x8x1x1024.size a ≤ S2x8x64x1024.size a
  inb_S2x8x64x1024_S1x8x1x1024_0_0_11_0 : ∀ a, (![0, 0, 11, 0] : Fin 4 → Nat) a + S1x8x1x1024.size a ≤ S2x8x64x1024.size a
  inb_S2x8x64x1024_S1x8x1x1024_0_0_12_0 : ∀ a, (![0, 0, 12, 0] : Fin 4 → Nat) a + S1x8x1x1024.size a ≤ S2x8x64x1024.size a
  inb_S2x8x64x1024_S1x8x1x1024_0_0_13_0 : ∀ a, (![0, 0, 13, 0] : Fin 4 → Nat) a + S1x8x1x1024.size a ≤ S2x8x64x1024.size a
  inb_S2x8x64x1024_S1x8x1x1024_0_0_14_0 : ∀ a, (![0, 0, 14, 0] : Fin 4 → Nat) a + S1x8x1x1024.size a ≤ S2x8x64x1024.size a
  inb_S2x8x64x1024_S1x8x1x1024_0_0_15_0 : ∀ a, (![0, 0, 15, 0] : Fin 4 → Nat) a + S1x8x1x1024.size a ≤ S2x8x64x1024.size a
  inb_S2x8x64x1024_S1x8x1x1024_0_0_16_0 : ∀ a, (![0, 0, 16, 0] : Fin 4 → Nat) a + S1x8x1x1024.size a ≤ S2x8x64x1024.size a
  inb_S2x8x64x1024_S1x8x1x1024_0_0_17_0 : ∀ a, (![0, 0, 17, 0] : Fin 4 → Nat) a + S1x8x1x1024.size a ≤ S2x8x64x1024.size a
  inb_S2x8x64x1024_S1x8x1x1024_0_0_18_0 : ∀ a, (![0, 0, 18, 0] : Fin 4 → Nat) a + S1x8x1x1024.size a ≤ S2x8x64x1024.size a
  inb_S2x8x64x1024_S1x8x1x1024_0_0_19_0 : ∀ a, (![0, 0, 19, 0] : Fin 4 → Nat) a + S1x8x1x1024.size a ≤ S2x8x64x1024.size a
  inb_S2x8x64x1024_S1x8x1x1024_0_0_20_0 : ∀ a, (![0, 0, 20, 0] : Fin 4 → Nat) a + S1x8x1x1024.size a ≤ S2x8x64x1024.size a
  inb_S2x8x64x1024_S1x8x1x1024_0_0_21_0 : ∀ a, (![0, 0, 21, 0] : Fin 4 → Nat) a + S1x8x1x1024.size a ≤ S2x8x64x1024.size a
  inb_S2x8x64x1024_S1x8x1x1024_0_0_22_0 : ∀ a, (![0, 0, 22, 0] : Fin 4 → Nat) a + S1x8x1x1024.size a ≤ S2x8x64x1024.size a
  inb_S2x8x64x1024_S1x8x1x1024_0_0_23_0 : ∀ a, (![0, 0, 23, 0] : Fin 4 → Nat) a + S1x8x1x1024.size a ≤ S2x8x64x1024.size a
  inb_S2x8x64x1024_S1x8x1x1024_0_0_24_0 : ∀ a, (![0, 0, 24, 0] : Fin 4 → Nat) a + S1x8x1x1024.size a ≤ S2x8x64x1024.size a
  inb_S2x8x64x1024_S1x8x1x1024_0_0_25_0 : ∀ a, (![0, 0, 25, 0] : Fin 4 → Nat) a + S1x8x1x1024.size a ≤ S2x8x64x1024.size a
  inb_S2x8x64x1024_S1x8x1x1024_0_0_26_0 : ∀ a, (![0, 0, 26, 0] : Fin 4 → Nat) a + S1x8x1x1024.size a ≤ S2x8x64x1024.size a
  inb_S2x8x64x1024_S1x8x1x1024_0_0_27_0 : ∀ a, (![0, 0, 27, 0] : Fin 4 → Nat) a + S1x8x1x1024.size a ≤ S2x8x64x1024.size a
  inb_S2x8x64x1024_S1x8x1x1024_0_0_28_0 : ∀ a, (![0, 0, 28, 0] : Fin 4 → Nat) a + S1x8x1x1024.size a ≤ S2x8x64x1024.size a
  inb_S2x8x64x1024_S1x8x1x1024_0_0_29_0 : ∀ a, (![0, 0, 29, 0] : Fin 4 → Nat) a + S1x8x1x1024.size a ≤ S2x8x64x1024.size a
  inb_S2x8x64x1024_S1x8x1x1024_0_0_30_0 : ∀ a, (![0, 0, 30, 0] : Fin 4 → Nat) a + S1x8x1x1024.size a ≤ S2x8x64x1024.size a
  inb_S2x8x64x1024_S1x8x1x1024_0_0_31_0 : ∀ a, (![0, 0, 31, 0] : Fin 4 → Nat) a + S1x8x1x1024.size a ≤ S2x8x64x1024.size a
  inb_S2x8x64x1024_S1x8x1x1024_0_0_32_0 : ∀ a, (![0, 0, 32, 0] : Fin 4 → Nat) a + S1x8x1x1024.size a ≤ S2x8x64x1024.size a
  inb_S2x8x64x1024_S1x8x1x1024_0_0_33_0 : ∀ a, (![0, 0, 33, 0] : Fin 4 → Nat) a + S1x8x1x1024.size a ≤ S2x8x64x1024.size a
  inb_S2x8x64x1024_S1x8x1x1024_0_0_34_0 : ∀ a, (![0, 0, 34, 0] : Fin 4 → Nat) a + S1x8x1x1024.size a ≤ S2x8x64x1024.size a
  inb_S2x8x64x1024_S1x8x1x1024_0_0_35_0 : ∀ a, (![0, 0, 35, 0] : Fin 4 → Nat) a + S1x8x1x1024.size a ≤ S2x8x64x1024.size a
  inb_S2x8x64x1024_S1x8x1x1024_0_0_36_0 : ∀ a, (![0, 0, 36, 0] : Fin 4 → Nat) a + S1x8x1x1024.size a ≤ S2x8x64x1024.size a
  inb_S2x8x64x1024_S1x8x1x1024_0_0_37_0 : ∀ a, (![0, 0, 37, 0] : Fin 4 → Nat) a + S1x8x1x1024.size a ≤ S2x8x64x1024.size a
  inb_S2x8x64x1024_S1x8x1x1024_0_0_38_0 : ∀ a, (![0, 0, 38, 0] : Fin 4 → Nat) a + S1x8x1x1024.size a ≤ S2x8x64x1024.size a
  inb_S2x8x64x1024_S1x8x1x1024_0_0_39_0 : ∀ a, (![0, 0, 39, 0] : Fin 4 → Nat) a + S1x8x1x1024.size a ≤ S2x8x64x1024.size a
  inb_S2x8x64x1024_S1x8x1x1024_0_0_40_0 : ∀ a, (![0, 0, 40, 0] : Fin 4 → Nat) a + S1x8x1x1024.size a ≤ S2x8x64x1024.size a
  inb_S2x8x64x1024_S1x8x1x1024_0_0_41_0 : ∀ a, (![0, 0, 41, 0] : Fin 4 → Nat) a + S1x8x1x1024.size a ≤ S2x8x64x1024.size a
  inb_S2x8x64x1024_S1x8x1x1024_0_0_42_0 : ∀ a, (![0, 0, 42, 0] : Fin 4 → Nat) a + S1x8x1x1024.size a ≤ S2x8x64x1024.size a
  inb_S2x8x64x1024_S1x8x1x1024_0_0_43_0 : ∀ a, (![0, 0, 43, 0] : Fin 4 → Nat) a + S1x8x1x1024.size a ≤ S2x8x64x1024.size a
  inb_S2x8x64x1024_S1x8x1x1024_0_0_44_0 : ∀ a, (![0, 0, 44, 0] : Fin 4 → Nat) a + S1x8x1x1024.size a ≤ S2x8x64x1024.size a
  inb_S2x8x64x1024_S1x8x1x1024_0_0_45_0 : ∀ a, (![0, 0, 45, 0] : Fin 4 → Nat) a + S1x8x1x1024.size a ≤ S2x8x64x1024.size a
  inb_S2x8x64x1024_S1x8x1x1024_0_0_46_0 : ∀ a, (![0, 0, 46, 0] : Fin 4 → Nat) a + S1x8x1x1024.size a ≤ S2x8x64x1024.size a
  inb_S2x8x64x1024_S1x8x1x1024_0_0_47_0 : ∀ a, (![0, 0, 47, 0] : Fin 4 → Nat) a + S1x8x1x1024.size a ≤ S2x8x64x1024.size a
  inb_S2x8x64x1024_S1x8x1x1024_0_0_48_0 : ∀ a, (![0, 0, 48, 0] : Fin 4 → Nat) a + S1x8x1x1024.size a ≤ S2x8x64x1024.size a
  inb_S2x8x64x1024_S1x8x1x1024_0_0_49_0 : ∀ a, (![0, 0, 49, 0] : Fin 4 → Nat) a + S1x8x1x1024.size a ≤ S2x8x64x1024.size a
  inb_S2x8x64x1024_S1x8x1x1024_0_0_50_0 : ∀ a, (![0, 0, 50, 0] : Fin 4 → Nat) a + S1x8x1x1024.size a ≤ S2x8x64x1024.size a
  inb_S2x8x64x1024_S1x8x1x1024_0_0_51_0 : ∀ a, (![0, 0, 51, 0] : Fin 4 → Nat) a + S1x8x1x1024.size a ≤ S2x8x64x1024.size a
  inb_S2x8x64x1024_S1x8x1x1024_0_0_52_0 : ∀ a, (![0, 0, 52, 0] : Fin 4 → Nat) a + S1x8x1x1024.size a ≤ S2x8x64x1024.size a
  inb_S2x8x64x1024_S1x8x1x1024_0_0_53_0 : ∀ a, (![0, 0, 53, 0] : Fin 4 → Nat) a + S1x8x1x1024.size a ≤ S2x8x64x1024.size a
  inb_S2x8x64x1024_S1x8x1x1024_0_0_54_0 : ∀ a, (![0, 0, 54, 0] : Fin 4 → Nat) a + S1x8x1x1024.size a ≤ S2x8x64x1024.size a
  inb_S2x8x64x1024_S1x8x1x1024_0_0_55_0 : ∀ a, (![0, 0, 55, 0] : Fin 4 → Nat) a + S1x8x1x1024.size a ≤ S2x8x64x1024.size a
  inb_S2x8x64x1024_S1x8x1x1024_0_0_56_0 : ∀ a, (![0, 0, 56, 0] : Fin 4 → Nat) a + S1x8x1x1024.size a ≤ S2x8x64x1024.size a
  inb_S2x8x64x1024_S1x8x1x1024_0_0_57_0 : ∀ a, (![0, 0, 57, 0] : Fin 4 → Nat) a + S1x8x1x1024.size a ≤ S2x8x64x1024.size a
  inb_S2x8x64x1024_S1x8x1x1024_0_0_58_0 : ∀ a, (![0, 0, 58, 0] : Fin 4 → Nat) a + S1x8x1x1024.size a ≤ S2x8x64x1024.size a
  inb_S2x8x64x1024_S1x8x1x1024_0_0_59_0 : ∀ a, (![0, 0, 59, 0] : Fin 4 → Nat) a + S1x8x1x1024.size a ≤ S2x8x64x1024.size a
  inb_S2x8x64x1024_S1x8x1x1024_0_0_60_0 : ∀ a, (![0, 0, 60, 0] : Fin 4 → Nat) a + S1x8x1x1024.size a ≤ S2x8x64x1024.size a
  inb_S2x8x64x1024_S1x8x1x1024_0_0_61_0 : ∀ a, (![0, 0, 61, 0] : Fin 4 → Nat) a + S1x8x1x1024.size a ≤ S2x8x64x1024.size a
  inb_S2x8x64x1024_S1x8x1x1024_0_0_62_0 : ∀ a, (![0, 0, 62, 0] : Fin 4 → Nat) a + S1x8x1x1024.size a ≤ S2x8x64x1024.size a
  inb_S2x8x64x1024_S1x8x1x1024_0_0_63_0 : ∀ a, (![0, 0, 63, 0] : Fin 4 → Nat) a + S1x8x1x1024.size a ≤ S2x8x64x1024.size a
  inb_S8x4096x1024_S8x1x1024_0_0_0 : ∀ a, (![0, 0, 0] : Fin 3 → Nat) a + S8x1x1024.size a ≤ S8x4096x1024.size a
  h_S1x8x64x1024 : 0 < S1x8x64x1024.numel
  shapeCasts_S1x8x64x1024_S8x64x1024 : S1x8x64x1024.ShapeCasts S8x64x1024
  inb_S8x64x1024_S8x64x1024_0_0_0 : ∀ a, (![0, 0, 0] : Fin 3 → Nat) a + S8x64x1024.size a ≤ S8x64x1024.size a
  h_S8x64x1024 : 0 < S8x64x1024.numel
  hcc0_scratch2 : 2 + S2.numel ≤ 6
  hcc0_scratch3 : 4 + S2.numel ≤ 6
  hrank0 : 0 < grid0.rank
  k0_off1_inb : ∀ i : grid0.Coords, ∀ (k0_h1 : k0_cond1 i = 1#1), ∀ a, (k0_off1 i) a + S1.size a ≤ S2048.size a
  k0_off3_inb : ∀ i : grid0.Coords, ∀ (k0_h1 : k0_cond1 i = 1#1), ∀ a, (k0_off3 i) a + S1.size a ≤ S2048.size a
  k0_off5_inb : ∀ i : grid0.Coords, ∀ (k0_h1 : k0_cond1 i = 1#1), ∀ a, (k0_off5 i) a + S1.size a ≤ S2048.size a
  k0_off7_inb : ∀ i : grid0.Coords, ∀ (k0_h1 : k0_cond1 i = 1#1), ∀ a, (k0_off7 i) a + S1.size a ≤ S2048.size a
  k0_off9_inb : ∀ i : grid0.Coords, ∀ (k0_h1 : k0_cond1 i = 1#1), ∀ a, (k0_off9 i) a + S1.size a ≤ S2048.size a
  k0_off11_inb : ∀ i : grid0.Coords, ∀ (k0_h1 : k0_cond1 i = 1#1), ∀ a, (k0_off11 i) a + S1.size a ≤ S2048.size a
  k0_off13_inb : ∀ i : grid0.Coords, ∀ (k0_h1 : k0_cond1 i = 1#1), ∀ a, (k0_off13 i) a + S1.size a ≤ S2048.size a
  k0_off15_inb : ∀ i : grid0.Coords, ∀ (k0_h1 : k0_cond1 i = 1#1), ∀ a, (k0_off15 i) a + S1.size a ≤ S2048.size a
  k0_off17_inb : ∀ i : grid0.Coords, ∀ (k0_h1 : k0_cond1 i = 1#1), ∀ a, (k0_off17 i) a + S1.size a ≤ S2048.size a
  k0_off19_inb : ∀ i : grid0.Coords, ∀ (k0_h1 : k0_cond1 i = 1#1), ∀ a, (k0_off19 i) a + S1.size a ≤ S2048.size a
  k0_off21_inb : ∀ i : grid0.Coords, ∀ (k0_h1 : k0_cond1 i = 1#1), ∀ a, (k0_off21 i) a + S1.size a ≤ S2048.size a
  k0_off23_inb : ∀ i : grid0.Coords, ∀ (k0_h1 : k0_cond1 i = 1#1), ∀ a, (k0_off23 i) a + S1.size a ≤ S2048.size a
  k0_off25_inb : ∀ i : grid0.Coords, ∀ (k0_h1 : k0_cond1 i = 1#1), ∀ a, (k0_off25 i) a + S1.size a ≤ S2048.size a
  k0_off27_inb : ∀ i : grid0.Coords, ∀ (k0_h1 : k0_cond1 i = 1#1), ∀ a, (k0_off27 i) a + S1.size a ≤ S2048.size a
  k0_off29_inb : ∀ i : grid0.Coords, ∀ (k0_h1 : k0_cond1 i = 1#1), ∀ a, (k0_off29 i) a + S1.size a ≤ S2048.size a
  k0_off31_inb : ∀ i : grid0.Coords, ∀ (k0_h1 : k0_cond1 i = 1#1), ∀ a, (k0_off31 i) a + S1.size a ≤ S2048.size a
  k0_off33_inb : ∀ i : grid0.Coords, ∀ (k0_h1 : k0_cond1 i = 1#1), ∀ a, (k0_off33 i) a + S1.size a ≤ S2048.size a
  k0_off35_inb : ∀ i : grid0.Coords, ∀ (k0_h1 : k0_cond1 i = 1#1), ∀ a, (k0_off35 i) a + S1.size a ≤ S2048.size a
  k0_off37_inb : ∀ i : grid0.Coords, ∀ (k0_h1 : k0_cond1 i = 1#1), ∀ a, (k0_off37 i) a + S1.size a ≤ S2048.size a
  k0_off39_inb : ∀ i : grid0.Coords, ∀ (k0_h1 : k0_cond1 i = 1#1), ∀ a, (k0_off39 i) a + S1.size a ≤ S2048.size a
  k0_off41_inb : ∀ i : grid0.Coords, ∀ (k0_h1 : k0_cond1 i = 1#1), ∀ a, (k0_off41 i) a + S1.size a ≤ S2048.size a
  k0_off43_inb : ∀ i : grid0.Coords, ∀ (k0_h1 : k0_cond1 i = 1#1), ∀ a, (k0_off43 i) a + S1.size a ≤ S2048.size a
  k0_off45_inb : ∀ i : grid0.Coords, ∀ (k0_h1 : k0_cond1 i = 1#1), ∀ a, (k0_off45 i) a + S1.size a ≤ S2048.size a
  k0_off47_inb : ∀ i : grid0.Coords, ∀ (k0_h1 : k0_cond1 i = 1#1), ∀ a, (k0_off47 i) a + S1.size a ≤ S2048.size a
  k0_off49_inb : ∀ i : grid0.Coords, ∀ (k0_h1 : k0_cond1 i = 1#1), ∀ a, (k0_off49 i) a + S1.size a ≤ S2048.size a
  k0_off51_inb : ∀ i : grid0.Coords, ∀ (k0_h1 : k0_cond1 i = 1#1), ∀ a, (k0_off51 i) a + S1.size a ≤ S2048.size a
  k0_off53_inb : ∀ i : grid0.Coords, ∀ (k0_h1 : k0_cond1 i = 1#1), ∀ a, (k0_off53 i) a + S1.size a ≤ S2048.size a
  k0_off55_inb : ∀ i : grid0.Coords, ∀ (k0_h1 : k0_cond1 i = 1#1), ∀ a, (k0_off55 i) a + S1.size a ≤ S2048.size a
  k0_off57_inb : ∀ i : grid0.Coords, ∀ (k0_h1 : k0_cond1 i = 1#1), ∀ a, (k0_off57 i) a + S1.size a ≤ S2048.size a
  k0_off59_inb : ∀ i : grid0.Coords, ∀ (k0_h1 : k0_cond1 i = 1#1), ∀ a, (k0_off59 i) a + S1.size a ≤ S2048.size a
  k0_off61_inb : ∀ i : grid0.Coords, ∀ (k0_h1 : k0_cond1 i = 1#1), ∀ a, (k0_off61 i) a + S1.size a ≤ S2048.size a
  k0_off63_inb : ∀ i : grid0.Coords, ∀ (k0_h1 : k0_cond1 i = 1#1), ∀ a, (k0_off63 i) a + S1.size a ≤ S2048.size a
  k0_off65_inb : ∀ i : grid0.Coords, ∀ (k0_h1 : k0_cond1 i = 1#1), ∀ a, (k0_off65 i) a + S1.size a ≤ S2048.size a
  k0_off67_inb : ∀ i : grid0.Coords, ∀ (k0_h1 : k0_cond1 i = 1#1), ∀ a, (k0_off67 i) a + S1.size a ≤ S2048.size a
  k0_off69_inb : ∀ i : grid0.Coords, ∀ (k0_h1 : k0_cond1 i = 1#1), ∀ a, (k0_off69 i) a + S1.size a ≤ S2048.size a
  k0_off71_inb : ∀ i : grid0.Coords, ∀ (k0_h1 : k0_cond1 i = 1#1), ∀ a, (k0_off71 i) a + S1.size a ≤ S2048.size a
  k0_off73_inb : ∀ i : grid0.Coords, ∀ (k0_h1 : k0_cond1 i = 1#1), ∀ a, (k0_off73 i) a + S1.size a ≤ S2048.size a
  k0_off75_inb : ∀ i : grid0.Coords, ∀ (k0_h1 : k0_cond1 i = 1#1), ∀ a, (k0_off75 i) a + S1.size a ≤ S2048.size a
  k0_off77_inb : ∀ i : grid0.Coords, ∀ (k0_h1 : k0_cond1 i = 1#1), ∀ a, (k0_off77 i) a + S1.size a ≤ S2048.size a
  k0_off79_inb : ∀ i : grid0.Coords, ∀ (k0_h1 : k0_cond1 i = 1#1), ∀ a, (k0_off79 i) a + S1.size a ≤ S2048.size a
  k0_off81_inb : ∀ i : grid0.Coords, ∀ (k0_h1 : k0_cond1 i = 1#1), ∀ a, (k0_off81 i) a + S1.size a ≤ S2048.size a
  k0_off83_inb : ∀ i : grid0.Coords, ∀ (k0_h1 : k0_cond1 i = 1#1), ∀ a, (k0_off83 i) a + S1.size a ≤ S2048.size a
  k0_off85_inb : ∀ i : grid0.Coords, ∀ (k0_h1 : k0_cond1 i = 1#1), ∀ a, (k0_off85 i) a + S1.size a ≤ S2048.size a
  k0_off87_inb : ∀ i : grid0.Coords, ∀ (k0_h1 : k0_cond1 i = 1#1), ∀ a, (k0_off87 i) a + S1.size a ≤ S2048.size a
  k0_off89_inb : ∀ i : grid0.Coords, ∀ (k0_h1 : k0_cond1 i = 1#1), ∀ a, (k0_off89 i) a + S1.size a ≤ S2048.size a
  k0_off91_inb : ∀ i : grid0.Coords, ∀ (k0_h1 : k0_cond1 i = 1#1), ∀ a, (k0_off91 i) a + S1.size a ≤ S2048.size a
  k0_off93_inb : ∀ i : grid0.Coords, ∀ (k0_h1 : k0_cond1 i = 1#1), ∀ a, (k0_off93 i) a + S1.size a ≤ S2048.size a
  k0_off95_inb : ∀ i : grid0.Coords, ∀ (k0_h1 : k0_cond1 i = 1#1), ∀ a, (k0_off95 i) a + S1.size a ≤ S2048.size a
  k0_off97_inb : ∀ i : grid0.Coords, ∀ (k0_h1 : k0_cond1 i = 1#1), ∀ a, (k0_off97 i) a + S1.size a ≤ S2048.size a
  k0_off99_inb : ∀ i : grid0.Coords, ∀ (k0_h1 : k0_cond1 i = 1#1), ∀ a, (k0_off99 i) a + S1.size a ≤ S2048.size a
  k0_off101_inb : ∀ i : grid0.Coords, ∀ (k0_h1 : k0_cond1 i = 1#1), ∀ a, (k0_off101 i) a + S1.size a ≤ S2048.size a
  k0_off103_inb : ∀ i : grid0.Coords, ∀ (k0_h1 : k0_cond1 i = 1#1), ∀ a, (k0_off103 i) a + S1.size a ≤ S2048.size a
  k0_off105_inb : ∀ i : grid0.Coords, ∀ (k0_h1 : k0_cond1 i = 1#1), ∀ a, (k0_off105 i) a + S1.size a ≤ S2048.size a
  k0_off107_inb : ∀ i : grid0.Coords, ∀ (k0_h1 : k0_cond1 i = 1#1), ∀ a, (k0_off107 i) a + S1.size a ≤ S2048.size a
  k0_off109_inb : ∀ i : grid0.Coords, ∀ (k0_h1 : k0_cond1 i = 1#1), ∀ a, (k0_off109 i) a + S1.size a ≤ S2048.size a
  k0_off111_inb : ∀ i : grid0.Coords, ∀ (k0_h1 : k0_cond1 i = 1#1), ∀ a, (k0_off111 i) a + S1.size a ≤ S2048.size a
  k0_off113_inb : ∀ i : grid0.Coords, ∀ (k0_h1 : k0_cond1 i = 1#1), ∀ a, (k0_off113 i) a + S1.size a ≤ S2048.size a
  k0_off115_inb : ∀ i : grid0.Coords, ∀ (k0_h1 : k0_cond1 i = 1#1), ∀ a, (k0_off115 i) a + S1.size a ≤ S2048.size a
  k0_off117_inb : ∀ i : grid0.Coords, ∀ (k0_h1 : k0_cond1 i = 1#1), ∀ a, (k0_off117 i) a + S1.size a ≤ S2048.size a
  k0_off119_inb : ∀ i : grid0.Coords, ∀ (k0_h1 : k0_cond1 i = 1#1), ∀ a, (k0_off119 i) a + S1.size a ≤ S2048.size a
  k0_off121_inb : ∀ i : grid0.Coords, ∀ (k0_h1 : k0_cond1 i = 1#1), ∀ a, (k0_off121 i) a + S1.size a ≤ S2048.size a
  k0_off123_inb : ∀ i : grid0.Coords, ∀ (k0_h1 : k0_cond1 i = 1#1), ∀ a, (k0_off123 i) a + S1.size a ≤ S2048.size a
  k0_off125_inb : ∀ i : grid0.Coords, ∀ (k0_h1 : k0_cond1 i = 1#1), ∀ a, (k0_off125 i) a + S1.size a ≤ S2048.size a
  k0_off127_inb : ∀ i : grid0.Coords, ∀ (k0_h1 : k0_cond1 i = 1#1), ∀ a, (k0_off127 i) a + S1.size a ≤ S2048.size a
  k0_off129_inb : ∀ i : grid0.Coords, ∀ a, (k0_off129 i) a + S1.size a ≤ S2.size a
  k0_off130_inb : ∀ i : grid0.Coords, ∀ a, (k0_off130 i) a + S1x8x1x1024.size a ≤ S2x8x64x1024.size a
  k0_off131_inb : ∀ i : grid0.Coords, ∀ a, (k0_off131 i) a + S1x8x1x1024.size a ≤ S2x8x64x1024.size a
  k0_off132_inb : ∀ i : grid0.Coords, ∀ a, (k0_off132 i) a + S1x8x1x1024.size a ≤ S2x8x64x1024.size a
  k0_off133_inb : ∀ i : grid0.Coords, ∀ a, (k0_off133 i) a + S1x8x1x1024.size a ≤ S2x8x64x1024.size a
  k0_off134_inb : ∀ i : grid0.Coords, ∀ a, (k0_off134 i) a + S1x8x1x1024.size a ≤ S2x8x64x1024.size a
  k0_off135_inb : ∀ i : grid0.Coords, ∀ a, (k0_off135 i) a + S1x8x1x1024.size a ≤ S2x8x64x1024.size a
  k0_off136_inb : ∀ i : grid0.Coords, ∀ a, (k0_off136 i) a + S1x8x1x1024.size a ≤ S2x8x64x1024.size a
  k0_off137_inb : ∀ i : grid0.Coords, ∀ a, (k0_off137 i) a + S1x8x1x1024.size a ≤ S2x8x64x1024.size a
  k0_off138_inb : ∀ i : grid0.Coords, ∀ a, (k0_off138 i) a + S1x8x1x1024.size a ≤ S2x8x64x1024.size a
  k0_off139_inb : ∀ i : grid0.Coords, ∀ a, (k0_off139 i) a + S1x8x1x1024.size a ≤ S2x8x64x1024.size a
  k0_off140_inb : ∀ i : grid0.Coords, ∀ a, (k0_off140 i) a + S1x8x1x1024.size a ≤ S2x8x64x1024.size a
  k0_off141_inb : ∀ i : grid0.Coords, ∀ a, (k0_off141 i) a + S1x8x1x1024.size a ≤ S2x8x64x1024.size a
  k0_off142_inb : ∀ i : grid0.Coords, ∀ a, (k0_off142 i) a + S1x8x1x1024.size a ≤ S2x8x64x1024.size a
  k0_off143_inb : ∀ i : grid0.Coords, ∀ a, (k0_off143 i) a + S1x8x1x1024.size a ≤ S2x8x64x1024.size a
  k0_off144_inb : ∀ i : grid0.Coords, ∀ a, (k0_off144 i) a + S1x8x1x1024.size a ≤ S2x8x64x1024.size a
  k0_off145_inb : ∀ i : grid0.Coords, ∀ a, (k0_off145 i) a + S1x8x1x1024.size a ≤ S2x8x64x1024.size a
  k0_off146_inb : ∀ i : grid0.Coords, ∀ a, (k0_off146 i) a + S1x8x1x1024.size a ≤ S2x8x64x1024.size a
  k0_off147_inb : ∀ i : grid0.Coords, ∀ a, (k0_off147 i) a + S1x8x1x1024.size a ≤ S2x8x64x1024.size a
  k0_off148_inb : ∀ i : grid0.Coords, ∀ a, (k0_off148 i) a + S1x8x1x1024.size a ≤ S2x8x64x1024.size a
  k0_off149_inb : ∀ i : grid0.Coords, ∀ a, (k0_off149 i) a + S1x8x1x1024.size a ≤ S2x8x64x1024.size a
  k0_off150_inb : ∀ i : grid0.Coords, ∀ a, (k0_off150 i) a + S1x8x1x1024.size a ≤ S2x8x64x1024.size a
  k0_off151_inb : ∀ i : grid0.Coords, ∀ a, (k0_off151 i) a + S1x8x1x1024.size a ≤ S2x8x64x1024.size a
  k0_off152_inb : ∀ i : grid0.Coords, ∀ a, (k0_off152 i) a + S1x8x1x1024.size a ≤ S2x8x64x1024.size a
  k0_off153_inb : ∀ i : grid0.Coords, ∀ a, (k0_off153 i) a + S1x8x1x1024.size a ≤ S2x8x64x1024.size a
  k0_off154_inb : ∀ i : grid0.Coords, ∀ a, (k0_off154 i) a + S1x8x1x1024.size a ≤ S2x8x64x1024.size a
  k0_off155_inb : ∀ i : grid0.Coords, ∀ a, (k0_off155 i) a + S1x8x1x1024.size a ≤ S2x8x64x1024.size a
  k0_off156_inb : ∀ i : grid0.Coords, ∀ a, (k0_off156 i) a + S1x8x1x1024.size a ≤ S2x8x64x1024.size a
  k0_off157_inb : ∀ i : grid0.Coords, ∀ a, (k0_off157 i) a + S1x8x1x1024.size a ≤ S2x8x64x1024.size a
  k0_off158_inb : ∀ i : grid0.Coords, ∀ a, (k0_off158 i) a + S1x8x1x1024.size a ≤ S2x8x64x1024.size a
  k0_off159_inb : ∀ i : grid0.Coords, ∀ a, (k0_off159 i) a + S1x8x1x1024.size a ≤ S2x8x64x1024.size a
  k0_off160_inb : ∀ i : grid0.Coords, ∀ a, (k0_off160 i) a + S1x8x1x1024.size a ≤ S2x8x64x1024.size a
  k0_off161_inb : ∀ i : grid0.Coords, ∀ a, (k0_off161 i) a + S1x8x1x1024.size a ≤ S2x8x64x1024.size a
  k0_off162_inb : ∀ i : grid0.Coords, ∀ a, (k0_off162 i) a + S1x8x1x1024.size a ≤ S2x8x64x1024.size a
  k0_off163_inb : ∀ i : grid0.Coords, ∀ a, (k0_off163 i) a + S1x8x1x1024.size a ≤ S2x8x64x1024.size a
  k0_off164_inb : ∀ i : grid0.Coords, ∀ a, (k0_off164 i) a + S1x8x1x1024.size a ≤ S2x8x64x1024.size a
  k0_off165_inb : ∀ i : grid0.Coords, ∀ a, (k0_off165 i) a + S1x8x1x1024.size a ≤ S2x8x64x1024.size a
  k0_off166_inb : ∀ i : grid0.Coords, ∀ a, (k0_off166 i) a + S1x8x1x1024.size a ≤ S2x8x64x1024.size a
  k0_off167_inb : ∀ i : grid0.Coords, ∀ a, (k0_off167 i) a + S1x8x1x1024.size a ≤ S2x8x64x1024.size a
  k0_off168_inb : ∀ i : grid0.Coords, ∀ a, (k0_off168 i) a + S1x8x1x1024.size a ≤ S2x8x64x1024.size a
  k0_off169_inb : ∀ i : grid0.Coords, ∀ a, (k0_off169 i) a + S1x8x1x1024.size a ≤ S2x8x64x1024.size a
  k0_off170_inb : ∀ i : grid0.Coords, ∀ a, (k0_off170 i) a + S1x8x1x1024.size a ≤ S2x8x64x1024.size a
  k0_off171_inb : ∀ i : grid0.Coords, ∀ a, (k0_off171 i) a + S1x8x1x1024.size a ≤ S2x8x64x1024.size a
  k0_off172_inb : ∀ i : grid0.Coords, ∀ a, (k0_off172 i) a + S1x8x1x1024.size a ≤ S2x8x64x1024.size a
  k0_off173_inb : ∀ i : grid0.Coords, ∀ a, (k0_off173 i) a + S1x8x1x1024.size a ≤ S2x8x64x1024.size a
  k0_off174_inb : ∀ i : grid0.Coords, ∀ a, (k0_off174 i) a + S1x8x1x1024.size a ≤ S2x8x64x1024.size a
  k0_off175_inb : ∀ i : grid0.Coords, ∀ a, (k0_off175 i) a + S1x8x1x1024.size a ≤ S2x8x64x1024.size a
  k0_off176_inb : ∀ i : grid0.Coords, ∀ a, (k0_off176 i) a + S1x8x1x1024.size a ≤ S2x8x64x1024.size a
  k0_off177_inb : ∀ i : grid0.Coords, ∀ a, (k0_off177 i) a + S1x8x1x1024.size a ≤ S2x8x64x1024.size a
  k0_off178_inb : ∀ i : grid0.Coords, ∀ a, (k0_off178 i) a + S1x8x1x1024.size a ≤ S2x8x64x1024.size a
  k0_off179_inb : ∀ i : grid0.Coords, ∀ a, (k0_off179 i) a + S1x8x1x1024.size a ≤ S2x8x64x1024.size a
  k0_off180_inb : ∀ i : grid0.Coords, ∀ a, (k0_off180 i) a + S1x8x1x1024.size a ≤ S2x8x64x1024.size a
  k0_off181_inb : ∀ i : grid0.Coords, ∀ a, (k0_off181 i) a + S1x8x1x1024.size a ≤ S2x8x64x1024.size a
  k0_off182_inb : ∀ i : grid0.Coords, ∀ a, (k0_off182 i) a + S1x8x1x1024.size a ≤ S2x8x64x1024.size a
  k0_off183_inb : ∀ i : grid0.Coords, ∀ a, (k0_off183 i) a + S1x8x1x1024.size a ≤ S2x8x64x1024.size a
  k0_off184_inb : ∀ i : grid0.Coords, ∀ a, (k0_off184 i) a + S1x8x1x1024.size a ≤ S2x8x64x1024.size a
  k0_off185_inb : ∀ i : grid0.Coords, ∀ a, (k0_off185 i) a + S1x8x1x1024.size a ≤ S2x8x64x1024.size a
  k0_off186_inb : ∀ i : grid0.Coords, ∀ a, (k0_off186 i) a + S1x8x1x1024.size a ≤ S2x8x64x1024.size a
  k0_off187_inb : ∀ i : grid0.Coords, ∀ a, (k0_off187 i) a + S1x8x1x1024.size a ≤ S2x8x64x1024.size a
  k0_off188_inb : ∀ i : grid0.Coords, ∀ a, (k0_off188 i) a + S1x8x1x1024.size a ≤ S2x8x64x1024.size a
  k0_off189_inb : ∀ i : grid0.Coords, ∀ a, (k0_off189 i) a + S1x8x1x1024.size a ≤ S2x8x64x1024.size a
  k0_off190_inb : ∀ i : grid0.Coords, ∀ a, (k0_off190 i) a + S1x8x1x1024.size a ≤ S2x8x64x1024.size a
  k0_off191_inb : ∀ i : grid0.Coords, ∀ a, (k0_off191 i) a + S1x8x1x1024.size a ≤ S2x8x64x1024.size a
  k0_off192_inb : ∀ i : grid0.Coords, ∀ a, (k0_off192 i) a + S1x8x1x1024.size a ≤ S2x8x64x1024.size a
  k0_off193_inb : ∀ i : grid0.Coords, ∀ a, (k0_off193 i) a + S1x8x1x1024.size a ≤ S2x8x64x1024.size a
  k0_off194_inb : ∀ i : grid0.Coords, ∀ (k0_h2 : k0_cond2 i = 1#1), ∀ a, (k0_off194 i) a + S1.size a ≤ S2048.size a
  k0_off195_inb : ∀ i : grid0.Coords, ∀ (k0_h2 : k0_cond2 i = 1#1), ∀ a, (k0_off195 i) a + S1.size a ≤ S2.size a
  k0_off196_inb : ∀ i : grid0.Coords, ∀ (k0_h2 : k0_cond2 i = 1#1), ∀ a, (k0_off196 i) a + S1x8x1x1024.size a ≤ S2x8x64x1024.size a
  k0_off198_inb : ∀ i : grid0.Coords, ∀ (k0_h2 : k0_cond2 i = 1#1), ∀ a, (k0_off198 i) a + S1.size a ≤ S2.size a
  k0_off199_inb : ∀ i : grid0.Coords, ∀ (k0_h2 : k0_cond2 i = 1#1), ∀ a, (k0_off199 i) a + S1x8x1x1024.size a ≤ S2x8x64x1024.size a
  k0_off200_inb : ∀ i : grid0.Coords, ∀ (k0_h2 : k0_cond2 i = 1#1), ∀ a, (k0_off200 i) a + S1.size a ≤ S2048.size a
  k0_off201_inb : ∀ i : grid0.Coords, ∀ (k0_h2 : k0_cond2 i = 1#1), ∀ a, (k0_off201 i) a + S1x8x1x1024.size a ≤ S2x8x64x1024.size a
  k0_off203_inb : ∀ i : grid0.Coords, ∀ (k0_h2 : k0_cond2 i = 1#1), ∀ a, (k0_off203 i) a + S1.size a ≤ S2.size a
  k0_off204_inb : ∀ i : grid0.Coords, ∀ (k0_h2 : k0_cond2 i = 1#1), ∀ a, (k0_off204 i) a + S1x8x1x1024.size a ≤ S2x8x64x1024.size a
  k0_off205_inb : ∀ i : grid0.Coords, ∀ (k0_h2 : k0_cond2 i = 1#1), ∀ a, (k0_off205 i) a + S1.size a ≤ S2048.size a
  k0_off206_inb : ∀ i : grid0.Coords, ∀ (k0_h2 : k0_cond2 i = 1#1), ∀ a, (k0_off206 i) a + S1x8x1x1024.size a ≤ S2x8x64x1024.size a
  k0_off208_inb : ∀ i : grid0.Coords, ∀ (k0_h2 : k0_cond2 i = 1#1), ∀ a, (k0_off208 i) a + S1.size a ≤ S2.size a
  k0_off209_inb : ∀ i : grid0.Coords, ∀ (k0_h2 : k0_cond2 i = 1#1), ∀ a, (k0_off209 i) a + S1x8x1x1024.size a ≤ S2x8x64x1024.size a
  k0_off210_inb : ∀ i : grid0.Coords, ∀ (k0_h2 : k0_cond2 i = 1#1), ∀ a, (k0_off210 i) a + S1.size a ≤ S2048.size a
  k0_off211_inb : ∀ i : grid0.Coords, ∀ (k0_h2 : k0_cond2 i = 1#1), ∀ a, (k0_off211 i) a + S1x8x1x1024.size a ≤ S2x8x64x1024.size a
  k0_off213_inb : ∀ i : grid0.Coords, ∀ (k0_h2 : k0_cond2 i = 1#1), ∀ a, (k0_off213 i) a + S1.size a ≤ S2.size a
  k0_off214_inb : ∀ i : grid0.Coords, ∀ (k0_h2 : k0_cond2 i = 1#1), ∀ a, (k0_off214 i) a + S1x8x1x1024.size a ≤ S2x8x64x1024.size a
  k0_off215_inb : ∀ i : grid0.Coords, ∀ (k0_h2 : k0_cond2 i = 1#1), ∀ a, (k0_off215 i) a + S1.size a ≤ S2048.size a
  k0_off216_inb : ∀ i : grid0.Coords, ∀ (k0_h2 : k0_cond2 i = 1#1), ∀ a, (k0_off216 i) a + S1x8x1x1024.size a ≤ S2x8x64x1024.size a
  k0_off218_inb : ∀ i : grid0.Coords, ∀ (k0_h2 : k0_cond2 i = 1#1), ∀ a, (k0_off218 i) a + S1.size a ≤ S2.size a
  k0_off219_inb : ∀ i : grid0.Coords, ∀ (k0_h2 : k0_cond2 i = 1#1), ∀ a, (k0_off219 i) a + S1x8x1x1024.size a ≤ S2x8x64x1024.size a
  k0_off220_inb : ∀ i : grid0.Coords, ∀ (k0_h2 : k0_cond2 i = 1#1), ∀ a, (k0_off220 i) a + S1.size a ≤ S2048.size a
  k0_off221_inb : ∀ i : grid0.Coords, ∀ (k0_h2 : k0_cond2 i = 1#1), ∀ a, (k0_off221 i) a + S1x8x1x1024.size a ≤ S2x8x64x1024.size a
  k0_off223_inb : ∀ i : grid0.Coords, ∀ (k0_h2 : k0_cond2 i = 1#1), ∀ a, (k0_off223 i) a + S1.size a ≤ S2.size a
  k0_off224_inb : ∀ i : grid0.Coords, ∀ (k0_h2 : k0_cond2 i = 1#1), ∀ a, (k0_off224 i) a + S1x8x1x1024.size a ≤ S2x8x64x1024.size a
  k0_off225_inb : ∀ i : grid0.Coords, ∀ (k0_h2 : k0_cond2 i = 1#1), ∀ a, (k0_off225 i) a + S1.size a ≤ S2048.size a
  k0_off226_inb : ∀ i : grid0.Coords, ∀ (k0_h2 : k0_cond2 i = 1#1), ∀ a, (k0_off226 i) a + S1x8x1x1024.size a ≤ S2x8x64x1024.size a
  k0_off228_inb : ∀ i : grid0.Coords, ∀ (k0_h2 : k0_cond2 i = 1#1), ∀ a, (k0_off228 i) a + S1.size a ≤ S2.size a
  k0_off229_inb : ∀ i : grid0.Coords, ∀ (k0_h2 : k0_cond2 i = 1#1), ∀ a, (k0_off229 i) a + S1x8x1x1024.size a ≤ S2x8x64x1024.size a
  k0_off230_inb : ∀ i : grid0.Coords, ∀ (k0_h2 : k0_cond2 i = 1#1), ∀ a, (k0_off230 i) a + S1.size a ≤ S2048.size a
  k0_off231_inb : ∀ i : grid0.Coords, ∀ (k0_h2 : k0_cond2 i = 1#1), ∀ a, (k0_off231 i) a + S1x8x1x1024.size a ≤ S2x8x64x1024.size a
  k0_off233_inb : ∀ i : grid0.Coords, ∀ (k0_h2 : k0_cond2 i = 1#1), ∀ a, (k0_off233 i) a + S1.size a ≤ S2.size a
  k0_off234_inb : ∀ i : grid0.Coords, ∀ (k0_h2 : k0_cond2 i = 1#1), ∀ a, (k0_off234 i) a + S1x8x1x1024.size a ≤ S2x8x64x1024.size a
  k0_off235_inb : ∀ i : grid0.Coords, ∀ (k0_h2 : k0_cond2 i = 1#1), ∀ a, (k0_off235 i) a + S1.size a ≤ S2048.size a
  k0_off236_inb : ∀ i : grid0.Coords, ∀ (k0_h2 : k0_cond2 i = 1#1), ∀ a, (k0_off236 i) a + S1x8x1x1024.size a ≤ S2x8x64x1024.size a
  k0_off238_inb : ∀ i : grid0.Coords, ∀ (k0_h2 : k0_cond2 i = 1#1), ∀ a, (k0_off238 i) a + S1.size a ≤ S2.size a
  k0_off239_inb : ∀ i : grid0.Coords, ∀ (k0_h2 : k0_cond2 i = 1#1), ∀ a, (k0_off239 i) a + S1x8x1x1024.size a ≤ S2x8x64x1024.size a
  k0_off240_inb : ∀ i : grid0.Coords, ∀ (k0_h2 : k0_cond2 i = 1#1), ∀ a, (k0_off240 i) a + S1.size a ≤ S2048.size a
  k0_off241_inb : ∀ i : grid0.Coords, ∀ (k0_h2 : k0_cond2 i = 1#1), ∀ a, (k0_off241 i) a + S1x8x1x1024.size a ≤ S2x8x64x1024.size a
  k0_off243_inb : ∀ i : grid0.Coords, ∀ (k0_h2 : k0_cond2 i = 1#1), ∀ a, (k0_off243 i) a + S1.size a ≤ S2.size a
  k0_off244_inb : ∀ i : grid0.Coords, ∀ (k0_h2 : k0_cond2 i = 1#1), ∀ a, (k0_off244 i) a + S1x8x1x1024.size a ≤ S2x8x64x1024.size a
  k0_off245_inb : ∀ i : grid0.Coords, ∀ (k0_h2 : k0_cond2 i = 1#1), ∀ a, (k0_off245 i) a + S1.size a ≤ S2048.size a
  k0_off246_inb : ∀ i : grid0.Coords, ∀ (k0_h2 : k0_cond2 i = 1#1), ∀ a, (k0_off246 i) a + S1x8x1x1024.size a ≤ S2x8x64x1024.size a
  k0_off248_inb : ∀ i : grid0.Coords, ∀ (k0_h2 : k0_cond2 i = 1#1), ∀ a, (k0_off248 i) a + S1.size a ≤ S2.size a
  k0_off249_inb : ∀ i : grid0.Coords, ∀ (k0_h2 : k0_cond2 i = 1#1), ∀ a, (k0_off249 i) a + S1x8x1x1024.size a ≤ S2x8x64x1024.size a
  k0_off250_inb : ∀ i : grid0.Coords, ∀ (k0_h2 : k0_cond2 i = 1#1), ∀ a, (k0_off250 i) a + S1.size a ≤ S2048.size a
  k0_off251_inb : ∀ i : grid0.Coords, ∀ (k0_h2 : k0_cond2 i = 1#1), ∀ a, (k0_off251 i) a + S1x8x1x1024.size a ≤ S2x8x64x1024.size a
  k0_off253_inb : ∀ i : grid0.Coords, ∀ (k0_h2 : k0_cond2 i = 1#1), ∀ a, (k0_off253 i) a + S1.size a ≤ S2.size a
  k0_off254_inb : ∀ i : grid0.Coords, ∀ (k0_h2 : k0_cond2 i = 1#1), ∀ a, (k0_off254 i) a + S1x8x1x1024.size a ≤ S2x8x64x1024.size a
  k0_off255_inb : ∀ i : grid0.Coords, ∀ (k0_h2 : k0_cond2 i = 1#1), ∀ a, (k0_off255 i) a + S1.size a ≤ S2048.size a
  k0_off256_inb : ∀ i : grid0.Coords, ∀ (k0_h2 : k0_cond2 i = 1#1), ∀ a, (k0_off256 i) a + S1x8x1x1024.size a ≤ S2x8x64x1024.size a
  k0_off258_inb : ∀ i : grid0.Coords, ∀ (k0_h2 : k0_cond2 i = 1#1), ∀ a, (k0_off258 i) a + S1.size a ≤ S2.size a
  k0_off259_inb : ∀ i : grid0.Coords, ∀ (k0_h2 : k0_cond2 i = 1#1), ∀ a, (k0_off259 i) a + S1x8x1x1024.size a ≤ S2x8x64x1024.size a
  k0_off260_inb : ∀ i : grid0.Coords, ∀ (k0_h2 : k0_cond2 i = 1#1), ∀ a, (k0_off260 i) a + S1.size a ≤ S2048.size a
  k0_off261_inb : ∀ i : grid0.Coords, ∀ (k0_h2 : k0_cond2 i = 1#1), ∀ a, (k0_off261 i) a + S1x8x1x1024.size a ≤ S2x8x64x1024.size a
  k0_off263_inb : ∀ i : grid0.Coords, ∀ (k0_h2 : k0_cond2 i = 1#1), ∀ a, (k0_off263 i) a + S1.size a ≤ S2.size a
  k0_off264_inb : ∀ i : grid0.Coords, ∀ (k0_h2 : k0_cond2 i = 1#1), ∀ a, (k0_off264 i) a + S1x8x1x1024.size a ≤ S2x8x64x1024.size a
  k0_off265_inb : ∀ i : grid0.Coords, ∀ (k0_h2 : k0_cond2 i = 1#1), ∀ a, (k0_off265 i) a + S1.size a ≤ S2048.size a
  k0_off266_inb : ∀ i : grid0.Coords, ∀ (k0_h2 : k0_cond2 i = 1#1), ∀ a, (k0_off266 i) a + S1x8x1x1024.size a ≤ S2x8x64x1024.size a
  k0_off268_inb : ∀ i : grid0.Coords, ∀ (k0_h2 : k0_cond2 i = 1#1), ∀ a, (k0_off268 i) a + S1.size a ≤ S2.size a
  k0_off269_inb : ∀ i : grid0.Coords, ∀ (k0_h2 : k0_cond2 i = 1#1), ∀ a, (k0_off269 i) a + S1x8x1x1024.size a ≤ S2x8x64x1024.size a
  k0_off270_inb : ∀ i : grid0.Coords, ∀ (k0_h2 : k0_cond2 i = 1#1), ∀ a, (k0_off270 i) a + S1.size a ≤ S2048.size a
  k0_off271_inb : ∀ i : grid0.Coords, ∀ (k0_h2 : k0_cond2 i = 1#1), ∀ a, (k0_off271 i) a + S1x8x1x1024.size a ≤ S2x8x64x1024.size a
  k0_off273_inb : ∀ i : grid0.Coords, ∀ (k0_h2 : k0_cond2 i = 1#1), ∀ a, (k0_off273 i) a + S1.size a ≤ S2.size a
  k0_off274_inb : ∀ i : grid0.Coords, ∀ (k0_h2 : k0_cond2 i = 1#1), ∀ a, (k0_off274 i) a + S1x8x1x1024.size a ≤ S2x8x64x1024.size a
  k0_off275_inb : ∀ i : grid0.Coords, ∀ (k0_h2 : k0_cond2 i = 1#1), ∀ a, (k0_off275 i) a + S1.size a ≤ S2048.size a
  k0_off276_inb : ∀ i : grid0.Coords, ∀ (k0_h2 : k0_cond2 i = 1#1), ∀ a, (k0_off276 i) a + S1x8x1x1024.size a ≤ S2x8x64x1024.size a
  k0_off278_inb : ∀ i : grid0.Coords, ∀ (k0_h2 : k0_cond2 i = 1#1), ∀ a, (k0_off278 i) a + S1.size a ≤ S2.size a
  k0_off279_inb : ∀ i : grid0.Coords, ∀ (k0_h2 : k0_cond2 i = 1#1), ∀ a, (k0_off279 i) a + S1x8x1x1024.size a ≤ S2x8x64x1024.size a
  k0_off280_inb : ∀ i : grid0.Coords, ∀ (k0_h2 : k0_cond2 i = 1#1), ∀ a, (k0_off280 i) a + S1.size a ≤ S2048.size a
  k0_off281_inb : ∀ i : grid0.Coords, ∀ (k0_h2 : k0_cond2 i = 1#1), ∀ a, (k0_off281 i) a + S1x8x1x1024.size a ≤ S2x8x64x1024.size a
  k0_off283_inb : ∀ i : grid0.Coords, ∀ (k0_h2 : k0_cond2 i = 1#1), ∀ a, (k0_off283 i) a + S1.size a ≤ S2.size a
  k0_off284_inb : ∀ i : grid0.Coords, ∀ (k0_h2 : k0_cond2 i = 1#1), ∀ a, (k0_off284 i) a + S1x8x1x1024.size a ≤ S2x8x64x1024.size a
  k0_off285_inb : ∀ i : grid0.Coords, ∀ (k0_h2 : k0_cond2 i = 1#1), ∀ a, (k0_off285 i) a + S1.size a ≤ S2048.size a
  k0_off286_inb : ∀ i : grid0.Coords, ∀ (k0_h2 : k0_cond2 i = 1#1), ∀ a, (k0_off286 i) a + S1x8x1x1024.size a ≤ S2x8x64x1024.size a
  k0_off288_inb : ∀ i : grid0.Coords, ∀ (k0_h2 : k0_cond2 i = 1#1), ∀ a, (k0_off288 i) a + S1.size a ≤ S2.size a
  k0_off289_inb : ∀ i : grid0.Coords, ∀ (k0_h2 : k0_cond2 i = 1#1), ∀ a, (k0_off289 i) a + S1x8x1x1024.size a ≤ S2x8x64x1024.size a
  k0_off290_inb : ∀ i : grid0.Coords, ∀ (k0_h2 : k0_cond2 i = 1#1), ∀ a, (k0_off290 i) a + S1.size a ≤ S2048.size a
  k0_off291_inb : ∀ i : grid0.Coords, ∀ (k0_h2 : k0_cond2 i = 1#1), ∀ a, (k0_off291 i) a + S1x8x1x1024.size a ≤ S2x8x64x1024.size a
  k0_off293_inb : ∀ i : grid0.Coords, ∀ (k0_h2 : k0_cond2 i = 1#1), ∀ a, (k0_off293 i) a + S1.size a ≤ S2.size a
  k0_off294_inb : ∀ i : grid0.Coords, ∀ (k0_h2 : k0_cond2 i = 1#1), ∀ a, (k0_off294 i) a + S1x8x1x1024.size a ≤ S2x8x64x1024.size a
  k0_off295_inb : ∀ i : grid0.Coords, ∀ (k0_h2 : k0_cond2 i = 1#1), ∀ a, (k0_off295 i) a + S1.size a ≤ S2048.size a
  k0_off296_inb : ∀ i : grid0.Coords, ∀ (k0_h2 : k0_cond2 i = 1#1), ∀ a, (k0_off296 i) a + S1x8x1x1024.size a ≤ S2x8x64x1024.size a
  k0_off298_inb : ∀ i : grid0.Coords, ∀ (k0_h2 : k0_cond2 i = 1#1), ∀ a, (k0_off298 i) a + S1.size a ≤ S2.size a
  k0_off299_inb : ∀ i : grid0.Coords, ∀ (k0_h2 : k0_cond2 i = 1#1), ∀ a, (k0_off299 i) a + S1x8x1x1024.size a ≤ S2x8x64x1024.size a
  k0_off300_inb : ∀ i : grid0.Coords, ∀ (k0_h2 : k0_cond2 i = 1#1), ∀ a, (k0_off300 i) a + S1.size a ≤ S2048.size a
  k0_off301_inb : ∀ i : grid0.Coords, ∀ (k0_h2 : k0_cond2 i = 1#1), ∀ a, (k0_off301 i) a + S1x8x1x1024.size a ≤ S2x8x64x1024.size a
  k0_off303_inb : ∀ i : grid0.Coords, ∀ (k0_h2 : k0_cond2 i = 1#1), ∀ a, (k0_off303 i) a + S1.size a ≤ S2.size a
  k0_off304_inb : ∀ i : grid0.Coords, ∀ (k0_h2 : k0_cond2 i = 1#1), ∀ a, (k0_off304 i) a + S1x8x1x1024.size a ≤ S2x8x64x1024.size a
  k0_off305_inb : ∀ i : grid0.Coords, ∀ (k0_h2 : k0_cond2 i = 1#1), ∀ a, (k0_off305 i) a + S1.size a ≤ S2048.size a
  k0_off306_inb : ∀ i : grid0.Coords, ∀ (k0_h2 : k0_cond2 i = 1#1), ∀ a, (k0_off306 i) a + S1x8x1x1024.size a ≤ S2x8x64x1024.size a
  k0_off308_inb : ∀ i : grid0.Coords, ∀ (k0_h2 : k0_cond2 i = 1#1), ∀ a, (k0_off308 i) a + S1.size a ≤ S2.size a
  k0_off309_inb : ∀ i : grid0.Coords, ∀ (k0_h2 : k0_cond2 i = 1#1), ∀ a, (k0_off309 i) a + S1x8x1x1024.size a ≤ S2x8x64x1024.size a
  k0_off310_inb : ∀ i : grid0.Coords, ∀ (k0_h2 : k0_cond2 i = 1#1), ∀ a, (k0_off310 i) a + S1.size a ≤ S2048.size a
  k0_off311_inb : ∀ i : grid0.Coords, ∀ (k0_h2 : k0_cond2 i = 1#1), ∀ a, (k0_off311 i) a + S1x8x1x1024.size a ≤ S2x8x64x1024.size a
  k0_off313_inb : ∀ i : grid0.Coords, ∀ (k0_h2 : k0_cond2 i = 1#1), ∀ a, (k0_off313 i) a + S1.size a ≤ S2.size a
  k0_off314_inb : ∀ i : grid0.Coords, ∀ (k0_h2 : k0_cond2 i = 1#1), ∀ a, (k0_off314 i) a + S1x8x1x1024.size a ≤ S2x8x64x1024.size a
  k0_off315_inb : ∀ i : grid0.Coords, ∀ (k0_h2 : k0_cond2 i = 1#1), ∀ a, (k0_off315 i) a + S1.size a ≤ S2048.size a
  k0_off316_inb : ∀ i : grid0.Coords, ∀ (k0_h2 : k0_cond2 i = 1#1), ∀ a, (k0_off316 i) a + S1x8x1x1024.size a ≤ S2x8x64x1024.size a
  k0_off318_inb : ∀ i : grid0.Coords, ∀ (k0_h2 : k0_cond2 i = 1#1), ∀ a, (k0_off318 i) a + S1.size a ≤ S2.size a
  k0_off319_inb : ∀ i : grid0.Coords, ∀ (k0_h2 : k0_cond2 i = 1#1), ∀ a, (k0_off319 i) a + S1x8x1x1024.size a ≤ S2x8x64x1024.size a
  k0_off320_inb : ∀ i : grid0.Coords, ∀ (k0_h2 : k0_cond2 i = 1#1), ∀ a, (k0_off320 i) a + S1.size a ≤ S2048.size a
  k0_off321_inb : ∀ i : grid0.Coords, ∀ (k0_h2 : k0_cond2 i = 1#1), ∀ a, (k0_off321 i) a + S1x8x1x1024.size a ≤ S2x8x64x1024.size a
  k0_off323_inb : ∀ i : grid0.Coords, ∀ (k0_h2 : k0_cond2 i = 1#1), ∀ a, (k0_off323 i) a + S1.size a ≤ S2.size a
  k0_off324_inb : ∀ i : grid0.Coords, ∀ (k0_h2 : k0_cond2 i = 1#1), ∀ a, (k0_off324 i) a + S1x8x1x1024.size a ≤ S2x8x64x1024.size a
  k0_off325_inb : ∀ i : grid0.Coords, ∀ (k0_h2 : k0_cond2 i = 1#1), ∀ a, (k0_off325 i) a + S1.size a ≤ S2048.size a
  k0_off326_inb : ∀ i : grid0.Coords, ∀ (k0_h2 : k0_cond2 i = 1#1), ∀ a, (k0_off326 i) a + S1x8x1x1024.size a ≤ S2x8x64x1024.size a
  k0_off328_inb : ∀ i : grid0.Coords, ∀ (k0_h2 : k0_cond2 i = 1#1), ∀ a, (k0_off328 i) a + S1.size a ≤ S2.size a
  k0_off329_inb : ∀ i : grid0.Coords, ∀ (k0_h2 : k0_cond2 i = 1#1), ∀ a, (k0_off329 i) a + S1x8x1x1024.size a ≤ S2x8x64x1024.size a
  k0_off330_inb : ∀ i : grid0.Coords, ∀ (k0_h2 : k0_cond2 i = 1#1), ∀ a, (k0_off330 i) a + S1.size a ≤ S2048.size a
  k0_off331_inb : ∀ i : grid0.Coords, ∀ (k0_h2 : k0_cond2 i = 1#1), ∀ a, (k0_off331 i) a + S1x8x1x1024.size a ≤ S2x8x64x1024.size a
  k0_off333_inb : ∀ i : grid0.Coords, ∀ (k0_h2 : k0_cond2 i = 1#1), ∀ a, (k0_off333 i) a + S1.size a ≤ S2.size a
  k0_off334_inb : ∀ i : grid0.Coords, ∀ (k0_h2 : k0_cond2 i = 1#1), ∀ a, (k0_off334 i) a + S1x8x1x1024.size a ≤ S2x8x64x1024.size a
  k0_off335_inb : ∀ i : grid0.Coords, ∀ (k0_h2 : k0_cond2 i = 1#1), ∀ a, (k0_off335 i) a + S1.size a ≤ S2048.size a
  k0_off336_inb : ∀ i : grid0.Coords, ∀ (k0_h2 : k0_cond2 i = 1#1), ∀ a, (k0_off336 i) a + S1x8x1x1024.size a ≤ S2x8x64x1024.size a
  k0_off338_inb : ∀ i : grid0.Coords, ∀ (k0_h2 : k0_cond2 i = 1#1), ∀ a, (k0_off338 i) a + S1.size a ≤ S2.size a
  k0_off339_inb : ∀ i : grid0.Coords, ∀ (k0_h2 : k0_cond2 i = 1#1), ∀ a, (k0_off339 i) a + S1x8x1x1024.size a ≤ S2x8x64x1024.size a
  k0_off340_inb : ∀ i : grid0.Coords, ∀ (k0_h2 : k0_cond2 i = 1#1), ∀ a, (k0_off340 i) a + S1.size a ≤ S2048.size a
  k0_off341_inb : ∀ i : grid0.Coords, ∀ (k0_h2 : k0_cond2 i = 1#1), ∀ a, (k0_off341 i) a + S1x8x1x1024.size a ≤ S2x8x64x1024.size a
  k0_off343_inb : ∀ i : grid0.Coords, ∀ (k0_h2 : k0_cond2 i = 1#1), ∀ a, (k0_off343 i) a + S1.size a ≤ S2.size a
  k0_off344_inb : ∀ i : grid0.Coords, ∀ (k0_h2 : k0_cond2 i = 1#1), ∀ a, (k0_off344 i) a + S1x8x1x1024.size a ≤ S2x8x64x1024.size a
  k0_off345_inb : ∀ i : grid0.Coords, ∀ (k0_h2 : k0_cond2 i = 1#1), ∀ a, (k0_off345 i) a + S1.size a ≤ S2048.size a
  k0_off346_inb : ∀ i : grid0.Coords, ∀ (k0_h2 : k0_cond2 i = 1#1), ∀ a, (k0_off346 i) a + S1x8x1x1024.size a ≤ S2x8x64x1024.size a
  k0_off348_inb : ∀ i : grid0.Coords, ∀ (k0_h2 : k0_cond2 i = 1#1), ∀ a, (k0_off348 i) a + S1.size a ≤ S2.size a
  k0_off349_inb : ∀ i : grid0.Coords, ∀ (k0_h2 : k0_cond2 i = 1#1), ∀ a, (k0_off349 i) a + S1x8x1x1024.size a ≤ S2x8x64x1024.size a
  k0_off350_inb : ∀ i : grid0.Coords, ∀ (k0_h2 : k0_cond2 i = 1#1), ∀ a, (k0_off350 i) a + S1.size a ≤ S2048.size a
  k0_off351_inb : ∀ i : grid0.Coords, ∀ (k0_h2 : k0_cond2 i = 1#1), ∀ a, (k0_off351 i) a + S1x8x1x1024.size a ≤ S2x8x64x1024.size a
  k0_off353_inb : ∀ i : grid0.Coords, ∀ (k0_h2 : k0_cond2 i = 1#1), ∀ a, (k0_off353 i) a + S1.size a ≤ S2.size a
  k0_off354_inb : ∀ i : grid0.Coords, ∀ (k0_h2 : k0_cond2 i = 1#1), ∀ a, (k0_off354 i) a + S1x8x1x1024.size a ≤ S2x8x64x1024.size a
  k0_off355_inb : ∀ i : grid0.Coords, ∀ (k0_h2 : k0_cond2 i = 1#1), ∀ a, (k0_off355 i) a + S1.size a ≤ S2048.size a
  k0_off356_inb : ∀ i : grid0.Coords, ∀ (k0_h2 : k0_cond2 i = 1#1), ∀ a, (k0_off356 i) a + S1x8x1x1024.size a ≤ S2x8x64x1024.size a
  k0_off358_inb : ∀ i : grid0.Coords, ∀ (k0_h2 : k0_cond2 i = 1#1), ∀ a, (k0_off358 i) a + S1.size a ≤ S2.size a
  k0_off359_inb : ∀ i : grid0.Coords, ∀ (k0_h2 : k0_cond2 i = 1#1), ∀ a, (k0_off359 i) a + S1x8x1x1024.size a ≤ S2x8x64x1024.size a
  k0_off360_inb : ∀ i : grid0.Coords, ∀ (k0_h2 : k0_cond2 i = 1#1), ∀ a, (k0_off360 i) a + S1.size a ≤ S2048.size a
  k0_off361_inb : ∀ i : grid0.Coords, ∀ (k0_h2 : k0_cond2 i = 1#1), ∀ a, (k0_off361 i) a + S1x8x1x1024.size a ≤ S2x8x64x1024.size a
  k0_off363_inb : ∀ i : grid0.Coords, ∀ (k0_h2 : k0_cond2 i = 1#1), ∀ a, (k0_off363 i) a + S1.size a ≤ S2.size a
  k0_off364_inb : ∀ i : grid0.Coords, ∀ (k0_h2 : k0_cond2 i = 1#1), ∀ a, (k0_off364 i) a + S1x8x1x1024.size a ≤ S2x8x64x1024.size a
  k0_off365_inb : ∀ i : grid0.Coords, ∀ (k0_h2 : k0_cond2 i = 1#1), ∀ a, (k0_off365 i) a + S1.size a ≤ S2048.size a
  k0_off366_inb : ∀ i : grid0.Coords, ∀ (k0_h2 : k0_cond2 i = 1#1), ∀ a, (k0_off366 i) a + S1x8x1x1024.size a ≤ S2x8x64x1024.size a
  k0_off368_inb : ∀ i : grid0.Coords, ∀ (k0_h2 : k0_cond2 i = 1#1), ∀ a, (k0_off368 i) a + S1.size a ≤ S2.size a
  k0_off369_inb : ∀ i : grid0.Coords, ∀ (k0_h2 : k0_cond2 i = 1#1), ∀ a, (k0_off369 i) a + S1x8x1x1024.size a ≤ S2x8x64x1024.size a
  k0_off370_inb : ∀ i : grid0.Coords, ∀ (k0_h2 : k0_cond2 i = 1#1), ∀ a, (k0_off370 i) a + S1.size a ≤ S2048.size a
  k0_off371_inb : ∀ i : grid0.Coords, ∀ (k0_h2 : k0_cond2 i = 1#1), ∀ a, (k0_off371 i) a + S1x8x1x1024.size a ≤ S2x8x64x1024.size a
  k0_off373_inb : ∀ i : grid0.Coords, ∀ (k0_h2 : k0_cond2 i = 1#1), ∀ a, (k0_off373 i) a + S1.size a ≤ S2.size a
  k0_off374_inb : ∀ i : grid0.Coords, ∀ (k0_h2 : k0_cond2 i = 1#1), ∀ a, (k0_off374 i) a + S1x8x1x1024.size a ≤ S2x8x64x1024.size a
  k0_off375_inb : ∀ i : grid0.Coords, ∀ (k0_h2 : k0_cond2 i = 1#1), ∀ a, (k0_off375 i) a + S1.size a ≤ S2048.size a
  k0_off376_inb : ∀ i : grid0.Coords, ∀ (k0_h2 : k0_cond2 i = 1#1), ∀ a, (k0_off376 i) a + S1x8x1x1024.size a ≤ S2x8x64x1024.size a
  k0_off378_inb : ∀ i : grid0.Coords, ∀ (k0_h2 : k0_cond2 i = 1#1), ∀ a, (k0_off378 i) a + S1.size a ≤ S2.size a
  k0_off379_inb : ∀ i : grid0.Coords, ∀ (k0_h2 : k0_cond2 i = 1#1), ∀ a, (k0_off379 i) a + S1x8x1x1024.size a ≤ S2x8x64x1024.size a
  k0_off380_inb : ∀ i : grid0.Coords, ∀ (k0_h2 : k0_cond2 i = 1#1), ∀ a, (k0_off380 i) a + S1.size a ≤ S2048.size a
  k0_off381_inb : ∀ i : grid0.Coords, ∀ (k0_h2 : k0_cond2 i = 1#1), ∀ a, (k0_off381 i) a + S1x8x1x1024.size a ≤ S2x8x64x1024.size a
  k0_off383_inb : ∀ i : grid0.Coords, ∀ (k0_h2 : k0_cond2 i = 1#1), ∀ a, (k0_off383 i) a + S1.size a ≤ S2.size a
  k0_off384_inb : ∀ i : grid0.Coords, ∀ (k0_h2 : k0_cond2 i = 1#1), ∀ a, (k0_off384 i) a + S1x8x1x1024.size a ≤ S2x8x64x1024.size a
  k0_off385_inb : ∀ i : grid0.Coords, ∀ (k0_h2 : k0_cond2 i = 1#1), ∀ a, (k0_off385 i) a + S1.size a ≤ S2048.size a
  k0_off386_inb : ∀ i : grid0.Coords, ∀ (k0_h2 : k0_cond2 i = 1#1), ∀ a, (k0_off386 i) a + S1x8x1x1024.size a ≤ S2x8x64x1024.size a
  k0_off388_inb : ∀ i : grid0.Coords, ∀ (k0_h2 : k0_cond2 i = 1#1), ∀ a, (k0_off388 i) a + S1.size a ≤ S2.size a
  k0_off389_inb : ∀ i : grid0.Coords, ∀ (k0_h2 : k0_cond2 i = 1#1), ∀ a, (k0_off389 i) a + S1x8x1x1024.size a ≤ S2x8x64x1024.size a
  k0_off390_inb : ∀ i : grid0.Coords, ∀ (k0_h2 : k0_cond2 i = 1#1), ∀ a, (k0_off390 i) a + S1.size a ≤ S2048.size a
  k0_off391_inb : ∀ i : grid0.Coords, ∀ (k0_h2 : k0_cond2 i = 1#1), ∀ a, (k0_off391 i) a + S1x8x1x1024.size a ≤ S2x8x64x1024.size a
  k0_off393_inb : ∀ i : grid0.Coords, ∀ (k0_h2 : k0_cond2 i = 1#1), ∀ a, (k0_off393 i) a + S1.size a ≤ S2.size a
  k0_off394_inb : ∀ i : grid0.Coords, ∀ (k0_h2 : k0_cond2 i = 1#1), ∀ a, (k0_off394 i) a + S1x8x1x1024.size a ≤ S2x8x64x1024.size a
  k0_off395_inb : ∀ i : grid0.Coords, ∀ (k0_h2 : k0_cond2 i = 1#1), ∀ a, (k0_off395 i) a + S1.size a ≤ S2048.size a
  k0_off396_inb : ∀ i : grid0.Coords, ∀ (k0_h2 : k0_cond2 i = 1#1), ∀ a, (k0_off396 i) a + S1x8x1x1024.size a ≤ S2x8x64x1024.size a
  k0_off398_inb : ∀ i : grid0.Coords, ∀ (k0_h2 : k0_cond2 i = 1#1), ∀ a, (k0_off398 i) a + S1.size a ≤ S2.size a
  k0_off399_inb : ∀ i : grid0.Coords, ∀ (k0_h2 : k0_cond2 i = 1#1), ∀ a, (k0_off399 i) a + S1x8x1x1024.size a ≤ S2x8x64x1024.size a
  k0_off400_inb : ∀ i : grid0.Coords, ∀ (k0_h2 : k0_cond2 i = 1#1), ∀ a, (k0_off400 i) a + S1.size a ≤ S2048.size a
  k0_off401_inb : ∀ i : grid0.Coords, ∀ (k0_h2 : k0_cond2 i = 1#1), ∀ a, (k0_off401 i) a + S1x8x1x1024.size a ≤ S2x8x64x1024.size a
  k0_off403_inb : ∀ i : grid0.Coords, ∀ (k0_h2 : k0_cond2 i = 1#1), ∀ a, (k0_off403 i) a + S1.size a ≤ S2.size a
  k0_off404_inb : ∀ i : grid0.Coords, ∀ (k0_h2 : k0_cond2 i = 1#1), ∀ a, (k0_off404 i) a + S1x8x1x1024.size a ≤ S2x8x64x1024.size a
  k0_off405_inb : ∀ i : grid0.Coords, ∀ (k0_h2 : k0_cond2 i = 1#1), ∀ a, (k0_off405 i) a + S1.size a ≤ S2048.size a
  k0_off406_inb : ∀ i : grid0.Coords, ∀ (k0_h2 : k0_cond2 i = 1#1), ∀ a, (k0_off406 i) a + S1x8x1x1024.size a ≤ S2x8x64x1024.size a
  k0_off408_inb : ∀ i : grid0.Coords, ∀ (k0_h2 : k0_cond2 i = 1#1), ∀ a, (k0_off408 i) a + S1.size a ≤ S2.size a
  k0_off409_inb : ∀ i : grid0.Coords, ∀ (k0_h2 : k0_cond2 i = 1#1), ∀ a, (k0_off409 i) a + S1x8x1x1024.size a ≤ S2x8x64x1024.size a
  k0_off410_inb : ∀ i : grid0.Coords, ∀ (k0_h2 : k0_cond2 i = 1#1), ∀ a, (k0_off410 i) a + S1.size a ≤ S2048.size a
  k0_off411_inb : ∀ i : grid0.Coords, ∀ (k0_h2 : k0_cond2 i = 1#1), ∀ a, (k0_off411 i) a + S1x8x1x1024.size a ≤ S2x8x64x1024.size a
  k0_off413_inb : ∀ i : grid0.Coords, ∀ (k0_h2 : k0_cond2 i = 1#1), ∀ a, (k0_off413 i) a + S1.size a ≤ S2.size a
  k0_off414_inb : ∀ i : grid0.Coords, ∀ (k0_h2 : k0_cond2 i = 1#1), ∀ a, (k0_off414 i) a + S1x8x1x1024.size a ≤ S2x8x64x1024.size a
  k0_off415_inb : ∀ i : grid0.Coords, ∀ (k0_h2 : k0_cond2 i = 1#1), ∀ a, (k0_off415 i) a + S1.size a ≤ S2048.size a
  k0_off416_inb : ∀ i : grid0.Coords, ∀ (k0_h2 : k0_cond2 i = 1#1), ∀ a, (k0_off416 i) a + S1x8x1x1024.size a ≤ S2x8x64x1024.size a
  k0_off418_inb : ∀ i : grid0.Coords, ∀ (k0_h2 : k0_cond2 i = 1#1), ∀ a, (k0_off418 i) a + S1.size a ≤ S2.size a
  k0_off419_inb : ∀ i : grid0.Coords, ∀ (k0_h2 : k0_cond2 i = 1#1), ∀ a, (k0_off419 i) a + S1x8x1x1024.size a ≤ S2x8x64x1024.size a
  k0_off420_inb : ∀ i : grid0.Coords, ∀ (k0_h2 : k0_cond2 i = 1#1), ∀ a, (k0_off420 i) a + S1.size a ≤ S2048.size a
  k0_off421_inb : ∀ i : grid0.Coords, ∀ (k0_h2 : k0_cond2 i = 1#1), ∀ a, (k0_off421 i) a + S1x8x1x1024.size a ≤ S2x8x64x1024.size a
  k0_off423_inb : ∀ i : grid0.Coords, ∀ (k0_h2 : k0_cond2 i = 1#1), ∀ a, (k0_off423 i) a + S1.size a ≤ S2.size a
  k0_off424_inb : ∀ i : grid0.Coords, ∀ (k0_h2 : k0_cond2 i = 1#1), ∀ a, (k0_off424 i) a + S1x8x1x1024.size a ≤ S2x8x64x1024.size a
  k0_off425_inb : ∀ i : grid0.Coords, ∀ (k0_h2 : k0_cond2 i = 1#1), ∀ a, (k0_off425 i) a + S1.size a ≤ S2048.size a
  k0_off426_inb : ∀ i : grid0.Coords, ∀ (k0_h2 : k0_cond2 i = 1#1), ∀ a, (k0_off426 i) a + S1x8x1x1024.size a ≤ S2x8x64x1024.size a
  k0_off428_inb : ∀ i : grid0.Coords, ∀ (k0_h2 : k0_cond2 i = 1#1), ∀ a, (k0_off428 i) a + S1.size a ≤ S2.size a
  k0_off429_inb : ∀ i : grid0.Coords, ∀ (k0_h2 : k0_cond2 i = 1#1), ∀ a, (k0_off429 i) a + S1x8x1x1024.size a ≤ S2x8x64x1024.size a
  k0_off430_inb : ∀ i : grid0.Coords, ∀ (k0_h2 : k0_cond2 i = 1#1), ∀ a, (k0_off430 i) a + S1.size a ≤ S2048.size a
  k0_off431_inb : ∀ i : grid0.Coords, ∀ (k0_h2 : k0_cond2 i = 1#1), ∀ a, (k0_off431 i) a + S1x8x1x1024.size a ≤ S2x8x64x1024.size a
  k0_off433_inb : ∀ i : grid0.Coords, ∀ (k0_h2 : k0_cond2 i = 1#1), ∀ a, (k0_off433 i) a + S1.size a ≤ S2.size a
  k0_off434_inb : ∀ i : grid0.Coords, ∀ (k0_h2 : k0_cond2 i = 1#1), ∀ a, (k0_off434 i) a + S1x8x1x1024.size a ≤ S2x8x64x1024.size a
  k0_off435_inb : ∀ i : grid0.Coords, ∀ (k0_h2 : k0_cond2 i = 1#1), ∀ a, (k0_off435 i) a + S1.size a ≤ S2048.size a
  k0_off436_inb : ∀ i : grid0.Coords, ∀ (k0_h2 : k0_cond2 i = 1#1), ∀ a, (k0_off436 i) a + S1x8x1x1024.size a ≤ S2x8x64x1024.size a
  k0_off438_inb : ∀ i : grid0.Coords, ∀ (k0_h2 : k0_cond2 i = 1#1), ∀ a, (k0_off438 i) a + S1.size a ≤ S2.size a
  k0_off439_inb : ∀ i : grid0.Coords, ∀ (k0_h2 : k0_cond2 i = 1#1), ∀ a, (k0_off439 i) a + S1x8x1x1024.size a ≤ S2x8x64x1024.size a
  k0_off440_inb : ∀ i : grid0.Coords, ∀ (k0_h2 : k0_cond2 i = 1#1), ∀ a, (k0_off440 i) a + S1.size a ≤ S2048.size a
  k0_off441_inb : ∀ i : grid0.Coords, ∀ (k0_h2 : k0_cond2 i = 1#1), ∀ a, (k0_off441 i) a + S1x8x1x1024.size a ≤ S2x8x64x1024.size a
  k0_off443_inb : ∀ i : grid0.Coords, ∀ (k0_h2 : k0_cond2 i = 1#1), ∀ a, (k0_off443 i) a + S1.size a ≤ S2.size a
  k0_off444_inb : ∀ i : grid0.Coords, ∀ (k0_h2 : k0_cond2 i = 1#1), ∀ a, (k0_off444 i) a + S1x8x1x1024.size a ≤ S2x8x64x1024.size a
  k0_off445_inb : ∀ i : grid0.Coords, ∀ (k0_h2 : k0_cond2 i = 1#1), ∀ a, (k0_off445 i) a + S1.size a ≤ S2048.size a
  k0_off446_inb : ∀ i : grid0.Coords, ∀ (k0_h2 : k0_cond2 i = 1#1), ∀ a, (k0_off446 i) a + S1x8x1x1024.size a ≤ S2x8x64x1024.size a
  k0_off448_inb : ∀ i : grid0.Coords, ∀ (k0_h2 : k0_cond2 i = 1#1), ∀ a, (k0_off448 i) a + S1.size a ≤ S2.size a
  k0_off449_inb : ∀ i : grid0.Coords, ∀ (k0_h2 : k0_cond2 i = 1#1), ∀ a, (k0_off449 i) a + S1x8x1x1024.size a ≤ S2x8x64x1024.size a
  k0_off450_inb : ∀ i : grid0.Coords, ∀ (k0_h2 : k0_cond2 i = 1#1), ∀ a, (k0_off450 i) a + S1.size a ≤ S2048.size a
  k0_off451_inb : ∀ i : grid0.Coords, ∀ (k0_h2 : k0_cond2 i = 1#1), ∀ a, (k0_off451 i) a + S1x8x1x1024.size a ≤ S2x8x64x1024.size a
  k0_off453_inb : ∀ i : grid0.Coords, ∀ (k0_h2 : k0_cond2 i = 1#1), ∀ a, (k0_off453 i) a + S1.size a ≤ S2.size a
  k0_off454_inb : ∀ i : grid0.Coords, ∀ (k0_h2 : k0_cond2 i = 1#1), ∀ a, (k0_off454 i) a + S1x8x1x1024.size a ≤ S2x8x64x1024.size a
  k0_off455_inb : ∀ i : grid0.Coords, ∀ (k0_h2 : k0_cond2 i = 1#1), ∀ a, (k0_off455 i) a + S1.size a ≤ S2048.size a
  k0_off456_inb : ∀ i : grid0.Coords, ∀ (k0_h2 : k0_cond2 i = 1#1), ∀ a, (k0_off456 i) a + S1x8x1x1024.size a ≤ S2x8x64x1024.size a
  k0_off458_inb : ∀ i : grid0.Coords, ∀ (k0_h2 : k0_cond2 i = 1#1), ∀ a, (k0_off458 i) a + S1.size a ≤ S2.size a
  k0_off459_inb : ∀ i : grid0.Coords, ∀ (k0_h2 : k0_cond2 i = 1#1), ∀ a, (k0_off459 i) a + S1x8x1x1024.size a ≤ S2x8x64x1024.size a
  k0_off460_inb : ∀ i : grid0.Coords, ∀ (k0_h2 : k0_cond2 i = 1#1), ∀ a, (k0_off460 i) a + S1.size a ≤ S2048.size a
  k0_off461_inb : ∀ i : grid0.Coords, ∀ (k0_h2 : k0_cond2 i = 1#1), ∀ a, (k0_off461 i) a + S1x8x1x1024.size a ≤ S2x8x64x1024.size a
  k0_off463_inb : ∀ i : grid0.Coords, ∀ (k0_h2 : k0_cond2 i = 1#1), ∀ a, (k0_off463 i) a + S1.size a ≤ S2.size a
  k0_off464_inb : ∀ i : grid0.Coords, ∀ (k0_h2 : k0_cond2 i = 1#1), ∀ a, (k0_off464 i) a + S1x8x1x1024.size a ≤ S2x8x64x1024.size a
  k0_off465_inb : ∀ i : grid0.Coords, ∀ (k0_h2 : k0_cond2 i = 1#1), ∀ a, (k0_off465 i) a + S1.size a ≤ S2048.size a
  k0_off466_inb : ∀ i : grid0.Coords, ∀ (k0_h2 : k0_cond2 i = 1#1), ∀ a, (k0_off466 i) a + S1x8x1x1024.size a ≤ S2x8x64x1024.size a
  k0_off468_inb : ∀ i : grid0.Coords, ∀ (k0_h2 : k0_cond2 i = 1#1), ∀ a, (k0_off468 i) a + S1.size a ≤ S2.size a
  k0_off469_inb : ∀ i : grid0.Coords, ∀ (k0_h2 : k0_cond2 i = 1#1), ∀ a, (k0_off469 i) a + S1x8x1x1024.size a ≤ S2x8x64x1024.size a
  k0_off470_inb : ∀ i : grid0.Coords, ∀ (k0_h2 : k0_cond2 i = 1#1), ∀ a, (k0_off470 i) a + S1.size a ≤ S2048.size a
  k0_off471_inb : ∀ i : grid0.Coords, ∀ (k0_h2 : k0_cond2 i = 1#1), ∀ a, (k0_off471 i) a + S1x8x1x1024.size a ≤ S2x8x64x1024.size a
  k0_off473_inb : ∀ i : grid0.Coords, ∀ (k0_h2 : k0_cond2 i = 1#1), ∀ a, (k0_off473 i) a + S1.size a ≤ S2.size a
  k0_off474_inb : ∀ i : grid0.Coords, ∀ (k0_h2 : k0_cond2 i = 1#1), ∀ a, (k0_off474 i) a + S1x8x1x1024.size a ≤ S2x8x64x1024.size a
  k0_off475_inb : ∀ i : grid0.Coords, ∀ (k0_h2 : k0_cond2 i = 1#1), ∀ a, (k0_off475 i) a + S1.size a ≤ S2048.size a
  k0_off476_inb : ∀ i : grid0.Coords, ∀ (k0_h2 : k0_cond2 i = 1#1), ∀ a, (k0_off476 i) a + S1x8x1x1024.size a ≤ S2x8x64x1024.size a
  k0_off478_inb : ∀ i : grid0.Coords, ∀ (k0_h2 : k0_cond2 i = 1#1), ∀ a, (k0_off478 i) a + S1.size a ≤ S2.size a
  k0_off479_inb : ∀ i : grid0.Coords, ∀ (k0_h2 : k0_cond2 i = 1#1), ∀ a, (k0_off479 i) a + S1x8x1x1024.size a ≤ S2x8x64x1024.size a
  k0_off480_inb : ∀ i : grid0.Coords, ∀ (k0_h2 : k0_cond2 i = 1#1), ∀ a, (k0_off480 i) a + S1.size a ≤ S2048.size a
  k0_off481_inb : ∀ i : grid0.Coords, ∀ (k0_h2 : k0_cond2 i = 1#1), ∀ a, (k0_off481 i) a + S1x8x1x1024.size a ≤ S2x8x64x1024.size a
  k0_off483_inb : ∀ i : grid0.Coords, ∀ (k0_h2 : k0_cond2 i = 1#1), ∀ a, (k0_off483 i) a + S1.size a ≤ S2.size a
  k0_off484_inb : ∀ i : grid0.Coords, ∀ (k0_h2 : k0_cond2 i = 1#1), ∀ a, (k0_off484 i) a + S1x8x1x1024.size a ≤ S2x8x64x1024.size a
  k0_off485_inb : ∀ i : grid0.Coords, ∀ (k0_h2 : k0_cond2 i = 1#1), ∀ a, (k0_off485 i) a + S1.size a ≤ S2048.size a
  k0_off486_inb : ∀ i : grid0.Coords, ∀ (k0_h2 : k0_cond2 i = 1#1), ∀ a, (k0_off486 i) a + S1x8x1x1024.size a ≤ S2x8x64x1024.size a
  k0_off488_inb : ∀ i : grid0.Coords, ∀ (k0_h2 : k0_cond2 i = 1#1), ∀ a, (k0_off488 i) a + S1.size a ≤ S2.size a
  k0_off489_inb : ∀ i : grid0.Coords, ∀ (k0_h2 : k0_cond2 i = 1#1), ∀ a, (k0_off489 i) a + S1x8x1x1024.size a ≤ S2x8x64x1024.size a
  k0_off490_inb : ∀ i : grid0.Coords, ∀ (k0_h2 : k0_cond2 i = 1#1), ∀ a, (k0_off490 i) a + S1.size a ≤ S2048.size a
  k0_off491_inb : ∀ i : grid0.Coords, ∀ (k0_h2 : k0_cond2 i = 1#1), ∀ a, (k0_off491 i) a + S1x8x1x1024.size a ≤ S2x8x64x1024.size a
  k0_off493_inb : ∀ i : grid0.Coords, ∀ (k0_h2 : k0_cond2 i = 1#1), ∀ a, (k0_off493 i) a + S1.size a ≤ S2.size a
  k0_off494_inb : ∀ i : grid0.Coords, ∀ (k0_h2 : k0_cond2 i = 1#1), ∀ a, (k0_off494 i) a + S1x8x1x1024.size a ≤ S2x8x64x1024.size a
  k0_off495_inb : ∀ i : grid0.Coords, ∀ (k0_h2 : k0_cond2 i = 1#1), ∀ a, (k0_off495 i) a + S1.size a ≤ S2048.size a
  k0_off496_inb : ∀ i : grid0.Coords, ∀ (k0_h2 : k0_cond2 i = 1#1), ∀ a, (k0_off496 i) a + S1x8x1x1024.size a ≤ S2x8x64x1024.size a
  k0_off498_inb : ∀ i : grid0.Coords, ∀ (k0_h2 : k0_cond2 i = 1#1), ∀ a, (k0_off498 i) a + S1.size a ≤ S2.size a
  k0_off499_inb : ∀ i : grid0.Coords, ∀ (k0_h2 : k0_cond2 i = 1#1), ∀ a, (k0_off499 i) a + S1x8x1x1024.size a ≤ S2x8x64x1024.size a
  k0_off500_inb : ∀ i : grid0.Coords, ∀ (k0_h2 : k0_cond2 i = 1#1), ∀ a, (k0_off500 i) a + S1.size a ≤ S2048.size a
  k0_off501_inb : ∀ i : grid0.Coords, ∀ (k0_h2 : k0_cond2 i = 1#1), ∀ a, (k0_off501 i) a + S1x8x1x1024.size a ≤ S2x8x64x1024.size a
  k0_off503_inb : ∀ i : grid0.Coords, ∀ (k0_h2 : k0_cond2 i = 1#1), ∀ a, (k0_off503 i) a + S1.size a ≤ S2.size a
  k0_off504_inb : ∀ i : grid0.Coords, ∀ (k0_h2 : k0_cond2 i = 1#1), ∀ a, (k0_off504 i) a + S1x8x1x1024.size a ≤ S2x8x64x1024.size a
  k0_off505_inb : ∀ i : grid0.Coords, ∀ (k0_h2 : k0_cond2 i = 1#1), ∀ a, (k0_off505 i) a + S1.size a ≤ S2048.size a
  k0_off506_inb : ∀ i : grid0.Coords, ∀ (k0_h2 : k0_cond2 i = 1#1), ∀ a, (k0_off506 i) a + S1x8x1x1024.size a ≤ S2x8x64x1024.size a
  k0_off508_inb : ∀ i : grid0.Coords, ∀ (k0_h2 : k0_cond2 i = 1#1), ∀ a, (k0_off508 i) a + S1.size a ≤ S2.size a
  k0_off509_inb : ∀ i : grid0.Coords, ∀ (k0_h2 : k0_cond2 i = 1#1), ∀ a, (k0_off509 i) a + S1x8x1x1024.size a ≤ S2x8x64x1024.size a
  k0_off510_inb : ∀ i : grid0.Coords, ∀ (k0_h2 : k0_cond2 i = 1#1), ∀ a, (k0_off510 i) a + S1.size a ≤ S2048.size a
  k0_off511_inb : ∀ i : grid0.Coords, ∀ (k0_h2 : k0_cond2 i = 1#1), ∀ a, (k0_off511 i) a + S1x8x1x1024.size a ≤ S2x8x64x1024.size a
  k0_off513_inb : ∀ i : grid0.Coords, ∀ (k0_h2 : k0_cond2 i = 1#1), ∀ a, (k0_off513 i) a + S1.size a ≤ S2.size a
  k0_off514_inb : ∀ i : grid0.Coords, ∀ (k0_h2 : k0_cond2 i = 1#1), ∀ a, (k0_off514 i) a + S1x8x1x1024.size a ≤ S2x8x64x1024.size a
  k0_off515_inb : ∀ i : grid0.Coords, ∀ a, (k0_off515 i) a + S1x8x64x1024.size a ≤ S2x8x64x1024.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S8x64x1024.size a ≤ S8x2048x1024.size a
  hwx0_0 : ∀ i : grid0.Coords, EltTy.bits .f32 = 32 ∨ (Rect.block (s := S8x2048x1024) S8x64x1024.size (cc0_transform_2 i) (hinb0_0 i)).WholeWords (EltTy.packing .f32)

variable [Facts₀]

abbrev cc0_scratch2 : DmaSems sig S2 := SemArray.consecutive 2 S2 hcc0_scratch2
abbrev cc0_scratch3 : DmaSems sig S2 := SemArray.consecutive 4 S2 hcc0_scratch3

abbrev spec0_0 : Pipeline.WinSpec sig grid0.rank :=
  Pipeline.WinSpec.ofSpec (Memref.whole main_v1) S8x64x1024.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_2 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x4096x1024 : Shape := ⟨3, ![8, 4096, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S8x2048x1024 : Shape := ⟨3, ![8, 2048, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2048, .i32⟩
  | .hbm, ⟨3, _⟩ => ⟨S8x4096x1024, .f32⟩
  | .hbm, ⟨4, _⟩ => ⟨S8x4096x1024, .f32⟩
  | .hbm, ⟨5, _⟩ => ⟨S_, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S1, .i32⟩
  | .hbm, ⟨19, _⟩ => ⟨S_, .i32⟩
  | .hbm, ⟨20, _⟩ => ⟨S2048x1, .i32⟩
  | .hbm, ⟨21, _⟩ => ⟨S2048x1, .i1⟩
  | .hbm, ⟨22, _⟩ => ⟨S1x1, .i32⟩
  | .hbm, ⟨23, _⟩ => ⟨S2048x1, .i32⟩
  | .hbm, ⟨24, _⟩ => ⟨S2048x1, .i1⟩
  | .hbm, ⟨25, _⟩ => ⟨S2048x1, .i1⟩
  | .hbm, ⟨26, _⟩ => ⟨S_, .i1⟩
  | .hbm, ⟨27, _⟩ => ⟨S2048, .i1⟩
  | .hbm, ⟨28, _⟩ => ⟨S8x2048x1024, .f32⟩
  | .hbm, ⟨29, _⟩ => ⟨S8x2048x1024, .i1⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S8x2048x1024_1 : S2048.BroadcastsInDim S8x2048x1024 (![1] : Fin 1 → Fin S8x2048x1024.rank)
  bcast_S_S8x2048x1024 : S_.BroadcastsInDim S8x2048x1024 (![] : Fin 0 → Fin S8x2048x1024.rank)
  gather_S8x4096x1024_S2048x1_S8x2048x1024_02_1_n_n_1_1_811024_wf : GatherDims.WF S8x4096x1024 S2048x1 S8x2048x1024 [0, 2] [1] [] [1] [] 1 ![8, 1, 1024]

variable [Facts₀]

def gather_S8x4096x1024_S2048x1_S8x2048x1024_02_1_n_n_1_1_811024 : GatherDims S8x4096x1024 S2048x1 S8x2048x1024 where
  offsetDims := [0, 2]
  collapsedSliceDims := [1]
  operandBatchingDims := []
  startIndicesBatchingDims := []
  startIndexMap := [1]
  indexVectorDim := 1
  sliceSizes := ![8, 1, 1024]
  wf := gather_S8x4096x1024_S2048x1_S8x2048x1024_02_1_n_n_1_1_811024_wf

class Facts : Prop extends Facts₀ where

variable [Facts]
-- ==== Proof.KI.Names.lean ====
/-
  Names for the buffers, rows, slots and counters of the gathering kernel (the idealized program).
-/
import proofs.«422764_j1194000908612_2_alg».proof.Proof.Gen.KernelIdeal.Launch
import proofs.«422764_j1194000908612_2_alg».proof.Proof.Gen.KernelIdeal.Skeleton
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The buffers the kernel function is called with: the table of row numbers in scalar memory, the two argument
    arrays left in main memory, the two double-slot scratch buffers, and the two pairs of transfer counters. -/
abbrev tbM : Memref sig .tc .smem S2048 .i32 := Memref.whole main_v0
abbrev aM : Memref sig .tc .hbm S8x4096x1024 .f32 := Memref.whole main_arg0
abbrev bM : Memref sig .tc .hbm S8x4096x1024 .f32 := Memref.whole main_arg1
abbrev scA : Memref sig .tc .vmem S2x8x64x1024 .f32 := Memref.whole cc0_scratch0
abbrev scB : Memref sig .tc .vmem S2x8x64x1024 .f32 := Memref.whole cc0_scratch1

/-- The contents type of the buffer a memref views, on core c. -/
abbrev MBuf (c : Dev nD) {sp : Space} {S : Shape} {e : EltTy} (M : Memref sig .tc sp S e) : Type := Buf (Elt F) (M.view.loc (c : Thread nD τ))
/-- The table, held at the half share the region lends the body. -/
abbrev tbPt (c : Dev nD) (f : MBuf (F := F) c tbM) : sProp 𝕄 := tbM.view.loc (c : Thread nD τ) ↦{fullShare.right} f
/-- A memref's own elements, held at share q with contents f. -/
abbrev heldQ (c : Dev nD) {sp : Space} {S : Shape} {e : EltTy} (M : Memref sig .tc sp S e) (q : PosShare TreeShare) (f : MBuf (F := F) c M) : sProp 𝕄 :=
  M.view.loc (c : Thread nD τ) ↦[M.view.set]{q} f

/-- The word the table holds at a cell. -/
abbrev wordAt (c : Dev nD) (tb : MBuf (F := F) c tbM) (cell : Fin 1 → ℕ) (h : ∀ a, cell a + S1.size a ≤ S2048.size a) : Elt F .i32 :=
  tbM.view.readAt (Elt F) (Rect.unit (s := S2048) cell S1.size h).toLoadRect tb (Shape.Idx.first (numel1_S1.symm ▸ Nat.one_pos))

/-- Row [8, 1024] of an argument array at an offset vector. -/
abbrev srcM (X : Memref sig .tc .hbm S8x4096x1024 .f32) (off : Fin 3 → ℕ) (h : ∀ a, off a + S8x1x1024.size a ≤ S8x4096x1024.size a) : Memref sig .tc .hbm S8x1024 .f32 :=
  (X.slice (Rect.unit (s := S8x4096x1024) off S8x1x1024.size h) (fun _ => rfl)).squeeze S8x1024 squeezes_S8x1x1024_S8x1024
/-- Row [8, 1024] of a scratch buffer at an offset vector (slot, 0, row, 0). -/
abbrev dstM (X : Memref sig .tc .vmem S2x8x64x1024 .f32) (off : Fin 4 → ℕ) (h : ∀ a, off a + S1x8x1x1024.size a ≤ S2x8x64x1024.size a) : Memref sig .tc .vmem S8x1024 .f32 :=
  (X.slice (Rect.unit (s := S2x8x64x1024) off S1x8x1x1024.size h) (fun _ => rfl)).squeeze S8x1024 squeezes_S1x8x1x1024_S8x1024
/-- What a scratch row holds once a copy of an array row has landed in it: the array row written whole over fd. -/
abbrev landedR (c : Dev nD) (src : Memref sig .tc .hbm S8x1024 .f32) (dst : Memref sig .tc .vmem S8x1024 .f32) (fs : MBuf (F := F) c src) (fd : MBuf (F := F) c dst) : MBuf (F := F) c dst :=
  dst.view.writes (Elt F) fd [⟨Rect.whole S8x1024, ReadAs.same.apply (src.view.read (Elt F) fs)⟩]
/-- The counters of the two arrays' copies, at an offset into the pair. -/
abbrev cellA (off : Fin 1 → ℕ) (h : ∀ a, off a + S1.size a ≤ S2.size a) : SemLoc sig := SemLoc.dma ((cc0_scratch2.slice (Rect.unit (s := S2) off S1.size h)).squeeze S_ squeezes_S1_S_).sem
abbrev cellB (off : Fin 1 → ℕ) (h : ∀ a, off a + S1.size a ≤ S2.size a) : SemLoc sig := SemLoc.dma ((cc0_scratch3.slice (Rect.unit (s := S2) off S1.size h)).squeeze S_ squeezes_S1_S_).sem

/-! Uniform names: slot s ∈ {0, 1}, row r < 64. -/
theorem inb_row (s : Fin 2) (r : Fin 64) : ∀ a, (![s.val, 0, r.val, 0] : Fin 4 → ℕ) a + S1x8x1x1024.size a ≤ S2x8x64x1024.size a := by
  have := s.isLt; have := r.isLt; intro a; fin_cases a <;> simp <;> omega
theorem inb_slot (s : Fin 2) : ∀ a, (![s.val, 0, 0, 0] : Fin 4 → ℕ) a + S1x8x64x1024.size a ≤ S2x8x64x1024.size a := by
  have := s.isLt; intro a; fin_cases a <;> simp <;> omega
theorem inb_cell (s : Fin 2) : ∀ a, (![s.val] : Fin 1 → ℕ) a + S1.size a ≤ S2.size a := by
  have := s.isLt; intro a; fin_cases a <;> simp <;> omega
/-- A word below 4096 names a row of an argument array. -/
theorem rows_inb (v : BitVec 32) (h : v.toNat < 4096) : ∀ a, (![0, v.toNat, 0] : Fin 3 → ℕ) a + S8x1x1024.size a ≤ S8x4096x1024.size a := by
  intro a; fin_cases a <;> simp <;> omega
/-- Row r of slot s of a scratch buffer. -/
def rowM (X : Memref sig .tc .vmem S2x8x64x1024 .f32) (s : Fin 2) (r : Fin 64) : Memref sig .tc .vmem S8x1024 .f32 := dstM X ![s.val, 0, r.val, 0] (inb_row s r)
/-- Slot s of a scratch buffer, whole: [1, 8, 64, 1024]. -/
def slotM (X : Memref sig .tc .vmem S2x8x64x1024 .f32) (s : Fin 2) : Memref sig .tc .vmem S1x8x64x1024 .f32 :=
  X.slice (Rect.unit (s := S2x8x64x1024) ![s.val, 0, 0, 0] S1x8x64x1024.size (inb_slot s)) (fun _ => rfl)
/-- Row w of an argument array. -/
def srcRow (X : Memref sig .tc .hbm S8x4096x1024 .f32) (w : BitVec 32) (hw : w.toNat < 4096) : Memref sig .tc .hbm S8x1024 .f32 := srcM X ![0, w.toNat, 0] (rows_inb w hw)
abbrev cA (s : Fin 2) : SemLoc sig := cellA ![s.val] (inb_cell s)
abbrev cB (s : Fin 2) : SemLoc sig := cellB ![s.val] (inb_cell s)
theorem cA_0 : cA 0 = SemLoc.dma 2 := by decide
theorem cA_1 : cA 1 = SemLoc.dma 3 := by decide
theorem cB_0 : cB 0 = SemLoc.dma 4 := by decide
theorem cB_1 : cB 1 = SemLoc.dma 5 := by decide

end Cert.KernelIdeal.Hand

end
-- ==== Proof.PreRows.lean ====
/-
  The precondition's integer conjunct read back, and the clipped index table.

  The printed predicate is the conjunction of three all-reductions by `and`; the third says, of every word x of the
  [2048] integer input, 0 ≤ x and x < 4096, both compared signed. A 32-bit word in [0, 4096) signed is below 4096
  unsigned (`toNat_lt_of_signed`), so the predicate being 1 gives x.toNat < 4096 at every position (`rows_lt`).

  The clip min(4095, max(0, x)), signed, of ANY 32-bit word is below 4096 unsigned (`clip_lt`), and is x itself when
  x.toNat < 4096 (`clip_id`); the vector forms read the pointwise operations at an index (`clipTbl_apply`, by
  unfolding: a broadcast scalar reads the scalar everywhere).
-/
import proofs.«422764_j1194000908612_2_alg».proof.Pre_finite_inputs
import proofs.«422764_j1194000908612_2_alg».proof.Proof.Gen.Pre_finite_inputs
import Idealize.ShloMosaic.Lib.ReduceAll
import Idealize.ShloMosaic.Lib.ValueIdx

noncomputable section

namespace Cert.PreRows

open Idealize.ShloMosaic
open Cert.Pre_finite_inputs (S8x4096x1024 S2048 S_)

/-- A 32-bit word that is at least 0 and below 4096, both read signed, is below 4096 read unsigned. -/
theorem toNat_lt_of_signed (x : BitVec 32) (h0 : IntOp.cmpi .sge x 0#32 = 1#1)
    (h1 : IntOp.cmpi .slt x 4096#32 = 1#1) : x.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hx := x.isLt
  have ex := BitVec.toInt_eq_toNat_cond x
  split at ex <;> omega

instance : Subsingleton S_.Idx := ⟨fun a b => funext fun d => d.elim0⟩

theorem rows_lt {F : FTy → Type} [FloatOps F] [Cert.Pre_finite_inputs.Facts]
    (a b : FVec F S8x4096x1024 .f32) (w : IVec S2048 32)
    (h : Cert.Pre_finite_inputs.fn (F := F) a b w = fun _ => 1#1) :
    ∀ g : Fin 2048, (w (ValueIdx.ix1 g)).toNat < 4096 := by
  intro g
  have e := congrFun h ValueIdx.ix0
  dsimp only [Cert.Pre_finite_inputs.fn] at e
  have e3 := (IntOp.andi_eq_one.1 e).2
  have e4 := Host.reduce_andi_all _ _ _ _ _ e3 (ValueIdx.ix1 g)
  obtain ⟨h0, h1⟩ := IntOp.andi_eq_one.1 e4
  exact toNat_lt_of_signed _ h0 h1

/-! ## The clipped table: signed max with 0, then signed min with 4095 -/

/-- The clip of ANY 32-bit word lands in [0, 4095]. -/
theorem clip_lt (x : BitVec 32) : (IntOp.minsi 4095#32 (IntOp.maxsi 0#32 x)).toNat < 4096 := by
  unfold IntOp.minsi IntOp.maxsi
  by_cases hneg : x.slt 0#32 = true
  · rw [if_pos hneg]; decide
  · rw [if_neg hneg]
    by_cases hbig : (4095#32 : BitVec 32).slt x = true
    · rw [if_pos hbig]; decide
    · rw [if_neg hbig]
      rw [BitVec.slt_iff_toInt_lt] at hneg hbig
      have e0 : (0#32 : BitVec 32).toInt = 0 := by decide
      have e1 : (4095#32 : BitVec 32).toInt = 4095 := by decide
      rw [e0] at hneg
      rw [e1] at hbig
      have hx := x.isLt
      have ex := BitVec.toInt_eq_toNat_cond x
      split at ex <;> omega

/-- The clip leaves a word already below 4096 (read unsigned) unchanged. -/
theorem clip_id (x : BitVec 32) (hx : x.toNat < 4096) : IntOp.minsi 4095#32 (IntOp.maxsi 0#32 x) = x := by
  have ex := BitVec.toInt_eq_toNat_cond x
  rw [if_pos (by omega)] at ex
  have e0 : (0#32 : BitVec 32).toInt = 0 := by decide
  have e1 : (4095#32 : BitVec 32).toInt = 4095 := by decide
  have hneg : ¬ (x.slt 0#32 = true) := by rw [BitVec.slt_iff_toInt_lt, e0, ex]; omega
  have hbig : ¬ ((4095#32 : BitVec 32).slt x = true) := by rw [BitVec.slt_iff_toInt_lt, e1, ex]; omega
  unfold IntOp.minsi IntOp.maxsi
  rw [if_neg hneg, if_neg hbig]

/-- The clipped table: `min(4095, max(0, w))`, signed, entry by entry. -/
abbrev clipTbl (bc : S_.BroadcastsInDim S2048 (![] : Fin 0 → Fin S2048.rank)) (w : IVec S2048 32) : IVec S2048 32 :=
  minsi (broadcastInDim S2048 ![] bc (constantI S_ 32 4095#32)) (maxsi (broadcastInDim S2048 ![] bc (constantI S_ 32 0#32)) w)

/-- The table at an index is the clip of the word there. -/
theorem clipTbl_apply (bc : S_.BroadcastsInDim S2048 (![] : Fin 0 → Fin S2048.rank)) (w : IVec S2048 32) (i : S2048.Idx) :
    minsi (broadcastInDim S2048 ![] bc (constantI S_ 32 4095#32)) (maxsi (broadcastInDim S2048 ![] bc (constantI S_ 32 0#32)) w) i
      = IntOp.minsi 4095#32 (IntOp.maxsi 0#32 (w i)) := rfl

/-- Every entry of the table is below 4096, whatever the input words. -/
theorem clipTbl_lt (bc : S_.BroadcastsInDim S2048 (![] : Fin 0 → Fin S2048.rank)) (w : IVec S2048 32) (g : Fin 2048) :
    (minsi (broadcastInDim S2048 ![] bc (constantI S_ 32 4095#32)) (maxsi (broadcastInDim S2048 ![] bc (constantI S_ 32 0#32)) w)
      (ValueIdx.ix1 g)).toNat < 4096 :=
  clip_lt (w (ValueIdx.ix1 g))

/-- Where the input word is already below 4096 the table holds that word. -/
theorem clipTbl_eq (bc : S_.BroadcastsInDim S2048 (![] : Fin 0 → Fin S2048.rank)) (w : IVec S2048 32) (g : Fin 2048)
    (hg : (w (ValueIdx.ix1 g)).toNat < 4096) :
    minsi (broadcastInDim S2048 ![] bc (constantI S_ 32 4095#32)) (maxsi (broadcastInDim S2048 ![] bc (constantI S_ 32 0#32)) w)
      (ValueIdx.ix1 g) = w (ValueIdx.ix1 g) :=
  clip_id (w (ValueIdx.ix1 g)) hg

/-- With every input word below 4096 the table IS the input. -/
theorem clipTbl_eq_self (bc : S_.BroadcastsInDim S2048 (![] : Fin 0 → Fin S2048.rank)) (w : IVec S2048 32)
    (hw : ∀ g : Fin 2048, (w (ValueIdx.ix1 g)).toNat < 4096) :
    minsi (broadcastInDim S2048 ![] bc (constantI S_ 32 4095#32)) (maxsi (broadcastInDim S2048 ![] bc (constantI S_ 32 0#32)) w) = w := by
  funext i
  rw [ValueIdx.eq_ix1 i]
  exact clipTbl_eq bc w (i 0) (hw (i 0))

end Cert.PreRows

end
-- ==== Proof.KI.Out.lean ====
/-
  What one grid point stores: the elementwise function of the rows it gathered.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-- The rows grid point β gathers: row r of the block is the row the table's word at 64·β + r names (a word below 4096
    names itself; the folds keep the definition total). -/
def rowsOf (tbv : IVec S2048 32) (β : ℕ) (r : Fin 64) : Fin 4096 :=
  ⟨(tbv (ix1 ⟨(64 * β + r.val) % 2048, Nat.mod_lt _ (by decide)⟩)).toNat % 4096, Nat.mod_lt _ (by decide)⟩

/-- A slot's contents once its 64 copies have landed: entry (0, p, r, d) is the array's entry (p, rows r, d). -/
def gath (X : FVec F S8x4096x1024 .f32) (rows : Fin 64 → Fin 4096) : Vec F S1x8x64x1024 .f32 := fun y =>
  let p : Fin 8 := y 1
  let r : Fin 64 := y 2
  let d : Fin 1024 := y 3
  X (ix3 p (rows r) d)

/-- The block [8, 64, 1024] a grid point stores into its output window: the body's arithmetic of the two gathered slots. -/
def outBlk (x y : FVec F S8x4096x1024 .f32) (rows : Fin 64 → Fin 4096) : Vec F S8x64x1024 .f32 :=
  k0_pay1 (k0_pay2 (gath x rows)) (k0_pay3 (gath y rows)) (k0_pay4 (gath x rows) (gath y rows))

end Cert.KernelIdeal.Hand

end
-- ==== Proof.KI.Kit.lean ====
/-
  The launch side of the gathering kernel (the idealized program): the buffers' contents where the region is entered
  (the two host constants and the clip have run), the table of row numbers the region reads, the region's invariant
  conjunct by conjunct, the kernel function at a grid point, and the frame's post read at the argument arrays.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import proofs.«422764_j1194000908612_2_alg».proof.Proof.PreRows
import Idealize.ShloMosaic.Lib.Pipeline.Frame
import Idealize.ShloMosaic.Lib.Pipeline.FrameBody
import Idealize.ShloMosaic.Lib.StableHlo.Run
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region -/

/-- Core c's buffers where the region is entered: the launch contents after the two constants and the six operations
    of the clip. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is the two straight lines of host operations, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes an argument: the region finds the three as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- The table the region finds: the clip of the index words, min(4095, max(0, ·)) signed, entry by entry. -/
theorem V_tbl (c : Dev nD) : V m c main_v0 = Cert.PreRows.clipTbl bcast_S_S2048 (m ((c : Thread nD τ).loc main_arg2)) := by
  show StableHlo.after (List.flatten [hostOps0, hostOps0_1]) (fun b => m (c, b)) (Proc.devRef .tc main_v0) = _
  simp only [hostOps0, hostOps0_1, List.flatten_cons, List.flatten_nil, List.append_nil, List.cons_append, List.nil_append]
  after_results_simp
  rfl

/-! ## The table the region reads -/

/-- The table's contents where the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table's contents: the one window's index map reads no table. -/
abbrev Ok : Prop := ok0 (F := F) (tbl m)
theorem ok_all : Ok m := cast (ok0.eq_1 (tbl m)).symm trivial
abbrev adm : (pcfg0 (F := F)).Adm := ⟨tbl m, ok_all m⟩
abbrev cfgM : Pipeline.Cfg sig Λ₀ := cfg0 (adm m)
theorem N_cfgM : (cfgM m).N = 32 := N_0

/-- The table's half the region hands the body. -/
theorem PhiT0_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The body's own transfers: their counters and the arrays they read -/

abbrev osem0 : Fin 4 → SemLoc sig := ![SemLoc.dma 2, SemLoc.dma 3, SemLoc.dma 4, SemLoc.dma 5]
theorem ownSemFacts0 : Pipeline.OwnSemFacts spec0 osem0 := by decide
/-- The four counters at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) := by
  rw [Pipeline.ownSems0_eq_of_list c osem0 [0, 1, 2, 3] (by decide) (by decide)]; rfl
/-- The arrays left in main memory, which the body copies rows of. -/
def H0 : Finset (Ref sig .tc) := {main_arg0, main_arg1}
theorem H0_sub : H0 ⊆ Pipeline.restRefsP sig pre0 spec0 := by decide
/-- The two arrays' points-tos at their entry contents, listed. -/
theorem hbmPts0_eq (c : Dev nD) :
    (bigSep H0 (fun b => ((c : Thread nD τ).loc b) ↦{fullShare} V m c b) : sProp 𝕄)
      = iprop((aM.view.loc (c : Thread nD τ) ↦{fullShare} V m c main_arg0) ∗ (bM.view.loc (c : Thread nD τ) ↦{fullShare} V m c main_arg1)) := by
  rw [BI.bigSep_eq_bigSepL_of_eq [main_arg0, main_arg1] (by decide) (by decide)]; rfl

/-- The region's invariant conjunct by conjunct: the two scratch buffers whole at some contents, the generator register
    at some state, the four counters at zero, the two arrays whole at their entry contents. -/
theorem PhiD0_eq (c : Dev nD) :
    (Pipeline.ΦD osem0 spec0 H0 (V m) c : sProp 𝕄)
      = iprop(((∃ f : MBuf (F := F) c scA, scA.view.loc (c : Thread nD τ) ↦{fullShare} f) ∗ (∃ f : MBuf (F := F) c scB, scB.view.loc (c : Thread nD τ) ↦{fullShare} f))
          ∗ (∃ r, prngReg c r)
          ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)
          ∗ ((aM.view.loc (c : Thread nD τ) ↦{fullShare} V m c main_arg0) ∗ (bM.view.loc (c : Thread nD τ) ↦{fullShare} V m c main_arg1))) := by
  rw [Pipeline.ΦD_eq, scopedRest0_eq, ownSems00_eq, hbmPts0_eq]

/-! ## The kernel function at a grid point -/

/-- The output window's current staging buffer at point t, and its wholeness. -/
abbrev ms0_0 (t : Fin (cfgM m).N) : Memref sig .tc .vmem S8x64x1024 .f32 := spec0_0.stage ((cfgM m).slots t 0)
abbrev hs0_0 (t : Fin (cfgM m).N) : (ms0_0 m t).IsWhole := hstage0_0 (((cfgM m).slots t 0).cast nbuf0_0)

/-- The kernel function as the pipeline calls it at point t. -/
def bodyAt0 (t : Fin (cfgM m).N) : Prog (TpuEff nD τ sig (Elt F) Λ₀ .tc) PUnit :=
  cc0_kernel (grid0.coords t) tbM (Memref.isWhole_whole _) aM (Memref.isWhole_whole _) bM (Memref.isWhole_whole _) (ms0_0 m t) (hs0_0 m t)
    scA (Memref.isWhole_whole _) scB (Memref.isWhole_whole _) cc0_scratch2 cc0_scratch3

/-- A triple for the kernel function at every point is the body obligation, for any proof data. -/
theorem body_obligation_of (c : Dev nD) (dat : Dat τ (Elt F) Unit ℕ (Pipeline.UD sig nD τ) ℕ (cfgM m) c)
    (h : ∀ t : Fin (cfgM m).N,
      iprop(dat.Φ t.castSucc ∗ dat.owesAt () t.castSucc ∗ (∃ d, owns (c : Thread nD τ) (ms0_0 m t) fullShare (dat.before 0 t d)))
        ⊢ wp frame (wpE (defs₀ (F := F)) Variants.none c none) Set.univ (bodyAt0 m t)
            (fun _ => iprop(dat.Φ t.succ ∗ dat.owesAt () t.succ ∗ owns (c : Thread nD τ) (ms0_0 m t) fullShare (dat.after 0 t)))) :
    BodyObligation dat (defs₀ (F := F)) Variants.none () Set.univ := fun t => by
  rw [bigSep_W0, bigSep_W0]
  exact h t

/-! ## The frame's post read at the result and the arguments -/

theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_v1) = (dats 0 c).arrAt 0 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 0,
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c)⟩) h

end Cert.KernelIdeal.Hand

end
-- ==== Proof.KI.Defs2.lean ====
/-
  Slots, counters and read shares of the double-slot row gather.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

/-- Slot k mod 2: grid point t (of 32, sixteen per row group) waits for slot t mod 2 and prefetches into slot (t + 1) mod 2. -/
def slN (k : ℕ) : Fin 2 := ⟨k % 2, Nat.mod_lt _ (by decide)⟩

/-- The counter of slot s, for each of the two arrays, as the one-cell view the body passes to a copy or a wait. -/
def semsA (s : Fin 2) : DmaSems sig S_ := (cc0_scratch2.slice (Rect.unit (s := S2) ![s.val] S1.size (inb_cell s))).squeeze S_ squeezes_S1_S_
def semsB (s : Fin 2) : DmaSems sig S_ := (cc0_scratch3.slice (Rect.unit (s := S2) ![s.val] S1.size (inb_cell s))).squeeze S_ squeezes_S1_S_
theorem cA_eq (s : Fin 2) : cA s = SemLoc.dma (semsA s).sem := rfl
theorem cB_eq (s : Fin 2) : cB s = SemLoc.dma (semsB s).sem := rfl

/-- The read share the copy into row r of slot s borrows its array row at: one share per copy, so that two copies
    of one array row (a row number met twice) never compete. -/
def qTok (s : Fin 2) (r : Fin 64) : PosShare TreeShare := Transfers.shareTokN fullShare (64 * s.val + r.val)

/-- A scratch row once a copy of an array row has landed in it, whatever it held before. -/
abbrev landedJ (c : Dev nD) (src : Memref sig .tc .hbm S8x1024 .f32) (dst : Memref sig .tc .vmem S8x1024 .f32) (fs : MBuf (F := F) c src) : MBuf (F := F) c dst :=
  dst.view.writes (Elt F) dst.view.junk [⟨Rect.whole S8x1024, ReadAs.same.apply (src.view.read (Elt F) fs)⟩]

/-- What one copy delivers when it completes: the scratch row at the array row's values, and the array row's elements
    back at the share they were lent at. -/
abbrev deliv (c : Dev nD) (src : Memref sig .tc .hbm S8x1024 .f32) (dst : Memref sig .tc .vmem S8x1024 .f32) (q : PosShare TreeShare) (fs : MBuf (F := F) c src) : sProp 𝕄 :=
  iprop(heldQ c dst fullShare (landedJ c src dst fs) ∗ heldQ c src q fs)

/-- The credit of one copy: a row of 8 × 1024 words. -/
abbrev rowCredit : ℕ := 1024

end Cert.KernelIdeal.Hand

end
-- ==== Proof.KI.Tab.lean ====
/-
  The words, array rows and deliveries of the 64 + 64 copies a grid point may start, each under the offset functions the
  body uses for it: the copies of the first fetch of a row group (into slot 0) and those of the prefetch (into the other slot).
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Defs2
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

section
variable (c : Dev nD) (tb : MBuf (F := F) c tbM) (fa : MBuf (F := F) c aM) (fb : MBuf (F := F) c bM)

/-- Every word of the table is below 4096, so the word read at any cell is. -/
theorem word_lt (htb : ∀ y, (tb y).toNat < 4096) (cell : Fin 1 → ℕ) (h : ∀ a, cell a + S1.size a ≤ S2048.size a) : (wordAt c tb cell h).toNat < 4096 := htb _

abbrev W1_0 (i : grid0.Coords) (h1 : k0_cond1 i = 1#1) : Elt F .i32 := wordAt c tb (k0_off1 i) (k0_off1_inb i h1)
theorem hw1_0 (htb : ∀ y, (tb y).toNat < 4096) (i : grid0.Coords) (h1 : k0_cond1 i = 1#1) : k0_chk1 i (W1_0 c tb i h1) := fun _ => rows_inb _ (word_lt c tb htb _ _)
abbrev s1A_0 (htb : ∀ y, (tb y).toNat < 4096) (i : grid0.Coords) (h1 : k0_cond1 i = 1#1) : Memref sig .tc .hbm S8x1024 .f32 := srcM aM (k0_off2 (W1_0 c tb i h1)) (k0_off2_inb i _ (hw1_0 c tb htb i h1) h1)
abbrev s1B_0 (htb : ∀ y, (tb y).toNat < 4096) (i : grid0.Coords) (h1 : k0_cond1 i = 1#1) : Memref sig .tc .hbm S8x1024 .f32 := srcM bM (k0_off2 (W1_0 c tb i h1)) (k0_off2_inb i _ (hw1_0 c tb htb i h1) h1)
abbrev W1_1 (i : grid0.Coords) (h1 : k0_cond1 i = 1#1) : Elt F .i32 := wordAt c tb (k0_off3 i) (k0_off3_inb i h1)
theorem hw1_1 (htb : ∀ y, (tb y).toNat < 4096) (i : grid0.Coords) (h1 : k0_cond1 i = 1#1) : k0_chk2 i (W1_1 c tb i h1) := fun _ => rows_inb _ (word_lt c tb htb _ _)
abbrev s1A_1 (htb : ∀ y, (tb y).toNat < 4096) (i : grid0.Coords) (h1 : k0_cond1 i = 1#1) : Memref sig .tc .hbm S8x1024 .f32 := srcM aM (k0_off4 (W1_1 c tb i h1)) (k0_off4_inb i _ (hw1_1 c tb htb i h1) h1)
abbrev s1B_1 (htb : ∀ y, (tb y).toNat < 4096) (i : grid0.Coords) (h1 : k0_cond1 i = 1#1) : Memref sig .tc .hbm S8x1024 .f32 := srcM bM (k0_off4 (W1_1 c tb i h1)) (k0_off4_inb i _ (hw1_1 c tb htb i h1) h1)
abbrev W1_2 (i : grid0.Coords) (h1 : k0_cond1 i = 1#1) : Elt F .i32 := wordAt c tb (k0_off5 i) (k0_off5_inb i h1)
theorem hw1_2 (htb : ∀ y, (tb y).toNat < 4096) (i : grid0.Coords) (h1 : k0_cond1 i = 1#1) : k0_chk3 i (W1_2 c tb i h1) := fun _ => rows_inb _ (word_lt c tb htb _ _)
abbrev s1A_2 (htb : ∀ y, (tb y).toNat < 4096) (i : grid0.Coords) (h1 : k0_cond1 i = 1#1) : Memref sig .tc .hbm S8x1024 .f32 := srcM aM (k0_off6 (W1_2 c tb i h1)) (k0_off6_inb i _ (hw1_2 c tb htb i h1) h1)
abbrev s1B_2 (htb : ∀ y, (tb y).toNat < 4096) (i : grid0.Coords) (h1 : k0_cond1 i = 1#1) : Memref sig .tc .hbm S8x1024 .f32 := srcM bM (k0_off6 (W1_2 c tb i h1)) (k0_off6_inb i _ (hw1_2 c tb htb i h1) h1)
abbrev W1_3 (i : grid0.Coords) (h1 : k0_cond1 i = 1#1) : Elt F .i32 := wordAt c tb (k0_off7 i) (k0_off7_inb i h1)
theorem hw1_3 (htb : ∀ y, (tb y).toNat < 4096) (i : grid0.Coords) (h1 : k0_cond1 i = 1#1) : k0_chk4 i (W1_3 c tb i h1) := fun _ => rows_inb _ (word_lt c tb htb _ _)
abbrev s1A_3 (htb : ∀ y, (tb y).toNat < 4096) (i : grid0.Coords) (h1 : k0_cond1 i = 1#1) : Memref sig .tc .hbm S8x1024 .f32 := srcM aM (k0_off8 (W1_3 c tb i h1)) (k0_off8_inb i _ (hw1_3 c tb htb i h1) h1)
abbrev s1B_3 (htb : ∀ y, (tb y).toNat < 4096) (i : grid0.Coords) (h1 : k0_cond1 i = 1#1) : Memref sig .tc .hbm S8x1024 .f32 := srcM bM (k0_off8 (W1_3 c tb i h1)) (k0_off8_inb i _ (hw1_3 c tb htb i h1) h1)
abbrev W1_4 (i : grid0.Coords) (h1 : k0_cond1 i = 1#1) : Elt F .i32 := wordAt c tb (k0_off9 i) (k0_off9_inb i h1)
theorem hw1_4 (htb : ∀ y, (tb y).toNat < 4096) (i : grid0.Coords) (h1 : k0_cond1 i = 1#1) : k0_chk5 i (W1_4 c tb i h1) := fun _ => rows_inb _ (word_lt c tb htb _ _)
abbrev s1A_4 (htb : ∀ y, (tb y).toNat < 4096) (i : grid0.Coords) (h1 : k0_cond1 i = 1#1) : Memref sig .tc .hbm S8x1024 .f32 := srcM aM (k0_off10 (W1_4 c tb i h1)) (k0_off10_inb i _ (hw1_4 c tb htb i h1) h1)
abbrev s1B_4 (htb : ∀ y, (tb y).toNat < 4096) (i : grid0.Coords) (h1 : k0_cond1 i = 1#1) : Memref sig .tc .hbm S8x1024 .f32 := srcM bM (k0_off10 (W1_4 c tb i h1)) (k0_off10_inb i _ (hw1_4 c tb htb i h1) h1)
abbrev W1_5 (i : grid0.Coords) (h1 : k0_cond1 i = 1#1) : Elt F .i32 := wordAt c tb (k0_off11 i) (k0_off11_inb i h1)
theorem hw1_5 (htb : ∀ y, (tb y).toNat < 4096) (i : grid0.Coords) (h1 : k0_cond1 i = 1#1) : k0_chk6 i (W1_5 c tb i h1) := fun _ => rows_inb _ (word_lt c tb htb _ _)
abbrev s1A_5 (htb : ∀ y, (tb y).toNat < 4096) (i : grid0.Coords) (h1 : k0_cond1 i = 1#1) : Memref sig .tc .hbm S8x1024 .f32 := srcM aM (k0_off12 (W1_5 c tb i h1)) (k0_off12_inb i _ (hw1_5 c tb htb i h1) h1)
abbrev s1B_5 (htb : ∀ y, (tb y).toNat < 4096) (i : grid0.Coords) (h1 : k0_cond1 i = 1#1) : Memref sig .tc .hbm S8x1024 .f32 := srcM bM (k0_off12 (W1_5 c tb i h1)) (k0_off12_inb i _ (hw1_5 c tb htb i h1) h1)
abbrev W1_6 (i : grid0.Coords) (h1 : k0_cond1 i = 1#1) : Elt F .i32 := wordAt c tb (k0_off13 i) (k0_off13_inb i h1)
theorem hw1_6 (htb : ∀ y, (tb y).toNat < 4096) (i : grid0.Coords) (h1 : k0_cond1 i = 1#1) : k0_chk7 i (W1_6 c tb i h1) := fun _ => rows_inb _ (word_lt c tb htb _ _)
abbrev s1A_6 (htb : ∀ y, (tb y).toNat < 4096) (i : grid0.Coords) (h1 : k0_cond1 i = 1#1) : Memref sig .tc .hbm S8x1024 .f32 := srcM aM (k0_off14 (W1_6 c tb i h1)) (k0_off14_inb i _ (hw1_6 c tb htb i h1) h1)
abbrev s1B_6 (htb : ∀ y, (tb y).toNat < 4096) (i : grid0.Coords) (h1 : k0_cond1 i = 1#1) : Memref sig .tc .hbm S8x1024 .f32 := srcM bM (k0_off14 (W1_6 c tb i h1)) (k0_off14_inb i _ (hw1_6 c tb htb i h1) h1)
abbrev W1_7 (i : grid0.Coords) (h1 : k0_cond1 i = 1#1) : Elt F .i32 := wordAt c tb (k0_off15 i) (k0_off15_inb i h1)
theorem hw1_7 (htb : ∀ y, (tb y).toNat < 4096) (i : grid0.Coords) (h1 : k0_cond1 i = 1#1) : k0_chk8 i (W1_7 c tb i h1) := fun _ => rows_inb _ (word_lt c tb htb _ _)
abbrev s1A_7 (htb : ∀ y, (tb y).toNat < 4096) (i : grid0.Coords) (h1 : k0_cond1 i = 1#1) : Memref sig .tc .hbm S8x1024 .f32 := srcM aM (k0_off16 (W1_7 c tb i h1)) (k0_off16_inb i _ (hw1_7 c tb htb i h1) h1)
abbrev s1B_7 (htb : ∀ y, (tb y).toNat < 4096) (i : grid0.Coords) (h1 : k0_cond1 i = 1#1) : Memref sig .tc .hbm S8x1024 .f32 := srcM bM (k0_off16 (W1_7 c tb i h1)) (k0_off16_inb i _ (hw1_7 c tb htb i h1) h1)
abbrev W1_8 (i : grid0.Coords) (h1 : k0_cond1 i = 1#1) : Elt F .i32 := wordAt c tb (k0_off17 i) (k0_off17_inb i h1)
theorem hw1_8 (htb : ∀ y, (tb y).toNat < 4096) (i : grid0.Coords) (h1 : k0_cond1 i = 1#1) : k0_chk9 i (W1_8 c tb i h1) := fun _ => rows_inb _ (word_lt c tb htb _ _)
abbrev s1A_8 (htb : ∀ y, (tb y).toNat < 4096) (i : grid0.Coords) (h1 : k0_cond1 i = 1#1) : Memref sig .tc .hbm S8x1024 .f32 := srcM aM (k0_off18 (W1_8 c tb i h1)) (k0_off18_inb i _ (hw1_8 c tb htb i h1) h1)
abbrev s1B_8 (htb : ∀ y, (tb y).toNat < 4096) (i : grid0.Coords) (h1 : k0_cond1 i = 1#1) : Memref sig .tc .hbm S8x1024 .f32 := srcM bM (k0_off18 (W1_8 c tb i h1)) (k0_off18_inb i _ (hw1_8 c tb htb i h1) h1)
abbrev W1_9 (i : grid0.Coords) (h1 : k0_cond1 i = 1#1) : Elt F .i32 := wordAt c tb (k0_off19 i) (k0_off19_inb i h1)
theorem hw1_9 (htb : ∀ y, (tb y).toNat < 4096) (i : grid0.Coords) (h1 : k0_cond1 i = 1#1) : k0_chk10 i (W1_9 c tb i h1) := fun _ => rows_inb _ (word_lt c tb htb _ _)
abbrev s1A_9 (htb : ∀ y, (tb y).toNat < 4096) (i : grid0.Coords) (h1 : k0_cond1 i = 1#1) : Memref sig .tc .hbm S8x1024 .f32 := srcM aM (k0_off20 (W1_9 c tb i h1)) (k0_off20_inb i _ (hw1_9 c tb htb i h1) h1)
abbrev s1B_9 (htb : ∀ y, (tb y).toNat < 4096) (i : grid0.Coords) (h1 : k0_cond1 i = 1#1) : Memref sig .tc .hbm S8x1024 .f32 := srcM bM (k0_off20 (W1_9 c tb i h1)) (k0_off20_inb i _ (hw1_9 c tb htb i h1) h1)
abbrev W1_10 (i : grid0.Coords) (h1 : k0_cond1 i = 1#1) : Elt F .i32 := wordAt c tb (k0_off21 i) (k0_off21_inb i h1)
theorem hw1_10 (htb : ∀ y, (tb y).toNat < 4096) (i : grid0.Coords) (h1 : k0_cond1 i = 1#1) : k0_chk11 i (W1_10 c tb i h1) := fun _ => rows_inb _ (word_lt c tb htb _ _)
abbrev s1A_10 (htb : ∀ y, (tb y).toNat < 4096) (i : grid0.Coords) (h1 : k0_cond1 i = 1#1) : Memref sig .tc .hbm S8x1024 .f32 := srcM aM (k0_off22 (W1_10 c tb i h1)) (k0_off22_inb i _ (hw1_10 c tb htb i h1) h1)
abbrev s1B_10 (htb : ∀ y, (tb y).toNat < 4096) (i : grid0.Coords) (h1 : k0_cond1 i = 1#1) : Memref sig .tc .hbm S8x1024 .f32 := srcM bM (k0_off22 (W1_10 c tb i h1)) (k0_off22_inb i _ (hw1_10 c tb htb i h1) h1)
abbrev W1_11 (i : grid0.Coords) (h1 : k0_cond1 i = 1#1) : Elt F .i32 := wordAt c tb (k0_off23 i) (k0_off23_inb i h1)
theorem hw1_11 (htb : ∀ y, (tb y).toNat < 4096) (i : grid0.Coords) (h1 : k0_cond1 i = 1#1) : k0_chk12 i (W1_11 c tb i h1) := fun _ => rows_inb _ (word_lt c tb htb _ _)
abbrev s1A_11 (htb : ∀ y, (tb y).toNat < 4096) (i : grid0.Coords) (h1 : k0_cond1 i = 1#1) : Memref sig .tc .hbm S8x1024 .f32 := srcM aM (k0_off24 (W1_11 c tb i h1)) (k0_off24_inb i _ (hw1_11 c tb htb i h1) h1)
abbrev s1B_11 (htb : ∀ y, (tb y).toNat < 4096) (i : grid0.Coords) (h1 : k0_cond1 i = 1#1) : Memref sig .tc .hbm S8x1024 .f32 := srcM bM (k0_off24 (W1_11 c tb i h1)) (k0_off24_inb i _ (hw1_11 c tb htb i h1) h1)
abbrev W1_12 (i : grid0.Coords) (h1 : k0_cond1 i = 1#1) : Elt F .i32 := wordAt c tb (k0_off25 i) (k0_off25_inb i h1)
theorem hw1_12 (htb : ∀ y, (tb y).toNat < 4096) (i : grid0.Coords) (h1 : k0_cond1 i = 1#1) : k0_chk13 i (W1_12 c tb i h1) := fun _ => rows_inb _ (word_lt c tb htb _ _)
abbrev s1A_12 (htb : ∀ y, (tb y).toNat < 4096) (i : grid0.Coords) (h1 : k0_cond1 i = 1#1) : Memref sig .tc .hbm S8x1024 .f32 := srcM aM (k0_off26 (W1_12 c tb i h1)) (k0_off26_inb i _ (hw1_12 c tb htb i h1) h1)
abbrev s1B_12 (htb : ∀ y, (tb y).toNat < 4096) (i : grid0.Coords) (h1 : k0_cond1 i = 1#1) : Memref sig .tc .hbm S8x1024 .f32 := srcM bM (k0_off26 (W1_12 c tb i h1)) (k0_off26_inb i _ (hw1_12 c tb htb i h1) h1)
abbrev W1_13 (i : grid0.Coords) (h1 : k0_cond1 i = 1#1) : Elt F .i32 := wordAt c tb (k0_off27 i) (k0_off27_inb i h1)
theorem hw1_13 (htb : ∀ y, (tb y).toNat < 4096) (i : grid0.Coords) (h1 : k0_cond1 i = 1#1) : k0_chk14 i (W1_13 c tb i h1) := fun _ => rows_inb _ (word_lt c tb htb _ _)
abbrev s1A_13 (htb : ∀ y, (tb y).toNat < 4096) (i : grid0.Coords) (h1 : k0_cond1 i = 1#1) : Memref sig .tc .hbm S8x1024 .f32 := srcM aM (k0_off28 (W1_13 c tb i h1)) (k0_off28_inb i _ (hw1_13 c tb htb i h1) h1)
abbrev s1B_13 (htb : ∀ y, (tb y).toNat < 4096) (i : grid0.Coords) (h1 : k0_cond1 i = 1#1) : Memref sig .tc .hbm S8x1024 .f32 := srcM bM (k0_off28 (W1_13 c tb i h1)) (k0_off28_inb i _ (hw1_13 c tb htb i h1) h1)
abbrev W1_14 (i : grid0.Coords) (h1 : k0_cond1 i = 1#1) : Elt F .i32 := wordAt c tb (k0_off29 i) (k0_off29_inb i h1)
theorem hw1_14 (htb : ∀ y, (tb y).toNat < 4096) (i : grid0.Coords) (h1 : k0_cond1 i = 1#1) : k0_chk15 i (W1_14 c tb i h1) := fun _ => rows_inb _ (word_lt c tb htb _ _)
abbrev s1A_14 (htb : ∀ y, (tb y).toNat < 4096) (i : grid0.Coords) (h1 : k0_cond1 i = 1#1) : Memref sig .tc .hbm S8x1024 .f32 := srcM aM (k0_off30 (W1_14 c tb i h1)) (k0_off30_inb i _ (hw1_14 c tb htb i h1) h1)
abbrev s1B_14 (htb : ∀ y, (tb y).toNat < 4096) (i : grid0.Coords) (h1 : k0_cond1 i = 1#1) : Memref sig .tc .hbm S8x1024 .f32 := srcM bM (k0_off30 (W1_14 c tb i h1)) (k0_off30_inb i _ (hw1_14 c tb htb i h1) h1)
abbrev W1_15 (i : grid0.Coords) (h1 : k0_cond1 i = 1#1) : Elt F .i32 := wordAt c tb (k0_off31 i) (k0_off31_inb i h1)
theorem hw1_15 (htb : ∀ y, (tb y).toNat < 4096) (i : grid0.Coords) (h1 : k0_cond1 i = 1#1) : k0_chk16 i (W1_15 c tb i h1) := fun _ => rows_inb _ (word_lt c tb htb _ _)
abbrev s1A_15 (htb : ∀ y, (tb y).toNat < 4096) (i : grid0.Coords) (h1 : k0_cond1 i = 1#1) : Memref sig .tc .hbm S8x1024 .f32 := srcM aM (k0_off32 (W1_15 c tb i h1)) (k0_off32_inb i _ (hw1_15 c tb htb i h1) h1)
abbrev s1B_15 (htb : ∀ y, (tb y).toNat < 4096) (i : grid0.Coords) (h1 : k0_cond1 i = 1#1) : Memref sig .tc .hbm S8x1024 .f32 := srcM bM (k0_off32 (W1_15 c tb i h1)) (k0_off32_inb i _ (hw1_15 c tb htb i h1) h1)
abbrev W1_16 (i : grid0.Coords) (h1 : k0_cond1 i = 1#1) : Elt F .i32 := wordAt c tb (k0_off33 i) (k0_off33_inb i h1)
theorem hw1_16 (htb : ∀ y, (tb y).toNat < 4096) (i : grid0.Coords) (h1 : k0_cond1 i = 1#1) : k0_chk17 i (W1_16 c tb i h1) := fun _ => rows_inb _ (word_lt c tb htb _ _)
abbrev s1A_16 (htb : ∀ y, (tb y).toNat < 4096) (i : grid0.Coords) (h1 : k0_cond1 i = 1#1) : Memref sig .tc .hbm S8x1024 .f32 := srcM aM (k0_off34 (W1_16 c tb i h1)) (k0_off34_inb i _ (hw1_16 c tb htb i h1) h1)
abbrev s1B_16 (htb : ∀ y, (tb y).toNat < 4096) (i : grid0.Coords) (h1 : k0_cond1 i = 1#1) : Memref sig .tc .hbm S8x1024 .f32 := srcM bM (k0_off34 (W1_16 c tb i h1)) (k0_off34_inb i _ (hw1_16 c tb htb i h1) h1)
abbrev W1_17 (i : grid0.Coords) (h1 : k0_cond1 i = 1#1) : Elt F .i32 := wordAt c tb (k0_off35 i) (k0_off35_inb i h1)
theorem hw1_17 (htb : ∀ y, (tb y).toNat < 4096) (i : grid0.Coords) (h1 : k0_cond1 i = 1#1) : k0_chk18 i (W1_17 c tb i h1) := fun _ => rows_inb _ (word_lt c tb htb _ _)
abbrev s1A_17 (htb : ∀ y, (tb y).toNat < 4096) (i : grid0.Coords) (h1 : k0_cond1 i = 1#1) : Memref sig .tc .hbm S8x1024 .f32 := srcM aM (k0_off36 (W1_17 c tb i h1)) (k0_off36_inb i _ (hw1_17 c tb htb i h1) h1)
abbrev s1B_17 (htb : ∀ y, (tb y).toNat < 4096) (i : grid0.Coords) (h1 : k0_cond1 i = 1#1) : Memref sig .tc .hbm S8x1024 .f32 := srcM bM (k0_off36 (W1_17 c tb i h1)) (k0_off36_inb i _ (hw1_17 c tb htb i h1) h1)
abbrev W1_18 (i : grid0.Coords) (h1 : k0_cond1 i = 1#1) : Elt F .i32 := wordAt c tb (k0_off37 i) (k0_off37_inb i h1)
theorem hw1_18 (htb : ∀ y, (tb y).toNat < 4096) (i : grid0.Coords) (h1 : k0_cond1 i = 1#1) : k0_chk19 i (W1_18 c tb i h1) := fun _ => rows_inb _ (word_lt c tb htb _ _)
abbrev s1A_18 (htb : ∀ y, (tb y).toNat < 4096) (i : grid0.Coords) (h1 : k0_cond1 i = 1#1) : Memref sig .tc .hbm S8x1024 .f32 := srcM aM (k0_off38 (W1_18 c tb i h1)) (k0_off38_inb i _ (hw1_18 c tb htb i h1) h1)
abbrev s1B_18 (htb : ∀ y, (tb y).toNat < 4096) (i : grid0.Coords) (h1 : k0_cond1 i = 1#1) : Memref sig .tc .hbm S8x1024 .f32 := srcM bM (k0_off38 (W1_18 c tb i h1)) (k0_off38_inb i _ (hw1_18 c tb htb i h1) h1)
abbrev W1_19 (i : grid0.Coords) (h1 : k0_cond1 i = 1#1) : Elt F .i32 := wordAt c tb (k0_off39 i) (k0_off39_inb i h1)
theorem hw1_19 (htb : ∀ y, (tb y).toNat < 4096) (i : grid0.Coords) (h1 : k0_cond1 i = 1#1) : k0_chk20 i (W1_19 c tb i h1) := fun _ => rows_inb _ (word_lt c tb htb _ _)
abbrev s1A_19 (htb : ∀ y, (tb y).toNat < 4096) (i : grid0.Coords) (h1 : k0_cond1 i = 1#1) : Memref sig .tc .hbm S8x1024 .f32 := srcM aM (k0_off40 (W1_19 c tb i h1)) (k0_off40_inb i _ (hw1_19 c tb htb i h1) h1)
abbrev s1B_19 (htb : ∀ y, (tb y).toNat < 4096) (i : grid0.Coords) (h1 : k0_cond1 i = 1#1) : Memref sig .tc .hbm S8x1024 .f32 := srcM bM (k0_off40 (W1_19 c tb i h1)) (k0_off40_inb i _ (hw1_19 c tb htb i h1) h1)
abbrev W1_20 (i : grid0.Coords) (h1 : k0_cond1 i = 1#1) : Elt F .i32 := wordAt c tb (k0_off41 i) (k0_off41_inb i h1)
theorem hw1_20 (htb : ∀ y, (tb y).toNat < 4096) (i : grid0.Coords) (h1 : k0_cond1 i = 1#1) : k0_chk21 i (W1_20 c tb i h1) := fun _ => rows_inb _ (word_lt c tb htb _ _)
abbrev s1A_20 (htb : ∀ y, (tb y).toNat < 4096) (i : grid0.Coords) (h1 : k0_cond1 i = 1#1) : Memref sig .tc .hbm S8x1024 .f32 := srcM aM (k0_off42 (W1_20 c tb i h1)) (k0_off42_inb i _ (hw1_20 c tb htb i h1) h1)
abbrev s1B_20 (htb : ∀ y, (tb y).toNat < 4096) (i : grid0.Coords) (h1 : k0_cond1 i = 1#1) : Memref sig .tc .hbm S8x1024 .f32 := srcM bM (k0_off42 (W1_20 c tb i h1)) (k0_off42_inb i _ (hw1_20 c tb htb i h1) h1)
abbrev W1_21 (i : grid0.Coords) (h1 : k0_cond1 i = 1#1) : Elt F .i32 := wordAt c tb (k0_off43 i) (k0_off43_inb i h1)
theorem hw1_21 (htb : ∀ y, (tb y).toNat < 4096) (i : grid0.Coords) (h1 : k0_cond1 i = 1#1) : k0_chk22 i (W1_21 c tb i h1) := fun _ => rows_inb _ (word_lt c tb htb _ _)
abbrev s1A_21 (htb : ∀ y, (tb y).toNat < 4096) (i : grid0.Coords) (h1 : k0_cond1 i = 1#1) : Memref sig .tc .hbm S8x1024 .f32 := srcM aM (k0_off44 (W1_21 c tb i h1)) (k0_off44_inb i _ (hw1_21 c tb htb i h1) h1)
abbrev s1B_21 (htb : ∀ y, (tb y).toNat < 4096) (i : grid0.Coords) (h1 : k0_cond1 i = 1#1) : Memref sig .tc .hbm S8x1024 .f32 := srcM bM (k0_off44 (W1_21 c tb i h1)) (k0_off44_inb i _ (hw1_21 c tb htb i h1) h1)
abbrev W1_22 (i : grid0.Coords) (h1 : k0_cond1 i = 1#1) : Elt F .i32 := wordAt c tb (k0_off45 i) (k0_off45_inb i h1)
theorem hw1_22 (htb : ∀ y, (tb y).toNat < 4096) (i : grid0.Coords) (h1 : k0_cond1 i = 1#1) : k0_chk23 i (W1_22 c tb i h1) := fun _ => rows_inb _ (word_lt c tb htb _ _)
abbrev s1A_22 (htb : ∀ y, (tb y).toNat < 4096) (i : grid0.Coords) (h1 : k0_cond1 i = 1#1) : Memref sig .tc .hbm S8x1024 .f32 := srcM aM (k0_off46 (W1_22 c tb i h1)) (k0_off46_inb i _ (hw1_22 c tb htb i h1) h1)
abbrev s1B_22 (htb : ∀ y, (tb y).toNat < 4096) (i : grid0.Coords) (h1 : k0_cond1 i = 1#1) : Memref sig .tc .hbm S8x1024 .f32 := srcM bM (k0_off46 (W1_22 c tb i h1)) (k0_off46_inb i _ (hw1_22 c tb htb i h1) h1)
abbrev W1_23 (i : grid0.Coords) (h1 : k0_cond1 i = 1#1) : Elt F .i32 := wordAt c tb (k0_off47 i) (k0_off47_inb i h1)
theorem hw1_23 (htb : ∀ y, (tb y).toNat < 4096) (i : grid0.Coords) (h1 : k0_cond1 i = 1#1) : k0_chk24 i (W1_23 c tb i h1) := fun _ => rows_inb _ (word_lt c tb htb _ _)
abbrev s1A_23 (htb : ∀ y, (tb y).toNat < 4096) (i : grid0.Coords) (h1 : k0_cond1 i = 1#1) : Memref sig .tc .hbm S8x1024 .f32 := srcM aM (k0_off48 (W1_23 c tb i h1)) (k0_off48_inb i _ (hw1_23 c tb htb i h1) h1)
abbrev s1B_23 (htb : ∀ y, (tb y).toNat < 4096) (i : grid0.Coords) (h1 : k0_cond1 i = 1#1) : Memref sig .tc .hbm S8x1024 .f32 := srcM bM (k0_off48 (W1_23 c tb i h1)) (k0_off48_inb i _ (hw1_23 c tb htb i h1) h1)
abbrev W1_24 (i : grid0.Coords) (h1 : k0_cond1 i = 1#1) : Elt F .i32 := wordAt c tb (k0_off49 i) (k0_off49_inb i h1)
theorem hw1_24 (htb : ∀ y, (tb y).toNat < 4096) (i : grid0.Coords) (h1 : k0_cond1 i = 1#1) : k0_chk25 i (W1_24 c tb i h1) := fun _ => rows_inb _ (word_lt c tb htb _ _)
abbrev s1A_24 (htb : ∀ y, (tb y).toNat < 4096) (i : grid0.Coords) (h1 : k0_cond1 i = 1#1) : Memref sig .tc .hbm S8x1024 .f32 := srcM aM (k0_off50 (W1_24 c tb i h1)) (k0_off50_inb i _ (hw1_24 c tb htb i h1) h1)
abbrev s1B_24 (htb : ∀ y, (tb y).toNat < 4096) (i : grid0.Coords) (h1 : k0_cond1 i = 1#1) : Memref sig .tc .hbm S8x1024 .f32 := srcM bM (k0_off50 (W1_24 c tb i h1)) (k0_off50_inb i _ (hw1_24 c tb htb i h1) h1)
abbrev W1_25 (i : grid0.Coords) (h1 : k0_cond1 i = 1#1) : Elt F .i32 := wordAt c tb (k0_off51 i) (k0_off51_inb i h1)
theorem hw1_25 (htb : ∀ y, (tb y).toNat < 4096) (i : grid0.Coords) (h1 : k0_cond1 i = 1#1) : k0_chk26 i (W1_25 c tb i h1) := fun _ => rows_inb _ (word_lt c tb htb _ _)
abbrev s1A_25 (htb : ∀ y, (tb y).toNat < 4096) (i : grid0.Coords) (h1 : k0_cond1 i = 1#1) : Memref sig .tc .hbm S8x1024 .f32 := srcM aM (k0_off52 (W1_25 c tb i h1)) (k0_off52_inb i _ (hw1_25 c tb htb i h1) h1)
abbrev s1B_25 (htb : ∀ y, (tb y).toNat < 4096) (i : grid0.Coords) (h1 : k0_cond1 i = 1#1) : Memref sig .tc .hbm S8x1024 .f32 := srcM bM (k0_off52 (W1_25 c tb i h1)) (k0_off52_inb i _ (hw1_25 c tb htb i h1) h1)
abbrev W1_26 (i : grid0.Coords) (h1 : k0_cond1 i = 1#1) : Elt F .i32 := wordAt c tb (k0_off53 i) (k0_off53_inb i h1)
theorem hw1_26 (htb : ∀ y, (tb y).toNat < 4096) (i : grid0.Coords) (h1 : k0_cond1 i = 1#1) : k0_chk27 i (W1_26 c tb i h1) := fun _ => rows_inb _ (word_lt c tb htb _ _)
abbrev s1A_26 (htb : ∀ y, (tb y).toNat < 4096) (i : grid0.Coords) (h1 : k0_cond1 i = 1#1) : Memref sig .tc .hbm S8x1024 .f32 := srcM aM (k0_off54 (W1_26 c tb i h1)) (k0_off54_inb i _ (hw1_26 c tb htb i h1) h1)
abbrev s1B_26 (htb : ∀ y, (tb y).toNat < 4096) (i : grid0.Coords) (h1 : k0_cond1 i = 1#1) : Memref sig .tc .hbm S8x1024 .f32 := srcM bM (k0_off54 (W1_26 c tb i h1)) (k0_off54_inb i _ (hw1_26 c tb htb i h1) h1)
abbrev W1_27 (i : grid0.Coords) (h1 : k0_cond1 i = 1#1) : Elt F .i32 := wordAt c tb (k0_off55 i) (k0_off55_inb i h1)
theorem hw1_27 (htb : ∀ y, (tb y).toNat < 4096) (i : grid0.Coords) (h1 : k0_cond1 i = 1#1) : k0_chk28 i (W1_27 c tb i h1) := fun _ => rows_inb _ (word_lt c tb htb _ _)
abbrev s1A_27 (htb : ∀ y, (tb y).toNat < 4096) (i : grid0.Coords) (h1 : k0_cond1 i = 1#1) : Memref sig .tc .hbm S8x1024 .f32 := srcM aM (k0_off56 (W1_27 c tb i h1)) (k0_off56_inb i _ (hw1_27 c tb htb i h1) h1)
abbrev s1B_27 (htb : ∀ y, (tb y).toNat < 4096) (i : grid0.Coords) (h1 : k0_cond1 i = 1#1) : Memref sig .tc .hbm S8x1024 .f32 := srcM bM (k0_off56 (W1_27 c tb i h1)) (k0_off56_inb i _ (hw1_27 c tb htb i h1) h1)
abbrev W1_28 (i : grid0.Coords) (h1 : k0_cond1 i = 1#1) : Elt F .i32 := wordAt c tb (k0_off57 i) (k0_off57_inb i h1)
theorem hw1_28 (htb : ∀ y, (tb y).toNat < 4096) (i : grid0.Coords) (h1 : k0_cond1 i = 1#1) : k0_chk29 i (W1_28 c tb i h1) := fun _ => rows_inb _ (word_lt c tb htb _ _)
abbrev s1A_28 (htb : ∀ y, (tb y).toNat < 4096) (i : grid0.Coords) (h1 : k0_cond1 i = 1#1) : Memref sig .tc .hbm S8x1024 .f32 := srcM aM (k0_off58 (W1_28 c tb i h1)) (k0_off58_inb i _ (hw1_28 c tb htb i h1) h1)
abbrev s1B_28 (htb : ∀ y, (tb y).toNat < 4096) (i : grid0.Coords) (h1 : k0_cond1 i = 1#1) : Memref sig .tc .hbm S8x1024 .f32 := srcM bM (k0_off58 (W1_28 c tb i h1)) (k0_off58_inb i _ (hw1_28 c tb htb i h1) h1)
abbrev W1_29 (i : grid0.Coords) (h1 : k0_cond1 i = 1#1) : Elt F .i32 := wordAt c tb (k0_off59 i) (k0_off59_inb i h1)
theorem hw1_29 (htb : ∀ y, (tb y).toNat < 4096) (i : grid0.Coords) (h1 : k0_cond1 i = 1#1) : k0_chk30 i (W1_29 c tb i h1) := fun _ => rows_inb _ (word_lt c tb htb _ _)
abbrev s1A_29 (htb : ∀ y, (tb y).toNat < 4096) (i : grid0.Coords) (h1 : k0_cond1 i = 1#1) : Memref sig .tc .hbm S8x1024 .f32 := srcM aM (k0_off60 (W1_29 c tb i h1)) (k0_off60_inb i _ (hw1_29 c tb htb i h1) h1)
abbrev s1B_29 (htb : ∀ y, (tb y).toNat < 4096) (i : grid0.Coords) (h1 : k0_cond1 i = 1#1) : Memref sig .tc .hbm S8x1024 .f32 := srcM bM (k0_off60 (W1_29 c tb i h1)) (k0_off60_inb i _ (hw1_29 c tb htb i h1) h1)
abbrev W1_30 (i : grid0.Coords) (h1 : k0_cond1 i = 1#1) : Elt F .i32 := wordAt c tb (k0_off61 i) (k0_off61_inb i h1)
theorem hw1_30 (htb : ∀ y, (tb y).toNat < 4096) (i : grid0.Coords) (h1 : k0_cond1 i = 1#1) : k0_chk31 i (W1_30 c tb i h1) := fun _ => rows_inb _ (word_lt c tb htb _ _)
abbrev s1A_30 (htb : ∀ y, (tb y).toNat < 4096) (i : grid0.Coords) (h1 : k0_cond1 i = 1#1) : Memref sig .tc .hbm S8x1024 .f32 := srcM aM (k0_off62 (W1_30 c tb i h1)) (k0_off62_inb i _ (hw1_30 c tb htb i h1) h1)
abbrev s1B_30 (htb : ∀ y, (tb y).toNat < 4096) (i : grid0.Coords) (h1 : k0_cond1 i = 1#1) : Memref sig .tc .hbm S8x1024 .f32 := srcM bM (k0_off62 (W1_30 c tb i h1)) (k0_off62_inb i _ (hw1_30 c tb htb i h1) h1)
abbrev W1_31 (i : grid0.Coords) (h1 : k0_cond1 i = 1#1) : Elt F .i32 := wordAt c tb (k0_off63 i) (k0_off63_inb i h1)
theorem hw1_31 (htb : ∀ y, (tb y).toNat < 4096) (i : grid0.Coords) (h1 : k0_cond1 i = 1#1) : k0_chk32 i (W1_31 c tb i h1) := fun _ => rows_inb _ (word_lt c tb htb _ _)
abbrev s1A_31 (htb : ∀ y, (tb y).toNat < 4096) (i : grid0.Coords) (h1 : k0_cond1 i = 1#1) : Memref sig .tc .hbm S8x1024 .f32 := srcM aM (k0_off64 (W1_31 c tb i h1)) (k0_off64_inb i _ (hw1_31 c tb htb i h1) h1)
abbrev s1B_31 (htb : ∀ y, (tb y).toNat < 4096) (i : grid0.Coords) (h1 : k0_cond1 i = 1#1) : Memref sig .tc .hbm S8x1024 .f32 := srcM bM (k0_off64 (W1_31 c tb i h1)) (k0_off64_inb i _ (hw1_31 c tb htb i h1) h1)
abbrev W1_32 (i : grid0.Coords) (h1 : k0_cond1 i = 1#1) : Elt F .i32 := wordAt c tb (k0_off65 i) (k0_off65_inb i h1)
theorem hw1_32 (htb : ∀ y, (tb y).toNat < 4096) (i : grid0.Coords) (h1 : k0_cond1 i = 1#1) : k0_chk33 i (W1_32 c tb i h1) := fun _ => rows_inb _ (word_lt c tb htb _ _)
abbrev s1A_32 (htb : ∀ y, (tb y).toNat < 4096) (i : grid0.Coords) (h1 : k0_cond1 i = 1#1) : Memref sig .tc .hbm S8x1024 .f32 := srcM aM (k0_off66 (W1_32 c tb i h1)) (k0_off66_inb i _ (hw1_32 c tb htb i h1) h1)
abbrev s1B_32 (htb : ∀ y, (tb y).toNat < 4096) (i : grid0.Coords) (h1 : k0_cond1 i = 1#1) : Memref sig .tc .hbm S8x1024 .f32 := srcM bM (k0_off66 (W1_32 c tb i h1)) (k0_off66_inb i _ (hw1_32 c tb htb i h1) h1)
abbrev W1_33 (i : grid0.Coords) (h1 : k0_cond1 i = 1#1) : Elt F .i32 := wordAt c tb (k0_off67 i) (k0_off67_inb i h1)
theorem hw1_33 (htb : ∀ y, (tb y).toNat < 4096) (i : grid0.Coords) (h1 : k0_cond1 i = 1#1) : k0_chk34 i (W1_33 c tb i h1) := fun _ => rows_inb _ (word_lt c tb htb _ _)
abbrev s1A_33 (htb : ∀ y, (tb y).toNat < 4096) (i : grid0.Coords) (h1 : k0_cond1 i = 1#1) : Memref sig .tc .hbm S8x1024 .f32 := srcM aM (k0_off68 (W1_33 c tb i h1)) (k0_off68_inb i _ (hw1_33 c tb htb i h1) h1)
abbrev s1B_33 (htb : ∀ y, (tb y).toNat < 4096) (i : grid0.Coords) (h1 : k0_cond1 i = 1#1) : Memref sig .tc .hbm S8x1024 .f32 := srcM bM (k0_off68 (W1_33 c tb i h1)) (k0_off68_inb i _ (hw1_33 c tb htb i h1) h1)
abbrev W1_34 (i : grid0.Coords) (h1 : k0_cond1 i = 1#1) : Elt F .i32 := wordAt c tb (k0_off69 i) (k0_off69_inb i h1)
theorem hw1_34 (htb : ∀ y, (tb y).toNat < 4096) (i : grid0.Coords) (h1 : k0_cond1 i = 1#1) : k0_chk35 i (W1_34 c tb i h1) := fun _ => rows_inb _ (word_lt c tb htb _ _)
abbrev s1A_34 (htb : ∀ y, (tb y).toNat < 4096) (i : grid0.Coords) (h1 : k0_cond1 i = 1#1) : Memref sig .tc .hbm S8x1024 .f32 := srcM aM (k0_off70 (W1_34 c tb i h1)) (k0_off70_inb i _ (hw1_34 c tb htb i h1) h1)
abbrev s1B_34 (htb : ∀ y, (tb y).toNat < 4096) (i : grid0.Coords) (h1 : k0_cond1 i = 1#1) : Memref sig .tc .hbm S8x1024 .f32 := srcM bM (k0_off70 (W1_34 c tb i h1)) (k0_off70_inb i _ (hw1_34 c tb htb i h1) h1)
abbrev W1_35 (i : grid0.Coords) (h1 : k0_cond1 i = 1#1) : Elt F .i32 := wordAt c tb (k0_off71 i) (k0_off71_inb i h1)
theorem hw1_35 (htb : ∀ y, (tb y).toNat < 4096) (i : grid0.Coords) (h1 : k0_cond1 i = 1#1) : k0_chk36 i (W1_35 c tb i h1) := fun _ => rows_inb _ (word_lt c tb htb _ _)
abbrev s1A_35 (htb : ∀ y, (tb y).toNat < 4096) (i : grid0.Coords) (h1 : k0_cond1 i = 1#1) : Memref sig .tc .hbm S8x1024 .f32 := srcM aM (k0_off72 (W1_35 c tb i h1)) (k0_off72_inb i _ (hw1_35 c tb htb i h1) h1)
abbrev s1B_35 (htb : ∀ y, (tb y).toNat < 4096) (i : grid0.Coords) (h1 : k0_cond1 i = 1#1) : Memref sig .tc .hbm S8x1024 .f32 := srcM bM (k0_off72 (W1_35 c tb i h1)) (k0_off72_inb i _ (hw1_35 c tb htb i h1) h1)
abbrev W1_36 (i : grid0.Coords) (h1 : k0_cond1 i = 1#1) : Elt F .i32 := wordAt c tb (k0_off73 i) (k0_off73_inb i h1)
theorem hw1_36 (htb : ∀ y, (tb y).toNat < 4096) (i : grid0.Coords) (h1 : k0_cond1 i = 1#1) : k0_chk37 i (W1_36 c tb i h1) := fun _ => rows_inb _ (word_lt c tb htb _ _)
abbrev s1A_36 (htb : ∀ y, (tb y).toNat < 4096) (i : grid0.Coords) (h1 : k0_cond1 i = 1#1) : Memref sig .tc .hbm S8x1024 .f32 := srcM aM (k0_off74 (W1_36 c tb i h1)) (k0_off74_inb i _ (hw1_36 c tb htb i h1) h1)
abbrev s1B_36 (htb : ∀ y, (tb y).toNat < 4096) (i : grid0.Coords) (h1 : k0_cond1 i = 1#1) : Memref sig .tc .hbm S8x1024 .f32 := srcM bM (k0_off74 (W1_36 c tb i h1)) (k0_off74_inb i _ (hw1_36 c tb htb i h1) h1)
abbrev W1_37 (i : grid0.Coords) (h1 : k0_cond1 i = 1#1) : Elt F .i32 := wordAt c tb (k0_off75 i) (k0_off75_inb i h1)
theorem hw1_37 (htb : ∀ y, (tb y).toNat < 4096) (i : grid0.Coords) (h1 : k0_cond1 i = 1#1) : k0_chk38 i (W1_37 c tb i h1) := fun _ => rows_inb _ (word_lt c tb htb _ _)
abbrev s1A_37 (htb : ∀ y, (tb y).toNat < 4096) (i : grid0.Coords) (h1 : k0_cond1 i = 1#1) : Memref sig .tc .hbm S8x1024 .f32 := srcM aM (k0_off76 (W1_37 c tb i h1)) (k0_off76_inb i _ (hw1_37 c tb htb i h1) h1)
abbrev s1B_37 (htb : ∀ y, (tb y).toNat < 4096) (i : grid0.Coords) (h1 : k0_cond1 i = 1#1) : Memref sig .tc .hbm S8x1024 .f32 := srcM bM (k0_off76 (W1_37 c tb i h1)) (k0_off76_inb i _ (hw1_37 c tb htb i h1) h1)
abbrev W1_38 (i : grid0.Coords) (h1 : k0_cond1 i = 1#1) : Elt F .i32 := wordAt c tb (k0_off77 i) (k0_off77_inb i h1)
theorem hw1_38 (htb : ∀ y, (tb y).toNat < 4096) (i : grid0.Coords) (h1 : k0_cond1 i = 1#1) : k0_chk39 i (W1_38 c tb i h1) := fun _ => rows_inb _ (word_lt c tb htb _ _)
abbrev s1A_38 (htb : ∀ y, (tb y).toNat < 4096) (i : grid0.Coords) (h1 : k0_cond1 i = 1#1) : Memref sig .tc .hbm S8x1024 .f32 := srcM aM (k0_off78 (W1_38 c tb i h1)) (k0_off78_inb i _ (hw1_38 c tb htb i h1) h1)
abbrev s1B_38 (htb : ∀ y, (tb y).toNat < 4096) (i : grid0.Coords) (h1 : k0_cond1 i = 1#1) : Memref sig .tc .hbm S8x1024 .f32 := srcM bM (k0_off78 (W1_38 c tb i h1)) (k0_off78_inb i _ (hw1_38 c tb htb i h1) h1)
abbrev W1_39 (i : grid0.Coords) (h1 : k0_cond1 i = 1#1) : Elt F .i32 := wordAt c tb (k0_off79 i) (k0_off79_inb i h1)
theorem hw1_39 (htb : ∀ y, (tb y).toNat < 4096) (i : grid0.Coords) (h1 : k0_cond1 i = 1#1) : k0_chk40 i (W1_39 c tb i h1) := fun _ => rows_inb _ (word_lt c tb htb _ _)
abbrev s1A_39 (htb : ∀ y, (tb y).toNat < 4096) (i : grid0.Coords) (h1 : k0_cond1 i = 1#1) : Memref sig .tc .hbm S8x1024 .f32 := srcM aM (k0_off80 (W1_39 c tb i h1)) (k0_off80_inb i _ (hw1_39 c tb htb i h1) h1)
abbrev s1B_39 (htb : ∀ y, (tb y).toNat < 4096) (i : grid0.Coords) (h1 : k0_cond1 i = 1#1) : Memref sig .tc .hbm S8x1024 .f32 := srcM bM (k0_off80 (W1_39 c tb i h1)) (k0_off80_inb i _ (hw1_39 c tb htb i h1) h1)
abbrev W1_40 (i : grid0.Coords) (h1 : k0_cond1 i = 1#1) : Elt F .i32 := wordAt c tb (k0_off81 i) (k0_off81_inb i h1)
theorem hw1_40 (htb : ∀ y, (tb y).toNat < 4096) (i : grid0.Coords) (h1 : k0_cond1 i = 1#1) : k0_chk41 i (W1_40 c tb i h1) := fun _ => rows_inb _ (word_lt c tb htb _ _)
abbrev s1A_40 (htb : ∀ y, (tb y).toNat < 4096) (i : grid0.Coords) (h1 : k0_cond1 i = 1#1) : Memref sig .tc .hbm S8x1024 .f32 := srcM aM (k0_off82 (W1_40 c tb i h1)) (k0_off82_inb i _ (hw1_40 c tb htb i h1) h1)
abbrev s1B_40 (htb : ∀ y, (tb y).toNat < 4096) (i : grid0.Coords) (h1 : k0_cond1 i = 1#1) : Memref sig .tc .hbm S8x1024 .f32 := srcM bM (k0_off82 (W1_40 c tb i h1)) (k0_off82_inb i _ (hw1_40 c tb htb i h1) h1)
abbrev W1_41 (i : grid0.Coords) (h1 : k0_cond1 i = 1#1) : Elt F .i32 := wordAt c tb (k0_off83 i) (k0_off83_inb i h1)
theorem hw1_41 (htb : ∀ y, (tb y).toNat < 4096) (i : grid0.Coords) (h1 : k0_cond1 i = 1#1) : k0_chk42 i (W1_41 c tb i h1) := fun _ => rows_inb _ (word_lt c tb htb _ _)
abbrev s1A_41 (htb : ∀ y, (tb y).toNat < 4096) (i : grid0.Coords) (h1 : k0_cond1 i = 1#1) : Memref sig .tc .hbm S8x1024 .f32 := srcM aM (k0_off84 (W1_41 c tb i h1)) (k0_off84_inb i _ (hw1_41 c tb htb i h1) h1)
abbrev s1B_41 (htb : ∀ y, (tb y).toNat < 4096) (i : grid0.Coords) (h1 : k0_cond1 i = 1#1) : Memref sig .tc .hbm S8x1024 .f32 := srcM bM (k0_off84 (W1_41 c tb i h1)) (k0_off84_inb i _ (hw1_41 c tb htb i h1) h1)
abbrev W1_42 (i : grid0.Coords) (h1 : k0_cond1 i = 1#1) : Elt F .i32 := wordAt c tb (k0_off85 i) (k0_off85_inb i h1)
theorem hw1_42 (htb : ∀ y, (tb y).toNat < 4096) (i : grid0.Coords) (h1 : k0_cond1 i = 1#1) : k0_chk43 i (W1_42 c tb i h1) := fun _ => rows_inb _ (word_lt c tb htb _ _)
abbrev s1A_42 (htb : ∀ y, (tb y).toNat < 4096) (i : grid0.Coords) (h1 : k0_cond1 i = 1#1) : Memref sig .tc .hbm S8x1024 .f32 := srcM aM (k0_off86 (W1_42 c tb i h1)) (k0_off86_inb i _ (hw1_42 c tb htb i h1) h1)
abbrev s1B_42 (htb : ∀ y, (tb y).toNat < 4096) (i : grid0.Coords) (h1 : k0_cond1 i = 1#1) : Memref sig .tc .hbm S8x1024 .f32 := srcM bM (k0_off86 (W1_42 c tb i h1)) (k0_off86_inb i _ (hw1_42 c tb htb i h1) h1)
abbrev W1_43 (i : grid0.Coords) (h1 : k0_cond1 i = 1#1) : Elt F .i32 := wordAt c tb (k0_off87 i) (k0_off87_inb i h1)
theorem hw1_43 (htb : ∀ y, (tb y).toNat < 4096) (i : grid0.Coords) (h1 : k0_cond1 i = 1#1) : k0_chk44 i (W1_43 c tb i h1) := fun _ => rows_inb _ (word_lt c tb htb _ _)
abbrev s1A_43 (htb : ∀ y, (tb y).toNat < 4096) (i : grid0.Coords) (h1 : k0_cond1 i = 1#1) : Memref sig .tc .hbm S8x1024 .f32 := srcM aM (k0_off88 (W1_43 c tb i h1)) (k0_off88_inb i _ (hw1_43 c tb htb i h1) h1)
abbrev s1B_43 (htb : ∀ y, (tb y).toNat < 4096) (i : grid0.Coords) (h1 : k0_cond1 i = 1#1) : Memref sig .tc .hbm S8x1024 .f32 := srcM bM (k0_off88 (W1_43 c tb i h1)) (k0_off88_inb i _ (hw1_43 c tb htb i h1) h1)
abbrev W1_44 (i : grid0.Coords) (h1 : k0_cond1 i = 1#1) : Elt F .i32 := wordAt c tb (k0_off89 i) (k0_off89_inb i h1)
theorem hw1_44 (htb : ∀ y, (tb y).toNat < 4096) (i : grid0.Coords) (h1 : k0_cond1 i = 1#1) : k0_chk45 i (W1_44 c tb i h1) := fun _ => rows_inb _ (word_lt c tb htb _ _)
abbrev s1A_44 (htb : ∀ y, (tb y).toNat < 4096) (i : grid0.Coords) (h1 : k0_cond1 i = 1#1) : Memref sig .tc .hbm S8x1024 .f32 := srcM aM (k0_off90 (W1_44 c tb i h1)) (k0_off90_inb i _ (hw1_44 c tb htb i h1) h1)
abbrev s1B_44 (htb : ∀ y, (tb y).toNat < 4096) (i : grid0.Coords) (h1 : k0_cond1 i = 1#1) : Memref sig .tc .hbm S8x1024 .f32 := srcM bM (k0_off90 (W1_44 c tb i h1)) (k0_off90_inb i _ (hw1_44 c tb htb i h1) h1)
abbrev W1_45 (i : grid0.Coords) (h1 : k0_cond1 i = 1#1) : Elt F .i32 := wordAt c tb (k0_off91 i) (k0_off91_inb i h1)
theorem hw1_45 (htb : ∀ y, (tb y).toNat < 4096) (i : grid0.Coords) (h1 : k0_cond1 i = 1#1) : k0_chk46 i (W1_45 c tb i h1) := fun _ => rows_inb _ (word_lt c tb htb _ _)
abbrev s1A_45 (htb : ∀ y, (tb y).toNat < 4096) (i : grid0.Coords) (h1 : k0_cond1 i = 1#1) : Memref sig .tc .hbm S8x1024 .f32 := srcM aM (k0_off92 (W1_45 c tb i h1)) (k0_off92_inb i _ (hw1_45 c tb htb i h1) h1)
abbrev s1B_45 (htb : ∀ y, (tb y).toNat < 4096) (i : grid0.Coords) (h1 : k0_cond1 i = 1#1) : Memref sig .tc .hbm S8x1024 .f32 := srcM bM (k0_off92 (W1_45 c tb i h1)) (k0_off92_inb i _ (hw1_45 c tb htb i h1) h1)
abbrev W1_46 (i : grid0.Coords) (h1 : k0_cond1 i = 1#1) : Elt F .i32 := wordAt c tb (k0_off93 i) (k0_off93_inb i h1)
theorem hw1_46 (htb : ∀ y, (tb y).toNat < 4096) (i : grid0.Coords) (h1 : k0_cond1 i = 1#1) : k0_chk47 i (W1_46 c tb i h1) := fun _ => rows_inb _ (word_lt c tb htb _ _)
abbrev s1A_46 (htb : ∀ y, (tb y).toNat < 4096) (i : grid0.Coords) (h1 : k0_cond1 i = 1#1) : Memref sig .tc .hbm S8x1024 .f32 := srcM aM (k0_off94 (W1_46 c tb i h1)) (k0_off94_inb i _ (hw1_46 c tb htb i h1) h1)
abbrev s1B_46 (htb : ∀ y, (tb y).toNat < 4096) (i : grid0.Coords) (h1 : k0_cond1 i = 1#1) : Memref sig .tc .hbm S8x1024 .f32 := srcM bM (k0_off94 (W1_46 c tb i h1)) (k0_off94_inb i _ (hw1_46 c tb htb i h1) h1)
abbrev W1_47 (i : grid0.Coords) (h1 : k0_cond1 i = 1#1) : Elt F .i32 := wordAt c tb (k0_off95 i) (k0_off95_inb i h1)
theorem hw1_47 (htb : ∀ y, (tb y).toNat < 4096) (i : grid0.Coords) (h1 : k0_cond1 i = 1#1) : k0_chk48 i (W1_47 c tb i h1) := fun _ => rows_inb _ (word_lt c tb htb _ _)
abbrev s1A_47 (htb : ∀ y, (tb y).toNat < 4096) (i : grid0.Coords) (h1 : k0_cond1 i = 1#1) : Memref sig .tc .hbm S8x1024 .f32 := srcM aM (k0_off96 (W1_47 c tb i h1)) (k0_off96_inb i _ (hw1_47 c tb htb i h1) h1)
abbrev s1B_47 (htb : ∀ y, (tb y).toNat < 4096) (i : grid0.Coords) (h1 : k0_cond1 i = 1#1) : Memref sig .tc .hbm S8x1024 .f32 := srcM bM (k0_off96 (W1_47 c tb i h1)) (k0_off96_inb i _ (hw1_47 c tb htb i h1) h1)
abbrev W1_48 (i : grid0.Coords) (h1 : k0_cond1 i = 1#1) : Elt F .i32 := wordAt c tb (k0_off97 i) (k0_off97_inb i h1)
theorem hw1_48 (htb : ∀ y, (tb y).toNat < 4096) (i : grid0.Coords) (h1 : k0_cond1 i = 1#1) : k0_chk49 i (W1_48 c tb i h1) := fun _ => rows_inb _ (word_lt c tb htb _ _)
abbrev s1A_48 (htb : ∀ y, (tb y).toNat < 4096) (i : grid0.Coords) (h1 : k0_cond1 i = 1#1) : Memref sig .tc .hbm S8x1024 .f32 := srcM aM (k0_off98 (W1_48 c tb i h1)) (k0_off98_inb i _ (hw1_48 c tb htb i h1) h1)
abbrev s1B_48 (htb : ∀ y, (tb y).toNat < 4096) (i : grid0.Coords) (h1 : k0_cond1 i = 1#1) : Memref sig .tc .hbm S8x1024 .f32 := srcM bM (k0_off98 (W1_48 c tb i h1)) (k0_off98_inb i _ (hw1_48 c tb htb i h1) h1)
abbrev W1_49 (i : grid0.Coords) (h1 : k0_cond1 i = 1#1) : Elt F .i32 := wordAt c tb (k0_off99 i) (k0_off99_inb i h1)
theorem hw1_49 (htb : ∀ y, (tb y).toNat < 4096) (i : grid0.Coords) (h1 : k0_cond1 i = 1#1) : k0_chk50 i (W1_49 c tb i h1) := fun _ => rows_inb _ (word_lt c tb htb _ _)
abbrev s1A_49 (htb : ∀ y, (tb y).toNat < 4096) (i : grid0.Coords) (h1 : k0_cond1 i = 1#1) : Memref sig .tc .hbm S8x1024 .f32 := srcM aM (k0_off100 (W1_49 c tb i h1)) (k0_off100_inb i _ (hw1_49 c tb htb i h1) h1)
abbrev s1B_49 (htb : ∀ y, (tb y).toNat < 4096) (i : grid0.Coords) (h1 : k0_cond1 i = 1#1) : Memref sig .tc .hbm S8x1024 .f32 := srcM bM (k0_off100 (W1_49 c tb i h1)) (k0_off100_inb i _ (hw1_49 c tb htb i h1) h1)
abbrev W1_50 (i : grid0.Coords) (h1 : k0_cond1 i = 1#1) : Elt F .i32 := wordAt c tb (k0_off101 i) (k0_off101_inb i h1)
theorem hw1_50 (htb : ∀ y, (tb y).toNat < 4096) (i : grid0.Coords) (h1 : k0_cond1 i = 1#1) : k0_chk51 i (W1_50 c tb i h1) := fun _ => rows_inb _ (word_lt c tb htb _ _)
abbrev s1A_50 (htb : ∀ y, (tb y).toNat < 4096) (i : grid0.Coords) (h1 : k0_cond1 i = 1#1) : Memref sig .tc .hbm S8x1024 .f32 := srcM aM (k0_off102 (W1_50 c tb i h1)) (k0_off102_inb i _ (hw1_50 c tb htb i h1) h1)
abbrev s1B_50 (htb : ∀ y, (tb y).toNat < 4096) (i : grid0.Coords) (h1 : k0_cond1 i = 1#1) : Memref sig .tc .hbm S8x1024 .f32 := srcM bM (k0_off102 (W1_50 c tb i h1)) (k0_off102_inb i _ (hw1_50 c tb htb i h1) h1)
abbrev W1_51 (i : grid0.Coords) (h1 : k0_cond1 i = 1#1) : Elt F .i32 := wordAt c tb (k0_off103 i) (k0_off103_inb i h1)
theorem hw1_51 (htb : ∀ y, (tb y).toNat < 4096) (i : grid0.Coords) (h1 : k0_cond1 i = 1#1) : k0_chk52 i (W1_51 c tb i h1) := fun _ => rows_inb _ (word_lt c tb htb _ _)
abbrev s1A_51 (htb : ∀ y, (tb y).toNat < 4096) (i : grid0.Coords) (h1 : k0_cond1 i = 1#1) : Memref sig .tc .hbm S8x1024 .f32 := srcM aM (k0_off104 (W1_51 c tb i h1)) (k0_off104_inb i _ (hw1_51 c tb htb i h1) h1)
abbrev s1B_51 (htb : ∀ y, (tb y).toNat < 4096) (i : grid0.Coords) (h1 : k0_cond1 i = 1#1) : Memref sig .tc .hbm S8x1024 .f32 := srcM bM (k0_off104 (W1_51 c tb i h1)) (k0_off104_inb i _ (hw1_51 c tb htb i h1) h1)
abbrev W1_52 (i : grid0.Coords) (h1 : k0_cond1 i = 1#1) : Elt F .i32 := wordAt c tb (k0_off105 i) (k0_off105_inb i h1)
theorem hw1_52 (htb : ∀ y, (tb y).toNat < 4096) (i : grid0.Coords) (h1 : k0_cond1 i = 1#1) : k0_chk53 i (W1_52 c tb i h1) := fun _ => rows_inb _ (word_lt c tb htb _ _)
abbrev s1A_52 (htb : ∀ y, (tb y).toNat < 4096) (i : grid0.Coords) (h1 : k0_cond1 i = 1#1) : Memref sig .tc .hbm S8x1024 .f32 := srcM aM (k0_off106 (W1_52 c tb i h1)) (k0_off106_inb i _ (hw1_52 c tb htb i h1) h1)
abbrev s1B_52 (htb : ∀ y, (tb y).toNat < 4096) (i : grid0.Coords) (h1 : k0_cond1 i = 1#1) : Memref sig .tc .hbm S8x1024 .f32 := srcM bM (k0_off106 (W1_52 c tb i h1)) (k0_off106_inb i _ (hw1_52 c tb htb i h1) h1)
abbrev W1_53 (i : grid0.Coords) (h1 : k0_cond1 i = 1#1) : Elt F .i32 := wordAt c tb (k0_off107 i) (k0_off107_inb i h1)
theorem hw1_53 (htb : ∀ y, (tb y).toNat < 4096) (i : grid0.Coords) (h1 : k0_cond1 i = 1#1) : k0_chk54 i (W1_53 c tb i h1) := fun _ => rows_inb _ (word_lt c tb htb _ _)
abbrev s1A_53 (htb : ∀ y, (tb y).toNat < 4096) (i : grid0.Coords) (h1 : k0_cond1 i = 1#1) : Memref sig .tc .hbm S8x1024 .f32 := srcM aM (k0_off108 (W1_53 c tb i h1)) (k0_off108_inb i _ (hw1_53 c tb htb i h1) h1)
abbrev s1B_53 (htb : ∀ y, (tb y).toNat < 4096) (i : grid0.Coords) (h1 : k0_cond1 i = 1#1) : Memref sig .tc .hbm S8x1024 .f32 := srcM bM (k0_off108 (W1_53 c tb i h1)) (k0_off108_inb i _ (hw1_53 c tb htb i h1) h1)
abbrev W1_54 (i : grid0.Coords) (h1 : k0_cond1 i = 1#1) : Elt F .i32 := wordAt c tb (k0_off109 i) (k0_off109_inb i h1)
theorem hw1_54 (htb : ∀ y, (tb y).toNat < 4096) (i : grid0.Coords) (h1 : k0_cond1 i = 1#1) : k0_chk55 i (W1_54 c tb i h1) := fun _ => rows_inb _ (word_lt c tb htb _ _)
abbrev s1A_54 (htb : ∀ y, (tb y).toNat < 4096) (i : grid0.Coords) (h1 : k0_cond1 i = 1#1) : Memref sig .tc .hbm S8x1024 .f32 := srcM aM (k0_off110 (W1_54 c tb i h1)) (k0_off110_inb i _ (hw1_54 c tb htb i h1) h1)
abbrev s1B_54 (htb : ∀ y, (tb y).toNat < 4096) (i : grid0.Coords) (h1 : k0_cond1 i = 1#1) : Memref sig .tc .hbm S8x1024 .f32 := srcM bM (k0_off110 (W1_54 c tb i h1)) (k0_off110_inb i _ (hw1_54 c tb htb i h1) h1)
abbrev W1_55 (i : grid0.Coords) (h1 : k0_cond1 i = 1#1) : Elt F .i32 := wordAt c tb (k0_off111 i) (k0_off111_inb i h1)
theorem hw1_55 (htb : ∀ y, (tb y).toNat < 4096) (i : grid0.Coords) (h1 : k0_cond1 i = 1#1) : k0_chk56 i (W1_55 c tb i h1) := fun _ => rows_inb _ (word_lt c tb htb _ _)
abbrev s1A_55 (htb : ∀ y, (tb y).toNat < 4096) (i : grid0.Coords) (h1 : k0_cond1 i = 1#1) : Memref sig .tc .hbm S8x1024 .f32 := srcM aM (k0_off112 (W1_55 c tb i h1)) (k0_off112_inb i _ (hw1_55 c tb htb i h1) h1)
abbrev s1B_55 (htb : ∀ y, (tb y).toNat < 4096) (i : grid0.Coords) (h1 : k0_cond1 i = 1#1) : Memref sig .tc .hbm S8x1024 .f32 := srcM bM (k0_off112 (W1_55 c tb i h1)) (k0_off112_inb i _ (hw1_55 c tb htb i h1) h1)
abbrev W1_56 (i : grid0.Coords) (h1 : k0_cond1 i = 1#1) : Elt F .i32 := wordAt c tb (k0_off113 i) (k0_off113_inb i h1)
theorem hw1_56 (htb : ∀ y, (tb y).toNat < 4096) (i : grid0.Coords) (h1 : k0_cond1 i = 1#1) : k0_chk57 i (W1_56 c tb i h1) := fun _ => rows_inb _ (word_lt c tb htb _ _)
abbrev s1A_56 (htb : ∀ y, (tb y).toNat < 4096) (i : grid0.Coords) (h1 : k0_cond1 i = 1#1) : Memref sig .tc .hbm S8x1024 .f32 := srcM aM (k0_off114 (W1_56 c tb i h1)) (k0_off114_inb i _ (hw1_56 c tb htb i h1) h1)
abbrev s1B_56 (htb : ∀ y, (tb y).toNat < 4096) (i : grid0.Coords) (h1 : k0_cond1 i = 1#1) : Memref sig .tc .hbm S8x1024 .f32 := srcM bM (k0_off114 (W1_56 c tb i h1)) (k0_off114_inb i _ (hw1_56 c tb htb i h1) h1)
abbrev W1_57 (i : grid0.Coords) (h1 : k0_cond1 i = 1#1) : Elt F .i32 := wordAt c tb (k0_off115 i) (k0_off115_inb i h1)
theorem hw1_57 (htb : ∀ y, (tb y).toNat < 4096) (i : grid0.Coords) (h1 : k0_cond1 i = 1#1) : k0_chk58 i (W1_57 c tb i h1) := fun _ => rows_inb _ (word_lt c tb htb _ _)
abbrev s1A_57 (htb : ∀ y, (tb y).toNat < 4096) (i : grid0.Coords) (h1 : k0_cond1 i = 1#1) : Memref sig .tc .hbm S8x1024 .f32 := srcM aM (k0_off116 (W1_57 c tb i h1)) (k0_off116_inb i _ (hw1_57 c tb htb i h1) h1)
abbrev s1B_57 (htb : ∀ y, (tb y).toNat < 4096) (i : grid0.Coords) (h1 : k0_cond1 i = 1#1) : Memref sig .tc .hbm S8x1024 .f32 := srcM bM (k0_off116 (W1_57 c tb i h1)) (k0_off116_inb i _ (hw1_57 c tb htb i h1) h1)
abbrev W1_58 (i : grid0.Coords) (h1 : k0_cond1 i = 1#1) : Elt F .i32 := wordAt c tb (k0_off117 i) (k0_off117_inb i h1)
theorem hw1_58 (htb : ∀ y, (tb y).toNat < 4096) (i : grid0.Coords) (h1 : k0_cond1 i = 1#1) : k0_chk59 i (W1_58 c tb i h1) := fun _ => rows_inb _ (word_lt c tb htb _ _)
abbrev s1A_58 (htb : ∀ y, (tb y).toNat < 4096) (i : grid0.Coords) (h1 : k0_cond1 i = 1#1) : Memref sig .tc .hbm S8x1024 .f32 := srcM aM (k0_off118 (W1_58 c tb i h1)) (k0_off118_inb i _ (hw1_58 c tb htb i h1) h1)
abbrev s1B_58 (htb : ∀ y, (tb y).toNat < 4096) (i : grid0.Coords) (h1 : k0_cond1 i = 1#1) : Memref sig .tc .hbm S8x1024 .f32 := srcM bM (k0_off118 (W1_58 c tb i h1)) (k0_off118_inb i _ (hw1_58 c tb htb i h1) h1)
abbrev W1_59 (i : grid0.Coords) (h1 : k0_cond1 i = 1#1) : Elt F .i32 := wordAt c tb (k0_off119 i) (k0_off119_inb i h1)
theorem hw1_59 (htb : ∀ y, (tb y).toNat < 4096) (i : grid0.Coords) (h1 : k0_cond1 i = 1#1) : k0_chk60 i (W1_59 c tb i h1) := fun _ => rows_inb _ (word_lt c tb htb _ _)
abbrev s1A_59 (htb : ∀ y, (tb y).toNat < 4096) (i : grid0.Coords) (h1 : k0_cond1 i = 1#1) : Memref sig .tc .hbm S8x1024 .f32 := srcM aM (k0_off120 (W1_59 c tb i h1)) (k0_off120_inb i _ (hw1_59 c tb htb i h1) h1)
abbrev s1B_59 (htb : ∀ y, (tb y).toNat < 4096) (i : grid0.Coords) (h1 : k0_cond1 i = 1#1) : Memref sig .tc .hbm S8x1024 .f32 := srcM bM (k0_off120 (W1_59 c tb i h1)) (k0_off120_inb i _ (hw1_59 c tb htb i h1) h1)
abbrev W1_60 (i : grid0.Coords) (h1 : k0_cond1 i = 1#1) : Elt F .i32 := wordAt c tb (k0_off121 i) (k0_off121_inb i h1)
theorem hw1_60 (htb : ∀ y, (tb y).toNat < 4096) (i : grid0.Coords) (h1 : k0_cond1 i = 1#1) : k0_chk61 i (W1_60 c tb i h1) := fun _ => rows_inb _ (word_lt c tb htb _ _)
abbrev s1A_60 (htb : ∀ y, (tb y).toNat < 4096) (i : grid0.Coords) (h1 : k0_cond1 i = 1#1) : Memref sig .tc .hbm S8x1024 .f32 := srcM aM (k0_off122 (W1_60 c tb i h1)) (k0_off122_inb i _ (hw1_60 c tb htb i h1) h1)
abbrev s1B_60 (htb : ∀ y, (tb y).toNat < 4096) (i : grid0.Coords) (h1 : k0_cond1 i = 1#1) : Memref sig .tc .hbm S8x1024 .f32 := srcM bM (k0_off122 (W1_60 c tb i h1)) (k0_off122_inb i _ (hw1_60 c tb htb i h1) h1)
abbrev W1_61 (i : grid0.Coords) (h1 : k0_cond1 i = 1#1) : Elt F .i32 := wordAt c tb (k0_off123 i) (k0_off123_inb i h1)
theorem hw1_61 (htb : ∀ y, (tb y).toNat < 4096) (i : grid0.Coords) (h1 : k0_cond1 i = 1#1) : k0_chk62 i (W1_61 c tb i h1) := fun _ => rows_inb _ (word_lt c tb htb _ _)
abbrev s1A_61 (htb : ∀ y, (tb y).toNat < 4096) (i : grid0.Coords) (h1 : k0_cond1 i = 1#1) : Memref sig .tc .hbm S8x1024 .f32 := srcM aM (k0_off124 (W1_61 c tb i h1)) (k0_off124_inb i _ (hw1_61 c tb htb i h1) h1)
abbrev s1B_61 (htb : ∀ y, (tb y).toNat < 4096) (i : grid0.Coords) (h1 : k0_cond1 i = 1#1) : Memref sig .tc .hbm S8x1024 .f32 := srcM bM (k0_off124 (W1_61 c tb i h1)) (k0_off124_inb i _ (hw1_61 c tb htb i h1) h1)
abbrev W1_62 (i : grid0.Coords) (h1 : k0_cond1 i = 1#1) : Elt F .i32 := wordAt c tb (k0_off125 i) (k0_off125_inb i h1)
theorem hw1_62 (htb : ∀ y, (tb y).toNat < 4096) (i : grid0.Coords) (h1 : k0_cond1 i = 1#1) : k0_chk63 i (W1_62 c tb i h1) := fun _ => rows_inb _ (word_lt c tb htb _ _)
abbrev s1A_62 (htb : ∀ y, (tb y).toNat < 4096) (i : grid0.Coords) (h1 : k0_cond1 i = 1#1) : Memref sig .tc .hbm S8x1024 .f32 := srcM aM (k0_off126 (W1_62 c tb i h1)) (k0_off126_inb i _ (hw1_62 c tb htb i h1) h1)
abbrev s1B_62 (htb : ∀ y, (tb y).toNat < 4096) (i : grid0.Coords) (h1 : k0_cond1 i = 1#1) : Memref sig .tc .hbm S8x1024 .f32 := srcM bM (k0_off126 (W1_62 c tb i h1)) (k0_off126_inb i _ (hw1_62 c tb htb i h1) h1)
abbrev W1_63 (i : grid0.Coords) (h1 : k0_cond1 i = 1#1) : Elt F .i32 := wordAt c tb (k0_off127 i) (k0_off127_inb i h1)
theorem hw1_63 (htb : ∀ y, (tb y).toNat < 4096) (i : grid0.Coords) (h1 : k0_cond1 i = 1#1) : k0_chk64 i (W1_63 c tb i h1) := fun _ => rows_inb _ (word_lt c tb htb _ _)
abbrev s1A_63 (htb : ∀ y, (tb y).toNat < 4096) (i : grid0.Coords) (h1 : k0_cond1 i = 1#1) : Memref sig .tc .hbm S8x1024 .f32 := srcM aM (k0_off128 (W1_63 c tb i h1)) (k0_off128_inb i _ (hw1_63 c tb htb i h1) h1)
abbrev s1B_63 (htb : ∀ y, (tb y).toNat < 4096) (i : grid0.Coords) (h1 : k0_cond1 i = 1#1) : Memref sig .tc .hbm S8x1024 .f32 := srcM bM (k0_off128 (W1_63 c tb i h1)) (k0_off128_inb i _ (hw1_63 c tb htb i h1) h1)
/-- The deliveries of the 64 copies of array A (fetch 1) into slot s, in the order the copies are started. -/
def D1A (htb : ∀ y, (tb y).toNat < 4096) (i : grid0.Coords) (h1 : k0_cond1 i = 1#1) (s : Fin 2) : Fin 64 → sProp 𝕄
  | ⟨0, _⟩ => deliv c (s1A_0 c tb htb i h1) (rowM scA s ⟨0, Nat.le_of_ble_eq_true rfl⟩) (qTok s ⟨0, Nat.le_of_ble_eq_true rfl⟩) fa
  | ⟨1, _⟩ => deliv c (s1A_1 c tb htb i h1) (rowM scA s ⟨1, Nat.le_of_ble_eq_true rfl⟩) (qTok s ⟨1, Nat.le_of_ble_eq_true rfl⟩) fa
  | ⟨2, _⟩ => deliv c (s1A_2 c tb htb i h1) (rowM scA s ⟨2, Nat.le_of_ble_eq_true rfl⟩) (qTok s ⟨2, Nat.le_of_ble_eq_true rfl⟩) fa
  | ⟨3, _⟩ => deliv c (s1A_3 c tb htb i h1) (rowM scA s ⟨3, Nat.le_of_ble_eq_true rfl⟩) (qTok s ⟨3, Nat.le_of_ble_eq_true rfl⟩) fa
  | ⟨4, _⟩ => deliv c (s1A_4 c tb htb i h1) (rowM scA s ⟨4, Nat.le_of_ble_eq_true rfl⟩) (qTok s ⟨4, Nat.le_of_ble_eq_true rfl⟩) fa
  | ⟨5, _⟩ => deliv c (s1A_5 c tb htb i h1) (rowM scA s ⟨5, Nat.le_of_ble_eq_true rfl⟩) (qTok s ⟨5, Nat.le_of_ble_eq_true rfl⟩) fa
  | ⟨6, _⟩ => deliv c (s1A_6 c tb htb i h1) (rowM scA s ⟨6, Nat.le_of_ble_eq_true rfl⟩) (qTok s ⟨6, Nat.le_of_ble_eq_true rfl⟩) fa
  | ⟨7, _⟩ => deliv c (s1A_7 c tb htb i h1) (rowM scA s ⟨7, Nat.le_of_ble_eq_true rfl⟩) (qTok s ⟨7, Nat.le_of_ble_eq_true rfl⟩) fa
  | ⟨8, _⟩ => deliv c (s1A_8 c tb htb i h1) (rowM scA s ⟨8, Nat.le_of_ble_eq_true rfl⟩) (qTok s ⟨8, Nat.le_of_ble_eq_true rfl⟩) fa
  | ⟨9, _⟩ => deliv c (s1A_9 c tb htb i h1) (rowM scA s ⟨9, Nat.le_of_ble_eq_true rfl⟩) (qTok s ⟨9, Nat.le_of_ble_eq_true rfl⟩) fa
  | ⟨10, _⟩ => deliv c (s1A_10 c tb htb i h1) (rowM scA s ⟨10, Nat.le_of_ble_eq_true rfl⟩) (qTok s ⟨10, Nat.le_of_ble_eq_true rfl⟩) fa
  | ⟨11, _⟩ => deliv c (s1A_11 c tb htb i h1) (rowM scA s ⟨11, Nat.le_of_ble_eq_true rfl⟩) (qTok s ⟨11, Nat.le_of_ble_eq_true rfl⟩) fa
  | ⟨12, _⟩ => deliv c (s1A_12 c tb htb i h1) (rowM scA s ⟨12, Nat.le_of_ble_eq_true rfl⟩) (qTok s ⟨12, Nat.le_of_ble_eq_true rfl⟩) fa
  | ⟨13, _⟩ => deliv c (s1A_13 c tb htb i h1) (rowM scA s ⟨13, Nat.le_of_ble_eq_true rfl⟩) (qTok s ⟨13, Nat.le_of_ble_eq_true rfl⟩) fa
  | ⟨14, _⟩ => deliv c (s1A_14 c tb htb i h1) (rowM scA s ⟨14, Nat.le_of_ble_eq_true rfl⟩) (qTok s ⟨14, Nat.le_of_ble_eq_true rfl⟩) fa
  | ⟨15, _⟩ => deliv c (s1A_15 c tb htb i h1) (rowM scA s ⟨15, Nat.le_of_ble_eq_true rfl⟩) (qTok s ⟨15, Nat.le_of_ble_eq_true rfl⟩) fa
  | ⟨16, _⟩ => deliv c (s1A_16 c tb htb i h1) (rowM scA s ⟨16, Nat.le_of_ble_eq_true rfl⟩) (qTok s ⟨16, Nat.le_of_ble_eq_true rfl⟩) fa
  | ⟨17, _⟩ => deliv c (s1A_17 c tb htb i h1) (rowM scA s ⟨17, Nat.le_of_ble_eq_true rfl⟩) (qTok s ⟨17, Nat.le_of_ble_eq_true rfl⟩) fa
  | ⟨18, _⟩ => deliv c (s1A_18 c tb htb i h1) (rowM scA s ⟨18, Nat.le_of_ble_eq_true rfl⟩) (qTok s ⟨18, Nat.le_of_ble_eq_true rfl⟩) fa
  | ⟨19, _⟩ => deliv c (s1A_19 c tb htb i h1) (rowM scA s ⟨19, Nat.le_of_ble_eq_true rfl⟩) (qTok s ⟨19, Nat.le_of_ble_eq_true rfl⟩) fa
  | ⟨20, _⟩ => deliv c (s1A_20 c tb htb i h1) (rowM scA s ⟨20, Nat.le_of_ble_eq_true rfl⟩) (qTok s ⟨20, Nat.le_of_ble_eq_true rfl⟩) fa
  | ⟨21, _⟩ => deliv c (s1A_21 c tb htb i h1) (rowM scA s ⟨21, Nat.le_of_ble_eq_true rfl⟩) (qTok s ⟨21, Nat.le_of_ble_eq_true rfl⟩) fa
  | ⟨22, _⟩ => deliv c (s1A_22 c tb htb i h1) (rowM scA s ⟨22, Nat.le_of_ble_eq_true rfl⟩) (qTok s ⟨22, Nat.le_of_ble_eq_true rfl⟩) fa
  | ⟨23, _⟩ => deliv c (s1A_23 c tb htb i h1) (rowM scA s ⟨23, Nat.le_of_ble_eq_true rfl⟩) (qTok s ⟨23, Nat.le_of_ble_eq_true rfl⟩) fa
  | ⟨24, _⟩ => deliv c (s1A_24 c tb htb i h1) (rowM scA s ⟨24, Nat.le_of_ble_eq_true rfl⟩) (qTok s ⟨24, Nat.le_of_ble_eq_true rfl⟩) fa
  | ⟨25, _⟩ => deliv c (s1A_25 c tb htb i h1) (rowM scA s ⟨25, Nat.le_of_ble_eq_true rfl⟩) (qTok s ⟨25, Nat.le_of_ble_eq_true rfl⟩) fa
  | ⟨26, _⟩ => deliv c (s1A_26 c tb htb i h1) (rowM scA s ⟨26, Nat.le_of_ble_eq_true rfl⟩) (qTok s ⟨26, Nat.le_of_ble_eq_true rfl⟩) fa
  | ⟨27, _⟩ => deliv c (s1A_27 c tb htb i h1) (rowM scA s ⟨27, Nat.le_of_ble_eq_true rfl⟩) (qTok s ⟨27, Nat.le_of_ble_eq_true rfl⟩) fa
  | ⟨28, _⟩ => deliv c (s1A_28 c tb htb i h1) (rowM scA s ⟨28, Nat.le_of_ble_eq_true rfl⟩) (qTok s ⟨28, Nat.le_of_ble_eq_true rfl⟩) fa
  | ⟨29, _⟩ => deliv c (s1A_29 c tb htb i h1) (rowM scA s ⟨29, Nat.le_of_ble_eq_true rfl⟩) (qTok s ⟨29, Nat.le_of_ble_eq_true rfl⟩) fa
  | ⟨30, _⟩ => deliv c (s1A_30 c tb htb i h1) (rowM scA s ⟨30, Nat.le_of_ble_eq_true rfl⟩) (qTok s ⟨30, Nat.le_of_ble_eq_true rfl⟩) fa
  | ⟨31, _⟩ => deliv c (s1A_31 c tb htb i h1) (rowM scA s ⟨31, Nat.le_of_ble_eq_true rfl⟩) (qTok s ⟨31, Nat.le_of_ble_eq_true rfl⟩) fa
  | ⟨32, _⟩ => deliv c (s1A_32 c tb htb i h1) (rowM scA s ⟨32, Nat.le_of_ble_eq_true rfl⟩) (qTok s ⟨32, Nat.le_of_ble_eq_true rfl⟩) fa
  | ⟨33, _⟩ => deliv c (s1A_33 c tb htb i h1) (rowM scA s ⟨33, Nat.le_of_ble_eq_true rfl⟩) (qTok s ⟨33, Nat.le_of_ble_eq_true rfl⟩) fa
  | ⟨34, _⟩ => deliv c (s1A_34 c tb htb i h1) (rowM scA s ⟨34, Nat.le_of_ble_eq_true rfl⟩) (qTok s ⟨34, Nat.le_of_ble_eq_true rfl⟩) fa
  | ⟨35, _⟩ => deliv c (s1A_35 c tb htb i h1) (rowM scA s ⟨35, Nat.le_of_ble_eq_true rfl⟩) (qTok s ⟨35, Nat.le_of_ble_eq_true rfl⟩) fa
  | ⟨36, _⟩ => deliv c (s1A_36 c tb htb i h1) (rowM scA s ⟨36, Nat.le_of_ble_eq_true rfl⟩) (qTok s ⟨36, Nat.le_of_ble_eq_true rfl⟩) fa
  | ⟨37, _⟩ => deliv c (s1A_37 c tb htb i h1) (rowM scA s ⟨37, Nat.le_of_ble_eq_true rfl⟩) (qTok s ⟨37, Nat.le_of_ble_eq_true rfl⟩) fa
  | ⟨38, _⟩ => deliv c (s1A_38 c tb htb i h1) (rowM scA s ⟨38, Nat.le_of_ble_eq_true rfl⟩) (qTok s ⟨38, Nat.le_of_ble_eq_true rfl⟩) fa
  | ⟨39, _⟩ => deliv c (s1A_39 c tb htb i h1) (rowM scA s ⟨39, Nat.le_of_ble_eq_true rfl⟩) (qTok s ⟨39, Nat.le_of_ble_eq_true rfl⟩) fa
  | ⟨40, _⟩ => deliv c (s1A_40 c tb htb i h1) (rowM scA s ⟨40, Nat.le_of_ble_eq_true rfl⟩) (qTok s ⟨40, Nat.le_of_ble_eq_true rfl⟩) fa
  | ⟨41, _⟩ => deliv c (s1A_41 c tb htb i h1) (rowM scA s ⟨41, Nat.le_of_ble_eq_true rfl⟩) (qTok s ⟨41, Nat.le_of_ble_eq_true rfl⟩) fa
  | ⟨42, _⟩ => deliv c (s1A_42 c tb htb i h1) (rowM scA s ⟨42, Nat.le_of_ble_eq_true rfl⟩) (qTok s ⟨42, Nat.le_of_ble_eq_true rfl⟩) fa
  | ⟨43, _⟩ => deliv c (s1A_43 c tb htb i h1) (rowM scA s ⟨43, Nat.le_of_ble_eq_true rfl⟩) (qTok s ⟨43, Nat.le_of_ble_eq_true rfl⟩) fa
  | ⟨44, _⟩ => deliv c (s1A_44 c tb htb i h1) (rowM scA s ⟨44, Nat.le_of_ble_eq_true rfl⟩) (qTok s ⟨44, Nat.le_of_ble_eq_true rfl⟩) fa
  | ⟨45, _⟩ => deliv c (s1A_45 c tb htb i h1) (rowM scA s ⟨45, Nat.le_of_ble_eq_true rfl⟩) (qTok s ⟨45, Nat.le_of_ble_eq_true rfl⟩) fa
  | ⟨46, _⟩ => deliv c (s1A_46 c tb htb i h1) (rowM scA s ⟨46, Nat.le_of_ble_eq_true rfl⟩) (qTok s ⟨46, Nat.le_of_ble_eq_true rfl⟩) fa
  | ⟨47, _⟩ => deliv c (s1A_47 c tb htb i h1) (rowM scA s ⟨47, Nat.le_of_ble_eq_true rfl⟩) (qTok s ⟨47, Nat.le_of_ble_eq_true rfl⟩) fa
  | ⟨48, _⟩ => deliv c (s1A_48 c tb htb i h1) (rowM scA s ⟨48, Nat.le_of_ble_eq_true rfl⟩) (qTok s ⟨48, Nat.le_of_ble_eq_true rfl⟩) fa
  | ⟨49, _⟩ => deliv c (s1A_49 c tb htb i h1) (rowM scA s ⟨49, Nat.le_of_ble_eq_true rfl⟩) (qTok s ⟨49, Nat.le_of_ble_eq_true rfl⟩) fa
  | ⟨50, _⟩ => deliv c (s1A_50 c tb htb i h1) (rowM scA s ⟨50, Nat.le_of_ble_eq_true rfl⟩) (qTok s ⟨50, Nat.le_of_ble_eq_true rfl⟩) fa
  | ⟨51, _⟩ => deliv c (s1A_51 c tb htb i h1) (rowM scA s ⟨51, Nat.le_of_ble_eq_true rfl⟩) (qTok s ⟨51, Nat.le_of_ble_eq_true rfl⟩) fa
  | ⟨52, _⟩ => deliv c (s1A_52 c tb htb i h1) (rowM scA s ⟨52, Nat.le_of_ble_eq_true rfl⟩) (qTok s ⟨52, Nat.le_of_ble_eq_true rfl⟩) fa
  | ⟨53, _⟩ => deliv c (s1A_53 c tb htb i h1) (rowM scA s ⟨53, Nat.le_of_ble_eq_true rfl⟩) (qTok s ⟨53, Nat.le_of_ble_eq_true rfl⟩) fa
  | ⟨54, _⟩ => deliv c (s1A_54 c tb htb i h1) (rowM scA s ⟨54, Nat.le_of_ble_eq_true rfl⟩) (qTok s ⟨54, Nat.le_of_ble_eq_true rfl⟩) fa
  | ⟨55, _⟩ => deliv c (s1A_55 c tb htb i h1) (rowM scA s ⟨55, Nat.le_of_ble_eq_true rfl⟩) (qTok s ⟨55, Nat.le_of_ble_eq_true rfl⟩) fa
  | ⟨56, _⟩ => deliv c (s1A_56 c tb htb i h1) (rowM scA s ⟨56, Nat.le_of_ble_eq_true rfl⟩) (qTok s ⟨56, Nat.le_of_ble_eq_true rfl⟩) fa
  | ⟨57, _⟩ => deliv c (s1A_57 c tb htb i h1) (rowM scA s ⟨57, Nat.le_of_ble_eq_true rfl⟩) (qTok s ⟨57, Nat.le_of_ble_eq_true rfl⟩) fa
  | ⟨58, _⟩ => deliv c (s1A_58 c tb htb i h1) (rowM scA s ⟨58, Nat.le_of_ble_eq_true rfl⟩) (qTok s ⟨58, Nat.le_of_ble_eq_true rfl⟩) fa
  | ⟨59, _⟩ => deliv c (s1A_59 c tb htb i h1) (rowM scA s ⟨59, Nat.le_of_ble_eq_true rfl⟩) (qTok s ⟨59, Nat.le_of_ble_eq_true rfl⟩) fa
  | ⟨60, _⟩ => deliv c (s1A_60 c tb htb i h1) (rowM scA s ⟨60, Nat.le_of_ble_eq_true rfl⟩) (qTok s ⟨60, Nat.le_of_ble_eq_true rfl⟩) fa
  | ⟨61, _⟩ => deliv c (s1A_61 c tb htb i h1) (rowM scA s ⟨61, Nat.le_of_ble_eq_true rfl⟩) (qTok s ⟨61, Nat.le_of_ble_eq_true rfl⟩) fa
  | ⟨62, _⟩ => deliv c (s1A_62 c tb htb i h1) (rowM scA s ⟨62, Nat.le_of_ble_eq_true rfl⟩) (qTok s ⟨62, Nat.le_of_ble_eq_true rfl⟩) fa
  | ⟨63, _⟩ => deliv c (s1A_63 c tb htb i h1) (rowM scA s ⟨63, Nat.le_of_ble_eq_true rfl⟩) (qTok s ⟨63, Nat.le_of_ble_eq_true rfl⟩) fa
  | ⟨_ + 64, h⟩ => absurd h (Nat.not_lt.2 (Nat.le_add_left _ _))
/-- What is left of each of slot s's read shares of array A while its array row is lent to copy r. -/
def R1A (htb : ∀ y, (tb y).toNat < 4096) (i : grid0.Coords) (h1 : k0_cond1 i = 1#1) (s : Fin 2) : Fin 64 → sProp 𝕄
  | ⟨0, _⟩ => (aM.view.loc (c : Thread nD τ) ↦[Finset.univ \ (s1A_0 c tb htb i h1).view.set]{qTok s ⟨0, Nat.le_of_ble_eq_true rfl⟩} fa)
  | ⟨1, _⟩ => (aM.view.loc (c : Thread nD τ) ↦[Finset.univ \ (s1A_1 c tb htb i h1).view.set]{qTok s ⟨1, Nat.le_of_ble_eq_true rfl⟩} fa)
  | ⟨2, _⟩ => (aM.view.loc (c : Thread nD τ) ↦[Finset.univ \ (s1A_2 c tb htb i h1).view.set]{qTok s ⟨2, Nat.le_of_ble_eq_true rfl⟩} fa)
  | ⟨3, _⟩ => (aM.view.loc (c : Thread nD τ) ↦[Finset.univ \ (s1A_3 c tb htb i h1).view.set]{qTok s ⟨3, Nat.le_of_ble_eq_true rfl⟩} fa)
  | ⟨4, _⟩ => (aM.view.loc (c : Thread nD τ) ↦[Finset.univ \ (s1A_4 c tb htb i h1).view.set]{qTok s ⟨4, Nat.le_of_ble_eq_true rfl⟩} fa)
  | ⟨5, _⟩ => (aM.view.loc (c : Thread nD τ) ↦[Finset.univ \ (s1A_5 c tb htb i h1).view.set]{qTok s ⟨5, Nat.le_of_ble_eq_true rfl⟩} fa)
  | ⟨6, _⟩ => (aM.view.loc (c : Thread nD τ) ↦[Finset.univ \ (s1A_6 c tb htb i h1).view.set]{qTok s ⟨6, Nat.le_of_ble_eq_true rfl⟩} fa)
  | ⟨7, _⟩ => (aM.view.loc (c : Thread nD τ) ↦[Finset.univ \ (s1A_7 c tb htb i h1).view.set]{qTok s ⟨7, Nat.le_of_ble_eq_true rfl⟩} fa)
  | ⟨8, _⟩ => (aM.view.loc (c : Thread nD τ) ↦[Finset.univ \ (s1A_8 c tb htb i h1).view.set]{qTok s ⟨8, Nat.le_of_ble_eq_true rfl⟩} fa)
  | ⟨9, _⟩ => (aM.view.loc (c : Thread nD τ) ↦[Finset.univ \ (s1A_9 c tb htb i h1).view.set]{qTok s ⟨9, Nat.le_of_ble_eq_true rfl⟩} fa)
  | ⟨10, _⟩ => (aM.view.loc (c : Thread nD τ) ↦[Finset.univ \ (s1A_10 c tb htb i h1).view.set]{qTok s ⟨10, Nat.le_of_ble_eq_true rfl⟩} fa)
  | ⟨11, _⟩ => (aM.view.loc (c : Thread nD τ) ↦[Finset.univ \ (s1A_11 c tb htb i h1).view.set]{qTok s ⟨11, Nat.le_of_ble_eq_true rfl⟩} fa)
  | ⟨12, _⟩ => (aM.view.loc (c : Thread nD τ) ↦[Finset.univ \ (s1A_12 c tb htb i h1).view.set]{qTok s ⟨12, Nat.le_of_ble_eq_true rfl⟩} fa)
  | ⟨13, _⟩ => (aM.view.loc (c : Thread nD τ) ↦[Finset.univ \ (s1A_13 c tb htb i h1).view.set]{qTok s ⟨13, Nat.le_of_ble_eq_true rfl⟩} fa)
  | ⟨14, _⟩ => (aM.view.loc (c : Thread nD τ) ↦[Finset.univ \ (s1A_14 c tb htb i h1).view.set]{qTok s ⟨14, Nat.le_of_ble_eq_true rfl⟩} fa)
  | ⟨15, _⟩ => (aM.view.loc (c : Thread nD τ) ↦[Finset.univ \ (s1A_15 c tb htb i h1).view.set]{qTok s ⟨15, Nat.le_of_ble_eq_true rfl⟩} fa)
  | ⟨16, _⟩ => (aM.view.loc (c : Thread nD τ) ↦[Finset.univ \ (s1A_16 c tb htb i h1).view.set]{qTok s ⟨16, Nat.le_of_ble_eq_true rfl⟩} fa)
  | ⟨17, _⟩ => (aM.view.loc (c : Thread nD τ) ↦[Finset.univ \ (s1A_17 c tb htb i h1).view.set]{qTok s ⟨17, Nat.le_of_ble_eq_true rfl⟩} fa)
  | ⟨18, _⟩ => (aM.view.loc (c : Thread nD τ) ↦[Finset.univ \ (s1A_18 c tb htb i h1).view.set]{qTok s ⟨18, Nat.le_of_ble_eq_true rfl⟩} fa)
  | ⟨19, _⟩ => (aM.view.loc (c : Thread nD τ) ↦[Finset.univ \ (s1A_19 c tb htb i h1).view.set]{qTok s ⟨19, Nat.le_of_ble_eq_true rfl⟩} fa)
  | ⟨20, _⟩ => (aM.view.loc (c : Thread nD τ) ↦[Finset.univ \ (s1A_20 c tb htb i h1).view.set]{qTok s ⟨20, Nat.le_of_ble_eq_true rfl⟩} fa)
  | ⟨21, _⟩ => (aM.view.loc (c : Thread nD τ) ↦[Finset.univ \ (s1A_21 c tb htb i h1).view.set]{qTok s ⟨21, Nat.le_of_ble_eq_true rfl⟩} fa)
  | ⟨22, _⟩ => (aM.view.loc (c : Thread nD τ) ↦[Finset.univ \ (s1A_22 c tb htb i h1).view.set]{qTok s ⟨22, Nat.le_of_ble_eq_true rfl⟩} fa)
  | ⟨23, _⟩ => (aM.view.loc (c : Thread nD τ) ↦[Finset.univ \ (s1A_23 c tb htb i h1).view.set]{qTok s ⟨23, Nat.le_of_ble_eq_true rfl⟩} fa)
  | ⟨24, _⟩ => (aM.view.loc (c : Thread nD τ) ↦[Finset.univ \ (s1A_24 c tb htb i h1).view.set]{qTok s ⟨24, Nat.le_of_ble_eq_true rfl⟩} fa)
  | ⟨25, _⟩ => (aM.view.loc (c : Thread nD τ) ↦[Finset.univ \ (s1A_25 c tb htb i h1).view.set]{qTok s ⟨25, Nat.le_of_ble_eq_true rfl⟩} fa)
  | ⟨26, _⟩ => (aM.view.loc (c : Thread nD τ) ↦[Finset.univ \ (s1A_26 c tb htb i h1).view.set]{qTok s ⟨26, Nat.le_of_ble_eq_true rfl⟩} fa)
  | ⟨27, _⟩ => (aM.view.loc (c : Thread nD τ) ↦[Finset.univ \ (s1A_27 c tb htb i h1).view.set]{qTok s ⟨27, Nat.le_of_ble_eq_true rfl⟩} fa)
  | ⟨28, _⟩ => (aM.view.loc (c : Thread nD τ) ↦[Finset.univ \ (s1A_28 c tb htb i h1).view.set]{qTok s ⟨28, Nat.le_of_ble_eq_true rfl⟩} fa)
  | ⟨29, _⟩ => (aM.view.loc (c : Thread nD τ) ↦[Finset.univ \ (s1A_29 c tb htb i h1).view.set]{qTok s ⟨29, Nat.le_of_ble_eq_true rfl⟩} fa)
  | ⟨30, _⟩ => (aM.view.loc (c : Thread nD τ) ↦[Finset.univ \ (s1A_30 c tb htb i h1).view.set]{qTok s ⟨30, Nat.le_of_ble_eq_true rfl⟩} fa)
  | ⟨31, _⟩ => (aM.view.loc (c : Thread nD τ) ↦[Finset.univ \ (s1A_31 c tb htb i h1).view.set]{qTok s ⟨31, Nat.le_of_ble_eq_true rfl⟩} fa)
  | ⟨32, _⟩ => (aM.view.loc (c : Thread nD τ) ↦[Finset.univ \ (s1A_32 c tb htb i h1).view.set]{qTok s ⟨32, Nat.le_of_ble_eq_true rfl⟩} fa)
  | ⟨33, _⟩ => (aM.view.loc (c : Thread nD τ) ↦[Finset.univ \ (s1A_33 c tb htb i h1).view.set]{qTok s ⟨33, Nat.le_of_ble_eq_true rfl⟩} fa)
  | ⟨34, _⟩ => (aM.view.loc (c : Thread nD τ) ↦[Finset.univ \ (s1A_34 c tb htb i h1).view.set]{qTok s ⟨34, Nat.le_of_ble_eq_true rfl⟩} fa)
  | ⟨35, _⟩ => (aM.view.loc (c : Thread nD τ) ↦[Finset.univ \ (s1A_35 c tb htb i h1).view.set]{qTok s ⟨35, Nat.le_of_ble_eq_true rfl⟩} fa)
  | ⟨36, _⟩ => (aM.view.loc (c : Thread nD τ) ↦[Finset.univ \ (s1A_36 c tb htb i h1).view.set]{qTok s ⟨36, Nat.le_of_ble_eq_true rfl⟩} fa)
  | ⟨37, _⟩ => (aM.view.loc (c : Thread nD τ) ↦[Finset.univ \ (s1A_37 c tb htb i h1).view.set]{qTok s ⟨37, Nat.le_of_ble_eq_true rfl⟩} fa)
  | ⟨38, _⟩ => (aM.view.loc (c : Thread nD τ) ↦[Finset.univ \ (s1A_38 c tb htb i h1).view.set]{qTok s ⟨38, Nat.le_of_ble_eq_true rfl⟩} fa)
  | ⟨39, _⟩ => (aM.view.loc (c : Thread nD τ) ↦[Finset.univ \ (s1A_39 c tb htb i h1).view.set]{qTok s ⟨39, Nat.le_of_ble_eq_true rfl⟩} fa)
  | ⟨40, _⟩ => (aM.view.loc (c : Thread nD τ) ↦[Finset.univ \ (s1A_40 c tb htb i h1).view.set]{qTok s ⟨40, Nat.le_of_ble_eq_true rfl⟩} fa)
  | ⟨41, _⟩ => (aM.view.loc (c : Thread nD τ) ↦[Finset.univ \ (s1A_41 c tb htb i h1).view.set]{qTok s ⟨41, Nat.le_of_ble_eq_true rfl⟩} fa)
  | ⟨42, _⟩ => (aM.view.loc (c : Thread nD τ) ↦[Finset.univ \ (s1A_42 c tb htb i h1).view.set]{qTok s ⟨42, Nat.le_of_ble_eq_true rfl⟩} fa)
  | ⟨43, _⟩ => (aM.view.loc (c : Thread nD τ) ↦[Finset.univ \ (s1A_43 c tb htb i h1).view.set]{qTok s ⟨43, Nat.le_of_ble_eq_true rfl⟩} fa)
  | ⟨44, _⟩ => (aM.view.loc (c : Thread nD τ) ↦[Finset.univ \ (s1A_44 c tb htb i h1).view.set]{qTok s ⟨44, Nat.le_of_ble_eq_true rfl⟩} fa)
  | ⟨45, _⟩ => (aM.view.loc (c : Thread nD τ) ↦[Finset.univ \ (s1A_45 c tb htb i h1).view.set]{qTok s ⟨45, Nat.le_of_ble_eq_true rfl⟩} fa)
  | ⟨46, _⟩ => (aM.view.loc (c : Thread nD τ) ↦[Finset.univ \ (s1A_46 c tb htb i h1).view.set]{qTok s ⟨46, Nat.le_of_ble_eq_true rfl⟩} fa)
  | ⟨47, _⟩ => (aM.view.loc (c : Thread nD τ) ↦[Finset.univ \ (s1A_47 c tb htb i h1).view.set]{qTok s ⟨47, Nat.le_of_ble_eq_true rfl⟩} fa)
  | ⟨48, _⟩ => (aM.view.loc (c : Thread nD τ) ↦[Finset.univ \ (s1A_48 c tb htb i h1).view.set]{qTok s ⟨48, Nat.le_of_ble_eq_true rfl⟩} fa)
  | ⟨49, _⟩ => (aM.view.loc (c : Thread nD τ) ↦[Finset.univ \ (s1A_49 c tb htb i h1).view.set]{qTok s ⟨49, Nat.le_of_ble_eq_true rfl⟩} fa)
  | ⟨50, _⟩ => (aM.view.loc (c : Thread nD τ) ↦[Finset.univ \ (s1A_50 c tb htb i h1).view.set]{qTok s ⟨50, Nat.le_of_ble_eq_true rfl⟩} fa)
  | ⟨51, _⟩ => (aM.view.loc (c : Thread nD τ) ↦[Finset.univ \ (s1A_51 c tb htb i h1).view.set]{qTok s ⟨51, Nat.le_of_ble_eq_true rfl⟩} fa)
  | ⟨52, _⟩ => (aM.view.loc (c : Thread nD τ) ↦[Finset.univ \ (s1A_52 c tb htb i h1).view.set]{qTok s ⟨52, Nat.le_of_ble_eq_true rfl⟩} fa)
  | ⟨53, _⟩ => (aM.view.loc (c : Thread nD τ) ↦[Finset.univ \ (s1A_53 c tb htb i h1).view.set]{qTok s ⟨53, Nat.le_of_ble_eq_true rfl⟩} fa)
  | ⟨54, _⟩ => (aM.view.loc (c : Thread nD τ) ↦[Finset.univ \ (s1A_54 c tb htb i h1).view.set]{qTok s ⟨54, Nat.le_of_ble_eq_true rfl⟩} fa)
  | ⟨55, _⟩ => (aM.view.loc (c : Thread nD τ) ↦[Finset.univ \ (s1A_55 c tb htb i h1).view.set]{qTok s ⟨55, Nat.le_of_ble_eq_true rfl⟩} fa)
  | ⟨56, _⟩ => (aM.view.loc (c : Thread nD τ) ↦[Finset.univ \ (s1A_56 c tb htb i h1).view.set]{qTok s ⟨56, Nat.le_of_ble_eq_true rfl⟩} fa)
  | ⟨57, _⟩ => (aM.view.loc (c : Thread nD τ) ↦[Finset.univ \ (s1A_57 c tb htb i h1).view.set]{qTok s ⟨57, Nat.le_of_ble_eq_true rfl⟩} fa)
  | ⟨58, _⟩ => (aM.view.loc (c : Thread nD τ) ↦[Finset.univ \ (s1A_58 c tb htb i h1).view.set]{qTok s ⟨58, Nat.le_of_ble_eq_true rfl⟩} fa)
  | ⟨59, _⟩ => (aM.view.loc (c : Thread nD τ) ↦[Finset.univ \ (s1A_59 c tb htb i h1).view.set]{qTok s ⟨59, Nat.le_of_ble_eq_true rfl⟩} fa)
  | ⟨60, _⟩ => (aM.view.loc (c : Thread nD τ) ↦[Finset.univ \ (s1A_60 c tb htb i h1).view.set]{qTok s ⟨60, Nat.le_of_ble_eq_true rfl⟩} fa)
  | ⟨61, _⟩ => (aM.view.loc (c : Thread nD τ) ↦[Finset.univ \ (s1A_61 c tb htb i h1).view.set]{qTok s ⟨61, Nat.le_of_ble_eq_true rfl⟩} fa)
  | ⟨62, _⟩ => (aM.view.loc (c : Thread nD τ) ↦[Finset.univ \ (s1A_62 c tb htb i h1).view.set]{qTok s ⟨62, Nat.le_of_ble_eq_true rfl⟩} fa)
  | ⟨63, _⟩ => (aM.view.loc (c : Thread nD τ) ↦[Finset.univ \ (s1A_63 c tb htb i h1).view.set]{qTok s ⟨63, Nat.le_of_ble_eq_true rfl⟩} fa)
  | ⟨_ + 64, h⟩ => absurd h (Nat.not_lt.2 (Nat.le_add_left _ _))
/-- What each row of slot s holds once copy r of array A (fetch 1) has landed. -/
def L1A (htb : ∀ y, (tb y).toNat < 4096) (i : grid0.Coords) (h1 : k0_cond1 i = 1#1) (s : Fin 2) : Fin 64 → MBuf (F := F) c scA
  | ⟨0, _⟩ => landedJ c (s1A_0 c tb htb i h1) (rowM scA s ⟨0, Nat.le_of_ble_eq_true rfl⟩) fa
  | ⟨1, _⟩ => landedJ c (s1A_1 c tb htb i h1) (rowM scA s ⟨1, Nat.le_of_ble_eq_true rfl⟩) fa
  | ⟨2, _⟩ => landedJ c (s1A_2 c tb htb i h1) (rowM scA s ⟨2, Nat.le_of_ble_eq_true rfl⟩) fa
  | ⟨3, _⟩ => landedJ c (s1A_3 c tb htb i h1) (rowM scA s ⟨3, Nat.le_of_ble_eq_true rfl⟩) fa
  | ⟨4, _⟩ => landedJ c (s1A_4 c tb htb i h1) (rowM scA s ⟨4, Nat.le_of_ble_eq_true rfl⟩) fa
  | ⟨5, _⟩ => landedJ c (s1A_5 c tb htb i h1) (rowM scA s ⟨5, Nat.le_of_ble_eq_true rfl⟩) fa
  | ⟨6, _⟩ => landedJ c (s1A_6 c tb htb i h1) (rowM scA s ⟨6, Nat.le_of_ble_eq_true rfl⟩) fa
  | ⟨7, _⟩ => landedJ c (s1A_7 c tb htb i h1) (rowM scA s ⟨7, Nat.le_of_ble_eq_true rfl⟩) fa
  | ⟨8, _⟩ => landedJ c (s1A_8 c tb htb i h1) (rowM scA s ⟨8, Nat.le_of_ble_eq_true rfl⟩) fa
  | ⟨9, _⟩ => landedJ c (s1A_9 c tb htb i h1) (rowM scA s ⟨9, Nat.le_of_ble_eq_true rfl⟩) fa
  | ⟨10, _⟩ => landedJ c (s1A_10 c tb htb i h1) (rowM scA s ⟨10, Nat.le_of_ble_eq_true rfl⟩) fa
  | ⟨11, _⟩ => landedJ c (s1A_11 c tb htb i h1) (rowM scA s ⟨11, Nat.le_of_ble_eq_true rfl⟩) fa
  | ⟨12, _⟩ => landedJ c (s1A_12 c tb htb i h1) (rowM scA s ⟨12, Nat.le_of_ble_eq_true rfl⟩) fa
  | ⟨13, _⟩ => landedJ c (s1A_13 c tb htb i h1) (rowM scA s ⟨13, Nat.le_of_ble_eq_true rfl⟩) fa
  | ⟨14, _⟩ => landedJ c (s1A_14 c tb htb i h1) (rowM scA s ⟨14, Nat.le_of_ble_eq_true rfl⟩) fa
  | ⟨15, _⟩ => landedJ c (s1A_15 c tb htb i h1) (rowM scA s ⟨15, Nat.le_of_ble_eq_true rfl⟩) fa
  | ⟨16, _⟩ => landedJ c (s1A_16 c tb htb i h1) (rowM scA s ⟨16, Nat.le_of_ble_eq_true rfl⟩) fa
  | ⟨17, _⟩ => landedJ c (s1A_17 c tb htb i h1) (rowM scA s ⟨17, Nat.le_of_ble_eq_true rfl⟩) fa
  | ⟨18, _⟩ => landedJ c (s1A_18 c tb htb i h1) (rowM scA s ⟨18, Nat.le_of_ble_eq_true rfl⟩) fa
  | ⟨19, _⟩ => landedJ c (s1A_19 c tb htb i h1) (rowM scA s ⟨19, Nat.le_of_ble_eq_true rfl⟩) fa
  | ⟨20, _⟩ => landedJ c (s1A_20 c tb htb i h1) (rowM scA s ⟨20, Nat.le_of_ble_eq_true rfl⟩) fa
  | ⟨21, _⟩ => landedJ c (s1A_21 c tb htb i h1) (rowM scA s ⟨21, Nat.le_of_ble_eq_true rfl⟩) fa
  | ⟨22, _⟩ => landedJ c (s1A_22 c tb htb i h1) (rowM scA s ⟨22, Nat.le_of_ble_eq_true rfl⟩) fa
  | ⟨23, _⟩ => landedJ c (s1A_23 c tb htb i h1) (rowM scA s ⟨23, Nat.le_of_ble_eq_true rfl⟩) fa
  | ⟨24, _⟩ => landedJ c (s1A_24 c tb htb i h1) (rowM scA s ⟨24, Nat.le_of_ble_eq_true rfl⟩) fa
  | ⟨25, _⟩ => landedJ c (s1A_25 c tb htb i h1) (rowM scA s ⟨25, Nat.le_of_ble_eq_true rfl⟩) fa
  | ⟨26, _⟩ => landedJ c (s1A_26 c tb htb i h1) (rowM scA s ⟨26, Nat.le_of_ble_eq_true rfl⟩) fa
  | ⟨27, _⟩ => landedJ c (s1A_27 c tb htb i h1) (rowM scA s ⟨27, Nat.le_of_ble_eq_true rfl⟩) fa
  | ⟨28, _⟩ => landedJ c (s1A_28 c tb htb i h1) (rowM scA s ⟨28, Nat.le_of_ble_eq_true rfl⟩) fa
  | ⟨29, _⟩ => landedJ c (s1A_29 c tb htb i h1) (rowM scA s ⟨29, Nat.le_of_ble_eq_true rfl⟩) fa
  | ⟨30, _⟩ => landedJ c (s1A_30 c tb htb i h1) (rowM scA s ⟨30, Nat.le_of_ble_eq_true rfl⟩) fa
  | ⟨31, _⟩ => landedJ c (s1A_31 c tb htb i h1) (rowM scA s ⟨31, Nat.le_of_ble_eq_true rfl⟩) fa
  | ⟨32, _⟩ => landedJ c (s1A_32 c tb htb i h1) (rowM scA s ⟨32, Nat.le_of_ble_eq_true rfl⟩) fa
  | ⟨33, _⟩ => landedJ c (s1A_33 c tb htb i h1) (rowM scA s ⟨33, Nat.le_of_ble_eq_true rfl⟩) fa
  | ⟨34, _⟩ => landedJ c (s1A_34 c tb htb i h1) (rowM scA s ⟨34, Nat.le_of_ble_eq_true rfl⟩) fa
  | ⟨35, _⟩ => landedJ c (s1A_35 c tb htb i h1) (rowM scA s ⟨35, Nat.le_of_ble_eq_true rfl⟩) fa
  | ⟨36, _⟩ => landedJ c (s1A_36 c tb htb i h1) (rowM scA s ⟨36, Nat.le_of_ble_eq_true rfl⟩) fa
  | ⟨37, _⟩ => landedJ c (s1A_37 c tb htb i h1) (rowM scA s ⟨37, Nat.le_of_ble_eq_true rfl⟩) fa
  | ⟨38, _⟩ => landedJ c (s1A_38 c tb htb i h1) (rowM scA s ⟨38, Nat.le_of_ble_eq_true rfl⟩) fa
  | ⟨39, _⟩ => landedJ c (s1A_39 c tb htb i h1) (rowM scA s ⟨39, Nat.le_of_ble_eq_true rfl⟩) fa
  | ⟨40, _⟩ => landedJ c (s1A_40 c tb htb i h1) (rowM scA s ⟨40, Nat.le_of_ble_eq_true rfl⟩) fa
  | ⟨41, _⟩ => landedJ c (s1A_41 c tb htb i h1) (rowM scA s ⟨41, Nat.le_of_ble_eq_true rfl⟩) fa
  | ⟨42, _⟩ => landedJ c (s1A_42 c tb htb i h1) (rowM scA s ⟨42, Nat.le_of_ble_eq_true rfl⟩) fa
  | ⟨43, _⟩ => landedJ c (s1A_43 c tb htb i h1) (rowM scA s ⟨43, Nat.le_of_ble_eq_true rfl⟩) fa
  | ⟨44, _⟩ => landedJ c (s1A_44 c tb htb i h1) (rowM scA s ⟨44, Nat.le_of_ble_eq_true rfl⟩) fa
  | ⟨45, _⟩ => landedJ c (s1A_45 c tb htb i h1) (rowM scA s ⟨45, Nat.le_of_ble_eq_true rfl⟩) fa
  | ⟨46, _⟩ => landedJ c (s1A_46 c tb htb i h1) (rowM scA s ⟨46, Nat.le_of_ble_eq_true rfl⟩) fa
  | ⟨47, _⟩ => landedJ c (s1A_47 c tb htb i h1) (rowM scA s ⟨47, Nat.le_of_ble_eq_true rfl⟩) fa
  | ⟨48, _⟩ => landedJ c (s1A_48 c tb htb i h1) (rowM scA s ⟨48, Nat.le_of_ble_eq_true rfl⟩) fa
  | ⟨49, _⟩ => landedJ c (s1A_49 c tb htb i h1) (rowM scA s ⟨49, Nat.le_of_ble_eq_true rfl⟩) fa
  | ⟨50, _⟩ => landedJ c (s1A_50 c tb htb i h1) (rowM scA s ⟨50, Nat.le_of_ble_eq_true rfl⟩) fa
  | ⟨51, _⟩ => landedJ c (s1A_51 c tb htb i h1) (rowM scA s ⟨51, Nat.le_of_ble_eq_true rfl⟩) fa
  | ⟨52, _⟩ => landedJ c (s1A_52 c tb htb i h1) (rowM scA s ⟨52, Nat.le_of_ble_eq_true rfl⟩) fa
  | ⟨53, _⟩ => landedJ c (s1A_53 c tb htb i h1) (rowM scA s ⟨53, Nat.le_of_ble_eq_true rfl⟩) fa
  | ⟨54, _⟩ => landedJ c (s1A_54 c tb htb i h1) (rowM scA s ⟨54, Nat.le_of_ble_eq_true rfl⟩) fa
  | ⟨55, _⟩ => landedJ c (s1A_55 c tb htb i h1) (rowM scA s ⟨55, Nat.le_of_ble_eq_true rfl⟩) fa
  | ⟨56, _⟩ => landedJ c (s1A_56 c tb htb i h1) (rowM scA s ⟨56, Nat.le_of_ble_eq_true rfl⟩) fa
  | ⟨57, _⟩ => landedJ c (s1A_57 c tb htb i h1) (rowM scA s ⟨57, Nat.le_of_ble_eq_true rfl⟩) fa
  | ⟨58, _⟩ => landedJ c (s1A_58 c tb htb i h1) (rowM scA s ⟨58, Nat.le_of_ble_eq_true rfl⟩) fa
  | ⟨59, _⟩ => landedJ c (s1A_59 c tb htb i h1) (rowM scA s ⟨59, Nat.le_of_ble_eq_true rfl⟩) fa
  | ⟨60, _⟩ => landedJ c (s1A_60 c tb htb i h1) (rowM scA s ⟨60, Nat.le_of_ble_eq_true rfl⟩) fa
  | ⟨61, _⟩ => landedJ c (s1A_61 c tb htb i h1) (rowM scA s ⟨61, Nat.le_of_ble_eq_true rfl⟩) fa
  | ⟨62, _⟩ => landedJ c (s1A_62 c tb htb i h1) (rowM scA s ⟨62, Nat.le_of_ble_eq_true rfl⟩) fa
  | ⟨63, _⟩ => landedJ c (s1A_63 c tb htb i h1) (rowM scA s ⟨63, Nat.le_of_ble_eq_true rfl⟩) fa
  | ⟨_ + 64, h⟩ => absurd h (Nat.not_lt.2 (Nat.le_add_left _ _))
/-- The deliveries of the 64 copies of array B (fetch 1) into slot s, in the order the copies are started. -/
def D1B (htb : ∀ y, (tb y).toNat < 4096) (i : grid0.Coords) (h1 : k0_cond1 i = 1#1) (s : Fin 2) : Fin 64 → sProp 𝕄
  | ⟨0, _⟩ => deliv c (s1B_0 c tb htb i h1) (rowM scB s ⟨0, Nat.le_of_ble_eq_true rfl⟩) (qTok s ⟨0, Nat.le_of_ble_eq_true rfl⟩) fb
  | ⟨1, _⟩ => deliv c (s1B_1 c tb htb i h1) (rowM scB s ⟨1, Nat.le_of_ble_eq_true rfl⟩) (qTok s ⟨1, Nat.le_of_ble_eq_true rfl⟩) fb
  | ⟨2, _⟩ => deliv c (s1B_2 c tb htb i h1) (rowM scB s ⟨2, Nat.le_of_ble_eq_true rfl⟩) (qTok s ⟨2, Nat.le_of_ble_eq_true rfl⟩) fb
  | ⟨3, _⟩ => deliv c (s1B_3 c tb htb i h1) (rowM scB s ⟨3, Nat.le_of_ble_eq_true rfl⟩) (qTok s ⟨3, Nat.le_of_ble_eq_true rfl⟩) fb
  | ⟨4, _⟩ => deliv c (s1B_4 c tb htb i h1) (rowM scB s ⟨4, Nat.le_of_ble_eq_true rfl⟩) (qTok s ⟨4, Nat.le_of_ble_eq_true rfl⟩) fb
  | ⟨5, _⟩ => deliv c (s1B_5 c tb htb i h1) (rowM scB s ⟨5, Nat.le_of_ble_eq_true rfl⟩) (qTok s ⟨5, Nat.le_of_ble_eq_true rfl⟩) fb
  | ⟨6, _⟩ => deliv c (s1B_6 c tb htb i h1) (rowM scB s ⟨6, Nat.le_of_ble_eq_true rfl⟩) (qTok s ⟨6, Nat.le_of_ble_eq_true rfl⟩) fb
  | ⟨7, _⟩ => deliv c (s1B_7 c tb htb i h1) (rowM scB s ⟨7, Nat.le_of_ble_eq_true rfl⟩) (qTok s ⟨7, Nat.le_of_ble_eq_true rfl⟩) fb
  | ⟨8, _⟩ => deliv c (s1B_8 c tb htb i h1) (rowM scB s ⟨8, Nat.le_of_ble_eq_true rfl⟩) (qTok s ⟨8, Nat.le_of_ble_eq_true rfl⟩) fb
  | ⟨9, _⟩ => deliv c (s1B_9 c tb htb i h1) (rowM scB s ⟨9, Nat.le_of_ble_eq_true rfl⟩) (qTok s ⟨9, Nat.le_of_ble_eq_true rfl⟩) fb
  | ⟨10, _⟩ => deliv c (s1B_10 c tb htb i h1) (rowM scB s ⟨10, Nat.le_of_ble_eq_true rfl⟩) (qTok s ⟨10, Nat.le_of_ble_eq_true rfl⟩) fb
  | ⟨11, _⟩ => deliv c (s1B_11 c tb htb i h1) (rowM scB s ⟨11, Nat.le_of_ble_eq_true rfl⟩) (qTok s ⟨11, Nat.le_of_ble_eq_true rfl⟩) fb
  | ⟨12, _⟩ => deliv c (s1B_12 c tb htb i h1) (rowM scB s ⟨12, Nat.le_of_ble_eq_true rfl⟩) (qTok s ⟨12, Nat.le_of_ble_eq_true rfl⟩) fb
  | ⟨13, _⟩ => deliv c (s1B_13 c tb htb i h1) (rowM scB s ⟨13, Nat.le_of_ble_eq_true rfl⟩) (qTok s ⟨13, Nat.le_of_ble_eq_true rfl⟩) fb
  | ⟨14, _⟩ => deliv c (s1B_14 c tb htb i h1) (rowM scB s ⟨14, Nat.le_of_ble_eq_true rfl⟩) (qTok s ⟨14, Nat.le_of_ble_eq_true rfl⟩) fb
  | ⟨15, _⟩ => deliv c (s1B_15 c tb htb i h1) (rowM scB s ⟨15, Nat.le_of_ble_eq_true rfl⟩) (qTok s ⟨15, Nat.le_of_ble_eq_true rfl⟩) fb
  | ⟨16, _⟩ => deliv c (s1B_16 c tb htb i h1) (rowM scB s ⟨16, Nat.le_of_ble_eq_true rfl⟩) (qTok s ⟨16, Nat.le_of_ble_eq_true rfl⟩) fb
  | ⟨17, _⟩ => deliv c (s1B_17 c tb htb i h1) (rowM scB s ⟨17, Nat.le_of_ble_eq_true rfl⟩) (qTok s ⟨17, Nat.le_of_ble_eq_true rfl⟩) fb
  | ⟨18, _⟩ => deliv c (s1B_18 c tb htb i h1) (rowM scB s ⟨18, Nat.le_of_ble_eq_true rfl⟩) (qTok s ⟨18, Nat.le_of_ble_eq_true rfl⟩) fb
  | ⟨19, _⟩ => deliv c (s1B_19 c tb htb i h1) (rowM scB s ⟨19, Nat.le_of_ble_eq_true rfl⟩) (qTok s ⟨19, Nat.le_of_ble_eq_true rfl⟩) fb
  | ⟨20, _⟩ => deliv c (s1B_20 c tb htb i h1) (rowM scB s ⟨20, Nat.le_of_ble_eq_true rfl⟩) (qTok s ⟨20, Nat.le_of_ble_eq_true rfl⟩) fb
  | ⟨21, _⟩ => deliv c (s1B_21 c tb htb i h1) (rowM scB s ⟨21, Nat.le_of_ble_eq_true rfl⟩) (qTok s ⟨21, Nat.le_of_ble_eq_true rfl⟩) fb
  | ⟨22, _⟩ => deliv c (s1B_22 c tb htb i h1) (rowM scB s ⟨22, Nat.le_of_ble_eq_true rfl⟩) (qTok s ⟨22, Nat.le_of_ble_eq_true rfl⟩) fb
  | ⟨23, _⟩ => deliv c (s1B_23 c tb htb i h1) (rowM scB s ⟨23, Nat.le_of_ble_eq_true rfl⟩) (qTok s ⟨23, Nat.le_of_ble_eq_true rfl⟩) fb
  | ⟨24, _⟩ => deliv c (s1B_24 c tb htb i h1) (rowM scB s ⟨24, Nat.le_of_ble_eq_true rfl⟩) (qTok s ⟨24, Nat.le_of_ble_eq_true rfl⟩) fb
  | ⟨25, _⟩ => deliv c (s1B_25 c tb htb i h1) (rowM scB s ⟨25, Nat.le_of_ble_eq_true rfl⟩) (qTok s ⟨25, Nat.le_of_ble_eq_true rfl⟩) fb
  | ⟨26, _⟩ => deliv c (s1B_26 c tb htb i h1) (rowM scB s ⟨26, Nat.le_of_ble_eq_true rfl⟩) (qTok s ⟨26, Nat.le_of_ble_eq_true rfl⟩) fb
  | ⟨27, _⟩ => deliv c (s1B_27 c tb htb i h1) (rowM scB s ⟨27, Nat.le_of_ble_eq_true rfl⟩) (qTok s ⟨27, Nat.le_of_ble_eq_true rfl⟩) fb
  | ⟨28, _⟩ => deliv c (s1B_28 c tb htb i h1) (rowM scB s ⟨28, Nat.le_of_ble_eq_true rfl⟩) (qTok s ⟨28, Nat.le_of_ble_eq_true rfl⟩) fb
  | ⟨29, _⟩ => deliv c (s1B_29 c tb htb i h1) (rowM scB s ⟨29, Nat.le_of_ble_eq_true rfl⟩) (qTok s ⟨29, Nat.le_of_ble_eq_true rfl⟩) fb
  | ⟨30, _⟩ => deliv c (s1B_30 c tb htb i h1) (rowM scB s ⟨30, Nat.le_of_ble_eq_true rfl⟩) (qTok s ⟨30, Nat.le_of_ble_eq_true rfl⟩) fb
  | ⟨31, _⟩ => deliv c (s1B_31 c tb htb i h1) (rowM scB s ⟨31, Nat.le_of_ble_eq_true rfl⟩) (qTok s ⟨31, Nat.le_of_ble_eq_true rfl⟩) fb
  | ⟨32, _⟩ => deliv c (s1B_32 c tb htb i h1) (rowM scB s ⟨32, Nat.le_of_ble_eq_true rfl⟩) (qTok s ⟨32, Nat.le_of_ble_eq_true rfl⟩) fb
  | ⟨33, _⟩ => deliv c (s1B_33 c tb htb i h1) (rowM scB s ⟨33, Nat.le_of_ble_eq_true rfl⟩) (qTok s ⟨33, Nat.le_of_ble_eq_true rfl⟩) fb
  | ⟨34, _⟩ => deliv c (s1B_34 c tb htb i h1) (rowM scB s ⟨34, Nat.le_of_ble_eq_true rfl⟩) (qTok s ⟨34, Nat.le_of_ble_eq_true rfl⟩) fb
  | ⟨35, _⟩ => deliv c (s1B_35 c tb htb i h1) (rowM scB s ⟨35, Nat.le_of_ble_eq_true rfl⟩) (qTok s ⟨35, Nat.le_of_ble_eq_true rfl⟩) fb
  | ⟨36, _⟩ => deliv c (s1B_36 c tb htb i h1) (rowM scB s ⟨36, Nat.le_of_ble_eq_true rfl⟩) (qTok s ⟨36, Nat.le_of_ble_eq_true rfl⟩) fb
  | ⟨37, _⟩ => deliv c (s1B_37 c tb htb i h1) (rowM scB s ⟨37, Nat.le_of_ble_eq_true rfl⟩) (qTok s ⟨37, Nat.le_of_ble_eq_true rfl⟩) fb
  | ⟨38, _⟩ => deliv c (s1B_38 c tb htb i h1) (rowM scB s ⟨38, Nat.le_of_ble_eq_true rfl⟩) (qTok s ⟨38, Nat.le_of_ble_eq_true rfl⟩) fb
  | ⟨39, _⟩ => deliv c (s1B_39 c tb htb i h1) (rowM scB s ⟨39, Nat.le_of_ble_eq_true rfl⟩) (qTok s ⟨39, Nat.le_of_ble_eq_true rfl⟩) fb
  | ⟨40, _⟩ => deliv c (s1B_40 c tb htb i h1) (rowM scB s ⟨40, Nat.le_of_ble_eq_true rfl⟩) (qTok s ⟨40, Nat.le_of_ble_eq_true rfl⟩) fb
  | ⟨41, _⟩ => deliv c (s1B_41 c tb htb i h1) (rowM scB s ⟨41, Nat.le_of_ble_eq_true rfl⟩) (qTok s ⟨41, Nat.le_of_ble_eq_true rfl⟩) fb
  | ⟨42, _⟩ => deliv c (s1B_42 c tb htb i h1) (rowM scB s ⟨42, Nat.le_of_ble_eq_true rfl⟩) (qTok s ⟨42, Nat.le_of_ble_eq_true rfl⟩) fb
  | ⟨43, _⟩ => deliv c (s1B_43 c tb htb i h1) (rowM scB s ⟨43, Nat.le_of_ble_eq_true rfl⟩) (qTok s ⟨43, Nat.le_of_ble_eq_true rfl⟩) fb
  | ⟨44, _⟩ => deliv c (s1B_44 c tb htb i h1) (rowM scB s ⟨44, Nat.le_of_ble_eq_true rfl⟩) (qTok s ⟨44, Nat.le_of_ble_eq_true rfl⟩) fb
  | ⟨45, _⟩ => deliv c (s1B_45 c tb htb i h1) (rowM scB s ⟨45, Nat.le_of_ble_eq_true rfl⟩) (qTok s ⟨45, Nat.le_of_ble_eq_true rfl⟩) fb
  | ⟨46, _⟩ => deliv c (s1B_46 c tb htb i h1) (rowM scB s ⟨46, Nat.le_of_ble_eq_true rfl⟩) (qTok s ⟨46, Nat.le_of_ble_eq_true rfl⟩) fb
  | ⟨47, _⟩ => deliv c (s1B_47 c tb htb i h1) (rowM scB s ⟨47, Nat.le_of_ble_eq_true rfl⟩) (qTok s ⟨47, Nat.le_of_ble_eq_true rfl⟩) fb
  | ⟨48, _⟩ => deliv c (s1B_48 c tb htb i h1) (rowM scB s ⟨48, Nat.le_of_ble_eq_true rfl⟩) (qTok s ⟨48, Nat.le_of_ble_eq_true rfl⟩) fb
  | ⟨49, _⟩ => deliv c (s1B_49 c tb htb i h1) (rowM scB s ⟨49, Nat.le_of_ble_eq_true rfl⟩) (qTok s ⟨49, Nat.le_of_ble_eq_true rfl⟩) fb
  | ⟨50, _⟩ => deliv c (s1B_50 c tb htb i h1) (rowM scB s ⟨50, Nat.le_of_ble_eq_true rfl⟩) (qTok s ⟨50, Nat.le_of_ble_eq_true rfl⟩) fb
  | ⟨51, _⟩ => deliv c (s1B_51 c tb htb i h1) (rowM scB s ⟨51, Nat.le_of_ble_eq_true rfl⟩) (qTok s ⟨51, Nat.le_of_ble_eq_true rfl⟩) fb
  | ⟨52, _⟩ => deliv c (s1B_52 c tb htb i h1) (rowM scB s ⟨52, Nat.le_of_ble_eq_true rfl⟩) (qTok s ⟨52, Nat.le_of_ble_eq_true rfl⟩) fb
  | ⟨53, _⟩ => deliv c (s1B_53 c tb htb i h1) (rowM scB s ⟨53, Nat.le_of_ble_eq_true rfl⟩) (qTok s ⟨53, Nat.le_of_ble_eq_true rfl⟩) fb
  | ⟨54, _⟩ => deliv c (s1B_54 c tb htb i h1) (rowM scB s ⟨54, Nat.le_of_ble_eq_true rfl⟩) (qTok s ⟨54, Nat.le_of_ble_eq_true rfl⟩) fb
  | ⟨55, _⟩ => deliv c (s1B_55 c tb htb i h1) (rowM scB s ⟨55, Nat.le_of_ble_eq_true rfl⟩) (qTok s ⟨55, Nat.le_of_ble_eq_true rfl⟩) fb
  | ⟨56, _⟩ => deliv c (s1B_56 c tb htb i h1) (rowM scB s ⟨56, Nat.le_of_ble_eq_true rfl⟩) (qTok s ⟨56, Nat.le_of_ble_eq_true rfl⟩) fb
  | ⟨57, _⟩ => deliv c (s1B_57 c tb htb i h1) (rowM scB s ⟨57, Nat.le_of_ble_eq_true rfl⟩) (qTok s ⟨57, Nat.le_of_ble_eq_true rfl⟩) fb
  | ⟨58, _⟩ => deliv c (s1B_58 c tb htb i h1) (rowM scB s ⟨58, Nat.le_of_ble_eq_true rfl⟩) (qTok s ⟨58, Nat.le_of_ble_eq_true rfl⟩) fb
  | ⟨59, _⟩ => deliv c (s1B_59 c tb htb i h1) (rowM scB s ⟨59, Nat.le_of_ble_eq_true rfl⟩) (qTok s ⟨59, Nat.le_of_ble_eq_true rfl⟩) fb
  | ⟨60, _⟩ => deliv c (s1B_60 c tb htb i h1) (rowM scB s ⟨60, Nat.le_of_ble_eq_true rfl⟩) (qTok s ⟨60, Nat.le_of_ble_eq_true rfl⟩) fb
  | ⟨61, _⟩ => deliv c (s1B_61 c tb htb i h1) (rowM scB s ⟨61, Nat.le_of_ble_eq_true rfl⟩) (qTok s ⟨61, Nat.le_of_ble_eq_true rfl⟩) fb
  | ⟨62, _⟩ => deliv c (s1B_62 c tb htb i h1) (rowM scB s ⟨62, Nat.le_of_ble_eq_true rfl⟩) (qTok s ⟨62, Nat.le_of_ble_eq_true rfl⟩) fb
  | ⟨63, _⟩ => deliv c (s1B_63 c tb htb i h1) (rowM scB s ⟨63, Nat.le_of_ble_eq_true rfl⟩) (qTok s ⟨63, Nat.le_of_ble_eq_true rfl⟩) fb
  | ⟨_ + 64, h⟩ => absurd h (Nat.not_lt.2 (Nat.le_add_left _ _))
/-- What is left of each of slot s's read shares of array B while its array row is lent to copy r. -/
def R1B (htb : ∀ y, (tb y).toNat < 4096) (i : grid0.Coords) (h1 : k0_cond1 i = 1#1) (s : Fin 2) : Fin 64 → sProp 𝕄
  | ⟨0, _⟩ => (bM.view.loc (c : Thread nD τ) ↦[Finset.univ \ (s1B_0 c tb htb i h1).view.set]{qTok s ⟨0, Nat.le_of_ble_eq_true rfl⟩} fb)
  | ⟨1, _⟩ => (bM.view.loc (c : Thread nD τ) ↦[Finset.univ \ (s1B_1 c tb htb i h1).view.set]{qTok s ⟨1, Nat.le_of_ble_eq_true rfl⟩} fb)
  | ⟨2, _⟩ => (bM.view.loc (c : Thread nD τ) ↦[Finset.univ \ (s1B_2 c tb htb i h1).view.set]{qTok s ⟨2, Nat.le_of_ble_eq_true rfl⟩} fb)
  | ⟨3, _⟩ => (bM.view.loc (c : Thread nD τ) ↦[Finset.univ \ (s1B_3 c tb htb i h1).view.set]{qTok s ⟨3, Nat.le_of_ble_eq_true rfl⟩} fb)
  | ⟨4, _⟩ => (bM.view.loc (c : Thread nD τ) ↦[Finset.univ \ (s1B_4 c tb htb i h1).view.set]{qTok s ⟨4, Nat.le_of_ble_eq_true rfl⟩} fb)
  | ⟨5, _⟩ => (bM.view.loc (c : Thread nD τ) ↦[Finset.univ \ (s1B_5 c tb htb i h1).view.set]{qTok s ⟨5, Nat.le_of_ble_eq_true rfl⟩} fb)
  | ⟨6, _⟩ => (bM.view.loc (c : Thread nD τ) ↦[Finset.univ \ (s1B_6 c tb htb i h1).view.set]{qTok s ⟨6, Nat.le_of_ble_eq_true rfl⟩} fb)
  | ⟨7, _⟩ => (bM.view.loc (c : Thread nD τ) ↦[Finset.univ \ (s1B_7 c tb htb i h1).view.set]{qTok s ⟨7, Nat.le_of_ble_eq_true rfl⟩} fb)
  | ⟨8, _⟩ => (bM.view.loc (c : Thread nD τ) ↦[Finset.univ \ (s1B_8 c tb htb i h1).view.set]{qTok s ⟨8, Nat.le_of_ble_eq_true rfl⟩} fb)
  | ⟨9, _⟩ => (bM.view.loc (c : Thread nD τ) ↦[Finset.univ \ (s1B_9 c tb htb i h1).view.set]{qTok s ⟨9, Nat.le_of_ble_eq_true rfl⟩} fb)
  | ⟨10, _⟩ => (bM.view.loc (c : Thread nD τ) ↦[Finset.univ \ (s1B_10 c tb htb i h1).view.set]{qTok s ⟨10, Nat.le_of_ble_eq_true rfl⟩} fb)
  | ⟨11, _⟩ => (bM.view.loc (c : Thread nD τ) ↦[Finset.univ \ (s1B_11 c tb htb i h1).view.set]{qTok s ⟨11, Nat.le_of_ble_eq_true rfl⟩} fb)
  | ⟨12, _⟩ => (bM.view.loc (c : Thread nD τ) ↦[Finset.univ \ (s1B_12 c tb htb i h1).view.set]{qTok s ⟨12, Nat.le_of_ble_eq_true rfl⟩} fb)
  | ⟨13, _⟩ => (bM.view.loc (c : Thread nD τ) ↦[Finset.univ \ (s1B_13 c tb htb i h1).view.set]{qTok s ⟨13, Nat.le_of_ble_eq_true rfl⟩} fb)
  | ⟨14, _⟩ => (bM.view.loc (c : Thread nD τ) ↦[Finset.univ \ (s1B_14 c tb htb i h1).view.set]{qTok s ⟨14, Nat.le_of_ble_eq_true rfl⟩} fb)
  | ⟨15, _⟩ => (bM.view.loc (c : Thread nD τ) ↦[Finset.univ \ (s1B_15 c tb htb i h1).view.set]{qTok s ⟨15, Nat.le_of_ble_eq_true rfl⟩} fb)
  | ⟨16, _⟩ => (bM.view.loc (c : Thread nD τ) ↦[Finset.univ \ (s1B_16 c tb htb i h1).view.set]{qTok s ⟨16, Nat.le_of_ble_eq_true rfl⟩} fb)
  | ⟨17, _⟩ => (bM.view.loc (c : Thread nD τ) ↦[Finset.univ \ (s1B_17 c tb htb i h1).view.set]{qTok s ⟨17, Nat.le_of_ble_eq_true rfl⟩} fb)
  | ⟨18, _⟩ => (bM.view.loc (c : Thread nD τ) ↦[Finset.univ \ (s1B_18 c tb htb i h1).view.set]{qTok s ⟨18, Nat.le_of_ble_eq_true rfl⟩} fb)
  | ⟨19, _⟩ => (bM.view.loc (c : Thread nD τ) ↦[Finset.univ \ (s1B_19 c tb htb i h1).view.set]{qTok s ⟨19, Nat.le_of_ble_eq_true rfl⟩} fb)
  | ⟨20, _⟩ => (bM.view.loc (c : Thread nD τ) ↦[Finset.univ \ (s1B_20 c tb htb i h1).view.set]{qTok s ⟨20, Nat.le_of_ble_eq_true rfl⟩} fb)
  | ⟨21, _⟩ => (bM.view.loc (c : Thread nD τ) ↦[Finset.univ \ (s1B_21 c tb htb i h1).view.set]{qTok s ⟨21, Nat.le_of_ble_eq_true rfl⟩} fb)
  | ⟨22, _⟩ => (bM.view.loc (c : Thread nD τ) ↦[Finset.univ \ (s1B_22 c tb htb i h1).view.set]{qTok s ⟨22, Nat.le_of_ble_eq_true rfl⟩} fb)
  | ⟨23, _⟩ => (bM.view.loc (c : Thread nD τ) ↦[Finset.univ \ (s1B_23 c tb htb i h1).view.set]{qTok s ⟨23, Nat.le_of_ble_eq_true rfl⟩} fb)
  | ⟨24, _⟩ => (bM.view.loc (c : Thread nD τ) ↦[Finset.univ \ (s1B_24 c tb htb i h1).view.set]{qTok s ⟨24, Nat.le_of_ble_eq_true rfl⟩} fb)
  | ⟨25, _⟩ => (bM.view.loc (c : Thread nD τ) ↦[Finset.univ \ (s1B_25 c tb htb i h1).view.set]{qTok s ⟨25, Nat.le_of_ble_eq_true rfl⟩} fb)
  | ⟨26, _⟩ => (bM.view.loc (c : Thread nD τ) ↦[Finset.univ \ (s1B_26 c tb htb i h1).view.set]{qTok s ⟨26, Nat.le_of_ble_eq_true rfl⟩} fb)
  | ⟨27, _⟩ => (bM.view.loc (c : Thread nD τ) ↦[Finset.univ \ (s1B_27 c tb htb i h1).view.set]{qTok s ⟨27, Nat.le_of_ble_eq_true rfl⟩} fb)
  | ⟨28, _⟩ => (bM.view.loc (c : Thread nD τ) ↦[Finset.univ \ (s1B_28 c tb htb i h1).view.set]{qTok s ⟨28, Nat.le_of_ble_eq_true rfl⟩} fb)
  | ⟨29, _⟩ => (bM.view.loc (c : Thread nD τ) ↦[Finset.univ \ (s1B_29 c tb htb i h1).view.set]{qTok s ⟨29, Nat.le_of_ble_eq_true rfl⟩} fb)
  | ⟨30, _⟩ => (bM.view.loc (c : Thread nD τ) ↦[Finset.univ \ (s1B_30 c tb htb i h1).view.set]{qTok s ⟨30, Nat.le_of_ble_eq_true rfl⟩} fb)
  | ⟨31, _⟩ => (bM.view.loc (c : Thread nD τ) ↦[Finset.univ \ (s1B_31 c tb htb i h1).view.set]{qTok s ⟨31, Nat.le_of_ble_eq_true rfl⟩} fb)
  | ⟨32, _⟩ => (bM.view.loc (c : Thread nD τ) ↦[Finset.univ \ (s1B_32 c tb htb i h1).view.set]{qTok s ⟨32, Nat.le_of_ble_eq_true rfl⟩} fb)
  | ⟨33, _⟩ => (bM.view.loc (c : Thread nD τ) ↦[Finset.univ \ (s1B_33 c tb htb i h1).view.set]{qTok s ⟨33, Nat.le_of_ble_eq_true rfl⟩} fb)
  | ⟨34, _⟩ => (bM.view.loc (c : Thread nD τ) ↦[Finset.univ \ (s1B_34 c tb htb i h1).view.set]{qTok s ⟨34, Nat.le_of_ble_eq_true rfl⟩} fb)
  | ⟨35, _⟩ => (bM.view.loc (c : Thread nD τ) ↦[Finset.univ \ (s1B_35 c tb htb i h1).view.set]{qTok s ⟨35, Nat.le_of_ble_eq_true rfl⟩} fb)
  | ⟨36, _⟩ => (bM.view.loc (c : Thread nD τ) ↦[Finset.univ \ (s1B_36 c tb htb i h1).view.set]{qTok s ⟨36, Nat.le_of_ble_eq_true rfl⟩} fb)
  | ⟨37, _⟩ => (bM.view.loc (c : Thread nD τ) ↦[Finset.univ \ (s1B_37 c tb htb i h1).view.set]{qTok s ⟨37, Nat.le_of_ble_eq_true rfl⟩} fb)
  | ⟨38, _⟩ => (bM.view.loc (c : Thread nD τ) ↦[Finset.univ \ (s1B_38 c tb htb i h1).view.set]{qTok s ⟨38, Nat.le_of_ble_eq_true rfl⟩} fb)
  | ⟨39, _⟩ => (bM.view.loc (c : Thread nD τ) ↦[Finset.univ \ (s1B_39 c tb htb i h1).view.set]{qTok s ⟨39, Nat.le_of_ble_eq_true rfl⟩} fb)
  | ⟨40, _⟩ => (bM.view.loc (c : Thread nD τ) ↦[Finset.univ \ (s1B_40 c tb htb i h1).view.set]{qTok s ⟨40, Nat.le_of_ble_eq_true rfl⟩} fb)
  | ⟨41, _⟩ => (bM.view.loc (c : Thread nD τ) ↦[Finset.univ \ (s1B_41 c tb htb i h1).view.set]{qTok s ⟨41, Nat.le_of_ble_eq_true rfl⟩} fb)
  | ⟨42, _⟩ => (bM.view.loc (c : Thread nD τ) ↦[Finset.univ \ (s1B_42 c tb htb i h1).view.set]{qTok s ⟨42, Nat.le_of_ble_eq_true rfl⟩} fb)
  | ⟨43, _⟩ => (bM.view.loc (c : Thread nD τ) ↦[Finset.univ \ (s1B_43 c tb htb i h1).view.set]{qTok s ⟨43, Nat.le_of_ble_eq_true rfl⟩} fb)
  | ⟨44, _⟩ => (bM.view.loc (c : Thread nD τ) ↦[Finset.univ \ (s1B_44 c tb htb i h1).view.set]{qTok s ⟨44, Nat.le_of_ble_eq_true rfl⟩} fb)
  | ⟨45, _⟩ => (bM.view.loc (c : Thread nD τ) ↦[Finset.univ \ (s1B_45 c tb htb i h1).view.set]{qTok s ⟨45, Nat.le_of_ble_eq_true rfl⟩} fb)
  | ⟨46, _⟩ => (bM.view.loc (c : Thread nD τ) ↦[Finset.univ \ (s1B_46 c tb htb i h1).view.set]{qTok s ⟨46, Nat.le_of_ble_eq_true rfl⟩} fb)
  | ⟨47, _⟩ => (bM.view.loc (c : Thread nD τ) ↦[Finset.univ \ (s1B_47 c tb htb i h1).view.set]{qTok s ⟨47, Nat.le_of_ble_eq_true rfl⟩} fb)
  | ⟨48, _⟩ => (bM.view.loc (c : Thread nD τ) ↦[Finset.univ \ (s1B_48 c tb htb i h1).view.set]{qTok s ⟨48, Nat.le_of_ble_eq_true rfl⟩} fb)
  | ⟨49, _⟩ => (bM.view.loc (c : Thread nD τ) ↦[Finset.univ \ (s1B_49 c tb htb i h1).view.set]{qTok s ⟨49, Nat.le_of_ble_eq_true rfl⟩} fb)
  | ⟨50, _⟩ => (bM.view.loc (c : Thread nD τ) ↦[Finset.univ \ (s1B_50 c tb htb i h1).view.set]{qTok s ⟨50, Nat.le_of_ble_eq_true rfl⟩} fb)
  | ⟨51, _⟩ => (bM.view.loc (c : Thread nD τ) ↦[Finset.univ \ (s1B_51 c tb htb i h1).view.set]{qTok s ⟨51, Nat.le_of_ble_eq_true rfl⟩} fb)
  | ⟨52, _⟩ => (bM.view.loc (c : Thread nD τ) ↦[Finset.univ \ (s1B_52 c tb htb i h1).view.set]{qTok s ⟨52, Nat.le_of_ble_eq_true rfl⟩} fb)
  | ⟨53, _⟩ => (bM.view.loc (c : Thread nD τ) ↦[Finset.univ \ (s1B_53 c tb htb i h1).view.set]{qTok s ⟨53, Nat.le_of_ble_eq_true rfl⟩} fb)
  | ⟨54, _⟩ => (bM.view.loc (c : Thread nD τ) ↦[Finset.univ \ (s1B_54 c tb htb i h1).view.set]{qTok s ⟨54, Nat.le_of_ble_eq_true rfl⟩} fb)
  | ⟨55, _⟩ => (bM.view.loc (c : Thread nD τ) ↦[Finset.univ \ (s1B_55 c tb htb i h1).view.set]{qTok s ⟨55, Nat.le_of_ble_eq_true rfl⟩} fb)
  | ⟨56, _⟩ => (bM.view.loc (c : Thread nD τ) ↦[Finset.univ \ (s1B_56 c tb htb i h1).view.set]{qTok s ⟨56, Nat.le_of_ble_eq_true rfl⟩} fb)
  | ⟨57, _⟩ => (bM.view.loc (c : Thread nD τ) ↦[Finset.univ \ (s1B_57 c tb htb i h1).view.set]{qTok s ⟨57, Nat.le_of_ble_eq_true rfl⟩} fb)
  | ⟨58, _⟩ => (bM.view.loc (c : Thread nD τ) ↦[Finset.univ \ (s1B_58 c tb htb i h1).view.set]{qTok s ⟨58, Nat.le_of_ble_eq_true rfl⟩} fb)
  | ⟨59, _⟩ => (bM.view.loc (c : Thread nD τ) ↦[Finset.univ \ (s1B_59 c tb htb i h1).view.set]{qTok s ⟨59, Nat.le_of_ble_eq_true rfl⟩} fb)
  | ⟨60, _⟩ => (bM.view.loc (c : Thread nD τ) ↦[Finset.univ \ (s1B_60 c tb htb i h1).view.set]{qTok s ⟨60, Nat.le_of_ble_eq_true rfl⟩} fb)
  | ⟨61, _⟩ => (bM.view.loc (c : Thread nD τ) ↦[Finset.univ \ (s1B_61 c tb htb i h1).view.set]{qTok s ⟨61, Nat.le_of_ble_eq_true rfl⟩} fb)
  | ⟨62, _⟩ => (bM.view.loc (c : Thread nD τ) ↦[Finset.univ \ (s1B_62 c tb htb i h1).view.set]{qTok s ⟨62, Nat.le_of_ble_eq_true rfl⟩} fb)
  | ⟨63, _⟩ => (bM.view.loc (c : Thread nD τ) ↦[Finset.univ \ (s1B_63 c tb htb i h1).view.set]{qTok s ⟨63, Nat.le_of_ble_eq_true rfl⟩} fb)
  | ⟨_ + 64, h⟩ => absurd h (Nat.not_lt.2 (Nat.le_add_left _ _))
/-- What each row of slot s holds once copy r of array B (fetch 1) has landed. -/
def L1B (htb : ∀ y, (tb y).toNat < 4096) (i : grid0.Coords) (h1 : k0_cond1 i = 1#1) (s : Fin 2) : Fin 64 → MBuf (F := F) c scB
  | ⟨0, _⟩ => landedJ c (s1B_0 c tb htb i h1) (rowM scB s ⟨0, Nat.le_of_ble_eq_true rfl⟩) fb
  | ⟨1, _⟩ => landedJ c (s1B_1 c tb htb i h1) (rowM scB s ⟨1, Nat.le_of_ble_eq_true rfl⟩) fb
  | ⟨2, _⟩ => landedJ c (s1B_2 c tb htb i h1) (rowM scB s ⟨2, Nat.le_of_ble_eq_true rfl⟩) fb
  | ⟨3, _⟩ => landedJ c (s1B_3 c tb htb i h1) (rowM scB s ⟨3, Nat.le_of_ble_eq_true rfl⟩) fb
  | ⟨4, _⟩ => landedJ c (s1B_4 c tb htb i h1) (rowM scB s ⟨4, Nat.le_of_ble_eq_true rfl⟩) fb
  | ⟨5, _⟩ => landedJ c (s1B_5 c tb htb i h1) (rowM scB s ⟨5, Nat.le_of_ble_eq_true rfl⟩) fb
  | ⟨6, _⟩ => landedJ c (s1B_6 c tb htb i h1) (rowM scB s ⟨6, Nat.le_of_ble_eq_true rfl⟩) fb
  | ⟨7, _⟩ => landedJ c (s1B_7 c tb htb i h1) (rowM scB s ⟨7, Nat.le_of_ble_eq_true rfl⟩) fb
  | ⟨8, _⟩ => landedJ c (s1B_8 c tb htb i h1) (rowM scB s ⟨8, Nat.le_of_ble_eq_true rfl⟩) fb
  | ⟨9, _⟩ => landedJ c (s1B_9 c tb htb i h1) (rowM scB s ⟨9, Nat.le_of_ble_eq_true rfl⟩) fb
  | ⟨10, _⟩ => landedJ c (s1B_10 c tb htb i h1) (rowM scB s ⟨10, Nat.le_of_ble_eq_true rfl⟩) fb
  | ⟨11, _⟩ => landedJ c (s1B_11 c tb htb i h1) (rowM scB s ⟨11, Nat.le_of_ble_eq_true rfl⟩) fb
  | ⟨12, _⟩ => landedJ c (s1B_12 c tb htb i h1) (rowM scB s ⟨12, Nat.le_of_ble_eq_true rfl⟩) fb
  | ⟨13, _⟩ => landedJ c (s1B_13 c tb htb i h1) (rowM scB s ⟨13, Nat.le_of_ble_eq_true rfl⟩) fb
  | ⟨14, _⟩ => landedJ c (s1B_14 c tb htb i h1) (rowM scB s ⟨14, Nat.le_of_ble_eq_true rfl⟩) fb
  | ⟨15, _⟩ => landedJ c (s1B_15 c tb htb i h1) (rowM scB s ⟨15, Nat.le_of_ble_eq_true rfl⟩) fb
  | ⟨16, _⟩ => landedJ c (s1B_16 c tb htb i h1) (rowM scB s ⟨16, Nat.le_of_ble_eq_true rfl⟩) fb
  | ⟨17, _⟩ => landedJ c (s1B_17 c tb htb i h1) (rowM scB s ⟨17, Nat.le_of_ble_eq_true rfl⟩) fb
  | ⟨18, _⟩ => landedJ c (s1B_18 c tb htb i h1) (rowM scB s ⟨18, Nat.le_of_ble_eq_true rfl⟩) fb
  | ⟨19, _⟩ => landedJ c (s1B_19 c tb htb i h1) (rowM scB s ⟨19, Nat.le_of_ble_eq_true rfl⟩) fb
  | ⟨20, _⟩ => landedJ c (s1B_20 c tb htb i h1) (rowM scB s ⟨20, Nat.le_of_ble_eq_true rfl⟩) fb
  | ⟨21, _⟩ => landedJ c (s1B_21 c tb htb i h1) (rowM scB s ⟨21, Nat.le_of_ble_eq_true rfl⟩) fb
  | ⟨22, _⟩ => landedJ c (s1B_22 c tb htb i h1) (rowM scB s ⟨22, Nat.le_of_ble_eq_true rfl⟩) fb
  | ⟨23, _⟩ => landedJ c (s1B_23 c tb htb i h1) (rowM scB s ⟨23, Nat.le_of_ble_eq_true rfl⟩) fb
  | ⟨24, _⟩ => landedJ c (s1B_24 c tb htb i h1) (rowM scB s ⟨24, Nat.le_of_ble_eq_true rfl⟩) fb
  | ⟨25, _⟩ => landedJ c (s1B_25 c tb htb i h1) (rowM scB s ⟨25, Nat.le_of_ble_eq_true rfl⟩) fb
  | ⟨26, _⟩ => landedJ c (s1B_26 c tb htb i h1) (rowM scB s ⟨26, Nat.le_of_ble_eq_true rfl⟩) fb
  | ⟨27, _⟩ => landedJ c (s1B_27 c tb htb i h1) (rowM scB s ⟨27, Nat.le_of_ble_eq_true rfl⟩) fb
  | ⟨28, _⟩ => landedJ c (s1B_28 c tb htb i h1) (rowM scB s ⟨28, Nat.le_of_ble_eq_true rfl⟩) fb
  | ⟨29, _⟩ => landedJ c (s1B_29 c tb htb i h1) (rowM scB s ⟨29, Nat.le_of_ble_eq_true rfl⟩) fb
  | ⟨30, _⟩ => landedJ c (s1B_30 c tb htb i h1) (rowM scB s ⟨30, Nat.le_of_ble_eq_true rfl⟩) fb
  | ⟨31, _⟩ => landedJ c (s1B_31 c tb htb i h1) (rowM scB s ⟨31, Nat.le_of_ble_eq_true rfl⟩) fb
  | ⟨32, _⟩ => landedJ c (s1B_32 c tb htb i h1) (rowM scB s ⟨32, Nat.le_of_ble_eq_true rfl⟩) fb
  | ⟨33, _⟩ => landedJ c (s1B_33 c tb htb i h1) (rowM scB s ⟨33, Nat.le_of_ble_eq_true rfl⟩) fb
  | ⟨34, _⟩ => landedJ c (s1B_34 c tb htb i h1) (rowM scB s ⟨34, Nat.le_of_ble_eq_true rfl⟩) fb
  | ⟨35, _⟩ => landedJ c (s1B_35 c tb htb i h1) (rowM scB s ⟨35, Nat.le_of_ble_eq_true rfl⟩) fb
  | ⟨36, _⟩ => landedJ c (s1B_36 c tb htb i h1) (rowM scB s ⟨36, Nat.le_of_ble_eq_true rfl⟩) fb
  | ⟨37, _⟩ => landedJ c (s1B_37 c tb htb i h1) (rowM scB s ⟨37, Nat.le_of_ble_eq_true rfl⟩) fb
  | ⟨38, _⟩ => landedJ c (s1B_38 c tb htb i h1) (rowM scB s ⟨38, Nat.le_of_ble_eq_true rfl⟩) fb
  | ⟨39, _⟩ => landedJ c (s1B_39 c tb htb i h1) (rowM scB s ⟨39, Nat.le_of_ble_eq_true rfl⟩) fb
  | ⟨40, _⟩ => landedJ c (s1B_40 c tb htb i h1) (rowM scB s ⟨40, Nat.le_of_ble_eq_true rfl⟩) fb
  | ⟨41, _⟩ => landedJ c (s1B_41 c tb htb i h1) (rowM scB s ⟨41, Nat.le_of_ble_eq_true rfl⟩) fb
  | ⟨42, _⟩ => landedJ c (s1B_42 c tb htb i h1) (rowM scB s ⟨42, Nat.le_of_ble_eq_true rfl⟩) fb
  | ⟨43, _⟩ => landedJ c (s1B_43 c tb htb i h1) (rowM scB s ⟨43, Nat.le_of_ble_eq_true rfl⟩) fb
  | ⟨44, _⟩ => landedJ c (s1B_44 c tb htb i h1) (rowM scB s ⟨44, Nat.le_of_ble_eq_true rfl⟩) fb
  | ⟨45, _⟩ => landedJ c (s1B_45 c tb htb i h1) (rowM scB s ⟨45, Nat.le_of_ble_eq_true rfl⟩) fb
  | ⟨46, _⟩ => landedJ c (s1B_46 c tb htb i h1) (rowM scB s ⟨46, Nat.le_of_ble_eq_true rfl⟩) fb
  | ⟨47, _⟩ => landedJ c (s1B_47 c tb htb i h1) (rowM scB s ⟨47, Nat.le_of_ble_eq_true rfl⟩) fb
  | ⟨48, _⟩ => landedJ c (s1B_48 c tb htb i h1) (rowM scB s ⟨48, Nat.le_of_ble_eq_true rfl⟩) fb
  | ⟨49, _⟩ => landedJ c (s1B_49 c tb htb i h1) (rowM scB s ⟨49, Nat.le_of_ble_eq_true rfl⟩) fb
  | ⟨50, _⟩ => landedJ c (s1B_50 c tb htb i h1) (rowM scB s ⟨50, Nat.le_of_ble_eq_true rfl⟩) fb
  | ⟨51, _⟩ => landedJ c (s1B_51 c tb htb i h1) (rowM scB s ⟨51, Nat.le_of_ble_eq_true rfl⟩) fb
  | ⟨52, _⟩ => landedJ c (s1B_52 c tb htb i h1) (rowM scB s ⟨52, Nat.le_of_ble_eq_true rfl⟩) fb
  | ⟨53, _⟩ => landedJ c (s1B_53 c tb htb i h1) (rowM scB s ⟨53, Nat.le_of_ble_eq_true rfl⟩) fb
  | ⟨54, _⟩ => landedJ c (s1B_54 c tb htb i h1) (rowM scB s ⟨54, Nat.le_of_ble_eq_true rfl⟩) fb
  | ⟨55, _⟩ => landedJ c (s1B_55 c tb htb i h1) (rowM scB s ⟨55, Nat.le_of_ble_eq_true rfl⟩) fb
  | ⟨56, _⟩ => landedJ c (s1B_56 c tb htb i h1) (rowM scB s ⟨56, Nat.le_of_ble_eq_true rfl⟩) fb
  | ⟨57, _⟩ => landedJ c (s1B_57 c tb htb i h1) (rowM scB s ⟨57, Nat.le_of_ble_eq_true rfl⟩) fb
  | ⟨58, _⟩ => landedJ c (s1B_58 c tb htb i h1) (rowM scB s ⟨58, Nat.le_of_ble_eq_true rfl⟩) fb
  | ⟨59, _⟩ => landedJ c (s1B_59 c tb htb i h1) (rowM scB s ⟨59, Nat.le_of_ble_eq_true rfl⟩) fb
  | ⟨60, _⟩ => landedJ c (s1B_60 c tb htb i h1) (rowM scB s ⟨60, Nat.le_of_ble_eq_true rfl⟩) fb
  | ⟨61, _⟩ => landedJ c (s1B_61 c tb htb i h1) (rowM scB s ⟨61, Nat.le_of_ble_eq_true rfl⟩) fb
  | ⟨62, _⟩ => landedJ c (s1B_62 c tb htb i h1) (rowM scB s ⟨62, Nat.le_of_ble_eq_true rfl⟩) fb
  | ⟨63, _⟩ => landedJ c (s1B_63 c tb htb i h1) (rowM scB s ⟨63, Nat.le_of_ble_eq_true rfl⟩) fb
  | ⟨_ + 64, h⟩ => absurd h (Nat.not_lt.2 (Nat.le_add_left _ _))
/-- The row numbers the 64 copies of fetch 1 read: the table's words, as naturals. -/
def N1 (i : grid0.Coords) (h1 : k0_cond1 i = 1#1) : Fin 64 → ℕ
  | ⟨0, _⟩ => (W1_0 c tb i h1).toNat
  | ⟨1, _⟩ => (W1_1 c tb i h1).toNat
  | ⟨2, _⟩ => (W1_2 c tb i h1).toNat
  | ⟨3, _⟩ => (W1_3 c tb i h1).toNat
  | ⟨4, _⟩ => (W1_4 c tb i h1).toNat
  | ⟨5, _⟩ => (W1_5 c tb i h1).toNat
  | ⟨6, _⟩ => (W1_6 c tb i h1).toNat
  | ⟨7, _⟩ => (W1_7 c tb i h1).toNat
  | ⟨8, _⟩ => (W1_8 c tb i h1).toNat
  | ⟨9, _⟩ => (W1_9 c tb i h1).toNat
  | ⟨10, _⟩ => (W1_10 c tb i h1).toNat
  | ⟨11, _⟩ => (W1_11 c tb i h1).toNat
  | ⟨12, _⟩ => (W1_12 c tb i h1).toNat
  | ⟨13, _⟩ => (W1_13 c tb i h1).toNat
  | ⟨14, _⟩ => (W1_14 c tb i h1).toNat
  | ⟨15, _⟩ => (W1_15 c tb i h1).toNat
  | ⟨16, _⟩ => (W1_16 c tb i h1).toNat
  | ⟨17, _⟩ => (W1_17 c tb i h1).toNat
  | ⟨18, _⟩ => (W1_18 c tb i h1).toNat
  | ⟨19, _⟩ => (W1_19 c tb i h1).toNat
  | ⟨20, _⟩ => (W1_20 c tb i h1).toNat
  | ⟨21, _⟩ => (W1_21 c tb i h1).toNat
  | ⟨22, _⟩ => (W1_22 c tb i h1).toNat
  | ⟨23, _⟩ => (W1_23 c tb i h1).toNat
  | ⟨24, _⟩ => (W1_24 c tb i h1).toNat
  | ⟨25, _⟩ => (W1_25 c tb i h1).toNat
  | ⟨26, _⟩ => (W1_26 c tb i h1).toNat
  | ⟨27, _⟩ => (W1_27 c tb i h1).toNat
  | ⟨28, _⟩ => (W1_28 c tb i h1).toNat
  | ⟨29, _⟩ => (W1_29 c tb i h1).toNat
  | ⟨30, _⟩ => (W1_30 c tb i h1).toNat
  | ⟨31, _⟩ => (W1_31 c tb i h1).toNat
  | ⟨32, _⟩ => (W1_32 c tb i h1).toNat
  | ⟨33, _⟩ => (W1_33 c tb i h1).toNat
  | ⟨34, _⟩ => (W1_34 c tb i h1).toNat
  | ⟨35, _⟩ => (W1_35 c tb i h1).toNat
  | ⟨36, _⟩ => (W1_36 c tb i h1).toNat
  | ⟨37, _⟩ => (W1_37 c tb i h1).toNat
  | ⟨38, _⟩ => (W1_38 c tb i h1).toNat
  | ⟨39, _⟩ => (W1_39 c tb i h1).toNat
  | ⟨40, _⟩ => (W1_40 c tb i h1).toNat
  | ⟨41, _⟩ => (W1_41 c tb i h1).toNat
  | ⟨42, _⟩ => (W1_42 c tb i h1).toNat
  | ⟨43, _⟩ => (W1_43 c tb i h1).toNat
  | ⟨44, _⟩ => (W1_44 c tb i h1).toNat
  | ⟨45, _⟩ => (W1_45 c tb i h1).toNat
  | ⟨46, _⟩ => (W1_46 c tb i h1).toNat
  | ⟨47, _⟩ => (W1_47 c tb i h1).toNat
  | ⟨48, _⟩ => (W1_48 c tb i h1).toNat
  | ⟨49, _⟩ => (W1_49 c tb i h1).toNat
  | ⟨50, _⟩ => (W1_50 c tb i h1).toNat
  | ⟨51, _⟩ => (W1_51 c tb i h1).toNat
  | ⟨52, _⟩ => (W1_52 c tb i h1).toNat
  | ⟨53, _⟩ => (W1_53 c tb i h1).toNat
  | ⟨54, _⟩ => (W1_54 c tb i h1).toNat
  | ⟨55, _⟩ => (W1_55 c tb i h1).toNat
  | ⟨56, _⟩ => (W1_56 c tb i h1).toNat
  | ⟨57, _⟩ => (W1_57 c tb i h1).toNat
  | ⟨58, _⟩ => (W1_58 c tb i h1).toNat
  | ⟨59, _⟩ => (W1_59 c tb i h1).toNat
  | ⟨60, _⟩ => (W1_60 c tb i h1).toNat
  | ⟨61, _⟩ => (W1_61 c tb i h1).toNat
  | ⟨62, _⟩ => (W1_62 c tb i h1).toNat
  | ⟨63, _⟩ => (W1_63 c tb i h1).toNat
  | ⟨_ + 64, h⟩ => absurd h (Nat.not_lt.2 (Nat.le_add_left _ _))
abbrev W2_0 (i : grid0.Coords) (h2 : k0_cond2 i = 1#1) : Elt F .i32 := wordAt c tb (k0_off194 i) (k0_off194_inb i h2)
theorem hw2_0 (htb : ∀ y, (tb y).toNat < 4096) (i : grid0.Coords) (h2 : k0_cond2 i = 1#1) : k0_chk65 i (W2_0 c tb i h2) := fun _ => rows_inb _ (word_lt c tb htb _ _)
abbrev s2A_0 (htb : ∀ y, (tb y).toNat < 4096) (i : grid0.Coords) (h2 : k0_cond2 i = 1#1) : Memref sig .tc .hbm S8x1024 .f32 := srcM aM (k0_off197 (W2_0 c tb i h2)) (k0_off197_inb i _ (hw2_0 c tb htb i h2) h2)
abbrev s2B_0 (htb : ∀ y, (tb y).toNat < 4096) (i : grid0.Coords) (h2 : k0_cond2 i = 1#1) : Memref sig .tc .hbm S8x1024 .f32 := srcM bM (k0_off197 (W2_0 c tb i h2)) (k0_off197_inb i _ (hw2_0 c tb htb i h2) h2)
abbrev W2_1 (i : grid0.Coords) (h2 : k0_cond2 i = 1#1) : Elt F .i32 := wordAt c tb (k0_off200 i) (k0_off200_inb i h2)
theorem hw2_1 (htb : ∀ y, (tb y).toNat < 4096) (i : grid0.Coords) (h2 : k0_cond2 i = 1#1) : k0_chk66 i (W2_1 c tb i h2) := fun _ => rows_inb _ (word_lt c tb htb _ _)
abbrev s2A_1 (htb : ∀ y, (tb y).toNat < 4096) (i : grid0.Coords) (h2 : k0_cond2 i = 1#1) : Memref sig .tc .hbm S8x1024 .f32 := srcM aM (k0_off202 (W2_1 c tb i h2)) (k0_off202_inb i _ (hw2_1 c tb htb i h2) h2)
abbrev s2B_1 (htb : ∀ y, (tb y).toNat < 4096) (i : grid0.Coords) (h2 : k0_cond2 i = 1#1) : Memref sig .tc .hbm S8x1024 .f32 := srcM bM (k0_off202 (W2_1 c tb i h2)) (k0_off202_inb i _ (hw2_1 c tb htb i h2) h2)
abbrev W2_2 (i : grid0.Coords) (h2 : k0_cond2 i = 1#1) : Elt F .i32 := wordAt c tb (k0_off205 i) (k0_off205_inb i h2)
theorem hw2_2 (htb : ∀ y, (tb y).toNat < 4096) (i : grid0.Coords) (h2 : k0_cond2 i = 1#1) : k0_chk67 i (W2_2 c tb i h2) := fun _ => rows_inb _ (word_lt c tb htb _ _)
abbrev s2A_2 (htb : ∀ y, (tb y).toNat < 4096) (i : grid0.Coords) (h2 : k0_cond2 i = 1#1) : Memref sig .tc .hbm S8x1024 .f32 := srcM aM (k0_off207 (W2_2 c tb i h2)) (k0_off207_inb i _ (hw2_2 c tb htb i h2) h2)
abbrev s2B_2 (htb : ∀ y, (tb y).toNat < 4096) (i : grid0.Coords) (h2 : k0_cond2 i = 1#1) : Memref sig .tc .hbm S8x1024 .f32 := srcM bM (k0_off207 (W2_2 c tb i h2)) (k0_off207_inb i _ (hw2_2 c tb htb i h2) h2)
abbrev W2_3 (i : grid0.Coords) (h2 : k0_cond2 i = 1#1) : Elt F .i32 := wordAt c tb (k0_off210 i) (k0_off210_inb i h2)
theorem hw2_3 (htb : ∀ y, (tb y).toNat < 4096) (i : grid0.Coords) (h2 : k0_cond2 i = 1#1) : k0_chk68 i (W2_3 c tb i h2) := fun _ => rows_inb _ (word_lt c tb htb _ _)
abbrev s2A_3 (htb : ∀ y, (tb y).toNat < 4096) (i : grid0.Coords) (h2 : k0_cond2 i = 1#1) : Memref sig .tc .hbm S8x1024 .f32 := srcM aM (k0_off212 (W2_3 c tb i h2)) (k0_off212_inb i _ (hw2_3 c tb htb i h2) h2)
abbrev s2B_3 (htb : ∀ y, (tb y).toNat < 4096) (i : grid0.Coords) (h2 : k0_cond2 i = 1#1) : Memref sig .tc .hbm S8x1024 .f32 := srcM bM (k0_off212 (W2_3 c tb i h2)) (k0_off212_inb i _ (hw2_3 c tb htb i h2) h2)
abbrev W2_4 (i : grid0.Coords) (h2 : k0_cond2 i = 1#1) : Elt F .i32 := wordAt c tb (k0_off215 i) (k0_off215_inb i h2)
theorem hw2_4 (htb : ∀ y, (tb y).toNat < 4096) (i : grid0.Coords) (h2 : k0_cond2 i = 1#1) : k0_chk69 i (W2_4 c tb i h2) := fun _ => rows_inb _ (word_lt c tb htb _ _)
abbrev s2A_4 (htb : ∀ y, (tb y).toNat < 4096) (i : grid0.Coords) (h2 : k0_cond2 i = 1#1) : Memref sig .tc .hbm S8x1024 .f32 := srcM aM (k0_off217 (W2_4 c tb i h2)) (k0_off217_inb i _ (hw2_4 c tb htb i h2) h2)
abbrev s2B_4 (htb : ∀ y, (tb y).toNat < 4096) (i : grid0.Coords) (h2 : k0_cond2 i = 1#1) : Memref sig .tc .hbm S8x1024 .f32 := srcM bM (k0_off217 (W2_4 c tb i h2)) (k0_off217_inb i _ (hw2_4 c tb htb i h2) h2)
abbrev W2_5 (i : grid0.Coords) (h2 : k0_cond2 i = 1#1) : Elt F .i32 := wordAt c tb (k0_off220 i) (k0_off220_inb i h2)
theorem hw2_5 (htb : ∀ y, (tb y).toNat < 4096) (i : grid0.Coords) (h2 : k0_cond2 i = 1#1) : k0_chk70 i (W2_5 c tb i h2) := fun _ => rows_inb _ (word_lt c tb htb _ _)
abbrev s2A_5 (htb : ∀ y, (tb y).toNat < 4096) (i : grid0.Coords) (h2 : k0_cond2 i = 1#1) : Memref sig .tc .hbm S8x1024 .f32 := srcM aM (k0_off222 (W2_5 c tb i h2)) (k0_off222_inb i _ (hw2_5 c tb htb i h2) h2)
abbrev s2B_5 (htb : ∀ y, (tb y).toNat < 4096) (i : grid0.Coords) (h2 : k0_cond2 i = 1#1) : Memref sig .tc .hbm S8x1024 .f32 := srcM bM (k0_off222 (W2_5 c tb i h2)) (k0_off222_inb i _ (hw2_5 c tb htb i h2) h2)
abbrev W2_6 (i : grid0.Coords) (h2 : k0_cond2 i = 1#1) : Elt F .i32 := wordAt c tb (k0_off225 i) (k0_off225_inb i h2)
theorem hw2_6 (htb : ∀ y, (tb y).toNat < 4096) (i : grid0.Coords) (h2 : k0_cond2 i = 1#1) : k0_chk71 i (W2_6 c tb i h2) := fun _ => rows_inb _ (word_lt c tb htb _ _)
abbrev s2A_6 (htb : ∀ y, (tb y).toNat < 4096) (i : grid0.Coords) (h2 : k0_cond2 i = 1#1) : Memref sig .tc .hbm S8x1024 .f32 := srcM aM (k0_off227 (W2_6 c tb i h2)) (k0_off227_inb i _ (hw2_6 c tb htb i h2) h2)
abbrev s2B_6 (htb : ∀ y, (tb y).toNat < 4096) (i : grid0.Coords) (h2 : k0_cond2 i = 1#1) : Memref sig .tc .hbm S8x1024 .f32 := srcM bM (k0_off227 (W2_6 c tb i h2)) (k0_off227_inb i _ (hw2_6 c tb htb i h2) h2)
abbrev W2_7 (i : grid0.Coords) (h2 : k0_cond2 i = 1#1) : Elt F .i32 := wordAt c tb (k0_off230 i) (k0_off230_inb i h2)
theorem hw2_7 (htb : ∀ y, (tb y).toNat < 4096) (i : grid0.Coords) (h2 : k0_cond2 i = 1#1) : k0_chk72 i (W2_7 c tb i h2) := fun _ => rows_inb _ (word_lt c tb htb _ _)
abbrev s2A_7 (htb : ∀ y, (tb y).toNat < 4096) (i : grid0.Coords) (h2 : k0_cond2 i = 1#1) : Memref sig .tc .hbm S8x1024 .f32 := srcM aM (k0_off232 (W2_7 c tb i h2)) (k0_off232_inb i _ (hw2_7 c tb htb i h2) h2)
abbrev s2B_7 (htb : ∀ y, (tb y).toNat < 4096) (i : grid0.Coords) (h2 : k0_cond2 i = 1#1) : Memref sig .tc .hbm S8x1024 .f32 := srcM bM (k0_off232 (W2_7 c tb i h2)) (k0_off232_inb i _ (hw2_7 c tb htb i h2) h2)
abbrev W2_8 (i : grid0.Coords) (h2 : k0_cond2 i = 1#1) : Elt F .i32 := wordAt c tb (k0_off235 i) (k0_off235_inb i h2)
theorem hw2_8 (htb : ∀ y, (tb y).toNat < 4096) (i : grid0.Coords) (h2 : k0_cond2 i = 1#1) : k0_chk73 i (W2_8 c tb i h2) := fun _ => rows_inb _ (word_lt c tb htb _ _)
abbrev s2A_8 (htb : ∀ y, (tb y).toNat < 4096) (i : grid0.Coords) (h2 : k0_cond2 i = 1#1) : Memref sig .tc .hbm S8x1024 .f32 := srcM aM (k0_off237 (W2_8 c tb i h2)) (k0_off237_inb i _ (hw2_8 c tb htb i h2) h2)
abbrev s2B_8 (htb : ∀ y, (tb y).toNat < 4096) (i : grid0.Coords) (h2 : k0_cond2 i = 1#1) : Memref sig .tc .hbm S8x1024 .f32 := srcM bM (k0_off237 (W2_8 c tb i h2)) (k0_off237_inb i _ (hw2_8 c tb htb i h2) h2)
abbrev W2_9 (i : grid0.Coords) (h2 : k0_cond2 i = 1#1) : Elt F .i32 := wordAt c tb (k0_off240 i) (k0_off240_inb i h2)
theorem hw2_9 (htb : ∀ y, (tb y).toNat < 4096) (i : grid0.Coords) (h2 : k0_cond2 i = 1#1) : k0_chk74 i (W2_9 c tb i h2) := fun _ => rows_inb _ (word_lt c tb htb _ _)
abbrev s2A_9 (htb : ∀ y, (tb y).toNat < 4096) (i : grid0.Coords) (h2 : k0_cond2 i = 1#1) : Memref sig .tc .hbm S8x1024 .f32 := srcM aM (k0_off242 (W2_9 c tb i h2)) (k0_off242_inb i _ (hw2_9 c tb htb i h2) h2)
abbrev s2B_9 (htb : ∀ y, (tb y).toNat < 4096) (i : grid0.Coords) (h2 : k0_cond2 i = 1#1) : Memref sig .tc .hbm S8x1024 .f32 := srcM bM (k0_off242 (W2_9 c tb i h2)) (k0_off242_inb i _ (hw2_9 c tb htb i h2) h2)
abbrev W2_10 (i : grid0.Coords) (h2 : k0_cond2 i = 1#1) : Elt F .i32 := wordAt c tb (k0_off245 i) (k0_off245_inb i h2)
theorem hw2_10 (htb : ∀ y, (tb y).toNat < 4096) (i : grid0.Coords) (h2 : k0_cond2 i = 1#1) : k0_chk75 i (W2_10 c tb i h2) := fun _ => rows_inb _ (word_lt c tb htb _ _)
abbrev s2A_10 (htb : ∀ y, (tb y).toNat < 4096) (i : grid0.Coords) (h2 : k0_cond2 i = 1#1) : Memref sig .tc .hbm S8x1024 .f32 := srcM aM (k0_off247 (W2_10 c tb i h2)) (k0_off247_inb i _ (hw2_10 c tb htb i h2) h2)
abbrev s2B_10 (htb : ∀ y, (tb y).toNat < 4096) (i : grid0.Coords) (h2 : k0_cond2 i = 1#1) : Memref sig .tc .hbm S8x1024 .f32 := srcM bM (k0_off247 (W2_10 c tb i h2)) (k0_off247_inb i _ (hw2_10 c tb htb i h2) h2)
abbrev W2_11 (i : grid0.Coords) (h2 : k0_cond2 i = 1#1) : Elt F .i32 := wordAt c tb (k0_off250 i) (k0_off250_inb i h2)
theorem hw2_11 (htb : ∀ y, (tb y).toNat < 4096) (i : grid0.Coords) (h2 : k0_cond2 i = 1#1) : k0_chk76 i (W2_11 c tb i h2) := fun _ => rows_inb _ (word_lt c tb htb _ _)
abbrev s2A_11 (htb : ∀ y, (tb y).toNat < 4096) (i : grid0.Coords) (h2 : k0_cond2 i = 1#1) : Memref sig .tc .hbm S8x1024 .f32 := srcM aM (k0_off252 (W2_11 c tb i h2)) (k0_off252_inb i _ (hw2_11 c tb htb i h2) h2)
abbrev s2B_11 (htb : ∀ y, (tb y).toNat < 4096) (i : grid0.Coords) (h2 : k0_cond2 i = 1#1) : Memref sig .tc .hbm S8x1024 .f32 := srcM bM (k0_off252 (W2_11 c tb i h2)) (k0_off252_inb i _ (hw2_11 c tb htb i h2) h2)
abbrev W2_12 (i : grid0.Coords) (h2 : k0_cond2 i = 1#1) : Elt F .i32 := wordAt c tb (k0_off255 i) (k0_off255_inb i h2)
theorem hw2_12 (htb : ∀ y, (tb y).toNat < 4096) (i : grid0.Coords) (h2 : k0_cond2 i = 1#1) : k0_chk77 i (W2_12 c tb i h2) := fun _ => rows_inb _ (word_lt c tb htb _ _)
abbrev s2A_12 (htb : ∀ y, (tb y).toNat < 4096) (i : grid0.Coords) (h2 : k0_cond2 i = 1#1) : Memref sig .tc .hbm S8x1024 .f32 := srcM aM (k0_off257 (W2_12 c tb i h2)) (k0_off257_inb i _ (hw2_12 c tb htb i h2) h2)
abbrev s2B_12 (htb : ∀ y, (tb y).toNat < 4096) (i : grid0.Coords) (h2 : k0_cond2 i = 1#1) : Memref sig .tc .hbm S8x1024 .f32 := srcM bM (k0_off257 (W2_12 c tb i h2)) (k0_off257_inb i _ (hw2_12 c tb htb i h2) h2)
abbrev W2_13 (i : grid0.Coords) (h2 : k0_cond2 i = 1#1) : Elt F .i32 := wordAt c tb (k0_off260 i) (k0_off260_inb i h2)
theorem hw2_13 (htb : ∀ y, (tb y).toNat < 4096) (i : grid0.Coords) (h2 : k0_cond2 i = 1#1) : k0_chk78 i (W2_13 c tb i h2) := fun _ => rows_inb _ (word_lt c tb htb _ _)
abbrev s2A_13 (htb : ∀ y, (tb y).toNat < 4096) (i : grid0.Coords) (h2 : k0_cond2 i = 1#1) : Memref sig .tc .hbm S8x1024 .f32 := srcM aM (k0_off262 (W2_13 c tb i h2)) (k0_off262_inb i _ (hw2_13 c tb htb i h2) h2)
abbrev s2B_13 (htb : ∀ y, (tb y).toNat < 4096) (i : grid0.Coords) (h2 : k0_cond2 i = 1#1) : Memref sig .tc .hbm S8x1024 .f32 := srcM bM (k0_off262 (W2_13 c tb i h2)) (k0_off262_inb i _ (hw2_13 c tb htb i h2) h2)
abbrev W2_14 (i : grid0.Coords) (h2 : k0_cond2 i = 1#1) : Elt F .i32 := wordAt c tb (k0_off265 i) (k0_off265_inb i h2)
theorem hw2_14 (htb : ∀ y, (tb y).toNat < 4096) (i : grid0.Coords) (h2 : k0_cond2 i = 1#1) : k0_chk79 i (W2_14 c tb i h2) := fun _ => rows_inb _ (word_lt c tb htb _ _)
abbrev s2A_14 (htb : ∀ y, (tb y).toNat < 4096) (i : grid0.Coords) (h2 : k0_cond2 i = 1#1) : Memref sig .tc .hbm S8x1024 .f32 := srcM aM (k0_off267 (W2_14 c tb i h2)) (k0_off267_inb i _ (hw2_14 c tb htb i h2) h2)
abbrev s2B_14 (htb : ∀ y, (tb y).toNat < 4096) (i : grid0.Coords) (h2 : k0_cond2 i = 1#1) : Memref sig .tc .hbm S8x1024 .f32 := srcM bM (k0_off267 (W2_14 c tb i h2)) (k0_off267_inb i _ (hw2_14 c tb htb i h2) h2)
abbrev W2_15 (i : grid0.Coords) (h2 : k0_cond2 i = 1#1) : Elt F .i32 := wordAt c tb (k0_off270 i) (k0_off270_inb i h2)
theorem hw2_15 (htb : ∀ y, (tb y).toNat < 4096) (i : grid0.Coords) (h2 : k0_cond2 i = 1#1) : k0_chk80 i (W2_15 c tb i h2) := fun _ => rows_inb _ (word_lt c tb htb _ _)
abbrev s2A_15 (htb : ∀ y, (tb y).toNat < 4096) (i : grid0.Coords) (h2 : k0_cond2 i = 1#1) : Memref sig .tc .hbm S8x1024 .f32 := srcM aM (k0_off272 (W2_15 c tb i h2)) (k0_off272_inb i _ (hw2_15 c tb htb i h2) h2)
abbrev s2B_15 (htb : ∀ y, (tb y).toNat < 4096) (i : grid0.Coords) (h2 : k0_cond2 i = 1#1) : Memref sig .tc .hbm S8x1024 .f32 := srcM bM (k0_off272 (W2_15 c tb i h2)) (k0_off272_inb i _ (hw2_15 c tb htb i h2) h2)
abbrev W2_16 (i : grid0.Coords) (h2 : k0_cond2 i = 1#1) : Elt F .i32 := wordAt c tb (k0_off275 i) (k0_off275_inb i h2)
theorem hw2_16 (htb : ∀ y, (tb y).toNat < 4096) (i : grid0.Coords) (h2 : k0_cond2 i = 1#1) : k0_chk81 i (W2_16 c tb i h2) := fun _ => rows_inb _ (word_lt c tb htb _ _)
abbrev s2A_16 (htb : ∀ y, (tb y).toNat < 4096) (i : grid0.Coords) (h2 : k0_cond2 i = 1#1) : Memref sig .tc .hbm S8x1024 .f32 := srcM aM (k0_off277 (W2_16 c tb i h2)) (k0_off277_inb i _ (hw2_16 c tb htb i h2) h2)
abbrev s2B_16 (htb : ∀ y, (tb y).toNat < 4096) (i : grid0.Coords) (h2 : k0_cond2 i = 1#1) : Memref sig .tc .hbm S8x1024 .f32 := srcM bM (k0_off277 (W2_16 c tb i h2)) (k0_off277_inb i _ (hw2_16 c tb htb i h2) h2)
abbrev W2_17 (i : grid0.Coords) (h2 : k0_cond2 i = 1#1) : Elt F .i32 := wordAt c tb (k0_off280 i) (k0_off280_inb i h2)
theorem hw2_17 (htb : ∀ y, (tb y).toNat < 4096) (i : grid0.Coords) (h2 : k0_cond2 i = 1#1) : k0_chk82 i (W2_17 c tb i h2) := fun _ => rows_inb _ (word_lt c tb htb _ _)
abbrev s2A_17 (htb : ∀ y, (tb y).toNat < 4096) (i : grid0.Coords) (h2 : k0_cond2 i = 1#1) : Memref sig .tc .hbm S8x1024 .f32 := srcM aM (k0_off282 (W2_17 c tb i h2)) (k0_off282_inb i _ (hw2_17 c tb htb i h2) h2)
abbrev s2B_17 (htb : ∀ y, (tb y).toNat < 4096) (i : grid0.Coords) (h2 : k0_cond2 i = 1#1) : Memref sig .tc .hbm S8x1024 .f32 := srcM bM (k0_off282 (W2_17 c tb i h2)) (k0_off282_inb i _ (hw2_17 c tb htb i h2) h2)
abbrev W2_18 (i : grid0.Coords) (h2 : k0_cond2 i = 1#1) : Elt F .i32 := wordAt c tb (k0_off285 i) (k0_off285_inb i h2)
theorem hw2_18 (htb : ∀ y, (tb y).toNat < 4096) (i : grid0.Coords) (h2 : k0_cond2 i = 1#1) : k0_chk83 i (W2_18 c tb i h2) := fun _ => rows_inb _ (word_lt c tb htb _ _)
abbrev s2A_18 (htb : ∀ y, (tb y).toNat < 4096) (i : grid0.Coords) (h2 : k0_cond2 i = 1#1) : Memref sig .tc .hbm S8x1024 .f32 := srcM aM (k0_off287 (W2_18 c tb i h2)) (k0_off287_inb i _ (hw2_18 c tb htb i h2) h2)
abbrev s2B_18 (htb : ∀ y, (tb y).toNat < 4096) (i : grid0.Coords) (h2 : k0_cond2 i = 1#1) : Memref sig .tc .hbm S8x1024 .f32 := srcM bM (k0_off287 (W2_18 c tb i h2)) (k0_off287_inb i _ (hw2_18 c tb htb i h2) h2)
abbrev W2_19 (i : grid0.Coords) (h2 : k0_cond2 i = 1#1) : Elt F .i32 := wordAt c tb (k0_off290 i) (k0_off290_inb i h2)
theorem hw2_19 (htb : ∀ y, (tb y).toNat < 4096) (i : grid0.Coords) (h2 : k0_cond2 i = 1#1) : k0_chk84 i (W2_19 c tb i h2) := fun _ => rows_inb _ (word_lt c tb htb _ _)
abbrev s2A_19 (htb : ∀ y, (tb y).toNat < 4096) (i : grid0.Coords) (h2 : k0_cond2 i = 1#1) : Memref sig .tc .hbm S8x1024 .f32 := srcM aM (k0_off292 (W2_19 c tb i h2)) (k0_off292_inb i _ (hw2_19 c tb htb i h2) h2)
abbrev s2B_19 (htb : ∀ y, (tb y).toNat < 4096) (i : grid0.Coords) (h2 : k0_cond2 i = 1#1) : Memref sig .tc .hbm S8x1024 .f32 := srcM bM (k0_off292 (W2_19 c tb i h2)) (k0_off292_inb i _ (hw2_19 c tb htb i h2) h2)
abbrev W2_20 (i : grid0.Coords) (h2 : k0_cond2 i = 1#1) : Elt F .i32 := wordAt c tb (k0_off295 i) (k0_off295_inb i h2)
theorem hw2_20 (htb : ∀ y, (tb y).toNat < 4096) (i : grid0.Coords) (h2 : k0_cond2 i = 1#1) : k0_chk85 i (W2_20 c tb i h2) := fun _ => rows_inb _ (word_lt c tb htb _ _)
abbrev s2A_20 (htb : ∀ y, (tb y).toNat < 4096) (i : grid0.Coords) (h2 : k0_cond2 i = 1#1) : Memref sig .tc .hbm S8x1024 .f32 := srcM aM (k0_off297 (W2_20 c tb i h2)) (k0_off297_inb i _ (hw2_20 c tb htb i h2) h2)
abbrev s2B_20 (htb : ∀ y, (tb y).toNat < 4096) (i : grid0.Coords) (h2 : k0_cond2 i = 1#1) : Memref sig .tc .hbm S8x1024 .f32 := srcM bM (k0_off297 (W2_20 c tb i h2)) (k0_off297_inb i _ (hw2_20 c tb htb i h2) h2)
abbrev W2_21 (i : grid0.Coords) (h2 : k0_cond2 i = 1#1) : Elt F .i32 := wordAt c tb (k0_off300 i) (k0_off300_inb i h2)
theorem hw2_21 (htb : ∀ y, (tb y).toNat < 4096) (i : grid0.Coords) (h2 : k0_cond2 i = 1#1) : k0_chk86 i (W2_21 c tb i h2) := fun _ => rows_inb _ (word_lt c tb htb _ _)
abbrev s2A_21 (htb : ∀ y, (tb y).toNat < 4096) (i : grid0.Coords) (h2 : k0_cond2 i = 1#1) : Memref sig .tc .hbm S8x1024 .f32 := srcM aM (k0_off302 (W2_21 c tb i h2)) (k0_off302_inb i _ (hw2_21 c tb htb i h2) h2)
abbrev s2B_21 (htb : ∀ y, (tb y).toNat < 4096) (i : grid0.Coords) (h2 : k0_cond2 i = 1#1) : Memref sig .tc .hbm S8x1024 .f32 := srcM bM (k0_off302 (W2_21 c tb i h2)) (k0_off302_inb i _ (hw2_21 c tb htb i h2) h2)
abbrev W2_22 (i : grid0.Coords) (h2 : k0_cond2 i = 1#1) : Elt F .i32 := wordAt c tb (k0_off305 i) (k0_off305_inb i h2)
theorem hw2_22 (htb : ∀ y, (tb y).toNat < 4096) (i : grid0.Coords) (h2 : k0_cond2 i = 1#1) : k0_chk87 i (W2_22 c tb i h2) := fun _ => rows_inb _ (word_lt c tb htb _ _)
abbrev s2A_22 (htb : ∀ y, (tb y).toNat < 4096) (i : grid0.Coords) (h2 : k0_cond2 i = 1#1) : Memref sig .tc .hbm S8x1024 .f32 := srcM aM (k0_off307 (W2_22 c tb i h2)) (k0_off307_inb i _ (hw2_22 c tb htb i h2) h2)
abbrev s2B_22 (htb : ∀ y, (tb y).toNat < 4096) (i : grid0.Coords) (h2 : k0_cond2 i = 1#1) : Memref sig .tc .hbm S8x1024 .f32 := srcM bM (k0_off307 (W2_22 c tb i h2)) (k0_off307_inb i _ (hw2_22 c tb htb i h2) h2)
abbrev W2_23 (i : grid0.Coords) (h2 : k0_cond2 i = 1#1) : Elt F .i32 := wordAt c tb (k0_off310 i) (k0_off310_inb i h2)
theorem hw2_23 (htb : ∀ y, (tb y).toNat < 4096) (i : grid0.Coords) (h2 : k0_cond2 i = 1#1) : k0_chk88 i (W2_23 c tb i h2) := fun _ => rows_inb _ (word_lt c tb htb _ _)
abbrev s2A_23 (htb : ∀ y, (tb y).toNat < 4096) (i : grid0.Coords) (h2 : k0_cond2 i = 1#1) : Memref sig .tc .hbm S8x1024 .f32 := srcM aM (k0_off312 (W2_23 c tb i h2)) (k0_off312_inb i _ (hw2_23 c tb htb i h2) h2)
abbrev s2B_23 (htb : ∀ y, (tb y).toNat < 4096) (i : grid0.Coords) (h2 : k0_cond2 i = 1#1) : Memref sig .tc .hbm S8x1024 .f32 := srcM bM (k0_off312 (W2_23 c tb i h2)) (k0_off312_inb i _ (hw2_23 c tb htb i h2) h2)
abbrev W2_24 (i : grid0.Coords) (h2 : k0_cond2 i = 1#1) : Elt F .i32 := wordAt c tb (k0_off315 i) (k0_off315_inb i h2)
theorem hw2_24 (htb : ∀ y, (tb y).toNat < 4096) (i : grid0.Coords) (h2 : k0_cond2 i = 1#1) : k0_chk89 i (W2_24 c tb i h2) := fun _ => rows_inb _ (word_lt c tb htb _ _)
abbrev s2A_24 (htb : ∀ y, (tb y).toNat < 4096) (i : grid0.Coords) (h2 : k0_cond2 i = 1#1) : Memref sig .tc .hbm S8x1024 .f32 := srcM aM (k0_off317 (W2_24 c tb i h2)) (k0_off317_inb i _ (hw2_24 c tb htb i h2) h2)
abbrev s2B_24 (htb : ∀ y, (tb y).toNat < 4096) (i : grid0.Coords) (h2 : k0_cond2 i = 1#1) : Memref sig .tc .hbm S8x1024 .f32 := srcM bM (k0_off317 (W2_24 c tb i h2)) (k0_off317_inb i _ (hw2_24 c tb htb i h2) h2)
abbrev W2_25 (i : grid0.Coords) (h2 : k0_cond2 i = 1#1) : Elt F .i32 := wordAt c tb (k0_off320 i) (k0_off320_inb i h2)
theorem hw2_25 (htb : ∀ y, (tb y).toNat < 4096) (i : grid0.Coords) (h2 : k0_cond2 i = 1#1) : k0_chk90 i (W2_25 c tb i h2) := fun _ => rows_inb _ (word_lt c tb htb _ _)
abbrev s2A_25 (htb : ∀ y, (tb y).toNat < 4096) (i : grid0.Coords) (h2 : k0_cond2 i = 1#1) : Memref sig .tc .hbm S8x1024 .f32 := srcM aM (k0_off322 (W2_25 c tb i h2)) (k0_off322_inb i _ (hw2_25 c tb htb i h2) h2)
abbrev s2B_25 (htb : ∀ y, (tb y).toNat < 4096) (i : grid0.Coords) (h2 : k0_cond2 i = 1#1) : Memref sig .tc .hbm S8x1024 .f32 := srcM bM (k0_off322 (W2_25 c tb i h2)) (k0_off322_inb i _ (hw2_25 c tb htb i h2) h2)
abbrev W2_26 (i : grid0.Coords) (h2 : k0_cond2 i = 1#1) : Elt F .i32 := wordAt c tb (k0_off325 i) (k0_off325_inb i h2)
theorem hw2_26 (htb : ∀ y, (tb y).toNat < 4096) (i : grid0.Coords) (h2 : k0_cond2 i = 1#1) : k0_chk91 i (W2_26 c tb i h2) := fun _ => rows_inb _ (word_lt c tb htb _ _)
abbrev s2A_26 (htb : ∀ y, (tb y).toNat < 4096) (i : grid0.Coords) (h2 : k0_cond2 i = 1#1) : Memref sig .tc .hbm S8x1024 .f32 := srcM aM (k0_off327 (W2_26 c tb i h2)) (k0_off327_inb i _ (hw2_26 c tb htb i h2) h2)
abbrev s2B_26 (htb : ∀ y, (tb y).toNat < 4096) (i : grid0.Coords) (h2 : k0_cond2 i = 1#1) : Memref sig .tc .hbm S8x1024 .f32 := srcM bM (k0_off327 (W2_26 c tb i h2)) (k0_off327_inb i _ (hw2_26 c tb htb i h2) h2)
abbrev W2_27 (i : grid0.Coords) (h2 : k0_cond2 i = 1#1) : Elt F .i32 := wordAt c tb (k0_off330 i) (k0_off330_inb i h2)
theorem hw2_27 (htb : ∀ y, (tb y).toNat < 4096) (i : grid0.Coords) (h2 : k0_cond2 i = 1#1) : k0_chk92 i (W2_27 c tb i h2) := fun _ => rows_inb _ (word_lt c tb htb _ _)
abbrev s2A_27 (htb : ∀ y, (tb y).toNat < 4096) (i : grid0.Coords) (h2 : k0_cond2 i = 1#1) : Memref sig .tc .hbm S8x1024 .f32 := srcM aM (k0_off332 (W2_27 c tb i h2)) (k0_off332_inb i _ (hw2_27 c tb htb i h2) h2)
abbrev s2B_27 (htb : ∀ y, (tb y).toNat < 4096) (i : grid0.Coords) (h2 : k0_cond2 i = 1#1) : Memref sig .tc .hbm S8x1024 .f32 := srcM bM (k0_off332 (W2_27 c tb i h2)) (k0_off332_inb i _ (hw2_27 c tb htb i h2) h2)
abbrev W2_28 (i : grid0.Coords) (h2 : k0_cond2 i = 1#1) : Elt F .i32 := wordAt c tb (k0_off335 i) (k0_off335_inb i h2)
theorem hw2_28 (htb : ∀ y, (tb y).toNat < 4096) (i : grid0.Coords) (h2 : k0_cond2 i = 1#1) : k0_chk93 i (W2_28 c tb i h2) := fun _ => rows_inb _ (word_lt c tb htb _ _)
abbrev s2A_28 (htb : ∀ y, (tb y).toNat < 4096) (i : grid0.Coords) (h2 : k0_cond2 i = 1#1) : Memref sig .tc .hbm S8x1024 .f32 := srcM aM (k0_off337 (W2_28 c tb i h2)) (k0_off337_inb i _ (hw2_28 c tb htb i h2) h2)
abbrev s2B_28 (htb : ∀ y, (tb y).toNat < 4096) (i : grid0.Coords) (h2 : k0_cond2 i = 1#1) : Memref sig .tc .hbm S8x1024 .f32 := srcM bM (k0_off337 (W2_28 c tb i h2)) (k0_off337_inb i _ (hw2_28 c tb htb i h2) h2)
abbrev W2_29 (i : grid0.Coords) (h2 : k0_cond2 i = 1#1) : Elt F .i32 := wordAt c tb (k0_off340 i) (k0_off340_inb i h2)
theorem hw2_29 (htb : ∀ y, (tb y).toNat < 4096) (i : grid0.Coords) (h2 : k0_cond2 i = 1#1) : k0_chk94 i (W2_29 c tb i h2) := fun _ => rows_inb _ (word_lt c tb htb _ _)
abbrev s2A_29 (htb : ∀ y, (tb y).toNat < 4096) (i : grid0.Coords) (h2 : k0_cond2 i = 1#1) : Memref sig .tc .hbm S8x1024 .f32 := srcM aM (k0_off342 (W2_29 c tb i h2)) (k0_off342_inb i _ (hw2_29 c tb htb i h2) h2)
abbrev s2B_29 (htb : ∀ y, (tb y).toNat < 4096) (i : grid0.Coords) (h2 : k0_cond2 i = 1#1) : Memref sig .tc .hbm S8x1024 .f32 := srcM bM (k0_off342 (W2_29 c tb i h2)) (k0_off342_inb i _ (hw2_29 c tb htb i h2) h2)
abbrev W2_30 (i : grid0.Coords) (h2 : k0_cond2 i = 1#1) : Elt F .i32 := wordAt c tb (k0_off345 i) (k0_off345_inb i h2)
theorem hw2_30 (htb : ∀ y, (tb y).toNat < 4096) (i : grid0.Coords) (h2 : k0_cond2 i = 1#1) : k0_chk95 i (W2_30 c tb i h2) := fun _ => rows_inb _ (word_lt c tb htb _ _)
abbrev s2A_30 (htb : ∀ y, (tb y).toNat < 4096) (i : grid0.Coords) (h2 : k0_cond2 i = 1#1) : Memref sig .tc .hbm S8x1024 .f32 := srcM aM (k0_off347 (W2_30 c tb i h2)) (k0_off347_inb i _ (hw2_30 c tb htb i h2) h2)
abbrev s2B_30 (htb : ∀ y, (tb y).toNat < 4096) (i : grid0.Coords) (h2 : k0_cond2 i = 1#1) : Memref sig .tc .hbm S8x1024 .f32 := srcM bM (k0_off347 (W2_30 c tb i h2)) (k0_off347_inb i _ (hw2_30 c tb htb i h2) h2)
abbrev W2_31 (i : grid0.Coords) (h2 : k0_cond2 i = 1#1) : Elt F .i32 := wordAt c tb (k0_off350 i) (k0_off350_inb i h2)
theorem hw2_31 (htb : ∀ y, (tb y).toNat < 4096) (i : grid0.Coords) (h2 : k0_cond2 i = 1#1) : k0_chk96 i (W2_31 c tb i h2) := fun _ => rows_inb _ (word_lt c tb htb _ _)
abbrev s2A_31 (htb : ∀ y, (tb y).toNat < 4096) (i : grid0.Coords) (h2 : k0_cond2 i = 1#1) : Memref sig .tc .hbm S8x1024 .f32 := srcM aM (k0_off352 (W2_31 c tb i h2)) (k0_off352_inb i _ (hw2_31 c tb htb i h2) h2)
abbrev s2B_31 (htb : ∀ y, (tb y).toNat < 4096) (i : grid0.Coords) (h2 : k0_cond2 i = 1#1) : Memref sig .tc .hbm S8x1024 .f32 := srcM bM (k0_off352 (W2_31 c tb i h2)) (k0_off352_inb i _ (hw2_31 c tb htb i h2) h2)
abbrev W2_32 (i : grid0.Coords) (h2 : k0_cond2 i = 1#1) : Elt F .i32 := wordAt c tb (k0_off355 i) (k0_off355_inb i h2)
theorem hw2_32 (htb : ∀ y, (tb y).toNat < 4096) (i : grid0.Coords) (h2 : k0_cond2 i = 1#1) : k0_chk97 i (W2_32 c tb i h2) := fun _ => rows_inb _ (word_lt c tb htb _ _)
abbrev s2A_32 (htb : ∀ y, (tb y).toNat < 4096) (i : grid0.Coords) (h2 : k0_cond2 i = 1#1) : Memref sig .tc .hbm S8x1024 .f32 := srcM aM (k0_off357 (W2_32 c tb i h2)) (k0_off357_inb i _ (hw2_32 c tb htb i h2) h2)
abbrev s2B_32 (htb : ∀ y, (tb y).toNat < 4096) (i : grid0.Coords) (h2 : k0_cond2 i = 1#1) : Memref sig .tc .hbm S8x1024 .f32 := srcM bM (k0_off357 (W2_32 c tb i h2)) (k0_off357_inb i _ (hw2_32 c tb htb i h2) h2)
abbrev W2_33 (i : grid0.Coords) (h2 : k0_cond2 i = 1#1) : Elt F .i32 := wordAt c tb (k0_off360 i) (k0_off360_inb i h2)
theorem hw2_33 (htb : ∀ y, (tb y).toNat < 4096) (i : grid0.Coords) (h2 : k0_cond2 i = 1#1) : k0_chk98 i (W2_33 c tb i h2) := fun _ => rows_inb _ (word_lt c tb htb _ _)
abbrev s2A_33 (htb : ∀ y, (tb y).toNat < 4096) (i : grid0.Coords) (h2 : k0_cond2 i = 1#1) : Memref sig .tc .hbm S8x1024 .f32 := srcM aM (k0_off362 (W2_33 c tb i h2)) (k0_off362_inb i _ (hw2_33 c tb htb i h2) h2)
abbrev s2B_33 (htb : ∀ y, (tb y).toNat < 4096) (i : grid0.Coords) (h2 : k0_cond2 i = 1#1) : Memref sig .tc .hbm S8x1024 .f32 := srcM bM (k0_off362 (W2_33 c tb i h2)) (k0_off362_inb i _ (hw2_33 c tb htb i h2) h2)
abbrev W2_34 (i : grid0.Coords) (h2 : k0_cond2 i = 1#1) : Elt F .i32 := wordAt c tb (k0_off365 i) (k0_off365_inb i h2)
theorem hw2_34 (htb : ∀ y, (tb y).toNat < 4096) (i : grid0.Coords) (h2 : k0_cond2 i = 1#1) : k0_chk99 i (W2_34 c tb i h2) := fun _ => rows_inb _ (word_lt c tb htb _ _)
abbrev s2A_34 (htb : ∀ y, (tb y).toNat < 4096) (i : grid0.Coords) (h2 : k0_cond2 i = 1#1) : Memref sig .tc .hbm S8x1024 .f32 := srcM aM (k0_off367 (W2_34 c tb i h2)) (k0_off367_inb i _ (hw2_34 c tb htb i h2) h2)
abbrev s2B_34 (htb : ∀ y, (tb y).toNat < 4096) (i : grid0.Coords) (h2 : k0_cond2 i = 1#1) : Memref sig .tc .hbm S8x1024 .f32 := srcM bM (k0_off367 (W2_34 c tb i h2)) (k0_off367_inb i _ (hw2_34 c tb htb i h2) h2)
abbrev W2_35 (i : grid0.Coords) (h2 : k0_cond2 i = 1#1) : Elt F .i32 := wordAt c tb (k0_off370 i) (k0_off370_inb i h2)
theorem hw2_35 (htb : ∀ y, (tb y).toNat < 4096) (i : grid0.Coords) (h2 : k0_cond2 i = 1#1) : k0_chk100 i (W2_35 c tb i h2) := fun _ => rows_inb _ (word_lt c tb htb _ _)
abbrev s2A_35 (htb : ∀ y, (tb y).toNat < 4096) (i : grid0.Coords) (h2 : k0_cond2 i = 1#1) : Memref sig .tc .hbm S8x1024 .f32 := srcM aM (k0_off372 (W2_35 c tb i h2)) (k0_off372_inb i _ (hw2_35 c tb htb i h2) h2)
abbrev s2B_35 (htb : ∀ y, (tb y).toNat < 4096) (i : grid0.Coords) (h2 : k0_cond2 i = 1#1) : Memref sig .tc .hbm S8x1024 .f32 := srcM bM (k0_off372 (W2_35 c tb i h2)) (k0_off372_inb i _ (hw2_35 c tb htb i h2) h2)
abbrev W2_36 (i : grid0.Coords) (h2 : k0_cond2 i = 1#1) : Elt F .i32 := wordAt c tb (k0_off375 i) (k0_off375_inb i h2)
theorem hw2_36 (htb : ∀ y, (tb y).toNat < 4096) (i : grid0.Coords) (h2 : k0_cond2 i = 1#1) : k0_chk101 i (W2_36 c tb i h2) := fun _ => rows_inb _ (word_lt c tb htb _ _)
abbrev s2A_36 (htb : ∀ y, (tb y).toNat < 4096) (i : grid0.Coords) (h2 : k0_cond2 i = 1#1) : Memref sig .tc .hbm S8x1024 .f32 := srcM aM (k0_off377 (W2_36 c tb i h2)) (k0_off377_inb i _ (hw2_36 c tb htb i h2) h2)
abbrev s2B_36 (htb : ∀ y, (tb y).toNat < 4096) (i : grid0.Coords) (h2 : k0_cond2 i = 1#1) : Memref sig .tc .hbm S8x1024 .f32 := srcM bM (k0_off377 (W2_36 c tb i h2)) (k0_off377_inb i _ (hw2_36 c tb htb i h2) h2)
abbrev W2_37 (i : grid0.Coords) (h2 : k0_cond2 i = 1#1) : Elt F .i32 := wordAt c tb (k0_off380 i) (k0_off380_inb i h2)
theorem hw2_37 (htb : ∀ y, (tb y).toNat < 4096) (i : grid0.Coords) (h2 : k0_cond2 i = 1#1) : k0_chk102 i (W2_37 c tb i h2) := fun _ => rows_inb _ (word_lt c tb htb _ _)
abbrev s2A_37 (htb : ∀ y, (tb y).toNat < 4096) (i : grid0.Coords) (h2 : k0_cond2 i = 1#1) : Memref sig .tc .hbm S8x1024 .f32 := srcM aM (k0_off382 (W2_37 c tb i h2)) (k0_off382_inb i _ (hw2_37 c tb htb i h2) h2)
abbrev s2B_37 (htb : ∀ y, (tb y).toNat < 4096) (i : grid0.Coords) (h2 : k0_cond2 i = 1#1) : Memref sig .tc .hbm S8x1024 .f32 := srcM bM (k0_off382 (W2_37 c tb i h2)) (k0_off382_inb i _ (hw2_37 c tb htb i h2) h2)
abbrev W2_38 (i : grid0.Coords) (h2 : k0_cond2 i = 1#1) : Elt F .i32 := wordAt c tb (k0_off385 i) (k0_off385_inb i h2)
theorem hw2_38 (htb : ∀ y, (tb y).toNat < 4096) (i : grid0.Coords) (h2 : k0_cond2 i = 1#1) : k0_chk103 i (W2_38 c tb i h2) := fun _ => rows_inb _ (word_lt c tb htb _ _)
abbrev s2A_38 (htb : ∀ y, (tb y).toNat < 4096) (i : grid0.Coords) (h2 : k0_cond2 i = 1#1) : Memref sig .tc .hbm S8x1024 .f32 := srcM aM (k0_off387 (W2_38 c tb i h2)) (k0_off387_inb i _ (hw2_38 c tb htb i h2) h2)
abbrev s2B_38 (htb : ∀ y, (tb y).toNat < 4096) (i : grid0.Coords) (h2 : k0_cond2 i = 1#1) : Memref sig .tc .hbm S8x1024 .f32 := srcM bM (k0_off387 (W2_38 c tb i h2)) (k0_off387_inb i _ (hw2_38 c tb htb i h2) h2)
abbrev W2_39 (i : grid0.Coords) (h2 : k0_cond2 i = 1#1) : Elt F .i32 := wordAt c tb (k0_off390 i) (k0_off390_inb i h2)
theorem hw2_39 (htb : ∀ y, (tb y).toNat < 4096) (i : grid0.Coords) (h2 : k0_cond2 i = 1#1) : k0_chk104 i (W2_39 c tb i h2) := fun _ => rows_inb _ (word_lt c tb htb _ _)
abbrev s2A_39 (htb : ∀ y, (tb y).toNat < 4096) (i : grid0.Coords) (h2 : k0_cond2 i = 1#1) : Memref sig .tc .hbm S8x1024 .f32 := srcM aM (k0_off392 (W2_39 c tb i h2)) (k0_off392_inb i _ (hw2_39 c tb htb i h2) h2)
abbrev s2B_39 (htb : ∀ y, (tb y).toNat < 4096) (i : grid0.Coords) (h2 : k0_cond2 i = 1#1) : Memref sig .tc .hbm S8x1024 .f32 := srcM bM (k0_off392 (W2_39 c tb i h2)) (k0_off392_inb i _ (hw2_39 c tb htb i h2) h2)
abbrev W2_40 (i : grid0.Coords) (h2 : k0_cond2 i = 1#1) : Elt F .i32 := wordAt c tb (k0_off395 i) (k0_off395_inb i h2)
theorem hw2_40 (htb : ∀ y, (tb y).toNat < 4096) (i : grid0.Coords) (h2 : k0_cond2 i = 1#1) : k0_chk105 i (W2_40 c tb i h2) := fun _ => rows_inb _ (word_lt c tb htb _ _)
abbrev s2A_40 (htb : ∀ y, (tb y).toNat < 4096) (i : grid0.Coords) (h2 : k0_cond2 i = 1#1) : Memref sig .tc .hbm S8x1024 .f32 := srcM aM (k0_off397 (W2_40 c tb i h2)) (k0_off397_inb i _ (hw2_40 c tb htb i h2) h2)
abbrev s2B_40 (htb : ∀ y, (tb y).toNat < 4096) (i : grid0.Coords) (h2 : k0_cond2 i = 1#1) : Memref sig .tc .hbm S8x1024 .f32 := srcM bM (k0_off397 (W2_40 c tb i h2)) (k0_off397_inb i _ (hw2_40 c tb htb i h2) h2)
abbrev W2_41 (i : grid0.Coords) (h2 : k0_cond2 i = 1#1) : Elt F .i32 := wordAt c tb (k0_off400 i) (k0_off400_inb i h2)
theorem hw2_41 (htb : ∀ y, (tb y).toNat < 4096) (i : grid0.Coords) (h2 : k0_cond2 i = 1#1) : k0_chk106 i (W2_41 c tb i h2) := fun _ => rows_inb _ (word_lt c tb htb _ _)
abbrev s2A_41 (htb : ∀ y, (tb y).toNat < 4096) (i : grid0.Coords) (h2 : k0_cond2 i = 1#1) : Memref sig .tc .hbm S8x1024 .f32 := srcM aM (k0_off402 (W2_41 c tb i h2)) (k0_off402_inb i _ (hw2_41 c tb htb i h2) h2)
abbrev s2B_41 (htb : ∀ y, (tb y).toNat < 4096) (i : grid0.Coords) (h2 : k0_cond2 i = 1#1) : Memref sig .tc .hbm S8x1024 .f32 := srcM bM (k0_off402 (W2_41 c tb i h2)) (k0_off402_inb i _ (hw2_41 c tb htb i h2) h2)
abbrev W2_42 (i : grid0.Coords) (h2 : k0_cond2 i = 1#1) : Elt F .i32 := wordAt c tb (k0_off405 i) (k0_off405_inb i h2)
theorem hw2_42 (htb : ∀ y, (tb y).toNat < 4096) (i : grid0.Coords) (h2 : k0_cond2 i = 1#1) : k0_chk107 i (W2_42 c tb i h2) := fun _ => rows_inb _ (word_lt c tb htb _ _)
abbrev s2A_42 (htb : ∀ y, (tb y).toNat < 4096) (i : grid0.Coords) (h2 : k0_cond2 i = 1#1) : Memref sig .tc .hbm S8x1024 .f32 := srcM aM (k0_off407 (W2_42 c tb i h2)) (k0_off407_inb i _ (hw2_42 c tb htb i h2) h2)
abbrev s2B_42 (htb : ∀ y, (tb y).toNat < 4096) (i : grid0.Coords) (h2 : k0_cond2 i = 1#1) : Memref sig .tc .hbm S8x1024 .f32 := srcM bM (k0_off407 (W2_42 c tb i h2)) (k0_off407_inb i _ (hw2_42 c tb htb i h2) h2)
abbrev W2_43 (i : grid0.Coords) (h2 : k0_cond2 i = 1#1) : Elt F .i32 := wordAt c tb (k0_off410 i) (k0_off410_inb i h2)
theorem hw2_43 (htb : ∀ y, (tb y).toNat < 4096) (i : grid0.Coords) (h2 : k0_cond2 i = 1#1) : k0_chk108 i (W2_43 c tb i h2) := fun _ => rows_inb _ (word_lt c tb htb _ _)
abbrev s2A_43 (htb : ∀ y, (tb y).toNat < 4096) (i : grid0.Coords) (h2 : k0_cond2 i = 1#1) : Memref sig .tc .hbm S8x1024 .f32 := srcM aM (k0_off412 (W2_43 c tb i h2)) (k0_off412_inb i _ (hw2_43 c tb htb i h2) h2)
abbrev s2B_43 (htb : ∀ y, (tb y).toNat < 4096) (i : grid0.Coords) (h2 : k0_cond2 i = 1#1) : Memref sig .tc .hbm S8x1024 .f32 := srcM bM (k0_off412 (W2_43 c tb i h2)) (k0_off412_inb i _ (hw2_43 c tb htb i h2) h2)
abbrev W2_44 (i : grid0.Coords) (h2 : k0_cond2 i = 1#1) : Elt F .i32 := wordAt c tb (k0_off415 i) (k0_off415_inb i h2)
theorem hw2_44 (htb : ∀ y, (tb y).toNat < 4096) (i : grid0.Coords) (h2 : k0_cond2 i = 1#1) : k0_chk109 i (W2_44 c tb i h2) := fun _ => rows_inb _ (word_lt c tb htb _ _)
abbrev s2A_44 (htb : ∀ y, (tb y).toNat < 4096) (i : grid0.Coords) (h2 : k0_cond2 i = 1#1) : Memref sig .tc .hbm S8x1024 .f32 := srcM aM (k0_off417 (W2_44 c tb i h2)) (k0_off417_inb i _ (hw2_44 c tb htb i h2) h2)
abbrev s2B_44 (htb : ∀ y, (tb y).toNat < 4096) (i : grid0.Coords) (h2 : k0_cond2 i = 1#1) : Memref sig .tc .hbm S8x1024 .f32 := srcM bM (k0_off417 (W2_44 c tb i h2)) (k0_off417_inb i _ (hw2_44 c tb htb i h2) h2)
abbrev W2_45 (i : grid0.Coords) (h2 : k0_cond2 i = 1#1) : Elt F .i32 := wordAt c tb (k0_off420 i) (k0_off420_inb i h2)
theorem hw2_45 (htb : ∀ y, (tb y).toNat < 4096) (i : grid0.Coords) (h2 : k0_cond2 i = 1#1) : k0_chk110 i (W2_45 c tb i h2) := fun _ => rows_inb _ (word_lt c tb htb _ _)
abbrev s2A_45 (htb : ∀ y, (tb y).toNat < 4096) (i : grid0.Coords) (h2 : k0_cond2 i = 1#1) : Memref sig .tc .hbm S8x1024 .f32 := srcM aM (k0_off422 (W2_45 c tb i h2)) (k0_off422_inb i _ (hw2_45 c tb htb i h2) h2)
abbrev s2B_45 (htb : ∀ y, (tb y).toNat < 4096) (i : grid0.Coords) (h2 : k0_cond2 i = 1#1) : Memref sig .tc .hbm S8x1024 .f32 := srcM bM (k0_off422 (W2_45 c tb i h2)) (k0_off422_inb i _ (hw2_45 c tb htb i h2) h2)
abbrev W2_46 (i : grid0.Coords) (h2 : k0_cond2 i = 1#1) : Elt F .i32 := wordAt c tb (k0_off425 i) (k0_off425_inb i h2)
theorem hw2_46 (htb : ∀ y, (tb y).toNat < 4096) (i : grid0.Coords) (h2 : k0_cond2 i = 1#1) : k0_chk111 i (W2_46 c tb i h2) := fun _ => rows_inb _ (word_lt c tb htb _ _)
abbrev s2A_46 (htb : ∀ y, (tb y).toNat < 4096) (i : grid0.Coords) (h2 : k0_cond2 i = 1#1) : Memref sig .tc .hbm S8x1024 .f32 := srcM aM (k0_off427 (W2_46 c tb i h2)) (k0_off427_inb i _ (hw2_46 c tb htb i h2) h2)
abbrev s2B_46 (htb : ∀ y, (tb y).toNat < 4096) (i : grid0.Coords) (h2 : k0_cond2 i = 1#1) : Memref sig .tc .hbm S8x1024 .f32 := srcM bM (k0_off427 (W2_46 c tb i h2)) (k0_off427_inb i _ (hw2_46 c tb htb i h2) h2)
abbrev W2_47 (i : grid0.Coords) (h2 : k0_cond2 i = 1#1) : Elt F .i32 := wordAt c tb (k0_off430 i) (k0_off430_inb i h2)
theorem hw2_47 (htb : ∀ y, (tb y).toNat < 4096) (i : grid0.Coords) (h2 : k0_cond2 i = 1#1) : k0_chk112 i (W2_47 c tb i h2) := fun _ => rows_inb _ (word_lt c tb htb _ _)
abbrev s2A_47 (htb : ∀ y, (tb y).toNat < 4096) (i : grid0.Coords) (h2 : k0_cond2 i = 1#1) : Memref sig .tc .hbm S8x1024 .f32 := srcM aM (k0_off432 (W2_47 c tb i h2)) (k0_off432_inb i _ (hw2_47 c tb htb i h2) h2)
abbrev s2B_47 (htb : ∀ y, (tb y).toNat < 4096) (i : grid0.Coords) (h2 : k0_cond2 i = 1#1) : Memref sig .tc .hbm S8x1024 .f32 := srcM bM (k0_off432 (W2_47 c tb i h2)) (k0_off432_inb i _ (hw2_47 c tb htb i h2) h2)
abbrev W2_48 (i : grid0.Coords) (h2 : k0_cond2 i = 1#1) : Elt F .i32 := wordAt c tb (k0_off435 i) (k0_off435_inb i h2)
theorem hw2_48 (htb : ∀ y, (tb y).toNat < 4096) (i : grid0.Coords) (h2 : k0_cond2 i = 1#1) : k0_chk113 i (W2_48 c tb i h2) := fun _ => rows_inb _ (word_lt c tb htb _ _)
abbrev s2A_48 (htb : ∀ y, (tb y).toNat < 4096) (i : grid0.Coords) (h2 : k0_cond2 i = 1#1) : Memref sig .tc .hbm S8x1024 .f32 := srcM aM (k0_off437 (W2_48 c tb i h2)) (k0_off437_inb i _ (hw2_48 c tb htb i h2) h2)
abbrev s2B_48 (htb : ∀ y, (tb y).toNat < 4096) (i : grid0.Coords) (h2 : k0_cond2 i = 1#1) : Memref sig .tc .hbm S8x1024 .f32 := srcM bM (k0_off437 (W2_48 c tb i h2)) (k0_off437_inb i _ (hw2_48 c tb htb i h2) h2)
abbrev W2_49 (i : grid0.Coords) (h2 : k0_cond2 i = 1#1) : Elt F .i32 := wordAt c tb (k0_off440 i) (k0_off440_inb i h2)
theorem hw2_49 (htb : ∀ y, (tb y).toNat < 4096) (i : grid0.Coords) (h2 : k0_cond2 i = 1#1) : k0_chk114 i (W2_49 c tb i h2) := fun _ => rows_inb _ (word_lt c tb htb _ _)
abbrev s2A_49 (htb : ∀ y, (tb y).toNat < 4096) (i : grid0.Coords) (h2 : k0_cond2 i = 1#1) : Memref sig .tc .hbm S8x1024 .f32 := srcM aM (k0_off442 (W2_49 c tb i h2)) (k0_off442_inb i _ (hw2_49 c tb htb i h2) h2)
abbrev s2B_49 (htb : ∀ y, (tb y).toNat < 4096) (i : grid0.Coords) (h2 : k0_cond2 i = 1#1) : Memref sig .tc .hbm S8x1024 .f32 := srcM bM (k0_off442 (W2_49 c tb i h2)) (k0_off442_inb i _ (hw2_49 c tb htb i h2) h2)
abbrev W2_50 (i : grid0.Coords) (h2 : k0_cond2 i = 1#1) : Elt F .i32 := wordAt c tb (k0_off445 i) (k0_off445_inb i h2)
theorem hw2_50 (htb : ∀ y, (tb y).toNat < 4096) (i : grid0.Coords) (h2 : k0_cond2 i = 1#1) : k0_chk115 i (W2_50 c tb i h2) := fun _ => rows_inb _ (word_lt c tb htb _ _)
abbrev s2A_50 (htb : ∀ y, (tb y).toNat < 4096) (i : grid0.Coords) (h2 : k0_cond2 i = 1#1) : Memref sig .tc .hbm S8x1024 .f32 := srcM aM (k0_off447 (W2_50 c tb i h2)) (k0_off447_inb i _ (hw2_50 c tb htb i h2) h2)
abbrev s2B_50 (htb : ∀ y, (tb y).toNat < 4096) (i : grid0.Coords) (h2 : k0_cond2 i = 1#1) : Memref sig .tc .hbm S8x1024 .f32 := srcM bM (k0_off447 (W2_50 c tb i h2)) (k0_off447_inb i _ (hw2_50 c tb htb i h2) h2)
abbrev W2_51 (i : grid0.Coords) (h2 : k0_cond2 i = 1#1) : Elt F .i32 := wordAt c tb (k0_off450 i) (k0_off450_inb i h2)
theorem hw2_51 (htb : ∀ y, (tb y).toNat < 4096) (i : grid0.Coords) (h2 : k0_cond2 i = 1#1) : k0_chk116 i (W2_51 c tb i h2) := fun _ => rows_inb _ (word_lt c tb htb _ _)
abbrev s2A_51 (htb : ∀ y, (tb y).toNat < 4096) (i : grid0.Coords) (h2 : k0_cond2 i = 1#1) : Memref sig .tc .hbm S8x1024 .f32 := srcM aM (k0_off452 (W2_51 c tb i h2)) (k0_off452_inb i _ (hw2_51 c tb htb i h2) h2)
abbrev s2B_51 (htb : ∀ y, (tb y).toNat < 4096) (i : grid0.Coords) (h2 : k0_cond2 i = 1#1) : Memref sig .tc .hbm S8x1024 .f32 := srcM bM (k0_off452 (W2_51 c tb i h2)) (k0_off452_inb i _ (hw2_51 c tb htb i h2) h2)
abbrev W2_52 (i : grid0.Coords) (h2 : k0_cond2 i = 1#1) : Elt F .i32 := wordAt c tb (k0_off455 i) (k0_off455_inb i h2)
theorem hw2_52 (htb : ∀ y, (tb y).toNat < 4096) (i : grid0.Coords) (h2 : k0_cond2 i = 1#1) : k0_chk117 i (W2_52 c tb i h2) := fun _ => rows_inb _ (word_lt c tb htb _ _)
abbrev s2A_52 (htb : ∀ y, (tb y).toNat < 4096) (i : grid0.Coords) (h2 : k0_cond2 i = 1#1) : Memref sig .tc .hbm S8x1024 .f32 := srcM aM (k0_off457 (W2_52 c tb i h2)) (k0_off457_inb i _ (hw2_52 c tb htb i h2) h2)
abbrev s2B_52 (htb : ∀ y, (tb y).toNat < 4096) (i : grid0.Coords) (h2 : k0_cond2 i = 1#1) : Memref sig .tc .hbm S8x1024 .f32 := srcM bM (k0_off457 (W2_52 c tb i h2)) (k0_off457_inb i _ (hw2_52 c tb htb i h2) h2)
abbrev W2_53 (i : grid0.Coords) (h2 : k0_cond2 i = 1#1) : Elt F .i32 := wordAt c tb (k0_off460 i) (k0_off460_inb i h2)
theorem hw2_53 (htb : ∀ y, (tb y).toNat < 4096) (i : grid0.Coords) (h2 : k0_cond2 i = 1#1) : k0_chk118 i (W2_53 c tb i h2) := fun _ => rows_inb _ (word_lt c tb htb _ _)
abbrev s2A_53 (htb : ∀ y, (tb y).toNat < 4096) (i : grid0.Coords) (h2 : k0_cond2 i = 1#1) : Memref sig .tc .hbm S8x1024 .f32 := srcM aM (k0_off462 (W2_53 c tb i h2)) (k0_off462_inb i _ (hw2_53 c tb htb i h2) h2)
abbrev s2B_53 (htb : ∀ y, (tb y).toNat < 4096) (i : grid0.Coords) (h2 : k0_cond2 i = 1#1) : Memref sig .tc .hbm S8x1024 .f32 := srcM bM (k0_off462 (W2_53 c tb i h2)) (k0_off462_inb i _ (hw2_53 c tb htb i h2) h2)
abbrev W2_54 (i : grid0.Coords) (h2 : k0_cond2 i = 1#1) : Elt F .i32 := wordAt c tb (k0_off465 i) (k0_off465_inb i h2)
theorem hw2_54 (htb : ∀ y, (tb y).toNat < 4096) (i : grid0.Coords) (h2 : k0_cond2 i = 1#1) : k0_chk119 i (W2_54 c tb i h2) := fun _ => rows_inb _ (word_lt c tb htb _ _)
abbrev s2A_54 (htb : ∀ y, (tb y).toNat < 4096) (i : grid0.Coords) (h2 : k0_cond2 i = 1#1) : Memref sig .tc .hbm S8x1024 .f32 := srcM aM (k0_off467 (W2_54 c tb i h2)) (k0_off467_inb i _ (hw2_54 c tb htb i h2) h2)
abbrev s2B_54 (htb : ∀ y, (tb y).toNat < 4096) (i : grid0.Coords) (h2 : k0_cond2 i = 1#1) : Memref sig .tc .hbm S8x1024 .f32 := srcM bM (k0_off467 (W2_54 c tb i h2)) (k0_off467_inb i _ (hw2_54 c tb htb i h2) h2)
abbrev W2_55 (i : grid0.Coords) (h2 : k0_cond2 i = 1#1) : Elt F .i32 := wordAt c tb (k0_off470 i) (k0_off470_inb i h2)
theorem hw2_55 (htb : ∀ y, (tb y).toNat < 4096) (i : grid0.Coords) (h2 : k0_cond2 i = 1#1) : k0_chk120 i (W2_55 c tb i h2) := fun _ => rows_inb _ (word_lt c tb htb _ _)
abbrev s2A_55 (htb : ∀ y, (tb y).toNat < 4096) (i : grid0.Coords) (h2 : k0_cond2 i = 1#1) : Memref sig .tc .hbm S8x1024 .f32 := srcM aM (k0_off472 (W2_55 c tb i h2)) (k0_off472_inb i _ (hw2_55 c tb htb i h2) h2)
abbrev s2B_55 (htb : ∀ y, (tb y).toNat < 4096) (i : grid0.Coords) (h2 : k0_cond2 i = 1#1) : Memref sig .tc .hbm S8x1024 .f32 := srcM bM (k0_off472 (W2_55 c tb i h2)) (k0_off472_inb i _ (hw2_55 c tb htb i h2) h2)
abbrev W2_56 (i : grid0.Coords) (h2 : k0_cond2 i = 1#1) : Elt F .i32 := wordAt c tb (k0_off475 i) (k0_off475_inb i h2)
theorem hw2_56 (htb : ∀ y, (tb y).toNat < 4096) (i : grid0.Coords) (h2 : k0_cond2 i = 1#1) : k0_chk121 i (W2_56 c tb i h2) := fun _ => rows_inb _ (word_lt c tb htb _ _)
abbrev s2A_56 (htb : ∀ y, (tb y).toNat < 4096) (i : grid0.Coords) (h2 : k0_cond2 i = 1#1) : Memref sig .tc .hbm S8x1024 .f32 := srcM aM (k0_off477 (W2_56 c tb i h2)) (k0_off477_inb i _ (hw2_56 c tb htb i h2) h2)
abbrev s2B_56 (htb : ∀ y, (tb y).toNat < 4096) (i : grid0.Coords) (h2 : k0_cond2 i = 1#1) : Memref sig .tc .hbm S8x1024 .f32 := srcM bM (k0_off477 (W2_56 c tb i h2)) (k0_off477_inb i _ (hw2_56 c tb htb i h2) h2)
abbrev W2_57 (i : grid0.Coords) (h2 : k0_cond2 i = 1#1) : Elt F .i32 := wordAt c tb (k0_off480 i) (k0_off480_inb i h2)
theorem hw2_57 (htb : ∀ y, (tb y).toNat < 4096) (i : grid0.Coords) (h2 : k0_cond2 i = 1#1) : k0_chk122 i (W2_57 c tb i h2) := fun _ => rows_inb _ (word_lt c tb htb _ _)
abbrev s2A_57 (htb : ∀ y, (tb y).toNat < 4096) (i : grid0.Coords) (h2 : k0_cond2 i = 1#1) : Memref sig .tc .hbm S8x1024 .f32 := srcM aM (k0_off482 (W2_57 c tb i h2)) (k0_off482_inb i _ (hw2_57 c tb htb i h2) h2)
abbrev s2B_57 (htb : ∀ y, (tb y).toNat < 4096) (i : grid0.Coords) (h2 : k0_cond2 i = 1#1) : Memref sig .tc .hbm S8x1024 .f32 := srcM bM (k0_off482 (W2_57 c tb i h2)) (k0_off482_inb i _ (hw2_57 c tb htb i h2) h2)
abbrev W2_58 (i : grid0.Coords) (h2 : k0_cond2 i = 1#1) : Elt F .i32 := wordAt c tb (k0_off485 i) (k0_off485_inb i h2)
theorem hw2_58 (htb : ∀ y, (tb y).toNat < 4096) (i : grid0.Coords) (h2 : k0_cond2 i = 1#1) : k0_chk123 i (W2_58 c tb i h2) := fun _ => rows_inb _ (word_lt c tb htb _ _)
abbrev s2A_58 (htb : ∀ y, (tb y).toNat < 4096) (i : grid0.Coords) (h2 : k0_cond2 i = 1#1) : Memref sig .tc .hbm S8x1024 .f32 := srcM aM (k0_off487 (W2_58 c tb i h2)) (k0_off487_inb i _ (hw2_58 c tb htb i h2) h2)
abbrev s2B_58 (htb : ∀ y, (tb y).toNat < 4096) (i : grid0.Coords) (h2 : k0_cond2 i = 1#1) : Memref sig .tc .hbm S8x1024 .f32 := srcM bM (k0_off487 (W2_58 c tb i h2)) (k0_off487_inb i _ (hw2_58 c tb htb i h2) h2)
abbrev W2_59 (i : grid0.Coords) (h2 : k0_cond2 i = 1#1) : Elt F .i32 := wordAt c tb (k0_off490 i) (k0_off490_inb i h2)
theorem hw2_59 (htb : ∀ y, (tb y).toNat < 4096) (i : grid0.Coords) (h2 : k0_cond2 i = 1#1) : k0_chk124 i (W2_59 c tb i h2) := fun _ => rows_inb _ (word_lt c tb htb _ _)
abbrev s2A_59 (htb : ∀ y, (tb y).toNat < 4096) (i : grid0.Coords) (h2 : k0_cond2 i = 1#1) : Memref sig .tc .hbm S8x1024 .f32 := srcM aM (k0_off492 (W2_59 c tb i h2)) (k0_off492_inb i _ (hw2_59 c tb htb i h2) h2)
abbrev s2B_59 (htb : ∀ y, (tb y).toNat < 4096) (i : grid0.Coords) (h2 : k0_cond2 i = 1#1) : Memref sig .tc .hbm S8x1024 .f32 := srcM bM (k0_off492 (W2_59 c tb i h2)) (k0_off492_inb i _ (hw2_59 c tb htb i h2) h2)
abbrev W2_60 (i : grid0.Coords) (h2 : k0_cond2 i = 1#1) : Elt F .i32 := wordAt c tb (k0_off495 i) (k0_off495_inb i h2)
theorem hw2_60 (htb : ∀ y, (tb y).toNat < 4096) (i : grid0.Coords) (h2 : k0_cond2 i = 1#1) : k0_chk125 i (W2_60 c tb i h2) := fun _ => rows_inb _ (word_lt c tb htb _ _)
abbrev s2A_60 (htb : ∀ y, (tb y).toNat < 4096) (i : grid0.Coords) (h2 : k0_cond2 i = 1#1) : Memref sig .tc .hbm S8x1024 .f32 := srcM aM (k0_off497 (W2_60 c tb i h2)) (k0_off497_inb i _ (hw2_60 c tb htb i h2) h2)
abbrev s2B_60 (htb : ∀ y, (tb y).toNat < 4096) (i : grid0.Coords) (h2 : k0_cond2 i = 1#1) : Memref sig .tc .hbm S8x1024 .f32 := srcM bM (k0_off497 (W2_60 c tb i h2)) (k0_off497_inb i _ (hw2_60 c tb htb i h2) h2)
abbrev W2_61 (i : grid0.Coords) (h2 : k0_cond2 i = 1#1) : Elt F .i32 := wordAt c tb (k0_off500 i) (k0_off500_inb i h2)
theorem hw2_61 (htb : ∀ y, (tb y).toNat < 4096) (i : grid0.Coords) (h2 : k0_cond2 i = 1#1) : k0_chk126 i (W2_61 c tb i h2) := fun _ => rows_inb _ (word_lt c tb htb _ _)
abbrev s2A_61 (htb : ∀ y, (tb y).toNat < 4096) (i : grid0.Coords) (h2 : k0_cond2 i = 1#1) : Memref sig .tc .hbm S8x1024 .f32 := srcM aM (k0_off502 (W2_61 c tb i h2)) (k0_off502_inb i _ (hw2_61 c tb htb i h2) h2)
abbrev s2B_61 (htb : ∀ y, (tb y).toNat < 4096) (i : grid0.Coords) (h2 : k0_cond2 i = 1#1) : Memref sig .tc .hbm S8x1024 .f32 := srcM bM (k0_off502 (W2_61 c tb i h2)) (k0_off502_inb i _ (hw2_61 c tb htb i h2) h2)
abbrev W2_62 (i : grid0.Coords) (h2 : k0_cond2 i = 1#1) : Elt F .i32 := wordAt c tb (k0_off505 i) (k0_off505_inb i h2)
theorem hw2_62 (htb : ∀ y, (tb y).toNat < 4096) (i : grid0.Coords) (h2 : k0_cond2 i = 1#1) : k0_chk127 i (W2_62 c tb i h2) := fun _ => rows_inb _ (word_lt c tb htb _ _)
abbrev s2A_62 (htb : ∀ y, (tb y).toNat < 4096) (i : grid0.Coords) (h2 : k0_cond2 i = 1#1) : Memref sig .tc .hbm S8x1024 .f32 := srcM aM (k0_off507 (W2_62 c tb i h2)) (k0_off507_inb i _ (hw2_62 c tb htb i h2) h2)
abbrev s2B_62 (htb : ∀ y, (tb y).toNat < 4096) (i : grid0.Coords) (h2 : k0_cond2 i = 1#1) : Memref sig .tc .hbm S8x1024 .f32 := srcM bM (k0_off507 (W2_62 c tb i h2)) (k0_off507_inb i _ (hw2_62 c tb htb i h2) h2)
abbrev W2_63 (i : grid0.Coords) (h2 : k0_cond2 i = 1#1) : Elt F .i32 := wordAt c tb (k0_off510 i) (k0_off510_inb i h2)
theorem hw2_63 (htb : ∀ y, (tb y).toNat < 4096) (i : grid0.Coords) (h2 : k0_cond2 i = 1#1) : k0_chk128 i (W2_63 c tb i h2) := fun _ => rows_inb _ (word_lt c tb htb _ _)
abbrev s2A_63 (htb : ∀ y, (tb y).toNat < 4096) (i : grid0.Coords) (h2 : k0_cond2 i = 1#1) : Memref sig .tc .hbm S8x1024 .f32 := srcM aM (k0_off512 (W2_63 c tb i h2)) (k0_off512_inb i _ (hw2_63 c tb htb i h2) h2)
abbrev s2B_63 (htb : ∀ y, (tb y).toNat < 4096) (i : grid0.Coords) (h2 : k0_cond2 i = 1#1) : Memref sig .tc .hbm S8x1024 .f32 := srcM bM (k0_off512 (W2_63 c tb i h2)) (k0_off512_inb i _ (hw2_63 c tb htb i h2) h2)
/-- The deliveries of the 64 copies of array A (fetch 2) into slot s, in the order the copies are started. -/
def D2A (htb : ∀ y, (tb y).toNat < 4096) (i : grid0.Coords) (h2 : k0_cond2 i = 1#1) (s : Fin 2) : Fin 64 → sProp 𝕄
  | ⟨0, _⟩ => deliv c (s2A_0 c tb htb i h2) (rowM scA s ⟨0, Nat.le_of_ble_eq_true rfl⟩) (qTok s ⟨0, Nat.le_of_ble_eq_true rfl⟩) fa
  | ⟨1, _⟩ => deliv c (s2A_1 c tb htb i h2) (rowM scA s ⟨1, Nat.le_of_ble_eq_true rfl⟩) (qTok s ⟨1, Nat.le_of_ble_eq_true rfl⟩) fa
  | ⟨2, _⟩ => deliv c (s2A_2 c tb htb i h2) (rowM scA s ⟨2, Nat.le_of_ble_eq_true rfl⟩) (qTok s ⟨2, Nat.le_of_ble_eq_true rfl⟩) fa
  | ⟨3, _⟩ => deliv c (s2A_3 c tb htb i h2) (rowM scA s ⟨3, Nat.le_of_ble_eq_true rfl⟩) (qTok s ⟨3, Nat.le_of_ble_eq_true rfl⟩) fa
  | ⟨4, _⟩ => deliv c (s2A_4 c tb htb i h2) (rowM scA s ⟨4, Nat.le_of_ble_eq_true rfl⟩) (qTok s ⟨4, Nat.le_of_ble_eq_true rfl⟩) fa
  | ⟨5, _⟩ => deliv c (s2A_5 c tb htb i h2) (rowM scA s ⟨5, Nat.le_of_ble_eq_true rfl⟩) (qTok s ⟨5, Nat.le_of_ble_eq_true rfl⟩) fa
  | ⟨6, _⟩ => deliv c (s2A_6 c tb htb i h2) (rowM scA s ⟨6, Nat.le_of_ble_eq_true rfl⟩) (qTok s ⟨6, Nat.le_of_ble_eq_true rfl⟩) fa
  | ⟨7, _⟩ => deliv c (s2A_7 c tb htb i h2) (rowM scA s ⟨7, Nat.le_of_ble_eq_true rfl⟩) (qTok s ⟨7, Nat.le_of_ble_eq_true rfl⟩) fa
  | ⟨8, _⟩ => deliv c (s2A_8 c tb htb i h2) (rowM scA s ⟨8, Nat.le_of_ble_eq_true rfl⟩) (qTok s ⟨8, Nat.le_of_ble_eq_true rfl⟩) fa
  | ⟨9, _⟩ => deliv c (s2A_9 c tb htb i h2) (rowM scA s ⟨9, Nat.le_of_ble_eq_true rfl⟩) (qTok s ⟨9, Nat.le_of_ble_eq_true rfl⟩) fa
  | ⟨10, _⟩ => deliv c (s2A_10 c tb htb i h2) (rowM scA s ⟨10, Nat.le_of_ble_eq_true rfl⟩) (qTok s ⟨10, Nat.le_of_ble_eq_true rfl⟩) fa
  | ⟨11, _⟩ => deliv c (s2A_11 c tb htb i h2) (rowM scA s ⟨11, Nat.le_of_ble_eq_true rfl⟩) (qTok s ⟨11, Nat.le_of_ble_eq_true rfl⟩) fa
  | ⟨12, _⟩ => deliv c (s2A_12 c tb htb i h2) (rowM scA s ⟨12, Nat.le_of_ble_eq_true rfl⟩) (qTok s ⟨12, Nat.le_of_ble_eq_true rfl⟩) fa
  | ⟨13, _⟩ => deliv c (s2A_13 c tb htb i h2) (rowM scA s ⟨13, Nat.le_of_ble_eq_true rfl⟩) (qTok s ⟨13, Nat.le_of_ble_eq_true rfl⟩) fa
  | ⟨14, _⟩ => deliv c (s2A_14 c tb htb i h2) (rowM scA s ⟨14, Nat.le_of_ble_eq_true rfl⟩) (qTok s ⟨14, Nat.le_of_ble_eq_true rfl⟩) fa
  | ⟨15, _⟩ => deliv c (s2A_15 c tb htb i h2) (rowM scA s ⟨15, Nat.le_of_ble_eq_true rfl⟩) (qTok s ⟨15, Nat.le_of_ble_eq_true rfl⟩) fa
  | ⟨16, _⟩ => deliv c (s2A_16 c tb htb i h2) (rowM scA s ⟨16, Nat.le_of_ble_eq_true rfl⟩) (qTok s ⟨16, Nat.le_of_ble_eq_true rfl⟩) fa
  | ⟨17, _⟩ => deliv c (s2A_17 c tb htb i h2) (rowM scA s ⟨17, Nat.le_of_ble_eq_true rfl⟩) (qTok s ⟨17, Nat.le_of_ble_eq_true rfl⟩) fa
  | ⟨18, _⟩ => deliv c (s2A_18 c tb htb i h2) (rowM scA s ⟨18, Nat.le_of_ble_eq_true rfl⟩) (qTok s ⟨18, Nat.le_of_ble_eq_true rfl⟩) fa
  | ⟨19, _⟩ => deliv c (s2A_19 c tb htb i h2) (rowM scA s ⟨19, Nat.le_of_ble_eq_true rfl⟩) (qTok s ⟨19, Nat.le_of_ble_eq_true rfl⟩) fa
  | ⟨20, _⟩ => deliv c (s2A_20 c tb htb i h2) (rowM scA s ⟨20, Nat.le_of_ble_eq_true rfl⟩) (qTok s ⟨20, Nat.le_of_ble_eq_true rfl⟩) fa
  | ⟨21, _⟩ => deliv c (s2A_21 c tb htb i h2) (rowM scA s ⟨21, Nat.le_of_ble_eq_true rfl⟩) (qTok s ⟨21, Nat.le_of_ble_eq_true rfl⟩) fa
  | ⟨22, _⟩ => deliv c (s2A_22 c tb htb i h2) (rowM scA s ⟨22, Nat.le_of_ble_eq_true rfl⟩) (qTok s ⟨22, Nat.le_of_ble_eq_true rfl⟩) fa
  | ⟨23, _⟩ => deliv c (s2A_23 c tb htb i h2) (rowM scA s ⟨23, Nat.le_of_ble_eq_true rfl⟩) (qTok s ⟨23, Nat.le_of_ble_eq_true rfl⟩) fa
  | ⟨24, _⟩ => deliv c (s2A_24 c tb htb i h2) (rowM scA s ⟨24, Nat.le_of_ble_eq_true rfl⟩) (qTok s ⟨24, Nat.le_of_ble_eq_true rfl⟩) fa
  | ⟨25, _⟩ => deliv c (s2A_25 c tb htb i h2) (rowM scA s ⟨25, Nat.le_of_ble_eq_true rfl⟩) (qTok s ⟨25, Nat.le_of_ble_eq_true rfl⟩) fa
  | ⟨26, _⟩ => deliv c (s2A_26 c tb htb i h2) (rowM scA s ⟨26, Nat.le_of_ble_eq_true rfl⟩) (qTok s ⟨26, Nat.le_of_ble_eq_true rfl⟩) fa
  | ⟨27, _⟩ => deliv c (s2A_27 c tb htb i h2) (rowM scA s ⟨27, Nat.le_of_ble_eq_true rfl⟩) (qTok s ⟨27, Nat.le_of_ble_eq_true rfl⟩) fa
  | ⟨28, _⟩ => deliv c (s2A_28 c tb htb i h2) (rowM scA s ⟨28, Nat.le_of_ble_eq_true rfl⟩) (qTok s ⟨28, Nat.le_of_ble_eq_true rfl⟩) fa
  | ⟨29, _⟩ => deliv c (s2A_29 c tb htb i h2) (rowM scA s ⟨29, Nat.le_of_ble_eq_true rfl⟩) (qTok s ⟨29, Nat.le_of_ble_eq_true rfl⟩) fa
  | ⟨30, _⟩ => deliv c (s2A_30 c tb htb i h2) (rowM scA s ⟨30, Nat.le_of_ble_eq_true rfl⟩) (qTok s ⟨30, Nat.le_of_ble_eq_true rfl⟩) fa
  | ⟨31, _⟩ => deliv c (s2A_31 c tb htb i h2) (rowM scA s ⟨31, Nat.le_of_ble_eq_true rfl⟩) (qTok s ⟨31, Nat.le_of_ble_eq_true rfl⟩) fa
  | ⟨32, _⟩ => deliv c (s2A_32 c tb htb i h2) (rowM scA s ⟨32, Nat.le_of_ble_eq_true rfl⟩) (qTok s ⟨32, Nat.le_of_ble_eq_true rfl⟩) fa
  | ⟨33, _⟩ => deliv c (s2A_33 c tb htb i h2) (rowM scA s ⟨33, Nat.le_of_ble_eq_true rfl⟩) (qTok s ⟨33, Nat.le_of_ble_eq_true rfl⟩) fa
  | ⟨34, _⟩ => deliv c (s2A_34 c tb htb i h2) (rowM scA s ⟨34, Nat.le_of_ble_eq_true rfl⟩) (qTok s ⟨34, Nat.le_of_ble_eq_true rfl⟩) fa
  | ⟨35, _⟩ => deliv c (s2A_35 c tb htb i h2) (rowM scA s ⟨35, Nat.le_of_ble_eq_true rfl⟩) (qTok s ⟨35, Nat.le_of_ble_eq_true rfl⟩) fa
  | ⟨36, _⟩ => deliv c (s2A_36 c tb htb i h2) (rowM scA s ⟨36, Nat.le_of_ble_eq_true rfl⟩) (qTok s ⟨36, Nat.le_of_ble_eq_true rfl⟩) fa
  | ⟨37, _⟩ => deliv c (s2A_37 c tb htb i h2) (rowM scA s ⟨37, Nat.le_of_ble_eq_true rfl⟩) (qTok s ⟨37, Nat.le_of_ble_eq_true rfl⟩) fa
  | ⟨38, _⟩ => deliv c (s2A_38 c tb htb i h2) (rowM scA s ⟨38, Nat.le_of_ble_eq_true rfl⟩) (qTok s ⟨38, Nat.le_of_ble_eq_true rfl⟩) fa
  | ⟨39, _⟩ => deliv c (s2A_39 c tb htb i h2) (rowM scA s ⟨39, Nat.le_of_ble_eq_true rfl⟩) (qTok s ⟨39, Nat.le_of_ble_eq_true rfl⟩) fa
  | ⟨40, _⟩ => deliv c (s2A_40 c tb htb i h2) (rowM scA s ⟨40, Nat.le_of_ble_eq_true rfl⟩) (qTok s ⟨40, Nat.le_of_ble_eq_true rfl⟩) fa
  | ⟨41, _⟩ => deliv c (s2A_41 c tb htb i h2) (rowM scA s ⟨41, Nat.le_of_ble_eq_true rfl⟩) (qTok s ⟨41, Nat.le_of_ble_eq_true rfl⟩) fa
  | ⟨42, _⟩ => deliv c (s2A_42 c tb htb i h2) (rowM scA s ⟨42, Nat.le_of_ble_eq_true rfl⟩) (qTok s ⟨42, Nat.le_of_ble_eq_true rfl⟩) fa
  | ⟨43, _⟩ => deliv c (s2A_43 c tb htb i h2) (rowM scA s ⟨43, Nat.le_of_ble_eq_true rfl⟩) (qTok s ⟨43, Nat.le_of_ble_eq_true rfl⟩) fa
  | ⟨44, _⟩ => deliv c (s2A_44 c tb htb i h2) (rowM scA s ⟨44, Nat.le_of_ble_eq_true rfl⟩) (qTok s ⟨44, Nat.le_of_ble_eq_true rfl⟩) fa
  | ⟨45, _⟩ => deliv c (s2A_45 c tb htb i h2) (rowM scA s ⟨45, Nat.le_of_ble_eq_true rfl⟩) (qTok s ⟨45, Nat.le_of_ble_eq_true rfl⟩) fa
  | ⟨46, _⟩ => deliv c (s2A_46 c tb htb i h2) (rowM scA s ⟨46, Nat.le_of_ble_eq_true rfl⟩) (qTok s ⟨46, Nat.le_of_ble_eq_true rfl⟩) fa
  | ⟨47, _⟩ => deliv c (s2A_47 c tb htb i h2) (rowM scA s ⟨47, Nat.le_of_ble_eq_true rfl⟩) (qTok s ⟨47, Nat.le_of_ble_eq_true rfl⟩) fa
  | ⟨48, _⟩ => deliv c (s2A_48 c tb htb i h2) (rowM scA s ⟨48, Nat.le_of_ble_eq_true rfl⟩) (qTok s ⟨48, Nat.le_of_ble_eq_true rfl⟩) fa
  | ⟨49, _⟩ => deliv c (s2A_49 c tb htb i h2) (rowM scA s ⟨49, Nat.le_of_ble_eq_true rfl⟩) (qTok s ⟨49, Nat.le_of_ble_eq_true rfl⟩) fa
  | ⟨50, _⟩ => deliv c (s2A_50 c tb htb i h2) (rowM scA s ⟨50, Nat.le_of_ble_eq_true rfl⟩) (qTok s ⟨50, Nat.le_of_ble_eq_true rfl⟩) fa
  | ⟨51, _⟩ => deliv c (s2A_51 c tb htb i h2) (rowM scA s ⟨51, Nat.le_of_ble_eq_true rfl⟩) (qTok s ⟨51, Nat.le_of_ble_eq_true rfl⟩) fa
  | ⟨52, _⟩ => deliv c (s2A_52 c tb htb i h2) (rowM scA s ⟨52, Nat.le_of_ble_eq_true rfl⟩) (qTok s ⟨52, Nat.le_of_ble_eq_true rfl⟩) fa
  | ⟨53, _⟩ => deliv c (s2A_53 c tb htb i h2) (rowM scA s ⟨53, Nat.le_of_ble_eq_true rfl⟩) (qTok s ⟨53, Nat.le_of_ble_eq_true rfl⟩) fa
  | ⟨54, _⟩ => deliv c (s2A_54 c tb htb i h2) (rowM scA s ⟨54, Nat.le_of_ble_eq_true rfl⟩) (qTok s ⟨54, Nat.le_of_ble_eq_true rfl⟩) fa
  | ⟨55, _⟩ => deliv c (s2A_55 c tb htb i h2) (rowM scA s ⟨55, Nat.le_of_ble_eq_true rfl⟩) (qTok s ⟨55, Nat.le_of_ble_eq_true rfl⟩) fa
  | ⟨56, _⟩ => deliv c (s2A_56 c tb htb i h2) (rowM scA s ⟨56, Nat.le_of_ble_eq_true rfl⟩) (qTok s ⟨56, Nat.le_of_ble_eq_true rfl⟩) fa
  | ⟨57, _⟩ => deliv c (s2A_57 c tb htb i h2) (rowM scA s ⟨57, Nat.le_of_ble_eq_true rfl⟩) (qTok s ⟨57, Nat.le_of_ble_eq_true rfl⟩) fa
  | ⟨58, _⟩ => deliv c (s2A_58 c tb htb i h2) (rowM scA s ⟨58, Nat.le_of_ble_eq_true rfl⟩) (qTok s ⟨58, Nat.le_of_ble_eq_true rfl⟩) fa
  | ⟨59, _⟩ => deliv c (s2A_59 c tb htb i h2) (rowM scA s ⟨59, Nat.le_of_ble_eq_true rfl⟩) (qTok s ⟨59, Nat.le_of_ble_eq_true rfl⟩) fa
  | ⟨60, _⟩ => deliv c (s2A_60 c tb htb i h2) (rowM scA s ⟨60, Nat.le_of_ble_eq_true rfl⟩) (qTok s ⟨60, Nat.le_of_ble_eq_true rfl⟩) fa
  | ⟨61, _⟩ => deliv c (s2A_61 c tb htb i h2) (rowM scA s ⟨61, Nat.le_of_ble_eq_true rfl⟩) (qTok s ⟨61, Nat.le_of_ble_eq_true rfl⟩) fa
  | ⟨62, _⟩ => deliv c (s2A_62 c tb htb i h2) (rowM scA s ⟨62, Nat.le_of_ble_eq_true rfl⟩) (qTok s ⟨62, Nat.le_of_ble_eq_true rfl⟩) fa
  | ⟨63, _⟩ => deliv c (s2A_63 c tb htb i h2) (rowM scA s ⟨63, Nat.le_of_ble_eq_true rfl⟩) (qTok s ⟨63, Nat.le_of_ble_eq_true rfl⟩) fa
  | ⟨_ + 64, h⟩ => absurd h (Nat.not_lt.2 (Nat.le_add_left _ _))
/-- What is left of each of slot s's read shares of array A while its array row is lent to copy r. -/
def R2A (htb : ∀ y, (tb y).toNat < 4096) (i : grid0.Coords) (h2 : k0_cond2 i = 1#1) (s : Fin 2) : Fin 64 → sProp 𝕄
  | ⟨0, _⟩ => (aM.view.loc (c : Thread nD τ) ↦[Finset.univ \ (s2A_0 c tb htb i h2).view.set]{qTok s ⟨0, Nat.le_of_ble_eq_true rfl⟩} fa)
  | ⟨1, _⟩ => (aM.view.loc (c : Thread nD τ) ↦[Finset.univ \ (s2A_1 c tb htb i h2).view.set]{qTok s ⟨1, Nat.le_of_ble_eq_true rfl⟩} fa)
  | ⟨2, _⟩ => (aM.view.loc (c : Thread nD τ) ↦[Finset.univ \ (s2A_2 c tb htb i h2).view.set]{qTok s ⟨2, Nat.le_of_ble_eq_true rfl⟩} fa)
  | ⟨3, _⟩ => (aM.view.loc (c : Thread nD τ) ↦[Finset.univ \ (s2A_3 c tb htb i h2).view.set]{qTok s ⟨3, Nat.le_of_ble_eq_true rfl⟩} fa)
  | ⟨4, _⟩ => (aM.view.loc (c : Thread nD τ) ↦[Finset.univ \ (s2A_4 c tb htb i h2).view.set]{qTok s ⟨4, Nat.le_of_ble_eq_true rfl⟩} fa)
  | ⟨5, _⟩ => (aM.view.loc (c : Thread nD τ) ↦[Finset.univ \ (s2A_5 c tb htb i h2).view.set]{qTok s ⟨5, Nat.le_of_ble_eq_true rfl⟩} fa)
  | ⟨6, _⟩ => (aM.view.loc (c : Thread nD τ) ↦[Finset.univ \ (s2A_6 c tb htb i h2).view.set]{qTok s ⟨6, Nat.le_of_ble_eq_true rfl⟩} fa)
  | ⟨7, _⟩ => (aM.view.loc (c : Thread nD τ) ↦[Finset.univ \ (s2A_7 c tb htb i h2).view.set]{qTok s ⟨7, Nat.le_of_ble_eq_true rfl⟩} fa)
  | ⟨8, _⟩ => (aM.view.loc (c : Thread nD τ) ↦[Finset.univ \ (s2A_8 c tb htb i h2).view.set]{qTok s ⟨8, Nat.le_of_ble_eq_true rfl⟩} fa)
  | ⟨9, _⟩ => (aM.view.loc (c : Thread nD τ) ↦[Finset.univ \ (s2A_9 c tb htb i h2).view.set]{qTok s ⟨9, Nat.le_of_ble_eq_true rfl⟩} fa)
  | ⟨10, _⟩ => (aM.view.loc (c : Thread nD τ) ↦[Finset.univ \ (s2A_10 c tb htb i h2).view.set]{qTok s ⟨10, Nat.le_of_ble_eq_true rfl⟩} fa)
  | ⟨11, _⟩ => (aM.view.loc (c : Thread nD τ) ↦[Finset.univ \ (s2A_11 c tb htb i h2).view.set]{qTok s ⟨11, Nat.le_of_ble_eq_true rfl⟩} fa)
  | ⟨12, _⟩ => (aM.view.loc (c : Thread nD τ) ↦[Finset.univ \ (s2A_12 c tb htb i h2).view.set]{qTok s ⟨12, Nat.le_of_ble_eq_true rfl⟩} fa)
  | ⟨13, _⟩ => (aM.view.loc (c : Thread nD τ) ↦[Finset.univ \ (s2A_13 c tb htb i h2).view.set]{qTok s ⟨13, Nat.le_of_ble_eq_true rfl⟩} fa)
  | ⟨14, _⟩ => (aM.view.loc (c : Thread nD τ) ↦[Finset.univ \ (s2A_14 c tb htb i h2).view.set]{qTok s ⟨14, Nat.le_of_ble_eq_true rfl⟩} fa)
  | ⟨15, _⟩ => (aM.view.loc (c : Thread nD τ) ↦[Finset.univ \ (s2A_15 c tb htb i h2).view.set]{qTok s ⟨15, Nat.le_of_ble_eq_true rfl⟩} fa)
  | ⟨16, _⟩ => (aM.view.loc (c : Thread nD τ) ↦[Finset.univ \ (s2A_16 c tb htb i h2).view.set]{qTok s ⟨16, Nat.le_of_ble_eq_true rfl⟩} fa)
  | ⟨17, _⟩ => (aM.view.loc (c : Thread nD τ) ↦[Finset.univ \ (s2A_17 c tb htb i h2).view.set]{qTok s ⟨17, Nat.le_of_ble_eq_true rfl⟩} fa)
  | ⟨18, _⟩ => (aM.view.loc (c : Thread nD τ) ↦[Finset.univ \ (s2A_18 c tb htb i h2).view.set]{qTok s ⟨18, Nat.le_of_ble_eq_true rfl⟩} fa)
  | ⟨19, _⟩ => (aM.view.loc (c : Thread nD τ) ↦[Finset.univ \ (s2A_19 c tb htb i h2).view.set]{qTok s ⟨19, Nat.le_of_ble_eq_true rfl⟩} fa)
  | ⟨20, _⟩ => (aM.view.loc (c : Thread nD τ) ↦[Finset.univ \ (s2A_20 c tb htb i h2).view.set]{qTok s ⟨20, Nat.le_of_ble_eq_true rfl⟩} fa)
  | ⟨21, _⟩ => (aM.view.loc (c : Thread nD τ) ↦[Finset.univ \ (s2A_21 c tb htb i h2).view.set]{qTok s ⟨21, Nat.le_of_ble_eq_true rfl⟩} fa)
  | ⟨22, _⟩ => (aM.view.loc (c : Thread nD τ) ↦[Finset.univ \ (s2A_22 c tb htb i h2).view.set]{qTok s ⟨22, Nat.le_of_ble_eq_true rfl⟩} fa)
  | ⟨23, _⟩ => (aM.view.loc (c : Thread nD τ) ↦[Finset.univ \ (s2A_23 c tb htb i h2).view.set]{qTok s ⟨23, Nat.le_of_ble_eq_true rfl⟩} fa)
  | ⟨24, _⟩ => (aM.view.loc (c : Thread nD τ) ↦[Finset.univ \ (s2A_24 c tb htb i h2).view.set]{qTok s ⟨24, Nat.le_of_ble_eq_true rfl⟩} fa)
  | ⟨25, _⟩ => (aM.view.loc (c : Thread nD τ) ↦[Finset.univ \ (s2A_25 c tb htb i h2).view.set]{qTok s ⟨25, Nat.le_of_ble_eq_true rfl⟩} fa)
  | ⟨26, _⟩ => (aM.view.loc (c : Thread nD τ) ↦[Finset.univ \ (s2A_26 c tb htb i h2).view.set]{qTok s ⟨26, Nat.le_of_ble_eq_true rfl⟩} fa)
  | ⟨27, _⟩ => (aM.view.loc (c : Thread nD τ) ↦[Finset.univ \ (s2A_27 c tb htb i h2).view.set]{qTok s ⟨27, Nat.le_of_ble_eq_true rfl⟩} fa)
  | ⟨28, _⟩ => (aM.view.loc (c : Thread nD τ) ↦[Finset.univ \ (s2A_28 c tb htb i h2).view.set]{qTok s ⟨28, Nat.le_of_ble_eq_true rfl⟩} fa)
  | ⟨29, _⟩ => (aM.view.loc (c : Thread nD τ) ↦[Finset.univ \ (s2A_29 c tb htb i h2).view.set]{qTok s ⟨29, Nat.le_of_ble_eq_true rfl⟩} fa)
  | ⟨30, _⟩ => (aM.view.loc (c : Thread nD τ) ↦[Finset.univ \ (s2A_30 c tb htb i h2).view.set]{qTok s ⟨30, Nat.le_of_ble_eq_true rfl⟩} fa)
  | ⟨31, _⟩ => (aM.view.loc (c : Thread nD τ) ↦[Finset.univ \ (s2A_31 c tb htb i h2).view.set]{qTok s ⟨31, Nat.le_of_ble_eq_true rfl⟩} fa)
  | ⟨32, _⟩ => (aM.view.loc (c : Thread nD τ) ↦[Finset.univ \ (s2A_32 c tb htb i h2).view.set]{qTok s ⟨32, Nat.le_of_ble_eq_true rfl⟩} fa)
  | ⟨33, _⟩ => (aM.view.loc (c : Thread nD τ) ↦[Finset.univ \ (s2A_33 c tb htb i h2).view.set]{qTok s ⟨33, Nat.le_of_ble_eq_true rfl⟩} fa)
  | ⟨34, _⟩ => (aM.view.loc (c : Thread nD τ) ↦[Finset.univ \ (s2A_34 c tb htb i h2).view.set]{qTok s ⟨34, Nat.le_of_ble_eq_true rfl⟩} fa)
  | ⟨35, _⟩ => (aM.view.loc (c : Thread nD τ) ↦[Finset.univ \ (s2A_35 c tb htb i h2).view.set]{qTok s ⟨35, Nat.le_of_ble_eq_true rfl⟩} fa)
  | ⟨36, _⟩ => (aM.view.loc (c : Thread nD τ) ↦[Finset.univ \ (s2A_36 c tb htb i h2).view.set]{qTok s ⟨36, Nat.le_of_ble_eq_true rfl⟩} fa)
  | ⟨37, _⟩ => (aM.view.loc (c : Thread nD τ) ↦[Finset.univ \ (s2A_37 c tb htb i h2).view.set]{qTok s ⟨37, Nat.le_of_ble_eq_true rfl⟩} fa)
  | ⟨38, _⟩ => (aM.view.loc (c : Thread nD τ) ↦[Finset.univ \ (s2A_38 c tb htb i h2).view.set]{qTok s ⟨38, Nat.le_of_ble_eq_true rfl⟩} fa)
  | ⟨39, _⟩ => (aM.view.loc (c : Thread nD τ) ↦[Finset.univ \ (s2A_39 c tb htb i h2).view.set]{qTok s ⟨39, Nat.le_of_ble_eq_true rfl⟩} fa)
  | ⟨40, _⟩ => (aM.view.loc (c : Thread nD τ) ↦[Finset.univ \ (s2A_40 c tb htb i h2).view.set]{qTok s ⟨40, Nat.le_of_ble_eq_true rfl⟩} fa)
  | ⟨41, _⟩ => (aM.view.loc (c : Thread nD τ) ↦[Finset.univ \ (s2A_41 c tb htb i h2).view.set]{qTok s ⟨41, Nat.le_of_ble_eq_true rfl⟩} fa)
  | ⟨42, _⟩ => (aM.view.loc (c : Thread nD τ) ↦[Finset.univ \ (s2A_42 c tb htb i h2).view.set]{qTok s ⟨42, Nat.le_of_ble_eq_true rfl⟩} fa)
  | ⟨43, _⟩ => (aM.view.loc (c : Thread nD τ) ↦[Finset.univ \ (s2A_43 c tb htb i h2).view.set]{qTok s ⟨43, Nat.le_of_ble_eq_true rfl⟩} fa)
  | ⟨44, _⟩ => (aM.view.loc (c : Thread nD τ) ↦[Finset.univ \ (s2A_44 c tb htb i h2).view.set]{qTok s ⟨44, Nat.le_of_ble_eq_true rfl⟩} fa)
  | ⟨45, _⟩ => (aM.view.loc (c : Thread nD τ) ↦[Finset.univ \ (s2A_45 c tb htb i h2).view.set]{qTok s ⟨45, Nat.le_of_ble_eq_true rfl⟩} fa)
  | ⟨46, _⟩ => (aM.view.loc (c : Thread nD τ) ↦[Finset.univ \ (s2A_46 c tb htb i h2).view.set]{qTok s ⟨46, Nat.le_of_ble_eq_true rfl⟩} fa)
  | ⟨47, _⟩ => (aM.view.loc (c : Thread nD τ) ↦[Finset.univ \ (s2A_47 c tb htb i h2).view.set]{qTok s ⟨47, Nat.le_of_ble_eq_true rfl⟩} fa)
  | ⟨48, _⟩ => (aM.view.loc (c : Thread nD τ) ↦[Finset.univ \ (s2A_48 c tb htb i h2).view.set]{qTok s ⟨48, Nat.le_of_ble_eq_true rfl⟩} fa)
  | ⟨49, _⟩ => (aM.view.loc (c : Thread nD τ) ↦[Finset.univ \ (s2A_49 c tb htb i h2).view.set]{qTok s ⟨49, Nat.le_of_ble_eq_true rfl⟩} fa)
  | ⟨50, _⟩ => (aM.view.loc (c : Thread nD τ) ↦[Finset.univ \ (s2A_50 c tb htb i h2).view.set]{qTok s ⟨50, Nat.le_of_ble_eq_true rfl⟩} fa)
  | ⟨51, _⟩ => (aM.view.loc (c : Thread nD τ) ↦[Finset.univ \ (s2A_51 c tb htb i h2).view.set]{qTok s ⟨51, Nat.le_of_ble_eq_true rfl⟩} fa)
  | ⟨52, _⟩ => (aM.view.loc (c : Thread nD τ) ↦[Finset.univ \ (s2A_52 c tb htb i h2).view.set]{qTok s ⟨52, Nat.le_of_ble_eq_true rfl⟩} fa)
  | ⟨53, _⟩ => (aM.view.loc (c : Thread nD τ) ↦[Finset.univ \ (s2A_53 c tb htb i h2).view.set]{qTok s ⟨53, Nat.le_of_ble_eq_true rfl⟩} fa)
  | ⟨54, _⟩ => (aM.view.loc (c : Thread nD τ) ↦[Finset.univ \ (s2A_54 c tb htb i h2).view.set]{qTok s ⟨54, Nat.le_of_ble_eq_true rfl⟩} fa)
  | ⟨55, _⟩ => (aM.view.loc (c : Thread nD τ) ↦[Finset.univ \ (s2A_55 c tb htb i h2).view.set]{qTok s ⟨55, Nat.le_of_ble_eq_true rfl⟩} fa)
  | ⟨56, _⟩ => (aM.view.loc (c : Thread nD τ) ↦[Finset.univ \ (s2A_56 c tb htb i h2).view.set]{qTok s ⟨56, Nat.le_of_ble_eq_true rfl⟩} fa)
  | ⟨57, _⟩ => (aM.view.loc (c : Thread nD τ) ↦[Finset.univ \ (s2A_57 c tb htb i h2).view.set]{qTok s ⟨57, Nat.le_of_ble_eq_true rfl⟩} fa)
  | ⟨58, _⟩ => (aM.view.loc (c : Thread nD τ) ↦[Finset.univ \ (s2A_58 c tb htb i h2).view.set]{qTok s ⟨58, Nat.le_of_ble_eq_true rfl⟩} fa)
  | ⟨59, _⟩ => (aM.view.loc (c : Thread nD τ) ↦[Finset.univ \ (s2A_59 c tb htb i h2).view.set]{qTok s ⟨59, Nat.le_of_ble_eq_true rfl⟩} fa)
  | ⟨60, _⟩ => (aM.view.loc (c : Thread nD τ) ↦[Finset.univ \ (s2A_60 c tb htb i h2).view.set]{qTok s ⟨60, Nat.le_of_ble_eq_true rfl⟩} fa)
  | ⟨61, _⟩ => (aM.view.loc (c : Thread nD τ) ↦[Finset.univ \ (s2A_61 c tb htb i h2).view.set]{qTok s ⟨61, Nat.le_of_ble_eq_true rfl⟩} fa)
  | ⟨62, _⟩ => (aM.view.loc (c : Thread nD τ) ↦[Finset.univ \ (s2A_62 c tb htb i h2).view.set]{qTok s ⟨62, Nat.le_of_ble_eq_true rfl⟩} fa)
  | ⟨63, _⟩ => (aM.view.loc (c : Thread nD τ) ↦[Finset.univ \ (s2A_63 c tb htb i h2).view.set]{qTok s ⟨63, Nat.le_of_ble_eq_true rfl⟩} fa)
  | ⟨_ + 64, h⟩ => absurd h (Nat.not_lt.2 (Nat.le_add_left _ _))
/-- What each row of slot s holds once copy r of array A (fetch 2) has landed. -/
def L2A (htb : ∀ y, (tb y).toNat < 4096) (i : grid0.Coords) (h2 : k0_cond2 i = 1#1) (s : Fin 2) : Fin 64 → MBuf (F := F) c scA
  | ⟨0, _⟩ => landedJ c (s2A_0 c tb htb i h2) (rowM scA s ⟨0, Nat.le_of_ble_eq_true rfl⟩) fa
  | ⟨1, _⟩ => landedJ c (s2A_1 c tb htb i h2) (rowM scA s ⟨1, Nat.le_of_ble_eq_true rfl⟩) fa
  | ⟨2, _⟩ => landedJ c (s2A_2 c tb htb i h2) (rowM scA s ⟨2, Nat.le_of_ble_eq_true rfl⟩) fa
  | ⟨3, _⟩ => landedJ c (s2A_3 c tb htb i h2) (rowM scA s ⟨3, Nat.le_of_ble_eq_true rfl⟩) fa
  | ⟨4, _⟩ => landedJ c (s2A_4 c tb htb i h2) (rowM scA s ⟨4, Nat.le_of_ble_eq_true rfl⟩) fa
  | ⟨5, _⟩ => landedJ c (s2A_5 c tb htb i h2) (rowM scA s ⟨5, Nat.le_of_ble_eq_true rfl⟩) fa
  | ⟨6, _⟩ => landedJ c (s2A_6 c tb htb i h2) (rowM scA s ⟨6, Nat.le_of_ble_eq_true rfl⟩) fa
  | ⟨7, _⟩ => landedJ c (s2A_7 c tb htb i h2) (rowM scA s ⟨7, Nat.le_of_ble_eq_true rfl⟩) fa
  | ⟨8, _⟩ => landedJ c (s2A_8 c tb htb i h2) (rowM scA s ⟨8, Nat.le_of_ble_eq_true rfl⟩) fa
  | ⟨9, _⟩ => landedJ c (s2A_9 c tb htb i h2) (rowM scA s ⟨9, Nat.le_of_ble_eq_true rfl⟩) fa
  | ⟨10, _⟩ => landedJ c (s2A_10 c tb htb i h2) (rowM scA s ⟨10, Nat.le_of_ble_eq_true rfl⟩) fa
  | ⟨11, _⟩ => landedJ c (s2A_11 c tb htb i h2) (rowM scA s ⟨11, Nat.le_of_ble_eq_true rfl⟩) fa
  | ⟨12, _⟩ => landedJ c (s2A_12 c tb htb i h2) (rowM scA s ⟨12, Nat.le_of_ble_eq_true rfl⟩) fa
  | ⟨13, _⟩ => landedJ c (s2A_13 c tb htb i h2) (rowM scA s ⟨13, Nat.le_of_ble_eq_true rfl⟩) fa
  | ⟨14, _⟩ => landedJ c (s2A_14 c tb htb i h2) (rowM scA s ⟨14, Nat.le_of_ble_eq_true rfl⟩) fa
  | ⟨15, _⟩ => landedJ c (s2A_15 c tb htb i h2) (rowM scA s ⟨15, Nat.le_of_ble_eq_true rfl⟩) fa
  | ⟨16, _⟩ => landedJ c (s2A_16 c tb htb i h2) (rowM scA s ⟨16, Nat.le_of_ble_eq_true rfl⟩) fa
  | ⟨17, _⟩ => landedJ c (s2A_17 c tb htb i h2) (rowM scA s ⟨17, Nat.le_of_ble_eq_true rfl⟩) fa
  | ⟨18, _⟩ => landedJ c (s2A_18 c tb htb i h2) (rowM scA s ⟨18, Nat.le_of_ble_eq_true rfl⟩) fa
  | ⟨19, _⟩ => landedJ c (s2A_19 c tb htb i h2) (rowM scA s ⟨19, Nat.le_of_ble_eq_true rfl⟩) fa
  | ⟨20, _⟩ => landedJ c (s2A_20 c tb htb i h2) (rowM scA s ⟨20, Nat.le_of_ble_eq_true rfl⟩) fa
  | ⟨21, _⟩ => landedJ c (s2A_21 c tb htb i h2) (rowM scA s ⟨21, Nat.le_of_ble_eq_true rfl⟩) fa
  | ⟨22, _⟩ => landedJ c (s2A_22 c tb htb i h2) (rowM scA s ⟨22, Nat.le_of_ble_eq_true rfl⟩) fa
  | ⟨23, _⟩ => landedJ c (s2A_23 c tb htb i h2) (rowM scA s ⟨23, Nat.le_of_ble_eq_true rfl⟩) fa
  | ⟨24, _⟩ => landedJ c (s2A_24 c tb htb i h2) (rowM scA s ⟨24, Nat.le_of_ble_eq_true rfl⟩) fa
  | ⟨25, _⟩ => landedJ c (s2A_25 c tb htb i h2) (rowM scA s ⟨25, Nat.le_of_ble_eq_true rfl⟩) fa
  | ⟨26, _⟩ => landedJ c (s2A_26 c tb htb i h2) (rowM scA s ⟨26, Nat.le_of_ble_eq_true rfl⟩) fa
  | ⟨27, _⟩ => landedJ c (s2A_27 c tb htb i h2) (rowM scA s ⟨27, Nat.le_of_ble_eq_true rfl⟩) fa
  | ⟨28, _⟩ => landedJ c (s2A_28 c tb htb i h2) (rowM scA s ⟨28, Nat.le_of_ble_eq_true rfl⟩) fa
  | ⟨29, _⟩ => landedJ c (s2A_29 c tb htb i h2) (rowM scA s ⟨29, Nat.le_of_ble_eq_true rfl⟩) fa
  | ⟨30, _⟩ => landedJ c (s2A_30 c tb htb i h2) (rowM scA s ⟨30, Nat.le_of_ble_eq_true rfl⟩) fa
  | ⟨31, _⟩ => landedJ c (s2A_31 c tb htb i h2) (rowM scA s ⟨31, Nat.le_of_ble_eq_true rfl⟩) fa
  | ⟨32, _⟩ => landedJ c (s2A_32 c tb htb i h2) (rowM scA s ⟨32, Nat.le_of_ble_eq_true rfl⟩) fa
  | ⟨33, _⟩ => landedJ c (s2A_33 c tb htb i h2) (rowM scA s ⟨33, Nat.le_of_ble_eq_true rfl⟩) fa
  | ⟨34, _⟩ => landedJ c (s2A_34 c tb htb i h2) (rowM scA s ⟨34, Nat.le_of_ble_eq_true rfl⟩) fa
  | ⟨35, _⟩ => landedJ c (s2A_35 c tb htb i h2) (rowM scA s ⟨35, Nat.le_of_ble_eq_true rfl⟩) fa
  | ⟨36, _⟩ => landedJ c (s2A_36 c tb htb i h2) (rowM scA s ⟨36, Nat.le_of_ble_eq_true rfl⟩) fa
  | ⟨37, _⟩ => landedJ c (s2A_37 c tb htb i h2) (rowM scA s ⟨37, Nat.le_of_ble_eq_true rfl⟩) fa
  | ⟨38, _⟩ => landedJ c (s2A_38 c tb htb i h2) (rowM scA s ⟨38, Nat.le_of_ble_eq_true rfl⟩) fa
  | ⟨39, _⟩ => landedJ c (s2A_39 c tb htb i h2) (rowM scA s ⟨39, Nat.le_of_ble_eq_true rfl⟩) fa
  | ⟨40, _⟩ => landedJ c (s2A_40 c tb htb i h2) (rowM scA s ⟨40, Nat.le_of_ble_eq_true rfl⟩) fa
  | ⟨41, _⟩ => landedJ c (s2A_41 c tb htb i h2) (rowM scA s ⟨41, Nat.le_of_ble_eq_true rfl⟩) fa
  | ⟨42, _⟩ => landedJ c (s2A_42 c tb htb i h2) (rowM scA s ⟨42, Nat.le_of_ble_eq_true rfl⟩) fa
  | ⟨43, _⟩ => landedJ c (s2A_43 c tb htb i h2) (rowM scA s ⟨43, Nat.le_of_ble_eq_true rfl⟩) fa
  | ⟨44, _⟩ => landedJ c (s2A_44 c tb htb i h2) (rowM scA s ⟨44, Nat.le_of_ble_eq_true rfl⟩) fa
  | ⟨45, _⟩ => landedJ c (s2A_45 c tb htb i h2) (rowM scA s ⟨45, Nat.le_of_ble_eq_true rfl⟩) fa
  | ⟨46, _⟩ => landedJ c (s2A_46 c tb htb i h2) (rowM scA s ⟨46, Nat.le_of_ble_eq_true rfl⟩) fa
  | ⟨47, _⟩ => landedJ c (s2A_47 c tb htb i h2) (rowM scA s ⟨47, Nat.le_of_ble_eq_true rfl⟩) fa
  | ⟨48, _⟩ => landedJ c (s2A_48 c tb htb i h2) (rowM scA s ⟨48, Nat.le_of_ble_eq_true rfl⟩) fa
  | ⟨49, _⟩ => landedJ c (s2A_49 c tb htb i h2) (rowM scA s ⟨49, Nat.le_of_ble_eq_true rfl⟩) fa
  | ⟨50, _⟩ => landedJ c (s2A_50 c tb htb i h2) (rowM scA s ⟨50, Nat.le_of_ble_eq_true rfl⟩) fa
  | ⟨51, _⟩ => landedJ c (s2A_51 c tb htb i h2) (rowM scA s ⟨51, Nat.le_of_ble_eq_true rfl⟩) fa
  | ⟨52, _⟩ => landedJ c (s2A_52 c tb htb i h2) (rowM scA s ⟨52, Nat.le_of_ble_eq_true rfl⟩) fa
  | ⟨53, _⟩ => landedJ c (s2A_53 c tb htb i h2) (rowM scA s ⟨53, Nat.le_of_ble_eq_true rfl⟩) fa
  | ⟨54, _⟩ => landedJ c (s2A_54 c tb htb i h2) (rowM scA s ⟨54, Nat.le_of_ble_eq_true rfl⟩) fa
  | ⟨55, _⟩ => landedJ c (s2A_55 c tb htb i h2) (rowM scA s ⟨55, Nat.le_of_ble_eq_true rfl⟩) fa
  | ⟨56, _⟩ => landedJ c (s2A_56 c tb htb i h2) (rowM scA s ⟨56, Nat.le_of_ble_eq_true rfl⟩) fa
  | ⟨57, _⟩ => landedJ c (s2A_57 c tb htb i h2) (rowM scA s ⟨57, Nat.le_of_ble_eq_true rfl⟩) fa
  | ⟨58, _⟩ => landedJ c (s2A_58 c tb htb i h2) (rowM scA s ⟨58, Nat.le_of_ble_eq_true rfl⟩) fa
  | ⟨59, _⟩ => landedJ c (s2A_59 c tb htb i h2) (rowM scA s ⟨59, Nat.le_of_ble_eq_true rfl⟩) fa
  | ⟨60, _⟩ => landedJ c (s2A_60 c tb htb i h2) (rowM scA s ⟨60, Nat.le_of_ble_eq_true rfl⟩) fa
  | ⟨61, _⟩ => landedJ c (s2A_61 c tb htb i h2) (rowM scA s ⟨61, Nat.le_of_ble_eq_true rfl⟩) fa
  | ⟨62, _⟩ => landedJ c (s2A_62 c tb htb i h2) (rowM scA s ⟨62, Nat.le_of_ble_eq_true rfl⟩) fa
  | ⟨63, _⟩ => landedJ c (s2A_63 c tb htb i h2) (rowM scA s ⟨63, Nat.le_of_ble_eq_true rfl⟩) fa
  | ⟨_ + 64, h⟩ => absurd h (Nat.not_lt.2 (Nat.le_add_left _ _))
/-- The deliveries of the 64 copies of array B (fetch 2) into slot s, in the order the copies are started. -/
def D2B (htb : ∀ y, (tb y).toNat < 4096) (i : grid0.Coords) (h2 : k0_cond2 i = 1#1) (s : Fin 2) : Fin 64 → sProp 𝕄
  | ⟨0, _⟩ => deliv c (s2B_0 c tb htb i h2) (rowM scB s ⟨0, Nat.le_of_ble_eq_true rfl⟩) (qTok s ⟨0, Nat.le_of_ble_eq_true rfl⟩) fb
  | ⟨1, _⟩ => deliv c (s2B_1 c tb htb i h2) (rowM scB s ⟨1, Nat.le_of_ble_eq_true rfl⟩) (qTok s ⟨1, Nat.le_of_ble_eq_true rfl⟩) fb
  | ⟨2, _⟩ => deliv c (s2B_2 c tb htb i h2) (rowM scB s ⟨2, Nat.le_of_ble_eq_true rfl⟩) (qTok s ⟨2, Nat.le_of_ble_eq_true rfl⟩) fb
  | ⟨3, _⟩ => deliv c (s2B_3 c tb htb i h2) (rowM scB s ⟨3, Nat.le_of_ble_eq_true rfl⟩) (qTok s ⟨3, Nat.le_of_ble_eq_true rfl⟩) fb
  | ⟨4, _⟩ => deliv c (s2B_4 c tb htb i h2) (rowM scB s ⟨4, Nat.le_of_ble_eq_true rfl⟩) (qTok s ⟨4, Nat.le_of_ble_eq_true rfl⟩) fb
  | ⟨5, _⟩ => deliv c (s2B_5 c tb htb i h2) (rowM scB s ⟨5, Nat.le_of_ble_eq_true rfl⟩) (qTok s ⟨5, Nat.le_of_ble_eq_true rfl⟩) fb
  | ⟨6, _⟩ => deliv c (s2B_6 c tb htb i h2) (rowM scB s ⟨6, Nat.le_of_ble_eq_true rfl⟩) (qTok s ⟨6, Nat.le_of_ble_eq_true rfl⟩) fb
  | ⟨7, _⟩ => deliv c (s2B_7 c tb htb i h2) (rowM scB s ⟨7, Nat.le_of_ble_eq_true rfl⟩) (qTok s ⟨7, Nat.le_of_ble_eq_true rfl⟩) fb
  | ⟨8, _⟩ => deliv c (s2B_8 c tb htb i h2) (rowM scB s ⟨8, Nat.le_of_ble_eq_true rfl⟩) (qTok s ⟨8, Nat.le_of_ble_eq_true rfl⟩) fb
  | ⟨9, _⟩ => deliv c (s2B_9 c tb htb i h2) (rowM scB s ⟨9, Nat.le_of_ble_eq_true rfl⟩) (qTok s ⟨9, Nat.le_of_ble_eq_true rfl⟩) fb
  | ⟨10, _⟩ => deliv c (s2B_10 c tb htb i h2) (rowM scB s ⟨10, Nat.le_of_ble_eq_true rfl⟩) (qTok s ⟨10, Nat.le_of_ble_eq_true rfl⟩) fb
  | ⟨11, _⟩ => deliv c (s2B_11 c tb htb i h2) (rowM scB s ⟨11, Nat.le_of_ble_eq_true rfl⟩) (qTok s ⟨11, Nat.le_of_ble_eq_true rfl⟩) fb
  | ⟨12, _⟩ => deliv c (s2B_12 c tb htb i h2) (rowM scB s ⟨12, Nat.le_of_ble_eq_true rfl⟩) (qTok s ⟨12, Nat.le_of_ble_eq_true rfl⟩) fb
  | ⟨13, _⟩ => deliv c (s2B_13 c tb htb i h2) (rowM scB s ⟨13, Nat.le_of_ble_eq_true rfl⟩) (qTok s ⟨13, Nat.le_of_ble_eq_true rfl⟩) fb
  | ⟨14, _⟩ => deliv c (s2B_14 c tb htb i h2) (rowM scB s ⟨14, Nat.le_of_ble_eq_true rfl⟩) (qTok s ⟨14, Nat.le_of_ble_eq_true rfl⟩) fb
  | ⟨15, _⟩ => deliv c (s2B_15 c tb htb i h2) (rowM scB s ⟨15, Nat.le_of_ble_eq_true rfl⟩) (qTok s ⟨15, Nat.le_of_ble_eq_true rfl⟩) fb
  | ⟨16, _⟩ => deliv c (s2B_16 c tb htb i h2) (rowM scB s ⟨16, Nat.le_of_ble_eq_true rfl⟩) (qTok s ⟨16, Nat.le_of_ble_eq_true rfl⟩) fb
  | ⟨17, _⟩ => deliv c (s2B_17 c tb htb i h2) (rowM scB s ⟨17, Nat.le_of_ble_eq_true rfl⟩) (qTok s ⟨17, Nat.le_of_ble_eq_true rfl⟩) fb
  | ⟨18, _⟩ => deliv c (s2B_18 c tb htb i h2) (rowM scB s ⟨18, Nat.le_of_ble_eq_true rfl⟩) (qTok s ⟨18, Nat.le_of_ble_eq_true rfl⟩) fb
  | ⟨19, _⟩ => deliv c (s2B_19 c tb htb i h2) (rowM scB s ⟨19, Nat.le_of_ble_eq_true rfl⟩) (qTok s ⟨19, Nat.le_of_ble_eq_true rfl⟩) fb
  | ⟨20, _⟩ => deliv c (s2B_20 c tb htb i h2) (rowM scB s ⟨20, Nat.le_of_ble_eq_true rfl⟩) (qTok s ⟨20, Nat.le_of_ble_eq_true rfl⟩) fb
  | ⟨21, _⟩ => deliv c (s2B_21 c tb htb i h2) (rowM scB s ⟨21, Nat.le_of_ble_eq_true rfl⟩) (qTok s ⟨21, Nat.le_of_ble_eq_true rfl⟩) fb
  | ⟨22, _⟩ => deliv c (s2B_22 c tb htb i h2) (rowM scB s ⟨22, Nat.le_of_ble_eq_true rfl⟩) (qTok s ⟨22, Nat.le_of_ble_eq_true rfl⟩) fb
  | ⟨23, _⟩ => deliv c (s2B_23 c tb htb i h2) (rowM scB s ⟨23, Nat.le_of_ble_eq_true rfl⟩) (qTok s ⟨23, Nat.le_of_ble_eq_true rfl⟩) fb
  | ⟨24, _⟩ => deliv c (s2B_24 c tb htb i h2) (rowM scB s ⟨24, Nat.le_of_ble_eq_true rfl⟩) (qTok s ⟨24, Nat.le_of_ble_eq_true rfl⟩) fb
  | ⟨25, _⟩ => deliv c (s2B_25 c tb htb i h2) (rowM scB s ⟨25, Nat.le_of_ble_eq_true rfl⟩) (qTok s ⟨25, Nat.le_of_ble_eq_true rfl⟩) fb
  | ⟨26, _⟩ => deliv c (s2B_26 c tb htb i h2) (rowM scB s ⟨26, Nat.le_of_ble_eq_true rfl⟩) (qTok s ⟨26, Nat.le_of_ble_eq_true rfl⟩) fb
  | ⟨27, _⟩ => deliv c (s2B_27 c tb htb i h2) (rowM scB s ⟨27, Nat.le_of_ble_eq_true rfl⟩) (qTok s ⟨27, Nat.le_of_ble_eq_true rfl⟩) fb
  | ⟨28, _⟩ => deliv c (s2B_28 c tb htb i h2) (rowM scB s ⟨28, Nat.le_of_ble_eq_true rfl⟩) (qTok s ⟨28, Nat.le_of_ble_eq_true rfl⟩) fb
  | ⟨29, _⟩ => deliv c (s2B_29 c tb htb i h2) (rowM scB s ⟨29, Nat.le_of_ble_eq_true rfl⟩) (qTok s ⟨29, Nat.le_of_ble_eq_true rfl⟩) fb
  | ⟨30, _⟩ => deliv c (s2B_30 c tb htb i h2) (rowM scB s ⟨30, Nat.le_of_ble_eq_true rfl⟩) (qTok s ⟨30, Nat.le_of_ble_eq_true rfl⟩) fb
  | ⟨31, _⟩ => deliv c (s2B_31 c tb htb i h2) (rowM scB s ⟨31, Nat.le_of_ble_eq_true rfl⟩) (qTok s ⟨31, Nat.le_of_ble_eq_true rfl⟩) fb
  | ⟨32, _⟩ => deliv c (s2B_32 c tb htb i h2) (rowM scB s ⟨32, Nat.le_of_ble_eq_true rfl⟩) (qTok s ⟨32, Nat.le_of_ble_eq_true rfl⟩) fb
  | ⟨33, _⟩ => deliv c (s2B_33 c tb htb i h2) (rowM scB s ⟨33, Nat.le_of_ble_eq_true rfl⟩) (qTok s ⟨33, Nat.le_of_ble_eq_true rfl⟩) fb
  | ⟨34, _⟩ => deliv c (s2B_34 c tb htb i h2) (rowM scB s ⟨34, Nat.le_of_ble_eq_true rfl⟩) (qTok s ⟨34, Nat.le_of_ble_eq_true rfl⟩) fb
  | ⟨35, _⟩ => deliv c (s2B_35 c tb htb i h2) (rowM scB s ⟨35, Nat.le_of_ble_eq_true rfl⟩) (qTok s ⟨35, Nat.le_of_ble_eq_true rfl⟩) fb
  | ⟨36, _⟩ => deliv c (s2B_36 c tb htb i h2) (rowM scB s ⟨36, Nat.le_of_ble_eq_true rfl⟩) (qTok s ⟨36, Nat.le_of_ble_eq_true rfl⟩) fb
  | ⟨37, _⟩ => deliv c (s2B_37 c tb htb i h2) (rowM scB s ⟨37, Nat.le_of_ble_eq_true rfl⟩) (qTok s ⟨37, Nat.le_of_ble_eq_true rfl⟩) fb
  | ⟨38, _⟩ => deliv c (s2B_38 c tb htb i h2) (rowM scB s ⟨38, Nat.le_of_ble_eq_true rfl⟩) (qTok s ⟨38, Nat.le_of_ble_eq_true rfl⟩) fb
  | ⟨39, _⟩ => deliv c (s2B_39 c tb htb i h2) (rowM scB s ⟨39, Nat.le_of_ble_eq_true rfl⟩) (qTok s ⟨39, Nat.le_of_ble_eq_true rfl⟩) fb
  | ⟨40, _⟩ => deliv c (s2B_40 c tb htb i h2) (rowM scB s ⟨40, Nat.le_of_ble_eq_true rfl⟩) (qTok s ⟨40, Nat.le_of_ble_eq_true rfl⟩) fb
  | ⟨41, _⟩ => deliv c (s2B_41 c tb htb i h2) (rowM scB s ⟨41, Nat.le_of_ble_eq_true rfl⟩) (qTok s ⟨41, Nat.le_of_ble_eq_true rfl⟩) fb
  | ⟨42, _⟩ => deliv c (s2B_42 c tb htb i h2) (rowM scB s ⟨42, Nat.le_of_ble_eq_true rfl⟩) (qTok s ⟨42, Nat.le_of_ble_eq_true rfl⟩) fb
  | ⟨43, _⟩ => deliv c (s2B_43 c tb htb i h2) (rowM scB s ⟨43, Nat.le_of_ble_eq_true rfl⟩) (qTok s ⟨43, Nat.le_of_ble_eq_true rfl⟩) fb
  | ⟨44, _⟩ => deliv c (s2B_44 c tb htb i h2) (rowM scB s ⟨44, Nat.le_of_ble_eq_true rfl⟩) (qTok s ⟨44, Nat.le_of_ble_eq_true rfl⟩) fb
  | ⟨45, _⟩ => deliv c (s2B_45 c tb htb i h2) (rowM scB s ⟨45, Nat.le_of_ble_eq_true rfl⟩) (qTok s ⟨45, Nat.le_of_ble_eq_true rfl⟩) fb
  | ⟨46, _⟩ => deliv c (s2B_46 c tb htb i h2) (rowM scB s ⟨46, Nat.le_of_ble_eq_true rfl⟩) (qTok s ⟨46, Nat.le_of_ble_eq_true rfl⟩) fb
  | ⟨47, _⟩ => deliv c (s2B_47 c tb htb i h2) (rowM scB s ⟨47, Nat.le_of_ble_eq_true rfl⟩) (qTok s ⟨47, Nat.le_of_ble_eq_true rfl⟩) fb
  | ⟨48, _⟩ => deliv c (s2B_48 c tb htb i h2) (rowM scB s ⟨48, Nat.le_of_ble_eq_true rfl⟩) (qTok s ⟨48, Nat.le_of_ble_eq_true rfl⟩) fb
  | ⟨49, _⟩ => deliv c (s2B_49 c tb htb i h2) (rowM scB s ⟨49, Nat.le_of_ble_eq_true rfl⟩) (qTok s ⟨49, Nat.le_of_ble_eq_true rfl⟩) fb
  | ⟨50, _⟩ => deliv c (s2B_50 c tb htb i h2) (rowM scB s ⟨50, Nat.le_of_ble_eq_true rfl⟩) (qTok s ⟨50, Nat.le_of_ble_eq_true rfl⟩) fb
  | ⟨51, _⟩ => deliv c (s2B_51 c tb htb i h2) (rowM scB s ⟨51, Nat.le_of_ble_eq_true rfl⟩) (qTok s ⟨51, Nat.le_of_ble_eq_true rfl⟩) fb
  | ⟨52, _⟩ => deliv c (s2B_52 c tb htb i h2) (rowM scB s ⟨52, Nat.le_of_ble_eq_true rfl⟩) (qTok s ⟨52, Nat.le_of_ble_eq_true rfl⟩) fb
  | ⟨53, _⟩ => deliv c (s2B_53 c tb htb i h2) (rowM scB s ⟨53, Nat.le_of_ble_eq_true rfl⟩) (qTok s ⟨53, Nat.le_of_ble_eq_true rfl⟩) fb
  | ⟨54, _⟩ => deliv c (s2B_54 c tb htb i h2) (rowM scB s ⟨54, Nat.le_of_ble_eq_true rfl⟩) (qTok s ⟨54, Nat.le_of_ble_eq_true rfl⟩) fb
  | ⟨55, _⟩ => deliv c (s2B_55 c tb htb i h2) (rowM scB s ⟨55, Nat.le_of_ble_eq_true rfl⟩) (qTok s ⟨55, Nat.le_of_ble_eq_true rfl⟩) fb
  | ⟨56, _⟩ => deliv c (s2B_56 c tb htb i h2) (rowM scB s ⟨56, Nat.le_of_ble_eq_true rfl⟩) (qTok s ⟨56, Nat.le_of_ble_eq_true rfl⟩) fb
  | ⟨57, _⟩ => deliv c (s2B_57 c tb htb i h2) (rowM scB s ⟨57, Nat.le_of_ble_eq_true rfl⟩) (qTok s ⟨57, Nat.le_of_ble_eq_true rfl⟩) fb
  | ⟨58, _⟩ => deliv c (s2B_58 c tb htb i h2) (rowM scB s ⟨58, Nat.le_of_ble_eq_true rfl⟩) (qTok s ⟨58, Nat.le_of_ble_eq_true rfl⟩) fb
  | ⟨59, _⟩ => deliv c (s2B_59 c tb htb i h2) (rowM scB s ⟨59, Nat.le_of_ble_eq_true rfl⟩) (qTok s ⟨59, Nat.le_of_ble_eq_true rfl⟩) fb
  | ⟨60, _⟩ => deliv c (s2B_60 c tb htb i h2) (rowM scB s ⟨60, Nat.le_of_ble_eq_true rfl⟩) (qTok s ⟨60, Nat.le_of_ble_eq_true rfl⟩) fb
  | ⟨61, _⟩ => deliv c (s2B_61 c tb htb i h2) (rowM scB s ⟨61, Nat.le_of_ble_eq_true rfl⟩) (qTok s ⟨61, Nat.le_of_ble_eq_true rfl⟩) fb
  | ⟨62, _⟩ => deliv c (s2B_62 c tb htb i h2) (rowM scB s ⟨62, Nat.le_of_ble_eq_true rfl⟩) (qTok s ⟨62, Nat.le_of_ble_eq_true rfl⟩) fb
  | ⟨63, _⟩ => deliv c (s2B_63 c tb htb i h2) (rowM scB s ⟨63, Nat.le_of_ble_eq_true rfl⟩) (qTok s ⟨63, Nat.le_of_ble_eq_true rfl⟩) fb
  | ⟨_ + 64, h⟩ => absurd h (Nat.not_lt.2 (Nat.le_add_left _ _))
/-- What is left of each of slot s's read shares of array B while its array row is lent to copy r. -/
def R2B (htb : ∀ y, (tb y).toNat < 4096) (i : grid0.Coords) (h2 : k0_cond2 i = 1#1) (s : Fin 2) : Fin 64 → sProp 𝕄
  | ⟨0, _⟩ => (bM.view.loc (c : Thread nD τ) ↦[Finset.univ \ (s2B_0 c tb htb i h2).view.set]{qTok s ⟨0, Nat.le_of_ble_eq_true rfl⟩} fb)
  | ⟨1, _⟩ => (bM.view.loc (c : Thread nD τ) ↦[Finset.univ \ (s2B_1 c tb htb i h2).view.set]{qTok s ⟨1, Nat.le_of_ble_eq_true rfl⟩} fb)
  | ⟨2, _⟩ => (bM.view.loc (c : Thread nD τ) ↦[Finset.univ \ (s2B_2 c tb htb i h2).view.set]{qTok s ⟨2, Nat.le_of_ble_eq_true rfl⟩} fb)
  | ⟨3, _⟩ => (bM.view.loc (c : Thread nD τ) ↦[Finset.univ \ (s2B_3 c tb htb i h2).view.set]{qTok s ⟨3, Nat.le_of_ble_eq_true rfl⟩} fb)
  | ⟨4, _⟩ => (bM.view.loc (c : Thread nD τ) ↦[Finset.univ \ (s2B_4 c tb htb i h2).view.set]{qTok s ⟨4, Nat.le_of_ble_eq_true rfl⟩} fb)
  | ⟨5, _⟩ => (bM.view.loc (c : Thread nD τ) ↦[Finset.univ \ (s2B_5 c tb htb i h2).view.set]{qTok s ⟨5, Nat.le_of_ble_eq_true rfl⟩} fb)
  | ⟨6, _⟩ => (bM.view.loc (c : Thread nD τ) ↦[Finset.univ \ (s2B_6 c tb htb i h2).view.set]{qTok s ⟨6, Nat.le_of_ble_eq_true rfl⟩} fb)
  | ⟨7, _⟩ => (bM.view.loc (c : Thread nD τ) ↦[Finset.univ \ (s2B_7 c tb htb i h2).view.set]{qTok s ⟨7, Nat.le_of_ble_eq_true rfl⟩} fb)
  | ⟨8, _⟩ => (bM.view.loc (c : Thread nD τ) ↦[Finset.univ \ (s2B_8 c tb htb i h2).view.set]{qTok s ⟨8, Nat.le_of_ble_eq_true rfl⟩} fb)
  | ⟨9, _⟩ => (bM.view.loc (c : Thread nD τ) ↦[Finset.univ \ (s2B_9 c tb htb i h2).view.set]{qTok s ⟨9, Nat.le_of_ble_eq_true rfl⟩} fb)
  | ⟨10, _⟩ => (bM.view.loc (c : Thread nD τ) ↦[Finset.univ \ (s2B_10 c tb htb i h2).view.set]{qTok s ⟨10, Nat.le_of_ble_eq_true rfl⟩} fb)
  | ⟨11, _⟩ => (bM.view.loc (c : Thread nD τ) ↦[Finset.univ \ (s2B_11 c tb htb i h2).view.set]{qTok s ⟨11, Nat.le_of_ble_eq_true rfl⟩} fb)
  | ⟨12, _⟩ => (bM.view.loc (c : Thread nD τ) ↦[Finset.univ \ (s2B_12 c tb htb i h2).view.set]{qTok s ⟨12, Nat.le_of_ble_eq_true rfl⟩} fb)
  | ⟨13, _⟩ => (bM.view.loc (c : Thread nD τ) ↦[Finset.univ \ (s2B_13 c tb htb i h2).view.set]{qTok s ⟨13, Nat.le_of_ble_eq_true rfl⟩} fb)
  | ⟨14, _⟩ => (bM.view.loc (c : Thread nD τ) ↦[Finset.univ \ (s2B_14 c tb htb i h2).view.set]{qTok s ⟨14, Nat.le_of_ble_eq_true rfl⟩} fb)
  | ⟨15, _⟩ => (bM.view.loc (c : Thread nD τ) ↦[Finset.univ \ (s2B_15 c tb htb i h2).view.set]{qTok s ⟨15, Nat.le_of_ble_eq_true rfl⟩} fb)
  | ⟨16, _⟩ => (bM.view.loc (c : Thread nD τ) ↦[Finset.univ \ (s2B_16 c tb htb i h2).view.set]{qTok s ⟨16, Nat.le_of_ble_eq_true rfl⟩} fb)
  | ⟨17, _⟩ => (bM.view.loc (c : Thread nD τ) ↦[Finset.univ \ (s2B_17 c tb htb i h2).view.set]{qTok s ⟨17, Nat.le_of_ble_eq_true rfl⟩} fb)
  | ⟨18, _⟩ => (bM.view.loc (c : Thread nD τ) ↦[Finset.univ \ (s2B_18 c tb htb i h2).view.set]{qTok s ⟨18, Nat.le_of_ble_eq_true rfl⟩} fb)
  | ⟨19, _⟩ => (bM.view.loc (c : Thread nD τ) ↦[Finset.univ \ (s2B_19 c tb htb i h2).view.set]{qTok s ⟨19, Nat.le_of_ble_eq_true rfl⟩} fb)
  | ⟨20, _⟩ => (bM.view.loc (c : Thread nD τ) ↦[Finset.univ \ (s2B_20 c tb htb i h2).view.set]{qTok s ⟨20, Nat.le_of_ble_eq_true rfl⟩} fb)
  | ⟨21, _⟩ => (bM.view.loc (c : Thread nD τ) ↦[Finset.univ \ (s2B_21 c tb htb i h2).view.set]{qTok s ⟨21, Nat.le_of_ble_eq_true rfl⟩} fb)
  | ⟨22, _⟩ => (bM.view.loc (c : Thread nD τ) ↦[Finset.univ \ (s2B_22 c tb htb i h2).view.set]{qTok s ⟨22, Nat.le_of_ble_eq_true rfl⟩} fb)
  | ⟨23, _⟩ => (bM.view.loc (c : Thread nD τ) ↦[Finset.univ \ (s2B_23 c tb htb i h2).view.set]{qTok s ⟨23, Nat.le_of_ble_eq_true rfl⟩} fb)
  | ⟨24, _⟩ => (bM.view.loc (c : Thread nD τ) ↦[Finset.univ \ (s2B_24 c tb htb i h2).view.set]{qTok s ⟨24, Nat.le_of_ble_eq_true rfl⟩} fb)
  | ⟨25, _⟩ => (bM.view.loc (c : Thread nD τ) ↦[Finset.univ \ (s2B_25 c tb htb i h2).view.set]{qTok s ⟨25, Nat.le_of_ble_eq_true rfl⟩} fb)
  | ⟨26, _⟩ => (bM.view.loc (c : Thread nD τ) ↦[Finset.univ \ (s2B_26 c tb htb i h2).view.set]{qTok s ⟨26, Nat.le_of_ble_eq_true rfl⟩} fb)
  | ⟨27, _⟩ => (bM.view.loc (c : Thread nD τ) ↦[Finset.univ \ (s2B_27 c tb htb i h2).view.set]{qTok s ⟨27, Nat.le_of_ble_eq_true rfl⟩} fb)
  | ⟨28, _⟩ => (bM.view.loc (c : Thread nD τ) ↦[Finset.univ \ (s2B_28 c tb htb i h2).view.set]{qTok s ⟨28, Nat.le_of_ble_eq_true rfl⟩} fb)
  | ⟨29, _⟩ => (bM.view.loc (c : Thread nD τ) ↦[Finset.univ \ (s2B_29 c tb htb i h2).view.set]{qTok s ⟨29, Nat.le_of_ble_eq_true rfl⟩} fb)
  | ⟨30, _⟩ => (bM.view.loc (c : Thread nD τ) ↦[Finset.univ \ (s2B_30 c tb htb i h2).view.set]{qTok s ⟨30, Nat.le_of_ble_eq_true rfl⟩} fb)
  | ⟨31, _⟩ => (bM.view.loc (c : Thread nD τ) ↦[Finset.univ \ (s2B_31 c tb htb i h2).view.set]{qTok s ⟨31, Nat.le_of_ble_eq_true rfl⟩} fb)
  | ⟨32, _⟩ => (bM.view.loc (c : Thread nD τ) ↦[Finset.univ \ (s2B_32 c tb htb i h2).view.set]{qTok s ⟨32, Nat.le_of_ble_eq_true rfl⟩} fb)
  | ⟨33, _⟩ => (bM.view.loc (c : Thread nD τ) ↦[Finset.univ \ (s2B_33 c tb htb i h2).view.set]{qTok s ⟨33, Nat.le_of_ble_eq_true rfl⟩} fb)
  | ⟨34, _⟩ => (bM.view.loc (c : Thread nD τ) ↦[Finset.univ \ (s2B_34 c tb htb i h2).view.set]{qTok s ⟨34, Nat.le_of_ble_eq_true rfl⟩} fb)
  | ⟨35, _⟩ => (bM.view.loc (c : Thread nD τ) ↦[Finset.univ \ (s2B_35 c tb htb i h2).view.set]{qTok s ⟨35, Nat.le_of_ble_eq_true rfl⟩} fb)
  | ⟨36, _⟩ => (bM.view.loc (c : Thread nD τ) ↦[Finset.univ \ (s2B_36 c tb htb i h2).view.set]{qTok s ⟨36, Nat.le_of_ble_eq_true rfl⟩} fb)
  | ⟨37, _⟩ => (bM.view.loc (c : Thread nD τ) ↦[Finset.univ \ (s2B_37 c tb htb i h2).view.set]{qTok s ⟨37, Nat.le_of_ble_eq_true rfl⟩} fb)
  | ⟨38, _⟩ => (bM.view.loc (c : Thread nD τ) ↦[Finset.univ \ (s2B_38 c tb htb i h2).view.set]{qTok s ⟨38, Nat.le_of_ble_eq_true rfl⟩} fb)
  | ⟨39, _⟩ => (bM.view.loc (c : Thread nD τ) ↦[Finset.univ \ (s2B_39 c tb htb i h2).view.set]{qTok s ⟨39, Nat.le_of_ble_eq_true rfl⟩} fb)
  | ⟨40, _⟩ => (bM.view.loc (c : Thread nD τ) ↦[Finset.univ \ (s2B_40 c tb htb i h2).view.set]{qTok s ⟨40, Nat.le_of_ble_eq_true rfl⟩} fb)
  | ⟨41, _⟩ => (bM.view.loc (c : Thread nD τ) ↦[Finset.univ \ (s2B_41 c tb htb i h2).view.set]{qTok s ⟨41, Nat.le_of_ble_eq_true rfl⟩} fb)
  | ⟨42, _⟩ => (bM.view.loc (c : Thread nD τ) ↦[Finset.univ \ (s2B_42 c tb htb i h2).view.set]{qTok s ⟨42, Nat.le_of_ble_eq_true rfl⟩} fb)
  | ⟨43, _⟩ => (bM.view.loc (c : Thread nD τ) ↦[Finset.univ \ (s2B_43 c tb htb i h2).view.set]{qTok s ⟨43, Nat.le_of_ble_eq_true rfl⟩} fb)
  | ⟨44, _⟩ => (bM.view.loc (c : Thread nD τ) ↦[Finset.univ \ (s2B_44 c tb htb i h2).view.set]{qTok s ⟨44, Nat.le_of_ble_eq_true rfl⟩} fb)
  | ⟨45, _⟩ => (bM.view.loc (c : Thread nD τ) ↦[Finset.univ \ (s2B_45 c tb htb i h2).view.set]{qTok s ⟨45, Nat.le_of_ble_eq_true rfl⟩} fb)
  | ⟨46, _⟩ => (bM.view.loc (c : Thread nD τ) ↦[Finset.univ \ (s2B_46 c tb htb i h2).view.set]{qTok s ⟨46, Nat.le_of_ble_eq_true rfl⟩} fb)
  | ⟨47, _⟩ => (bM.view.loc (c : Thread nD τ) ↦[Finset.univ \ (s2B_47 c tb htb i h2).view.set]{qTok s ⟨47, Nat.le_of_ble_eq_true rfl⟩} fb)
  | ⟨48, _⟩ => (bM.view.loc (c : Thread nD τ) ↦[Finset.univ \ (s2B_48 c tb htb i h2).view.set]{qTok s ⟨48, Nat.le_of_ble_eq_true rfl⟩} fb)
  | ⟨49, _⟩ => (bM.view.loc (c : Thread nD τ) ↦[Finset.univ \ (s2B_49 c tb htb i h2).view.set]{qTok s ⟨49, Nat.le_of_ble_eq_true rfl⟩} fb)
  | ⟨50, _⟩ => (bM.view.loc (c : Thread nD τ) ↦[Finset.univ \ (s2B_50 c tb htb i h2).view.set]{qTok s ⟨50, Nat.le_of_ble_eq_true rfl⟩} fb)
  | ⟨51, _⟩ => (bM.view.loc (c : Thread nD τ) ↦[Finset.univ \ (s2B_51 c tb htb i h2).view.set]{qTok s ⟨51, Nat.le_of_ble_eq_true rfl⟩} fb)
  | ⟨52, _⟩ => (bM.view.loc (c : Thread nD τ) ↦[Finset.univ \ (s2B_52 c tb htb i h2).view.set]{qTok s ⟨52, Nat.le_of_ble_eq_true rfl⟩} fb)
  | ⟨53, _⟩ => (bM.view.loc (c : Thread nD τ) ↦[Finset.univ \ (s2B_53 c tb htb i h2).view.set]{qTok s ⟨53, Nat.le_of_ble_eq_true rfl⟩} fb)
  | ⟨54, _⟩ => (bM.view.loc (c : Thread nD τ) ↦[Finset.univ \ (s2B_54 c tb htb i h2).view.set]{qTok s ⟨54, Nat.le_of_ble_eq_true rfl⟩} fb)
  | ⟨55, _⟩ => (bM.view.loc (c : Thread nD τ) ↦[Finset.univ \ (s2B_55 c tb htb i h2).view.set]{qTok s ⟨55, Nat.le_of_ble_eq_true rfl⟩} fb)
  | ⟨56, _⟩ => (bM.view.loc (c : Thread nD τ) ↦[Finset.univ \ (s2B_56 c tb htb i h2).view.set]{qTok s ⟨56, Nat.le_of_ble_eq_true rfl⟩} fb)
  | ⟨57, _⟩ => (bM.view.loc (c : Thread nD τ) ↦[Finset.univ \ (s2B_57 c tb htb i h2).view.set]{qTok s ⟨57, Nat.le_of_ble_eq_true rfl⟩} fb)
  | ⟨58, _⟩ => (bM.view.loc (c : Thread nD τ) ↦[Finset.univ \ (s2B_58 c tb htb i h2).view.set]{qTok s ⟨58, Nat.le_of_ble_eq_true rfl⟩} fb)
  | ⟨59, _⟩ => (bM.view.loc (c : Thread nD τ) ↦[Finset.univ \ (s2B_59 c tb htb i h2).view.set]{qTok s ⟨59, Nat.le_of_ble_eq_true rfl⟩} fb)
  | ⟨60, _⟩ => (bM.view.loc (c : Thread nD τ) ↦[Finset.univ \ (s2B_60 c tb htb i h2).view.set]{qTok s ⟨60, Nat.le_of_ble_eq_true rfl⟩} fb)
  | ⟨61, _⟩ => (bM.view.loc (c : Thread nD τ) ↦[Finset.univ \ (s2B_61 c tb htb i h2).view.set]{qTok s ⟨61, Nat.le_of_ble_eq_true rfl⟩} fb)
  | ⟨62, _⟩ => (bM.view.loc (c : Thread nD τ) ↦[Finset.univ \ (s2B_62 c tb htb i h2).view.set]{qTok s ⟨62, Nat.le_of_ble_eq_true rfl⟩} fb)
  | ⟨63, _⟩ => (bM.view.loc (c : Thread nD τ) ↦[Finset.univ \ (s2B_63 c tb htb i h2).view.set]{qTok s ⟨63, Nat.le_of_ble_eq_true rfl⟩} fb)
  | ⟨_ + 64, h⟩ => absurd h (Nat.not_lt.2 (Nat.le_add_left _ _))
/-- What each row of slot s holds once copy r of array B (fetch 2) has landed. -/
def L2B (htb : ∀ y, (tb y).toNat < 4096) (i : grid0.Coords) (h2 : k0_cond2 i = 1#1) (s : Fin 2) : Fin 64 → MBuf (F := F) c scB
  | ⟨0, _⟩ => landedJ c (s2B_0 c tb htb i h2) (rowM scB s ⟨0, Nat.le_of_ble_eq_true rfl⟩) fb
  | ⟨1, _⟩ => landedJ c (s2B_1 c tb htb i h2) (rowM scB s ⟨1, Nat.le_of_ble_eq_true rfl⟩) fb
  | ⟨2, _⟩ => landedJ c (s2B_2 c tb htb i h2) (rowM scB s ⟨2, Nat.le_of_ble_eq_true rfl⟩) fb
  | ⟨3, _⟩ => landedJ c (s2B_3 c tb htb i h2) (rowM scB s ⟨3, Nat.le_of_ble_eq_true rfl⟩) fb
  | ⟨4, _⟩ => landedJ c (s2B_4 c tb htb i h2) (rowM scB s ⟨4, Nat.le_of_ble_eq_true rfl⟩) fb
  | ⟨5, _⟩ => landedJ c (s2B_5 c tb htb i h2) (rowM scB s ⟨5, Nat.le_of_ble_eq_true rfl⟩) fb
  | ⟨6, _⟩ => landedJ c (s2B_6 c tb htb i h2) (rowM scB s ⟨6, Nat.le_of_ble_eq_true rfl⟩) fb
  | ⟨7, _⟩ => landedJ c (s2B_7 c tb htb i h2) (rowM scB s ⟨7, Nat.le_of_ble_eq_true rfl⟩) fb
  | ⟨8, _⟩ => landedJ c (s2B_8 c tb htb i h2) (rowM scB s ⟨8, Nat.le_of_ble_eq_true rfl⟩) fb
  | ⟨9, _⟩ => landedJ c (s2B_9 c tb htb i h2) (rowM scB s ⟨9, Nat.le_of_ble_eq_true rfl⟩) fb
  | ⟨10, _⟩ => landedJ c (s2B_10 c tb htb i h2) (rowM scB s ⟨10, Nat.le_of_ble_eq_true rfl⟩) fb
  | ⟨11, _⟩ => landedJ c (s2B_11 c tb htb i h2) (rowM scB s ⟨11, Nat.le_of_ble_eq_true rfl⟩) fb
  | ⟨12, _⟩ => landedJ c (s2B_12 c tb htb i h2) (rowM scB s ⟨12, Nat.le_of_ble_eq_true rfl⟩) fb
  | ⟨13, _⟩ => landedJ c (s2B_13 c tb htb i h2) (rowM scB s ⟨13, Nat.le_of_ble_eq_true rfl⟩) fb
  | ⟨14, _⟩ => landedJ c (s2B_14 c tb htb i h2) (rowM scB s ⟨14, Nat.le_of_ble_eq_true rfl⟩) fb
  | ⟨15, _⟩ => landedJ c (s2B_15 c tb htb i h2) (rowM scB s ⟨15, Nat.le_of_ble_eq_true rfl⟩) fb
  | ⟨16, _⟩ => landedJ c (s2B_16 c tb htb i h2) (rowM scB s ⟨16, Nat.le_of_ble_eq_true rfl⟩) fb
  | ⟨17, _⟩ => landedJ c (s2B_17 c tb htb i h2) (rowM scB s ⟨17, Nat.le_of_ble_eq_true rfl⟩) fb
  | ⟨18, _⟩ => landedJ c (s2B_18 c tb htb i h2) (rowM scB s ⟨18, Nat.le_of_ble_eq_true rfl⟩) fb
  | ⟨19, _⟩ => landedJ c (s2B_19 c tb htb i h2) (rowM scB s ⟨19, Nat.le_of_ble_eq_true rfl⟩) fb
  | ⟨20, _⟩ => landedJ c (s2B_20 c tb htb i h2) (rowM scB s ⟨20, Nat.le_of_ble_eq_true rfl⟩) fb
  | ⟨21, _⟩ => landedJ c (s2B_21 c tb htb i h2) (rowM scB s ⟨21, Nat.le_of_ble_eq_true rfl⟩) fb
  | ⟨22, _⟩ => landedJ c (s2B_22 c tb htb i h2) (rowM scB s ⟨22, Nat.le_of_ble_eq_true rfl⟩) fb
  | ⟨23, _⟩ => landedJ c (s2B_23 c tb htb i h2) (rowM scB s ⟨23, Nat.le_of_ble_eq_true rfl⟩) fb
  | ⟨24, _⟩ => landedJ c (s2B_24 c tb htb i h2) (rowM scB s ⟨24, Nat.le_of_ble_eq_true rfl⟩) fb
  | ⟨25, _⟩ => landedJ c (s2B_25 c tb htb i h2) (rowM scB s ⟨25, Nat.le_of_ble_eq_true rfl⟩) fb
  | ⟨26, _⟩ => landedJ c (s2B_26 c tb htb i h2) (rowM scB s ⟨26, Nat.le_of_ble_eq_true rfl⟩) fb
  | ⟨27, _⟩ => landedJ c (s2B_27 c tb htb i h2) (rowM scB s ⟨27, Nat.le_of_ble_eq_true rfl⟩) fb
  | ⟨28, _⟩ => landedJ c (s2B_28 c tb htb i h2) (rowM scB s ⟨28, Nat.le_of_ble_eq_true rfl⟩) fb
  | ⟨29, _⟩ => landedJ c (s2B_29 c tb htb i h2) (rowM scB s ⟨29, Nat.le_of_ble_eq_true rfl⟩) fb
  | ⟨30, _⟩ => landedJ c (s2B_30 c tb htb i h2) (rowM scB s ⟨30, Nat.le_of_ble_eq_true rfl⟩) fb
  | ⟨31, _⟩ => landedJ c (s2B_31 c tb htb i h2) (rowM scB s ⟨31, Nat.le_of_ble_eq_true rfl⟩) fb
  | ⟨32, _⟩ => landedJ c (s2B_32 c tb htb i h2) (rowM scB s ⟨32, Nat.le_of_ble_eq_true rfl⟩) fb
  | ⟨33, _⟩ => landedJ c (s2B_33 c tb htb i h2) (rowM scB s ⟨33, Nat.le_of_ble_eq_true rfl⟩) fb
  | ⟨34, _⟩ => landedJ c (s2B_34 c tb htb i h2) (rowM scB s ⟨34, Nat.le_of_ble_eq_true rfl⟩) fb
  | ⟨35, _⟩ => landedJ c (s2B_35 c tb htb i h2) (rowM scB s ⟨35, Nat.le_of_ble_eq_true rfl⟩) fb
  | ⟨36, _⟩ => landedJ c (s2B_36 c tb htb i h2) (rowM scB s ⟨36, Nat.le_of_ble_eq_true rfl⟩) fb
  | ⟨37, _⟩ => landedJ c (s2B_37 c tb htb i h2) (rowM scB s ⟨37, Nat.le_of_ble_eq_true rfl⟩) fb
  | ⟨38, _⟩ => landedJ c (s2B_38 c tb htb i h2) (rowM scB s ⟨38, Nat.le_of_ble_eq_true rfl⟩) fb
  | ⟨39, _⟩ => landedJ c (s2B_39 c tb htb i h2) (rowM scB s ⟨39, Nat.le_of_ble_eq_true rfl⟩) fb
  | ⟨40, _⟩ => landedJ c (s2B_40 c tb htb i h2) (rowM scB s ⟨40, Nat.le_of_ble_eq_true rfl⟩) fb
  | ⟨41, _⟩ => landedJ c (s2B_41 c tb htb i h2) (rowM scB s ⟨41, Nat.le_of_ble_eq_true rfl⟩) fb
  | ⟨42, _⟩ => landedJ c (s2B_42 c tb htb i h2) (rowM scB s ⟨42, Nat.le_of_ble_eq_true rfl⟩) fb
  | ⟨43, _⟩ => landedJ c (s2B_43 c tb htb i h2) (rowM scB s ⟨43, Nat.le_of_ble_eq_true rfl⟩) fb
  | ⟨44, _⟩ => landedJ c (s2B_44 c tb htb i h2) (rowM scB s ⟨44, Nat.le_of_ble_eq_true rfl⟩) fb
  | ⟨45, _⟩ => landedJ c (s2B_45 c tb htb i h2) (rowM scB s ⟨45, Nat.le_of_ble_eq_true rfl⟩) fb
  | ⟨46, _⟩ => landedJ c (s2B_46 c tb htb i h2) (rowM scB s ⟨46, Nat.le_of_ble_eq_true rfl⟩) fb
  | ⟨47, _⟩ => landedJ c (s2B_47 c tb htb i h2) (rowM scB s ⟨47, Nat.le_of_ble_eq_true rfl⟩) fb
  | ⟨48, _⟩ => landedJ c (s2B_48 c tb htb i h2) (rowM scB s ⟨48, Nat.le_of_ble_eq_true rfl⟩) fb
  | ⟨49, _⟩ => landedJ c (s2B_49 c tb htb i h2) (rowM scB s ⟨49, Nat.le_of_ble_eq_true rfl⟩) fb
  | ⟨50, _⟩ => landedJ c (s2B_50 c tb htb i h2) (rowM scB s ⟨50, Nat.le_of_ble_eq_true rfl⟩) fb
  | ⟨51, _⟩ => landedJ c (s2B_51 c tb htb i h2) (rowM scB s ⟨51, Nat.le_of_ble_eq_true rfl⟩) fb
  | ⟨52, _⟩ => landedJ c (s2B_52 c tb htb i h2) (rowM scB s ⟨52, Nat.le_of_ble_eq_true rfl⟩) fb
  | ⟨53, _⟩ => landedJ c (s2B_53 c tb htb i h2) (rowM scB s ⟨53, Nat.le_of_ble_eq_true rfl⟩) fb
  | ⟨54, _⟩ => landedJ c (s2B_54 c tb htb i h2) (rowM scB s ⟨54, Nat.le_of_ble_eq_true rfl⟩) fb
  | ⟨55, _⟩ => landedJ c (s2B_55 c tb htb i h2) (rowM scB s ⟨55, Nat.le_of_ble_eq_true rfl⟩) fb
  | ⟨56, _⟩ => landedJ c (s2B_56 c tb htb i h2) (rowM scB s ⟨56, Nat.le_of_ble_eq_true rfl⟩) fb
  | ⟨57, _⟩ => landedJ c (s2B_57 c tb htb i h2) (rowM scB s ⟨57, Nat.le_of_ble_eq_true rfl⟩) fb
  | ⟨58, _⟩ => landedJ c (s2B_58 c tb htb i h2) (rowM scB s ⟨58, Nat.le_of_ble_eq_true rfl⟩) fb
  | ⟨59, _⟩ => landedJ c (s2B_59 c tb htb i h2) (rowM scB s ⟨59, Nat.le_of_ble_eq_true rfl⟩) fb
  | ⟨60, _⟩ => landedJ c (s2B_60 c tb htb i h2) (rowM scB s ⟨60, Nat.le_of_ble_eq_true rfl⟩) fb
  | ⟨61, _⟩ => landedJ c (s2B_61 c tb htb i h2) (rowM scB s ⟨61, Nat.le_of_ble_eq_true rfl⟩) fb
  | ⟨62, _⟩ => landedJ c (s2B_62 c tb htb i h2) (rowM scB s ⟨62, Nat.le_of_ble_eq_true rfl⟩) fb
  | ⟨63, _⟩ => landedJ c (s2B_63 c tb htb i h2) (rowM scB s ⟨63, Nat.le_of_ble_eq_true rfl⟩) fb
  | ⟨_ + 64, h⟩ => absurd h (Nat.not_lt.2 (Nat.le_add_left _ _))
/-- The row numbers the 64 copies of fetch 2 read: the table's words, as naturals. -/
def N2 (i : grid0.Coords) (h2 : k0_cond2 i = 1#1) : Fin 64 → ℕ
  | ⟨0, _⟩ => (W2_0 c tb i h2).toNat
  | ⟨1, _⟩ => (W2_1 c tb i h2).toNat
  | ⟨2, _⟩ => (W2_2 c tb i h2).toNat
  | ⟨3, _⟩ => (W2_3 c tb i h2).toNat
  | ⟨4, _⟩ => (W2_4 c tb i h2).toNat
  | ⟨5, _⟩ => (W2_5 c tb i h2).toNat
  | ⟨6, _⟩ => (W2_6 c tb i h2).toNat
  | ⟨7, _⟩ => (W2_7 c tb i h2).toNat
  | ⟨8, _⟩ => (W2_8 c tb i h2).toNat
  | ⟨9, _⟩ => (W2_9 c tb i h2).toNat
  | ⟨10, _⟩ => (W2_10 c tb i h2).toNat
  | ⟨11, _⟩ => (W2_11 c tb i h2).toNat
  | ⟨12, _⟩ => (W2_12 c tb i h2).toNat
  | ⟨13, _⟩ => (W2_13 c tb i h2).toNat
  | ⟨14, _⟩ => (W2_14 c tb i h2).toNat
  | ⟨15, _⟩ => (W2_15 c tb i h2).toNat
  | ⟨16, _⟩ => (W2_16 c tb i h2).toNat
  | ⟨17, _⟩ => (W2_17 c tb i h2).toNat
  | ⟨18, _⟩ => (W2_18 c tb i h2).toNat
  | ⟨19, _⟩ => (W2_19 c tb i h2).toNat
  | ⟨20, _⟩ => (W2_20 c tb i h2).toNat
  | ⟨21, _⟩ => (W2_21 c tb i h2).toNat
  | ⟨22, _⟩ => (W2_22 c tb i h2).toNat
  | ⟨23, _⟩ => (W2_23 c tb i h2).toNat
  | ⟨24, _⟩ => (W2_24 c tb i h2).toNat
  | ⟨25, _⟩ => (W2_25 c tb i h2).toNat
  | ⟨26, _⟩ => (W2_26 c tb i h2).toNat
  | ⟨27, _⟩ => (W2_27 c tb i h2).toNat
  | ⟨28, _⟩ => (W2_28 c tb i h2).toNat
  | ⟨29, _⟩ => (W2_29 c tb i h2).toNat
  | ⟨30, _⟩ => (W2_30 c tb i h2).toNat
  | ⟨31, _⟩ => (W2_31 c tb i h2).toNat
  | ⟨32, _⟩ => (W2_32 c tb i h2).toNat
  | ⟨33, _⟩ => (W2_33 c tb i h2).toNat
  | ⟨34, _⟩ => (W2_34 c tb i h2).toNat
  | ⟨35, _⟩ => (W2_35 c tb i h2).toNat
  | ⟨36, _⟩ => (W2_36 c tb i h2).toNat
  | ⟨37, _⟩ => (W2_37 c tb i h2).toNat
  | ⟨38, _⟩ => (W2_38 c tb i h2).toNat
  | ⟨39, _⟩ => (W2_39 c tb i h2).toNat
  | ⟨40, _⟩ => (W2_40 c tb i h2).toNat
  | ⟨41, _⟩ => (W2_41 c tb i h2).toNat
  | ⟨42, _⟩ => (W2_42 c tb i h2).toNat
  | ⟨43, _⟩ => (W2_43 c tb i h2).toNat
  | ⟨44, _⟩ => (W2_44 c tb i h2).toNat
  | ⟨45, _⟩ => (W2_45 c tb i h2).toNat
  | ⟨46, _⟩ => (W2_46 c tb i h2).toNat
  | ⟨47, _⟩ => (W2_47 c tb i h2).toNat
  | ⟨48, _⟩ => (W2_48 c tb i h2).toNat
  | ⟨49, _⟩ => (W2_49 c tb i h2).toNat
  | ⟨50, _⟩ => (W2_50 c tb i h2).toNat
  | ⟨51, _⟩ => (W2_51 c tb i h2).toNat
  | ⟨52, _⟩ => (W2_52 c tb i h2).toNat
  | ⟨53, _⟩ => (W2_53 c tb i h2).toNat
  | ⟨54, _⟩ => (W2_54 c tb i h2).toNat
  | ⟨55, _⟩ => (W2_55 c tb i h2).toNat
  | ⟨56, _⟩ => (W2_56 c tb i h2).toNat
  | ⟨57, _⟩ => (W2_57 c tb i h2).toNat
  | ⟨58, _⟩ => (W2_58 c tb i h2).toNat
  | ⟨59, _⟩ => (W2_59 c tb i h2).toNat
  | ⟨60, _⟩ => (W2_60 c tb i h2).toNat
  | ⟨61, _⟩ => (W2_61 c tb i h2).toNat
  | ⟨62, _⟩ => (W2_62 c tb i h2).toNat
  | ⟨63, _⟩ => (W2_63 c tb i h2).toNat
  | ⟨_ + 64, h⟩ => absurd h (Nat.not_lt.2 (Nat.le_add_left _ _))

end

end Cert.KernelIdeal.Hand

end
-- ==== Proof.KI.Canon.lean ====
/-
  Closed forms of the offsets the body computes from the grid point, and each scratch row, slot counter and load box of the
  body restated under its uniform name: at grid point t the waits address slot t mod 2, the prefetch slot (t + 1) mod 2,
  row r of a slot sits at offset (slot, 0, r, 0). Every closed form is decided over the 32 grid points.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Defs2
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

theorem hcond1 : ∀ t : Fin grid0.N, k0_cond1 (grid0.coords t) = 1#1 ↔ t.val % 16 = 0 := by decide +kernel
theorem hcond2 : ∀ t : Fin grid0.N, k0_cond2 (grid0.coords t) = 1#1 ↔ t.val % 16 ≠ 15 := by decide +kernel

/-! ## The waits: slot t mod 2 -/
theorem coff_Wsem : ∀ t : Fin grid0.N, k0_off129 (grid0.coords t) = ![(slN t.val).val] := by decide +kernel
@[sl_canon] theorem canon_WsemA (t : Fin grid0.N) :
    (cc0_scratch2.slice (Rect.unit (s := S2) (k0_off129 (grid0.coords t)) S1.size (k0_off129_inb (grid0.coords t)))).squeeze S_ squeezes_S1_S_ = semsA (slN t.val) :=
  congrArg (fun A : DmaSems sig S1 => A.squeeze S_ squeezes_S1_S_) (SemArray.slice_unit_congr _ (coff_Wsem t) _ _)
@[sl_canon] theorem canon_WsemB (t : Fin grid0.N) :
    (cc0_scratch3.slice (Rect.unit (s := S2) (k0_off129 (grid0.coords t)) S1.size (k0_off129_inb (grid0.coords t)))).squeeze S_ squeezes_S1_S_ = semsB (slN t.val) :=
  congrArg (fun A : DmaSems sig S1 => A.squeeze S_ squeezes_S1_S_) (SemArray.slice_unit_congr _ (coff_Wsem t) _ _)
theorem coff_W0 : ∀ t : Fin grid0.N, k0_off130 (grid0.coords t) = ![(slN t.val).val, 0, 0, 0] := by decide +kernel
@[sl_canon] theorem canon_WscA0 (t : Fin grid0.N) :
    (scA.slice (Rect.unit (s := S2x8x64x1024) (k0_off130 (grid0.coords t)) S1x8x1x1024.size (k0_off130_inb (grid0.coords t))) (fun _ => rfl)).squeeze S8x1024 squeezes_S1x8x1x1024_S8x1024 = rowM scA (slN t.val) ⟨0, Nat.le_of_ble_eq_true rfl⟩ :=
  congrArg (fun M : Memref sig .tc .vmem S1x8x1x1024 .f32 => M.squeeze S8x1024 squeezes_S1x8x1x1024_S8x1024) (Memref.slice_unit_congr _ (coff_W0 t) _ _ (fun _ => rfl) (fun _ => rfl))
@[sl_canon] theorem canon_WscB0 (t : Fin grid0.N) :
    (scB.slice (Rect.unit (s := S2x8x64x1024) (k0_off130 (grid0.coords t)) S1x8x1x1024.size (k0_off130_inb (grid0.coords t))) (fun _ => rfl)).squeeze S8x1024 squeezes_S1x8x1x1024_S8x1024 = rowM scB (slN t.val) ⟨0, Nat.le_of_ble_eq_true rfl⟩ :=
  congrArg (fun M : Memref sig .tc .vmem S1x8x1x1024 .f32 => M.squeeze S8x1024 squeezes_S1x8x1x1024_S8x1024) (Memref.slice_unit_congr _ (coff_W0 t) _ _ (fun _ => rfl) (fun _ => rfl))
theorem coff_W1 : ∀ t : Fin grid0.N, k0_off131 (grid0.coords t) = ![(slN t.val).val, 0, 1, 0] := by decide +kernel
@[sl_canon] theorem canon_WscA1 (t : Fin grid0.N) :
    (scA.slice (Rect.unit (s := S2x8x64x1024) (k0_off131 (grid0.coords t)) S1x8x1x1024.size (k0_off131_inb (grid0.coords t))) (fun _ => rfl)).squeeze S8x1024 squeezes_S1x8x1x1024_S8x1024 = rowM scA (slN t.val) ⟨1, Nat.le_of_ble_eq_true rfl⟩ :=
  congrArg (fun M : Memref sig .tc .vmem S1x8x1x1024 .f32 => M.squeeze S8x1024 squeezes_S1x8x1x1024_S8x1024) (Memref.slice_unit_congr _ (coff_W1 t) _ _ (fun _ => rfl) (fun _ => rfl))
@[sl_canon] theorem canon_WscB1 (t : Fin grid0.N) :
    (scB.slice (Rect.unit (s := S2x8x64x1024) (k0_off131 (grid0.coords t)) S1x8x1x1024.size (k0_off131_inb (grid0.coords t))) (fun _ => rfl)).squeeze S8x1024 squeezes_S1x8x1x1024_S8x1024 = rowM scB (slN t.val) ⟨1, Nat.le_of_ble_eq_true rfl⟩ :=
  congrArg (fun M : Memref sig .tc .vmem S1x8x1x1024 .f32 => M.squeeze S8x1024 squeezes_S1x8x1x1024_S8x1024) (Memref.slice_unit_congr _ (coff_W1 t) _ _ (fun _ => rfl) (fun _ => rfl))
theorem coff_W2 : ∀ t : Fin grid0.N, k0_off132 (grid0.coords t) = ![(slN t.val).val, 0, 2, 0] := by decide +kernel
@[sl_canon] theorem canon_WscA2 (t : Fin grid0.N) :
    (scA.slice (Rect.unit (s := S2x8x64x1024) (k0_off132 (grid0.coords t)) S1x8x1x1024.size (k0_off132_inb (grid0.coords t))) (fun _ => rfl)).squeeze S8x1024 squeezes_S1x8x1x1024_S8x1024 = rowM scA (slN t.val) ⟨2, Nat.le_of_ble_eq_true rfl⟩ :=
  congrArg (fun M : Memref sig .tc .vmem S1x8x1x1024 .f32 => M.squeeze S8x1024 squeezes_S1x8x1x1024_S8x1024) (Memref.slice_unit_congr _ (coff_W2 t) _ _ (fun _ => rfl) (fun _ => rfl))
@[sl_canon] theorem canon_WscB2 (t : Fin grid0.N) :
    (scB.slice (Rect.unit (s := S2x8x64x1024) (k0_off132 (grid0.coords t)) S1x8x1x1024.size (k0_off132_inb (grid0.coords t))) (fun _ => rfl)).squeeze S8x1024 squeezes_S1x8x1x1024_S8x1024 = rowM scB (slN t.val) ⟨2, Nat.le_of_ble_eq_true rfl⟩ :=
  congrArg (fun M : Memref sig .tc .vmem S1x8x1x1024 .f32 => M.squeeze S8x1024 squeezes_S1x8x1x1024_S8x1024) (Memref.slice_unit_congr _ (coff_W2 t) _ _ (fun _ => rfl) (fun _ => rfl))
theorem coff_W3 : ∀ t : Fin grid0.N, k0_off133 (grid0.coords t) = ![(slN t.val).val, 0, 3, 0] := by decide +kernel
@[sl_canon] theorem canon_WscA3 (t : Fin grid0.N) :
    (scA.slice (Rect.unit (s := S2x8x64x1024) (k0_off133 (grid0.coords t)) S1x8x1x1024.size (k0_off133_inb (grid0.coords t))) (fun _ => rfl)).squeeze S8x1024 squeezes_S1x8x1x1024_S8x1024 = rowM scA (slN t.val) ⟨3, Nat.le_of_ble_eq_true rfl⟩ :=
  congrArg (fun M : Memref sig .tc .vmem S1x8x1x1024 .f32 => M.squeeze S8x1024 squeezes_S1x8x1x1024_S8x1024) (Memref.slice_unit_congr _ (coff_W3 t) _ _ (fun _ => rfl) (fun _ => rfl))
@[sl_canon] theorem canon_WscB3 (t : Fin grid0.N) :
    (scB.slice (Rect.unit (s := S2x8x64x1024) (k0_off133 (grid0.coords t)) S1x8x1x1024.size (k0_off133_inb (grid0.coords t))) (fun _ => rfl)).squeeze S8x1024 squeezes_S1x8x1x1024_S8x1024 = rowM scB (slN t.val) ⟨3, Nat.le_of_ble_eq_true rfl⟩ :=
  congrArg (fun M : Memref sig .tc .vmem S1x8x1x1024 .f32 => M.squeeze S8x1024 squeezes_S1x8x1x1024_S8x1024) (Memref.slice_unit_congr _ (coff_W3 t) _ _ (fun _ => rfl) (fun _ => rfl))
theorem coff_W4 : ∀ t : Fin grid0.N, k0_off134 (grid0.coords t) = ![(slN t.val).val, 0, 4, 0] := by decide +kernel
@[sl_canon] theorem canon_WscA4 (t : Fin grid0.N) :
    (scA.slice (Rect.unit (s := S2x8x64x1024) (k0_off134 (grid0.coords t)) S1x8x1x1024.size (k0_off134_inb (grid0.coords t))) (fun _ => rfl)).squeeze S8x1024 squeezes_S1x8x1x1024_S8x1024 = rowM scA (slN t.val) ⟨4, Nat.le_of_ble_eq_true rfl⟩ :=
  congrArg (fun M : Memref sig .tc .vmem S1x8x1x1024 .f32 => M.squeeze S8x1024 squeezes_S1x8x1x1024_S8x1024) (Memref.slice_unit_congr _ (coff_W4 t) _ _ (fun _ => rfl) (fun _ => rfl))
@[sl_canon] theorem canon_WscB4 (t : Fin grid0.N) :
    (scB.slice (Rect.unit (s := S2x8x64x1024) (k0_off134 (grid0.coords t)) S1x8x1x1024.size (k0_off134_inb (grid0.coords t))) (fun _ => rfl)).squeeze S8x1024 squeezes_S1x8x1x1024_S8x1024 = rowM scB (slN t.val) ⟨4, Nat.le_of_ble_eq_true rfl⟩ :=
  congrArg (fun M : Memref sig .tc .vmem S1x8x1x1024 .f32 => M.squeeze S8x1024 squeezes_S1x8x1x1024_S8x1024) (Memref.slice_unit_congr _ (coff_W4 t) _ _ (fun _ => rfl) (fun _ => rfl))
theorem coff_W5 : ∀ t : Fin grid0.N, k0_off135 (grid0.coords t) = ![(slN t.val).val, 0, 5, 0] := by decide +kernel
@[sl_canon] theorem canon_WscA5 (t : Fin grid0.N) :
    (scA.slice (Rect.unit (s := S2x8x64x1024) (k0_off135 (grid0.coords t)) S1x8x1x1024.size (k0_off135_inb (grid0.coords t))) (fun _ => rfl)).squeeze S8x1024 squeezes_S1x8x1x1024_S8x1024 = rowM scA (slN t.val) ⟨5, Nat.le_of_ble_eq_true rfl⟩ :=
  congrArg (fun M : Memref sig .tc .vmem S1x8x1x1024 .f32 => M.squeeze S8x1024 squeezes_S1x8x1x1024_S8x1024) (Memref.slice_unit_congr _ (coff_W5 t) _ _ (fun _ => rfl) (fun _ => rfl))
@[sl_canon] theorem canon_WscB5 (t : Fin grid0.N) :
    (scB.slice (Rect.unit (s := S2x8x64x1024) (k0_off135 (grid0.coords t)) S1x8x1x1024.size (k0_off135_inb (grid0.coords t))) (fun _ => rfl)).squeeze S8x1024 squeezes_S1x8x1x1024_S8x1024 = rowM scB (slN t.val) ⟨5, Nat.le_of_ble_eq_true rfl⟩ :=
  congrArg (fun M : Memref sig .tc .vmem S1x8x1x1024 .f32 => M.squeeze S8x1024 squeezes_S1x8x1x1024_S8x1024) (Memref.slice_unit_congr _ (coff_W5 t) _ _ (fun _ => rfl) (fun _ => rfl))
theorem coff_W6 : ∀ t : Fin grid0.N, k0_off136 (grid0.coords t) = ![(slN t.val).val, 0, 6, 0] := by decide +kernel
@[sl_canon] theorem canon_WscA6 (t : Fin grid0.N) :
    (scA.slice (Rect.unit (s := S2x8x64x1024) (k0_off136 (grid0.coords t)) S1x8x1x1024.size (k0_off136_inb (grid0.coords t))) (fun _ => rfl)).squeeze S8x1024 squeezes_S1x8x1x1024_S8x1024 = rowM scA (slN t.val) ⟨6, Nat.le_of_ble_eq_true rfl⟩ :=
  congrArg (fun M : Memref sig .tc .vmem S1x8x1x1024 .f32 => M.squeeze S8x1024 squeezes_S1x8x1x1024_S8x1024) (Memref.slice_unit_congr _ (coff_W6 t) _ _ (fun _ => rfl) (fun _ => rfl))
@[sl_canon] theorem canon_WscB6 (t : Fin grid0.N) :
    (scB.slice (Rect.unit (s := S2x8x64x1024) (k0_off136 (grid0.coords t)) S1x8x1x1024.size (k0_off136_inb (grid0.coords t))) (fun _ => rfl)).squeeze S8x1024 squeezes_S1x8x1x1024_S8x1024 = rowM scB (slN t.val) ⟨6, Nat.le_of_ble_eq_true rfl⟩ :=
  congrArg (fun M : Memref sig .tc .vmem S1x8x1x1024 .f32 => M.squeeze S8x1024 squeezes_S1x8x1x1024_S8x1024) (Memref.slice_unit_congr _ (coff_W6 t) _ _ (fun _ => rfl) (fun _ => rfl))
theorem coff_W7 : ∀ t : Fin grid0.N, k0_off137 (grid0.coords t) = ![(slN t.val).val, 0, 7, 0] := by decide +kernel
@[sl_canon] theorem canon_WscA7 (t : Fin grid0.N) :
    (scA.slice (Rect.unit (s := S2x8x64x1024) (k0_off137 (grid0.coords t)) S1x8x1x1024.size (k0_off137_inb (grid0.coords t))) (fun _ => rfl)).squeeze S8x1024 squeezes_S1x8x1x1024_S8x1024 = rowM scA (slN t.val) ⟨7, Nat.le_of_ble_eq_true rfl⟩ :=
  congrArg (fun M : Memref sig .tc .vmem S1x8x1x1024 .f32 => M.squeeze S8x1024 squeezes_S1x8x1x1024_S8x1024) (Memref.slice_unit_congr _ (coff_W7 t) _ _ (fun _ => rfl) (fun _ => rfl))
@[sl_canon] theorem canon_WscB7 (t : Fin grid0.N) :
    (scB.slice (Rect.unit (s := S2x8x64x1024) (k0_off137 (grid0.coords t)) S1x8x1x1024.size (k0_off137_inb (grid0.coords t))) (fun _ => rfl)).squeeze S8x1024 squeezes_S1x8x1x1024_S8x1024 = rowM scB (slN t.val) ⟨7, Nat.le_of_ble_eq_true rfl⟩ :=
  congrArg (fun M : Memref sig .tc .vmem S1x8x1x1024 .f32 => M.squeeze S8x1024 squeezes_S1x8x1x1024_S8x1024) (Memref.slice_unit_congr _ (coff_W7 t) _ _ (fun _ => rfl) (fun _ => rfl))
theorem coff_W8 : ∀ t : Fin grid0.N, k0_off138 (grid0.coords t) = ![(slN t.val).val, 0, 8, 0] := by decide +kernel
@[sl_canon] theorem canon_WscA8 (t : Fin grid0.N) :
    (scA.slice (Rect.unit (s := S2x8x64x1024) (k0_off138 (grid0.coords t)) S1x8x1x1024.size (k0_off138_inb (grid0.coords t))) (fun _ => rfl)).squeeze S8x1024 squeezes_S1x8x1x1024_S8x1024 = rowM scA (slN t.val) ⟨8, Nat.le_of_ble_eq_true rfl⟩ :=
  congrArg (fun M : Memref sig .tc .vmem S1x8x1x1024 .f32 => M.squeeze S8x1024 squeezes_S1x8x1x1024_S8x1024) (Memref.slice_unit_congr _ (coff_W8 t) _ _ (fun _ => rfl) (fun _ => rfl))
@[sl_canon] theorem canon_WscB8 (t : Fin grid0.N) :
    (scB.slice (Rect.unit (s := S2x8x64x1024) (k0_off138 (grid0.coords t)) S1x8x1x1024.size (k0_off138_inb (grid0.coords t))) (fun _ => rfl)).squeeze S8x1024 squeezes_S1x8x1x1024_S8x1024 = rowM scB (slN t.val) ⟨8, Nat.le_of_ble_eq_true rfl⟩ :=
  congrArg (fun M : Memref sig .tc .vmem S1x8x1x1024 .f32 => M.squeeze S8x1024 squeezes_S1x8x1x1024_S8x1024) (Memref.slice_unit_congr _ (coff_W8 t) _ _ (fun _ => rfl) (fun _ => rfl))
theorem coff_W9 : ∀ t : Fin grid0.N, k0_off139 (grid0.coords t) = ![(slN t.val).val, 0, 9, 0] := by decide +kernel
@[sl_canon] theorem canon_WscA9 (t : Fin grid0.N) :
    (scA.slice (Rect.unit (s := S2x8x64x1024) (k0_off139 (grid0.coords t)) S1x8x1x1024.size (k0_off139_inb (grid0.coords t))) (fun _ => rfl)).squeeze S8x1024 squeezes_S1x8x1x1024_S8x1024 = rowM scA (slN t.val) ⟨9, Nat.le_of_ble_eq_true rfl⟩ :=
  congrArg (fun M : Memref sig .tc .vmem S1x8x1x1024 .f32 => M.squeeze S8x1024 squeezes_S1x8x1x1024_S8x1024) (Memref.slice_unit_congr _ (coff_W9 t) _ _ (fun _ => rfl) (fun _ => rfl))
@[sl_canon] theorem canon_WscB9 (t : Fin grid0.N) :
    (scB.slice (Rect.unit (s := S2x8x64x1024) (k0_off139 (grid0.coords t)) S1x8x1x1024.size (k0_off139_inb (grid0.coords t))) (fun _ => rfl)).squeeze S8x1024 squeezes_S1x8x1x1024_S8x1024 = rowM scB (slN t.val) ⟨9, Nat.le_of_ble_eq_true rfl⟩ :=
  congrArg (fun M : Memref sig .tc .vmem S1x8x1x1024 .f32 => M.squeeze S8x1024 squeezes_S1x8x1x1024_S8x1024) (Memref.slice_unit_congr _ (coff_W9 t) _ _ (fun _ => rfl) (fun _ => rfl))
theorem coff_W10 : ∀ t : Fin grid0.N, k0_off140 (grid0.coords t) = ![(slN t.val).val, 0, 10, 0] := by decide +kernel
@[sl_canon] theorem canon_WscA10 (t : Fin grid0.N) :
    (scA.slice (Rect.unit (s := S2x8x64x1024) (k0_off140 (grid0.coords t)) S1x8x1x1024.size (k0_off140_inb (grid0.coords t))) (fun _ => rfl)).squeeze S8x1024 squeezes_S1x8x1x1024_S8x1024 = rowM scA (slN t.val) ⟨10, Nat.le_of_ble_eq_true rfl⟩ :=
  congrArg (fun M : Memref sig .tc .vmem S1x8x1x1024 .f32 => M.squeeze S8x1024 squeezes_S1x8x1x1024_S8x1024) (Memref.slice_unit_congr _ (coff_W10 t) _ _ (fun _ => rfl) (fun _ => rfl))
@[sl_canon] theorem canon_WscB10 (t : Fin grid0.N) :
    (scB.slice (Rect.unit (s := S2x8x64x1024) (k0_off140 (grid0.coords t)) S1x8x1x1024.size (k0_off140_inb (grid0.coords t))) (fun _ => rfl)).squeeze S8x1024 squeezes_S1x8x1x1024_S8x1024 = rowM scB (slN t.val) ⟨10, Nat.le_of_ble_eq_true rfl⟩ :=
  congrArg (fun M : Memref sig .tc .vmem S1x8x1x1024 .f32 => M.squeeze S8x1024 squeezes_S1x8x1x1024_S8x1024) (Memref.slice_unit_congr _ (coff_W10 t) _ _ (fun _ => rfl) (fun _ => rfl))
theorem coff_W11 : ∀ t : Fin grid0.N, k0_off141 (grid0.coords t) = ![(slN t.val).val, 0, 11, 0] := by decide +kernel
@[sl_canon] theorem canon_WscA11 (t : Fin grid0.N) :
    (scA.slice (Rect.unit (s := S2x8x64x1024) (k0_off141 (grid0.coords t)) S1x8x1x1024.size (k0_off141_inb (grid0.coords t))) (fun _ => rfl)).squeeze S8x1024 squeezes_S1x8x1x1024_S8x1024 = rowM scA (slN t.val) ⟨11, Nat.le_of_ble_eq_true rfl⟩ :=
  congrArg (fun M : Memref sig .tc .vmem S1x8x1x1024 .f32 => M.squeeze S8x1024 squeezes_S1x8x1x1024_S8x1024) (Memref.slice_unit_congr _ (coff_W11 t) _ _ (fun _ => rfl) (fun _ => rfl))
@[sl_canon] theorem canon_WscB11 (t : Fin grid0.N) :
    (scB.slice (Rect.unit (s := S2x8x64x1024) (k0_off141 (grid0.coords t)) S1x8x1x1024.size (k0_off141_inb (grid0.coords t))) (fun _ => rfl)).squeeze S8x1024 squeezes_S1x8x1x1024_S8x1024 = rowM scB (slN t.val) ⟨11, Nat.le_of_ble_eq_true rfl⟩ :=
  congrArg (fun M : Memref sig .tc .vmem S1x8x1x1024 .f32 => M.squeeze S8x1024 squeezes_S1x8x1x1024_S8x1024) (Memref.slice_unit_congr _ (coff_W11 t) _ _ (fun _ => rfl) (fun _ => rfl))
theorem coff_W12 : ∀ t : Fin grid0.N, k0_off142 (grid0.coords t) = ![(slN t.val).val, 0, 12, 0] := by decide +kernel
@[sl_canon] theorem canon_WscA12 (t : Fin grid0.N) :
    (scA.slice (Rect.unit (s := S2x8x64x1024) (k0_off142 (grid0.coords t)) S1x8x1x1024.size (k0_off142_inb (grid0.coords t))) (fun _ => rfl)).squeeze S8x1024 squeezes_S1x8x1x1024_S8x1024 = rowM scA (slN t.val) ⟨12, Nat.le_of_ble_eq_true rfl⟩ :=
  congrArg (fun M : Memref sig .tc .vmem S1x8x1x1024 .f32 => M.squeeze S8x1024 squeezes_S1x8x1x1024_S8x1024) (Memref.slice_unit_congr _ (coff_W12 t) _ _ (fun _ => rfl) (fun _ => rfl))
@[sl_canon] theorem canon_WscB12 (t : Fin grid0.N) :
    (scB.slice (Rect.unit (s := S2x8x64x1024) (k0_off142 (grid0.coords t)) S1x8x1x1024.size (k0_off142_inb (grid0.coords t))) (fun _ => rfl)).squeeze S8x1024 squeezes_S1x8x1x1024_S8x1024 = rowM scB (slN t.val) ⟨12, Nat.le_of_ble_eq_true rfl⟩ :=
  congrArg (fun M : Memref sig .tc .vmem S1x8x1x1024 .f32 => M.squeeze S8x1024 squeezes_S1x8x1x1024_S8x1024) (Memref.slice_unit_congr _ (coff_W12 t) _ _ (fun _ => rfl) (fun _ => rfl))
theorem coff_W13 : ∀ t : Fin grid0.N, k0_off143 (grid0.coords t) = ![(slN t.val).val, 0, 13, 0] := by decide +kernel
@[sl_canon] theorem canon_WscA13 (t : Fin grid0.N) :
    (scA.slice (Rect.unit (s := S2x8x64x1024) (k0_off143 (grid0.coords t)) S1x8x1x1024.size (k0_off143_inb (grid0.coords t))) (fun _ => rfl)).squeeze S8x1024 squeezes_S1x8x1x1024_S8x1024 = rowM scA (slN t.val) ⟨13, Nat.le_of_ble_eq_true rfl⟩ :=
  congrArg (fun M : Memref sig .tc .vmem S1x8x1x1024 .f32 => M.squeeze S8x1024 squeezes_S1x8x1x1024_S8x1024) (Memref.slice_unit_congr _ (coff_W13 t) _ _ (fun _ => rfl) (fun _ => rfl))
@[sl_canon] theorem canon_WscB13 (t : Fin grid0.N) :
    (scB.slice (Rect.unit (s := S2x8x64x1024) (k0_off143 (grid0.coords t)) S1x8x1x1024.size (k0_off143_inb (grid0.coords t))) (fun _ => rfl)).squeeze S8x1024 squeezes_S1x8x1x1024_S8x1024 = rowM scB (slN t.val) ⟨13, Nat.le_of_ble_eq_true rfl⟩ :=
  congrArg (fun M : Memref sig .tc .vmem S1x8x1x1024 .f32 => M.squeeze S8x1024 squeezes_S1x8x1x1024_S8x1024) (Memref.slice_unit_congr _ (coff_W13 t) _ _ (fun _ => rfl) (fun _ => rfl))
theorem coff_W14 : ∀ t : Fin grid0.N, k0_off144 (grid0.coords t) = ![(slN t.val).val, 0, 14, 0] := by decide +kernel
@[sl_canon] theorem canon_WscA14 (t : Fin grid0.N) :
    (scA.slice (Rect.unit (s := S2x8x64x1024) (k0_off144 (grid0.coords t)) S1x8x1x1024.size (k0_off144_inb (grid0.coords t))) (fun _ => rfl)).squeeze S8x1024 squeezes_S1x8x1x1024_S8x1024 = rowM scA (slN t.val) ⟨14, Nat.le_of_ble_eq_true rfl⟩ :=
  congrArg (fun M : Memref sig .tc .vmem S1x8x1x1024 .f32 => M.squeeze S8x1024 squeezes_S1x8x1x1024_S8x1024) (Memref.slice_unit_congr _ (coff_W14 t) _ _ (fun _ => rfl) (fun _ => rfl))
@[sl_canon] theorem canon_WscB14 (t : Fin grid0.N) :
    (scB.slice (Rect.unit (s := S2x8x64x1024) (k0_off144 (grid0.coords t)) S1x8x1x1024.size (k0_off144_inb (grid0.coords t))) (fun _ => rfl)).squeeze S8x1024 squeezes_S1x8x1x1024_S8x1024 = rowM scB (slN t.val) ⟨14, Nat.le_of_ble_eq_true rfl⟩ :=
  congrArg (fun M : Memref sig .tc .vmem S1x8x1x1024 .f32 => M.squeeze S8x1024 squeezes_S1x8x1x1024_S8x1024) (Memref.slice_unit_congr _ (coff_W14 t) _ _ (fun _ => rfl) (fun _ => rfl))
theorem coff_W15 : ∀ t : Fin grid0.N, k0_off145 (grid0.coords t) = ![(slN t.val).val, 0, 15, 0] := by decide +kernel
@[sl_canon] theorem canon_WscA15 (t : Fin grid0.N) :
    (scA.slice (Rect.unit (s := S2x8x64x1024) (k0_off145 (grid0.coords t)) S1x8x1x1024.size (k0_off145_inb (grid0.coords t))) (fun _ => rfl)).squeeze S8x1024 squeezes_S1x8x1x1024_S8x1024 = rowM scA (slN t.val) ⟨15, Nat.le_of_ble_eq_true rfl⟩ :=
  congrArg (fun M : Memref sig .tc .vmem S1x8x1x1024 .f32 => M.squeeze S8x1024 squeezes_S1x8x1x1024_S8x1024) (Memref.slice_unit_congr _ (coff_W15 t) _ _ (fun _ => rfl) (fun _ => rfl))
@[sl_canon] theorem canon_WscB15 (t : Fin grid0.N) :
    (scB.slice (Rect.unit (s := S2x8x64x1024) (k0_off145 (grid0.coords t)) S1x8x1x1024.size (k0_off145_inb (grid0.coords t))) (fun _ => rfl)).squeeze S8x1024 squeezes_S1x8x1x1024_S8x1024 = rowM scB (slN t.val) ⟨15, Nat.le_of_ble_eq_true rfl⟩ :=
  congrArg (fun M : Memref sig .tc .vmem S1x8x1x1024 .f32 => M.squeeze S8x1024 squeezes_S1x8x1x1024_S8x1024) (Memref.slice_unit_congr _ (coff_W15 t) _ _ (fun _ => rfl) (fun _ => rfl))
theorem coff_W16 : ∀ t : Fin grid0.N, k0_off146 (grid0.coords t) = ![(slN t.val).val, 0, 16, 0] := by decide +kernel
@[sl_canon] theorem canon_WscA16 (t : Fin grid0.N) :
    (scA.slice (Rect.unit (s := S2x8x64x1024) (k0_off146 (grid0.coords t)) S1x8x1x1024.size (k0_off146_inb (grid0.coords t))) (fun _ => rfl)).squeeze S8x1024 squeezes_S1x8x1x1024_S8x1024 = rowM scA (slN t.val) ⟨16, Nat.le_of_ble_eq_true rfl⟩ :=
  congrArg (fun M : Memref sig .tc .vmem S1x8x1x1024 .f32 => M.squeeze S8x1024 squeezes_S1x8x1x1024_S8x1024) (Memref.slice_unit_congr _ (coff_W16 t) _ _ (fun _ => rfl) (fun _ => rfl))
@[sl_canon] theorem canon_WscB16 (t : Fin grid0.N) :
    (scB.slice (Rect.unit (s := S2x8x64x1024) (k0_off146 (grid0.coords t)) S1x8x1x1024.size (k0_off146_inb (grid0.coords t))) (fun _ => rfl)).squeeze S8x1024 squeezes_S1x8x1x1024_S8x1024 = rowM scB (slN t.val) ⟨16, Nat.le_of_ble_eq_true rfl⟩ :=
  congrArg (fun M : Memref sig .tc .vmem S1x8x1x1024 .f32 => M.squeeze S8x1024 squeezes_S1x8x1x1024_S8x1024) (Memref.slice_unit_congr _ (coff_W16 t) _ _ (fun _ => rfl) (fun _ => rfl))
theorem coff_W17 : ∀ t : Fin grid0.N, k0_off147 (grid0.coords t) = ![(slN t.val).val, 0, 17, 0] := by decide +kernel
@[sl_canon] theorem canon_WscA17 (t : Fin grid0.N) :
    (scA.slice (Rect.unit (s := S2x8x64x1024) (k0_off147 (grid0.coords t)) S1x8x1x1024.size (k0_off147_inb (grid0.coords t))) (fun _ => rfl)).squeeze S8x1024 squeezes_S1x8x1x1024_S8x1024 = rowM scA (slN t.val) ⟨17, Nat.le_of_ble_eq_true rfl⟩ :=
  congrArg (fun M : Memref sig .tc .vmem S1x8x1x1024 .f32 => M.squeeze S8x1024 squeezes_S1x8x1x1024_S8x1024) (Memref.slice_unit_congr _ (coff_W17 t) _ _ (fun _ => rfl) (fun _ => rfl))
@[sl_canon] theorem canon_WscB17 (t : Fin grid0.N) :
    (scB.slice (Rect.unit (s := S2x8x64x1024) (k0_off147 (grid0.coords t)) S1x8x1x1024.size (k0_off147_inb (grid0.coords t))) (fun _ => rfl)).squeeze S8x1024 squeezes_S1x8x1x1024_S8x1024 = rowM scB (slN t.val) ⟨17, Nat.le_of_ble_eq_true rfl⟩ :=
  congrArg (fun M : Memref sig .tc .vmem S1x8x1x1024 .f32 => M.squeeze S8x1024 squeezes_S1x8x1x1024_S8x1024) (Memref.slice_unit_congr _ (coff_W17 t) _ _ (fun _ => rfl) (fun _ => rfl))
theorem coff_W18 : ∀ t : Fin grid0.N, k0_off148 (grid0.coords t) = ![(slN t.val).val, 0, 18, 0] := by decide +kernel
@[sl_canon] theorem canon_WscA18 (t : Fin grid0.N) :
    (scA.slice (Rect.unit (s := S2x8x64x1024) (k0_off148 (grid0.coords t)) S1x8x1x1024.size (k0_off148_inb (grid0.coords t))) (fun _ => rfl)).squeeze S8x1024 squeezes_S1x8x1x1024_S8x1024 = rowM scA (slN t.val) ⟨18, Nat.le_of_ble_eq_true rfl⟩ :=
  congrArg (fun M : Memref sig .tc .vmem S1x8x1x1024 .f32 => M.squeeze S8x1024 squeezes_S1x8x1x1024_S8x1024) (Memref.slice_unit_congr _ (coff_W18 t) _ _ (fun _ => rfl) (fun _ => rfl))
@[sl_canon] theorem canon_WscB18 (t : Fin grid0.N) :
    (scB.slice (Rect.unit (s := S2x8x64x1024) (k0_off148 (grid0.coords t)) S1x8x1x1024.size (k0_off148_inb (grid0.coords t))) (fun _ => rfl)).squeeze S8x1024 squeezes_S1x8x1x1024_S8x1024 = rowM scB (slN t.val) ⟨18, Nat.le_of_ble_eq_true rfl⟩ :=
  congrArg (fun M : Memref sig .tc .vmem S1x8x1x1024 .f32 => M.squeeze S8x1024 squeezes_S1x8x1x1024_S8x1024) (Memref.slice_unit_congr _ (coff_W18 t) _ _ (fun _ => rfl) (fun _ => rfl))
theorem coff_W19 : ∀ t : Fin grid0.N, k0_off149 (grid0.coords t) = ![(slN t.val).val, 0, 19, 0] := by decide +kernel
@[sl_canon] theorem canon_WscA19 (t : Fin grid0.N) :
    (scA.slice (Rect.unit (s := S2x8x64x1024) (k0_off149 (grid0.coords t)) S1x8x1x1024.size (k0_off149_inb (grid0.coords t))) (fun _ => rfl)).squeeze S8x1024 squeezes_S1x8x1x1024_S8x1024 = rowM scA (slN t.val) ⟨19, Nat.le_of_ble_eq_true rfl⟩ :=
  congrArg (fun M : Memref sig .tc .vmem S1x8x1x1024 .f32 => M.squeeze S8x1024 squeezes_S1x8x1x1024_S8x1024) (Memref.slice_unit_congr _ (coff_W19 t) _ _ (fun _ => rfl) (fun _ => rfl))
@[sl_canon] theorem canon_WscB19 (t : Fin grid0.N) :
    (scB.slice (Rect.unit (s := S2x8x64x1024) (k0_off149 (grid0.coords t)) S1x8x1x1024.size (k0_off149_inb (grid0.coords t))) (fun _ => rfl)).squeeze S8x1024 squeezes_S1x8x1x1024_S8x1024 = rowM scB (slN t.val) ⟨19, Nat.le_of_ble_eq_true rfl⟩ :=
  congrArg (fun M : Memref sig .tc .vmem S1x8x1x1024 .f32 => M.squeeze S8x1024 squeezes_S1x8x1x1024_S8x1024) (Memref.slice_unit_congr _ (coff_W19 t) _ _ (fun _ => rfl) (fun _ => rfl))
theorem coff_W20 : ∀ t : Fin grid0.N, k0_off150 (grid0.coords t) = ![(slN t.val).val, 0, 20, 0] := by decide +kernel
@[sl_canon] theorem canon_WscA20 (t : Fin grid0.N) :
    (scA.slice (Rect.unit (s := S2x8x64x1024) (k0_off150 (grid0.coords t)) S1x8x1x1024.size (k0_off150_inb (grid0.coords t))) (fun _ => rfl)).squeeze S8x1024 squeezes_S1x8x1x1024_S8x1024 = rowM scA (slN t.val) ⟨20, Nat.le_of_ble_eq_true rfl⟩ :=
  congrArg (fun M : Memref sig .tc .vmem S1x8x1x1024 .f32 => M.squeeze S8x1024 squeezes_S1x8x1x1024_S8x1024) (Memref.slice_unit_congr _ (coff_W20 t) _ _ (fun _ => rfl) (fun _ => rfl))
@[sl_canon] theorem canon_WscB20 (t : Fin grid0.N) :
    (scB.slice (Rect.unit (s := S2x8x64x1024) (k0_off150 (grid0.coords t)) S1x8x1x1024.size (k0_off150_inb (grid0.coords t))) (fun _ => rfl)).squeeze S8x1024 squeezes_S1x8x1x1024_S8x1024 = rowM scB (slN t.val) ⟨20, Nat.le_of_ble_eq_true rfl⟩ :=
  congrArg (fun M : Memref sig .tc .vmem S1x8x1x1024 .f32 => M.squeeze S8x1024 squeezes_S1x8x1x1024_S8x1024) (Memref.slice_unit_congr _ (coff_W20 t) _ _ (fun _ => rfl) (fun _ => rfl))
theorem coff_W21 : ∀ t : Fin grid0.N, k0_off151 (grid0.coords t) = ![(slN t.val).val, 0, 21, 0] := by decide +kernel
@[sl_canon] theorem canon_WscA21 (t : Fin grid0.N) :
    (scA.slice (Rect.unit (s := S2x8x64x1024) (k0_off151 (grid0.coords t)) S1x8x1x1024.size (k0_off151_inb (grid0.coords t))) (fun _ => rfl)).squeeze S8x1024 squeezes_S1x8x1x1024_S8x1024 = rowM scA (slN t.val) ⟨21, Nat.le_of_ble_eq_true rfl⟩ :=
  congrArg (fun M : Memref sig .tc .vmem S1x8x1x1024 .f32 => M.squeeze S8x1024 squeezes_S1x8x1x1024_S8x1024) (Memref.slice_unit_congr _ (coff_W21 t) _ _ (fun _ => rfl) (fun _ => rfl))
@[sl_canon] theorem canon_WscB21 (t : Fin grid0.N) :
    (scB.slice (Rect.unit (s := S2x8x64x1024) (k0_off151 (grid0.coords t)) S1x8x1x1024.size (k0_off151_inb (grid0.coords t))) (fun _ => rfl)).squeeze S8x1024 squeezes_S1x8x1x1024_S8x1024 = rowM scB (slN t.val) ⟨21, Nat.le_of_ble_eq_true rfl⟩ :=
  congrArg (fun M : Memref sig .tc .vmem S1x8x1x1024 .f32 => M.squeeze S8x1024 squeezes_S1x8x1x1024_S8x1024) (Memref.slice_unit_congr _ (coff_W21 t) _ _ (fun _ => rfl) (fun _ => rfl))
theorem coff_W22 : ∀ t : Fin grid0.N, k0_off152 (grid0.coords t) = ![(slN t.val).val, 0, 22, 0] := by decide +kernel
@[sl_canon] theorem canon_WscA22 (t : Fin grid0.N) :
    (scA.slice (Rect.unit (s := S2x8x64x1024) (k0_off152 (grid0.coords t)) S1x8x1x1024.size (k0_off152_inb (grid0.coords t))) (fun _ => rfl)).squeeze S8x1024 squeezes_S1x8x1x1024_S8x1024 = rowM scA (slN t.val) ⟨22, Nat.le_of_ble_eq_true rfl⟩ :=
  congrArg (fun M : Memref sig .tc .vmem S1x8x1x1024 .f32 => M.squeeze S8x1024 squeezes_S1x8x1x1024_S8x1024) (Memref.slice_unit_congr _ (coff_W22 t) _ _ (fun _ => rfl) (fun _ => rfl))
@[sl_canon] theorem canon_WscB22 (t : Fin grid0.N) :
    (scB.slice (Rect.unit (s := S2x8x64x1024) (k0_off152 (grid0.coords t)) S1x8x1x1024.size (k0_off152_inb (grid0.coords t))) (fun _ => rfl)).squeeze S8x1024 squeezes_S1x8x1x1024_S8x1024 = rowM scB (slN t.val) ⟨22, Nat.le_of_ble_eq_true rfl⟩ :=
  congrArg (fun M : Memref sig .tc .vmem S1x8x1x1024 .f32 => M.squeeze S8x1024 squeezes_S1x8x1x1024_S8x1024) (Memref.slice_unit_congr _ (coff_W22 t) _ _ (fun _ => rfl) (fun _ => rfl))
theorem coff_W23 : ∀ t : Fin grid0.N, k0_off153 (grid0.coords t) = ![(slN t.val).val, 0, 23, 0] := by decide +kernel
@[sl_canon] theorem canon_WscA23 (t : Fin grid0.N) :
    (scA.slice (Rect.unit (s := S2x8x64x1024) (k0_off153 (grid0.coords t)) S1x8x1x1024.size (k0_off153_inb (grid0.coords t))) (fun _ => rfl)).squeeze S8x1024 squeezes_S1x8x1x1024_S8x1024 = rowM scA (slN t.val) ⟨23, Nat.le_of_ble_eq_true rfl⟩ :=
  congrArg (fun M : Memref sig .tc .vmem S1x8x1x1024 .f32 => M.squeeze S8x1024 squeezes_S1x8x1x1024_S8x1024) (Memref.slice_unit_congr _ (coff_W23 t) _ _ (fun _ => rfl) (fun _ => rfl))
@[sl_canon] theorem canon_WscB23 (t : Fin grid0.N) :
    (scB.slice (Rect.unit (s := S2x8x64x1024) (k0_off153 (grid0.coords t)) S1x8x1x1024.size (k0_off153_inb (grid0.coords t))) (fun _ => rfl)).squeeze S8x1024 squeezes_S1x8x1x1024_S8x1024 = rowM scB (slN t.val) ⟨23, Nat.le_of_ble_eq_true rfl⟩ :=
  congrArg (fun M : Memref sig .tc .vmem S1x8x1x1024 .f32 => M.squeeze S8x1024 squeezes_S1x8x1x1024_S8x1024) (Memref.slice_unit_congr _ (coff_W23 t) _ _ (fun _ => rfl) (fun _ => rfl))
theorem coff_W24 : ∀ t : Fin grid0.N, k0_off154 (grid0.coords t) = ![(slN t.val).val, 0, 24, 0] := by decide +kernel
@[sl_canon] theorem canon_WscA24 (t : Fin grid0.N) :
    (scA.slice (Rect.unit (s := S2x8x64x1024) (k0_off154 (grid0.coords t)) S1x8x1x1024.size (k0_off154_inb (grid0.coords t))) (fun _ => rfl)).squeeze S8x1024 squeezes_S1x8x1x1024_S8x1024 = rowM scA (slN t.val) ⟨24, Nat.le_of_ble_eq_true rfl⟩ :=
  congrArg (fun M : Memref sig .tc .vmem S1x8x1x1024 .f32 => M.squeeze S8x1024 squeezes_S1x8x1x1024_S8x1024) (Memref.slice_unit_congr _ (coff_W24 t) _ _ (fun _ => rfl) (fun _ => rfl))
@[sl_canon] theorem canon_WscB24 (t : Fin grid0.N) :
    (scB.slice (Rect.unit (s := S2x8x64x1024) (k0_off154 (grid0.coords t)) S1x8x1x1024.size (k0_off154_inb (grid0.coords t))) (fun _ => rfl)).squeeze S8x1024 squeezes_S1x8x1x1024_S8x1024 = rowM scB (slN t.val) ⟨24, Nat.le_of_ble_eq_true rfl⟩ :=
  congrArg (fun M : Memref sig .tc .vmem S1x8x1x1024 .f32 => M.squeeze S8x1024 squeezes_S1x8x1x1024_S8x1024) (Memref.slice_unit_congr _ (coff_W24 t) _ _ (fun _ => rfl) (fun _ => rfl))
theorem coff_W25 : ∀ t : Fin grid0.N, k0_off155 (grid0.coords t) = ![(slN t.val).val, 0, 25, 0] := by decide +kernel
@[sl_canon] theorem canon_WscA25 (t : Fin grid0.N) :
    (scA.slice (Rect.unit (s := S2x8x64x1024) (k0_off155 (grid0.coords t)) S1x8x1x1024.size (k0_off155_inb (grid0.coords t))) (fun _ => rfl)).squeeze S8x1024 squeezes_S1x8x1x1024_S8x1024 = rowM scA (slN t.val) ⟨25, Nat.le_of_ble_eq_true rfl⟩ :=
  congrArg (fun M : Memref sig .tc .vmem S1x8x1x1024 .f32 => M.squeeze S8x1024 squeezes_S1x8x1x1024_S8x1024) (Memref.slice_unit_congr _ (coff_W25 t) _ _ (fun _ => rfl) (fun _ => rfl))
@[sl_canon] theorem canon_WscB25 (t : Fin grid0.N) :
    (scB.slice (Rect.unit (s := S2x8x64x1024) (k0_off155 (grid0.coords t)) S1x8x1x1024.size (k0_off155_inb (grid0.coords t))) (fun _ => rfl)).squeeze S8x1024 squeezes_S1x8x1x1024_S8x1024 = rowM scB (slN t.val) ⟨25, Nat.le_of_ble_eq_true rfl⟩ :=
  congrArg (fun M : Memref sig .tc .vmem S1x8x1x1024 .f32 => M.squeeze S8x1024 squeezes_S1x8x1x1024_S8x1024) (Memref.slice_unit_congr _ (coff_W25 t) _ _ (fun _ => rfl) (fun _ => rfl))
theorem coff_W26 : ∀ t : Fin grid0.N, k0_off156 (grid0.coords t) = ![(slN t.val).val, 0, 26, 0] := by decide +kernel
@[sl_canon] theorem canon_WscA26 (t : Fin grid0.N) :
    (scA.slice (Rect.unit (s := S2x8x64x1024) (k0_off156 (grid0.coords t)) S1x8x1x1024.size (k0_off156_inb (grid0.coords t))) (fun _ => rfl)).squeeze S8x1024 squeezes_S1x8x1x1024_S8x1024 = rowM scA (slN t.val) ⟨26, Nat.le_of_ble_eq_true rfl⟩ :=
  congrArg (fun M : Memref sig .tc .vmem S1x8x1x1024 .f32 => M.squeeze S8x1024 squeezes_S1x8x1x1024_S8x1024) (Memref.slice_unit_congr _ (coff_W26 t) _ _ (fun _ => rfl) (fun _ => rfl))
@[sl_canon] theorem canon_WscB26 (t : Fin grid0.N) :
    (scB.slice (Rect.unit (s := S2x8x64x1024) (k0_off156 (grid0.coords t)) S1x8x1x1024.size (k0_off156_inb (grid0.coords t))) (fun _ => rfl)).squeeze S8x1024 squeezes_S1x8x1x1024_S8x1024 = rowM scB (slN t.val) ⟨26, Nat.le_of_ble_eq_true rfl⟩ :=
  congrArg (fun M : Memref sig .tc .vmem S1x8x1x1024 .f32 => M.squeeze S8x1024 squeezes_S1x8x1x1024_S8x1024) (Memref.slice_unit_congr _ (coff_W26 t) _ _ (fun _ => rfl) (fun _ => rfl))
theorem coff_W27 : ∀ t : Fin grid0.N, k0_off157 (grid0.coords t) = ![(slN t.val).val, 0, 27, 0] := by decide +kernel
@[sl_canon] theorem canon_WscA27 (t : Fin grid0.N) :
    (scA.slice (Rect.unit (s := S2x8x64x1024) (k0_off157 (grid0.coords t)) S1x8x1x1024.size (k0_off157_inb (grid0.coords t))) (fun _ => rfl)).squeeze S8x1024 squeezes_S1x8x1x1024_S8x1024 = rowM scA (slN t.val) ⟨27, Nat.le_of_ble_eq_true rfl⟩ :=
  congrArg (fun M : Memref sig .tc .vmem S1x8x1x1024 .f32 => M.squeeze S8x1024 squeezes_S1x8x1x1024_S8x1024) (Memref.slice_unit_congr _ (coff_W27 t) _ _ (fun _ => rfl) (fun _ => rfl))
@[sl_canon] theorem canon_WscB27 (t : Fin grid0.N) :
    (scB.slice (Rect.unit (s := S2x8x64x1024) (k0_off157 (grid0.coords t)) S1x8x1x1024.size (k0_off157_inb (grid0.coords t))) (fun _ => rfl)).squeeze S8x1024 squeezes_S1x8x1x1024_S8x1024 = rowM scB (slN t.val) ⟨27, Nat.le_of_ble_eq_true rfl⟩ :=
  congrArg (fun M : Memref sig .tc .vmem S1x8x1x1024 .f32 => M.squeeze S8x1024 squeezes_S1x8x1x1024_S8x1024) (Memref.slice_unit_congr _ (coff_W27 t) _ _ (fun _ => rfl) (fun _ => rfl))
theorem coff_W28 : ∀ t : Fin grid0.N, k0_off158 (grid0.coords t) = ![(slN t.val).val, 0, 28, 0] := by decide +kernel
@[sl_canon] theorem canon_WscA28 (t : Fin grid0.N) :
    (scA.slice (Rect.unit (s := S2x8x64x1024) (k0_off158 (grid0.coords t)) S1x8x1x1024.size (k0_off158_inb (grid0.coords t))) (fun _ => rfl)).squeeze S8x1024 squeezes_S1x8x1x1024_S8x1024 = rowM scA (slN t.val) ⟨28, Nat.le_of_ble_eq_true rfl⟩ :=
  congrArg (fun M : Memref sig .tc .vmem S1x8x1x1024 .f32 => M.squeeze S8x1024 squeezes_S1x8x1x1024_S8x1024) (Memref.slice_unit_congr _ (coff_W28 t) _ _ (fun _ => rfl) (fun _ => rfl))
@[sl_canon] theorem canon_WscB28 (t : Fin grid0.N) :
    (scB.slice (Rect.unit (s := S2x8x64x1024) (k0_off158 (grid0.coords t)) S1x8x1x1024.size (k0_off158_inb (grid0.coords t))) (fun _ => rfl)).squeeze S8x1024 squeezes_S1x8x1x1024_S8x1024 = rowM scB (slN t.val) ⟨28, Nat.le_of_ble_eq_true rfl⟩ :=
  congrArg (fun M : Memref sig .tc .vmem S1x8x1x1024 .f32 => M.squeeze S8x1024 squeezes_S1x8x1x1024_S8x1024) (Memref.slice_unit_congr _ (coff_W28 t) _ _ (fun _ => rfl) (fun _ => rfl))
theorem coff_W29 : ∀ t : Fin grid0.N, k0_off159 (grid0.coords t) = ![(slN t.val).val, 0, 29, 0] := by decide +kernel
@[sl_canon] theorem canon_WscA29 (t : Fin grid0.N) :
    (scA.slice (Rect.unit (s := S2x8x64x1024) (k0_off159 (grid0.coords t)) S1x8x1x1024.size (k0_off159_inb (grid0.coords t))) (fun _ => rfl)).squeeze S8x1024 squeezes_S1x8x1x1024_S8x1024 = rowM scA (slN t.val) ⟨29, Nat.le_of_ble_eq_true rfl⟩ :=
  congrArg (fun M : Memref sig .tc .vmem S1x8x1x1024 .f32 => M.squeeze S8x1024 squeezes_S1x8x1x1024_S8x1024) (Memref.slice_unit_congr _ (coff_W29 t) _ _ (fun _ => rfl) (fun _ => rfl))
@[sl_canon] theorem canon_WscB29 (t : Fin grid0.N) :
    (scB.slice (Rect.unit (s := S2x8x64x1024) (k0_off159 (grid0.coords t)) S1x8x1x1024.size (k0_off159_inb (grid0.coords t))) (fun _ => rfl)).squeeze S8x1024 squeezes_S1x8x1x1024_S8x1024 = rowM scB (slN t.val) ⟨29, Nat.le_of_ble_eq_true rfl⟩ :=
  congrArg (fun M : Memref sig .tc .vmem S1x8x1x1024 .f32 => M.squeeze S8x1024 squeezes_S1x8x1x1024_S8x1024) (Memref.slice_unit_congr _ (coff_W29 t) _ _ (fun _ => rfl) (fun _ => rfl))
theorem coff_W30 : ∀ t : Fin grid0.N, k0_off160 (grid0.coords t) = ![(slN t.val).val, 0, 30, 0] := by decide +kernel
@[sl_canon] theorem canon_WscA30 (t : Fin grid0.N) :
    (scA.slice (Rect.unit (s := S2x8x64x1024) (k0_off160 (grid0.coords t)) S1x8x1x1024.size (k0_off160_inb (grid0.coords t))) (fun _ => rfl)).squeeze S8x1024 squeezes_S1x8x1x1024_S8x1024 = rowM scA (slN t.val) ⟨30, Nat.le_of_ble_eq_true rfl⟩ :=
  congrArg (fun M : Memref sig .tc .vmem S1x8x1x1024 .f32 => M.squeeze S8x1024 squeezes_S1x8x1x1024_S8x1024) (Memref.slice_unit_congr _ (coff_W30 t) _ _ (fun _ => rfl) (fun _ => rfl))
@[sl_canon] theorem canon_WscB30 (t : Fin grid0.N) :
    (scB.slice (Rect.unit (s := S2x8x64x1024) (k0_off160 (grid0.coords t)) S1x8x1x1024.size (k0_off160_inb (grid0.coords t))) (fun _ => rfl)).squeeze S8x1024 squeezes_S1x8x1x1024_S8x1024 = rowM scB (slN t.val) ⟨30, Nat.le_of_ble_eq_true rfl⟩ :=
  congrArg (fun M : Memref sig .tc .vmem S1x8x1x1024 .f32 => M.squeeze S8x1024 squeezes_S1x8x1x1024_S8x1024) (Memref.slice_unit_congr _ (coff_W30 t) _ _ (fun _ => rfl) (fun _ => rfl))
theorem coff_W31 : ∀ t : Fin grid0.N, k0_off161 (grid0.coords t) = ![(slN t.val).val, 0, 31, 0] := by decide +kernel
@[sl_canon] theorem canon_WscA31 (t : Fin grid0.N) :
    (scA.slice (Rect.unit (s := S2x8x64x1024) (k0_off161 (grid0.coords t)) S1x8x1x1024.size (k0_off161_inb (grid0.coords t))) (fun _ => rfl)).squeeze S8x1024 squeezes_S1x8x1x1024_S8x1024 = rowM scA (slN t.val) ⟨31, Nat.le_of_ble_eq_true rfl⟩ :=
  congrArg (fun M : Memref sig .tc .vmem S1x8x1x1024 .f32 => M.squeeze S8x1024 squeezes_S1x8x1x1024_S8x1024) (Memref.slice_unit_congr _ (coff_W31 t) _ _ (fun _ => rfl) (fun _ => rfl))
@[sl_canon] theorem canon_WscB31 (t : Fin grid0.N) :
    (scB.slice (Rect.unit (s := S2x8x64x1024) (k0_off161 (grid0.coords t)) S1x8x1x1024.size (k0_off161_inb (grid0.coords t))) (fun _ => rfl)).squeeze S8x1024 squeezes_S1x8x1x1024_S8x1024 = rowM scB (slN t.val) ⟨31, Nat.le_of_ble_eq_true rfl⟩ :=
  congrArg (fun M : Memref sig .tc .vmem S1x8x1x1024 .f32 => M.squeeze S8x1024 squeezes_S1x8x1x1024_S8x1024) (Memref.slice_unit_congr _ (coff_W31 t) _ _ (fun _ => rfl) (fun _ => rfl))
theorem coff_W32 : ∀ t : Fin grid0.N, k0_off162 (grid0.coords t) = ![(slN t.val).val, 0, 32, 0] := by decide +kernel
@[sl_canon] theorem canon_WscA32 (t : Fin grid0.N) :
    (scA.slice (Rect.unit (s := S2x8x64x1024) (k0_off162 (grid0.coords t)) S1x8x1x1024.size (k0_off162_inb (grid0.coords t))) (fun _ => rfl)).squeeze S8x1024 squeezes_S1x8x1x1024_S8x1024 = rowM scA (slN t.val) ⟨32, Nat.le_of_ble_eq_true rfl⟩ :=
  congrArg (fun M : Memref sig .tc .vmem S1x8x1x1024 .f32 => M.squeeze S8x1024 squeezes_S1x8x1x1024_S8x1024) (Memref.slice_unit_congr _ (coff_W32 t) _ _ (fun _ => rfl) (fun _ => rfl))
@[sl_canon] theorem canon_WscB32 (t : Fin grid0.N) :
    (scB.slice (Rect.unit (s := S2x8x64x1024) (k0_off162 (grid0.coords t)) S1x8x1x1024.size (k0_off162_inb (grid0.coords t))) (fun _ => rfl)).squeeze S8x1024 squeezes_S1x8x1x1024_S8x1024 = rowM scB (slN t.val) ⟨32, Nat.le_of_ble_eq_true rfl⟩ :=
  congrArg (fun M : Memref sig .tc .vmem S1x8x1x1024 .f32 => M.squeeze S8x1024 squeezes_S1x8x1x1024_S8x1024) (Memref.slice_unit_congr _ (coff_W32 t) _ _ (fun _ => rfl) (fun _ => rfl))
theorem coff_W33 : ∀ t : Fin grid0.N, k0_off163 (grid0.coords t) = ![(slN t.val).val, 0, 33, 0] := by decide +kernel
@[sl_canon] theorem canon_WscA33 (t : Fin grid0.N) :
    (scA.slice (Rect.unit (s := S2x8x64x1024) (k0_off163 (grid0.coords t)) S1x8x1x1024.size (k0_off163_inb (grid0.coords t))) (fun _ => rfl)).squeeze S8x1024 squeezes_S1x8x1x1024_S8x1024 = rowM scA (slN t.val) ⟨33, Nat.le_of_ble_eq_true rfl⟩ :=
  congrArg (fun M : Memref sig .tc .vmem S1x8x1x1024 .f32 => M.squeeze S8x1024 squeezes_S1x8x1x1024_S8x1024) (Memref.slice_unit_congr _ (coff_W33 t) _ _ (fun _ => rfl) (fun _ => rfl))
@[sl_canon] theorem canon_WscB33 (t : Fin grid0.N) :
    (scB.slice (Rect.unit (s := S2x8x64x1024) (k0_off163 (grid0.coords t)) S1x8x1x1024.size (k0_off163_inb (grid0.coords t))) (fun _ => rfl)).squeeze S8x1024 squeezes_S1x8x1x1024_S8x1024 = rowM scB (slN t.val) ⟨33, Nat.le_of_ble_eq_true rfl⟩ :=
  congrArg (fun M : Memref sig .tc .vmem S1x8x1x1024 .f32 => M.squeeze S8x1024 squeezes_S1x8x1x1024_S8x1024) (Memref.slice_unit_congr _ (coff_W33 t) _ _ (fun _ => rfl) (fun _ => rfl))
theorem coff_W34 : ∀ t : Fin grid0.N, k0_off164 (grid0.coords t) = ![(slN t.val).val, 0, 34, 0] := by decide +kernel
@[sl_canon] theorem canon_WscA34 (t : Fin grid0.N) :
    (scA.slice (Rect.unit (s := S2x8x64x1024) (k0_off164 (grid0.coords t)) S1x8x1x1024.size (k0_off164_inb (grid0.coords t))) (fun _ => rfl)).squeeze S8x1024 squeezes_S1x8x1x1024_S8x1024 = rowM scA (slN t.val) ⟨34, Nat.le_of_ble_eq_true rfl⟩ :=
  congrArg (fun M : Memref sig .tc .vmem S1x8x1x1024 .f32 => M.squeeze S8x1024 squeezes_S1x8x1x1024_S8x1024) (Memref.slice_unit_congr _ (coff_W34 t) _ _ (fun _ => rfl) (fun _ => rfl))
@[sl_canon] theorem canon_WscB34 (t : Fin grid0.N) :
    (scB.slice (Rect.unit (s := S2x8x64x1024) (k0_off164 (grid0.coords t)) S1x8x1x1024.size (k0_off164_inb (grid0.coords t))) (fun _ => rfl)).squeeze S8x1024 squeezes_S1x8x1x1024_S8x1024 = rowM scB (slN t.val) ⟨34, Nat.le_of_ble_eq_true rfl⟩ :=
  congrArg (fun M : Memref sig .tc .vmem S1x8x1x1024 .f32 => M.squeeze S8x1024 squeezes_S1x8x1x1024_S8x1024) (Memref.slice_unit_congr _ (coff_W34 t) _ _ (fun _ => rfl) (fun _ => rfl))
theorem coff_W35 : ∀ t : Fin grid0.N, k0_off165 (grid0.coords t) = ![(slN t.val).val, 0, 35, 0] := by decide +kernel
@[sl_canon] theorem canon_WscA35 (t : Fin grid0.N) :
    (scA.slice (Rect.unit (s := S2x8x64x1024) (k0_off165 (grid0.coords t)) S1x8x1x1024.size (k0_off165_inb (grid0.coords t))) (fun _ => rfl)).squeeze S8x1024 squeezes_S1x8x1x1024_S8x1024 = rowM scA (slN t.val) ⟨35, Nat.le_of_ble_eq_true rfl⟩ :=
  congrArg (fun M : Memref sig .tc .vmem S1x8x1x1024 .f32 => M.squeeze S8x1024 squeezes_S1x8x1x1024_S8x1024) (Memref.slice_unit_congr _ (coff_W35 t) _ _ (fun _ => rfl) (fun _ => rfl))
@[sl_canon] theorem canon_WscB35 (t : Fin grid0.N) :
    (scB.slice (Rect.unit (s := S2x8x64x1024) (k0_off165 (grid0.coords t)) S1x8x1x1024.size (k0_off165_inb (grid0.coords t))) (fun _ => rfl)).squeeze S8x1024 squeezes_S1x8x1x1024_S8x1024 = rowM scB (slN t.val) ⟨35, Nat.le_of_ble_eq_true rfl⟩ :=
  congrArg (fun M : Memref sig .tc .vmem S1x8x1x1024 .f32 => M.squeeze S8x1024 squeezes_S1x8x1x1024_S8x1024) (Memref.slice_unit_congr _ (coff_W35 t) _ _ (fun _ => rfl) (fun _ => rfl))
theorem coff_W36 : ∀ t : Fin grid0.N, k0_off166 (grid0.coords t) = ![(slN t.val).val, 0, 36, 0] := by decide +kernel
@[sl_canon] theorem canon_WscA36 (t : Fin grid0.N) :
    (scA.slice (Rect.unit (s := S2x8x64x1024) (k0_off166 (grid0.coords t)) S1x8x1x1024.size (k0_off166_inb (grid0.coords t))) (fun _ => rfl)).squeeze S8x1024 squeezes_S1x8x1x1024_S8x1024 = rowM scA (slN t.val) ⟨36, Nat.le_of_ble_eq_true rfl⟩ :=
  congrArg (fun M : Memref sig .tc .vmem S1x8x1x1024 .f32 => M.squeeze S8x1024 squeezes_S1x8x1x1024_S8x1024) (Memref.slice_unit_congr _ (coff_W36 t) _ _ (fun _ => rfl) (fun _ => rfl))
@[sl_canon] theorem canon_WscB36 (t : Fin grid0.N) :
    (scB.slice (Rect.unit (s := S2x8x64x1024) (k0_off166 (grid0.coords t)) S1x8x1x1024.size (k0_off166_inb (grid0.coords t))) (fun _ => rfl)).squeeze S8x1024 squeezes_S1x8x1x1024_S8x1024 = rowM scB (slN t.val) ⟨36, Nat.le_of_ble_eq_true rfl⟩ :=
  congrArg (fun M : Memref sig .tc .vmem S1x8x1x1024 .f32 => M.squeeze S8x1024 squeezes_S1x8x1x1024_S8x1024) (Memref.slice_unit_congr _ (coff_W36 t) _ _ (fun _ => rfl) (fun _ => rfl))
theorem coff_W37 : ∀ t : Fin grid0.N, k0_off167 (grid0.coords t) = ![(slN t.val).val, 0, 37, 0] := by decide +kernel
@[sl_canon] theorem canon_WscA37 (t : Fin grid0.N) :
    (scA.slice (Rect.unit (s := S2x8x64x1024) (k0_off167 (grid0.coords t)) S1x8x1x1024.size (k0_off167_inb (grid0.coords t))) (fun _ => rfl)).squeeze S8x1024 squeezes_S1x8x1x1024_S8x1024 = rowM scA (slN t.val) ⟨37, Nat.le_of_ble_eq_true rfl⟩ :=
  congrArg (fun M : Memref sig .tc .vmem S1x8x1x1024 .f32 => M.squeeze S8x1024 squeezes_S1x8x1x1024_S8x1024) (Memref.slice_unit_congr _ (coff_W37 t) _ _ (fun _ => rfl) (fun _ => rfl))
@[sl_canon] theorem canon_WscB37 (t : Fin grid0.N) :
    (scB.slice (Rect.unit (s := S2x8x64x1024) (k0_off167 (grid0.coords t)) S1x8x1x1024.size (k0_off167_inb (grid0.coords t))) (fun _ => rfl)).squeeze S8x1024 squeezes_S1x8x1x1024_S8x1024 = rowM scB (slN t.val) ⟨37, Nat.le_of_ble_eq_true rfl⟩ :=
  congrArg (fun M : Memref sig .tc .vmem S1x8x1x1024 .f32 => M.squeeze S8x1024 squeezes_S1x8x1x1024_S8x1024) (Memref.slice_unit_congr _ (coff_W37 t) _ _ (fun _ => rfl) (fun _ => rfl))
theorem coff_W38 : ∀ t : Fin grid0.N, k0_off168 (grid0.coords t) = ![(slN t.val).val, 0, 38, 0] := by decide +kernel
@[sl_canon] theorem canon_WscA38 (t : Fin grid0.N) :
    (scA.slice (Rect.unit (s := S2x8x64x1024) (k0_off168 (grid0.coords t)) S1x8x1x1024.size (k0_off168_inb (grid0.coords t))) (fun _ => rfl)).squeeze S8x1024 squeezes_S1x8x1x1024_S8x1024 = rowM scA (slN t.val) ⟨38, Nat.le_of_ble_eq_true rfl⟩ :=
  congrArg (fun M : Memref sig .tc .vmem S1x8x1x1024 .f32 => M.squeeze S8x1024 squeezes_S1x8x1x1024_S8x1024) (Memref.slice_unit_congr _ (coff_W38 t) _ _ (fun _ => rfl) (fun _ => rfl))
@[sl_canon] theorem canon_WscB38 (t : Fin grid0.N) :
    (scB.slice (Rect.unit (s := S2x8x64x1024) (k0_off168 (grid0.coords t)) S1x8x1x1024.size (k0_off168_inb (grid0.coords t))) (fun _ => rfl)).squeeze S8x1024 squeezes_S1x8x1x1024_S8x1024 = rowM scB (slN t.val) ⟨38, Nat.le_of_ble_eq_true rfl⟩ :=
  congrArg (fun M : Memref sig .tc .vmem S1x8x1x1024 .f32 => M.squeeze S8x1024 squeezes_S1x8x1x1024_S8x1024) (Memref.slice_unit_congr _ (coff_W38 t) _ _ (fun _ => rfl) (fun _ => rfl))
theorem coff_W39 : ∀ t : Fin grid0.N, k0_off169 (grid0.coords t) = ![(slN t.val).val, 0, 39, 0] := by decide +kernel
@[sl_canon] theorem canon_WscA39 (t : Fin grid0.N) :
    (scA.slice (Rect.unit (s := S2x8x64x1024) (k0_off169 (grid0.coords t)) S1x8x1x1024.size (k0_off169_inb (grid0.coords t))) (fun _ => rfl)).squeeze S8x1024 squeezes_S1x8x1x1024_S8x1024 = rowM scA (slN t.val) ⟨39, Nat.le_of_ble_eq_true rfl⟩ :=
  congrArg (fun M : Memref sig .tc .vmem S1x8x1x1024 .f32 => M.squeeze S8x1024 squeezes_S1x8x1x1024_S8x1024) (Memref.slice_unit_congr _ (coff_W39 t) _ _ (fun _ => rfl) (fun _ => rfl))
@[sl_canon] theorem canon_WscB39 (t : Fin grid0.N) :
    (scB.slice (Rect.unit (s := S2x8x64x1024) (k0_off169 (grid0.coords t)) S1x8x1x1024.size (k0_off169_inb (grid0.coords t))) (fun _ => rfl)).squeeze S8x1024 squeezes_S1x8x1x1024_S8x1024 = rowM scB (slN t.val) ⟨39, Nat.le_of_ble_eq_true rfl⟩ :=
  congrArg (fun M : Memref sig .tc .vmem S1x8x1x1024 .f32 => M.squeeze S8x1024 squeezes_S1x8x1x1024_S8x1024) (Memref.slice_unit_congr _ (coff_W39 t) _ _ (fun _ => rfl) (fun _ => rfl))
theorem coff_W40 : ∀ t : Fin grid0.N, k0_off170 (grid0.coords t) = ![(slN t.val).val, 0, 40, 0] := by decide +kernel
@[sl_canon] theorem canon_WscA40 (t : Fin grid0.N) :
    (scA.slice (Rect.unit (s := S2x8x64x1024) (k0_off170 (grid0.coords t)) S1x8x1x1024.size (k0_off170_inb (grid0.coords t))) (fun _ => rfl)).squeeze S8x1024 squeezes_S1x8x1x1024_S8x1024 = rowM scA (slN t.val) ⟨40, Nat.le_of_ble_eq_true rfl⟩ :=
  congrArg (fun M : Memref sig .tc .vmem S1x8x1x1024 .f32 => M.squeeze S8x1024 squeezes_S1x8x1x1024_S8x1024) (Memref.slice_unit_congr _ (coff_W40 t) _ _ (fun _ => rfl) (fun _ => rfl))
@[sl_canon] theorem canon_WscB40 (t : Fin grid0.N) :
    (scB.slice (Rect.unit (s := S2x8x64x1024) (k0_off170 (grid0.coords t)) S1x8x1x1024.size (k0_off170_inb (grid0.coords t))) (fun _ => rfl)).squeeze S8x1024 squeezes_S1x8x1x1024_S8x1024 = rowM scB (slN t.val) ⟨40, Nat.le_of_ble_eq_true rfl⟩ :=
  congrArg (fun M : Memref sig .tc .vmem S1x8x1x1024 .f32 => M.squeeze S8x1024 squeezes_S1x8x1x1024_S8x1024) (Memref.slice_unit_congr _ (coff_W40 t) _ _ (fun _ => rfl) (fun _ => rfl))
theorem coff_W41 : ∀ t : Fin grid0.N, k0_off171 (grid0.coords t) = ![(slN t.val).val, 0, 41, 0] := by decide +kernel
@[sl_canon] theorem canon_WscA41 (t : Fin grid0.N) :
    (scA.slice (Rect.unit (s := S2x8x64x1024) (k0_off171 (grid0.coords t)) S1x8x1x1024.size (k0_off171_inb (grid0.coords t))) (fun _ => rfl)).squeeze S8x1024 squeezes_S1x8x1x1024_S8x1024 = rowM scA (slN t.val) ⟨41, Nat.le_of_ble_eq_true rfl⟩ :=
  congrArg (fun M : Memref sig .tc .vmem S1x8x1x1024 .f32 => M.squeeze S8x1024 squeezes_S1x8x1x1024_S8x1024) (Memref.slice_unit_congr _ (coff_W41 t) _ _ (fun _ => rfl) (fun _ => rfl))
@[sl_canon] theorem canon_WscB41 (t : Fin grid0.N) :
    (scB.slice (Rect.unit (s := S2x8x64x1024) (k0_off171 (grid0.coords t)) S1x8x1x1024.size (k0_off171_inb (grid0.coords t))) (fun _ => rfl)).squeeze S8x1024 squeezes_S1x8x1x1024_S8x1024 = rowM scB (slN t.val) ⟨41, Nat.le_of_ble_eq_true rfl⟩ :=
  congrArg (fun M : Memref sig .tc .vmem S1x8x1x1024 .f32 => M.squeeze S8x1024 squeezes_S1x8x1x1024_S8x1024) (Memref.slice_unit_congr _ (coff_W41 t) _ _ (fun _ => rfl) (fun _ => rfl))
theorem coff_W42 : ∀ t : Fin grid0.N, k0_off172 (grid0.coords t) = ![(slN t.val).val, 0, 42, 0] := by decide +kernel
@[sl_canon] theorem canon_WscA42 (t : Fin grid0.N) :
    (scA.slice (Rect.unit (s := S2x8x64x1024) (k0_off172 (grid0.coords t)) S1x8x1x1024.size (k0_off172_inb (grid0.coords t))) (fun _ => rfl)).squeeze S8x1024 squeezes_S1x8x1x1024_S8x1024 = rowM scA (slN t.val) ⟨42, Nat.le_of_ble_eq_true rfl⟩ :=
  congrArg (fun M : Memref sig .tc .vmem S1x8x1x1024 .f32 => M.squeeze S8x1024 squeezes_S1x8x1x1024_S8x1024) (Memref.slice_unit_congr _ (coff_W42 t) _ _ (fun _ => rfl) (fun _ => rfl))
@[sl_canon] theorem canon_WscB42 (t : Fin grid0.N) :
    (scB.slice (Rect.unit (s := S2x8x64x1024) (k0_off172 (grid0.coords t)) S1x8x1x1024.size (k0_off172_inb (grid0.coords t))) (fun _ => rfl)).squeeze S8x1024 squeezes_S1x8x1x1024_S8x1024 = rowM scB (slN t.val) ⟨42, Nat.le_of_ble_eq_true rfl⟩ :=
  congrArg (fun M : Memref sig .tc .vmem S1x8x1x1024 .f32 => M.squeeze S8x1024 squeezes_S1x8x1x1024_S8x1024) (Memref.slice_unit_congr _ (coff_W42 t) _ _ (fun _ => rfl) (fun _ => rfl))
theorem coff_W43 : ∀ t : Fin grid0.N, k0_off173 (grid0.coords t) = ![(slN t.val).val, 0, 43, 0] := by decide +kernel
@[sl_canon] theorem canon_WscA43 (t : Fin grid0.N) :
    (scA.slice (Rect.unit (s := S2x8x64x1024) (k0_off173 (grid0.coords t)) S1x8x1x1024.size (k0_off173_inb (grid0.coords t))) (fun _ => rfl)).squeeze S8x1024 squeezes_S1x8x1x1024_S8x1024 = rowM scA (slN t.val) ⟨43, Nat.le_of_ble_eq_true rfl⟩ :=
  congrArg (fun M : Memref sig .tc .vmem S1x8x1x1024 .f32 => M.squeeze S8x1024 squeezes_S1x8x1x1024_S8x1024) (Memref.slice_unit_congr _ (coff_W43 t) _ _ (fun _ => rfl) (fun _ => rfl))
@[sl_canon] theorem canon_WscB43 (t : Fin grid0.N) :
    (scB.slice (Rect.unit (s := S2x8x64x1024) (k0_off173 (grid0.coords t)) S1x8x1x1024.size (k0_off173_inb (grid0.coords t))) (fun _ => rfl)).squeeze S8x1024 squeezes_S1x8x1x1024_S8x1024 = rowM scB (slN t.val) ⟨43, Nat.le_of_ble_eq_true rfl⟩ :=
  congrArg (fun M : Memref sig .tc .vmem S1x8x1x1024 .f32 => M.squeeze S8x1024 squeezes_S1x8x1x1024_S8x1024) (Memref.slice_unit_congr _ (coff_W43 t) _ _ (fun _ => rfl) (fun _ => rfl))
theorem coff_W44 : ∀ t : Fin grid0.N, k0_off174 (grid0.coords t) = ![(slN t.val).val, 0, 44, 0] := by decide +kernel
@[sl_canon] theorem canon_WscA44 (t : Fin grid0.N) :
    (scA.slice (Rect.unit (s := S2x8x64x1024) (k0_off174 (grid0.coords t)) S1x8x1x1024.size (k0_off174_inb (grid0.coords t))) (fun _ => rfl)).squeeze S8x1024 squeezes_S1x8x1x1024_S8x1024 = rowM scA (slN t.val) ⟨44, Nat.le_of_ble_eq_true rfl⟩ :=
  congrArg (fun M : Memref sig .tc .vmem S1x8x1x1024 .f32 => M.squeeze S8x1024 squeezes_S1x8x1x1024_S8x1024) (Memref.slice_unit_congr _ (coff_W44 t) _ _ (fun _ => rfl) (fun _ => rfl))
@[sl_canon] theorem canon_WscB44 (t : Fin grid0.N) :
    (scB.slice (Rect.unit (s := S2x8x64x1024) (k0_off174 (grid0.coords t)) S1x8x1x1024.size (k0_off174_inb (grid0.coords t))) (fun _ => rfl)).squeeze S8x1024 squeezes_S1x8x1x1024_S8x1024 = rowM scB (slN t.val) ⟨44, Nat.le_of_ble_eq_true rfl⟩ :=
  congrArg (fun M : Memref sig .tc .vmem S1x8x1x1024 .f32 => M.squeeze S8x1024 squeezes_S1x8x1x1024_S8x1024) (Memref.slice_unit_congr _ (coff_W44 t) _ _ (fun _ => rfl) (fun _ => rfl))
theorem coff_W45 : ∀ t : Fin grid0.N, k0_off175 (grid0.coords t) = ![(slN t.val).val, 0, 45, 0] := by decide +kernel
@[sl_canon] theorem canon_WscA45 (t : Fin grid0.N) :
    (scA.slice (Rect.unit (s := S2x8x64x1024) (k0_off175 (grid0.coords t)) S1x8x1x1024.size (k0_off175_inb (grid0.coords t))) (fun _ => rfl)).squeeze S8x1024 squeezes_S1x8x1x1024_S8x1024 = rowM scA (slN t.val) ⟨45, Nat.le_of_ble_eq_true rfl⟩ :=
  congrArg (fun M : Memref sig .tc .vmem S1x8x1x1024 .f32 => M.squeeze S8x1024 squeezes_S1x8x1x1024_S8x1024) (Memref.slice_unit_congr _ (coff_W45 t) _ _ (fun _ => rfl) (fun _ => rfl))
@[sl_canon] theorem canon_WscB45 (t : Fin grid0.N) :
    (scB.slice (Rect.unit (s := S2x8x64x1024) (k0_off175 (grid0.coords t)) S1x8x1x1024.size (k0_off175_inb (grid0.coords t))) (fun _ => rfl)).squeeze S8x1024 squeezes_S1x8x1x1024_S8x1024 = rowM scB (slN t.val) ⟨45, Nat.le_of_ble_eq_true rfl⟩ :=
  congrArg (fun M : Memref sig .tc .vmem S1x8x1x1024 .f32 => M.squeeze S8x1024 squeezes_S1x8x1x1024_S8x1024) (Memref.slice_unit_congr _ (coff_W45 t) _ _ (fun _ => rfl) (fun _ => rfl))
theorem coff_W46 : ∀ t : Fin grid0.N, k0_off176 (grid0.coords t) = ![(slN t.val).val, 0, 46, 0] := by decide +kernel
@[sl_canon] theorem canon_WscA46 (t : Fin grid0.N) :
    (scA.slice (Rect.unit (s := S2x8x64x1024) (k0_off176 (grid0.coords t)) S1x8x1x1024.size (k0_off176_inb (grid0.coords t))) (fun _ => rfl)).squeeze S8x1024 squeezes_S1x8x1x1024_S8x1024 = rowM scA (slN t.val) ⟨46, Nat.le_of_ble_eq_true rfl⟩ :=
  congrArg (fun M : Memref sig .tc .vmem S1x8x1x1024 .f32 => M.squeeze S8x1024 squeezes_S1x8x1x1024_S8x1024) (Memref.slice_unit_congr _ (coff_W46 t) _ _ (fun _ => rfl) (fun _ => rfl))
@[sl_canon] theorem canon_WscB46 (t : Fin grid0.N) :
    (scB.slice (Rect.unit (s := S2x8x64x1024) (k0_off176 (grid0.coords t)) S1x8x1x1024.size (k0_off176_inb (grid0.coords t))) (fun _ => rfl)).squeeze S8x1024 squeezes_S1x8x1x1024_S8x1024 = rowM scB (slN t.val) ⟨46, Nat.le_of_ble_eq_true rfl⟩ :=
  congrArg (fun M : Memref sig .tc .vmem S1x8x1x1024 .f32 => M.squeeze S8x1024 squeezes_S1x8x1x1024_S8x1024) (Memref.slice_unit_congr _ (coff_W46 t) _ _ (fun _ => rfl) (fun _ => rfl))
theorem coff_W47 : ∀ t : Fin grid0.N, k0_off177 (grid0.coords t) = ![(slN t.val).val, 0, 47, 0] := by decide +kernel
@[sl_canon] theorem canon_WscA47 (t : Fin grid0.N) :
    (scA.slice (Rect.unit (s := S2x8x64x1024) (k0_off177 (grid0.coords t)) S1x8x1x1024.size (k0_off177_inb (grid0.coords t))) (fun _ => rfl)).squeeze S8x1024 squeezes_S1x8x1x1024_S8x1024 = rowM scA (slN t.val) ⟨47, Nat.le_of_ble_eq_true rfl⟩ :=
  congrArg (fun M : Memref sig .tc .vmem S1x8x1x1024 .f32 => M.squeeze S8x1024 squeezes_S1x8x1x1024_S8x1024) (Memref.slice_unit_congr _ (coff_W47 t) _ _ (fun _ => rfl) (fun _ => rfl))
@[sl_canon] theorem canon_WscB47 (t : Fin grid0.N) :
    (scB.slice (Rect.unit (s := S2x8x64x1024) (k0_off177 (grid0.coords t)) S1x8x1x1024.size (k0_off177_inb (grid0.coords t))) (fun _ => rfl)).squeeze S8x1024 squeezes_S1x8x1x1024_S8x1024 = rowM scB (slN t.val) ⟨47, Nat.le_of_ble_eq_true rfl⟩ :=
  congrArg (fun M : Memref sig .tc .vmem S1x8x1x1024 .f32 => M.squeeze S8x1024 squeezes_S1x8x1x1024_S8x1024) (Memref.slice_unit_congr _ (coff_W47 t) _ _ (fun _ => rfl) (fun _ => rfl))
theorem coff_W48 : ∀ t : Fin grid0.N, k0_off178 (grid0.coords t) = ![(slN t.val).val, 0, 48, 0] := by decide +kernel
@[sl_canon] theorem canon_WscA48 (t : Fin grid0.N) :
    (scA.slice (Rect.unit (s := S2x8x64x1024) (k0_off178 (grid0.coords t)) S1x8x1x1024.size (k0_off178_inb (grid0.coords t))) (fun _ => rfl)).squeeze S8x1024 squeezes_S1x8x1x1024_S8x1024 = rowM scA (slN t.val) ⟨48, Nat.le_of_ble_eq_true rfl⟩ :=
  congrArg (fun M : Memref sig .tc .vmem S1x8x1x1024 .f32 => M.squeeze S8x1024 squeezes_S1x8x1x1024_S8x1024) (Memref.slice_unit_congr _ (coff_W48 t) _ _ (fun _ => rfl) (fun _ => rfl))
@[sl_canon] theorem canon_WscB48 (t : Fin grid0.N) :
    (scB.slice (Rect.unit (s := S2x8x64x1024) (k0_off178 (grid0.coords t)) S1x8x1x1024.size (k0_off178_inb (grid0.coords t))) (fun _ => rfl)).squeeze S8x1024 squeezes_S1x8x1x1024_S8x1024 = rowM scB (slN t.val) ⟨48, Nat.le_of_ble_eq_true rfl⟩ :=
  congrArg (fun M : Memref sig .tc .vmem S1x8x1x1024 .f32 => M.squeeze S8x1024 squeezes_S1x8x1x1024_S8x1024) (Memref.slice_unit_congr _ (coff_W48 t) _ _ (fun _ => rfl) (fun _ => rfl))
theorem coff_W49 : ∀ t : Fin grid0.N, k0_off179 (grid0.coords t) = ![(slN t.val).val, 0, 49, 0] := by decide +kernel
@[sl_canon] theorem canon_WscA49 (t : Fin grid0.N) :
    (scA.slice (Rect.unit (s := S2x8x64x1024) (k0_off179 (grid0.coords t)) S1x8x1x1024.size (k0_off179_inb (grid0.coords t))) (fun _ => rfl)).squeeze S8x1024 squeezes_S1x8x1x1024_S8x1024 = rowM scA (slN t.val) ⟨49, Nat.le_of_ble_eq_true rfl⟩ :=
  congrArg (fun M : Memref sig .tc .vmem S1x8x1x1024 .f32 => M.squeeze S8x1024 squeezes_S1x8x1x1024_S8x1024) (Memref.slice_unit_congr _ (coff_W49 t) _ _ (fun _ => rfl) (fun _ => rfl))
@[sl_canon] theorem canon_WscB49 (t : Fin grid0.N) :
    (scB.slice (Rect.unit (s := S2x8x64x1024) (k0_off179 (grid0.coords t)) S1x8x1x1024.size (k0_off179_inb (grid0.coords t))) (fun _ => rfl)).squeeze S8x1024 squeezes_S1x8x1x1024_S8x1024 = rowM scB (slN t.val) ⟨49, Nat.le_of_ble_eq_true rfl⟩ :=
  congrArg (fun M : Memref sig .tc .vmem S1x8x1x1024 .f32 => M.squeeze S8x1024 squeezes_S1x8x1x1024_S8x1024) (Memref.slice_unit_congr _ (coff_W49 t) _ _ (fun _ => rfl) (fun _ => rfl))
theorem coff_W50 : ∀ t : Fin grid0.N, k0_off180 (grid0.coords t) = ![(slN t.val).val, 0, 50, 0] := by decide +kernel
@[sl_canon] theorem canon_WscA50 (t : Fin grid0.N) :
    (scA.slice (Rect.unit (s := S2x8x64x1024) (k0_off180 (grid0.coords t)) S1x8x1x1024.size (k0_off180_inb (grid0.coords t))) (fun _ => rfl)).squeeze S8x1024 squeezes_S1x8x1x1024_S8x1024 = rowM scA (slN t.val) ⟨50, Nat.le_of_ble_eq_true rfl⟩ :=
  congrArg (fun M : Memref sig .tc .vmem S1x8x1x1024 .f32 => M.squeeze S8x1024 squeezes_S1x8x1x1024_S8x1024) (Memref.slice_unit_congr _ (coff_W50 t) _ _ (fun _ => rfl) (fun _ => rfl))
@[sl_canon] theorem canon_WscB50 (t : Fin grid0.N) :
    (scB.slice (Rect.unit (s := S2x8x64x1024) (k0_off180 (grid0.coords t)) S1x8x1x1024.size (k0_off180_inb (grid0.coords t))) (fun _ => rfl)).squeeze S8x1024 squeezes_S1x8x1x1024_S8x1024 = rowM scB (slN t.val) ⟨50, Nat.le_of_ble_eq_true rfl⟩ :=
  congrArg (fun M : Memref sig .tc .vmem S1x8x1x1024 .f32 => M.squeeze S8x1024 squeezes_S1x8x1x1024_S8x1024) (Memref.slice_unit_congr _ (coff_W50 t) _ _ (fun _ => rfl) (fun _ => rfl))
theorem coff_W51 : ∀ t : Fin grid0.N, k0_off181 (grid0.coords t) = ![(slN t.val).val, 0, 51, 0] := by decide +kernel
@[sl_canon] theorem canon_WscA51 (t : Fin grid0.N) :
    (scA.slice (Rect.unit (s := S2x8x64x1024) (k0_off181 (grid0.coords t)) S1x8x1x1024.size (k0_off181_inb (grid0.coords t))) (fun _ => rfl)).squeeze S8x1024 squeezes_S1x8x1x1024_S8x1024 = rowM scA (slN t.val) ⟨51, Nat.le_of_ble_eq_true rfl⟩ :=
  congrArg (fun M : Memref sig .tc .vmem S1x8x1x1024 .f32 => M.squeeze S8x1024 squeezes_S1x8x1x1024_S8x1024) (Memref.slice_unit_congr _ (coff_W51 t) _ _ (fun _ => rfl) (fun _ => rfl))
@[sl_canon] theorem canon_WscB51 (t : Fin grid0.N) :
    (scB.slice (Rect.unit (s := S2x8x64x1024) (k0_off181 (grid0.coords t)) S1x8x1x1024.size (k0_off181_inb (grid0.coords t))) (fun _ => rfl)).squeeze S8x1024 squeezes_S1x8x1x1024_S8x1024 = rowM scB (slN t.val) ⟨51, Nat.le_of_ble_eq_true rfl⟩ :=
  congrArg (fun M : Memref sig .tc .vmem S1x8x1x1024 .f32 => M.squeeze S8x1024 squeezes_S1x8x1x1024_S8x1024) (Memref.slice_unit_congr _ (coff_W51 t) _ _ (fun _ => rfl) (fun _ => rfl))
theorem coff_W52 : ∀ t : Fin grid0.N, k0_off182 (grid0.coords t) = ![(slN t.val).val, 0, 52, 0] := by decide +kernel
@[sl_canon] theorem canon_WscA52 (t : Fin grid0.N) :
    (scA.slice (Rect.unit (s := S2x8x64x1024) (k0_off182 (grid0.coords t)) S1x8x1x1024.size (k0_off182_inb (grid0.coords t))) (fun _ => rfl)).squeeze S8x1024 squeezes_S1x8x1x1024_S8x1024 = rowM scA (slN t.val) ⟨52, Nat.le_of_ble_eq_true rfl⟩ :=
  congrArg (fun M : Memref sig .tc .vmem S1x8x1x1024 .f32 => M.squeeze S8x1024 squeezes_S1x8x1x1024_S8x1024) (Memref.slice_unit_congr _ (coff_W52 t) _ _ (fun _ => rfl) (fun _ => rfl))
@[sl_canon] theorem canon_WscB52 (t : Fin grid0.N) :
    (scB.slice (Rect.unit (s := S2x8x64x1024) (k0_off182 (grid0.coords t)) S1x8x1x1024.size (k0_off182_inb (grid0.coords t))) (fun _ => rfl)).squeeze S8x1024 squeezes_S1x8x1x1024_S8x1024 = rowM scB (slN t.val) ⟨52, Nat.le_of_ble_eq_true rfl⟩ :=
  congrArg (fun M : Memref sig .tc .vmem S1x8x1x1024 .f32 => M.squeeze S8x1024 squeezes_S1x8x1x1024_S8x1024) (Memref.slice_unit_congr _ (coff_W52 t) _ _ (fun _ => rfl) (fun _ => rfl))
theorem coff_W53 : ∀ t : Fin grid0.N, k0_off183 (grid0.coords t) = ![(slN t.val).val, 0, 53, 0] := by decide +kernel
@[sl_canon] theorem canon_WscA53 (t : Fin grid0.N) :
    (scA.slice (Rect.unit (s := S2x8x64x1024) (k0_off183 (grid0.coords t)) S1x8x1x1024.size (k0_off183_inb (grid0.coords t))) (fun _ => rfl)).squeeze S8x1024 squeezes_S1x8x1x1024_S8x1024 = rowM scA (slN t.val) ⟨53, Nat.le_of_ble_eq_true rfl⟩ :=
  congrArg (fun M : Memref sig .tc .vmem S1x8x1x1024 .f32 => M.squeeze S8x1024 squeezes_S1x8x1x1024_S8x1024) (Memref.slice_unit_congr _ (coff_W53 t) _ _ (fun _ => rfl) (fun _ => rfl))
@[sl_canon] theorem canon_WscB53 (t : Fin grid0.N) :
    (scB.slice (Rect.unit (s := S2x8x64x1024) (k0_off183 (grid0.coords t)) S1x8x1x1024.size (k0_off183_inb (grid0.coords t))) (fun _ => rfl)).squeeze S8x1024 squeezes_S1x8x1x1024_S8x1024 = rowM scB (slN t.val) ⟨53, Nat.le_of_ble_eq_true rfl⟩ :=
  congrArg (fun M : Memref sig .tc .vmem S1x8x1x1024 .f32 => M.squeeze S8x1024 squeezes_S1x8x1x1024_S8x1024) (Memref.slice_unit_congr _ (coff_W53 t) _ _ (fun _ => rfl) (fun _ => rfl))
theorem coff_W54 : ∀ t : Fin grid0.N, k0_off184 (grid0.coords t) = ![(slN t.val).val, 0, 54, 0] := by decide +kernel
@[sl_canon] theorem canon_WscA54 (t : Fin grid0.N) :
    (scA.slice (Rect.unit (s := S2x8x64x1024) (k0_off184 (grid0.coords t)) S1x8x1x1024.size (k0_off184_inb (grid0.coords t))) (fun _ => rfl)).squeeze S8x1024 squeezes_S1x8x1x1024_S8x1024 = rowM scA (slN t.val) ⟨54, Nat.le_of_ble_eq_true rfl⟩ :=
  congrArg (fun M : Memref sig .tc .vmem S1x8x1x1024 .f32 => M.squeeze S8x1024 squeezes_S1x8x1x1024_S8x1024) (Memref.slice_unit_congr _ (coff_W54 t) _ _ (fun _ => rfl) (fun _ => rfl))
@[sl_canon] theorem canon_WscB54 (t : Fin grid0.N) :
    (scB.slice (Rect.unit (s := S2x8x64x1024) (k0_off184 (grid0.coords t)) S1x8x1x1024.size (k0_off184_inb (grid0.coords t))) (fun _ => rfl)).squeeze S8x1024 squeezes_S1x8x1x1024_S8x1024 = rowM scB (slN t.val) ⟨54, Nat.le_of_ble_eq_true rfl⟩ :=
  congrArg (fun M : Memref sig .tc .vmem S1x8x1x1024 .f32 => M.squeeze S8x1024 squeezes_S1x8x1x1024_S8x1024) (Memref.slice_unit_congr _ (coff_W54 t) _ _ (fun _ => rfl) (fun _ => rfl))
theorem coff_W55 : ∀ t : Fin grid0.N, k0_off185 (grid0.coords t) = ![(slN t.val).val, 0, 55, 0] := by decide +kernel
@[sl_canon] theorem canon_WscA55 (t : Fin grid0.N) :
    (scA.slice (Rect.unit (s := S2x8x64x1024) (k0_off185 (grid0.coords t)) S1x8x1x1024.size (k0_off185_inb (grid0.coords t))) (fun _ => rfl)).squeeze S8x1024 squeezes_S1x8x1x1024_S8x1024 = rowM scA (slN t.val) ⟨55, Nat.le_of_ble_eq_true rfl⟩ :=
  congrArg (fun M : Memref sig .tc .vmem S1x8x1x1024 .f32 => M.squeeze S8x1024 squeezes_S1x8x1x1024_S8x1024) (Memref.slice_unit_congr _ (coff_W55 t) _ _ (fun _ => rfl) (fun _ => rfl))
@[sl_canon] theorem canon_WscB55 (t : Fin grid0.N) :
    (scB.slice (Rect.unit (s := S2x8x64x1024) (k0_off185 (grid0.coords t)) S1x8x1x1024.size (k0_off185_inb (grid0.coords t))) (fun _ => rfl)).squeeze S8x1024 squeezes_S1x8x1x1024_S8x1024 = rowM scB (slN t.val) ⟨55, Nat.le_of_ble_eq_true rfl⟩ :=
  congrArg (fun M : Memref sig .tc .vmem S1x8x1x1024 .f32 => M.squeeze S8x1024 squeezes_S1x8x1x1024_S8x1024) (Memref.slice_unit_congr _ (coff_W55 t) _ _ (fun _ => rfl) (fun _ => rfl))
theorem coff_W56 : ∀ t : Fin grid0.N, k0_off186 (grid0.coords t) = ![(slN t.val).val, 0, 56, 0] := by decide +kernel
@[sl_canon] theorem canon_WscA56 (t : Fin grid0.N) :
    (scA.slice (Rect.unit (s := S2x8x64x1024) (k0_off186 (grid0.coords t)) S1x8x1x1024.size (k0_off186_inb (grid0.coords t))) (fun _ => rfl)).squeeze S8x1024 squeezes_S1x8x1x1024_S8x1024 = rowM scA (slN t.val) ⟨56, Nat.le_of_ble_eq_true rfl⟩ :=
  congrArg (fun M : Memref sig .tc .vmem S1x8x1x1024 .f32 => M.squeeze S8x1024 squeezes_S1x8x1x1024_S8x1024) (Memref.slice_unit_congr _ (coff_W56 t) _ _ (fun _ => rfl) (fun _ => rfl))
@[sl_canon] theorem canon_WscB56 (t : Fin grid0.N) :
    (scB.slice (Rect.unit (s := S2x8x64x1024) (k0_off186 (grid0.coords t)) S1x8x1x1024.size (k0_off186_inb (grid0.coords t))) (fun _ => rfl)).squeeze S8x1024 squeezes_S1x8x1x1024_S8x1024 = rowM scB (slN t.val) ⟨56, Nat.le_of_ble_eq_true rfl⟩ :=
  congrArg (fun M : Memref sig .tc .vmem S1x8x1x1024 .f32 => M.squeeze S8x1024 squeezes_S1x8x1x1024_S8x1024) (Memref.slice_unit_congr _ (coff_W56 t) _ _ (fun _ => rfl) (fun _ => rfl))
theorem coff_W57 : ∀ t : Fin grid0.N, k0_off187 (grid0.coords t) = ![(slN t.val).val, 0, 57, 0] := by decide +kernel
@[sl_canon] theorem canon_WscA57 (t : Fin grid0.N) :
    (scA.slice (Rect.unit (s := S2x8x64x1024) (k0_off187 (grid0.coords t)) S1x8x1x1024.size (k0_off187_inb (grid0.coords t))) (fun _ => rfl)).squeeze S8x1024 squeezes_S1x8x1x1024_S8x1024 = rowM scA (slN t.val) ⟨57, Nat.le_of_ble_eq_true rfl⟩ :=
  congrArg (fun M : Memref sig .tc .vmem S1x8x1x1024 .f32 => M.squeeze S8x1024 squeezes_S1x8x1x1024_S8x1024) (Memref.slice_unit_congr _ (coff_W57 t) _ _ (fun _ => rfl) (fun _ => rfl))
@[sl_canon] theorem canon_WscB57 (t : Fin grid0.N) :
    (scB.slice (Rect.unit (s := S2x8x64x1024) (k0_off187 (grid0.coords t)) S1x8x1x1024.size (k0_off187_inb (grid0.coords t))) (fun _ => rfl)).squeeze S8x1024 squeezes_S1x8x1x1024_S8x1024 = rowM scB (slN t.val) ⟨57, Nat.le_of_ble_eq_true rfl⟩ :=
  congrArg (fun M : Memref sig .tc .vmem S1x8x1x1024 .f32 => M.squeeze S8x1024 squeezes_S1x8x1x1024_S8x1024) (Memref.slice_unit_congr _ (coff_W57 t) _ _ (fun _ => rfl) (fun _ => rfl))
theorem coff_W58 : ∀ t : Fin grid0.N, k0_off188 (grid0.coords t) = ![(slN t.val).val, 0, 58, 0] := by decide +kernel
@[sl_canon] theorem canon_WscA58 (t : Fin grid0.N) :
    (scA.slice (Rect.unit (s := S2x8x64x1024) (k0_off188 (grid0.coords t)) S1x8x1x1024.size (k0_off188_inb (grid0.coords t))) (fun _ => rfl)).squeeze S8x1024 squeezes_S1x8x1x1024_S8x1024 = rowM scA (slN t.val) ⟨58, Nat.le_of_ble_eq_true rfl⟩ :=
  congrArg (fun M : Memref sig .tc .vmem S1x8x1x1024 .f32 => M.squeeze S8x1024 squeezes_S1x8x1x1024_S8x1024) (Memref.slice_unit_congr _ (coff_W58 t) _ _ (fun _ => rfl) (fun _ => rfl))
@[sl_canon] theorem canon_WscB58 (t : Fin grid0.N) :
    (scB.slice (Rect.unit (s := S2x8x64x1024) (k0_off188 (grid0.coords t)) S1x8x1x1024.size (k0_off188_inb (grid0.coords t))) (fun _ => rfl)).squeeze S8x1024 squeezes_S1x8x1x1024_S8x1024 = rowM scB (slN t.val) ⟨58, Nat.le_of_ble_eq_true rfl⟩ :=
  congrArg (fun M : Memref sig .tc .vmem S1x8x1x1024 .f32 => M.squeeze S8x1024 squeezes_S1x8x1x1024_S8x1024) (Memref.slice_unit_congr _ (coff_W58 t) _ _ (fun _ => rfl) (fun _ => rfl))
theorem coff_W59 : ∀ t : Fin grid0.N, k0_off189 (grid0.coords t) = ![(slN t.val).val, 0, 59, 0] := by decide +kernel
@[sl_canon] theorem canon_WscA59 (t : Fin grid0.N) :
    (scA.slice (Rect.unit (s := S2x8x64x1024) (k0_off189 (grid0.coords t)) S1x8x1x1024.size (k0_off189_inb (grid0.coords t))) (fun _ => rfl)).squeeze S8x1024 squeezes_S1x8x1x1024_S8x1024 = rowM scA (slN t.val) ⟨59, Nat.le_of_ble_eq_true rfl⟩ :=
  congrArg (fun M : Memref sig .tc .vmem S1x8x1x1024 .f32 => M.squeeze S8x1024 squeezes_S1x8x1x1024_S8x1024) (Memref.slice_unit_congr _ (coff_W59 t) _ _ (fun _ => rfl) (fun _ => rfl))
@[sl_canon] theorem canon_WscB59 (t : Fin grid0.N) :
    (scB.slice (Rect.unit (s := S2x8x64x1024) (k0_off189 (grid0.coords t)) S1x8x1x1024.size (k0_off189_inb (grid0.coords t))) (fun _ => rfl)).squeeze S8x1024 squeezes_S1x8x1x1024_S8x1024 = rowM scB (slN t.val) ⟨59, Nat.le_of_ble_eq_true rfl⟩ :=
  congrArg (fun M : Memref sig .tc .vmem S1x8x1x1024 .f32 => M.squeeze S8x1024 squeezes_S1x8x1x1024_S8x1024) (Memref.slice_unit_congr _ (coff_W59 t) _ _ (fun _ => rfl) (fun _ => rfl))
theorem coff_W60 : ∀ t : Fin grid0.N, k0_off190 (grid0.coords t) = ![(slN t.val).val, 0, 60, 0] := by decide +kernel
@[sl_canon] theorem canon_WscA60 (t : Fin grid0.N) :
    (scA.slice (Rect.unit (s := S2x8x64x1024) (k0_off190 (grid0.coords t)) S1x8x1x1024.size (k0_off190_inb (grid0.coords t))) (fun _ => rfl)).squeeze S8x1024 squeezes_S1x8x1x1024_S8x1024 = rowM scA (slN t.val) ⟨60, Nat.le_of_ble_eq_true rfl⟩ :=
  congrArg (fun M : Memref sig .tc .vmem S1x8x1x1024 .f32 => M.squeeze S8x1024 squeezes_S1x8x1x1024_S8x1024) (Memref.slice_unit_congr _ (coff_W60 t) _ _ (fun _ => rfl) (fun _ => rfl))
@[sl_canon] theorem canon_WscB60 (t : Fin grid0.N) :
    (scB.slice (Rect.unit (s := S2x8x64x1024) (k0_off190 (grid0.coords t)) S1x8x1x1024.size (k0_off190_inb (grid0.coords t))) (fun _ => rfl)).squeeze S8x1024 squeezes_S1x8x1x1024_S8x1024 = rowM scB (slN t.val) ⟨60, Nat.le_of_ble_eq_true rfl⟩ :=
  congrArg (fun M : Memref sig .tc .vmem S1x8x1x1024 .f32 => M.squeeze S8x1024 squeezes_S1x8x1x1024_S8x1024) (Memref.slice_unit_congr _ (coff_W60 t) _ _ (fun _ => rfl) (fun _ => rfl))
theorem coff_W61 : ∀ t : Fin grid0.N, k0_off191 (grid0.coords t) = ![(slN t.val).val, 0, 61, 0] := by decide +kernel
@[sl_canon] theorem canon_WscA61 (t : Fin grid0.N) :
    (scA.slice (Rect.unit (s := S2x8x64x1024) (k0_off191 (grid0.coords t)) S1x8x1x1024.size (k0_off191_inb (grid0.coords t))) (fun _ => rfl)).squeeze S8x1024 squeezes_S1x8x1x1024_S8x1024 = rowM scA (slN t.val) ⟨61, Nat.le_of_ble_eq_true rfl⟩ :=
  congrArg (fun M : Memref sig .tc .vmem S1x8x1x1024 .f32 => M.squeeze S8x1024 squeezes_S1x8x1x1024_S8x1024) (Memref.slice_unit_congr _ (coff_W61 t) _ _ (fun _ => rfl) (fun _ => rfl))
@[sl_canon] theorem canon_WscB61 (t : Fin grid0.N) :
    (scB.slice (Rect.unit (s := S2x8x64x1024) (k0_off191 (grid0.coords t)) S1x8x1x1024.size (k0_off191_inb (grid0.coords t))) (fun _ => rfl)).squeeze S8x1024 squeezes_S1x8x1x1024_S8x1024 = rowM scB (slN t.val) ⟨61, Nat.le_of_ble_eq_true rfl⟩ :=
  congrArg (fun M : Memref sig .tc .vmem S1x8x1x1024 .f32 => M.squeeze S8x1024 squeezes_S1x8x1x1024_S8x1024) (Memref.slice_unit_congr _ (coff_W61 t) _ _ (fun _ => rfl) (fun _ => rfl))
theorem coff_W62 : ∀ t : Fin grid0.N, k0_off192 (grid0.coords t) = ![(slN t.val).val, 0, 62, 0] := by decide +kernel
@[sl_canon] theorem canon_WscA62 (t : Fin grid0.N) :
    (scA.slice (Rect.unit (s := S2x8x64x1024) (k0_off192 (grid0.coords t)) S1x8x1x1024.size (k0_off192_inb (grid0.coords t))) (fun _ => rfl)).squeeze S8x1024 squeezes_S1x8x1x1024_S8x1024 = rowM scA (slN t.val) ⟨62, Nat.le_of_ble_eq_true rfl⟩ :=
  congrArg (fun M : Memref sig .tc .vmem S1x8x1x1024 .f32 => M.squeeze S8x1024 squeezes_S1x8x1x1024_S8x1024) (Memref.slice_unit_congr _ (coff_W62 t) _ _ (fun _ => rfl) (fun _ => rfl))
@[sl_canon] theorem canon_WscB62 (t : Fin grid0.N) :
    (scB.slice (Rect.unit (s := S2x8x64x1024) (k0_off192 (grid0.coords t)) S1x8x1x1024.size (k0_off192_inb (grid0.coords t))) (fun _ => rfl)).squeeze S8x1024 squeezes_S1x8x1x1024_S8x1024 = rowM scB (slN t.val) ⟨62, Nat.le_of_ble_eq_true rfl⟩ :=
  congrArg (fun M : Memref sig .tc .vmem S1x8x1x1024 .f32 => M.squeeze S8x1024 squeezes_S1x8x1x1024_S8x1024) (Memref.slice_unit_congr _ (coff_W62 t) _ _ (fun _ => rfl) (fun _ => rfl))
theorem coff_W63 : ∀ t : Fin grid0.N, k0_off193 (grid0.coords t) = ![(slN t.val).val, 0, 63, 0] := by decide +kernel
@[sl_canon] theorem canon_WscA63 (t : Fin grid0.N) :
    (scA.slice (Rect.unit (s := S2x8x64x1024) (k0_off193 (grid0.coords t)) S1x8x1x1024.size (k0_off193_inb (grid0.coords t))) (fun _ => rfl)).squeeze S8x1024 squeezes_S1x8x1x1024_S8x1024 = rowM scA (slN t.val) ⟨63, Nat.le_of_ble_eq_true rfl⟩ :=
  congrArg (fun M : Memref sig .tc .vmem S1x8x1x1024 .f32 => M.squeeze S8x1024 squeezes_S1x8x1x1024_S8x1024) (Memref.slice_unit_congr _ (coff_W63 t) _ _ (fun _ => rfl) (fun _ => rfl))
@[sl_canon] theorem canon_WscB63 (t : Fin grid0.N) :
    (scB.slice (Rect.unit (s := S2x8x64x1024) (k0_off193 (grid0.coords t)) S1x8x1x1024.size (k0_off193_inb (grid0.coords t))) (fun _ => rfl)).squeeze S8x1024 squeezes_S1x8x1x1024_S8x1024 = rowM scB (slN t.val) ⟨63, Nat.le_of_ble_eq_true rfl⟩ :=
  congrArg (fun M : Memref sig .tc .vmem S1x8x1x1024 .f32 => M.squeeze S8x1024 squeezes_S1x8x1x1024_S8x1024) (Memref.slice_unit_congr _ (coff_W63 t) _ _ (fun _ => rfl) (fun _ => rfl))

/-! ## The prefetch: slot (t + 1) mod 2 -/
theorem coff_Fsem195 : ∀ t : Fin grid0.N, k0_cond2 (grid0.coords t) = 1#1 → k0_off195 (grid0.coords t) = ![(slN (t.val + 1)).val] := by decide +kernel
@[sl_canon] theorem canon_Fsem_semsA195 (t : Fin grid0.N) (h2 : k0_cond2 (grid0.coords t) = 1#1) :
    (cc0_scratch2.slice (Rect.unit (s := S2) (k0_off195 (grid0.coords t)) S1.size (k0_off195_inb (grid0.coords t) h2))).squeeze S_ squeezes_S1_S_ = semsA (slN (t.val + 1)) :=
  congrArg (fun A : DmaSems sig S1 => A.squeeze S_ squeezes_S1_S_) (SemArray.slice_unit_congr _ (coff_Fsem195 t h2) _ _)
theorem coff_Fsem198 : ∀ t : Fin grid0.N, k0_cond2 (grid0.coords t) = 1#1 → k0_off198 (grid0.coords t) = ![(slN (t.val + 1)).val] := by decide +kernel
@[sl_canon] theorem canon_Fsem_semsB198 (t : Fin grid0.N) (h2 : k0_cond2 (grid0.coords t) = 1#1) :
    (cc0_scratch3.slice (Rect.unit (s := S2) (k0_off198 (grid0.coords t)) S1.size (k0_off198_inb (grid0.coords t) h2))).squeeze S_ squeezes_S1_S_ = semsB (slN (t.val + 1)) :=
  congrArg (fun A : DmaSems sig S1 => A.squeeze S_ squeezes_S1_S_) (SemArray.slice_unit_congr _ (coff_Fsem198 t h2) _ _)
theorem coff_FA0 : ∀ t : Fin grid0.N, k0_cond2 (grid0.coords t) = 1#1 → k0_off196 (grid0.coords t) = ![(slN (t.val + 1)).val, 0, 0, 0] := by decide +kernel
@[sl_canon] theorem canon_FA0 (t : Fin grid0.N) (h2 : k0_cond2 (grid0.coords t) = 1#1) :
    (scA.slice (Rect.unit (s := S2x8x64x1024) (k0_off196 (grid0.coords t)) S1x8x1x1024.size (k0_off196_inb (grid0.coords t) h2)) (fun _ => rfl)).squeeze S8x1024 squeezes_S1x8x1x1024_S8x1024 = rowM scA (slN (t.val + 1)) ⟨0, Nat.le_of_ble_eq_true rfl⟩ :=
  congrArg (fun M : Memref sig .tc .vmem S1x8x1x1024 .f32 => M.squeeze S8x1024 squeezes_S1x8x1x1024_S8x1024) (Memref.slice_unit_congr _ (coff_FA0 t h2) _ _ (fun _ => rfl) (fun _ => rfl))
theorem coff_FB0 : ∀ t : Fin grid0.N, k0_cond2 (grid0.coords t) = 1#1 → k0_off199 (grid0.coords t) = ![(slN (t.val + 1)).val, 0, 0, 0] := by decide +kernel
@[sl_canon] theorem canon_FB0 (t : Fin grid0.N) (h2 : k0_cond2 (grid0.coords t) = 1#1) :
    (scB.slice (Rect.unit (s := S2x8x64x1024) (k0_off199 (grid0.coords t)) S1x8x1x1024.size (k0_off199_inb (grid0.coords t) h2)) (fun _ => rfl)).squeeze S8x1024 squeezes_S1x8x1x1024_S8x1024 = rowM scB (slN (t.val + 1)) ⟨0, Nat.le_of_ble_eq_true rfl⟩ :=
  congrArg (fun M : Memref sig .tc .vmem S1x8x1x1024 .f32 => M.squeeze S8x1024 squeezes_S1x8x1x1024_S8x1024) (Memref.slice_unit_congr _ (coff_FB0 t h2) _ _ (fun _ => rfl) (fun _ => rfl))
@[sl_canon] theorem canon_Fsem_semsA198 (t : Fin grid0.N) (h2 : k0_cond2 (grid0.coords t) = 1#1) :
    (cc0_scratch2.slice (Rect.unit (s := S2) (k0_off198 (grid0.coords t)) S1.size (k0_off198_inb (grid0.coords t) h2))).squeeze S_ squeezes_S1_S_ = semsA (slN (t.val + 1)) :=
  congrArg (fun A : DmaSems sig S1 => A.squeeze S_ squeezes_S1_S_) (SemArray.slice_unit_congr _ (coff_Fsem198 t h2) _ _)
theorem coff_Fsem203 : ∀ t : Fin grid0.N, k0_cond2 (grid0.coords t) = 1#1 → k0_off203 (grid0.coords t) = ![(slN (t.val + 1)).val] := by decide +kernel
@[sl_canon] theorem canon_Fsem_semsB203 (t : Fin grid0.N) (h2 : k0_cond2 (grid0.coords t) = 1#1) :
    (cc0_scratch3.slice (Rect.unit (s := S2) (k0_off203 (grid0.coords t)) S1.size (k0_off203_inb (grid0.coords t) h2))).squeeze S_ squeezes_S1_S_ = semsB (slN (t.val + 1)) :=
  congrArg (fun A : DmaSems sig S1 => A.squeeze S_ squeezes_S1_S_) (SemArray.slice_unit_congr _ (coff_Fsem203 t h2) _ _)
theorem coff_FA1 : ∀ t : Fin grid0.N, k0_cond2 (grid0.coords t) = 1#1 → k0_off201 (grid0.coords t) = ![(slN (t.val + 1)).val, 0, 1, 0] := by decide +kernel
@[sl_canon] theorem canon_FA1 (t : Fin grid0.N) (h2 : k0_cond2 (grid0.coords t) = 1#1) :
    (scA.slice (Rect.unit (s := S2x8x64x1024) (k0_off201 (grid0.coords t)) S1x8x1x1024.size (k0_off201_inb (grid0.coords t) h2)) (fun _ => rfl)).squeeze S8x1024 squeezes_S1x8x1x1024_S8x1024 = rowM scA (slN (t.val + 1)) ⟨1, Nat.le_of_ble_eq_true rfl⟩ :=
  congrArg (fun M : Memref sig .tc .vmem S1x8x1x1024 .f32 => M.squeeze S8x1024 squeezes_S1x8x1x1024_S8x1024) (Memref.slice_unit_congr _ (coff_FA1 t h2) _ _ (fun _ => rfl) (fun _ => rfl))
theorem coff_FB1 : ∀ t : Fin grid0.N, k0_cond2 (grid0.coords t) = 1#1 → k0_off204 (grid0.coords t) = ![(slN (t.val + 1)).val, 0, 1, 0] := by decide +kernel
@[sl_canon] theorem canon_FB1 (t : Fin grid0.N) (h2 : k0_cond2 (grid0.coords t) = 1#1) :
    (scB.slice (Rect.unit (s := S2x8x64x1024) (k0_off204 (grid0.coords t)) S1x8x1x1024.size (k0_off204_inb (grid0.coords t) h2)) (fun _ => rfl)).squeeze S8x1024 squeezes_S1x8x1x1024_S8x1024 = rowM scB (slN (t.val + 1)) ⟨1, Nat.le_of_ble_eq_true rfl⟩ :=
  congrArg (fun M : Memref sig .tc .vmem S1x8x1x1024 .f32 => M.squeeze S8x1024 squeezes_S1x8x1x1024_S8x1024) (Memref.slice_unit_congr _ (coff_FB1 t h2) _ _ (fun _ => rfl) (fun _ => rfl))
@[sl_canon] theorem canon_Fsem_semsA203 (t : Fin grid0.N) (h2 : k0_cond2 (grid0.coords t) = 1#1) :
    (cc0_scratch2.slice (Rect.unit (s := S2) (k0_off203 (grid0.coords t)) S1.size (k0_off203_inb (grid0.coords t) h2))).squeeze S_ squeezes_S1_S_ = semsA (slN (t.val + 1)) :=
  congrArg (fun A : DmaSems sig S1 => A.squeeze S_ squeezes_S1_S_) (SemArray.slice_unit_congr _ (coff_Fsem203 t h2) _ _)
theorem coff_Fsem208 : ∀ t : Fin grid0.N, k0_cond2 (grid0.coords t) = 1#1 → k0_off208 (grid0.coords t) = ![(slN (t.val + 1)).val] := by decide +kernel
@[sl_canon] theorem canon_Fsem_semsB208 (t : Fin grid0.N) (h2 : k0_cond2 (grid0.coords t) = 1#1) :
    (cc0_scratch3.slice (Rect.unit (s := S2) (k0_off208 (grid0.coords t)) S1.size (k0_off208_inb (grid0.coords t) h2))).squeeze S_ squeezes_S1_S_ = semsB (slN (t.val + 1)) :=
  congrArg (fun A : DmaSems sig S1 => A.squeeze S_ squeezes_S1_S_) (SemArray.slice_unit_congr _ (coff_Fsem208 t h2) _ _)
theorem coff_FA2 : ∀ t : Fin grid0.N, k0_cond2 (grid0.coords t) = 1#1 → k0_off206 (grid0.coords t) = ![(slN (t.val + 1)).val, 0, 2, 0] := by decide +kernel
@[sl_canon] theorem canon_FA2 (t : Fin grid0.N) (h2 : k0_cond2 (grid0.coords t) = 1#1) :
    (scA.slice (Rect.unit (s := S2x8x64x1024) (k0_off206 (grid0.coords t)) S1x8x1x1024.size (k0_off206_inb (grid0.coords t) h2)) (fun _ => rfl)).squeeze S8x1024 squeezes_S1x8x1x1024_S8x1024 = rowM scA (slN (t.val + 1)) ⟨2, Nat.le_of_ble_eq_true rfl⟩ :=
  congrArg (fun M : Memref sig .tc .vmem S1x8x1x1024 .f32 => M.squeeze S8x1024 squeezes_S1x8x1x1024_S8x1024) (Memref.slice_unit_congr _ (coff_FA2 t h2) _ _ (fun _ => rfl) (fun _ => rfl))
theorem coff_FB2 : ∀ t : Fin grid0.N, k0_cond2 (grid0.coords t) = 1#1 → k0_off209 (grid0.coords t) = ![(slN (t.val + 1)).val, 0, 2, 0] := by decide +kernel
@[sl_canon] theorem canon_FB2 (t : Fin grid0.N) (h2 : k0_cond2 (grid0.coords t) = 1#1) :
    (scB.slice (Rect.unit (s := S2x8x64x1024) (k0_off209 (grid0.coords t)) S1x8x1x1024.size (k0_off209_inb (grid0.coords t) h2)) (fun _ => rfl)).squeeze S8x1024 squeezes_S1x8x1x1024_S8x1024 = rowM scB (slN (t.val + 1)) ⟨2, Nat.le_of_ble_eq_true rfl⟩ :=
  congrArg (fun M : Memref sig .tc .vmem S1x8x1x1024 .f32 => M.squeeze S8x1024 squeezes_S1x8x1x1024_S8x1024) (Memref.slice_unit_congr _ (coff_FB2 t h2) _ _ (fun _ => rfl) (fun _ => rfl))
@[sl_canon] theorem canon_Fsem_semsA208 (t : Fin grid0.N) (h2 : k0_cond2 (grid0.coords t) = 1#1) :
    (cc0_scratch2.slice (Rect.unit (s := S2) (k0_off208 (grid0.coords t)) S1.size (k0_off208_inb (grid0.coords t) h2))).squeeze S_ squeezes_S1_S_ = semsA (slN (t.val + 1)) :=
  congrArg (fun A : DmaSems sig S1 => A.squeeze S_ squeezes_S1_S_) (SemArray.slice_unit_congr _ (coff_Fsem208 t h2) _ _)
theorem coff_Fsem213 : ∀ t : Fin grid0.N, k0_cond2 (grid0.coords t) = 1#1 → k0_off213 (grid0.coords t) = ![(slN (t.val + 1)).val] := by decide +kernel
@[sl_canon] theorem canon_Fsem_semsB213 (t : Fin grid0.N) (h2 : k0_cond2 (grid0.coords t) = 1#1) :
    (cc0_scratch3.slice (Rect.unit (s := S2) (k0_off213 (grid0.coords t)) S1.size (k0_off213_inb (grid0.coords t) h2))).squeeze S_ squeezes_S1_S_ = semsB (slN (t.val + 1)) :=
  congrArg (fun A : DmaSems sig S1 => A.squeeze S_ squeezes_S1_S_) (SemArray.slice_unit_congr _ (coff_Fsem213 t h2) _ _)
theorem coff_FA3 : ∀ t : Fin grid0.N, k0_cond2 (grid0.coords t) = 1#1 → k0_off211 (grid0.coords t) = ![(slN (t.val + 1)).val, 0, 3, 0] := by decide +kernel
@[sl_canon] theorem canon_FA3 (t : Fin grid0.N) (h2 : k0_cond2 (grid0.coords t) = 1#1) :
    (scA.slice (Rect.unit (s := S2x8x64x1024) (k0_off211 (grid0.coords t)) S1x8x1x1024.size (k0_off211_inb (grid0.coords t) h2)) (fun _ => rfl)).squeeze S8x1024 squeezes_S1x8x1x1024_S8x1024 = rowM scA (slN (t.val + 1)) ⟨3, Nat.le_of_ble_eq_true rfl⟩ :=
  congrArg (fun M : Memref sig .tc .vmem S1x8x1x1024 .f32 => M.squeeze S8x1024 squeezes_S1x8x1x1024_S8x1024) (Memref.slice_unit_congr _ (coff_FA3 t h2) _ _ (fun _ => rfl) (fun _ => rfl))
theorem coff_FB3 : ∀ t : Fin grid0.N, k0_cond2 (grid0.coords t) = 1#1 → k0_off214 (grid0.coords t) = ![(slN (t.val + 1)).val, 0, 3, 0] := by decide +kernel
@[sl_canon] theorem canon_FB3 (t : Fin grid0.N) (h2 : k0_cond2 (grid0.coords t) = 1#1) :
    (scB.slice (Rect.unit (s := S2x8x64x1024) (k0_off214 (grid0.coords t)) S1x8x1x1024.size (k0_off214_inb (grid0.coords t) h2)) (fun _ => rfl)).squeeze S8x1024 squeezes_S1x8x1x1024_S8x1024 = rowM scB (slN (t.val + 1)) ⟨3, Nat.le_of_ble_eq_true rfl⟩ :=
  congrArg (fun M : Memref sig .tc .vmem S1x8x1x1024 .f32 => M.squeeze S8x1024 squeezes_S1x8x1x1024_S8x1024) (Memref.slice_unit_congr _ (coff_FB3 t h2) _ _ (fun _ => rfl) (fun _ => rfl))
@[sl_canon] theorem canon_Fsem_semsA213 (t : Fin grid0.N) (h2 : k0_cond2 (grid0.coords t) = 1#1) :
    (cc0_scratch2.slice (Rect.unit (s := S2) (k0_off213 (grid0.coords t)) S1.size (k0_off213_inb (grid0.coords t) h2))).squeeze S_ squeezes_S1_S_ = semsA (slN (t.val + 1)) :=
  congrArg (fun A : DmaSems sig S1 => A.squeeze S_ squeezes_S1_S_) (SemArray.slice_unit_congr _ (coff_Fsem213 t h2) _ _)
theorem coff_Fsem218 : ∀ t : Fin grid0.N, k0_cond2 (grid0.coords t) = 1#1 → k0_off218 (grid0.coords t) = ![(slN (t.val + 1)).val] := by decide +kernel
@[sl_canon] theorem canon_Fsem_semsB218 (t : Fin grid0.N) (h2 : k0_cond2 (grid0.coords t) = 1#1) :
    (cc0_scratch3.slice (Rect.unit (s := S2) (k0_off218 (grid0.coords t)) S1.size (k0_off218_inb (grid0.coords t) h2))).squeeze S_ squeezes_S1_S_ = semsB (slN (t.val + 1)) :=
  congrArg (fun A : DmaSems sig S1 => A.squeeze S_ squeezes_S1_S_) (SemArray.slice_unit_congr _ (coff_Fsem218 t h2) _ _)
theorem coff_FA4 : ∀ t : Fin grid0.N, k0_cond2 (grid0.coords t) = 1#1 → k0_off216 (grid0.coords t) = ![(slN (t.val + 1)).val, 0, 4, 0] := by decide +kernel
@[sl_canon] theorem canon_FA4 (t : Fin grid0.N) (h2 : k0_cond2 (grid0.coords t) = 1#1) :
    (scA.slice (Rect.unit (s := S2x8x64x1024) (k0_off216 (grid0.coords t)) S1x8x1x1024.size (k0_off216_inb (grid0.coords t) h2)) (fun _ => rfl)).squeeze S8x1024 squeezes_S1x8x1x1024_S8x1024 = rowM scA (slN (t.val + 1)) ⟨4, Nat.le_of_ble_eq_true rfl⟩ :=
  congrArg (fun M : Memref sig .tc .vmem S1x8x1x1024 .f32 => M.squeeze S8x1024 squeezes_S1x8x1x1024_S8x1024) (Memref.slice_unit_congr _ (coff_FA4 t h2) _ _ (fun _ => rfl) (fun _ => rfl))
theorem coff_FB4 : ∀ t : Fin grid0.N, k0_cond2 (grid0.coords t) = 1#1 → k0_off219 (grid0.coords t) = ![(slN (t.val + 1)).val, 0, 4, 0] := by decide +kernel
@[sl_canon] theorem canon_FB4 (t : Fin grid0.N) (h2 : k0_cond2 (grid0.coords t) = 1#1) :
    (scB.slice (Rect.unit (s := S2x8x64x1024) (k0_off219 (grid0.coords t)) S1x8x1x1024.size (k0_off219_inb (grid0.coords t) h2)) (fun _ => rfl)).squeeze S8x1024 squeezes_S1x8x1x1024_S8x1024 = rowM scB (slN (t.val + 1)) ⟨4, Nat.le_of_ble_eq_true rfl⟩ :=
  congrArg (fun M : Memref sig .tc .vmem S1x8x1x1024 .f32 => M.squeeze S8x1024 squeezes_S1x8x1x1024_S8x1024) (Memref.slice_unit_congr _ (coff_FB4 t h2) _ _ (fun _ => rfl) (fun _ => rfl))
@[sl_canon] theorem canon_Fsem_semsA218 (t : Fin grid0.N) (h2 : k0_cond2 (grid0.coords t) = 1#1) :
    (cc0_scratch2.slice (Rect.unit (s := S2) (k0_off218 (grid0.coords t)) S1.size (k0_off218_inb (grid0.coords t) h2))).squeeze S_ squeezes_S1_S_ = semsA (slN (t.val + 1)) :=
  congrArg (fun A : DmaSems sig S1 => A.squeeze S_ squeezes_S1_S_) (SemArray.slice_unit_congr _ (coff_Fsem218 t h2) _ _)
theorem coff_Fsem223 : ∀ t : Fin grid0.N, k0_cond2 (grid0.coords t) = 1#1 → k0_off223 (grid0.coords t) = ![(slN (t.val + 1)).val] := by decide +kernel
@[sl_canon] theorem canon_Fsem_semsB223 (t : Fin grid0.N) (h2 : k0_cond2 (grid0.coords t) = 1#1) :
    (cc0_scratch3.slice (Rect.unit (s := S2) (k0_off223 (grid0.coords t)) S1.size (k0_off223_inb (grid0.coords t) h2))).squeeze S_ squeezes_S1_S_ = semsB (slN (t.val + 1)) :=
  congrArg (fun A : DmaSems sig S1 => A.squeeze S_ squeezes_S1_S_) (SemArray.slice_unit_congr _ (coff_Fsem223 t h2) _ _)
theorem coff_FA5 : ∀ t : Fin grid0.N, k0_cond2 (grid0.coords t) = 1#1 → k0_off221 (grid0.coords t) = ![(slN (t.val + 1)).val, 0, 5, 0] := by decide +kernel
@[sl_canon] theorem canon_FA5 (t : Fin grid0.N) (h2 : k0_cond2 (grid0.coords t) = 1#1) :
    (scA.slice (Rect.unit (s := S2x8x64x1024) (k0_off221 (grid0.coords t)) S1x8x1x1024.size (k0_off221_inb (grid0.coords t) h2)) (fun _ => rfl)).squeeze S8x1024 squeezes_S1x8x1x1024_S8x1024 = rowM scA (slN (t.val + 1)) ⟨5, Nat.le_of_ble_eq_true rfl⟩ :=
  congrArg (fun M : Memref sig .tc .vmem S1x8x1x1024 .f32 => M.squeeze S8x1024 squeezes_S1x8x1x1024_S8x1024) (Memref.slice_unit_congr _ (coff_FA5 t h2) _ _ (fun _ => rfl) (fun _ => rfl))
theorem coff_FB5 : ∀ t : Fin grid0.N, k0_cond2 (grid0.coords t) = 1#1 → k0_off224 (grid0.coords t) = ![(slN (t.val + 1)).val, 0, 5, 0] := by decide +kernel
@[sl_canon] theorem canon_FB5 (t : Fin grid0.N) (h2 : k0_cond2 (grid0.coords t) = 1#1) :
    (scB.slice (Rect.unit (s := S2x8x64x1024) (k0_off224 (grid0.coords t)) S1x8x1x1024.size (k0_off224_inb (grid0.coords t) h2)) (fun _ => rfl)).squeeze S8x1024 squeezes_S1x8x1x1024_S8x1024 = rowM scB (slN (t.val + 1)) ⟨5, Nat.le_of_ble_eq_true rfl⟩ :=
  congrArg (fun M : Memref sig .tc .vmem S1x8x1x1024 .f32 => M.squeeze S8x1024 squeezes_S1x8x1x1024_S8x1024) (Memref.slice_unit_congr _ (coff_FB5 t h2) _ _ (fun _ => rfl) (fun _ => rfl))
@[sl_canon] theorem canon_Fsem_semsA223 (t : Fin grid0.N) (h2 : k0_cond2 (grid0.coords t) = 1#1) :
    (cc0_scratch2.slice (Rect.unit (s := S2) (k0_off223 (grid0.coords t)) S1.size (k0_off223_inb (grid0.coords t) h2))).squeeze S_ squeezes_S1_S_ = semsA (slN (t.val + 1)) :=
  congrArg (fun A : DmaSems sig S1 => A.squeeze S_ squeezes_S1_S_) (SemArray.slice_unit_congr _ (coff_Fsem223 t h2) _ _)
theorem coff_Fsem228 : ∀ t : Fin grid0.N, k0_cond2 (grid0.coords t) = 1#1 → k0_off228 (grid0.coords t) = ![(slN (t.val + 1)).val] := by decide +kernel
@[sl_canon] theorem canon_Fsem_semsB228 (t : Fin grid0.N) (h2 : k0_cond2 (grid0.coords t) = 1#1) :
    (cc0_scratch3.slice (Rect.unit (s := S2) (k0_off228 (grid0.coords t)) S1.size (k0_off228_inb (grid0.coords t) h2))).squeeze S_ squeezes_S1_S_ = semsB (slN (t.val + 1)) :=
  congrArg (fun A : DmaSems sig S1 => A.squeeze S_ squeezes_S1_S_) (SemArray.slice_unit_congr _ (coff_Fsem228 t h2) _ _)
theorem coff_FA6 : ∀ t : Fin grid0.N, k0_cond2 (grid0.coords t) = 1#1 → k0_off226 (grid0.coords t) = ![(slN (t.val + 1)).val, 0, 6, 0] := by decide +kernel
@[sl_canon] theorem canon_FA6 (t : Fin grid0.N) (h2 : k0_cond2 (grid0.coords t) = 1#1) :
    (scA.slice (Rect.unit (s := S2x8x64x1024) (k0_off226 (grid0.coords t)) S1x8x1x1024.size (k0_off226_inb (grid0.coords t) h2)) (fun _ => rfl)).squeeze S8x1024 squeezes_S1x8x1x1024_S8x1024 = rowM scA (slN (t.val + 1)) ⟨6, Nat.le_of_ble_eq_true rfl⟩ :=
  congrArg (fun M : Memref sig .tc .vmem S1x8x1x1024 .f32 => M.squeeze S8x1024 squeezes_S1x8x1x1024_S8x1024) (Memref.slice_unit_congr _ (coff_FA6 t h2) _ _ (fun _ => rfl) (fun _ => rfl))
theorem coff_FB6 : ∀ t : Fin grid0.N, k0_cond2 (grid0.coords t) = 1#1 → k0_off229 (grid0.coords t) = ![(slN (t.val + 1)).val, 0, 6, 0] := by decide +kernel
@[sl_canon] theorem canon_FB6 (t : Fin grid0.N) (h2 : k0_cond2 (grid0.coords t) = 1#1) :
    (scB.slice (Rect.unit (s := S2x8x64x1024) (k0_off229 (grid0.coords t)) S1x8x1x1024.size (k0_off229_inb (grid0.coords t) h2)) (fun _ => rfl)).squeeze S8x1024 squeezes_S1x8x1x1024_S8x1024 = rowM scB (slN (t.val + 1)) ⟨6, Nat.le_of_ble_eq_true rfl⟩ :=
  congrArg (fun M : Memref sig .tc .vmem S1x8x1x1024 .f32 => M.squeeze S8x1024 squeezes_S1x8x1x1024_S8x1024) (Memref.slice_unit_congr _ (coff_FB6 t h2) _ _ (fun _ => rfl) (fun _ => rfl))
@[sl_canon] theorem canon_Fsem_semsA228 (t : Fin grid0.N) (h2 : k0_cond2 (grid0.coords t) = 1#1) :
    (cc0_scratch2.slice (Rect.unit (s := S2) (k0_off228 (grid0.coords t)) S1.size (k0_off228_inb (grid0.coords t) h2))).squeeze S_ squeezes_S1_S_ = semsA (slN (t.val + 1)) :=
  congrArg (fun A : DmaSems sig S1 => A.squeeze S_ squeezes_S1_S_) (SemArray.slice_unit_congr _ (coff_Fsem228 t h2) _ _)
theorem coff_Fsem233 : ∀ t : Fin grid0.N, k0_cond2 (grid0.coords t) = 1#1 → k0_off233 (grid0.coords t) = ![(slN (t.val + 1)).val] := by decide +kernel
@[sl_canon] theorem canon_Fsem_semsB233 (t : Fin grid0.N) (h2 : k0_cond2 (grid0.coords t) = 1#1) :
    (cc0_scratch3.slice (Rect.unit (s := S2) (k0_off233 (grid0.coords t)) S1.size (k0_off233_inb (grid0.coords t) h2))).squeeze S_ squeezes_S1_S_ = semsB (slN (t.val + 1)) :=
  congrArg (fun A : DmaSems sig S1 => A.squeeze S_ squeezes_S1_S_) (SemArray.slice_unit_congr _ (coff_Fsem233 t h2) _ _)
theorem coff_FA7 : ∀ t : Fin grid0.N, k0_cond2 (grid0.coords t) = 1#1 → k0_off231 (grid0.coords t) = ![(slN (t.val + 1)).val, 0, 7, 0] := by decide +kernel
@[sl_canon] theorem canon_FA7 (t : Fin grid0.N) (h2 : k0_cond2 (grid0.coords t) = 1#1) :
    (scA.slice (Rect.unit (s := S2x8x64x1024) (k0_off231 (grid0.coords t)) S1x8x1x1024.size (k0_off231_inb (grid0.coords t) h2)) (fun _ => rfl)).squeeze S8x1024 squeezes_S1x8x1x1024_S8x1024 = rowM scA (slN (t.val + 1)) ⟨7, Nat.le_of_ble_eq_true rfl⟩ :=
  congrArg (fun M : Memref sig .tc .vmem S1x8x1x1024 .f32 => M.squeeze S8x1024 squeezes_S1x8x1x1024_S8x1024) (Memref.slice_unit_congr _ (coff_FA7 t h2) _ _ (fun _ => rfl) (fun _ => rfl))
theorem coff_FB7 : ∀ t : Fin grid0.N, k0_cond2 (grid0.coords t) = 1#1 → k0_off234 (grid0.coords t) = ![(slN (t.val + 1)).val, 0, 7, 0] := by decide +kernel
@[sl_canon] theorem canon_FB7 (t : Fin grid0.N) (h2 : k0_cond2 (grid0.coords t) = 1#1) :
    (scB.slice (Rect.unit (s := S2x8x64x1024) (k0_off234 (grid0.coords t)) S1x8x1x1024.size (k0_off234_inb (grid0.coords t) h2)) (fun _ => rfl)).squeeze S8x1024 squeezes_S1x8x1x1024_S8x1024 = rowM scB (slN (t.val + 1)) ⟨7, Nat.le_of_ble_eq_true rfl⟩ :=
  congrArg (fun M : Memref sig .tc .vmem S1x8x1x1024 .f32 => M.squeeze S8x1024 squeezes_S1x8x1x1024_S8x1024) (Memref.slice_unit_congr _ (coff_FB7 t h2) _ _ (fun _ => rfl) (fun _ => rfl))
@[sl_canon] theorem canon_Fsem_semsA233 (t : Fin grid0.N) (h2 : k0_cond2 (grid0.coords t) = 1#1) :
    (cc0_scratch2.slice (Rect.unit (s := S2) (k0_off233 (grid0.coords t)) S1.size (k0_off233_inb (grid0.coords t) h2))).squeeze S_ squeezes_S1_S_ = semsA (slN (t.val + 1)) :=
  congrArg (fun A : DmaSems sig S1 => A.squeeze S_ squeezes_S1_S_) (SemArray.slice_unit_congr _ (coff_Fsem233 t h2) _ _)
theorem coff_Fsem238 : ∀ t : Fin grid0.N, k0_cond2 (grid0.coords t) = 1#1 → k0_off238 (grid0.coords t) = ![(slN (t.val + 1)).val] := by decide +kernel
@[sl_canon] theorem canon_Fsem_semsB238 (t : Fin grid0.N) (h2 : k0_cond2 (grid0.coords t) = 1#1) :
    (cc0_scratch3.slice (Rect.unit (s := S2) (k0_off238 (grid0.coords t)) S1.size (k0_off238_inb (grid0.coords t) h2))).squeeze S_ squeezes_S1_S_ = semsB (slN (t.val + 1)) :=
  congrArg (fun A : DmaSems sig S1 => A.squeeze S_ squeezes_S1_S_) (SemArray.slice_unit_congr _ (coff_Fsem238 t h2) _ _)
theorem coff_FA8 : ∀ t : Fin grid0.N, k0_cond2 (grid0.coords t) = 1#1 → k0_off236 (grid0.coords t) = ![(slN (t.val + 1)).val, 0, 8, 0] := by decide +kernel
@[sl_canon] theorem canon_FA8 (t : Fin grid0.N) (h2 : k0_cond2 (grid0.coords t) = 1#1) :
    (scA.slice (Rect.unit (s := S2x8x64x1024) (k0_off236 (grid0.coords t)) S1x8x1x1024.size (k0_off236_inb (grid0.coords t) h2)) (fun _ => rfl)).squeeze S8x1024 squeezes_S1x8x1x1024_S8x1024 = rowM scA (slN (t.val + 1)) ⟨8, Nat.le_of_ble_eq_true rfl⟩ :=
  congrArg (fun M : Memref sig .tc .vmem S1x8x1x1024 .f32 => M.squeeze S8x1024 squeezes_S1x8x1x1024_S8x1024) (Memref.slice_unit_congr _ (coff_FA8 t h2) _ _ (fun _ => rfl) (fun _ => rfl))
theorem coff_FB8 : ∀ t : Fin grid0.N, k0_cond2 (grid0.coords t) = 1#1 → k0_off239 (grid0.coords t) = ![(slN (t.val + 1)).val, 0, 8, 0] := by decide +kernel
@[sl_canon] theorem canon_FB8 (t : Fin grid0.N) (h2 : k0_cond2 (grid0.coords t) = 1#1) :
    (scB.slice (Rect.unit (s := S2x8x64x1024) (k0_off239 (grid0.coords t)) S1x8x1x1024.size (k0_off239_inb (grid0.coords t) h2)) (fun _ => rfl)).squeeze S8x1024 squeezes_S1x8x1x1024_S8x1024 = rowM scB (slN (t.val + 1)) ⟨8, Nat.le_of_ble_eq_true rfl⟩ :=
  congrArg (fun M : Memref sig .tc .vmem S1x8x1x1024 .f32 => M.squeeze S8x1024 squeezes_S1x8x1x1024_S8x1024) (Memref.slice_unit_congr _ (coff_FB8 t h2) _ _ (fun _ => rfl) (fun _ => rfl))
@[sl_canon] theorem canon_Fsem_semsA238 (t : Fin grid0.N) (h2 : k0_cond2 (grid0.coords t) = 1#1) :
    (cc0_scratch2.slice (Rect.unit (s := S2) (k0_off238 (grid0.coords t)) S1.size (k0_off238_inb (grid0.coords t) h2))).squeeze S_ squeezes_S1_S_ = semsA (slN (t.val + 1)) :=
  congrArg (fun A : DmaSems sig S1 => A.squeeze S_ squeezes_S1_S_) (SemArray.slice_unit_congr _ (coff_Fsem238 t h2) _ _)
theorem coff_Fsem243 : ∀ t : Fin grid0.N, k0_cond2 (grid0.coords t) = 1#1 → k0_off243 (grid0.coords t) = ![(slN (t.val + 1)).val] := by decide +kernel
@[sl_canon] theorem canon_Fsem_semsB243 (t : Fin grid0.N) (h2 : k0_cond2 (grid0.coords t) = 1#1) :
    (cc0_scratch3.slice (Rect.unit (s := S2) (k0_off243 (grid0.coords t)) S1.size (k0_off243_inb (grid0.coords t) h2))).squeeze S_ squeezes_S1_S_ = semsB (slN (t.val + 1)) :=
  congrArg (fun A : DmaSems sig S1 => A.squeeze S_ squeezes_S1_S_) (SemArray.slice_unit_congr _ (coff_Fsem243 t h2) _ _)
theorem coff_FA9 : ∀ t : Fin grid0.N, k0_cond2 (grid0.coords t) = 1#1 → k0_off241 (grid0.coords t) = ![(slN (t.val + 1)).val, 0, 9, 0] := by decide +kernel
@[sl_canon] theorem canon_FA9 (t : Fin grid0.N) (h2 : k0_cond2 (grid0.coords t) = 1#1) :
    (scA.slice (Rect.unit (s := S2x8x64x1024) (k0_off241 (grid0.coords t)) S1x8x1x1024.size (k0_off241_inb (grid0.coords t) h2)) (fun _ => rfl)).squeeze S8x1024 squeezes_S1x8x1x1024_S8x1024 = rowM scA (slN (t.val + 1)) ⟨9, Nat.le_of_ble_eq_true rfl⟩ :=
  congrArg (fun M : Memref sig .tc .vmem S1x8x1x1024 .f32 => M.squeeze S8x1024 squeezes_S1x8x1x1024_S8x1024) (Memref.slice_unit_congr _ (coff_FA9 t h2) _ _ (fun _ => rfl) (fun _ => rfl))
theorem coff_FB9 : ∀ t : Fin grid0.N, k0_cond2 (grid0.coords t) = 1#1 → k0_off244 (grid0.coords t) = ![(slN (t.val + 1)).val, 0, 9, 0] := by decide +kernel
@[sl_canon] theorem canon_FB9 (t : Fin grid0.N) (h2 : k0_cond2 (grid0.coords t) = 1#1) :
    (scB.slice (Rect.unit (s := S2x8x64x1024) (k0_off244 (grid0.coords t)) S1x8x1x1024.size (k0_off244_inb (grid0.coords t) h2)) (fun _ => rfl)).squeeze S8x1024 squeezes_S1x8x1x1024_S8x1024 = rowM scB (slN (t.val + 1)) ⟨9, Nat.le_of_ble_eq_true rfl⟩ :=
  congrArg (fun M : Memref sig .tc .vmem S1x8x1x1024 .f32 => M.squeeze S8x1024 squeezes_S1x8x1x1024_S8x1024) (Memref.slice_unit_congr _ (coff_FB9 t h2) _ _ (fun _ => rfl) (fun _ => rfl))
@[sl_canon] theorem canon_Fsem_semsA243 (t : Fin grid0.N) (h2 : k0_cond2 (grid0.coords t) = 1#1) :
    (cc0_scratch2.slice (Rect.unit (s := S2) (k0_off243 (grid0.coords t)) S1.size (k0_off243_inb (grid0.coords t) h2))).squeeze S_ squeezes_S1_S_ = semsA (slN (t.val + 1)) :=
  congrArg (fun A : DmaSems sig S1 => A.squeeze S_ squeezes_S1_S_) (SemArray.slice_unit_congr _ (coff_Fsem243 t h2) _ _)
theorem coff_Fsem248 : ∀ t : Fin grid0.N, k0_cond2 (grid0.coords t) = 1#1 → k0_off248 (grid0.coords t) = ![(slN (t.val + 1)).val] := by decide +kernel
@[sl_canon] theorem canon_Fsem_semsB248 (t : Fin grid0.N) (h2 : k0_cond2 (grid0.coords t) = 1#1) :
    (cc0_scratch3.slice (Rect.unit (s := S2) (k0_off248 (grid0.coords t)) S1.size (k0_off248_inb (grid0.coords t) h2))).squeeze S_ squeezes_S1_S_ = semsB (slN (t.val + 1)) :=
  congrArg (fun A : DmaSems sig S1 => A.squeeze S_ squeezes_S1_S_) (SemArray.slice_unit_congr _ (coff_Fsem248 t h2) _ _)
theorem coff_FA10 : ∀ t : Fin grid0.N, k0_cond2 (grid0.coords t) = 1#1 → k0_off246 (grid0.coords t) = ![(slN (t.val + 1)).val, 0, 10, 0] := by decide +kernel
@[sl_canon] theorem canon_FA10 (t : Fin grid0.N) (h2 : k0_cond2 (grid0.coords t) = 1#1) :
    (scA.slice (Rect.unit (s := S2x8x64x1024) (k0_off246 (grid0.coords t)) S1x8x1x1024.size (k0_off246_inb (grid0.coords t) h2)) (fun _ => rfl)).squeeze S8x1024 squeezes_S1x8x1x1024_S8x1024 = rowM scA (slN (t.val + 1)) ⟨10, Nat.le_of_ble_eq_true rfl⟩ :=
  congrArg (fun M : Memref sig .tc .vmem S1x8x1x1024 .f32 => M.squeeze S8x1024 squeezes_S1x8x1x1024_S8x1024) (Memref.slice_unit_congr _ (coff_FA10 t h2) _ _ (fun _ => rfl) (fun _ => rfl))
theorem coff_FB10 : ∀ t : Fin grid0.N, k0_cond2 (grid0.coords t) = 1#1 → k0_off249 (grid0.coords t) = ![(slN (t.val + 1)).val, 0, 10, 0] := by decide +kernel
@[sl_canon] theorem canon_FB10 (t : Fin grid0.N) (h2 : k0_cond2 (grid0.coords t) = 1#1) :
    (scB.slice (Rect.unit (s := S2x8x64x1024) (k0_off249 (grid0.coords t)) S1x8x1x1024.size (k0_off249_inb (grid0.coords t) h2)) (fun _ => rfl)).squeeze S8x1024 squeezes_S1x8x1x1024_S8x1024 = rowM scB (slN (t.val + 1)) ⟨10, Nat.le_of_ble_eq_true rfl⟩ :=
  congrArg (fun M : Memref sig .tc .vmem S1x8x1x1024 .f32 => M.squeeze S8x1024 squeezes_S1x8x1x1024_S8x1024) (Memref.slice_unit_congr _ (coff_FB10 t h2) _ _ (fun _ => rfl) (fun _ => rfl))
@[sl_canon] theorem canon_Fsem_semsA248 (t : Fin grid0.N) (h2 : k0_cond2 (grid0.coords t) = 1#1) :
    (cc0_scratch2.slice (Rect.unit (s := S2) (k0_off248 (grid0.coords t)) S1.size (k0_off248_inb (grid0.coords t) h2))).squeeze S_ squeezes_S1_S_ = semsA (slN (t.val + 1)) :=
  congrArg (fun A : DmaSems sig S1 => A.squeeze S_ squeezes_S1_S_) (SemArray.slice_unit_congr _ (coff_Fsem248 t h2) _ _)
theorem coff_Fsem253 : ∀ t : Fin grid0.N, k0_cond2 (grid0.coords t) = 1#1 → k0_off253 (grid0.coords t) = ![(slN (t.val + 1)).val] := by decide +kernel
@[sl_canon] theorem canon_Fsem_semsB253 (t : Fin grid0.N) (h2 : k0_cond2 (grid0.coords t) = 1#1) :
    (cc0_scratch3.slice (Rect.unit (s := S2) (k0_off253 (grid0.coords t)) S1.size (k0_off253_inb (grid0.coords t) h2))).squeeze S_ squeezes_S1_S_ = semsB (slN (t.val + 1)) :=
  congrArg (fun A : DmaSems sig S1 => A.squeeze S_ squeezes_S1_S_) (SemArray.slice_unit_congr _ (coff_Fsem253 t h2) _ _)
theorem coff_FA11 : ∀ t : Fin grid0.N, k0_cond2 (grid0.coords t) = 1#1 → k0_off251 (grid0.coords t) = ![(slN (t.val + 1)).val, 0, 11, 0] := by decide +kernel
@[sl_canon] theorem canon_FA11 (t : Fin grid0.N) (h2 : k0_cond2 (grid0.coords t) = 1#1) :
    (scA.slice (Rect.unit (s := S2x8x64x1024) (k0_off251 (grid0.coords t)) S1x8x1x1024.size (k0_off251_inb (grid0.coords t) h2)) (fun _ => rfl)).squeeze S8x1024 squeezes_S1x8x1x1024_S8x1024 = rowM scA (slN (t.val + 1)) ⟨11, Nat.le_of_ble_eq_true rfl⟩ :=
  congrArg (fun M : Memref sig .tc .vmem S1x8x1x1024 .f32 => M.squeeze S8x1024 squeezes_S1x8x1x1024_S8x1024) (Memref.slice_unit_congr _ (coff_FA11 t h2) _ _ (fun _ => rfl) (fun _ => rfl))
theorem coff_FB11 : ∀ t : Fin grid0.N, k0_cond2 (grid0.coords t) = 1#1 → k0_off254 (grid0.coords t) = ![(slN (t.val + 1)).val, 0, 11, 0] := by decide +kernel
@[sl_canon] theorem canon_FB11 (t : Fin grid0.N) (h2 : k0_cond2 (grid0.coords t) = 1#1) :
    (scB.slice (Rect.unit (s := S2x8x64x1024) (k0_off254 (grid0.coords t)) S1x8x1x1024.size (k0_off254_inb (grid0.coords t) h2)) (fun _ => rfl)).squeeze S8x1024 squeezes_S1x8x1x1024_S8x1024 = rowM scB (slN (t.val + 1)) ⟨11, Nat.le_of_ble_eq_true rfl⟩ :=
  congrArg (fun M : Memref sig .tc .vmem S1x8x1x1024 .f32 => M.squeeze S8x1024 squeezes_S1x8x1x1024_S8x1024) (Memref.slice_unit_congr _ (coff_FB11 t h2) _ _ (fun _ => rfl) (fun _ => rfl))
@[sl_canon] theorem canon_Fsem_semsA253 (t : Fin grid0.N) (h2 : k0_cond2 (grid0.coords t) = 1#1) :
    (cc0_scratch2.slice (Rect.unit (s := S2) (k0_off253 (grid0.coords t)) S1.size (k0_off253_inb (grid0.coords t) h2))).squeeze S_ squeezes_S1_S_ = semsA (slN (t.val + 1)) :=
  congrArg (fun A : DmaSems sig S1 => A.squeeze S_ squeezes_S1_S_) (SemArray.slice_unit_congr _ (coff_Fsem253 t h2) _ _)
theorem coff_Fsem258 : ∀ t : Fin grid0.N, k0_cond2 (grid0.coords t) = 1#1 → k0_off258 (grid0.coords t) = ![(slN (t.val + 1)).val] := by decide +kernel
@[sl_canon] theorem canon_Fsem_semsB258 (t : Fin grid0.N) (h2 : k0_cond2 (grid0.coords t) = 1#1) :
    (cc0_scratch3.slice (Rect.unit (s := S2) (k0_off258 (grid0.coords t)) S1.size (k0_off258_inb (grid0.coords t) h2))).squeeze S_ squeezes_S1_S_ = semsB (slN (t.val + 1)) :=
  congrArg (fun A : DmaSems sig S1 => A.squeeze S_ squeezes_S1_S_) (SemArray.slice_unit_congr _ (coff_Fsem258 t h2) _ _)
theorem coff_FA12 : ∀ t : Fin grid0.N, k0_cond2 (grid0.coords t) = 1#1 → k0_off256 (grid0.coords t) = ![(slN (t.val + 1)).val, 0, 12, 0] := by decide +kernel
@[sl_canon] theorem canon_FA12 (t : Fin grid0.N) (h2 : k0_cond2 (grid0.coords t) = 1#1) :
    (scA.slice (Rect.unit (s := S2x8x64x1024) (k0_off256 (grid0.coords t)) S1x8x1x1024.size (k0_off256_inb (grid0.coords t) h2)) (fun _ => rfl)).squeeze S8x1024 squeezes_S1x8x1x1024_S8x1024 = rowM scA (slN (t.val + 1)) ⟨12, Nat.le_of_ble_eq_true rfl⟩ :=
  congrArg (fun M : Memref sig .tc .vmem S1x8x1x1024 .f32 => M.squeeze S8x1024 squeezes_S1x8x1x1024_S8x1024) (Memref.slice_unit_congr _ (coff_FA12 t h2) _ _ (fun _ => rfl) (fun _ => rfl))
theorem coff_FB12 : ∀ t : Fin grid0.N, k0_cond2 (grid0.coords t) = 1#1 → k0_off259 (grid0.coords t) = ![(slN (t.val + 1)).val, 0, 12, 0] := by decide +kernel
@[sl_canon] theorem canon_FB12 (t : Fin grid0.N) (h2 : k0_cond2 (grid0.coords t) = 1#1) :
    (scB.slice (Rect.unit (s := S2x8x64x1024) (k0_off259 (grid0.coords t)) S1x8x1x1024.size (k0_off259_inb (grid0.coords t) h2)) (fun _ => rfl)).squeeze S8x1024 squeezes_S1x8x1x1024_S8x1024 = rowM scB (slN (t.val + 1)) ⟨12, Nat.le_of_ble_eq_true rfl⟩ :=
  congrArg (fun M : Memref sig .tc .vmem S1x8x1x1024 .f32 => M.squeeze S8x1024 squeezes_S1x8x1x1024_S8x1024) (Memref.slice_unit_congr _ (coff_FB12 t h2) _ _ (fun _ => rfl) (fun _ => rfl))
@[sl_canon] theorem canon_Fsem_semsA258 (t : Fin grid0.N) (h2 : k0_cond2 (grid0.coords t) = 1#1) :
    (cc0_scratch2.slice (Rect.unit (s := S2) (k0_off258 (grid0.coords t)) S1.size (k0_off258_inb (grid0.coords t) h2))).squeeze S_ squeezes_S1_S_ = semsA (slN (t.val + 1)) :=
  congrArg (fun A : DmaSems sig S1 => A.squeeze S_ squeezes_S1_S_) (SemArray.slice_unit_congr _ (coff_Fsem258 t h2) _ _)
theorem coff_Fsem263 : ∀ t : Fin grid0.N, k0_cond2 (grid0.coords t) = 1#1 → k0_off263 (grid0.coords t) = ![(slN (t.val + 1)).val] := by decide +kernel
@[sl_canon] theorem canon_Fsem_semsB263 (t : Fin grid0.N) (h2 : k0_cond2 (grid0.coords t) = 1#1) :
    (cc0_scratch3.slice (Rect.unit (s := S2) (k0_off263 (grid0.coords t)) S1.size (k0_off263_inb (grid0.coords t) h2))).squeeze S_ squeezes_S1_S_ = semsB (slN (t.val + 1)) :=
  congrArg (fun A : DmaSems sig S1 => A.squeeze S_ squeezes_S1_S_) (SemArray.slice_unit_congr _ (coff_Fsem263 t h2) _ _)
theorem coff_FA13 : ∀ t : Fin grid0.N, k0_cond2 (grid0.coords t) = 1#1 → k0_off261 (grid0.coords t) = ![(slN (t.val + 1)).val, 0, 13, 0] := by decide +kernel
@[sl_canon] theorem canon_FA13 (t : Fin grid0.N) (h2 : k0_cond2 (grid0.coords t) = 1#1) :
    (scA.slice (Rect.unit (s := S2x8x64x1024) (k0_off261 (grid0.coords t)) S1x8x1x1024.size (k0_off261_inb (grid0.coords t) h2)) (fun _ => rfl)).squeeze S8x1024 squeezes_S1x8x1x1024_S8x1024 = rowM scA (slN (t.val + 1)) ⟨13, Nat.le_of_ble_eq_true rfl⟩ :=
  congrArg (fun M : Memref sig .tc .vmem S1x8x1x1024 .f32 => M.squeeze S8x1024 squeezes_S1x8x1x1024_S8x1024) (Memref.slice_unit_congr _ (coff_FA13 t h2) _ _ (fun _ => rfl) (fun _ => rfl))
theorem coff_FB13 : ∀ t : Fin grid0.N, k0_cond2 (grid0.coords t) = 1#1 → k0_off264 (grid0.coords t) = ![(slN (t.val + 1)).val, 0, 13, 0] := by decide +kernel
@[sl_canon] theorem canon_FB13 (t : Fin grid0.N) (h2 : k0_cond2 (grid0.coords t) = 1#1) :
    (scB.slice (Rect.unit (s := S2x8x64x1024) (k0_off264 (grid0.coords t)) S1x8x1x1024.size (k0_off264_inb (grid0.coords t) h2)) (fun _ => rfl)).squeeze S8x1024 squeezes_S1x8x1x1024_S8x1024 = rowM scB (slN (t.val + 1)) ⟨13, Nat.le_of_ble_eq_true rfl⟩ :=
  congrArg (fun M : Memref sig .tc .vmem S1x8x1x1024 .f32 => M.squeeze S8x1024 squeezes_S1x8x1x1024_S8x1024) (Memref.slice_unit_congr _ (coff_FB13 t h2) _ _ (fun _ => rfl) (fun _ => rfl))
@[sl_canon] theorem canon_Fsem_semsA263 (t : Fin grid0.N) (h2 : k0_cond2 (grid0.coords t) = 1#1) :
    (cc0_scratch2.slice (Rect.unit (s := S2) (k0_off263 (grid0.coords t)) S1.size (k0_off263_inb (grid0.coords t) h2))).squeeze S_ squeezes_S1_S_ = semsA (slN (t.val + 1)) :=
  congrArg (fun A : DmaSems sig S1 => A.squeeze S_ squeezes_S1_S_) (SemArray.slice_unit_congr _ (coff_Fsem263 t h2) _ _)
theorem coff_Fsem268 : ∀ t : Fin grid0.N, k0_cond2 (grid0.coords t) = 1#1 → k0_off268 (grid0.coords t) = ![(slN (t.val + 1)).val] := by decide +kernel
@[sl_canon] theorem canon_Fsem_semsB268 (t : Fin grid0.N) (h2 : k0_cond2 (grid0.coords t) = 1#1) :
    (cc0_scratch3.slice (Rect.unit (s := S2) (k0_off268 (grid0.coords t)) S1.size (k0_off268_inb (grid0.coords t) h2))).squeeze S_ squeezes_S1_S_ = semsB (slN (t.val + 1)) :=
  congrArg (fun A : DmaSems sig S1 => A.squeeze S_ squeezes_S1_S_) (SemArray.slice_unit_congr _ (coff_Fsem268 t h2) _ _)
theorem coff_FA14 : ∀ t : Fin grid0.N, k0_cond2 (grid0.coords t) = 1#1 → k0_off266 (grid0.coords t) = ![(slN (t.val + 1)).val, 0, 14, 0] := by decide +kernel
@[sl_canon] theorem canon_FA14 (t : Fin grid0.N) (h2 : k0_cond2 (grid0.coords t) = 1#1) :
    (scA.slice (Rect.unit (s := S2x8x64x1024) (k0_off266 (grid0.coords t)) S1x8x1x1024.size (k0_off266_inb (grid0.coords t) h2)) (fun _ => rfl)).squeeze S8x1024 squeezes_S1x8x1x1024_S8x1024 = rowM scA (slN (t.val + 1)) ⟨14, Nat.le_of_ble_eq_true rfl⟩ :=
  congrArg (fun M : Memref sig .tc .vmem S1x8x1x1024 .f32 => M.squeeze S8x1024 squeezes_S1x8x1x1024_S8x1024) (Memref.slice_unit_congr _ (coff_FA14 t h2) _ _ (fun _ => rfl) (fun _ => rfl))
theorem coff_FB14 : ∀ t : Fin grid0.N, k0_cond2 (grid0.coords t) = 1#1 → k0_off269 (grid0.coords t) = ![(slN (t.val + 1)).val, 0, 14, 0] := by decide +kernel
@[sl_canon] theorem canon_FB14 (t : Fin grid0.N) (h2 : k0_cond2 (grid0.coords t) = 1#1) :
    (scB.slice (Rect.unit (s := S2x8x64x1024) (k0_off269 (grid0.coords t)) S1x8x1x1024.size (k0_off269_inb (grid0.coords t) h2)) (fun _ => rfl)).squeeze S8x1024 squeezes_S1x8x1x1024_S8x1024 = rowM scB (slN (t.val + 1)) ⟨14, Nat.le_of_ble_eq_true rfl⟩ :=
  congrArg (fun M : Memref sig .tc .vmem S1x8x1x1024 .f32 => M.squeeze S8x1024 squeezes_S1x8x1x1024_S8x1024) (Memref.slice_unit_congr _ (coff_FB14 t h2) _ _ (fun _ => rfl) (fun _ => rfl))
@[sl_canon] theorem canon_Fsem_semsA268 (t : Fin grid0.N) (h2 : k0_cond2 (grid0.coords t) = 1#1) :
    (cc0_scratch2.slice (Rect.unit (s := S2) (k0_off268 (grid0.coords t)) S1.size (k0_off268_inb (grid0.coords t) h2))).squeeze S_ squeezes_S1_S_ = semsA (slN (t.val + 1)) :=
  congrArg (fun A : DmaSems sig S1 => A.squeeze S_ squeezes_S1_S_) (SemArray.slice_unit_congr _ (coff_Fsem268 t h2) _ _)
theorem coff_Fsem273 : ∀ t : Fin grid0.N, k0_cond2 (grid0.coords t) = 1#1 → k0_off273 (grid0.coords t) = ![(slN (t.val + 1)).val] := by decide +kernel
@[sl_canon] theorem canon_Fsem_semsB273 (t : Fin grid0.N) (h2 : k0_cond2 (grid0.coords t) = 1#1) :
    (cc0_scratch3.slice (Rect.unit (s := S2) (k0_off273 (grid0.coords t)) S1.size (k0_off273_inb (grid0.coords t) h2))).squeeze S_ squeezes_S1_S_ = semsB (slN (t.val + 1)) :=
  congrArg (fun A : DmaSems sig S1 => A.squeeze S_ squeezes_S1_S_) (SemArray.slice_unit_congr _ (coff_Fsem273 t h2) _ _)
theorem coff_FA15 : ∀ t : Fin grid0.N, k0_cond2 (grid0.coords t) = 1#1 → k0_off271 (grid0.coords t) = ![(slN (t.val + 1)).val, 0, 15, 0] := by decide +kernel
@[sl_canon] theorem canon_FA15 (t : Fin grid0.N) (h2 : k0_cond2 (grid0.coords t) = 1#1) :
    (scA.slice (Rect.unit (s := S2x8x64x1024) (k0_off271 (grid0.coords t)) S1x8x1x1024.size (k0_off271_inb (grid0.coords t) h2)) (fun _ => rfl)).squeeze S8x1024 squeezes_S1x8x1x1024_S8x1024 = rowM scA (slN (t.val + 1)) ⟨15, Nat.le_of_ble_eq_true rfl⟩ :=
  congrArg (fun M : Memref sig .tc .vmem S1x8x1x1024 .f32 => M.squeeze S8x1024 squeezes_S1x8x1x1024_S8x1024) (Memref.slice_unit_congr _ (coff_FA15 t h2) _ _ (fun _ => rfl) (fun _ => rfl))
theorem coff_FB15 : ∀ t : Fin grid0.N, k0_cond2 (grid0.coords t) = 1#1 → k0_off274 (grid0.coords t) = ![(slN (t.val + 1)).val, 0, 15, 0] := by decide +kernel
@[sl_canon] theorem canon_FB15 (t : Fin grid0.N) (h2 : k0_cond2 (grid0.coords t) = 1#1) :
    (scB.slice (Rect.unit (s := S2x8x64x1024) (k0_off274 (grid0.coords t)) S1x8x1x1024.size (k0_off274_inb (grid0.coords t) h2)) (fun _ => rfl)).squeeze S8x1024 squeezes_S1x8x1x1024_S8x1024 = rowM scB (slN (t.val + 1)) ⟨15, Nat.le_of_ble_eq_true rfl⟩ :=
  congrArg (fun M : Memref sig .tc .vmem S1x8x1x1024 .f32 => M.squeeze S8x1024 squeezes_S1x8x1x1024_S8x1024) (Memref.slice_unit_congr _ (coff_FB15 t h2) _ _ (fun _ => rfl) (fun _ => rfl))
@[sl_canon] theorem canon_Fsem_semsA273 (t : Fin grid0.N) (h2 : k0_cond2 (grid0.coords t) = 1#1) :
    (cc0_scratch2.slice (Rect.unit (s := S2) (k0_off273 (grid0.coords t)) S1.size (k0_off273_inb (grid0.coords t) h2))).squeeze S_ squeezes_S1_S_ = semsA (slN (t.val + 1)) :=
  congrArg (fun A : DmaSems sig S1 => A.squeeze S_ squeezes_S1_S_) (SemArray.slice_unit_congr _ (coff_Fsem273 t h2) _ _)
theorem coff_Fsem278 : ∀ t : Fin grid0.N, k0_cond2 (grid0.coords t) = 1#1 → k0_off278 (grid0.coords t) = ![(slN (t.val + 1)).val] := by decide +kernel
@[sl_canon] theorem canon_Fsem_semsB278 (t : Fin grid0.N) (h2 : k0_cond2 (grid0.coords t) = 1#1) :
    (cc0_scratch3.slice (Rect.unit (s := S2) (k0_off278 (grid0.coords t)) S1.size (k0_off278_inb (grid0.coords t) h2))).squeeze S_ squeezes_S1_S_ = semsB (slN (t.val + 1)) :=
  congrArg (fun A : DmaSems sig S1 => A.squeeze S_ squeezes_S1_S_) (SemArray.slice_unit_congr _ (coff_Fsem278 t h2) _ _)
theorem coff_FA16 : ∀ t : Fin grid0.N, k0_cond2 (grid0.coords t) = 1#1 → k0_off276 (grid0.coords t) = ![(slN (t.val + 1)).val, 0, 16, 0] := by decide +kernel
@[sl_canon] theorem canon_FA16 (t : Fin grid0.N) (h2 : k0_cond2 (grid0.coords t) = 1#1) :
    (scA.slice (Rect.unit (s := S2x8x64x1024) (k0_off276 (grid0.coords t)) S1x8x1x1024.size (k0_off276_inb (grid0.coords t) h2)) (fun _ => rfl)).squeeze S8x1024 squeezes_S1x8x1x1024_S8x1024 = rowM scA (slN (t.val + 1)) ⟨16, Nat.le_of_ble_eq_true rfl⟩ :=
  congrArg (fun M : Memref sig .tc .vmem S1x8x1x1024 .f32 => M.squeeze S8x1024 squeezes_S1x8x1x1024_S8x1024) (Memref.slice_unit_congr _ (coff_FA16 t h2) _ _ (fun _ => rfl) (fun _ => rfl))
theorem coff_FB16 : ∀ t : Fin grid0.N, k0_cond2 (grid0.coords t) = 1#1 → k0_off279 (grid0.coords t) = ![(slN (t.val + 1)).val, 0, 16, 0] := by decide +kernel
@[sl_canon] theorem canon_FB16 (t : Fin grid0.N) (h2 : k0_cond2 (grid0.coords t) = 1#1) :
    (scB.slice (Rect.unit (s := S2x8x64x1024) (k0_off279 (grid0.coords t)) S1x8x1x1024.size (k0_off279_inb (grid0.coords t) h2)) (fun _ => rfl)).squeeze S8x1024 squeezes_S1x8x1x1024_S8x1024 = rowM scB (slN (t.val + 1)) ⟨16, Nat.le_of_ble_eq_true rfl⟩ :=
  congrArg (fun M : Memref sig .tc .vmem S1x8x1x1024 .f32 => M.squeeze S8x1024 squeezes_S1x8x1x1024_S8x1024) (Memref.slice_unit_congr _ (coff_FB16 t h2) _ _ (fun _ => rfl) (fun _ => rfl))
@[sl_canon] theorem canon_Fsem_semsA278 (t : Fin grid0.N) (h2 : k0_cond2 (grid0.coords t) = 1#1) :
    (cc0_scratch2.slice (Rect.unit (s := S2) (k0_off278 (grid0.coords t)) S1.size (k0_off278_inb (grid0.coords t) h2))).squeeze S_ squeezes_S1_S_ = semsA (slN (t.val + 1)) :=
  congrArg (fun A : DmaSems sig S1 => A.squeeze S_ squeezes_S1_S_) (SemArray.slice_unit_congr _ (coff_Fsem278 t h2) _ _)
theorem coff_Fsem283 : ∀ t : Fin grid0.N, k0_cond2 (grid0.coords t) = 1#1 → k0_off283 (grid0.coords t) = ![(slN (t.val + 1)).val] := by decide +kernel
@[sl_canon] theorem canon_Fsem_semsB283 (t : Fin grid0.N) (h2 : k0_cond2 (grid0.coords t) = 1#1) :
    (cc0_scratch3.slice (Rect.unit (s := S2) (k0_off283 (grid0.coords t)) S1.size (k0_off283_inb (grid0.coords t) h2))).squeeze S_ squeezes_S1_S_ = semsB (slN (t.val + 1)) :=
  congrArg (fun A : DmaSems sig S1 => A.squeeze S_ squeezes_S1_S_) (SemArray.slice_unit_congr _ (coff_Fsem283 t h2) _ _)
theorem coff_FA17 : ∀ t : Fin grid0.N, k0_cond2 (grid0.coords t) = 1#1 → k0_off281 (grid0.coords t) = ![(slN (t.val + 1)).val, 0, 17, 0] := by decide +kernel
@[sl_canon] theorem canon_FA17 (t : Fin grid0.N) (h2 : k0_cond2 (grid0.coords t) = 1#1) :
    (scA.slice (Rect.unit (s := S2x8x64x1024) (k0_off281 (grid0.coords t)) S1x8x1x1024.size (k0_off281_inb (grid0.coords t) h2)) (fun _ => rfl)).squeeze S8x1024 squeezes_S1x8x1x1024_S8x1024 = rowM scA (slN (t.val + 1)) ⟨17, Nat.le_of_ble_eq_true rfl⟩ :=
  congrArg (fun M : Memref sig .tc .vmem S1x8x1x1024 .f32 => M.squeeze S8x1024 squeezes_S1x8x1x1024_S8x1024) (Memref.slice_unit_congr _ (coff_FA17 t h2) _ _ (fun _ => rfl) (fun _ => rfl))
theorem coff_FB17 : ∀ t : Fin grid0.N, k0_cond2 (grid0.coords t) = 1#1 → k0_off284 (grid0.coords t) = ![(slN (t.val + 1)).val, 0, 17, 0] := by decide +kernel
@[sl_canon] theorem canon_FB17 (t : Fin grid0.N) (h2 : k0_cond2 (grid0.coords t) = 1#1) :
    (scB.slice (Rect.unit (s := S2x8x64x1024) (k0_off284 (grid0.coords t)) S1x8x1x1024.size (k0_off284_inb (grid0.coords t) h2)) (fun _ => rfl)).squeeze S8x1024 squeezes_S1x8x1x1024_S8x1024 = rowM scB (slN (t.val + 1)) ⟨17, Nat.le_of_ble_eq_true rfl⟩ :=
  congrArg (fun M : Memref sig .tc .vmem S1x8x1x1024 .f32 => M.squeeze S8x1024 squeezes_S1x8x1x1024_S8x1024) (Memref.slice_unit_congr _ (coff_FB17 t h2) _ _ (fun _ => rfl) (fun _ => rfl))
@[sl_canon] theorem canon_Fsem_semsA283 (t : Fin grid0.N) (h2 : k0_cond2 (grid0.coords t) = 1#1) :
    (cc0_scratch2.slice (Rect.unit (s := S2) (k0_off283 (grid0.coords t)) S1.size (k0_off283_inb (grid0.coords t) h2))).squeeze S_ squeezes_S1_S_ = semsA (slN (t.val + 1)) :=
  congrArg (fun A : DmaSems sig S1 => A.squeeze S_ squeezes_S1_S_) (SemArray.slice_unit_congr _ (coff_Fsem283 t h2) _ _)
theorem coff_Fsem288 : ∀ t : Fin grid0.N, k0_cond2 (grid0.coords t) = 1#1 → k0_off288 (grid0.coords t) = ![(slN (t.val + 1)).val] := by decide +kernel
@[sl_canon] theorem canon_Fsem_semsB288 (t : Fin grid0.N) (h2 : k0_cond2 (grid0.coords t) = 1#1) :
    (cc0_scratch3.slice (Rect.unit (s := S2) (k0_off288 (grid0.coords t)) S1.size (k0_off288_inb (grid0.coords t) h2))).squeeze S_ squeezes_S1_S_ = semsB (slN (t.val + 1)) :=
  congrArg (fun A : DmaSems sig S1 => A.squeeze S_ squeezes_S1_S_) (SemArray.slice_unit_congr _ (coff_Fsem288 t h2) _ _)
theorem coff_FA18 : ∀ t : Fin grid0.N, k0_cond2 (grid0.coords t) = 1#1 → k0_off286 (grid0.coords t) = ![(slN (t.val + 1)).val, 0, 18, 0] := by decide +kernel
@[sl_canon] theorem canon_FA18 (t : Fin grid0.N) (h2 : k0_cond2 (grid0.coords t) = 1#1) :
    (scA.slice (Rect.unit (s := S2x8x64x1024) (k0_off286 (grid0.coords t)) S1x8x1x1024.size (k0_off286_inb (grid0.coords t) h2)) (fun _ => rfl)).squeeze S8x1024 squeezes_S1x8x1x1024_S8x1024 = rowM scA (slN (t.val + 1)) ⟨18, Nat.le_of_ble_eq_true rfl⟩ :=
  congrArg (fun M : Memref sig .tc .vmem S1x8x1x1024 .f32 => M.squeeze S8x1024 squeezes_S1x8x1x1024_S8x1024) (Memref.slice_unit_congr _ (coff_FA18 t h2) _ _ (fun _ => rfl) (fun _ => rfl))
theorem coff_FB18 : ∀ t : Fin grid0.N, k0_cond2 (grid0.coords t) = 1#1 → k0_off289 (grid0.coords t) = ![(slN (t.val + 1)).val, 0, 18, 0] := by decide +kernel
@[sl_canon] theorem canon_FB18 (t : Fin grid0.N) (h2 : k0_cond2 (grid0.coords t) = 1#1) :
    (scB.slice (Rect.unit (s := S2x8x64x1024) (k0_off289 (grid0.coords t)) S1x8x1x1024.size (k0_off289_inb (grid0.coords t) h2)) (fun _ => rfl)).squeeze S8x1024 squeezes_S1x8x1x1024_S8x1024 = rowM scB (slN (t.val + 1)) ⟨18, Nat.le_of_ble_eq_true rfl⟩ :=
  congrArg (fun M : Memref sig .tc .vmem S1x8x1x1024 .f32 => M.squeeze S8x1024 squeezes_S1x8x1x1024_S8x1024) (Memref.slice_unit_congr _ (coff_FB18 t h2) _ _ (fun _ => rfl) (fun _ => rfl))
@[sl_canon] theorem canon_Fsem_semsA288 (t : Fin grid0.N) (h2 : k0_cond2 (grid0.coords t) = 1#1) :
    (cc0_scratch2.slice (Rect.unit (s := S2) (k0_off288 (grid0.coords t)) S1.size (k0_off288_inb (grid0.coords t) h2))).squeeze S_ squeezes_S1_S_ = semsA (slN (t.val + 1)) :=
  congrArg (fun A : DmaSems sig S1 => A.squeeze S_ squeezes_S1_S_) (SemArray.slice_unit_congr _ (coff_Fsem288 t h2) _ _)
theorem coff_Fsem293 : ∀ t : Fin grid0.N, k0_cond2 (grid0.coords t) = 1#1 → k0_off293 (grid0.coords t) = ![(slN (t.val + 1)).val] := by decide +kernel
@[sl_canon] theorem canon_Fsem_semsB293 (t : Fin grid0.N) (h2 : k0_cond2 (grid0.coords t) = 1#1) :
    (cc0_scratch3.slice (Rect.unit (s := S2) (k0_off293 (grid0.coords t)) S1.size (k0_off293_inb (grid0.coords t) h2))).squeeze S_ squeezes_S1_S_ = semsB (slN (t.val + 1)) :=
  congrArg (fun A : DmaSems sig S1 => A.squeeze S_ squeezes_S1_S_) (SemArray.slice_unit_congr _ (coff_Fsem293 t h2) _ _)
theorem coff_FA19 : ∀ t : Fin grid0.N, k0_cond2 (grid0.coords t) = 1#1 → k0_off291 (grid0.coords t) = ![(slN (t.val + 1)).val, 0, 19, 0] := by decide +kernel
@[sl_canon] theorem canon_FA19 (t : Fin grid0.N) (h2 : k0_cond2 (grid0.coords t) = 1#1) :
    (scA.slice (Rect.unit (s := S2x8x64x1024) (k0_off291 (grid0.coords t)) S1x8x1x1024.size (k0_off291_inb (grid0.coords t) h2)) (fun _ => rfl)).squeeze S8x1024 squeezes_S1x8x1x1024_S8x1024 = rowM scA (slN (t.val + 1)) ⟨19, Nat.le_of_ble_eq_true rfl⟩ :=
  congrArg (fun M : Memref sig .tc .vmem S1x8x1x1024 .f32 => M.squeeze S8x1024 squeezes_S1x8x1x1024_S8x1024) (Memref.slice_unit_congr _ (coff_FA19 t h2) _ _ (fun _ => rfl) (fun _ => rfl))
theorem coff_FB19 : ∀ t : Fin grid0.N, k0_cond2 (grid0.coords t) = 1#1 → k0_off294 (grid0.coords t) = ![(slN (t.val + 1)).val, 0, 19, 0] := by decide +kernel
@[sl_canon] theorem canon_FB19 (t : Fin grid0.N) (h2 : k0_cond2 (grid0.coords t) = 1#1) :
    (scB.slice (Rect.unit (s := S2x8x64x1024) (k0_off294 (grid0.coords t)) S1x8x1x1024.size (k0_off294_inb (grid0.coords t) h2)) (fun _ => rfl)).squeeze S8x1024 squeezes_S1x8x1x1024_S8x1024 = rowM scB (slN (t.val + 1)) ⟨19, Nat.le_of_ble_eq_true rfl⟩ :=
  congrArg (fun M : Memref sig .tc .vmem S1x8x1x1024 .f32 => M.squeeze S8x1024 squeezes_S1x8x1x1024_S8x1024) (Memref.slice_unit_congr _ (coff_FB19 t h2) _ _ (fun _ => rfl) (fun _ => rfl))
@[sl_canon] theorem canon_Fsem_semsA293 (t : Fin grid0.N) (h2 : k0_cond2 (grid0.coords t) = 1#1) :
    (cc0_scratch2.slice (Rect.unit (s := S2) (k0_off293 (grid0.coords t)) S1.size (k0_off293_inb (grid0.coords t) h2))).squeeze S_ squeezes_S1_S_ = semsA (slN (t.val + 1)) :=
  congrArg (fun A : DmaSems sig S1 => A.squeeze S_ squeezes_S1_S_) (SemArray.slice_unit_congr _ (coff_Fsem293 t h2) _ _)
theorem coff_Fsem298 : ∀ t : Fin grid0.N, k0_cond2 (grid0.coords t) = 1#1 → k0_off298 (grid0.coords t) = ![(slN (t.val + 1)).val] := by decide +kernel
@[sl_canon] theorem canon_Fsem_semsB298 (t : Fin grid0.N) (h2 : k0_cond2 (grid0.coords t) = 1#1) :
    (cc0_scratch3.slice (Rect.unit (s := S2) (k0_off298 (grid0.coords t)) S1.size (k0_off298_inb (grid0.coords t) h2))).squeeze S_ squeezes_S1_S_ = semsB (slN (t.val + 1)) :=
  congrArg (fun A : DmaSems sig S1 => A.squeeze S_ squeezes_S1_S_) (SemArray.slice_unit_congr _ (coff_Fsem298 t h2) _ _)
theorem coff_FA20 : ∀ t : Fin grid0.N, k0_cond2 (grid0.coords t) = 1#1 → k0_off296 (grid0.coords t) = ![(slN (t.val + 1)).val, 0, 20, 0] := by decide +kernel
@[sl_canon] theorem canon_FA20 (t : Fin grid0.N) (h2 : k0_cond2 (grid0.coords t) = 1#1) :
    (scA.slice (Rect.unit (s := S2x8x64x1024) (k0_off296 (grid0.coords t)) S1x8x1x1024.size (k0_off296_inb (grid0.coords t) h2)) (fun _ => rfl)).squeeze S8x1024 squeezes_S1x8x1x1024_S8x1024 = rowM scA (slN (t.val + 1)) ⟨20, Nat.le_of_ble_eq_true rfl⟩ :=
  congrArg (fun M : Memref sig .tc .vmem S1x8x1x1024 .f32 => M.squeeze S8x1024 squeezes_S1x8x1x1024_S8x1024) (Memref.slice_unit_congr _ (coff_FA20 t h2) _ _ (fun _ => rfl) (fun _ => rfl))
theorem coff_FB20 : ∀ t : Fin grid0.N, k0_cond2 (grid0.coords t) = 1#1 → k0_off299 (grid0.coords t) = ![(slN (t.val + 1)).val, 0, 20, 0] := by decide +kernel
@[sl_canon] theorem canon_FB20 (t : Fin grid0.N) (h2 : k0_cond2 (grid0.coords t) = 1#1) :
    (scB.slice (Rect.unit (s := S2x8x64x1024) (k0_off299 (grid0.coords t)) S1x8x1x1024.size (k0_off299_inb (grid0.coords t) h2)) (fun _ => rfl)).squeeze S8x1024 squeezes_S1x8x1x1024_S8x1024 = rowM scB (slN (t.val + 1)) ⟨20, Nat.le_of_ble_eq_true rfl⟩ :=
  congrArg (fun M : Memref sig .tc .vmem S1x8x1x1024 .f32 => M.squeeze S8x1024 squeezes_S1x8x1x1024_S8x1024) (Memref.slice_unit_congr _ (coff_FB20 t h2) _ _ (fun _ => rfl) (fun _ => rfl))
@[sl_canon] theorem canon_Fsem_semsA298 (t : Fin grid0.N) (h2 : k0_cond2 (grid0.coords t) = 1#1) :
    (cc0_scratch2.slice (Rect.unit (s := S2) (k0_off298 (grid0.coords t)) S1.size (k0_off298_inb (grid0.coords t) h2))).squeeze S_ squeezes_S1_S_ = semsA (slN (t.val + 1)) :=
  congrArg (fun A : DmaSems sig S1 => A.squeeze S_ squeezes_S1_S_) (SemArray.slice_unit_congr _ (coff_Fsem298 t h2) _ _)
theorem coff_Fsem303 : ∀ t : Fin grid0.N, k0_cond2 (grid0.coords t) = 1#1 → k0_off303 (grid0.coords t) = ![(slN (t.val + 1)).val] := by decide +kernel
@[sl_canon] theorem canon_Fsem_semsB303 (t : Fin grid0.N) (h2 : k0_cond2 (grid0.coords t) = 1#1) :
    (cc0_scratch3.slice (Rect.unit (s := S2) (k0_off303 (grid0.coords t)) S1.size (k0_off303_inb (grid0.coords t) h2))).squeeze S_ squeezes_S1_S_ = semsB (slN (t.val + 1)) :=
  congrArg (fun A : DmaSems sig S1 => A.squeeze S_ squeezes_S1_S_) (SemArray.slice_unit_congr _ (coff_Fsem303 t h2) _ _)
theorem coff_FA21 : ∀ t : Fin grid0.N, k0_cond2 (grid0.coords t) = 1#1 → k0_off301 (grid0.coords t) = ![(slN (t.val + 1)).val, 0, 21, 0] := by decide +kernel
@[sl_canon] theorem canon_FA21 (t : Fin grid0.N) (h2 : k0_cond2 (grid0.coords t) = 1#1) :
    (scA.slice (Rect.unit (s := S2x8x64x1024) (k0_off301 (grid0.coords t)) S1x8x1x1024.size (k0_off301_inb (grid0.coords t) h2)) (fun _ => rfl)).squeeze S8x1024 squeezes_S1x8x1x1024_S8x1024 = rowM scA (slN (t.val + 1)) ⟨21, Nat.le_of_ble_eq_true rfl⟩ :=
  congrArg (fun M : Memref sig .tc .vmem S1x8x1x1024 .f32 => M.squeeze S8x1024 squeezes_S1x8x1x1024_S8x1024) (Memref.slice_unit_congr _ (coff_FA21 t h2) _ _ (fun _ => rfl) (fun _ => rfl))
theorem coff_FB21 : ∀ t : Fin grid0.N, k0_cond2 (grid0.coords t) = 1#1 → k0_off304 (grid0.coords t) = ![(slN (t.val + 1)).val, 0, 21, 0] := by decide +kernel
@[sl_canon] theorem canon_FB21 (t : Fin grid0.N) (h2 : k0_cond2 (grid0.coords t) = 1#1) :
    (scB.slice (Rect.unit (s := S2x8x64x1024) (k0_off304 (grid0.coords t)) S1x8x1x1024.size (k0_off304_inb (grid0.coords t) h2)) (fun _ => rfl)).squeeze S8x1024 squeezes_S1x8x1x1024_S8x1024 = rowM scB (slN (t.val + 1)) ⟨21, Nat.le_of_ble_eq_true rfl⟩ :=
  congrArg (fun M : Memref sig .tc .vmem S1x8x1x1024 .f32 => M.squeeze S8x1024 squeezes_S1x8x1x1024_S8x1024) (Memref.slice_unit_congr _ (coff_FB21 t h2) _ _ (fun _ => rfl) (fun _ => rfl))
@[sl_canon] theorem canon_Fsem_semsA303 (t : Fin grid0.N) (h2 : k0_cond2 (grid0.coords t) = 1#1) :
    (cc0_scratch2.slice (Rect.unit (s := S2) (k0_off303 (grid0.coords t)) S1.size (k0_off303_inb (grid0.coords t) h2))).squeeze S_ squeezes_S1_S_ = semsA (slN (t.val + 1)) :=
  congrArg (fun A : DmaSems sig S1 => A.squeeze S_ squeezes_S1_S_) (SemArray.slice_unit_congr _ (coff_Fsem303 t h2) _ _)
theorem coff_Fsem308 : ∀ t : Fin grid0.N, k0_cond2 (grid0.coords t) = 1#1 → k0_off308 (grid0.coords t) = ![(slN (t.val + 1)).val] := by decide +kernel
@[sl_canon] theorem canon_Fsem_semsB308 (t : Fin grid0.N) (h2 : k0_cond2 (grid0.coords t) = 1#1) :
    (cc0_scratch3.slice (Rect.unit (s := S2) (k0_off308 (grid0.coords t)) S1.size (k0_off308_inb (grid0.coords t) h2))).squeeze S_ squeezes_S1_S_ = semsB (slN (t.val + 1)) :=
  congrArg (fun A : DmaSems sig S1 => A.squeeze S_ squeezes_S1_S_) (SemArray.slice_unit_congr _ (coff_Fsem308 t h2) _ _)
theorem coff_FA22 : ∀ t : Fin grid0.N, k0_cond2 (grid0.coords t) = 1#1 → k0_off306 (grid0.coords t) = ![(slN (t.val + 1)).val, 0, 22, 0] := by decide +kernel
@[sl_canon] theorem canon_FA22 (t : Fin grid0.N) (h2 : k0_cond2 (grid0.coords t) = 1#1) :
    (scA.slice (Rect.unit (s := S2x8x64x1024) (k0_off306 (grid0.coords t)) S1x8x1x1024.size (k0_off306_inb (grid0.coords t) h2)) (fun _ => rfl)).squeeze S8x1024 squeezes_S1x8x1x1024_S8x1024 = rowM scA (slN (t.val + 1)) ⟨22, Nat.le_of_ble_eq_true rfl⟩ :=
  congrArg (fun M : Memref sig .tc .vmem S1x8x1x1024 .f32 => M.squeeze S8x1024 squeezes_S1x8x1x1024_S8x1024) (Memref.slice_unit_congr _ (coff_FA22 t h2) _ _ (fun _ => rfl) (fun _ => rfl))
theorem coff_FB22 : ∀ t : Fin grid0.N, k0_cond2 (grid0.coords t) = 1#1 → k0_off309 (grid0.coords t) = ![(slN (t.val + 1)).val, 0, 22, 0] := by decide +kernel
@[sl_canon] theorem canon_FB22 (t : Fin grid0.N) (h2 : k0_cond2 (grid0.coords t) = 1#1) :
    (scB.slice (Rect.unit (s := S2x8x64x1024) (k0_off309 (grid0.coords t)) S1x8x1x1024.size (k0_off309_inb (grid0.coords t) h2)) (fun _ => rfl)).squeeze S8x1024 squeezes_S1x8x1x1024_S8x1024 = rowM scB (slN (t.val + 1)) ⟨22, Nat.le_of_ble_eq_true rfl⟩ :=
  congrArg (fun M : Memref sig .tc .vmem S1x8x1x1024 .f32 => M.squeeze S8x1024 squeezes_S1x8x1x1024_S8x1024) (Memref.slice_unit_congr _ (coff_FB22 t h2) _ _ (fun _ => rfl) (fun _ => rfl))
@[sl_canon] theorem canon_Fsem_semsA308 (t : Fin grid0.N) (h2 : k0_cond2 (grid0.coords t) = 1#1) :
    (cc0_scratch2.slice (Rect.unit (s := S2) (k0_off308 (grid0.coords t)) S1.size (k0_off308_inb (grid0.coords t) h2))).squeeze S_ squeezes_S1_S_ = semsA (slN (t.val + 1)) :=
  congrArg (fun A : DmaSems sig S1 => A.squeeze S_ squeezes_S1_S_) (SemArray.slice_unit_congr _ (coff_Fsem308 t h2) _ _)
theorem coff_Fsem313 : ∀ t : Fin grid0.N, k0_cond2 (grid0.coords t) = 1#1 → k0_off313 (grid0.coords t) = ![(slN (t.val + 1)).val] := by decide +kernel
@[sl_canon] theorem canon_Fsem_semsB313 (t : Fin grid0.N) (h2 : k0_cond2 (grid0.coords t) = 1#1) :
    (cc0_scratch3.slice (Rect.unit (s := S2) (k0_off313 (grid0.coords t)) S1.size (k0_off313_inb (grid0.coords t) h2))).squeeze S_ squeezes_S1_S_ = semsB (slN (t.val + 1)) :=
  congrArg (fun A : DmaSems sig S1 => A.squeeze S_ squeezes_S1_S_) (SemArray.slice_unit_congr _ (coff_Fsem313 t h2) _ _)
theorem coff_FA23 : ∀ t : Fin grid0.N, k0_cond2 (grid0.coords t) = 1#1 → k0_off311 (grid0.coords t) = ![(slN (t.val + 1)).val, 0, 23, 0] := by decide +kernel
@[sl_canon] theorem canon_FA23 (t : Fin grid0.N) (h2 : k0_cond2 (grid0.coords t) = 1#1) :
    (scA.slice (Rect.unit (s := S2x8x64x1024) (k0_off311 (grid0.coords t)) S1x8x1x1024.size (k0_off311_inb (grid0.coords t) h2)) (fun _ => rfl)).squeeze S8x1024 squeezes_S1x8x1x1024_S8x1024 = rowM scA (slN (t.val + 1)) ⟨23, Nat.le_of_ble_eq_true rfl⟩ :=
  congrArg (fun M : Memref sig .tc .vmem S1x8x1x1024 .f32 => M.squeeze S8x1024 squeezes_S1x8x1x1024_S8x1024) (Memref.slice_unit_congr _ (coff_FA23 t h2) _ _ (fun _ => rfl) (fun _ => rfl))
theorem coff_FB23 : ∀ t : Fin grid0.N, k0_cond2 (grid0.coords t) = 1#1 → k0_off314 (grid0.coords t) = ![(slN (t.val + 1)).val, 0, 23, 0] := by decide +kernel
@[sl_canon] theorem canon_FB23 (t : Fin grid0.N) (h2 : k0_cond2 (grid0.coords t) = 1#1) :
    (scB.slice (Rect.unit (s := S2x8x64x1024) (k0_off314 (grid0.coords t)) S1x8x1x1024.size (k0_off314_inb (grid0.coords t) h2)) (fun _ => rfl)).squeeze S8x1024 squeezes_S1x8x1x1024_S8x1024 = rowM scB (slN (t.val + 1)) ⟨23, Nat.le_of_ble_eq_true rfl⟩ :=
  congrArg (fun M : Memref sig .tc .vmem S1x8x1x1024 .f32 => M.squeeze S8x1024 squeezes_S1x8x1x1024_S8x1024) (Memref.slice_unit_congr _ (coff_FB23 t h2) _ _ (fun _ => rfl) (fun _ => rfl))
@[sl_canon] theorem canon_Fsem_semsA313 (t : Fin grid0.N) (h2 : k0_cond2 (grid0.coords t) = 1#1) :
    (cc0_scratch2.slice (Rect.unit (s := S2) (k0_off313 (grid0.coords t)) S1.size (k0_off313_inb (grid0.coords t) h2))).squeeze S_ squeezes_S1_S_ = semsA (slN (t.val + 1)) :=
  congrArg (fun A : DmaSems sig S1 => A.squeeze S_ squeezes_S1_S_) (SemArray.slice_unit_congr _ (coff_Fsem313 t h2) _ _)
theorem coff_Fsem318 : ∀ t : Fin grid0.N, k0_cond2 (grid0.coords t) = 1#1 → k0_off318 (grid0.coords t) = ![(slN (t.val + 1)).val] := by decide +kernel
@[sl_canon] theorem canon_Fsem_semsB318 (t : Fin grid0.N) (h2 : k0_cond2 (grid0.coords t) = 1#1) :
    (cc0_scratch3.slice (Rect.unit (s := S2) (k0_off318 (grid0.coords t)) S1.size (k0_off318_inb (grid0.coords t) h2))).squeeze S_ squeezes_S1_S_ = semsB (slN (t.val + 1)) :=
  congrArg (fun A : DmaSems sig S1 => A.squeeze S_ squeezes_S1_S_) (SemArray.slice_unit_congr _ (coff_Fsem318 t h2) _ _)
theorem coff_FA24 : ∀ t : Fin grid0.N, k0_cond2 (grid0.coords t) = 1#1 → k0_off316 (grid0.coords t) = ![(slN (t.val + 1)).val, 0, 24, 0] := by decide +kernel
@[sl_canon] theorem canon_FA24 (t : Fin grid0.N) (h2 : k0_cond2 (grid0.coords t) = 1#1) :
    (scA.slice (Rect.unit (s := S2x8x64x1024) (k0_off316 (grid0.coords t)) S1x8x1x1024.size (k0_off316_inb (grid0.coords t) h2)) (fun _ => rfl)).squeeze S8x1024 squeezes_S1x8x1x1024_S8x1024 = rowM scA (slN (t.val + 1)) ⟨24, Nat.le_of_ble_eq_true rfl⟩ :=
  congrArg (fun M : Memref sig .tc .vmem S1x8x1x1024 .f32 => M.squeeze S8x1024 squeezes_S1x8x1x1024_S8x1024) (Memref.slice_unit_congr _ (coff_FA24 t h2) _ _ (fun _ => rfl) (fun _ => rfl))
theorem coff_FB24 : ∀ t : Fin grid0.N, k0_cond2 (grid0.coords t) = 1#1 → k0_off319 (grid0.coords t) = ![(slN (t.val + 1)).val, 0, 24, 0] := by decide +kernel
@[sl_canon] theorem canon_FB24 (t : Fin grid0.N) (h2 : k0_cond2 (grid0.coords t) = 1#1) :
    (scB.slice (Rect.unit (s := S2x8x64x1024) (k0_off319 (grid0.coords t)) S1x8x1x1024.size (k0_off319_inb (grid0.coords t) h2)) (fun _ => rfl)).squeeze S8x1024 squeezes_S1x8x1x1024_S8x1024 = rowM scB (slN (t.val + 1)) ⟨24, Nat.le_of_ble_eq_true rfl⟩ :=
  congrArg (fun M : Memref sig .tc .vmem S1x8x1x1024 .f32 => M.squeeze S8x1024 squeezes_S1x8x1x1024_S8x1024) (Memref.slice_unit_congr _ (coff_FB24 t h2) _ _ (fun _ => rfl) (fun _ => rfl))
@[sl_canon] theorem canon_Fsem_semsA318 (t : Fin grid0.N) (h2 : k0_cond2 (grid0.coords t) = 1#1) :
    (cc0_scratch2.slice (Rect.unit (s := S2) (k0_off318 (grid0.coords t)) S1.size (k0_off318_inb (grid0.coords t) h2))).squeeze S_ squeezes_S1_S_ = semsA (slN (t.val + 1)) :=
  congrArg (fun A : DmaSems sig S1 => A.squeeze S_ squeezes_S1_S_) (SemArray.slice_unit_congr _ (coff_Fsem318 t h2) _ _)
theorem coff_Fsem323 : ∀ t : Fin grid0.N, k0_cond2 (grid0.coords t) = 1#1 → k0_off323 (grid0.coords t) = ![(slN (t.val + 1)).val] := by decide +kernel
@[sl_canon] theorem canon_Fsem_semsB323 (t : Fin grid0.N) (h2 : k0_cond2 (grid0.coords t) = 1#1) :
    (cc0_scratch3.slice (Rect.unit (s := S2) (k0_off323 (grid0.coords t)) S1.size (k0_off323_inb (grid0.coords t) h2))).squeeze S_ squeezes_S1_S_ = semsB (slN (t.val + 1)) :=
  congrArg (fun A : DmaSems sig S1 => A.squeeze S_ squeezes_S1_S_) (SemArray.slice_unit_congr _ (coff_Fsem323 t h2) _ _)
theorem coff_FA25 : ∀ t : Fin grid0.N, k0_cond2 (grid0.coords t) = 1#1 → k0_off321 (grid0.coords t) = ![(slN (t.val + 1)).val, 0, 25, 0] := by decide +kernel
@[sl_canon] theorem canon_FA25 (t : Fin grid0.N) (h2 : k0_cond2 (grid0.coords t) = 1#1) :
    (scA.slice (Rect.unit (s := S2x8x64x1024) (k0_off321 (grid0.coords t)) S1x8x1x1024.size (k0_off321_inb (grid0.coords t) h2)) (fun _ => rfl)).squeeze S8x1024 squeezes_S1x8x1x1024_S8x1024 = rowM scA (slN (t.val + 1)) ⟨25, Nat.le_of_ble_eq_true rfl⟩ :=
  congrArg (fun M : Memref sig .tc .vmem S1x8x1x1024 .f32 => M.squeeze S8x1024 squeezes_S1x8x1x1024_S8x1024) (Memref.slice_unit_congr _ (coff_FA25 t h2) _ _ (fun _ => rfl) (fun _ => rfl))
theorem coff_FB25 : ∀ t : Fin grid0.N, k0_cond2 (grid0.coords t) = 1#1 → k0_off324 (grid0.coords t) = ![(slN (t.val + 1)).val, 0, 25, 0] := by decide +kernel
@[sl_canon] theorem canon_FB25 (t : Fin grid0.N) (h2 : k0_cond2 (grid0.coords t) = 1#1) :
    (scB.slice (Rect.unit (s := S2x8x64x1024) (k0_off324 (grid0.coords t)) S1x8x1x1024.size (k0_off324_inb (grid0.coords t) h2)) (fun _ => rfl)).squeeze S8x1024 squeezes_S1x8x1x1024_S8x1024 = rowM scB (slN (t.val + 1)) ⟨25, Nat.le_of_ble_eq_true rfl⟩ :=
  congrArg (fun M : Memref sig .tc .vmem S1x8x1x1024 .f32 => M.squeeze S8x1024 squeezes_S1x8x1x1024_S8x1024) (Memref.slice_unit_congr _ (coff_FB25 t h2) _ _ (fun _ => rfl) (fun _ => rfl))
@[sl_canon] theorem canon_Fsem_semsA323 (t : Fin grid0.N) (h2 : k0_cond2 (grid0.coords t) = 1#1) :
    (cc0_scratch2.slice (Rect.unit (s := S2) (k0_off323 (grid0.coords t)) S1.size (k0_off323_inb (grid0.coords t) h2))).squeeze S_ squeezes_S1_S_ = semsA (slN (t.val + 1)) :=
  congrArg (fun A : DmaSems sig S1 => A.squeeze S_ squeezes_S1_S_) (SemArray.slice_unit_congr _ (coff_Fsem323 t h2) _ _)
theorem coff_Fsem328 : ∀ t : Fin grid0.N, k0_cond2 (grid0.coords t) = 1#1 → k0_off328 (grid0.coords t) = ![(slN (t.val + 1)).val] := by decide +kernel
@[sl_canon] theorem canon_Fsem_semsB328 (t : Fin grid0.N) (h2 : k0_cond2 (grid0.coords t) = 1#1) :
    (cc0_scratch3.slice (Rect.unit (s := S2) (k0_off328 (grid0.coords t)) S1.size (k0_off328_inb (grid0.coords t) h2))).squeeze S_ squeezes_S1_S_ = semsB (slN (t.val + 1)) :=
  congrArg (fun A : DmaSems sig S1 => A.squeeze S_ squeezes_S1_S_) (SemArray.slice_unit_congr _ (coff_Fsem328 t h2) _ _)
theorem coff_FA26 : ∀ t : Fin grid0.N, k0_cond2 (grid0.coords t) = 1#1 → k0_off326 (grid0.coords t) = ![(slN (t.val + 1)).val, 0, 26, 0] := by decide +kernel
@[sl_canon] theorem canon_FA26 (t : Fin grid0.N) (h2 : k0_cond2 (grid0.coords t) = 1#1) :
    (scA.slice (Rect.unit (s := S2x8x64x1024) (k0_off326 (grid0.coords t)) S1x8x1x1024.size (k0_off326_inb (grid0.coords t) h2)) (fun _ => rfl)).squeeze S8x1024 squeezes_S1x8x1x1024_S8x1024 = rowM scA (slN (t.val + 1)) ⟨26, Nat.le_of_ble_eq_true rfl⟩ :=
  congrArg (fun M : Memref sig .tc .vmem S1x8x1x1024 .f32 => M.squeeze S8x1024 squeezes_S1x8x1x1024_S8x1024) (Memref.slice_unit_congr _ (coff_FA26 t h2) _ _ (fun _ => rfl) (fun _ => rfl))
theorem coff_FB26 : ∀ t : Fin grid0.N, k0_cond2 (grid0.coords t) = 1#1 → k0_off329 (grid0.coords t) = ![(slN (t.val + 1)).val, 0, 26, 0] := by decide +kernel
@[sl_canon] theorem canon_FB26 (t : Fin grid0.N) (h2 : k0_cond2 (grid0.coords t) = 1#1) :
    (scB.slice (Rect.unit (s := S2x8x64x1024) (k0_off329 (grid0.coords t)) S1x8x1x1024.size (k0_off329_inb (grid0.coords t) h2)) (fun _ => rfl)).squeeze S8x1024 squeezes_S1x8x1x1024_S8x1024 = rowM scB (slN (t.val + 1)) ⟨26, Nat.le_of_ble_eq_true rfl⟩ :=
  congrArg (fun M : Memref sig .tc .vmem S1x8x1x1024 .f32 => M.squeeze S8x1024 squeezes_S1x8x1x1024_S8x1024) (Memref.slice_unit_congr _ (coff_FB26 t h2) _ _ (fun _ => rfl) (fun _ => rfl))
@[sl_canon] theorem canon_Fsem_semsA328 (t : Fin grid0.N) (h2 : k0_cond2 (grid0.coords t) = 1#1) :
    (cc0_scratch2.slice (Rect.unit (s := S2) (k0_off328 (grid0.coords t)) S1.size (k0_off328_inb (grid0.coords t) h2))).squeeze S_ squeezes_S1_S_ = semsA (slN (t.val + 1)) :=
  congrArg (fun A : DmaSems sig S1 => A.squeeze S_ squeezes_S1_S_) (SemArray.slice_unit_congr _ (coff_Fsem328 t h2) _ _)
theorem coff_Fsem333 : ∀ t : Fin grid0.N, k0_cond2 (grid0.coords t) = 1#1 → k0_off333 (grid0.coords t) = ![(slN (t.val + 1)).val] := by decide +kernel
@[sl_canon] theorem canon_Fsem_semsB333 (t : Fin grid0.N) (h2 : k0_cond2 (grid0.coords t) = 1#1) :
    (cc0_scratch3.slice (Rect.unit (s := S2) (k0_off333 (grid0.coords t)) S1.size (k0_off333_inb (grid0.coords t) h2))).squeeze S_ squeezes_S1_S_ = semsB (slN (t.val + 1)) :=
  congrArg (fun A : DmaSems sig S1 => A.squeeze S_ squeezes_S1_S_) (SemArray.slice_unit_congr _ (coff_Fsem333 t h2) _ _)
theorem coff_FA27 : ∀ t : Fin grid0.N, k0_cond2 (grid0.coords t) = 1#1 → k0_off331 (grid0.coords t) = ![(slN (t.val + 1)).val, 0, 27, 0] := by decide +kernel
@[sl_canon] theorem canon_FA27 (t : Fin grid0.N) (h2 : k0_cond2 (grid0.coords t) = 1#1) :
    (scA.slice (Rect.unit (s := S2x8x64x1024) (k0_off331 (grid0.coords t)) S1x8x1x1024.size (k0_off331_inb (grid0.coords t) h2)) (fun _ => rfl)).squeeze S8x1024 squeezes_S1x8x1x1024_S8x1024 = rowM scA (slN (t.val + 1)) ⟨27, Nat.le_of_ble_eq_true rfl⟩ :=
  congrArg (fun M : Memref sig .tc .vmem S1x8x1x1024 .f32 => M.squeeze S8x1024 squeezes_S1x8x1x1024_S8x1024) (Memref.slice_unit_congr _ (coff_FA27 t h2) _ _ (fun _ => rfl) (fun _ => rfl))
theorem coff_FB27 : ∀ t : Fin grid0.N, k0_cond2 (grid0.coords t) = 1#1 → k0_off334 (grid0.coords t) = ![(slN (t.val + 1)).val, 0, 27, 0] := by decide +kernel
@[sl_canon] theorem canon_FB27 (t : Fin grid0.N) (h2 : k0_cond2 (grid0.coords t) = 1#1) :
    (scB.slice (Rect.unit (s := S2x8x64x1024) (k0_off334 (grid0.coords t)) S1x8x1x1024.size (k0_off334_inb (grid0.coords t) h2)) (fun _ => rfl)).squeeze S8x1024 squeezes_S1x8x1x1024_S8x1024 = rowM scB (slN (t.val + 1)) ⟨27, Nat.le_of_ble_eq_true rfl⟩ :=
  congrArg (fun M : Memref sig .tc .vmem S1x8x1x1024 .f32 => M.squeeze S8x1024 squeezes_S1x8x1x1024_S8x1024) (Memref.slice_unit_congr _ (coff_FB27 t h2) _ _ (fun _ => rfl) (fun _ => rfl))
@[sl_canon] theorem canon_Fsem_semsA333 (t : Fin grid0.N) (h2 : k0_cond2 (grid0.coords t) = 1#1) :
    (cc0_scratch2.slice (Rect.unit (s := S2) (k0_off333 (grid0.coords t)) S1.size (k0_off333_inb (grid0.coords t) h2))).squeeze S_ squeezes_S1_S_ = semsA (slN (t.val + 1)) :=
  congrArg (fun A : DmaSems sig S1 => A.squeeze S_ squeezes_S1_S_) (SemArray.slice_unit_congr _ (coff_Fsem333 t h2) _ _)
theorem coff_Fsem338 : ∀ t : Fin grid0.N, k0_cond2 (grid0.coords t) = 1#1 → k0_off338 (grid0.coords t) = ![(slN (t.val + 1)).val] := by decide +kernel
@[sl_canon] theorem canon_Fsem_semsB338 (t : Fin grid0.N) (h2 : k0_cond2 (grid0.coords t) = 1#1) :
    (cc0_scratch3.slice (Rect.unit (s := S2) (k0_off338 (grid0.coords t)) S1.size (k0_off338_inb (grid0.coords t) h2))).squeeze S_ squeezes_S1_S_ = semsB (slN (t.val + 1)) :=
  congrArg (fun A : DmaSems sig S1 => A.squeeze S_ squeezes_S1_S_) (SemArray.slice_unit_congr _ (coff_Fsem338 t h2) _ _)
theorem coff_FA28 : ∀ t : Fin grid0.N, k0_cond2 (grid0.coords t) = 1#1 → k0_off336 (grid0.coords t) = ![(slN (t.val + 1)).val, 0, 28, 0] := by decide +kernel
@[sl_canon] theorem canon_FA28 (t : Fin grid0.N) (h2 : k0_cond2 (grid0.coords t) = 1#1) :
    (scA.slice (Rect.unit (s := S2x8x64x1024) (k0_off336 (grid0.coords t)) S1x8x1x1024.size (k0_off336_inb (grid0.coords t) h2)) (fun _ => rfl)).squeeze S8x1024 squeezes_S1x8x1x1024_S8x1024 = rowM scA (slN (t.val + 1)) ⟨28, Nat.le_of_ble_eq_true rfl⟩ :=
  congrArg (fun M : Memref sig .tc .vmem S1x8x1x1024 .f32 => M.squeeze S8x1024 squeezes_S1x8x1x1024_S8x1024) (Memref.slice_unit_congr _ (coff_FA28 t h2) _ _ (fun _ => rfl) (fun _ => rfl))
theorem coff_FB28 : ∀ t : Fin grid0.N, k0_cond2 (grid0.coords t) = 1#1 → k0_off339 (grid0.coords t) = ![(slN (t.val + 1)).val, 0, 28, 0] := by decide +kernel
@[sl_canon] theorem canon_FB28 (t : Fin grid0.N) (h2 : k0_cond2 (grid0.coords t) = 1#1) :
    (scB.slice (Rect.unit (s := S2x8x64x1024) (k0_off339 (grid0.coords t)) S1x8x1x1024.size (k0_off339_inb (grid0.coords t) h2)) (fun _ => rfl)).squeeze S8x1024 squeezes_S1x8x1x1024_S8x1024 = rowM scB (slN (t.val + 1)) ⟨28, Nat.le_of_ble_eq_true rfl⟩ :=
  congrArg (fun M : Memref sig .tc .vmem S1x8x1x1024 .f32 => M.squeeze S8x1024 squeezes_S1x8x1x1024_S8x1024) (Memref.slice_unit_congr _ (coff_FB28 t h2) _ _ (fun _ => rfl) (fun _ => rfl))
@[sl_canon] theorem canon_Fsem_semsA338 (t : Fin grid0.N) (h2 : k0_cond2 (grid0.coords t) = 1#1) :
    (cc0_scratch2.slice (Rect.unit (s := S2) (k0_off338 (grid0.coords t)) S1.size (k0_off338_inb (grid0.coords t) h2))).squeeze S_ squeezes_S1_S_ = semsA (slN (t.val + 1)) :=
  congrArg (fun A : DmaSems sig S1 => A.squeeze S_ squeezes_S1_S_) (SemArray.slice_unit_congr _ (coff_Fsem338 t h2) _ _)
theorem coff_Fsem343 : ∀ t : Fin grid0.N, k0_cond2 (grid0.coords t) = 1#1 → k0_off343 (grid0.coords t) = ![(slN (t.val + 1)).val] := by decide +kernel
@[sl_canon] theorem canon_Fsem_semsB343 (t : Fin grid0.N) (h2 : k0_cond2 (grid0.coords t) = 1#1) :
    (cc0_scratch3.slice (Rect.unit (s := S2) (k0_off343 (grid0.coords t)) S1.size (k0_off343_inb (grid0.coords t) h2))).squeeze S_ squeezes_S1_S_ = semsB (slN (t.val + 1)) :=
  congrArg (fun A : DmaSems sig S1 => A.squeeze S_ squeezes_S1_S_) (SemArray.slice_unit_congr _ (coff_Fsem343 t h2) _ _)
theorem coff_FA29 : ∀ t : Fin grid0.N, k0_cond2 (grid0.coords t) = 1#1 → k0_off341 (grid0.coords t) = ![(slN (t.val + 1)).val, 0, 29, 0] := by decide +kernel
@[sl_canon] theorem canon_FA29 (t : Fin grid0.N) (h2 : k0_cond2 (grid0.coords t) = 1#1) :
    (scA.slice (Rect.unit (s := S2x8x64x1024) (k0_off341 (grid0.coords t)) S1x8x1x1024.size (k0_off341_inb (grid0.coords t) h2)) (fun _ => rfl)).squeeze S8x1024 squeezes_S1x8x1x1024_S8x1024 = rowM scA (slN (t.val + 1)) ⟨29, Nat.le_of_ble_eq_true rfl⟩ :=
  congrArg (fun M : Memref sig .tc .vmem S1x8x1x1024 .f32 => M.squeeze S8x1024 squeezes_S1x8x1x1024_S8x1024) (Memref.slice_unit_congr _ (coff_FA29 t h2) _ _ (fun _ => rfl) (fun _ => rfl))
theorem coff_FB29 : ∀ t : Fin grid0.N, k0_cond2 (grid0.coords t) = 1#1 → k0_off344 (grid0.coords t) = ![(slN (t.val + 1)).val, 0, 29, 0] := by decide +kernel
@[sl_canon] theorem canon_FB29 (t : Fin grid0.N) (h2 : k0_cond2 (grid0.coords t) = 1#1) :
    (scB.slice (Rect.unit (s := S2x8x64x1024) (k0_off344 (grid0.coords t)) S1x8x1x1024.size (k0_off344_inb (grid0.coords t) h2)) (fun _ => rfl)).squeeze S8x1024 squeezes_S1x8x1x1024_S8x1024 = rowM scB (slN (t.val + 1)) ⟨29, Nat.le_of_ble_eq_true rfl⟩ :=
  congrArg (fun M : Memref sig .tc .vmem S1x8x1x1024 .f32 => M.squeeze S8x1024 squeezes_S1x8x1x1024_S8x1024) (Memref.slice_unit_congr _ (coff_FB29 t h2) _ _ (fun _ => rfl) (fun _ => rfl))
@[sl_canon] theorem canon_Fsem_semsA343 (t : Fin grid0.N) (h2 : k0_cond2 (grid0.coords t) = 1#1) :
    (cc0_scratch2.slice (Rect.unit (s := S2) (k0_off343 (grid0.coords t)) S1.size (k0_off343_inb (grid0.coords t) h2))).squeeze S_ squeezes_S1_S_ = semsA (slN (t.val + 1)) :=
  congrArg (fun A : DmaSems sig S1 => A.squeeze S_ squeezes_S1_S_) (SemArray.slice_unit_congr _ (coff_Fsem343 t h2) _ _)
theorem coff_Fsem348 : ∀ t : Fin grid0.N, k0_cond2 (grid0.coords t) = 1#1 → k0_off348 (grid0.coords t) = ![(slN (t.val + 1)).val] := by decide +kernel
@[sl_canon] theorem canon_Fsem_semsB348 (t : Fin grid0.N) (h2 : k0_cond2 (grid0.coords t) = 1#1) :
    (cc0_scratch3.slice (Rect.unit (s := S2) (k0_off348 (grid0.coords t)) S1.size (k0_off348_inb (grid0.coords t) h2))).squeeze S_ squeezes_S1_S_ = semsB (slN (t.val + 1)) :=
  congrArg (fun A : DmaSems sig S1 => A.squeeze S_ squeezes_S1_S_) (SemArray.slice_unit_congr _ (coff_Fsem348 t h2) _ _)
theorem coff_FA30 : ∀ t : Fin grid0.N, k0_cond2 (grid0.coords t) = 1#1 → k0_off346 (grid0.coords t) = ![(slN (t.val + 1)).val, 0, 30, 0] := by decide +kernel
@[sl_canon] theorem canon_FA30 (t : Fin grid0.N) (h2 : k0_cond2 (grid0.coords t) = 1#1) :
    (scA.slice (Rect.unit (s := S2x8x64x1024) (k0_off346 (grid0.coords t)) S1x8x1x1024.size (k0_off346_inb (grid0.coords t) h2)) (fun _ => rfl)).squeeze S8x1024 squeezes_S1x8x1x1024_S8x1024 = rowM scA (slN (t.val + 1)) ⟨30, Nat.le_of_ble_eq_true rfl⟩ :=
  congrArg (fun M : Memref sig .tc .vmem S1x8x1x1024 .f32 => M.squeeze S8x1024 squeezes_S1x8x1x1024_S8x1024) (Memref.slice_unit_congr _ (coff_FA30 t h2) _ _ (fun _ => rfl) (fun _ => rfl))
theorem coff_FB30 : ∀ t : Fin grid0.N, k0_cond2 (grid0.coords t) = 1#1 → k0_off349 (grid0.coords t) = ![(slN (t.val + 1)).val, 0, 30, 0] := by decide +kernel
@[sl_canon] theorem canon_FB30 (t : Fin grid0.N) (h2 : k0_cond2 (grid0.coords t) = 1#1) :
    (scB.slice (Rect.unit (s := S2x8x64x1024) (k0_off349 (grid0.coords t)) S1x8x1x1024.size (k0_off349_inb (grid0.coords t) h2)) (fun _ => rfl)).squeeze S8x1024 squeezes_S1x8x1x1024_S8x1024 = rowM scB (slN (t.val + 1)) ⟨30, Nat.le_of_ble_eq_true rfl⟩ :=
  congrArg (fun M : Memref sig .tc .vmem S1x8x1x1024 .f32 => M.squeeze S8x1024 squeezes_S1x8x1x1024_S8x1024) (Memref.slice_unit_congr _ (coff_FB30 t h2) _ _ (fun _ => rfl) (fun _ => rfl))
@[sl_canon] theorem canon_Fsem_semsA348 (t : Fin grid0.N) (h2 : k0_cond2 (grid0.coords t) = 1#1) :
    (cc0_scratch2.slice (Rect.unit (s := S2) (k0_off348 (grid0.coords t)) S1.size (k0_off348_inb (grid0.coords t) h2))).squeeze S_ squeezes_S1_S_ = semsA (slN (t.val + 1)) :=
  congrArg (fun A : DmaSems sig S1 => A.squeeze S_ squeezes_S1_S_) (SemArray.slice_unit_congr _ (coff_Fsem348 t h2) _ _)
theorem coff_Fsem353 : ∀ t : Fin grid0.N, k0_cond2 (grid0.coords t) = 1#1 → k0_off353 (grid0.coords t) = ![(slN (t.val + 1)).val] := by decide +kernel
@[sl_canon] theorem canon_Fsem_semsB353 (t : Fin grid0.N) (h2 : k0_cond2 (grid0.coords t) = 1#1) :
    (cc0_scratch3.slice (Rect.unit (s := S2) (k0_off353 (grid0.coords t)) S1.size (k0_off353_inb (grid0.coords t) h2))).squeeze S_ squeezes_S1_S_ = semsB (slN (t.val + 1)) :=
  congrArg (fun A : DmaSems sig S1 => A.squeeze S_ squeezes_S1_S_) (SemArray.slice_unit_congr _ (coff_Fsem353 t h2) _ _)
theorem coff_FA31 : ∀ t : Fin grid0.N, k0_cond2 (grid0.coords t) = 1#1 → k0_off351 (grid0.coords t) = ![(slN (t.val + 1)).val, 0, 31, 0] := by decide +kernel
@[sl_canon] theorem canon_FA31 (t : Fin grid0.N) (h2 : k0_cond2 (grid0.coords t) = 1#1) :
    (scA.slice (Rect.unit (s := S2x8x64x1024) (k0_off351 (grid0.coords t)) S1x8x1x1024.size (k0_off351_inb (grid0.coords t) h2)) (fun _ => rfl)).squeeze S8x1024 squeezes_S1x8x1x1024_S8x1024 = rowM scA (slN (t.val + 1)) ⟨31, Nat.le_of_ble_eq_true rfl⟩ :=
  congrArg (fun M : Memref sig .tc .vmem S1x8x1x1024 .f32 => M.squeeze S8x1024 squeezes_S1x8x1x1024_S8x1024) (Memref.slice_unit_congr _ (coff_FA31 t h2) _ _ (fun _ => rfl) (fun _ => rfl))
theorem coff_FB31 : ∀ t : Fin grid0.N, k0_cond2 (grid0.coords t) = 1#1 → k0_off354 (grid0.coords t) = ![(slN (t.val + 1)).val, 0, 31, 0] := by decide +kernel
@[sl_canon] theorem canon_FB31 (t : Fin grid0.N) (h2 : k0_cond2 (grid0.coords t) = 1#1) :
    (scB.slice (Rect.unit (s := S2x8x64x1024) (k0_off354 (grid0.coords t)) S1x8x1x1024.size (k0_off354_inb (grid0.coords t) h2)) (fun _ => rfl)).squeeze S8x1024 squeezes_S1x8x1x1024_S8x1024 = rowM scB (slN (t.val + 1)) ⟨31, Nat.le_of_ble_eq_true rfl⟩ :=
  congrArg (fun M : Memref sig .tc .vmem S1x8x1x1024 .f32 => M.squeeze S8x1024 squeezes_S1x8x1x1024_S8x1024) (Memref.slice_unit_congr _ (coff_FB31 t h2) _ _ (fun _ => rfl) (fun _ => rfl))
@[sl_canon] theorem canon_Fsem_semsA353 (t : Fin grid0.N) (h2 : k0_cond2 (grid0.coords t) = 1#1) :
    (cc0_scratch2.slice (Rect.unit (s := S2) (k0_off353 (grid0.coords t)) S1.size (k0_off353_inb (grid0.coords t) h2))).squeeze S_ squeezes_S1_S_ = semsA (slN (t.val + 1)) :=
  congrArg (fun A : DmaSems sig S1 => A.squeeze S_ squeezes_S1_S_) (SemArray.slice_unit_congr _ (coff_Fsem353 t h2) _ _)
theorem coff_Fsem358 : ∀ t : Fin grid0.N, k0_cond2 (grid0.coords t) = 1#1 → k0_off358 (grid0.coords t) = ![(slN (t.val + 1)).val] := by decide +kernel
@[sl_canon] theorem canon_Fsem_semsB358 (t : Fin grid0.N) (h2 : k0_cond2 (grid0.coords t) = 1#1) :
    (cc0_scratch3.slice (Rect.unit (s := S2) (k0_off358 (grid0.coords t)) S1.size (k0_off358_inb (grid0.coords t) h2))).squeeze S_ squeezes_S1_S_ = semsB (slN (t.val + 1)) :=
  congrArg (fun A : DmaSems sig S1 => A.squeeze S_ squeezes_S1_S_) (SemArray.slice_unit_congr _ (coff_Fsem358 t h2) _ _)
theorem coff_FA32 : ∀ t : Fin grid0.N, k0_cond2 (grid0.coords t) = 1#1 → k0_off356 (grid0.coords t) = ![(slN (t.val + 1)).val, 0, 32, 0] := by decide +kernel
@[sl_canon] theorem canon_FA32 (t : Fin grid0.N) (h2 : k0_cond2 (grid0.coords t) = 1#1) :
    (scA.slice (Rect.unit (s := S2x8x64x1024) (k0_off356 (grid0.coords t)) S1x8x1x1024.size (k0_off356_inb (grid0.coords t) h2)) (fun _ => rfl)).squeeze S8x1024 squeezes_S1x8x1x1024_S8x1024 = rowM scA (slN (t.val + 1)) ⟨32, Nat.le_of_ble_eq_true rfl⟩ :=
  congrArg (fun M : Memref sig .tc .vmem S1x8x1x1024 .f32 => M.squeeze S8x1024 squeezes_S1x8x1x1024_S8x1024) (Memref.slice_unit_congr _ (coff_FA32 t h2) _ _ (fun _ => rfl) (fun _ => rfl))
theorem coff_FB32 : ∀ t : Fin grid0.N, k0_cond2 (grid0.coords t) = 1#1 → k0_off359 (grid0.coords t) = ![(slN (t.val + 1)).val, 0, 32, 0] := by decide +kernel
@[sl_canon] theorem canon_FB32 (t : Fin grid0.N) (h2 : k0_cond2 (grid0.coords t) = 1#1) :
    (scB.slice (Rect.unit (s := S2x8x64x1024) (k0_off359 (grid0.coords t)) S1x8x1x1024.size (k0_off359_inb (grid0.coords t) h2)) (fun _ => rfl)).squeeze S8x1024 squeezes_S1x8x1x1024_S8x1024 = rowM scB (slN (t.val + 1)) ⟨32, Nat.le_of_ble_eq_true rfl⟩ :=
  congrArg (fun M : Memref sig .tc .vmem S1x8x1x1024 .f32 => M.squeeze S8x1024 squeezes_S1x8x1x1024_S8x1024) (Memref.slice_unit_congr _ (coff_FB32 t h2) _ _ (fun _ => rfl) (fun _ => rfl))
@[sl_canon] theorem canon_Fsem_semsA358 (t : Fin grid0.N) (h2 : k0_cond2 (grid0.coords t) = 1#1) :
    (cc0_scratch2.slice (Rect.unit (s := S2) (k0_off358 (grid0.coords t)) S1.size (k0_off358_inb (grid0.coords t) h2))).squeeze S_ squeezes_S1_S_ = semsA (slN (t.val + 1)) :=
  congrArg (fun A : DmaSems sig S1 => A.squeeze S_ squeezes_S1_S_) (SemArray.slice_unit_congr _ (coff_Fsem358 t h2) _ _)
theorem coff_Fsem363 : ∀ t : Fin grid0.N, k0_cond2 (grid0.coords t) = 1#1 → k0_off363 (grid0.coords t) = ![(slN (t.val + 1)).val] := by decide +kernel
@[sl_canon] theorem canon_Fsem_semsB363 (t : Fin grid0.N) (h2 : k0_cond2 (grid0.coords t) = 1#1) :
    (cc0_scratch3.slice (Rect.unit (s := S2) (k0_off363 (grid0.coords t)) S1.size (k0_off363_inb (grid0.coords t) h2))).squeeze S_ squeezes_S1_S_ = semsB (slN (t.val + 1)) :=
  congrArg (fun A : DmaSems sig S1 => A.squeeze S_ squeezes_S1_S_) (SemArray.slice_unit_congr _ (coff_Fsem363 t h2) _ _)
theorem coff_FA33 : ∀ t : Fin grid0.N, k0_cond2 (grid0.coords t) = 1#1 → k0_off361 (grid0.coords t) = ![(slN (t.val + 1)).val, 0, 33, 0] := by decide +kernel
@[sl_canon] theorem canon_FA33 (t : Fin grid0.N) (h2 : k0_cond2 (grid0.coords t) = 1#1) :
    (scA.slice (Rect.unit (s := S2x8x64x1024) (k0_off361 (grid0.coords t)) S1x8x1x1024.size (k0_off361_inb (grid0.coords t) h2)) (fun _ => rfl)).squeeze S8x1024 squeezes_S1x8x1x1024_S8x1024 = rowM scA (slN (t.val + 1)) ⟨33, Nat.le_of_ble_eq_true rfl⟩ :=
  congrArg (fun M : Memref sig .tc .vmem S1x8x1x1024 .f32 => M.squeeze S8x1024 squeezes_S1x8x1x1024_S8x1024) (Memref.slice_unit_congr _ (coff_FA33 t h2) _ _ (fun _ => rfl) (fun _ => rfl))
theorem coff_FB33 : ∀ t : Fin grid0.N, k0_cond2 (grid0.coords t) = 1#1 → k0_off364 (grid0.coords t) = ![(slN (t.val + 1)).val, 0, 33, 0] := by decide +kernel
@[sl_canon] theorem canon_FB33 (t : Fin grid0.N) (h2 : k0_cond2 (grid0.coords t) = 1#1) :
    (scB.slice (Rect.unit (s := S2x8x64x1024) (k0_off364 (grid0.coords t)) S1x8x1x1024.size (k0_off364_inb (grid0.coords t) h2)) (fun _ => rfl)).squeeze S8x1024 squeezes_S1x8x1x1024_S8x1024 = rowM scB (slN (t.val + 1)) ⟨33, Nat.le_of_ble_eq_true rfl⟩ :=
  congrArg (fun M : Memref sig .tc .vmem S1x8x1x1024 .f32 => M.squeeze S8x1024 squeezes_S1x8x1x1024_S8x1024) (Memref.slice_unit_congr _ (coff_FB33 t h2) _ _ (fun _ => rfl) (fun _ => rfl))
@[sl_canon] theorem canon_Fsem_semsA363 (t : Fin grid0.N) (h2 : k0_cond2 (grid0.coords t) = 1#1) :
    (cc0_scratch2.slice (Rect.unit (s := S2) (k0_off363 (grid0.coords t)) S1.size (k0_off363_inb (grid0.coords t) h2))).squeeze S_ squeezes_S1_S_ = semsA (slN (t.val + 1)) :=
  congrArg (fun A : DmaSems sig S1 => A.squeeze S_ squeezes_S1_S_) (SemArray.slice_unit_congr _ (coff_Fsem363 t h2) _ _)
theorem coff_Fsem368 : ∀ t : Fin grid0.N, k0_cond2 (grid0.coords t) = 1#1 → k0_off368 (grid0.coords t) = ![(slN (t.val + 1)).val] := by decide +kernel
@[sl_canon] theorem canon_Fsem_semsB368 (t : Fin grid0.N) (h2 : k0_cond2 (grid0.coords t) = 1#1) :
    (cc0_scratch3.slice (Rect.unit (s := S2) (k0_off368 (grid0.coords t)) S1.size (k0_off368_inb (grid0.coords t) h2))).squeeze S_ squeezes_S1_S_ = semsB (slN (t.val + 1)) :=
  congrArg (fun A : DmaSems sig S1 => A.squeeze S_ squeezes_S1_S_) (SemArray.slice_unit_congr _ (coff_Fsem368 t h2) _ _)
theorem coff_FA34 : ∀ t : Fin grid0.N, k0_cond2 (grid0.coords t) = 1#1 → k0_off366 (grid0.coords t) = ![(slN (t.val + 1)).val, 0, 34, 0] := by decide +kernel
@[sl_canon] theorem canon_FA34 (t : Fin grid0.N) (h2 : k0_cond2 (grid0.coords t) = 1#1) :
    (scA.slice (Rect.unit (s := S2x8x64x1024) (k0_off366 (grid0.coords t)) S1x8x1x1024.size (k0_off366_inb (grid0.coords t) h2)) (fun _ => rfl)).squeeze S8x1024 squeezes_S1x8x1x1024_S8x1024 = rowM scA (slN (t.val + 1)) ⟨34, Nat.le_of_ble_eq_true rfl⟩ :=
  congrArg (fun M : Memref sig .tc .vmem S1x8x1x1024 .f32 => M.squeeze S8x1024 squeezes_S1x8x1x1024_S8x1024) (Memref.slice_unit_congr _ (coff_FA34 t h2) _ _ (fun _ => rfl) (fun _ => rfl))
theorem coff_FB34 : ∀ t : Fin grid0.N, k0_cond2 (grid0.coords t) = 1#1 → k0_off369 (grid0.coords t) = ![(slN (t.val + 1)).val, 0, 34, 0] := by decide +kernel
@[sl_canon] theorem canon_FB34 (t : Fin grid0.N) (h2 : k0_cond2 (grid0.coords t) = 1#1) :
    (scB.slice (Rect.unit (s := S2x8x64x1024) (k0_off369 (grid0.coords t)) S1x8x1x1024.size (k0_off369_inb (grid0.coords t) h2)) (fun _ => rfl)).squeeze S8x1024 squeezes_S1x8x1x1024_S8x1024 = rowM scB (slN (t.val + 1)) ⟨34, Nat.le_of_ble_eq_true rfl⟩ :=
  congrArg (fun M : Memref sig .tc .vmem S1x8x1x1024 .f32 => M.squeeze S8x1024 squeezes_S1x8x1x1024_S8x1024) (Memref.slice_unit_congr _ (coff_FB34 t h2) _ _ (fun _ => rfl) (fun _ => rfl))
@[sl_canon] theorem canon_Fsem_semsA368 (t : Fin grid0.N) (h2 : k0_cond2 (grid0.coords t) = 1#1) :
    (cc0_scratch2.slice (Rect.unit (s := S2) (k0_off368 (grid0.coords t)) S1.size (k0_off368_inb (grid0.coords t) h2))).squeeze S_ squeezes_S1_S_ = semsA (slN (t.val + 1)) :=
  congrArg (fun A : DmaSems sig S1 => A.squeeze S_ squeezes_S1_S_) (SemArray.slice_unit_congr _ (coff_Fsem368 t h2) _ _)
theorem coff_Fsem373 : ∀ t : Fin grid0.N, k0_cond2 (grid0.coords t) = 1#1 → k0_off373 (grid0.coords t) = ![(slN (t.val + 1)).val] := by decide +kernel
@[sl_canon] theorem canon_Fsem_semsB373 (t : Fin grid0.N) (h2 : k0_cond2 (grid0.coords t) = 1#1) :
    (cc0_scratch3.slice (Rect.unit (s := S2) (k0_off373 (grid0.coords t)) S1.size (k0_off373_inb (grid0.coords t) h2))).squeeze S_ squeezes_S1_S_ = semsB (slN (t.val + 1)) :=
  congrArg (fun A : DmaSems sig S1 => A.squeeze S_ squeezes_S1_S_) (SemArray.slice_unit_congr _ (coff_Fsem373 t h2) _ _)
theorem coff_FA35 : ∀ t : Fin grid0.N, k0_cond2 (grid0.coords t) = 1#1 → k0_off371 (grid0.coords t) = ![(slN (t.val + 1)).val, 0, 35, 0] := by decide +kernel
@[sl_canon] theorem canon_FA35 (t : Fin grid0.N) (h2 : k0_cond2 (grid0.coords t) = 1#1) :
    (scA.slice (Rect.unit (s := S2x8x64x1024) (k0_off371 (grid0.coords t)) S1x8x1x1024.size (k0_off371_inb (grid0.coords t) h2)) (fun _ => rfl)).squeeze S8x1024 squeezes_S1x8x1x1024_S8x1024 = rowM scA (slN (t.val + 1)) ⟨35, Nat.le_of_ble_eq_true rfl⟩ :=
  congrArg (fun M : Memref sig .tc .vmem S1x8x1x1024 .f32 => M.squeeze S8x1024 squeezes_S1x8x1x1024_S8x1024) (Memref.slice_unit_congr _ (coff_FA35 t h2) _ _ (fun _ => rfl) (fun _ => rfl))
theorem coff_FB35 : ∀ t : Fin grid0.N, k0_cond2 (grid0.coords t) = 1#1 → k0_off374 (grid0.coords t) = ![(slN (t.val + 1)).val, 0, 35, 0] := by decide +kernel
@[sl_canon] theorem canon_FB35 (t : Fin grid0.N) (h2 : k0_cond2 (grid0.coords t) = 1#1) :
    (scB.slice (Rect.unit (s := S2x8x64x1024) (k0_off374 (grid0.coords t)) S1x8x1x1024.size (k0_off374_inb (grid0.coords t) h2)) (fun _ => rfl)).squeeze S8x1024 squeezes_S1x8x1x1024_S8x1024 = rowM scB (slN (t.val + 1)) ⟨35, Nat.le_of_ble_eq_true rfl⟩ :=
  congrArg (fun M : Memref sig .tc .vmem S1x8x1x1024 .f32 => M.squeeze S8x1024 squeezes_S1x8x1x1024_S8x1024) (Memref.slice_unit_congr _ (coff_FB35 t h2) _ _ (fun _ => rfl) (fun _ => rfl))
@[sl_canon] theorem canon_Fsem_semsA373 (t : Fin grid0.N) (h2 : k0_cond2 (grid0.coords t) = 1#1) :
    (cc0_scratch2.slice (Rect.unit (s := S2) (k0_off373 (grid0.coords t)) S1.size (k0_off373_inb (grid0.coords t) h2))).squeeze S_ squeezes_S1_S_ = semsA (slN (t.val + 1)) :=
  congrArg (fun A : DmaSems sig S1 => A.squeeze S_ squeezes_S1_S_) (SemArray.slice_unit_congr _ (coff_Fsem373 t h2) _ _)
theorem coff_Fsem378 : ∀ t : Fin grid0.N, k0_cond2 (grid0.coords t) = 1#1 → k0_off378 (grid0.coords t) = ![(slN (t.val + 1)).val] := by decide +kernel
@[sl_canon] theorem canon_Fsem_semsB378 (t : Fin grid0.N) (h2 : k0_cond2 (grid0.coords t) = 1#1) :
    (cc0_scratch3.slice (Rect.unit (s := S2) (k0_off378 (grid0.coords t)) S1.size (k0_off378_inb (grid0.coords t) h2))).squeeze S_ squeezes_S1_S_ = semsB (slN (t.val + 1)) :=
  congrArg (fun A : DmaSems sig S1 => A.squeeze S_ squeezes_S1_S_) (SemArray.slice_unit_congr _ (coff_Fsem378 t h2) _ _)
theorem coff_FA36 : ∀ t : Fin grid0.N, k0_cond2 (grid0.coords t) = 1#1 → k0_off376 (grid0.coords t) = ![(slN (t.val + 1)).val, 0, 36, 0] := by decide +kernel
@[sl_canon] theorem canon_FA36 (t : Fin grid0.N) (h2 : k0_cond2 (grid0.coords t) = 1#1) :
    (scA.slice (Rect.unit (s := S2x8x64x1024) (k0_off376 (grid0.coords t)) S1x8x1x1024.size (k0_off376_inb (grid0.coords t) h2)) (fun _ => rfl)).squeeze S8x1024 squeezes_S1x8x1x1024_S8x1024 = rowM scA (slN (t.val + 1)) ⟨36, Nat.le_of_ble_eq_true rfl⟩ :=
  congrArg (fun M : Memref sig .tc .vmem S1x8x1x1024 .f32 => M.squeeze S8x1024 squeezes_S1x8x1x1024_S8x1024) (Memref.slice_unit_congr _ (coff_FA36 t h2) _ _ (fun _ => rfl) (fun _ => rfl))
theorem coff_FB36 : ∀ t : Fin grid0.N, k0_cond2 (grid0.coords t) = 1#1 → k0_off379 (grid0.coords t) = ![(slN (t.val + 1)).val, 0, 36, 0] := by decide +kernel
@[sl_canon] theorem canon_FB36 (t : Fin grid0.N) (h2 : k0_cond2 (grid0.coords t) = 1#1) :
    (scB.slice (Rect.unit (s := S2x8x64x1024) (k0_off379 (grid0.coords t)) S1x8x1x1024.size (k0_off379_inb (grid0.coords t) h2)) (fun _ => rfl)).squeeze S8x1024 squeezes_S1x8x1x1024_S8x1024 = rowM scB (slN (t.val + 1)) ⟨36, Nat.le_of_ble_eq_true rfl⟩ :=
  congrArg (fun M : Memref sig .tc .vmem S1x8x1x1024 .f32 => M.squeeze S8x1024 squeezes_S1x8x1x1024_S8x1024) (Memref.slice_unit_congr _ (coff_FB36 t h2) _ _ (fun _ => rfl) (fun _ => rfl))
@[sl_canon] theorem canon_Fsem_semsA378 (t : Fin grid0.N) (h2 : k0_cond2 (grid0.coords t) = 1#1) :
    (cc0_scratch2.slice (Rect.unit (s := S2) (k0_off378 (grid0.coords t)) S1.size (k0_off378_inb (grid0.coords t) h2))).squeeze S_ squeezes_S1_S_ = semsA (slN (t.val + 1)) :=
  congrArg (fun A : DmaSems sig S1 => A.squeeze S_ squeezes_S1_S_) (SemArray.slice_unit_congr _ (coff_Fsem378 t h2) _ _)
theorem coff_Fsem383 : ∀ t : Fin grid0.N, k0_cond2 (grid0.coords t) = 1#1 → k0_off383 (grid0.coords t) = ![(slN (t.val + 1)).val] := by decide +kernel
@[sl_canon] theorem canon_Fsem_semsB383 (t : Fin grid0.N) (h2 : k0_cond2 (grid0.coords t) = 1#1) :
    (cc0_scratch3.slice (Rect.unit (s := S2) (k0_off383 (grid0.coords t)) S1.size (k0_off383_inb (grid0.coords t) h2))).squeeze S_ squeezes_S1_S_ = semsB (slN (t.val + 1)) :=
  congrArg (fun A : DmaSems sig S1 => A.squeeze S_ squeezes_S1_S_) (SemArray.slice_unit_congr _ (coff_Fsem383 t h2) _ _)
theorem coff_FA37 : ∀ t : Fin grid0.N, k0_cond2 (grid0.coords t) = 1#1 → k0_off381 (grid0.coords t) = ![(slN (t.val + 1)).val, 0, 37, 0] := by decide +kernel
@[sl_canon] theorem canon_FA37 (t : Fin grid0.N) (h2 : k0_cond2 (grid0.coords t) = 1#1) :
    (scA.slice (Rect.unit (s := S2x8x64x1024) (k0_off381 (grid0.coords t)) S1x8x1x1024.size (k0_off381_inb (grid0.coords t) h2)) (fun _ => rfl)).squeeze S8x1024 squeezes_S1x8x1x1024_S8x1024 = rowM scA (slN (t.val + 1)) ⟨37, Nat.le_of_ble_eq_true rfl⟩ :=
  congrArg (fun M : Memref sig .tc .vmem S1x8x1x1024 .f32 => M.squeeze S8x1024 squeezes_S1x8x1x1024_S8x1024) (Memref.slice_unit_congr _ (coff_FA37 t h2) _ _ (fun _ => rfl) (fun _ => rfl))
theorem coff_FB37 : ∀ t : Fin grid0.N, k0_cond2 (grid0.coords t) = 1#1 → k0_off384 (grid0.coords t) = ![(slN (t.val + 1)).val, 0, 37, 0] := by decide +kernel
@[sl_canon] theorem canon_FB37 (t : Fin grid0.N) (h2 : k0_cond2 (grid0.coords t) = 1#1) :
    (scB.slice (Rect.unit (s := S2x8x64x1024) (k0_off384 (grid0.coords t)) S1x8x1x1024.size (k0_off384_inb (grid0.coords t) h2)) (fun _ => rfl)).squeeze S8x1024 squeezes_S1x8x1x1024_S8x1024 = rowM scB (slN (t.val + 1)) ⟨37, Nat.le_of_ble_eq_true rfl⟩ :=
  congrArg (fun M : Memref sig .tc .vmem S1x8x1x1024 .f32 => M.squeeze S8x1024 squeezes_S1x8x1x1024_S8x1024) (Memref.slice_unit_congr _ (coff_FB37 t h2) _ _ (fun _ => rfl) (fun _ => rfl))
@[sl_canon] theorem canon_Fsem_semsA383 (t : Fin grid0.N) (h2 : k0_cond2 (grid0.coords t) = 1#1) :
    (cc0_scratch2.slice (Rect.unit (s := S2) (k0_off383 (grid0.coords t)) S1.size (k0_off383_inb (grid0.coords t) h2))).squeeze S_ squeezes_S1_S_ = semsA (slN (t.val + 1)) :=
  congrArg (fun A : DmaSems sig S1 => A.squeeze S_ squeezes_S1_S_) (SemArray.slice_unit_congr _ (coff_Fsem383 t h2) _ _)
theorem coff_Fsem388 : ∀ t : Fin grid0.N, k0_cond2 (grid0.coords t) = 1#1 → k0_off388 (grid0.coords t) = ![(slN (t.val + 1)).val] := by decide +kernel
@[sl_canon] theorem canon_Fsem_semsB388 (t : Fin grid0.N) (h2 : k0_cond2 (grid0.coords t) = 1#1) :
    (cc0_scratch3.slice (Rect.unit (s := S2) (k0_off388 (grid0.coords t)) S1.size (k0_off388_inb (grid0.coords t) h2))).squeeze S_ squeezes_S1_S_ = semsB (slN (t.val + 1)) :=
  congrArg (fun A : DmaSems sig S1 => A.squeeze S_ squeezes_S1_S_) (SemArray.slice_unit_congr _ (coff_Fsem388 t h2) _ _)
theorem coff_FA38 : ∀ t : Fin grid0.N, k0_cond2 (grid0.coords t) = 1#1 → k0_off386 (grid0.coords t) = ![(slN (t.val + 1)).val, 0, 38, 0] := by decide +kernel
@[sl_canon] theorem canon_FA38 (t : Fin grid0.N) (h2 : k0_cond2 (grid0.coords t) = 1#1) :
    (scA.slice (Rect.unit (s := S2x8x64x1024) (k0_off386 (grid0.coords t)) S1x8x1x1024.size (k0_off386_inb (grid0.coords t) h2)) (fun _ => rfl)).squeeze S8x1024 squeezes_S1x8x1x1024_S8x1024 = rowM scA (slN (t.val + 1)) ⟨38, Nat.le_of_ble_eq_true rfl⟩ :=
  congrArg (fun M : Memref sig .tc .vmem S1x8x1x1024 .f32 => M.squeeze S8x1024 squeezes_S1x8x1x1024_S8x1024) (Memref.slice_unit_congr _ (coff_FA38 t h2) _ _ (fun _ => rfl) (fun _ => rfl))
theorem coff_FB38 : ∀ t : Fin grid0.N, k0_cond2 (grid0.coords t) = 1#1 → k0_off389 (grid0.coords t) = ![(slN (t.val + 1)).val, 0, 38, 0] := by decide +kernel
@[sl_canon] theorem canon_FB38 (t : Fin grid0.N) (h2 : k0_cond2 (grid0.coords t) = 1#1) :
    (scB.slice (Rect.unit (s := S2x8x64x1024) (k0_off389 (grid0.coords t)) S1x8x1x1024.size (k0_off389_inb (grid0.coords t) h2)) (fun _ => rfl)).squeeze S8x1024 squeezes_S1x8x1x1024_S8x1024 = rowM scB (slN (t.val + 1)) ⟨38, Nat.le_of_ble_eq_true rfl⟩ :=
  congrArg (fun M : Memref sig .tc .vmem S1x8x1x1024 .f32 => M.squeeze S8x1024 squeezes_S1x8x1x1024_S8x1024) (Memref.slice_unit_congr _ (coff_FB38 t h2) _ _ (fun _ => rfl) (fun _ => rfl))
@[sl_canon] theorem canon_Fsem_semsA388 (t : Fin grid0.N) (h2 : k0_cond2 (grid0.coords t) = 1#1) :
    (cc0_scratch2.slice (Rect.unit (s := S2) (k0_off388 (grid0.coords t)) S1.size (k0_off388_inb (grid0.coords t) h2))).squeeze S_ squeezes_S1_S_ = semsA (slN (t.val + 1)) :=
  congrArg (fun A : DmaSems sig S1 => A.squeeze S_ squeezes_S1_S_) (SemArray.slice_unit_congr _ (coff_Fsem388 t h2) _ _)
theorem coff_Fsem393 : ∀ t : Fin grid0.N, k0_cond2 (grid0.coords t) = 1#1 → k0_off393 (grid0.coords t) = ![(slN (t.val + 1)).val] := by decide +kernel
@[sl_canon] theorem canon_Fsem_semsB393 (t : Fin grid0.N) (h2 : k0_cond2 (grid0.coords t) = 1#1) :
    (cc0_scratch3.slice (Rect.unit (s := S2) (k0_off393 (grid0.coords t)) S1.size (k0_off393_inb (grid0.coords t) h2))).squeeze S_ squeezes_S1_S_ = semsB (slN (t.val + 1)) :=
  congrArg (fun A : DmaSems sig S1 => A.squeeze S_ squeezes_S1_S_) (SemArray.slice_unit_congr _ (coff_Fsem393 t h2) _ _)
theorem coff_FA39 : ∀ t : Fin grid0.N, k0_cond2 (grid0.coords t) = 1#1 → k0_off391 (grid0.coords t) = ![(slN (t.val + 1)).val, 0, 39, 0] := by decide +kernel
@[sl_canon] theorem canon_FA39 (t : Fin grid0.N) (h2 : k0_cond2 (grid0.coords t) = 1#1) :
    (scA.slice (Rect.unit (s := S2x8x64x1024) (k0_off391 (grid0.coords t)) S1x8x1x1024.size (k0_off391_inb (grid0.coords t) h2)) (fun _ => rfl)).squeeze S8x1024 squeezes_S1x8x1x1024_S8x1024 = rowM scA (slN (t.val + 1)) ⟨39, Nat.le_of_ble_eq_true rfl⟩ :=
  congrArg (fun M : Memref sig .tc .vmem S1x8x1x1024 .f32 => M.squeeze S8x1024 squeezes_S1x8x1x1024_S8x1024) (Memref.slice_unit_congr _ (coff_FA39 t h2) _ _ (fun _ => rfl) (fun _ => rfl))
theorem coff_FB39 : ∀ t : Fin grid0.N, k0_cond2 (grid0.coords t) = 1#1 → k0_off394 (grid0.coords t) = ![(slN (t.val + 1)).val, 0, 39, 0] := by decide +kernel
@[sl_canon] theorem canon_FB39 (t : Fin grid0.N) (h2 : k0_cond2 (grid0.coords t) = 1#1) :
    (scB.slice (Rect.unit (s := S2x8x64x1024) (k0_off394 (grid0.coords t)) S1x8x1x1024.size (k0_off394_inb (grid0.coords t) h2)) (fun _ => rfl)).squeeze S8x1024 squeezes_S1x8x1x1024_S8x1024 = rowM scB (slN (t.val + 1)) ⟨39, Nat.le_of_ble_eq_true rfl⟩ :=
  congrArg (fun M : Memref sig .tc .vmem S1x8x1x1024 .f32 => M.squeeze S8x1024 squeezes_S1x8x1x1024_S8x1024) (Memref.slice_unit_congr _ (coff_FB39 t h2) _ _ (fun _ => rfl) (fun _ => rfl))
@[sl_canon] theorem canon_Fsem_semsA393 (t : Fin grid0.N) (h2 : k0_cond2 (grid0.coords t) = 1#1) :
    (cc0_scratch2.slice (Rect.unit (s := S2) (k0_off393 (grid0.coords t)) S1.size (k0_off393_inb (grid0.coords t) h2))).squeeze S_ squeezes_S1_S_ = semsA (slN (t.val + 1)) :=
  congrArg (fun A : DmaSems sig S1 => A.squeeze S_ squeezes_S1_S_) (SemArray.slice_unit_congr _ (coff_Fsem393 t h2) _ _)
theorem coff_Fsem398 : ∀ t : Fin grid0.N, k0_cond2 (grid0.coords t) = 1#1 → k0_off398 (grid0.coords t) = ![(slN (t.val + 1)).val] := by decide +kernel
@[sl_canon] theorem canon_Fsem_semsB398 (t : Fin grid0.N) (h2 : k0_cond2 (grid0.coords t) = 1#1) :
    (cc0_scratch3.slice (Rect.unit (s := S2) (k0_off398 (grid0.coords t)) S1.size (k0_off398_inb (grid0.coords t) h2))).squeeze S_ squeezes_S1_S_ = semsB (slN (t.val + 1)) :=
  congrArg (fun A : DmaSems sig S1 => A.squeeze S_ squeezes_S1_S_) (SemArray.slice_unit_congr _ (coff_Fsem398 t h2) _ _)
theorem coff_FA40 : ∀ t : Fin grid0.N, k0_cond2 (grid0.coords t) = 1#1 → k0_off396 (grid0.coords t) = ![(slN (t.val + 1)).val, 0, 40, 0] := by decide +kernel
@[sl_canon] theorem canon_FA40 (t : Fin grid0.N) (h2 : k0_cond2 (grid0.coords t) = 1#1) :
    (scA.slice (Rect.unit (s := S2x8x64x1024) (k0_off396 (grid0.coords t)) S1x8x1x1024.size (k0_off396_inb (grid0.coords t) h2)) (fun _ => rfl)).squeeze S8x1024 squeezes_S1x8x1x1024_S8x1024 = rowM scA (slN (t.val + 1)) ⟨40, Nat.le_of_ble_eq_true rfl⟩ :=
  congrArg (fun M : Memref sig .tc .vmem S1x8x1x1024 .f32 => M.squeeze S8x1024 squeezes_S1x8x1x1024_S8x1024) (Memref.slice_unit_congr _ (coff_FA40 t h2) _ _ (fun _ => rfl) (fun _ => rfl))
theorem coff_FB40 : ∀ t : Fin grid0.N, k0_cond2 (grid0.coords t) = 1#1 → k0_off399 (grid0.coords t) = ![(slN (t.val + 1)).val, 0, 40, 0] := by decide +kernel
@[sl_canon] theorem canon_FB40 (t : Fin grid0.N) (h2 : k0_cond2 (grid0.coords t) = 1#1) :
    (scB.slice (Rect.unit (s := S2x8x64x1024) (k0_off399 (grid0.coords t)) S1x8x1x1024.size (k0_off399_inb (grid0.coords t) h2)) (fun _ => rfl)).squeeze S8x1024 squeezes_S1x8x1x1024_S8x1024 = rowM scB (slN (t.val + 1)) ⟨40, Nat.le_of_ble_eq_true rfl⟩ :=
  congrArg (fun M : Memref sig .tc .vmem S1x8x1x1024 .f32 => M.squeeze S8x1024 squeezes_S1x8x1x1024_S8x1024) (Memref.slice_unit_congr _ (coff_FB40 t h2) _ _ (fun _ => rfl) (fun _ => rfl))
@[sl_canon] theorem canon_Fsem_semsA398 (t : Fin grid0.N) (h2 : k0_cond2 (grid0.coords t) = 1#1) :
    (cc0_scratch2.slice (Rect.unit (s := S2) (k0_off398 (grid0.coords t)) S1.size (k0_off398_inb (grid0.coords t) h2))).squeeze S_ squeezes_S1_S_ = semsA (slN (t.val + 1)) :=
  congrArg (fun A : DmaSems sig S1 => A.squeeze S_ squeezes_S1_S_) (SemArray.slice_unit_congr _ (coff_Fsem398 t h2) _ _)
theorem coff_Fsem403 : ∀ t : Fin grid0.N, k0_cond2 (grid0.coords t) = 1#1 → k0_off403 (grid0.coords t) = ![(slN (t.val + 1)).val] := by decide +kernel
@[sl_canon] theorem canon_Fsem_semsB403 (t : Fin grid0.N) (h2 : k0_cond2 (grid0.coords t) = 1#1) :
    (cc0_scratch3.slice (Rect.unit (s := S2) (k0_off403 (grid0.coords t)) S1.size (k0_off403_inb (grid0.coords t) h2))).squeeze S_ squeezes_S1_S_ = semsB (slN (t.val + 1)) :=
  congrArg (fun A : DmaSems sig S1 => A.squeeze S_ squeezes_S1_S_) (SemArray.slice_unit_congr _ (coff_Fsem403 t h2) _ _)
theorem coff_FA41 : ∀ t : Fin grid0.N, k0_cond2 (grid0.coords t) = 1#1 → k0_off401 (grid0.coords t) = ![(slN (t.val + 1)).val, 0, 41, 0] := by decide +kernel
@[sl_canon] theorem canon_FA41 (t : Fin grid0.N) (h2 : k0_cond2 (grid0.coords t) = 1#1) :
    (scA.slice (Rect.unit (s := S2x8x64x1024) (k0_off401 (grid0.coords t)) S1x8x1x1024.size (k0_off401_inb (grid0.coords t) h2)) (fun _ => rfl)).squeeze S8x1024 squeezes_S1x8x1x1024_S8x1024 = rowM scA (slN (t.val + 1)) ⟨41, Nat.le_of_ble_eq_true rfl⟩ :=
  congrArg (fun M : Memref sig .tc .vmem S1x8x1x1024 .f32 => M.squeeze S8x1024 squeezes_S1x8x1x1024_S8x1024) (Memref.slice_unit_congr _ (coff_FA41 t h2) _ _ (fun _ => rfl) (fun _ => rfl))
theorem coff_FB41 : ∀ t : Fin grid0.N, k0_cond2 (grid0.coords t) = 1#1 → k0_off404 (grid0.coords t) = ![(slN (t.val + 1)).val, 0, 41, 0] := by decide +kernel
@[sl_canon] theorem canon_FB41 (t : Fin grid0.N) (h2 : k0_cond2 (grid0.coords t) = 1#1) :
    (scB.slice (Rect.unit (s := S2x8x64x1024) (k0_off404 (grid0.coords t)) S1x8x1x1024.size (k0_off404_inb (grid0.coords t) h2)) (fun _ => rfl)).squeeze S8x1024 squeezes_S1x8x1x1024_S8x1024 = rowM scB (slN (t.val + 1)) ⟨41, Nat.le_of_ble_eq_true rfl⟩ :=
  congrArg (fun M : Memref sig .tc .vmem S1x8x1x1024 .f32 => M.squeeze S8x1024 squeezes_S1x8x1x1024_S8x1024) (Memref.slice_unit_congr _ (coff_FB41 t h2) _ _ (fun _ => rfl) (fun _ => rfl))
@[sl_canon] theorem canon_Fsem_semsA403 (t : Fin grid0.N) (h2 : k0_cond2 (grid0.coords t) = 1#1) :
    (cc0_scratch2.slice (Rect.unit (s := S2) (k0_off403 (grid0.coords t)) S1.size (k0_off403_inb (grid0.coords t) h2))).squeeze S_ squeezes_S1_S_ = semsA (slN (t.val + 1)) :=
  congrArg (fun A : DmaSems sig S1 => A.squeeze S_ squeezes_S1_S_) (SemArray.slice_unit_congr _ (coff_Fsem403 t h2) _ _)
theorem coff_Fsem408 : ∀ t : Fin grid0.N, k0_cond2 (grid0.coords t) = 1#1 → k0_off408 (grid0.coords t) = ![(slN (t.val + 1)).val] := by decide +kernel
@[sl_canon] theorem canon_Fsem_semsB408 (t : Fin grid0.N) (h2 : k0_cond2 (grid0.coords t) = 1#1) :
    (cc0_scratch3.slice (Rect.unit (s := S2) (k0_off408 (grid0.coords t)) S1.size (k0_off408_inb (grid0.coords t) h2))).squeeze S_ squeezes_S1_S_ = semsB (slN (t.val + 1)) :=
  congrArg (fun A : DmaSems sig S1 => A.squeeze S_ squeezes_S1_S_) (SemArray.slice_unit_congr _ (coff_Fsem408 t h2) _ _)
theorem coff_FA42 : ∀ t : Fin grid0.N, k0_cond2 (grid0.coords t) = 1#1 → k0_off406 (grid0.coords t) = ![(slN (t.val + 1)).val, 0, 42, 0] := by decide +kernel
@[sl_canon] theorem canon_FA42 (t : Fin grid0.N) (h2 : k0_cond2 (grid0.coords t) = 1#1) :
    (scA.slice (Rect.unit (s := S2x8x64x1024) (k0_off406 (grid0.coords t)) S1x8x1x1024.size (k0_off406_inb (grid0.coords t) h2)) (fun _ => rfl)).squeeze S8x1024 squeezes_S1x8x1x1024_S8x1024 = rowM scA (slN (t.val + 1)) ⟨42, Nat.le_of_ble_eq_true rfl⟩ :=
  congrArg (fun M : Memref sig .tc .vmem S1x8x1x1024 .f32 => M.squeeze S8x1024 squeezes_S1x8x1x1024_S8x1024) (Memref.slice_unit_congr _ (coff_FA42 t h2) _ _ (fun _ => rfl) (fun _ => rfl))
theorem coff_FB42 : ∀ t : Fin grid0.N, k0_cond2 (grid0.coords t) = 1#1 → k0_off409 (grid0.coords t) = ![(slN (t.val + 1)).val, 0, 42, 0] := by decide +kernel
@[sl_canon] theorem canon_FB42 (t : Fin grid0.N) (h2 : k0_cond2 (grid0.coords t) = 1#1) :
    (scB.slice (Rect.unit (s := S2x8x64x1024) (k0_off409 (grid0.coords t)) S1x8x1x1024.size (k0_off409_inb (grid0.coords t) h2)) (fun _ => rfl)).squeeze S8x1024 squeezes_S1x8x1x1024_S8x1024 = rowM scB (slN (t.val + 1)) ⟨42, Nat.le_of_ble_eq_true rfl⟩ :=
  congrArg (fun M : Memref sig .tc .vmem S1x8x1x1024 .f32 => M.squeeze S8x1024 squeezes_S1x8x1x1024_S8x1024) (Memref.slice_unit_congr _ (coff_FB42 t h2) _ _ (fun _ => rfl) (fun _ => rfl))
@[sl_canon] theorem canon_Fsem_semsA408 (t : Fin grid0.N) (h2 : k0_cond2 (grid0.coords t) = 1#1) :
    (cc0_scratch2.slice (Rect.unit (s := S2) (k0_off408 (grid0.coords t)) S1.size (k0_off408_inb (grid0.coords t) h2))).squeeze S_ squeezes_S1_S_ = semsA (slN (t.val + 1)) :=
  congrArg (fun A : DmaSems sig S1 => A.squeeze S_ squeezes_S1_S_) (SemArray.slice_unit_congr _ (coff_Fsem408 t h2) _ _)
theorem coff_Fsem413 : ∀ t : Fin grid0.N, k0_cond2 (grid0.coords t) = 1#1 → k0_off413 (grid0.coords t) = ![(slN (t.val + 1)).val] := by decide +kernel
@[sl_canon] theorem canon_Fsem_semsB413 (t : Fin grid0.N) (h2 : k0_cond2 (grid0.coords t) = 1#1) :
    (cc0_scratch3.slice (Rect.unit (s := S2) (k0_off413 (grid0.coords t)) S1.size (k0_off413_inb (grid0.coords t) h2))).squeeze S_ squeezes_S1_S_ = semsB (slN (t.val + 1)) :=
  congrArg (fun A : DmaSems sig S1 => A.squeeze S_ squeezes_S1_S_) (SemArray.slice_unit_congr _ (coff_Fsem413 t h2) _ _)
theorem coff_FA43 : ∀ t : Fin grid0.N, k0_cond2 (grid0.coords t) = 1#1 → k0_off411 (grid0.coords t) = ![(slN (t.val + 1)).val, 0, 43, 0] := by decide +kernel
@[sl_canon] theorem canon_FA43 (t : Fin grid0.N) (h2 : k0_cond2 (grid0.coords t) = 1#1) :
    (scA.slice (Rect.unit (s := S2x8x64x1024) (k0_off411 (grid0.coords t)) S1x8x1x1024.size (k0_off411_inb (grid0.coords t) h2)) (fun _ => rfl)).squeeze S8x1024 squeezes_S1x8x1x1024_S8x1024 = rowM scA (slN (t.val + 1)) ⟨43, Nat.le_of_ble_eq_true rfl⟩ :=
  congrArg (fun M : Memref sig .tc .vmem S1x8x1x1024 .f32 => M.squeeze S8x1024 squeezes_S1x8x1x1024_S8x1024) (Memref.slice_unit_congr _ (coff_FA43 t h2) _ _ (fun _ => rfl) (fun _ => rfl))
theorem coff_FB43 : ∀ t : Fin grid0.N, k0_cond2 (grid0.coords t) = 1#1 → k0_off414 (grid0.coords t) = ![(slN (t.val + 1)).val, 0, 43, 0] := by decide +kernel
@[sl_canon] theorem canon_FB43 (t : Fin grid0.N) (h2 : k0_cond2 (grid0.coords t) = 1#1) :
    (scB.slice (Rect.unit (s := S2x8x64x1024) (k0_off414 (grid0.coords t)) S1x8x1x1024.size (k0_off414_inb (grid0.coords t) h2)) (fun _ => rfl)).squeeze S8x1024 squeezes_S1x8x1x1024_S8x1024 = rowM scB (slN (t.val + 1)) ⟨43, Nat.le_of_ble_eq_true rfl⟩ :=
  congrArg (fun M : Memref sig .tc .vmem S1x8x1x1024 .f32 => M.squeeze S8x1024 squeezes_S1x8x1x1024_S8x1024) (Memref.slice_unit_congr _ (coff_FB43 t h2) _ _ (fun _ => rfl) (fun _ => rfl))
@[sl_canon] theorem canon_Fsem_semsA413 (t : Fin grid0.N) (h2 : k0_cond2 (grid0.coords t) = 1#1) :
    (cc0_scratch2.slice (Rect.unit (s := S2) (k0_off413 (grid0.coords t)) S1.size (k0_off413_inb (grid0.coords t) h2))).squeeze S_ squeezes_S1_S_ = semsA (slN (t.val + 1)) :=
  congrArg (fun A : DmaSems sig S1 => A.squeeze S_ squeezes_S1_S_) (SemArray.slice_unit_congr _ (coff_Fsem413 t h2) _ _)
theorem coff_Fsem418 : ∀ t : Fin grid0.N, k0_cond2 (grid0.coords t) = 1#1 → k0_off418 (grid0.coords t) = ![(slN (t.val + 1)).val] := by decide +kernel
@[sl_canon] theorem canon_Fsem_semsB418 (t : Fin grid0.N) (h2 : k0_cond2 (grid0.coords t) = 1#1) :
    (cc0_scratch3.slice (Rect.unit (s := S2) (k0_off418 (grid0.coords t)) S1.size (k0_off418_inb (grid0.coords t) h2))).squeeze S_ squeezes_S1_S_ = semsB (slN (t.val + 1)) :=
  congrArg (fun A : DmaSems sig S1 => A.squeeze S_ squeezes_S1_S_) (SemArray.slice_unit_congr _ (coff_Fsem418 t h2) _ _)
theorem coff_FA44 : ∀ t : Fin grid0.N, k0_cond2 (grid0.coords t) = 1#1 → k0_off416 (grid0.coords t) = ![(slN (t.val + 1)).val, 0, 44, 0] := by decide +kernel
@[sl_canon] theorem canon_FA44 (t : Fin grid0.N) (h2 : k0_cond2 (grid0.coords t) = 1#1) :
    (scA.slice (Rect.unit (s := S2x8x64x1024) (k0_off416 (grid0.coords t)) S1x8x1x1024.size (k0_off416_inb (grid0.coords t) h2)) (fun _ => rfl)).squeeze S8x1024 squeezes_S1x8x1x1024_S8x1024 = rowM scA (slN (t.val + 1)) ⟨44, Nat.le_of_ble_eq_true rfl⟩ :=
  congrArg (fun M : Memref sig .tc .vmem S1x8x1x1024 .f32 => M.squeeze S8x1024 squeezes_S1x8x1x1024_S8x1024) (Memref.slice_unit_congr _ (coff_FA44 t h2) _ _ (fun _ => rfl) (fun _ => rfl))
theorem coff_FB44 : ∀ t : Fin grid0.N, k0_cond2 (grid0.coords t) = 1#1 → k0_off419 (grid0.coords t) = ![(slN (t.val + 1)).val, 0, 44, 0] := by decide +kernel
@[sl_canon] theorem canon_FB44 (t : Fin grid0.N) (h2 : k0_cond2 (grid0.coords t) = 1#1) :
    (scB.slice (Rect.unit (s := S2x8x64x1024) (k0_off419 (grid0.coords t)) S1x8x1x1024.size (k0_off419_inb (grid0.coords t) h2)) (fun _ => rfl)).squeeze S8x1024 squeezes_S1x8x1x1024_S8x1024 = rowM scB (slN (t.val + 1)) ⟨44, Nat.le_of_ble_eq_true rfl⟩ :=
  congrArg (fun M : Memref sig .tc .vmem S1x8x1x1024 .f32 => M.squeeze S8x1024 squeezes_S1x8x1x1024_S8x1024) (Memref.slice_unit_congr _ (coff_FB44 t h2) _ _ (fun _ => rfl) (fun _ => rfl))
@[sl_canon] theorem canon_Fsem_semsA418 (t : Fin grid0.N) (h2 : k0_cond2 (grid0.coords t) = 1#1) :
    (cc0_scratch2.slice (Rect.unit (s := S2) (k0_off418 (grid0.coords t)) S1.size (k0_off418_inb (grid0.coords t) h2))).squeeze S_ squeezes_S1_S_ = semsA (slN (t.val + 1)) :=
  congrArg (fun A : DmaSems sig S1 => A.squeeze S_ squeezes_S1_S_) (SemArray.slice_unit_congr _ (coff_Fsem418 t h2) _ _)
theorem coff_Fsem423 : ∀ t : Fin grid0.N, k0_cond2 (grid0.coords t) = 1#1 → k0_off423 (grid0.coords t) = ![(slN (t.val + 1)).val] := by decide +kernel
@[sl_canon] theorem canon_Fsem_semsB423 (t : Fin grid0.N) (h2 : k0_cond2 (grid0.coords t) = 1#1) :
    (cc0_scratch3.slice (Rect.unit (s := S2) (k0_off423 (grid0.coords t)) S1.size (k0_off423_inb (grid0.coords t) h2))).squeeze S_ squeezes_S1_S_ = semsB (slN (t.val + 1)) :=
  congrArg (fun A : DmaSems sig S1 => A.squeeze S_ squeezes_S1_S_) (SemArray.slice_unit_congr _ (coff_Fsem423 t h2) _ _)
theorem coff_FA45 : ∀ t : Fin grid0.N, k0_cond2 (grid0.coords t) = 1#1 → k0_off421 (grid0.coords t) = ![(slN (t.val + 1)).val, 0, 45, 0] := by decide +kernel
@[sl_canon] theorem canon_FA45 (t : Fin grid0.N) (h2 : k0_cond2 (grid0.coords t) = 1#1) :
    (scA.slice (Rect.unit (s := S2x8x64x1024) (k0_off421 (grid0.coords t)) S1x8x1x1024.size (k0_off421_inb (grid0.coords t) h2)) (fun _ => rfl)).squeeze S8x1024 squeezes_S1x8x1x1024_S8x1024 = rowM scA (slN (t.val + 1)) ⟨45, Nat.le_of_ble_eq_true rfl⟩ :=
  congrArg (fun M : Memref sig .tc .vmem S1x8x1x1024 .f32 => M.squeeze S8x1024 squeezes_S1x8x1x1024_S8x1024) (Memref.slice_unit_congr _ (coff_FA45 t h2) _ _ (fun _ => rfl) (fun _ => rfl))
theorem coff_FB45 : ∀ t : Fin grid0.N, k0_cond2 (grid0.coords t) = 1#1 → k0_off424 (grid0.coords t) = ![(slN (t.val + 1)).val, 0, 45, 0] := by decide +kernel
@[sl_canon] theorem canon_FB45 (t : Fin grid0.N) (h2 : k0_cond2 (grid0.coords t) = 1#1) :
    (scB.slice (Rect.unit (s := S2x8x64x1024) (k0_off424 (grid0.coords t)) S1x8x1x1024.size (k0_off424_inb (grid0.coords t) h2)) (fun _ => rfl)).squeeze S8x1024 squeezes_S1x8x1x1024_S8x1024 = rowM scB (slN (t.val + 1)) ⟨45, Nat.le_of_ble_eq_true rfl⟩ :=
  congrArg (fun M : Memref sig .tc .vmem S1x8x1x1024 .f32 => M.squeeze S8x1024 squeezes_S1x8x1x1024_S8x1024) (Memref.slice_unit_congr _ (coff_FB45 t h2) _ _ (fun _ => rfl) (fun _ => rfl))
@[sl_canon] theorem canon_Fsem_semsA423 (t : Fin grid0.N) (h2 : k0_cond2 (grid0.coords t) = 1#1) :
    (cc0_scratch2.slice (Rect.unit (s := S2) (k0_off423 (grid0.coords t)) S1.size (k0_off423_inb (grid0.coords t) h2))).squeeze S_ squeezes_S1_S_ = semsA (slN (t.val + 1)) :=
  congrArg (fun A : DmaSems sig S1 => A.squeeze S_ squeezes_S1_S_) (SemArray.slice_unit_congr _ (coff_Fsem423 t h2) _ _)
theorem coff_Fsem428 : ∀ t : Fin grid0.N, k0_cond2 (grid0.coords t) = 1#1 → k0_off428 (grid0.coords t) = ![(slN (t.val + 1)).val] := by decide +kernel
@[sl_canon] theorem canon_Fsem_semsB428 (t : Fin grid0.N) (h2 : k0_cond2 (grid0.coords t) = 1#1) :
    (cc0_scratch3.slice (Rect.unit (s := S2) (k0_off428 (grid0.coords t)) S1.size (k0_off428_inb (grid0.coords t) h2))).squeeze S_ squeezes_S1_S_ = semsB (slN (t.val + 1)) :=
  congrArg (fun A : DmaSems sig S1 => A.squeeze S_ squeezes_S1_S_) (SemArray.slice_unit_congr _ (coff_Fsem428 t h2) _ _)
theorem coff_FA46 : ∀ t : Fin grid0.N, k0_cond2 (grid0.coords t) = 1#1 → k0_off426 (grid0.coords t) = ![(slN (t.val + 1)).val, 0, 46, 0] := by decide +kernel
@[sl_canon] theorem canon_FA46 (t : Fin grid0.N) (h2 : k0_cond2 (grid0.coords t) = 1#1) :
    (scA.slice (Rect.unit (s := S2x8x64x1024) (k0_off426 (grid0.coords t)) S1x8x1x1024.size (k0_off426_inb (grid0.coords t) h2)) (fun _ => rfl)).squeeze S8x1024 squeezes_S1x8x1x1024_S8x1024 = rowM scA (slN (t.val + 1)) ⟨46, Nat.le_of_ble_eq_true rfl⟩ :=
  congrArg (fun M : Memref sig .tc .vmem S1x8x1x1024 .f32 => M.squeeze S8x1024 squeezes_S1x8x1x1024_S8x1024) (Memref.slice_unit_congr _ (coff_FA46 t h2) _ _ (fun _ => rfl) (fun _ => rfl))
theorem coff_FB46 : ∀ t : Fin grid0.N, k0_cond2 (grid0.coords t) = 1#1 → k0_off429 (grid0.coords t) = ![(slN (t.val + 1)).val, 0, 46, 0] := by decide +kernel
@[sl_canon] theorem canon_FB46 (t : Fin grid0.N) (h2 : k0_cond2 (grid0.coords t) = 1#1) :
    (scB.slice (Rect.unit (s := S2x8x64x1024) (k0_off429 (grid0.coords t)) S1x8x1x1024.size (k0_off429_inb (grid0.coords t) h2)) (fun _ => rfl)).squeeze S8x1024 squeezes_S1x8x1x1024_S8x1024 = rowM scB (slN (t.val + 1)) ⟨46, Nat.le_of_ble_eq_true rfl⟩ :=
  congrArg (fun M : Memref sig .tc .vmem S1x8x1x1024 .f32 => M.squeeze S8x1024 squeezes_S1x8x1x1024_S8x1024) (Memref.slice_unit_congr _ (coff_FB46 t h2) _ _ (fun _ => rfl) (fun _ => rfl))
@[sl_canon] theorem canon_Fsem_semsA428 (t : Fin grid0.N) (h2 : k0_cond2 (grid0.coords t) = 1#1) :
    (cc0_scratch2.slice (Rect.unit (s := S2) (k0_off428 (grid0.coords t)) S1.size (k0_off428_inb (grid0.coords t) h2))).squeeze S_ squeezes_S1_S_ = semsA (slN (t.val + 1)) :=
  congrArg (fun A : DmaSems sig S1 => A.squeeze S_ squeezes_S1_S_) (SemArray.slice_unit_congr _ (coff_Fsem428 t h2) _ _)
theorem coff_Fsem433 : ∀ t : Fin grid0.N, k0_cond2 (grid0.coords t) = 1#1 → k0_off433 (grid0.coords t) = ![(slN (t.val + 1)).val] := by decide +kernel
@[sl_canon] theorem canon_Fsem_semsB433 (t : Fin grid0.N) (h2 : k0_cond2 (grid0.coords t) = 1#1) :
    (cc0_scratch3.slice (Rect.unit (s := S2) (k0_off433 (grid0.coords t)) S1.size (k0_off433_inb (grid0.coords t) h2))).squeeze S_ squeezes_S1_S_ = semsB (slN (t.val + 1)) :=
  congrArg (fun A : DmaSems sig S1 => A.squeeze S_ squeezes_S1_S_) (SemArray.slice_unit_congr _ (coff_Fsem433 t h2) _ _)
theorem coff_FA47 : ∀ t : Fin grid0.N, k0_cond2 (grid0.coords t) = 1#1 → k0_off431 (grid0.coords t) = ![(slN (t.val + 1)).val, 0, 47, 0] := by decide +kernel
@[sl_canon] theorem canon_FA47 (t : Fin grid0.N) (h2 : k0_cond2 (grid0.coords t) = 1#1) :
    (scA.slice (Rect.unit (s := S2x8x64x1024) (k0_off431 (grid0.coords t)) S1x8x1x1024.size (k0_off431_inb (grid0.coords t) h2)) (fun _ => rfl)).squeeze S8x1024 squeezes_S1x8x1x1024_S8x1024 = rowM scA (slN (t.val + 1)) ⟨47, Nat.le_of_ble_eq_true rfl⟩ :=
  congrArg (fun M : Memref sig .tc .vmem S1x8x1x1024 .f32 => M.squeeze S8x1024 squeezes_S1x8x1x1024_S8x1024) (Memref.slice_unit_congr _ (coff_FA47 t h2) _ _ (fun _ => rfl) (fun _ => rfl))
theorem coff_FB47 : ∀ t : Fin grid0.N, k0_cond2 (grid0.coords t) = 1#1 → k0_off434 (grid0.coords t) = ![(slN (t.val + 1)).val, 0, 47, 0] := by decide +kernel
@[sl_canon] theorem canon_FB47 (t : Fin grid0.N) (h2 : k0_cond2 (grid0.coords t) = 1#1) :
    (scB.slice (Rect.unit (s := S2x8x64x1024) (k0_off434 (grid0.coords t)) S1x8x1x1024.size (k0_off434_inb (grid0.coords t) h2)) (fun _ => rfl)).squeeze S8x1024 squeezes_S1x8x1x1024_S8x1024 = rowM scB (slN (t.val + 1)) ⟨47, Nat.le_of_ble_eq_true rfl⟩ :=
  congrArg (fun M : Memref sig .tc .vmem S1x8x1x1024 .f32 => M.squeeze S8x1024 squeezes_S1x8x1x1024_S8x1024) (Memref.slice_unit_congr _ (coff_FB47 t h2) _ _ (fun _ => rfl) (fun _ => rfl))
@[sl_canon] theorem canon_Fsem_semsA433 (t : Fin grid0.N) (h2 : k0_cond2 (grid0.coords t) = 1#1) :
    (cc0_scratch2.slice (Rect.unit (s := S2) (k0_off433 (grid0.coords t)) S1.size (k0_off433_inb (grid0.coords t) h2))).squeeze S_ squeezes_S1_S_ = semsA (slN (t.val + 1)) :=
  congrArg (fun A : DmaSems sig S1 => A.squeeze S_ squeezes_S1_S_) (SemArray.slice_unit_congr _ (coff_Fsem433 t h2) _ _)
theorem coff_Fsem438 : ∀ t : Fin grid0.N, k0_cond2 (grid0.coords t) = 1#1 → k0_off438 (grid0.coords t) = ![(slN (t.val + 1)).val] := by decide +kernel
@[sl_canon] theorem canon_Fsem_semsB438 (t : Fin grid0.N) (h2 : k0_cond2 (grid0.coords t) = 1#1) :
    (cc0_scratch3.slice (Rect.unit (s := S2) (k0_off438 (grid0.coords t)) S1.size (k0_off438_inb (grid0.coords t) h2))).squeeze S_ squeezes_S1_S_ = semsB (slN (t.val + 1)) :=
  congrArg (fun A : DmaSems sig S1 => A.squeeze S_ squeezes_S1_S_) (SemArray.slice_unit_congr _ (coff_Fsem438 t h2) _ _)
theorem coff_FA48 : ∀ t : Fin grid0.N, k0_cond2 (grid0.coords t) = 1#1 → k0_off436 (grid0.coords t) = ![(slN (t.val + 1)).val, 0, 48, 0] := by decide +kernel
@[sl_canon] theorem canon_FA48 (t : Fin grid0.N) (h2 : k0_cond2 (grid0.coords t) = 1#1) :
    (scA.slice (Rect.unit (s := S2x8x64x1024) (k0_off436 (grid0.coords t)) S1x8x1x1024.size (k0_off436_inb (grid0.coords t) h2)) (fun _ => rfl)).squeeze S8x1024 squeezes_S1x8x1x1024_S8x1024 = rowM scA (slN (t.val + 1)) ⟨48, Nat.le_of_ble_eq_true rfl⟩ :=
  congrArg (fun M : Memref sig .tc .vmem S1x8x1x1024 .f32 => M.squeeze S8x1024 squeezes_S1x8x1x1024_S8x1024) (Memref.slice_unit_congr _ (coff_FA48 t h2) _ _ (fun _ => rfl) (fun _ => rfl))
theorem coff_FB48 : ∀ t : Fin grid0.N, k0_cond2 (grid0.coords t) = 1#1 → k0_off439 (grid0.coords t) = ![(slN (t.val + 1)).val, 0, 48, 0] := by decide +kernel
@[sl_canon] theorem canon_FB48 (t : Fin grid0.N) (h2 : k0_cond2 (grid0.coords t) = 1#1) :
    (scB.slice (Rect.unit (s := S2x8x64x1024) (k0_off439 (grid0.coords t)) S1x8x1x1024.size (k0_off439_inb (grid0.coords t) h2)) (fun _ => rfl)).squeeze S8x1024 squeezes_S1x8x1x1024_S8x1024 = rowM scB (slN (t.val + 1)) ⟨48, Nat.le_of_ble_eq_true rfl⟩ :=
  congrArg (fun M : Memref sig .tc .vmem S1x8x1x1024 .f32 => M.squeeze S8x1024 squeezes_S1x8x1x1024_S8x1024) (Memref.slice_unit_congr _ (coff_FB48 t h2) _ _ (fun _ => rfl) (fun _ => rfl))
@[sl_canon] theorem canon_Fsem_semsA438 (t : Fin grid0.N) (h2 : k0_cond2 (grid0.coords t) = 1#1) :
    (cc0_scratch2.slice (Rect.unit (s := S2) (k0_off438 (grid0.coords t)) S1.size (k0_off438_inb (grid0.coords t) h2))).squeeze S_ squeezes_S1_S_ = semsA (slN (t.val + 1)) :=
  congrArg (fun A : DmaSems sig S1 => A.squeeze S_ squeezes_S1_S_) (SemArray.slice_unit_congr _ (coff_Fsem438 t h2) _ _)
theorem coff_Fsem443 : ∀ t : Fin grid0.N, k0_cond2 (grid0.coords t) = 1#1 → k0_off443 (grid0.coords t) = ![(slN (t.val + 1)).val] := by decide +kernel
@[sl_canon] theorem canon_Fsem_semsB443 (t : Fin grid0.N) (h2 : k0_cond2 (grid0.coords t) = 1#1) :
    (cc0_scratch3.slice (Rect.unit (s := S2) (k0_off443 (grid0.coords t)) S1.size (k0_off443_inb (grid0.coords t) h2))).squeeze S_ squeezes_S1_S_ = semsB (slN (t.val + 1)) :=
  congrArg (fun A : DmaSems sig S1 => A.squeeze S_ squeezes_S1_S_) (SemArray.slice_unit_congr _ (coff_Fsem443 t h2) _ _)
theorem coff_FA49 : ∀ t : Fin grid0.N, k0_cond2 (grid0.coords t) = 1#1 → k0_off441 (grid0.coords t) = ![(slN (t.val + 1)).val, 0, 49, 0] := by decide +kernel
@[sl_canon] theorem canon_FA49 (t : Fin grid0.N) (h2 : k0_cond2 (grid0.coords t) = 1#1) :
    (scA.slice (Rect.unit (s := S2x8x64x1024) (k0_off441 (grid0.coords t)) S1x8x1x1024.size (k0_off441_inb (grid0.coords t) h2)) (fun _ => rfl)).squeeze S8x1024 squeezes_S1x8x1x1024_S8x1024 = rowM scA (slN (t.val + 1)) ⟨49, Nat.le_of_ble_eq_true rfl⟩ :=
  congrArg (fun M : Memref sig .tc .vmem S1x8x1x1024 .f32 => M.squeeze S8x1024 squeezes_S1x8x1x1024_S8x1024) (Memref.slice_unit_congr _ (coff_FA49 t h2) _ _ (fun _ => rfl) (fun _ => rfl))
theorem coff_FB49 : ∀ t : Fin grid0.N, k0_cond2 (grid0.coords t) = 1#1 → k0_off444 (grid0.coords t) = ![(slN (t.val + 1)).val, 0, 49, 0] := by decide +kernel
@[sl_canon] theorem canon_FB49 (t : Fin grid0.N) (h2 : k0_cond2 (grid0.coords t) = 1#1) :
    (scB.slice (Rect.unit (s := S2x8x64x1024) (k0_off444 (grid0.coords t)) S1x8x1x1024.size (k0_off444_inb (grid0.coords t) h2)) (fun _ => rfl)).squeeze S8x1024 squeezes_S1x8x1x1024_S8x1024 = rowM scB (slN (t.val + 1)) ⟨49, Nat.le_of_ble_eq_true rfl⟩ :=
  congrArg (fun M : Memref sig .tc .vmem S1x8x1x1024 .f32 => M.squeeze S8x1024 squeezes_S1x8x1x1024_S8x1024) (Memref.slice_unit_congr _ (coff_FB49 t h2) _ _ (fun _ => rfl) (fun _ => rfl))
@[sl_canon] theorem canon_Fsem_semsA443 (t : Fin grid0.N) (h2 : k0_cond2 (grid0.coords t) = 1#1) :
    (cc0_scratch2.slice (Rect.unit (s := S2) (k0_off443 (grid0.coords t)) S1.size (k0_off443_inb (grid0.coords t) h2))).squeeze S_ squeezes_S1_S_ = semsA (slN (t.val + 1)) :=
  congrArg (fun A : DmaSems sig S1 => A.squeeze S_ squeezes_S1_S_) (SemArray.slice_unit_congr _ (coff_Fsem443 t h2) _ _)
theorem coff_Fsem448 : ∀ t : Fin grid0.N, k0_cond2 (grid0.coords t) = 1#1 → k0_off448 (grid0.coords t) = ![(slN (t.val + 1)).val] := by decide +kernel
@[sl_canon] theorem canon_Fsem_semsB448 (t : Fin grid0.N) (h2 : k0_cond2 (grid0.coords t) = 1#1) :
    (cc0_scratch3.slice (Rect.unit (s := S2) (k0_off448 (grid0.coords t)) S1.size (k0_off448_inb (grid0.coords t) h2))).squeeze S_ squeezes_S1_S_ = semsB (slN (t.val + 1)) :=
  congrArg (fun A : DmaSems sig S1 => A.squeeze S_ squeezes_S1_S_) (SemArray.slice_unit_congr _ (coff_Fsem448 t h2) _ _)
theorem coff_FA50 : ∀ t : Fin grid0.N, k0_cond2 (grid0.coords t) = 1#1 → k0_off446 (grid0.coords t) = ![(slN (t.val + 1)).val, 0, 50, 0] := by decide +kernel
@[sl_canon] theorem canon_FA50 (t : Fin grid0.N) (h2 : k0_cond2 (grid0.coords t) = 1#1) :
    (scA.slice (Rect.unit (s := S2x8x64x1024) (k0_off446 (grid0.coords t)) S1x8x1x1024.size (k0_off446_inb (grid0.coords t) h2)) (fun _ => rfl)).squeeze S8x1024 squeezes_S1x8x1x1024_S8x1024 = rowM scA (slN (t.val + 1)) ⟨50, Nat.le_of_ble_eq_true rfl⟩ :=
  congrArg (fun M : Memref sig .tc .vmem S1x8x1x1024 .f32 => M.squeeze S8x1024 squeezes_S1x8x1x1024_S8x1024) (Memref.slice_unit_congr _ (coff_FA50 t h2) _ _ (fun _ => rfl) (fun _ => rfl))
theorem coff_FB50 : ∀ t : Fin grid0.N, k0_cond2 (grid0.coords t) = 1#1 → k0_off449 (grid0.coords t) = ![(slN (t.val + 1)).val, 0, 50, 0] := by decide +kernel
@[sl_canon] theorem canon_FB50 (t : Fin grid0.N) (h2 : k0_cond2 (grid0.coords t) = 1#1) :
    (scB.slice (Rect.unit (s := S2x8x64x1024) (k0_off449 (grid0.coords t)) S1x8x1x1024.size (k0_off449_inb (grid0.coords t) h2)) (fun _ => rfl)).squeeze S8x1024 squeezes_S1x8x1x1024_S8x1024 = rowM scB (slN (t.val + 1)) ⟨50, Nat.le_of_ble_eq_true rfl⟩ :=
  congrArg (fun M : Memref sig .tc .vmem S1x8x1x1024 .f32 => M.squeeze S8x1024 squeezes_S1x8x1x1024_S8x1024) (Memref.slice_unit_congr _ (coff_FB50 t h2) _ _ (fun _ => rfl) (fun _ => rfl))
@[sl_canon] theorem canon_Fsem_semsA448 (t : Fin grid0.N) (h2 : k0_cond2 (grid0.coords t) = 1#1) :
    (cc0_scratch2.slice (Rect.unit (s := S2) (k0_off448 (grid0.coords t)) S1.size (k0_off448_inb (grid0.coords t) h2))).squeeze S_ squeezes_S1_S_ = semsA (slN (t.val + 1)) :=
  congrArg (fun A : DmaSems sig S1 => A.squeeze S_ squeezes_S1_S_) (SemArray.slice_unit_congr _ (coff_Fsem448 t h2) _ _)
theorem coff_Fsem453 : ∀ t : Fin grid0.N, k0_cond2 (grid0.coords t) = 1#1 → k0_off453 (grid0.coords t) = ![(slN (t.val + 1)).val] := by decide +kernel
@[sl_canon] theorem canon_Fsem_semsB453 (t : Fin grid0.N) (h2 : k0_cond2 (grid0.coords t) = 1#1) :
    (cc0_scratch3.slice (Rect.unit (s := S2) (k0_off453 (grid0.coords t)) S1.size (k0_off453_inb (grid0.coords t) h2))).squeeze S_ squeezes_S1_S_ = semsB (slN (t.val + 1)) :=
  congrArg (fun A : DmaSems sig S1 => A.squeeze S_ squeezes_S1_S_) (SemArray.slice_unit_congr _ (coff_Fsem453 t h2) _ _)
theorem coff_FA51 : ∀ t : Fin grid0.N, k0_cond2 (grid0.coords t) = 1#1 → k0_off451 (grid0.coords t) = ![(slN (t.val + 1)).val, 0, 51, 0] := by decide +kernel
@[sl_canon] theorem canon_FA51 (t : Fin grid0.N) (h2 : k0_cond2 (grid0.coords t) = 1#1) :
    (scA.slice (Rect.unit (s := S2x8x64x1024) (k0_off451 (grid0.coords t)) S1x8x1x1024.size (k0_off451_inb (grid0.coords t) h2)) (fun _ => rfl)).squeeze S8x1024 squeezes_S1x8x1x1024_S8x1024 = rowM scA (slN (t.val + 1)) ⟨51, Nat.le_of_ble_eq_true rfl⟩ :=
  congrArg (fun M : Memref sig .tc .vmem S1x8x1x1024 .f32 => M.squeeze S8x1024 squeezes_S1x8x1x1024_S8x1024) (Memref.slice_unit_congr _ (coff_FA51 t h2) _ _ (fun _ => rfl) (fun _ => rfl))
theorem coff_FB51 : ∀ t : Fin grid0.N, k0_cond2 (grid0.coords t) = 1#1 → k0_off454 (grid0.coords t) = ![(slN (t.val + 1)).val, 0, 51, 0] := by decide +kernel
@[sl_canon] theorem canon_FB51 (t : Fin grid0.N) (h2 : k0_cond2 (grid0.coords t) = 1#1) :
    (scB.slice (Rect.unit (s := S2x8x64x1024) (k0_off454 (grid0.coords t)) S1x8x1x1024.size (k0_off454_inb (grid0.coords t) h2)) (fun _ => rfl)).squeeze S8x1024 squeezes_S1x8x1x1024_S8x1024 = rowM scB (slN (t.val + 1)) ⟨51, Nat.le_of_ble_eq_true rfl⟩ :=
  congrArg (fun M : Memref sig .tc .vmem S1x8x1x1024 .f32 => M.squeeze S8x1024 squeezes_S1x8x1x1024_S8x1024) (Memref.slice_unit_congr _ (coff_FB51 t h2) _ _ (fun _ => rfl) (fun _ => rfl))
@[sl_canon] theorem canon_Fsem_semsA453 (t : Fin grid0.N) (h2 : k0_cond2 (grid0.coords t) = 1#1) :
    (cc0_scratch2.slice (Rect.unit (s := S2) (k0_off453 (grid0.coords t)) S1.size (k0_off453_inb (grid0.coords t) h2))).squeeze S_ squeezes_S1_S_ = semsA (slN (t.val + 1)) :=
  congrArg (fun A : DmaSems sig S1 => A.squeeze S_ squeezes_S1_S_) (SemArray.slice_unit_congr _ (coff_Fsem453 t h2) _ _)
theorem coff_Fsem458 : ∀ t : Fin grid0.N, k0_cond2 (grid0.coords t) = 1#1 → k0_off458 (grid0.coords t) = ![(slN (t.val + 1)).val] := by decide +kernel
@[sl_canon] theorem canon_Fsem_semsB458 (t : Fin grid0.N) (h2 : k0_cond2 (grid0.coords t) = 1#1) :
    (cc0_scratch3.slice (Rect.unit (s := S2) (k0_off458 (grid0.coords t)) S1.size (k0_off458_inb (grid0.coords t) h2))).squeeze S_ squeezes_S1_S_ = semsB (slN (t.val + 1)) :=
  congrArg (fun A : DmaSems sig S1 => A.squeeze S_ squeezes_S1_S_) (SemArray.slice_unit_congr _ (coff_Fsem458 t h2) _ _)
theorem coff_FA52 : ∀ t : Fin grid0.N, k0_cond2 (grid0.coords t) = 1#1 → k0_off456 (grid0.coords t) = ![(slN (t.val + 1)).val, 0, 52, 0] := by decide +kernel
@[sl_canon] theorem canon_FA52 (t : Fin grid0.N) (h2 : k0_cond2 (grid0.coords t) = 1#1) :
    (scA.slice (Rect.unit (s := S2x8x64x1024) (k0_off456 (grid0.coords t)) S1x8x1x1024.size (k0_off456_inb (grid0.coords t) h2)) (fun _ => rfl)).squeeze S8x1024 squeezes_S1x8x1x1024_S8x1024 = rowM scA (slN (t.val + 1)) ⟨52, Nat.le_of_ble_eq_true rfl⟩ :=
  congrArg (fun M : Memref sig .tc .vmem S1x8x1x1024 .f32 => M.squeeze S8x1024 squeezes_S1x8x1x1024_S8x1024) (Memref.slice_unit_congr _ (coff_FA52 t h2) _ _ (fun _ => rfl) (fun _ => rfl))
theorem coff_FB52 : ∀ t : Fin grid0.N, k0_cond2 (grid0.coords t) = 1#1 → k0_off459 (grid0.coords t) = ![(slN (t.val + 1)).val, 0, 52, 0] := by decide +kernel
@[sl_canon] theorem canon_FB52 (t : Fin grid0.N) (h2 : k0_cond2 (grid0.coords t) = 1#1) :
    (scB.slice (Rect.unit (s := S2x8x64x1024) (k0_off459 (grid0.coords t)) S1x8x1x1024.size (k0_off459_inb (grid0.coords t) h2)) (fun _ => rfl)).squeeze S8x1024 squeezes_S1x8x1x1024_S8x1024 = rowM scB (slN (t.val + 1)) ⟨52, Nat.le_of_ble_eq_true rfl⟩ :=
  congrArg (fun M : Memref sig .tc .vmem S1x8x1x1024 .f32 => M.squeeze S8x1024 squeezes_S1x8x1x1024_S8x1024) (Memref.slice_unit_congr _ (coff_FB52 t h2) _ _ (fun _ => rfl) (fun _ => rfl))
@[sl_canon] theorem canon_Fsem_semsA458 (t : Fin grid0.N) (h2 : k0_cond2 (grid0.coords t) = 1#1) :
    (cc0_scratch2.slice (Rect.unit (s := S2) (k0_off458 (grid0.coords t)) S1.size (k0_off458_inb (grid0.coords t) h2))).squeeze S_ squeezes_S1_S_ = semsA (slN (t.val + 1)) :=
  congrArg (fun A : DmaSems sig S1 => A.squeeze S_ squeezes_S1_S_) (SemArray.slice_unit_congr _ (coff_Fsem458 t h2) _ _)
theorem coff_Fsem463 : ∀ t : Fin grid0.N, k0_cond2 (grid0.coords t) = 1#1 → k0_off463 (grid0.coords t) = ![(slN (t.val + 1)).val] := by decide +kernel
@[sl_canon] theorem canon_Fsem_semsB463 (t : Fin grid0.N) (h2 : k0_cond2 (grid0.coords t) = 1#1) :
    (cc0_scratch3.slice (Rect.unit (s := S2) (k0_off463 (grid0.coords t)) S1.size (k0_off463_inb (grid0.coords t) h2))).squeeze S_ squeezes_S1_S_ = semsB (slN (t.val + 1)) :=
  congrArg (fun A : DmaSems sig S1 => A.squeeze S_ squeezes_S1_S_) (SemArray.slice_unit_congr _ (coff_Fsem463 t h2) _ _)
theorem coff_FA53 : ∀ t : Fin grid0.N, k0_cond2 (grid0.coords t) = 1#1 → k0_off461 (grid0.coords t) = ![(slN (t.val + 1)).val, 0, 53, 0] := by decide +kernel
@[sl_canon] theorem canon_FA53 (t : Fin grid0.N) (h2 : k0_cond2 (grid0.coords t) = 1#1) :
    (scA.slice (Rect.unit (s := S2x8x64x1024) (k0_off461 (grid0.coords t)) S1x8x1x1024.size (k0_off461_inb (grid0.coords t) h2)) (fun _ => rfl)).squeeze S8x1024 squeezes_S1x8x1x1024_S8x1024 = rowM scA (slN (t.val + 1)) ⟨53, Nat.le_of_ble_eq_true rfl⟩ :=
  congrArg (fun M : Memref sig .tc .vmem S1x8x1x1024 .f32 => M.squeeze S8x1024 squeezes_S1x8x1x1024_S8x1024) (Memref.slice_unit_congr _ (coff_FA53 t h2) _ _ (fun _ => rfl) (fun _ => rfl))
theorem coff_FB53 : ∀ t : Fin grid0.N, k0_cond2 (grid0.coords t) = 1#1 → k0_off464 (grid0.coords t) = ![(slN (t.val + 1)).val, 0, 53, 0] := by decide +kernel
@[sl_canon] theorem canon_FB53 (t : Fin grid0.N) (h2 : k0_cond2 (grid0.coords t) = 1#1) :
    (scB.slice (Rect.unit (s := S2x8x64x1024) (k0_off464 (grid0.coords t)) S1x8x1x1024.size (k0_off464_inb (grid0.coords t) h2)) (fun _ => rfl)).squeeze S8x1024 squeezes_S1x8x1x1024_S8x1024 = rowM scB (slN (t.val + 1)) ⟨53, Nat.le_of_ble_eq_true rfl⟩ :=
  congrArg (fun M : Memref sig .tc .vmem S1x8x1x1024 .f32 => M.squeeze S8x1024 squeezes_S1x8x1x1024_S8x1024) (Memref.slice_unit_congr _ (coff_FB53 t h2) _ _ (fun _ => rfl) (fun _ => rfl))
@[sl_canon] theorem canon_Fsem_semsA463 (t : Fin grid0.N) (h2 : k0_cond2 (grid0.coords t) = 1#1) :
    (cc0_scratch2.slice (Rect.unit (s := S2) (k0_off463 (grid0.coords t)) S1.size (k0_off463_inb (grid0.coords t) h2))).squeeze S_ squeezes_S1_S_ = semsA (slN (t.val + 1)) :=
  congrArg (fun A : DmaSems sig S1 => A.squeeze S_ squeezes_S1_S_) (SemArray.slice_unit_congr _ (coff_Fsem463 t h2) _ _)
theorem coff_Fsem468 : ∀ t : Fin grid0.N, k0_cond2 (grid0.coords t) = 1#1 → k0_off468 (grid0.coords t) = ![(slN (t.val + 1)).val] := by decide +kernel
@[sl_canon] theorem canon_Fsem_semsB468 (t : Fin grid0.N) (h2 : k0_cond2 (grid0.coords t) = 1#1) :
    (cc0_scratch3.slice (Rect.unit (s := S2) (k0_off468 (grid0.coords t)) S1.size (k0_off468_inb (grid0.coords t) h2))).squeeze S_ squeezes_S1_S_ = semsB (slN (t.val + 1)) :=
  congrArg (fun A : DmaSems sig S1 => A.squeeze S_ squeezes_S1_S_) (SemArray.slice_unit_congr _ (coff_Fsem468 t h2) _ _)
theorem coff_FA54 : ∀ t : Fin grid0.N, k0_cond2 (grid0.coords t) = 1#1 → k0_off466 (grid0.coords t) = ![(slN (t.val + 1)).val, 0, 54, 0] := by decide +kernel
@[sl_canon] theorem canon_FA54 (t : Fin grid0.N) (h2 : k0_cond2 (grid0.coords t) = 1#1) :
    (scA.slice (Rect.unit (s := S2x8x64x1024) (k0_off466 (grid0.coords t)) S1x8x1x1024.size (k0_off466_inb (grid0.coords t) h2)) (fun _ => rfl)).squeeze S8x1024 squeezes_S1x8x1x1024_S8x1024 = rowM scA (slN (t.val + 1)) ⟨54, Nat.le_of_ble_eq_true rfl⟩ :=
  congrArg (fun M : Memref sig .tc .vmem S1x8x1x1024 .f32 => M.squeeze S8x1024 squeezes_S1x8x1x1024_S8x1024) (Memref.slice_unit_congr _ (coff_FA54 t h2) _ _ (fun _ => rfl) (fun _ => rfl))
theorem coff_FB54 : ∀ t : Fin grid0.N, k0_cond2 (grid0.coords t) = 1#1 → k0_off469 (grid0.coords t) = ![(slN (t.val + 1)).val, 0, 54, 0] := by decide +kernel
@[sl_canon] theorem canon_FB54 (t : Fin grid0.N) (h2 : k0_cond2 (grid0.coords t) = 1#1) :
    (scB.slice (Rect.unit (s := S2x8x64x1024) (k0_off469 (grid0.coords t)) S1x8x1x1024.size (k0_off469_inb (grid0.coords t) h2)) (fun _ => rfl)).squeeze S8x1024 squeezes_S1x8x1x1024_S8x1024 = rowM scB (slN (t.val + 1)) ⟨54, Nat.le_of_ble_eq_true rfl⟩ :=
  congrArg (fun M : Memref sig .tc .vmem S1x8x1x1024 .f32 => M.squeeze S8x1024 squeezes_S1x8x1x1024_S8x1024) (Memref.slice_unit_congr _ (coff_FB54 t h2) _ _ (fun _ => rfl) (fun _ => rfl))
@[sl_canon] theorem canon_Fsem_semsA468 (t : Fin grid0.N) (h2 : k0_cond2 (grid0.coords t) = 1#1) :
    (cc0_scratch2.slice (Rect.unit (s := S2) (k0_off468 (grid0.coords t)) S1.size (k0_off468_inb (grid0.coords t) h2))).squeeze S_ squeezes_S1_S_ = semsA (slN (t.val + 1)) :=
  congrArg (fun A : DmaSems sig S1 => A.squeeze S_ squeezes_S1_S_) (SemArray.slice_unit_congr _ (coff_Fsem468 t h2) _ _)
theorem coff_Fsem473 : ∀ t : Fin grid0.N, k0_cond2 (grid0.coords t) = 1#1 → k0_off473 (grid0.coords t) = ![(slN (t.val + 1)).val] := by decide +kernel
@[sl_canon] theorem canon_Fsem_semsB473 (t : Fin grid0.N) (h2 : k0_cond2 (grid0.coords t) = 1#1) :
    (cc0_scratch3.slice (Rect.unit (s := S2) (k0_off473 (grid0.coords t)) S1.size (k0_off473_inb (grid0.coords t) h2))).squeeze S_ squeezes_S1_S_ = semsB (slN (t.val + 1)) :=
  congrArg (fun A : DmaSems sig S1 => A.squeeze S_ squeezes_S1_S_) (SemArray.slice_unit_congr _ (coff_Fsem473 t h2) _ _)
theorem coff_FA55 : ∀ t : Fin grid0.N, k0_cond2 (grid0.coords t) = 1#1 → k0_off471 (grid0.coords t) = ![(slN (t.val + 1)).val, 0, 55, 0] := by decide +kernel
@[sl_canon] theorem canon_FA55 (t : Fin grid0.N) (h2 : k0_cond2 (grid0.coords t) = 1#1) :
    (scA.slice (Rect.unit (s := S2x8x64x1024) (k0_off471 (grid0.coords t)) S1x8x1x1024.size (k0_off471_inb (grid0.coords t) h2)) (fun _ => rfl)).squeeze S8x1024 squeezes_S1x8x1x1024_S8x1024 = rowM scA (slN (t.val + 1)) ⟨55, Nat.le_of_ble_eq_true rfl⟩ :=
  congrArg (fun M : Memref sig .tc .vmem S1x8x1x1024 .f32 => M.squeeze S8x1024 squeezes_S1x8x1x1024_S8x1024) (Memref.slice_unit_congr _ (coff_FA55 t h2) _ _ (fun _ => rfl) (fun _ => rfl))
theorem coff_FB55 : ∀ t : Fin grid0.N, k0_cond2 (grid0.coords t) = 1#1 → k0_off474 (grid0.coords t) = ![(slN (t.val + 1)).val, 0, 55, 0] := by decide +kernel
@[sl_canon] theorem canon_FB55 (t : Fin grid0.N) (h2 : k0_cond2 (grid0.coords t) = 1#1) :
    (scB.slice (Rect.unit (s := S2x8x64x1024) (k0_off474 (grid0.coords t)) S1x8x1x1024.size (k0_off474_inb (grid0.coords t) h2)) (fun _ => rfl)).squeeze S8x1024 squeezes_S1x8x1x1024_S8x1024 = rowM scB (slN (t.val + 1)) ⟨55, Nat.le_of_ble_eq_true rfl⟩ :=
  congrArg (fun M : Memref sig .tc .vmem S1x8x1x1024 .f32 => M.squeeze S8x1024 squeezes_S1x8x1x1024_S8x1024) (Memref.slice_unit_congr _ (coff_FB55 t h2) _ _ (fun _ => rfl) (fun _ => rfl))
@[sl_canon] theorem canon_Fsem_semsA473 (t : Fin grid0.N) (h2 : k0_cond2 (grid0.coords t) = 1#1) :
    (cc0_scratch2.slice (Rect.unit (s := S2) (k0_off473 (grid0.coords t)) S1.size (k0_off473_inb (grid0.coords t) h2))).squeeze S_ squeezes_S1_S_ = semsA (slN (t.val + 1)) :=
  congrArg (fun A : DmaSems sig S1 => A.squeeze S_ squeezes_S1_S_) (SemArray.slice_unit_congr _ (coff_Fsem473 t h2) _ _)
theorem coff_Fsem478 : ∀ t : Fin grid0.N, k0_cond2 (grid0.coords t) = 1#1 → k0_off478 (grid0.coords t) = ![(slN (t.val + 1)).val] := by decide +kernel
@[sl_canon] theorem canon_Fsem_semsB478 (t : Fin grid0.N) (h2 : k0_cond2 (grid0.coords t) = 1#1) :
    (cc0_scratch3.slice (Rect.unit (s := S2) (k0_off478 (grid0.coords t)) S1.size (k0_off478_inb (grid0.coords t) h2))).squeeze S_ squeezes_S1_S_ = semsB (slN (t.val + 1)) :=
  congrArg (fun A : DmaSems sig S1 => A.squeeze S_ squeezes_S1_S_) (SemArray.slice_unit_congr _ (coff_Fsem478 t h2) _ _)
theorem coff_FA56 : ∀ t : Fin grid0.N, k0_cond2 (grid0.coords t) = 1#1 → k0_off476 (grid0.coords t) = ![(slN (t.val + 1)).val, 0, 56, 0] := by decide +kernel
@[sl_canon] theorem canon_FA56 (t : Fin grid0.N) (h2 : k0_cond2 (grid0.coords t) = 1#1) :
    (scA.slice (Rect.unit (s := S2x8x64x1024) (k0_off476 (grid0.coords t)) S1x8x1x1024.size (k0_off476_inb (grid0.coords t) h2)) (fun _ => rfl)).squeeze S8x1024 squeezes_S1x8x1x1024_S8x1024 = rowM scA (slN (t.val + 1)) ⟨56, Nat.le_of_ble_eq_true rfl⟩ :=
  congrArg (fun M : Memref sig .tc .vmem S1x8x1x1024 .f32 => M.squeeze S8x1024 squeezes_S1x8x1x1024_S8x1024) (Memref.slice_unit_congr _ (coff_FA56 t h2) _ _ (fun _ => rfl) (fun _ => rfl))
theorem coff_FB56 : ∀ t : Fin grid0.N, k0_cond2 (grid0.coords t) = 1#1 → k0_off479 (grid0.coords t) = ![(slN (t.val + 1)).val, 0, 56, 0] := by decide +kernel
@[sl_canon] theorem canon_FB56 (t : Fin grid0.N) (h2 : k0_cond2 (grid0.coords t) = 1#1) :
    (scB.slice (Rect.unit (s := S2x8x64x1024) (k0_off479 (grid0.coords t)) S1x8x1x1024.size (k0_off479_inb (grid0.coords t) h2)) (fun _ => rfl)).squeeze S8x1024 squeezes_S1x8x1x1024_S8x1024 = rowM scB (slN (t.val + 1)) ⟨56, Nat.le_of_ble_eq_true rfl⟩ :=
  congrArg (fun M : Memref sig .tc .vmem S1x8x1x1024 .f32 => M.squeeze S8x1024 squeezes_S1x8x1x1024_S8x1024) (Memref.slice_unit_congr _ (coff_FB56 t h2) _ _ (fun _ => rfl) (fun _ => rfl))
@[sl_canon] theorem canon_Fsem_semsA478 (t : Fin grid0.N) (h2 : k0_cond2 (grid0.coords t) = 1#1) :
    (cc0_scratch2.slice (Rect.unit (s := S2) (k0_off478 (grid0.coords t)) S1.size (k0_off478_inb (grid0.coords t) h2))).squeeze S_ squeezes_S1_S_ = semsA (slN (t.val + 1)) :=
  congrArg (fun A : DmaSems sig S1 => A.squeeze S_ squeezes_S1_S_) (SemArray.slice_unit_congr _ (coff_Fsem478 t h2) _ _)
theorem coff_Fsem483 : ∀ t : Fin grid0.N, k0_cond2 (grid0.coords t) = 1#1 → k0_off483 (grid0.coords t) = ![(slN (t.val + 1)).val] := by decide +kernel
@[sl_canon] theorem canon_Fsem_semsB483 (t : Fin grid0.N) (h2 : k0_cond2 (grid0.coords t) = 1#1) :
    (cc0_scratch3.slice (Rect.unit (s := S2) (k0_off483 (grid0.coords t)) S1.size (k0_off483_inb (grid0.coords t) h2))).squeeze S_ squeezes_S1_S_ = semsB (slN (t.val + 1)) :=
  congrArg (fun A : DmaSems sig S1 => A.squeeze S_ squeezes_S1_S_) (SemArray.slice_unit_congr _ (coff_Fsem483 t h2) _ _)
theorem coff_FA57 : ∀ t : Fin grid0.N, k0_cond2 (grid0.coords t) = 1#1 → k0_off481 (grid0.coords t) = ![(slN (t.val + 1)).val, 0, 57, 0] := by decide +kernel
@[sl_canon] theorem canon_FA57 (t : Fin grid0.N) (h2 : k0_cond2 (grid0.coords t) = 1#1) :
    (scA.slice (Rect.unit (s := S2x8x64x1024) (k0_off481 (grid0.coords t)) S1x8x1x1024.size (k0_off481_inb (grid0.coords t) h2)) (fun _ => rfl)).squeeze S8x1024 squeezes_S1x8x1x1024_S8x1024 = rowM scA (slN (t.val + 1)) ⟨57, Nat.le_of_ble_eq_true rfl⟩ :=
  congrArg (fun M : Memref sig .tc .vmem S1x8x1x1024 .f32 => M.squeeze S8x1024 squeezes_S1x8x1x1024_S8x1024) (Memref.slice_unit_congr _ (coff_FA57 t h2) _ _ (fun _ => rfl) (fun _ => rfl))
theorem coff_FB57 : ∀ t : Fin grid0.N, k0_cond2 (grid0.coords t) = 1#1 → k0_off484 (grid0.coords t) = ![(slN (t.val + 1)).val, 0, 57, 0] := by decide +kernel
@[sl_canon] theorem canon_FB57 (t : Fin grid0.N) (h2 : k0_cond2 (grid0.coords t) = 1#1) :
    (scB.slice (Rect.unit (s := S2x8x64x1024) (k0_off484 (grid0.coords t)) S1x8x1x1024.size (k0_off484_inb (grid0.coords t) h2)) (fun _ => rfl)).squeeze S8x1024 squeezes_S1x8x1x1024_S8x1024 = rowM scB (slN (t.val + 1)) ⟨57, Nat.le_of_ble_eq_true rfl⟩ :=
  congrArg (fun M : Memref sig .tc .vmem S1x8x1x1024 .f32 => M.squeeze S8x1024 squeezes_S1x8x1x1024_S8x1024) (Memref.slice_unit_congr _ (coff_FB57 t h2) _ _ (fun _ => rfl) (fun _ => rfl))
@[sl_canon] theorem canon_Fsem_semsA483 (t : Fin grid0.N) (h2 : k0_cond2 (grid0.coords t) = 1#1) :
    (cc0_scratch2.slice (Rect.unit (s := S2) (k0_off483 (grid0.coords t)) S1.size (k0_off483_inb (grid0.coords t) h2))).squeeze S_ squeezes_S1_S_ = semsA (slN (t.val + 1)) :=
  congrArg (fun A : DmaSems sig S1 => A.squeeze S_ squeezes_S1_S_) (SemArray.slice_unit_congr _ (coff_Fsem483 t h2) _ _)
theorem coff_Fsem488 : ∀ t : Fin grid0.N, k0_cond2 (grid0.coords t) = 1#1 → k0_off488 (grid0.coords t) = ![(slN (t.val + 1)).val] := by decide +kernel
@[sl_canon] theorem canon_Fsem_semsB488 (t : Fin grid0.N) (h2 : k0_cond2 (grid0.coords t) = 1#1) :
    (cc0_scratch3.slice (Rect.unit (s := S2) (k0_off488 (grid0.coords t)) S1.size (k0_off488_inb (grid0.coords t) h2))).squeeze S_ squeezes_S1_S_ = semsB (slN (t.val + 1)) :=
  congrArg (fun A : DmaSems sig S1 => A.squeeze S_ squeezes_S1_S_) (SemArray.slice_unit_congr _ (coff_Fsem488 t h2) _ _)
theorem coff_FA58 : ∀ t : Fin grid0.N, k0_cond2 (grid0.coords t) = 1#1 → k0_off486 (grid0.coords t) = ![(slN (t.val + 1)).val, 0, 58, 0] := by decide +kernel
@[sl_canon] theorem canon_FA58 (t : Fin grid0.N) (h2 : k0_cond2 (grid0.coords t) = 1#1) :
    (scA.slice (Rect.unit (s := S2x8x64x1024) (k0_off486 (grid0.coords t)) S1x8x1x1024.size (k0_off486_inb (grid0.coords t) h2)) (fun _ => rfl)).squeeze S8x1024 squeezes_S1x8x1x1024_S8x1024 = rowM scA (slN (t.val + 1)) ⟨58, Nat.le_of_ble_eq_true rfl⟩ :=
  congrArg (fun M : Memref sig .tc .vmem S1x8x1x1024 .f32 => M.squeeze S8x1024 squeezes_S1x8x1x1024_S8x1024) (Memref.slice_unit_congr _ (coff_FA58 t h2) _ _ (fun _ => rfl) (fun _ => rfl))
theorem coff_FB58 : ∀ t : Fin grid0.N, k0_cond2 (grid0.coords t) = 1#1 → k0_off489 (grid0.coords t) = ![(slN (t.val + 1)).val, 0, 58, 0] := by decide +kernel
@[sl_canon] theorem canon_FB58 (t : Fin grid0.N) (h2 : k0_cond2 (grid0.coords t) = 1#1) :
    (scB.slice (Rect.unit (s := S2x8x64x1024) (k0_off489 (grid0.coords t)) S1x8x1x1024.size (k0_off489_inb (grid0.coords t) h2)) (fun _ => rfl)).squeeze S8x1024 squeezes_S1x8x1x1024_S8x1024 = rowM scB (slN (t.val + 1)) ⟨58, Nat.le_of_ble_eq_true rfl⟩ :=
  congrArg (fun M : Memref sig .tc .vmem S1x8x1x1024 .f32 => M.squeeze S8x1024 squeezes_S1x8x1x1024_S8x1024) (Memref.slice_unit_congr _ (coff_FB58 t h2) _ _ (fun _ => rfl) (fun _ => rfl))
@[sl_canon] theorem canon_Fsem_semsA488 (t : Fin grid0.N) (h2 : k0_cond2 (grid0.coords t) = 1#1) :
    (cc0_scratch2.slice (Rect.unit (s := S2) (k0_off488 (grid0.coords t)) S1.size (k0_off488_inb (grid0.coords t) h2))).squeeze S_ squeezes_S1_S_ = semsA (slN (t.val + 1)) :=
  congrArg (fun A : DmaSems sig S1 => A.squeeze S_ squeezes_S1_S_) (SemArray.slice_unit_congr _ (coff_Fsem488 t h2) _ _)
theorem coff_Fsem493 : ∀ t : Fin grid0.N, k0_cond2 (grid0.coords t) = 1#1 → k0_off493 (grid0.coords t) = ![(slN (t.val + 1)).val] := by decide +kernel
@[sl_canon] theorem canon_Fsem_semsB493 (t : Fin grid0.N) (h2 : k0_cond2 (grid0.coords t) = 1#1) :
    (cc0_scratch3.slice (Rect.unit (s := S2) (k0_off493 (grid0.coords t)) S1.size (k0_off493_inb (grid0.coords t) h2))).squeeze S_ squeezes_S1_S_ = semsB (slN (t.val + 1)) :=
  congrArg (fun A : DmaSems sig S1 => A.squeeze S_ squeezes_S1_S_) (SemArray.slice_unit_congr _ (coff_Fsem493 t h2) _ _)
theorem coff_FA59 : ∀ t : Fin grid0.N, k0_cond2 (grid0.coords t) = 1#1 → k0_off491 (grid0.coords t) = ![(slN (t.val + 1)).val, 0, 59, 0] := by decide +kernel
@[sl_canon] theorem canon_FA59 (t : Fin grid0.N) (h2 : k0_cond2 (grid0.coords t) = 1#1) :
    (scA.slice (Rect.unit (s := S2x8x64x1024) (k0_off491 (grid0.coords t)) S1x8x1x1024.size (k0_off491_inb (grid0.coords t) h2)) (fun _ => rfl)).squeeze S8x1024 squeezes_S1x8x1x1024_S8x1024 = rowM scA (slN (t.val + 1)) ⟨59, Nat.le_of_ble_eq_true rfl⟩ :=
  congrArg (fun M : Memref sig .tc .vmem S1x8x1x1024 .f32 => M.squeeze S8x1024 squeezes_S1x8x1x1024_S8x1024) (Memref.slice_unit_congr _ (coff_FA59 t h2) _ _ (fun _ => rfl) (fun _ => rfl))
theorem coff_FB59 : ∀ t : Fin grid0.N, k0_cond2 (grid0.coords t) = 1#1 → k0_off494 (grid0.coords t) = ![(slN (t.val + 1)).val, 0, 59, 0] := by decide +kernel
@[sl_canon] theorem canon_FB59 (t : Fin grid0.N) (h2 : k0_cond2 (grid0.coords t) = 1#1) :
    (scB.slice (Rect.unit (s := S2x8x64x1024) (k0_off494 (grid0.coords t)) S1x8x1x1024.size (k0_off494_inb (grid0.coords t) h2)) (fun _ => rfl)).squeeze S8x1024 squeezes_S1x8x1x1024_S8x1024 = rowM scB (slN (t.val + 1)) ⟨59, Nat.le_of_ble_eq_true rfl⟩ :=
  congrArg (fun M : Memref sig .tc .vmem S1x8x1x1024 .f32 => M.squeeze S8x1024 squeezes_S1x8x1x1024_S8x1024) (Memref.slice_unit_congr _ (coff_FB59 t h2) _ _ (fun _ => rfl) (fun _ => rfl))
@[sl_canon] theorem canon_Fsem_semsA493 (t : Fin grid0.N) (h2 : k0_cond2 (grid0.coords t) = 1#1) :
    (cc0_scratch2.slice (Rect.unit (s := S2) (k0_off493 (grid0.coords t)) S1.size (k0_off493_inb (grid0.coords t) h2))).squeeze S_ squeezes_S1_S_ = semsA (slN (t.val + 1)) :=
  congrArg (fun A : DmaSems sig S1 => A.squeeze S_ squeezes_S1_S_) (SemArray.slice_unit_congr _ (coff_Fsem493 t h2) _ _)
theorem coff_Fsem498 : ∀ t : Fin grid0.N, k0_cond2 (grid0.coords t) = 1#1 → k0_off498 (grid0.coords t) = ![(slN (t.val + 1)).val] := by decide +kernel
@[sl_canon] theorem canon_Fsem_semsB498 (t : Fin grid0.N) (h2 : k0_cond2 (grid0.coords t) = 1#1) :
    (cc0_scratch3.slice (Rect.unit (s := S2) (k0_off498 (grid0.coords t)) S1.size (k0_off498_inb (grid0.coords t) h2))).squeeze S_ squeezes_S1_S_ = semsB (slN (t.val + 1)) :=
  congrArg (fun A : DmaSems sig S1 => A.squeeze S_ squeezes_S1_S_) (SemArray.slice_unit_congr _ (coff_Fsem498 t h2) _ _)
theorem coff_FA60 : ∀ t : Fin grid0.N, k0_cond2 (grid0.coords t) = 1#1 → k0_off496 (grid0.coords t) = ![(slN (t.val + 1)).val, 0, 60, 0] := by decide +kernel
@[sl_canon] theorem canon_FA60 (t : Fin grid0.N) (h2 : k0_cond2 (grid0.coords t) = 1#1) :
    (scA.slice (Rect.unit (s := S2x8x64x1024) (k0_off496 (grid0.coords t)) S1x8x1x1024.size (k0_off496_inb (grid0.coords t) h2)) (fun _ => rfl)).squeeze S8x1024 squeezes_S1x8x1x1024_S8x1024 = rowM scA (slN (t.val + 1)) ⟨60, Nat.le_of_ble_eq_true rfl⟩ :=
  congrArg (fun M : Memref sig .tc .vmem S1x8x1x1024 .f32 => M.squeeze S8x1024 squeezes_S1x8x1x1024_S8x1024) (Memref.slice_unit_congr _ (coff_FA60 t h2) _ _ (fun _ => rfl) (fun _ => rfl))
theorem coff_FB60 : ∀ t : Fin grid0.N, k0_cond2 (grid0.coords t) = 1#1 → k0_off499 (grid0.coords t) = ![(slN (t.val + 1)).val, 0, 60, 0] := by decide +kernel
@[sl_canon] theorem canon_FB60 (t : Fin grid0.N) (h2 : k0_cond2 (grid0.coords t) = 1#1) :
    (scB.slice (Rect.unit (s := S2x8x64x1024) (k0_off499 (grid0.coords t)) S1x8x1x1024.size (k0_off499_inb (grid0.coords t) h2)) (fun _ => rfl)).squeeze S8x1024 squeezes_S1x8x1x1024_S8x1024 = rowM scB (slN (t.val + 1)) ⟨60, Nat.le_of_ble_eq_true rfl⟩ :=
  congrArg (fun M : Memref sig .tc .vmem S1x8x1x1024 .f32 => M.squeeze S8x1024 squeezes_S1x8x1x1024_S8x1024) (Memref.slice_unit_congr _ (coff_FB60 t h2) _ _ (fun _ => rfl) (fun _ => rfl))
@[sl_canon] theorem canon_Fsem_semsA498 (t : Fin grid0.N) (h2 : k0_cond2 (grid0.coords t) = 1#1) :
    (cc0_scratch2.slice (Rect.unit (s := S2) (k0_off498 (grid0.coords t)) S1.size (k0_off498_inb (grid0.coords t) h2))).squeeze S_ squeezes_S1_S_ = semsA (slN (t.val + 1)) :=
  congrArg (fun A : DmaSems sig S1 => A.squeeze S_ squeezes_S1_S_) (SemArray.slice_unit_congr _ (coff_Fsem498 t h2) _ _)
theorem coff_Fsem503 : ∀ t : Fin grid0.N, k0_cond2 (grid0.coords t) = 1#1 → k0_off503 (grid0.coords t) = ![(slN (t.val + 1)).val] := by decide +kernel
@[sl_canon] theorem canon_Fsem_semsB503 (t : Fin grid0.N) (h2 : k0_cond2 (grid0.coords t) = 1#1) :
    (cc0_scratch3.slice (Rect.unit (s := S2) (k0_off503 (grid0.coords t)) S1.size (k0_off503_inb (grid0.coords t) h2))).squeeze S_ squeezes_S1_S_ = semsB (slN (t.val + 1)) :=
  congrArg (fun A : DmaSems sig S1 => A.squeeze S_ squeezes_S1_S_) (SemArray.slice_unit_congr _ (coff_Fsem503 t h2) _ _)
theorem coff_FA61 : ∀ t : Fin grid0.N, k0_cond2 (grid0.coords t) = 1#1 → k0_off501 (grid0.coords t) = ![(slN (t.val + 1)).val, 0, 61, 0] := by decide +kernel
@[sl_canon] theorem canon_FA61 (t : Fin grid0.N) (h2 : k0_cond2 (grid0.coords t) = 1#1) :
    (scA.slice (Rect.unit (s := S2x8x64x1024) (k0_off501 (grid0.coords t)) S1x8x1x1024.size (k0_off501_inb (grid0.coords t) h2)) (fun _ => rfl)).squeeze S8x1024 squeezes_S1x8x1x1024_S8x1024 = rowM scA (slN (t.val + 1)) ⟨61, Nat.le_of_ble_eq_true rfl⟩ :=
  congrArg (fun M : Memref sig .tc .vmem S1x8x1x1024 .f32 => M.squeeze S8x1024 squeezes_S1x8x1x1024_S8x1024) (Memref.slice_unit_congr _ (coff_FA61 t h2) _ _ (fun _ => rfl) (fun _ => rfl))
theorem coff_FB61 : ∀ t : Fin grid0.N, k0_cond2 (grid0.coords t) = 1#1 → k0_off504 (grid0.coords t) = ![(slN (t.val + 1)).val, 0, 61, 0] := by decide +kernel
@[sl_canon] theorem canon_FB61 (t : Fin grid0.N) (h2 : k0_cond2 (grid0.coords t) = 1#1) :
    (scB.slice (Rect.unit (s := S2x8x64x1024) (k0_off504 (grid0.coords t)) S1x8x1x1024.size (k0_off504_inb (grid0.coords t) h2)) (fun _ => rfl)).squeeze S8x1024 squeezes_S1x8x1x1024_S8x1024 = rowM scB (slN (t.val + 1)) ⟨61, Nat.le_of_ble_eq_true rfl⟩ :=
  congrArg (fun M : Memref sig .tc .vmem S1x8x1x1024 .f32 => M.squeeze S8x1024 squeezes_S1x8x1x1024_S8x1024) (Memref.slice_unit_congr _ (coff_FB61 t h2) _ _ (fun _ => rfl) (fun _ => rfl))
@[sl_canon] theorem canon_Fsem_semsA503 (t : Fin grid0.N) (h2 : k0_cond2 (grid0.coords t) = 1#1) :
    (cc0_scratch2.slice (Rect.unit (s := S2) (k0_off503 (grid0.coords t)) S1.size (k0_off503_inb (grid0.coords t) h2))).squeeze S_ squeezes_S1_S_ = semsA (slN (t.val + 1)) :=
  congrArg (fun A : DmaSems sig S1 => A.squeeze S_ squeezes_S1_S_) (SemArray.slice_unit_congr _ (coff_Fsem503 t h2) _ _)
theorem coff_Fsem508 : ∀ t : Fin grid0.N, k0_cond2 (grid0.coords t) = 1#1 → k0_off508 (grid0.coords t) = ![(slN (t.val + 1)).val] := by decide +kernel
@[sl_canon] theorem canon_Fsem_semsB508 (t : Fin grid0.N) (h2 : k0_cond2 (grid0.coords t) = 1#1) :
    (cc0_scratch3.slice (Rect.unit (s := S2) (k0_off508 (grid0.coords t)) S1.size (k0_off508_inb (grid0.coords t) h2))).squeeze S_ squeezes_S1_S_ = semsB (slN (t.val + 1)) :=
  congrArg (fun A : DmaSems sig S1 => A.squeeze S_ squeezes_S1_S_) (SemArray.slice_unit_congr _ (coff_Fsem508 t h2) _ _)
theorem coff_FA62 : ∀ t : Fin grid0.N, k0_cond2 (grid0.coords t) = 1#1 → k0_off506 (grid0.coords t) = ![(slN (t.val + 1)).val, 0, 62, 0] := by decide +kernel
@[sl_canon] theorem canon_FA62 (t : Fin grid0.N) (h2 : k0_cond2 (grid0.coords t) = 1#1) :
    (scA.slice (Rect.unit (s := S2x8x64x1024) (k0_off506 (grid0.coords t)) S1x8x1x1024.size (k0_off506_inb (grid0.coords t) h2)) (fun _ => rfl)).squeeze S8x1024 squeezes_S1x8x1x1024_S8x1024 = rowM scA (slN (t.val + 1)) ⟨62, Nat.le_of_ble_eq_true rfl⟩ :=
  congrArg (fun M : Memref sig .tc .vmem S1x8x1x1024 .f32 => M.squeeze S8x1024 squeezes_S1x8x1x1024_S8x1024) (Memref.slice_unit_congr _ (coff_FA62 t h2) _ _ (fun _ => rfl) (fun _ => rfl))
theorem coff_FB62 : ∀ t : Fin grid0.N, k0_cond2 (grid0.coords t) = 1#1 → k0_off509 (grid0.coords t) = ![(slN (t.val + 1)).val, 0, 62, 0] := by decide +kernel
@[sl_canon] theorem canon_FB62 (t : Fin grid0.N) (h2 : k0_cond2 (grid0.coords t) = 1#1) :
    (scB.slice (Rect.unit (s := S2x8x64x1024) (k0_off509 (grid0.coords t)) S1x8x1x1024.size (k0_off509_inb (grid0.coords t) h2)) (fun _ => rfl)).squeeze S8x1024 squeezes_S1x8x1x1024_S8x1024 = rowM scB (slN (t.val + 1)) ⟨62, Nat.le_of_ble_eq_true rfl⟩ :=
  congrArg (fun M : Memref sig .tc .vmem S1x8x1x1024 .f32 => M.squeeze S8x1024 squeezes_S1x8x1x1024_S8x1024) (Memref.slice_unit_congr _ (coff_FB62 t h2) _ _ (fun _ => rfl) (fun _ => rfl))
@[sl_canon] theorem canon_Fsem_semsA508 (t : Fin grid0.N) (h2 : k0_cond2 (grid0.coords t) = 1#1) :
    (cc0_scratch2.slice (Rect.unit (s := S2) (k0_off508 (grid0.coords t)) S1.size (k0_off508_inb (grid0.coords t) h2))).squeeze S_ squeezes_S1_S_ = semsA (slN (t.val + 1)) :=
  congrArg (fun A : DmaSems sig S1 => A.squeeze S_ squeezes_S1_S_) (SemArray.slice_unit_congr _ (coff_Fsem508 t h2) _ _)
theorem coff_Fsem513 : ∀ t : Fin grid0.N, k0_cond2 (grid0.coords t) = 1#1 → k0_off513 (grid0.coords t) = ![(slN (t.val + 1)).val] := by decide +kernel
@[sl_canon] theorem canon_Fsem_semsB513 (t : Fin grid0.N) (h2 : k0_cond2 (grid0.coords t) = 1#1) :
    (cc0_scratch3.slice (Rect.unit (s := S2) (k0_off513 (grid0.coords t)) S1.size (k0_off513_inb (grid0.coords t) h2))).squeeze S_ squeezes_S1_S_ = semsB (slN (t.val + 1)) :=
  congrArg (fun A : DmaSems sig S1 => A.squeeze S_ squeezes_S1_S_) (SemArray.slice_unit_congr _ (coff_Fsem513 t h2) _ _)
theorem coff_FA63 : ∀ t : Fin grid0.N, k0_cond2 (grid0.coords t) = 1#1 → k0_off511 (grid0.coords t) = ![(slN (t.val + 1)).val, 0, 63, 0] := by decide +kernel
@[sl_canon] theorem canon_FA63 (t : Fin grid0.N) (h2 : k0_cond2 (grid0.coords t) = 1#1) :
    (scA.slice (Rect.unit (s := S2x8x64x1024) (k0_off511 (grid0.coords t)) S1x8x1x1024.size (k0_off511_inb (grid0.coords t) h2)) (fun _ => rfl)).squeeze S8x1024 squeezes_S1x8x1x1024_S8x1024 = rowM scA (slN (t.val + 1)) ⟨63, Nat.le_of_ble_eq_true rfl⟩ :=
  congrArg (fun M : Memref sig .tc .vmem S1x8x1x1024 .f32 => M.squeeze S8x1024 squeezes_S1x8x1x1024_S8x1024) (Memref.slice_unit_congr _ (coff_FA63 t h2) _ _ (fun _ => rfl) (fun _ => rfl))
theorem coff_FB63 : ∀ t : Fin grid0.N, k0_cond2 (grid0.coords t) = 1#1 → k0_off514 (grid0.coords t) = ![(slN (t.val + 1)).val, 0, 63, 0] := by decide +kernel
@[sl_canon] theorem canon_FB63 (t : Fin grid0.N) (h2 : k0_cond2 (grid0.coords t) = 1#1) :
    (scB.slice (Rect.unit (s := S2x8x64x1024) (k0_off514 (grid0.coords t)) S1x8x1x1024.size (k0_off514_inb (grid0.coords t) h2)) (fun _ => rfl)).squeeze S8x1024 squeezes_S1x8x1x1024_S8x1024 = rowM scB (slN (t.val + 1)) ⟨63, Nat.le_of_ble_eq_true rfl⟩ :=
  congrArg (fun M : Memref sig .tc .vmem S1x8x1x1024 .f32 => M.squeeze S8x1024 squeezes_S1x8x1x1024_S8x1024) (Memref.slice_unit_congr _ (coff_FB63 t h2) _ _ (fun _ => rfl) (fun _ => rfl))

/-! ## The first fetch of a row group: slot 0, literal offsets -/
@[sl_canon] theorem canon_IsemA : (cc0_scratch2.slice (Rect.unit (s := S2) ![0] S1.size inb_S2_S1_0)).squeeze S_ squeezes_S1_S_ = semsA 0 := rfl
@[sl_canon] theorem canon_IsemB : (cc0_scratch3.slice (Rect.unit (s := S2) ![0] S1.size inb_S2_S1_0)).squeeze S_ squeezes_S1_S_ = semsB 0 := rfl
@[sl_canon] theorem canon_IscA0 : (scA.slice (Rect.unit (s := S2x8x64x1024) ![0, 0, 0, 0] S1x8x1x1024.size inb_S2x8x64x1024_S1x8x1x1024_0_0_0_0) (fun _ => rfl)).squeeze S8x1024 squeezes_S1x8x1x1024_S8x1024 = rowM scA 0 ⟨0, Nat.le_of_ble_eq_true rfl⟩ := rfl
@[sl_canon] theorem canon_IscB0 : (scB.slice (Rect.unit (s := S2x8x64x1024) ![0, 0, 0, 0] S1x8x1x1024.size inb_S2x8x64x1024_S1x8x1x1024_0_0_0_0) (fun _ => rfl)).squeeze S8x1024 squeezes_S1x8x1x1024_S8x1024 = rowM scB 0 ⟨0, Nat.le_of_ble_eq_true rfl⟩ := rfl
@[sl_canon] theorem canon_IscA1 : (scA.slice (Rect.unit (s := S2x8x64x1024) ![0, 0, 1, 0] S1x8x1x1024.size inb_S2x8x64x1024_S1x8x1x1024_0_0_1_0) (fun _ => rfl)).squeeze S8x1024 squeezes_S1x8x1x1024_S8x1024 = rowM scA 0 ⟨1, Nat.le_of_ble_eq_true rfl⟩ := rfl
@[sl_canon] theorem canon_IscB1 : (scB.slice (Rect.unit (s := S2x8x64x1024) ![0, 0, 1, 0] S1x8x1x1024.size inb_S2x8x64x1024_S1x8x1x1024_0_0_1_0) (fun _ => rfl)).squeeze S8x1024 squeezes_S1x8x1x1024_S8x1024 = rowM scB 0 ⟨1, Nat.le_of_ble_eq_true rfl⟩ := rfl
@[sl_canon] theorem canon_IscA2 : (scA.slice (Rect.unit (s := S2x8x64x1024) ![0, 0, 2, 0] S1x8x1x1024.size inb_S2x8x64x1024_S1x8x1x1024_0_0_2_0) (fun _ => rfl)).squeeze S8x1024 squeezes_S1x8x1x1024_S8x1024 = rowM scA 0 ⟨2, Nat.le_of_ble_eq_true rfl⟩ := rfl
@[sl_canon] theorem canon_IscB2 : (scB.slice (Rect.unit (s := S2x8x64x1024) ![0, 0, 2, 0] S1x8x1x1024.size inb_S2x8x64x1024_S1x8x1x1024_0_0_2_0) (fun _ => rfl)).squeeze S8x1024 squeezes_S1x8x1x1024_S8x1024 = rowM scB 0 ⟨2, Nat.le_of_ble_eq_true rfl⟩ := rfl
@[sl_canon] theorem canon_IscA3 : (scA.slice (Rect.unit (s := S2x8x64x1024) ![0, 0, 3, 0] S1x8x1x1024.size inb_S2x8x64x1024_S1x8x1x1024_0_0_3_0) (fun _ => rfl)).squeeze S8x1024 squeezes_S1x8x1x1024_S8x1024 = rowM scA 0 ⟨3, Nat.le_of_ble_eq_true rfl⟩ := rfl
@[sl_canon] theorem canon_IscB3 : (scB.slice (Rect.unit (s := S2x8x64x1024) ![0, 0, 3, 0] S1x8x1x1024.size inb_S2x8x64x1024_S1x8x1x1024_0_0_3_0) (fun _ => rfl)).squeeze S8x1024 squeezes_S1x8x1x1024_S8x1024 = rowM scB 0 ⟨3, Nat.le_of_ble_eq_true rfl⟩ := rfl
@[sl_canon] theorem canon_IscA4 : (scA.slice (Rect.unit (s := S2x8x64x1024) ![0, 0, 4, 0] S1x8x1x1024.size inb_S2x8x64x1024_S1x8x1x1024_0_0_4_0) (fun _ => rfl)).squeeze S8x1024 squeezes_S1x8x1x1024_S8x1024 = rowM scA 0 ⟨4, Nat.le_of_ble_eq_true rfl⟩ := rfl
@[sl_canon] theorem canon_IscB4 : (scB.slice (Rect.unit (s := S2x8x64x1024) ![0, 0, 4, 0] S1x8x1x1024.size inb_S2x8x64x1024_S1x8x1x1024_0_0_4_0) (fun _ => rfl)).squeeze S8x1024 squeezes_S1x8x1x1024_S8x1024 = rowM scB 0 ⟨4, Nat.le_of_ble_eq_true rfl⟩ := rfl
@[sl_canon] theorem canon_IscA5 : (scA.slice (Rect.unit (s := S2x8x64x1024) ![0, 0, 5, 0] S1x8x1x1024.size inb_S2x8x64x1024_S1x8x1x1024_0_0_5_0) (fun _ => rfl)).squeeze S8x1024 squeezes_S1x8x1x1024_S8x1024 = rowM scA 0 ⟨5, Nat.le_of_ble_eq_true rfl⟩ := rfl
@[sl_canon] theorem canon_IscB5 : (scB.slice (Rect.unit (s := S2x8x64x1024) ![0, 0, 5, 0] S1x8x1x1024.size inb_S2x8x64x1024_S1x8x1x1024_0_0_5_0) (fun _ => rfl)).squeeze S8x1024 squeezes_S1x8x1x1024_S8x1024 = rowM scB 0 ⟨5, Nat.le_of_ble_eq_true rfl⟩ := rfl
@[sl_canon] theorem canon_IscA6 : (scA.slice (Rect.unit (s := S2x8x64x1024) ![0, 0, 6, 0] S1x8x1x1024.size inb_S2x8x64x1024_S1x8x1x1024_0_0_6_0) (fun _ => rfl)).squeeze S8x1024 squeezes_S1x8x1x1024_S8x1024 = rowM scA 0 ⟨6, Nat.le_of_ble_eq_true rfl⟩ := rfl
@[sl_canon] theorem canon_IscB6 : (scB.slice (Rect.unit (s := S2x8x64x1024) ![0, 0, 6, 0] S1x8x1x1024.size inb_S2x8x64x1024_S1x8x1x1024_0_0_6_0) (fun _ => rfl)).squeeze S8x1024 squeezes_S1x8x1x1024_S8x1024 = rowM scB 0 ⟨6, Nat.le_of_ble_eq_true rfl⟩ := rfl
@[sl_canon] theorem canon_IscA7 : (scA.slice (Rect.unit (s := S2x8x64x1024) ![0, 0, 7, 0] S1x8x1x1024.size inb_S2x8x64x1024_S1x8x1x1024_0_0_7_0) (fun _ => rfl)).squeeze S8x1024 squeezes_S1x8x1x1024_S8x1024 = rowM scA 0 ⟨7, Nat.le_of_ble_eq_true rfl⟩ := rfl
@[sl_canon] theorem canon_IscB7 : (scB.slice (Rect.unit (s := S2x8x64x1024) ![0, 0, 7, 0] S1x8x1x1024.size inb_S2x8x64x1024_S1x8x1x1024_0_0_7_0) (fun _ => rfl)).squeeze S8x1024 squeezes_S1x8x1x1024_S8x1024 = rowM scB 0 ⟨7, Nat.le_of_ble_eq_true rfl⟩ := rfl
@[sl_canon] theorem canon_IscA8 : (scA.slice (Rect.unit (s := S2x8x64x1024) ![0, 0, 8, 0] S1x8x1x1024.size inb_S2x8x64x1024_S1x8x1x1024_0_0_8_0) (fun _ => rfl)).squeeze S8x1024 squeezes_S1x8x1x1024_S8x1024 = rowM scA 0 ⟨8, Nat.le_of_ble_eq_true rfl⟩ := rfl
@[sl_canon] theorem canon_IscB8 : (scB.slice (Rect.unit (s := S2x8x64x1024) ![0, 0, 8, 0] S1x8x1x1024.size inb_S2x8x64x1024_S1x8x1x1024_0_0_8_0) (fun _ => rfl)).squeeze S8x1024 squeezes_S1x8x1x1024_S8x1024 = rowM scB 0 ⟨8, Nat.le_of_ble_eq_true rfl⟩ := rfl
@[sl_canon] theorem canon_IscA9 : (scA.slice (Rect.unit (s := S2x8x64x1024) ![0, 0, 9, 0] S1x8x1x1024.size inb_S2x8x64x1024_S1x8x1x1024_0_0_9_0) (fun _ => rfl)).squeeze S8x1024 squeezes_S1x8x1x1024_S8x1024 = rowM scA 0 ⟨9, Nat.le_of_ble_eq_true rfl⟩ := rfl
@[sl_canon] theorem canon_IscB9 : (scB.slice (Rect.unit (s := S2x8x64x1024) ![0, 0, 9, 0] S1x8x1x1024.size inb_S2x8x64x1024_S1x8x1x1024_0_0_9_0) (fun _ => rfl)).squeeze S8x1024 squeezes_S1x8x1x1024_S8x1024 = rowM scB 0 ⟨9, Nat.le_of_ble_eq_true rfl⟩ := rfl
@[sl_canon] theorem canon_IscA10 : (scA.slice (Rect.unit (s := S2x8x64x1024) ![0, 0, 10, 0] S1x8x1x1024.size inb_S2x8x64x1024_S1x8x1x1024_0_0_10_0) (fun _ => rfl)).squeeze S8x1024 squeezes_S1x8x1x1024_S8x1024 = rowM scA 0 ⟨10, Nat.le_of_ble_eq_true rfl⟩ := rfl
@[sl_canon] theorem canon_IscB10 : (scB.slice (Rect.unit (s := S2x8x64x1024) ![0, 0, 10, 0] S1x8x1x1024.size inb_S2x8x64x1024_S1x8x1x1024_0_0_10_0) (fun _ => rfl)).squeeze S8x1024 squeezes_S1x8x1x1024_S8x1024 = rowM scB 0 ⟨10, Nat.le_of_ble_eq_true rfl⟩ := rfl
@[sl_canon] theorem canon_IscA11 : (scA.slice (Rect.unit (s := S2x8x64x1024) ![0, 0, 11, 0] S1x8x1x1024.size inb_S2x8x64x1024_S1x8x1x1024_0_0_11_0) (fun _ => rfl)).squeeze S8x1024 squeezes_S1x8x1x1024_S8x1024 = rowM scA 0 ⟨11, Nat.le_of_ble_eq_true rfl⟩ := rfl
@[sl_canon] theorem canon_IscB11 : (scB.slice (Rect.unit (s := S2x8x64x1024) ![0, 0, 11, 0] S1x8x1x1024.size inb_S2x8x64x1024_S1x8x1x1024_0_0_11_0) (fun _ => rfl)).squeeze S8x1024 squeezes_S1x8x1x1024_S8x1024 = rowM scB 0 ⟨11, Nat.le_of_ble_eq_true rfl⟩ := rfl
@[sl_canon] theorem canon_IscA12 : (scA.slice (Rect.unit (s := S2x8x64x1024) ![0, 0, 12, 0] S1x8x1x1024.size inb_S2x8x64x1024_S1x8x1x1024_0_0_12_0) (fun _ => rfl)).squeeze S8x1024 squeezes_S1x8x1x1024_S8x1024 = rowM scA 0 ⟨12, Nat.le_of_ble_eq_true rfl⟩ := rfl
@[sl_canon] theorem canon_IscB12 : (scB.slice (Rect.unit (s := S2x8x64x1024) ![0, 0, 12, 0] S1x8x1x1024.size inb_S2x8x64x1024_S1x8x1x1024_0_0_12_0) (fun _ => rfl)).squeeze S8x1024 squeezes_S1x8x1x1024_S8x1024 = rowM scB 0 ⟨12, Nat.le_of_ble_eq_true rfl⟩ := rfl
@[sl_canon] theorem canon_IscA13 : (scA.slice (Rect.unit (s := S2x8x64x1024) ![0, 0, 13, 0] S1x8x1x1024.size inb_S2x8x64x1024_S1x8x1x1024_0_0_13_0) (fun _ => rfl)).squeeze S8x1024 squeezes_S1x8x1x1024_S8x1024 = rowM scA 0 ⟨13, Nat.le_of_ble_eq_true rfl⟩ := rfl
@[sl_canon] theorem canon_IscB13 : (scB.slice (Rect.unit (s := S2x8x64x1024) ![0, 0, 13, 0] S1x8x1x1024.size inb_S2x8x64x1024_S1x8x1x1024_0_0_13_0) (fun _ => rfl)).squeeze S8x1024 squeezes_S1x8x1x1024_S8x1024 = rowM scB 0 ⟨13, Nat.le_of_ble_eq_true rfl⟩ := rfl
@[sl_canon] theorem canon_IscA14 : (scA.slice (Rect.unit (s := S2x8x64x1024) ![0, 0, 14, 0] S1x8x1x1024.size inb_S2x8x64x1024_S1x8x1x1024_0_0_14_0) (fun _ => rfl)).squeeze S8x1024 squeezes_S1x8x1x1024_S8x1024 = rowM scA 0 ⟨14, Nat.le_of_ble_eq_true rfl⟩ := rfl
@[sl_canon] theorem canon_IscB14 : (scB.slice (Rect.unit (s := S2x8x64x1024) ![0, 0, 14, 0] S1x8x1x1024.size inb_S2x8x64x1024_S1x8x1x1024_0_0_14_0) (fun _ => rfl)).squeeze S8x1024 squeezes_S1x8x1x1024_S8x1024 = rowM scB 0 ⟨14, Nat.le_of_ble_eq_true rfl⟩ := rfl
@[sl_canon] theorem canon_IscA15 : (scA.slice (Rect.unit (s := S2x8x64x1024) ![0, 0, 15, 0] S1x8x1x1024.size inb_S2x8x64x1024_S1x8x1x1024_0_0_15_0) (fun _ => rfl)).squeeze S8x1024 squeezes_S1x8x1x1024_S8x1024 = rowM scA 0 ⟨15, Nat.le_of_ble_eq_true rfl⟩ := rfl
@[sl_canon] theorem canon_IscB15 : (scB.slice (Rect.unit (s := S2x8x64x1024) ![0, 0, 15, 0] S1x8x1x1024.size inb_S2x8x64x1024_S1x8x1x1024_0_0_15_0) (fun _ => rfl)).squeeze S8x1024 squeezes_S1x8x1x1024_S8x1024 = rowM scB 0 ⟨15, Nat.le_of_ble_eq_true rfl⟩ := rfl
@[sl_canon] theorem canon_IscA16 : (scA.slice (Rect.unit (s := S2x8x64x1024) ![0, 0, 16, 0] S1x8x1x1024.size inb_S2x8x64x1024_S1x8x1x1024_0_0_16_0) (fun _ => rfl)).squeeze S8x1024 squeezes_S1x8x1x1024_S8x1024 = rowM scA 0 ⟨16, Nat.le_of_ble_eq_true rfl⟩ := rfl
@[sl_canon] theorem canon_IscB16 : (scB.slice (Rect.unit (s := S2x8x64x1024) ![0, 0, 16, 0] S1x8x1x1024.size inb_S2x8x64x1024_S1x8x1x1024_0_0_16_0) (fun _ => rfl)).squeeze S8x1024 squeezes_S1x8x1x1024_S8x1024 = rowM scB 0 ⟨16, Nat.le_of_ble_eq_true rfl⟩ := rfl
@[sl_canon] theorem canon_IscA17 : (scA.slice (Rect.unit (s := S2x8x64x1024) ![0, 0, 17, 0] S1x8x1x1024.size inb_S2x8x64x1024_S1x8x1x1024_0_0_17_0) (fun _ => rfl)).squeeze S8x1024 squeezes_S1x8x1x1024_S8x1024 = rowM scA 0 ⟨17, Nat.le_of_ble_eq_true rfl⟩ := rfl
@[sl_canon] theorem canon_IscB17 : (scB.slice (Rect.unit (s := S2x8x64x1024) ![0, 0, 17, 0] S1x8x1x1024.size inb_S2x8x64x1024_S1x8x1x1024_0_0_17_0) (fun _ => rfl)).squeeze S8x1024 squeezes_S1x8x1x1024_S8x1024 = rowM scB 0 ⟨17, Nat.le_of_ble_eq_true rfl⟩ := rfl
@[sl_canon] theorem canon_IscA18 : (scA.slice (Rect.unit (s := S2x8x64x1024) ![0, 0, 18, 0] S1x8x1x1024.size inb_S2x8x64x1024_S1x8x1x1024_0_0_18_0) (fun _ => rfl)).squeeze S8x1024 squeezes_S1x8x1x1024_S8x1024 = rowM scA 0 ⟨18, Nat.le_of_ble_eq_true rfl⟩ := rfl
@[sl_canon] theorem canon_IscB18 : (scB.slice (Rect.unit (s := S2x8x64x1024) ![0, 0, 18, 0] S1x8x1x1024.size inb_S2x8x64x1024_S1x8x1x1024_0_0_18_0) (fun _ => rfl)).squeeze S8x1024 squeezes_S1x8x1x1024_S8x1024 = rowM scB 0 ⟨18, Nat.le_of_ble_eq_true rfl⟩ := rfl
@[sl_canon] theorem canon_IscA19 : (scA.slice (Rect.unit (s := S2x8x64x1024) ![0, 0, 19, 0] S1x8x1x1024.size inb_S2x8x64x1024_S1x8x1x1024_0_0_19_0) (fun _ => rfl)).squeeze S8x1024 squeezes_S1x8x1x1024_S8x1024 = rowM scA 0 ⟨19, Nat.le_of_ble_eq_true rfl⟩ := rfl
@[sl_canon] theorem canon_IscB19 : (scB.slice (Rect.unit (s := S2x8x64x1024) ![0, 0, 19, 0] S1x8x1x1024.size inb_S2x8x64x1024_S1x8x1x1024_0_0_19_0) (fun _ => rfl)).squeeze S8x1024 squeezes_S1x8x1x1024_S8x1024 = rowM scB 0 ⟨19, Nat.le_of_ble_eq_true rfl⟩ := rfl
@[sl_canon] theorem canon_IscA20 : (scA.slice (Rect.unit (s := S2x8x64x1024) ![0, 0, 20, 0] S1x8x1x1024.size inb_S2x8x64x1024_S1x8x1x1024_0_0_20_0) (fun _ => rfl)).squeeze S8x1024 squeezes_S1x8x1x1024_S8x1024 = rowM scA 0 ⟨20, Nat.le_of_ble_eq_true rfl⟩ := rfl
@[sl_canon] theorem canon_IscB20 : (scB.slice (Rect.unit (s := S2x8x64x1024) ![0, 0, 20, 0] S1x8x1x1024.size inb_S2x8x64x1024_S1x8x1x1024_0_0_20_0) (fun _ => rfl)).squeeze S8x1024 squeezes_S1x8x1x1024_S8x1024 = rowM scB 0 ⟨20, Nat.le_of_ble_eq_true rfl⟩ := rfl
@[sl_canon] theorem canon_IscA21 : (scA.slice (Rect.unit (s := S2x8x64x1024) ![0, 0, 21, 0] S1x8x1x1024.size inb_S2x8x64x1024_S1x8x1x1024_0_0_21_0) (fun _ => rfl)).squeeze S8x1024 squeezes_S1x8x1x1024_S8x1024 = rowM scA 0 ⟨21, Nat.le_of_ble_eq_true rfl⟩ := rfl
@[sl_canon] theorem canon_IscB21 : (scB.slice (Rect.unit (s := S2x8x64x1024) ![0, 0, 21, 0] S1x8x1x1024.size inb_S2x8x64x1024_S1x8x1x1024_0_0_21_0) (fun _ => rfl)).squeeze S8x1024 squeezes_S1x8x1x1024_S8x1024 = rowM scB 0 ⟨21, Nat.le_of_ble_eq_true rfl⟩ := rfl
@[sl_canon] theorem canon_IscA22 : (scA.slice (Rect.unit (s := S2x8x64x1024) ![0, 0, 22, 0] S1x8x1x1024.size inb_S2x8x64x1024_S1x8x1x1024_0_0_22_0) (fun _ => rfl)).squeeze S8x1024 squeezes_S1x8x1x1024_S8x1024 = rowM scA 0 ⟨22, Nat.le_of_ble_eq_true rfl⟩ := rfl
@[sl_canon] theorem canon_IscB22 : (scB.slice (Rect.unit (s := S2x8x64x1024) ![0, 0, 22, 0] S1x8x1x1024.size inb_S2x8x64x1024_S1x8x1x1024_0_0_22_0) (fun _ => rfl)).squeeze S8x1024 squeezes_S1x8x1x1024_S8x1024 = rowM scB 0 ⟨22, Nat.le_of_ble_eq_true rfl⟩ := rfl
@[sl_canon] theorem canon_IscA23 : (scA.slice (Rect.unit (s := S2x8x64x1024) ![0, 0, 23, 0] S1x8x1x1024.size inb_S2x8x64x1024_S1x8x1x1024_0_0_23_0) (fun _ => rfl)).squeeze S8x1024 squeezes_S1x8x1x1024_S8x1024 = rowM scA 0 ⟨23, Nat.le_of_ble_eq_true rfl⟩ := rfl
@[sl_canon] theorem canon_IscB23 : (scB.slice (Rect.unit (s := S2x8x64x1024) ![0, 0, 23, 0] S1x8x1x1024.size inb_S2x8x64x1024_S1x8x1x1024_0_0_23_0) (fun _ => rfl)).squeeze S8x1024 squeezes_S1x8x1x1024_S8x1024 = rowM scB 0 ⟨23, Nat.le_of_ble_eq_true rfl⟩ := rfl
@[sl_canon] theorem canon_IscA24 : (scA.slice (Rect.unit (s := S2x8x64x1024) ![0, 0, 24, 0] S1x8x1x1024.size inb_S2x8x64x1024_S1x8x1x1024_0_0_24_0) (fun _ => rfl)).squeeze S8x1024 squeezes_S1x8x1x1024_S8x1024 = rowM scA 0 ⟨24, Nat.le_of_ble_eq_true rfl⟩ := rfl
@[sl_canon] theorem canon_IscB24 : (scB.slice (Rect.unit (s := S2x8x64x1024) ![0, 0, 24, 0] S1x8x1x1024.size inb_S2x8x64x1024_S1x8x1x1024_0_0_24_0) (fun _ => rfl)).squeeze S8x1024 squeezes_S1x8x1x1024_S8x1024 = rowM scB 0 ⟨24, Nat.le_of_ble_eq_true rfl⟩ := rfl
@[sl_canon] theorem canon_IscA25 : (scA.slice (Rect.unit (s := S2x8x64x1024) ![0, 0, 25, 0] S1x8x1x1024.size inb_S2x8x64x1024_S1x8x1x1024_0_0_25_0) (fun _ => rfl)).squeeze S8x1024 squeezes_S1x8x1x1024_S8x1024 = rowM scA 0 ⟨25, Nat.le_of_ble_eq_true rfl⟩ := rfl
@[sl_canon] theorem canon_IscB25 : (scB.slice (Rect.unit (s := S2x8x64x1024) ![0, 0, 25, 0] S1x8x1x1024.size inb_S2x8x64x1024_S1x8x1x1024_0_0_25_0) (fun _ => rfl)).squeeze S8x1024 squeezes_S1x8x1x1024_S8x1024 = rowM scB 0 ⟨25, Nat.le_of_ble_eq_true rfl⟩ := rfl
@[sl_canon] theorem canon_IscA26 : (scA.slice (Rect.unit (s := S2x8x64x1024) ![0, 0, 26, 0] S1x8x1x1024.size inb_S2x8x64x1024_S1x8x1x1024_0_0_26_0) (fun _ => rfl)).squeeze S8x1024 squeezes_S1x8x1x1024_S8x1024 = rowM scA 0 ⟨26, Nat.le_of_ble_eq_true rfl⟩ := rfl
@[sl_canon] theorem canon_IscB26 : (scB.slice (Rect.unit (s := S2x8x64x1024) ![0, 0, 26, 0] S1x8x1x1024.size inb_S2x8x64x1024_S1x8x1x1024_0_0_26_0) (fun _ => rfl)).squeeze S8x1024 squeezes_S1x8x1x1024_S8x1024 = rowM scB 0 ⟨26, Nat.le_of_ble_eq_true rfl⟩ := rfl
@[sl_canon] theorem canon_IscA27 : (scA.slice (Rect.unit (s := S2x8x64x1024) ![0, 0, 27, 0] S1x8x1x1024.size inb_S2x8x64x1024_S1x8x1x1024_0_0_27_0) (fun _ => rfl)).squeeze S8x1024 squeezes_S1x8x1x1024_S8x1024 = rowM scA 0 ⟨27, Nat.le_of_ble_eq_true rfl⟩ := rfl
@[sl_canon] theorem canon_IscB27 : (scB.slice (Rect.unit (s := S2x8x64x1024) ![0, 0, 27, 0] S1x8x1x1024.size inb_S2x8x64x1024_S1x8x1x1024_0_0_27_0) (fun _ => rfl)).squeeze S8x1024 squeezes_S1x8x1x1024_S8x1024 = rowM scB 0 ⟨27, Nat.le_of_ble_eq_true rfl⟩ := rfl
@[sl_canon] theorem canon_IscA28 : (scA.slice (Rect.unit (s := S2x8x64x1024) ![0, 0, 28, 0] S1x8x1x1024.size inb_S2x8x64x1024_S1x8x1x1024_0_0_28_0) (fun _ => rfl)).squeeze S8x1024 squeezes_S1x8x1x1024_S8x1024 = rowM scA 0 ⟨28, Nat.le_of_ble_eq_true rfl⟩ := rfl
@[sl_canon] theorem canon_IscB28 : (scB.slice (Rect.unit (s := S2x8x64x1024) ![0, 0, 28, 0] S1x8x1x1024.size inb_S2x8x64x1024_S1x8x1x1024_0_0_28_0) (fun _ => rfl)).squeeze S8x1024 squeezes_S1x8x1x1024_S8x1024 = rowM scB 0 ⟨28, Nat.le_of_ble_eq_true rfl⟩ := rfl
@[sl_canon] theorem canon_IscA29 : (scA.slice (Rect.unit (s := S2x8x64x1024) ![0, 0, 29, 0] S1x8x1x1024.size inb_S2x8x64x1024_S1x8x1x1024_0_0_29_0) (fun _ => rfl)).squeeze S8x1024 squeezes_S1x8x1x1024_S8x1024 = rowM scA 0 ⟨29, Nat.le_of_ble_eq_true rfl⟩ := rfl
@[sl_canon] theorem canon_IscB29 : (scB.slice (Rect.unit (s := S2x8x64x1024) ![0, 0, 29, 0] S1x8x1x1024.size inb_S2x8x64x1024_S1x8x1x1024_0_0_29_0) (fun _ => rfl)).squeeze S8x1024 squeezes_S1x8x1x1024_S8x1024 = rowM scB 0 ⟨29, Nat.le_of_ble_eq_true rfl⟩ := rfl
@[sl_canon] theorem canon_IscA30 : (scA.slice (Rect.unit (s := S2x8x64x1024) ![0, 0, 30, 0] S1x8x1x1024.size inb_S2x8x64x1024_S1x8x1x1024_0_0_30_0) (fun _ => rfl)).squeeze S8x1024 squeezes_S1x8x1x1024_S8x1024 = rowM scA 0 ⟨30, Nat.le_of_ble_eq_true rfl⟩ := rfl
@[sl_canon] theorem canon_IscB30 : (scB.slice (Rect.unit (s := S2x8x64x1024) ![0, 0, 30, 0] S1x8x1x1024.size inb_S2x8x64x1024_S1x8x1x1024_0_0_30_0) (fun _ => rfl)).squeeze S8x1024 squeezes_S1x8x1x1024_S8x1024 = rowM scB 0 ⟨30, Nat.le_of_ble_eq_true rfl⟩ := rfl
@[sl_canon] theorem canon_IscA31 : (scA.slice (Rect.unit (s := S2x8x64x1024) ![0, 0, 31, 0] S1x8x1x1024.size inb_S2x8x64x1024_S1x8x1x1024_0_0_31_0) (fun _ => rfl)).squeeze S8x1024 squeezes_S1x8x1x1024_S8x1024 = rowM scA 0 ⟨31, Nat.le_of_ble_eq_true rfl⟩ := rfl
@[sl_canon] theorem canon_IscB31 : (scB.slice (Rect.unit (s := S2x8x64x1024) ![0, 0, 31, 0] S1x8x1x1024.size inb_S2x8x64x1024_S1x8x1x1024_0_0_31_0) (fun _ => rfl)).squeeze S8x1024 squeezes_S1x8x1x1024_S8x1024 = rowM scB 0 ⟨31, Nat.le_of_ble_eq_true rfl⟩ := rfl
@[sl_canon] theorem canon_IscA32 : (scA.slice (Rect.unit (s := S2x8x64x1024) ![0, 0, 32, 0] S1x8x1x1024.size inb_S2x8x64x1024_S1x8x1x1024_0_0_32_0) (fun _ => rfl)).squeeze S8x1024 squeezes_S1x8x1x1024_S8x1024 = rowM scA 0 ⟨32, Nat.le_of_ble_eq_true rfl⟩ := rfl
@[sl_canon] theorem canon_IscB32 : (scB.slice (Rect.unit (s := S2x8x64x1024) ![0, 0, 32, 0] S1x8x1x1024.size inb_S2x8x64x1024_S1x8x1x1024_0_0_32_0) (fun _ => rfl)).squeeze S8x1024 squeezes_S1x8x1x1024_S8x1024 = rowM scB 0 ⟨32, Nat.le_of_ble_eq_true rfl⟩ := rfl
@[sl_canon] theorem canon_IscA33 : (scA.slice (Rect.unit (s := S2x8x64x1024) ![0, 0, 33, 0] S1x8x1x1024.size inb_S2x8x64x1024_S1x8x1x1024_0_0_33_0) (fun _ => rfl)).squeeze S8x1024 squeezes_S1x8x1x1024_S8x1024 = rowM scA 0 ⟨33, Nat.le_of_ble_eq_true rfl⟩ := rfl
@[sl_canon] theorem canon_IscB33 : (scB.slice (Rect.unit (s := S2x8x64x1024) ![0, 0, 33, 0] S1x8x1x1024.size inb_S2x8x64x1024_S1x8x1x1024_0_0_33_0) (fun _ => rfl)).squeeze S8x1024 squeezes_S1x8x1x1024_S8x1024 = rowM scB 0 ⟨33, Nat.le_of_ble_eq_true rfl⟩ := rfl
@[sl_canon] theorem canon_IscA34 : (scA.slice (Rect.unit (s := S2x8x64x1024) ![0, 0, 34, 0] S1x8x1x1024.size inb_S2x8x64x1024_S1x8x1x1024_0_0_34_0) (fun _ => rfl)).squeeze S8x1024 squeezes_S1x8x1x1024_S8x1024 = rowM scA 0 ⟨34, Nat.le_of_ble_eq_true rfl⟩ := rfl
@[sl_canon] theorem canon_IscB34 : (scB.slice (Rect.unit (s := S2x8x64x1024) ![0, 0, 34, 0] S1x8x1x1024.size inb_S2x8x64x1024_S1x8x1x1024_0_0_34_0) (fun _ => rfl)).squeeze S8x1024 squeezes_S1x8x1x1024_S8x1024 = rowM scB 0 ⟨34, Nat.le_of_ble_eq_true rfl⟩ := rfl
@[sl_canon] theorem canon_IscA35 : (scA.slice (Rect.unit (s := S2x8x64x1024) ![0, 0, 35, 0] S1x8x1x1024.size inb_S2x8x64x1024_S1x8x1x1024_0_0_35_0) (fun _ => rfl)).squeeze S8x1024 squeezes_S1x8x1x1024_S8x1024 = rowM scA 0 ⟨35, Nat.le_of_ble_eq_true rfl⟩ := rfl
@[sl_canon] theorem canon_IscB35 : (scB.slice (Rect.unit (s := S2x8x64x1024) ![0, 0, 35, 0] S1x8x1x1024.size inb_S2x8x64x1024_S1x8x1x1024_0_0_35_0) (fun _ => rfl)).squeeze S8x1024 squeezes_S1x8x1x1024_S8x1024 = rowM scB 0 ⟨35, Nat.le_of_ble_eq_true rfl⟩ := rfl
@[sl_canon] theorem canon_IscA36 : (scA.slice (Rect.unit (s := S2x8x64x1024) ![0, 0, 36, 0] S1x8x1x1024.size inb_S2x8x64x1024_S1x8x1x1024_0_0_36_0) (fun _ => rfl)).squeeze S8x1024 squeezes_S1x8x1x1024_S8x1024 = rowM scA 0 ⟨36, Nat.le_of_ble_eq_true rfl⟩ := rfl
@[sl_canon] theorem canon_IscB36 : (scB.slice (Rect.unit (s := S2x8x64x1024) ![0, 0, 36, 0] S1x8x1x1024.size inb_S2x8x64x1024_S1x8x1x1024_0_0_36_0) (fun _ => rfl)).squeeze S8x1024 squeezes_S1x8x1x1024_S8x1024 = rowM scB 0 ⟨36, Nat.le_of_ble_eq_true rfl⟩ := rfl
@[sl_canon] theorem canon_IscA37 : (scA.slice (Rect.unit (s := S2x8x64x1024) ![0, 0, 37, 0] S1x8x1x1024.size inb_S2x8x64x1024_S1x8x1x1024_0_0_37_0) (fun _ => rfl)).squeeze S8x1024 squeezes_S1x8x1x1024_S8x1024 = rowM scA 0 ⟨37, Nat.le_of_ble_eq_true rfl⟩ := rfl
@[sl_canon] theorem canon_IscB37 : (scB.slice (Rect.unit (s := S2x8x64x1024) ![0, 0, 37, 0] S1x8x1x1024.size inb_S2x8x64x1024_S1x8x1x1024_0_0_37_0) (fun _ => rfl)).squeeze S8x1024 squeezes_S1x8x1x1024_S8x1024 = rowM scB 0 ⟨37, Nat.le_of_ble_eq_true rfl⟩ := rfl
@[sl_canon] theorem canon_IscA38 : (scA.slice (Rect.unit (s := S2x8x64x1024) ![0, 0, 38, 0] S1x8x1x1024.size inb_S2x8x64x1024_S1x8x1x1024_0_0_38_0) (fun _ => rfl)).squeeze S8x1024 squeezes_S1x8x1x1024_S8x1024 = rowM scA 0 ⟨38, Nat.le_of_ble_eq_true rfl⟩ := rfl
@[sl_canon] theorem canon_IscB38 : (scB.slice (Rect.unit (s := S2x8x64x1024) ![0, 0, 38, 0] S1x8x1x1024.size inb_S2x8x64x1024_S1x8x1x1024_0_0_38_0) (fun _ => rfl)).squeeze S8x1024 squeezes_S1x8x1x1024_S8x1024 = rowM scB 0 ⟨38, Nat.le_of_ble_eq_true rfl⟩ := rfl
@[sl_canon] theorem canon_IscA39 : (scA.slice (Rect.unit (s := S2x8x64x1024) ![0, 0, 39, 0] S1x8x1x1024.size inb_S2x8x64x1024_S1x8x1x1024_0_0_39_0) (fun _ => rfl)).squeeze S8x1024 squeezes_S1x8x1x1024_S8x1024 = rowM scA 0 ⟨39, Nat.le_of_ble_eq_true rfl⟩ := rfl
@[sl_canon] theorem canon_IscB39 : (scB.slice (Rect.unit (s := S2x8x64x1024) ![0, 0, 39, 0] S1x8x1x1024.size inb_S2x8x64x1024_S1x8x1x1024_0_0_39_0) (fun _ => rfl)).squeeze S8x1024 squeezes_S1x8x1x1024_S8x1024 = rowM scB 0 ⟨39, Nat.le_of_ble_eq_true rfl⟩ := rfl
@[sl_canon] theorem canon_IscA40 : (scA.slice (Rect.unit (s := S2x8x64x1024) ![0, 0, 40, 0] S1x8x1x1024.size inb_S2x8x64x1024_S1x8x1x1024_0_0_40_0) (fun _ => rfl)).squeeze S8x1024 squeezes_S1x8x1x1024_S8x1024 = rowM scA 0 ⟨40, Nat.le_of_ble_eq_true rfl⟩ := rfl
@[sl_canon] theorem canon_IscB40 : (scB.slice (Rect.unit (s := S2x8x64x1024) ![0, 0, 40, 0] S1x8x1x1024.size inb_S2x8x64x1024_S1x8x1x1024_0_0_40_0) (fun _ => rfl)).squeeze S8x1024 squeezes_S1x8x1x1024_S8x1024 = rowM scB 0 ⟨40, Nat.le_of_ble_eq_true rfl⟩ := rfl
@[sl_canon] theorem canon_IscA41 : (scA.slice (Rect.unit (s := S2x8x64x1024) ![0, 0, 41, 0] S1x8x1x1024.size inb_S2x8x64x1024_S1x8x1x1024_0_0_41_0) (fun _ => rfl)).squeeze S8x1024 squeezes_S1x8x1x1024_S8x1024 = rowM scA 0 ⟨41, Nat.le_of_ble_eq_true rfl⟩ := rfl
@[sl_canon] theorem canon_IscB41 : (scB.slice (Rect.unit (s := S2x8x64x1024) ![0, 0, 41, 0] S1x8x1x1024.size inb_S2x8x64x1024_S1x8x1x1024_0_0_41_0) (fun _ => rfl)).squeeze S8x1024 squeezes_S1x8x1x1024_S8x1024 = rowM scB 0 ⟨41, Nat.le_of_ble_eq_true rfl⟩ := rfl
@[sl_canon] theorem canon_IscA42 : (scA.slice (Rect.unit (s := S2x8x64x1024) ![0, 0, 42, 0] S1x8x1x1024.size inb_S2x8x64x1024_S1x8x1x1024_0_0_42_0) (fun _ => rfl)).squeeze S8x1024 squeezes_S1x8x1x1024_S8x1024 = rowM scA 0 ⟨42, Nat.le_of_ble_eq_true rfl⟩ := rfl
@[sl_canon] theorem canon_IscB42 : (scB.slice (Rect.unit (s := S2x8x64x1024) ![0, 0, 42, 0] S1x8x1x1024.size inb_S2x8x64x1024_S1x8x1x1024_0_0_42_0) (fun _ => rfl)).squeeze S8x1024 squeezes_S1x8x1x1024_S8x1024 = rowM scB 0 ⟨42, Nat.le_of_ble_eq_true rfl⟩ := rfl
@[sl_canon] theorem canon_IscA43 : (scA.slice (Rect.unit (s := S2x8x64x1024) ![0, 0, 43, 0] S1x8x1x1024.size inb_S2x8x64x1024_S1x8x1x1024_0_0_43_0) (fun _ => rfl)).squeeze S8x1024 squeezes_S1x8x1x1024_S8x1024 = rowM scA 0 ⟨43, Nat.le_of_ble_eq_true rfl⟩ := rfl
@[sl_canon] theorem canon_IscB43 : (scB.slice (Rect.unit (s := S2x8x64x1024) ![0, 0, 43, 0] S1x8x1x1024.size inb_S2x8x64x1024_S1x8x1x1024_0_0_43_0) (fun _ => rfl)).squeeze S8x1024 squeezes_S1x8x1x1024_S8x1024 = rowM scB 0 ⟨43, Nat.le_of_ble_eq_true rfl⟩ := rfl
@[sl_canon] theorem canon_IscA44 : (scA.slice (Rect.unit (s := S2x8x64x1024) ![0, 0, 44, 0] S1x8x1x1024.size inb_S2x8x64x1024_S1x8x1x1024_0_0_44_0) (fun _ => rfl)).squeeze S8x1024 squeezes_S1x8x1x1024_S8x1024 = rowM scA 0 ⟨44, Nat.le_of_ble_eq_true rfl⟩ := rfl
@[sl_canon] theorem canon_IscB44 : (scB.slice (Rect.unit (s := S2x8x64x1024) ![0, 0, 44, 0] S1x8x1x1024.size inb_S2x8x64x1024_S1x8x1x1024_0_0_44_0) (fun _ => rfl)).squeeze S8x1024 squeezes_S1x8x1x1024_S8x1024 = rowM scB 0 ⟨44, Nat.le_of_ble_eq_true rfl⟩ := rfl
@[sl_canon] theorem canon_IscA45 : (scA.slice (Rect.unit (s := S2x8x64x1024) ![0, 0, 45, 0] S1x8x1x1024.size inb_S2x8x64x1024_S1x8x1x1024_0_0_45_0) (fun _ => rfl)).squeeze S8x1024 squeezes_S1x8x1x1024_S8x1024 = rowM scA 0 ⟨45, Nat.le_of_ble_eq_true rfl⟩ := rfl
@[sl_canon] theorem canon_IscB45 : (scB.slice (Rect.unit (s := S2x8x64x1024) ![0, 0, 45, 0] S1x8x1x1024.size inb_S2x8x64x1024_S1x8x1x1024_0_0_45_0) (fun _ => rfl)).squeeze S8x1024 squeezes_S1x8x1x1024_S8x1024 = rowM scB 0 ⟨45, Nat.le_of_ble_eq_true rfl⟩ := rfl
@[sl_canon] theorem canon_IscA46 : (scA.slice (Rect.unit (s := S2x8x64x1024) ![0, 0, 46, 0] S1x8x1x1024.size inb_S2x8x64x1024_S1x8x1x1024_0_0_46_0) (fun _ => rfl)).squeeze S8x1024 squeezes_S1x8x1x1024_S8x1024 = rowM scA 0 ⟨46, Nat.le_of_ble_eq_true rfl⟩ := rfl
@[sl_canon] theorem canon_IscB46 : (scB.slice (Rect.unit (s := S2x8x64x1024) ![0, 0, 46, 0] S1x8x1x1024.size inb_S2x8x64x1024_S1x8x1x1024_0_0_46_0) (fun _ => rfl)).squeeze S8x1024 squeezes_S1x8x1x1024_S8x1024 = rowM scB 0 ⟨46, Nat.le_of_ble_eq_true rfl⟩ := rfl
@[sl_canon] theorem canon_IscA47 : (scA.slice (Rect.unit (s := S2x8x64x1024) ![0, 0, 47, 0] S1x8x1x1024.size inb_S2x8x64x1024_S1x8x1x1024_0_0_47_0) (fun _ => rfl)).squeeze S8x1024 squeezes_S1x8x1x1024_S8x1024 = rowM scA 0 ⟨47, Nat.le_of_ble_eq_true rfl⟩ := rfl
@[sl_canon] theorem canon_IscB47 : (scB.slice (Rect.unit (s := S2x8x64x1024) ![0, 0, 47, 0] S1x8x1x1024.size inb_S2x8x64x1024_S1x8x1x1024_0_0_47_0) (fun _ => rfl)).squeeze S8x1024 squeezes_S1x8x1x1024_S8x1024 = rowM scB 0 ⟨47, Nat.le_of_ble_eq_true rfl⟩ := rfl
@[sl_canon] theorem canon_IscA48 : (scA.slice (Rect.unit (s := S2x8x64x1024) ![0, 0, 48, 0] S1x8x1x1024.size inb_S2x8x64x1024_S1x8x1x1024_0_0_48_0) (fun _ => rfl)).squeeze S8x1024 squeezes_S1x8x1x1024_S8x1024 = rowM scA 0 ⟨48, Nat.le_of_ble_eq_true rfl⟩ := rfl
@[sl_canon] theorem canon_IscB48 : (scB.slice (Rect.unit (s := S2x8x64x1024) ![0, 0, 48, 0] S1x8x1x1024.size inb_S2x8x64x1024_S1x8x1x1024_0_0_48_0) (fun _ => rfl)).squeeze S8x1024 squeezes_S1x8x1x1024_S8x1024 = rowM scB 0 ⟨48, Nat.le_of_ble_eq_true rfl⟩ := rfl
@[sl_canon] theorem canon_IscA49 : (scA.slice (Rect.unit (s := S2x8x64x1024) ![0, 0, 49, 0] S1x8x1x1024.size inb_S2x8x64x1024_S1x8x1x1024_0_0_49_0) (fun _ => rfl)).squeeze S8x1024 squeezes_S1x8x1x1024_S8x1024 = rowM scA 0 ⟨49, Nat.le_of_ble_eq_true rfl⟩ := rfl
@[sl_canon] theorem canon_IscB49 : (scB.slice (Rect.unit (s := S2x8x64x1024) ![0, 0, 49, 0] S1x8x1x1024.size inb_S2x8x64x1024_S1x8x1x1024_0_0_49_0) (fun _ => rfl)).squeeze S8x1024 squeezes_S1x8x1x1024_S8x1024 = rowM scB 0 ⟨49, Nat.le_of_ble_eq_true rfl⟩ := rfl
@[sl_canon] theorem canon_IscA50 : (scA.slice (Rect.unit (s := S2x8x64x1024) ![0, 0, 50, 0] S1x8x1x1024.size inb_S2x8x64x1024_S1x8x1x1024_0_0_50_0) (fun _ => rfl)).squeeze S8x1024 squeezes_S1x8x1x1024_S8x1024 = rowM scA 0 ⟨50, Nat.le_of_ble_eq_true rfl⟩ := rfl
@[sl_canon] theorem canon_IscB50 : (scB.slice (Rect.unit (s := S2x8x64x1024) ![0, 0, 50, 0] S1x8x1x1024.size inb_S2x8x64x1024_S1x8x1x1024_0_0_50_0) (fun _ => rfl)).squeeze S8x1024 squeezes_S1x8x1x1024_S8x1024 = rowM scB 0 ⟨50, Nat.le_of_ble_eq_true rfl⟩ := rfl
@[sl_canon] theorem canon_IscA51 : (scA.slice (Rect.unit (s := S2x8x64x1024) ![0, 0, 51, 0] S1x8x1x1024.size inb_S2x8x64x1024_S1x8x1x1024_0_0_51_0) (fun _ => rfl)).squeeze S8x1024 squeezes_S1x8x1x1024_S8x1024 = rowM scA 0 ⟨51, Nat.le_of_ble_eq_true rfl⟩ := rfl
@[sl_canon] theorem canon_IscB51 : (scB.slice (Rect.unit (s := S2x8x64x1024) ![0, 0, 51, 0] S1x8x1x1024.size inb_S2x8x64x1024_S1x8x1x1024_0_0_51_0) (fun _ => rfl)).squeeze S8x1024 squeezes_S1x8x1x1024_S8x1024 = rowM scB 0 ⟨51, Nat.le_of_ble_eq_true rfl⟩ := rfl
@[sl_canon] theorem canon_IscA52 : (scA.slice (Rect.unit (s := S2x8x64x1024) ![0, 0, 52, 0] S1x8x1x1024.size inb_S2x8x64x1024_S1x8x1x1024_0_0_52_0) (fun _ => rfl)).squeeze S8x1024 squeezes_S1x8x1x1024_S8x1024 = rowM scA 0 ⟨52, Nat.le_of_ble_eq_true rfl⟩ := rfl
@[sl_canon] theorem canon_IscB52 : (scB.slice (Rect.unit (s := S2x8x64x1024) ![0, 0, 52, 0] S1x8x1x1024.size inb_S2x8x64x1024_S1x8x1x1024_0_0_52_0) (fun _ => rfl)).squeeze S8x1024 squeezes_S1x8x1x1024_S8x1024 = rowM scB 0 ⟨52, Nat.le_of_ble_eq_true rfl⟩ := rfl
@[sl_canon] theorem canon_IscA53 : (scA.slice (Rect.unit (s := S2x8x64x1024) ![0, 0, 53, 0] S1x8x1x1024.size inb_S2x8x64x1024_S1x8x1x1024_0_0_53_0) (fun _ => rfl)).squeeze S8x1024 squeezes_S1x8x1x1024_S8x1024 = rowM scA 0 ⟨53, Nat.le_of_ble_eq_true rfl⟩ := rfl
@[sl_canon] theorem canon_IscB53 : (scB.slice (Rect.unit (s := S2x8x64x1024) ![0, 0, 53, 0] S1x8x1x1024.size inb_S2x8x64x1024_S1x8x1x1024_0_0_53_0) (fun _ => rfl)).squeeze S8x1024 squeezes_S1x8x1x1024_S8x1024 = rowM scB 0 ⟨53, Nat.le_of_ble_eq_true rfl⟩ := rfl
@[sl_canon] theorem canon_IscA54 : (scA.slice (Rect.unit (s := S2x8x64x1024) ![0, 0, 54, 0] S1x8x1x1024.size inb_S2x8x64x1024_S1x8x1x1024_0_0_54_0) (fun _ => rfl)).squeeze S8x1024 squeezes_S1x8x1x1024_S8x1024 = rowM scA 0 ⟨54, Nat.le_of_ble_eq_true rfl⟩ := rfl
@[sl_canon] theorem canon_IscB54 : (scB.slice (Rect.unit (s := S2x8x64x1024) ![0, 0, 54, 0] S1x8x1x1024.size inb_S2x8x64x1024_S1x8x1x1024_0_0_54_0) (fun _ => rfl)).squeeze S8x1024 squeezes_S1x8x1x1024_S8x1024 = rowM scB 0 ⟨54, Nat.le_of_ble_eq_true rfl⟩ := rfl
@[sl_canon] theorem canon_IscA55 : (scA.slice (Rect.unit (s := S2x8x64x1024) ![0, 0, 55, 0] S1x8x1x1024.size inb_S2x8x64x1024_S1x8x1x1024_0_0_55_0) (fun _ => rfl)).squeeze S8x1024 squeezes_S1x8x1x1024_S8x1024 = rowM scA 0 ⟨55, Nat.le_of_ble_eq_true rfl⟩ := rfl
@[sl_canon] theorem canon_IscB55 : (scB.slice (Rect.unit (s := S2x8x64x1024) ![0, 0, 55, 0] S1x8x1x1024.size inb_S2x8x64x1024_S1x8x1x1024_0_0_55_0) (fun _ => rfl)).squeeze S8x1024 squeezes_S1x8x1x1024_S8x1024 = rowM scB 0 ⟨55, Nat.le_of_ble_eq_true rfl⟩ := rfl
@[sl_canon] theorem canon_IscA56 : (scA.slice (Rect.unit (s := S2x8x64x1024) ![0, 0, 56, 0] S1x8x1x1024.size inb_S2x8x64x1024_S1x8x1x1024_0_0_56_0) (fun _ => rfl)).squeeze S8x1024 squeezes_S1x8x1x1024_S8x1024 = rowM scA 0 ⟨56, Nat.le_of_ble_eq_true rfl⟩ := rfl
@[sl_canon] theorem canon_IscB56 : (scB.slice (Rect.unit (s := S2x8x64x1024) ![0, 0, 56, 0] S1x8x1x1024.size inb_S2x8x64x1024_S1x8x1x1024_0_0_56_0) (fun _ => rfl)).squeeze S8x1024 squeezes_S1x8x1x1024_S8x1024 = rowM scB 0 ⟨56, Nat.le_of_ble_eq_true rfl⟩ := rfl
@[sl_canon] theorem canon_IscA57 : (scA.slice (Rect.unit (s := S2x8x64x1024) ![0, 0, 57, 0] S1x8x1x1024.size inb_S2x8x64x1024_S1x8x1x1024_0_0_57_0) (fun _ => rfl)).squeeze S8x1024 squeezes_S1x8x1x1024_S8x1024 = rowM scA 0 ⟨57, Nat.le_of_ble_eq_true rfl⟩ := rfl
@[sl_canon] theorem canon_IscB57 : (scB.slice (Rect.unit (s := S2x8x64x1024) ![0, 0, 57, 0] S1x8x1x1024.size inb_S2x8x64x1024_S1x8x1x1024_0_0_57_0) (fun _ => rfl)).squeeze S8x1024 squeezes_S1x8x1x1024_S8x1024 = rowM scB 0 ⟨57, Nat.le_of_ble_eq_true rfl⟩ := rfl
@[sl_canon] theorem canon_IscA58 : (scA.slice (Rect.unit (s := S2x8x64x1024) ![0, 0, 58, 0] S1x8x1x1024.size inb_S2x8x64x1024_S1x8x1x1024_0_0_58_0) (fun _ => rfl)).squeeze S8x1024 squeezes_S1x8x1x1024_S8x1024 = rowM scA 0 ⟨58, Nat.le_of_ble_eq_true rfl⟩ := rfl
@[sl_canon] theorem canon_IscB58 : (scB.slice (Rect.unit (s := S2x8x64x1024) ![0, 0, 58, 0] S1x8x1x1024.size inb_S2x8x64x1024_S1x8x1x1024_0_0_58_0) (fun _ => rfl)).squeeze S8x1024 squeezes_S1x8x1x1024_S8x1024 = rowM scB 0 ⟨58, Nat.le_of_ble_eq_true rfl⟩ := rfl
@[sl_canon] theorem canon_IscA59 : (scA.slice (Rect.unit (s := S2x8x64x1024) ![0, 0, 59, 0] S1x8x1x1024.size inb_S2x8x64x1024_S1x8x1x1024_0_0_59_0) (fun _ => rfl)).squeeze S8x1024 squeezes_S1x8x1x1024_S8x1024 = rowM scA 0 ⟨59, Nat.le_of_ble_eq_true rfl⟩ := rfl
@[sl_canon] theorem canon_IscB59 : (scB.slice (Rect.unit (s := S2x8x64x1024) ![0, 0, 59, 0] S1x8x1x1024.size inb_S2x8x64x1024_S1x8x1x1024_0_0_59_0) (fun _ => rfl)).squeeze S8x1024 squeezes_S1x8x1x1024_S8x1024 = rowM scB 0 ⟨59, Nat.le_of_ble_eq_true rfl⟩ := rfl
@[sl_canon] theorem canon_IscA60 : (scA.slice (Rect.unit (s := S2x8x64x1024) ![0, 0, 60, 0] S1x8x1x1024.size inb_S2x8x64x1024_S1x8x1x1024_0_0_60_0) (fun _ => rfl)).squeeze S8x1024 squeezes_S1x8x1x1024_S8x1024 = rowM scA 0 ⟨60, Nat.le_of_ble_eq_true rfl⟩ := rfl
@[sl_canon] theorem canon_IscB60 : (scB.slice (Rect.unit (s := S2x8x64x1024) ![0, 0, 60, 0] S1x8x1x1024.size inb_S2x8x64x1024_S1x8x1x1024_0_0_60_0) (fun _ => rfl)).squeeze S8x1024 squeezes_S1x8x1x1024_S8x1024 = rowM scB 0 ⟨60, Nat.le_of_ble_eq_true rfl⟩ := rfl
@[sl_canon] theorem canon_IscA61 : (scA.slice (Rect.unit (s := S2x8x64x1024) ![0, 0, 61, 0] S1x8x1x1024.size inb_S2x8x64x1024_S1x8x1x1024_0_0_61_0) (fun _ => rfl)).squeeze S8x1024 squeezes_S1x8x1x1024_S8x1024 = rowM scA 0 ⟨61, Nat.le_of_ble_eq_true rfl⟩ := rfl
@[sl_canon] theorem canon_IscB61 : (scB.slice (Rect.unit (s := S2x8x64x1024) ![0, 0, 61, 0] S1x8x1x1024.size inb_S2x8x64x1024_S1x8x1x1024_0_0_61_0) (fun _ => rfl)).squeeze S8x1024 squeezes_S1x8x1x1024_S8x1024 = rowM scB 0 ⟨61, Nat.le_of_ble_eq_true rfl⟩ := rfl
@[sl_canon] theorem canon_IscA62 : (scA.slice (Rect.unit (s := S2x8x64x1024) ![0, 0, 62, 0] S1x8x1x1024.size inb_S2x8x64x1024_S1x8x1x1024_0_0_62_0) (fun _ => rfl)).squeeze S8x1024 squeezes_S1x8x1x1024_S8x1024 = rowM scA 0 ⟨62, Nat.le_of_ble_eq_true rfl⟩ := rfl
@[sl_canon] theorem canon_IscB62 : (scB.slice (Rect.unit (s := S2x8x64x1024) ![0, 0, 62, 0] S1x8x1x1024.size inb_S2x8x64x1024_S1x8x1x1024_0_0_62_0) (fun _ => rfl)).squeeze S8x1024 squeezes_S1x8x1x1024_S8x1024 = rowM scB 0 ⟨62, Nat.le_of_ble_eq_true rfl⟩ := rfl
@[sl_canon] theorem canon_IscA63 : (scA.slice (Rect.unit (s := S2x8x64x1024) ![0, 0, 63, 0] S1x8x1x1024.size inb_S2x8x64x1024_S1x8x1x1024_0_0_63_0) (fun _ => rfl)).squeeze S8x1024 squeezes_S1x8x1x1024_S8x1024 = rowM scA 0 ⟨63, Nat.le_of_ble_eq_true rfl⟩ := rfl
@[sl_canon] theorem canon_IscB63 : (scB.slice (Rect.unit (s := S2x8x64x1024) ![0, 0, 63, 0] S1x8x1x1024.size inb_S2x8x64x1024_S1x8x1x1024_0_0_63_0) (fun _ => rfl)).squeeze S8x1024 squeezes_S1x8x1x1024_S8x1024 = rowM scB 0 ⟨63, Nat.le_of_ble_eq_true rfl⟩ := rfl

/-! ## The loads: the box of slot t mod 2 -/
theorem coff_L : ∀ t : Fin grid0.N, k0_off515 (grid0.coords t) = ![(slN t.val).val, 0, 0, 0] := by decide +kernel
instance (priority := high) closedOff_L (t : Fin grid0.N) : ClosedOff (k0_off515 (grid0.coords t)) := ⟨![(slN t.val).val, 0, 0, 0], coff_L t⟩

/-! ## The table cells: copy r of grid point t reads cell 64·t + r, the prefetch cell 64·(t + 1) + r -/
theorem coff_C1_0 : ∀ t : Fin grid0.N, k0_cond1 (grid0.coords t) = 1#1 → k0_off1 (grid0.coords t) = ![64 * t.val + 0] := by decide +kernel
theorem coff_C1_1 : ∀ t : Fin grid0.N, k0_cond1 (grid0.coords t) = 1#1 → k0_off3 (grid0.coords t) = ![64 * t.val + 1] := by decide +kernel
theorem coff_C1_2 : ∀ t : Fin grid0.N, k0_cond1 (grid0.coords t) = 1#1 → k0_off5 (grid0.coords t) = ![64 * t.val + 2] := by decide +kernel
theorem coff_C1_3 : ∀ t : Fin grid0.N, k0_cond1 (grid0.coords t) = 1#1 → k0_off7 (grid0.coords t) = ![64 * t.val + 3] := by decide +kernel
theorem coff_C1_4 : ∀ t : Fin grid0.N, k0_cond1 (grid0.coords t) = 1#1 → k0_off9 (grid0.coords t) = ![64 * t.val + 4] := by decide +kernel
theorem coff_C1_5 : ∀ t : Fin grid0.N, k0_cond1 (grid0.coords t) = 1#1 → k0_off11 (grid0.coords t) = ![64 * t.val + 5] := by decide +kernel
theorem coff_C1_6 : ∀ t : Fin grid0.N, k0_cond1 (grid0.coords t) = 1#1 → k0_off13 (grid0.coords t) = ![64 * t.val + 6] := by decide +kernel
theorem coff_C1_7 : ∀ t : Fin grid0.N, k0_cond1 (grid0.coords t) = 1#1 → k0_off15 (grid0.coords t) = ![64 * t.val + 7] := by decide +kernel
theorem coff_C1_8 : ∀ t : Fin grid0.N, k0_cond1 (grid0.coords t) = 1#1 → k0_off17 (grid0.coords t) = ![64 * t.val + 8] := by decide +kernel
theorem coff_C1_9 : ∀ t : Fin grid0.N, k0_cond1 (grid0.coords t) = 1#1 → k0_off19 (grid0.coords t) = ![64 * t.val + 9] := by decide +kernel
theorem coff_C1_10 : ∀ t : Fin grid0.N, k0_cond1 (grid0.coords t) = 1#1 → k0_off21 (grid0.coords t) = ![64 * t.val + 10] := by decide +kernel
theorem coff_C1_11 : ∀ t : Fin grid0.N, k0_cond1 (grid0.coords t) = 1#1 → k0_off23 (grid0.coords t) = ![64 * t.val + 11] := by decide +kernel
theorem coff_C1_12 : ∀ t : Fin grid0.N, k0_cond1 (grid0.coords t) = 1#1 → k0_off25 (grid0.coords t) = ![64 * t.val + 12] := by decide +kernel
theorem coff_C1_13 : ∀ t : Fin grid0.N, k0_cond1 (grid0.coords t) = 1#1 → k0_off27 (grid0.coords t) = ![64 * t.val + 13] := by decide +kernel
theorem coff_C1_14 : ∀ t : Fin grid0.N, k0_cond1 (grid0.coords t) = 1#1 → k0_off29 (grid0.coords t) = ![64 * t.val + 14] := by decide +kernel
theorem coff_C1_15 : ∀ t : Fin grid0.N, k0_cond1 (grid0.coords t) = 1#1 → k0_off31 (grid0.coords t) = ![64 * t.val + 15] := by decide +kernel
theorem coff_C1_16 : ∀ t : Fin grid0.N, k0_cond1 (grid0.coords t) = 1#1 → k0_off33 (grid0.coords t) = ![64 * t.val + 16] := by decide +kernel
theorem coff_C1_17 : ∀ t : Fin grid0.N, k0_cond1 (grid0.coords t) = 1#1 → k0_off35 (grid0.coords t) = ![64 * t.val + 17] := by decide +kernel
theorem coff_C1_18 : ∀ t : Fin grid0.N, k0_cond1 (grid0.coords t) = 1#1 → k0_off37 (grid0.coords t) = ![64 * t.val + 18] := by decide +kernel
theorem coff_C1_19 : ∀ t : Fin grid0.N, k0_cond1 (grid0.coords t) = 1#1 → k0_off39 (grid0.coords t) = ![64 * t.val + 19] := by decide +kernel
theorem coff_C1_20 : ∀ t : Fin grid0.N, k0_cond1 (grid0.coords t) = 1#1 → k0_off41 (grid0.coords t) = ![64 * t.val + 20] := by decide +kernel
theorem coff_C1_21 : ∀ t : Fin grid0.N, k0_cond1 (grid0.coords t) = 1#1 → k0_off43 (grid0.coords t) = ![64 * t.val + 21] := by decide +kernel
theorem coff_C1_22 : ∀ t : Fin grid0.N, k0_cond1 (grid0.coords t) = 1#1 → k0_off45 (grid0.coords t) = ![64 * t.val + 22] := by decide +kernel
theorem coff_C1_23 : ∀ t : Fin grid0.N, k0_cond1 (grid0.coords t) = 1#1 → k0_off47 (grid0.coords t) = ![64 * t.val + 23] := by decide +kernel
theorem coff_C1_24 : ∀ t : Fin grid0.N, k0_cond1 (grid0.coords t) = 1#1 → k0_off49 (grid0.coords t) = ![64 * t.val + 24] := by decide +kernel
theorem coff_C1_25 : ∀ t : Fin grid0.N, k0_cond1 (grid0.coords t) = 1#1 → k0_off51 (grid0.coords t) = ![64 * t.val + 25] := by decide +kernel
theorem coff_C1_26 : ∀ t : Fin grid0.N, k0_cond1 (grid0.coords t) = 1#1 → k0_off53 (grid0.coords t) = ![64 * t.val + 26] := by decide +kernel
theorem coff_C1_27 : ∀ t : Fin grid0.N, k0_cond1 (grid0.coords t) = 1#1 → k0_off55 (grid0.coords t) = ![64 * t.val + 27] := by decide +kernel
theorem coff_C1_28 : ∀ t : Fin grid0.N, k0_cond1 (grid0.coords t) = 1#1 → k0_off57 (grid0.coords t) = ![64 * t.val + 28] := by decide +kernel
theorem coff_C1_29 : ∀ t : Fin grid0.N, k0_cond1 (grid0.coords t) = 1#1 → k0_off59 (grid0.coords t) = ![64 * t.val + 29] := by decide +kernel
theorem coff_C1_30 : ∀ t : Fin grid0.N, k0_cond1 (grid0.coords t) = 1#1 → k0_off61 (grid0.coords t) = ![64 * t.val + 30] := by decide +kernel
theorem coff_C1_31 : ∀ t : Fin grid0.N, k0_cond1 (grid0.coords t) = 1#1 → k0_off63 (grid0.coords t) = ![64 * t.val + 31] := by decide +kernel
theorem coff_C1_32 : ∀ t : Fin grid0.N, k0_cond1 (grid0.coords t) = 1#1 → k0_off65 (grid0.coords t) = ![64 * t.val + 32] := by decide +kernel
theorem coff_C1_33 : ∀ t : Fin grid0.N, k0_cond1 (grid0.coords t) = 1#1 → k0_off67 (grid0.coords t) = ![64 * t.val + 33] := by decide +kernel
theorem coff_C1_34 : ∀ t : Fin grid0.N, k0_cond1 (grid0.coords t) = 1#1 → k0_off69 (grid0.coords t) = ![64 * t.val + 34] := by decide +kernel
theorem coff_C1_35 : ∀ t : Fin grid0.N, k0_cond1 (grid0.coords t) = 1#1 → k0_off71 (grid0.coords t) = ![64 * t.val + 35] := by decide +kernel
theorem coff_C1_36 : ∀ t : Fin grid0.N, k0_cond1 (grid0.coords t) = 1#1 → k0_off73 (grid0.coords t) = ![64 * t.val + 36] := by decide +kernel
theorem coff_C1_37 : ∀ t : Fin grid0.N, k0_cond1 (grid0.coords t) = 1#1 → k0_off75 (grid0.coords t) = ![64 * t.val + 37] := by decide +kernel
theorem coff_C1_38 : ∀ t : Fin grid0.N, k0_cond1 (grid0.coords t) = 1#1 → k0_off77 (grid0.coords t) = ![64 * t.val + 38] := by decide +kernel
theorem coff_C1_39 : ∀ t : Fin grid0.N, k0_cond1 (grid0.coords t) = 1#1 → k0_off79 (grid0.coords t) = ![64 * t.val + 39] := by decide +kernel
theorem coff_C1_40 : ∀ t : Fin grid0.N, k0_cond1 (grid0.coords t) = 1#1 → k0_off81 (grid0.coords t) = ![64 * t.val + 40] := by decide +kernel
theorem coff_C1_41 : ∀ t : Fin grid0.N, k0_cond1 (grid0.coords t) = 1#1 → k0_off83 (grid0.coords t) = ![64 * t.val + 41] := by decide +kernel
theorem coff_C1_42 : ∀ t : Fin grid0.N, k0_cond1 (grid0.coords t) = 1#1 → k0_off85 (grid0.coords t) = ![64 * t.val + 42] := by decide +kernel
theorem coff_C1_43 : ∀ t : Fin grid0.N, k0_cond1 (grid0.coords t) = 1#1 → k0_off87 (grid0.coords t) = ![64 * t.val + 43] := by decide +kernel
theorem coff_C1_44 : ∀ t : Fin grid0.N, k0_cond1 (grid0.coords t) = 1#1 → k0_off89 (grid0.coords t) = ![64 * t.val + 44] := by decide +kernel
theorem coff_C1_45 : ∀ t : Fin grid0.N, k0_cond1 (grid0.coords t) = 1#1 → k0_off91 (grid0.coords t) = ![64 * t.val + 45] := by decide +kernel
theorem coff_C1_46 : ∀ t : Fin grid0.N, k0_cond1 (grid0.coords t) = 1#1 → k0_off93 (grid0.coords t) = ![64 * t.val + 46] := by decide +kernel
theorem coff_C1_47 : ∀ t : Fin grid0.N, k0_cond1 (grid0.coords t) = 1#1 → k0_off95 (grid0.coords t) = ![64 * t.val + 47] := by decide +kernel
theorem coff_C1_48 : ∀ t : Fin grid0.N, k0_cond1 (grid0.coords t) = 1#1 → k0_off97 (grid0.coords t) = ![64 * t.val + 48] := by decide +kernel
theorem coff_C1_49 : ∀ t : Fin grid0.N, k0_cond1 (grid0.coords t) = 1#1 → k0_off99 (grid0.coords t) = ![64 * t.val + 49] := by decide +kernel
theorem coff_C1_50 : ∀ t : Fin grid0.N, k0_cond1 (grid0.coords t) = 1#1 → k0_off101 (grid0.coords t) = ![64 * t.val + 50] := by decide +kernel
theorem coff_C1_51 : ∀ t : Fin grid0.N, k0_cond1 (grid0.coords t) = 1#1 → k0_off103 (grid0.coords t) = ![64 * t.val + 51] := by decide +kernel
theorem coff_C1_52 : ∀ t : Fin grid0.N, k0_cond1 (grid0.coords t) = 1#1 → k0_off105 (grid0.coords t) = ![64 * t.val + 52] := by decide +kernel
theorem coff_C1_53 : ∀ t : Fin grid0.N, k0_cond1 (grid0.coords t) = 1#1 → k0_off107 (grid0.coords t) = ![64 * t.val + 53] := by decide +kernel
theorem coff_C1_54 : ∀ t : Fin grid0.N, k0_cond1 (grid0.coords t) = 1#1 → k0_off109 (grid0.coords t) = ![64 * t.val + 54] := by decide +kernel
theorem coff_C1_55 : ∀ t : Fin grid0.N, k0_cond1 (grid0.coords t) = 1#1 → k0_off111 (grid0.coords t) = ![64 * t.val + 55] := by decide +kernel
theorem coff_C1_56 : ∀ t : Fin grid0.N, k0_cond1 (grid0.coords t) = 1#1 → k0_off113 (grid0.coords t) = ![64 * t.val + 56] := by decide +kernel
theorem coff_C1_57 : ∀ t : Fin grid0.N, k0_cond1 (grid0.coords t) = 1#1 → k0_off115 (grid0.coords t) = ![64 * t.val + 57] := by decide +kernel
theorem coff_C1_58 : ∀ t : Fin grid0.N, k0_cond1 (grid0.coords t) = 1#1 → k0_off117 (grid0.coords t) = ![64 * t.val + 58] := by decide +kernel
theorem coff_C1_59 : ∀ t : Fin grid0.N, k0_cond1 (grid0.coords t) = 1#1 → k0_off119 (grid0.coords t) = ![64 * t.val + 59] := by decide +kernel
theorem coff_C1_60 : ∀ t : Fin grid0.N, k0_cond1 (grid0.coords t) = 1#1 → k0_off121 (grid0.coords t) = ![64 * t.val + 60] := by decide +kernel
theorem coff_C1_61 : ∀ t : Fin grid0.N, k0_cond1 (grid0.coords t) = 1#1 → k0_off123 (grid0.coords t) = ![64 * t.val + 61] := by decide +kernel
theorem coff_C1_62 : ∀ t : Fin grid0.N, k0_cond1 (grid0.coords t) = 1#1 → k0_off125 (grid0.coords t) = ![64 * t.val + 62] := by decide +kernel
theorem coff_C1_63 : ∀ t : Fin grid0.N, k0_cond1 (grid0.coords t) = 1#1 → k0_off127 (grid0.coords t) = ![64 * t.val + 63] := by decide +kernel
theorem coff_C2_0 : ∀ t : Fin grid0.N, k0_cond2 (grid0.coords t) = 1#1 → k0_off194 (grid0.coords t) = ![64 * (t.val + 1) + 0] := by decide +kernel
theorem coff_C2_1 : ∀ t : Fin grid0.N, k0_cond2 (grid0.coords t) = 1#1 → k0_off200 (grid0.coords t) = ![64 * (t.val + 1) + 1] := by decide +kernel
theorem coff_C2_2 : ∀ t : Fin grid0.N, k0_cond2 (grid0.coords t) = 1#1 → k0_off205 (grid0.coords t) = ![64 * (t.val + 1) + 2] := by decide +kernel
theorem coff_C2_3 : ∀ t : Fin grid0.N, k0_cond2 (grid0.coords t) = 1#1 → k0_off210 (grid0.coords t) = ![64 * (t.val + 1) + 3] := by decide +kernel
theorem coff_C2_4 : ∀ t : Fin grid0.N, k0_cond2 (grid0.coords t) = 1#1 → k0_off215 (grid0.coords t) = ![64 * (t.val + 1) + 4] := by decide +kernel
theorem coff_C2_5 : ∀ t : Fin grid0.N, k0_cond2 (grid0.coords t) = 1#1 → k0_off220 (grid0.coords t) = ![64 * (t.val + 1) + 5] := by decide +kernel
theorem coff_C2_6 : ∀ t : Fin grid0.N, k0_cond2 (grid0.coords t) = 1#1 → k0_off225 (grid0.coords t) = ![64 * (t.val + 1) + 6] := by decide +kernel
theorem coff_C2_7 : ∀ t : Fin grid0.N, k0_cond2 (grid0.coords t) = 1#1 → k0_off230 (grid0.coords t) = ![64 * (t.val + 1) + 7] := by decide +kernel
theorem coff_C2_8 : ∀ t : Fin grid0.N, k0_cond2 (grid0.coords t) = 1#1 → k0_off235 (grid0.coords t) = ![64 * (t.val + 1) + 8] := by decide +kernel
theorem coff_C2_9 : ∀ t : Fin grid0.N, k0_cond2 (grid0.coords t) = 1#1 → k0_off240 (grid0.coords t) = ![64 * (t.val + 1) + 9] := by decide +kernel
theorem coff_C2_10 : ∀ t : Fin grid0.N, k0_cond2 (grid0.coords t) = 1#1 → k0_off245 (grid0.coords t) = ![64 * (t.val + 1) + 10] := by decide +kernel
theorem coff_C2_11 : ∀ t : Fin grid0.N, k0_cond2 (grid0.coords t) = 1#1 → k0_off250 (grid0.coords t) = ![64 * (t.val + 1) + 11] := by decide +kernel
theorem coff_C2_12 : ∀ t : Fin grid0.N, k0_cond2 (grid0.coords t) = 1#1 → k0_off255 (grid0.coords t) = ![64 * (t.val + 1) + 12] := by decide +kernel
theorem coff_C2_13 : ∀ t : Fin grid0.N, k0_cond2 (grid0.coords t) = 1#1 → k0_off260 (grid0.coords t) = ![64 * (t.val + 1) + 13] := by decide +kernel
theorem coff_C2_14 : ∀ t : Fin grid0.N, k0_cond2 (grid0.coords t) = 1#1 → k0_off265 (grid0.coords t) = ![64 * (t.val + 1) + 14] := by decide +kernel
theorem coff_C2_15 : ∀ t : Fin grid0.N, k0_cond2 (grid0.coords t) = 1#1 → k0_off270 (grid0.coords t) = ![64 * (t.val + 1) + 15] := by decide +kernel
theorem coff_C2_16 : ∀ t : Fin grid0.N, k0_cond2 (grid0.coords t) = 1#1 → k0_off275 (grid0.coords t) = ![64 * (t.val + 1) + 16] := by decide +kernel
theorem coff_C2_17 : ∀ t : Fin grid0.N, k0_cond2 (grid0.coords t) = 1#1 → k0_off280 (grid0.coords t) = ![64 * (t.val + 1) + 17] := by decide +kernel
theorem coff_C2_18 : ∀ t : Fin grid0.N, k0_cond2 (grid0.coords t) = 1#1 → k0_off285 (grid0.coords t) = ![64 * (t.val + 1) + 18] := by decide +kernel
theorem coff_C2_19 : ∀ t : Fin grid0.N, k0_cond2 (grid0.coords t) = 1#1 → k0_off290 (grid0.coords t) = ![64 * (t.val + 1) + 19] := by decide +kernel
theorem coff_C2_20 : ∀ t : Fin grid0.N, k0_cond2 (grid0.coords t) = 1#1 → k0_off295 (grid0.coords t) = ![64 * (t.val + 1) + 20] := by decide +kernel
theorem coff_C2_21 : ∀ t : Fin grid0.N, k0_cond2 (grid0.coords t) = 1#1 → k0_off300 (grid0.coords t) = ![64 * (t.val + 1) + 21] := by decide +kernel
theorem coff_C2_22 : ∀ t : Fin grid0.N, k0_cond2 (grid0.coords t) = 1#1 → k0_off305 (grid0.coords t) = ![64 * (t.val + 1) + 22] := by decide +kernel
theorem coff_C2_23 : ∀ t : Fin grid0.N, k0_cond2 (grid0.coords t) = 1#1 → k0_off310 (grid0.coords t) = ![64 * (t.val + 1) + 23] := by decide +kernel
theorem coff_C2_24 : ∀ t : Fin grid0.N, k0_cond2 (grid0.coords t) = 1#1 → k0_off315 (grid0.coords t) = ![64 * (t.val + 1) + 24] := by decide +kernel
theorem coff_C2_25 : ∀ t : Fin grid0.N, k0_cond2 (grid0.coords t) = 1#1 → k0_off320 (grid0.coords t) = ![64 * (t.val + 1) + 25] := by decide +kernel
theorem coff_C2_26 : ∀ t : Fin grid0.N, k0_cond2 (grid0.coords t) = 1#1 → k0_off325 (grid0.coords t) = ![64 * (t.val + 1) + 26] := by decide +kernel
theorem coff_C2_27 : ∀ t : Fin grid0.N, k0_cond2 (grid0.coords t) = 1#1 → k0_off330 (grid0.coords t) = ![64 * (t.val + 1) + 27] := by decide +kernel
theorem coff_C2_28 : ∀ t : Fin grid0.N, k0_cond2 (grid0.coords t) = 1#1 → k0_off335 (grid0.coords t) = ![64 * (t.val + 1) + 28] := by decide +kernel
theorem coff_C2_29 : ∀ t : Fin grid0.N, k0_cond2 (grid0.coords t) = 1#1 → k0_off340 (grid0.coords t) = ![64 * (t.val + 1) + 29] := by decide +kernel
theorem coff_C2_30 : ∀ t : Fin grid0.N, k0_cond2 (grid0.coords t) = 1#1 → k0_off345 (grid0.coords t) = ![64 * (t.val + 1) + 30] := by decide +kernel
theorem coff_C2_31 : ∀ t : Fin grid0.N, k0_cond2 (grid0.coords t) = 1#1 → k0_off350 (grid0.coords t) = ![64 * (t.val + 1) + 31] := by decide +kernel
theorem coff_C2_32 : ∀ t : Fin grid0.N, k0_cond2 (grid0.coords t) = 1#1 → k0_off355 (grid0.coords t) = ![64 * (t.val + 1) + 32] := by decide +kernel
theorem coff_C2_33 : ∀ t : Fin grid0.N, k0_cond2 (grid0.coords t) = 1#1 → k0_off360 (grid0.coords t) = ![64 * (t.val + 1) + 33] := by decide +kernel
theorem coff_C2_34 : ∀ t : Fin grid0.N, k0_cond2 (grid0.coords t) = 1#1 → k0_off365 (grid0.coords t) = ![64 * (t.val + 1) + 34] := by decide +kernel
theorem coff_C2_35 : ∀ t : Fin grid0.N, k0_cond2 (grid0.coords t) = 1#1 → k0_off370 (grid0.coords t) = ![64 * (t.val + 1) + 35] := by decide +kernel
theorem coff_C2_36 : ∀ t : Fin grid0.N, k0_cond2 (grid0.coords t) = 1#1 → k0_off375 (grid0.coords t) = ![64 * (t.val + 1) + 36] := by decide +kernel
theorem coff_C2_37 : ∀ t : Fin grid0.N, k0_cond2 (grid0.coords t) = 1#1 → k0_off380 (grid0.coords t) = ![64 * (t.val + 1) + 37] := by decide +kernel
theorem coff_C2_38 : ∀ t : Fin grid0.N, k0_cond2 (grid0.coords t) = 1#1 → k0_off385 (grid0.coords t) = ![64 * (t.val + 1) + 38] := by decide +kernel
theorem coff_C2_39 : ∀ t : Fin grid0.N, k0_cond2 (grid0.coords t) = 1#1 → k0_off390 (grid0.coords t) = ![64 * (t.val + 1) + 39] := by decide +kernel
theorem coff_C2_40 : ∀ t : Fin grid0.N, k0_cond2 (grid0.coords t) = 1#1 → k0_off395 (grid0.coords t) = ![64 * (t.val + 1) + 40] := by decide +kernel
theorem coff_C2_41 : ∀ t : Fin grid0.N, k0_cond2 (grid0.coords t) = 1#1 → k0_off400 (grid0.coords t) = ![64 * (t.val + 1) + 41] := by decide +kernel
theorem coff_C2_42 : ∀ t : Fin grid0.N, k0_cond2 (grid0.coords t) = 1#1 → k0_off405 (grid0.coords t) = ![64 * (t.val + 1) + 42] := by decide +kernel
theorem coff_C2_43 : ∀ t : Fin grid0.N, k0_cond2 (grid0.coords t) = 1#1 → k0_off410 (grid0.coords t) = ![64 * (t.val + 1) + 43] := by decide +kernel
theorem coff_C2_44 : ∀ t : Fin grid0.N, k0_cond2 (grid0.coords t) = 1#1 → k0_off415 (grid0.coords t) = ![64 * (t.val + 1) + 44] := by decide +kernel
theorem coff_C2_45 : ∀ t : Fin grid0.N, k0_cond2 (grid0.coords t) = 1#1 → k0_off420 (grid0.coords t) = ![64 * (t.val + 1) + 45] := by decide +kernel
theorem coff_C2_46 : ∀ t : Fin grid0.N, k0_cond2 (grid0.coords t) = 1#1 → k0_off425 (grid0.coords t) = ![64 * (t.val + 1) + 46] := by decide +kernel
theorem coff_C2_47 : ∀ t : Fin grid0.N, k0_cond2 (grid0.coords t) = 1#1 → k0_off430 (grid0.coords t) = ![64 * (t.val + 1) + 47] := by decide +kernel
theorem coff_C2_48 : ∀ t : Fin grid0.N, k0_cond2 (grid0.coords t) = 1#1 → k0_off435 (grid0.coords t) = ![64 * (t.val + 1) + 48] := by decide +kernel
theorem coff_C2_49 : ∀ t : Fin grid0.N, k0_cond2 (grid0.coords t) = 1#1 → k0_off440 (grid0.coords t) = ![64 * (t.val + 1) + 49] := by decide +kernel
theorem coff_C2_50 : ∀ t : Fin grid0.N, k0_cond2 (grid0.coords t) = 1#1 → k0_off445 (grid0.coords t) = ![64 * (t.val + 1) + 50] := by decide +kernel
theorem coff_C2_51 : ∀ t : Fin grid0.N, k0_cond2 (grid0.coords t) = 1#1 → k0_off450 (grid0.coords t) = ![64 * (t.val + 1) + 51] := by decide +kernel
theorem coff_C2_52 : ∀ t : Fin grid0.N, k0_cond2 (grid0.coords t) = 1#1 → k0_off455 (grid0.coords t) = ![64 * (t.val + 1) + 52] := by decide +kernel
theorem coff_C2_53 : ∀ t : Fin grid0.N, k0_cond2 (grid0.coords t) = 1#1 → k0_off460 (grid0.coords t) = ![64 * (t.val + 1) + 53] := by decide +kernel
theorem coff_C2_54 : ∀ t : Fin grid0.N, k0_cond2 (grid0.coords t) = 1#1 → k0_off465 (grid0.coords t) = ![64 * (t.val + 1) + 54] := by decide +kernel
theorem coff_C2_55 : ∀ t : Fin grid0.N, k0_cond2 (grid0.coords t) = 1#1 → k0_off470 (grid0.coords t) = ![64 * (t.val + 1) + 55] := by decide +kernel
theorem coff_C2_56 : ∀ t : Fin grid0.N, k0_cond2 (grid0.coords t) = 1#1 → k0_off475 (grid0.coords t) = ![64 * (t.val + 1) + 56] := by decide +kernel
theorem coff_C2_57 : ∀ t : Fin grid0.N, k0_cond2 (grid0.coords t) = 1#1 → k0_off480 (grid0.coords t) = ![64 * (t.val + 1) + 57] := by decide +kernel
theorem coff_C2_58 : ∀ t : Fin grid0.N, k0_cond2 (grid0.coords t) = 1#1 → k0_off485 (grid0.coords t) = ![64 * (t.val + 1) + 58] := by decide +kernel
theorem coff_C2_59 : ∀ t : Fin grid0.N, k0_cond2 (grid0.coords t) = 1#1 → k0_off490 (grid0.coords t) = ![64 * (t.val + 1) + 59] := by decide +kernel
theorem coff_C2_60 : ∀ t : Fin grid0.N, k0_cond2 (grid0.coords t) = 1#1 → k0_off495 (grid0.coords t) = ![64 * (t.val + 1) + 60] := by decide +kernel
theorem coff_C2_61 : ∀ t : Fin grid0.N, k0_cond2 (grid0.coords t) = 1#1 → k0_off500 (grid0.coords t) = ![64 * (t.val + 1) + 61] := by decide +kernel
theorem coff_C2_62 : ∀ t : Fin grid0.N, k0_cond2 (grid0.coords t) = 1#1 → k0_off505 (grid0.coords t) = ![64 * (t.val + 1) + 62] := by decide +kernel
theorem coff_C2_63 : ∀ t : Fin grid0.N, k0_cond2 (grid0.coords t) = 1#1 → k0_off510 (grid0.coords t) = ![64 * (t.val + 1) + 63] := by decide +kernel

end Cert.KernelIdeal.Hand

end
-- ==== Proof.KI.Geom.lean ====
/-
  The geometry of a [2, 8, 64, 1024] scratch buffer: slot s is the indices with first coordinate s, row r of slot s those
  with first coordinate s and third coordinate r. The 64 rows of a slot are pairwise disjoint and cover it; the two slots
  are disjoint and cover the buffer. So a points-to over a slot is the separating conjunction of the points-tos over its
  rows, at one contents, and rows held at contents of their own are the slot held at the contents glued row by row.
  An argument array at the full share is n read tokens and a remainder; at any share it is one row and the rest.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import proofs.«422764_j1194000908612_2_alg».proof.Proof.KI.Out
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The element sets: row r of slot s, and slot s, of a [2, 8, 64, 1024] buffer -/

abbrev rowSet (s : Fin 2) (r : Fin 64) : Finset S2x8x64x1024.Idx :=
  (Rect.unit (s := S2x8x64x1024) ![s.val, 0, r.val, 0] S1x8x1x1024.size (inb_row s r)).set
abbrev slotSet (s : Fin 2) : Finset S2x8x64x1024.Idx :=
  (Rect.unit (s := S2x8x64x1024) ![s.val, 0, 0, 0] S1x8x64x1024.size (inb_slot s)).set

/-- An index lies in row r of slot s exactly when its first coordinate is s and its third is r. -/
theorem mem_rowSet {s : Fin 2} {r : Fin 64} {i : S2x8x64x1024.Idx} : i ∈ rowSet s r ↔ (i 0).val = s.val ∧ (i 2).val = r.val := by
  rw [Rect.mem_set_unit]
  have h1 : (i 1).val < 8 := (i 1).isLt
  have h3 : (i 3).val < 1024 := (i 3).isLt
  constructor
  · intro h
    have a0 := h 0
    have a2 := h 2
    simp at a0 a2
    omega
  · rintro ⟨e0, e2⟩ a
    fin_cases a <;> simp <;> omega
/-- An index lies in slot s exactly when its first coordinate is s. -/
theorem mem_slotSet {s : Fin 2} {i : S2x8x64x1024.Idx} : i ∈ slotSet s ↔ (i 0).val = s.val := by
  rw [Rect.mem_set_unit]
  have h1 : (i 1).val < 8 := (i 1).isLt
  have h2 : (i 2).val < 64 := (i 2).isLt
  have h3 : (i 3).val < 1024 := (i 3).isLt
  constructor
  · intro h
    have a0 := h 0
    simp at a0
    omega
  · intro e0 a
    fin_cases a <;> simp <;> omega

theorem rows_disjoint (s : Fin 2) (r r' : Fin 64) (h : r ≠ r') : Disjoint (rowSet s r) (rowSet s r') := by
  rw [Finset.disjoint_left]
  intro i hi hi'
  exact h (Fin.ext ((mem_rowSet.mp hi).2.symm.trans (mem_rowSet.mp hi').2))
theorem rows_inter (s : Fin 2) (r r' : Fin 64) (h : r ≠ r') : rowSet s r ∩ rowSet s r' = ∅ :=
  Finset.disjoint_iff_inter_eq_empty.mp (rows_disjoint s r r' h)
theorem rows_cover (s : Fin 2) : Finset.univ.biUnion (rowSet s) = slotSet s := by
  ext i
  simp only [Finset.mem_biUnion, Finset.mem_univ, true_and]
  constructor
  · rintro ⟨r, hr⟩; exact mem_slotSet.mpr (mem_rowSet.mp hr).1
  · intro hi; exact ⟨i 2, mem_rowSet.mpr ⟨mem_slotSet.mp hi, rfl⟩⟩
theorem slots_disjoint (s s' : Fin 2) (h : s ≠ s') : Disjoint (slotSet s) (slotSet s') := by
  rw [Finset.disjoint_left]
  intro i hi hi'
  exact h (Fin.ext ((mem_slotSet.mp hi).symm.trans (mem_slotSet.mp hi')))
theorem slots_cover : Finset.univ.biUnion slotSet = Finset.univ := by
  ext i
  simp only [Finset.mem_biUnion, Finset.mem_univ, true_and, iff_true]
  exact ⟨i 0, mem_slotSet.mpr rfl⟩
theorem slots_union : slotSet 0 ∪ slotSet 1 = Finset.univ := by
  ext i
  simp only [Finset.mem_union, Finset.mem_univ, iff_true]
  have h0 : (i 0).val < 2 := (i 0).isLt
  rcases Nat.lt_or_ge (i 0).val 1 with h | h
  · left; exact mem_slotSet.mpr (by show (i 0).val = 0; omega)
  · right; exact mem_slotSet.mpr (by show (i 0).val = 1; omega)

/-! ## A buffer's points-to along a family of pairwise disjoint element sets -/

section Generic
variable {ℓ : Loc nD τ sig}

/-- Elements I held at one contents, I the disjoint union of the sets K b: each K b held at that contents. -/
theorem pt_family {B : Type} [Fintype B] [DecidableEq B] (I : Finset (Idx ℓ)) (K : B → Finset (Idx ℓ))
    (hd : ∀ b b', b ≠ b' → Disjoint (K b) (K b')) (hc : Finset.univ.biUnion K = I) (q : PosShare TreeShare) (g : Buf (Elt F) ℓ) :
    (ℓ ↦[I]{q} g : sProp 𝕄) = bigSep Finset.univ (fun b => ℓ ↦[K b]{q} g) := by
  rw [← hc]; exact pointsTo_biUnion Finset.univ K (fun b _ b' _ h => hd b b' h)

/-- Contents glued along a choice of piece: at an index, the contents of the piece chosen there. -/
def glueBy {B : Type} (pick : Idx ℓ → B) (f : B → Buf (Elt F) ℓ) : Buf (Elt F) ℓ := fun i => f (pick i) i

/-- Each K b held at contents f b of its own, the choice landing in b on K b: I held at the glued contents. -/
theorem pt_family_glue {B : Type} [Fintype B] [DecidableEq B] (I : Finset (Idx ℓ)) (K : B → Finset (Idx ℓ))
    (hd : ∀ b b', b ≠ b' → Disjoint (K b) (K b')) (hc : Finset.univ.biUnion K = I) (pick : Idx ℓ → B)
    (hp : ∀ b, ∀ i ∈ K b, pick i = b) (q : PosShare TreeShare) (f : B → Buf (Elt F) ℓ) :
    bigSep Finset.univ (fun b => (ℓ ↦[K b]{q} f b : sProp 𝕄)) = (ℓ ↦[I]{q} glueBy pick f) := by
  rw [pt_family I K hd hc q (glueBy pick f)]
  refine BI.bigSep_congr fun b _ => pointsTo_congr fun i hi => ?_
  show f b i = f (pick i) i
  rw [hp b i hi]

end Generic

/-! ## Scratch buffer scA -/

theorem rowM_set_A (s : Fin 2) (r : Fin 64) : (rowM scA s r).view.set = rowSet s r := by
  simp only [rowM, dstM, Memref.view_squeeze, View.set_reshape]; exact View.set_slice_whole _ _
theorem slotM_set_A (s : Fin 2) : (slotM scA s).view.set = slotSet s := by
  simp only [slotM]; exact View.set_slice_whole _ _
theorem heldQ_rowM_A (c : Dev nD) (s : Fin 2) (r : Fin 64) (q : PosShare TreeShare) (f : MBuf (F := F) c scA) :
    heldQ (F := F) c (rowM scA s r) q f = (scA.view.loc (c : Thread nD τ) ↦[rowSet s r]{q} f : sProp 𝕄) := by
  unfold heldQ; rw [rowM_set_A]; rfl
theorem heldQ_slotM_A (c : Dev nD) (s : Fin 2) (q : PosShare TreeShare) (f : MBuf (F := F) c scA) :
    heldQ (F := F) c (slotM scA s) q f = (scA.view.loc (c : Thread nD τ) ↦[slotSet s]{q} f : sProp 𝕄) := by
  unfold heldQ; rw [slotM_set_A]; rfl

/-- A slot held at one contents is its 64 rows held at that contents. -/
theorem slot_rows_A (c : Dev nD) (s : Fin 2) (q : PosShare TreeShare) (g : MBuf (F := F) c scA) :
    (scA.view.loc (c : Thread nD τ) ↦[slotSet s]{q} g : sProp 𝕄)
      ⊣⊢ bigSep (Finset.univ : Finset (Fin 64)) (fun r => scA.view.loc (c : Thread nD τ) ↦[rowSet s r]{q} g) := by
  have e := pt_family (F := F) (ℓ := scA.view.loc (c : Thread nD τ)) (slotSet s) (rowSet s) (rows_disjoint s) (rows_cover s) q g
  exact ⟨Entails.of_eq e, Entails.of_eq e.symm⟩
/-- The buffer held whole is its two slots. -/
theorem whole_slots_A (c : Dev nD) (q : PosShare TreeShare) (g : MBuf (F := F) c scA) :
    (scA.view.loc (c : Thread nD τ) ↦{q} g : sProp 𝕄)
      ⊣⊢ iprop((scA.view.loc (c : Thread nD τ) ↦[slotSet 0]{q} g) ∗ (scA.view.loc (c : Thread nD τ) ↦[slotSet 1]{q} g)) := by
  have e : (scA.view.loc (c : Thread nD τ) ↦[slotSet 0 ∪ slotSet 1]{q} g : sProp 𝕄)
      ⊣⊢ iprop((scA.view.loc (c : Thread nD τ) ↦[slotSet 0]{q} g) ∗ (scA.view.loc (c : Thread nD τ) ↦[slotSet 1]{q} g)) :=
    pointsTo_union (slots_disjoint 0 1 (by decide))
  rw [slots_union] at e
  exact e

/-- The row an index lies in. -/
def rowOfIdx_A (c : Dev nD) (idx : Idx (scA.view.loc (c : Thread nD τ))) : Fin 64 :=
  ⟨((idx : S2x8x64x1024.Idx) 2).val % 64, Nat.mod_lt _ (by decide)⟩
/-- Contents glued row by row: at an index, the contents of the row the index lies in. -/
def glue_A (c : Dev nD) (f : Fin 64 → MBuf (F := F) c scA) : MBuf (F := F) c scA :=
  glueBy (rowOfIdx_A c) f
theorem rowOfIdx_on_A (c : Dev nD) (s : Fin 2) (r : Fin 64) : ∀ idx ∈ rowSet s r, rowOfIdx_A c idx = r := by
  intro idx hidx
  apply Fin.ext
  show ((idx : S2x8x64x1024.Idx) 2).val % 64 = r.val
  rw [(mem_rowSet.mp hidx).2]
  exact Nat.mod_eq_of_lt r.isLt
theorem glue_on_A (c : Dev nD) (s : Fin 2) (f : Fin 64 → MBuf (F := F) c scA) (r : Fin 64) :
    ∀ idx ∈ rowSet s r, glue_A c f idx = f r idx := by
  intro idx hidx
  show f (rowOfIdx_A c idx) idx = f r idx
  rw [rowOfIdx_on_A c s r idx hidx]
/-- Rows held at contents of their own are the slot held at the glued contents. -/
theorem rows_glue_eq_A (c : Dev nD) (s : Fin 2) (q : PosShare TreeShare) (f : Fin 64 → MBuf (F := F) c scA) :
    bigSep Finset.univ (fun r : Fin 64 => (scA.view.loc (c : Thread nD τ) ↦[rowSet s r]{q} f r : sProp 𝕄))
      = (scA.view.loc (c : Thread nD τ) ↦[slotSet s]{q} glue_A c f) :=
  pt_family_glue (F := F) (ℓ := scA.view.loc (c : Thread nD τ)) (slotSet s) (rowSet s) (rows_disjoint s) (rows_cover s)
    (rowOfIdx_A c) (rowOfIdx_on_A c s) q f
theorem rows_glue_A (c : Dev nD) (s : Fin 2) (q : PosShare TreeShare) (f : Fin 64 → MBuf (F := F) c scA) :
    bigSep Finset.univ (fun r : Fin 64 => (scA.view.loc (c : Thread nD τ) ↦[rowSet s r]{q} f r : sProp 𝕄))
      ⊢ scA.view.loc (c : Thread nD τ) ↦[slotSet s]{q} glue_A c f :=
  Entails.of_eq (rows_glue_eq_A c s q f)
theorem glue_rows_A (c : Dev nD) (s : Fin 2) (q : PosShare TreeShare) (f : Fin 64 → MBuf (F := F) c scA) :
    (scA.view.loc (c : Thread nD τ) ↦[slotSet s]{q} glue_A c f : sProp 𝕄)
      ⊢ bigSep Finset.univ (fun r : Fin 64 => scA.view.loc (c : Thread nD τ) ↦[rowSet s r]{q} f r) :=
  Entails.of_eq (rows_glue_eq_A c s q f).symm

/-! ## Scratch buffer scB -/

theorem rowM_set_B (s : Fin 2) (r : Fin 64) : (rowM scB s r).view.set = rowSet s r := by
  simp only [rowM, dstM, Memref.view_squeeze, View.set_reshape]; exact View.set_slice_whole _ _
theorem slotM_set_B (s : Fin 2) : (slotM scB s).view.set = slotSet s := by
  simp only [slotM]; exact View.set_slice_whole _ _
theorem heldQ_rowM_B (c : Dev nD) (s : Fin 2) (r : Fin 64) (q : PosShare TreeShare) (f : MBuf (F := F) c scB) :
    heldQ (F := F) c (rowM scB s r) q f = (scB.view.loc (c : Thread nD τ) ↦[rowSet s r]{q} f : sProp 𝕄) := by
  unfold heldQ; rw [rowM_set_B]; rfl
theorem heldQ_slotM_B (c : Dev nD) (s : Fin 2) (q : PosShare TreeShare) (f : MBuf (F := F) c scB) :
    heldQ (F := F) c (slotM scB s) q f = (scB.view.loc (c : Thread nD τ) ↦[slotSet s]{q} f : sProp 𝕄) := by
  unfold heldQ; rw [slotM_set_B]; rfl

/-- A slot held at one contents is its 64 rows held at that contents. -/
theorem slot_rows_B (c : Dev nD) (s : Fin 2) (q : PosShare TreeShare) (g : MBuf (F := F) c scB) :
    (scB.view.loc (c : Thread nD τ) ↦[slotSet s]{q} g : sProp 𝕄)
      ⊣⊢ bigSep (Finset.univ : Finset (Fin 64)) (fun r => scB.view.loc (c : Thread nD τ) ↦[rowSet s r]{q} g) := by
  have e := pt_family (F := F) (ℓ := scB.view.loc (c : Thread nD τ)) (slotSet s) (rowSet s) (rows_disjoint s) (rows_cover s) q g
  exact ⟨Entails.of_eq e, Entails.of_eq e.symm⟩
/-- The buffer held whole is its two slots. -/
theorem whole_slots_B (c : Dev nD) (q : PosShare TreeShare) (g : MBuf (F := F) c scB) :
    (scB.view.loc (c : Thread nD τ) ↦{q} g : sProp 𝕄)
      ⊣⊢ iprop((scB.view.loc (c : Thread nD τ) ↦[slotSet 0]{q} g) ∗ (scB.view.loc (c : Thread nD τ) ↦[slotSet 1]{q} g)) := by
  have e : (scB.view.loc (c : Thread nD τ) ↦[slotSet 0 ∪ slotSet 1]{q} g : sProp 𝕄)
      ⊣⊢ iprop((scB.view.loc (c : Thread nD τ) ↦[slotSet 0]{q} g) ∗ (scB.view.loc (c : Thread nD τ) ↦[slotSet 1]{q} g)) :=
    pointsTo_union (slots_disjoint 0 1 (by decide))
  rw [slots_union] at e
  exact e

/-- The row an index lies in. -/
def rowOfIdx_B (c : Dev nD) (idx : Idx (scB.view.loc (c : Thread nD τ))) : Fin 64 :=
  ⟨((idx : S2x8x64x1024.Idx) 2).val % 64, Nat.mod_lt _ (by decide)⟩
/-- Contents glued row by row: at an index, the contents of the row the index lies in. -/
def glue_B (c : Dev nD) (f : Fin 64 → MBuf (F := F) c scB) : MBuf (F := F) c scB :=
  glueBy (rowOfIdx_B c) f
theorem rowOfIdx_on_B (c : Dev nD) (s : Fin 2) (r : Fin 64) : ∀ idx ∈ rowSet s r, rowOfIdx_B c idx = r := by
  intro idx hidx
  apply Fin.ext
  show ((idx : S2x8x64x1024.Idx) 2).val % 64 = r.val
  rw [(mem_rowSet.mp hidx).2]
  exact Nat.mod_eq_of_lt r.isLt
theorem glue_on_B (c : Dev nD) (s : Fin 2) (f : Fin 64 → MBuf (F := F) c scB) (r : Fin 64) :
    ∀ idx ∈ rowSet s r, glue_B c f idx = f r idx := by
  intro idx hidx
  show f (rowOfIdx_B c idx) idx = f r idx
  rw [rowOfIdx_on_B c s r idx hidx]
/-- Rows held at contents of their own are the slot held at the glued contents. -/
theorem rows_glue_eq_B (c : Dev nD) (s : Fin 2) (q : PosShare TreeShare) (f : Fin 64 → MBuf (F := F) c scB) :
    bigSep Finset.univ (fun r : Fin 64 => (scB.view.loc (c : Thread nD τ) ↦[rowSet s r]{q} f r : sProp 𝕄))
      = (scB.view.loc (c : Thread nD τ) ↦[slotSet s]{q} glue_B c f) :=
  pt_family_glue (F := F) (ℓ := scB.view.loc (c : Thread nD τ)) (slotSet s) (rowSet s) (rows_disjoint s) (rows_cover s)
    (rowOfIdx_B c) (rowOfIdx_on_B c s) q f
theorem rows_glue_B (c : Dev nD) (s : Fin 2) (q : PosShare TreeShare) (f : Fin 64 → MBuf (F := F) c scB) :
    bigSep Finset.univ (fun r : Fin 64 => (scB.view.loc (c : Thread nD τ) ↦[rowSet s r]{q} f r : sProp 𝕄))
      ⊢ scB.view.loc (c : Thread nD τ) ↦[slotSet s]{q} glue_B c f :=
  Entails.of_eq (rows_glue_eq_B c s q f)
theorem glue_rows_B (c : Dev nD) (s : Fin 2) (q : PosShare TreeShare) (f : Fin 64 → MBuf (F := F) c scB) :
    (scB.view.loc (c : Thread nD τ) ↦[slotSet s]{q} glue_B c f : sProp 𝕄)
      ⊢ bigSep Finset.univ (fun r : Fin 64 => scB.view.loc (c : Thread nD τ) ↦[rowSet s r]{q} f r) :=
  Entails.of_eq (rows_glue_eq_B c s q f).symm

/-! ## Argument array aM: read tokens, and one row set apart -/

/-- The array at the full share is what is left after n read tokens, and the n tokens. -/
theorem arg_toks_a (c : Dev nD) (n : ℕ) (fx : MBuf (F := F) c aM) :
    (aM.view.loc (c : Thread nD τ) ↦{fullShare} fx : sProp 𝕄)
      ⊣⊢ iprop((aM.view.loc (c : Thread nD τ) ↦{Transfers.shareDrop fullShare n} fx)
          ∗ bigSep (Finset.range n) (fun i => aM.view.loc (c : Thread nD τ) ↦{Transfers.shareTokN fullShare i} fx)) :=
  Transfers.pointsTo_toks_range fullShare n
/-- The array at a share is one row's elements and the rest, at that share. -/
theorem arg_row_a (c : Dev nD) (q : PosShare TreeShare) (w : BitVec 32) (hw : w.toNat < 4096) (fx : MBuf (F := F) c aM) :
    (aM.view.loc (c : Thread nD τ) ↦{q} fx : sProp 𝕄)
      ⊣⊢ iprop(heldQ (F := F) c (srcM aM ![0, w.toNat, 0] (rows_inb w hw)) q fx
          ∗ (aM.view.loc (c : Thread nD τ) ↦[Finset.univ \ (srcM aM ![0, w.toNat, 0] (rows_inb w hw)).view.set]{q} fx)) :=
  pointsTo_split_subset (Finset.subset_univ _)

/-! ## Argument array bM: read tokens, and one row set apart -/

/-- The array at the full share is what is left after n read tokens, and the n tokens. -/
theorem arg_toks_b (c : Dev nD) (n : ℕ) (fx : MBuf (F := F) c bM) :
    (bM.view.loc (c : Thread nD τ) ↦{fullShare} fx : sProp 𝕄)
      ⊣⊢ iprop((bM.view.loc (c : Thread nD τ) ↦{Transfers.shareDrop fullShare n} fx)
          ∗ bigSep (Finset.range n) (fun i => bM.view.loc (c : Thread nD τ) ↦{Transfers.shareTokN fullShare i} fx)) :=
  Transfers.pointsTo_toks_range fullShare n
/-- The array at a share is one row's elements and the rest, at that share. -/
theorem arg_row_b (c : Dev nD) (q : PosShare TreeShare) (w : BitVec 32) (hw : w.toNat < 4096) (fx : MBuf (F := F) c bM) :
    (bM.view.loc (c : Thread nD τ) ↦{q} fx : sProp 𝕄)
      ⊣⊢ iprop(heldQ (F := F) c (srcM bM ![0, w.toNat, 0] (rows_inb w hw)) q fx
          ∗ (bM.view.loc (c : Thread nD τ) ↦[Finset.univ \ (srcM bM ![0, w.toNat, 0] (rows_inb w hw)).view.set]{q} fx)) :=
  pointsTo_split_subset (Finset.subset_univ _)

end Cert.KernelIdeal.Hand

end
-- ==== Proof.KI.Phi.lean ====
/-
  The state of the two scratch slots between grid points.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Tab
import proofs.«422764_j1194000908612_2_alg».proof.Proof.KI.Canon
import proofs.«422764_j1194000908612_2_alg».proof.Proof.KI.Geom
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (htb : ∀ y, (tb y).toNat < 4096) (fa : MBuf (F := F) c aM) (fb : MBuf (F := F) c bM)

/-- Slot s of array A's scratch FREE: its counter at zero, the slot's 64 rows owned at some contents, and the slot's 64
    read shares of the array whole. -/
def freeA (s : Fin 2) : sProp 𝕄 :=
  iprop(semVal ((c : Thread nD τ), cA s) 0 ∗ (∃ g : MBuf (F := F) c scA, scA.view.loc (c : Thread nD τ) ↦[slotSet s]{fullShare} g)
    ∗ bigSep Finset.univ (fun r : Fin 64 => (aM.view.loc (c : Thread nD τ) ↦{qTok s r} fa : sProp 𝕄)))
def freeB (s : Fin 2) : sProp 𝕄 :=
  iprop(semVal ((c : Thread nD τ), cB s) 0 ∗ (∃ g : MBuf (F := F) c scB, scB.view.loc (c : Thread nD τ) ↦[slotSet s]{fullShare} g)
    ∗ bigSep Finset.univ (fun r : Fin 64 => (bM.view.loc (c : Thread nD τ) ↦{qTok s r} fb : sProp 𝕄)))

/-- Slot s IN FLIGHT with the 64 rows the prefetch of the grid point at coordinates i started: the batch of 64 copies, all
    started and none waited for, and what is left of each read share once its array row is lent. -/
def flightA (i : grid0.Coords) (h2 : k0_cond2 i = 1#1) (s : Fin 2) : sProp 𝕄 :=
  iprop(Transfers.Batch countersEmb (c : Thread nD τ) (cA s) () rowCredit (D2A c tb fa htb i h2 s) 64 0
    ∗ bigSep Finset.univ (R2A c tb fa htb i h2 s))
def flightB (i : grid0.Coords) (h2 : k0_cond2 i = 1#1) (s : Fin 2) : sProp 𝕄 :=
  iprop(Transfers.Batch countersEmb (c : Thread nD τ) (cB s) () rowCredit (D2B c tb fb htb i h2 s) 64 0
    ∗ bigSep Finset.univ (R2B c tb fb htb i h2 s))

/-- What does not change from point to point: the generator register, the table's half share, and the remainder of each
    array's share once the 128 read shares are taken off. -/
def steady : sProp 𝕄 :=
  iprop((∃ r, prngReg c r) ∗ tbPt c tb ∗ (aM.view.loc (c : Thread nD τ) ↦{Transfers.shareDrop fullShare 128} fa)
    ∗ (bM.view.loc (c : Thread nD τ) ↦{Transfers.shareDrop fullShare 128} fb))

/-- The slots before grid point k: at the first point of a row group (k a multiple of 16) both slots are free; otherwise the
    block of point k is in flight into slot k mod 2, started by the prefetch of point k − 1, and the other slot is free. -/
def slots (k : ℕ) : sProp 𝕄 :=
  if h0 : k % 16 = 0 then iprop(freeA c fa 0 ∗ freeA c fa 1 ∗ freeB c fb 0 ∗ freeB c fb 1)
  else if hk : k ≤ 32 then
    iprop(flightA c tb htb fa (grid0.coords ⟨k - 1, by rw [N_0]; omega⟩) ((hcond2 ⟨k - 1, by rw [N_0]; omega⟩).mpr (by simp only; omega)) (slN k)
      ∗ flightB c tb htb fb (grid0.coords ⟨k - 1, by rw [N_0]; omega⟩) ((hcond2 ⟨k - 1, by rw [N_0]; omega⟩).mpr (by simp only; omega)) (slN k)
      ∗ freeA c fa (slN (k + 1)) ∗ freeB c fb (slN (k + 1)))
  else iprop(emp)

/-- The invariant of the region before grid point k. -/
def Phi (k : ℕ) : sProp 𝕄 := iprop(steady c tb fa fb ∗ slots c tb htb fa fb k)

end

end Cert.KernelIdeal.Hand

end
-- ==== Proof.KI.PhiIO.lean ====
/-
  Into the invariant and out of it, and the slots of a point unfolded.

  At the entry of the region the two scratch buffers are whole, the four counters at zero and the two arrays whole at the
  full share. Each scratch buffer is its two slots; each array's full share is a remainder and 128 read shares, 64 for
  slot 0 (the shares numbered r) and 64 for slot 1 (those numbered 64 + r). That is the invariant before point 0: both slots
  of both arrays free. Before point 32 (32 = 2 · 16) both are free again, and the pieces join back.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Phi
import proofs.«422764_j1194000908612_2_alg».proof.Proof.KI.Kit
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

/-! ## Re-indexing a separating conjunction over a range -/

/-- Over the first n naturals, or over Fin n by value. -/
theorem bigSep_range_fin (n : ℕ) (Φ : ℕ → sProp 𝕄) :
    bigSep (Finset.range n) Φ = bigSep Finset.univ (fun i : Fin n => Φ i.val) := by
  rw [← Nat.Iio_eq_range, ← Fin.map_valEmbedding_univ, BI.bigSep_map]; rfl

/-- The first a + b naturals are the first a, then b more from a on. -/
theorem bigSep_range_add (a b : ℕ) (Φ : ℕ → sProp 𝕄) :
    bigSep (Finset.range (a + b)) Φ = iprop(bigSep (Finset.range a) Φ ∗ bigSep (Finset.range b) (fun i => Φ (a + i))) := by
  rw [Finset.range_add, BI.bigSep_union (Finset.disjoint_range_addLeftEmbedding a (Finset.range b)), BI.bigSep_map]
  rfl

/-! ## The 128 read shares of an array dealt to the two slots, 64 each -/

section Deal
variable {ℓ : Loc nD τ sig}

theorem toks_deal (fx : Buf (Elt F) ℓ) :
    bigSep (Finset.range 128) (fun i => (ℓ ↦{Transfers.shareTokN fullShare i} fx : sProp 𝕄))
      = iprop(bigSep Finset.univ (fun r : Fin 64 => (ℓ ↦{qTok 0 r} fx : sProp 𝕄)) ∗ bigSep Finset.univ (fun r : Fin 64 => (ℓ ↦{qTok 1 r} fx : sProp 𝕄))) := by
  rw [show (128 : ℕ) = 64 + 64 from rfl, bigSep_range_add, bigSep_range_fin, bigSep_range_fin]
  refine congrArg₂ _ (BI.bigSep_congr fun r _ => ?_) (BI.bigSep_congr fun r _ => ?_)
  · show _ = (ℓ ↦{Transfers.shareTokN fullShare (64 * (0 : Fin 2).val + r.val)} fx : sProp 𝕄)
    rw [show 64 * (0 : Fin 2).val + r.val = r.val from by simp]
  · show _ = (ℓ ↦{Transfers.shareTokN fullShare (64 * (1 : Fin 2).val + r.val)} fx : sProp 𝕄)
    rw [show 64 * (1 : Fin 2).val + r.val = 64 + r.val from by simp]

/-- An array whole at the full share: the remainder after 128 read shares, slot 0's 64 shares, slot 1's 64 shares. -/
theorem arr_deal (fx : Buf (Elt F) ℓ) :
    (ℓ ↦{fullShare} fx : sProp 𝕄)
      ⊣⊢ iprop((ℓ ↦{Transfers.shareDrop fullShare 128} fx)
          ∗ bigSep Finset.univ (fun r : Fin 64 => (ℓ ↦{qTok 0 r} fx : sProp 𝕄)) ∗ bigSep Finset.univ (fun r : Fin 64 => (ℓ ↦{qTok 1 r} fx : sProp 𝕄))) := by
  have e := Transfers.pointsTo_toks_range (Ix := Unit) (Name := ℕ) (U := Pipeline.UD sig nD τ) (Lvl := ℕ) (ℓ := ℓ) (S := Finset.univ) (f := fx) fullShare 128
  rw [toks_deal] at e
  exact e

end Deal

/-! ## A scratch buffer's two slots, at contents of their own, joined -/

theorem scratch_join_A (c : Dev nD) (g0 g1 : MBuf (F := F) c scA) :
    iprop((scA.view.loc (c : Thread nD τ) ↦[slotSet 0]{fullShare} g0) ∗ (scA.view.loc (c : Thread nD τ) ↦[slotSet 1]{fullShare} g1))
      ⊢ (iprop(∃ f : MBuf (F := F) c scA, scA.view.loc (c : Thread nD τ) ↦{fullShare} f) : sProp 𝕄) := by
  refine (pointsTo_join (slots_disjoint 0 1 (by decide))).trans ?_
  rw [slots_union]
  iintro H
  iexists (slotSet 1).piecewise g1 g0
  iexact H
theorem scratch_join_B (c : Dev nD) (g0 g1 : MBuf (F := F) c scB) :
    iprop((scB.view.loc (c : Thread nD τ) ↦[slotSet 0]{fullShare} g0) ∗ (scB.view.loc (c : Thread nD τ) ↦[slotSet 1]{fullShare} g1))
      ⊢ (iprop(∃ f : MBuf (F := F) c scB, scB.view.loc (c : Thread nD τ) ↦{fullShare} f) : sProp 𝕄) := by
  refine (pointsTo_join (slots_disjoint 0 1 (by decide))).trans ?_
  rw [slots_union]
  iintro H
  iexists (slotSet 1).piecewise g1 g0
  iexact H

/-! ## The slots at a point, unfolded -/

section
variable (c : Dev nD) (tb : MBuf (F := F) c tbM) (htb : ∀ y, (tb y).toNat < 4096) (fa : MBuf (F := F) c aM) (fb : MBuf (F := F) c bM)

/-- At the first point of a row group both slots of both arrays are free. -/
theorem slots_free (k : ℕ) (h0 : k % 16 = 0) :
    slots c tb htb fa fb k = iprop(freeA c fa 0 ∗ freeA c fa 1 ∗ freeB c fb 0 ∗ freeB c fb 1) := by
  unfold slots; rw [dif_pos h0]

/-- A flight depends on the grid coordinates only, not on how the condition was shown. -/
theorem flightA_congr (i i' : grid0.Coords) (e : i = i') (h2 : k0_cond2 i = 1#1) (h2' : k0_cond2 i' = 1#1) (s : Fin 2) :
    flightA c tb htb fa i h2 s = flightA c tb htb fa i' h2' s := by subst e; rfl
theorem flightB_congr (i i' : grid0.Coords) (e : i = i') (h2 : k0_cond2 i = 1#1) (h2' : k0_cond2 i' = 1#1) (s : Fin 2) :
    flightB c tb htb fb i h2 s = flightB c tb htb fb i' h2' s := by subst e; rfl

/-- After a point that prefetches: the next point's rows in flight into its slot, the other slot free. -/
theorem slots_flight (t : Fin grid0.N) (h0 : (t.val + 1) % 16 ≠ 0) (h2 : k0_cond2 (grid0.coords t) = 1#1) :
    slots c tb htb fa fb (t.val + 1)
      = iprop(flightA c tb htb fa (grid0.coords t) h2 (slN (t.val + 1)) ∗ flightB c tb htb fb (grid0.coords t) h2 (slN (t.val + 1))
          ∗ freeA c fa (slN (t.val + 1 + 1)) ∗ freeB c fb (slN (t.val + 1 + 1))) := by
  have ht : t.val + 1 ≤ 32 := by have := lt_of_lt_of_eq t.isLt N_0; omega
  have et : ∀ p, (⟨t.val + 1 - 1, p⟩ : Fin grid0.N) = t := fun p => Fin.ext (Nat.add_sub_cancel t.val 1)
  unfold slots
  rw [dif_neg h0, dif_pos ht]
  rw [flightA_congr c tb htb fa _ (grid0.coords t) (congrArg grid0.coords (et _)) _ h2,
    flightB_congr c tb htb fb _ (grid0.coords t) (congrArg grid0.coords (et _)) _ h2]

/-- Before a point that is not the first of its row group: its rows are in flight, started by the point before it. -/
theorem slots_flight' (t : Fin grid0.N) (h0 : t.val % 16 ≠ 0) :
    ∃ (t' : Fin grid0.N) (h2' : k0_cond2 (grid0.coords t') = 1#1), t'.val + 1 = t.val ∧
      slots c tb htb fa fb t.val
        = iprop(flightA c tb htb fa (grid0.coords t') h2' (slN t.val) ∗ flightB c tb htb fb (grid0.coords t') h2' (slN t.val)
            ∗ freeA c fa (slN (t.val + 1)) ∗ freeB c fb (slN (t.val + 1))) := by
  have ht : t.val ≤ 32 := by have := lt_of_lt_of_eq t.isLt N_0; omega
  have hp : 0 < t.val := Nat.pos_of_ne_zero fun e => h0 (by rw [e])
  refine ⟨⟨t.val - 1, by have := t.isLt; omega⟩, (hcond2 ⟨t.val - 1, by have := t.isLt; omega⟩).mpr (by simp only; omega), by simp only; omega, ?_⟩
  unfold slots
  rw [dif_neg h0, dif_pos ht]

/-! ## Into the invariant, and out of it -/

theorem phi_in :
    iprop((((∃ f : MBuf (F := F) c scA, scA.view.loc (c : Thread nD τ) ↦{fullShare} f) ∗ (∃ f : MBuf (F := F) c scB, scB.view.loc (c : Thread nD τ) ↦{fullShare} f))
        ∗ (∃ r, prngReg c r)
        ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)
        ∗ ((aM.view.loc (c : Thread nD τ) ↦{fullShare} fa) ∗ (bM.view.loc (c : Thread nD τ) ↦{fullShare} fb)))
      ∗ tbPt c tb) ⊢ Phi c tb htb fa fb 0 := by
  unfold Phi steady
  rw [slots_free c tb htb fa fb 0 (Nat.zero_mod 16)]
  unfold freeA freeB
  rw [cA_0, cA_1, cB_0, cB_1]
  iintro ⟨⟨HS, Hr, Hc, HAB⟩, HT⟩
  icases HS with ⟨⟨%gA, HSA⟩, ⟨%gB, HSB⟩⟩
  icases Hc with ⟨H2, H3, H4, H5⟩
  icases HAB with ⟨HA, HB⟩
  ihave HSA' := (whole_slots_A (F := F) c fullShare gA).1 $$ HSA
  icases HSA' with ⟨HSA0, HSA1⟩
  ihave HSB' := (whole_slots_B (F := F) c fullShare gB).1 $$ HSB
  icases HSB' with ⟨HSB0, HSB1⟩
  ihave HA' := (arr_deal (F := F) fa).1 $$ HA
  icases HA' with ⟨HAd, HA0, HA1⟩
  ihave HB' := (arr_deal (F := F) fb).1 $$ HB
  icases HB' with ⟨HBd, HB0, HB1⟩
  isplitl [Hr HT HAd HBd]
  · isplitl [Hr]; · iexact Hr
    isplitl [HT]; · iexact HT
    isplitl [HAd]; · iexact HAd
    iexact HBd
  isplitl [H2 HSA0 HA0]
  · isplitl [H2]; · iexact H2
    isplitl [HSA0]; · iexists gA; iexact HSA0
    iexact HA0
  isplitl [H3 HSA1 HA1]
  · isplitl [H3]; · iexact H3
    isplitl [HSA1]; · iexists gA; iexact HSA1
    iexact HA1
  isplitl [H4 HSB0 HB0]
  · isplitl [H4]; · iexact H4
    isplitl [HSB0]; · iexists gB; iexact HSB0
    iexact HB0
  · isplitl [H5]; · iexact H5
    isplitl [HSB1]; · iexists gB; iexact HSB1
    iexact HB1

theorem phi_out :
    Phi c tb htb fa fb 32 ⊢
      iprop(((∃ f : MBuf (F := F) c scA, scA.view.loc (c : Thread nD τ) ↦{fullShare} f) ∗ (∃ f : MBuf (F := F) c scB, scB.view.loc (c : Thread nD τ) ↦{fullShare} f))
        ∗ (∃ r, prngReg c r)
        ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)
        ∗ ((aM.view.loc (c : Thread nD τ) ↦{fullShare} fa) ∗ (bM.view.loc (c : Thread nD τ) ↦{fullShare} fb))) := by
  unfold Phi steady
  rw [slots_free c tb htb fa fb 32 (by decide)]
  unfold freeA freeB
  rw [cA_0, cA_1, cB_0, cB_1]
  iintro ⟨⟨Hr, -, HAd, HBd⟩, ⟨H2, ⟨%gA0, HSA0⟩, HA0⟩, ⟨H3, ⟨%gA1, HSA1⟩, HA1⟩, ⟨H4, ⟨%gB0, HSB0⟩, HB0⟩, ⟨H5, ⟨%gB1, HSB1⟩, HB1⟩⟩
  isplitl [HSA0 HSA1 HSB0 HSB1]
  · isplitl [HSA0 HSA1]
    · iapply (scratch_join_A (F := F) c gA0 gA1)
      isplitl [HSA0]; · iexact HSA0
      iexact HSA1
    · iapply (scratch_join_B (F := F) c gB0 gB1)
      isplitl [HSB0]; · iexact HSB0
      iexact HSB1
  isplitl [Hr]; · iexact Hr
  isplitl [H2 H3 H4 H5]
  · isplitl [H2]; · iexact H2
    isplitl [H3]; · iexact H3
    isplitl [H4]; · iexact H4
    iexact H5
  isplitl [HAd HA0 HA1]
  · iapply (arr_deal (F := F) fa).2
    isplitl [HAd]; · iexact HAd
    isplitl [HA0]; · iexact HA0
    iexact HA1
  · iapply (arr_deal (F := F) fb).2
    isplitl [HBd]; · iexact HBd
    isplitl [HB0]; · iexact HB0
    iexact HB1

end

end Cert.KernelIdeal.Hand

end
-- ==== Proof.KI.SlotRead.lean ====
/-
  Reading a slot whose 64 rows each hold a row of an argument array.

  Row r of slot s of the scratch is the rectangle at (s, 0, r, 0) of extents [1, 8, 1, 1024] re-indexed as [8, 1024]; row n
  of the array is the rectangle at (0, n, 0) of extents [8, 1, 1024] re-indexed as [8, 1024]. Re-indexing matches (p, d)
  with (0, p, 0, d) and with (p, 0, d) (equal row-major positions). So after row n of the array is written whole over
  row r of slot s, the scratch's element (s, p, r, d) is the array's element (p, n, d). Gluing the 64 rows and reading
  the slot through the whole buffer gives entry (0, p, r, d) ↦ array (p, n r, d): the gathered block.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import proofs.«422764_j1194000908612_2_alg».proof.Proof.KI.Out
import proofs.«422764_j1194000908612_2_alg».proof.Proof.KI.Geom
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## A squeeze's index map at the two row shapes -/

/-- An index (x, y) of [a, b] matched with [1, a, 1, b] is (0, x, 0, y). -/
theorem reshapeEquiv_ix2_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

/-- An index (x, y) of [a, b] matched with [a, 1, b] is (x, 0, y). -/
theorem reshapeEquiv_ix2_a1b {a b : ℕ} (h : (⟨2, ![a, b]⟩ : Shape).numel = (⟨3, ![a, 1, b]⟩ : Shape).numel)
    (x : Fin a) (y : Fin b) :
    Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

/-- A view of a rectangle re-indexed reads the underlying view at the rectangle's index of the matched index. -/
theorem read_reshape_slice {κ : Kind} {sp : Space} {s s' : Shape} {e : EltTy} {Val : EltTy → Type} (v : View sig κ sp s e) (R : Rect s)
    (h : s'.numel = R.shape.numel) (g : v.ty.Contents Val) (x : s'.Idx) :
    ((v.slice R).reshape s' h).read Val g x = v.read Val g (R.emb (Shape.reshapeEquiv h x)) := rfl

/-! ## Scratch scA filled from array aM -/

/-- Element (p, d) of row r of slot s, after row n of the array has been written whole over the row: the array's (p, n, d). -/
theorem landed_read_A (c : Dev nD) (s : Fin 2) (r : Fin 64) (n : ℕ) (hn : n < 4096)
    (hin : ∀ a, (![0, n, 0] : Fin 3 → ℕ) a + S8x1x1024.size a ≤ S8x4096x1024.size a)
    (fx : MBuf (F := F) c aM) (fd : MBuf (F := F) c scA) (p : Fin 8) (d : Fin 1024) :
    scA.view.read (Elt F) (landedR (F := F) c (srcM aM ![0, n, 0] hin) (rowM scA s r) fx fd) (ix4 s p r d)
      = aM.view.read (Elt F) fx (ix3 p ⟨n, hn⟩ d) := by
  have e1 : (ix4 s p r d : S2x8x64x1024.Idx)
      = (Rect.unit (s := S2x8x64x1024) ![s.val, 0, r.val, 0] S1x8x1x1024.size (inb_row s r)).emb
          (Shape.reshapeEquiv squeezes_S1x8x1x1024_S8x1024.numel_eq (ix2 p d)) := by
    rw [reshapeEquiv_ix2_1a1b]
    funext a
    apply Fin.ext
    fin_cases a <;> simp
  have e2 : (ix3 p ⟨n, hn⟩ d : S8x4096x1024.Idx)
      = (Rect.unit (s := S8x4096x1024) ![0, n, 0] S8x1x1024.size hin).emb
          (Shape.reshapeEquiv squeezes_S8x1x1024_S8x1024.numel_eq (ix2 p d)) := by
    rw [reshapeEquiv_ix2_a1b]
    funext a
    apply Fin.ext
    fin_cases a <;> simp
  rw [e1, e2]
  refine (read_reshape_slice scA.view _ squeezes_S1x8x1x1024_S8x1024.numel_eq _ (ix2 p d)).symm.trans ?_
  refine Eq.trans ?_ (read_reshape_slice aM.view _ squeezes_S8x1x1024_S8x1024.numel_eq fx (ix2 p d))
  exact congrFun (View.read_writes_whole (rowM scA s r).view fd ((srcM aM ![0, n, 0] hin).view.read (Elt F) fx)) (ix2 p d)

/-- The slot read whole through the buffer, its 64 rows holding rows n r of the array: the gathered block. -/
theorem read_glue_A (c : Dev nD) (s : Fin 2) (n : Fin 64 → ℕ) (hn : ∀ r, n r < 4096)
    (hin : ∀ r a, (![0, n r, 0] : Fin 3 → ℕ) a + S8x1x1024.size a ≤ S8x4096x1024.size a)
    (xs : FVec F S8x4096x1024 .f32) (fx : MBuf (F := F) c aM) (hfx : aM.view.read (Elt F) fx = xs)
    (fd : Fin 64 → MBuf (F := F) c scA) :
    scA.view.readAt (Elt F) (Rect.unit (s := S2x8x64x1024) ![s.val, 0, 0, 0] S1x8x64x1024.size (inb_slot s)).toLoadRect
        (glue_A c (fun r => landedR (F := F) c (srcM aM ![0, n r, 0] (hin r)) (rowM scA s r) fx (fd r)))
      = gath xs (fun r => ⟨n r, hn r⟩) := by
  funext y
  rw [View.readAt_apply]
  have ei : (Rect.unit (s := S2x8x64x1024) ![s.val, 0, 0, 0] S1x8x64x1024.size (inb_slot s)).toLoadRect.idx y = ix4 s (y 1) (y 2) (y 3) := by
    funext a
    apply Fin.ext
    have h0 : (y 0).val = 0 := by have h1 : (y 0).val < 1 := (y 0).isLt; omega
    fin_cases a <;> simp [h0]
  rw [ei]
  refine (View.read_congr_at (ix4 s (y 1) (y 2) (y 3)) (glue_on_A c s _ (y 2) (ix4 s (y 1) (y 2) (y 3)) (mem_rowSet.mpr ⟨rfl, rfl⟩))).trans ?_
  refine (landed_read_A c s (y 2) (n (y 2)) (hn _) (hin _) fx (fd _) (y 1) (y 3)).trans ?_
  rw [hfx]
  rfl

/-! ## Scratch scB filled from array bM -/

/-- Element (p, d) of row r of slot s, after row n of the array has been written whole over the row: the array's (p, n, d). -/
theorem landed_read_B (c : Dev nD) (s : Fin 2) (r : Fin 64) (n : ℕ) (hn : n < 4096)
    (hin : ∀ a, (![0, n, 0] : Fin 3 → ℕ) a + S8x1x1024.size a ≤ S8x4096x1024.size a)
    (fx : MBuf (F := F) c bM) (fd : MBuf (F := F) c scB) (p : Fin 8) (d : Fin 1024) :
    scB.view.read (Elt F) (landedR (F := F) c (srcM bM ![0, n, 0] hin) (rowM scB s r) fx fd) (ix4 s p r d)
      = bM.view.read (Elt F) fx (ix3 p ⟨n, hn⟩ d) := by
  have e1 : (ix4 s p r d : S2x8x64x1024.Idx)
      = (Rect.unit (s := S2x8x64x1024) ![s.val, 0, r.val, 0] S1x8x1x1024.size (inb_row s r)).emb
          (Shape.reshapeEquiv squeezes_S1x8x1x1024_S8x1024.numel_eq (ix2 p d)) := by
    rw [reshapeEquiv_ix2_1a1b]
    funext a
    apply Fin.ext
    fin_cases a <;> simp
  have e2 : (ix3 p ⟨n, hn⟩ d : S8x4096x1024.Idx)
      = (Rect.unit (s := S8x4096x1024) ![0, n, 0] S8x1x1024.size hin).emb
          (Shape.reshapeEquiv squeezes_S8x1x1024_S8x1024.numel_eq (ix2 p d)) := by
    rw [reshapeEquiv_ix2_a1b]
    funext a
    apply Fin.ext
    fin_cases a <;> simp
  rw [e1, e2]
  refine (read_reshape_slice scB.view _ squeezes_S1x8x1x1024_S8x1024.numel_eq _ (ix2 p d)).symm.trans ?_
  refine Eq.trans ?_ (read_reshape_slice bM.view _ squeezes_S8x1x1024_S8x1024.numel_eq fx (ix2 p d))
  exact congrFun (View.read_writes_whole (rowM scB s r).view fd ((srcM bM ![0, n, 0] hin).view.read (Elt F) fx)) (ix2 p d)

/-- The slot read whole through the buffer, its 64 rows holding rows n r of the array: the gathered block. -/
theorem read_glue_B (c : Dev nD) (s : Fin 2) (n : Fin 64 → ℕ) (hn : ∀ r, n r < 4096)
    (hin : ∀ r a, (![0, n r, 0] : Fin 3 → ℕ) a + S8x1x1024.size a ≤ S8x4096x1024.size a)
    (xs : FVec F S8x4096x1024 .f32) (fx : MBuf (F := F) c bM) (hfx : bM.view.read (Elt F) fx = xs)
    (fd : Fin 64 → MBuf (F := F) c scB) :
    scB.view.readAt (Elt F) (Rect.unit (s := S2x8x64x1024) ![s.val, 0, 0, 0] S1x8x64x1024.size (inb_slot s)).toLoadRect
        (glue_B c (fun r => landedR (F := F) c (srcM bM ![0, n r, 0] (hin r)) (rowM scB s r) fx (fd r)))
      = gath xs (fun r => ⟨n r, hn r⟩) := by
  funext y
  rw [View.readAt_apply]
  have ei : (Rect.unit (s := S2x8x64x1024) ![s.val, 0, 0, 0] S1x8x64x1024.size (inb_slot s)).toLoadRect.idx y = ix4 s (y 1) (y 2) (y 3) := by
    funext a
    apply Fin.ext
    have h0 : (y 0).val = 0 := by have h1 : (y 0).val < 1 := (y 0).isLt; omega
    fin_cases a <;> simp [h0]
  rw [ei]
  refine (View.read_congr_at (ix4 s (y 1) (y 2) (y 3)) (glue_on_B c s _ (y 2) (ix4 s (y 1) (y 2) (y 3)) (mem_rowSet.mpr ⟨rfl, rfl⟩))).trans ?_
  refine (landed_read_B c s (y 2) (n (y 2)) (hn _) (hin _) fx (fd _) (y 1) (y 3)).trans ?_
  rw [hfx]
  rfl

end Cert.KernelIdeal.Hand

end
-- ==== Proof.KI.Plumb.lean ====
/-
  Small facts between two stretches of the body's run: the 64-fold star written out, a slot and its 64 rows, the box the
  body loads, the table's word at a cell, and an argument array with one row lent.
  Also the row a table cell names.
-/
import proofs.«422764_j1194000908612_2_alg».proof.Proof.Gen.KernelIdeal.Launch
import proofs.«422764_j1194000908612_2_alg».proof.Proof.Gen.KernelIdeal.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.KI.Names
import proofs.«422764_j1194000908612_2_alg».proof.Proof.KI.Geom
import proofs.«422764_j1194000908612_2_alg».proof.Proof.KI.SlotRead
import proofs.«422764_j1194000908612_2_alg».proof.Proof.KI.Defs2
import proofs.«422764_j1194000908612_2_alg».proof.Proof.KI.Canon
import Idealize.ShloMosaic.Lib.ValueIdx
import Idealize.ShloMosaic.Lib.Pipeline.Kit
import proofs.«422764_j1194000908612_2_alg».proof.Proof.KI.Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## A star over 64 indices, written out -/

/-- The separating conjunction over the 64 row numbers is the chain of its 64 terms in order. -/
theorem star64 {M : Type} [URA M] (Φ : Fin 64 → sProp M) :
    bigSep Finset.univ Φ
      = iprop(Φ ⟨0, Nat.le_of_ble_eq_true rfl⟩ ∗ Φ ⟨1, Nat.le_of_ble_eq_true rfl⟩ ∗
      Φ ⟨2, Nat.le_of_ble_eq_true rfl⟩ ∗ Φ ⟨3, Nat.le_of_ble_eq_true rfl⟩ ∗
      Φ ⟨4, Nat.le_of_ble_eq_true rfl⟩ ∗ Φ ⟨5, Nat.le_of_ble_eq_true rfl⟩ ∗
      Φ ⟨6, Nat.le_of_ble_eq_true rfl⟩ ∗ Φ ⟨7, Nat.le_of_ble_eq_true rfl⟩ ∗
      Φ ⟨8, Nat.le_of_ble_eq_true rfl⟩ ∗ Φ ⟨9, Nat.le_of_ble_eq_true rfl⟩ ∗
      Φ ⟨10, Nat.le_of_ble_eq_true rfl⟩ ∗ Φ ⟨11, Nat.le_of_ble_eq_true rfl⟩ ∗
      Φ ⟨12, Nat.le_of_ble_eq_true rfl⟩ ∗ Φ ⟨13, Nat.le_of_ble_eq_true rfl⟩ ∗
      Φ ⟨14, Nat.le_of_ble_eq_true rfl⟩ ∗ Φ ⟨15, Nat.le_of_ble_eq_true rfl⟩ ∗
      Φ ⟨16, Nat.le_of_ble_eq_true rfl⟩ ∗ Φ ⟨17, Nat.le_of_ble_eq_true rfl⟩ ∗
      Φ ⟨18, Nat.le_of_ble_eq_true rfl⟩ ∗ Φ ⟨19, Nat.le_of_ble_eq_true rfl⟩ ∗
      Φ ⟨20, Nat.le_of_ble_eq_true rfl⟩ ∗ Φ ⟨21, Nat.le_of_ble_eq_true rfl⟩ ∗
      Φ ⟨22, Nat.le_of_ble_eq_true rfl⟩ ∗ Φ ⟨23, Nat.le_of_ble_eq_true rfl⟩ ∗
      Φ ⟨24, Nat.le_of_ble_eq_true rfl⟩ ∗ Φ ⟨25, Nat.le_of_ble_eq_true rfl⟩ ∗
      Φ ⟨26, Nat.le_of_ble_eq_true rfl⟩ ∗ Φ ⟨27, Nat.le_of_ble_eq_true rfl⟩ ∗
      Φ ⟨28, Nat.le_of_ble_eq_true rfl⟩ ∗ Φ ⟨29, Nat.le_of_ble_eq_true rfl⟩ ∗
      Φ ⟨30, Nat.le_of_ble_eq_true rfl⟩ ∗ Φ ⟨31, Nat.le_of_ble_eq_true rfl⟩ ∗
      Φ ⟨32, Nat.le_of_ble_eq_true rfl⟩ ∗ Φ ⟨33, Nat.le_of_ble_eq_true rfl⟩ ∗
      Φ ⟨34, Nat.le_of_ble_eq_true rfl⟩ ∗ Φ ⟨35, Nat.le_of_ble_eq_true rfl⟩ ∗
      Φ ⟨36, Nat.le_of_ble_eq_true rfl⟩ ∗ Φ ⟨37, Nat.le_of_ble_eq_true rfl⟩ ∗
      Φ ⟨38, Nat.le_of_ble_eq_true rfl⟩ ∗ Φ ⟨39, Nat.le_of_ble_eq_true rfl⟩ ∗
      Φ ⟨40, Nat.le_of_ble_eq_true rfl⟩ ∗ Φ ⟨41, Nat.le_of_ble_eq_true rfl⟩ ∗
      Φ ⟨42, Nat.le_of_ble_eq_true rfl⟩ ∗ Φ ⟨43, Nat.le_of_ble_eq_true rfl⟩ ∗
      Φ ⟨44, Nat.le_of_ble_eq_true rfl⟩ ∗ Φ ⟨45, Nat.le_of_ble_eq_true rfl⟩ ∗
      Φ ⟨46, Nat.le_of_ble_eq_true rfl⟩ ∗ Φ ⟨47, Nat.le_of_ble_eq_true rfl⟩ ∗
      Φ ⟨48, Nat.le_of_ble_eq_true rfl⟩ ∗ Φ ⟨49, Nat.le_of_ble_eq_true rfl⟩ ∗
      Φ ⟨50, Nat.le_of_ble_eq_true rfl⟩ ∗ Φ ⟨51, Nat.le_of_ble_eq_true rfl⟩ ∗
      Φ ⟨52, Nat.le_of_ble_eq_true rfl⟩ ∗ Φ ⟨53, Nat.le_of_ble_eq_true rfl⟩ ∗
      Φ ⟨54, Nat.le_of_ble_eq_true rfl⟩ ∗ Φ ⟨55, Nat.le_of_ble_eq_true rfl⟩ ∗
      Φ ⟨56, Nat.le_of_ble_eq_true rfl⟩ ∗ Φ ⟨57, Nat.le_of_ble_eq_true rfl⟩ ∗
      Φ ⟨58, Nat.le_of_ble_eq_true rfl⟩ ∗ Φ ⟨59, Nat.le_of_ble_eq_true rfl⟩ ∗
      Φ ⟨60, Nat.le_of_ble_eq_true rfl⟩ ∗ Φ ⟨61, Nat.le_of_ble_eq_true rfl⟩ ∗
      Φ ⟨62, Nat.le_of_ble_eq_true rfl⟩ ∗ Φ ⟨63, Nat.le_of_ble_eq_true rfl⟩) :=
  bigSep_univ_eq_bigSepL
    [(⟨0, Nat.le_of_ble_eq_true rfl⟩ : Fin 64), (⟨1, Nat.le_of_ble_eq_true rfl⟩ : Fin 64), (⟨2, Nat.le_of_ble_eq_true rfl⟩ : Fin 64), (⟨3, Nat.le_of_ble_eq_true rfl⟩ : Fin 64),
     (⟨4, Nat.le_of_ble_eq_true rfl⟩ : Fin 64), (⟨5, Nat.le_of_ble_eq_true rfl⟩ : Fin 64), (⟨6, Nat.le_of_ble_eq_true rfl⟩ : Fin 64), (⟨7, Nat.le_of_ble_eq_true rfl⟩ : Fin 64),
     (⟨8, Nat.le_of_ble_eq_true rfl⟩ : Fin 64), (⟨9, Nat.le_of_ble_eq_true rfl⟩ : Fin 64), (⟨10, Nat.le_of_ble_eq_true rfl⟩ : Fin 64), (⟨11, Nat.le_of_ble_eq_true rfl⟩ : Fin 64),
     (⟨12, Nat.le_of_ble_eq_true rfl⟩ : Fin 64), (⟨13, Nat.le_of_ble_eq_true rfl⟩ : Fin 64), (⟨14, Nat.le_of_ble_eq_true rfl⟩ : Fin 64), (⟨15, Nat.le_of_ble_eq_true rfl⟩ : Fin 64),
     (⟨16, Nat.le_of_ble_eq_true rfl⟩ : Fin 64), (⟨17, Nat.le_of_ble_eq_true rfl⟩ : Fin 64), (⟨18, Nat.le_of_ble_eq_true rfl⟩ : Fin 64), (⟨19, Nat.le_of_ble_eq_true rfl⟩ : Fin 64),
     (⟨20, Nat.le_of_ble_eq_true rfl⟩ : Fin 64), (⟨21, Nat.le_of_ble_eq_true rfl⟩ : Fin 64), (⟨22, Nat.le_of_ble_eq_true rfl⟩ : Fin 64), (⟨23, Nat.le_of_ble_eq_true rfl⟩ : Fin 64),
     (⟨24, Nat.le_of_ble_eq_true rfl⟩ : Fin 64), (⟨25, Nat.le_of_ble_eq_true rfl⟩ : Fin 64), (⟨26, Nat.le_of_ble_eq_true rfl⟩ : Fin 64), (⟨27, Nat.le_of_ble_eq_true rfl⟩ : Fin 64),
     (⟨28, Nat.le_of_ble_eq_true rfl⟩ : Fin 64), (⟨29, Nat.le_of_ble_eq_true rfl⟩ : Fin 64), (⟨30, Nat.le_of_ble_eq_true rfl⟩ : Fin 64), (⟨31, Nat.le_of_ble_eq_true rfl⟩ : Fin 64),
     (⟨32, Nat.le_of_ble_eq_true rfl⟩ : Fin 64), (⟨33, Nat.le_of_ble_eq_true rfl⟩ : Fin 64), (⟨34, Nat.le_of_ble_eq_true rfl⟩ : Fin 64), (⟨35, Nat.le_of_ble_eq_true rfl⟩ : Fin 64),
     (⟨36, Nat.le_of_ble_eq_true rfl⟩ : Fin 64), (⟨37, Nat.le_of_ble_eq_true rfl⟩ : Fin 64), (⟨38, Nat.le_of_ble_eq_true rfl⟩ : Fin 64), (⟨39, Nat.le_of_ble_eq_true rfl⟩ : Fin 64),
     (⟨40, Nat.le_of_ble_eq_true rfl⟩ : Fin 64), (⟨41, Nat.le_of_ble_eq_true rfl⟩ : Fin 64), (⟨42, Nat.le_of_ble_eq_true rfl⟩ : Fin 64), (⟨43, Nat.le_of_ble_eq_true rfl⟩ : Fin 64),
     (⟨44, Nat.le_of_ble_eq_true rfl⟩ : Fin 64), (⟨45, Nat.le_of_ble_eq_true rfl⟩ : Fin 64), (⟨46, Nat.le_of_ble_eq_true rfl⟩ : Fin 64), (⟨47, Nat.le_of_ble_eq_true rfl⟩ : Fin 64),
     (⟨48, Nat.le_of_ble_eq_true rfl⟩ : Fin 64), (⟨49, Nat.le_of_ble_eq_true rfl⟩ : Fin 64), (⟨50, Nat.le_of_ble_eq_true rfl⟩ : Fin 64), (⟨51, Nat.le_of_ble_eq_true rfl⟩ : Fin 64),
     (⟨52, Nat.le_of_ble_eq_true rfl⟩ : Fin 64), (⟨53, Nat.le_of_ble_eq_true rfl⟩ : Fin 64), (⟨54, Nat.le_of_ble_eq_true rfl⟩ : Fin 64), (⟨55, Nat.le_of_ble_eq_true rfl⟩ : Fin 64),
     (⟨56, Nat.le_of_ble_eq_true rfl⟩ : Fin 64), (⟨57, Nat.le_of_ble_eq_true rfl⟩ : Fin 64), (⟨58, Nat.le_of_ble_eq_true rfl⟩ : Fin 64), (⟨59, Nat.le_of_ble_eq_true rfl⟩ : Fin 64),
     (⟨60, Nat.le_of_ble_eq_true rfl⟩ : Fin 64), (⟨61, Nat.le_of_ble_eq_true rfl⟩ : Fin 64), (⟨62, Nat.le_of_ble_eq_true rfl⟩ : Fin 64), (⟨63, Nat.le_of_ble_eq_true rfl⟩ : Fin 64)]
    (by decide) (by decide) Φ

/-! ## Scratch buffer scA: a slot and its 64 rows, written out -/

/-- The 64 rows of slot s, each held whole at contents of its own, are the slot held at the contents glued row by row. -/
theorem rows64_A (c : Dev nD) (s : Fin 2) (f : Fin 64 → MBuf (F := F) c scA) :
    (iprop(heldQ (F := F) c (rowM scA s ⟨0, Nat.le_of_ble_eq_true rfl⟩) fullShare (f ⟨0, Nat.le_of_ble_eq_true rfl⟩) ∗ heldQ (F := F) c (rowM scA s ⟨1, Nat.le_of_ble_eq_true rfl⟩) fullShare (f ⟨1, Nat.le_of_ble_eq_true rfl⟩) ∗
      heldQ (F := F) c (rowM scA s ⟨2, Nat.le_of_ble_eq_true rfl⟩) fullShare (f ⟨2, Nat.le_of_ble_eq_true rfl⟩) ∗ heldQ (F := F) c (rowM scA s ⟨3, Nat.le_of_ble_eq_true rfl⟩) fullShare (f ⟨3, Nat.le_of_ble_eq_true rfl⟩) ∗
      heldQ (F := F) c (rowM scA s ⟨4, Nat.le_of_ble_eq_true rfl⟩) fullShare (f ⟨4, Nat.le_of_ble_eq_true rfl⟩) ∗ heldQ (F := F) c (rowM scA s ⟨5, Nat.le_of_ble_eq_true rfl⟩) fullShare (f ⟨5, Nat.le_of_ble_eq_true rfl⟩) ∗
      heldQ (F := F) c (rowM scA s ⟨6, Nat.le_of_ble_eq_true rfl⟩) fullShare (f ⟨6, Nat.le_of_ble_eq_true rfl⟩) ∗ heldQ (F := F) c (rowM scA s ⟨7, Nat.le_of_ble_eq_true rfl⟩) fullShare (f ⟨7, Nat.le_of_ble_eq_true rfl⟩) ∗
      heldQ (F := F) c (rowM scA s ⟨8, Nat.le_of_ble_eq_true rfl⟩) fullShare (f ⟨8, Nat.le_of_ble_eq_true rfl⟩) ∗ heldQ (F := F) c (rowM scA s ⟨9, Nat.le_of_ble_eq_true rfl⟩) fullShare (f ⟨9, Nat.le_of_ble_eq_true rfl⟩) ∗
      heldQ (F := F) c (rowM scA s ⟨10, Nat.le_of_ble_eq_true rfl⟩) fullShare (f ⟨10, Nat.le_of_ble_eq_true rfl⟩) ∗ heldQ (F := F) c (rowM scA s ⟨11, Nat.le_of_ble_eq_true rfl⟩) fullShare (f ⟨11, Nat.le_of_ble_eq_true rfl⟩) ∗
      heldQ (F := F) c (rowM scA s ⟨12, Nat.le_of_ble_eq_true rfl⟩) fullShare (f ⟨12, Nat.le_of_ble_eq_true rfl⟩) ∗ heldQ (F := F) c (rowM scA s ⟨13, Nat.le_of_ble_eq_true rfl⟩) fullShare (f ⟨13, Nat.le_of_ble_eq_true rfl⟩) ∗
      heldQ (F := F) c (rowM scA s ⟨14, Nat.le_of_ble_eq_true rfl⟩) fullShare (f ⟨14, Nat.le_of_ble_eq_true rfl⟩) ∗ heldQ (F := F) c (rowM scA s ⟨15, Nat.le_of_ble_eq_true rfl⟩) fullShare (f ⟨15, Nat.le_of_ble_eq_true rfl⟩) ∗
      heldQ (F := F) c (rowM scA s ⟨16, Nat.le_of_ble_eq_true rfl⟩) fullShare (f ⟨16, Nat.le_of_ble_eq_true rfl⟩) ∗ heldQ (F := F) c (rowM scA s ⟨17, Nat.le_of_ble_eq_true rfl⟩) fullShare (f ⟨17, Nat.le_of_ble_eq_true rfl⟩) ∗
      heldQ (F := F) c (rowM scA s ⟨18, Nat.le_of_ble_eq_true rfl⟩) fullShare (f ⟨18, Nat.le_of_ble_eq_true rfl⟩) ∗ heldQ (F := F) c (rowM scA s ⟨19, Nat.le_of_ble_eq_true rfl⟩) fullShare (f ⟨19, Nat.le_of_ble_eq_true rfl⟩) ∗
      heldQ (F := F) c (rowM scA s ⟨20, Nat.le_of_ble_eq_true rfl⟩) fullShare (f ⟨20, Nat.le_of_ble_eq_true rfl⟩) ∗ heldQ (F := F) c (rowM scA s ⟨21, Nat.le_of_ble_eq_true rfl⟩) fullShare (f ⟨21, Nat.le_of_ble_eq_true rfl⟩) ∗
      heldQ (F := F) c (rowM scA s ⟨22, Nat.le_of_ble_eq_true rfl⟩) fullShare (f ⟨22, Nat.le_of_ble_eq_true rfl⟩) ∗ heldQ (F := F) c (rowM scA s ⟨23, Nat.le_of_ble_eq_true rfl⟩) fullShare (f ⟨23, Nat.le_of_ble_eq_true rfl⟩) ∗
      heldQ (F := F) c (rowM scA s ⟨24, Nat.le_of_ble_eq_true rfl⟩) fullShare (f ⟨24, Nat.le_of_ble_eq_true rfl⟩) ∗ heldQ (F := F) c (rowM scA s ⟨25, Nat.le_of_ble_eq_true rfl⟩) fullShare (f ⟨25, Nat.le_of_ble_eq_true rfl⟩) ∗
      heldQ (F := F) c (rowM scA s ⟨26, Nat.le_of_ble_eq_true rfl⟩) fullShare (f ⟨26, Nat.le_of_ble_eq_true rfl⟩) ∗ heldQ (F := F) c (rowM scA s ⟨27, Nat.le_of_ble_eq_true rfl⟩) fullShare (f ⟨27, Nat.le_of_ble_eq_true rfl⟩) ∗
      heldQ (F := F) c (rowM scA s ⟨28, Nat.le_of_ble_eq_true rfl⟩) fullShare (f ⟨28, Nat.le_of_ble_eq_true rfl⟩) ∗ heldQ (F := F) c (rowM scA s ⟨29, Nat.le_of_ble_eq_true rfl⟩) fullShare (f ⟨29, Nat.le_of_ble_eq_true rfl⟩) ∗
      heldQ (F := F) c (rowM scA s ⟨30, Nat.le_of_ble_eq_true rfl⟩) fullShare (f ⟨30, Nat.le_of_ble_eq_true rfl⟩) ∗ heldQ (F := F) c (rowM scA s ⟨31, Nat.le_of_ble_eq_true rfl⟩) fullShare (f ⟨31, Nat.le_of_ble_eq_true rfl⟩) ∗
      heldQ (F := F) c (rowM scA s ⟨32, Nat.le_of_ble_eq_true rfl⟩) fullShare (f ⟨32, Nat.le_of_ble_eq_true rfl⟩) ∗ heldQ (F := F) c (rowM scA s ⟨33, Nat.le_of_ble_eq_true rfl⟩) fullShare (f ⟨33, Nat.le_of_ble_eq_true rfl⟩) ∗
      heldQ (F := F) c (rowM scA s ⟨34, Nat.le_of_ble_eq_true rfl⟩) fullShare (f ⟨34, Nat.le_of_ble_eq_true rfl⟩) ∗ heldQ (F := F) c (rowM scA s ⟨35, Nat.le_of_ble_eq_true rfl⟩) fullShare (f ⟨35, Nat.le_of_ble_eq_true rfl⟩) ∗
      heldQ (F := F) c (rowM scA s ⟨36, Nat.le_of_ble_eq_true rfl⟩) fullShare (f ⟨36, Nat.le_of_ble_eq_true rfl⟩) ∗ heldQ (F := F) c (rowM scA s ⟨37, Nat.le_of_ble_eq_true rfl⟩) fullShare (f ⟨37, Nat.le_of_ble_eq_true rfl⟩) ∗
      heldQ (F := F) c (rowM scA s ⟨38, Nat.le_of_ble_eq_true rfl⟩) fullShare (f ⟨38, Nat.le_of_ble_eq_true rfl⟩) ∗ heldQ (F := F) c (rowM scA s ⟨39, Nat.le_of_ble_eq_true rfl⟩) fullShare (f ⟨39, Nat.le_of_ble_eq_true rfl⟩) ∗
      heldQ (F := F) c (rowM scA s ⟨40, Nat.le_of_ble_eq_true rfl⟩) fullShare (f ⟨40, Nat.le_of_ble_eq_true rfl⟩) ∗ heldQ (F := F) c (rowM scA s ⟨41, Nat.le_of_ble_eq_true rfl⟩) fullShare (f ⟨41, Nat.le_of_ble_eq_true rfl⟩) ∗
      heldQ (F := F) c (rowM scA s ⟨42, Nat.le_of_ble_eq_true rfl⟩) fullShare (f ⟨42, Nat.le_of_ble_eq_true rfl⟩) ∗ heldQ (F := F) c (rowM scA s ⟨43, Nat.le_of_ble_eq_true rfl⟩) fullShare (f ⟨43, Nat.le_of_ble_eq_true rfl⟩) ∗
      heldQ (F := F) c (rowM scA s ⟨44, Nat.le_of_ble_eq_true rfl⟩) fullShare (f ⟨44, Nat.le_of_ble_eq_true rfl⟩) ∗ heldQ (F := F) c (rowM scA s ⟨45, Nat.le_of_ble_eq_true rfl⟩) fullShare (f ⟨45, Nat.le_of_ble_eq_true rfl⟩) ∗
      heldQ (F := F) c (rowM scA s ⟨46, Nat.le_of_ble_eq_true rfl⟩) fullShare (f ⟨46, Nat.le_of_ble_eq_true rfl⟩) ∗ heldQ (F := F) c (rowM scA s ⟨47, Nat.le_of_ble_eq_true rfl⟩) fullShare (f ⟨47, Nat.le_of_ble_eq_true rfl⟩) ∗
      heldQ (F := F) c (rowM scA s ⟨48, Nat.le_of_ble_eq_true rfl⟩) fullShare (f ⟨48, Nat.le_of_ble_eq_true rfl⟩) ∗ heldQ (F := F) c (rowM scA s ⟨49, Nat.le_of_ble_eq_true rfl⟩) fullShare (f ⟨49, Nat.le_of_ble_eq_true rfl⟩) ∗
      heldQ (F := F) c (rowM scA s ⟨50, Nat.le_of_ble_eq_true rfl⟩) fullShare (f ⟨50, Nat.le_of_ble_eq_true rfl⟩) ∗ heldQ (F := F) c (rowM scA s ⟨51, Nat.le_of_ble_eq_true rfl⟩) fullShare (f ⟨51, Nat.le_of_ble_eq_true rfl⟩) ∗
      heldQ (F := F) c (rowM scA s ⟨52, Nat.le_of_ble_eq_true rfl⟩) fullShare (f ⟨52, Nat.le_of_ble_eq_true rfl⟩) ∗ heldQ (F := F) c (rowM scA s ⟨53, Nat.le_of_ble_eq_true rfl⟩) fullShare (f ⟨53, Nat.le_of_ble_eq_true rfl⟩) ∗
      heldQ (F := F) c (rowM scA s ⟨54, Nat.le_of_ble_eq_true rfl⟩) fullShare (f ⟨54, Nat.le_of_ble_eq_true rfl⟩) ∗ heldQ (F := F) c (rowM scA s ⟨55, Nat.le_of_ble_eq_true rfl⟩) fullShare (f ⟨55, Nat.le_of_ble_eq_true rfl⟩) ∗
      heldQ (F := F) c (rowM scA s ⟨56, Nat.le_of_ble_eq_true rfl⟩) fullShare (f ⟨56, Nat.le_of_ble_eq_true rfl⟩) ∗ heldQ (F := F) c (rowM scA s ⟨57, Nat.le_of_ble_eq_true rfl⟩) fullShare (f ⟨57, Nat.le_of_ble_eq_true rfl⟩) ∗
      heldQ (F := F) c (rowM scA s ⟨58, Nat.le_of_ble_eq_true rfl⟩) fullShare (f ⟨58, Nat.le_of_ble_eq_true rfl⟩) ∗ heldQ (F := F) c (rowM scA s ⟨59, Nat.le_of_ble_eq_true rfl⟩) fullShare (f ⟨59, Nat.le_of_ble_eq_true rfl⟩) ∗
      heldQ (F := F) c (rowM scA s ⟨60, Nat.le_of_ble_eq_true rfl⟩) fullShare (f ⟨60, Nat.le_of_ble_eq_true rfl⟩) ∗ heldQ (F := F) c (rowM scA s ⟨61, Nat.le_of_ble_eq_true rfl⟩) fullShare (f ⟨61, Nat.le_of_ble_eq_true rfl⟩) ∗
      heldQ (F := F) c (rowM scA s ⟨62, Nat.le_of_ble_eq_true rfl⟩) fullShare (f ⟨62, Nat.le_of_ble_eq_true rfl⟩) ∗ heldQ (F := F) c (rowM scA s ⟨63, Nat.le_of_ble_eq_true rfl⟩) fullShare (f ⟨63, Nat.le_of_ble_eq_true rfl⟩)) : sProp 𝕄)
      = heldQ (F := F) c (slotM scA s) fullShare (glue_A c f) := by
  refine (star64 (fun r : Fin 64 => heldQ (F := F) c (rowM scA s r) fullShare (f r))).symm.trans ?_
  have e : (fun r : Fin 64 => heldQ (F := F) c (rowM scA s r) fullShare (f r))
      = fun r : Fin 64 => (scA.view.loc (c : Thread nD τ) ↦[rowSet s r]{fullShare} f r : sProp 𝕄) :=
    funext fun r => heldQ_rowM_A c s r fullShare (f r)
  rw [e, rows_glue_eq_A, heldQ_slotM_A]

/-- A slot held at one contents is its 64 rows, each held at that contents. -/
theorem slot64_A (c : Dev nD) (s : Fin 2) (g : MBuf (F := F) c scA) :
    (scA.view.loc (c : Thread nD τ) ↦[slotSet s]{fullShare} g : sProp 𝕄)
      = iprop(heldQ (F := F) c (rowM scA s ⟨0, Nat.le_of_ble_eq_true rfl⟩) fullShare g ∗ heldQ (F := F) c (rowM scA s ⟨1, Nat.le_of_ble_eq_true rfl⟩) fullShare g ∗
      heldQ (F := F) c (rowM scA s ⟨2, Nat.le_of_ble_eq_true rfl⟩) fullShare g ∗ heldQ (F := F) c (rowM scA s ⟨3, Nat.le_of_ble_eq_true rfl⟩) fullShare g ∗
      heldQ (F := F) c (rowM scA s ⟨4, Nat.le_of_ble_eq_true rfl⟩) fullShare g ∗ heldQ (F := F) c (rowM scA s ⟨5, Nat.le_of_ble_eq_true rfl⟩) fullShare g ∗
      heldQ (F := F) c (rowM scA s ⟨6, Nat.le_of_ble_eq_true rfl⟩) fullShare g ∗ heldQ (F := F) c (rowM scA s ⟨7, Nat.le_of_ble_eq_true rfl⟩) fullShare g ∗
      heldQ (F := F) c (rowM scA s ⟨8, Nat.le_of_ble_eq_true rfl⟩) fullShare g ∗ heldQ (F := F) c (rowM scA s ⟨9, Nat.le_of_ble_eq_true rfl⟩) fullShare g ∗
      heldQ (F := F) c (rowM scA s ⟨10, Nat.le_of_ble_eq_true rfl⟩) fullShare g ∗ heldQ (F := F) c (rowM scA s ⟨11, Nat.le_of_ble_eq_true rfl⟩) fullShare g ∗
      heldQ (F := F) c (rowM scA s ⟨12, Nat.le_of_ble_eq_true rfl⟩) fullShare g ∗ heldQ (F := F) c (rowM scA s ⟨13, Nat.le_of_ble_eq_true rfl⟩) fullShare g ∗
      heldQ (F := F) c (rowM scA s ⟨14, Nat.le_of_ble_eq_true rfl⟩) fullShare g ∗ heldQ (F := F) c (rowM scA s ⟨15, Nat.le_of_ble_eq_true rfl⟩) fullShare g ∗
      heldQ (F := F) c (rowM scA s ⟨16, Nat.le_of_ble_eq_true rfl⟩) fullShare g ∗ heldQ (F := F) c (rowM scA s ⟨17, Nat.le_of_ble_eq_true rfl⟩) fullShare g ∗
      heldQ (F := F) c (rowM scA s ⟨18, Nat.le_of_ble_eq_true rfl⟩) fullShare g ∗ heldQ (F := F) c (rowM scA s ⟨19, Nat.le_of_ble_eq_true rfl⟩) fullShare g ∗
      heldQ (F := F) c (rowM scA s ⟨20, Nat.le_of_ble_eq_true rfl⟩) fullShare g ∗ heldQ (F := F) c (rowM scA s ⟨21, Nat.le_of_ble_eq_true rfl⟩) fullShare g ∗
      heldQ (F := F) c (rowM scA s ⟨22, Nat.le_of_ble_eq_true rfl⟩) fullShare g ∗ heldQ (F := F) c (rowM scA s ⟨23, Nat.le_of_ble_eq_true rfl⟩) fullShare g ∗
      heldQ (F := F) c (rowM scA s ⟨24, Nat.le_of_ble_eq_true rfl⟩) fullShare g ∗ heldQ (F := F) c (rowM scA s ⟨25, Nat.le_of_ble_eq_true rfl⟩) fullShare g ∗
      heldQ (F := F) c (rowM scA s ⟨26, Nat.le_of_ble_eq_true rfl⟩) fullShare g ∗ heldQ (F := F) c (rowM scA s ⟨27, Nat.le_of_ble_eq_true rfl⟩) fullShare g ∗
      heldQ (F := F) c (rowM scA s ⟨28, Nat.le_of_ble_eq_true rfl⟩) fullShare g ∗ heldQ (F := F) c (rowM scA s ⟨29, Nat.le_of_ble_eq_true rfl⟩) fullShare g ∗
      heldQ (F := F) c (rowM scA s ⟨30, Nat.le_of_ble_eq_true rfl⟩) fullShare g ∗ heldQ (F := F) c (rowM scA s ⟨31, Nat.le_of_ble_eq_true rfl⟩) fullShare g ∗
      heldQ (F := F) c (rowM scA s ⟨32, Nat.le_of_ble_eq_true rfl⟩) fullShare g ∗ heldQ (F := F) c (rowM scA s ⟨33, Nat.le_of_ble_eq_true rfl⟩) fullShare g ∗
      heldQ (F := F) c (rowM scA s ⟨34, Nat.le_of_ble_eq_true rfl⟩) fullShare g ∗ heldQ (F := F) c (rowM scA s ⟨35, Nat.le_of_ble_eq_true rfl⟩) fullShare g ∗
      heldQ (F := F) c (rowM scA s ⟨36, Nat.le_of_ble_eq_true rfl⟩) fullShare g ∗ heldQ (F := F) c (rowM scA s ⟨37, Nat.le_of_ble_eq_true rfl⟩) fullShare g ∗
      heldQ (F := F) c (rowM scA s ⟨38, Nat.le_of_ble_eq_true rfl⟩) fullShare g ∗ heldQ (F := F) c (rowM scA s ⟨39, Nat.le_of_ble_eq_true rfl⟩) fullShare g ∗
      heldQ (F := F) c (rowM scA s ⟨40, Nat.le_of_ble_eq_true rfl⟩) fullShare g ∗ heldQ (F := F) c (rowM scA s ⟨41, Nat.le_of_ble_eq_true rfl⟩) fullShare g ∗
      heldQ (F := F) c (rowM scA s ⟨42, Nat.le_of_ble_eq_true rfl⟩) fullShare g ∗ heldQ (F := F) c (rowM scA s ⟨43, Nat.le_of_ble_eq_true rfl⟩) fullShare g ∗
      heldQ (F := F) c (rowM scA s ⟨44, Nat.le_of_ble_eq_true rfl⟩) fullShare g ∗ heldQ (F := F) c (rowM scA s ⟨45, Nat.le_of_ble_eq_true rfl⟩) fullShare g ∗
      heldQ (F := F) c (rowM scA s ⟨46, Nat.le_of_ble_eq_true rfl⟩) fullShare g ∗ heldQ (F := F) c (rowM scA s ⟨47, Nat.le_of_ble_eq_true rfl⟩) fullShare g ∗
      heldQ (F := F) c (rowM scA s ⟨48, Nat.le_of_ble_eq_true rfl⟩) fullShare g ∗ heldQ (F := F) c (rowM scA s ⟨49, Nat.le_of_ble_eq_true rfl⟩) fullShare g ∗
      heldQ (F := F) c (rowM scA s ⟨50, Nat.le_of_ble_eq_true rfl⟩) fullShare g ∗ heldQ (F := F) c (rowM scA s ⟨51, Nat.le_of_ble_eq_true rfl⟩) fullShare g ∗
      heldQ (F := F) c (rowM scA s ⟨52, Nat.le_of_ble_eq_true rfl⟩) fullShare g ∗ heldQ (F := F) c (rowM scA s ⟨53, Nat.le_of_ble_eq_true rfl⟩) fullShare g ∗
      heldQ (F := F) c (rowM scA s ⟨54, Nat.le_of_ble_eq_true rfl⟩) fullShare g ∗ heldQ (F := F) c (rowM scA s ⟨55, Nat.le_of_ble_eq_true rfl⟩) fullShare g ∗
      heldQ (F := F) c (rowM scA s ⟨56, Nat.le_of_ble_eq_true rfl⟩) fullShare g ∗ heldQ (F := F) c (rowM scA s ⟨57, Nat.le_of_ble_eq_true rfl⟩) fullShare g ∗
      heldQ (F := F) c (rowM scA s ⟨58, Nat.le_of_ble_eq_true rfl⟩) fullShare g ∗ heldQ (F := F) c (rowM scA s ⟨59, Nat.le_of_ble_eq_true rfl⟩) fullShare g ∗
      heldQ (F := F) c (rowM scA s ⟨60, Nat.le_of_ble_eq_true rfl⟩) fullShare g ∗ heldQ (F := F) c (rowM scA s ⟨61, Nat.le_of_ble_eq_true rfl⟩) fullShare g ∗
      heldQ (F := F) c (rowM scA s ⟨62, Nat.le_of_ble_eq_true rfl⟩) fullShare g ∗ heldQ (F := F) c (rowM scA s ⟨63, Nat.le_of_ble_eq_true rfl⟩) fullShare g) := by
  refine (pt_family (F := F) (ℓ := scA.view.loc (c : Thread nD τ)) (slotSet s) (rowSet s) (rows_disjoint s) (rows_cover s) fullShare g).trans ?_
  have e : (fun r : Fin 64 => (scA.view.loc (c : Thread nD τ) ↦[rowSet s r]{fullShare} g : sProp 𝕄))
      = fun r : Fin 64 => heldQ (F := F) c (rowM scA s r) fullShare g :=
    funext fun r => (heldQ_rowM_A c s r fullShare g).symm
  rw [e]
  exact star64 _

/-! ## The box the body loads from scA at point t is slot t mod 2 -/

/-- The elements the load at point t goes through are exactly slot t mod 2. -/
theorem box_eq_slot_A (t : Fin grid0.N) :
    (scA.access (Rect.unit (s := S2x8x64x1024) (k0_off515 (grid0.coords t)) S1x8x64x1024.size (k0_off515_inb (grid0.coords t)))).set
      = slotSet (slN t.val) := by
  rw [Rect.unit_congr (coff_L t) (k0_off515_inb (grid0.coords t)) (inb_slot (slN t.val))]
  exact View.set_slice_whole _ _

theorem box_in_slot_A (t : Fin grid0.N) :
    (scA.access (Rect.unit (s := S2x8x64x1024) (k0_off515 (grid0.coords t)) S1x8x64x1024.size (k0_off515_inb (grid0.coords t)))).set
      ⊆ (slotM scA (slN t.val)).view.set := by
  rw [box_eq_slot_A, slotM_set_A]

/-- The same through the whole buffer's own indices. -/
theorem box_on_slot_A (t : Fin grid0.N) :
    scA.view.setOn (Rect.unit (s := S2x8x64x1024) (k0_off515 (grid0.coords t)) S1x8x64x1024.size (k0_off515_inb (grid0.coords t))).set
      ⊆ (slotM scA (slN t.val)).view.set := by
  rw [Rect.unit_congr (coff_L t) (k0_off515_inb (grid0.coords t)) (inb_slot (slN t.val)), slotM_set_A]
  intro i hi
  obtain ⟨j, hj, rfl⟩ := Finset.mem_map.mp hi
  exact hj

/-! ## Scratch buffer scB: a slot and its 64 rows, written out -/

/-- The 64 rows of slot s, each held whole at contents of its own, are the slot held at the contents glued row by row. -/
theorem rows64_B (c : Dev nD) (s : Fin 2) (f : Fin 64 → MBuf (F := F) c scB) :
    (iprop(heldQ (F := F) c (rowM scB s ⟨0, Nat.le_of_ble_eq_true rfl⟩) fullShare (f ⟨0, Nat.le_of_ble_eq_true rfl⟩) ∗ heldQ (F := F) c (rowM scB s ⟨1, Nat.le_of_ble_eq_true rfl⟩) fullShare (f ⟨1, Nat.le_of_ble_eq_true rfl⟩) ∗
      heldQ (F := F) c (rowM scB s ⟨2, Nat.le_of_ble_eq_true rfl⟩) fullShare (f ⟨2, Nat.le_of_ble_eq_true rfl⟩) ∗ heldQ (F := F) c (rowM scB s ⟨3, Nat.le_of_ble_eq_true rfl⟩) fullShare (f ⟨3, Nat.le_of_ble_eq_true rfl⟩) ∗
      heldQ (F := F) c (rowM scB s ⟨4, Nat.le_of_ble_eq_true rfl⟩) fullShare (f ⟨4, Nat.le_of_ble_eq_true rfl⟩) ∗ heldQ (F := F) c (rowM scB s ⟨5, Nat.le_of_ble_eq_true rfl⟩) fullShare (f ⟨5, Nat.le_of_ble_eq_true rfl⟩) ∗
      heldQ (F := F) c (rowM scB s ⟨6, Nat.le_of_ble_eq_true rfl⟩) fullShare (f ⟨6, Nat.le_of_ble_eq_true rfl⟩) ∗ heldQ (F := F) c (rowM scB s ⟨7, Nat.le_of_ble_eq_true rfl⟩) fullShare (f ⟨7, Nat.le_of_ble_eq_true rfl⟩) ∗
      heldQ (F := F) c (rowM scB s ⟨8, Nat.le_of_ble_eq_true rfl⟩) fullShare (f ⟨8, Nat.le_of_ble_eq_true rfl⟩) ∗ heldQ (F := F) c (rowM scB s ⟨9, Nat.le_of_ble_eq_true rfl⟩) fullShare (f ⟨9, Nat.le_of_ble_eq_true rfl⟩) ∗
      heldQ (F := F) c (rowM scB s ⟨10, Nat.le_of_ble_eq_true rfl⟩) fullShare (f ⟨10, Nat.le_of_ble_eq_true rfl⟩) ∗ heldQ (F := F) c (rowM scB s ⟨11, Nat.le_of_ble_eq_true rfl⟩) fullShare (f ⟨11, Nat.le_of_ble_eq_true rfl⟩) ∗
      heldQ (F := F) c (rowM scB s ⟨12, Nat.le_of_ble_eq_true rfl⟩) fullShare (f ⟨12, Nat.le_of_ble_eq_true rfl⟩) ∗ heldQ (F := F) c (rowM scB s ⟨13, Nat.le_of_ble_eq_true rfl⟩) fullShare (f ⟨13, Nat.le_of_ble_eq_true rfl⟩) ∗
      heldQ (F := F) c (rowM scB s ⟨14, Nat.le_of_ble_eq_true rfl⟩) fullShare (f ⟨14, Nat.le_of_ble_eq_true rfl⟩) ∗ heldQ (F := F) c (rowM scB s ⟨15, Nat.le_of_ble_eq_true rfl⟩) fullShare (f ⟨15, Nat.le_of_ble_eq_true rfl⟩) ∗
      heldQ (F := F) c (rowM scB s ⟨16, Nat.le_of_ble_eq_true rfl⟩) fullShare (f ⟨16, Nat.le_of_ble_eq_true rfl⟩) ∗ heldQ (F := F) c (rowM scB s ⟨17, Nat.le_of_ble_eq_true rfl⟩) fullShare (f ⟨17, Nat.le_of_ble_eq_true rfl⟩) ∗
      heldQ (F := F) c (rowM scB s ⟨18, Nat.le_of_ble_eq_true rfl⟩) fullShare (f ⟨18, Nat.le_of_ble_eq_true rfl⟩) ∗ heldQ (F := F) c (rowM scB s ⟨19, Nat.le_of_ble_eq_true rfl⟩) fullShare (f ⟨19, Nat.le_of_ble_eq_true rfl⟩) ∗
      heldQ (F := F) c (rowM scB s ⟨20, Nat.le_of_ble_eq_true rfl⟩) fullShare (f ⟨20, Nat.le_of_ble_eq_true rfl⟩) ∗ heldQ (F := F) c (rowM scB s ⟨21, Nat.le_of_ble_eq_true rfl⟩) fullShare (f ⟨21, Nat.le_of_ble_eq_true rfl⟩) ∗
      heldQ (F := F) c (rowM scB s ⟨22, Nat.le_of_ble_eq_true rfl⟩) fullShare (f ⟨22, Nat.le_of_ble_eq_true rfl⟩) ∗ heldQ (F := F) c (rowM scB s ⟨23, Nat.le_of_ble_eq_true rfl⟩) fullShare (f ⟨23, Nat.le_of_ble_eq_true rfl⟩) ∗
      heldQ (F := F) c (rowM scB s ⟨24, Nat.le_of_ble_eq_true rfl⟩) fullShare (f ⟨24, Nat.le_of_ble_eq_true rfl⟩) ∗ heldQ (F := F) c (rowM scB s ⟨25, Nat.le_of_ble_eq_true rfl⟩) fullShare (f ⟨25, Nat.le_of_ble_eq_true rfl⟩) ∗
      heldQ (F := F) c (rowM scB s ⟨26, Nat.le_of_ble_eq_true rfl⟩) fullShare (f ⟨26, Nat.le_of_ble_eq_true rfl⟩) ∗ heldQ (F := F) c (rowM scB s ⟨27, Nat.le_of_ble_eq_true rfl⟩) fullShare (f ⟨27, Nat.le_of_ble_eq_true rfl⟩) ∗
      heldQ (F := F) c (rowM scB s ⟨28, Nat.le_of_ble_eq_true rfl⟩) fullShare (f ⟨28, Nat.le_of_ble_eq_true rfl⟩) ∗ heldQ (F := F) c (rowM scB s ⟨29, Nat.le_of_ble_eq_true rfl⟩) fullShare (f ⟨29, Nat.le_of_ble_eq_true rfl⟩) ∗
      heldQ (F := F) c (rowM scB s ⟨30, Nat.le_of_ble_eq_true rfl⟩) fullShare (f ⟨30, Nat.le_of_ble_eq_true rfl⟩) ∗ heldQ (F := F) c (rowM scB s ⟨31, Nat.le_of_ble_eq_true rfl⟩) fullShare (f ⟨31, Nat.le_of_ble_eq_true rfl⟩) ∗
      heldQ (F := F) c (rowM scB s ⟨32, Nat.le_of_ble_eq_true rfl⟩) fullShare (f ⟨32, Nat.le_of_ble_eq_true rfl⟩) ∗ heldQ (F := F) c (rowM scB s ⟨33, Nat.le_of_ble_eq_true rfl⟩) fullShare (f ⟨33, Nat.le_of_ble_eq_true rfl⟩) ∗
      heldQ (F := F) c (rowM scB s ⟨34, Nat.le_of_ble_eq_true rfl⟩) fullShare (f ⟨34, Nat.le_of_ble_eq_true rfl⟩) ∗ heldQ (F := F) c (rowM scB s ⟨35, Nat.le_of_ble_eq_true rfl⟩) fullShare (f ⟨35, Nat.le_of_ble_eq_true rfl⟩) ∗
      heldQ (F := F) c (rowM scB s ⟨36, Nat.le_of_ble_eq_true rfl⟩) fullShare (f ⟨36, Nat.le_of_ble_eq_true rfl⟩) ∗ heldQ (F := F) c (rowM scB s ⟨37, Nat.le_of_ble_eq_true rfl⟩) fullShare (f ⟨37, Nat.le_of_ble_eq_true rfl⟩) ∗
      heldQ (F := F) c (rowM scB s ⟨38, Nat.le_of_ble_eq_true rfl⟩) fullShare (f ⟨38, Nat.le_of_ble_eq_true rfl⟩) ∗ heldQ (F := F) c (rowM scB s ⟨39, Nat.le_of_ble_eq_true rfl⟩) fullShare (f ⟨39, Nat.le_of_ble_eq_true rfl⟩) ∗
      heldQ (F := F) c (rowM scB s ⟨40, Nat.le_of_ble_eq_true rfl⟩) fullShare (f ⟨40, Nat.le_of_ble_eq_true rfl⟩) ∗ heldQ (F := F) c (rowM scB s ⟨41, Nat.le_of_ble_eq_true rfl⟩) fullShare (f ⟨41, Nat.le_of_ble_eq_true rfl⟩) ∗
      heldQ (F := F) c (rowM scB s ⟨42, Nat.le_of_ble_eq_true rfl⟩) fullShare (f ⟨42, Nat.le_of_ble_eq_true rfl⟩) ∗ heldQ (F := F) c (rowM scB s ⟨43, Nat.le_of_ble_eq_true rfl⟩) fullShare (f ⟨43, Nat.le_of_ble_eq_true rfl⟩) ∗
      heldQ (F := F) c (rowM scB s ⟨44, Nat.le_of_ble_eq_true rfl⟩) fullShare (f ⟨44, Nat.le_of_ble_eq_true rfl⟩) ∗ heldQ (F := F) c (rowM scB s ⟨45, Nat.le_of_ble_eq_true rfl⟩) fullShare (f ⟨45, Nat.le_of_ble_eq_true rfl⟩) ∗
      heldQ (F := F) c (rowM scB s ⟨46, Nat.le_of_ble_eq_true rfl⟩) fullShare (f ⟨46, Nat.le_of_ble_eq_true rfl⟩) ∗ heldQ (F := F) c (rowM scB s ⟨47, Nat.le_of_ble_eq_true rfl⟩) fullShare (f ⟨47, Nat.le_of_ble_eq_true rfl⟩) ∗
      heldQ (F := F) c (rowM scB s ⟨48, Nat.le_of_ble_eq_true rfl⟩) fullShare (f ⟨48, Nat.le_of_ble_eq_true rfl⟩) ∗ heldQ (F := F) c (rowM scB s ⟨49, Nat.le_of_ble_eq_true rfl⟩) fullShare (f ⟨49, Nat.le_of_ble_eq_true rfl⟩) ∗
      heldQ (F := F) c (rowM scB s ⟨50, Nat.le_of_ble_eq_true rfl⟩) fullShare (f ⟨50, Nat.le_of_ble_eq_true rfl⟩) ∗ heldQ (F := F) c (rowM scB s ⟨51, Nat.le_of_ble_eq_true rfl⟩) fullShare (f ⟨51, Nat.le_of_ble_eq_true rfl⟩) ∗
      heldQ (F := F) c (rowM scB s ⟨52, Nat.le_of_ble_eq_true rfl⟩) fullShare (f ⟨52, Nat.le_of_ble_eq_true rfl⟩) ∗ heldQ (F := F) c (rowM scB s ⟨53, Nat.le_of_ble_eq_true rfl⟩) fullShare (f ⟨53, Nat.le_of_ble_eq_true rfl⟩) ∗
      heldQ (F := F) c (rowM scB s ⟨54, Nat.le_of_ble_eq_true rfl⟩) fullShare (f ⟨54, Nat.le_of_ble_eq_true rfl⟩) ∗ heldQ (F := F) c (rowM scB s ⟨55, Nat.le_of_ble_eq_true rfl⟩) fullShare (f ⟨55, Nat.le_of_ble_eq_true rfl⟩) ∗
      heldQ (F := F) c (rowM scB s ⟨56, Nat.le_of_ble_eq_true rfl⟩) fullShare (f ⟨56, Nat.le_of_ble_eq_true rfl⟩) ∗ heldQ (F := F) c (rowM scB s ⟨57, Nat.le_of_ble_eq_true rfl⟩) fullShare (f ⟨57, Nat.le_of_ble_eq_true rfl⟩) ∗
      heldQ (F := F) c (rowM scB s ⟨58, Nat.le_of_ble_eq_true rfl⟩) fullShare (f ⟨58, Nat.le_of_ble_eq_true rfl⟩) ∗ heldQ (F := F) c (rowM scB s ⟨59, Nat.le_of_ble_eq_true rfl⟩) fullShare (f ⟨59, Nat.le_of_ble_eq_true rfl⟩) ∗
      heldQ (F := F) c (rowM scB s ⟨60, Nat.le_of_ble_eq_true rfl⟩) fullShare (f ⟨60, Nat.le_of_ble_eq_true rfl⟩) ∗ heldQ (F := F) c (rowM scB s ⟨61, Nat.le_of_ble_eq_true rfl⟩) fullShare (f ⟨61, Nat.le_of_ble_eq_true rfl⟩) ∗
      heldQ (F := F) c (rowM scB s ⟨62, Nat.le_of_ble_eq_true rfl⟩) fullShare (f ⟨62, Nat.le_of_ble_eq_true rfl⟩) ∗ heldQ (F := F) c (rowM scB s ⟨63, Nat.le_of_ble_eq_true rfl⟩) fullShare (f ⟨63, Nat.le_of_ble_eq_true rfl⟩)) : sProp 𝕄)
      = heldQ (F := F) c (slotM scB s) fullShare (glue_B c f) := by
  refine (star64 (fun r : Fin 64 => heldQ (F := F) c (rowM scB s r) fullShare (f r))).symm.trans ?_
  have e : (fun r : Fin 64 => heldQ (F := F) c (rowM scB s r) fullShare (f r))
      = fun r : Fin 64 => (scB.view.loc (c : Thread nD τ) ↦[rowSet s r]{fullShare} f r : sProp 𝕄) :=
    funext fun r => heldQ_rowM_B c s r fullShare (f r)
  rw [e, rows_glue_eq_B, heldQ_slotM_B]

/-- A slot held at one contents is its 64 rows, each held at that contents. -/
theorem slot64_B (c : Dev nD) (s : Fin 2) (g : MBuf (F := F) c scB) :
    (scB.view.loc (c : Thread nD τ) ↦[slotSet s]{fullShare} g : sProp 𝕄)
      = iprop(heldQ (F := F) c (rowM scB s ⟨0, Nat.le_of_ble_eq_true rfl⟩) fullShare g ∗ heldQ (F := F) c (rowM scB s ⟨1, Nat.le_of_ble_eq_true rfl⟩) fullShare g ∗
      heldQ (F := F) c (rowM scB s ⟨2, Nat.le_of_ble_eq_true rfl⟩) fullShare g ∗ heldQ (F := F) c (rowM scB s ⟨3, Nat.le_of_ble_eq_true rfl⟩) fullShare g ∗
      heldQ (F := F) c (rowM scB s ⟨4, Nat.le_of_ble_eq_true rfl⟩) fullShare g ∗ heldQ (F := F) c (rowM scB s ⟨5, Nat.le_of_ble_eq_true rfl⟩) fullShare g ∗
      heldQ (F := F) c (rowM scB s ⟨6, Nat.le_of_ble_eq_true rfl⟩) fullShare g ∗ heldQ (F := F) c (rowM scB s ⟨7, Nat.le_of_ble_eq_true rfl⟩) fullShare g ∗
      heldQ (F := F) c (rowM scB s ⟨8, Nat.le_of_ble_eq_true rfl⟩) fullShare g ∗ heldQ (F := F) c (rowM scB s ⟨9, Nat.le_of_ble_eq_true rfl⟩) fullShare g ∗
      heldQ (F := F) c (rowM scB s ⟨10, Nat.le_of_ble_eq_true rfl⟩) fullShare g ∗ heldQ (F := F) c (rowM scB s ⟨11, Nat.le_of_ble_eq_true rfl⟩) fullShare g ∗
      heldQ (F := F) c (rowM scB s ⟨12, Nat.le_of_ble_eq_true rfl⟩) fullShare g ∗ heldQ (F := F) c (rowM scB s ⟨13, Nat.le_of_ble_eq_true rfl⟩) fullShare g ∗
      heldQ (F := F) c (rowM scB s ⟨14, Nat.le_of_ble_eq_true rfl⟩) fullShare g ∗ heldQ (F := F) c (rowM scB s ⟨15, Nat.le_of_ble_eq_true rfl⟩) fullShare g ∗
      heldQ (F := F) c (rowM scB s ⟨16, Nat.le_of_ble_eq_true rfl⟩) fullShare g ∗ heldQ (F := F) c (rowM scB s ⟨17, Nat.le_of_ble_eq_true rfl⟩) fullShare g ∗
      heldQ (F := F) c (rowM scB s ⟨18, Nat.le_of_ble_eq_true rfl⟩) fullShare g ∗ heldQ (F := F) c (rowM scB s ⟨19, Nat.le_of_ble_eq_true rfl⟩) fullShare g ∗
      heldQ (F := F) c (rowM scB s ⟨20, Nat.le_of_ble_eq_true rfl⟩) fullShare g ∗ heldQ (F := F) c (rowM scB s ⟨21, Nat.le_of_ble_eq_true rfl⟩) fullShare g ∗
      heldQ (F := F) c (rowM scB s ⟨22, Nat.le_of_ble_eq_true rfl⟩) fullShare g ∗ heldQ (F := F) c (rowM scB s ⟨23, Nat.le_of_ble_eq_true rfl⟩) fullShare g ∗
      heldQ (F := F) c (rowM scB s ⟨24, Nat.le_of_ble_eq_true rfl⟩) fullShare g ∗ heldQ (F := F) c (rowM scB s ⟨25, Nat.le_of_ble_eq_true rfl⟩) fullShare g ∗
      heldQ (F := F) c (rowM scB s ⟨26, Nat.le_of_ble_eq_true rfl⟩) fullShare g ∗ heldQ (F := F) c (rowM scB s ⟨27, Nat.le_of_ble_eq_true rfl⟩) fullShare g ∗
      heldQ (F := F) c (rowM scB s ⟨28, Nat.le_of_ble_eq_true rfl⟩) fullShare g ∗ heldQ (F := F) c (rowM scB s ⟨29, Nat.le_of_ble_eq_true rfl⟩) fullShare g ∗
      heldQ (F := F) c (rowM scB s ⟨30, Nat.le_of_ble_eq_true rfl⟩) fullShare g ∗ heldQ (F := F) c (rowM scB s ⟨31, Nat.le_of_ble_eq_true rfl⟩) fullShare g ∗
      heldQ (F := F) c (rowM scB s ⟨32, Nat.le_of_ble_eq_true rfl⟩) fullShare g ∗ heldQ (F := F) c (rowM scB s ⟨33, Nat.le_of_ble_eq_true rfl⟩) fullShare g ∗
      heldQ (F := F) c (rowM scB s ⟨34, Nat.le_of_ble_eq_true rfl⟩) fullShare g ∗ heldQ (F := F) c (rowM scB s ⟨35, Nat.le_of_ble_eq_true rfl⟩) fullShare g ∗
      heldQ (F := F) c (rowM scB s ⟨36, Nat.le_of_ble_eq_true rfl⟩) fullShare g ∗ heldQ (F := F) c (rowM scB s ⟨37, Nat.le_of_ble_eq_true rfl⟩) fullShare g ∗
      heldQ (F := F) c (rowM scB s ⟨38, Nat.le_of_ble_eq_true rfl⟩) fullShare g ∗ heldQ (F := F) c (rowM scB s ⟨39, Nat.le_of_ble_eq_true rfl⟩) fullShare g ∗
      heldQ (F := F) c (rowM scB s ⟨40, Nat.le_of_ble_eq_true rfl⟩) fullShare g ∗ heldQ (F := F) c (rowM scB s ⟨41, Nat.le_of_ble_eq_true rfl⟩) fullShare g ∗
      heldQ (F := F) c (rowM scB s ⟨42, Nat.le_of_ble_eq_true rfl⟩) fullShare g ∗ heldQ (F := F) c (rowM scB s ⟨43, Nat.le_of_ble_eq_true rfl⟩) fullShare g ∗
      heldQ (F := F) c (rowM scB s ⟨44, Nat.le_of_ble_eq_true rfl⟩) fullShare g ∗ heldQ (F := F) c (rowM scB s ⟨45, Nat.le_of_ble_eq_true rfl⟩) fullShare g ∗
      heldQ (F := F) c (rowM scB s ⟨46, Nat.le_of_ble_eq_true rfl⟩) fullShare g ∗ heldQ (F := F) c (rowM scB s ⟨47, Nat.le_of_ble_eq_true rfl⟩) fullShare g ∗
      heldQ (F := F) c (rowM scB s ⟨48, Nat.le_of_ble_eq_true rfl⟩) fullShare g ∗ heldQ (F := F) c (rowM scB s ⟨49, Nat.le_of_ble_eq_true rfl⟩) fullShare g ∗
      heldQ (F := F) c (rowM scB s ⟨50, Nat.le_of_ble_eq_true rfl⟩) fullShare g ∗ heldQ (F := F) c (rowM scB s ⟨51, Nat.le_of_ble_eq_true rfl⟩) fullShare g ∗
      heldQ (F := F) c (rowM scB s ⟨52, Nat.le_of_ble_eq_true rfl⟩) fullShare g ∗ heldQ (F := F) c (rowM scB s ⟨53, Nat.le_of_ble_eq_true rfl⟩) fullShare g ∗
      heldQ (F := F) c (rowM scB s ⟨54, Nat.le_of_ble_eq_true rfl⟩) fullShare g ∗ heldQ (F := F) c (rowM scB s ⟨55, Nat.le_of_ble_eq_true rfl⟩) fullShare g ∗
      heldQ (F := F) c (rowM scB s ⟨56, Nat.le_of_ble_eq_true rfl⟩) fullShare g ∗ heldQ (F := F) c (rowM scB s ⟨57, Nat.le_of_ble_eq_true rfl⟩) fullShare g ∗
      heldQ (F := F) c (rowM scB s ⟨58, Nat.le_of_ble_eq_true rfl⟩) fullShare g ∗ heldQ (F := F) c (rowM scB s ⟨59, Nat.le_of_ble_eq_true rfl⟩) fullShare g ∗
      heldQ (F := F) c (rowM scB s ⟨60, Nat.le_of_ble_eq_true rfl⟩) fullShare g ∗ heldQ (F := F) c (rowM scB s ⟨61, Nat.le_of_ble_eq_true rfl⟩) fullShare g ∗
      heldQ (F := F) c (rowM scB s ⟨62, Nat.le_of_ble_eq_true rfl⟩) fullShare g ∗ heldQ (F := F) c (rowM scB s ⟨63, Nat.le_of_ble_eq_true rfl⟩) fullShare g) := by
  refine (pt_family (F := F) (ℓ := scB.view.loc (c : Thread nD τ)) (slotSet s) (rowSet s) (rows_disjoint s) (rows_cover s) fullShare g).trans ?_
  have e : (fun r : Fin 64 => (scB.view.loc (c : Thread nD τ) ↦[rowSet s r]{fullShare} g : sProp 𝕄))
      = fun r : Fin 64 => heldQ (F := F) c (rowM scB s r) fullShare g :=
    funext fun r => (heldQ_rowM_B c s r fullShare g).symm
  rw [e]
  exact star64 _

/-! ## The box the body loads from scB at point t is slot t mod 2 -/

/-- The elements the load at point t goes through are exactly slot t mod 2. -/
theorem box_eq_slot_B (t : Fin grid0.N) :
    (scB.access (Rect.unit (s := S2x8x64x1024) (k0_off515 (grid0.coords t)) S1x8x64x1024.size (k0_off515_inb (grid0.coords t)))).set
      = slotSet (slN t.val) := by
  rw [Rect.unit_congr (coff_L t) (k0_off515_inb (grid0.coords t)) (inb_slot (slN t.val))]
  exact View.set_slice_whole _ _

theorem box_in_slot_B (t : Fin grid0.N) :
    (scB.access (Rect.unit (s := S2x8x64x1024) (k0_off515 (grid0.coords t)) S1x8x64x1024.size (k0_off515_inb (grid0.coords t)))).set
      ⊆ (slotM scB (slN t.val)).view.set := by
  rw [box_eq_slot_B, slotM_set_B]

/-- The same through the whole buffer's own indices. -/
theorem box_on_slot_B (t : Fin grid0.N) :
    scB.view.setOn (Rect.unit (s := S2x8x64x1024) (k0_off515 (grid0.coords t)) S1x8x64x1024.size (k0_off515_inb (grid0.coords t))).set
      ⊆ (slotM scB (slN t.val)).view.set := by
  rw [Rect.unit_congr (coff_L t) (k0_off515_inb (grid0.coords t)) (inb_slot (slN t.val)), slotM_set_B]
  intro i hi
  obtain ⟨j, hj, rfl⟩ := Finset.mem_map.mp hi
  exact hj

/-! ## The table's word at a cell -/

/-- The word read at the one-cell box at offset n is the table's n-th word. -/
theorem wordAt_eq (c : Dev nD) (tb : MBuf (F := F) c tbM) (cell : Fin 1 → ℕ) (h : ∀ a, cell a + S1.size a ≤ S2048.size a)
    (n : ℕ) (hn : n < 2048) (hc : cell = ![n]) :
    wordAt (F := F) c tb cell h = tb (ix1 (⟨n, hn⟩ : Fin 2048)) := by
  subst hc
  show tbM.view.readAt (Elt F) (Rect.unit (s := S2048) ![n] S1.size h).toLoadRect tb (Shape.Idx.first (numel1_S1.symm ▸ Nat.one_pos)) = _
  rw [View.readAt_apply]
  show tb ((Rect.unit (s := S2048) ![n] S1.size h).toLoadRect.idx (Shape.Idx.first (numel1_S1.symm ▸ Nat.one_pos))) = tb (ix1 (⟨n, hn⟩ : Fin 2048))
  congr 1
  funext a
  apply Fin.ext
  fin_cases a
  simp [Shape.Idx.first]

/-! ## An argument array at a share: one row lent, the rest kept -/

/-- The array aM at a share is one row's elements, the row spelled by any offset vector, and the rest, at that share. -/
theorem tok_split_a (c : Dev nD) (q : PosShare TreeShare) (off : Fin 3 → ℕ)
    (h : ∀ a, off a + S8x1x1024.size a ≤ S8x4096x1024.size a) (fx : MBuf (F := F) c aM) :
    (aM.view.loc (c : Thread nD τ) ↦{q} fx : sProp 𝕄)
      ⊣⊢ iprop(heldQ (F := F) c (srcM aM off h) q fx
          ∗ (aM.view.loc (c : Thread nD τ) ↦[Finset.univ \ (srcM aM off h).view.set]{q} fx)) :=
  pointsTo_split_subset (Finset.subset_univ _)

/-- The array bM at a share is one row's elements, the row spelled by any offset vector, and the rest, at that share. -/
theorem tok_split_b (c : Dev nD) (q : PosShare TreeShare) (off : Fin 3 → ℕ)
    (h : ∀ a, off a + S8x1x1024.size a ≤ S8x4096x1024.size a) (fx : MBuf (F := F) c bM) :
    (bM.view.loc (c : Thread nD τ) ↦{q} fx : sProp 𝕄)
      ⊣⊢ iprop(heldQ (F := F) c (srcM bM off h) q fx
          ∗ (bM.view.loc (c : Thread nD τ) ↦[Finset.univ \ (srcM bM off h).view.set]{q} fx)) :=
  pointsTo_split_subset (Finset.subset_univ _)

/-! ## The row a table cell names -/

/-- A number below 4096 names a row of an argument array. -/
theorem rows_inb_nat (n : ℕ) (h : n < 4096) : ∀ a, (![0, n, 0] : Fin 3 → ℕ) a + S8x1x1024.size a ≤ S8x4096x1024.size a := by
  intro a; fin_cases a <;> simp <;> omega

/-- The word at cell 64·β + r, when every word of the table is below 4096, is the row grid point β gathers into its row r:
    the cell is below 2048 and the word below 4096, so neither fold moves it. -/
theorem row_of_cell (c : Dev nD) (tb : MBuf (F := F) c tbM) (htb : ∀ y, (tb y).toNat < 4096) (cell : Fin 1 → ℕ)
    (h : ∀ a, cell a + S1.size a ≤ S2048.size a) (β : ℕ) (r : Fin 64) (hb : β < 32) (hc : cell = ![64 * β + r.val])
    {hlt : (wordAt (F := F) c tb cell h).toNat < 4096} :
    (⟨(wordAt (F := F) c tb cell h).toNat, hlt⟩ : Fin 4096) = rowsOf tb β r := by
  have hr : r.val < 64 := r.isLt
  have hn : 64 * β + r.val < 2048 := by omega
  have hw := wordAt_eq (F := F) c tb cell h (64 * β + r.val) hn hc
  have hi : (⟨(64 * β + r.val) % 2048, Nat.mod_lt _ (by decide)⟩ : Fin 2048) = ⟨64 * β + r.val, hn⟩ :=
    Fin.ext (Nat.mod_eq_of_lt hn)
  apply Fin.ext
  show (wordAt (F := F) c tb cell h).toNat
      = (tb (ix1 (⟨(64 * β + r.val) % 2048, Nat.mod_lt _ (by decide)⟩ : Fin 2048))).toNat % 4096
  rw [hi, ← hw]
  exact (Nat.mod_eq_of_lt hlt).symm

end Cert.KernelIdeal.Hand

end
-- ==== Proof.KI.ReadsLib.lean ====
/-
  Reading back a slot whose 64 rows each hold a landed array row, with the rows' contents typed at the whole scratch buffer:
  the form a 64-case table of landed contents instantiates row by row.
-/
import proofs.«422764_j1194000908612_2_alg».proof.Proof.Gen.KernelIdeal.Launch
import proofs.«422764_j1194000908612_2_alg».proof.Proof.Gen.KernelIdeal.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.KI.Names
import proofs.«422764_j1194000908612_2_alg».proof.Proof.KI.Out
import proofs.«422764_j1194000908612_2_alg».proof.Proof.KI.Geom
import proofs.«422764_j1194000908612_2_alg».proof.Proof.KI.SlotRead
import proofs.«422764_j1194000908612_2_alg».proof.Proof.KI.Defs2
import proofs.«422764_j1194000908612_2_alg».proof.Proof.KI.Plumb
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

/-! ## Scratch scA filled from array aM -/

/-- Row r of slot s of the scratch once row n of the array has landed in it, whatever the row held before — as contents of
    the whole scratch buffer (a row's buffer is the scratch's own). -/
def landA (c : Dev nD) (s : Fin 2) (r : Fin 64) (n : ℕ) (hn : n < 4096) (fx : MBuf (F := F) c aM) : MBuf (F := F) c scA :=
  landedR (F := F) c (srcM aM ![0, n, 0] (rows_inb_nat n hn)) (rowM scA s r) fx (rowM scA s r).view.junk

/-- Row n of the array landed over a scratch row whatever it held: the landed row at n. -/
theorem landJ_A (c : Dev nD) (s : Fin 2) (r : Fin 64) (n : ℕ) (hn : n < 4096) (fx : MBuf (F := F) c aM) :
    (landedJ (F := F) c (srcM aM ![0, n, 0] (rows_inb_nat n hn)) (rowM scA s r) fx : MBuf (F := F) c scA) = landA c s r n hn fx := by
  unfold landA
  rfl

/-- A family of 64 contents, the r-th being row r of slot s with row n r of the array landed in it: the slot read whole
    at the contents glued row by row is the rows n r of the array, gathered. -/
theorem read_landA (c : Dev nD) (s : Fin 2) (n : Fin 64 → ℕ) (hn : ∀ r, n r < 4096) (fx : MBuf (F := F) c aM)
    (f : Fin 64 → MBuf (F := F) c scA) (hf : ∀ r, f r = landA c s r (n r) (hn r) fx) :
    scA.view.readAt (Elt F) (Rect.unit (s := S2x8x64x1024) ![s.val, 0, 0, 0] S1x8x64x1024.size (inb_slot s)).toLoadRect (glue_A c f)
      = gath fx (fun r => ⟨n r, hn r⟩) := by
  have e : f = fun r => landA c s r (n r) (hn r) fx := funext hf
  rw [e]
  unfold landA
  exact read_glue_A c s n hn (fun r => rows_inb_nat (n r) (hn r)) fx fx rfl (fun r => (rowM scA s r).view.junk)

/-! ## Scratch scB filled from array bM -/

/-- Row r of slot s of the scratch once row n of the array has landed in it, whatever the row held before — as contents of
    the whole scratch buffer (a row's buffer is the scratch's own). -/
def landB (c : Dev nD) (s : Fin 2) (r : Fin 64) (n : ℕ) (hn : n < 4096) (fx : MBuf (F := F) c bM) : MBuf (F := F) c scB :=
  landedR (F := F) c (srcM bM ![0, n, 0] (rows_inb_nat n hn)) (rowM scB s r) fx (rowM scB s r).view.junk

/-- Row n of the array landed over a scratch row whatever it held: the landed row at n. -/
theorem landJ_B (c : Dev nD) (s : Fin 2) (r : Fin 64) (n : ℕ) (hn : n < 4096) (fx : MBuf (F := F) c bM) :
    (landedJ (F := F) c (srcM bM ![0, n, 0] (rows_inb_nat n hn)) (rowM scB s r) fx : MBuf (F := F) c scB) = landB c s r n hn fx := by
  unfold landB
  rfl

/-- A family of 64 contents, the r-th being row r of slot s with row n r of the array landed in it: the slot read whole
    at the contents glued row by row is the rows n r of the array, gathered. -/
theorem read_landB (c : Dev nD) (s : Fin 2) (n : Fin 64 → ℕ) (hn : ∀ r, n r < 4096) (fx : MBuf (F := F) c bM)
    (f : Fin 64 → MBuf (F := F) c scB) (hf : ∀ r, f r = landB c s r (n r) (hn r) fx) :
    scB.view.readAt (Elt F) (Rect.unit (s := S2x8x64x1024) ![s.val, 0, 0, 0] S1x8x64x1024.size (inb_slot s)).toLoadRect (glue_B c f)
      = gath fx (fun r => ⟨n r, hn r⟩) := by
  have e : f = fun r => landB c s r (n r) (hn r) fx := funext hf
  rw [e]
  unfold landB
  exact read_glue_B c s n hn (fun r => rows_inb_nat (n r) (hn r)) fx fx rfl (fun r => (rowM scB s r).view.junk)

end Cert.KernelIdeal.Hand

end
-- ==== Proof.KI.Reads.lean ====
/-
  What a slot reads back once its 64 copies have landed — the gathered rows —, once per fetch and per array. This text only lays out tables of
  64 cases (the row numbers' bounds, the rows as the table's words, each landed contents as an instance of the generic landed row) and instantiates
  the generic lemmas of the hand modules KI/ReadsLib.lean (landJ_A, landJ_B, read_landA, read_landB) and KI/Plumb.lean (row_of_cell); no mathematical step is made here.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Tab
import proofs.«422764_j1194000908612_2_alg».proof.Proof.KI.Canon
import proofs.«422764_j1194000908612_2_alg».proof.Proof.KI.Plumb
import proofs.«422764_j1194000908612_2_alg».proof.Proof.KI.SlotRead
import proofs.«422764_j1194000908612_2_alg».proof.Proof.KI.ReadsLib
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (fa : MBuf (F := F) c aM) (fb : MBuf (F := F) c bM)

/-! ## What a slot reads back once its 64 copies have landed -/

theorem N1_lt (htb : ∀ y, (tb y).toNat < 4096) (i : grid0.Coords) (h1 : k0_cond1 i = 1#1) : ∀ r : Fin 64, N1 c tb i h1 r < 4096
  | ⟨0, _⟩ => word_lt c tb htb _ _
  | ⟨1, _⟩ => word_lt c tb htb _ _
  | ⟨2, _⟩ => word_lt c tb htb _ _
  | ⟨3, _⟩ => word_lt c tb htb _ _
  | ⟨4, _⟩ => word_lt c tb htb _ _
  | ⟨5, _⟩ => word_lt c tb htb _ _
  | ⟨6, _⟩ => word_lt c tb htb _ _
  | ⟨7, _⟩ => word_lt c tb htb _ _
  | ⟨8, _⟩ => word_lt c tb htb _ _
  | ⟨9, _⟩ => word_lt c tb htb _ _
  | ⟨10, _⟩ => word_lt c tb htb _ _
  | ⟨11, _⟩ => word_lt c tb htb _ _
  | ⟨12, _⟩ => word_lt c tb htb _ _
  | ⟨13, _⟩ => word_lt c tb htb _ _
  | ⟨14, _⟩ => word_lt c tb htb _ _
  | ⟨15, _⟩ => word_lt c tb htb _ _
  | ⟨16, _⟩ => word_lt c tb htb _ _
  | ⟨17, _⟩ => word_lt c tb htb _ _
  | ⟨18, _⟩ => word_lt c tb htb _ _
  | ⟨19, _⟩ => word_lt c tb htb _ _
  | ⟨20, _⟩ => word_lt c tb htb _ _
  | ⟨21, _⟩ => word_lt c tb htb _ _
  | ⟨22, _⟩ => word_lt c tb htb _ _
  | ⟨23, _⟩ => word_lt c tb htb _ _
  | ⟨24, _⟩ => word_lt c tb htb _ _
  | ⟨25, _⟩ => word_lt c tb htb _ _
  | ⟨26, _⟩ => word_lt c tb htb _ _
  | ⟨27, _⟩ => word_lt c tb htb _ _
  | ⟨28, _⟩ => word_lt c tb htb _ _
  | ⟨29, _⟩ => word_lt c tb htb _ _
  | ⟨30, _⟩ => word_lt c tb htb _ _
  | ⟨31, _⟩ => word_lt c tb htb _ _
  | ⟨32, _⟩ => word_lt c tb htb _ _
  | ⟨33, _⟩ => word_lt c tb htb _ _
  | ⟨34, _⟩ => word_lt c tb htb _ _
  | ⟨35, _⟩ => word_lt c tb htb _ _
  | ⟨36, _⟩ => word_lt c tb htb _ _
  | ⟨37, _⟩ => word_lt c tb htb _ _
  | ⟨38, _⟩ => word_lt c tb htb _ _
  | ⟨39, _⟩ => word_lt c tb htb _ _
  | ⟨40, _⟩ => word_lt c tb htb _ _
  | ⟨41, _⟩ => word_lt c tb htb _ _
  | ⟨42, _⟩ => word_lt c tb htb _ _
  | ⟨43, _⟩ => word_lt c tb htb _ _
  | ⟨44, _⟩ => word_lt c tb htb _ _
  | ⟨45, _⟩ => word_lt c tb htb _ _
  | ⟨46, _⟩ => word_lt c tb htb _ _
  | ⟨47, _⟩ => word_lt c tb htb _ _
  | ⟨48, _⟩ => word_lt c tb htb _ _
  | ⟨49, _⟩ => word_lt c tb htb _ _
  | ⟨50, _⟩ => word_lt c tb htb _ _
  | ⟨51, _⟩ => word_lt c tb htb _ _
  | ⟨52, _⟩ => word_lt c tb htb _ _
  | ⟨53, _⟩ => word_lt c tb htb _ _
  | ⟨54, _⟩ => word_lt c tb htb _ _
  | ⟨55, _⟩ => word_lt c tb htb _ _
  | ⟨56, _⟩ => word_lt c tb htb _ _
  | ⟨57, _⟩ => word_lt c tb htb _ _
  | ⟨58, _⟩ => word_lt c tb htb _ _
  | ⟨59, _⟩ => word_lt c tb htb _ _
  | ⟨60, _⟩ => word_lt c tb htb _ _
  | ⟨61, _⟩ => word_lt c tb htb _ _
  | ⟨62, _⟩ => word_lt c tb htb _ _
  | ⟨63, _⟩ => word_lt c tb htb _ _
  | ⟨_ + 64, h⟩ => absurd h (Nat.not_lt.2 (Nat.le_add_left _ _))
/-- The rows fetch 1 of grid point t gathers are the table's words at cells 64·t + r. -/
theorem rows1_eq (htb : ∀ y, (tb y).toNat < 4096) (t : Fin grid0.N) (h1 : k0_cond1 (grid0.coords t) = 1#1) (hb : t.val < 32) : ∀ r : Fin 64, (⟨N1 c tb (grid0.coords t) h1 r, N1_lt c tb htb (grid0.coords t) h1 r⟩ : Fin 4096) = rowsOf tb t.val r
  | ⟨0, _⟩ => row_of_cell c tb htb _ _ t.val ⟨0, Nat.le_of_ble_eq_true rfl⟩ hb (coff_C1_0 t h1)
  | ⟨1, _⟩ => row_of_cell c tb htb _ _ t.val ⟨1, Nat.le_of_ble_eq_true rfl⟩ hb (coff_C1_1 t h1)
  | ⟨2, _⟩ => row_of_cell c tb htb _ _ t.val ⟨2, Nat.le_of_ble_eq_true rfl⟩ hb (coff_C1_2 t h1)
  | ⟨3, _⟩ => row_of_cell c tb htb _ _ t.val ⟨3, Nat.le_of_ble_eq_true rfl⟩ hb (coff_C1_3 t h1)
  | ⟨4, _⟩ => row_of_cell c tb htb _ _ t.val ⟨4, Nat.le_of_ble_eq_true rfl⟩ hb (coff_C1_4 t h1)
  | ⟨5, _⟩ => row_of_cell c tb htb _ _ t.val ⟨5, Nat.le_of_ble_eq_true rfl⟩ hb (coff_C1_5 t h1)
  | ⟨6, _⟩ => row_of_cell c tb htb _ _ t.val ⟨6, Nat.le_of_ble_eq_true rfl⟩ hb (coff_C1_6 t h1)
  | ⟨7, _⟩ => row_of_cell c tb htb _ _ t.val ⟨7, Nat.le_of_ble_eq_true rfl⟩ hb (coff_C1_7 t h1)
  | ⟨8, _⟩ => row_of_cell c tb htb _ _ t.val ⟨8, Nat.le_of_ble_eq_true rfl⟩ hb (coff_C1_8 t h1)
  | ⟨9, _⟩ => row_of_cell c tb htb _ _ t.val ⟨9, Nat.le_of_ble_eq_true rfl⟩ hb (coff_C1_9 t h1)
  | ⟨10, _⟩ => row_of_cell c tb htb _ _ t.val ⟨10, Nat.le_of_ble_eq_true rfl⟩ hb (coff_C1_10 t h1)
  | ⟨11, _⟩ => row_of_cell c tb htb _ _ t.val ⟨11, Nat.le_of_ble_eq_true rfl⟩ hb (coff_C1_11 t h1)
  | ⟨12, _⟩ => row_of_cell c tb htb _ _ t.val ⟨12, Nat.le_of_ble_eq_true rfl⟩ hb (coff_C1_12 t h1)
  | ⟨13, _⟩ => row_of_cell c tb htb _ _ t.val ⟨13, Nat.le_of_ble_eq_true rfl⟩ hb (coff_C1_13 t h1)
  | ⟨14, _⟩ => row_of_cell c tb htb _ _ t.val ⟨14, Nat.le_of_ble_eq_true rfl⟩ hb (coff_C1_14 t h1)
  | ⟨15, _⟩ => row_of_cell c tb htb _ _ t.val ⟨15, Nat.le_of_ble_eq_true rfl⟩ hb (coff_C1_15 t h1)
  | ⟨16, _⟩ => row_of_cell c tb htb _ _ t.val ⟨16, Nat.le_of_ble_eq_true rfl⟩ hb (coff_C1_16 t h1)
  | ⟨17, _⟩ => row_of_cell c tb htb _ _ t.val ⟨17, Nat.le_of_ble_eq_true rfl⟩ hb (coff_C1_17 t h1)
  | ⟨18, _⟩ => row_of_cell c tb htb _ _ t.val ⟨18, Nat.le_of_ble_eq_true rfl⟩ hb (coff_C1_18 t h1)
  | ⟨19, _⟩ => row_of_cell c tb htb _ _ t.val ⟨19, Nat.le_of_ble_eq_true rfl⟩ hb (coff_C1_19 t h1)
  | ⟨20, _⟩ => row_of_cell c tb htb _ _ t.val ⟨20, Nat.le_of_ble_eq_true rfl⟩ hb (coff_C1_20 t h1)
  | ⟨21, _⟩ => row_of_cell c tb htb _ _ t.val ⟨21, Nat.le_of_ble_eq_true rfl⟩ hb (coff_C1_21 t h1)
  | ⟨22, _⟩ => row_of_cell c tb htb _ _ t.val ⟨22, Nat.le_of_ble_eq_true rfl⟩ hb (coff_C1_22 t h1)
  | ⟨23, _⟩ => row_of_cell c tb htb _ _ t.val ⟨23, Nat.le_of_ble_eq_true rfl⟩ hb (coff_C1_23 t h1)
  | ⟨24, _⟩ => row_of_cell c tb htb _ _ t.val ⟨24, Nat.le_of_ble_eq_true rfl⟩ hb (coff_C1_24 t h1)
  | ⟨25, _⟩ => row_of_cell c tb htb _ _ t.val ⟨25, Nat.le_of_ble_eq_true rfl⟩ hb (coff_C1_25 t h1)
  | ⟨26, _⟩ => row_of_cell c tb htb _ _ t.val ⟨26, Nat.le_of_ble_eq_true rfl⟩ hb (coff_C1_26 t h1)
  | ⟨27, _⟩ => row_of_cell c tb htb _ _ t.val ⟨27, Nat.le_of_ble_eq_true rfl⟩ hb (coff_C1_27 t h1)
  | ⟨28, _⟩ => row_of_cell c tb htb _ _ t.val ⟨28, Nat.le_of_ble_eq_true rfl⟩ hb (coff_C1_28 t h1)
  | ⟨29, _⟩ => row_of_cell c tb htb _ _ t.val ⟨29, Nat.le_of_ble_eq_true rfl⟩ hb (coff_C1_29 t h1)
  | ⟨30, _⟩ => row_of_cell c tb htb _ _ t.val ⟨30, Nat.le_of_ble_eq_true rfl⟩ hb (coff_C1_30 t h1)
  | ⟨31, _⟩ => row_of_cell c tb htb _ _ t.val ⟨31, Nat.le_of_ble_eq_true rfl⟩ hb (coff_C1_31 t h1)
  | ⟨32, _⟩ => row_of_cell c tb htb _ _ t.val ⟨32, Nat.le_of_ble_eq_true rfl⟩ hb (coff_C1_32 t h1)
  | ⟨33, _⟩ => row_of_cell c tb htb _ _ t.val ⟨33, Nat.le_of_ble_eq_true rfl⟩ hb (coff_C1_33 t h1)
  | ⟨34, _⟩ => row_of_cell c tb htb _ _ t.val ⟨34, Nat.le_of_ble_eq_true rfl⟩ hb (coff_C1_34 t h1)
  | ⟨35, _⟩ => row_of_cell c tb htb _ _ t.val ⟨35, Nat.le_of_ble_eq_true rfl⟩ hb (coff_C1_35 t h1)
  | ⟨36, _⟩ => row_of_cell c tb htb _ _ t.val ⟨36, Nat.le_of_ble_eq_true rfl⟩ hb (coff_C1_36 t h1)
  | ⟨37, _⟩ => row_of_cell c tb htb _ _ t.val ⟨37, Nat.le_of_ble_eq_true rfl⟩ hb (coff_C1_37 t h1)
  | ⟨38, _⟩ => row_of_cell c tb htb _ _ t.val ⟨38, Nat.le_of_ble_eq_true rfl⟩ hb (coff_C1_38 t h1)
  | ⟨39, _⟩ => row_of_cell c tb htb _ _ t.val ⟨39, Nat.le_of_ble_eq_true rfl⟩ hb (coff_C1_39 t h1)
  | ⟨40, _⟩ => row_of_cell c tb htb _ _ t.val ⟨40, Nat.le_of_ble_eq_true rfl⟩ hb (coff_C1_40 t h1)
  | ⟨41, _⟩ => row_of_cell c tb htb _ _ t.val ⟨41, Nat.le_of_ble_eq_true rfl⟩ hb (coff_C1_41 t h1)
  | ⟨42, _⟩ => row_of_cell c tb htb _ _ t.val ⟨42, Nat.le_of_ble_eq_true rfl⟩ hb (coff_C1_42 t h1)
  | ⟨43, _⟩ => row_of_cell c tb htb _ _ t.val ⟨43, Nat.le_of_ble_eq_true rfl⟩ hb (coff_C1_43 t h1)
  | ⟨44, _⟩ => row_of_cell c tb htb _ _ t.val ⟨44, Nat.le_of_ble_eq_true rfl⟩ hb (coff_C1_44 t h1)
  | ⟨45, _⟩ => row_of_cell c tb htb _ _ t.val ⟨45, Nat.le_of_ble_eq_true rfl⟩ hb (coff_C1_45 t h1)
  | ⟨46, _⟩ => row_of_cell c tb htb _ _ t.val ⟨46, Nat.le_of_ble_eq_true rfl⟩ hb (coff_C1_46 t h1)
  | ⟨47, _⟩ => row_of_cell c tb htb _ _ t.val ⟨47, Nat.le_of_ble_eq_true rfl⟩ hb (coff_C1_47 t h1)
  | ⟨48, _⟩ => row_of_cell c tb htb _ _ t.val ⟨48, Nat.le_of_ble_eq_true rfl⟩ hb (coff_C1_48 t h1)
  | ⟨49, _⟩ => row_of_cell c tb htb _ _ t.val ⟨49, Nat.le_of_ble_eq_true rfl⟩ hb (coff_C1_49 t h1)
  | ⟨50, _⟩ => row_of_cell c tb htb _ _ t.val ⟨50, Nat.le_of_ble_eq_true rfl⟩ hb (coff_C1_50 t h1)
  | ⟨51, _⟩ => row_of_cell c tb htb _ _ t.val ⟨51, Nat.le_of_ble_eq_true rfl⟩ hb (coff_C1_51 t h1)
  | ⟨52, _⟩ => row_of_cell c tb htb _ _ t.val ⟨52, Nat.le_of_ble_eq_true rfl⟩ hb (coff_C1_52 t h1)
  | ⟨53, _⟩ => row_of_cell c tb htb _ _ t.val ⟨53, Nat.le_of_ble_eq_true rfl⟩ hb (coff_C1_53 t h1)
  | ⟨54, _⟩ => row_of_cell c tb htb _ _ t.val ⟨54, Nat.le_of_ble_eq_true rfl⟩ hb (coff_C1_54 t h1)
  | ⟨55, _⟩ => row_of_cell c tb htb _ _ t.val ⟨55, Nat.le_of_ble_eq_true rfl⟩ hb (coff_C1_55 t h1)
  | ⟨56, _⟩ => row_of_cell c tb htb _ _ t.val ⟨56, Nat.le_of_ble_eq_true rfl⟩ hb (coff_C1_56 t h1)
  | ⟨57, _⟩ => row_of_cell c tb htb _ _ t.val ⟨57, Nat.le_of_ble_eq_true rfl⟩ hb (coff_C1_57 t h1)
  | ⟨58, _⟩ => row_of_cell c tb htb _ _ t.val ⟨58, Nat.le_of_ble_eq_true rfl⟩ hb (coff_C1_58 t h1)
  | ⟨59, _⟩ => row_of_cell c tb htb _ _ t.val ⟨59, Nat.le_of_ble_eq_true rfl⟩ hb (coff_C1_59 t h1)
  | ⟨60, _⟩ => row_of_cell c tb htb _ _ t.val ⟨60, Nat.le_of_ble_eq_true rfl⟩ hb (coff_C1_60 t h1)
  | ⟨61, _⟩ => row_of_cell c tb htb _ _ t.val ⟨61, Nat.le_of_ble_eq_true rfl⟩ hb (coff_C1_61 t h1)
  | ⟨62, _⟩ => row_of_cell c tb htb _ _ t.val ⟨62, Nat.le_of_ble_eq_true rfl⟩ hb (coff_C1_62 t h1)
  | ⟨63, _⟩ => row_of_cell c tb htb _ _ t.val ⟨63, Nat.le_of_ble_eq_true rfl⟩ hb (coff_C1_63 t h1)
  | ⟨_ + 64, h⟩ => absurd h (Nat.not_lt.2 (Nat.le_add_left _ _))
theorem L1A_at_0 (htb : ∀ y, (tb y).toNat < 4096) (i : grid0.Coords) (h1 : k0_cond1 i = 1#1) (s : Fin 2) (hk : 0 < 64) :
    L1A c tb fa htb i h1 s ⟨0, hk⟩ = landA c s ⟨0, hk⟩ (N1 c tb i h1 ⟨0, hk⟩) (N1_lt c tb htb i h1 ⟨0, hk⟩) fa :=
  (by unfold L1A; rfl : L1A c tb fa htb i h1 s ⟨0, hk⟩ = landedJ c (s1A_0 c tb htb i h1) (rowM scA s ⟨0, Nat.le_of_ble_eq_true rfl⟩) fa).trans (landJ_A c s _ _ (N1_lt c tb htb i h1 ⟨0, hk⟩) fa)
theorem L1A_at_1 (htb : ∀ y, (tb y).toNat < 4096) (i : grid0.Coords) (h1 : k0_cond1 i = 1#1) (s : Fin 2) (hk : 1 < 64) :
    L1A c tb fa htb i h1 s ⟨1, hk⟩ = landA c s ⟨1, hk⟩ (N1 c tb i h1 ⟨1, hk⟩) (N1_lt c tb htb i h1 ⟨1, hk⟩) fa :=
  (by unfold L1A; rfl : L1A c tb fa htb i h1 s ⟨1, hk⟩ = landedJ c (s1A_1 c tb htb i h1) (rowM scA s ⟨1, Nat.le_of_ble_eq_true rfl⟩) fa).trans (landJ_A c s _ _ (N1_lt c tb htb i h1 ⟨1, hk⟩) fa)
theorem L1A_at_2 (htb : ∀ y, (tb y).toNat < 4096) (i : grid0.Coords) (h1 : k0_cond1 i = 1#1) (s : Fin 2) (hk : 2 < 64) :
    L1A c tb fa htb i h1 s ⟨2, hk⟩ = landA c s ⟨2, hk⟩ (N1 c tb i h1 ⟨2, hk⟩) (N1_lt c tb htb i h1 ⟨2, hk⟩) fa :=
  (by unfold L1A; rfl : L1A c tb fa htb i h1 s ⟨2, hk⟩ = landedJ c (s1A_2 c tb htb i h1) (rowM scA s ⟨2, Nat.le_of_ble_eq_true rfl⟩) fa).trans (landJ_A c s _ _ (N1_lt c tb htb i h1 ⟨2, hk⟩) fa)
theorem L1A_at_3 (htb : ∀ y, (tb y).toNat < 4096) (i : grid0.Coords) (h1 : k0_cond1 i = 1#1) (s : Fin 2) (hk : 3 < 64) :
    L1A c tb fa htb i h1 s ⟨3, hk⟩ = landA c s ⟨3, hk⟩ (N1 c tb i h1 ⟨3, hk⟩) (N1_lt c tb htb i h1 ⟨3, hk⟩) fa :=
  (by unfold L1A; rfl : L1A c tb fa htb i h1 s ⟨3, hk⟩ = landedJ c (s1A_3 c tb htb i h1) (rowM scA s ⟨3, Nat.le_of_ble_eq_true rfl⟩) fa).trans (landJ_A c s _ _ (N1_lt c tb htb i h1 ⟨3, hk⟩) fa)
theorem L1A_at_4 (htb : ∀ y, (tb y).toNat < 4096) (i : grid0.Coords) (h1 : k0_cond1 i = 1#1) (s : Fin 2) (hk : 4 < 64) :
    L1A c tb fa htb i h1 s ⟨4, hk⟩ = landA c s ⟨4, hk⟩ (N1 c tb i h1 ⟨4, hk⟩) (N1_lt c tb htb i h1 ⟨4, hk⟩) fa :=
  (by unfold L1A; rfl : L1A c tb fa htb i h1 s ⟨4, hk⟩ = landedJ c (s1A_4 c tb htb i h1) (rowM scA s ⟨4, Nat.le_of_ble_eq_true rfl⟩) fa).trans (landJ_A c s _ _ (N1_lt c tb htb i h1 ⟨4, hk⟩) fa)
theorem L1A_at_5 (htb : ∀ y, (tb y).toNat < 4096) (i : grid0.Coords) (h1 : k0_cond1 i = 1#1) (s : Fin 2) (hk : 5 < 64) :
    L1A c tb fa htb i h1 s ⟨5, hk⟩ = landA c s ⟨5, hk⟩ (N1 c tb i h1 ⟨5, hk⟩) (N1_lt c tb htb i h1 ⟨5, hk⟩) fa :=
  (by unfold L1A; rfl : L1A c tb fa htb i h1 s ⟨5, hk⟩ = landedJ c (s1A_5 c tb htb i h1) (rowM scA s ⟨5, Nat.le_of_ble_eq_true rfl⟩) fa).trans (landJ_A c s _ _ (N1_lt c tb htb i h1 ⟨5, hk⟩) fa)
theorem L1A_at_6 (htb : ∀ y, (tb y).toNat < 4096) (i : grid0.Coords) (h1 : k0_cond1 i = 1#1) (s : Fin 2) (hk : 6 < 64) :
    L1A c tb fa htb i h1 s ⟨6, hk⟩ = landA c s ⟨6, hk⟩ (N1 c tb i h1 ⟨6, hk⟩) (N1_lt c tb htb i h1 ⟨6, hk⟩) fa :=
  (by unfold L1A; rfl : L1A c tb fa htb i h1 s ⟨6, hk⟩ = landedJ c (s1A_6 c tb htb i h1) (rowM scA s ⟨6, Nat.le_of_ble_eq_true rfl⟩) fa).trans (landJ_A c s _ _ (N1_lt c tb htb i h1 ⟨6, hk⟩) fa)
theorem L1A_at_7 (htb : ∀ y, (tb y).toNat < 4096) (i : grid0.Coords) (h1 : k0_cond1 i = 1#1) (s : Fin 2) (hk : 7 < 64) :
    L1A c tb fa htb i h1 s ⟨7, hk⟩ = landA c s ⟨7, hk⟩ (N1 c tb i h1 ⟨7, hk⟩) (N1_lt c tb htb i h1 ⟨7, hk⟩) fa :=
  (by unfold L1A; rfl : L1A c tb fa htb i h1 s ⟨7, hk⟩ = landedJ c (s1A_7 c tb htb i h1) (rowM scA s ⟨7, Nat.le_of_ble_eq_true rfl⟩) fa).trans (landJ_A c s _ _ (N1_lt c tb htb i h1 ⟨7, hk⟩) fa)
theorem L1A_at_8 (htb : ∀ y, (tb y).toNat < 4096) (i : grid0.Coords) (h1 : k0_cond1 i = 1#1) (s : Fin 2) (hk : 8 < 64) :
    L1A c tb fa htb i h1 s ⟨8, hk⟩ = landA c s ⟨8, hk⟩ (N1 c tb i h1 ⟨8, hk⟩) (N1_lt c tb htb i h1 ⟨8, hk⟩) fa :=
  (by unfold L1A; rfl : L1A c tb fa htb i h1 s ⟨8, hk⟩ = landedJ c (s1A_8 c tb htb i h1) (rowM scA s ⟨8, Nat.le_of_ble_eq_true rfl⟩) fa).trans (landJ_A c s _ _ (N1_lt c tb htb i h1 ⟨8, hk⟩) fa)
theorem L1A_at_9 (htb : ∀ y, (tb y).toNat < 4096) (i : grid0.Coords) (h1 : k0_cond1 i = 1#1) (s : Fin 2) (hk : 9 < 64) :
    L1A c tb fa htb i h1 s ⟨9, hk⟩ = landA c s ⟨9, hk⟩ (N1 c tb i h1 ⟨9, hk⟩) (N1_lt c tb htb i h1 ⟨9, hk⟩) fa :=
  (by unfold L1A; rfl : L1A c tb fa htb i h1 s ⟨9, hk⟩ = landedJ c (s1A_9 c tb htb i h1) (rowM scA s ⟨9, Nat.le_of_ble_eq_true rfl⟩) fa).trans (landJ_A c s _ _ (N1_lt c tb htb i h1 ⟨9, hk⟩) fa)
theorem L1A_at_10 (htb : ∀ y, (tb y).toNat < 4096) (i : grid0.Coords) (h1 : k0_cond1 i = 1#1) (s : Fin 2) (hk : 10 < 64) :
    L1A c tb fa htb i h1 s ⟨10, hk⟩ = landA c s ⟨10, hk⟩ (N1 c tb i h1 ⟨10, hk⟩) (N1_lt c tb htb i h1 ⟨10, hk⟩) fa :=
  (by unfold L1A; rfl : L1A c tb fa htb i h1 s ⟨10, hk⟩ = landedJ c (s1A_10 c tb htb i h1) (rowM scA s ⟨10, Nat.le_of_ble_eq_true rfl⟩) fa).trans (landJ_A c s _ _ (N1_lt c tb htb i h1 ⟨10, hk⟩) fa)
theorem L1A_at_11 (htb : ∀ y, (tb y).toNat < 4096) (i : grid0.Coords) (h1 : k0_cond1 i = 1#1) (s : Fin 2) (hk : 11 < 64) :
    L1A c tb fa htb i h1 s ⟨11, hk⟩ = landA c s ⟨11, hk⟩ (N1 c tb i h1 ⟨11, hk⟩) (N1_lt c tb htb i h1 ⟨11, hk⟩) fa :=
  (by unfold L1A; rfl : L1A c tb fa htb i h1 s ⟨11, hk⟩ = landedJ c (s1A_11 c tb htb i h1) (rowM scA s ⟨11, Nat.le_of_ble_eq_true rfl⟩) fa).trans (landJ_A c s _ _ (N1_lt c tb htb i h1 ⟨11, hk⟩) fa)
theorem L1A_at_12 (htb : ∀ y, (tb y).toNat < 4096) (i : grid0.Coords) (h1 : k0_cond1 i = 1#1) (s : Fin 2) (hk : 12 < 64) :
    L1A c tb fa htb i h1 s ⟨12, hk⟩ = landA c s ⟨12, hk⟩ (N1 c tb i h1 ⟨12, hk⟩) (N1_lt c tb htb i h1 ⟨12, hk⟩) fa :=
  (by unfold L1A; rfl : L1A c tb fa htb i h1 s ⟨12, hk⟩ = landedJ c (s1A_12 c tb htb i h1) (rowM scA s ⟨12, Nat.le_of_ble_eq_true rfl⟩) fa).trans (landJ_A c s _ _ (N1_lt c tb htb i h1 ⟨12, hk⟩) fa)
theorem L1A_at_13 (htb : ∀ y, (tb y).toNat < 4096) (i : grid0.Coords) (h1 : k0_cond1 i = 1#1) (s : Fin 2) (hk : 13 < 64) :
    L1A c tb fa htb i h1 s ⟨13, hk⟩ = landA c s ⟨13, hk⟩ (N1 c tb i h1 ⟨13, hk⟩) (N1_lt c tb htb i h1 ⟨13, hk⟩) fa :=
  (by unfold L1A; rfl : L1A c tb fa htb i h1 s ⟨13, hk⟩ = landedJ c (s1A_13 c tb htb i h1) (rowM scA s ⟨13, Nat.le_of_ble_eq_true rfl⟩) fa).trans (landJ_A c s _ _ (N1_lt c tb htb i h1 ⟨13, hk⟩) fa)
theorem L1A_at_14 (htb : ∀ y, (tb y).toNat < 4096) (i : grid0.Coords) (h1 : k0_cond1 i = 1#1) (s : Fin 2) (hk : 14 < 64) :
    L1A c tb fa htb i h1 s ⟨14, hk⟩ = landA c s ⟨14, hk⟩ (N1 c tb i h1 ⟨14, hk⟩) (N1_lt c tb htb i h1 ⟨14, hk⟩) fa :=
  (by unfold L1A; rfl : L1A c tb fa htb i h1 s ⟨14, hk⟩ = landedJ c (s1A_14 c tb htb i h1) (rowM scA s ⟨14, Nat.le_of_ble_eq_true rfl⟩) fa).trans (landJ_A c s _ _ (N1_lt c tb htb i h1 ⟨14, hk⟩) fa)
theorem L1A_at_15 (htb : ∀ y, (tb y).toNat < 4096) (i : grid0.Coords) (h1 : k0_cond1 i = 1#1) (s : Fin 2) (hk : 15 < 64) :
    L1A c tb fa htb i h1 s ⟨15, hk⟩ = landA c s ⟨15, hk⟩ (N1 c tb i h1 ⟨15, hk⟩) (N1_lt c tb htb i h1 ⟨15, hk⟩) fa :=
  (by unfold L1A; rfl : L1A c tb fa htb i h1 s ⟨15, hk⟩ = landedJ c (s1A_15 c tb htb i h1) (rowM scA s ⟨15, Nat.le_of_ble_eq_true rfl⟩) fa).trans (landJ_A c s _ _ (N1_lt c tb htb i h1 ⟨15, hk⟩) fa)
theorem L1A_at_16 (htb : ∀ y, (tb y).toNat < 4096) (i : grid0.Coords) (h1 : k0_cond1 i = 1#1) (s : Fin 2) (hk : 16 < 64) :
    L1A c tb fa htb i h1 s ⟨16, hk⟩ = landA c s ⟨16, hk⟩ (N1 c tb i h1 ⟨16, hk⟩) (N1_lt c tb htb i h1 ⟨16, hk⟩) fa :=
  (by unfold L1A; rfl : L1A c tb fa htb i h1 s ⟨16, hk⟩ = landedJ c (s1A_16 c tb htb i h1) (rowM scA s ⟨16, Nat.le_of_ble_eq_true rfl⟩) fa).trans (landJ_A c s _ _ (N1_lt c tb htb i h1 ⟨16, hk⟩) fa)
theorem L1A_at_17 (htb : ∀ y, (tb y).toNat < 4096) (i : grid0.Coords) (h1 : k0_cond1 i = 1#1) (s : Fin 2) (hk : 17 < 64) :
    L1A c tb fa htb i h1 s ⟨17, hk⟩ = landA c s ⟨17, hk⟩ (N1 c tb i h1 ⟨17, hk⟩) (N1_lt c tb htb i h1 ⟨17, hk⟩) fa :=
  (by unfold L1A; rfl : L1A c tb fa htb i h1 s ⟨17, hk⟩ = landedJ c (s1A_17 c tb htb i h1) (rowM scA s ⟨17, Nat.le_of_ble_eq_true rfl⟩) fa).trans (landJ_A c s _ _ (N1_lt c tb htb i h1 ⟨17, hk⟩) fa)
theorem L1A_at_18 (htb : ∀ y, (tb y).toNat < 4096) (i : grid0.Coords) (h1 : k0_cond1 i = 1#1) (s : Fin 2) (hk : 18 < 64) :
    L1A c tb fa htb i h1 s ⟨18, hk⟩ = landA c s ⟨18, hk⟩ (N1 c tb i h1 ⟨18, hk⟩) (N1_lt c tb htb i h1 ⟨18, hk⟩) fa :=
  (by unfold L1A; rfl : L1A c tb fa htb i h1 s ⟨18, hk⟩ = landedJ c (s1A_18 c tb htb i h1) (rowM scA s ⟨18, Nat.le_of_ble_eq_true rfl⟩) fa).trans (landJ_A c s _ _ (N1_lt c tb htb i h1 ⟨18, hk⟩) fa)
theorem L1A_at_19 (htb : ∀ y, (tb y).toNat < 4096) (i : grid0.Coords) (h1 : k0_cond1 i = 1#1) (s : Fin 2) (hk : 19 < 64) :
    L1A c tb fa htb i h1 s ⟨19, hk⟩ = landA c s ⟨19, hk⟩ (N1 c tb i h1 ⟨19, hk⟩) (N1_lt c tb htb i h1 ⟨19, hk⟩) fa :=
  (by unfold L1A; rfl : L1A c tb fa htb i h1 s ⟨19, hk⟩ = landedJ c (s1A_19 c tb htb i h1) (rowM scA s ⟨19, Nat.le_of_ble_eq_true rfl⟩) fa).trans (landJ_A c s _ _ (N1_lt c tb htb i h1 ⟨19, hk⟩) fa)
theorem L1A_at_20 (htb : ∀ y, (tb y).toNat < 4096) (i : grid0.Coords) (h1 : k0_cond1 i = 1#1) (s : Fin 2) (hk : 20 < 64) :
    L1A c tb fa htb i h1 s ⟨20, hk⟩ = landA c s ⟨20, hk⟩ (N1 c tb i h1 ⟨20, hk⟩) (N1_lt c tb htb i h1 ⟨20, hk⟩) fa :=
  (by unfold L1A; rfl : L1A c tb fa htb i h1 s ⟨20, hk⟩ = landedJ c (s1A_20 c tb htb i h1) (rowM scA s ⟨20, Nat.le_of_ble_eq_true rfl⟩) fa).trans (landJ_A c s _ _ (N1_lt c tb htb i h1 ⟨20, hk⟩) fa)
theorem L1A_at_21 (htb : ∀ y, (tb y).toNat < 4096) (i : grid0.Coords) (h1 : k0_cond1 i = 1#1) (s : Fin 2) (hk : 21 < 64) :
    L1A c tb fa htb i h1 s ⟨21, hk⟩ = landA c s ⟨21, hk⟩ (N1 c tb i h1 ⟨21, hk⟩) (N1_lt c tb htb i h1 ⟨21, hk⟩) fa :=
  (by unfold L1A; rfl : L1A c tb fa htb i h1 s ⟨21, hk⟩ = landedJ c (s1A_21 c tb htb i h1) (rowM scA s ⟨21, Nat.le_of_ble_eq_true rfl⟩) fa).trans (landJ_A c s _ _ (N1_lt c tb htb i h1 ⟨21, hk⟩) fa)
theorem L1A_at_22 (htb : ∀ y, (tb y).toNat < 4096) (i : grid0.Coords) (h1 : k0_cond1 i = 1#1) (s : Fin 2) (hk : 22 < 64) :
    L1A c tb fa htb i h1 s ⟨22, hk⟩ = landA c s ⟨22, hk⟩ (N1 c tb i h1 ⟨22, hk⟩) (N1_lt c tb htb i h1 ⟨22, hk⟩) fa :=
  (by unfold L1A; rfl : L1A c tb fa htb i h1 s ⟨22, hk⟩ = landedJ c (s1A_22 c tb htb i h1) (rowM scA s ⟨22, Nat.le_of_ble_eq_true rfl⟩) fa).trans (landJ_A c s _ _ (N1_lt c tb htb i h1 ⟨22, hk⟩) fa)
theorem L1A_at_23 (htb : ∀ y, (tb y).toNat < 4096) (i : grid0.Coords) (h1 : k0_cond1 i = 1#1) (s : Fin 2) (hk : 23 < 64) :
    L1A c tb fa htb i h1 s ⟨23, hk⟩ = landA c s ⟨23, hk⟩ (N1 c tb i h1 ⟨23, hk⟩) (N1_lt c tb htb i h1 ⟨23, hk⟩) fa :=
  (by unfold L1A; rfl : L1A c tb fa htb i h1 s ⟨23, hk⟩ = landedJ c (s1A_23 c tb htb i h1) (rowM scA s ⟨23, Nat.le_of_ble_eq_true rfl⟩) fa).trans (landJ_A c s _ _ (N1_lt c tb htb i h1 ⟨23, hk⟩) fa)
theorem L1A_at_24 (htb : ∀ y, (tb y).toNat < 4096) (i : grid0.Coords) (h1 : k0_cond1 i = 1#1) (s : Fin 2) (hk : 24 < 64) :
    L1A c tb fa htb i h1 s ⟨24, hk⟩ = landA c s ⟨24, hk⟩ (N1 c tb i h1 ⟨24, hk⟩) (N1_lt c tb htb i h1 ⟨24, hk⟩) fa :=
  (by unfold L1A; rfl : L1A c tb fa htb i h1 s ⟨24, hk⟩ = landedJ c (s1A_24 c tb htb i h1) (rowM scA s ⟨24, Nat.le_of_ble_eq_true rfl⟩) fa).trans (landJ_A c s _ _ (N1_lt c tb htb i h1 ⟨24, hk⟩) fa)
theorem L1A_at_25 (htb : ∀ y, (tb y).toNat < 4096) (i : grid0.Coords) (h1 : k0_cond1 i = 1#1) (s : Fin 2) (hk : 25 < 64) :
    L1A c tb fa htb i h1 s ⟨25, hk⟩ = landA c s ⟨25, hk⟩ (N1 c tb i h1 ⟨25, hk⟩) (N1_lt c tb htb i h1 ⟨25, hk⟩) fa :=
  (by unfold L1A; rfl : L1A c tb fa htb i h1 s ⟨25, hk⟩ = landedJ c (s1A_25 c tb htb i h1) (rowM scA s ⟨25, Nat.le_of_ble_eq_true rfl⟩) fa).trans (landJ_A c s _ _ (N1_lt c tb htb i h1 ⟨25, hk⟩) fa)
theorem L1A_at_26 (htb : ∀ y, (tb y).toNat < 4096) (i : grid0.Coords) (h1 : k0_cond1 i = 1#1) (s : Fin 2) (hk : 26 < 64) :
    L1A c tb fa htb i h1 s ⟨26, hk⟩ = landA c s ⟨26, hk⟩ (N1 c tb i h1 ⟨26, hk⟩) (N1_lt c tb htb i h1 ⟨26, hk⟩) fa :=
  (by unfold L1A; rfl : L1A c tb fa htb i h1 s ⟨26, hk⟩ = landedJ c (s1A_26 c tb htb i h1) (rowM scA s ⟨26, Nat.le_of_ble_eq_true rfl⟩) fa).trans (landJ_A c s _ _ (N1_lt c tb htb i h1 ⟨26, hk⟩) fa)
theorem L1A_at_27 (htb : ∀ y, (tb y).toNat < 4096) (i : grid0.Coords) (h1 : k0_cond1 i = 1#1) (s : Fin 2) (hk : 27 < 64) :
    L1A c tb fa htb i h1 s ⟨27, hk⟩ = landA c s ⟨27, hk⟩ (N1 c tb i h1 ⟨27, hk⟩) (N1_lt c tb htb i h1 ⟨27, hk⟩) fa :=
  (by unfold L1A; rfl : L1A c tb fa htb i h1 s ⟨27, hk⟩ = landedJ c (s1A_27 c tb htb i h1) (rowM scA s ⟨27, Nat.le_of_ble_eq_true rfl⟩) fa).trans (landJ_A c s _ _ (N1_lt c tb htb i h1 ⟨27, hk⟩) fa)
theorem L1A_at_28 (htb : ∀ y, (tb y).toNat < 4096) (i : grid0.Coords) (h1 : k0_cond1 i = 1#1) (s : Fin 2) (hk : 28 < 64) :
    L1A c tb fa htb i h1 s ⟨28, hk⟩ = landA c s ⟨28, hk⟩ (N1 c tb i h1 ⟨28, hk⟩) (N1_lt c tb htb i h1 ⟨28, hk⟩) fa :=
  (by unfold L1A; rfl : L1A c tb fa htb i h1 s ⟨28, hk⟩ = landedJ c (s1A_28 c tb htb i h1) (rowM scA s ⟨28, Nat.le_of_ble_eq_true rfl⟩) fa).trans (landJ_A c s _ _ (N1_lt c tb htb i h1 ⟨28, hk⟩) fa)
theorem L1A_at_29 (htb : ∀ y, (tb y).toNat < 4096) (i : grid0.Coords) (h1 : k0_cond1 i = 1#1) (s : Fin 2) (hk : 29 < 64) :
    L1A c tb fa htb i h1 s ⟨29, hk⟩ = landA c s ⟨29, hk⟩ (N1 c tb i h1 ⟨29, hk⟩) (N1_lt c tb htb i h1 ⟨29, hk⟩) fa :=
  (by unfold L1A; rfl : L1A c tb fa htb i h1 s ⟨29, hk⟩ = landedJ c (s1A_29 c tb htb i h1) (rowM scA s ⟨29, Nat.le_of_ble_eq_true rfl⟩) fa).trans (landJ_A c s _ _ (N1_lt c tb htb i h1 ⟨29, hk⟩) fa)
theorem L1A_at_30 (htb : ∀ y, (tb y).toNat < 4096) (i : grid0.Coords) (h1 : k0_cond1 i = 1#1) (s : Fin 2) (hk : 30 < 64) :
    L1A c tb fa htb i h1 s ⟨30, hk⟩ = landA c s ⟨30, hk⟩ (N1 c tb i h1 ⟨30, hk⟩) (N1_lt c tb htb i h1 ⟨30, hk⟩) fa :=
  (by unfold L1A; rfl : L1A c tb fa htb i h1 s ⟨30, hk⟩ = landedJ c (s1A_30 c tb htb i h1) (rowM scA s ⟨30, Nat.le_of_ble_eq_true rfl⟩) fa).trans (landJ_A c s _ _ (N1_lt c tb htb i h1 ⟨30, hk⟩) fa)
theorem L1A_at_31 (htb : ∀ y, (tb y).toNat < 4096) (i : grid0.Coords) (h1 : k0_cond1 i = 1#1) (s : Fin 2) (hk : 31 < 64) :
    L1A c tb fa htb i h1 s ⟨31, hk⟩ = landA c s ⟨31, hk⟩ (N1 c tb i h1 ⟨31, hk⟩) (N1_lt c tb htb i h1 ⟨31, hk⟩) fa :=
  (by unfold L1A; rfl : L1A c tb fa htb i h1 s ⟨31, hk⟩ = landedJ c (s1A_31 c tb htb i h1) (rowM scA s ⟨31, Nat.le_of_ble_eq_true rfl⟩) fa).trans (landJ_A c s _ _ (N1_lt c tb htb i h1 ⟨31, hk⟩) fa)
theorem L1A_at_32 (htb : ∀ y, (tb y).toNat < 4096) (i : grid0.Coords) (h1 : k0_cond1 i = 1#1) (s : Fin 2) (hk : 32 < 64) :
    L1A c tb fa htb i h1 s ⟨32, hk⟩ = landA c s ⟨32, hk⟩ (N1 c tb i h1 ⟨32, hk⟩) (N1_lt c tb htb i h1 ⟨32, hk⟩) fa :=
  (by unfold L1A; rfl : L1A c tb fa htb i h1 s ⟨32, hk⟩ = landedJ c (s1A_32 c tb htb i h1) (rowM scA s ⟨32, Nat.le_of_ble_eq_true rfl⟩) fa).trans (landJ_A c s _ _ (N1_lt c tb htb i h1 ⟨32, hk⟩) fa)
theorem L1A_at_33 (htb : ∀ y, (tb y).toNat < 4096) (i : grid0.Coords) (h1 : k0_cond1 i = 1#1) (s : Fin 2) (hk : 33 < 64) :
    L1A c tb fa htb i h1 s ⟨33, hk⟩ = landA c s ⟨33, hk⟩ (N1 c tb i h1 ⟨33, hk⟩) (N1_lt c tb htb i h1 ⟨33, hk⟩) fa :=
  (by unfold L1A; rfl : L1A c tb fa htb i h1 s ⟨33, hk⟩ = landedJ c (s1A_33 c tb htb i h1) (rowM scA s ⟨33, Nat.le_of_ble_eq_true rfl⟩) fa).trans (landJ_A c s _ _ (N1_lt c tb htb i h1 ⟨33, hk⟩) fa)
theorem L1A_at_34 (htb : ∀ y, (tb y).toNat < 4096) (i : grid0.Coords) (h1 : k0_cond1 i = 1#1) (s : Fin 2) (hk : 34 < 64) :
    L1A c tb fa htb i h1 s ⟨34, hk⟩ = landA c s ⟨34, hk⟩ (N1 c tb i h1 ⟨34, hk⟩) (N1_lt c tb htb i h1 ⟨34, hk⟩) fa :=
  (by unfold L1A; rfl : L1A c tb fa htb i h1 s ⟨34, hk⟩ = landedJ c (s1A_34 c tb htb i h1) (rowM scA s ⟨34, Nat.le_of_ble_eq_true rfl⟩) fa).trans (landJ_A c s _ _ (N1_lt c tb htb i h1 ⟨34, hk⟩) fa)
theorem L1A_at_35 (htb : ∀ y, (tb y).toNat < 4096) (i : grid0.Coords) (h1 : k0_cond1 i = 1#1) (s : Fin 2) (hk : 35 < 64) :
    L1A c tb fa htb i h1 s ⟨35, hk⟩ = landA c s ⟨35, hk⟩ (N1 c tb i h1 ⟨35, hk⟩) (N1_lt c tb htb i h1 ⟨35, hk⟩) fa :=
  (by unfold L1A; rfl : L1A c tb fa htb i h1 s ⟨35, hk⟩ = landedJ c (s1A_35 c tb htb i h1) (rowM scA s ⟨35, Nat.le_of_ble_eq_true rfl⟩) fa).trans (landJ_A c s _ _ (N1_lt c tb htb i h1 ⟨35, hk⟩) fa)
theorem L1A_at_36 (htb : ∀ y, (tb y).toNat < 4096) (i : grid0.Coords) (h1 : k0_cond1 i = 1#1) (s : Fin 2) (hk : 36 < 64) :
    L1A c tb fa htb i h1 s ⟨36, hk⟩ = landA c s ⟨36, hk⟩ (N1 c tb i h1 ⟨36, hk⟩) (N1_lt c tb htb i h1 ⟨36, hk⟩) fa :=
  (by unfold L1A; rfl : L1A c tb fa htb i h1 s ⟨36, hk⟩ = landedJ c (s1A_36 c tb htb i h1) (rowM scA s ⟨36, Nat.le_of_ble_eq_true rfl⟩) fa).trans (landJ_A c s _ _ (N1_lt c tb htb i h1 ⟨36, hk⟩) fa)
theorem L1A_at_37 (htb : ∀ y, (tb y).toNat < 4096) (i : grid0.Coords) (h1 : k0_cond1 i = 1#1) (s : Fin 2) (hk : 37 < 64) :
    L1A c tb fa htb i h1 s ⟨37, hk⟩ = landA c s ⟨37, hk⟩ (N1 c tb i h1 ⟨37, hk⟩) (N1_lt c tb htb i h1 ⟨37, hk⟩) fa :=
  (by unfold L1A; rfl : L1A c tb fa htb i h1 s ⟨37, hk⟩ = landedJ c (s1A_37 c tb htb i h1) (rowM scA s ⟨37, Nat.le_of_ble_eq_true rfl⟩) fa).trans (landJ_A c s _ _ (N1_lt c tb htb i h1 ⟨37, hk⟩) fa)
theorem L1A_at_38 (htb : ∀ y, (tb y).toNat < 4096) (i : grid0.Coords) (h1 : k0_cond1 i = 1#1) (s : Fin 2) (hk : 38 < 64) :
    L1A c tb fa htb i h1 s ⟨38, hk⟩ = landA c s ⟨38, hk⟩ (N1 c tb i h1 ⟨38, hk⟩) (N1_lt c tb htb i h1 ⟨38, hk⟩) fa :=
  (by unfold L1A; rfl : L1A c tb fa htb i h1 s ⟨38, hk⟩ = landedJ c (s1A_38 c tb htb i h1) (rowM scA s ⟨38, Nat.le_of_ble_eq_true rfl⟩) fa).trans (landJ_A c s _ _ (N1_lt c tb htb i h1 ⟨38, hk⟩) fa)
theorem L1A_at_39 (htb : ∀ y, (tb y).toNat < 4096) (i : grid0.Coords) (h1 : k0_cond1 i = 1#1) (s : Fin 2) (hk : 39 < 64) :
    L1A c tb fa htb i h1 s ⟨39, hk⟩ = landA c s ⟨39, hk⟩ (N1 c tb i h1 ⟨39, hk⟩) (N1_lt c tb htb i h1 ⟨39, hk⟩) fa :=
  (by unfold L1A; rfl : L1A c tb fa htb i h1 s ⟨39, hk⟩ = landedJ c (s1A_39 c tb htb i h1) (rowM scA s ⟨39, Nat.le_of_ble_eq_true rfl⟩) fa).trans (landJ_A c s _ _ (N1_lt c tb htb i h1 ⟨39, hk⟩) fa)
theorem L1A_at_40 (htb : ∀ y, (tb y).toNat < 4096) (i : grid0.Coords) (h1 : k0_cond1 i = 1#1) (s : Fin 2) (hk : 40 < 64) :
    L1A c tb fa htb i h1 s ⟨40, hk⟩ = landA c s ⟨40, hk⟩ (N1 c tb i h1 ⟨40, hk⟩) (N1_lt c tb htb i h1 ⟨40, hk⟩) fa :=
  (by unfold L1A; rfl : L1A c tb fa htb i h1 s ⟨40, hk⟩ = landedJ c (s1A_40 c tb htb i h1) (rowM scA s ⟨40, Nat.le_of_ble_eq_true rfl⟩) fa).trans (landJ_A c s _ _ (N1_lt c tb htb i h1 ⟨40, hk⟩) fa)
theorem L1A_at_41 (htb : ∀ y, (tb y).toNat < 4096) (i : grid0.Coords) (h1 : k0_cond1 i = 1#1) (s : Fin 2) (hk : 41 < 64) :
    L1A c tb fa htb i h1 s ⟨41, hk⟩ = landA c s ⟨41, hk⟩ (N1 c tb i h1 ⟨41, hk⟩) (N1_lt c tb htb i h1 ⟨41, hk⟩) fa :=
  (by unfold L1A; rfl : L1A c tb fa htb i h1 s ⟨41, hk⟩ = landedJ c (s1A_41 c tb htb i h1) (rowM scA s ⟨41, Nat.le_of_ble_eq_true rfl⟩) fa).trans (landJ_A c s _ _ (N1_lt c tb htb i h1 ⟨41, hk⟩) fa)
theorem L1A_at_42 (htb : ∀ y, (tb y).toNat < 4096) (i : grid0.Coords) (h1 : k0_cond1 i = 1#1) (s : Fin 2) (hk : 42 < 64) :
    L1A c tb fa htb i h1 s ⟨42, hk⟩ = landA c s ⟨42, hk⟩ (N1 c tb i h1 ⟨42, hk⟩) (N1_lt c tb htb i h1 ⟨42, hk⟩) fa :=
  (by unfold L1A; rfl : L1A c tb fa htb i h1 s ⟨42, hk⟩ = landedJ c (s1A_42 c tb htb i h1) (rowM scA s ⟨42, Nat.le_of_ble_eq_true rfl⟩) fa).trans (landJ_A c s _ _ (N1_lt c tb htb i h1 ⟨42, hk⟩) fa)
theorem L1A_at_43 (htb : ∀ y, (tb y).toNat < 4096) (i : grid0.Coords) (h1 : k0_cond1 i = 1#1) (s : Fin 2) (hk : 43 < 64) :
    L1A c tb fa htb i h1 s ⟨43, hk⟩ = landA c s ⟨43, hk⟩ (N1 c tb i h1 ⟨43, hk⟩) (N1_lt c tb htb i h1 ⟨43, hk⟩) fa :=
  (by unfold L1A; rfl : L1A c tb fa htb i h1 s ⟨43, hk⟩ = landedJ c (s1A_43 c tb htb i h1) (rowM scA s ⟨43, Nat.le_of_ble_eq_true rfl⟩) fa).trans (landJ_A c s _ _ (N1_lt c tb htb i h1 ⟨43, hk⟩) fa)
theorem L1A_at_44 (htb : ∀ y, (tb y).toNat < 4096) (i : grid0.Coords) (h1 : k0_cond1 i = 1#1) (s : Fin 2) (hk : 44 < 64) :
    L1A c tb fa htb i h1 s ⟨44, hk⟩ = landA c s ⟨44, hk⟩ (N1 c tb i h1 ⟨44, hk⟩) (N1_lt c tb htb i h1 ⟨44, hk⟩) fa :=
  (by unfold L1A; rfl : L1A c tb fa htb i h1 s ⟨44, hk⟩ = landedJ c (s1A_44 c tb htb i h1) (rowM scA s ⟨44, Nat.le_of_ble_eq_true rfl⟩) fa).trans (landJ_A c s _ _ (N1_lt c tb htb i h1 ⟨44, hk⟩) fa)
theorem L1A_at_45 (htb : ∀ y, (tb y).toNat < 4096) (i : grid0.Coords) (h1 : k0_cond1 i = 1#1) (s : Fin 2) (hk : 45 < 64) :
    L1A c tb fa htb i h1 s ⟨45, hk⟩ = landA c s ⟨45, hk⟩ (N1 c tb i h1 ⟨45, hk⟩) (N1_lt c tb htb i h1 ⟨45, hk⟩) fa :=
  (by unfold L1A; rfl : L1A c tb fa htb i h1 s ⟨45, hk⟩ = landedJ c (s1A_45 c tb htb i h1) (rowM scA s ⟨45, Nat.le_of_ble_eq_true rfl⟩) fa).trans (landJ_A c s _ _ (N1_lt c tb htb i h1 ⟨45, hk⟩) fa)
theorem L1A_at_46 (htb : ∀ y, (tb y).toNat < 4096) (i : grid0.Coords) (h1 : k0_cond1 i = 1#1) (s : Fin 2) (hk : 46 < 64) :
    L1A c tb fa htb i h1 s ⟨46, hk⟩ = landA c s ⟨46, hk⟩ (N1 c tb i h1 ⟨46, hk⟩) (N1_lt c tb htb i h1 ⟨46, hk⟩) fa :=
  (by unfold L1A; rfl : L1A c tb fa htb i h1 s ⟨46, hk⟩ = landedJ c (s1A_46 c tb htb i h1) (rowM scA s ⟨46, Nat.le_of_ble_eq_true rfl⟩) fa).trans (landJ_A c s _ _ (N1_lt c tb htb i h1 ⟨46, hk⟩) fa)
theorem L1A_at_47 (htb : ∀ y, (tb y).toNat < 4096) (i : grid0.Coords) (h1 : k0_cond1 i = 1#1) (s : Fin 2) (hk : 47 < 64) :
    L1A c tb fa htb i h1 s ⟨47, hk⟩ = landA c s ⟨47, hk⟩ (N1 c tb i h1 ⟨47, hk⟩) (N1_lt c tb htb i h1 ⟨47, hk⟩) fa :=
  (by unfold L1A; rfl : L1A c tb fa htb i h1 s ⟨47, hk⟩ = landedJ c (s1A_47 c tb htb i h1) (rowM scA s ⟨47, Nat.le_of_ble_eq_true rfl⟩) fa).trans (landJ_A c s _ _ (N1_lt c tb htb i h1 ⟨47, hk⟩) fa)
theorem L1A_at_48 (htb : ∀ y, (tb y).toNat < 4096) (i : grid0.Coords) (h1 : k0_cond1 i = 1#1) (s : Fin 2) (hk : 48 < 64) :
    L1A c tb fa htb i h1 s ⟨48, hk⟩ = landA c s ⟨48, hk⟩ (N1 c tb i h1 ⟨48, hk⟩) (N1_lt c tb htb i h1 ⟨48, hk⟩) fa :=
  (by unfold L1A; rfl : L1A c tb fa htb i h1 s ⟨48, hk⟩ = landedJ c (s1A_48 c tb htb i h1) (rowM scA s ⟨48, Nat.le_of_ble_eq_true rfl⟩) fa).trans (landJ_A c s _ _ (N1_lt c tb htb i h1 ⟨48, hk⟩) fa)
theorem L1A_at_49 (htb : ∀ y, (tb y).toNat < 4096) (i : grid0.Coords) (h1 : k0_cond1 i = 1#1) (s : Fin 2) (hk : 49 < 64) :
    L1A c tb fa htb i h1 s ⟨49, hk⟩ = landA c s ⟨49, hk⟩ (N1 c tb i h1 ⟨49, hk⟩) (N1_lt c tb htb i h1 ⟨49, hk⟩) fa :=
  (by unfold L1A; rfl : L1A c tb fa htb i h1 s ⟨49, hk⟩ = landedJ c (s1A_49 c tb htb i h1) (rowM scA s ⟨49, Nat.le_of_ble_eq_true rfl⟩) fa).trans (landJ_A c s _ _ (N1_lt c tb htb i h1 ⟨49, hk⟩) fa)
theorem L1A_at_50 (htb : ∀ y, (tb y).toNat < 4096) (i : grid0.Coords) (h1 : k0_cond1 i = 1#1) (s : Fin 2) (hk : 50 < 64) :
    L1A c tb fa htb i h1 s ⟨50, hk⟩ = landA c s ⟨50, hk⟩ (N1 c tb i h1 ⟨50, hk⟩) (N1_lt c tb htb i h1 ⟨50, hk⟩) fa :=
  (by unfold L1A; rfl : L1A c tb fa htb i h1 s ⟨50, hk⟩ = landedJ c (s1A_50 c tb htb i h1) (rowM scA s ⟨50, Nat.le_of_ble_eq_true rfl⟩) fa).trans (landJ_A c s _ _ (N1_lt c tb htb i h1 ⟨50, hk⟩) fa)
theorem L1A_at_51 (htb : ∀ y, (tb y).toNat < 4096) (i : grid0.Coords) (h1 : k0_cond1 i = 1#1) (s : Fin 2) (hk : 51 < 64) :
    L1A c tb fa htb i h1 s ⟨51, hk⟩ = landA c s ⟨51, hk⟩ (N1 c tb i h1 ⟨51, hk⟩) (N1_lt c tb htb i h1 ⟨51, hk⟩) fa :=
  (by unfold L1A; rfl : L1A c tb fa htb i h1 s ⟨51, hk⟩ = landedJ c (s1A_51 c tb htb i h1) (rowM scA s ⟨51, Nat.le_of_ble_eq_true rfl⟩) fa).trans (landJ_A c s _ _ (N1_lt c tb htb i h1 ⟨51, hk⟩) fa)
theorem L1A_at_52 (htb : ∀ y, (tb y).toNat < 4096) (i : grid0.Coords) (h1 : k0_cond1 i = 1#1) (s : Fin 2) (hk : 52 < 64) :
    L1A c tb fa htb i h1 s ⟨52, hk⟩ = landA c s ⟨52, hk⟩ (N1 c tb i h1 ⟨52, hk⟩) (N1_lt c tb htb i h1 ⟨52, hk⟩) fa :=
  (by unfold L1A; rfl : L1A c tb fa htb i h1 s ⟨52, hk⟩ = landedJ c (s1A_52 c tb htb i h1) (rowM scA s ⟨52, Nat.le_of_ble_eq_true rfl⟩) fa).trans (landJ_A c s _ _ (N1_lt c tb htb i h1 ⟨52, hk⟩) fa)
theorem L1A_at_53 (htb : ∀ y, (tb y).toNat < 4096) (i : grid0.Coords) (h1 : k0_cond1 i = 1#1) (s : Fin 2) (hk : 53 < 64) :
    L1A c tb fa htb i h1 s ⟨53, hk⟩ = landA c s ⟨53, hk⟩ (N1 c tb i h1 ⟨53, hk⟩) (N1_lt c tb htb i h1 ⟨53, hk⟩) fa :=
  (by unfold L1A; rfl : L1A c tb fa htb i h1 s ⟨53, hk⟩ = landedJ c (s1A_53 c tb htb i h1) (rowM scA s ⟨53, Nat.le_of_ble_eq_true rfl⟩) fa).trans (landJ_A c s _ _ (N1_lt c tb htb i h1 ⟨53, hk⟩) fa)
theorem L1A_at_54 (htb : ∀ y, (tb y).toNat < 4096) (i : grid0.Coords) (h1 : k0_cond1 i = 1#1) (s : Fin 2) (hk : 54 < 64) :
    L1A c tb fa htb i h1 s ⟨54, hk⟩ = landA c s ⟨54, hk⟩ (N1 c tb i h1 ⟨54, hk⟩) (N1_lt c tb htb i h1 ⟨54, hk⟩) fa :=
  (by unfold L1A; rfl : L1A c tb fa htb i h1 s ⟨54, hk⟩ = landedJ c (s1A_54 c tb htb i h1) (rowM scA s ⟨54, Nat.le_of_ble_eq_true rfl⟩) fa).trans (landJ_A c s _ _ (N1_lt c tb htb i h1 ⟨54, hk⟩) fa)
theorem L1A_at_55 (htb : ∀ y, (tb y).toNat < 4096) (i : grid0.Coords) (h1 : k0_cond1 i = 1#1) (s : Fin 2) (hk : 55 < 64) :
    L1A c tb fa htb i h1 s ⟨55, hk⟩ = landA c s ⟨55, hk⟩ (N1 c tb i h1 ⟨55, hk⟩) (N1_lt c tb htb i h1 ⟨55, hk⟩) fa :=
  (by unfold L1A; rfl : L1A c tb fa htb i h1 s ⟨55, hk⟩ = landedJ c (s1A_55 c tb htb i h1) (rowM scA s ⟨55, Nat.le_of_ble_eq_true rfl⟩) fa).trans (landJ_A c s _ _ (N1_lt c tb htb i h1 ⟨55, hk⟩) fa)
theorem L1A_at_56 (htb : ∀ y, (tb y).toNat < 4096) (i : grid0.Coords) (h1 : k0_cond1 i = 1#1) (s : Fin 2) (hk : 56 < 64) :
    L1A c tb fa htb i h1 s ⟨56, hk⟩ = landA c s ⟨56, hk⟩ (N1 c tb i h1 ⟨56, hk⟩) (N1_lt c tb htb i h1 ⟨56, hk⟩) fa :=
  (by unfold L1A; rfl : L1A c tb fa htb i h1 s ⟨56, hk⟩ = landedJ c (s1A_56 c tb htb i h1) (rowM scA s ⟨56, Nat.le_of_ble_eq_true rfl⟩) fa).trans (landJ_A c s _ _ (N1_lt c tb htb i h1 ⟨56, hk⟩) fa)
theorem L1A_at_57 (htb : ∀ y, (tb y).toNat < 4096) (i : grid0.Coords) (h1 : k0_cond1 i = 1#1) (s : Fin 2) (hk : 57 < 64) :
    L1A c tb fa htb i h1 s ⟨57, hk⟩ = landA c s ⟨57, hk⟩ (N1 c tb i h1 ⟨57, hk⟩) (N1_lt c tb htb i h1 ⟨57, hk⟩) fa :=
  (by unfold L1A; rfl : L1A c tb fa htb i h1 s ⟨57, hk⟩ = landedJ c (s1A_57 c tb htb i h1) (rowM scA s ⟨57, Nat.le_of_ble_eq_true rfl⟩) fa).trans (landJ_A c s _ _ (N1_lt c tb htb i h1 ⟨57, hk⟩) fa)
theorem L1A_at_58 (htb : ∀ y, (tb y).toNat < 4096) (i : grid0.Coords) (h1 : k0_cond1 i = 1#1) (s : Fin 2) (hk : 58 < 64) :
    L1A c tb fa htb i h1 s ⟨58, hk⟩ = landA c s ⟨58, hk⟩ (N1 c tb i h1 ⟨58, hk⟩) (N1_lt c tb htb i h1 ⟨58, hk⟩) fa :=
  (by unfold L1A; rfl : L1A c tb fa htb i h1 s ⟨58, hk⟩ = landedJ c (s1A_58 c tb htb i h1) (rowM scA s ⟨58, Nat.le_of_ble_eq_true rfl⟩) fa).trans (landJ_A c s _ _ (N1_lt c tb htb i h1 ⟨58, hk⟩) fa)
theorem L1A_at_59 (htb : ∀ y, (tb y).toNat < 4096) (i : grid0.Coords) (h1 : k0_cond1 i = 1#1) (s : Fin 2) (hk : 59 < 64) :
    L1A c tb fa htb i h1 s ⟨59, hk⟩ = landA c s ⟨59, hk⟩ (N1 c tb i h1 ⟨59, hk⟩) (N1_lt c tb htb i h1 ⟨59, hk⟩) fa :=
  (by unfold L1A; rfl : L1A c tb fa htb i h1 s ⟨59, hk⟩ = landedJ c (s1A_59 c tb htb i h1) (rowM scA s ⟨59, Nat.le_of_ble_eq_true rfl⟩) fa).trans (landJ_A c s _ _ (N1_lt c tb htb i h1 ⟨59, hk⟩) fa)
theorem L1A_at_60 (htb : ∀ y, (tb y).toNat < 4096) (i : grid0.Coords) (h1 : k0_cond1 i = 1#1) (s : Fin 2) (hk : 60 < 64) :
    L1A c tb fa htb i h1 s ⟨60, hk⟩ = landA c s ⟨60, hk⟩ (N1 c tb i h1 ⟨60, hk⟩) (N1_lt c tb htb i h1 ⟨60, hk⟩) fa :=
  (by unfold L1A; rfl : L1A c tb fa htb i h1 s ⟨60, hk⟩ = landedJ c (s1A_60 c tb htb i h1) (rowM scA s ⟨60, Nat.le_of_ble_eq_true rfl⟩) fa).trans (landJ_A c s _ _ (N1_lt c tb htb i h1 ⟨60, hk⟩) fa)
theorem L1A_at_61 (htb : ∀ y, (tb y).toNat < 4096) (i : grid0.Coords) (h1 : k0_cond1 i = 1#1) (s : Fin 2) (hk : 61 < 64) :
    L1A c tb fa htb i h1 s ⟨61, hk⟩ = landA c s ⟨61, hk⟩ (N1 c tb i h1 ⟨61, hk⟩) (N1_lt c tb htb i h1 ⟨61, hk⟩) fa :=
  (by unfold L1A; rfl : L1A c tb fa htb i h1 s ⟨61, hk⟩ = landedJ c (s1A_61 c tb htb i h1) (rowM scA s ⟨61, Nat.le_of_ble_eq_true rfl⟩) fa).trans (landJ_A c s _ _ (N1_lt c tb htb i h1 ⟨61, hk⟩) fa)
theorem L1A_at_62 (htb : ∀ y, (tb y).toNat < 4096) (i : grid0.Coords) (h1 : k0_cond1 i = 1#1) (s : Fin 2) (hk : 62 < 64) :
    L1A c tb fa htb i h1 s ⟨62, hk⟩ = landA c s ⟨62, hk⟩ (N1 c tb i h1 ⟨62, hk⟩) (N1_lt c tb htb i h1 ⟨62, hk⟩) fa :=
  (by unfold L1A; rfl : L1A c tb fa htb i h1 s ⟨62, hk⟩ = landedJ c (s1A_62 c tb htb i h1) (rowM scA s ⟨62, Nat.le_of_ble_eq_true rfl⟩) fa).trans (landJ_A c s _ _ (N1_lt c tb htb i h1 ⟨62, hk⟩) fa)
theorem L1A_at_63 (htb : ∀ y, (tb y).toNat < 4096) (i : grid0.Coords) (h1 : k0_cond1 i = 1#1) (s : Fin 2) (hk : 63 < 64) :
    L1A c tb fa htb i h1 s ⟨63, hk⟩ = landA c s ⟨63, hk⟩ (N1 c tb i h1 ⟨63, hk⟩) (N1_lt c tb htb i h1 ⟨63, hk⟩) fa :=
  (by unfold L1A; rfl : L1A c tb fa htb i h1 s ⟨63, hk⟩ = landedJ c (s1A_63 c tb htb i h1) (rowM scA s ⟨63, Nat.le_of_ble_eq_true rfl⟩) fa).trans (landJ_A c s _ _ (N1_lt c tb htb i h1 ⟨63, hk⟩) fa)
/-- Each of the 64 landed contents of fetch 1, array A, is the generic landed row at its row number. -/
theorem L1A_at (htb : ∀ y, (tb y).toNat < 4096) (i : grid0.Coords) (h1 : k0_cond1 i = 1#1) (s : Fin 2) : ∀ r : Fin 64, L1A c tb fa htb i h1 s r = landA c s r (N1 c tb i h1 r) (N1_lt c tb htb i h1 r) fa
  | ⟨0, hk⟩ => L1A_at_0 c tb fa htb i h1 s hk
  | ⟨1, hk⟩ => L1A_at_1 c tb fa htb i h1 s hk
  | ⟨2, hk⟩ => L1A_at_2 c tb fa htb i h1 s hk
  | ⟨3, hk⟩ => L1A_at_3 c tb fa htb i h1 s hk
  | ⟨4, hk⟩ => L1A_at_4 c tb fa htb i h1 s hk
  | ⟨5, hk⟩ => L1A_at_5 c tb fa htb i h1 s hk
  | ⟨6, hk⟩ => L1A_at_6 c tb fa htb i h1 s hk
  | ⟨7, hk⟩ => L1A_at_7 c tb fa htb i h1 s hk
  | ⟨8, hk⟩ => L1A_at_8 c tb fa htb i h1 s hk
  | ⟨9, hk⟩ => L1A_at_9 c tb fa htb i h1 s hk
  | ⟨10, hk⟩ => L1A_at_10 c tb fa htb i h1 s hk
  | ⟨11, hk⟩ => L1A_at_11 c tb fa htb i h1 s hk
  | ⟨12, hk⟩ => L1A_at_12 c tb fa htb i h1 s hk
  | ⟨13, hk⟩ => L1A_at_13 c tb fa htb i h1 s hk
  | ⟨14, hk⟩ => L1A_at_14 c tb fa htb i h1 s hk
  | ⟨15, hk⟩ => L1A_at_15 c tb fa htb i h1 s hk
  | ⟨16, hk⟩ => L1A_at_16 c tb fa htb i h1 s hk
  | ⟨17, hk⟩ => L1A_at_17 c tb fa htb i h1 s hk
  | ⟨18, hk⟩ => L1A_at_18 c tb fa htb i h1 s hk
  | ⟨19, hk⟩ => L1A_at_19 c tb fa htb i h1 s hk
  | ⟨20, hk⟩ => L1A_at_20 c tb fa htb i h1 s hk
  | ⟨21, hk⟩ => L1A_at_21 c tb fa htb i h1 s hk
  | ⟨22, hk⟩ => L1A_at_22 c tb fa htb i h1 s hk
  | ⟨23, hk⟩ => L1A_at_23 c tb fa htb i h1 s hk
  | ⟨24, hk⟩ => L1A_at_24 c tb fa htb i h1 s hk
  | ⟨25, hk⟩ => L1A_at_25 c tb fa htb i h1 s hk
  | ⟨26, hk⟩ => L1A_at_26 c tb fa htb i h1 s hk
  | ⟨27, hk⟩ => L1A_at_27 c tb fa htb i h1 s hk
  | ⟨28, hk⟩ => L1A_at_28 c tb fa htb i h1 s hk
  | ⟨29, hk⟩ => L1A_at_29 c tb fa htb i h1 s hk
  | ⟨30, hk⟩ => L1A_at_30 c tb fa htb i h1 s hk
  | ⟨31, hk⟩ => L1A_at_31 c tb fa htb i h1 s hk
  | ⟨32, hk⟩ => L1A_at_32 c tb fa htb i h1 s hk
  | ⟨33, hk⟩ => L1A_at_33 c tb fa htb i h1 s hk
  | ⟨34, hk⟩ => L1A_at_34 c tb fa htb i h1 s hk
  | ⟨35, hk⟩ => L1A_at_35 c tb fa htb i h1 s hk
  | ⟨36, hk⟩ => L1A_at_36 c tb fa htb i h1 s hk
  | ⟨37, hk⟩ => L1A_at_37 c tb fa htb i h1 s hk
  | ⟨38, hk⟩ => L1A_at_38 c tb fa htb i h1 s hk
  | ⟨39, hk⟩ => L1A_at_39 c tb fa htb i h1 s hk
  | ⟨40, hk⟩ => L1A_at_40 c tb fa htb i h1 s hk
  | ⟨41, hk⟩ => L1A_at_41 c tb fa htb i h1 s hk
  | ⟨42, hk⟩ => L1A_at_42 c tb fa htb i h1 s hk
  | ⟨43, hk⟩ => L1A_at_43 c tb fa htb i h1 s hk
  | ⟨44, hk⟩ => L1A_at_44 c tb fa htb i h1 s hk
  | ⟨45, hk⟩ => L1A_at_45 c tb fa htb i h1 s hk
  | ⟨46, hk⟩ => L1A_at_46 c tb fa htb i h1 s hk
  | ⟨47, hk⟩ => L1A_at_47 c tb fa htb i h1 s hk
  | ⟨48, hk⟩ => L1A_at_48 c tb fa htb i h1 s hk
  | ⟨49, hk⟩ => L1A_at_49 c tb fa htb i h1 s hk
  | ⟨50, hk⟩ => L1A_at_50 c tb fa htb i h1 s hk
  | ⟨51, hk⟩ => L1A_at_51 c tb fa htb i h1 s hk
  | ⟨52, hk⟩ => L1A_at_52 c tb fa htb i h1 s hk
  | ⟨53, hk⟩ => L1A_at_53 c tb fa htb i h1 s hk
  | ⟨54, hk⟩ => L1A_at_54 c tb fa htb i h1 s hk
  | ⟨55, hk⟩ => L1A_at_55 c tb fa htb i h1 s hk
  | ⟨56, hk⟩ => L1A_at_56 c tb fa htb i h1 s hk
  | ⟨57, hk⟩ => L1A_at_57 c tb fa htb i h1 s hk
  | ⟨58, hk⟩ => L1A_at_58 c tb fa htb i h1 s hk
  | ⟨59, hk⟩ => L1A_at_59 c tb fa htb i h1 s hk
  | ⟨60, hk⟩ => L1A_at_60 c tb fa htb i h1 s hk
  | ⟨61, hk⟩ => L1A_at_61 c tb fa htb i h1 s hk
  | ⟨62, hk⟩ => L1A_at_62 c tb fa htb i h1 s hk
  | ⟨63, hk⟩ => L1A_at_63 c tb fa htb i h1 s hk
  | ⟨_ + 64, h⟩ => absurd h (Nat.not_lt.2 (Nat.le_add_left _ _))
/-- Slot s of array A's scratch, read whole once the copies of fetch 1 of grid point t have landed, is the gathered rows. -/
theorem read1A (htb : ∀ y, (tb y).toNat < 4096) (t : Fin grid0.N) (h1 : k0_cond1 (grid0.coords t) = 1#1) (hb : t.val < 32) (s : Fin 2) :
    scA.view.readAt (Elt F) (Rect.unit (s := S2x8x64x1024) ![s.val, 0, 0, 0] S1x8x64x1024.size (inb_slot s)).toLoadRect (glue_A c (L1A c tb fa htb (grid0.coords t) h1 s)) = gath fa (rowsOf tb t.val) :=
  (read_landA c s (N1 c tb (grid0.coords t) h1) (N1_lt c tb htb (grid0.coords t) h1) fa (L1A c tb fa htb (grid0.coords t) h1 s) (L1A_at c tb fa htb (grid0.coords t) h1 s)).trans
    (congrArg (gath fa) (funext (rows1_eq c tb htb t h1 hb)))
theorem L1B_at_0 (htb : ∀ y, (tb y).toNat < 4096) (i : grid0.Coords) (h1 : k0_cond1 i = 1#1) (s : Fin 2) (hk : 0 < 64) :
    L1B c tb fb htb i h1 s ⟨0, hk⟩ = landB c s ⟨0, hk⟩ (N1 c tb i h1 ⟨0, hk⟩) (N1_lt c tb htb i h1 ⟨0, hk⟩) fb :=
  (by unfold L1B; rfl : L1B c tb fb htb i h1 s ⟨0, hk⟩ = landedJ c (s1B_0 c tb htb i h1) (rowM scB s ⟨0, Nat.le_of_ble_eq_true rfl⟩) fb).trans (landJ_B c s _ _ (N1_lt c tb htb i h1 ⟨0, hk⟩) fb)
theorem L1B_at_1 (htb : ∀ y, (tb y).toNat < 4096) (i : grid0.Coords) (h1 : k0_cond1 i = 1#1) (s : Fin 2) (hk : 1 < 64) :
    L1B c tb fb htb i h1 s ⟨1, hk⟩ = landB c s ⟨1, hk⟩ (N1 c tb i h1 ⟨1, hk⟩) (N1_lt c tb htb i h1 ⟨1, hk⟩) fb :=
  (by unfold L1B; rfl : L1B c tb fb htb i h1 s ⟨1, hk⟩ = landedJ c (s1B_1 c tb htb i h1) (rowM scB s ⟨1, Nat.le_of_ble_eq_true rfl⟩) fb).trans (landJ_B c s _ _ (N1_lt c tb htb i h1 ⟨1, hk⟩) fb)
theorem L1B_at_2 (htb : ∀ y, (tb y).toNat < 4096) (i : grid0.Coords) (h1 : k0_cond1 i = 1#1) (s : Fin 2) (hk : 2 < 64) :
    L1B c tb fb htb i h1 s ⟨2, hk⟩ = landB c s ⟨2, hk⟩ (N1 c tb i h1 ⟨2, hk⟩) (N1_lt c tb htb i h1 ⟨2, hk⟩) fb :=
  (by unfold L1B; rfl : L1B c tb fb htb i h1 s ⟨2, hk⟩ = landedJ c (s1B_2 c tb htb i h1) (rowM scB s ⟨2, Nat.le_of_ble_eq_true rfl⟩) fb).trans (landJ_B c s _ _ (N1_lt c tb htb i h1 ⟨2, hk⟩) fb)
theorem L1B_at_3 (htb : ∀ y, (tb y).toNat < 4096) (i : grid0.Coords) (h1 : k0_cond1 i = 1#1) (s : Fin 2) (hk : 3 < 64) :
    L1B c tb fb htb i h1 s ⟨3, hk⟩ = landB c s ⟨3, hk⟩ (N1 c tb i h1 ⟨3, hk⟩) (N1_lt c tb htb i h1 ⟨3, hk⟩) fb :=
  (by unfold L1B; rfl : L1B c tb fb htb i h1 s ⟨3, hk⟩ = landedJ c (s1B_3 c tb htb i h1) (rowM scB s ⟨3, Nat.le_of_ble_eq_true rfl⟩) fb).trans (landJ_B c s _ _ (N1_lt c tb htb i h1 ⟨3, hk⟩) fb)
theorem L1B_at_4 (htb : ∀ y, (tb y).toNat < 4096) (i : grid0.Coords) (h1 : k0_cond1 i = 1#1) (s : Fin 2) (hk : 4 < 64) :
    L1B c tb fb htb i h1 s ⟨4, hk⟩ = landB c s ⟨4, hk⟩ (N1 c tb i h1 ⟨4, hk⟩) (N1_lt c tb htb i h1 ⟨4, hk⟩) fb :=
  (by unfold L1B; rfl : L1B c tb fb htb i h1 s ⟨4, hk⟩ = landedJ c (s1B_4 c tb htb i h1) (rowM scB s ⟨4, Nat.le_of_ble_eq_true rfl⟩) fb).trans (landJ_B c s _ _ (N1_lt c tb htb i h1 ⟨4, hk⟩) fb)
theorem L1B_at_5 (htb : ∀ y, (tb y).toNat < 4096) (i : grid0.Coords) (h1 : k0_cond1 i = 1#1) (s : Fin 2) (hk : 5 < 64) :
    L1B c tb fb htb i h1 s ⟨5, hk⟩ = landB c s ⟨5, hk⟩ (N1 c tb i h1 ⟨5, hk⟩) (N1_lt c tb htb i h1 ⟨5, hk⟩) fb :=
  (by unfold L1B; rfl : L1B c tb fb htb i h1 s ⟨5, hk⟩ = landedJ c (s1B_5 c tb htb i h1) (rowM scB s ⟨5, Nat.le_of_ble_eq_true rfl⟩) fb).trans (landJ_B c s _ _ (N1_lt c tb htb i h1 ⟨5, hk⟩) fb)
theorem L1B_at_6 (htb : ∀ y, (tb y).toNat < 4096) (i : grid0.Coords) (h1 : k0_cond1 i = 1#1) (s : Fin 2) (hk : 6 < 64) :
    L1B c tb fb htb i h1 s ⟨6, hk⟩ = landB c s ⟨6, hk⟩ (N1 c tb i h1 ⟨6, hk⟩) (N1_lt c tb htb i h1 ⟨6, hk⟩) fb :=
  (by unfold L1B; rfl : L1B c tb fb htb i h1 s ⟨6, hk⟩ = landedJ c (s1B_6 c tb htb i h1) (rowM scB s ⟨6, Nat.le_of_ble_eq_true rfl⟩) fb).trans (landJ_B c s _ _ (N1_lt c tb htb i h1 ⟨6, hk⟩) fb)
theorem L1B_at_7 (htb : ∀ y, (tb y).toNat < 4096) (i : grid0.Coords) (h1 : k0_cond1 i = 1#1) (s : Fin 2) (hk : 7 < 64) :
    L1B c tb fb htb i h1 s ⟨7, hk⟩ = landB c s ⟨7, hk⟩ (N1 c tb i h1 ⟨7, hk⟩) (N1_lt c tb htb i h1 ⟨7, hk⟩) fb :=
  (by unfold L1B; rfl : L1B c tb fb htb i h1 s ⟨7, hk⟩ = landedJ c (s1B_7 c tb htb i h1) (rowM scB s ⟨7, Nat.le_of_ble_eq_true rfl⟩) fb).trans (landJ_B c s _ _ (N1_lt c tb htb i h1 ⟨7, hk⟩) fb)
theorem L1B_at_8 (htb : ∀ y, (tb y).toNat < 4096) (i : grid0.Coords) (h1 : k0_cond1 i = 1#1) (s : Fin 2) (hk : 8 < 64) :
    L1B c tb fb htb i h1 s ⟨8, hk⟩ = landB c s ⟨8, hk⟩ (N1 c tb i h1 ⟨8, hk⟩) (N1_lt c tb htb i h1 ⟨8, hk⟩) fb :=
  (by unfold L1B; rfl : L1B c tb fb htb i h1 s ⟨8, hk⟩ = landedJ c (s1B_8 c tb htb i h1) (rowM scB s ⟨8, Nat.le_of_ble_eq_true rfl⟩) fb).trans (landJ_B c s _ _ (N1_lt c tb htb i h1 ⟨8, hk⟩) fb)
theorem L1B_at_9 (htb : ∀ y, (tb y).toNat < 4096) (i : grid0.Coords) (h1 : k0_cond1 i = 1#1) (s : Fin 2) (hk : 9 < 64) :
    L1B c tb fb htb i h1 s ⟨9, hk⟩ = landB c s ⟨9, hk⟩ (N1 c tb i h1 ⟨9, hk⟩) (N1_lt c tb htb i h1 ⟨9, hk⟩) fb :=
  (by unfold L1B; rfl : L1B c tb fb htb i h1 s ⟨9, hk⟩ = landedJ c (s1B_9 c tb htb i h1) (rowM scB s ⟨9, Nat.le_of_ble_eq_true rfl⟩) fb).trans (landJ_B c s _ _ (N1_lt c tb htb i h1 ⟨9, hk⟩) fb)
theorem L1B_at_10 (htb : ∀ y, (tb y).toNat < 4096) (i : grid0.Coords) (h1 : k0_cond1 i = 1#1) (s : Fin 2) (hk : 10 < 64) :
    L1B c tb fb htb i h1 s ⟨10, hk⟩ = landB c s ⟨10, hk⟩ (N1 c tb i h1 ⟨10, hk⟩) (N1_lt c tb htb i h1 ⟨10, hk⟩) fb :=
  (by unfold L1B; rfl : L1B c tb fb htb i h1 s ⟨10, hk⟩ = landedJ c (s1B_10 c tb htb i h1) (rowM scB s ⟨10, Nat.le_of_ble_eq_true rfl⟩) fb).trans (landJ_B c s _ _ (N1_lt c tb htb i h1 ⟨10, hk⟩) fb)
theorem L1B_at_11 (htb : ∀ y, (tb y).toNat < 4096) (i : grid0.Coords) (h1 : k0_cond1 i = 1#1) (s : Fin 2) (hk : 11 < 64) :
    L1B c tb fb htb i h1 s ⟨11, hk⟩ = landB c s ⟨11, hk⟩ (N1 c tb i h1 ⟨11, hk⟩) (N1_lt c tb htb i h1 ⟨11, hk⟩) fb :=
  (by unfold L1B; rfl : L1B c tb fb htb i h1 s ⟨11, hk⟩ = landedJ c (s1B_11 c tb htb i h1) (rowM scB s ⟨11, Nat.le_of_ble_eq_true rfl⟩) fb).trans (landJ_B c s _ _ (N1_lt c tb htb i h1 ⟨11, hk⟩) fb)
theorem L1B_at_12 (htb : ∀ y, (tb y).toNat < 4096) (i : grid0.Coords) (h1 : k0_cond1 i = 1#1) (s : Fin 2) (hk : 12 < 64) :
    L1B c tb fb htb i h1 s ⟨12, hk⟩ = landB c s ⟨12, hk⟩ (N1 c tb i h1 ⟨12, hk⟩) (N1_lt c tb htb i h1 ⟨12, hk⟩) fb :=
  (by unfold L1B; rfl : L1B c tb fb htb i h1 s ⟨12, hk⟩ = landedJ c (s1B_12 c tb htb i h1) (rowM scB s ⟨12, Nat.le_of_ble_eq_true rfl⟩) fb).trans (landJ_B c s _ _ (N1_lt c tb htb i h1 ⟨12, hk⟩) fb)
theorem L1B_at_13 (htb : ∀ y, (tb y).toNat < 4096) (i : grid0.Coords) (h1 : k0_cond1 i = 1#1) (s : Fin 2) (hk : 13 < 64) :
    L1B c tb fb htb i h1 s ⟨13, hk⟩ = landB c s ⟨13, hk⟩ (N1 c tb i h1 ⟨13, hk⟩) (N1_lt c tb htb i h1 ⟨13, hk⟩) fb :=
  (by unfold L1B; rfl : L1B c tb fb htb i h1 s ⟨13, hk⟩ = landedJ c (s1B_13 c tb htb i h1) (rowM scB s ⟨13, Nat.le_of_ble_eq_true rfl⟩) fb).trans (landJ_B c s _ _ (N1_lt c tb htb i h1 ⟨13, hk⟩) fb)
theorem L1B_at_14 (htb : ∀ y, (tb y).toNat < 4096) (i : grid0.Coords) (h1 : k0_cond1 i = 1#1) (s : Fin 2) (hk : 14 < 64) :
    L1B c tb fb htb i h1 s ⟨14, hk⟩ = landB c s ⟨14, hk⟩ (N1 c tb i h1 ⟨14, hk⟩) (N1_lt c tb htb i h1 ⟨14, hk⟩) fb :=
  (by unfold L1B; rfl : L1B c tb fb htb i h1 s ⟨14, hk⟩ = landedJ c (s1B_14 c tb htb i h1) (rowM scB s ⟨14, Nat.le_of_ble_eq_true rfl⟩) fb).trans (landJ_B c s _ _ (N1_lt c tb htb i h1 ⟨14, hk⟩) fb)
theorem L1B_at_15 (htb : ∀ y, (tb y).toNat < 4096) (i : grid0.Coords) (h1 : k0_cond1 i = 1#1) (s : Fin 2) (hk : 15 < 64) :
    L1B c tb fb htb i h1 s ⟨15, hk⟩ = landB c s ⟨15, hk⟩ (N1 c tb i h1 ⟨15, hk⟩) (N1_lt c tb htb i h1 ⟨15, hk⟩) fb :=
  (by unfold L1B; rfl : L1B c tb fb htb i h1 s ⟨15, hk⟩ = landedJ c (s1B_15 c tb htb i h1) (rowM scB s ⟨15, Nat.le_of_ble_eq_true rfl⟩) fb).trans (landJ_B c s _ _ (N1_lt c tb htb i h1 ⟨15, hk⟩) fb)
theorem L1B_at_16 (htb : ∀ y, (tb y).toNat < 4096) (i : grid0.Coords) (h1 : k0_cond1 i = 1#1) (s : Fin 2) (hk : 16 < 64) :
    L1B c tb fb htb i h1 s ⟨16, hk⟩ = landB c s ⟨16, hk⟩ (N1 c tb i h1 ⟨16, hk⟩) (N1_lt c tb htb i h1 ⟨16, hk⟩) fb :=
  (by unfold L1B; rfl : L1B c tb fb htb i h1 s ⟨16, hk⟩ = landedJ c (s1B_16 c tb htb i h1) (rowM scB s ⟨16, Nat.le_of_ble_eq_true rfl⟩) fb).trans (landJ_B c s _ _ (N1_lt c tb htb i h1 ⟨16, hk⟩) fb)
theorem L1B_at_17 (htb : ∀ y, (tb y).toNat < 4096) (i : grid0.Coords) (h1 : k0_cond1 i = 1#1) (s : Fin 2) (hk : 17 < 64) :
    L1B c tb fb htb i h1 s ⟨17, hk⟩ = landB c s ⟨17, hk⟩ (N1 c tb i h1 ⟨17, hk⟩) (N1_lt c tb htb i h1 ⟨17, hk⟩) fb :=
  (by unfold L1B; rfl : L1B c tb fb htb i h1 s ⟨17, hk⟩ = landedJ c (s1B_17 c tb htb i h1) (rowM scB s ⟨17, Nat.le_of_ble_eq_true rfl⟩) fb).trans (landJ_B c s _ _ (N1_lt c tb htb i h1 ⟨17, hk⟩) fb)
theorem L1B_at_18 (htb : ∀ y, (tb y).toNat < 4096) (i : grid0.Coords) (h1 : k0_cond1 i = 1#1) (s : Fin 2) (hk : 18 < 64) :
    L1B c tb fb htb i h1 s ⟨18, hk⟩ = landB c s ⟨18, hk⟩ (N1 c tb i h1 ⟨18, hk⟩) (N1_lt c tb htb i h1 ⟨18, hk⟩) fb :=
  (by unfold L1B; rfl : L1B c tb fb htb i h1 s ⟨18, hk⟩ = landedJ c (s1B_18 c tb htb i h1) (rowM scB s ⟨18, Nat.le_of_ble_eq_true rfl⟩) fb).trans (landJ_B c s _ _ (N1_lt c tb htb i h1 ⟨18, hk⟩) fb)
theorem L1B_at_19 (htb : ∀ y, (tb y).toNat < 4096) (i : grid0.Coords) (h1 : k0_cond1 i = 1#1) (s : Fin 2) (hk : 19 < 64) :
    L1B c tb fb htb i h1 s ⟨19, hk⟩ = landB c s ⟨19, hk⟩ (N1 c tb i h1 ⟨19, hk⟩) (N1_lt c tb htb i h1 ⟨19, hk⟩) fb :=
  (by unfold L1B; rfl : L1B c tb fb htb i h1 s ⟨19, hk⟩ = landedJ c (s1B_19 c tb htb i h1) (rowM scB s ⟨19, Nat.le_of_ble_eq_true rfl⟩) fb).trans (landJ_B c s _ _ (N1_lt c tb htb i h1 ⟨19, hk⟩) fb)
theorem L1B_at_20 (htb : ∀ y, (tb y).toNat < 4096) (i : grid0.Coords) (h1 : k0_cond1 i = 1#1) (s : Fin 2) (hk : 20 < 64) :
    L1B c tb fb htb i h1 s ⟨20, hk⟩ = landB c s ⟨20, hk⟩ (N1 c tb i h1 ⟨20, hk⟩) (N1_lt c tb htb i h1 ⟨20, hk⟩) fb :=
  (by unfold L1B; rfl : L1B c tb fb htb i h1 s ⟨20, hk⟩ = landedJ c (s1B_20 c tb htb i h1) (rowM scB s ⟨20, Nat.le_of_ble_eq_true rfl⟩) fb).trans (landJ_B c s _ _ (N1_lt c tb htb i h1 ⟨20, hk⟩) fb)
theorem L1B_at_21 (htb : ∀ y, (tb y).toNat < 4096) (i : grid0.Coords) (h1 : k0_cond1 i = 1#1) (s : Fin 2) (hk : 21 < 64) :
    L1B c tb fb htb i h1 s ⟨21, hk⟩ = landB c s ⟨21, hk⟩ (N1 c tb i h1 ⟨21, hk⟩) (N1_lt c tb htb i h1 ⟨21, hk⟩) fb :=
  (by unfold L1B; rfl : L1B c tb fb htb i h1 s ⟨21, hk⟩ = landedJ c (s1B_21 c tb htb i h1) (rowM scB s ⟨21, Nat.le_of_ble_eq_true rfl⟩) fb).trans (landJ_B c s _ _ (N1_lt c tb htb i h1 ⟨21, hk⟩) fb)
theorem L1B_at_22 (htb : ∀ y, (tb y).toNat < 4096) (i : grid0.Coords) (h1 : k0_cond1 i = 1#1) (s : Fin 2) (hk : 22 < 64) :
    L1B c tb fb htb i h1 s ⟨22, hk⟩ = landB c s ⟨22, hk⟩ (N1 c tb i h1 ⟨22, hk⟩) (N1_lt c tb htb i h1 ⟨22, hk⟩) fb :=
  (by unfold L1B; rfl : L1B c tb fb htb i h1 s ⟨22, hk⟩ = landedJ c (s1B_22 c tb htb i h1) (rowM scB s ⟨22, Nat.le_of_ble_eq_true rfl⟩) fb).trans (landJ_B c s _ _ (N1_lt c tb htb i h1 ⟨22, hk⟩) fb)
theorem L1B_at_23 (htb : ∀ y, (tb y).toNat < 4096) (i : grid0.Coords) (h1 : k0_cond1 i = 1#1) (s : Fin 2) (hk : 23 < 64) :
    L1B c tb fb htb i h1 s ⟨23, hk⟩ = landB c s ⟨23, hk⟩ (N1 c tb i h1 ⟨23, hk⟩) (N1_lt c tb htb i h1 ⟨23, hk⟩) fb :=
  (by unfold L1B; rfl : L1B c tb fb htb i h1 s ⟨23, hk⟩ = landedJ c (s1B_23 c tb htb i h1) (rowM scB s ⟨23, Nat.le_of_ble_eq_true rfl⟩) fb).trans (landJ_B c s _ _ (N1_lt c tb htb i h1 ⟨23, hk⟩) fb)
theorem L1B_at_24 (htb : ∀ y, (tb y).toNat < 4096) (i : grid0.Coords) (h1 : k0_cond1 i = 1#1) (s : Fin 2) (hk : 24 < 64) :
    L1B c tb fb htb i h1 s ⟨24, hk⟩ = landB c s ⟨24, hk⟩ (N1 c tb i h1 ⟨24, hk⟩) (N1_lt c tb htb i h1 ⟨24, hk⟩) fb :=
  (by unfold L1B; rfl : L1B c tb fb htb i h1 s ⟨24, hk⟩ = landedJ c (s1B_24 c tb htb i h1) (rowM scB s ⟨24, Nat.le_of_ble_eq_true rfl⟩) fb).trans (landJ_B c s _ _ (N1_lt c tb htb i h1 ⟨24, hk⟩) fb)
theorem L1B_at_25 (htb : ∀ y, (tb y).toNat < 4096) (i : grid0.Coords) (h1 : k0_cond1 i = 1#1) (s : Fin 2) (hk : 25 < 64) :
    L1B c tb fb htb i h1 s ⟨25, hk⟩ = landB c s ⟨25, hk⟩ (N1 c tb i h1 ⟨25, hk⟩) (N1_lt c tb htb i h1 ⟨25, hk⟩) fb :=
  (by unfold L1B; rfl : L1B c tb fb htb i h1 s ⟨25, hk⟩ = landedJ c (s1B_25 c tb htb i h1) (rowM scB s ⟨25, Nat.le_of_ble_eq_true rfl⟩) fb).trans (landJ_B c s _ _ (N1_lt c tb htb i h1 ⟨25, hk⟩) fb)
theorem L1B_at_26 (htb : ∀ y, (tb y).toNat < 4096) (i : grid0.Coords) (h1 : k0_cond1 i = 1#1) (s : Fin 2) (hk : 26 < 64) :
    L1B c tb fb htb i h1 s ⟨26, hk⟩ = landB c s ⟨26, hk⟩ (N1 c tb i h1 ⟨26, hk⟩) (N1_lt c tb htb i h1 ⟨26, hk⟩) fb :=
  (by unfold L1B; rfl : L1B c tb fb htb i h1 s ⟨26, hk⟩ = landedJ c (s1B_26 c tb htb i h1) (rowM scB s ⟨26, Nat.le_of_ble_eq_true rfl⟩) fb).trans (landJ_B c s _ _ (N1_lt c tb htb i h1 ⟨26, hk⟩) fb)
theorem L1B_at_27 (htb : ∀ y, (tb y).toNat < 4096) (i : grid0.Coords) (h1 : k0_cond1 i = 1#1) (s : Fin 2) (hk : 27 < 64) :
    L1B c tb fb htb i h1 s ⟨27, hk⟩ = landB c s ⟨27, hk⟩ (N1 c tb i h1 ⟨27, hk⟩) (N1_lt c tb htb i h1 ⟨27, hk⟩) fb :=
  (by unfold L1B; rfl : L1B c tb fb htb i h1 s ⟨27, hk⟩ = landedJ c (s1B_27 c tb htb i h1) (rowM scB s ⟨27, Nat.le_of_ble_eq_true rfl⟩) fb).trans (landJ_B c s _ _ (N1_lt c tb htb i h1 ⟨27, hk⟩) fb)
theorem L1B_at_28 (htb : ∀ y, (tb y).toNat < 4096) (i : grid0.Coords) (h1 : k0_cond1 i = 1#1) (s : Fin 2) (hk : 28 < 64) :
    L1B c tb fb htb i h1 s ⟨28, hk⟩ = landB c s ⟨28, hk⟩ (N1 c tb i h1 ⟨28, hk⟩) (N1_lt c tb htb i h1 ⟨28, hk⟩) fb :=
  (by unfold L1B; rfl : L1B c tb fb htb i h1 s ⟨28, hk⟩ = landedJ c (s1B_28 c tb htb i h1) (rowM scB s ⟨28, Nat.le_of_ble_eq_true rfl⟩) fb).trans (landJ_B c s _ _ (N1_lt c tb htb i h1 ⟨28, hk⟩) fb)
theorem L1B_at_29 (htb : ∀ y, (tb y).toNat < 4096) (i : grid0.Coords) (h1 : k0_cond1 i = 1#1) (s : Fin 2) (hk : 29 < 64) :
    L1B c tb fb htb i h1 s ⟨29, hk⟩ = landB c s ⟨29, hk⟩ (N1 c tb i h1 ⟨29, hk⟩) (N1_lt c tb htb i h1 ⟨29, hk⟩) fb :=
  (by unfold L1B; rfl : L1B c tb fb htb i h1 s ⟨29, hk⟩ = landedJ c (s1B_29 c tb htb i h1) (rowM scB s ⟨29, Nat.le_of_ble_eq_true rfl⟩) fb).trans (landJ_B c s _ _ (N1_lt c tb htb i h1 ⟨29, hk⟩) fb)
theorem L1B_at_30 (htb : ∀ y, (tb y).toNat < 4096) (i : grid0.Coords) (h1 : k0_cond1 i = 1#1) (s : Fin 2) (hk : 30 < 64) :
    L1B c tb fb htb i h1 s ⟨30, hk⟩ = landB c s ⟨30, hk⟩ (N1 c tb i h1 ⟨30, hk⟩) (N1_lt c tb htb i h1 ⟨30, hk⟩) fb :=
  (by unfold L1B; rfl : L1B c tb fb htb i h1 s ⟨30, hk⟩ = landedJ c (s1B_30 c tb htb i h1) (rowM scB s ⟨30, Nat.le_of_ble_eq_true rfl⟩) fb).trans (landJ_B c s _ _ (N1_lt c tb htb i h1 ⟨30, hk⟩) fb)
theorem L1B_at_31 (htb : ∀ y, (tb y).toNat < 4096) (i : grid0.Coords) (h1 : k0_cond1 i = 1#1) (s : Fin 2) (hk : 31 < 64) :
    L1B c tb fb htb i h1 s ⟨31, hk⟩ = landB c s ⟨31, hk⟩ (N1 c tb i h1 ⟨31, hk⟩) (N1_lt c tb htb i h1 ⟨31, hk⟩) fb :=
  (by unfold L1B; rfl : L1B c tb fb htb i h1 s ⟨31, hk⟩ = landedJ c (s1B_31 c tb htb i h1) (rowM scB s ⟨31, Nat.le_of_ble_eq_true rfl⟩) fb).trans (landJ_B c s _ _ (N1_lt c tb htb i h1 ⟨31, hk⟩) fb)
theorem L1B_at_32 (htb : ∀ y, (tb y).toNat < 4096) (i : grid0.Coords) (h1 : k0_cond1 i = 1#1) (s : Fin 2) (hk : 32 < 64) :
    L1B c tb fb htb i h1 s ⟨32, hk⟩ = landB c s ⟨32, hk⟩ (N1 c tb i h1 ⟨32, hk⟩) (N1_lt c tb htb i h1 ⟨32, hk⟩) fb :=
  (by unfold L1B; rfl : L1B c tb fb htb i h1 s ⟨32, hk⟩ = landedJ c (s1B_32 c tb htb i h1) (rowM scB s ⟨32, Nat.le_of_ble_eq_true rfl⟩) fb).trans (landJ_B c s _ _ (N1_lt c tb htb i h1 ⟨32, hk⟩) fb)
theorem L1B_at_33 (htb : ∀ y, (tb y).toNat < 4096) (i : grid0.Coords) (h1 : k0_cond1 i = 1#1) (s : Fin 2) (hk : 33 < 64) :
    L1B c tb fb htb i h1 s ⟨33, hk⟩ = landB c s ⟨33, hk⟩ (N1 c tb i h1 ⟨33, hk⟩) (N1_lt c tb htb i h1 ⟨33, hk⟩) fb :=
  (by unfold L1B; rfl : L1B c tb fb htb i h1 s ⟨33, hk⟩ = landedJ c (s1B_33 c tb htb i h1) (rowM scB s ⟨33, Nat.le_of_ble_eq_true rfl⟩) fb).trans (landJ_B c s _ _ (N1_lt c tb htb i h1 ⟨33, hk⟩) fb)
theorem L1B_at_34 (htb : ∀ y, (tb y).toNat < 4096) (i : grid0.Coords) (h1 : k0_cond1 i = 1#1) (s : Fin 2) (hk : 34 < 64) :
    L1B c tb fb htb i h1 s ⟨34, hk⟩ = landB c s ⟨34, hk⟩ (N1 c tb i h1 ⟨34, hk⟩) (N1_lt c tb htb i h1 ⟨34, hk⟩) fb :=
  (by unfold L1B; rfl : L1B c tb fb htb i h1 s ⟨34, hk⟩ = landedJ c (s1B_34 c tb htb i h1) (rowM scB s ⟨34, Nat.le_of_ble_eq_true rfl⟩) fb).trans (landJ_B c s _ _ (N1_lt c tb htb i h1 ⟨34, hk⟩) fb)
theorem L1B_at_35 (htb : ∀ y, (tb y).toNat < 4096) (i : grid0.Coords) (h1 : k0_cond1 i = 1#1) (s : Fin 2) (hk : 35 < 64) :
    L1B c tb fb htb i h1 s ⟨35, hk⟩ = landB c s ⟨35, hk⟩ (N1 c tb i h1 ⟨35, hk⟩) (N1_lt c tb htb i h1 ⟨35, hk⟩) fb :=
  (by unfold L1B; rfl : L1B c tb fb htb i h1 s ⟨35, hk⟩ = landedJ c (s1B_35 c tb htb i h1) (rowM scB s ⟨35, Nat.le_of_ble_eq_true rfl⟩) fb).trans (landJ_B c s _ _ (N1_lt c tb htb i h1 ⟨35, hk⟩) fb)
theorem L1B_at_36 (htb : ∀ y, (tb y).toNat < 4096) (i : grid0.Coords) (h1 : k0_cond1 i = 1#1) (s : Fin 2) (hk : 36 < 64) :
    L1B c tb fb htb i h1 s ⟨36, hk⟩ = landB c s ⟨36, hk⟩ (N1 c tb i h1 ⟨36, hk⟩) (N1_lt c tb htb i h1 ⟨36, hk⟩) fb :=
  (by unfold L1B; rfl : L1B c tb fb htb i h1 s ⟨36, hk⟩ = landedJ c (s1B_36 c tb htb i h1) (rowM scB s ⟨36, Nat.le_of_ble_eq_true rfl⟩) fb).trans (landJ_B c s _ _ (N1_lt c tb htb i h1 ⟨36, hk⟩) fb)
theorem L1B_at_37 (htb : ∀ y, (tb y).toNat < 4096) (i : grid0.Coords) (h1 : k0_cond1 i = 1#1) (s : Fin 2) (hk : 37 < 64) :
    L1B c tb fb htb i h1 s ⟨37, hk⟩ = landB c s ⟨37, hk⟩ (N1 c tb i h1 ⟨37, hk⟩) (N1_lt c tb htb i h1 ⟨37, hk⟩) fb :=
  (by unfold L1B; rfl : L1B c tb fb htb i h1 s ⟨37, hk⟩ = landedJ c (s1B_37 c tb htb i h1) (rowM scB s ⟨37, Nat.le_of_ble_eq_true rfl⟩) fb).trans (landJ_B c s _ _ (N1_lt c tb htb i h1 ⟨37, hk⟩) fb)
theorem L1B_at_38 (htb : ∀ y, (tb y).toNat < 4096) (i : grid0.Coords) (h1 : k0_cond1 i = 1#1) (s : Fin 2) (hk : 38 < 64) :
    L1B c tb fb htb i h1 s ⟨38, hk⟩ = landB c s ⟨38, hk⟩ (N1 c tb i h1 ⟨38, hk⟩) (N1_lt c tb htb i h1 ⟨38, hk⟩) fb :=
  (by unfold L1B; rfl : L1B c tb fb htb i h1 s ⟨38, hk⟩ = landedJ c (s1B_38 c tb htb i h1) (rowM scB s ⟨38, Nat.le_of_ble_eq_true rfl⟩) fb).trans (landJ_B c s _ _ (N1_lt c tb htb i h1 ⟨38, hk⟩) fb)
theorem L1B_at_39 (htb : ∀ y, (tb y).toNat < 4096) (i : grid0.Coords) (h1 : k0_cond1 i = 1#1) (s : Fin 2) (hk : 39 < 64) :
    L1B c tb fb htb i h1 s ⟨39, hk⟩ = landB c s ⟨39, hk⟩ (N1 c tb i h1 ⟨39, hk⟩) (N1_lt c tb htb i h1 ⟨39, hk⟩) fb :=
  (by unfold L1B; rfl : L1B c tb fb htb i h1 s ⟨39, hk⟩ = landedJ c (s1B_39 c tb htb i h1) (rowM scB s ⟨39, Nat.le_of_ble_eq_true rfl⟩) fb).trans (landJ_B c s _ _ (N1_lt c tb htb i h1 ⟨39, hk⟩) fb)
theorem L1B_at_40 (htb : ∀ y, (tb y).toNat < 4096) (i : grid0.Coords) (h1 : k0_cond1 i = 1#1) (s : Fin 2) (hk : 40 < 64) :
    L1B c tb fb htb i h1 s ⟨40, hk⟩ = landB c s ⟨40, hk⟩ (N1 c tb i h1 ⟨40, hk⟩) (N1_lt c tb htb i h1 ⟨40, hk⟩) fb :=
  (by unfold L1B; rfl : L1B c tb fb htb i h1 s ⟨40, hk⟩ = landedJ c (s1B_40 c tb htb i h1) (rowM scB s ⟨40, Nat.le_of_ble_eq_true rfl⟩) fb).trans (landJ_B c s _ _ (N1_lt c tb htb i h1 ⟨40, hk⟩) fb)
theorem L1B_at_41 (htb : ∀ y, (tb y).toNat < 4096) (i : grid0.Coords) (h1 : k0_cond1 i = 1#1) (s : Fin 2) (hk : 41 < 64) :
    L1B c tb fb htb i h1 s ⟨41, hk⟩ = landB c s ⟨41, hk⟩ (N1 c tb i h1 ⟨41, hk⟩) (N1_lt c tb htb i h1 ⟨41, hk⟩) fb :=
  (by unfold L1B; rfl : L1B c tb fb htb i h1 s ⟨41, hk⟩ = landedJ c (s1B_41 c tb htb i h1) (rowM scB s ⟨41, Nat.le_of_ble_eq_true rfl⟩) fb).trans (landJ_B c s _ _ (N1_lt c tb htb i h1 ⟨41, hk⟩) fb)
theorem L1B_at_42 (htb : ∀ y, (tb y).toNat < 4096) (i : grid0.Coords) (h1 : k0_cond1 i = 1#1) (s : Fin 2) (hk : 42 < 64) :
    L1B c tb fb htb i h1 s ⟨42, hk⟩ = landB c s ⟨42, hk⟩ (N1 c tb i h1 ⟨42, hk⟩) (N1_lt c tb htb i h1 ⟨42, hk⟩) fb :=
  (by unfold L1B; rfl : L1B c tb fb htb i h1 s ⟨42, hk⟩ = landedJ c (s1B_42 c tb htb i h1) (rowM scB s ⟨42, Nat.le_of_ble_eq_true rfl⟩) fb).trans (landJ_B c s _ _ (N1_lt c tb htb i h1 ⟨42, hk⟩) fb)
theorem L1B_at_43 (htb : ∀ y, (tb y).toNat < 4096) (i : grid0.Coords) (h1 : k0_cond1 i = 1#1) (s : Fin 2) (hk : 43 < 64) :
    L1B c tb fb htb i h1 s ⟨43, hk⟩ = landB c s ⟨43, hk⟩ (N1 c tb i h1 ⟨43, hk⟩) (N1_lt c tb htb i h1 ⟨43, hk⟩) fb :=
  (by unfold L1B; rfl : L1B c tb fb htb i h1 s ⟨43, hk⟩ = landedJ c (s1B_43 c tb htb i h1) (rowM scB s ⟨43, Nat.le_of_ble_eq_true rfl⟩) fb).trans (landJ_B c s _ _ (N1_lt c tb htb i h1 ⟨43, hk⟩) fb)
theorem L1B_at_44 (htb : ∀ y, (tb y).toNat < 4096) (i : grid0.Coords) (h1 : k0_cond1 i = 1#1) (s : Fin 2) (hk : 44 < 64) :
    L1B c tb fb htb i h1 s ⟨44, hk⟩ = landB c s ⟨44, hk⟩ (N1 c tb i h1 ⟨44, hk⟩) (N1_lt c tb htb i h1 ⟨44, hk⟩) fb :=
  (by unfold L1B; rfl : L1B c tb fb htb i h1 s ⟨44, hk⟩ = landedJ c (s1B_44 c tb htb i h1) (rowM scB s ⟨44, Nat.le_of_ble_eq_true rfl⟩) fb).trans (landJ_B c s _ _ (N1_lt c tb htb i h1 ⟨44, hk⟩) fb)
theorem L1B_at_45 (htb : ∀ y, (tb y).toNat < 4096) (i : grid0.Coords) (h1 : k0_cond1 i = 1#1) (s : Fin 2) (hk : 45 < 64) :
    L1B c tb fb htb i h1 s ⟨45, hk⟩ = landB c s ⟨45, hk⟩ (N1 c tb i h1 ⟨45, hk⟩) (N1_lt c tb htb i h1 ⟨45, hk⟩) fb :=
  (by unfold L1B; rfl : L1B c tb fb htb i h1 s ⟨45, hk⟩ = landedJ c (s1B_45 c tb htb i h1) (rowM scB s ⟨45, Nat.le_of_ble_eq_true rfl⟩) fb).trans (landJ_B c s _ _ (N1_lt c tb htb i h1 ⟨45, hk⟩) fb)
theorem L1B_at_46 (htb : ∀ y, (tb y).toNat < 4096) (i : grid0.Coords) (h1 : k0_cond1 i = 1#1) (s : Fin 2) (hk : 46 < 64) :
    L1B c tb fb htb i h1 s ⟨46, hk⟩ = landB c s ⟨46, hk⟩ (N1 c tb i h1 ⟨46, hk⟩) (N1_lt c tb htb i h1 ⟨46, hk⟩) fb :=
  (by unfold L1B; rfl : L1B c tb fb htb i h1 s ⟨46, hk⟩ = landedJ c (s1B_46 c tb htb i h1) (rowM scB s ⟨46, Nat.le_of_ble_eq_true rfl⟩) fb).trans (landJ_B c s _ _ (N1_lt c tb htb i h1 ⟨46, hk⟩) fb)
theorem L1B_at_47 (htb : ∀ y, (tb y).toNat < 4096) (i : grid0.Coords) (h1 : k0_cond1 i = 1#1) (s : Fin 2) (hk : 47 < 64) :
    L1B c tb fb htb i h1 s ⟨47, hk⟩ = landB c s ⟨47, hk⟩ (N1 c tb i h1 ⟨47, hk⟩) (N1_lt c tb htb i h1 ⟨47, hk⟩) fb :=
  (by unfold L1B; rfl : L1B c tb fb htb i h1 s ⟨47, hk⟩ = landedJ c (s1B_47 c tb htb i h1) (rowM scB s ⟨47, Nat.le_of_ble_eq_true rfl⟩) fb).trans (landJ_B c s _ _ (N1_lt c tb htb i h1 ⟨47, hk⟩) fb)
theorem L1B_at_48 (htb : ∀ y, (tb y).toNat < 4096) (i : grid0.Coords) (h1 : k0_cond1 i = 1#1) (s : Fin 2) (hk : 48 < 64) :
    L1B c tb fb htb i h1 s ⟨48, hk⟩ = landB c s ⟨48, hk⟩ (N1 c tb i h1 ⟨48, hk⟩) (N1_lt c tb htb i h1 ⟨48, hk⟩) fb :=
  (by unfold L1B; rfl : L1B c tb fb htb i h1 s ⟨48, hk⟩ = landedJ c (s1B_48 c tb htb i h1) (rowM scB s ⟨48, Nat.le_of_ble_eq_true rfl⟩) fb).trans (landJ_B c s _ _ (N1_lt c tb htb i h1 ⟨48, hk⟩) fb)
theorem L1B_at_49 (htb : ∀ y, (tb y).toNat < 4096) (i : grid0.Coords) (h1 : k0_cond1 i = 1#1) (s : Fin 2) (hk : 49 < 64) :
    L1B c tb fb htb i h1 s ⟨49, hk⟩ = landB c s ⟨49, hk⟩ (N1 c tb i h1 ⟨49, hk⟩) (N1_lt c tb htb i h1 ⟨49, hk⟩) fb :=
  (by unfold L1B; rfl : L1B c tb fb htb i h1 s ⟨49, hk⟩ = landedJ c (s1B_49 c tb htb i h1) (rowM scB s ⟨49, Nat.le_of_ble_eq_true rfl⟩) fb).trans (landJ_B c s _ _ (N1_lt c tb htb i h1 ⟨49, hk⟩) fb)
theorem L1B_at_50 (htb : ∀ y, (tb y).toNat < 4096) (i : grid0.Coords) (h1 : k0_cond1 i = 1#1) (s : Fin 2) (hk : 50 < 64) :
    L1B c tb fb htb i h1 s ⟨50, hk⟩ = landB c s ⟨50, hk⟩ (N1 c tb i h1 ⟨50, hk⟩) (N1_lt c tb htb i h1 ⟨50, hk⟩) fb :=
  (by unfold L1B; rfl : L1B c tb fb htb i h1 s ⟨50, hk⟩ = landedJ c (s1B_50 c tb htb i h1) (rowM scB s ⟨50, Nat.le_of_ble_eq_true rfl⟩) fb).trans (landJ_B c s _ _ (N1_lt c tb htb i h1 ⟨50, hk⟩) fb)
theorem L1B_at_51 (htb : ∀ y, (tb y).toNat < 4096) (i : grid0.Coords) (h1 : k0_cond1 i = 1#1) (s : Fin 2) (hk : 51 < 64) :
    L1B c tb fb htb i h1 s ⟨51, hk⟩ = landB c s ⟨51, hk⟩ (N1 c tb i h1 ⟨51, hk⟩) (N1_lt c tb htb i h1 ⟨51, hk⟩) fb :=
  (by unfold L1B; rfl : L1B c tb fb htb i h1 s ⟨51, hk⟩ = landedJ c (s1B_51 c tb htb i h1) (rowM scB s ⟨51, Nat.le_of_ble_eq_true rfl⟩) fb).trans (landJ_B c s _ _ (N1_lt c tb htb i h1 ⟨51, hk⟩) fb)
theorem L1B_at_52 (htb : ∀ y, (tb y).toNat < 4096) (i : grid0.Coords) (h1 : k0_cond1 i = 1#1) (s : Fin 2) (hk : 52 < 64) :
    L1B c tb fb htb i h1 s ⟨52, hk⟩ = landB c s ⟨52, hk⟩ (N1 c tb i h1 ⟨52, hk⟩) (N1_lt c tb htb i h1 ⟨52, hk⟩) fb :=
  (by unfold L1B; rfl : L1B c tb fb htb i h1 s ⟨52, hk⟩ = landedJ c (s1B_52 c tb htb i h1) (rowM scB s ⟨52, Nat.le_of_ble_eq_true rfl⟩) fb).trans (landJ_B c s _ _ (N1_lt c tb htb i h1 ⟨52, hk⟩) fb)
theorem L1B_at_53 (htb : ∀ y, (tb y).toNat < 4096) (i : grid0.Coords) (h1 : k0_cond1 i = 1#1) (s : Fin 2) (hk : 53 < 64) :
    L1B c tb fb htb i h1 s ⟨53, hk⟩ = landB c s ⟨53, hk⟩ (N1 c tb i h1 ⟨53, hk⟩) (N1_lt c tb htb i h1 ⟨53, hk⟩) fb :=
  (by unfold L1B; rfl : L1B c tb fb htb i h1 s ⟨53, hk⟩ = landedJ c (s1B_53 c tb htb i h1) (rowM scB s ⟨53, Nat.le_of_ble_eq_true rfl⟩) fb).trans (landJ_B c s _ _ (N1_lt c tb htb i h1 ⟨53, hk⟩) fb)
theorem L1B_at_54 (htb : ∀ y, (tb y).toNat < 4096) (i : grid0.Coords) (h1 : k0_cond1 i = 1#1) (s : Fin 2) (hk : 54 < 64) :
    L1B c tb fb htb i h1 s ⟨54, hk⟩ = landB c s ⟨54, hk⟩ (N1 c tb i h1 ⟨54, hk⟩) (N1_lt c tb htb i h1 ⟨54, hk⟩) fb :=
  (by unfold L1B; rfl : L1B c tb fb htb i h1 s ⟨54, hk⟩ = landedJ c (s1B_54 c tb htb i h1) (rowM scB s ⟨54, Nat.le_of_ble_eq_true rfl⟩) fb).trans (landJ_B c s _ _ (N1_lt c tb htb i h1 ⟨54, hk⟩) fb)
theorem L1B_at_55 (htb : ∀ y, (tb y).toNat < 4096) (i : grid0.Coords) (h1 : k0_cond1 i = 1#1) (s : Fin 2) (hk : 55 < 64) :
    L1B c tb fb htb i h1 s ⟨55, hk⟩ = landB c s ⟨55, hk⟩ (N1 c tb i h1 ⟨55, hk⟩) (N1_lt c tb htb i h1 ⟨55, hk⟩) fb :=
  (by unfold L1B; rfl : L1B c tb fb htb i h1 s ⟨55, hk⟩ = landedJ c (s1B_55 c tb htb i h1) (rowM scB s ⟨55, Nat.le_of_ble_eq_true rfl⟩) fb).trans (landJ_B c s _ _ (N1_lt c tb htb i h1 ⟨55, hk⟩) fb)
theorem L1B_at_56 (htb : ∀ y, (tb y).toNat < 4096) (i : grid0.Coords) (h1 : k0_cond1 i = 1#1) (s : Fin 2) (hk : 56 < 64) :
    L1B c tb fb htb i h1 s ⟨56, hk⟩ = landB c s ⟨56, hk⟩ (N1 c tb i h1 ⟨56, hk⟩) (N1_lt c tb htb i h1 ⟨56, hk⟩) fb :=
  (by unfold L1B; rfl : L1B c tb fb htb i h1 s ⟨56, hk⟩ = landedJ c (s1B_56 c tb htb i h1) (rowM scB s ⟨56, Nat.le_of_ble_eq_true rfl⟩) fb).trans (landJ_B c s _ _ (N1_lt c tb htb i h1 ⟨56, hk⟩) fb)
theorem L1B_at_57 (htb : ∀ y, (tb y).toNat < 4096) (i : grid0.Coords) (h1 : k0_cond1 i = 1#1) (s : Fin 2) (hk : 57 < 64) :
    L1B c tb fb htb i h1 s ⟨57, hk⟩ = landB c s ⟨57, hk⟩ (N1 c tb i h1 ⟨57, hk⟩) (N1_lt c tb htb i h1 ⟨57, hk⟩) fb :=
  (by unfold L1B; rfl : L1B c tb fb htb i h1 s ⟨57, hk⟩ = landedJ c (s1B_57 c tb htb i h1) (rowM scB s ⟨57, Nat.le_of_ble_eq_true rfl⟩) fb).trans (landJ_B c s _ _ (N1_lt c tb htb i h1 ⟨57, hk⟩) fb)
theorem L1B_at_58 (htb : ∀ y, (tb y).toNat < 4096) (i : grid0.Coords) (h1 : k0_cond1 i = 1#1) (s : Fin 2) (hk : 58 < 64) :
    L1B c tb fb htb i h1 s ⟨58, hk⟩ = landB c s ⟨58, hk⟩ (N1 c tb i h1 ⟨58, hk⟩) (N1_lt c tb htb i h1 ⟨58, hk⟩) fb :=
  (by unfold L1B; rfl : L1B c tb fb htb i h1 s ⟨58, hk⟩ = landedJ c (s1B_58 c tb htb i h1) (rowM scB s ⟨58, Nat.le_of_ble_eq_true rfl⟩) fb).trans (landJ_B c s _ _ (N1_lt c tb htb i h1 ⟨58, hk⟩) fb)
theorem L1B_at_59 (htb : ∀ y, (tb y).toNat < 4096) (i : grid0.Coords) (h1 : k0_cond1 i = 1#1) (s : Fin 2) (hk : 59 < 64) :
    L1B c tb fb htb i h1 s ⟨59, hk⟩ = landB c s ⟨59, hk⟩ (N1 c tb i h1 ⟨59, hk⟩) (N1_lt c tb htb i h1 ⟨59, hk⟩) fb :=
  (by unfold L1B; rfl : L1B c tb fb htb i h1 s ⟨59, hk⟩ = landedJ c (s1B_59 c tb htb i h1) (rowM scB s ⟨59, Nat.le_of_ble_eq_true rfl⟩) fb).trans (landJ_B c s _ _ (N1_lt c tb htb i h1 ⟨59, hk⟩) fb)
theorem L1B_at_60 (htb : ∀ y, (tb y).toNat < 4096) (i : grid0.Coords) (h1 : k0_cond1 i = 1#1) (s : Fin 2) (hk : 60 < 64) :
    L1B c tb fb htb i h1 s ⟨60, hk⟩ = landB c s ⟨60, hk⟩ (N1 c tb i h1 ⟨60, hk⟩) (N1_lt c tb htb i h1 ⟨60, hk⟩) fb :=
  (by unfold L1B; rfl : L1B c tb fb htb i h1 s ⟨60, hk⟩ = landedJ c (s1B_60 c tb htb i h1) (rowM scB s ⟨60, Nat.le_of_ble_eq_true rfl⟩) fb).trans (landJ_B c s _ _ (N1_lt c tb htb i h1 ⟨60, hk⟩) fb)
theorem L1B_at_61 (htb : ∀ y, (tb y).toNat < 4096) (i : grid0.Coords) (h1 : k0_cond1 i = 1#1) (s : Fin 2) (hk : 61 < 64) :
    L1B c tb fb htb i h1 s ⟨61, hk⟩ = landB c s ⟨61, hk⟩ (N1 c tb i h1 ⟨61, hk⟩) (N1_lt c tb htb i h1 ⟨61, hk⟩) fb :=
  (by unfold L1B; rfl : L1B c tb fb htb i h1 s ⟨61, hk⟩ = landedJ c (s1B_61 c tb htb i h1) (rowM scB s ⟨61, Nat.le_of_ble_eq_true rfl⟩) fb).trans (landJ_B c s _ _ (N1_lt c tb htb i h1 ⟨61, hk⟩) fb)
theorem L1B_at_62 (htb : ∀ y, (tb y).toNat < 4096) (i : grid0.Coords) (h1 : k0_cond1 i = 1#1) (s : Fin 2) (hk : 62 < 64) :
    L1B c tb fb htb i h1 s ⟨62, hk⟩ = landB c s ⟨62, hk⟩ (N1 c tb i h1 ⟨62, hk⟩) (N1_lt c tb htb i h1 ⟨62, hk⟩) fb :=
  (by unfold L1B; rfl : L1B c tb fb htb i h1 s ⟨62, hk⟩ = landedJ c (s1B_62 c tb htb i h1) (rowM scB s ⟨62, Nat.le_of_ble_eq_true rfl⟩) fb).trans (landJ_B c s _ _ (N1_lt c tb htb i h1 ⟨62, hk⟩) fb)
theorem L1B_at_63 (htb : ∀ y, (tb y).toNat < 4096) (i : grid0.Coords) (h1 : k0_cond1 i = 1#1) (s : Fin 2) (hk : 63 < 64) :
    L1B c tb fb htb i h1 s ⟨63, hk⟩ = landB c s ⟨63, hk⟩ (N1 c tb i h1 ⟨63, hk⟩) (N1_lt c tb htb i h1 ⟨63, hk⟩) fb :=
  (by unfold L1B; rfl : L1B c tb fb htb i h1 s ⟨63, hk⟩ = landedJ c (s1B_63 c tb htb i h1) (rowM scB s ⟨63, Nat.le_of_ble_eq_true rfl⟩) fb).trans (landJ_B c s _ _ (N1_lt c tb htb i h1 ⟨63, hk⟩) fb)
/-- Each of the 64 landed contents of fetch 1, array B, is the generic landed row at its row number. -/
theorem L1B_at (htb : ∀ y, (tb y).toNat < 4096) (i : grid0.Coords) (h1 : k0_cond1 i = 1#1) (s : Fin 2) : ∀ r : Fin 64, L1B c tb fb htb i h1 s r = landB c s r (N1 c tb i h1 r) (N1_lt c tb htb i h1 r) fb
  | ⟨0, hk⟩ => L1B_at_0 c tb fb htb i h1 s hk
  | ⟨1, hk⟩ => L1B_at_1 c tb fb htb i h1 s hk
  | ⟨2, hk⟩ => L1B_at_2 c tb fb htb i h1 s hk
  | ⟨3, hk⟩ => L1B_at_3 c tb fb htb i h1 s hk
  | ⟨4, hk⟩ => L1B_at_4 c tb fb htb i h1 s hk
  | ⟨5, hk⟩ => L1B_at_5 c tb fb htb i h1 s hk
  | ⟨6, hk⟩ => L1B_at_6 c tb fb htb i h1 s hk
  | ⟨7, hk⟩ => L1B_at_7 c tb fb htb i h1 s hk
  | ⟨8, hk⟩ => L1B_at_8 c tb fb htb i h1 s hk
  | ⟨9, hk⟩ => L1B_at_9 c tb fb htb i h1 s hk
  | ⟨10, hk⟩ => L1B_at_10 c tb fb htb i h1 s hk
  | ⟨11, hk⟩ => L1B_at_11 c tb fb htb i h1 s hk
  | ⟨12, hk⟩ => L1B_at_12 c tb fb htb i h1 s hk
  | ⟨13, hk⟩ => L1B_at_13 c tb fb htb i h1 s hk
  | ⟨14, hk⟩ => L1B_at_14 c tb fb htb i h1 s hk
  | ⟨15, hk⟩ => L1B_at_15 c tb fb htb i h1 s hk
  | ⟨16, hk⟩ => L1B_at_16 c tb fb htb i h1 s hk
  | ⟨17, hk⟩ => L1B_at_17 c tb fb htb i h1 s hk
  | ⟨18, hk⟩ => L1B_at_18 c tb fb htb i h1 s hk
  | ⟨19, hk⟩ => L1B_at_19 c tb fb htb i h1 s hk
  | ⟨20, hk⟩ => L1B_at_20 c tb fb htb i h1 s hk
  | ⟨21, hk⟩ => L1B_at_21 c tb fb htb i h1 s hk
  | ⟨22, hk⟩ => L1B_at_22 c tb fb htb i h1 s hk
  | ⟨23, hk⟩ => L1B_at_23 c tb fb htb i h1 s hk
  | ⟨24, hk⟩ => L1B_at_24 c tb fb htb i h1 s hk
  | ⟨25, hk⟩ => L1B_at_25 c tb fb htb i h1 s hk
  | ⟨26, hk⟩ => L1B_at_26 c tb fb htb i h1 s hk
  | ⟨27, hk⟩ => L1B_at_27 c tb fb htb i h1 s hk
  | ⟨28, hk⟩ => L1B_at_28 c tb fb htb i h1 s hk
  | ⟨29, hk⟩ => L1B_at_29 c tb fb htb i h1 s hk
  | ⟨30, hk⟩ => L1B_at_30 c tb fb htb i h1 s hk
  | ⟨31, hk⟩ => L1B_at_31 c tb fb htb i h1 s hk
  | ⟨32, hk⟩ => L1B_at_32 c tb fb htb i h1 s hk
  | ⟨33, hk⟩ => L1B_at_33 c tb fb htb i h1 s hk
  | ⟨34, hk⟩ => L1B_at_34 c tb fb htb i h1 s hk
  | ⟨35, hk⟩ => L1B_at_35 c tb fb htb i h1 s hk
  | ⟨36, hk⟩ => L1B_at_36 c tb fb htb i h1 s hk
  | ⟨37, hk⟩ => L1B_at_37 c tb fb htb i h1 s hk
  | ⟨38, hk⟩ => L1B_at_38 c tb fb htb i h1 s hk
  | ⟨39, hk⟩ => L1B_at_39 c tb fb htb i h1 s hk
  | ⟨40, hk⟩ => L1B_at_40 c tb fb htb i h1 s hk
  | ⟨41, hk⟩ => L1B_at_41 c tb fb htb i h1 s hk
  | ⟨42, hk⟩ => L1B_at_42 c tb fb htb i h1 s hk
  | ⟨43, hk⟩ => L1B_at_43 c tb fb htb i h1 s hk
  | ⟨44, hk⟩ => L1B_at_44 c tb fb htb i h1 s hk
  | ⟨45, hk⟩ => L1B_at_45 c tb fb htb i h1 s hk
  | ⟨46, hk⟩ => L1B_at_46 c tb fb htb i h1 s hk
  | ⟨47, hk⟩ => L1B_at_47 c tb fb htb i h1 s hk
  | ⟨48, hk⟩ => L1B_at_48 c tb fb htb i h1 s hk
  | ⟨49, hk⟩ => L1B_at_49 c tb fb htb i h1 s hk
  | ⟨50, hk⟩ => L1B_at_50 c tb fb htb i h1 s hk
  | ⟨51, hk⟩ => L1B_at_51 c tb fb htb i h1 s hk
  | ⟨52, hk⟩ => L1B_at_52 c tb fb htb i h1 s hk
  | ⟨53, hk⟩ => L1B_at_53 c tb fb htb i h1 s hk
  | ⟨54, hk⟩ => L1B_at_54 c tb fb htb i h1 s hk
  | ⟨55, hk⟩ => L1B_at_55 c tb fb htb i h1 s hk
  | ⟨56, hk⟩ => L1B_at_56 c tb fb htb i h1 s hk
  | ⟨57, hk⟩ => L1B_at_57 c tb fb htb i h1 s hk
  | ⟨58, hk⟩ => L1B_at_58 c tb fb htb i h1 s hk
  | ⟨59, hk⟩ => L1B_at_59 c tb fb htb i h1 s hk
  | ⟨60, hk⟩ => L1B_at_60 c tb fb htb i h1 s hk
  | ⟨61, hk⟩ => L1B_at_61 c tb fb htb i h1 s hk
  | ⟨62, hk⟩ => L1B_at_62 c tb fb htb i h1 s hk
  | ⟨63, hk⟩ => L1B_at_63 c tb fb htb i h1 s hk
  | ⟨_ + 64, h⟩ => absurd h (Nat.not_lt.2 (Nat.le_add_left _ _))
/-- Slot s of array B's scratch, read whole once the copies of fetch 1 of grid point t have landed, is the gathered rows. -/
theorem read1B (htb : ∀ y, (tb y).toNat < 4096) (t : Fin grid0.N) (h1 : k0_cond1 (grid0.coords t) = 1#1) (hb : t.val < 32) (s : Fin 2) :
    scB.view.readAt (Elt F) (Rect.unit (s := S2x8x64x1024) ![s.val, 0, 0, 0] S1x8x64x1024.size (inb_slot s)).toLoadRect (glue_B c (L1B c tb fb htb (grid0.coords t) h1 s)) = gath fb (rowsOf tb t.val) :=
  (read_landB c s (N1 c tb (grid0.coords t) h1) (N1_lt c tb htb (grid0.coords t) h1) fb (L1B c tb fb htb (grid0.coords t) h1 s) (L1B_at c tb fb htb (grid0.coords t) h1 s)).trans
    (congrArg (gath fb) (funext (rows1_eq c tb htb t h1 hb)))
theorem N2_lt (htb : ∀ y, (tb y).toNat < 4096) (i : grid0.Coords) (h2 : k0_cond2 i = 1#1) : ∀ r : Fin 64, N2 c tb i h2 r < 4096
  | ⟨0, _⟩ => word_lt c tb htb _ _
  | ⟨1, _⟩ => word_lt c tb htb _ _
  | ⟨2, _⟩ => word_lt c tb htb _ _
  | ⟨3, _⟩ => word_lt c tb htb _ _
  | ⟨4, _⟩ => word_lt c tb htb _ _
  | ⟨5, _⟩ => word_lt c tb htb _ _
  | ⟨6, _⟩ => word_lt c tb htb _ _
  | ⟨7, _⟩ => word_lt c tb htb _ _
  | ⟨8, _⟩ => word_lt c tb htb _ _
  | ⟨9, _⟩ => word_lt c tb htb _ _
  | ⟨10, _⟩ => word_lt c tb htb _ _
  | ⟨11, _⟩ => word_lt c tb htb _ _
  | ⟨12, _⟩ => word_lt c tb htb _ _
  | ⟨13, _⟩ => word_lt c tb htb _ _
  | ⟨14, _⟩ => word_lt c tb htb _ _
  | ⟨15, _⟩ => word_lt c tb htb _ _
  | ⟨16, _⟩ => word_lt c tb htb _ _
  | ⟨17, _⟩ => word_lt c tb htb _ _
  | ⟨18, _⟩ => word_lt c tb htb _ _
  | ⟨19, _⟩ => word_lt c tb htb _ _
  | ⟨20, _⟩ => word_lt c tb htb _ _
  | ⟨21, _⟩ => word_lt c tb htb _ _
  | ⟨22, _⟩ => word_lt c tb htb _ _
  | ⟨23, _⟩ => word_lt c tb htb _ _
  | ⟨24, _⟩ => word_lt c tb htb _ _
  | ⟨25, _⟩ => word_lt c tb htb _ _
  | ⟨26, _⟩ => word_lt c tb htb _ _
  | ⟨27, _⟩ => word_lt c tb htb _ _
  | ⟨28, _⟩ => word_lt c tb htb _ _
  | ⟨29, _⟩ => word_lt c tb htb _ _
  | ⟨30, _⟩ => word_lt c tb htb _ _
  | ⟨31, _⟩ => word_lt c tb htb _ _
  | ⟨32, _⟩ => word_lt c tb htb _ _
  | ⟨33, _⟩ => word_lt c tb htb _ _
  | ⟨34, _⟩ => word_lt c tb htb _ _
  | ⟨35, _⟩ => word_lt c tb htb _ _
  | ⟨36, _⟩ => word_lt c tb htb _ _
  | ⟨37, _⟩ => word_lt c tb htb _ _
  | ⟨38, _⟩ => word_lt c tb htb _ _
  | ⟨39, _⟩ => word_lt c tb htb _ _
  | ⟨40, _⟩ => word_lt c tb htb _ _
  | ⟨41, _⟩ => word_lt c tb htb _ _
  | ⟨42, _⟩ => word_lt c tb htb _ _
  | ⟨43, _⟩ => word_lt c tb htb _ _
  | ⟨44, _⟩ => word_lt c tb htb _ _
  | ⟨45, _⟩ => word_lt c tb htb _ _
  | ⟨46, _⟩ => word_lt c tb htb _ _
  | ⟨47, _⟩ => word_lt c tb htb _ _
  | ⟨48, _⟩ => word_lt c tb htb _ _
  | ⟨49, _⟩ => word_lt c tb htb _ _
  | ⟨50, _⟩ => word_lt c tb htb _ _
  | ⟨51, _⟩ => word_lt c tb htb _ _
  | ⟨52, _⟩ => word_lt c tb htb _ _
  | ⟨53, _⟩ => word_lt c tb htb _ _
  | ⟨54, _⟩ => word_lt c tb htb _ _
  | ⟨55, _⟩ => word_lt c tb htb _ _
  | ⟨56, _⟩ => word_lt c tb htb _ _
  | ⟨57, _⟩ => word_lt c tb htb _ _
  | ⟨58, _⟩ => word_lt c tb htb _ _
  | ⟨59, _⟩ => word_lt c tb htb _ _
  | ⟨60, _⟩ => word_lt c tb htb _ _
  | ⟨61, _⟩ => word_lt c tb htb _ _
  | ⟨62, _⟩ => word_lt c tb htb _ _
  | ⟨63, _⟩ => word_lt c tb htb _ _
  | ⟨_ + 64, h⟩ => absurd h (Nat.not_lt.2 (Nat.le_add_left _ _))
/-- The rows fetch 2 of grid point t gathers are the table's words at cells 64·(t + 1) + r. -/
theorem rows2_eq (htb : ∀ y, (tb y).toNat < 4096) (t : Fin grid0.N) (h2 : k0_cond2 (grid0.coords t) = 1#1) (hb : (t.val + 1) < 32) : ∀ r : Fin 64, (⟨N2 c tb (grid0.coords t) h2 r, N2_lt c tb htb (grid0.coords t) h2 r⟩ : Fin 4096) = rowsOf tb (t.val + 1) r
  | ⟨0, _⟩ => row_of_cell c tb htb _ _ (t.val + 1) ⟨0, Nat.le_of_ble_eq_true rfl⟩ hb (coff_C2_0 t h2)
  | ⟨1, _⟩ => row_of_cell c tb htb _ _ (t.val + 1) ⟨1, Nat.le_of_ble_eq_true rfl⟩ hb (coff_C2_1 t h2)
  | ⟨2, _⟩ => row_of_cell c tb htb _ _ (t.val + 1) ⟨2, Nat.le_of_ble_eq_true rfl⟩ hb (coff_C2_2 t h2)
  | ⟨3, _⟩ => row_of_cell c tb htb _ _ (t.val + 1) ⟨3, Nat.le_of_ble_eq_true rfl⟩ hb (coff_C2_3 t h2)
  | ⟨4, _⟩ => row_of_cell c tb htb _ _ (t.val + 1) ⟨4, Nat.le_of_ble_eq_true rfl⟩ hb (coff_C2_4 t h2)
  | ⟨5, _⟩ => row_of_cell c tb htb _ _ (t.val + 1) ⟨5, Nat.le_of_ble_eq_true rfl⟩ hb (coff_C2_5 t h2)
  | ⟨6, _⟩ => row_of_cell c tb htb _ _ (t.val + 1) ⟨6, Nat.le_of_ble_eq_true rfl⟩ hb (coff_C2_6 t h2)
  | ⟨7, _⟩ => row_of_cell c tb htb _ _ (t.val + 1) ⟨7, Nat.le_of_ble_eq_true rfl⟩ hb (coff_C2_7 t h2)
  | ⟨8, _⟩ => row_of_cell c tb htb _ _ (t.val + 1) ⟨8, Nat.le_of_ble_eq_true rfl⟩ hb (coff_C2_8 t h2)
  | ⟨9, _⟩ => row_of_cell c tb htb _ _ (t.val + 1) ⟨9, Nat.le_of_ble_eq_true rfl⟩ hb (coff_C2_9 t h2)
  | ⟨10, _⟩ => row_of_cell c tb htb _ _ (t.val + 1) ⟨10, Nat.le_of_ble_eq_true rfl⟩ hb (coff_C2_10 t h2)
  | ⟨11, _⟩ => row_of_cell c tb htb _ _ (t.val + 1) ⟨11, Nat.le_of_ble_eq_true rfl⟩ hb (coff_C2_11 t h2)
  | ⟨12, _⟩ => row_of_cell c tb htb _ _ (t.val + 1) ⟨12, Nat.le_of_ble_eq_true rfl⟩ hb (coff_C2_12 t h2)
  | ⟨13, _⟩ => row_of_cell c tb htb _ _ (t.val + 1) ⟨13, Nat.le_of_ble_eq_true rfl⟩ hb (coff_C2_13 t h2)
  | ⟨14, _⟩ => row_of_cell c tb htb _ _ (t.val + 1) ⟨14, Nat.le_of_ble_eq_true rfl⟩ hb (coff_C2_14 t h2)
  | ⟨15, _⟩ => row_of_cell c tb htb _ _ (t.val + 1) ⟨15, Nat.le_of_ble_eq_true rfl⟩ hb (coff_C2_15 t h2)
  | ⟨16, _⟩ => row_of_cell c tb htb _ _ (t.val + 1) ⟨16, Nat.le_of_ble_eq_true rfl⟩ hb (coff_C2_16 t h2)
  | ⟨17, _⟩ => row_of_cell c tb htb _ _ (t.val + 1) ⟨17, Nat.le_of_ble_eq_true rfl⟩ hb (coff_C2_17 t h2)
  | ⟨18, _⟩ => row_of_cell c tb htb _ _ (t.val + 1) ⟨18, Nat.le_of_ble_eq_true rfl⟩ hb (coff_C2_18 t h2)
  | ⟨19, _⟩ => row_of_cell c tb htb _ _ (t.val + 1) ⟨19, Nat.le_of_ble_eq_true rfl⟩ hb (coff_C2_19 t h2)
  | ⟨20, _⟩ => row_of_cell c tb htb _ _ (t.val + 1) ⟨20, Nat.le_of_ble_eq_true rfl⟩ hb (coff_C2_20 t h2)
  | ⟨21, _⟩ => row_of_cell c tb htb _ _ (t.val + 1) ⟨21, Nat.le_of_ble_eq_true rfl⟩ hb (coff_C2_21 t h2)
  | ⟨22, _⟩ => row_of_cell c tb htb _ _ (t.val + 1) ⟨22, Nat.le_of_ble_eq_true rfl⟩ hb (coff_C2_22 t h2)
  | ⟨23, _⟩ => row_of_cell c tb htb _ _ (t.val + 1) ⟨23, Nat.le_of_ble_eq_true rfl⟩ hb (coff_C2_23 t h2)
  | ⟨24, _⟩ => row_of_cell c tb htb _ _ (t.val + 1) ⟨24, Nat.le_of_ble_eq_true rfl⟩ hb (coff_C2_24 t h2)
  | ⟨25, _⟩ => row_of_cell c tb htb _ _ (t.val + 1) ⟨25, Nat.le_of_ble_eq_true rfl⟩ hb (coff_C2_25 t h2)
  | ⟨26, _⟩ => row_of_cell c tb htb _ _ (t.val + 1) ⟨26, Nat.le_of_ble_eq_true rfl⟩ hb (coff_C2_26 t h2)
  | ⟨27, _⟩ => row_of_cell c tb htb _ _ (t.val + 1) ⟨27, Nat.le_of_ble_eq_true rfl⟩ hb (coff_C2_27 t h2)
  | ⟨28, _⟩ => row_of_cell c tb htb _ _ (t.val + 1) ⟨28, Nat.le_of_ble_eq_true rfl⟩ hb (coff_C2_28 t h2)
  | ⟨29, _⟩ => row_of_cell c tb htb _ _ (t.val + 1) ⟨29, Nat.le_of_ble_eq_true rfl⟩ hb (coff_C2_29 t h2)
  | ⟨30, _⟩ => row_of_cell c tb htb _ _ (t.val + 1) ⟨30, Nat.le_of_ble_eq_true rfl⟩ hb (coff_C2_30 t h2)
  | ⟨31, _⟩ => row_of_cell c tb htb _ _ (t.val + 1) ⟨31, Nat.le_of_ble_eq_true rfl⟩ hb (coff_C2_31 t h2)
  | ⟨32, _⟩ => row_of_cell c tb htb _ _ (t.val + 1) ⟨32, Nat.le_of_ble_eq_true rfl⟩ hb (coff_C2_32 t h2)
  | ⟨33, _⟩ => row_of_cell c tb htb _ _ (t.val + 1) ⟨33, Nat.le_of_ble_eq_true rfl⟩ hb (coff_C2_33 t h2)
  | ⟨34, _⟩ => row_of_cell c tb htb _ _ (t.val + 1) ⟨34, Nat.le_of_ble_eq_true rfl⟩ hb (coff_C2_34 t h2)
  | ⟨35, _⟩ => row_of_cell c tb htb _ _ (t.val + 1) ⟨35, Nat.le_of_ble_eq_true rfl⟩ hb (coff_C2_35 t h2)
  | ⟨36, _⟩ => row_of_cell c tb htb _ _ (t.val + 1) ⟨36, Nat.le_of_ble_eq_true rfl⟩ hb (coff_C2_36 t h2)
  | ⟨37, _⟩ => row_of_cell c tb htb _ _ (t.val + 1) ⟨37, Nat.le_of_ble_eq_true rfl⟩ hb (coff_C2_37 t h2)
  | ⟨38, _⟩ => row_of_cell c tb htb _ _ (t.val + 1) ⟨38, Nat.le_of_ble_eq_true rfl⟩ hb (coff_C2_38 t h2)
  | ⟨39, _⟩ => row_of_cell c tb htb _ _ (t.val + 1) ⟨39, Nat.le_of_ble_eq_true rfl⟩ hb (coff_C2_39 t h2)
  | ⟨40, _⟩ => row_of_cell c tb htb _ _ (t.val + 1) ⟨40, Nat.le_of_ble_eq_true rfl⟩ hb (coff_C2_40 t h2)
  | ⟨41, _⟩ => row_of_cell c tb htb _ _ (t.val + 1) ⟨41, Nat.le_of_ble_eq_true rfl⟩ hb (coff_C2_41 t h2)
  | ⟨42, _⟩ => row_of_cell c tb htb _ _ (t.val + 1) ⟨42, Nat.le_of_ble_eq_true rfl⟩ hb (coff_C2_42 t h2)
  | ⟨43, _⟩ => row_of_cell c tb htb _ _ (t.val + 1) ⟨43, Nat.le_of_ble_eq_true rfl⟩ hb (coff_C2_43 t h2)
  | ⟨44, _⟩ => row_of_cell c tb htb _ _ (t.val + 1) ⟨44, Nat.le_of_ble_eq_true rfl⟩ hb (coff_C2_44 t h2)
  | ⟨45, _⟩ => row_of_cell c tb htb _ _ (t.val + 1) ⟨45, Nat.le_of_ble_eq_true rfl⟩ hb (coff_C2_45 t h2)
  | ⟨46, _⟩ => row_of_cell c tb htb _ _ (t.val + 1) ⟨46, Nat.le_of_ble_eq_true rfl⟩ hb (coff_C2_46 t h2)
  | ⟨47, _⟩ => row_of_cell c tb htb _ _ (t.val + 1) ⟨47, Nat.le_of_ble_eq_true rfl⟩ hb (coff_C2_47 t h2)
  | ⟨48, _⟩ => row_of_cell c tb htb _ _ (t.val + 1) ⟨48, Nat.le_of_ble_eq_true rfl⟩ hb (coff_C2_48 t h2)
  | ⟨49, _⟩ => row_of_cell c tb htb _ _ (t.val + 1) ⟨49, Nat.le_of_ble_eq_true rfl⟩ hb (coff_C2_49 t h2)
  | ⟨50, _⟩ => row_of_cell c tb htb _ _ (t.val + 1) ⟨50, Nat.le_of_ble_eq_true rfl⟩ hb (coff_C2_50 t h2)
  | ⟨51, _⟩ => row_of_cell c tb htb _ _ (t.val + 1) ⟨51, Nat.le_of_ble_eq_true rfl⟩ hb (coff_C2_51 t h2)
  | ⟨52, _⟩ => row_of_cell c tb htb _ _ (t.val + 1) ⟨52, Nat.le_of_ble_eq_true rfl⟩ hb (coff_C2_52 t h2)
  | ⟨53, _⟩ => row_of_cell c tb htb _ _ (t.val + 1) ⟨53, Nat.le_of_ble_eq_true rfl⟩ hb (coff_C2_53 t h2)
  | ⟨54, _⟩ => row_of_cell c tb htb _ _ (t.val + 1) ⟨54, Nat.le_of_ble_eq_true rfl⟩ hb (coff_C2_54 t h2)
  | ⟨55, _⟩ => row_of_cell c tb htb _ _ (t.val + 1) ⟨55, Nat.le_of_ble_eq_true rfl⟩ hb (coff_C2_55 t h2)
  | ⟨56, _⟩ => row_of_cell c tb htb _ _ (t.val + 1) ⟨56, Nat.le_of_ble_eq_true rfl⟩ hb (coff_C2_56 t h2)
  | ⟨57, _⟩ => row_of_cell c tb htb _ _ (t.val + 1) ⟨57, Nat.le_of_ble_eq_true rfl⟩ hb (coff_C2_57 t h2)
  | ⟨58, _⟩ => row_of_cell c tb htb _ _ (t.val + 1) ⟨58, Nat.le_of_ble_eq_true rfl⟩ hb (coff_C2_58 t h2)
  | ⟨59, _⟩ => row_of_cell c tb htb _ _ (t.val + 1) ⟨59, Nat.le_of_ble_eq_true rfl⟩ hb (coff_C2_59 t h2)
  | ⟨60, _⟩ => row_of_cell c tb htb _ _ (t.val + 1) ⟨60, Nat.le_of_ble_eq_true rfl⟩ hb (coff_C2_60 t h2)
  | ⟨61, _⟩ => row_of_cell c tb htb _ _ (t.val + 1) ⟨61, Nat.le_of_ble_eq_true rfl⟩ hb (coff_C2_61 t h2)
  | ⟨62, _⟩ => row_of_cell c tb htb _ _ (t.val + 1) ⟨62, Nat.le_of_ble_eq_true rfl⟩ hb (coff_C2_62 t h2)
  | ⟨63, _⟩ => row_of_cell c tb htb _ _ (t.val + 1) ⟨63, Nat.le_of_ble_eq_true rfl⟩ hb (coff_C2_63 t h2)
  | ⟨_ + 64, h⟩ => absurd h (Nat.not_lt.2 (Nat.le_add_left _ _))
theorem L2A_at_0 (htb : ∀ y, (tb y).toNat < 4096) (i : grid0.Coords) (h2 : k0_cond2 i = 1#1) (s : Fin 2) (hk : 0 < 64) :
    L2A c tb fa htb i h2 s ⟨0, hk⟩ = landA c s ⟨0, hk⟩ (N2 c tb i h2 ⟨0, hk⟩) (N2_lt c tb htb i h2 ⟨0, hk⟩) fa :=
  (by unfold L2A; rfl : L2A c tb fa htb i h2 s ⟨0, hk⟩ = landedJ c (s2A_0 c tb htb i h2) (rowM scA s ⟨0, Nat.le_of_ble_eq_true rfl⟩) fa).trans (landJ_A c s _ _ (N2_lt c tb htb i h2 ⟨0, hk⟩) fa)
theorem L2A_at_1 (htb : ∀ y, (tb y).toNat < 4096) (i : grid0.Coords) (h2 : k0_cond2 i = 1#1) (s : Fin 2) (hk : 1 < 64) :
    L2A c tb fa htb i h2 s ⟨1, hk⟩ = landA c s ⟨1, hk⟩ (N2 c tb i h2 ⟨1, hk⟩) (N2_lt c tb htb i h2 ⟨1, hk⟩) fa :=
  (by unfold L2A; rfl : L2A c tb fa htb i h2 s ⟨1, hk⟩ = landedJ c (s2A_1 c tb htb i h2) (rowM scA s ⟨1, Nat.le_of_ble_eq_true rfl⟩) fa).trans (landJ_A c s _ _ (N2_lt c tb htb i h2 ⟨1, hk⟩) fa)
theorem L2A_at_2 (htb : ∀ y, (tb y).toNat < 4096) (i : grid0.Coords) (h2 : k0_cond2 i = 1#1) (s : Fin 2) (hk : 2 < 64) :
    L2A c tb fa htb i h2 s ⟨2, hk⟩ = landA c s ⟨2, hk⟩ (N2 c tb i h2 ⟨2, hk⟩) (N2_lt c tb htb i h2 ⟨2, hk⟩) fa :=
  (by unfold L2A; rfl : L2A c tb fa htb i h2 s ⟨2, hk⟩ = landedJ c (s2A_2 c tb htb i h2) (rowM scA s ⟨2, Nat.le_of_ble_eq_true rfl⟩) fa).trans (landJ_A c s _ _ (N2_lt c tb htb i h2 ⟨2, hk⟩) fa)
theorem L2A_at_3 (htb : ∀ y, (tb y).toNat < 4096) (i : grid0.Coords) (h2 : k0_cond2 i = 1#1) (s : Fin 2) (hk : 3 < 64) :
    L2A c tb fa htb i h2 s ⟨3, hk⟩ = landA c s ⟨3, hk⟩ (N2 c tb i h2 ⟨3, hk⟩) (N2_lt c tb htb i h2 ⟨3, hk⟩) fa :=
  (by unfold L2A; rfl : L2A c tb fa htb i h2 s ⟨3, hk⟩ = landedJ c (s2A_3 c tb htb i h2) (rowM scA s ⟨3, Nat.le_of_ble_eq_true rfl⟩) fa).trans (landJ_A c s _ _ (N2_lt c tb htb i h2 ⟨3, hk⟩) fa)
theorem L2A_at_4 (htb : ∀ y, (tb y).toNat < 4096) (i : grid0.Coords) (h2 : k0_cond2 i = 1#1) (s : Fin 2) (hk : 4 < 64) :
    L2A c tb fa htb i h2 s ⟨4, hk⟩ = landA c s ⟨4, hk⟩ (N2 c tb i h2 ⟨4, hk⟩) (N2_lt c tb htb i h2 ⟨4, hk⟩) fa :=
  (by unfold L2A; rfl : L2A c tb fa htb i h2 s ⟨4, hk⟩ = landedJ c (s2A_4 c tb htb i h2) (rowM scA s ⟨4, Nat.le_of_ble_eq_true rfl⟩) fa).trans (landJ_A c s _ _ (N2_lt c tb htb i h2 ⟨4, hk⟩) fa)
theorem L2A_at_5 (htb : ∀ y, (tb y).toNat < 4096) (i : grid0.Coords) (h2 : k0_cond2 i = 1#1) (s : Fin 2) (hk : 5 < 64) :
    L2A c tb fa htb i h2 s ⟨5, hk⟩ = landA c s ⟨5, hk⟩ (N2 c tb i h2 ⟨5, hk⟩) (N2_lt c tb htb i h2 ⟨5, hk⟩) fa :=
  (by unfold L2A; rfl : L2A c tb fa htb i h2 s ⟨5, hk⟩ = landedJ c (s2A_5 c tb htb i h2) (rowM scA s ⟨5, Nat.le_of_ble_eq_true rfl⟩) fa).trans (landJ_A c s _ _ (N2_lt c tb htb i h2 ⟨5, hk⟩) fa)
theorem L2A_at_6 (htb : ∀ y, (tb y).toNat < 4096) (i : grid0.Coords) (h2 : k0_cond2 i = 1#1) (s : Fin 2) (hk : 6 < 64) :
    L2A c tb fa htb i h2 s ⟨6, hk⟩ = landA c s ⟨6, hk⟩ (N2 c tb i h2 ⟨6, hk⟩) (N2_lt c tb htb i h2 ⟨6, hk⟩) fa :=
  (by unfold L2A; rfl : L2A c tb fa htb i h2 s ⟨6, hk⟩ = landedJ c (s2A_6 c tb htb i h2) (rowM scA s ⟨6, Nat.le_of_ble_eq_true rfl⟩) fa).trans (landJ_A c s _ _ (N2_lt c tb htb i h2 ⟨6, hk⟩) fa)
theorem L2A_at_7 (htb : ∀ y, (tb y).toNat < 4096) (i : grid0.Coords) (h2 : k0_cond2 i = 1#1) (s : Fin 2) (hk : 7 < 64) :
    L2A c tb fa htb i h2 s ⟨7, hk⟩ = landA c s ⟨7, hk⟩ (N2 c tb i h2 ⟨7, hk⟩) (N2_lt c tb htb i h2 ⟨7, hk⟩) fa :=
  (by unfold L2A; rfl : L2A c tb fa htb i h2 s ⟨7, hk⟩ = landedJ c (s2A_7 c tb htb i h2) (rowM scA s ⟨7, Nat.le_of_ble_eq_true rfl⟩) fa).trans (landJ_A c s _ _ (N2_lt c tb htb i h2 ⟨7, hk⟩) fa)
theorem L2A_at_8 (htb : ∀ y, (tb y).toNat < 4096) (i : grid0.Coords) (h2 : k0_cond2 i = 1#1) (s : Fin 2) (hk : 8 < 64) :
    L2A c tb fa htb i h2 s ⟨8, hk⟩ = landA c s ⟨8, hk⟩ (N2 c tb i h2 ⟨8, hk⟩) (N2_lt c tb htb i h2 ⟨8, hk⟩) fa :=
  (by unfold L2A; rfl : L2A c tb fa htb i h2 s ⟨8, hk⟩ = landedJ c (s2A_8 c tb htb i h2) (rowM scA s ⟨8, Nat.le_of_ble_eq_true rfl⟩) fa).trans (landJ_A c s _ _ (N2_lt c tb htb i h2 ⟨8, hk⟩) fa)
theorem L2A_at_9 (htb : ∀ y, (tb y).toNat < 4096) (i : grid0.Coords) (h2 : k0_cond2 i = 1#1) (s : Fin 2) (hk : 9 < 64) :
    L2A c tb fa htb i h2 s ⟨9, hk⟩ = landA c s ⟨9, hk⟩ (N2 c tb i h2 ⟨9, hk⟩) (N2_lt c tb htb i h2 ⟨9, hk⟩) fa :=
  (by unfold L2A; rfl : L2A c tb fa htb i h2 s ⟨9, hk⟩ = landedJ c (s2A_9 c tb htb i h2) (rowM scA s ⟨9, Nat.le_of_ble_eq_true rfl⟩) fa).trans (landJ_A c s _ _ (N2_lt c tb htb i h2 ⟨9, hk⟩) fa)
theorem L2A_at_10 (htb : ∀ y, (tb y).toNat < 4096) (i : grid0.Coords) (h2 : k0_cond2 i = 1#1) (s : Fin 2) (hk : 10 < 64) :
    L2A c tb fa htb i h2 s ⟨10, hk⟩ = landA c s ⟨10, hk⟩ (N2 c tb i h2 ⟨10, hk⟩) (N2_lt c tb htb i h2 ⟨10, hk⟩) fa :=
  (by unfold L2A; rfl : L2A c tb fa htb i h2 s ⟨10, hk⟩ = landedJ c (s2A_10 c tb htb i h2) (rowM scA s ⟨10, Nat.le_of_ble_eq_true rfl⟩) fa).trans (landJ_A c s _ _ (N2_lt c tb htb i h2 ⟨10, hk⟩) fa)
theorem L2A_at_11 (htb : ∀ y, (tb y).toNat < 4096) (i : grid0.Coords) (h2 : k0_cond2 i = 1#1) (s : Fin 2) (hk : 11 < 64) :
    L2A c tb fa htb i h2 s ⟨11, hk⟩ = landA c s ⟨11, hk⟩ (N2 c tb i h2 ⟨11, hk⟩) (N2_lt c tb htb i h2 ⟨11, hk⟩) fa :=
  (by unfold L2A; rfl : L2A c tb fa htb i h2 s ⟨11, hk⟩ = landedJ c (s2A_11 c tb htb i h2) (rowM scA s ⟨11, Nat.le_of_ble_eq_true rfl⟩) fa).trans (landJ_A c s _ _ (N2_lt c tb htb i h2 ⟨11, hk⟩) fa)
theorem L2A_at_12 (htb : ∀ y, (tb y).toNat < 4096) (i : grid0.Coords) (h2 : k0_cond2 i = 1#1) (s : Fin 2) (hk : 12 < 64) :
    L2A c tb fa htb i h2 s ⟨12, hk⟩ = landA c s ⟨12, hk⟩ (N2 c tb i h2 ⟨12, hk⟩) (N2_lt c tb htb i h2 ⟨12, hk⟩) fa :=
  (by unfold L2A; rfl : L2A c tb fa htb i h2 s ⟨12, hk⟩ = landedJ c (s2A_12 c tb htb i h2) (rowM scA s ⟨12, Nat.le_of_ble_eq_true rfl⟩) fa).trans (landJ_A c s _ _ (N2_lt c tb htb i h2 ⟨12, hk⟩) fa)
theorem L2A_at_13 (htb : ∀ y, (tb y).toNat < 4096) (i : grid0.Coords) (h2 : k0_cond2 i = 1#1) (s : Fin 2) (hk : 13 < 64) :
    L2A c tb fa htb i h2 s ⟨13, hk⟩ = landA c s ⟨13, hk⟩ (N2 c tb i h2 ⟨13, hk⟩) (N2_lt c tb htb i h2 ⟨13, hk⟩) fa :=
  (by unfold L2A; rfl : L2A c tb fa htb i h2 s ⟨13, hk⟩ = landedJ c (s2A_13 c tb htb i h2) (rowM scA s ⟨13, Nat.le_of_ble_eq_true rfl⟩) fa).trans (landJ_A c s _ _ (N2_lt c tb htb i h2 ⟨13, hk⟩) fa)
theorem L2A_at_14 (htb : ∀ y, (tb y).toNat < 4096) (i : grid0.Coords) (h2 : k0_cond2 i = 1#1) (s : Fin 2) (hk : 14 < 64) :
    L2A c tb fa htb i h2 s ⟨14, hk⟩ = landA c s ⟨14, hk⟩ (N2 c tb i h2 ⟨14, hk⟩) (N2_lt c tb htb i h2 ⟨14, hk⟩) fa :=
  (by unfold L2A; rfl : L2A c tb fa htb i h2 s ⟨14, hk⟩ = landedJ c (s2A_14 c tb htb i h2) (rowM scA s ⟨14, Nat.le_of_ble_eq_true rfl⟩) fa).trans (landJ_A c s _ _ (N2_lt c tb htb i h2 ⟨14, hk⟩) fa)
theorem L2A_at_15 (htb : ∀ y, (tb y).toNat < 4096) (i : grid0.Coords) (h2 : k0_cond2 i = 1#1) (s : Fin 2) (hk : 15 < 64) :
    L2A c tb fa htb i h2 s ⟨15, hk⟩ = landA c s ⟨15, hk⟩ (N2 c tb i h2 ⟨15, hk⟩) (N2_lt c tb htb i h2 ⟨15, hk⟩) fa :=
  (by unfold L2A; rfl : L2A c tb fa htb i h2 s ⟨15, hk⟩ = landedJ c (s2A_15 c tb htb i h2) (rowM scA s ⟨15, Nat.le_of_ble_eq_true rfl⟩) fa).trans (landJ_A c s _ _ (N2_lt c tb htb i h2 ⟨15, hk⟩) fa)
theorem L2A_at_16 (htb : ∀ y, (tb y).toNat < 4096) (i : grid0.Coords) (h2 : k0_cond2 i = 1#1) (s : Fin 2) (hk : 16 < 64) :
    L2A c tb fa htb i h2 s ⟨16, hk⟩ = landA c s ⟨16, hk⟩ (N2 c tb i h2 ⟨16, hk⟩) (N2_lt c tb htb i h2 ⟨16, hk⟩) fa :=
  (by unfold L2A; rfl : L2A c tb fa htb i h2 s ⟨16, hk⟩ = landedJ c (s2A_16 c tb htb i h2) (rowM scA s ⟨16, Nat.le_of_ble_eq_true rfl⟩) fa).trans (landJ_A c s _ _ (N2_lt c tb htb i h2 ⟨16, hk⟩) fa)
theorem L2A_at_17 (htb : ∀ y, (tb y).toNat < 4096) (i : grid0.Coords) (h2 : k0_cond2 i = 1#1) (s : Fin 2) (hk : 17 < 64) :
    L2A c tb fa htb i h2 s ⟨17, hk⟩ = landA c s ⟨17, hk⟩ (N2 c tb i h2 ⟨17, hk⟩) (N2_lt c tb htb i h2 ⟨17, hk⟩) fa :=
  (by unfold L2A; rfl : L2A c tb fa htb i h2 s ⟨17, hk⟩ = landedJ c (s2A_17 c tb htb i h2) (rowM scA s ⟨17, Nat.le_of_ble_eq_true rfl⟩) fa).trans (landJ_A c s _ _ (N2_lt c tb htb i h2 ⟨17, hk⟩) fa)
theorem L2A_at_18 (htb : ∀ y, (tb y).toNat < 4096) (i : grid0.Coords) (h2 : k0_cond2 i = 1#1) (s : Fin 2) (hk : 18 < 64) :
    L2A c tb fa htb i h2 s ⟨18, hk⟩ = landA c s ⟨18, hk⟩ (N2 c tb i h2 ⟨18, hk⟩) (N2_lt c tb htb i h2 ⟨18, hk⟩) fa :=
  (by unfold L2A; rfl : L2A c tb fa htb i h2 s ⟨18, hk⟩ = landedJ c (s2A_18 c tb htb i h2) (rowM scA s ⟨18, Nat.le_of_ble_eq_true rfl⟩) fa).trans (landJ_A c s _ _ (N2_lt c tb htb i h2 ⟨18, hk⟩) fa)
theorem L2A_at_19 (htb : ∀ y, (tb y).toNat < 4096) (i : grid0.Coords) (h2 : k0_cond2 i = 1#1) (s : Fin 2) (hk : 19 < 64) :
    L2A c tb fa htb i h2 s ⟨19, hk⟩ = landA c s ⟨19, hk⟩ (N2 c tb i h2 ⟨19, hk⟩) (N2_lt c tb htb i h2 ⟨19, hk⟩) fa :=
  (by unfold L2A; rfl : L2A c tb fa htb i h2 s ⟨19, hk⟩ = landedJ c (s2A_19 c tb htb i h2) (rowM scA s ⟨19, Nat.le_of_ble_eq_true rfl⟩) fa).trans (landJ_A c s _ _ (N2_lt c tb htb i h2 ⟨19, hk⟩) fa)
theorem L2A_at_20 (htb : ∀ y, (tb y).toNat < 4096) (i : grid0.Coords) (h2 : k0_cond2 i = 1#1) (s : Fin 2) (hk : 20 < 64) :
    L2A c tb fa htb i h2 s ⟨20, hk⟩ = landA c s ⟨20, hk⟩ (N2 c tb i h2 ⟨20, hk⟩) (N2_lt c tb htb i h2 ⟨20, hk⟩) fa :=
  (by unfold L2A; rfl : L2A c tb fa htb i h2 s ⟨20, hk⟩ = landedJ c (s2A_20 c tb htb i h2) (rowM scA s ⟨20, Nat.le_of_ble_eq_true rfl⟩) fa).trans (landJ_A c s _ _ (N2_lt c tb htb i h2 ⟨20, hk⟩) fa)
theorem L2A_at_21 (htb : ∀ y, (tb y).toNat < 4096) (i : grid0.Coords) (h2 : k0_cond2 i = 1#1) (s : Fin 2) (hk : 21 < 64) :
    L2A c tb fa htb i h2 s ⟨21, hk⟩ = landA c s ⟨21, hk⟩ (N2 c tb i h2 ⟨21, hk⟩) (N2_lt c tb htb i h2 ⟨21, hk⟩) fa :=
  (by unfold L2A; rfl : L2A c tb fa htb i h2 s ⟨21, hk⟩ = landedJ c (s2A_21 c tb htb i h2) (rowM scA s ⟨21, Nat.le_of_ble_eq_true rfl⟩) fa).trans (landJ_A c s _ _ (N2_lt c tb htb i h2 ⟨21, hk⟩) fa)
theorem L2A_at_22 (htb : ∀ y, (tb y).toNat < 4096) (i : grid0.Coords) (h2 : k0_cond2 i = 1#1) (s : Fin 2) (hk : 22 < 64) :
    L2A c tb fa htb i h2 s ⟨22, hk⟩ = landA c s ⟨22, hk⟩ (N2 c tb i h2 ⟨22, hk⟩) (N2_lt c tb htb i h2 ⟨22, hk⟩) fa :=
  (by unfold L2A; rfl : L2A c tb fa htb i h2 s ⟨22, hk⟩ = landedJ c (s2A_22 c tb htb i h2) (rowM scA s ⟨22, Nat.le_of_ble_eq_true rfl⟩) fa).trans (landJ_A c s _ _ (N2_lt c tb htb i h2 ⟨22, hk⟩) fa)
theorem L2A_at_23 (htb : ∀ y, (tb y).toNat < 4096) (i : grid0.Coords) (h2 : k0_cond2 i = 1#1) (s : Fin 2) (hk : 23 < 64) :
    L2A c tb fa htb i h2 s ⟨23, hk⟩ = landA c s ⟨23, hk⟩ (N2 c tb i h2 ⟨23, hk⟩) (N2_lt c tb htb i h2 ⟨23, hk⟩) fa :=
  (by unfold L2A; rfl : L2A c tb fa htb i h2 s ⟨23, hk⟩ = landedJ c (s2A_23 c tb htb i h2) (rowM scA s ⟨23, Nat.le_of_ble_eq_true rfl⟩) fa).trans (landJ_A c s _ _ (N2_lt c tb htb i h2 ⟨23, hk⟩) fa)
theorem L2A_at_24 (htb : ∀ y, (tb y).toNat < 4096) (i : grid0.Coords) (h2 : k0_cond2 i = 1#1) (s : Fin 2) (hk : 24 < 64) :
    L2A c tb fa htb i h2 s ⟨24, hk⟩ = landA c s ⟨24, hk⟩ (N2 c tb i h2 ⟨24, hk⟩) (N2_lt c tb htb i h2 ⟨24, hk⟩) fa :=
  (by unfold L2A; rfl : L2A c tb fa htb i h2 s ⟨24, hk⟩ = landedJ c (s2A_24 c tb htb i h2) (rowM scA s ⟨24, Nat.le_of_ble_eq_true rfl⟩) fa).trans (landJ_A c s _ _ (N2_lt c tb htb i h2 ⟨24, hk⟩) fa)
theorem L2A_at_25 (htb : ∀ y, (tb y).toNat < 4096) (i : grid0.Coords) (h2 : k0_cond2 i = 1#1) (s : Fin 2) (hk : 25 < 64) :
    L2A c tb fa htb i h2 s ⟨25, hk⟩ = landA c s ⟨25, hk⟩ (N2 c tb i h2 ⟨25, hk⟩) (N2_lt c tb htb i h2 ⟨25, hk⟩) fa :=
  (by unfold L2A; rfl : L2A c tb fa htb i h2 s ⟨25, hk⟩ = landedJ c (s2A_25 c tb htb i h2) (rowM scA s ⟨25, Nat.le_of_ble_eq_true rfl⟩) fa).trans (landJ_A c s _ _ (N2_lt c tb htb i h2 ⟨25, hk⟩) fa)
theorem L2A_at_26 (htb : ∀ y, (tb y).toNat < 4096) (i : grid0.Coords) (h2 : k0_cond2 i = 1#1) (s : Fin 2) (hk : 26 < 64) :
    L2A c tb fa htb i h2 s ⟨26, hk⟩ = landA c s ⟨26, hk⟩ (N2 c tb i h2 ⟨26, hk⟩) (N2_lt c tb htb i h2 ⟨26, hk⟩) fa :=
  (by unfold L2A; rfl : L2A c tb fa htb i h2 s ⟨26, hk⟩ = landedJ c (s2A_26 c tb htb i h2) (rowM scA s ⟨26, Nat.le_of_ble_eq_true rfl⟩) fa).trans (landJ_A c s _ _ (N2_lt c tb htb i h2 ⟨26, hk⟩) fa)
theorem L2A_at_27 (htb : ∀ y, (tb y).toNat < 4096) (i : grid0.Coords) (h2 : k0_cond2 i = 1#1) (s : Fin 2) (hk : 27 < 64) :
    L2A c tb fa htb i h2 s ⟨27, hk⟩ = landA c s ⟨27, hk⟩ (N2 c tb i h2 ⟨27, hk⟩) (N2_lt c tb htb i h2 ⟨27, hk⟩) fa :=
  (by unfold L2A; rfl : L2A c tb fa htb i h2 s ⟨27, hk⟩ = landedJ c (s2A_27 c tb htb i h2) (rowM scA s ⟨27, Nat.le_of_ble_eq_true rfl⟩) fa).trans (landJ_A c s _ _ (N2_lt c tb htb i h2 ⟨27, hk⟩) fa)
theorem L2A_at_28 (htb : ∀ y, (tb y).toNat < 4096) (i : grid0.Coords) (h2 : k0_cond2 i = 1#1) (s : Fin 2) (hk : 28 < 64) :
    L2A c tb fa htb i h2 s ⟨28, hk⟩ = landA c s ⟨28, hk⟩ (N2 c tb i h2 ⟨28, hk⟩) (N2_lt c tb htb i h2 ⟨28, hk⟩) fa :=
  (by unfold L2A; rfl : L2A c tb fa htb i h2 s ⟨28, hk⟩ = landedJ c (s2A_28 c tb htb i h2) (rowM scA s ⟨28, Nat.le_of_ble_eq_true rfl⟩) fa).trans (landJ_A c s _ _ (N2_lt c tb htb i h2 ⟨28, hk⟩) fa)
theorem L2A_at_29 (htb : ∀ y, (tb y).toNat < 4096) (i : grid0.Coords) (h2 : k0_cond2 i = 1#1) (s : Fin 2) (hk : 29 < 64) :
    L2A c tb fa htb i h2 s ⟨29, hk⟩ = landA c s ⟨29, hk⟩ (N2 c tb i h2 ⟨29, hk⟩) (N2_lt c tb htb i h2 ⟨29, hk⟩) fa :=
  (by unfold L2A; rfl : L2A c tb fa htb i h2 s ⟨29, hk⟩ = landedJ c (s2A_29 c tb htb i h2) (rowM scA s ⟨29, Nat.le_of_ble_eq_true rfl⟩) fa).trans (landJ_A c s _ _ (N2_lt c tb htb i h2 ⟨29, hk⟩) fa)
theorem L2A_at_30 (htb : ∀ y, (tb y).toNat < 4096) (i : grid0.Coords) (h2 : k0_cond2 i = 1#1) (s : Fin 2) (hk : 30 < 64) :
    L2A c tb fa htb i h2 s ⟨30, hk⟩ = landA c s ⟨30, hk⟩ (N2 c tb i h2 ⟨30, hk⟩) (N2_lt c tb htb i h2 ⟨30, hk⟩) fa :=
  (by unfold L2A; rfl : L2A c tb fa htb i h2 s ⟨30, hk⟩ = landedJ c (s2A_30 c tb htb i h2) (rowM scA s ⟨30, Nat.le_of_ble_eq_true rfl⟩) fa).trans (landJ_A c s _ _ (N2_lt c tb htb i h2 ⟨30, hk⟩) fa)
theorem L2A_at_31 (htb : ∀ y, (tb y).toNat < 4096) (i : grid0.Coords) (h2 : k0_cond2 i = 1#1) (s : Fin 2) (hk : 31 < 64) :
    L2A c tb fa htb i h2 s ⟨31, hk⟩ = landA c s ⟨31, hk⟩ (N2 c tb i h2 ⟨31, hk⟩) (N2_lt c tb htb i h2 ⟨31, hk⟩) fa :=
  (by unfold L2A; rfl : L2A c tb fa htb i h2 s ⟨31, hk⟩ = landedJ c (s2A_31 c tb htb i h2) (rowM scA s ⟨31, Nat.le_of_ble_eq_true rfl⟩) fa).trans (landJ_A c s _ _ (N2_lt c tb htb i h2 ⟨31, hk⟩) fa)
theorem L2A_at_32 (htb : ∀ y, (tb y).toNat < 4096) (i : grid0.Coords) (h2 : k0_cond2 i = 1#1) (s : Fin 2) (hk : 32 < 64) :
    L2A c tb fa htb i h2 s ⟨32, hk⟩ = landA c s ⟨32, hk⟩ (N2 c tb i h2 ⟨32, hk⟩) (N2_lt c tb htb i h2 ⟨32, hk⟩) fa :=
  (by unfold L2A; rfl : L2A c tb fa htb i h2 s ⟨32, hk⟩ = landedJ c (s2A_32 c tb htb i h2) (rowM scA s ⟨32, Nat.le_of_ble_eq_true rfl⟩) fa).trans (landJ_A c s _ _ (N2_lt c tb htb i h2 ⟨32, hk⟩) fa)
theorem L2A_at_33 (htb : ∀ y, (tb y).toNat < 4096) (i : grid0.Coords) (h2 : k0_cond2 i = 1#1) (s : Fin 2) (hk : 33 < 64) :
    L2A c tb fa htb i h2 s ⟨33, hk⟩ = landA c s ⟨33, hk⟩ (N2 c tb i h2 ⟨33, hk⟩) (N2_lt c tb htb i h2 ⟨33, hk⟩) fa :=
  (by unfold L2A; rfl : L2A c tb fa htb i h2 s ⟨33, hk⟩ = landedJ c (s2A_33 c tb htb i h2) (rowM scA s ⟨33, Nat.le_of_ble_eq_true rfl⟩) fa).trans (landJ_A c s _ _ (N2_lt c tb htb i h2 ⟨33, hk⟩) fa)
theorem L2A_at_34 (htb : ∀ y, (tb y).toNat < 4096) (i : grid0.Coords) (h2 : k0_cond2 i = 1#1) (s : Fin 2) (hk : 34 < 64) :
    L2A c tb fa htb i h2 s ⟨34, hk⟩ = landA c s ⟨34, hk⟩ (N2 c tb i h2 ⟨34, hk⟩) (N2_lt c tb htb i h2 ⟨34, hk⟩) fa :=
  (by unfold L2A; rfl : L2A c tb fa htb i h2 s ⟨34, hk⟩ = landedJ c (s2A_34 c tb htb i h2) (rowM scA s ⟨34, Nat.le_of_ble_eq_true rfl⟩) fa).trans (landJ_A c s _ _ (N2_lt c tb htb i h2 ⟨34, hk⟩) fa)
theorem L2A_at_35 (htb : ∀ y, (tb y).toNat < 4096) (i : grid0.Coords) (h2 : k0_cond2 i = 1#1) (s : Fin 2) (hk : 35 < 64) :
    L2A c tb fa htb i h2 s ⟨35, hk⟩ = landA c s ⟨35, hk⟩ (N2 c tb i h2 ⟨35, hk⟩) (N2_lt c tb htb i h2 ⟨35, hk⟩) fa :=
  (by unfold L2A; rfl : L2A c tb fa htb i h2 s ⟨35, hk⟩ = landedJ c (s2A_35 c tb htb i h2) (rowM scA s ⟨35, Nat.le_of_ble_eq_true rfl⟩) fa).trans (landJ_A c s _ _ (N2_lt c tb htb i h2 ⟨35, hk⟩) fa)
theorem L2A_at_36 (htb : ∀ y, (tb y).toNat < 4096) (i : grid0.Coords) (h2 : k0_cond2 i = 1#1) (s : Fin 2) (hk : 36 < 64) :
    L2A c tb fa htb i h2 s ⟨36, hk⟩ = landA c s ⟨36, hk⟩ (N2 c tb i h2 ⟨36, hk⟩) (N2_lt c tb htb i h2 ⟨36, hk⟩) fa :=
  (by unfold L2A; rfl : L2A c tb fa htb i h2 s ⟨36, hk⟩ = landedJ c (s2A_36 c tb htb i h2) (rowM scA s ⟨36, Nat.le_of_ble_eq_true rfl⟩) fa).trans (landJ_A c s _ _ (N2_lt c tb htb i h2 ⟨36, hk⟩) fa)
theorem L2A_at_37 (htb : ∀ y, (tb y).toNat < 4096) (i : grid0.Coords) (h2 : k0_cond2 i = 1#1) (s : Fin 2) (hk : 37 < 64) :
    L2A c tb fa htb i h2 s ⟨37, hk⟩ = landA c s ⟨37, hk⟩ (N2 c tb i h2 ⟨37, hk⟩) (N2_lt c tb htb i h2 ⟨37, hk⟩) fa :=
  (by unfold L2A; rfl : L2A c tb fa htb i h2 s ⟨37, hk⟩ = landedJ c (s2A_37 c tb htb i h2) (rowM scA s ⟨37, Nat.le_of_ble_eq_true rfl⟩) fa).trans (landJ_A c s _ _ (N2_lt c tb htb i h2 ⟨37, hk⟩) fa)
theorem L2A_at_38 (htb : ∀ y, (tb y).toNat < 4096) (i : grid0.Coords) (h2 : k0_cond2 i = 1#1) (s : Fin 2) (hk : 38 < 64) :
    L2A c tb fa htb i h2 s ⟨38, hk⟩ = landA c s ⟨38, hk⟩ (N2 c tb i h2 ⟨38, hk⟩) (N2_lt c tb htb i h2 ⟨38, hk⟩) fa :=
  (by unfold L2A; rfl : L2A c tb fa htb i h2 s ⟨38, hk⟩ = landedJ c (s2A_38 c tb htb i h2) (rowM scA s ⟨38, Nat.le_of_ble_eq_true rfl⟩) fa).trans (landJ_A c s _ _ (N2_lt c tb htb i h2 ⟨38, hk⟩) fa)
theorem L2A_at_39 (htb : ∀ y, (tb y).toNat < 4096) (i : grid0.Coords) (h2 : k0_cond2 i = 1#1) (s : Fin 2) (hk : 39 < 64) :
    L2A c tb fa htb i h2 s ⟨39, hk⟩ = landA c s ⟨39, hk⟩ (N2 c tb i h2 ⟨39, hk⟩) (N2_lt c tb htb i h2 ⟨39, hk⟩) fa :=
  (by unfold L2A; rfl : L2A c tb fa htb i h2 s ⟨39, hk⟩ = landedJ c (s2A_39 c tb htb i h2) (rowM scA s ⟨39, Nat.le_of_ble_eq_true rfl⟩) fa).trans (landJ_A c s _ _ (N2_lt c tb htb i h2 ⟨39, hk⟩) fa)
theorem L2A_at_40 (htb : ∀ y, (tb y).toNat < 4096) (i : grid0.Coords) (h2 : k0_cond2 i = 1#1) (s : Fin 2) (hk : 40 < 64) :
    L2A c tb fa htb i h2 s ⟨40, hk⟩ = landA c s ⟨40, hk⟩ (N2 c tb i h2 ⟨40, hk⟩) (N2_lt c tb htb i h2 ⟨40, hk⟩) fa :=
  (by unfold L2A; rfl : L2A c tb fa htb i h2 s ⟨40, hk⟩ = landedJ c (s2A_40 c tb htb i h2) (rowM scA s ⟨40, Nat.le_of_ble_eq_true rfl⟩) fa).trans (landJ_A c s _ _ (N2_lt c tb htb i h2 ⟨40, hk⟩) fa)
theorem L2A_at_41 (htb : ∀ y, (tb y).toNat < 4096) (i : grid0.Coords) (h2 : k0_cond2 i = 1#1) (s : Fin 2) (hk : 41 < 64) :
    L2A c tb fa htb i h2 s ⟨41, hk⟩ = landA c s ⟨41, hk⟩ (N2 c tb i h2 ⟨41, hk⟩) (N2_lt c tb htb i h2 ⟨41, hk⟩) fa :=
  (by unfold L2A; rfl : L2A c tb fa htb i h2 s ⟨41, hk⟩ = landedJ c (s2A_41 c tb htb i h2) (rowM scA s ⟨41, Nat.le_of_ble_eq_true rfl⟩) fa).trans (landJ_A c s _ _ (N2_lt c tb htb i h2 ⟨41, hk⟩) fa)
theorem L2A_at_42 (htb : ∀ y, (tb y).toNat < 4096) (i : grid0.Coords) (h2 : k0_cond2 i = 1#1) (s : Fin 2) (hk : 42 < 64) :
    L2A c tb fa htb i h2 s ⟨42, hk⟩ = landA c s ⟨42, hk⟩ (N2 c tb i h2 ⟨42, hk⟩) (N2_lt c tb htb i h2 ⟨42, hk⟩) fa :=
  (by unfold L2A; rfl : L2A c tb fa htb i h2 s ⟨42, hk⟩ = landedJ c (s2A_42 c tb htb i h2) (rowM scA s ⟨42, Nat.le_of_ble_eq_true rfl⟩) fa).trans (landJ_A c s _ _ (N2_lt c tb htb i h2 ⟨42, hk⟩) fa)
theorem L2A_at_43 (htb : ∀ y, (tb y).toNat < 4096) (i : grid0.Coords) (h2 : k0_cond2 i = 1#1) (s : Fin 2) (hk : 43 < 64) :
    L2A c tb fa htb i h2 s ⟨43, hk⟩ = landA c s ⟨43, hk⟩ (N2 c tb i h2 ⟨43, hk⟩) (N2_lt c tb htb i h2 ⟨43, hk⟩) fa :=
  (by unfold L2A; rfl : L2A c tb fa htb i h2 s ⟨43, hk⟩ = landedJ c (s2A_43 c tb htb i h2) (rowM scA s ⟨43, Nat.le_of_ble_eq_true rfl⟩) fa).trans (landJ_A c s _ _ (N2_lt c tb htb i h2 ⟨43, hk⟩) fa)
theorem L2A_at_44 (htb : ∀ y, (tb y).toNat < 4096) (i : grid0.Coords) (h2 : k0_cond2 i = 1#1) (s : Fin 2) (hk : 44 < 64) :
    L2A c tb fa htb i h2 s ⟨44, hk⟩ = landA c s ⟨44, hk⟩ (N2 c tb i h2 ⟨44, hk⟩) (N2_lt c tb htb i h2 ⟨44, hk⟩) fa :=
  (by unfold L2A; rfl : L2A c tb fa htb i h2 s ⟨44, hk⟩ = landedJ c (s2A_44 c tb htb i h2) (rowM scA s ⟨44, Nat.le_of_ble_eq_true rfl⟩) fa).trans (landJ_A c s _ _ (N2_lt c tb htb i h2 ⟨44, hk⟩) fa)
theorem L2A_at_45 (htb : ∀ y, (tb y).toNat < 4096) (i : grid0.Coords) (h2 : k0_cond2 i = 1#1) (s : Fin 2) (hk : 45 < 64) :
    L2A c tb fa htb i h2 s ⟨45, hk⟩ = landA c s ⟨45, hk⟩ (N2 c tb i h2 ⟨45, hk⟩) (N2_lt c tb htb i h2 ⟨45, hk⟩) fa :=
  (by unfold L2A; rfl : L2A c tb fa htb i h2 s ⟨45, hk⟩ = landedJ c (s2A_45 c tb htb i h2) (rowM scA s ⟨45, Nat.le_of_ble_eq_true rfl⟩) fa).trans (landJ_A c s _ _ (N2_lt c tb htb i h2 ⟨45, hk⟩) fa)
theorem L2A_at_46 (htb : ∀ y, (tb y).toNat < 4096) (i : grid0.Coords) (h2 : k0_cond2 i = 1#1) (s : Fin 2) (hk : 46 < 64) :
    L2A c tb fa htb i h2 s ⟨46, hk⟩ = landA c s ⟨46, hk⟩ (N2 c tb i h2 ⟨46, hk⟩) (N2_lt c tb htb i h2 ⟨46, hk⟩) fa :=
  (by unfold L2A; rfl : L2A c tb fa htb i h2 s ⟨46, hk⟩ = landedJ c (s2A_46 c tb htb i h2) (rowM scA s ⟨46, Nat.le_of_ble_eq_true rfl⟩) fa).trans (landJ_A c s _ _ (N2_lt c tb htb i h2 ⟨46, hk⟩) fa)
theorem L2A_at_47 (htb : ∀ y, (tb y).toNat < 4096) (i : grid0.Coords) (h2 : k0_cond2 i = 1#1) (s : Fin 2) (hk : 47 < 64) :
    L2A c tb fa htb i h2 s ⟨47, hk⟩ = landA c s ⟨47, hk⟩ (N2 c tb i h2 ⟨47, hk⟩) (N2_lt c tb htb i h2 ⟨47, hk⟩) fa :=
  (by unfold L2A; rfl : L2A c tb fa htb i h2 s ⟨47, hk⟩ = landedJ c (s2A_47 c tb htb i h2) (rowM scA s ⟨47, Nat.le_of_ble_eq_true rfl⟩) fa).trans (landJ_A c s _ _ (N2_lt c tb htb i h2 ⟨47, hk⟩) fa)
theorem L2A_at_48 (htb : ∀ y, (tb y).toNat < 4096) (i : grid0.Coords) (h2 : k0_cond2 i = 1#1) (s : Fin 2) (hk : 48 < 64) :
    L2A c tb fa htb i h2 s ⟨48, hk⟩ = landA c s ⟨48, hk⟩ (N2 c tb i h2 ⟨48, hk⟩) (N2_lt c tb htb i h2 ⟨48, hk⟩) fa :=
  (by unfold L2A; rfl : L2A c tb fa htb i h2 s ⟨48, hk⟩ = landedJ c (s2A_48 c tb htb i h2) (rowM scA s ⟨48, Nat.le_of_ble_eq_true rfl⟩) fa).trans (landJ_A c s _ _ (N2_lt c tb htb i h2 ⟨48, hk⟩) fa)
theorem L2A_at_49 (htb : ∀ y, (tb y).toNat < 4096) (i : grid0.Coords) (h2 : k0_cond2 i = 1#1) (s : Fin 2) (hk : 49 < 64) :
    L2A c tb fa htb i h2 s ⟨49, hk⟩ = landA c s ⟨49, hk⟩ (N2 c tb i h2 ⟨49, hk⟩) (N2_lt c tb htb i h2 ⟨49, hk⟩) fa :=
  (by unfold L2A; rfl : L2A c tb fa htb i h2 s ⟨49, hk⟩ = landedJ c (s2A_49 c tb htb i h2) (rowM scA s ⟨49, Nat.le_of_ble_eq_true rfl⟩) fa).trans (landJ_A c s _ _ (N2_lt c tb htb i h2 ⟨49, hk⟩) fa)
theorem L2A_at_50 (htb : ∀ y, (tb y).toNat < 4096) (i : grid0.Coords) (h2 : k0_cond2 i = 1#1) (s : Fin 2) (hk : 50 < 64) :
    L2A c tb fa htb i h2 s ⟨50, hk⟩ = landA c s ⟨50, hk⟩ (N2 c tb i h2 ⟨50, hk⟩) (N2_lt c tb htb i h2 ⟨50, hk⟩) fa :=
  (by unfold L2A; rfl : L2A c tb fa htb i h2 s ⟨50, hk⟩ = landedJ c (s2A_50 c tb htb i h2) (rowM scA s ⟨50, Nat.le_of_ble_eq_true rfl⟩) fa).trans (landJ_A c s _ _ (N2_lt c tb htb i h2 ⟨50, hk⟩) fa)
theorem L2A_at_51 (htb : ∀ y, (tb y).toNat < 4096) (i : grid0.Coords) (h2 : k0_cond2 i = 1#1) (s : Fin 2) (hk : 51 < 64) :
    L2A c tb fa htb i h2 s ⟨51, hk⟩ = landA c s ⟨51, hk⟩ (N2 c tb i h2 ⟨51, hk⟩) (N2_lt c tb htb i h2 ⟨51, hk⟩) fa :=
  (by unfold L2A; rfl : L2A c tb fa htb i h2 s ⟨51, hk⟩ = landedJ c (s2A_51 c tb htb i h2) (rowM scA s ⟨51, Nat.le_of_ble_eq_true rfl⟩) fa).trans (landJ_A c s _ _ (N2_lt c tb htb i h2 ⟨51, hk⟩) fa)
theorem L2A_at_52 (htb : ∀ y, (tb y).toNat < 4096) (i : grid0.Coords) (h2 : k0_cond2 i = 1#1) (s : Fin 2) (hk : 52 < 64) :
    L2A c tb fa htb i h2 s ⟨52, hk⟩ = landA c s ⟨52, hk⟩ (N2 c tb i h2 ⟨52, hk⟩) (N2_lt c tb htb i h2 ⟨52, hk⟩) fa :=
  (by unfold L2A; rfl : L2A c tb fa htb i h2 s ⟨52, hk⟩ = landedJ c (s2A_52 c tb htb i h2) (rowM scA s ⟨52, Nat.le_of_ble_eq_true rfl⟩) fa).trans (landJ_A c s _ _ (N2_lt c tb htb i h2 ⟨52, hk⟩) fa)
theorem L2A_at_53 (htb : ∀ y, (tb y).toNat < 4096) (i : grid0.Coords) (h2 : k0_cond2 i = 1#1) (s : Fin 2) (hk : 53 < 64) :
    L2A c tb fa htb i h2 s ⟨53, hk⟩ = landA c s ⟨53, hk⟩ (N2 c tb i h2 ⟨53, hk⟩) (N2_lt c tb htb i h2 ⟨53, hk⟩) fa :=
  (by unfold L2A; rfl : L2A c tb fa htb i h2 s ⟨53, hk⟩ = landedJ c (s2A_53 c tb htb i h2) (rowM scA s ⟨53, Nat.le_of_ble_eq_true rfl⟩) fa).trans (landJ_A c s _ _ (N2_lt c tb htb i h2 ⟨53, hk⟩) fa)
theorem L2A_at_54 (htb : ∀ y, (tb y).toNat < 4096) (i : grid0.Coords) (h2 : k0_cond2 i = 1#1) (s : Fin 2) (hk : 54 < 64) :
    L2A c tb fa htb i h2 s ⟨54, hk⟩ = landA c s ⟨54, hk⟩ (N2 c tb i h2 ⟨54, hk⟩) (N2_lt c tb htb i h2 ⟨54, hk⟩) fa :=
  (by unfold L2A; rfl : L2A c tb fa htb i h2 s ⟨54, hk⟩ = landedJ c (s2A_54 c tb htb i h2) (rowM scA s ⟨54, Nat.le_of_ble_eq_true rfl⟩) fa).trans (landJ_A c s _ _ (N2_lt c tb htb i h2 ⟨54, hk⟩) fa)
theorem L2A_at_55 (htb : ∀ y, (tb y).toNat < 4096) (i : grid0.Coords) (h2 : k0_cond2 i = 1#1) (s : Fin 2) (hk : 55 < 64) :
    L2A c tb fa htb i h2 s ⟨55, hk⟩ = landA c s ⟨55, hk⟩ (N2 c tb i h2 ⟨55, hk⟩) (N2_lt c tb htb i h2 ⟨55, hk⟩) fa :=
  (by unfold L2A; rfl : L2A c tb fa htb i h2 s ⟨55, hk⟩ = landedJ c (s2A_55 c tb htb i h2) (rowM scA s ⟨55, Nat.le_of_ble_eq_true rfl⟩) fa).trans (landJ_A c s _ _ (N2_lt c tb htb i h2 ⟨55, hk⟩) fa)
theorem L2A_at_56 (htb : ∀ y, (tb y).toNat < 4096) (i : grid0.Coords) (h2 : k0_cond2 i = 1#1) (s : Fin 2) (hk : 56 < 64) :
    L2A c tb fa htb i h2 s ⟨56, hk⟩ = landA c s ⟨56, hk⟩ (N2 c tb i h2 ⟨56, hk⟩) (N2_lt c tb htb i h2 ⟨56, hk⟩) fa :=
  (by unfold L2A; rfl : L2A c tb fa htb i h2 s ⟨56, hk⟩ = landedJ c (s2A_56 c tb htb i h2) (rowM scA s ⟨56, Nat.le_of_ble_eq_true rfl⟩) fa).trans (landJ_A c s _ _ (N2_lt c tb htb i h2 ⟨56, hk⟩) fa)
theorem L2A_at_57 (htb : ∀ y, (tb y).toNat < 4096) (i : grid0.Coords) (h2 : k0_cond2 i = 1#1) (s : Fin 2) (hk : 57 < 64) :
    L2A c tb fa htb i h2 s ⟨57, hk⟩ = landA c s ⟨57, hk⟩ (N2 c tb i h2 ⟨57, hk⟩) (N2_lt c tb htb i h2 ⟨57, hk⟩) fa :=
  (by unfold L2A; rfl : L2A c tb fa htb i h2 s ⟨57, hk⟩ = landedJ c (s2A_57 c tb htb i h2) (rowM scA s ⟨57, Nat.le_of_ble_eq_true rfl⟩) fa).trans (landJ_A c s _ _ (N2_lt c tb htb i h2 ⟨57, hk⟩) fa)
theorem L2A_at_58 (htb : ∀ y, (tb y).toNat < 4096) (i : grid0.Coords) (h2 : k0_cond2 i = 1#1) (s : Fin 2) (hk : 58 < 64) :
    L2A c tb fa htb i h2 s ⟨58, hk⟩ = landA c s ⟨58, hk⟩ (N2 c tb i h2 ⟨58, hk⟩) (N2_lt c tb htb i h2 ⟨58, hk⟩) fa :=
  (by unfold L2A; rfl : L2A c tb fa htb i h2 s ⟨58, hk⟩ = landedJ c (s2A_58 c tb htb i h2) (rowM scA s ⟨58, Nat.le_of_ble_eq_true rfl⟩) fa).trans (landJ_A c s _ _ (N2_lt c tb htb i h2 ⟨58, hk⟩) fa)
theorem L2A_at_59 (htb : ∀ y, (tb y).toNat < 4096) (i : grid0.Coords) (h2 : k0_cond2 i = 1#1) (s : Fin 2) (hk : 59 < 64) :
    L2A c tb fa htb i h2 s ⟨59, hk⟩ = landA c s ⟨59, hk⟩ (N2 c tb i h2 ⟨59, hk⟩) (N2_lt c tb htb i h2 ⟨59, hk⟩) fa :=
  (by unfold L2A; rfl : L2A c tb fa htb i h2 s ⟨59, hk⟩ = landedJ c (s2A_59 c tb htb i h2) (rowM scA s ⟨59, Nat.le_of_ble_eq_true rfl⟩) fa).trans (landJ_A c s _ _ (N2_lt c tb htb i h2 ⟨59, hk⟩) fa)
theorem L2A_at_60 (htb : ∀ y, (tb y).toNat < 4096) (i : grid0.Coords) (h2 : k0_cond2 i = 1#1) (s : Fin 2) (hk : 60 < 64) :
    L2A c tb fa htb i h2 s ⟨60, hk⟩ = landA c s ⟨60, hk⟩ (N2 c tb i h2 ⟨60, hk⟩) (N2_lt c tb htb i h2 ⟨60, hk⟩) fa :=
  (by unfold L2A; rfl : L2A c tb fa htb i h2 s ⟨60, hk⟩ = landedJ c (s2A_60 c tb htb i h2) (rowM scA s ⟨60, Nat.le_of_ble_eq_true rfl⟩) fa).trans (landJ_A c s _ _ (N2_lt c tb htb i h2 ⟨60, hk⟩) fa)
theorem L2A_at_61 (htb : ∀ y, (tb y).toNat < 4096) (i : grid0.Coords) (h2 : k0_cond2 i = 1#1) (s : Fin 2) (hk : 61 < 64) :
    L2A c tb fa htb i h2 s ⟨61, hk⟩ = landA c s ⟨61, hk⟩ (N2 c tb i h2 ⟨61, hk⟩) (N2_lt c tb htb i h2 ⟨61, hk⟩) fa :=
  (by unfold L2A; rfl : L2A c tb fa htb i h2 s ⟨61, hk⟩ = landedJ c (s2A_61 c tb htb i h2) (rowM scA s ⟨61, Nat.le_of_ble_eq_true rfl⟩) fa).trans (landJ_A c s _ _ (N2_lt c tb htb i h2 ⟨61, hk⟩) fa)
theorem L2A_at_62 (htb : ∀ y, (tb y).toNat < 4096) (i : grid0.Coords) (h2 : k0_cond2 i = 1#1) (s : Fin 2) (hk : 62 < 64) :
    L2A c tb fa htb i h2 s ⟨62, hk⟩ = landA c s ⟨62, hk⟩ (N2 c tb i h2 ⟨62, hk⟩) (N2_lt c tb htb i h2 ⟨62, hk⟩) fa :=
  (by unfold L2A; rfl : L2A c tb fa htb i h2 s ⟨62, hk⟩ = landedJ c (s2A_62 c tb htb i h2) (rowM scA s ⟨62, Nat.le_of_ble_eq_true rfl⟩) fa).trans (landJ_A c s _ _ (N2_lt c tb htb i h2 ⟨62, hk⟩) fa)
theorem L2A_at_63 (htb : ∀ y, (tb y).toNat < 4096) (i : grid0.Coords) (h2 : k0_cond2 i = 1#1) (s : Fin 2) (hk : 63 < 64) :
    L2A c tb fa htb i h2 s ⟨63, hk⟩ = landA c s ⟨63, hk⟩ (N2 c tb i h2 ⟨63, hk⟩) (N2_lt c tb htb i h2 ⟨63, hk⟩) fa :=
  (by unfold L2A; rfl : L2A c tb fa htb i h2 s ⟨63, hk⟩ = landedJ c (s2A_63 c tb htb i h2) (rowM scA s ⟨63, Nat.le_of_ble_eq_true rfl⟩) fa).trans (landJ_A c s _ _ (N2_lt c tb htb i h2 ⟨63, hk⟩) fa)
/-- Each of the 64 landed contents of fetch 2, array A, is the generic landed row at its row number. -/
theorem L2A_at (htb : ∀ y, (tb y).toNat < 4096) (i : grid0.Coords) (h2 : k0_cond2 i = 1#1) (s : Fin 2) : ∀ r : Fin 64, L2A c tb fa htb i h2 s r = landA c s r (N2 c tb i h2 r) (N2_lt c tb htb i h2 r) fa
  | ⟨0, hk⟩ => L2A_at_0 c tb fa htb i h2 s hk
  | ⟨1, hk⟩ => L2A_at_1 c tb fa htb i h2 s hk
  | ⟨2, hk⟩ => L2A_at_2 c tb fa htb i h2 s hk
  | ⟨3, hk⟩ => L2A_at_3 c tb fa htb i h2 s hk
  | ⟨4, hk⟩ => L2A_at_4 c tb fa htb i h2 s hk
  | ⟨5, hk⟩ => L2A_at_5 c tb fa htb i h2 s hk
  | ⟨6, hk⟩ => L2A_at_6 c tb fa htb i h2 s hk
  | ⟨7, hk⟩ => L2A_at_7 c tb fa htb i h2 s hk
  | ⟨8, hk⟩ => L2A_at_8 c tb fa htb i h2 s hk
  | ⟨9, hk⟩ => L2A_at_9 c tb fa htb i h2 s hk
  | ⟨10, hk⟩ => L2A_at_10 c tb fa htb i h2 s hk
  | ⟨11, hk⟩ => L2A_at_11 c tb fa htb i h2 s hk
  | ⟨12, hk⟩ => L2A_at_12 c tb fa htb i h2 s hk
  | ⟨13, hk⟩ => L2A_at_13 c tb fa htb i h2 s hk
  | ⟨14, hk⟩ => L2A_at_14 c tb fa htb i h2 s hk
  | ⟨15, hk⟩ => L2A_at_15 c tb fa htb i h2 s hk
  | ⟨16, hk⟩ => L2A_at_16 c tb fa htb i h2 s hk
  | ⟨17, hk⟩ => L2A_at_17 c tb fa htb i h2 s hk
  | ⟨18, hk⟩ => L2A_at_18 c tb fa htb i h2 s hk
  | ⟨19, hk⟩ => L2A_at_19 c tb fa htb i h2 s hk
  | ⟨20, hk⟩ => L2A_at_20 c tb fa htb i h2 s hk
  | ⟨21, hk⟩ => L2A_at_21 c tb fa htb i h2 s hk
  | ⟨22, hk⟩ => L2A_at_22 c tb fa htb i h2 s hk
  | ⟨23, hk⟩ => L2A_at_23 c tb fa htb i h2 s hk
  | ⟨24, hk⟩ => L2A_at_24 c tb fa htb i h2 s hk
  | ⟨25, hk⟩ => L2A_at_25 c tb fa htb i h2 s hk
  | ⟨26, hk⟩ => L2A_at_26 c tb fa htb i h2 s hk
  | ⟨27, hk⟩ => L2A_at_27 c tb fa htb i h2 s hk
  | ⟨28, hk⟩ => L2A_at_28 c tb fa htb i h2 s hk
  | ⟨29, hk⟩ => L2A_at_29 c tb fa htb i h2 s hk
  | ⟨30, hk⟩ => L2A_at_30 c tb fa htb i h2 s hk
  | ⟨31, hk⟩ => L2A_at_31 c tb fa htb i h2 s hk
  | ⟨32, hk⟩ => L2A_at_32 c tb fa htb i h2 s hk
  | ⟨33, hk⟩ => L2A_at_33 c tb fa htb i h2 s hk
  | ⟨34, hk⟩ => L2A_at_34 c tb fa htb i h2 s hk
  | ⟨35, hk⟩ => L2A_at_35 c tb fa htb i h2 s hk
  | ⟨36, hk⟩ => L2A_at_36 c tb fa htb i h2 s hk
  | ⟨37, hk⟩ => L2A_at_37 c tb fa htb i h2 s hk
  | ⟨38, hk⟩ => L2A_at_38 c tb fa htb i h2 s hk
  | ⟨39, hk⟩ => L2A_at_39 c tb fa htb i h2 s hk
  | ⟨40, hk⟩ => L2A_at_40 c tb fa htb i h2 s hk
  | ⟨41, hk⟩ => L2A_at_41 c tb fa htb i h2 s hk
  | ⟨42, hk⟩ => L2A_at_42 c tb fa htb i h2 s hk
  | ⟨43, hk⟩ => L2A_at_43 c tb fa htb i h2 s hk
  | ⟨44, hk⟩ => L2A_at_44 c tb fa htb i h2 s hk
  | ⟨45, hk⟩ => L2A_at_45 c tb fa htb i h2 s hk
  | ⟨46, hk⟩ => L2A_at_46 c tb fa htb i h2 s hk
  | ⟨47, hk⟩ => L2A_at_47 c tb fa htb i h2 s hk
  | ⟨48, hk⟩ => L2A_at_48 c tb fa htb i h2 s hk
  | ⟨49, hk⟩ => L2A_at_49 c tb fa htb i h2 s hk
  | ⟨50, hk⟩ => L2A_at_50 c tb fa htb i h2 s hk
  | ⟨51, hk⟩ => L2A_at_51 c tb fa htb i h2 s hk
  | ⟨52, hk⟩ => L2A_at_52 c tb fa htb i h2 s hk
  | ⟨53, hk⟩ => L2A_at_53 c tb fa htb i h2 s hk
  | ⟨54, hk⟩ => L2A_at_54 c tb fa htb i h2 s hk
  | ⟨55, hk⟩ => L2A_at_55 c tb fa htb i h2 s hk
  | ⟨56, hk⟩ => L2A_at_56 c tb fa htb i h2 s hk
  | ⟨57, hk⟩ => L2A_at_57 c tb fa htb i h2 s hk
  | ⟨58, hk⟩ => L2A_at_58 c tb fa htb i h2 s hk
  | ⟨59, hk⟩ => L2A_at_59 c tb fa htb i h2 s hk
  | ⟨60, hk⟩ => L2A_at_60 c tb fa htb i h2 s hk
  | ⟨61, hk⟩ => L2A_at_61 c tb fa htb i h2 s hk
  | ⟨62, hk⟩ => L2A_at_62 c tb fa htb i h2 s hk
  | ⟨63, hk⟩ => L2A_at_63 c tb fa htb i h2 s hk
  | ⟨_ + 64, h⟩ => absurd h (Nat.not_lt.2 (Nat.le_add_left _ _))
/-- Slot s of array A's scratch, read whole once the copies of fetch 2 of grid point t have landed, is the gathered rows. -/
theorem read2A (htb : ∀ y, (tb y).toNat < 4096) (t : Fin grid0.N) (h2 : k0_cond2 (grid0.coords t) = 1#1) (hb : (t.val + 1) < 32) (s : Fin 2) :
    scA.view.readAt (Elt F) (Rect.unit (s := S2x8x64x1024) ![s.val, 0, 0, 0] S1x8x64x1024.size (inb_slot s)).toLoadRect (glue_A c (L2A c tb fa htb (grid0.coords t) h2 s)) = gath fa (rowsOf tb (t.val + 1)) :=
  (read_landA c s (N2 c tb (grid0.coords t) h2) (N2_lt c tb htb (grid0.coords t) h2) fa (L2A c tb fa htb (grid0.coords t) h2 s) (L2A_at c tb fa htb (grid0.coords t) h2 s)).trans
    (congrArg (gath fa) (funext (rows2_eq c tb htb t h2 hb)))
theorem L2B_at_0 (htb : ∀ y, (tb y).toNat < 4096) (i : grid0.Coords) (h2 : k0_cond2 i = 1#1) (s : Fin 2) (hk : 0 < 64) :
    L2B c tb fb htb i h2 s ⟨0, hk⟩ = landB c s ⟨0, hk⟩ (N2 c tb i h2 ⟨0, hk⟩) (N2_lt c tb htb i h2 ⟨0, hk⟩) fb :=
  (by unfold L2B; rfl : L2B c tb fb htb i h2 s ⟨0, hk⟩ = landedJ c (s2B_0 c tb htb i h2) (rowM scB s ⟨0, Nat.le_of_ble_eq_true rfl⟩) fb).trans (landJ_B c s _ _ (N2_lt c tb htb i h2 ⟨0, hk⟩) fb)
theorem L2B_at_1 (htb : ∀ y, (tb y).toNat < 4096) (i : grid0.Coords) (h2 : k0_cond2 i = 1#1) (s : Fin 2) (hk : 1 < 64) :
    L2B c tb fb htb i h2 s ⟨1, hk⟩ = landB c s ⟨1, hk⟩ (N2 c tb i h2 ⟨1, hk⟩) (N2_lt c tb htb i h2 ⟨1, hk⟩) fb :=
  (by unfold L2B; rfl : L2B c tb fb htb i h2 s ⟨1, hk⟩ = landedJ c (s2B_1 c tb htb i h2) (rowM scB s ⟨1, Nat.le_of_ble_eq_true rfl⟩) fb).trans (landJ_B c s _ _ (N2_lt c tb htb i h2 ⟨1, hk⟩) fb)
theorem L2B_at_2 (htb : ∀ y, (tb y).toNat < 4096) (i : grid0.Coords) (h2 : k0_cond2 i = 1#1) (s : Fin 2) (hk : 2 < 64) :
    L2B c tb fb htb i h2 s ⟨2, hk⟩ = landB c s ⟨2, hk⟩ (N2 c tb i h2 ⟨2, hk⟩) (N2_lt c tb htb i h2 ⟨2, hk⟩) fb :=
  (by unfold L2B; rfl : L2B c tb fb htb i h2 s ⟨2, hk⟩ = landedJ c (s2B_2 c tb htb i h2) (rowM scB s ⟨2, Nat.le_of_ble_eq_true rfl⟩) fb).trans (landJ_B c s _ _ (N2_lt c tb htb i h2 ⟨2, hk⟩) fb)
theorem L2B_at_3 (htb : ∀ y, (tb y).toNat < 4096) (i : grid0.Coords) (h2 : k0_cond2 i = 1#1) (s : Fin 2) (hk : 3 < 64) :
    L2B c tb fb htb i h2 s ⟨3, hk⟩ = landB c s ⟨3, hk⟩ (N2 c tb i h2 ⟨3, hk⟩) (N2_lt c tb htb i h2 ⟨3, hk⟩) fb :=
  (by unfold L2B; rfl : L2B c tb fb htb i h2 s ⟨3, hk⟩ = landedJ c (s2B_3 c tb htb i h2) (rowM scB s ⟨3, Nat.le_of_ble_eq_true rfl⟩) fb).trans (landJ_B c s _ _ (N2_lt c tb htb i h2 ⟨3, hk⟩) fb)
theorem L2B_at_4 (htb : ∀ y, (tb y).toNat < 4096) (i : grid0.Coords) (h2 : k0_cond2 i = 1#1) (s : Fin 2) (hk : 4 < 64) :
    L2B c tb fb htb i h2 s ⟨4, hk⟩ = landB c s ⟨4, hk⟩ (N2 c tb i h2 ⟨4, hk⟩) (N2_lt c tb htb i h2 ⟨4, hk⟩) fb :=
  (by unfold L2B; rfl : L2B c tb fb htb i h2 s ⟨4, hk⟩ = landedJ c (s2B_4 c tb htb i h2) (rowM scB s ⟨4, Nat.le_of_ble_eq_true rfl⟩) fb).trans (landJ_B c s _ _ (N2_lt c tb htb i h2 ⟨4, hk⟩) fb)
theorem L2B_at_5 (htb : ∀ y, (tb y).toNat < 4096) (i : grid0.Coords) (h2 : k0_cond2 i = 1#1) (s : Fin 2) (hk : 5 < 64) :
    L2B c tb fb htb i h2 s ⟨5, hk⟩ = landB c s ⟨5, hk⟩ (N2 c tb i h2 ⟨5, hk⟩) (N2_lt c tb htb i h2 ⟨5, hk⟩) fb :=
  (by unfold L2B; rfl : L2B c tb fb htb i h2 s ⟨5, hk⟩ = landedJ c (s2B_5 c tb htb i h2) (rowM scB s ⟨5, Nat.le_of_ble_eq_true rfl⟩) fb).trans (landJ_B c s _ _ (N2_lt c tb htb i h2 ⟨5, hk⟩) fb)
theorem L2B_at_6 (htb : ∀ y, (tb y).toNat < 4096) (i : grid0.Coords) (h2 : k0_cond2 i = 1#1) (s : Fin 2) (hk : 6 < 64) :
    L2B c tb fb htb i h2 s ⟨6, hk⟩ = landB c s ⟨6, hk⟩ (N2 c tb i h2 ⟨6, hk⟩) (N2_lt c tb htb i h2 ⟨6, hk⟩) fb :=
  (by unfold L2B; rfl : L2B c tb fb htb i h2 s ⟨6, hk⟩ = landedJ c (s2B_6 c tb htb i h2) (rowM scB s ⟨6, Nat.le_of_ble_eq_true rfl⟩) fb).trans (landJ_B c s _ _ (N2_lt c tb htb i h2 ⟨6, hk⟩) fb)
theorem L2B_at_7 (htb : ∀ y, (tb y).toNat < 4096) (i : grid0.Coords) (h2 : k0_cond2 i = 1#1) (s : Fin 2) (hk : 7 < 64) :
    L2B c tb fb htb i h2 s ⟨7, hk⟩ = landB c s ⟨7, hk⟩ (N2 c tb i h2 ⟨7, hk⟩) (N2_lt c tb htb i h2 ⟨7, hk⟩) fb :=
  (by unfold L2B; rfl : L2B c tb fb htb i h2 s ⟨7, hk⟩ = landedJ c (s2B_7 c tb htb i h2) (rowM scB s ⟨7, Nat.le_of_ble_eq_true rfl⟩) fb).trans (landJ_B c s _ _ (N2_lt c tb htb i h2 ⟨7, hk⟩) fb)
theorem L2B_at_8 (htb : ∀ y, (tb y).toNat < 4096) (i : grid0.Coords) (h2 : k0_cond2 i = 1#1) (s : Fin 2) (hk : 8 < 64) :
    L2B c tb fb htb i h2 s ⟨8, hk⟩ = landB c s ⟨8, hk⟩ (N2 c tb i h2 ⟨8, hk⟩) (N2_lt c tb htb i h2 ⟨8, hk⟩) fb :=
  (by unfold L2B; rfl : L2B c tb fb htb i h2 s ⟨8, hk⟩ = landedJ c (s2B_8 c tb htb i h2) (rowM scB s ⟨8, Nat.le_of_ble_eq_true rfl⟩) fb).trans (landJ_B c s _ _ (N2_lt c tb htb i h2 ⟨8, hk⟩) fb)
theorem L2B_at_9 (htb : ∀ y, (tb y).toNat < 4096) (i : grid0.Coords) (h2 : k0_cond2 i = 1#1) (s : Fin 2) (hk : 9 < 64) :
    L2B c tb fb htb i h2 s ⟨9, hk⟩ = landB c s ⟨9, hk⟩ (N2 c tb i h2 ⟨9, hk⟩) (N2_lt c tb htb i h2 ⟨9, hk⟩) fb :=
  (by unfold L2B; rfl : L2B c tb fb htb i h2 s ⟨9, hk⟩ = landedJ c (s2B_9 c tb htb i h2) (rowM scB s ⟨9, Nat.le_of_ble_eq_true rfl⟩) fb).trans (landJ_B c s _ _ (N2_lt c tb htb i h2 ⟨9, hk⟩) fb)
theorem L2B_at_10 (htb : ∀ y, (tb y).toNat < 4096) (i : grid0.Coords) (h2 : k0_cond2 i = 1#1) (s : Fin 2) (hk : 10 < 64) :
    L2B c tb fb htb i h2 s ⟨10, hk⟩ = landB c s ⟨10, hk⟩ (N2 c tb i h2 ⟨10, hk⟩) (N2_lt c tb htb i h2 ⟨10, hk⟩) fb :=
  (by unfold L2B; rfl : L2B c tb fb htb i h2 s ⟨10, hk⟩ = landedJ c (s2B_10 c tb htb i h2) (rowM scB s ⟨10, Nat.le_of_ble_eq_true rfl⟩) fb).trans (landJ_B c s _ _ (N2_lt c tb htb i h2 ⟨10, hk⟩) fb)
theorem L2B_at_11 (htb : ∀ y, (tb y).toNat < 4096) (i : grid0.Coords) (h2 : k0_cond2 i = 1#1) (s : Fin 2) (hk : 11 < 64) :
    L2B c tb fb htb i h2 s ⟨11, hk⟩ = landB c s ⟨11, hk⟩ (N2 c tb i h2 ⟨11, hk⟩) (N2_lt c tb htb i h2 ⟨11, hk⟩) fb :=
  (by unfold L2B; rfl : L2B c tb fb htb i h2 s ⟨11, hk⟩ = landedJ c (s2B_11 c tb htb i h2) (rowM scB s ⟨11, Nat.le_of_ble_eq_true rfl⟩) fb).trans (landJ_B c s _ _ (N2_lt c tb htb i h2 ⟨11, hk⟩) fb)
theorem L2B_at_12 (htb : ∀ y, (tb y).toNat < 4096) (i : grid0.Coords) (h2 : k0_cond2 i = 1#1) (s : Fin 2) (hk : 12 < 64) :
    L2B c tb fb htb i h2 s ⟨12, hk⟩ = landB c s ⟨12, hk⟩ (N2 c tb i h2 ⟨12, hk⟩) (N2_lt c tb htb i h2 ⟨12, hk⟩) fb :=
  (by unfold L2B; rfl : L2B c tb fb htb i h2 s ⟨12, hk⟩ = landedJ c (s2B_12 c tb htb i h2) (rowM scB s ⟨12, Nat.le_of_ble_eq_true rfl⟩) fb).trans (landJ_B c s _ _ (N2_lt c tb htb i h2 ⟨12, hk⟩) fb)
theorem L2B_at_13 (htb : ∀ y, (tb y).toNat < 4096) (i : grid0.Coords) (h2 : k0_cond2 i = 1#1) (s : Fin 2) (hk : 13 < 64) :
    L2B c tb fb htb i h2 s ⟨13, hk⟩ = landB c s ⟨13, hk⟩ (N2 c tb i h2 ⟨13, hk⟩) (N2_lt c tb htb i h2 ⟨13, hk⟩) fb :=
  (by unfold L2B; rfl : L2B c tb fb htb i h2 s ⟨13, hk⟩ = landedJ c (s2B_13 c tb htb i h2) (rowM scB s ⟨13, Nat.le_of_ble_eq_true rfl⟩) fb).trans (landJ_B c s _ _ (N2_lt c tb htb i h2 ⟨13, hk⟩) fb)
theorem L2B_at_14 (htb : ∀ y, (tb y).toNat < 4096) (i : grid0.Coords) (h2 : k0_cond2 i = 1#1) (s : Fin 2) (hk : 14 < 64) :
    L2B c tb fb htb i h2 s ⟨14, hk⟩ = landB c s ⟨14, hk⟩ (N2 c tb i h2 ⟨14, hk⟩) (N2_lt c tb htb i h2 ⟨14, hk⟩) fb :=
  (by unfold L2B; rfl : L2B c tb fb htb i h2 s ⟨14, hk⟩ = landedJ c (s2B_14 c tb htb i h2) (rowM scB s ⟨14, Nat.le_of_ble_eq_true rfl⟩) fb).trans (landJ_B c s _ _ (N2_lt c tb htb i h2 ⟨14, hk⟩) fb)
theorem L2B_at_15 (htb : ∀ y, (tb y).toNat < 4096) (i : grid0.Coords) (h2 : k0_cond2 i = 1#1) (s : Fin 2) (hk : 15 < 64) :
    L2B c tb fb htb i h2 s ⟨15, hk⟩ = landB c s ⟨15, hk⟩ (N2 c tb i h2 ⟨15, hk⟩) (N2_lt c tb htb i h2 ⟨15, hk⟩) fb :=
  (by unfold L2B; rfl : L2B c tb fb htb i h2 s ⟨15, hk⟩ = landedJ c (s2B_15 c tb htb i h2) (rowM scB s ⟨15, Nat.le_of_ble_eq_true rfl⟩) fb).trans (landJ_B c s _ _ (N2_lt c tb htb i h2 ⟨15, hk⟩) fb)
theorem L2B_at_16 (htb : ∀ y, (tb y).toNat < 4096) (i : grid0.Coords) (h2 : k0_cond2 i = 1#1) (s : Fin 2) (hk : 16 < 64) :
    L2B c tb fb htb i h2 s ⟨16, hk⟩ = landB c s ⟨16, hk⟩ (N2 c tb i h2 ⟨16, hk⟩) (N2_lt c tb htb i h2 ⟨16, hk⟩) fb :=
  (by unfold L2B; rfl : L2B c tb fb htb i h2 s ⟨16, hk⟩ = landedJ c (s2B_16 c tb htb i h2) (rowM scB s ⟨16, Nat.le_of_ble_eq_true rfl⟩) fb).trans (landJ_B c s _ _ (N2_lt c tb htb i h2 ⟨16, hk⟩) fb)
theorem L2B_at_17 (htb : ∀ y, (tb y).toNat < 4096) (i : grid0.Coords) (h2 : k0_cond2 i = 1#1) (s : Fin 2) (hk : 17 < 64) :
    L2B c tb fb htb i h2 s ⟨17, hk⟩ = landB c s ⟨17, hk⟩ (N2 c tb i h2 ⟨17, hk⟩) (N2_lt c tb htb i h2 ⟨17, hk⟩) fb :=
  (by unfold L2B; rfl : L2B c tb fb htb i h2 s ⟨17, hk⟩ = landedJ c (s2B_17 c tb htb i h2) (rowM scB s ⟨17, Nat.le_of_ble_eq_true rfl⟩) fb).trans (landJ_B c s _ _ (N2_lt c tb htb i h2 ⟨17, hk⟩) fb)
theorem L2B_at_18 (htb : ∀ y, (tb y).toNat < 4096) (i : grid0.Coords) (h2 : k0_cond2 i = 1#1) (s : Fin 2) (hk : 18 < 64) :
    L2B c tb fb htb i h2 s ⟨18, hk⟩ = landB c s ⟨18, hk⟩ (N2 c tb i h2 ⟨18, hk⟩) (N2_lt c tb htb i h2 ⟨18, hk⟩) fb :=
  (by unfold L2B; rfl : L2B c tb fb htb i h2 s ⟨18, hk⟩ = landedJ c (s2B_18 c tb htb i h2) (rowM scB s ⟨18, Nat.le_of_ble_eq_true rfl⟩) fb).trans (landJ_B c s _ _ (N2_lt c tb htb i h2 ⟨18, hk⟩) fb)
theorem L2B_at_19 (htb : ∀ y, (tb y).toNat < 4096) (i : grid0.Coords) (h2 : k0_cond2 i = 1#1) (s : Fin 2) (hk : 19 < 64) :
    L2B c tb fb htb i h2 s ⟨19, hk⟩ = landB c s ⟨19, hk⟩ (N2 c tb i h2 ⟨19, hk⟩) (N2_lt c tb htb i h2 ⟨19, hk⟩) fb :=
  (by unfold L2B; rfl : L2B c tb fb htb i h2 s ⟨19, hk⟩ = landedJ c (s2B_19 c tb htb i h2) (rowM scB s ⟨19, Nat.le_of_ble_eq_true rfl⟩) fb).trans (landJ_B c s _ _ (N2_lt c tb htb i h2 ⟨19, hk⟩) fb)
theorem L2B_at_20 (htb : ∀ y, (tb y).toNat < 4096) (i : grid0.Coords) (h2 : k0_cond2 i = 1#1) (s : Fin 2) (hk : 20 < 64) :
    L2B c tb fb htb i h2 s ⟨20, hk⟩ = landB c s ⟨20, hk⟩ (N2 c tb i h2 ⟨20, hk⟩) (N2_lt c tb htb i h2 ⟨20, hk⟩) fb :=
  (by unfold L2B; rfl : L2B c tb fb htb i h2 s ⟨20, hk⟩ = landedJ c (s2B_20 c tb htb i h2) (rowM scB s ⟨20, Nat.le_of_ble_eq_true rfl⟩) fb).trans (landJ_B c s _ _ (N2_lt c tb htb i h2 ⟨20, hk⟩) fb)
theorem L2B_at_21 (htb : ∀ y, (tb y).toNat < 4096) (i : grid0.Coords) (h2 : k0_cond2 i = 1#1) (s : Fin 2) (hk : 21 < 64) :
    L2B c tb fb htb i h2 s ⟨21, hk⟩ = landB c s ⟨21, hk⟩ (N2 c tb i h2 ⟨21, hk⟩) (N2_lt c tb htb i h2 ⟨21, hk⟩) fb :=
  (by unfold L2B; rfl : L2B c tb fb htb i h2 s ⟨21, hk⟩ = landedJ c (s2B_21 c tb htb i h2) (rowM scB s ⟨21, Nat.le_of_ble_eq_true rfl⟩) fb).trans (landJ_B c s _ _ (N2_lt c tb htb i h2 ⟨21, hk⟩) fb)
theorem L2B_at_22 (htb : ∀ y, (tb y).toNat < 4096) (i : grid0.Coords) (h2 : k0_cond2 i = 1#1) (s : Fin 2) (hk : 22 < 64) :
    L2B c tb fb htb i h2 s ⟨22, hk⟩ = landB c s ⟨22, hk⟩ (N2 c tb i h2 ⟨22, hk⟩) (N2_lt c tb htb i h2 ⟨22, hk⟩) fb :=
  (by unfold L2B; rfl : L2B c tb fb htb i h2 s ⟨22, hk⟩ = landedJ c (s2B_22 c tb htb i h2) (rowM scB s ⟨22, Nat.le_of_ble_eq_true rfl⟩) fb).trans (landJ_B c s _ _ (N2_lt c tb htb i h2 ⟨22, hk⟩) fb)
theorem L2B_at_23 (htb : ∀ y, (tb y).toNat < 4096) (i : grid0.Coords) (h2 : k0_cond2 i = 1#1) (s : Fin 2) (hk : 23 < 64) :
    L2B c tb fb htb i h2 s ⟨23, hk⟩ = landB c s ⟨23, hk⟩ (N2 c tb i h2 ⟨23, hk⟩) (N2_lt c tb htb i h2 ⟨23, hk⟩) fb :=
  (by unfold L2B; rfl : L2B c tb fb htb i h2 s ⟨23, hk⟩ = landedJ c (s2B_23 c tb htb i h2) (rowM scB s ⟨23, Nat.le_of_ble_eq_true rfl⟩) fb).trans (landJ_B c s _ _ (N2_lt c tb htb i h2 ⟨23, hk⟩) fb)
theorem L2B_at_24 (htb : ∀ y, (tb y).toNat < 4096) (i : grid0.Coords) (h2 : k0_cond2 i = 1#1) (s : Fin 2) (hk : 24 < 64) :
    L2B c tb fb htb i h2 s ⟨24, hk⟩ = landB c s ⟨24, hk⟩ (N2 c tb i h2 ⟨24, hk⟩) (N2_lt c tb htb i h2 ⟨24, hk⟩) fb :=
  (by unfold L2B; rfl : L2B c tb fb htb i h2 s ⟨24, hk⟩ = landedJ c (s2B_24 c tb htb i h2) (rowM scB s ⟨24, Nat.le_of_ble_eq_true rfl⟩) fb).trans (landJ_B c s _ _ (N2_lt c tb htb i h2 ⟨24, hk⟩) fb)
theorem L2B_at_25 (htb : ∀ y, (tb y).toNat < 4096) (i : grid0.Coords) (h2 : k0_cond2 i = 1#1) (s : Fin 2) (hk : 25 < 64) :
    L2B c tb fb htb i h2 s ⟨25, hk⟩ = landB c s ⟨25, hk⟩ (N2 c tb i h2 ⟨25, hk⟩) (N2_lt c tb htb i h2 ⟨25, hk⟩) fb :=
  (by unfold L2B; rfl : L2B c tb fb htb i h2 s ⟨25, hk⟩ = landedJ c (s2B_25 c tb htb i h2) (rowM scB s ⟨25, Nat.le_of_ble_eq_true rfl⟩) fb).trans (landJ_B c s _ _ (N2_lt c tb htb i h2 ⟨25, hk⟩) fb)
theorem L2B_at_26 (htb : ∀ y, (tb y).toNat < 4096) (i : grid0.Coords) (h2 : k0_cond2 i = 1#1) (s : Fin 2) (hk : 26 < 64) :
    L2B c tb fb htb i h2 s ⟨26, hk⟩ = landB c s ⟨26, hk⟩ (N2 c tb i h2 ⟨26, hk⟩) (N2_lt c tb htb i h2 ⟨26, hk⟩) fb :=
  (by unfold L2B; rfl : L2B c tb fb htb i h2 s ⟨26, hk⟩ = landedJ c (s2B_26 c tb htb i h2) (rowM scB s ⟨26, Nat.le_of_ble_eq_true rfl⟩) fb).trans (landJ_B c s _ _ (N2_lt c tb htb i h2 ⟨26, hk⟩) fb)
theorem L2B_at_27 (htb : ∀ y, (tb y).toNat < 4096) (i : grid0.Coords) (h2 : k0_cond2 i = 1#1) (s : Fin 2) (hk : 27 < 64) :
    L2B c tb fb htb i h2 s ⟨27, hk⟩ = landB c s ⟨27, hk⟩ (N2 c tb i h2 ⟨27, hk⟩) (N2_lt c tb htb i h2 ⟨27, hk⟩) fb :=
  (by unfold L2B; rfl : L2B c tb fb htb i h2 s ⟨27, hk⟩ = landedJ c (s2B_27 c tb htb i h2) (rowM scB s ⟨27, Nat.le_of_ble_eq_true rfl⟩) fb).trans (landJ_B c s _ _ (N2_lt c tb htb i h2 ⟨27, hk⟩) fb)
theorem L2B_at_28 (htb : ∀ y, (tb y).toNat < 4096) (i : grid0.Coords) (h2 : k0_cond2 i = 1#1) (s : Fin 2) (hk : 28 < 64) :
    L2B c tb fb htb i h2 s ⟨28, hk⟩ = landB c s ⟨28, hk⟩ (N2 c tb i h2 ⟨28, hk⟩) (N2_lt c tb htb i h2 ⟨28, hk⟩) fb :=
  (by unfold L2B; rfl : L2B c tb fb htb i h2 s ⟨28, hk⟩ = landedJ c (s2B_28 c tb htb i h2) (rowM scB s ⟨28, Nat.le_of_ble_eq_true rfl⟩) fb).trans (landJ_B c s _ _ (N2_lt c tb htb i h2 ⟨28, hk⟩) fb)
theorem L2B_at_29 (htb : ∀ y, (tb y).toNat < 4096) (i : grid0.Coords) (h2 : k0_cond2 i = 1#1) (s : Fin 2) (hk : 29 < 64) :
    L2B c tb fb htb i h2 s ⟨29, hk⟩ = landB c s ⟨29, hk⟩ (N2 c tb i h2 ⟨29, hk⟩) (N2_lt c tb htb i h2 ⟨29, hk⟩) fb :=
  (by unfold L2B; rfl : L2B c tb fb htb i h2 s ⟨29, hk⟩ = landedJ c (s2B_29 c tb htb i h2) (rowM scB s ⟨29, Nat.le_of_ble_eq_true rfl⟩) fb).trans (landJ_B c s _ _ (N2_lt c tb htb i h2 ⟨29, hk⟩) fb)
theorem L2B_at_30 (htb : ∀ y, (tb y).toNat < 4096) (i : grid0.Coords) (h2 : k0_cond2 i = 1#1) (s : Fin 2) (hk : 30 < 64) :
    L2B c tb fb htb i h2 s ⟨30, hk⟩ = landB c s ⟨30, hk⟩ (N2 c tb i h2 ⟨30, hk⟩) (N2_lt c tb htb i h2 ⟨30, hk⟩) fb :=
  (by unfold L2B; rfl : L2B c tb fb htb i h2 s ⟨30, hk⟩ = landedJ c (s2B_30 c tb htb i h2) (rowM scB s ⟨30, Nat.le_of_ble_eq_true rfl⟩) fb).trans (landJ_B c s _ _ (N2_lt c tb htb i h2 ⟨30, hk⟩) fb)
theorem L2B_at_31 (htb : ∀ y, (tb y).toNat < 4096) (i : grid0.Coords) (h2 : k0_cond2 i = 1#1) (s : Fin 2) (hk : 31 < 64) :
    L2B c tb fb htb i h2 s ⟨31, hk⟩ = landB c s ⟨31, hk⟩ (N2 c tb i h2 ⟨31, hk⟩) (N2_lt c tb htb i h2 ⟨31, hk⟩) fb :=
  (by unfold L2B; rfl : L2B c tb fb htb i h2 s ⟨31, hk⟩ = landedJ c (s2B_31 c tb htb i h2) (rowM scB s ⟨31, Nat.le_of_ble_eq_true rfl⟩) fb).trans (landJ_B c s _ _ (N2_lt c tb htb i h2 ⟨31, hk⟩) fb)
theorem L2B_at_32 (htb : ∀ y, (tb y).toNat < 4096) (i : grid0.Coords) (h2 : k0_cond2 i = 1#1) (s : Fin 2) (hk : 32 < 64) :
    L2B c tb fb htb i h2 s ⟨32, hk⟩ = landB c s ⟨32, hk⟩ (N2 c tb i h2 ⟨32, hk⟩) (N2_lt c tb htb i h2 ⟨32, hk⟩) fb :=
  (by unfold L2B; rfl : L2B c tb fb htb i h2 s ⟨32, hk⟩ = landedJ c (s2B_32 c tb htb i h2) (rowM scB s ⟨32, Nat.le_of_ble_eq_true rfl⟩) fb).trans (landJ_B c s _ _ (N2_lt c tb htb i h2 ⟨32, hk⟩) fb)
theorem L2B_at_33 (htb : ∀ y, (tb y).toNat < 4096) (i : grid0.Coords) (h2 : k0_cond2 i = 1#1) (s : Fin 2) (hk : 33 < 64) :
    L2B c tb fb htb i h2 s ⟨33, hk⟩ = landB c s ⟨33, hk⟩ (N2 c tb i h2 ⟨33, hk⟩) (N2_lt c tb htb i h2 ⟨33, hk⟩) fb :=
  (by unfold L2B; rfl : L2B c tb fb htb i h2 s ⟨33, hk⟩ = landedJ c (s2B_33 c tb htb i h2) (rowM scB s ⟨33, Nat.le_of_ble_eq_true rfl⟩) fb).trans (landJ_B c s _ _ (N2_lt c tb htb i h2 ⟨33, hk⟩) fb)
theorem L2B_at_34 (htb : ∀ y, (tb y).toNat < 4096) (i : grid0.Coords) (h2 : k0_cond2 i = 1#1) (s : Fin 2) (hk : 34 < 64) :
    L2B c tb fb htb i h2 s ⟨34, hk⟩ = landB c s ⟨34, hk⟩ (N2 c tb i h2 ⟨34, hk⟩) (N2_lt c tb htb i h2 ⟨34, hk⟩) fb :=
  (by unfold L2B; rfl : L2B c tb fb htb i h2 s ⟨34, hk⟩ = landedJ c (s2B_34 c tb htb i h2) (rowM scB s ⟨34, Nat.le_of_ble_eq_true rfl⟩) fb).trans (landJ_B c s _ _ (N2_lt c tb htb i h2 ⟨34, hk⟩) fb)
theorem L2B_at_35 (htb : ∀ y, (tb y).toNat < 4096) (i : grid0.Coords) (h2 : k0_cond2 i = 1#1) (s : Fin 2) (hk : 35 < 64) :
    L2B c tb fb htb i h2 s ⟨35, hk⟩ = landB c s ⟨35, hk⟩ (N2 c tb i h2 ⟨35, hk⟩) (N2_lt c tb htb i h2 ⟨35, hk⟩) fb :=
  (by unfold L2B; rfl : L2B c tb fb htb i h2 s ⟨35, hk⟩ = landedJ c (s2B_35 c tb htb i h2) (rowM scB s ⟨35, Nat.le_of_ble_eq_true rfl⟩) fb).trans (landJ_B c s _ _ (N2_lt c tb htb i h2 ⟨35, hk⟩) fb)
theorem L2B_at_36 (htb : ∀ y, (tb y).toNat < 4096) (i : grid0.Coords) (h2 : k0_cond2 i = 1#1) (s : Fin 2) (hk : 36 < 64) :
    L2B c tb fb htb i h2 s ⟨36, hk⟩ = landB c s ⟨36, hk⟩ (N2 c tb i h2 ⟨36, hk⟩) (N2_lt c tb htb i h2 ⟨36, hk⟩) fb :=
  (by unfold L2B; rfl : L2B c tb fb htb i h2 s ⟨36, hk⟩ = landedJ c (s2B_36 c tb htb i h2) (rowM scB s ⟨36, Nat.le_of_ble_eq_true rfl⟩) fb).trans (landJ_B c s _ _ (N2_lt c tb htb i h2 ⟨36, hk⟩) fb)
theorem L2B_at_37 (htb : ∀ y, (tb y).toNat < 4096) (i : grid0.Coords) (h2 : k0_cond2 i = 1#1) (s : Fin 2) (hk : 37 < 64) :
    L2B c tb fb htb i h2 s ⟨37, hk⟩ = landB c s ⟨37, hk⟩ (N2 c tb i h2 ⟨37, hk⟩) (N2_lt c tb htb i h2 ⟨37, hk⟩) fb :=
  (by unfold L2B; rfl : L2B c tb fb htb i h2 s ⟨37, hk⟩ = landedJ c (s2B_37 c tb htb i h2) (rowM scB s ⟨37, Nat.le_of_ble_eq_true rfl⟩) fb).trans (landJ_B c s _ _ (N2_lt c tb htb i h2 ⟨37, hk⟩) fb)
theorem L2B_at_38 (htb : ∀ y, (tb y).toNat < 4096) (i : grid0.Coords) (h2 : k0_cond2 i = 1#1) (s : Fin 2) (hk : 38 < 64) :
    L2B c tb fb htb i h2 s ⟨38, hk⟩ = landB c s ⟨38, hk⟩ (N2 c tb i h2 ⟨38, hk⟩) (N2_lt c tb htb i h2 ⟨38, hk⟩) fb :=
  (by unfold L2B; rfl : L2B c tb fb htb i h2 s ⟨38, hk⟩ = landedJ c (s2B_38 c tb htb i h2) (rowM scB s ⟨38, Nat.le_of_ble_eq_true rfl⟩) fb).trans (landJ_B c s _ _ (N2_lt c tb htb i h2 ⟨38, hk⟩) fb)
theorem L2B_at_39 (htb : ∀ y, (tb y).toNat < 4096) (i : grid0.Coords) (h2 : k0_cond2 i = 1#1) (s : Fin 2) (hk : 39 < 64) :
    L2B c tb fb htb i h2 s ⟨39, hk⟩ = landB c s ⟨39, hk⟩ (N2 c tb i h2 ⟨39, hk⟩) (N2_lt c tb htb i h2 ⟨39, hk⟩) fb :=
  (by unfold L2B; rfl : L2B c tb fb htb i h2 s ⟨39, hk⟩ = landedJ c (s2B_39 c tb htb i h2) (rowM scB s ⟨39, Nat.le_of_ble_eq_true rfl⟩) fb).trans (landJ_B c s _ _ (N2_lt c tb htb i h2 ⟨39, hk⟩) fb)
theorem L2B_at_40 (htb : ∀ y, (tb y).toNat < 4096) (i : grid0.Coords) (h2 : k0_cond2 i = 1#1) (s : Fin 2) (hk : 40 < 64) :
    L2B c tb fb htb i h2 s ⟨40, hk⟩ = landB c s ⟨40, hk⟩ (N2 c tb i h2 ⟨40, hk⟩) (N2_lt c tb htb i h2 ⟨40, hk⟩) fb :=
  (by unfold L2B; rfl : L2B c tb fb htb i h2 s ⟨40, hk⟩ = landedJ c (s2B_40 c tb htb i h2) (rowM scB s ⟨40, Nat.le_of_ble_eq_true rfl⟩) fb).trans (landJ_B c s _ _ (N2_lt c tb htb i h2 ⟨40, hk⟩) fb)
theorem L2B_at_41 (htb : ∀ y, (tb y).toNat < 4096) (i : grid0.Coords) (h2 : k0_cond2 i = 1#1) (s : Fin 2) (hk : 41 < 64) :
    L2B c tb fb htb i h2 s ⟨41, hk⟩ = landB c s ⟨41, hk⟩ (N2 c tb i h2 ⟨41, hk⟩) (N2_lt c tb htb i h2 ⟨41, hk⟩) fb :=
  (by unfold L2B; rfl : L2B c tb fb htb i h2 s ⟨41, hk⟩ = landedJ c (s2B_41 c tb htb i h2) (rowM scB s ⟨41, Nat.le_of_ble_eq_true rfl⟩) fb).trans (landJ_B c s _ _ (N2_lt c tb htb i h2 ⟨41, hk⟩) fb)
theorem L2B_at_42 (htb : ∀ y, (tb y).toNat < 4096) (i : grid0.Coords) (h2 : k0_cond2 i = 1#1) (s : Fin 2) (hk : 42 < 64) :
    L2B c tb fb htb i h2 s ⟨42, hk⟩ = landB c s ⟨42, hk⟩ (N2 c tb i h2 ⟨42, hk⟩) (N2_lt c tb htb i h2 ⟨42, hk⟩) fb :=
  (by unfold L2B; rfl : L2B c tb fb htb i h2 s ⟨42, hk⟩ = landedJ c (s2B_42 c tb htb i h2) (rowM scB s ⟨42, Nat.le_of_ble_eq_true rfl⟩) fb).trans (landJ_B c s _ _ (N2_lt c tb htb i h2 ⟨42, hk⟩) fb)
theorem L2B_at_43 (htb : ∀ y, (tb y).toNat < 4096) (i : grid0.Coords) (h2 : k0_cond2 i = 1#1) (s : Fin 2) (hk : 43 < 64) :
    L2B c tb fb htb i h2 s ⟨43, hk⟩ = landB c s ⟨43, hk⟩ (N2 c tb i h2 ⟨43, hk⟩) (N2_lt c tb htb i h2 ⟨43, hk⟩) fb :=
  (by unfold L2B; rfl : L2B c tb fb htb i h2 s ⟨43, hk⟩ = landedJ c (s2B_43 c tb htb i h2) (rowM scB s ⟨43, Nat.le_of_ble_eq_true rfl⟩) fb).trans (landJ_B c s _ _ (N2_lt c tb htb i h2 ⟨43, hk⟩) fb)
theorem L2B_at_44 (htb : ∀ y, (tb y).toNat < 4096) (i : grid0.Coords) (h2 : k0_cond2 i = 1#1) (s : Fin 2) (hk : 44 < 64) :
    L2B c tb fb htb i h2 s ⟨44, hk⟩ = landB c s ⟨44, hk⟩ (N2 c tb i h2 ⟨44, hk⟩) (N2_lt c tb htb i h2 ⟨44, hk⟩) fb :=
  (by unfold L2B; rfl : L2B c tb fb htb i h2 s ⟨44, hk⟩ = landedJ c (s2B_44 c tb htb i h2) (rowM scB s ⟨44, Nat.le_of_ble_eq_true rfl⟩) fb).trans (landJ_B c s _ _ (N2_lt c tb htb i h2 ⟨44, hk⟩) fb)
theorem L2B_at_45 (htb : ∀ y, (tb y).toNat < 4096) (i : grid0.Coords) (h2 : k0_cond2 i = 1#1) (s : Fin 2) (hk : 45 < 64) :
    L2B c tb fb htb i h2 s ⟨45, hk⟩ = landB c s ⟨45, hk⟩ (N2 c tb i h2 ⟨45, hk⟩) (N2_lt c tb htb i h2 ⟨45, hk⟩) fb :=
  (by unfold L2B; rfl : L2B c tb fb htb i h2 s ⟨45, hk⟩ = landedJ c (s2B_45 c tb htb i h2) (rowM scB s ⟨45, Nat.le_of_ble_eq_true rfl⟩) fb).trans (landJ_B c s _ _ (N2_lt c tb htb i h2 ⟨45, hk⟩) fb)
theorem L2B_at_46 (htb : ∀ y, (tb y).toNat < 4096) (i : grid0.Coords) (h2 : k0_cond2 i = 1#1) (s : Fin 2) (hk : 46 < 64) :
    L2B c tb fb htb i h2 s ⟨46, hk⟩ = landB c s ⟨46, hk⟩ (N2 c tb i h2 ⟨46, hk⟩) (N2_lt c tb htb i h2 ⟨46, hk⟩) fb :=
  (by unfold L2B; rfl : L2B c tb fb htb i h2 s ⟨46, hk⟩ = landedJ c (s2B_46 c tb htb i h2) (rowM scB s ⟨46, Nat.le_of_ble_eq_true rfl⟩) fb).trans (landJ_B c s _ _ (N2_lt c tb htb i h2 ⟨46, hk⟩) fb)
theorem L2B_at_47 (htb : ∀ y, (tb y).toNat < 4096) (i : grid0.Coords) (h2 : k0_cond2 i = 1#1) (s : Fin 2) (hk : 47 < 64) :
    L2B c tb fb htb i h2 s ⟨47, hk⟩ = landB c s ⟨47, hk⟩ (N2 c tb i h2 ⟨47, hk⟩) (N2_lt c tb htb i h2 ⟨47, hk⟩) fb :=
  (by unfold L2B; rfl : L2B c tb fb htb i h2 s ⟨47, hk⟩ = landedJ c (s2B_47 c tb htb i h2) (rowM scB s ⟨47, Nat.le_of_ble_eq_true rfl⟩) fb).trans (landJ_B c s _ _ (N2_lt c tb htb i h2 ⟨47, hk⟩) fb)
theorem L2B_at_48 (htb : ∀ y, (tb y).toNat < 4096) (i : grid0.Coords) (h2 : k0_cond2 i = 1#1) (s : Fin 2) (hk : 48 < 64) :
    L2B c tb fb htb i h2 s ⟨48, hk⟩ = landB c s ⟨48, hk⟩ (N2 c tb i h2 ⟨48, hk⟩) (N2_lt c tb htb i h2 ⟨48, hk⟩) fb :=
  (by unfold L2B; rfl : L2B c tb fb htb i h2 s ⟨48, hk⟩ = landedJ c (s2B_48 c tb htb i h2) (rowM scB s ⟨48, Nat.le_of_ble_eq_true rfl⟩) fb).trans (landJ_B c s _ _ (N2_lt c tb htb i h2 ⟨48, hk⟩) fb)
theorem L2B_at_49 (htb : ∀ y, (tb y).toNat < 4096) (i : grid0.Coords) (h2 : k0_cond2 i = 1#1) (s : Fin 2) (hk : 49 < 64) :
    L2B c tb fb htb i h2 s ⟨49, hk⟩ = landB c s ⟨49, hk⟩ (N2 c tb i h2 ⟨49, hk⟩) (N2_lt c tb htb i h2 ⟨49, hk⟩) fb :=
  (by unfold L2B; rfl : L2B c tb fb htb i h2 s ⟨49, hk⟩ = landedJ c (s2B_49 c tb htb i h2) (rowM scB s ⟨49, Nat.le_of_ble_eq_true rfl⟩) fb).trans (landJ_B c s _ _ (N2_lt c tb htb i h2 ⟨49, hk⟩) fb)
theorem L2B_at_50 (htb : ∀ y, (tb y).toNat < 4096) (i : grid0.Coords) (h2 : k0_cond2 i = 1#1) (s : Fin 2) (hk : 50 < 64) :
    L2B c tb fb htb i h2 s ⟨50, hk⟩ = landB c s ⟨50, hk⟩ (N2 c tb i h2 ⟨50, hk⟩) (N2_lt c tb htb i h2 ⟨50, hk⟩) fb :=
  (by unfold L2B; rfl : L2B c tb fb htb i h2 s ⟨50, hk⟩ = landedJ c (s2B_50 c tb htb i h2) (rowM scB s ⟨50, Nat.le_of_ble_eq_true rfl⟩) fb).trans (landJ_B c s _ _ (N2_lt c tb htb i h2 ⟨50, hk⟩) fb)
theorem L2B_at_51 (htb : ∀ y, (tb y).toNat < 4096) (i : grid0.Coords) (h2 : k0_cond2 i = 1#1) (s : Fin 2) (hk : 51 < 64) :
    L2B c tb fb htb i h2 s ⟨51, hk⟩ = landB c s ⟨51, hk⟩ (N2 c tb i h2 ⟨51, hk⟩) (N2_lt c tb htb i h2 ⟨51, hk⟩) fb :=
  (by unfold L2B; rfl : L2B c tb fb htb i h2 s ⟨51, hk⟩ = landedJ c (s2B_51 c tb htb i h2) (rowM scB s ⟨51, Nat.le_of_ble_eq_true rfl⟩) fb).trans (landJ_B c s _ _ (N2_lt c tb htb i h2 ⟨51, hk⟩) fb)
theorem L2B_at_52 (htb : ∀ y, (tb y).toNat < 4096) (i : grid0.Coords) (h2 : k0_cond2 i = 1#1) (s : Fin 2) (hk : 52 < 64) :
    L2B c tb fb htb i h2 s ⟨52, hk⟩ = landB c s ⟨52, hk⟩ (N2 c tb i h2 ⟨52, hk⟩) (N2_lt c tb htb i h2 ⟨52, hk⟩) fb :=
  (by unfold L2B; rfl : L2B c tb fb htb i h2 s ⟨52, hk⟩ = landedJ c (s2B_52 c tb htb i h2) (rowM scB s ⟨52, Nat.le_of_ble_eq_true rfl⟩) fb).trans (landJ_B c s _ _ (N2_lt c tb htb i h2 ⟨52, hk⟩) fb)
theorem L2B_at_53 (htb : ∀ y, (tb y).toNat < 4096) (i : grid0.Coords) (h2 : k0_cond2 i = 1#1) (s : Fin 2) (hk : 53 < 64) :
    L2B c tb fb htb i h2 s ⟨53, hk⟩ = landB c s ⟨53, hk⟩ (N2 c tb i h2 ⟨53, hk⟩) (N2_lt c tb htb i h2 ⟨53, hk⟩) fb :=
  (by unfold L2B; rfl : L2B c tb fb htb i h2 s ⟨53, hk⟩ = landedJ c (s2B_53 c tb htb i h2) (rowM scB s ⟨53, Nat.le_of_ble_eq_true rfl⟩) fb).trans (landJ_B c s _ _ (N2_lt c tb htb i h2 ⟨53, hk⟩) fb)
theorem L2B_at_54 (htb : ∀ y, (tb y).toNat < 4096) (i : grid0.Coords) (h2 : k0_cond2 i = 1#1) (s : Fin 2) (hk : 54 < 64) :
    L2B c tb fb htb i h2 s ⟨54, hk⟩ = landB c s ⟨54, hk⟩ (N2 c tb i h2 ⟨54, hk⟩) (N2_lt c tb htb i h2 ⟨54, hk⟩) fb :=
  (by unfold L2B; rfl : L2B c tb fb htb i h2 s ⟨54, hk⟩ = landedJ c (s2B_54 c tb htb i h2) (rowM scB s ⟨54, Nat.le_of_ble_eq_true rfl⟩) fb).trans (landJ_B c s _ _ (N2_lt c tb htb i h2 ⟨54, hk⟩) fb)
theorem L2B_at_55 (htb : ∀ y, (tb y).toNat < 4096) (i : grid0.Coords) (h2 : k0_cond2 i = 1#1) (s : Fin 2) (hk : 55 < 64) :
    L2B c tb fb htb i h2 s ⟨55, hk⟩ = landB c s ⟨55, hk⟩ (N2 c tb i h2 ⟨55, hk⟩) (N2_lt c tb htb i h2 ⟨55, hk⟩) fb :=
  (by unfold L2B; rfl : L2B c tb fb htb i h2 s ⟨55, hk⟩ = landedJ c (s2B_55 c tb htb i h2) (rowM scB s ⟨55, Nat.le_of_ble_eq_true rfl⟩) fb).trans (landJ_B c s _ _ (N2_lt c tb htb i h2 ⟨55, hk⟩) fb)
theorem L2B_at_56 (htb : ∀ y, (tb y).toNat < 4096) (i : grid0.Coords) (h2 : k0_cond2 i = 1#1) (s : Fin 2) (hk : 56 < 64) :
    L2B c tb fb htb i h2 s ⟨56, hk⟩ = landB c s ⟨56, hk⟩ (N2 c tb i h2 ⟨56, hk⟩) (N2_lt c tb htb i h2 ⟨56, hk⟩) fb :=
  (by unfold L2B; rfl : L2B c tb fb htb i h2 s ⟨56, hk⟩ = landedJ c (s2B_56 c tb htb i h2) (rowM scB s ⟨56, Nat.le_of_ble_eq_true rfl⟩) fb).trans (landJ_B c s _ _ (N2_lt c tb htb i h2 ⟨56, hk⟩) fb)
theorem L2B_at_57 (htb : ∀ y, (tb y).toNat < 4096) (i : grid0.Coords) (h2 : k0_cond2 i = 1#1) (s : Fin 2) (hk : 57 < 64) :
    L2B c tb fb htb i h2 s ⟨57, hk⟩ = landB c s ⟨57, hk⟩ (N2 c tb i h2 ⟨57, hk⟩) (N2_lt c tb htb i h2 ⟨57, hk⟩) fb :=
  (by unfold L2B; rfl : L2B c tb fb htb i h2 s ⟨57, hk⟩ = landedJ c (s2B_57 c tb htb i h2) (rowM scB s ⟨57, Nat.le_of_ble_eq_true rfl⟩) fb).trans (landJ_B c s _ _ (N2_lt c tb htb i h2 ⟨57, hk⟩) fb)
theorem L2B_at_58 (htb : ∀ y, (tb y).toNat < 4096) (i : grid0.Coords) (h2 : k0_cond2 i = 1#1) (s : Fin 2) (hk : 58 < 64) :
    L2B c tb fb htb i h2 s ⟨58, hk⟩ = landB c s ⟨58, hk⟩ (N2 c tb i h2 ⟨58, hk⟩) (N2_lt c tb htb i h2 ⟨58, hk⟩) fb :=
  (by unfold L2B; rfl : L2B c tb fb htb i h2 s ⟨58, hk⟩ = landedJ c (s2B_58 c tb htb i h2) (rowM scB s ⟨58, Nat.le_of_ble_eq_true rfl⟩) fb).trans (landJ_B c s _ _ (N2_lt c tb htb i h2 ⟨58, hk⟩) fb)
theorem L2B_at_59 (htb : ∀ y, (tb y).toNat < 4096) (i : grid0.Coords) (h2 : k0_cond2 i = 1#1) (s : Fin 2) (hk : 59 < 64) :
    L2B c tb fb htb i h2 s ⟨59, hk⟩ = landB c s ⟨59, hk⟩ (N2 c tb i h2 ⟨59, hk⟩) (N2_lt c tb htb i h2 ⟨59, hk⟩) fb :=
  (by unfold L2B; rfl : L2B c tb fb htb i h2 s ⟨59, hk⟩ = landedJ c (s2B_59 c tb htb i h2) (rowM scB s ⟨59, Nat.le_of_ble_eq_true rfl⟩) fb).trans (landJ_B c s _ _ (N2_lt c tb htb i h2 ⟨59, hk⟩) fb)
theorem L2B_at_60 (htb : ∀ y, (tb y).toNat < 4096) (i : grid0.Coords) (h2 : k0_cond2 i = 1#1) (s : Fin 2) (hk : 60 < 64) :
    L2B c tb fb htb i h2 s ⟨60, hk⟩ = landB c s ⟨60, hk⟩ (N2 c tb i h2 ⟨60, hk⟩) (N2_lt c tb htb i h2 ⟨60, hk⟩) fb :=
  (by unfold L2B; rfl : L2B c tb fb htb i h2 s ⟨60, hk⟩ = landedJ c (s2B_60 c tb htb i h2) (rowM scB s ⟨60, Nat.le_of_ble_eq_true rfl⟩) fb).trans (landJ_B c s _ _ (N2_lt c tb htb i h2 ⟨60, hk⟩) fb)
theorem L2B_at_61 (htb : ∀ y, (tb y).toNat < 4096) (i : grid0.Coords) (h2 : k0_cond2 i = 1#1) (s : Fin 2) (hk : 61 < 64) :
    L2B c tb fb htb i h2 s ⟨61, hk⟩ = landB c s ⟨61, hk⟩ (N2 c tb i h2 ⟨61, hk⟩) (N2_lt c tb htb i h2 ⟨61, hk⟩) fb :=
  (by unfold L2B; rfl : L2B c tb fb htb i h2 s ⟨61, hk⟩ = landedJ c (s2B_61 c tb htb i h2) (rowM scB s ⟨61, Nat.le_of_ble_eq_true rfl⟩) fb).trans (landJ_B c s _ _ (N2_lt c tb htb i h2 ⟨61, hk⟩) fb)
theorem L2B_at_62 (htb : ∀ y, (tb y).toNat < 4096) (i : grid0.Coords) (h2 : k0_cond2 i = 1#1) (s : Fin 2) (hk : 62 < 64) :
    L2B c tb fb htb i h2 s ⟨62, hk⟩ = landB c s ⟨62, hk⟩ (N2 c tb i h2 ⟨62, hk⟩) (N2_lt c tb htb i h2 ⟨62, hk⟩) fb :=
  (by unfold L2B; rfl : L2B c tb fb htb i h2 s ⟨62, hk⟩ = landedJ c (s2B_62 c tb htb i h2) (rowM scB s ⟨62, Nat.le_of_ble_eq_true rfl⟩) fb).trans (landJ_B c s _ _ (N2_lt c tb htb i h2 ⟨62, hk⟩) fb)
theorem L2B_at_63 (htb : ∀ y, (tb y).toNat < 4096) (i : grid0.Coords) (h2 : k0_cond2 i = 1#1) (s : Fin 2) (hk : 63 < 64) :
    L2B c tb fb htb i h2 s ⟨63, hk⟩ = landB c s ⟨63, hk⟩ (N2 c tb i h2 ⟨63, hk⟩) (N2_lt c tb htb i h2 ⟨63, hk⟩) fb :=
  (by unfold L2B; rfl : L2B c tb fb htb i h2 s ⟨63, hk⟩ = landedJ c (s2B_63 c tb htb i h2) (rowM scB s ⟨63, Nat.le_of_ble_eq_true rfl⟩) fb).trans (landJ_B c s _ _ (N2_lt c tb htb i h2 ⟨63, hk⟩) fb)
/-- Each of the 64 landed contents of fetch 2, array B, is the generic landed row at its row number. -/
theorem L2B_at (htb : ∀ y, (tb y).toNat < 4096) (i : grid0.Coords) (h2 : k0_cond2 i = 1#1) (s : Fin 2) : ∀ r : Fin 64, L2B c tb fb htb i h2 s r = landB c s r (N2 c tb i h2 r) (N2_lt c tb htb i h2 r) fb
  | ⟨0, hk⟩ => L2B_at_0 c tb fb htb i h2 s hk
  | ⟨1, hk⟩ => L2B_at_1 c tb fb htb i h2 s hk
  | ⟨2, hk⟩ => L2B_at_2 c tb fb htb i h2 s hk
  | ⟨3, hk⟩ => L2B_at_3 c tb fb htb i h2 s hk
  | ⟨4, hk⟩ => L2B_at_4 c tb fb htb i h2 s hk
  | ⟨5, hk⟩ => L2B_at_5 c tb fb htb i h2 s hk
  | ⟨6, hk⟩ => L2B_at_6 c tb fb htb i h2 s hk
  | ⟨7, hk⟩ => L2B_at_7 c tb fb htb i h2 s hk
  | ⟨8, hk⟩ => L2B_at_8 c tb fb htb i h2 s hk
  | ⟨9, hk⟩ => L2B_at_9 c tb fb htb i h2 s hk
  | ⟨10, hk⟩ => L2B_at_10 c tb fb htb i h2 s hk
  | ⟨11, hk⟩ => L2B_at_11 c tb fb htb i h2 s hk
  | ⟨12, hk⟩ => L2B_at_12 c tb fb htb i h2 s hk
  | ⟨13, hk⟩ => L2B_at_13 c tb fb htb i h2 s hk
  | ⟨14, hk⟩ => L2B_at_14 c tb fb htb i h2 s hk
  | ⟨15, hk⟩ => L2B_at_15 c tb fb htb i h2 s hk
  | ⟨16, hk⟩ => L2B_at_16 c tb fb htb i h2 s hk
  | ⟨17, hk⟩ => L2B_at_17 c tb fb htb i h2 s hk
  | ⟨18, hk⟩ => L2B_at_18 c tb fb htb i h2 s hk
  | ⟨19, hk⟩ => L2B_at_19 c tb fb htb i h2 s hk
  | ⟨20, hk⟩ => L2B_at_20 c tb fb htb i h2 s hk
  | ⟨21, hk⟩ => L2B_at_21 c tb fb htb i h2 s hk
  | ⟨22, hk⟩ => L2B_at_22 c tb fb htb i h2 s hk
  | ⟨23, hk⟩ => L2B_at_23 c tb fb htb i h2 s hk
  | ⟨24, hk⟩ => L2B_at_24 c tb fb htb i h2 s hk
  | ⟨25, hk⟩ => L2B_at_25 c tb fb htb i h2 s hk
  | ⟨26, hk⟩ => L2B_at_26 c tb fb htb i h2 s hk
  | ⟨27, hk⟩ => L2B_at_27 c tb fb htb i h2 s hk
  | ⟨28, hk⟩ => L2B_at_28 c tb fb htb i h2 s hk
  | ⟨29, hk⟩ => L2B_at_29 c tb fb htb i h2 s hk
  | ⟨30, hk⟩ => L2B_at_30 c tb fb htb i h2 s hk
  | ⟨31, hk⟩ => L2B_at_31 c tb fb htb i h2 s hk
  | ⟨32, hk⟩ => L2B_at_32 c tb fb htb i h2 s hk
  | ⟨33, hk⟩ => L2B_at_33 c tb fb htb i h2 s hk
  | ⟨34, hk⟩ => L2B_at_34 c tb fb htb i h2 s hk
  | ⟨35, hk⟩ => L2B_at_35 c tb fb htb i h2 s hk
  | ⟨36, hk⟩ => L2B_at_36 c tb fb htb i h2 s hk
  | ⟨37, hk⟩ => L2B_at_37 c tb fb htb i h2 s hk
  | ⟨38, hk⟩ => L2B_at_38 c tb fb htb i h2 s hk
  | ⟨39, hk⟩ => L2B_at_39 c tb fb htb i h2 s hk
  | ⟨40, hk⟩ => L2B_at_40 c tb fb htb i h2 s hk
  | ⟨41, hk⟩ => L2B_at_41 c tb fb htb i h2 s hk
  | ⟨42, hk⟩ => L2B_at_42 c tb fb htb i h2 s hk
  | ⟨43, hk⟩ => L2B_at_43 c tb fb htb i h2 s hk
  | ⟨44, hk⟩ => L2B_at_44 c tb fb htb i h2 s hk
  | ⟨45, hk⟩ => L2B_at_45 c tb fb htb i h2 s hk
  | ⟨46, hk⟩ => L2B_at_46 c tb fb htb i h2 s hk
  | ⟨47, hk⟩ => L2B_at_47 c tb fb htb i h2 s hk
  | ⟨48, hk⟩ => L2B_at_48 c tb fb htb i h2 s hk
  | ⟨49, hk⟩ => L2B_at_49 c tb fb htb i h2 s hk
  | ⟨50, hk⟩ => L2B_at_50 c tb fb htb i h2 s hk
  | ⟨51, hk⟩ => L2B_at_51 c tb fb htb i h2 s hk
  | ⟨52, hk⟩ => L2B_at_52 c tb fb htb i h2 s hk
  | ⟨53, hk⟩ => L2B_at_53 c tb fb htb i h2 s hk
  | ⟨54, hk⟩ => L2B_at_54 c tb fb htb i h2 s hk
  | ⟨55, hk⟩ => L2B_at_55 c tb fb htb i h2 s hk
  | ⟨56, hk⟩ => L2B_at_56 c tb fb htb i h2 s hk
  | ⟨57, hk⟩ => L2B_at_57 c tb fb htb i h2 s hk
  | ⟨58, hk⟩ => L2B_at_58 c tb fb htb i h2 s hk
  | ⟨59, hk⟩ => L2B_at_59 c tb fb htb i h2 s hk
  | ⟨60, hk⟩ => L2B_at_60 c tb fb htb i h2 s hk
  | ⟨61, hk⟩ => L2B_at_61 c tb fb htb i h2 s hk
  | ⟨62, hk⟩ => L2B_at_62 c tb fb htb i h2 s hk
  | ⟨63, hk⟩ => L2B_at_63 c tb fb htb i h2 s hk
  | ⟨_ + 64, h⟩ => absurd h (Nat.not_lt.2 (Nat.le_add_left _ _))
/-- Slot s of array B's scratch, read whole once the copies of fetch 2 of grid point t have landed, is the gathered rows. -/
theorem read2B (htb : ∀ y, (tb y).toNat < 4096) (t : Fin grid0.N) (h2 : k0_cond2 (grid0.coords t) = 1#1) (hb : (t.val + 1) < 32) (s : Fin 2) :
    scB.view.readAt (Elt F) (Rect.unit (s := S2x8x64x1024) ![s.val, 0, 0, 0] S1x8x64x1024.size (inb_slot s)).toLoadRect (glue_B c (L2B c tb fb htb (grid0.coords t) h2 s)) = gath fb (rowsOf tb (t.val + 1)) :=
  (read_landB c s (N2 c tb (grid0.coords t) h2) (N2_lt c tb htb (grid0.coords t) h2) fb (L2B c tb fb htb (grid0.coords t) h2 s) (L2B_at c tb fb htb (grid0.coords t) h2 s)).trans
    (congrArg (gath fb) (funext (rows2_eq c tb htb t h2 hb)))

end

end Cert.KernelIdeal.Hand

end
-- ==== Proof.KI.TokFam.lean ====
/-
  A slot's 64 read shares of an argument array, each split into the array row its copy borrows and the rest of the share.

  Share by share this is the split of a points-to along a subset (the row's elements and their complement); under the
  separating conjunction over the 64 row numbers the 64 splits are one equation, and the conjunction of the pairs is the
  pair of the conjunctions. The last lemma restates such an equation when the two conjunctions are spelt otherwise.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import proofs.«422764_j1194000908612_2_alg».proof.Proof.KI.Plumb
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The 64 shares q r of array aM whole: the 64 rows at offsets off r, each at its share, and what is left of each share. -/
theorem toks_family_a (c : Dev nD) (q : Fin 64 → PosShare TreeShare) (off : Fin 64 → Fin 3 → ℕ)
    (h : ∀ r a, off r a + S8x1x1024.size a ≤ S8x4096x1024.size a) (fx : MBuf (F := F) c aM) :
    bigSep Finset.univ (fun r : Fin 64 => (aM.view.loc (c : Thread nD τ) ↦{q r} fx : sProp 𝕄))
      = iprop(bigSep Finset.univ (fun r : Fin 64 => heldQ (F := F) c (srcM aM (off r) (h r)) (q r) fx)
          ∗ bigSep Finset.univ (fun r : Fin 64 => (aM.view.loc (c : Thread nD τ) ↦[Finset.univ \ (srcM aM (off r) (h r)).view.set]{q r} fx : sProp 𝕄))) := by
  refine Eq.trans (BI.bigSep_congr fun r _ => BI.equiv_iff.mp ⟨(tok_split_a c (q r) (off r) (h r) fx).1, (tok_split_a c (q r) (off r) (h r) fx).2⟩) ?_
  exact BI.bigSep_sep _ _ _

/-- The same for array bM. -/
theorem toks_family_b (c : Dev nD) (q : Fin 64 → PosShare TreeShare) (off : Fin 64 → Fin 3 → ℕ)
    (h : ∀ r a, off r a + S8x1x1024.size a ≤ S8x4096x1024.size a) (fx : MBuf (F := F) c bM) :
    bigSep Finset.univ (fun r : Fin 64 => (bM.view.loc (c : Thread nD τ) ↦{q r} fx : sProp 𝕄))
      = iprop(bigSep Finset.univ (fun r : Fin 64 => heldQ (F := F) c (srcM bM (off r) (h r)) (q r) fx)
          ∗ bigSep Finset.univ (fun r : Fin 64 => (bM.view.loc (c : Thread nD τ) ↦[Finset.univ \ (srcM bM (off r) (h r)).view.set]{q r} fx : sProp 𝕄))) := by
  refine Eq.trans (BI.bigSep_congr fun r _ => BI.equiv_iff.mp ⟨(tok_split_b c (q r) (off r) (h r) fx).1, (tok_split_b c (q r) (off r) (h r) fx).2⟩) ?_
  exact BI.bigSep_sep _ _ _

/-- An equation P = (∗ S) ∗ (∗ R), its first conjunction written out as a chain and its second family renamed. -/
theorem equiv_of_family {M : Type} [URA M] {P chain : sProp M} {S R R' : Fin 64 → sProp M}
    (e : P = iprop(bigSep Finset.univ S ∗ bigSep Finset.univ R)) (hS : bigSep Finset.univ S = chain) (hR : R = R') :
    P ⊣⊢ iprop(chain ∗ bigSep Finset.univ R') := by
  subst hS hR
  exact ⟨Entails.of_eq e, Entails.of_eq e.symm⟩

end Cert.KernelIdeal.Hand

end
-- ==== Proof.KI.Toks.lean ====
/-
  A slot's 64 read shares of an array and the 64 array rows its copies borrow, once per fetch and per array. This module is a TABLE:
  the 64 offset vectors of a fetch's copies with their in-bounds facts, and for each of the four statements the instance of the hand lemmas
  toks_family_a / toks_family_b and equiv_of_family (KI/TokFam.lean) and star64 (KI/Plumb.lean) at that table; every arm of a table is rfl.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Tab
import proofs.«422764_j1194000908612_2_alg».proof.Proof.KI.Canon
import proofs.«422764_j1194000908612_2_alg».proof.Proof.KI.Plumb
import proofs.«422764_j1194000908612_2_alg».proof.Proof.KI.TokFam
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (fa : MBuf (F := F) c aM) (fb : MBuf (F := F) c bM)

/-- The offset vectors of the array rows the 64 copies of fetch 1 read, in the order the copies are started. -/
def O1 (i : grid0.Coords) (h1 : k0_cond1 i = 1#1) : Fin 64 → Fin 3 → ℕ
  | ⟨0, _⟩ => k0_off2 (W1_0 c tb i h1)
  | ⟨1, _⟩ => k0_off4 (W1_1 c tb i h1)
  | ⟨2, _⟩ => k0_off6 (W1_2 c tb i h1)
  | ⟨3, _⟩ => k0_off8 (W1_3 c tb i h1)
  | ⟨4, _⟩ => k0_off10 (W1_4 c tb i h1)
  | ⟨5, _⟩ => k0_off12 (W1_5 c tb i h1)
  | ⟨6, _⟩ => k0_off14 (W1_6 c tb i h1)
  | ⟨7, _⟩ => k0_off16 (W1_7 c tb i h1)
  | ⟨8, _⟩ => k0_off18 (W1_8 c tb i h1)
  | ⟨9, _⟩ => k0_off20 (W1_9 c tb i h1)
  | ⟨10, _⟩ => k0_off22 (W1_10 c tb i h1)
  | ⟨11, _⟩ => k0_off24 (W1_11 c tb i h1)
  | ⟨12, _⟩ => k0_off26 (W1_12 c tb i h1)
  | ⟨13, _⟩ => k0_off28 (W1_13 c tb i h1)
  | ⟨14, _⟩ => k0_off30 (W1_14 c tb i h1)
  | ⟨15, _⟩ => k0_off32 (W1_15 c tb i h1)
  | ⟨16, _⟩ => k0_off34 (W1_16 c tb i h1)
  | ⟨17, _⟩ => k0_off36 (W1_17 c tb i h1)
  | ⟨18, _⟩ => k0_off38 (W1_18 c tb i h1)
  | ⟨19, _⟩ => k0_off40 (W1_19 c tb i h1)
  | ⟨20, _⟩ => k0_off42 (W1_20 c tb i h1)
  | ⟨21, _⟩ => k0_off44 (W1_21 c tb i h1)
  | ⟨22, _⟩ => k0_off46 (W1_22 c tb i h1)
  | ⟨23, _⟩ => k0_off48 (W1_23 c tb i h1)
  | ⟨24, _⟩ => k0_off50 (W1_24 c tb i h1)
  | ⟨25, _⟩ => k0_off52 (W1_25 c tb i h1)
  | ⟨26, _⟩ => k0_off54 (W1_26 c tb i h1)
  | ⟨27, _⟩ => k0_off56 (W1_27 c tb i h1)
  | ⟨28, _⟩ => k0_off58 (W1_28 c tb i h1)
  | ⟨29, _⟩ => k0_off60 (W1_29 c tb i h1)
  | ⟨30, _⟩ => k0_off62 (W1_30 c tb i h1)
  | ⟨31, _⟩ => k0_off64 (W1_31 c tb i h1)
  | ⟨32, _⟩ => k0_off66 (W1_32 c tb i h1)
  | ⟨33, _⟩ => k0_off68 (W1_33 c tb i h1)
  | ⟨34, _⟩ => k0_off70 (W1_34 c tb i h1)
  | ⟨35, _⟩ => k0_off72 (W1_35 c tb i h1)
  | ⟨36, _⟩ => k0_off74 (W1_36 c tb i h1)
  | ⟨37, _⟩ => k0_off76 (W1_37 c tb i h1)
  | ⟨38, _⟩ => k0_off78 (W1_38 c tb i h1)
  | ⟨39, _⟩ => k0_off80 (W1_39 c tb i h1)
  | ⟨40, _⟩ => k0_off82 (W1_40 c tb i h1)
  | ⟨41, _⟩ => k0_off84 (W1_41 c tb i h1)
  | ⟨42, _⟩ => k0_off86 (W1_42 c tb i h1)
  | ⟨43, _⟩ => k0_off88 (W1_43 c tb i h1)
  | ⟨44, _⟩ => k0_off90 (W1_44 c tb i h1)
  | ⟨45, _⟩ => k0_off92 (W1_45 c tb i h1)
  | ⟨46, _⟩ => k0_off94 (W1_46 c tb i h1)
  | ⟨47, _⟩ => k0_off96 (W1_47 c tb i h1)
  | ⟨48, _⟩ => k0_off98 (W1_48 c tb i h1)
  | ⟨49, _⟩ => k0_off100 (W1_49 c tb i h1)
  | ⟨50, _⟩ => k0_off102 (W1_50 c tb i h1)
  | ⟨51, _⟩ => k0_off104 (W1_51 c tb i h1)
  | ⟨52, _⟩ => k0_off106 (W1_52 c tb i h1)
  | ⟨53, _⟩ => k0_off108 (W1_53 c tb i h1)
  | ⟨54, _⟩ => k0_off110 (W1_54 c tb i h1)
  | ⟨55, _⟩ => k0_off112 (W1_55 c tb i h1)
  | ⟨56, _⟩ => k0_off114 (W1_56 c tb i h1)
  | ⟨57, _⟩ => k0_off116 (W1_57 c tb i h1)
  | ⟨58, _⟩ => k0_off118 (W1_58 c tb i h1)
  | ⟨59, _⟩ => k0_off120 (W1_59 c tb i h1)
  | ⟨60, _⟩ => k0_off122 (W1_60 c tb i h1)
  | ⟨61, _⟩ => k0_off124 (W1_61 c tb i h1)
  | ⟨62, _⟩ => k0_off126 (W1_62 c tb i h1)
  | ⟨63, _⟩ => k0_off128 (W1_63 c tb i h1)
  | ⟨_ + 64, h⟩ => absurd h (Nat.not_lt.2 (Nat.le_add_left _ _))
/-- Each names a row inside the array. -/
theorem H1 (htb : ∀ y, (tb y).toNat < 4096) (i : grid0.Coords) (h1 : k0_cond1 i = 1#1) : ∀ (r : Fin 64) (a : Fin 3), O1 c tb i h1 r a + S8x1x1024.size a ≤ S8x4096x1024.size a
  | ⟨0, _⟩ => k0_off2_inb i _ (hw1_0 c tb htb i h1) h1
  | ⟨1, _⟩ => k0_off4_inb i _ (hw1_1 c tb htb i h1) h1
  | ⟨2, _⟩ => k0_off6_inb i _ (hw1_2 c tb htb i h1) h1
  | ⟨3, _⟩ => k0_off8_inb i _ (hw1_3 c tb htb i h1) h1
  | ⟨4, _⟩ => k0_off10_inb i _ (hw1_4 c tb htb i h1) h1
  | ⟨5, _⟩ => k0_off12_inb i _ (hw1_5 c tb htb i h1) h1
  | ⟨6, _⟩ => k0_off14_inb i _ (hw1_6 c tb htb i h1) h1
  | ⟨7, _⟩ => k0_off16_inb i _ (hw1_7 c tb htb i h1) h1
  | ⟨8, _⟩ => k0_off18_inb i _ (hw1_8 c tb htb i h1) h1
  | ⟨9, _⟩ => k0_off20_inb i _ (hw1_9 c tb htb i h1) h1
  | ⟨10, _⟩ => k0_off22_inb i _ (hw1_10 c tb htb i h1) h1
  | ⟨11, _⟩ => k0_off24_inb i _ (hw1_11 c tb htb i h1) h1
  | ⟨12, _⟩ => k0_off26_inb i _ (hw1_12 c tb htb i h1) h1
  | ⟨13, _⟩ => k0_off28_inb i _ (hw1_13 c tb htb i h1) h1
  | ⟨14, _⟩ => k0_off30_inb i _ (hw1_14 c tb htb i h1) h1
  | ⟨15, _⟩ => k0_off32_inb i _ (hw1_15 c tb htb i h1) h1
  | ⟨16, _⟩ => k0_off34_inb i _ (hw1_16 c tb htb i h1) h1
  | ⟨17, _⟩ => k0_off36_inb i _ (hw1_17 c tb htb i h1) h1
  | ⟨18, _⟩ => k0_off38_inb i _ (hw1_18 c tb htb i h1) h1
  | ⟨19, _⟩ => k0_off40_inb i _ (hw1_19 c tb htb i h1) h1
  | ⟨20, _⟩ => k0_off42_inb i _ (hw1_20 c tb htb i h1) h1
  | ⟨21, _⟩ => k0_off44_inb i _ (hw1_21 c tb htb i h1) h1
  | ⟨22, _⟩ => k0_off46_inb i _ (hw1_22 c tb htb i h1) h1
  | ⟨23, _⟩ => k0_off48_inb i _ (hw1_23 c tb htb i h1) h1
  | ⟨24, _⟩ => k0_off50_inb i _ (hw1_24 c tb htb i h1) h1
  | ⟨25, _⟩ => k0_off52_inb i _ (hw1_25 c tb htb i h1) h1
  | ⟨26, _⟩ => k0_off54_inb i _ (hw1_26 c tb htb i h1) h1
  | ⟨27, _⟩ => k0_off56_inb i _ (hw1_27 c tb htb i h1) h1
  | ⟨28, _⟩ => k0_off58_inb i _ (hw1_28 c tb htb i h1) h1
  | ⟨29, _⟩ => k0_off60_inb i _ (hw1_29 c tb htb i h1) h1
  | ⟨30, _⟩ => k0_off62_inb i _ (hw1_30 c tb htb i h1) h1
  | ⟨31, _⟩ => k0_off64_inb i _ (hw1_31 c tb htb i h1) h1
  | ⟨32, _⟩ => k0_off66_inb i _ (hw1_32 c tb htb i h1) h1
  | ⟨33, _⟩ => k0_off68_inb i _ (hw1_33 c tb htb i h1) h1
  | ⟨34, _⟩ => k0_off70_inb i _ (hw1_34 c tb htb i h1) h1
  | ⟨35, _⟩ => k0_off72_inb i _ (hw1_35 c tb htb i h1) h1
  | ⟨36, _⟩ => k0_off74_inb i _ (hw1_36 c tb htb i h1) h1
  | ⟨37, _⟩ => k0_off76_inb i _ (hw1_37 c tb htb i h1) h1
  | ⟨38, _⟩ => k0_off78_inb i _ (hw1_38 c tb htb i h1) h1
  | ⟨39, _⟩ => k0_off80_inb i _ (hw1_39 c tb htb i h1) h1
  | ⟨40, _⟩ => k0_off82_inb i _ (hw1_40 c tb htb i h1) h1
  | ⟨41, _⟩ => k0_off84_inb i _ (hw1_41 c tb htb i h1) h1
  | ⟨42, _⟩ => k0_off86_inb i _ (hw1_42 c tb htb i h1) h1
  | ⟨43, _⟩ => k0_off88_inb i _ (hw1_43 c tb htb i h1) h1
  | ⟨44, _⟩ => k0_off90_inb i _ (hw1_44 c tb htb i h1) h1
  | ⟨45, _⟩ => k0_off92_inb i _ (hw1_45 c tb htb i h1) h1
  | ⟨46, _⟩ => k0_off94_inb i _ (hw1_46 c tb htb i h1) h1
  | ⟨47, _⟩ => k0_off96_inb i _ (hw1_47 c tb htb i h1) h1
  | ⟨48, _⟩ => k0_off98_inb i _ (hw1_48 c tb htb i h1) h1
  | ⟨49, _⟩ => k0_off100_inb i _ (hw1_49 c tb htb i h1) h1
  | ⟨50, _⟩ => k0_off102_inb i _ (hw1_50 c tb htb i h1) h1
  | ⟨51, _⟩ => k0_off104_inb i _ (hw1_51 c tb htb i h1) h1
  | ⟨52, _⟩ => k0_off106_inb i _ (hw1_52 c tb htb i h1) h1
  | ⟨53, _⟩ => k0_off108_inb i _ (hw1_53 c tb htb i h1) h1
  | ⟨54, _⟩ => k0_off110_inb i _ (hw1_54 c tb htb i h1) h1
  | ⟨55, _⟩ => k0_off112_inb i _ (hw1_55 c tb htb i h1) h1
  | ⟨56, _⟩ => k0_off114_inb i _ (hw1_56 c tb htb i h1) h1
  | ⟨57, _⟩ => k0_off116_inb i _ (hw1_57 c tb htb i h1) h1
  | ⟨58, _⟩ => k0_off118_inb i _ (hw1_58 c tb htb i h1) h1
  | ⟨59, _⟩ => k0_off120_inb i _ (hw1_59 c tb htb i h1) h1
  | ⟨60, _⟩ => k0_off122_inb i _ (hw1_60 c tb htb i h1) h1
  | ⟨61, _⟩ => k0_off124_inb i _ (hw1_61 c tb htb i h1) h1
  | ⟨62, _⟩ => k0_off126_inb i _ (hw1_62 c tb htb i h1) h1
  | ⟨63, _⟩ => k0_off128_inb i _ (hw1_63 c tb htb i h1) h1
  | ⟨_ + 64, h⟩ => absurd h (Nat.not_lt.2 (Nat.le_add_left _ _))
/-- The offset vectors of the array rows the 64 copies of fetch 2 read, in the order the copies are started. -/
def O2 (i : grid0.Coords) (h2 : k0_cond2 i = 1#1) : Fin 64 → Fin 3 → ℕ
  | ⟨0, _⟩ => k0_off197 (W2_0 c tb i h2)
  | ⟨1, _⟩ => k0_off202 (W2_1 c tb i h2)
  | ⟨2, _⟩ => k0_off207 (W2_2 c tb i h2)
  | ⟨3, _⟩ => k0_off212 (W2_3 c tb i h2)
  | ⟨4, _⟩ => k0_off217 (W2_4 c tb i h2)
  | ⟨5, _⟩ => k0_off222 (W2_5 c tb i h2)
  | ⟨6, _⟩ => k0_off227 (W2_6 c tb i h2)
  | ⟨7, _⟩ => k0_off232 (W2_7 c tb i h2)
  | ⟨8, _⟩ => k0_off237 (W2_8 c tb i h2)
  | ⟨9, _⟩ => k0_off242 (W2_9 c tb i h2)
  | ⟨10, _⟩ => k0_off247 (W2_10 c tb i h2)
  | ⟨11, _⟩ => k0_off252 (W2_11 c tb i h2)
  | ⟨12, _⟩ => k0_off257 (W2_12 c tb i h2)
  | ⟨13, _⟩ => k0_off262 (W2_13 c tb i h2)
  | ⟨14, _⟩ => k0_off267 (W2_14 c tb i h2)
  | ⟨15, _⟩ => k0_off272 (W2_15 c tb i h2)
  | ⟨16, _⟩ => k0_off277 (W2_16 c tb i h2)
  | ⟨17, _⟩ => k0_off282 (W2_17 c tb i h2)
  | ⟨18, _⟩ => k0_off287 (W2_18 c tb i h2)
  | ⟨19, _⟩ => k0_off292 (W2_19 c tb i h2)
  | ⟨20, _⟩ => k0_off297 (W2_20 c tb i h2)
  | ⟨21, _⟩ => k0_off302 (W2_21 c tb i h2)
  | ⟨22, _⟩ => k0_off307 (W2_22 c tb i h2)
  | ⟨23, _⟩ => k0_off312 (W2_23 c tb i h2)
  | ⟨24, _⟩ => k0_off317 (W2_24 c tb i h2)
  | ⟨25, _⟩ => k0_off322 (W2_25 c tb i h2)
  | ⟨26, _⟩ => k0_off327 (W2_26 c tb i h2)
  | ⟨27, _⟩ => k0_off332 (W2_27 c tb i h2)
  | ⟨28, _⟩ => k0_off337 (W2_28 c tb i h2)
  | ⟨29, _⟩ => k0_off342 (W2_29 c tb i h2)
  | ⟨30, _⟩ => k0_off347 (W2_30 c tb i h2)
  | ⟨31, _⟩ => k0_off352 (W2_31 c tb i h2)
  | ⟨32, _⟩ => k0_off357 (W2_32 c tb i h2)
  | ⟨33, _⟩ => k0_off362 (W2_33 c tb i h2)
  | ⟨34, _⟩ => k0_off367 (W2_34 c tb i h2)
  | ⟨35, _⟩ => k0_off372 (W2_35 c tb i h2)
  | ⟨36, _⟩ => k0_off377 (W2_36 c tb i h2)
  | ⟨37, _⟩ => k0_off382 (W2_37 c tb i h2)
  | ⟨38, _⟩ => k0_off387 (W2_38 c tb i h2)
  | ⟨39, _⟩ => k0_off392 (W2_39 c tb i h2)
  | ⟨40, _⟩ => k0_off397 (W2_40 c tb i h2)
  | ⟨41, _⟩ => k0_off402 (W2_41 c tb i h2)
  | ⟨42, _⟩ => k0_off407 (W2_42 c tb i h2)
  | ⟨43, _⟩ => k0_off412 (W2_43 c tb i h2)
  | ⟨44, _⟩ => k0_off417 (W2_44 c tb i h2)
  | ⟨45, _⟩ => k0_off422 (W2_45 c tb i h2)
  | ⟨46, _⟩ => k0_off427 (W2_46 c tb i h2)
  | ⟨47, _⟩ => k0_off432 (W2_47 c tb i h2)
  | ⟨48, _⟩ => k0_off437 (W2_48 c tb i h2)
  | ⟨49, _⟩ => k0_off442 (W2_49 c tb i h2)
  | ⟨50, _⟩ => k0_off447 (W2_50 c tb i h2)
  | ⟨51, _⟩ => k0_off452 (W2_51 c tb i h2)
  | ⟨52, _⟩ => k0_off457 (W2_52 c tb i h2)
  | ⟨53, _⟩ => k0_off462 (W2_53 c tb i h2)
  | ⟨54, _⟩ => k0_off467 (W2_54 c tb i h2)
  | ⟨55, _⟩ => k0_off472 (W2_55 c tb i h2)
  | ⟨56, _⟩ => k0_off477 (W2_56 c tb i h2)
  | ⟨57, _⟩ => k0_off482 (W2_57 c tb i h2)
  | ⟨58, _⟩ => k0_off487 (W2_58 c tb i h2)
  | ⟨59, _⟩ => k0_off492 (W2_59 c tb i h2)
  | ⟨60, _⟩ => k0_off497 (W2_60 c tb i h2)
  | ⟨61, _⟩ => k0_off502 (W2_61 c tb i h2)
  | ⟨62, _⟩ => k0_off507 (W2_62 c tb i h2)
  | ⟨63, _⟩ => k0_off512 (W2_63 c tb i h2)
  | ⟨_ + 64, h⟩ => absurd h (Nat.not_lt.2 (Nat.le_add_left _ _))
/-- Each names a row inside the array. -/
theorem H2 (htb : ∀ y, (tb y).toNat < 4096) (i : grid0.Coords) (h2 : k0_cond2 i = 1#1) : ∀ (r : Fin 64) (a : Fin 3), O2 c tb i h2 r a + S8x1x1024.size a ≤ S8x4096x1024.size a
  | ⟨0, _⟩ => k0_off197_inb i _ (hw2_0 c tb htb i h2) h2
  | ⟨1, _⟩ => k0_off202_inb i _ (hw2_1 c tb htb i h2) h2
  | ⟨2, _⟩ => k0_off207_inb i _ (hw2_2 c tb htb i h2) h2
  | ⟨3, _⟩ => k0_off212_inb i _ (hw2_3 c tb htb i h2) h2
  | ⟨4, _⟩ => k0_off217_inb i _ (hw2_4 c tb htb i h2) h2
  | ⟨5, _⟩ => k0_off222_inb i _ (hw2_5 c tb htb i h2) h2
  | ⟨6, _⟩ => k0_off227_inb i _ (hw2_6 c tb htb i h2) h2
  | ⟨7, _⟩ => k0_off232_inb i _ (hw2_7 c tb htb i h2) h2
  | ⟨8, _⟩ => k0_off237_inb i _ (hw2_8 c tb htb i h2) h2
  | ⟨9, _⟩ => k0_off242_inb i _ (hw2_9 c tb htb i h2) h2
  | ⟨10, _⟩ => k0_off247_inb i _ (hw2_10 c tb htb i h2) h2
  | ⟨11, _⟩ => k0_off252_inb i _ (hw2_11 c tb htb i h2) h2
  | ⟨12, _⟩ => k0_off257_inb i _ (hw2_12 c tb htb i h2) h2
  | ⟨13, _⟩ => k0_off262_inb i _ (hw2_13 c tb htb i h2) h2
  | ⟨14, _⟩ => k0_off267_inb i _ (hw2_14 c tb htb i h2) h2
  | ⟨15, _⟩ => k0_off272_inb i _ (hw2_15 c tb htb i h2) h2
  | ⟨16, _⟩ => k0_off277_inb i _ (hw2_16 c tb htb i h2) h2
  | ⟨17, _⟩ => k0_off282_inb i _ (hw2_17 c tb htb i h2) h2
  | ⟨18, _⟩ => k0_off287_inb i _ (hw2_18 c tb htb i h2) h2
  | ⟨19, _⟩ => k0_off292_inb i _ (hw2_19 c tb htb i h2) h2
  | ⟨20, _⟩ => k0_off297_inb i _ (hw2_20 c tb htb i h2) h2
  | ⟨21, _⟩ => k0_off302_inb i _ (hw2_21 c tb htb i h2) h2
  | ⟨22, _⟩ => k0_off307_inb i _ (hw2_22 c tb htb i h2) h2
  | ⟨23, _⟩ => k0_off312_inb i _ (hw2_23 c tb htb i h2) h2
  | ⟨24, _⟩ => k0_off317_inb i _ (hw2_24 c tb htb i h2) h2
  | ⟨25, _⟩ => k0_off322_inb i _ (hw2_25 c tb htb i h2) h2
  | ⟨26, _⟩ => k0_off327_inb i _ (hw2_26 c tb htb i h2) h2
  | ⟨27, _⟩ => k0_off332_inb i _ (hw2_27 c tb htb i h2) h2
  | ⟨28, _⟩ => k0_off337_inb i _ (hw2_28 c tb htb i h2) h2
  | ⟨29, _⟩ => k0_off342_inb i _ (hw2_29 c tb htb i h2) h2
  | ⟨30, _⟩ => k0_off347_inb i _ (hw2_30 c tb htb i h2) h2
  | ⟨31, _⟩ => k0_off352_inb i _ (hw2_31 c tb htb i h2) h2
  | ⟨32, _⟩ => k0_off357_inb i _ (hw2_32 c tb htb i h2) h2
  | ⟨33, _⟩ => k0_off362_inb i _ (hw2_33 c tb htb i h2) h2
  | ⟨34, _⟩ => k0_off367_inb i _ (hw2_34 c tb htb i h2) h2
  | ⟨35, _⟩ => k0_off372_inb i _ (hw2_35 c tb htb i h2) h2
  | ⟨36, _⟩ => k0_off377_inb i _ (hw2_36 c tb htb i h2) h2
  | ⟨37, _⟩ => k0_off382_inb i _ (hw2_37 c tb htb i h2) h2
  | ⟨38, _⟩ => k0_off387_inb i _ (hw2_38 c tb htb i h2) h2
  | ⟨39, _⟩ => k0_off392_inb i _ (hw2_39 c tb htb i h2) h2
  | ⟨40, _⟩ => k0_off397_inb i _ (hw2_40 c tb htb i h2) h2
  | ⟨41, _⟩ => k0_off402_inb i _ (hw2_41 c tb htb i h2) h2
  | ⟨42, _⟩ => k0_off407_inb i _ (hw2_42 c tb htb i h2) h2
  | ⟨43, _⟩ => k0_off412_inb i _ (hw2_43 c tb htb i h2) h2
  | ⟨44, _⟩ => k0_off417_inb i _ (hw2_44 c tb htb i h2) h2
  | ⟨45, _⟩ => k0_off422_inb i _ (hw2_45 c tb htb i h2) h2
  | ⟨46, _⟩ => k0_off427_inb i _ (hw2_46 c tb htb i h2) h2
  | ⟨47, _⟩ => k0_off432_inb i _ (hw2_47 c tb htb i h2) h2
  | ⟨48, _⟩ => k0_off437_inb i _ (hw2_48 c tb htb i h2) h2
  | ⟨49, _⟩ => k0_off442_inb i _ (hw2_49 c tb htb i h2) h2
  | ⟨50, _⟩ => k0_off447_inb i _ (hw2_50 c tb htb i h2) h2
  | ⟨51, _⟩ => k0_off452_inb i _ (hw2_51 c tb htb i h2) h2
  | ⟨52, _⟩ => k0_off457_inb i _ (hw2_52 c tb htb i h2) h2
  | ⟨53, _⟩ => k0_off462_inb i _ (hw2_53 c tb htb i h2) h2
  | ⟨54, _⟩ => k0_off467_inb i _ (hw2_54 c tb htb i h2) h2
  | ⟨55, _⟩ => k0_off472_inb i _ (hw2_55 c tb htb i h2) h2
  | ⟨56, _⟩ => k0_off477_inb i _ (hw2_56 c tb htb i h2) h2
  | ⟨57, _⟩ => k0_off482_inb i _ (hw2_57 c tb htb i h2) h2
  | ⟨58, _⟩ => k0_off487_inb i _ (hw2_58 c tb htb i h2) h2
  | ⟨59, _⟩ => k0_off492_inb i _ (hw2_59 c tb htb i h2) h2
  | ⟨60, _⟩ => k0_off497_inb i _ (hw2_60 c tb htb i h2) h2
  | ⟨61, _⟩ => k0_off502_inb i _ (hw2_61 c tb htb i h2) h2
  | ⟨62, _⟩ => k0_off507_inb i _ (hw2_62 c tb htb i h2) h2
  | ⟨63, _⟩ => k0_off512_inb i _ (hw2_63 c tb htb i h2) h2
  | ⟨_ + 64, h⟩ => absurd h (Nat.not_lt.2 (Nat.le_add_left _ _))
/-- Slot s's 64 read shares of array A, whole, are the 64 array rows the copies of fetch 1 borrow and what is left of each share. -/
theorem toks1A (htb : ∀ y, (tb y).toNat < 4096) (i : grid0.Coords) (h1 : k0_cond1 i = 1#1) (s : Fin 2) :
    (bigSep Finset.univ (fun r : Fin 64 => (aM.view.loc (c : Thread nD τ) ↦{qTok s r} fa : sProp 𝕄)))
      ⊣⊢ iprop(iprop(heldQ c (s1A_0 c tb htb i h1) (qTok s ⟨0, Nat.le_of_ble_eq_true rfl⟩) fa ∗ heldQ c (s1A_1 c tb htb i h1) (qTok s ⟨1, Nat.le_of_ble_eq_true rfl⟩) fa ∗ heldQ c (s1A_2 c tb htb i h1) (qTok s ⟨2, Nat.le_of_ble_eq_true rfl⟩) fa ∗ heldQ c (s1A_3 c tb htb i h1) (qTok s ⟨3, Nat.le_of_ble_eq_true rfl⟩) fa ∗ heldQ c (s1A_4 c tb htb i h1) (qTok s ⟨4, Nat.le_of_ble_eq_true rfl⟩) fa ∗ heldQ c (s1A_5 c tb htb i h1) (qTok s ⟨5, Nat.le_of_ble_eq_true rfl⟩) fa ∗ heldQ c (s1A_6 c tb htb i h1) (qTok s ⟨6, Nat.le_of_ble_eq_true rfl⟩) fa ∗ heldQ c (s1A_7 c tb htb i h1) (qTok s ⟨7, Nat.le_of_ble_eq_true rfl⟩) fa ∗ heldQ c (s1A_8 c tb htb i h1) (qTok s ⟨8, Nat.le_of_ble_eq_true rfl⟩) fa ∗ heldQ c (s1A_9 c tb htb i h1) (qTok s ⟨9, Nat.le_of_ble_eq_true rfl⟩) fa ∗ heldQ c (s1A_10 c tb htb i h1) (qTok s ⟨10, Nat.le_of_ble_eq_true rfl⟩) fa ∗ heldQ c (s1A_11 c tb htb i h1) (qTok s ⟨11, Nat.le_of_ble_eq_true rfl⟩) fa ∗ heldQ c (s1A_12 c tb htb i h1) (qTok s ⟨12, Nat.le_of_ble_eq_true rfl⟩) fa ∗ heldQ c (s1A_13 c tb htb i h1) (qTok s ⟨13, Nat.le_of_ble_eq_true rfl⟩) fa ∗ heldQ c (s1A_14 c tb htb i h1) (qTok s ⟨14, Nat.le_of_ble_eq_true rfl⟩) fa ∗ heldQ c (s1A_15 c tb htb i h1) (qTok s ⟨15, Nat.le_of_ble_eq_true rfl⟩) fa ∗ heldQ c (s1A_16 c tb htb i h1) (qTok s ⟨16, Nat.le_of_ble_eq_true rfl⟩) fa ∗ heldQ c (s1A_17 c tb htb i h1) (qTok s ⟨17, Nat.le_of_ble_eq_true rfl⟩) fa ∗ heldQ c (s1A_18 c tb htb i h1) (qTok s ⟨18, Nat.le_of_ble_eq_true rfl⟩) fa ∗ heldQ c (s1A_19 c tb htb i h1) (qTok s ⟨19, Nat.le_of_ble_eq_true rfl⟩) fa ∗ heldQ c (s1A_20 c tb htb i h1) (qTok s ⟨20, Nat.le_of_ble_eq_true rfl⟩) fa ∗ heldQ c (s1A_21 c tb htb i h1) (qTok s ⟨21, Nat.le_of_ble_eq_true rfl⟩) fa ∗ heldQ c (s1A_22 c tb htb i h1) (qTok s ⟨22, Nat.le_of_ble_eq_true rfl⟩) fa ∗ heldQ c (s1A_23 c tb htb i h1) (qTok s ⟨23, Nat.le_of_ble_eq_true rfl⟩) fa ∗ heldQ c (s1A_24 c tb htb i h1) (qTok s ⟨24, Nat.le_of_ble_eq_true rfl⟩) fa ∗ heldQ c (s1A_25 c tb htb i h1) (qTok s ⟨25, Nat.le_of_ble_eq_true rfl⟩) fa ∗ heldQ c (s1A_26 c tb htb i h1) (qTok s ⟨26, Nat.le_of_ble_eq_true rfl⟩) fa ∗ heldQ c (s1A_27 c tb htb i h1) (qTok s ⟨27, Nat.le_of_ble_eq_true rfl⟩) fa ∗ heldQ c (s1A_28 c tb htb i h1) (qTok s ⟨28, Nat.le_of_ble_eq_true rfl⟩) fa ∗ heldQ c (s1A_29 c tb htb i h1) (qTok s ⟨29, Nat.le_of_ble_eq_true rfl⟩) fa ∗ heldQ c (s1A_30 c tb htb i h1) (qTok s ⟨30, Nat.le_of_ble_eq_true rfl⟩) fa ∗ heldQ c (s1A_31 c tb htb i h1) (qTok s ⟨31, Nat.le_of_ble_eq_true rfl⟩) fa ∗ heldQ c (s1A_32 c tb htb i h1) (qTok s ⟨32, Nat.le_of_ble_eq_true rfl⟩) fa ∗ heldQ c (s1A_33 c tb htb i h1) (qTok s ⟨33, Nat.le_of_ble_eq_true rfl⟩) fa ∗ heldQ c (s1A_34 c tb htb i h1) (qTok s ⟨34, Nat.le_of_ble_eq_true rfl⟩) fa ∗ heldQ c (s1A_35 c tb htb i h1) (qTok s ⟨35, Nat.le_of_ble_eq_true rfl⟩) fa ∗ heldQ c (s1A_36 c tb htb i h1) (qTok s ⟨36, Nat.le_of_ble_eq_true rfl⟩) fa ∗ heldQ c (s1A_37 c tb htb i h1) (qTok s ⟨37, Nat.le_of_ble_eq_true rfl⟩) fa ∗ heldQ c (s1A_38 c tb htb i h1) (qTok s ⟨38, Nat.le_of_ble_eq_true rfl⟩) fa ∗ heldQ c (s1A_39 c tb htb i h1) (qTok s ⟨39, Nat.le_of_ble_eq_true rfl⟩) fa ∗ heldQ c (s1A_40 c tb htb i h1) (qTok s ⟨40, Nat.le_of_ble_eq_true rfl⟩) fa ∗ heldQ c (s1A_41 c tb htb i h1) (qTok s ⟨41, Nat.le_of_ble_eq_true rfl⟩) fa ∗ heldQ c (s1A_42 c tb htb i h1) (qTok s ⟨42, Nat.le_of_ble_eq_true rfl⟩) fa ∗ heldQ c (s1A_43 c tb htb i h1) (qTok s ⟨43, Nat.le_of_ble_eq_true rfl⟩) fa ∗ heldQ c (s1A_44 c tb htb i h1) (qTok s ⟨44, Nat.le_of_ble_eq_true rfl⟩) fa ∗ heldQ c (s1A_45 c tb htb i h1) (qTok s ⟨45, Nat.le_of_ble_eq_true rfl⟩) fa ∗ heldQ c (s1A_46 c tb htb i h1) (qTok s ⟨46, Nat.le_of_ble_eq_true rfl⟩) fa ∗ heldQ c (s1A_47 c tb htb i h1) (qTok s ⟨47, Nat.le_of_ble_eq_true rfl⟩) fa ∗ heldQ c (s1A_48 c tb htb i h1) (qTok s ⟨48, Nat.le_of_ble_eq_true rfl⟩) fa ∗ heldQ c (s1A_49 c tb htb i h1) (qTok s ⟨49, Nat.le_of_ble_eq_true rfl⟩) fa ∗ heldQ c (s1A_50 c tb htb i h1) (qTok s ⟨50, Nat.le_of_ble_eq_true rfl⟩) fa ∗ heldQ c (s1A_51 c tb htb i h1) (qTok s ⟨51, Nat.le_of_ble_eq_true rfl⟩) fa ∗ heldQ c (s1A_52 c tb htb i h1) (qTok s ⟨52, Nat.le_of_ble_eq_true rfl⟩) fa ∗ heldQ c (s1A_53 c tb htb i h1) (qTok s ⟨53, Nat.le_of_ble_eq_true rfl⟩) fa ∗ heldQ c (s1A_54 c tb htb i h1) (qTok s ⟨54, Nat.le_of_ble_eq_true rfl⟩) fa ∗ heldQ c (s1A_55 c tb htb i h1) (qTok s ⟨55, Nat.le_of_ble_eq_true rfl⟩) fa ∗ heldQ c (s1A_56 c tb htb i h1) (qTok s ⟨56, Nat.le_of_ble_eq_true rfl⟩) fa ∗ heldQ c (s1A_57 c tb htb i h1) (qTok s ⟨57, Nat.le_of_ble_eq_true rfl⟩) fa ∗ heldQ c (s1A_58 c tb htb i h1) (qTok s ⟨58, Nat.le_of_ble_eq_true rfl⟩) fa ∗ heldQ c (s1A_59 c tb htb i h1) (qTok s ⟨59, Nat.le_of_ble_eq_true rfl⟩) fa ∗ heldQ c (s1A_60 c tb htb i h1) (qTok s ⟨60, Nat.le_of_ble_eq_true rfl⟩) fa ∗ heldQ c (s1A_61 c tb htb i h1) (qTok s ⟨61, Nat.le_of_ble_eq_true rfl⟩) fa ∗ heldQ c (s1A_62 c tb htb i h1) (qTok s ⟨62, Nat.le_of_ble_eq_true rfl⟩) fa ∗ heldQ c (s1A_63 c tb htb i h1) (qTok s ⟨63, Nat.le_of_ble_eq_true rfl⟩) fa) ∗ bigSep Finset.univ (R1A c tb fa htb i h1 s)) := by
  refine equiv_of_family (toks_family_a (F := F) c (qTok s) (O1 c tb i h1) (H1 c tb htb i h1) fa) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))
/-- Slot s's 64 read shares of array B, whole, are the 64 array rows the copies of fetch 1 borrow and what is left of each share. -/
theorem toks1B (htb : ∀ y, (tb y).toNat < 4096) (i : grid0.Coords) (h1 : k0_cond1 i = 1#1) (s : Fin 2) :
    (bigSep Finset.univ (fun r : Fin 64 => (bM.view.loc (c : Thread nD τ) ↦{qTok s r} fb : sProp 𝕄)))
      ⊣⊢ iprop(iprop(heldQ c (s1B_0 c tb htb i h1) (qTok s ⟨0, Nat.le_of_ble_eq_true rfl⟩) fb ∗ heldQ c (s1B_1 c tb htb i h1) (qTok s ⟨1, Nat.le_of_ble_eq_true rfl⟩) fb ∗ heldQ c (s1B_2 c tb htb i h1) (qTok s ⟨2, Nat.le_of_ble_eq_true rfl⟩) fb ∗ heldQ c (s1B_3 c tb htb i h1) (qTok s ⟨3, Nat.le_of_ble_eq_true rfl⟩) fb ∗ heldQ c (s1B_4 c tb htb i h1) (qTok s ⟨4, Nat.le_of_ble_eq_true rfl⟩) fb ∗ heldQ c (s1B_5 c tb htb i h1) (qTok s ⟨5, Nat.le_of_ble_eq_true rfl⟩) fb ∗ heldQ c (s1B_6 c tb htb i h1) (qTok s ⟨6, Nat.le_of_ble_eq_true rfl⟩) fb ∗ heldQ c (s1B_7 c tb htb i h1) (qTok s ⟨7, Nat.le_of_ble_eq_true rfl⟩) fb ∗ heldQ c (s1B_8 c tb htb i h1) (qTok s ⟨8, Nat.le_of_ble_eq_true rfl⟩) fb ∗ heldQ c (s1B_9 c tb htb i h1) (qTok s ⟨9, Nat.le_of_ble_eq_true rfl⟩) fb ∗ heldQ c (s1B_10 c tb htb i h1) (qTok s ⟨10, Nat.le_of_ble_eq_true rfl⟩) fb ∗ heldQ c (s1B_11 c tb htb i h1) (qTok s ⟨11, Nat.le_of_ble_eq_true rfl⟩) fb ∗ heldQ c (s1B_12 c tb htb i h1) (qTok s ⟨12, Nat.le_of_ble_eq_true rfl⟩) fb ∗ heldQ c (s1B_13 c tb htb i h1) (qTok s ⟨13, Nat.le_of_ble_eq_true rfl⟩) fb ∗ heldQ c (s1B_14 c tb htb i h1) (qTok s ⟨14, Nat.le_of_ble_eq_true rfl⟩) fb ∗ heldQ c (s1B_15 c tb htb i h1) (qTok s ⟨15, Nat.le_of_ble_eq_true rfl⟩) fb ∗ heldQ c (s1B_16 c tb htb i h1) (qTok s ⟨16, Nat.le_of_ble_eq_true rfl⟩) fb ∗ heldQ c (s1B_17 c tb htb i h1) (qTok s ⟨17, Nat.le_of_ble_eq_true rfl⟩) fb ∗ heldQ c (s1B_18 c tb htb i h1) (qTok s ⟨18, Nat.le_of_ble_eq_true rfl⟩) fb ∗ heldQ c (s1B_19 c tb htb i h1) (qTok s ⟨19, Nat.le_of_ble_eq_true rfl⟩) fb ∗ heldQ c (s1B_20 c tb htb i h1) (qTok s ⟨20, Nat.le_of_ble_eq_true rfl⟩) fb ∗ heldQ c (s1B_21 c tb htb i h1) (qTok s ⟨21, Nat.le_of_ble_eq_true rfl⟩) fb ∗ heldQ c (s1B_22 c tb htb i h1) (qTok s ⟨22, Nat.le_of_ble_eq_true rfl⟩) fb ∗ heldQ c (s1B_23 c tb htb i h1) (qTok s ⟨23, Nat.le_of_ble_eq_true rfl⟩) fb ∗ heldQ c (s1B_24 c tb htb i h1) (qTok s ⟨24, Nat.le_of_ble_eq_true rfl⟩) fb ∗ heldQ c (s1B_25 c tb htb i h1) (qTok s ⟨25, Nat.le_of_ble_eq_true rfl⟩) fb ∗ heldQ c (s1B_26 c tb htb i h1) (qTok s ⟨26, Nat.le_of_ble_eq_true rfl⟩) fb ∗ heldQ c (s1B_27 c tb htb i h1) (qTok s ⟨27, Nat.le_of_ble_eq_true rfl⟩) fb ∗ heldQ c (s1B_28 c tb htb i h1) (qTok s ⟨28, Nat.le_of_ble_eq_true rfl⟩) fb ∗ heldQ c (s1B_29 c tb htb i h1) (qTok s ⟨29, Nat.le_of_ble_eq_true rfl⟩) fb ∗ heldQ c (s1B_30 c tb htb i h1) (qTok s ⟨30, Nat.le_of_ble_eq_true rfl⟩) fb ∗ heldQ c (s1B_31 c tb htb i h1) (qTok s ⟨31, Nat.le_of_ble_eq_true rfl⟩) fb ∗ heldQ c (s1B_32 c tb htb i h1) (qTok s ⟨32, Nat.le_of_ble_eq_true rfl⟩) fb ∗ heldQ c (s1B_33 c tb htb i h1) (qTok s ⟨33, Nat.le_of_ble_eq_true rfl⟩) fb ∗ heldQ c (s1B_34 c tb htb i h1) (qTok s ⟨34, Nat.le_of_ble_eq_true rfl⟩) fb ∗ heldQ c (s1B_35 c tb htb i h1) (qTok s ⟨35, Nat.le_of_ble_eq_true rfl⟩) fb ∗ heldQ c (s1B_36 c tb htb i h1) (qTok s ⟨36, Nat.le_of_ble_eq_true rfl⟩) fb ∗ heldQ c (s1B_37 c tb htb i h1) (qTok s ⟨37, Nat.le_of_ble_eq_true rfl⟩) fb ∗ heldQ c (s1B_38 c tb htb i h1) (qTok s ⟨38, Nat.le_of_ble_eq_true rfl⟩) fb ∗ heldQ c (s1B_39 c tb htb i h1) (qTok s ⟨39, Nat.le_of_ble_eq_true rfl⟩) fb ∗ heldQ c (s1B_40 c tb htb i h1) (qTok s ⟨40, Nat.le_of_ble_eq_true rfl⟩) fb ∗ heldQ c (s1B_41 c tb htb i h1) (qTok s ⟨41, Nat.le_of_ble_eq_true rfl⟩) fb ∗ heldQ c (s1B_42 c tb htb i h1) (qTok s ⟨42, Nat.le_of_ble_eq_true rfl⟩) fb ∗ heldQ c (s1B_43 c tb htb i h1) (qTok s ⟨43, Nat.le_of_ble_eq_true rfl⟩) fb ∗ heldQ c (s1B_44 c tb htb i h1) (qTok s ⟨44, Nat.le_of_ble_eq_true rfl⟩) fb ∗ heldQ c (s1B_45 c tb htb i h1) (qTok s ⟨45, Nat.le_of_ble_eq_true rfl⟩) fb ∗ heldQ c (s1B_46 c tb htb i h1) (qTok s ⟨46, Nat.le_of_ble_eq_true rfl⟩) fb ∗ heldQ c (s1B_47 c tb htb i h1) (qTok s ⟨47, Nat.le_of_ble_eq_true rfl⟩) fb ∗ heldQ c (s1B_48 c tb htb i h1) (qTok s ⟨48, Nat.le_of_ble_eq_true rfl⟩) fb ∗ heldQ c (s1B_49 c tb htb i h1) (qTok s ⟨49, Nat.le_of_ble_eq_true rfl⟩) fb ∗ heldQ c (s1B_50 c tb htb i h1) (qTok s ⟨50, Nat.le_of_ble_eq_true rfl⟩) fb ∗ heldQ c (s1B_51 c tb htb i h1) (qTok s ⟨51, Nat.le_of_ble_eq_true rfl⟩) fb ∗ heldQ c (s1B_52 c tb htb i h1) (qTok s ⟨52, Nat.le_of_ble_eq_true rfl⟩) fb ∗ heldQ c (s1B_53 c tb htb i h1) (qTok s ⟨53, Nat.le_of_ble_eq_true rfl⟩) fb ∗ heldQ c (s1B_54 c tb htb i h1) (qTok s ⟨54, Nat.le_of_ble_eq_true rfl⟩) fb ∗ heldQ c (s1B_55 c tb htb i h1) (qTok s ⟨55, Nat.le_of_ble_eq_true rfl⟩) fb ∗ heldQ c (s1B_56 c tb htb i h1) (qTok s ⟨56, Nat.le_of_ble_eq_true rfl⟩) fb ∗ heldQ c (s1B_57 c tb htb i h1) (qTok s ⟨57, Nat.le_of_ble_eq_true rfl⟩) fb ∗ heldQ c (s1B_58 c tb htb i h1) (qTok s ⟨58, Nat.le_of_ble_eq_true rfl⟩) fb ∗ heldQ c (s1B_59 c tb htb i h1) (qTok s ⟨59, Nat.le_of_ble_eq_true rfl⟩) fb ∗ heldQ c (s1B_60 c tb htb i h1) (qTok s ⟨60, Nat.le_of_ble_eq_true rfl⟩) fb ∗ heldQ c (s1B_61 c tb htb i h1) (qTok s ⟨61, Nat.le_of_ble_eq_true rfl⟩) fb ∗ heldQ c (s1B_62 c tb htb i h1) (qTok s ⟨62, Nat.le_of_ble_eq_true rfl⟩) fb ∗ heldQ c (s1B_63 c tb htb i h1) (qTok s ⟨63, Nat.le_of_ble_eq_true rfl⟩) fb) ∗ bigSep Finset.univ (R1B c tb fb htb i h1 s)) := by
  refine equiv_of_family (toks_family_b (F := F) c (qTok s) (O1 c tb i h1) (H1 c tb htb i h1) fb) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))
/-- Slot s's 64 read shares of array A, whole, are the 64 array rows the copies of fetch 2 borrow and what is left of each share. -/
theorem toks2A (htb : ∀ y, (tb y).toNat < 4096) (i : grid0.Coords) (h2 : k0_cond2 i = 1#1) (s : Fin 2) :
    (bigSep Finset.univ (fun r : Fin 64 => (aM.view.loc (c : Thread nD τ) ↦{qTok s r} fa : sProp 𝕄)))
      ⊣⊢ iprop(iprop(heldQ c (s2A_0 c tb htb i h2) (qTok s ⟨0, Nat.le_of_ble_eq_true rfl⟩) fa ∗ heldQ c (s2A_1 c tb htb i h2) (qTok s ⟨1, Nat.le_of_ble_eq_true rfl⟩) fa ∗ heldQ c (s2A_2 c tb htb i h2) (qTok s ⟨2, Nat.le_of_ble_eq_true rfl⟩) fa ∗ heldQ c (s2A_3 c tb htb i h2) (qTok s ⟨3, Nat.le_of_ble_eq_true rfl⟩) fa ∗ heldQ c (s2A_4 c tb htb i h2) (qTok s ⟨4, Nat.le_of_ble_eq_true rfl⟩) fa ∗ heldQ c (s2A_5 c tb htb i h2) (qTok s ⟨5, Nat.le_of_ble_eq_true rfl⟩) fa ∗ heldQ c (s2A_6 c tb htb i h2) (qTok s ⟨6, Nat.le_of_ble_eq_true rfl⟩) fa ∗ heldQ c (s2A_7 c tb htb i h2) (qTok s ⟨7, Nat.le_of_ble_eq_true rfl⟩) fa ∗ heldQ c (s2A_8 c tb htb i h2) (qTok s ⟨8, Nat.le_of_ble_eq_true rfl⟩) fa ∗ heldQ c (s2A_9 c tb htb i h2) (qTok s ⟨9, Nat.le_of_ble_eq_true rfl⟩) fa ∗ heldQ c (s2A_10 c tb htb i h2) (qTok s ⟨10, Nat.le_of_ble_eq_true rfl⟩) fa ∗ heldQ c (s2A_11 c tb htb i h2) (qTok s ⟨11, Nat.le_of_ble_eq_true rfl⟩) fa ∗ heldQ c (s2A_12 c tb htb i h2) (qTok s ⟨12, Nat.le_of_ble_eq_true rfl⟩) fa ∗ heldQ c (s2A_13 c tb htb i h2) (qTok s ⟨13, Nat.le_of_ble_eq_true rfl⟩) fa ∗ heldQ c (s2A_14 c tb htb i h2) (qTok s ⟨14, Nat.le_of_ble_eq_true rfl⟩) fa ∗ heldQ c (s2A_15 c tb htb i h2) (qTok s ⟨15, Nat.le_of_ble_eq_true rfl⟩) fa ∗ heldQ c (s2A_16 c tb htb i h2) (qTok s ⟨16, Nat.le_of_ble_eq_true rfl⟩) fa ∗ heldQ c (s2A_17 c tb htb i h2) (qTok s ⟨17, Nat.le_of_ble_eq_true rfl⟩) fa ∗ heldQ c (s2A_18 c tb htb i h2) (qTok s ⟨18, Nat.le_of_ble_eq_true rfl⟩) fa ∗ heldQ c (s2A_19 c tb htb i h2) (qTok s ⟨19, Nat.le_of_ble_eq_true rfl⟩) fa ∗ heldQ c (s2A_20 c tb htb i h2) (qTok s ⟨20, Nat.le_of_ble_eq_true rfl⟩) fa ∗ heldQ c (s2A_21 c tb htb i h2) (qTok s ⟨21, Nat.le_of_ble_eq_true rfl⟩) fa ∗ heldQ c (s2A_22 c tb htb i h2) (qTok s ⟨22, Nat.le_of_ble_eq_true rfl⟩) fa ∗ heldQ c (s2A_23 c tb htb i h2) (qTok s ⟨23, Nat.le_of_ble_eq_true rfl⟩) fa ∗ heldQ c (s2A_24 c tb htb i h2) (qTok s ⟨24, Nat.le_of_ble_eq_true rfl⟩) fa ∗ heldQ c (s2A_25 c tb htb i h2) (qTok s ⟨25, Nat.le_of_ble_eq_true rfl⟩) fa ∗ heldQ c (s2A_26 c tb htb i h2) (qTok s ⟨26, Nat.le_of_ble_eq_true rfl⟩) fa ∗ heldQ c (s2A_27 c tb htb i h2) (qTok s ⟨27, Nat.le_of_ble_eq_true rfl⟩) fa ∗ heldQ c (s2A_28 c tb htb i h2) (qTok s ⟨28, Nat.le_of_ble_eq_true rfl⟩) fa ∗ heldQ c (s2A_29 c tb htb i h2) (qTok s ⟨29, Nat.le_of_ble_eq_true rfl⟩) fa ∗ heldQ c (s2A_30 c tb htb i h2) (qTok s ⟨30, Nat.le_of_ble_eq_true rfl⟩) fa ∗ heldQ c (s2A_31 c tb htb i h2) (qTok s ⟨31, Nat.le_of_ble_eq_true rfl⟩) fa ∗ heldQ c (s2A_32 c tb htb i h2) (qTok s ⟨32, Nat.le_of_ble_eq_true rfl⟩) fa ∗ heldQ c (s2A_33 c tb htb i h2) (qTok s ⟨33, Nat.le_of_ble_eq_true rfl⟩) fa ∗ heldQ c (s2A_34 c tb htb i h2) (qTok s ⟨34, Nat.le_of_ble_eq_true rfl⟩) fa ∗ heldQ c (s2A_35 c tb htb i h2) (qTok s ⟨35, Nat.le_of_ble_eq_true rfl⟩) fa ∗ heldQ c (s2A_36 c tb htb i h2) (qTok s ⟨36, Nat.le_of_ble_eq_true rfl⟩) fa ∗ heldQ c (s2A_37 c tb htb i h2) (qTok s ⟨37, Nat.le_of_ble_eq_true rfl⟩) fa ∗ heldQ c (s2A_38 c tb htb i h2) (qTok s ⟨38, Nat.le_of_ble_eq_true rfl⟩) fa ∗ heldQ c (s2A_39 c tb htb i h2) (qTok s ⟨39, Nat.le_of_ble_eq_true rfl⟩) fa ∗ heldQ c (s2A_40 c tb htb i h2) (qTok s ⟨40, Nat.le_of_ble_eq_true rfl⟩) fa ∗ heldQ c (s2A_41 c tb htb i h2) (qTok s ⟨41, Nat.le_of_ble_eq_true rfl⟩) fa ∗ heldQ c (s2A_42 c tb htb i h2) (qTok s ⟨42, Nat.le_of_ble_eq_true rfl⟩) fa ∗ heldQ c (s2A_43 c tb htb i h2) (qTok s ⟨43, Nat.le_of_ble_eq_true rfl⟩) fa ∗ heldQ c (s2A_44 c tb htb i h2) (qTok s ⟨44, Nat.le_of_ble_eq_true rfl⟩) fa ∗ heldQ c (s2A_45 c tb htb i h2) (qTok s ⟨45, Nat.le_of_ble_eq_true rfl⟩) fa ∗ heldQ c (s2A_46 c tb htb i h2) (qTok s ⟨46, Nat.le_of_ble_eq_true rfl⟩) fa ∗ heldQ c (s2A_47 c tb htb i h2) (qTok s ⟨47, Nat.le_of_ble_eq_true rfl⟩) fa ∗ heldQ c (s2A_48 c tb htb i h2) (qTok s ⟨48, Nat.le_of_ble_eq_true rfl⟩) fa ∗ heldQ c (s2A_49 c tb htb i h2) (qTok s ⟨49, Nat.le_of_ble_eq_true rfl⟩) fa ∗ heldQ c (s2A_50 c tb htb i h2) (qTok s ⟨50, Nat.le_of_ble_eq_true rfl⟩) fa ∗ heldQ c (s2A_51 c tb htb i h2) (qTok s ⟨51, Nat.le_of_ble_eq_true rfl⟩) fa ∗ heldQ c (s2A_52 c tb htb i h2) (qTok s ⟨52, Nat.le_of_ble_eq_true rfl⟩) fa ∗ heldQ c (s2A_53 c tb htb i h2) (qTok s ⟨53, Nat.le_of_ble_eq_true rfl⟩) fa ∗ heldQ c (s2A_54 c tb htb i h2) (qTok s ⟨54, Nat.le_of_ble_eq_true rfl⟩) fa ∗ heldQ c (s2A_55 c tb htb i h2) (qTok s ⟨55, Nat.le_of_ble_eq_true rfl⟩) fa ∗ heldQ c (s2A_56 c tb htb i h2) (qTok s ⟨56, Nat.le_of_ble_eq_true rfl⟩) fa ∗ heldQ c (s2A_57 c tb htb i h2) (qTok s ⟨57, Nat.le_of_ble_eq_true rfl⟩) fa ∗ heldQ c (s2A_58 c tb htb i h2) (qTok s ⟨58, Nat.le_of_ble_eq_true rfl⟩) fa ∗ heldQ c (s2A_59 c tb htb i h2) (qTok s ⟨59, Nat.le_of_ble_eq_true rfl⟩) fa ∗ heldQ c (s2A_60 c tb htb i h2) (qTok s ⟨60, Nat.le_of_ble_eq_true rfl⟩) fa ∗ heldQ c (s2A_61 c tb htb i h2) (qTok s ⟨61, Nat.le_of_ble_eq_true rfl⟩) fa ∗ heldQ c (s2A_62 c tb htb i h2) (qTok s ⟨62, Nat.le_of_ble_eq_true rfl⟩) fa ∗ heldQ c (s2A_63 c tb htb i h2) (qTok s ⟨63, Nat.le_of_ble_eq_true rfl⟩) fa) ∗ bigSep Finset.univ (R2A c tb fa htb i h2 s)) := by
  refine equiv_of_family (toks_family_a (F := F) c (qTok s) (O2 c tb i h2) (H2 c tb htb i h2) fa) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))
/-- Slot s's 64 read shares of array B, whole, are the 64 array rows the copies of fetch 2 borrow and what is left of each share. -/
theorem toks2B (htb : ∀ y, (tb y).toNat < 4096) (i : grid0.Coords) (h2 : k0_cond2 i = 1#1) (s : Fin 2) :
    (bigSep Finset.univ (fun r : Fin 64 => (bM.view.loc (c : Thread nD τ) ↦{qTok s r} fb : sProp 𝕄)))
      ⊣⊢ iprop(iprop(heldQ c (s2B_0 c tb htb i h2) (qTok s ⟨0, Nat.le_of_ble_eq_true rfl⟩) fb ∗ heldQ c (s2B_1 c tb htb i h2) (qTok s ⟨1, Nat.le_of_ble_eq_true rfl⟩) fb ∗ heldQ c (s2B_2 c tb htb i h2) (qTok s ⟨2, Nat.le_of_ble_eq_true rfl⟩) fb ∗ heldQ c (s2B_3 c tb htb i h2) (qTok s ⟨3, Nat.le_of_ble_eq_true rfl⟩) fb ∗ heldQ c (s2B_4 c tb htb i h2) (qTok s ⟨4, Nat.le_of_ble_eq_true rfl⟩) fb ∗ heldQ c (s2B_5 c tb htb i h2) (qTok s ⟨5, Nat.le_of_ble_eq_true rfl⟩) fb ∗ heldQ c (s2B_6 c tb htb i h2) (qTok s ⟨6, Nat.le_of_ble_eq_true rfl⟩) fb ∗ heldQ c (s2B_7 c tb htb i h2) (qTok s ⟨7, Nat.le_of_ble_eq_true rfl⟩) fb ∗ heldQ c (s2B_8 c tb htb i h2) (qTok s ⟨8, Nat.le_of_ble_eq_true rfl⟩) fb ∗ heldQ c (s2B_9 c tb htb i h2) (qTok s ⟨9, Nat.le_of_ble_eq_true rfl⟩) fb ∗ heldQ c (s2B_10 c tb htb i h2) (qTok s ⟨10, Nat.le_of_ble_eq_true rfl⟩) fb ∗ heldQ c (s2B_11 c tb htb i h2) (qTok s ⟨11, Nat.le_of_ble_eq_true rfl⟩) fb ∗ heldQ c (s2B_12 c tb htb i h2) (qTok s ⟨12, Nat.le_of_ble_eq_true rfl⟩) fb ∗ heldQ c (s2B_13 c tb htb i h2) (qTok s ⟨13, Nat.le_of_ble_eq_true rfl⟩) fb ∗ heldQ c (s2B_14 c tb htb i h2) (qTok s ⟨14, Nat.le_of_ble_eq_true rfl⟩) fb ∗ heldQ c (s2B_15 c tb htb i h2) (qTok s ⟨15, Nat.le_of_ble_eq_true rfl⟩) fb ∗ heldQ c (s2B_16 c tb htb i h2) (qTok s ⟨16, Nat.le_of_ble_eq_true rfl⟩) fb ∗ heldQ c (s2B_17 c tb htb i h2) (qTok s ⟨17, Nat.le_of_ble_eq_true rfl⟩) fb ∗ heldQ c (s2B_18 c tb htb i h2) (qTok s ⟨18, Nat.le_of_ble_eq_true rfl⟩) fb ∗ heldQ c (s2B_19 c tb htb i h2) (qTok s ⟨19, Nat.le_of_ble_eq_true rfl⟩) fb ∗ heldQ c (s2B_20 c tb htb i h2) (qTok s ⟨20, Nat.le_of_ble_eq_true rfl⟩) fb ∗ heldQ c (s2B_21 c tb htb i h2) (qTok s ⟨21, Nat.le_of_ble_eq_true rfl⟩) fb ∗ heldQ c (s2B_22 c tb htb i h2) (qTok s ⟨22, Nat.le_of_ble_eq_true rfl⟩) fb ∗ heldQ c (s2B_23 c tb htb i h2) (qTok s ⟨23, Nat.le_of_ble_eq_true rfl⟩) fb ∗ heldQ c (s2B_24 c tb htb i h2) (qTok s ⟨24, Nat.le_of_ble_eq_true rfl⟩) fb ∗ heldQ c (s2B_25 c tb htb i h2) (qTok s ⟨25, Nat.le_of_ble_eq_true rfl⟩) fb ∗ heldQ c (s2B_26 c tb htb i h2) (qTok s ⟨26, Nat.le_of_ble_eq_true rfl⟩) fb ∗ heldQ c (s2B_27 c tb htb i h2) (qTok s ⟨27, Nat.le_of_ble_eq_true rfl⟩) fb ∗ heldQ c (s2B_28 c tb htb i h2) (qTok s ⟨28, Nat.le_of_ble_eq_true rfl⟩) fb ∗ heldQ c (s2B_29 c tb htb i h2) (qTok s ⟨29, Nat.le_of_ble_eq_true rfl⟩) fb ∗ heldQ c (s2B_30 c tb htb i h2) (qTok s ⟨30, Nat.le_of_ble_eq_true rfl⟩) fb ∗ heldQ c (s2B_31 c tb htb i h2) (qTok s ⟨31, Nat.le_of_ble_eq_true rfl⟩) fb ∗ heldQ c (s2B_32 c tb htb i h2) (qTok s ⟨32, Nat.le_of_ble_eq_true rfl⟩) fb ∗ heldQ c (s2B_33 c tb htb i h2) (qTok s ⟨33, Nat.le_of_ble_eq_true rfl⟩) fb ∗ heldQ c (s2B_34 c tb htb i h2) (qTok s ⟨34, Nat.le_of_ble_eq_true rfl⟩) fb ∗ heldQ c (s2B_35 c tb htb i h2) (qTok s ⟨35, Nat.le_of_ble_eq_true rfl⟩) fb ∗ heldQ c (s2B_36 c tb htb i h2) (qTok s ⟨36, Nat.le_of_ble_eq_true rfl⟩) fb ∗ heldQ c (s2B_37 c tb htb i h2) (qTok s ⟨37, Nat.le_of_ble_eq_true rfl⟩) fb ∗ heldQ c (s2B_38 c tb htb i h2) (qTok s ⟨38, Nat.le_of_ble_eq_true rfl⟩) fb ∗ heldQ c (s2B_39 c tb htb i h2) (qTok s ⟨39, Nat.le_of_ble_eq_true rfl⟩) fb ∗ heldQ c (s2B_40 c tb htb i h2) (qTok s ⟨40, Nat.le_of_ble_eq_true rfl⟩) fb ∗ heldQ c (s2B_41 c tb htb i h2) (qTok s ⟨41, Nat.le_of_ble_eq_true rfl⟩) fb ∗ heldQ c (s2B_42 c tb htb i h2) (qTok s ⟨42, Nat.le_of_ble_eq_true rfl⟩) fb ∗ heldQ c (s2B_43 c tb htb i h2) (qTok s ⟨43, Nat.le_of_ble_eq_true rfl⟩) fb ∗ heldQ c (s2B_44 c tb htb i h2) (qTok s ⟨44, Nat.le_of_ble_eq_true rfl⟩) fb ∗ heldQ c (s2B_45 c tb htb i h2) (qTok s ⟨45, Nat.le_of_ble_eq_true rfl⟩) fb ∗ heldQ c (s2B_46 c tb htb i h2) (qTok s ⟨46, Nat.le_of_ble_eq_true rfl⟩) fb ∗ heldQ c (s2B_47 c tb htb i h2) (qTok s ⟨47, Nat.le_of_ble_eq_true rfl⟩) fb ∗ heldQ c (s2B_48 c tb htb i h2) (qTok s ⟨48, Nat.le_of_ble_eq_true rfl⟩) fb ∗ heldQ c (s2B_49 c tb htb i h2) (qTok s ⟨49, Nat.le_of_ble_eq_true rfl⟩) fb ∗ heldQ c (s2B_50 c tb htb i h2) (qTok s ⟨50, Nat.le_of_ble_eq_true rfl⟩) fb ∗ heldQ c (s2B_51 c tb htb i h2) (qTok s ⟨51, Nat.le_of_ble_eq_true rfl⟩) fb ∗ heldQ c (s2B_52 c tb htb i h2) (qTok s ⟨52, Nat.le_of_ble_eq_true rfl⟩) fb ∗ heldQ c (s2B_53 c tb htb i h2) (qTok s ⟨53, Nat.le_of_ble_eq_true rfl⟩) fb ∗ heldQ c (s2B_54 c tb htb i h2) (qTok s ⟨54, Nat.le_of_ble_eq_true rfl⟩) fb ∗ heldQ c (s2B_55 c tb htb i h2) (qTok s ⟨55, Nat.le_of_ble_eq_true rfl⟩) fb ∗ heldQ c (s2B_56 c tb htb i h2) (qTok s ⟨56, Nat.le_of_ble_eq_true rfl⟩) fb ∗ heldQ c (s2B_57 c tb htb i h2) (qTok s ⟨57, Nat.le_of_ble_eq_true rfl⟩) fb ∗ heldQ c (s2B_58 c tb htb i h2) (qTok s ⟨58, Nat.le_of_ble_eq_true rfl⟩) fb ∗ heldQ c (s2B_59 c tb htb i h2) (qTok s ⟨59, Nat.le_of_ble_eq_true rfl⟩) fb ∗ heldQ c (s2B_60 c tb htb i h2) (qTok s ⟨60, Nat.le_of_ble_eq_true rfl⟩) fb ∗ heldQ c (s2B_61 c tb htb i h2) (qTok s ⟨61, Nat.le_of_ble_eq_true rfl⟩) fb ∗ heldQ c (s2B_62 c tb htb i h2) (qTok s ⟨62, Nat.le_of_ble_eq_true rfl⟩) fb ∗ heldQ c (s2B_63 c tb htb i h2) (qTok s ⟨63, Nat.le_of_ble_eq_true rfl⟩) fb) ∗ bigSep Finset.univ (R2B c tb fb htb i h2 s)) := by
  refine equiv_of_family (toks_family_b (F := F) c (qTok s) (O2 c tb i h2) (H2 c tb htb i h2) fb) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))

end

end Cert.KernelIdeal.Hand

end
-- ==== Proof.KI.PhiLemmas.lean ====
/-
  Folding the pieces a grid point holds at its end back into free and in-flight slots.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Phi
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (htb : ∀ y, (tb y).toNat < 4096) (fa : MBuf (F := F) c aM) (fb : MBuf (F := F) c bM)

/-- A slot is free once its counter is at zero, its 64 rows are owned (here as one slot) and its 64 read shares are whole. -/
theorem freeA_intro (s s' : Fin 2) (e : s = s') (g : MBuf (F := F) c scA) :
    iprop(semVal ((c : Thread nD τ), cA s) 0 ∗ heldQ c (slotM scA s) fullShare g
      ∗ bigSep Finset.univ (fun r : Fin 64 => (aM.view.loc (c : Thread nD τ) ↦{qTok s r} fa : sProp 𝕄))) ⊢ freeA c fa s' := by
  subst e; unfold freeA; rw [heldQ_slotM_A]
  iintro ⟨H1, H2, H3⟩
  isplitl [H1]; · iexact H1
  isplitl [H2]; · iexists g; iexact H2
  iexact H3
theorem freeB_intro (s s' : Fin 2) (e : s = s') (g : MBuf (F := F) c scB) :
    iprop(semVal ((c : Thread nD τ), cB s) 0 ∗ heldQ c (slotM scB s) fullShare g
      ∗ bigSep Finset.univ (fun r : Fin 64 => (bM.view.loc (c : Thread nD τ) ↦{qTok s r} fb : sProp 𝕄))) ⊢ freeB c fb s' := by
  subst e; unfold freeB; rw [heldQ_slotM_B]
  iintro ⟨H1, H2, H3⟩
  isplitl [H1]; · iexact H1
  isplitl [H2]; · iexists g; iexact H2
  iexact H3
theorem freeA_cast (s s' : Fin 2) (e : s = s') : freeA c fa s ⊢ freeA c fa s' := by subst e; exact Idealize.SL.BI.Entails.refl _
theorem freeB_cast (s s' : Fin 2) (e : s = s') : freeB c fb s ⊢ freeB c fb s' := by subst e; exact Idealize.SL.BI.Entails.refl _
/-- A slot is in flight once its batch has all 64 copies started and none waited for. -/
theorem flightA_intro (i : grid0.Coords) (h2 : k0_cond2 i = 1#1) (s : Fin 2) :
    iprop(Transfers.Batch countersEmb (c : Thread nD τ) (cA s) () rowCredit (D2A c tb fa htb i h2 s) 64 0 ∗ bigSep Finset.univ (R2A c tb fa htb i h2 s)) ⊢ flightA c tb htb fa i h2 s := by
  unfold flightA; exact Idealize.SL.BI.Entails.refl _
theorem flightB_intro (i : grid0.Coords) (h2 : k0_cond2 i = 1#1) (s : Fin 2) :
    iprop(Transfers.Batch countersEmb (c : Thread nD τ) (cB s) () rowCredit (D2B c tb fb htb i h2 s) 64 0 ∗ bigSep Finset.univ (R2B c tb fb htb i h2 s)) ⊢ flightB c tb htb fb i h2 s := by
  unfold flightB; exact Idealize.SL.BI.Entails.refl _
end

/-- A load's box may be named by any offset vector equal to its own. -/
theorem readAt_box_congr {sp : Space} (M : Memref sig .tc sp S2x8x64x1024 .f32) (o o' : Fin 4 → ℕ) (e : o = o')
    (h : ∀ a, o a + S1x8x64x1024.size a ≤ S2x8x64x1024.size a) (h' : ∀ a, o' a + S1x8x64x1024.size a ≤ S2x8x64x1024.size a)
    (G : M.view.ty.Contents (Elt F)) :
    M.view.readAt (Elt F) (Rect.unit (s := S2x8x64x1024) o S1x8x64x1024.size h).toLoadRect G
      = M.view.readAt (Elt F) (Rect.unit (s := S2x8x64x1024) o' S1x8x64x1024.size h').toLoadRect G := by
  subst e; rfl

end Cert.KernelIdeal.Hand
end
-- ==== Proof.KI.Stor.lean ====
/-
  The deliveries of the copies can be stored in a batch's invariant.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Tab
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

section
variable (c : Dev nD) (tb : MBuf (F := F) c tbM) (fa : MBuf (F := F) c aM) (fb : MBuf (F := F) c bM)
/-- Each delivery is made of points-to assertions only, so it can be kept inside the batch's invariant. -/
instance storD1A (htb : ∀ y, (tb y).toNat < 4096) (i : grid0.Coords) (h1 : k0_cond1 i = 1#1) (s : Fin 2) : ∀ r, Storable (upEmb : UEmb _ 𝕄) (D1A c tb fa htb i h1 s r) := by
  intro r; unfold D1A
  split <;> first | infer_instance | (rename_i h; exact absurd h (Nat.not_lt.2 (Nat.le_add_left _ _)))
instance storD1B (htb : ∀ y, (tb y).toNat < 4096) (i : grid0.Coords) (h1 : k0_cond1 i = 1#1) (s : Fin 2) : ∀ r, Storable (upEmb : UEmb _ 𝕄) (D1B c tb fb htb i h1 s r) := by
  intro r; unfold D1B
  split <;> first | infer_instance | (rename_i h; exact absurd h (Nat.not_lt.2 (Nat.le_add_left _ _)))
instance storD2A (htb : ∀ y, (tb y).toNat < 4096) (i : grid0.Coords) (h2 : k0_cond2 i = 1#1) (s : Fin 2) : ∀ r, Storable (upEmb : UEmb _ 𝕄) (D2A c tb fa htb i h2 s r) := by
  intro r; unfold D2A
  split <;> first | infer_instance | (rename_i h; exact absurd h (Nat.not_lt.2 (Nat.le_add_left _ _)))
instance storD2B (htb : ∀ y, (tb y).toNat < 4096) (i : grid0.Coords) (h2 : k0_cond2 i = 1#1) (s : Fin 2) : ∀ r, Storable (upEmb : UEmb _ 𝕄) (D2B c tb fb htb i h2 s r) := by
  intro r; unfold D2B
  split <;> first | infer_instance | (rename_i h; exact absurd h (Nat.not_lt.2 (Nat.le_add_left _ _)))
end

end Cert.KernelIdeal.Hand
end
-- ==== Proof.KI.StoreRead.lean ====
/-
  The staging buffer of the output window, read back after the body's store of its whole block.
-/
import proofs.«422764_j1194000908612_2_alg».proof.Proof.Gen.KernelIdeal.Launch
import proofs.«422764_j1194000908612_2_alg».proof.Proof.Gen.KernelIdeal.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.KI.Names
import Idealize.ShloMosaic.Lib.Writes
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## The block read back after the body's one whole store

The body ends by storing its block through the whole staging buffer, at offset (0, 0, 0) with the buffer's own extents. The store's
rectangle is the identity on indices, so the buffer read back is the stored block, whatever it held before. -/

/-- The rectangle at offset (0, 0, 0) of full extents sends an index to itself. -/
theorem emb_full_S8x64x1024 (x : S8x64x1024.Idx) :
    (Rect.unit (s := S8x64x1024) ![0, 0, 0] S8x64x1024.size inb_S8x64x1024_S8x64x1024_0_0_0).emb x = x := by
  funext a
  apply Fin.ext
  rw [Rect.emb_apply]
  fin_cases a <;> simp

/-- A staging buffer after one store of v through the full rectangle reads back v. -/
theorem read_store_whole (stg : Memref sig .tc .vmem S8x64x1024 .f32) (hstg : stg.IsWhole) (f : stg.view.ty.Contents (Elt F))
    (v : Vec F S8x64x1024 .f32) :
    stg.view.read (Elt F) (stg.view.writes (Elt F) f
        [⟨Rect.unit (s := S8x64x1024) ![0, 0, 0] S8x64x1024.size inb_S8x64x1024_S8x64x1024_0_0_0, v⟩]) = v := by
  funext x
  have h := View.read_writes_cons_emb stg.view f
    (Rect.unit (s := S8x64x1024) ![0, 0, 0] S8x64x1024.size inb_S8x64x1024_S8x64x1024_0_0_0) v [] x
  rw [emb_full_S8x64x1024] at h
  exact h

end Cert.KernelIdeal.Hand

end
-- ==== Proof.KI.RunA.lean ====
/-
  The first grid point of a row group (t mod 16 = 0): both slots are free; the point starts the 128 copies of its own rows into slot 0,
  waits for them, starts the 128 copies of point t + 1 into slot 1, reads slot 0 back as the gathered rows and stores the elementwise
  function of them.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Reads
import proofs.«422764_j1194000908612_2_alg».proof.Proof.KI.Toks
import proofs.«422764_j1194000908612_2_alg».proof.Proof.KI.PhiIO
import proofs.«422764_j1194000908612_2_alg».proof.Proof.KI.PhiLemmas
import proofs.«422764_j1194000908612_2_alg».proof.Proof.KI.Stor
import proofs.«422764_j1194000908612_2_alg».proof.Proof.KI.StoreRead
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

/-- At the first point of a row group the waited slot is slot 0. -/
@[local sl_canon] theorem slN_first (t : Fin grid0.N) (ht : t.val % 16 = 0) : slN t.val = 0 := Fin.ext (by show t.val % 2 = 0; omega)

set_option maxHeartbeats 8000000 in
theorem runA (c : Dev nD) (t : Fin grid0.N) (ht : t.val % 16 = 0)
    (stg : Memref sig .tc .vmem S8x64x1024 .f32) (hstg : stg.IsWhole) (x0 : Vec F S8x64x1024 .f32)
    (tb : MBuf (F := F) c tbM) (htb : ∀ y, (tb y).toNat < 4096) (fa : MBuf (F := F) c aM) (fb : MBuf (F := F) c bM) (W : Waits sig Unit) :
    iprop(Phi c tb htb fa fb t.val ∗ owes (c : Thread nD τ) 0 W ∗ owns (c : Thread nD τ) stg fullShare x0)
      ⊢ wp frame (wpE (defs₀ (F := F)) Variants.none (c : Thread nD τ) none) Set.univ
          (cc0_kernel (F := F) (grid0.coords t) tbM (Memref.isWhole_whole _) aM (Memref.isWhole_whole _) bM (Memref.isWhole_whole _) stg hstg scA (Memref.isWhole_whole _) scB (Memref.isWhole_whole _) cc0_scratch2 cc0_scratch3)
          (fun _ => iprop(Phi c tb htb fa fb (t.val + 1) ∗ (∃ W', owes (c : Thread nD τ) 0 W') ∗ owns (c : Thread nD τ) stg fullShare (outBlk (F := F) fa fb (rowsOf tb t.val)))) := by
  have h1 : k0_cond1 (grid0.coords t) = 1#1 := (hcond1 t).mpr ht
  have h2 : k0_cond2 (grid0.coords t) = 1#1 := (hcond2 t).mpr (by omega)
  have e0 : slN t.val = 0 := Fin.ext (by show t.val % 2 = 0; omega)
  have e1 : (1 : Fin 2) = slN (t.val + 1) := Fin.ext (by show 1 = (t.val + 1) % 2; omega)
  have e2 : (0 : Fin 2) = slN (t.val + 1 + 1) := Fin.ext (by show 0 = (t.val + 1 + 1) % 2; omega)
  have hbt : t.val < 32 := lt_of_lt_of_eq t.isLt N_0
  unfold Phi
  rw [slots_free c tb htb fa fb t.val ht, slots_flight c tb htb fa fb t (by omega) h2]
  unfold steady owns
  iintro ⟨⟨⟨Hg, HT, HdA, HdB⟩, H0A, H1A, H0B, H1B⟩, HO, ⟨%f1, -, H1⟩⟩
  ihave H1A' := (freeA_cast c fa 1 (slN (t.val + 1)) e1) $$ H1A
  ihave H1B' := (freeB_cast c fb 1 (slN (t.val + 1)) e1) $$ H1B
  conv => lhs; unfold freeA freeB
  icases H0A with ⟨Hc0A, ⟨%g0A, Hg0A⟩, Ht0A⟩
  icases H0B with ⟨Hc0B, ⟨%g0B, Hg0B⟩, Ht0B⟩
  icases H1A' with ⟨HcA, ⟨%gA, HgA⟩, HtA⟩
  icases H1B' with ⟨HcB, ⟨%gB, HgB⟩, HtB⟩
  imod (Transfers.batch_alloc' (Lvl := ℕ) countersEmb (c : Thread nD τ) () rowCredit (D1A c tb fa htb (grid0.coords t) h1 0) (sm := cA 0) (E := Set.univ)) $$ Hc0A with HMA
  imod (Transfers.batch_alloc' (Lvl := ℕ) countersEmb (c : Thread nD τ) () rowCredit (D1B c tb fb htb (grid0.coords t) h1 0) (sm := cB 0) (E := Set.univ)) $$ Hc0B with HMB
  ihave Hr0A := (Entails.of_eq (slot64_A c 0 g0A)) $$ Hg0A
  icases Hr0A with ⟨GA0, GA1, GA2, GA3, GA4, GA5, GA6, GA7, GA8, GA9, GA10, GA11, GA12, GA13, GA14, GA15, GA16, GA17, GA18, GA19, GA20, GA21, GA22, GA23, GA24, GA25, GA26, GA27, GA28, GA29, GA30, GA31, GA32, GA33, GA34, GA35, GA36, GA37, GA38, GA39, GA40, GA41, GA42, GA43, GA44, GA45, GA46, GA47, GA48, GA49, GA50, GA51, GA52, GA53, GA54, GA55, GA56, GA57, GA58, GA59, GA60, GA61, GA62, GA63⟩
  ihave Hr0B := (Entails.of_eq (slot64_B c 0 g0B)) $$ Hg0B
  icases Hr0B with ⟨GB0, GB1, GB2, GB3, GB4, GB5, GB6, GB7, GB8, GB9, GB10, GB11, GB12, GB13, GB14, GB15, GB16, GB17, GB18, GB19, GB20, GB21, GB22, GB23, GB24, GB25, GB26, GB27, GB28, GB29, GB30, GB31, GB32, GB33, GB34, GB35, GB36, GB37, GB38, GB39, GB40, GB41, GB42, GB43, GB44, GB45, GB46, GB47, GB48, GB49, GB50, GB51, GB52, GB53, GB54, GB55, GB56, GB57, GB58, GB59, GB60, GB61, GB62, GB63⟩
  ihave Hx0A := ((toks1A c tb fa htb (grid0.coords t) h1 0).1) $$ Ht0A
  icases Hx0A with ⟨⟨YA0, YA1, YA2, YA3, YA4, YA5, YA6, YA7, YA8, YA9, YA10, YA11, YA12, YA13, YA14, YA15, YA16, YA17, YA18, YA19, YA20, YA21, YA22, YA23, YA24, YA25, YA26, YA27, YA28, YA29, YA30, YA31, YA32, YA33, YA34, YA35, YA36, YA37, YA38, YA39, YA40, YA41, YA42, YA43, YA44, YA45, YA46, YA47, YA48, YA49, YA50, YA51, YA52, YA53, YA54, YA55, YA56, YA57, YA58, YA59, YA60, YA61, YA62, YA63⟩, HRA1⟩
  ihave Hx0B := ((toks1B c tb fb htb (grid0.coords t) h1 0).1) $$ Ht0B
  icases Hx0B with ⟨⟨YB0, YB1, YB2, YB3, YB4, YB5, YB6, YB7, YB8, YB9, YB10, YB11, YB12, YB13, YB14, YB15, YB16, YB17, YB18, YB19, YB20, YB21, YB22, YB23, YB24, YB25, YB26, YB27, YB28, YB29, YB30, YB31, YB32, YB33, YB34, YB35, YB36, YB37, YB38, YB39, YB40, YB41, YB42, YB43, YB44, YB45, YB46, YB47, YB48, YB49, YB50, YB51, YB52, YB53, YB54, YB55, YB56, YB57, YB58, YB59, YB60, YB61, YB62, YB63⟩, HRB1⟩
  imod (Transfers.batch_alloc' (Lvl := ℕ) countersEmb (c : Thread nD τ) () rowCredit (D2A c tb fa htb (grid0.coords t) h2 (slN (t.val + 1))) (sm := cA (slN (t.val + 1))) (E := Set.univ)) $$ HcA with HNA
  imod (Transfers.batch_alloc' (Lvl := ℕ) countersEmb (c : Thread nD τ) () rowCredit (D2B c tb fb htb (grid0.coords t) h2 (slN (t.val + 1))) (sm := cB (slN (t.val + 1))) (E := Set.univ)) $$ HcB with HNB
  ihave HrA := (Entails.of_eq (slot64_A c (slN (t.val + 1)) gA)) $$ HgA
  icases HrA with ⟨FA0, FA1, FA2, FA3, FA4, FA5, FA6, FA7, FA8, FA9, FA10, FA11, FA12, FA13, FA14, FA15, FA16, FA17, FA18, FA19, FA20, FA21, FA22, FA23, FA24, FA25, FA26, FA27, FA28, FA29, FA30, FA31, FA32, FA33, FA34, FA35, FA36, FA37, FA38, FA39, FA40, FA41, FA42, FA43, FA44, FA45, FA46, FA47, FA48, FA49, FA50, FA51, FA52, FA53, FA54, FA55, FA56, FA57, FA58, FA59, FA60, FA61, FA62, FA63⟩
  ihave HrB := (Entails.of_eq (slot64_B c (slN (t.val + 1)) gB)) $$ HgB
  icases HrB with ⟨FB0, FB1, FB2, FB3, FB4, FB5, FB6, FB7, FB8, FB9, FB10, FB11, FB12, FB13, FB14, FB15, FB16, FB17, FB18, FB19, FB20, FB21, FB22, FB23, FB24, FB25, FB26, FB27, FB28, FB29, FB30, FB31, FB32, FB33, FB34, FB35, FB36, FB37, FB38, FB39, FB40, FB41, FB42, FB43, FB44, FB45, FB46, FB47, FB48, FB49, FB50, FB51, FB52, FB53, FB54, FB55, FB56, FB57, FB58, FB59, FB60, FB61, FB62, FB63⟩
  ihave HxA := ((toks2A c tb fa htb (grid0.coords t) h2 (slN (t.val + 1))).1) $$ HtA
  icases HxA with ⟨⟨XA0, XA1, XA2, XA3, XA4, XA5, XA6, XA7, XA8, XA9, XA10, XA11, XA12, XA13, XA14, XA15, XA16, XA17, XA18, XA19, XA20, XA21, XA22, XA23, XA24, XA25, XA26, XA27, XA28, XA29, XA30, XA31, XA32, XA33, XA34, XA35, XA36, XA37, XA38, XA39, XA40, XA41, XA42, XA43, XA44, XA45, XA46, XA47, XA48, XA49, XA50, XA51, XA52, XA53, XA54, XA55, XA56, XA57, XA58, XA59, XA60, XA61, XA62, XA63⟩, HRA2⟩
  ihave HxB := ((toks2B c tb fb htb (grid0.coords t) h2 (slN (t.val + 1))).1) $$ HtB
  icases HxB with ⟨⟨XB0, XB1, XB2, XB3, XB4, XB5, XB6, XB7, XB8, XB9, XB10, XB11, XB12, XB13, XB14, XB15, XB16, XB17, XB18, XB19, XB20, XB21, XB22, XB23, XB24, XB25, XB26, XB27, XB28, XB29, XB30, XB31, XB32, XB33, XB34, XB35, XB36, XB37, XB38, XB39, XB40, XB41, XB42, XB43, XB44, XB45, XB46, XB47, XB48, XB49, XB50, XB51, XB52, XB53, XB54, XB55, XB56, XB57, XB58, XB59, XB60, XB61, XB62, XB63⟩, HRB2⟩
  rw [cc0_kernel_eq_skeleton]; unfold cc0_kernel_skel
  sl_exec (disch := first | exact h1 | exact h2 | exact ht | exact (fun _ => rows_inb _ (htb _)))
  ihave HSA := (Entails.of_eq (rows64_A c 0 (L1A c tb fa htb (grid0.coords t) h1 0))) $$ [HMA_dst0 HMA_dst1 HMA_dst2 HMA_dst3 HMA_dst4 HMA_dst5 HMA_dst6 HMA_dst7 HMA_dst8 HMA_dst9 HMA_dst10 HMA_dst11 HMA_dst12 HMA_dst13 HMA_dst14 HMA_dst15 HMA_dst16 HMA_dst17 HMA_dst18 HMA_dst19 HMA_dst20 HMA_dst21 HMA_dst22 HMA_dst23 HMA_dst24 HMA_dst25 HMA_dst26 HMA_dst27 HMA_dst28 HMA_dst29 HMA_dst30 HMA_dst31 HMA_dst32 HMA_dst33 HMA_dst34 HMA_dst35 HMA_dst36 HMA_dst37 HMA_dst38 HMA_dst39 HMA_dst40 HMA_dst41 HMA_dst42 HMA_dst43 HMA_dst44 HMA_dst45 HMA_dst46 HMA_dst47 HMA_dst48 HMA_dst49 HMA_dst50 HMA_dst51 HMA_dst52 HMA_dst53 HMA_dst54 HMA_dst55 HMA_dst56 HMA_dst57 HMA_dst58 HMA_dst59 HMA_dst60 HMA_dst61 HMA_dst62 HMA_dst63]
  · dsimp only [L1A]; iframe
  ihave HSB := (Entails.of_eq (rows64_B c 0 (L1B c tb fb htb (grid0.coords t) h1 0))) $$ [HMB_dst0 HMB_dst1 HMB_dst2 HMB_dst3 HMB_dst4 HMB_dst5 HMB_dst6 HMB_dst7 HMB_dst8 HMB_dst9 HMB_dst10 HMB_dst11 HMB_dst12 HMB_dst13 HMB_dst14 HMB_dst15 HMB_dst16 HMB_dst17 HMB_dst18 HMB_dst19 HMB_dst20 HMB_dst21 HMB_dst22 HMB_dst23 HMB_dst24 HMB_dst25 HMB_dst26 HMB_dst27 HMB_dst28 HMB_dst29 HMB_dst30 HMB_dst31 HMB_dst32 HMB_dst33 HMB_dst34 HMB_dst35 HMB_dst36 HMB_dst37 HMB_dst38 HMB_dst39 HMB_dst40 HMB_dst41 HMB_dst42 HMB_dst43 HMB_dst44 HMB_dst45 HMB_dst46 HMB_dst47 HMB_dst48 HMB_dst49 HMB_dst50 HMB_dst51 HMB_dst52 HMB_dst53 HMB_dst54 HMB_dst55 HMB_dst56 HMB_dst57 HMB_dst58 HMB_dst59 HMB_dst60 HMB_dst61 HMB_dst62 HMB_dst63]
  · dsimp only [L1B]; iframe
  have hboxA : (scA.access (Rect.unit (s := S2x8x64x1024) (k0_off515 (grid0.coords t)) S1x8x64x1024.size (k0_off515_inb (grid0.coords t)))).set ⊆ (slotM scA 0).view.set := e0 ▸ box_in_slot_A t
  have hboxB : (scB.access (Rect.unit (s := S2x8x64x1024) (k0_off515 (grid0.coords t)) S1x8x64x1024.size (k0_off515_inb (grid0.coords t)))).set ⊆ (slotM scB 0).view.set := e0 ▸ box_in_slot_B t
  have hboxA' : scA.view.setOn (Rect.unit (s := S2x8x64x1024) (k0_off515 (grid0.coords t)) S1x8x64x1024.size (k0_off515_inb (grid0.coords t))).set ⊆ (slotM scA 0).view.set := e0 ▸ box_on_slot_A t
  have hboxB' : scB.view.setOn (Rect.unit (s := S2x8x64x1024) (k0_off515 (grid0.coords t)) S1x8x64x1024.size (k0_off515_inb (grid0.coords t))).set ⊆ (slotM scB 0).view.set := e0 ▸ box_on_slot_B t
  sl_exec (disch := first | exact h1 | exact h2 | exact ht)
  sl_step
  ihave Ht0A' := ((toks1A c tb fa htb (grid0.coords t) h1 0).2) $$ [HMA_src0 HMA_src1 HMA_src2 HMA_src3 HMA_src4 HMA_src5 HMA_src6 HMA_src7 HMA_src8 HMA_src9 HMA_src10 HMA_src11 HMA_src12 HMA_src13 HMA_src14 HMA_src15 HMA_src16 HMA_src17 HMA_src18 HMA_src19 HMA_src20 HMA_src21 HMA_src22 HMA_src23 HMA_src24 HMA_src25 HMA_src26 HMA_src27 HMA_src28 HMA_src29 HMA_src30 HMA_src31 HMA_src32 HMA_src33 HMA_src34 HMA_src35 HMA_src36 HMA_src37 HMA_src38 HMA_src39 HMA_src40 HMA_src41 HMA_src42 HMA_src43 HMA_src44 HMA_src45 HMA_src46 HMA_src47 HMA_src48 HMA_src49 HMA_src50 HMA_src51 HMA_src52 HMA_src53 HMA_src54 HMA_src55 HMA_src56 HMA_src57 HMA_src58 HMA_src59 HMA_src60 HMA_src61 HMA_src62 HMA_src63 HRA1]
  · iframe
  ihave Ht0B' := ((toks1B c tb fb htb (grid0.coords t) h1 0).2) $$ [HMB_src0 HMB_src1 HMB_src2 HMB_src3 HMB_src4 HMB_src5 HMB_src6 HMB_src7 HMB_src8 HMB_src9 HMB_src10 HMB_src11 HMB_src12 HMB_src13 HMB_src14 HMB_src15 HMB_src16 HMB_src17 HMB_src18 HMB_src19 HMB_src20 HMB_src21 HMB_src22 HMB_src23 HMB_src24 HMB_src25 HMB_src26 HMB_src27 HMB_src28 HMB_src29 HMB_src30 HMB_src31 HMB_src32 HMB_src33 HMB_src34 HMB_src35 HMB_src36 HMB_src37 HMB_src38 HMB_src39 HMB_src40 HMB_src41 HMB_src42 HMB_src43 HMB_src44 HMB_src45 HMB_src46 HMB_src47 HMB_src48 HMB_src49 HMB_src50 HMB_src51 HMB_src52 HMB_src53 HMB_src54 HMB_src55 HMB_src56 HMB_src57 HMB_src58 HMB_src59 HMB_src60 HMB_src61 HMB_src62 HMB_src63 HRB1]
  · iframe
  ihave HFA := (freeA_intro c fa 0 (slN (t.val + 1 + 1)) e2 _) $$ [HMA HSA Ht0A']
  · isplitl [HMA]; · iexact HMA
    isplitl [HSA]; · iexact HSA
    iexact Ht0A'
  ihave HFB := (freeB_intro c fb 0 (slN (t.val + 1 + 1)) e2 _) $$ [HMB HSB Ht0B']
  · isplitl [HMB]; · iexact HMB
    isplitl [HSB]; · iexact HSB
    iexact Ht0B'
  ihave HLA := (flightA_intro c tb htb fa (grid0.coords t) h2 (slN (t.val + 1))) $$ [HNA HRA2]
  · iframe
  ihave HLB := (flightB_intro c tb htb fb (grid0.coords t) h2 (slN (t.val + 1))) $$ [HNB HRB2]
  · iframe
  isplitl [Hg HT HdA HdB HFA HFB HLA HLB]
  · iframe
  isplitl [HO]; · iexists _; iexact HO
  iexists _; isplitr; swap; · iexact H1
  ipureintro
  refine (read_store_whole stg hstg f1 _).trans ?_
  unfold outBlk
  have hA := (readAt_box_congr scA _ _ ((coff_L t).trans (by rw [e0])) (k0_off515_inb (grid0.coords t)) (inb_slot 0) (glue_A c (L1A c tb fa htb (grid0.coords t) h1 0))).trans (read1A c tb fa htb t h1 hbt 0)
  have hB := (readAt_box_congr scB _ _ ((coff_L t).trans (by rw [e0])) (k0_off515_inb (grid0.coords t)) (inb_slot 0) (glue_B c (L1B c tb fb htb (grid0.coords t) h1 0))).trans (read1B c tb fb htb t h1 hbt 0)
  show k0_pay1 (k0_pay2 (scA.view.readAt (Elt F) (Rect.unit (s := S2x8x64x1024) (k0_off515 (grid0.coords t)) S1x8x64x1024.size (k0_off515_inb (grid0.coords t))).toLoadRect (glue_A c (L1A c tb fa htb (grid0.coords t) h1 0)))) (k0_pay3 (scB.view.readAt (Elt F) (Rect.unit (s := S2x8x64x1024) (k0_off515 (grid0.coords t)) S1x8x64x1024.size (k0_off515_inb (grid0.coords t))).toLoadRect (glue_B c (L1B c tb fb htb (grid0.coords t) h1 0)))) (k0_pay4 (scA.view.readAt (Elt F) (Rect.unit (s := S2x8x64x1024) (k0_off515 (grid0.coords t)) S1x8x64x1024.size (k0_off515_inb (grid0.coords t))).toLoadRect (glue_A c (L1A c tb fa htb (grid0.coords t) h1 0))) (scB.view.readAt (Elt F) (Rect.unit (s := S2x8x64x1024) (k0_off515 (grid0.coords t)) S1x8x64x1024.size (k0_off515_inb (grid0.coords t))).toLoadRect (glue_B c (L1B c tb fb htb (grid0.coords t) h1 0)))) = _
  rw [hA, hB]

end Cert.KernelIdeal.Hand

end
-- ==== Proof.KI.RunB.lean ====
/-
  A middle grid point of a row group (t mod 16 ≠ 0, 15): the block of point t is in flight into slot t mod 2 and the other slot is
  free; the point waits for its 128 copies, starts the 128 copies of point t + 1 into the free slot, reads the waited slot back as
  the gathered rows and stores the elementwise function of them.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Reads
import proofs.«422764_j1194000908612_2_alg».proof.Proof.KI.Toks
import proofs.«422764_j1194000908612_2_alg».proof.Proof.KI.PhiIO
import proofs.«422764_j1194000908612_2_alg».proof.Proof.KI.PhiLemmas
import proofs.«422764_j1194000908612_2_alg».proof.Proof.KI.Stor
import proofs.«422764_j1194000908612_2_alg».proof.Proof.KI.StoreRead
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

set_option maxHeartbeats 8000000 in
theorem runB (c : Dev nD) (t : Fin grid0.N) (ht : t.val % 16 ≠ 0 ∧ t.val % 16 ≠ 15)
    (stg : Memref sig .tc .vmem S8x64x1024 .f32) (hstg : stg.IsWhole) (x0 : Vec F S8x64x1024 .f32)
    (tb : MBuf (F := F) c tbM) (htb : ∀ y, (tb y).toNat < 4096) (fa : MBuf (F := F) c aM) (fb : MBuf (F := F) c bM) (W : Waits sig Unit) :
    iprop(Phi c tb htb fa fb t.val ∗ owes (c : Thread nD τ) 0 W ∗ owns (c : Thread nD τ) stg fullShare x0)
      ⊢ wp frame (wpE (defs₀ (F := F)) Variants.none (c : Thread nD τ) none) Set.univ
          (cc0_kernel (F := F) (grid0.coords t) tbM (Memref.isWhole_whole _) aM (Memref.isWhole_whole _) bM (Memref.isWhole_whole _) stg hstg scA (Memref.isWhole_whole _) scB (Memref.isWhole_whole _) cc0_scratch2 cc0_scratch3)
          (fun _ => iprop(Phi c tb htb fa fb (t.val + 1) ∗ (∃ W', owes (c : Thread nD τ) 0 W') ∗ owns (c : Thread nD τ) stg fullShare (outBlk (F := F) fa fb (rowsOf tb t.val)))) := by
  have hc1 : ¬ k0_cond1 (grid0.coords t) = 1#1 := fun h => by have := (hcond1 t).mp h; omega
  have h2 : k0_cond2 (grid0.coords t) = 1#1 := (hcond2 t).mpr (by omega)
  have e2 : slN t.val = slN (t.val + 1 + 1) := Fin.ext (by show t.val % 2 = (t.val + 1 + 1) % 2; omega)
  have hbt : t.val < 32 := lt_of_lt_of_eq t.isLt N_0
  obtain ⟨t', h2', ht', hsl⟩ := slots_flight' c tb htb fa fb t (by omega)
  unfold Phi
  rw [hsl, slots_flight c tb htb fa fb t (by omega) h2]
  unfold steady owns
  conv => lhs; unfold flightA flightB freeA freeB
  iintro ⟨⟨⟨Hg, HT, HdA, HdB⟩, ⟨HBA, HRA⟩, ⟨HBB, HRB⟩, ⟨HcA, ⟨%gA, HgA⟩, HtA⟩, ⟨HcB, ⟨%gB, HgB⟩, HtB⟩⟩, HO, ⟨%f1, -, H1⟩⟩
  imod (Transfers.batch_alloc' (Lvl := ℕ) countersEmb (c : Thread nD τ) () rowCredit (D2A c tb fa htb (grid0.coords t) h2 (slN (t.val + 1))) (sm := cA (slN (t.val + 1))) (E := Set.univ)) $$ HcA with HNA
  imod (Transfers.batch_alloc' (Lvl := ℕ) countersEmb (c : Thread nD τ) () rowCredit (D2B c tb fb htb (grid0.coords t) h2 (slN (t.val + 1))) (sm := cB (slN (t.val + 1))) (E := Set.univ)) $$ HcB with HNB
  ihave HrA := (Entails.of_eq (slot64_A c (slN (t.val + 1)) gA)) $$ HgA
  icases HrA with ⟨FA0, FA1, FA2, FA3, FA4, FA5, FA6, FA7, FA8, FA9, FA10, FA11, FA12, FA13, FA14, FA15, FA16, FA17, FA18, FA19, FA20, FA21, FA22, FA23, FA24, FA25, FA26, FA27, FA28, FA29, FA30, FA31, FA32, FA33, FA34, FA35, FA36, FA37, FA38, FA39, FA40, FA41, FA42, FA43, FA44, FA45, FA46, FA47, FA48, FA49, FA50, FA51, FA52, FA53, FA54, FA55, FA56, FA57, FA58, FA59, FA60, FA61, FA62, FA63⟩
  ihave HrB := (Entails.of_eq (slot64_B c (slN (t.val + 1)) gB)) $$ HgB
  icases HrB with ⟨FB0, FB1, FB2, FB3, FB4, FB5, FB6, FB7, FB8, FB9, FB10, FB11, FB12, FB13, FB14, FB15, FB16, FB17, FB18, FB19, FB20, FB21, FB22, FB23, FB24, FB25, FB26, FB27, FB28, FB29, FB30, FB31, FB32, FB33, FB34, FB35, FB36, FB37, FB38, FB39, FB40, FB41, FB42, FB43, FB44, FB45, FB46, FB47, FB48, FB49, FB50, FB51, FB52, FB53, FB54, FB55, FB56, FB57, FB58, FB59, FB60, FB61, FB62, FB63⟩
  ihave HxA := ((toks2A c tb fa htb (grid0.coords t) h2 (slN (t.val + 1))).1) $$ HtA
  icases HxA with ⟨⟨XA0, XA1, XA2, XA3, XA4, XA5, XA6, XA7, XA8, XA9, XA10, XA11, XA12, XA13, XA14, XA15, XA16, XA17, XA18, XA19, XA20, XA21, XA22, XA23, XA24, XA25, XA26, XA27, XA28, XA29, XA30, XA31, XA32, XA33, XA34, XA35, XA36, XA37, XA38, XA39, XA40, XA41, XA42, XA43, XA44, XA45, XA46, XA47, XA48, XA49, XA50, XA51, XA52, XA53, XA54, XA55, XA56, XA57, XA58, XA59, XA60, XA61, XA62, XA63⟩, HRA2⟩
  ihave HxB := ((toks2B c tb fb htb (grid0.coords t) h2 (slN (t.val + 1))).1) $$ HtB
  icases HxB with ⟨⟨XB0, XB1, XB2, XB3, XB4, XB5, XB6, XB7, XB8, XB9, XB10, XB11, XB12, XB13, XB14, XB15, XB16, XB17, XB18, XB19, XB20, XB21, XB22, XB23, XB24, XB25, XB26, XB27, XB28, XB29, XB30, XB31, XB32, XB33, XB34, XB35, XB36, XB37, XB38, XB39, XB40, XB41, XB42, XB43, XB44, XB45, XB46, XB47, XB48, XB49, XB50, XB51, XB52, XB53, XB54, XB55, XB56, XB57, XB58, XB59, XB60, XB61, XB62, XB63⟩, HRB2⟩
  rw [cc0_kernel_eq_skeleton]; unfold cc0_kernel_skel
  sl_exec (disch := first | exact hc1 | exact h2 | exact (fun _ => rows_inb _ (htb _)))
  ihave HSA := (Entails.of_eq (rows64_A c (slN t.val) (L2A c tb fa htb (grid0.coords t') h2' (slN t.val)))) $$ [HBA_dst0 HBA_dst1 HBA_dst2 HBA_dst3 HBA_dst4 HBA_dst5 HBA_dst6 HBA_dst7 HBA_dst8 HBA_dst9 HBA_dst10 HBA_dst11 HBA_dst12 HBA_dst13 HBA_dst14 HBA_dst15 HBA_dst16 HBA_dst17 HBA_dst18 HBA_dst19 HBA_dst20 HBA_dst21 HBA_dst22 HBA_dst23 HBA_dst24 HBA_dst25 HBA_dst26 HBA_dst27 HBA_dst28 HBA_dst29 HBA_dst30 HBA_dst31 HBA_dst32 HBA_dst33 HBA_dst34 HBA_dst35 HBA_dst36 HBA_dst37 HBA_dst38 HBA_dst39 HBA_dst40 HBA_dst41 HBA_dst42 HBA_dst43 HBA_dst44 HBA_dst45 HBA_dst46 HBA_dst47 HBA_dst48 HBA_dst49 HBA_dst50 HBA_dst51 HBA_dst52 HBA_dst53 HBA_dst54 HBA_dst55 HBA_dst56 HBA_dst57 HBA_dst58 HBA_dst59 HBA_dst60 HBA_dst61 HBA_dst62 HBA_dst63]
  · dsimp only [L2A]; iframe
  ihave HSB := (Entails.of_eq (rows64_B c (slN t.val) (L2B c tb fb htb (grid0.coords t') h2' (slN t.val)))) $$ [HBB_dst0 HBB_dst1 HBB_dst2 HBB_dst3 HBB_dst4 HBB_dst5 HBB_dst6 HBB_dst7 HBB_dst8 HBB_dst9 HBB_dst10 HBB_dst11 HBB_dst12 HBB_dst13 HBB_dst14 HBB_dst15 HBB_dst16 HBB_dst17 HBB_dst18 HBB_dst19 HBB_dst20 HBB_dst21 HBB_dst22 HBB_dst23 HBB_dst24 HBB_dst25 HBB_dst26 HBB_dst27 HBB_dst28 HBB_dst29 HBB_dst30 HBB_dst31 HBB_dst32 HBB_dst33 HBB_dst34 HBB_dst35 HBB_dst36 HBB_dst37 HBB_dst38 HBB_dst39 HBB_dst40 HBB_dst41 HBB_dst42 HBB_dst43 HBB_dst44 HBB_dst45 HBB_dst46 HBB_dst47 HBB_dst48 HBB_dst49 HBB_dst50 HBB_dst51 HBB_dst52 HBB_dst53 HBB_dst54 HBB_dst55 HBB_dst56 HBB_dst57 HBB_dst58 HBB_dst59 HBB_dst60 HBB_dst61 HBB_dst62 HBB_dst63]
  · dsimp only [L2B]; iframe
  have hboxA := box_in_slot_A t
  have hboxB := box_in_slot_B t
  have hboxA' := box_on_slot_A t
  have hboxB' := box_on_slot_B t
  sl_exec
  sl_step
  ihave HtA' := ((toks2A c tb fa htb (grid0.coords t') h2' (slN t.val)).2) $$ [HBA_src0 HBA_src1 HBA_src2 HBA_src3 HBA_src4 HBA_src5 HBA_src6 HBA_src7 HBA_src8 HBA_src9 HBA_src10 HBA_src11 HBA_src12 HBA_src13 HBA_src14 HBA_src15 HBA_src16 HBA_src17 HBA_src18 HBA_src19 HBA_src20 HBA_src21 HBA_src22 HBA_src23 HBA_src24 HBA_src25 HBA_src26 HBA_src27 HBA_src28 HBA_src29 HBA_src30 HBA_src31 HBA_src32 HBA_src33 HBA_src34 HBA_src35 HBA_src36 HBA_src37 HBA_src38 HBA_src39 HBA_src40 HBA_src41 HBA_src42 HBA_src43 HBA_src44 HBA_src45 HBA_src46 HBA_src47 HBA_src48 HBA_src49 HBA_src50 HBA_src51 HBA_src52 HBA_src53 HBA_src54 HBA_src55 HBA_src56 HBA_src57 HBA_src58 HBA_src59 HBA_src60 HBA_src61 HBA_src62 HBA_src63 HRA]
  · iframe
  ihave HtB' := ((toks2B c tb fb htb (grid0.coords t') h2' (slN t.val)).2) $$ [HBB_src0 HBB_src1 HBB_src2 HBB_src3 HBB_src4 HBB_src5 HBB_src6 HBB_src7 HBB_src8 HBB_src9 HBB_src10 HBB_src11 HBB_src12 HBB_src13 HBB_src14 HBB_src15 HBB_src16 HBB_src17 HBB_src18 HBB_src19 HBB_src20 HBB_src21 HBB_src22 HBB_src23 HBB_src24 HBB_src25 HBB_src26 HBB_src27 HBB_src28 HBB_src29 HBB_src30 HBB_src31 HBB_src32 HBB_src33 HBB_src34 HBB_src35 HBB_src36 HBB_src37 HBB_src38 HBB_src39 HBB_src40 HBB_src41 HBB_src42 HBB_src43 HBB_src44 HBB_src45 HBB_src46 HBB_src47 HBB_src48 HBB_src49 HBB_src50 HBB_src51 HBB_src52 HBB_src53 HBB_src54 HBB_src55 HBB_src56 HBB_src57 HBB_src58 HBB_src59 HBB_src60 HBB_src61 HBB_src62 HBB_src63 HRB]
  · iframe
  ihave HFA := (freeA_intro c fa (slN t.val) (slN (t.val + 1 + 1)) e2 _) $$ [HBA HSA HtA']
  · iframe
  ihave HFB := (freeB_intro c fb (slN t.val) (slN (t.val + 1 + 1)) e2 _) $$ [HBB HSB HtB']
  · iframe
  ihave HLA := (flightA_intro c tb htb fa (grid0.coords t) h2 (slN (t.val + 1))) $$ [HNA HRA2]
  · iframe
  ihave HLB := (flightB_intro c tb htb fb (grid0.coords t) h2 (slN (t.val + 1))) $$ [HNB HRB2]
  · iframe
  isplitl [Hg HT HdA HdB HFA HFB HLA HLB]
  · iframe
  isplitl [HO]; · iexists _; iexact HO
  iexists _; isplitr; swap; · iexact H1
  ipureintro
  refine (read_store_whole stg hstg f1 _).trans ?_
  unfold outBlk
  have hA := (readAt_box_congr scA _ _ (coff_L t) (k0_off515_inb (grid0.coords t)) (inb_slot (slN t.val)) (glue_A c (L2A c tb fa htb (grid0.coords t') h2' (slN t.val)))).trans (read2A c tb fa htb t' h2' (by omega) (slN t.val))
  have hB := (readAt_box_congr scB _ _ (coff_L t) (k0_off515_inb (grid0.coords t)) (inb_slot (slN t.val)) (glue_B c (L2B c tb fb htb (grid0.coords t') h2' (slN t.val)))).trans (read2B c tb fb htb t' h2' (by omega) (slN t.val))
  show k0_pay1 (k0_pay2 (scA.view.readAt (Elt F) (Rect.unit (s := S2x8x64x1024) (k0_off515 (grid0.coords t)) S1x8x64x1024.size (k0_off515_inb (grid0.coords t))).toLoadRect (glue_A c (L2A c tb fa htb (grid0.coords t') h2' (slN t.val))))) (k0_pay3 (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) (k0_pay4 (scA.view.readAt (Elt F) (Rect.unit (s := S2x8x64x1024) (k0_off515 (grid0.coords t)) S1x8x64x1024.size (k0_off515_inb (grid0.coords t))).toLoadRect (glue_A c (L2A c tb fa htb (grid0.coords t') h2' (slN t.val)))) (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) = _
  rw [hA, hB]
  rw [ht']

end Cert.KernelIdeal.Hand

end
-- ==== Proof.KI.RunC.lean ====
/-
  The last grid point of a row group (t mod 16 = 15): the block of point t is in flight into slot 1; the point waits for
  its 128 copies, reads the two slots back as the gathered rows, stores the elementwise function of them, and starts nothing.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Reads
import proofs.«422764_j1194000908612_2_alg».proof.Proof.KI.Toks
import proofs.«422764_j1194000908612_2_alg».proof.Proof.KI.PhiIO
import proofs.«422764_j1194000908612_2_alg».proof.Proof.KI.PhiLemmas
import proofs.«422764_j1194000908612_2_alg».proof.Proof.KI.Stor
import proofs.«422764_j1194000908612_2_alg».proof.Proof.KI.StoreRead
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

set_option maxHeartbeats 8000000 in
theorem runC (c : Dev nD) (t : Fin grid0.N) (ht : t.val % 16 = 15)
    (stg : Memref sig .tc .vmem S8x64x1024 .f32) (hstg : stg.IsWhole) (x0 : Vec F S8x64x1024 .f32)
    (tb : MBuf (F := F) c tbM) (htb : ∀ y, (tb y).toNat < 4096) (fa : MBuf (F := F) c aM) (fb : MBuf (F := F) c bM) (W : Waits sig Unit) :
    iprop(Phi c tb htb fa fb t.val ∗ owes (c : Thread nD τ) 0 W ∗ owns (c : Thread nD τ) stg fullShare x0)
      ⊢ wp frame (wpE (defs₀ (F := F)) Variants.none (c : Thread nD τ) none) Set.univ
          (cc0_kernel (F := F) (grid0.coords t) tbM (Memref.isWhole_whole _) aM (Memref.isWhole_whole _) bM (Memref.isWhole_whole _) stg hstg scA (Memref.isWhole_whole _) scB (Memref.isWhole_whole _) cc0_scratch2 cc0_scratch3)
          (fun _ => iprop(Phi c tb htb fa fb (t.val + 1) ∗ (∃ W', owes (c : Thread nD τ) 0 W') ∗ owns (c : Thread nD τ) stg fullShare (outBlk (F := F) fa fb (rowsOf tb t.val)))) := by
  have hc1 : ¬ k0_cond1 (grid0.coords t) = 1#1 := fun h => by have := (hcond1 t).mp h; omega
  have hc2 : ¬ k0_cond2 (grid0.coords t) = 1#1 := fun h => by have := (hcond2 t).mp h; omega
  have e1 : slN t.val = 1 := Fin.ext (by show t.val % 2 = 1; omega)
  have e0 : slN (t.val + 1) = 0 := Fin.ext (by show (t.val + 1) % 2 = 0; omega)
  have hbt : t.val < 32 := lt_of_lt_of_eq t.isLt N_0
  obtain ⟨t', h2', ht', hsl⟩ := slots_flight' c tb htb fa fb t (by omega)
  unfold Phi
  rw [hsl, slots_free c tb htb fa fb (t.val + 1) (by omega)]
  unfold steady flightA flightB owns
  iintro ⟨⟨⟨Hg, HT, HdA, HdB⟩, ⟨HBA, HRA⟩, ⟨HBB, HRB⟩, HfA, HfB⟩, HO, ⟨%f1, -, H1⟩⟩
  rw [cc0_kernel_eq_skeleton]; unfold cc0_kernel_skel
  sl_exec (disch := first | exact hc1 | exact hc2 | exact (fun _ => rows_inb _ (htb _)))
  ihave HSA := (Entails.of_eq (rows64_A c (slN t.val) (L2A c tb fa htb (grid0.coords t') h2' (slN t.val)))) $$ [HBA_dst0 HBA_dst1 HBA_dst2 HBA_dst3 HBA_dst4 HBA_dst5 HBA_dst6 HBA_dst7 HBA_dst8 HBA_dst9 HBA_dst10 HBA_dst11 HBA_dst12 HBA_dst13 HBA_dst14 HBA_dst15 HBA_dst16 HBA_dst17 HBA_dst18 HBA_dst19 HBA_dst20 HBA_dst21 HBA_dst22 HBA_dst23 HBA_dst24 HBA_dst25 HBA_dst26 HBA_dst27 HBA_dst28 HBA_dst29 HBA_dst30 HBA_dst31 HBA_dst32 HBA_dst33 HBA_dst34 HBA_dst35 HBA_dst36 HBA_dst37 HBA_dst38 HBA_dst39 HBA_dst40 HBA_dst41 HBA_dst42 HBA_dst43 HBA_dst44 HBA_dst45 HBA_dst46 HBA_dst47 HBA_dst48 HBA_dst49 HBA_dst50 HBA_dst51 HBA_dst52 HBA_dst53 HBA_dst54 HBA_dst55 HBA_dst56 HBA_dst57 HBA_dst58 HBA_dst59 HBA_dst60 HBA_dst61 HBA_dst62 HBA_dst63]
  · dsimp only [L2A]; iframe
  ihave HSB := (Entails.of_eq (rows64_B c (slN t.val) (L2B c tb fb htb (grid0.coords t') h2' (slN t.val)))) $$ [HBB_dst0 HBB_dst1 HBB_dst2 HBB_dst3 HBB_dst4 HBB_dst5 HBB_dst6 HBB_dst7 HBB_dst8 HBB_dst9 HBB_dst10 HBB_dst11 HBB_dst12 HBB_dst13 HBB_dst14 HBB_dst15 HBB_dst16 HBB_dst17 HBB_dst18 HBB_dst19 HBB_dst20 HBB_dst21 HBB_dst22 HBB_dst23 HBB_dst24 HBB_dst25 HBB_dst26 HBB_dst27 HBB_dst28 HBB_dst29 HBB_dst30 HBB_dst31 HBB_dst32 HBB_dst33 HBB_dst34 HBB_dst35 HBB_dst36 HBB_dst37 HBB_dst38 HBB_dst39 HBB_dst40 HBB_dst41 HBB_dst42 HBB_dst43 HBB_dst44 HBB_dst45 HBB_dst46 HBB_dst47 HBB_dst48 HBB_dst49 HBB_dst50 HBB_dst51 HBB_dst52 HBB_dst53 HBB_dst54 HBB_dst55 HBB_dst56 HBB_dst57 HBB_dst58 HBB_dst59 HBB_dst60 HBB_dst61 HBB_dst62 HBB_dst63]
  · dsimp only [L2B]; iframe
  have hboxA := box_in_slot_A t
  have hboxB := box_in_slot_B t
  have hboxA' := box_on_slot_A t
  have hboxB' := box_on_slot_B t
  sl_exec
  sl_step
  ihave HtA := ((toks2A c tb fa htb (grid0.coords t') h2' (slN t.val)).2) $$ [HBA_src0 HBA_src1 HBA_src2 HBA_src3 HBA_src4 HBA_src5 HBA_src6 HBA_src7 HBA_src8 HBA_src9 HBA_src10 HBA_src11 HBA_src12 HBA_src13 HBA_src14 HBA_src15 HBA_src16 HBA_src17 HBA_src18 HBA_src19 HBA_src20 HBA_src21 HBA_src22 HBA_src23 HBA_src24 HBA_src25 HBA_src26 HBA_src27 HBA_src28 HBA_src29 HBA_src30 HBA_src31 HBA_src32 HBA_src33 HBA_src34 HBA_src35 HBA_src36 HBA_src37 HBA_src38 HBA_src39 HBA_src40 HBA_src41 HBA_src42 HBA_src43 HBA_src44 HBA_src45 HBA_src46 HBA_src47 HBA_src48 HBA_src49 HBA_src50 HBA_src51 HBA_src52 HBA_src53 HBA_src54 HBA_src55 HBA_src56 HBA_src57 HBA_src58 HBA_src59 HBA_src60 HBA_src61 HBA_src62 HBA_src63 HRA]
  · iframe
  ihave HtB := ((toks2B c tb fb htb (grid0.coords t') h2' (slN t.val)).2) $$ [HBB_src0 HBB_src1 HBB_src2 HBB_src3 HBB_src4 HBB_src5 HBB_src6 HBB_src7 HBB_src8 HBB_src9 HBB_src10 HBB_src11 HBB_src12 HBB_src13 HBB_src14 HBB_src15 HBB_src16 HBB_src17 HBB_src18 HBB_src19 HBB_src20 HBB_src21 HBB_src22 HBB_src23 HBB_src24 HBB_src25 HBB_src26 HBB_src27 HBB_src28 HBB_src29 HBB_src30 HBB_src31 HBB_src32 HBB_src33 HBB_src34 HBB_src35 HBB_src36 HBB_src37 HBB_src38 HBB_src39 HBB_src40 HBB_src41 HBB_src42 HBB_src43 HBB_src44 HBB_src45 HBB_src46 HBB_src47 HBB_src48 HBB_src49 HBB_src50 HBB_src51 HBB_src52 HBB_src53 HBB_src54 HBB_src55 HBB_src56 HBB_src57 HBB_src58 HBB_src59 HBB_src60 HBB_src61 HBB_src62 HBB_src63 HRB]
  · iframe
  ihave HF1A := (freeA_intro c fa (slN t.val) 1 e1 _) $$ [HBA HSA HtA]
  · iframe
  ihave HF1B := (freeB_intro c fb (slN t.val) 1 e1 _) $$ [HBB HSB HtB]
  · iframe
  ihave HF0A := (freeA_cast c fa (slN (t.val + 1)) 0 e0) $$ HfA
  ihave HF0B := (freeB_cast c fb (slN (t.val + 1)) 0 e0) $$ HfB
  isplitl [Hg HT HdA HdB HF0A HF1A HF0B HF1B]
  · iframe
  isplitl [HO]; · iexists _; iexact HO
  iexists _; isplitr; swap; · iexact H1
  ipureintro
  refine (read_store_whole stg hstg f1 _).trans ?_
  unfold outBlk
  have hA := (readAt_box_congr scA _ _ (coff_L t) (k0_off515_inb (grid0.coords t)) (inb_slot (slN t.val)) (glue_A c (L2A c tb fa htb (grid0.coords t') h2' (slN t.val)))).trans (read2A c tb fa htb t' h2' (by omega) (slN t.val))
  have hB := (readAt_box_congr scB _ _ (coff_L t) (k0_off515_inb (grid0.coords t)) (inb_slot (slN t.val)) (glue_B c (L2B c tb fb htb (grid0.coords t') h2' (slN t.val)))).trans (read2B c tb fb htb t' h2' (by omega) (slN t.val))
  show k0_pay1 (k0_pay2 (scA.view.readAt (Elt F) (Rect.unit (s := S2x8x64x1024) (k0_off515 (grid0.coords t)) S1x8x64x1024.size (k0_off515_inb (grid0.coords t))).toLoadRect (glue_A c (L2A c tb fa htb (grid0.coords t') h2' (slN t.val))))) (k0_pay3 (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) (k0_pay4 (scA.view.readAt (Elt F) (Rect.unit (s := S2x8x64x1024) (k0_off515 (grid0.coords t)) S1x8x64x1024.size (k0_off515_inb (grid0.coords t))).toLoadRect (glue_A c (L2A c tb fa htb (grid0.coords t') h2' (slN t.val)))) (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) = _
  rw [hA, hB]
  rw [ht']

end Cert.KernelIdeal.Hand

end
-- ==== Proof.KI.Main.lean ====
/-
  The kernel side assembled: the table's words are below 4096; the proof data of the one pipeline (each grid point leaves
  the block of the rows it gathered; the invariant is the state of the two scratch slots between points); the body's
  triple at every point from the three cases' runs; the run of the whole program; and the frame.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import proofs.«422764_j1194000908612_2_alg».proof.Proof.PreRows
import proofs.«422764_j1194000908612_2_alg».proof.Proof.KI.Out
import proofs.«422764_j1194000908612_2_alg».proof.Proof.KI.Kit
import proofs.«422764_j1194000908612_2_alg».proof.Proof.KI.Phi
import proofs.«422764_j1194000908612_2_alg».proof.Proof.KI.PhiIO
import proofs.«422764_j1194000908612_2_alg».proof.Proof.KI.RunA
import proofs.«422764_j1194000908612_2_alg».proof.Proof.KI.RunB
import proofs.«422764_j1194000908612_2_alg».proof.Proof.KI.RunC
import Idealize.ShloMosaic.Lib.Pipeline.Frame
import Idealize.ShloMosaic.Lib.Pipeline.FrameBody
import Idealize.ShloMosaic.Lib.StableHlo.Run
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

variable (m : (ℓ : Loc nD τ sig) → Buf (Elt F) ℓ) (ρ : Dev nD → PrngReg)

/-! ## The table's words -/

/-- Every word of the table the region reads is below 4096: it is a clip into [0, 4095]. -/
theorem htbl (c : Dev nD) : ∀ y, ((V m c main_v0) y).toNat < 4096 := by
  intro y
  rw [V_tbl, eq_ix1 y]
  exact Cert.PreRows.clipTbl_lt bcast_S_S2048 _ (y 0)

/-! ## The proof data -/

/-- The proof data of the one pipeline on core c: the result array as the region finds it; after the body at point t the
    staging buffer at the block of the rows the point gathered; the invariant the state of the slots before the point;
    nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => outBlk (V m c main_arg0) (V m c main_arg1) (rowsOf (V m c main_v0) t.val)
  Φ t := Phi c (V m c main_v0) (htbl m c) (V m c main_arg0) (V m c main_arg1) t.val
  q _ := fullShare
  owed _ := 0

theorem A_eq (c : Dev nD) (w : Fin (cfgM m).W) : (dats m 0 c).A w = V m c (Pipeline.arrRef spec0 w) := by
  dsimp only [dats]
theorem Phi_castSucc (c : Dev nD) (t : Fin (cfgM m).N) :
    (dats m 0 c).Φ t.castSucc = Phi c (V m c main_v0) (htbl m c) (V m c main_arg0) (V m c main_arg1) t.val := by
  dsimp only [dats]; simp only [Fin.coe_castSucc]
theorem Phi_succ (c : Dev nD) (t : Fin (cfgM m).N) :
    (dats m 0 c).Φ t.succ = Phi c (V m c main_v0) (htbl m c) (V m c main_arg0) (V m c main_arg1) (t.val + 1) := by
  dsimp only [dats]; simp only [Fin.val_succ]
theorem after0_0 (c : Dev nD) (t : Fin (cfgM m).N) :
    (dats m 0 c).after 0 t = outBlk (V m c main_arg0) (V m c main_arg1) (rowsOf (V m c main_v0) t.val) := by
  dsimp only [dats]; rfl

/-! ## The body at every point -/

theorem sound_body (c : Dev nD) (t : Fin (cfgM m).N) :
    iprop((dats m 0 c).Φ t.castSucc ∗ (dats m 0 c).owesAt () t.castSucc ∗ (∃ d, owns (c : Thread nD τ) (ms0_0 m t) fullShare ((dats m 0 c).before 0 t d)))
      ⊢ wp frame (wpE (defs₀ (F := F)) Variants.none c none) Set.univ (bodyAt0 m t)
          (fun _ => iprop((dats m 0 c).Φ t.succ ∗ (dats m 0 c).owesAt () t.succ ∗ owns (c : Thread nD τ) (ms0_0 m t) fullShare ((dats m 0 c).after 0 t))) := by
  rw [Phi_castSucc, Phi_succ, after0_0]
  unfold Dat.owesAt Pipeline.owesWithin bodyAt0
  rw [show (dats m 0 c).owed t.castSucc = 0 from rfl, show (dats m 0 c).owed t.succ = 0 from rfl]
  iintro ⟨HΦ, ⟨%W, -, HW⟩, ⟨%d, H0⟩⟩
  iapply (wp_wand_r frame (wpE (defs₀ (F := F)) Variants.none c none) Set.univ
    (Q := fun _ => iprop(Phi c (V m c main_v0) (htbl m c) (V m c main_arg0) (V m c main_arg1) (t.val + 1) ∗ (∃ W', owes (c : Thread nD τ) 0 W')
      ∗ owns (c : Thread nD τ) (ms0_0 m t) fullShare (outBlk (V m c main_arg0) (V m c main_arg1) (rowsOf (V m c main_v0) t.val)))))
  isplitl [HΦ HW H0]
  · by_cases hA : t.val % 16 = 0
    · iapply (runA c t hA (ms0_0 m t) (hs0_0 m t) _ (V m c main_v0) (htbl m c) (V m c main_arg0) (V m c main_arg1) W)
      isplitl [HΦ]; · iexact HΦ
      isplitl [HW]; · iexact HW
      iexact H0
    · by_cases hC : t.val % 16 = 15
      · iapply (runC c t hC (ms0_0 m t) (hs0_0 m t) _ (V m c main_v0) (htbl m c) (V m c main_arg0) (V m c main_arg1) W)
        isplitl [HΦ]; · iexact HΦ
        isplitl [HW]; · iexact HW
        iexact H0
      · iapply (runB c t ⟨hA, hC⟩ (ms0_0 m t) (hs0_0 m t) _ (V m c main_v0) (htbl m c) (V m c main_arg0) (V m c main_arg1) W)
        isplitl [HΦ]; · iexact HΦ
        isplitl [HW]; · iexact HW
        iexact H0
  iintro %_ ⟨HΦ', ⟨%W', HW'⟩, H0'⟩
  isplitl [HΦ']; · iexact HΦ'
  isplitl [HW']
  · iexists W'; isplitr; · ipureintro; exact fun _ _ => Or.inl trivial
    iexact HW'
  iexact H0'

theorem body_obligation (c : Dev nD) : BodyObligation (dats (F := F) m 0 c) (defs₀ (F := F)) Variants.none () Set.univ :=
  body_obligation_of m c (dats m 0 c) (sound_body m c)

/-! ## The invariant's two ends -/

theorem hin (c : Dev nD) : iprop(Pipeline.ΦD osem0 spec0 H0 (V m) c ∗ Pipeline.ΦT pre0 (tbl m) c) ⊢ (dats m 0 c).Φ 0 := by
  rw [PhiD0_eq, PhiT0_eq, ← V_pre m c 0,
    show (dats m 0 c).Φ 0 = Phi c (V m c main_v0) (htbl m c) (V m c main_arg0) (V m c main_arg1) 0 from rfl]
  exact phi_in c (V m c main_v0) (htbl m c) (V m c main_arg0) (V m c main_arg1)
theorem hout (c : Dev nD) : (dats m 0 c).Φ (Fin.last (cfgM m).N) ⊢ Pipeline.ΦD osem0 spec0 H0 (V m) c := by
  rw [PhiD0_eq,
    show (dats m 0 c).Φ (Fin.last (cfgM m).N) = Phi c (V m c main_v0) (htbl m c) (V m c main_arg0) (V m c main_arg1) 32 from by
      dsimp only [dats]; simp only [Fin.val_last]; rw [N_cfgM]]
  exact phi_out c (V m c main_v0) (htbl m c) (V m c main_arg0) (V m c main_arg1)

/-! ## The run and the frame -/

set_option backward.isDefEq.respectTransparency.types false in
theorem run_main : θ_run defs (onTc (τ := τ) (main (F := F))) (s₀ m ρ) (Pipeline.FramePost (Pipeline.pin pcfgs fun _ => adm m) (dats m) 0 (V m)) :=
  Pipeline.θ_run_frameP_dma pcfgs (fun _ => adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (frame_of m ρ (dats m) (A_eq m) (run_main m ρ))

end Cert.KernelIdeal.Hand

end
-- ==== Proof.Spec.lean ====
/-
  What both programs compute, as one function of the argument arrays, over literal shapes.

  Inputs: two arrays x, y of shape [8, 4096, 1024] and 2048 row numbers.  Entry (p, g, d) of the result is
  e(x[p, r, d], y[p, r, d]) with r the g-th row number and e(u, v) = exp(u·v + (u − v)·½) + 1 on the extended
  reals.  The operation is elementwise, so it commutes with the selection of rows: gathering rows first and applying e
  afterwards (the kernel) and applying e to every row and gathering afterwards (the reference) give the same entry.
  No algebraic law is used; both sides evaluate e at the same two numbers.
-/
import Idealize.ShloMosaic.PureOps.Ideal
import Idealize.ShloMosaic.Lib.ValueIdx

noncomputable section

namespace Cert.Spec

open Idealize.ShloMosaic Idealize.ShloMosaic.ValueIdx

abbrev SA : Shape := ⟨3, ![8, 4096, 1024]⟩
abbrev SO : Shape := ⟨3, ![8, 2048, 1024]⟩
abbrev SI : Shape := ⟨1, ![2048]⟩

/-- e(u, v) = exp(u·v + (u − v)·½) + 1, the two literals kept as their binary words. -/
def ew (u v : Ideal .f32) : Ideal .f32 :=
  Ideal.exp (u * v + (u - v) * Ideal.ofBits .f32 0x3F000000#32) + Ideal.ofBits .f32 0x3F800000#32

/-- The row a 32-bit word names, folded into the 4096 rows (the fold is the identity on words below 4096). -/
def rowOf (w : IVec SI 32) (g : Fin 2048) : Fin 4096 :=
  ⟨(w (ix1 g)).toNat % 4096, Nat.mod_lt _ (by decide)⟩

/-- A word below 4096 names its own row. -/
theorem rowOf_val (w : IVec SI 32) (g : Fin 2048) (h : (w (ix1 g)).toNat < 4096) : (rowOf w g).val = (w (ix1 g)).toNat :=
  Nat.mod_eq_of_lt h

/-- The result: entry (p, g, d) is e of the two arrays' entries at (p, row g, d). -/
def G (x y : FVec Ideal SA .f32) (row : Fin 2048 → Fin 4096) : FVec Ideal SO .f32 := fun j =>
  let p : Fin 8 := j 0
  let g : Fin 2048 := j 1
  let d : Fin 1024 := j 2
  ew (x (ix3 p (row g) d)) (y (ix3 p (row g) d))

theorem G_apply (x y : FVec Ideal SA .f32) (row : Fin 2048 → Fin 4096) (p : Fin 8) (g : Fin 2048) (d : Fin 1024) :
    G x y row (ix3 p g d) = ew (x (ix3 p (row g) d)) (y (ix3 p (row g) d)) := rfl

end Cert.Spec

end
-- ==== Proof.KI.Value.lean ====
/-
  The value of the kernel's result array: what each grid point stores, index by index, and the whole array the blocks make.
-/
import proofs.«422764_j1194000908612_2_alg».proof.Proof.Gen.KernelIdeal.Launch
import proofs.«422764_j1194000908612_2_alg».proof.Proof.Gen.KernelIdeal.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.KI.Names
import proofs.«422764_j1194000908612_2_alg».proof.Proof.KI.Out
import proofs.«422764_j1194000908612_2_alg».proof.Proof.Spec
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## The block at an index

At the extended reals every operation of the body reads through an index: the two shape casts drop the leading unit axis,
the constants are broadcast, and the rest is pointwise.  So entry (p, r, d) of the stored block is
e(x[p, rows r, d], y[p, rows r, d]) with e(u, v) = exp(u·v + (u − v)·½) + 1. -/

/-- A gathered slot at (0, p, r, d) is the array at (p, rows r, d). -/
theorem gath_apply (X : FVec F S8x4096x1024 .f32) (rows : Fin 64 → Fin 4096) (u : Fin 1) (p : Fin 8) (r : Fin 64) (d : Fin 1024) :
    gath X rows (ix4 u p r d) = X (ix3 p (rows r) d) := rfl

/-- Dropping the unit axis of the first slot: entry (p, r, d) is the slot's entry (0, p, r, d). -/
theorem castA_apply (v : Vec F S1x8x64x1024 .f32) (p : Fin 8) (r : Fin 64) (d : Fin 1024) :
    k0_pay2 v (ix3 p r d) = v (ix4 (0 : Fin 1) p r d) := by
  unfold k0_pay2
  exact shapeCast_1abc_abc_apply v _ p r d

/-- Dropping the unit axis of the second slot. -/
theorem castB_apply (v : Vec F S1x8x64x1024 .f32) (p : Fin 8) (r : Fin 64) (d : Fin 1024) :
    k0_pay3 v (ix3 p r d) = v (ix4 (0 : Fin 1) p r d) := by
  unfold k0_pay3
  exact shapeCast_1abc_abc_apply v _ p r d

/-- Entry (p, r, d) of the block a grid point stores is e of the two arrays' entries at (p, rows r, d). -/
theorem outBlk_apply (x y : FVec Ideal S8x4096x1024 .f32) (rows : Fin 64 → Fin 4096) (p : Fin 8) (r : Fin 64) (d : Fin 1024) :
    outBlk (F := Ideal) x y rows (ix3 p r d) = Cert.Spec.ew (x (ix3 p (rows r) d)) (y (ix3 p (rows r) d)) := by
  have hA : k0_pay2 (gath x rows) (ix3 p r d) = x (ix3 p (rows r) d) := castA_apply (gath x rows) p r d
  have hB : k0_pay3 (gath y rows) (ix3 p r d) = y (ix3 p (rows r) d) := castB_apply (gath y rows) p r d
  show Ideal.exp (k0_pay2 (gath x rows) (ix3 p r d) * k0_pay3 (gath y rows) (ix3 p r d)
        + (k0_pay2 (gath x rows) (ix3 p r d) - k0_pay3 (gath y rows) (ix3 p r d)) * Ideal.ofBits .f32 0x3F000000#32)
      + Ideal.ofBits .f32 0x3F800000#32 = _
  rw [hA, hB]
  rfl

/-! ## The whole array

Grid point t stores rows 64·t … 64·t + 63 of the result, so row g of the result is row g % 64 of the block of point
g / 64, and the row number that block used there is the table's word at 64·(g / 64) + g % 64 = g. -/

/-- Row g % 64 of the rows point g / 64 gathers is the row the table's g-th word names. -/
theorem rows_flat (tb : IVec S2048 32) (g : Fin 2048) :
    rowsOf tb (g.val / 64) ⟨g.val % 64, Nat.mod_lt _ (by decide)⟩ = Cert.Spec.rowOf tb g := by
  have hg : (64 * (g.val / 64) + g.val % 64) % 2048 = g.val := by have := g.isLt; omega
  have hi : (⟨(64 * (g.val / 64) + g.val % 64) % 2048, Nat.mod_lt _ (by decide)⟩ : Fin 2048) = g := Fin.ext hg
  apply Fin.ext
  show (tb (ix1 (⟨(64 * (g.val / 64) + g.val % 64) % 2048, Nat.mod_lt _ (by decide)⟩ : Fin 2048))).toNat % 4096
      = (tb (ix1 g)).toNat % 4096
  rw [hi]

/-- The result array the 32 blocks make: entry (p, g, d) is entry (p, g % 64, d) of the block of point g / 64. -/
def outArr (x y : FVec F S8x4096x1024 .f32) (tb : IVec S2048 32) : FVec F S8x2048x1024 .f32 := fun j =>
  let p : Fin 8 := j 0
  let g : Fin 2048 := j 1
  let d : Fin 1024 := j 2
  outBlk x y (rowsOf tb (g.val / 64)) (ix3 p (⟨g.val % 64, Nat.mod_lt _ (by decide)⟩ : Fin 64) d)

theorem outArr_apply (x y : FVec F S8x4096x1024 .f32) (tb : IVec S2048 32) (p : Fin 8) (g : Fin 2048) (d : Fin 1024) :
    outArr x y tb (ix3 p g d)
      = outBlk x y (rowsOf tb (g.val / 64)) (ix3 p (⟨g.val % 64, Nat.mod_lt _ (by decide)⟩ : Fin 64) d) := rfl

/-- At the extended reals the result array is the specification's function of the two arrays and the table's rows. -/
theorem outArr_eq_G (x y : FVec Ideal S8x4096x1024 .f32) (tb : IVec S2048 32) :
    outArr (F := Ideal) x y tb = Cert.Spec.G x y (Cert.Spec.rowOf tb) := by
  funext j
  obtain ⟨p, g, d, rfl⟩ : ∃ (p : Fin 8) (g : Fin 2048) (d : Fin 1024), j = ix3 p g d := ⟨j 0, j 1, j 2, eq_ix3 j⟩
  rw [outArr_apply, outBlk_apply, rows_flat, Cert.Spec.G_apply]

end Cert.KernelIdeal.Hand

end
-- ==== Proof.KI.Cover.lean ====
/-
  From the blocks the grid points store to the kernel's whole result array: the output window's blocks are disjoint rows
  64·t … 64·t + 63 and tile the array, so the array ends holding one function of the two argument arrays and the table.
-/
import proofs.«422764_j1194000908612_2_alg».proof.Proof.Gen.KernelIdeal.Launch
import proofs.«422764_j1194000908612_2_alg».proof.Proof.Gen.KernelIdeal.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.KI.Names
import proofs.«422764_j1194000908612_2_alg».proof.Proof.KI.Out
import proofs.«422764_j1194000908612_2_alg».proof.Proof.KI.Value
import proofs.«422764_j1194000908612_2_alg».proof.Proof.Spec
import Idealize.ShloMosaic.Lib.ValueIdx
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## The output window's blocks

The window's index map sends grid point t = 16·c₀ + c₁ to block (0, t, 0): the block of point t is rows
64·t … 64·t + 63 of axis 1, all of axes 0 and 2.  The map does not read the table, so everything here holds at any
admissible contents a of the table. -/

/-- The index map at the 32 points, decided once: point t has block index (0, t, 0). -/
theorem blockIdx_pts : ∀ t : Fin grid0.N, cc0_transform_2 (grid0.coords t) = ![0, t.val, 0] := by decide +kernel

/-- A rectangle of block sizes [8, 64, 1024] at block index (0, β, 0) holds exactly the indices whose row (axis 1) is one of
    rows 64·β … 64·β + 63. -/
theorem mem_rows (β : ℕ) (ix : Fin 3 → ℕ) (hix : ix = ![0, β, 0])
    (inb : ∀ b, ix b * S8x64x1024.size b + S8x64x1024.size b ≤ S8x2048x1024.size b) (i : S8x2048x1024.Idx) :
    i ∈ (Rect.unit (s := S8x2048x1024) (fun b => ix b * S8x64x1024.size b) S8x64x1024.size inb).set
      ↔ 64 * β ≤ (i 1).val ∧ (i 1).val < 64 * β + 64 := by
  subst hix
  rw [Rect.mem_set_unit]
  have h8 : (i 0).val < 8 := (i 0).isLt
  have h1024 : (i 2).val < 1024 := (i 2).isLt
  constructor
  · intro h
    have h1 : β * 64 ≤ (i 1).val ∧ (i 1).val < β * 64 + 64 := h (1 : Fin 3)
    omega
  · intro h b
    match b with
    | ⟨0, _⟩ => show 0 * 8 ≤ (i 0).val ∧ (i 0).val < 0 * 8 + 8; omega
    | ⟨1, _⟩ => show β * 64 ≤ (i 1).val ∧ (i 1).val < β * 64 + 64; omega
    | ⟨2, _⟩ => show 0 * 1024 ≤ (i 2).val ∧ (i 2).val < 0 * 1024 + 1024; omega

variable (a : (pcfg0 (F := F)).Adm)

theorem pts_eq : (cfg0 a).N = 32 := N_0

/-- The window's block index at point t. -/
theorem blockIdx (t : Fin (cfg0 a).N) : ((cfg0 a).win 0).index t = ![0, t.val, 0] := blockIdx_pts t

/-- Every point writes its block back: the next point's block index differs in axis 1. -/
theorem flush_pt (t : Fin (cfg0 a).N) : ((cfg0 a).win 0).flush t = true := by
  unfold Window.flush
  rw [Bool.and_eq_true]
  refine ⟨rfl, ?_⟩
  rw [Bool.or_eq_true]
  by_cases h : t.val + 1 = (cfg0 a).grid.N
  · exact Or.inl (decide_eq_true h)
  · have hN : (cfg0 a).N = (cfg0 a).grid.N := rfl
    refine Or.inr (decide_eq_true ⟨by have := t.isLt; omega, ?_⟩)
    rw [blockIdx, blockIdx]
    intro e
    have e1 : t.val + 1 = t.val := congrFun e 1
    omega

set_option backward.isDefEq.respectTransparency.types false in
/-- An index of the result array lies in point t's block iff its row (axis 1) is one of rows 64·t … 64·t + 63. -/
theorem mem_blk (t : Fin (cfg0 a).N) (i : S8x2048x1024.Idx) :
    i ∈ (((cfg0 a).win 0).blk t).view.set ↔ 64 * t.val ≤ (i 1).val ∧ (i 1).val < 64 * t.val + 64 := by
  show i ∈ ((View.whole main_v1).slice (((cfg0 a).win 0).rect t)).set ↔ _
  rw [View.set_slice_whole]
  exact mem_rows t.val _ (blockIdx a t) _ i

/-- The blocks tile the array: row g is in the block of point g / 64, and that point writes back. -/
theorem covered (i : S8x2048x1024.Idx) :
    ∃ t : Fin (cfg0 a).N, ((cfg0 a).win 0).flush t = true ∧ i ∈ (((cfg0 a).win 0).blk t).view.set := by
  have hg : (i 1).val < 2048 := (i 1).isLt
  have hN := pts_eq a
  refine ⟨⟨(i 1).val / 64, by omega⟩, flush_pt a _, ?_⟩
  rw [mem_blk]
  show 64 * ((i 1).val / 64) ≤ (i 1).val ∧ (i 1).val < 64 * ((i 1).val / 64) + 64
  omega

/-! ## From the blocks to the array -/

/-- Entry i of the result array, read at the place block β's entry k sits (same axes 0 and 2, row 64·β + k₁), is that
    entry of block β. -/
theorem outArr_at_blk (x y : FVec F S8x4096x1024 .f32) (tbv : IVec S2048 32) (β : ℕ) (i : S8x2048x1024.Idx) (k : S8x64x1024.Idx)
    (h0 : (i 0).val = (k 0).val) (h1 : (i 1).val = 64 * β + (k 1).val) (h2 : (i 2).val = (k 2).val) :
    outArr x y tbv i = outBlk x y (rowsOf tbv β) k := by
  obtain ⟨p, g, d, rfl⟩ : ∃ (p : Fin 8) (g : Fin 2048) (d : Fin 1024), i = ix3 p g d := ⟨i 0, i 1, i 2, eq_ix3 i⟩
  obtain ⟨p', r, d', rfl⟩ : ∃ (p' : Fin 8) (r : Fin 64) (d' : Fin 1024), k = ix3 p' r d' := ⟨k 0, k 1, k 2, eq_ix3 k⟩
  obtain rfl : p = p' := Fin.ext h0
  obtain rfl : d = d' := Fin.ext h2
  have h1' : g.val = 64 * β + r.val := h1
  have hr : r.val < 64 := r.isLt
  have hdiv : g.val / 64 = β := by omega
  have hmod : (⟨g.val % 64, Nat.mod_lt _ (by decide)⟩ : Fin 64) = r := Fin.ext (by show g.val % 64 = r.val; omega)
  rw [outArr_apply, hdiv, hmod]

set_option backward.isDefEq.respectTransparency.types false in
/-- What point t writes back is block t of the result array. -/
theorem flushed_eq (c : Dev nD) (dat : Dat τ (Elt F) Unit ℕ (Pipeline.UD sig nD τ) ℕ (cfg0 a) c)
    (x y : FVec F S8x4096x1024 .f32) (tbv : IVec S2048 32)
    (hafter : ∀ t : Fin (cfg0 a).N, dat.after 0 t = outBlk x y (rowsOf tbv t.val)) (t : Fin (cfg0 a).N) :
    dat.flushed 0 t = (((cfg0 a).win 0).blk t).view.read (Elt F) (outArr x y tbv) := by
  show ((cfg0 a).win 0).cut ((cfg0 a).grid.coords t) (dat.after 0 t) = _
  rw [hafter]
  funext j
  have hb := blockIdx a t
  have e0 : ((cfg0 a).win 0).index t (0 : Fin 3) = 0 := congrFun hb (0 : Fin 3)
  have e1 : ((cfg0 a).win 0).index t (1 : Fin 3) = t.val := congrFun hb (1 : Fin 3)
  have e2 : ((cfg0 a).win 0).index t (2 : Fin 3) = 0 := congrFun hb (2 : Fin 3)
  show outBlk x y (rowsOf tbv t.val) (((cfg0 a).win 0).xinj ((cfg0 a).grid.coords t) j)
      = outArr x y tbv ((((cfg0 a).win 0).blk t).view.emb j)
  refine (outArr_at_blk x y tbv t.val _ _ ?_ ?_ ?_).symm
  · show ((cfg0 a).win 0).index t (0 : Fin 3) * 8 + 1 * (j (0 : Fin 3)).val = (j (0 : Fin 3)).val
    omega
  · show ((cfg0 a).win 0).index t (1 : Fin 3) * 64 + 1 * (j (1 : Fin 3)).val = 64 * t.val + (j (1 : Fin 3)).val
    omega
  · show ((cfg0 a).win 0).index t (2 : Fin 3) * 1024 + 1 * (j (2 : Fin 3)).val = (j (2 : Fin 3)).val
    omega

/-- THE RESULT ARRAY after the 32 points: if each point leaves in its staging buffer the block of the rows it gathered,
    the array ends holding outArr, whatever it held at entry. -/
theorem final_of (c : Dev nD) (dat : Dat τ (Elt F) Unit ℕ (Pipeline.UD sig nD τ) ℕ (cfg0 a) c)
    (x y : FVec F S8x4096x1024 .f32) (tbv : IVec S2048 32)
    (hafter : ∀ t : Fin (cfg0 a).N, dat.after 0 t = outBlk x y (rowsOf tbv t.val)) :
    dat.arrAt 0 (cfg0 a).N = outArr x y tbv :=
  dat.arrAt_eq_of_cover 0 (outArr x y tbv) (fun t _ => flushed_eq a c dat x y tbv hafter t) (covered a)

/-- At the extended reals the result array is the specification's function of the two arrays and the table's rows. -/
theorem final_G (a : (pcfg0 (F := Ideal)).Adm) (c : Dev nD)
    (dat : Dat τ (Elt Ideal) Unit ℕ (Pipeline.UD sig nD τ) ℕ (cfg0 a) c)
    (x y : FVec Ideal S8x4096x1024 .f32) (tbv : IVec S2048 32)
    (hafter : ∀ t : Fin (cfg0 a).N, dat.after 0 t = outBlk x y (rowsOf tbv t.val)) :
    dat.arrAt 0 (cfg0 a).N = Cert.Spec.G x y (Cert.Spec.rowOf tbv) :=
  (final_of a c dat x y tbv hafter).trans (outArr_eq_G x y tbv)

end Cert.KernelIdeal.Hand

end
-- ==== Proof.KI.MainValue.lean ====
/-
  At the extended reals: the kernel's result array is the specification's function of the two argument arrays and the rows
  the clipped table names — the blocks the grid points store tile the array, and each holds the elementwise function of the
  rows it gathered.
-/
import proofs.«422764_j1194000908612_2_alg».proof.Proof.Gen.KernelIdeal.Launch
import proofs.«422764_j1194000908612_2_alg».proof.Proof.Gen.KernelIdeal.Skeleton
import proofs.«422764_j1194000908612_2_alg».proof.Proof.KI.Names
import proofs.«422764_j1194000908612_2_alg».proof.Proof.PreRows
import proofs.«422764_j1194000908612_2_alg».proof.Proof.KI.Out
import proofs.«422764_j1194000908612_2_alg».proof.Proof.KI.Kit
import proofs.«422764_j1194000908612_2_alg».proof.Proof.KI.Phi
import proofs.«422764_j1194000908612_2_alg».proof.Proof.KI.Main
import proofs.«422764_j1194000908612_2_alg».proof.Proof.KI.Cover
import proofs.«422764_j1194000908612_2_alg».proof.Proof.Spec
import Idealize.ShloMosaic.PureOps.Ideal
import Idealize.ShloMosaic.Lib.Pipeline.Frame
import Idealize.ShloMosaic.Lib.Pipeline.FrameBody
import Idealize.ShloMosaic.Lib.StableHlo.Run
import Idealize.ShloMosaic.Lib.Ring
import Idealize.ShloMosaic.Lib.Batch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

/-- At the extended reals: the result array is the specification's function of the two argument arrays and the rows the
    clipped table names, and the arguments end unchanged. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
        = Cert.Spec.G (m ((c.tc : Thread nD τ).loc main_arg0)) (m ((c.tc : Thread nD τ).loc main_arg1))
            (Cert.Spec.rowOf (Cert.PreRows.clipTbl bcast_S_S2048 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
      ⟨((h c).1).trans ((final_G (adm m) c (dats m 0 c) (V m c main_arg0) (V m c main_arg1) (V m c main_v0) (after0_0 m c)).trans
          (by rw [V_main_arg0, V_main_arg1, V_tbl])), (h c).2⟩)
    (frame_of m ρ (dats m) (A_eq m) (run_main m ρ))

end Cert.KernelIdeal.Hand

end
-- ==== Proof.K.Names.lean ====
/-
  Names for the buffers, rows, slots and counters of the gathering kernel (the word-level program).
-/
import proofs.«422764_j1194000908612_2_alg».proof.Proof.Gen.Kernel.Launch
import proofs.«422764_j1194000908612_2_alg».proof.Proof.Gen.Kernel.Skeleton
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The buffers the kernel function is called with: the table of row numbers in scalar memory, the two argument
    arrays left in main memory, the two double-slot scratch buffers, and the two pairs of transfer counters. -/
abbrev tbM : Memref sig .tc .smem S2048 .i32 := Memref.whole main_v0
abbrev aM : Memref sig .tc .hbm S8x4096x1024 .f32 := Memref.whole main_arg0
abbrev bM : Memref sig .tc .hbm S8x4096x1024 .f32 := Memref.whole main_arg1
abbrev scA : Memref sig .tc .vmem S2x8x64x1024 .f32 := Memref.whole cc0_scratch0
abbrev scB : Memref sig .tc .vmem S2x8x64x1024 .f32 := Memref.whole cc0_scratch1

/-- The contents type of the buffer a memref views, on core c. -/
abbrev MBuf (c : Dev nD) {sp : Space} {S : Shape} {e : EltTy} (M : Memref sig .tc sp S e) : Type := Buf (Elt F) (M.view.loc (c : Thread nD τ))
/-- The table, held at the half share the region lends the body. -/
abbrev tbPt (c : Dev nD) (f : MBuf (F := F) c tbM) : sProp 𝕄 := tbM.view.loc (c : Thread nD τ) ↦{fullShare.right} f
/-- A memref's own elements, held at share q with contents f. -/
abbrev heldQ (c : Dev nD) {sp : Space} {S : Shape} {e : EltTy} (M : Memref sig .tc sp S e) (q : PosShare TreeShare) (f : MBuf (F := F) c M) : sProp 𝕄 :=
  M.view.loc (c : Thread nD τ) ↦[M.view.set]{q} f

/-- The word the table holds at a cell. -/
abbrev wordAt (c : Dev nD) (tb : MBuf (F := F) c tbM) (cell : Fin 1 → ℕ) (h : ∀ a, cell a + S1.size a ≤ S2048.size a) : Elt F .i32 :=
  tbM.view.readAt (Elt F) (Rect.unit (s := S2048) cell S1.size h).toLoadRect tb (Shape.Idx.first (numel1_S1.symm ▸ Nat.one_pos))

/-- Row [8, 1024] of an argument array at an offset vector. -/
abbrev srcM (X : Memref sig .tc .hbm S8x4096x1024 .f32) (off : Fin 3 → ℕ) (h : ∀ a, off a + S8x1x1024.size a ≤ S8x4096x1024.size a) : Memref sig .tc .hbm S8x1024 .f32 :=
  (X.slice (Rect.unit (s := S8x4096x1024) off S8x1x1024.size h) (fun _ => rfl)).squeeze S8x1024 squeezes_S8x1x1024_S8x1024
/-- Row [8, 1024] of a scratch buffer at an offset vector (slot, 0, row, 0). -/
abbrev dstM (X : Memref sig .tc .vmem S2x8x64x1024 .f32) (off : Fin 4 → ℕ) (h : ∀ a, off a + S1x8x1x1024.size a ≤ S2x8x64x1024.size a) : Memref sig .tc .vmem S8x1024 .f32 :=
  (X.slice (Rect.unit (s := S2x8x64x1024) off S1x8x1x1024.size h) (fun _ => rfl)).squeeze S8x1024 squeezes_S1x8x1x1024_S8x1024
/-- What a scratch row holds once a copy of an array row has landed in it: the array row written whole over fd. -/
abbrev landedR (c : Dev nD) (src : Memref sig .tc .hbm S8x1024 .f32) (dst : Memref sig .tc .vmem S8x1024 .f32) (fs : MBuf (F := F) c src) (fd : MBuf (F := F) c dst) : MBuf (F := F) c dst :=
  dst.view.writes (Elt F) fd [⟨Rect.whole S8x1024, ReadAs.same.apply (src.view.read (Elt F) fs)⟩]
/-- The counters of the two arrays' copies, at an offset into the pair. -/
abbrev cellA (off : Fin 1 → ℕ) (h : ∀ a, off a + S1.size a ≤ S2.size a) : SemLoc sig := SemLoc.dma ((cc0_scratch2.slice (Rect.unit (s := S2) off S1.size h)).squeeze S_ squeezes_S1_S_).sem
abbrev cellB (off : Fin 1 → ℕ) (h : ∀ a, off a + S1.size a ≤ S2.size a) : SemLoc sig := SemLoc.dma ((cc0_scratch3.slice (Rect.unit (s := S2) off S1.size h)).squeeze S_ squeezes_S1_S_).sem

/-! Uniform names: slot s ∈ {0, 1}, row r < 64. -/
theorem inb_row (s : Fin 2) (r : Fin 64) : ∀ a, (![s.val, 0, r.val, 0] : Fin 4 → ℕ) a + S1x8x1x1024.size a ≤ S2x8x64x1024.size a := by
  have := s.isLt; have := r.isLt; intro a; fin_cases a <;> simp <;> omega
theorem inb_slot (s : Fin 2) : ∀ a, (![s.val, 0, 0, 0] : Fin 4 → ℕ) a + S1x8x64x1024.size a ≤ S2x8x64x1024.size a := by
  have := s.isLt; intro a; fin_cases a <;> simp <;> omega
theorem inb_cell (s : Fin 2) : ∀ a, (![s.val] : Fin 1 → ℕ) a + S1.size a ≤ S2.size a := by
  have := s.isLt; intro a; fin_cases a <;> simp <;> omega
/-- A word below 4096 names a row of an argument array. -/
theorem rows_inb (v : BitVec 32) (h : v.toNat < 4096) : ∀ a, (![0, v.toNat, 0] : Fin 3 → ℕ) a + S8x1x1024.size a ≤ S8x4096x1024.size a := by
  intro a; fin_cases a <;> simp <;> omega
/-- Row r of slot s of a scratch buffer. -/
def rowM (X : Memref sig .tc .vmem S2x8x64x1024 .f32) (s : Fin 2) (r : Fin 64) : Memref sig .tc .vmem S8x1024 .f32 := dstM X ![s.val, 0, r.val, 0] (inb_row s r)
/-- Slot s of a scratch buffer, whole: [1, 8, 64, 1024]. -/
def slotM (X : Memref sig .tc .vmem S2x8x64x1024 .f32) (s : Fin 2) : Memref sig .tc .vmem S1x8x64x1024 .f32 :=
  X.slice (Rect.unit (s := S2x8x64x1024) ![s.val, 0, 0, 0] S1x8x64x1024.size (inb_slot s)) (fun _ => rfl)
/-- Row w of an argument array. -/
def srcRow (X : Memref sig .tc .hbm S8x4096x1024 .f32) (w : BitVec 32) (hw : w.toNat < 4096) : Memref sig .tc .hbm S8x1024 .f32 := srcM X ![0, w.toNat, 0] (rows_inb w hw)
abbrev cA (s : Fin 2) : SemLoc sig := cellA ![s.val] (inb_cell s)
abbrev cB (s : Fin 2) : SemLoc sig := cellB ![s.val] (inb_cell s)
theorem cA_0 : cA 0 = SemLoc.dma 2 := by decide
theorem cA_1 : cA 1 = SemLoc.dma 3 := by decide
theorem cB_0 : cB 0 = SemLoc.dma 4 := by decide
theorem cB_1 : cB 1 = SemLoc.dma 5 := by decide

end Cert.Kernel.Hand

end
-- ==== Proof.K.Out.lean ====
/-
  What one grid point stores: the elementwise function of the rows it gathered.
-/
import proofs.«422764_j1194000908612_2_alg».proof.Proof.Gen.Kernel.Launch
import proofs.«422764_j1194000908612_2_alg».proof.Proof.Gen.Kernel.Skeleton
import proofs.«422764_j1194000908612_2_alg».proof.Proof.K.Names
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-- The rows grid point β gathers: row r of the block is the row the table's word at 64·β + r names (a word below 4096
    names itself; the folds keep the definition total). -/
def rowsOf (tbv : IVec S2048 32) (β : ℕ) (r : Fin 64) : Fin 4096 :=
  ⟨(tbv (ix1 ⟨(64 * β + r.val) % 2048, Nat.mod_lt _ (by decide)⟩)).toNat % 4096, Nat.mod_lt _ (by decide)⟩

/-- A slot's contents once its 64 copies have landed: entry (0, p, r, d) is the array's entry (p, rows r, d). -/
def gath (X : FVec F S8x4096x1024 .f32) (rows : Fin 64 → Fin 4096) : Vec F S1x8x64x1024 .f32 := fun y =>
  let p : Fin 8 := y 1
  let r : Fin 64 := y 2
  let d : Fin 1024 := y 3
  X (ix3 p (rows r) d)

/-- The block [8, 64, 1024] a grid point stores into its output window: the body's arithmetic of the two gathered slots. -/
def outBlk (x y : FVec F S8x4096x1024 .f32) (rows : Fin 64 → Fin 4096) : Vec F S8x64x1024 .f32 :=
  k0_pay1 (k0_pay2 (gath x rows)) (k0_pay3 (gath y rows)) (k0_pay4 (gath x rows) (gath y rows))

end Cert.Kernel.Hand

end
-- ==== Proof.K.Kit.lean ====
/-
  The launch side of the gathering kernel (the word-level program): the buffers' contents where the region is entered
  (the two host constants and the clip have run), the table of row numbers the region reads, the region's invariant
  conjunct by conjunct, the kernel function at a grid point, and the frame's post read at the argument arrays.
-/
import proofs.«422764_j1194000908612_2_alg».proof.Proof.Gen.Kernel.Launch
import proofs.«422764_j1194000908612_2_alg».proof.Proof.Gen.Kernel.Skeleton
import proofs.«422764_j1194000908612_2_alg».proof.Proof.K.Names
import proofs.«422764_j1194000908612_2_alg».proof.Proof.PreRows
import Idealize.ShloMosaic.Lib.Pipeline.Frame
import Idealize.ShloMosaic.Lib.Pipeline.FrameBody
import Idealize.ShloMosaic.Lib.StableHlo.Run
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the region -/

/-- Core c's buffers where the region is entered: the launch contents after the two constants and the six operations
    of the clip. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program is the two straight lines of host operations, then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes an argument: the region finds the three as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- The table the region finds: the clip of the index words, min(4095, max(0, ·)) signed, entry by entry. -/
theorem V_tbl (c : Dev nD) : V m c main_v0 = Cert.PreRows.clipTbl bcast_S_S2048 (m ((c : Thread nD τ).loc main_arg2)) := by
  show StableHlo.after (List.flatten [hostOps0, hostOps0_1]) (fun b => m (c, b)) (Proc.devRef .tc main_v0) = _
  simp only [hostOps0, hostOps0_1, List.flatten_cons, List.flatten_nil, List.append_nil, List.cons_append, List.nil_append]
  after_results_simp
  rfl

/-! ## The table the region reads -/

/-- The table's contents where the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table's contents: the one window's index map reads no table. -/
abbrev Ok : Prop := ok0 (F := F) (tbl m)
theorem ok_all : Ok m := cast (ok0.eq_1 (tbl m)).symm trivial
abbrev adm : (pcfg0 (F := F)).Adm := ⟨tbl m, ok_all m⟩
abbrev cfgM : Pipeline.Cfg sig Λ₀ := cfg0 (adm m)
theorem N_cfgM : (cfgM m).N = 32 := N_0

/-- The table's half the region hands the body. -/
theorem PhiT0_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The body's own transfers: their counters and the arrays they read -/

abbrev osem0 : Fin 4 → SemLoc sig := ![SemLoc.dma 2, SemLoc.dma 3, SemLoc.dma 4, SemLoc.dma 5]
theorem ownSemFacts0 : Pipeline.OwnSemFacts spec0 osem0 := by decide
/-- The four counters at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) := by
  rw [Pipeline.ownSems0_eq_of_list c osem0 [0, 1, 2, 3] (by decide) (by decide)]; rfl
/-- The arrays left in main memory, which the body copies rows of. -/
def H0 : Finset (Ref sig .tc) := {main_arg0, main_arg1}
theorem H0_sub : H0 ⊆ Pipeline.restRefsP sig pre0 spec0 := by decide
/-- The two arrays' points-tos at their entry contents, listed. -/
theorem hbmPts0_eq (c : Dev nD) :
    (bigSep H0 (fun b => ((c : Thread nD τ).loc b) ↦{fullShare} V m c b) : sProp 𝕄)
      = iprop((aM.view.loc (c : Thread nD τ) ↦{fullShare} V m c main_arg0) ∗ (bM.view.loc (c : Thread nD τ) ↦{fullShare} V m c main_arg1)) := by
  rw [BI.bigSep_eq_bigSepL_of_eq [main_arg0, main_arg1] (by decide) (by decide)]; rfl

/-- The region's invariant conjunct by conjunct: the two scratch buffers whole at some contents, the generator register
    at some state, the four counters at zero, the two arrays whole at their entry contents. -/
theorem PhiD0_eq (c : Dev nD) :
    (Pipeline.ΦD osem0 spec0 H0 (V m) c : sProp 𝕄)
      = iprop(((∃ f : MBuf (F := F) c scA, scA.view.loc (c : Thread nD τ) ↦{fullShare} f) ∗ (∃ f : MBuf (F := F) c scB, scB.view.loc (c : Thread nD τ) ↦{fullShare} f))
          ∗ (∃ r, prngReg c r)
          ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)
          ∗ ((aM.view.loc (c : Thread nD τ) ↦{fullShare} V m c main_arg0) ∗ (bM.view.loc (c : Thread nD τ) ↦{fullShare} V m c main_arg1))) := by
  rw [Pipeline.ΦD_eq, scopedRest0_eq, ownSems00_eq, hbmPts0_eq]

/-! ## The kernel function at a grid point -/

/-- The output window's current staging buffer at point t, and its wholeness. -/
abbrev ms0_0 (t : Fin (cfgM m).N) : Memref sig .tc .vmem S8x64x1024 .f32 := spec0_0.stage ((cfgM m).slots t 0)
abbrev hs0_0 (t : Fin (cfgM m).N) : (ms0_0 m t).IsWhole := hstage0_0 (((cfgM m).slots t 0).cast nbuf0_0)

/-- The kernel function as the pipeline calls it at point t. -/
def bodyAt0 (t : Fin (cfgM m).N) : Prog (TpuEff nD τ sig (Elt F) Λ₀ .tc) PUnit :=
  cc0_kernel (grid0.coords t) tbM (Memref.isWhole_whole _) aM (Memref.isWhole_whole _) bM (Memref.isWhole_whole _) (ms0_0 m t) (hs0_0 m t)
    scA (Memref.isWhole_whole _) scB (Memref.isWhole_whole _) cc0_scratch2 cc0_scratch3

/-- A triple for the kernel function at every point is the body obligation, for any proof data. -/
theorem body_obligation_of (c : Dev nD) (dat : Dat τ (Elt F) Unit ℕ (Pipeline.UD sig nD τ) ℕ (cfgM m) c)
    (h : ∀ t : Fin (cfgM m).N,
      iprop(dat.Φ t.castSucc ∗ dat.owesAt () t.castSucc ∗ (∃ d, owns (c : Thread nD τ) (ms0_0 m t) fullShare (dat.before 0 t d)))
        ⊢ wp frame (wpE (defs₀ (F := F)) Variants.none c none) Set.univ (bodyAt0 m t)
            (fun _ => iprop(dat.Φ t.succ ∗ dat.owesAt () t.succ ∗ owns (c : Thread nD τ) (ms0_0 m t) fullShare (dat.after 0 t)))) :
    BodyObligation dat (defs₀ (F := F)) Variants.none () Set.univ := fun t => by
  rw [bigSep_W0, bigSep_W0]
  exact h t

/-! ## The frame's post read at the result and the arguments -/

theorem frame_of (dats : (p : Fin 1) → (c : Dev nD) → Dat τ (Elt F) Unit ℕ (Pipeline.UD sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_v1) = (dats 0 c).arrAt 0 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 0,
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c)⟩) h

end Cert.Kernel.Hand

end
-- ==== Proof.K.Defs2.lean ====
/-
  Slots, counters and read shares of the double-slot row gather.
-/
import proofs.«422764_j1194000908612_2_alg».proof.Proof.Gen.Kernel.Launch
import proofs.«422764_j1194000908612_2_alg».proof.Proof.Gen.Kernel.Skeleton
import proofs.«422764_j1194000908612_2_alg».proof.Proof.K.Names
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

/-- Slot k mod 2: grid point t (of 32, sixteen per row group) waits for slot t mod 2 and prefetches into slot (t + 1) mod 2. -/
def slN (k : ℕ) : Fin 2 := ⟨k % 2, Nat.mod_lt _ (by decide)⟩

/-- The counter of slot s, for each of the two arrays, as the one-cell view the body passes to a copy or a wait. -/
def semsA (s : Fin 2) : DmaSems sig S_ := (cc0_scratch2.slice (Rect.unit (s := S2) ![s.val] S1.size (inb_cell s))).squeeze S_ squeezes_S1_S_
def semsB (s : Fin 2) : DmaSems sig S_ := (cc0_scratch3.slice (Rect.unit (s := S2) ![s.val] S1.size (inb_cell s))).squeeze S_ squeezes_S1_S_
theorem cA_eq (s : Fin 2) : cA s = SemLoc.dma (semsA s).sem := rfl
theorem cB_eq (s : Fin 2) : cB s = SemLoc.dma (semsB s).sem := rfl

/-- The read share the copy into row r of slot s borrows its array row at: one share per copy, so that two copies
    of one array row (a row number met twice) never compete. -/
def qTok (s : Fin 2) (r : Fin 64) : PosShare TreeShare := Transfers.shareTokN fullShare (64 * s.val + r.val)

/-- A scratch row once a copy of an array row has landed in it, whatever it held before. -/
abbrev landedJ (c : Dev nD) (src : Memref sig .tc .hbm S8x1024 .f32) (dst : Memref sig .tc .vmem S8x1024 .f32) (fs : MBuf (F := F) c src) : MBuf (F := F) c dst :=
  dst.view.writes (Elt F) dst.view.junk [⟨Rect.whole S8x1024, ReadAs.same.apply (src.view.read (Elt F) fs)⟩]

/-- What one copy delivers when it completes: the scratch row at the array row's values, and the array row's elements
    back at the share they were lent at. -/
abbrev deliv (c : Dev nD) (src : Memref sig .tc .hbm S8x1024 .f32) (dst : Memref sig .tc .vmem S8x1024 .f32) (q : PosShare TreeShare) (fs : MBuf (F := F) c src) : sProp 𝕄 :=
  iprop(heldQ c dst fullShare (landedJ c src dst fs) ∗ heldQ c src q fs)

/-- The credit of one copy: a row of 8 × 1024 words. -/
abbrev rowCredit : ℕ := 1024

end Cert.Kernel.Hand

end
-- ==== Proof.K.Tab.lean ====
/-
  The words, array rows and deliveries of the 64 + 64 copies a grid point may start, each under the offset functions the
  body uses for it: the copies of the first fetch of a row group (into slot 0) and those of the prefetch (into the other slot).
-/
import proofs.«422764_j1194000908612_2_alg».proof.Proof.Gen.Kernel.Launch
import proofs.«422764_j1194000908612_2_alg».proof.Proof.Gen.Kernel.Skeleton
import proofs.«422764_j1194000908612_2_alg».proof.Proof.K.Defs2
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

section
variable (c : Dev nD) (tb : MBuf (F := F) c tbM) (fa : MBuf (F := F) c aM) (fb : MBuf (F := F) c bM)

/-- Every word of the table is below 4096, so the word read at any cell is. -/
theorem word_lt (htb : ∀ y, (tb y).toNat < 4096) (cell : Fin 1 → ℕ) (h : ∀ a, cell a + S1.size a ≤ S2048.size a) : (wordAt c tb cell h).toNat < 4096 := htb _

abbrev W1_0 (i : grid0.Coords) (h1 : k0_cond1 i = 1#1) : Elt F .i32 := wordAt c tb (k0_off1 i) (k0_off1_inb i h1)
theorem hw1_0 (htb : ∀ y, (tb y).toNat < 4096) (i : grid0.Coords) (h1 : k0_cond1 i = 1#1) : k0_chk1 i (W1_0 c tb i h1) := fun _ => rows_inb _ (word_lt c tb htb _ _)
abbrev s1A_0 (htb : ∀ y, (tb y).toNat < 4096) (i : grid0.Coords) (h1 : k0_cond1 i = 1#1) : Memref sig .tc .hbm S8x1024 .f32 := srcM aM (k0_off2 (W1_0 c tb i h1)) (k0_off2_inb i _ (hw1_0 c tb htb i h1) h1)
abbrev s1B_0 (htb : ∀ y, (tb y).toNat < 4096) (i : grid0.Coords) (h1 : k0_cond1 i = 1#1) : Memref sig .tc .hbm S8x1024 .f32 := srcM bM (k0_off2 (W1_0 c tb i h1)) (k0_off2_inb i _ (hw1_0 c tb htb i h1) h1)
abbrev W1_1 (i : grid0.Coords) (h1 : k0_cond1 i = 1#1) : Elt F .i32 := wordAt c tb (k0_off3 i) (k0_off3_inb i h1)
theorem hw1_1 (htb : ∀ y, (tb y).toNat < 4096) (i : grid0.Coords) (h1 : k0_cond1 i = 1#1) : k0_chk2 i (W1_1 c tb i h1) := fun _ => rows_inb _ (word_lt c tb htb _ _)
abbrev s1A_1 (htb : ∀ y, (tb y).toNat < 4096) (i : grid0.Coords) (h1 : k0_cond1 i = 1#1) : Memref sig .tc .hbm S8x1024 .f32 := srcM aM (k0_off4 (W1_1 c tb i h1)) (k0_off4_inb i _ (hw1_1 c tb htb i h1) h1)
abbrev s1B_1 (htb : ∀ y, (tb y).toNat < 4096) (i : grid0.Coords) (h1 : k0_cond1 i = 1#1) : Memref sig .tc .hbm S8x1024 .f32 := srcM bM (k0_off4 (W1_1 c tb i h1)) (k0_off4_inb i _ (hw1_1 c tb htb i h1) h1)
abbrev W1_2 (i : grid0.Coords) (h1 : k0_cond1 i = 1#1) : Elt F .i32 := wordAt c tb (k0_off5 i) (k0_off5_inb i h1)
theorem hw1_2 (htb : ∀ y, (tb y).toNat < 4096) (i : grid0.Coords) (h1 : k0_cond1 i = 1#1) : k0_chk3 i (W1_2 c tb i h1) := fun _ => rows_inb _ (word_lt c tb htb _ _)
abbrev s1A_2 (htb : ∀ y, (tb y).toNat < 4096) (i : grid0.Coords) (h1 : k0_cond1 i = 1#1) : Memref sig .tc .hbm S8x1024 .f32 := srcM aM (k0_off6 (W1_2 c tb i h1)) (k0_off6_inb i _ (hw1_2 c tb htb i h1) h1)
abbrev s1B_2 (htb : ∀ y, (tb y).toNat < 4096) (i : grid0.Coords) (h1 : k0_cond1 i = 1#1) : Memref sig .tc .hbm S8x1024 .f32 := srcM bM (k0_off6 (W1_2 c tb i h1)) (k0_off6_inb i _ (hw1_2 c tb htb i h1) h1)
abbrev W1_3 (i : grid0.Coords) (h1 : k0_cond1 i = 1#1) : Elt F .i32 := wordAt c tb (k0_off7 i) (k0_off7_inb i h1)
theorem hw1_3 (htb : ∀ y, (tb y).toNat < 4096) (i : grid0.Coords) (h1 : k0_cond1 i = 1#1) : k0_chk4 i (W1_3 c tb i h1) := fun _ => rows_inb _ (word_lt c tb htb _ _)
abbrev s1A_3 (htb : ∀ y, (tb y).toNat < 4096) (i : grid0.Coords) (h1 : k0_cond1 i = 1#1) : Memref sig .tc .hbm S8x1024 .f32 := srcM aM (k0_off8 (W1_3 c tb i h1)) (k0_off8_inb i _ (hw1_3 c tb htb i h1) h1)
abbrev s1B_3 (htb : ∀ y, (tb y).toNat < 4096) (i : grid0.Coords) (h1 : k0_cond1 i = 1#1) : Memref sig .tc .hbm S8x1024 .f32 := srcM bM (k0_off8 (W1_3 c tb i h1)) (k0_off8_inb i _ (hw1_3 c tb htb i h1) h1)
abbrev W1_4 (i : grid0.Coords) (h1 : k0_cond1 i = 1#1) : Elt F .i32 := wordAt c tb (k0_off9 i) (k0_off9_inb i h1)
theorem hw1_4 (htb : ∀ y, (tb y).toNat < 4096) (i : grid0.Coords) (h1 : k0_cond1 i = 1#1) : k0_chk5 i (W1_4 c tb i h1) := fun _ => rows_inb _ (word_lt c tb htb _ _)
abbrev s1A_4 (htb : ∀ y, (tb y).toNat < 4096) (i : grid0.Coords) (h1 : k0_cond1 i = 1#1) : Memref sig .tc .hbm S8x1024 .f32 := srcM aM (k0_off10 (W1_4 c tb i h1)) (k0_off10_inb i _ (hw1_4 c tb htb i h1) h1)
abbrev s1B_4 (htb : ∀ y, (tb y).toNat < 4096) (i : grid0.Coords) (h1 : k0_cond1 i = 1#1) : Memref sig .tc .hbm S8x1024 .f32 := srcM bM (k0_off10 (W1_4 c tb i h1)) (k0_off10_inb i _ (hw1_4 c tb htb i h1) h1)
abbrev W1_5 (i : grid0.Coords) (h1 : k0_cond1 i = 1#1) : Elt F .i32 := wordAt c tb (k0_off11 i) (k0_off11_inb i h1)
theorem hw1_5 (htb : ∀ y, (tb y).toNat < 4096) (i : grid0.Coords) (h1 : k0_cond1 i = 1#1) : k0_chk6 i (W1_5 c tb i h1) := fun _ => rows_inb _ (word_lt c tb htb _ _)
abbrev s1A_5 (htb : ∀ y, (tb y).toNat < 4096) (i : grid0.Coords) (h1 : k0_cond1 i = 1#1) : Memref sig .tc .hbm S8x1024 .f32 := srcM aM (k0_off12 (W1_5 c tb i h1)) (k0_off12_inb i _ (hw1_5 c tb htb i h1) h1)
abbrev s1B_5 (htb : ∀ y, (tb y).toNat < 4096) (i : grid0.Coords) (h1 : k0_cond1 i = 1#1) : Memref sig .tc .hbm S8x1024 .f32 := srcM bM (k0_off12 (W1_5 c tb i h1)) (k0_off12_inb i _ (hw1_5 c tb htb i h1) h1)
abbrev W1_6 (i : grid0.Coords) (h1 : k0_cond1 i = 1#1) : Elt F .i32 := wordAt c tb (k0_off13 i) (k0_off13_inb i h1)
theorem hw1_6 (htb : ∀ y, (tb y).toNat < 4096) (i : grid0.Coords) (h1 : k0_cond1 i = 1#1) : k0_chk7 i (W1_6 c tb i h1) := fun _ => rows_inb _ (word_lt c tb htb _ _)
abbrev s1A_6 (htb : ∀ y, (tb y).toNat < 4096) (i : grid0.Coords) (h1 : k0_cond1 i = 1#1) : Memref sig .tc .hbm S8x1024 .f32 := srcM aM (k0_off14 (W1_6 c tb i h1)) (k0_off14_inb i _ (hw1_6 c tb htb i h1) h1)
abbrev s1B_6 (htb : ∀ y, (tb y).toNat < 4096) (i : grid0.Coords) (h1 : k0_cond1 i = 1#1) : Memref sig .tc .hbm S8x1024 .f32 := srcM bM (k0_off14 (W1_6 c tb i h1)) (k0_off14_inb i _ (hw1_6 c tb htb i h1) h1)
abbrev W1_7 (i : grid0.Coords) (h1 : k0_cond1 i = 1#1) : Elt F .i32 := wordAt c tb (k0_off15 i) (k0_off15_inb i h1)
theorem hw1_7 (htb : ∀ y, (tb y).toNat < 4096) (i : grid0.Coords) (h1 : k0_cond1 i = 1#1) : k0_chk8 i (W1_7 c tb i h1) := fun _ => rows_inb _ (word_lt c tb htb _ _)
abbrev s1A_7 (htb : ∀ y, (tb y).toNat < 4096) (i : grid0.Coords) (h1 : k0_cond1 i = 1#1) : Memref sig .tc .hbm S8x1024 .f32 := srcM aM (k0_off16 (W1_7 c tb i h1)) (k0_off16_inb i _ (hw1_7 c tb htb i h1) h1)
abbrev s1B_7 (htb : ∀ y, (tb y).toNat < 4096) (i : grid0.Coords) (h1 : k0_cond1 i = 1#1) : Memref sig .tc .hbm S8x1024 .f32 := srcM bM (k0_off16 (W1_7 c tb i h1)) (k0_off16_inb i _ (hw1_7 c tb htb i h1) h1)
abbrev W1_8 (i : grid0.Coords) (h1 : k0_cond1 i = 1#1) : Elt F .i32 := wordAt c tb (k0_off17 i) (k0_off17_inb i h1)
theorem hw1_8 (htb : ∀ y, (tb y).toNat < 4096) (i : grid0.Coords) (h1 : k0_cond1 i = 1#1) : k0_chk9 i (W1_8 c tb i h1) := fun _ => rows_inb _ (word_lt c tb htb _ _)
abbrev s1A_8 (htb : ∀ y, (tb y).toNat < 4096) (i : grid0.Coords) (h1 : k0_cond1 i = 1#1) : Memref sig .tc .hbm S8x1024 .f32 := srcM aM (k0_off18 (W1_8 c tb i h1)) (k0_off18_inb i _ (hw1_8 c tb htb i h1) h1)
abbrev s1B_8 (htb : ∀ y, (tb y).toNat < 4096) (i : grid0.Coords) (h1 : k0_cond1 i = 1#1) : Memref sig .tc .hbm S8x1024 .f32 := srcM bM (k0_off18 (W1_8 c tb i h1)) (k0_off18_inb i _ (hw1_8 c tb htb i h1) h1)
abbrev W1_9 (i : grid0.Coords) (h1 : k0_cond1 i = 1#1) : Elt F .i32 := wordAt c tb (k0_off19 i) (k0_off19_inb i h1)
theorem hw1_9 (htb : ∀ y, (tb y).toNat < 4096) (i : grid0.Coords) (h1 : k0_cond1 i = 1#1) : k0_chk10 i (W1_9 c tb i h1) := fun _ => rows_inb _ (word_lt c tb htb _ _)
abbrev s1A_9 (htb : ∀ y, (tb y).toNat < 4096) (i : grid0.Coords) (h1 : k0_cond1 i = 1#1) : Memref sig .tc .hbm S8x1024 .f32 := srcM aM (k0_off20 (W1_9 c tb i h1)) (k0_off20_inb i _ (hw1_9 c tb htb i h1) h1)
abbrev s1B_9 (htb : ∀ y, (tb y).toNat < 4096) (i : grid0.Coords) (h1 : k0_cond1 i = 1#1) : Memref sig .tc .hbm S8x1024 .f32 := srcM bM (k0_off20 (W1_9 c tb i h1)) (k0_off20_inb i _ (hw1_9 c tb htb i h1) h1)
abbrev W1_10 (i : grid0.Coords) (h1 : k0_cond1 i = 1#1) : Elt F .i32 := wordAt c tb (k0_off21 i) (k0_off21_inb i h1)
theorem hw1_10 (htb : ∀ y, (tb y).toNat < 4096) (i : grid0.Coords) (h1 : k0_cond1 i = 1#1) : k0_chk11 i (W1_10 c tb i h1) := fun _ => rows_inb _ (word_lt c tb htb _ _)
abbrev s1A_10 (htb : ∀ y, (tb y).toNat < 4096) (i : grid0.Coords) (h1 : k0_cond1 i = 1#1) : Memref sig .tc .hbm S8x1024 .f32 := srcM aM (k0_off22 (W1_10 c tb i h1)) (k0_off22_inb i _ (hw1_10 c tb htb i h1) h1)
abbrev s1B_10 (htb : ∀ y, (tb y).toNat < 4096) (i : grid0.Coords) (h1 : k0_cond1 i = 1#1) : Memref sig .tc .hbm S8x1024 .f32 := srcM bM (k0_off22 (W1_10 c tb i h1)) (k0_off22_inb i _ (hw1_10 c tb htb i h1) h1)
abbrev W1_11 (i : grid0.Coords) (h1 : k0_cond1 i = 1#1) : Elt F .i32 := wordAt c tb (k0_off23 i) (k0_off23_inb i h1)
theorem hw1_11 (htb : ∀ y, (tb y).toNat < 4096) (i : grid0.Coords) (h1 : k0_cond1 i = 1#1) : k0_chk12 i (W1_11 c tb i h1) := fun _ => rows_inb _ (word_lt c tb htb _ _)
abbrev s1A_11 (htb : ∀ y, (tb y).toNat < 4096) (i : grid0.Coords) (h1 : k0_cond1 i = 1#1) : Memref sig .tc .hbm S8x1024 .f32 := srcM aM (k0_off24 (W1_11 c tb i h1)) (k0_off24_inb i _ (hw1_11 c tb htb i h1) h1)
abbrev s1B_11 (htb : ∀ y, (tb y).toNat < 4096) (i : grid0.Coords) (h1 : k0_cond1 i = 1#1) : Memref sig .tc .hbm S8x1024 .f32 := srcM bM (k0_off24 (W1_11 c tb i h1)) (k0_off24_inb i _ (hw1_11 c tb htb i h1) h1)
abbrev W1_12 (i : grid0.Coords) (h1 : k0_cond1 i = 1#1) : Elt F .i32 := wordAt c tb (k0_off25 i) (k0_off25_inb i h1)
theorem hw1_12 (htb : ∀ y, (tb y).toNat < 4096) (i : grid0.Coords) (h1 : k0_cond1 i = 1#1) : k0_chk13 i (W1_12 c tb i h1) := fun _ => rows_inb _ (word_lt c tb htb _ _)
abbrev s1A_12 (htb : ∀ y, (tb y).toNat < 4096) (i : grid0.Coords) (h1 : k0_cond1 i = 1#1) : Memref sig .tc .hbm S8x1024 .f32 := srcM aM (k0_off26 (W1_12 c tb i h1)) (k0_off26_inb i _ (hw1_12 c tb htb i h1) h1)
abbrev s1B_12 (htb : ∀ y, (tb y).toNat < 4096) (i : grid0.Coords) (h1 : k0_cond1 i = 1#1) : Memref sig .tc .hbm S8x1024 .f32 := srcM bM (k0_off26 (W1_12 c tb i h1)) (k0_off26_inb i _ (hw1_12 c tb htb i h1) h1)
abbrev W1_13 (i : grid0.Coords) (h1 : k0_cond1 i = 1#1) : Elt F .i32 := wordAt c tb (k0_off27 i) (k0_off27_inb i h1)
theorem hw1_13 (htb : ∀ y, (tb y).toNat < 4096) (i : grid0.Coords) (h1 : k0_cond1 i = 1#1) : k0_chk14 i (W1_13 c tb i h1) := fun _ => rows_inb _ (word_lt c tb htb _ _)
abbrev s1A_13 (htb : ∀ y, (tb y).toNat < 4096) (i : grid0.Coords) (h1 : k0_cond1 i = 1#1) : Memref sig .tc .hbm S8x1024 .f32 := srcM aM (k0_off28 (W1_13 c tb i h1)) (k0_off28_inb i _ (hw1_13 c tb htb i h1) h1)
abbrev s1B_13 (htb : ∀ y, (tb y).toNat < 4096) (i : grid0.Coords) (h1 : k0_cond1 i = 1#1) : Memref sig .tc .hbm S8x1024 .f32 := srcM bM (k0_off28 (W1_13 c tb i h1)) (k0_off28_inb i _ (hw1_13 c tb htb i h1) h1)
abbrev W1_14 (i : grid0.Coords) (h1 : k0_cond1 i = 1#1) : Elt F .i32 := wordAt c tb (k0_off29 i) (k0_off29_inb i h1)
theorem hw1_14 (htb : ∀ y, (tb y).toNat < 4096) (i : grid0.Coords) (h1 : k0_cond1 i = 1#1) : k0_chk15 i (W1_14 c tb i h1) := fun _ => rows_inb _ (word_lt c tb htb _ _)
abbrev s1A_14 (htb : ∀ y, (tb y).toNat < 4096) (i : grid0.Coords) (h1 : k0_cond1 i = 1#1) : Memref sig .tc .hbm S8x1024 .f32 := srcM aM (k0_off30 (W1_14 c tb i h1)) (k0_off30_inb i _ (hw1_14 c tb htb i h1) h1)
abbrev s1B_14 (htb : ∀ y, (tb y).toNat < 4096) (i : grid0.Coords) (h1 : k0_cond1 i = 1#1) : Memref sig .tc .hbm S8x1024 .f32 := srcM bM (k0_off30 (W1_14 c tb i h1)) (k0_off30_inb i _ (hw1_14 c tb htb i h1) h1)
abbrev W1_15 (i : grid0.Coords) (h1 : k0_cond1 i = 1#1) : Elt F .i32 := wordAt c tb (k0_off31 i) (k0_off31_inb i h1)
theorem hw1_15 (htb : ∀ y, (tb y).toNat < 4096) (i : grid0.Coords) (h1 : k0_cond1 i = 1#1) : k0_chk16 i (W1_15 c tb i h1) := fun _ => rows_inb _ (word_lt c tb htb _ _)
abbrev s1A_15 (htb : ∀ y, (tb y).toNat < 4096) (i : grid0.Coords) (h1 : k0_cond1 i = 1#1) : Memref sig .tc .hbm S8x1024 .f32 := srcM aM (k0_off32 (W1_15 c tb i h1)) (k0_off32_inb i _ (hw1_15 c tb htb i h1) h1)
abbrev s1B_15 (htb : ∀ y, (tb y).toNat < 4096) (i : grid0.Coords) (h1 : k0_cond1 i = 1#1) : Memref sig .tc .hbm S8x1024 .f32 := srcM bM (k0_off32 (W1_15 c tb i h1)) (k0_off32_inb i _ (hw1_15 c tb htb i h1) h1)
abbrev W1_16 (i : grid0.Coords) (h1 : k0_cond1 i = 1#1) : Elt F .i32 := wordAt c tb (k0_off33 i) (k0_off33_inb i h1)
theorem hw1_16 (htb : ∀ y, (tb y).toNat < 4096) (i : grid0.Coords) (h1 : k0_cond1 i = 1#1) : k0_chk17 i (W1_16 c tb i h1) := fun _ => rows_inb _ (word_lt c tb htb _ _)
abbrev s1A_16 (htb : ∀ y, (tb y).toNat < 4096) (i : grid0.Coords) (h1 : k0_cond1 i = 1#1) : Memref sig .tc .hbm S8x1024 .f32 := srcM aM (k0_off34 (W1_16 c tb i h1)) (k0_off34_inb i _ (hw1_16 c tb htb i h1) h1)
abbrev s1B_16 (htb : ∀ y, (tb y).toNat < 4096) (i : grid0.Coords) (h1 : k0_cond1 i = 1#1) : Memref sig .tc .hbm S8x1024 .f32 := srcM bM (k0_off34 (W1_16 c tb i h1)) (k0_off34_inb i _ (hw1_16 c tb htb i h1) h1)
abbrev W1_17 (i : grid0.Coords) (h1 : k0_cond1 i = 1#1) : Elt F .i32 := wordAt c tb (k0_off35 i) (k0_off35_inb i h1)
theorem hw1_17 (htb : ∀ y, (tb y).toNat < 4096) (i : grid0.Coords) (h1 : k0_cond1 i = 1#1) : k0_chk18 i (W1_17 c tb i h1) := fun _ => rows_inb _ (word_lt c tb htb _ _)
abbrev s1A_17 (htb : ∀ y, (tb y).toNat < 4096) (i : grid0.Coords) (h1 : k0_cond1 i = 1#1) : Memref sig .tc .hbm S8x1024 .f32 := srcM aM (k0_off36 (W1_17 c tb i h1)) (k0_off36_inb i _ (hw1_17 c tb htb i h1) h1)
abbrev s1B_17 (htb : ∀ y, (tb y).toNat < 4096) (i : grid0.Coords) (h1 : k0_cond1 i = 1#1) : Memref sig .tc .hbm S8x1024 .f32 := srcM bM (k0_off36 (W1_17 c tb i h1)) (k0_off36_inb i _ (hw1_17 c tb htb i h1) h1)
abbrev W1_18 (i : grid0.Coords) (h1 : k0_cond1 i = 1#1) : Elt F .i32 := wordAt c tb (k0_off37 i) (k0_off37_inb i h1)
theorem hw1_18 (htb : ∀ y, (tb y).toNat < 4096) (i : grid0.Coords) (h1 : k0_cond1 i = 1#1) : k0_chk19 i (W1_18 c tb i h1) := fun _ => rows_inb _ (word_lt c tb htb _ _)
abbrev s1A_18 (htb : ∀ y, (tb y).toNat < 4096) (i : grid0.Coords) (h1 : k0_cond1 i = 1#1) : Memref sig .tc .hbm S8x1024 .f32 := srcM aM (k0_off38 (W1_18 c tb i h1)) (k0_off38_inb i _ (hw1_18 c tb htb i h1) h1)
abbrev s1B_18 (htb : ∀ y, (tb y).toNat < 4096) (i : grid0.Coords) (h1 : k0_cond1 i = 1#1) : Memref sig .tc .hbm S8x1024 .f32 := srcM bM (k0_off38 (W1_18 c tb i h1)) (k0_off38_inb i _ (hw1_18 c tb htb i h1) h1)
abbrev W1_19 (i : grid0.Coords) (h1 : k0_cond1 i = 1#1) : Elt F .i32 := wordAt c tb (k0_off39 i) (k0_off39_inb i h1)
theorem hw1_19 (htb : ∀ y, (tb y).toNat < 4096) (i : grid0.Coords) (h1 : k0_cond1 i = 1#1) : k0_chk20 i (W1_19 c tb i h1) := fun _ => rows_inb _ (word_lt c tb htb _ _)
abbrev s1A_19 (htb : ∀ y, (tb y).toNat < 4096) (i : grid0.Coords) (h1 : k0_cond1 i = 1#1) : Memref sig .tc .hbm S8x1024 .f32 := srcM aM (k0_off40 (W1_19 c tb i h1)) (k0_off40_inb i _ (hw1_19 c tb htb i h1) h1)
abbrev s1B_19 (htb : ∀ y, (tb y).toNat < 4096) (i : grid0.Coords) (h1 : k0_cond1 i = 1#1) : Memref sig .tc .hbm S8x1024 .f32 := srcM bM (k0_off40 (W1_19 c tb i h1)) (k0_off40_inb i _ (hw1_19 c tb htb i h1) h1)
abbrev W1_20 (i : grid0.Coords) (h1 : k0_cond1 i = 1#1) : Elt F .i32 := wordAt c tb (k0_off41 i) (k0_off41_inb i h1)
theorem hw1_20 (htb : ∀ y, (tb y).toNat < 4096) (i : grid0.Coords) (h1 : k0_cond1 i = 1#1) : k0_chk21 i (W1_20 c tb i h1) := fun _ => rows_inb _ (word_lt c tb htb _ _)
abbrev s1A_20 (htb : ∀ y, (tb y).toNat < 4096) (i : grid0.Coords) (h1 : k0_cond1 i = 1#1) : Memref sig .tc .hbm S8x1024 .f32 := srcM aM (k0_off42 (W1_20 c tb i h1)) (k0_off42_inb i _ (hw1_20 c tb htb i h1) h1)
abbrev s1B_20 (htb : ∀ y, (tb y).toNat < 4096) (i : grid0.Coords) (h1 : k0_cond1 i = 1#1) : Memref sig .tc .hbm S8x1024 .f32 := srcM bM (k0_off42 (W1_20 c tb i h1)) (k0_off42_inb i _ (hw1_20 c tb htb i h1) h1)
abbrev W1_21 (i : grid0.Coords) (h1 : k0_cond1 i = 1#1) : Elt F .i32 := wordAt c tb (k0_off43 i) (k0_off43_inb i h1)
theorem hw1_21 (htb : ∀ y, (tb y).toNat < 4096) (i : grid0.Coords) (h1 : k0_cond1 i = 1#1) : k0_chk22 i (W1_21 c tb i h1) := fun _ => rows_inb _ (word_lt c tb htb _ _)
abbrev s1A_21 (htb : ∀ y, (tb y).toNat < 4096) (i : grid0.Coords) (h1 : k0_cond1 i = 1#1) : Memref sig .tc .hbm S8x1024 .f32 := srcM aM (k0_off44 (W1_21 c tb i h1)) (k0_off44_inb i _ (hw1_21 c tb htb i h1) h1)
abbrev s1B_21 (htb : ∀ y, (tb y).toNat < 4096) (i : grid0.Coords) (h1 : k0_cond1 i = 1#1) : Memref sig .tc .hbm S8x1024 .f32 := srcM bM (k0_off44 (W1_21 c tb i h1)) (k0_off44_inb i _ (hw1_21 c tb htb i h1) h1)
abbrev W1_22 (i : grid0.Coords) (h1 : k0_cond1 i = 1#1) : Elt F .i32 := wordAt c tb (k0_off45 i) (k0_off45_inb i h1)
theorem hw1_22 (htb : ∀ y, (tb y).toNat < 4096) (i : grid0.Coords) (h1 : k0_cond1 i = 1#1) : k0_chk23 i (W1_22 c tb i h1) := fun _ => rows_inb _ (word_lt c tb htb _ _)
abbrev s1A_22 (htb : ∀ y, (tb y).toNat < 4096) (i : grid0.Coords) (h1 : k0_cond1 i = 1#1) : Memref sig .tc .hbm S8x1024 .f32 := srcM aM (k0_off46 (W1_22 c tb i h1)) (k0_off46_inb i _ (hw1_22 c tb htb i h1) h1)
abbrev s1B_22 (htb : ∀ y, (tb y).toNat < 4096) (i : grid0.Coords) (h1 : k0_cond1 i = 1#1) : Memref sig .tc .hbm S8x1024 .f32 := srcM bM (k0_off46 (W1_22 c tb i h1)) (k0_off46_inb i _ (hw1_22 c tb htb i h1) h1)
abbrev W1_23 (i : grid0.Coords) (h1 : k0_cond1 i = 1#1) : Elt F .i32 := wordAt c tb (k0_off47 i) (k0_off47_inb i h1)
theorem hw1_23 (htb : ∀ y, (tb y).toNat < 4096) (i : grid0.Coords) (h1 : k0_cond1 i = 1#1) : k0_chk24 i (W1_23 c tb i h1) := fun _ => rows_inb _ (word_lt c tb htb _ _)
abbrev s1A_23 (htb : ∀ y, (tb y).toNat < 4096) (i : grid0.Coords) (h1 : k0_cond1 i = 1#1) : Memref sig .tc .hbm S8x1024 .f32 := srcM aM (k0_off48 (W1_23 c tb i h1)) (k0_off48_inb i _ (hw1_23 c tb htb i h1) h1)
abbrev s1B_23 (htb : ∀ y, (tb y).toNat < 4096) (i : grid0.Coords) (h1 : k0_cond1 i = 1#1) : Memref sig .tc .hbm S8x1024 .f32 := srcM bM (k0_off48 (W1_23 c tb i h1)) (k0_off48_inb i _ (hw1_23 c tb htb i h1) h1)
abbrev W1_24 (i : grid0.Coords) (h1 : k0_cond1 i = 1#1) : Elt F .i32 := wordAt c tb (k0_off49 i) (k0_off49_inb i h1)
theorem hw1_24 (htb : ∀ y, (tb y).toNat < 4096) (i : grid0.Coords) (h1 : k0_cond1 i = 1#1) : k0_chk25 i (W1_24 c tb i h1) := fun _ => rows_inb _ (word_lt c tb htb _ _)
abbrev s1A_24 (htb : ∀ y, (tb y).toNat < 4096) (i : grid0.Coords) (h1 : k0_cond1 i = 1#1) : Memref sig .tc .hbm S8x1024 .f32 := srcM aM (k0_off50 (W1_24 c tb i h1)) (k0_off50_inb i _ (hw1_24 c tb htb i h1) h1)
abbrev s1B_24 (htb : ∀ y, (tb y).toNat < 4096) (i : grid0.Coords) (h1 : k0_cond1 i = 1#1) : Memref sig .tc .hbm S8x1024 .f32 := srcM bM (k0_off50 (W1_24 c tb i h1)) (k0_off50_inb i _ (hw1_24 c tb htb i h1) h1)
abbrev W1_25 (i : grid0.Coords) (h1 : k0_cond1 i = 1#1) : Elt F .i32 := wordAt c tb (k0_off51 i) (k0_off51_inb i h1)
theorem hw1_25 (htb : ∀ y, (tb y).toNat < 4096) (i : grid0.Coords) (h1 : k0_cond1 i = 1#1) : k0_chk26 i (W1_25 c tb i h1) := fun _ => rows_inb _ (word_lt c tb htb _ _)
abbrev s1A_25 (htb : ∀ y, (tb y).toNat < 4096) (i : grid0.Coords) (h1 : k0_cond1 i = 1#1) : Memref sig .tc .hbm S8x1024 .f32 := srcM aM (k0_off52 (W1_25 c tb i h1)) (k0_off52_inb i _ (hw1_25 c tb htb i h1) h1)
abbrev s1B_25 (htb : ∀ y, (tb y).toNat < 4096) (i : grid0.Coords) (h1 : k0_cond1 i = 1#1) : Memref sig .tc .hbm S8x1024 .f32 := srcM bM (k0_off52 (W1_25 c tb i h1)) (k0_off52_inb i _ (hw1_25 c tb htb i h1) h1)
abbrev W1_26 (i : grid0.Coords) (h1 : k0_cond1 i = 1#1) : Elt F .i32 := wordAt c tb (k0_off53 i) (k0_off53_inb i h1)
theorem hw1_26 (htb : ∀ y, (tb y).toNat < 4096) (i : grid0.Coords) (h1 : k0_cond1 i = 1#1) : k0_chk27 i (W1_26 c tb i h1) := fun _ => rows_inb _ (word_lt c tb htb _ _)
abbrev s1A_26 (htb : ∀ y, (tb y).toNat < 4096) (i : grid0.Coords) (h1 : k0_cond1 i = 1#1) : Memref sig .tc .hbm S8x1024 .f32 := srcM aM (k0_off54 (W1_26 c tb i h1)) (k0_off54_inb i _ (hw1_26 c tb htb i h1) h1)
abbrev s1B_26 (htb : ∀ y, (tb y).toNat < 4096) (i : grid0.Coords) (h1 : k0_cond1 i = 1#1) : Memref sig .tc .hbm S8x1024 .f32 := srcM bM (k0_off54 (W1_26 c tb i h1)) (k0_off54_inb i _ (hw1_26 c tb htb i h1) h1)
abbrev W1_27 (i : grid0.Coords) (h1 : k0_cond1 i = 1#1) : Elt F .i32 := wordAt c tb (k0_off55 i) (k0_off55_inb i h1)
theorem hw1_27 (htb : ∀ y, (tb y).toNat < 4096) (i : grid0.Coords) (h1 : k0_cond1 i = 1#1) : k0_chk28 i (W1_27 c tb i h1) := fun _ => rows_inb _ (word_lt c tb htb _ _)
abbrev s1A_27 (htb : ∀ y, (tb y).toNat < 4096) (i : grid0.Coords) (h1 : k0_cond1 i = 1#1) : Memref sig .tc .hbm S8x1024 .f32 := srcM aM (k0_off56 (W1_27 c tb i h1)) (k0_off56_inb i _ (hw1_27 c tb htb i h1) h1)
abbrev s1B_27 (htb : ∀ y, (tb y).toNat < 4096) (i : grid0.Coords) (h1 : k0_cond1 i = 1#1) : Memref sig .tc .hbm S8x1024 .f32 := srcM bM (k0_off56 (W1_27 c tb i h1)) (k0_off56_inb i _ (hw1_27 c tb htb i h1) h1)
abbrev W1_28 (i : grid0.Coords) (h1 : k0_cond1 i = 1#1) : Elt F .i32 := wordAt c tb (k0_off57 i) (k0_off57_inb i h1)
theorem hw1_28 (htb : ∀ y, (tb y).toNat < 4096) (i : grid0.Coords) (h1 : k0_cond1 i = 1#1) : k0_chk29 i (W1_28 c tb i h1) := fun _ => rows_inb _ (word_lt c tb htb _ _)
abbrev s1A_28 (htb : ∀ y, (tb y).toNat < 4096) (i : grid0.Coords) (h1 : k0_cond1 i = 1#1) : Memref sig .tc .hbm S8x1024 .f32 := srcM aM (k0_off58 (W1_28 c tb i h1)) (k0_off58_inb i _ (hw1_28 c tb htb i h1) h1)
abbrev s1B_28 (htb : ∀ y, (tb y).toNat < 4096) (i : grid0.Coords) (h1 : k0_cond1 i = 1#1) : Memref sig .tc .hbm S8x1024 .f32 := srcM bM (k0_off58 (W1_28 c tb i h1)) (k0_off58_inb i _ (hw1_28 c tb htb i h1) h1)
abbrev W1_29 (i : grid0.Coords) (h1 : k0_cond1 i = 1#1) : Elt F .i32 := wordAt c tb (k0_off59 i) (k0_off59_inb i h1)
theorem hw1_29 (htb : ∀ y, (tb y).toNat < 4096) (i : grid0.Coords) (h1 : k0_cond1 i = 1#1) : k0_chk30 i (W1_29 c tb i h1) := fun _ => rows_inb _ (word_lt c tb htb _ _)
abbrev s1A_29 (htb : ∀ y, (tb y).toNat < 4096) (i : grid0.Coords) (h1 : k0_cond1 i = 1#1) : Memref sig .tc .hbm S8x1024 .f32 := srcM aM (k0_off60 (W1_29 c tb i h1)) (k0_off60_inb i _ (hw1_29 c tb htb i h1) h1)
abbrev s1B_29 (htb : ∀ y, (tb y).toNat < 4096) (i : grid0.Coords) (h1 : k0_cond1 i = 1#1) : Memref sig .tc .hbm S8x1024 .f32 := srcM bM (k0_off60 (W1_29 c tb i h1)) (k0_off60_inb i _ (hw1_29 c tb htb i h1) h1)
abbrev W1_30 (i : grid0.Coords) (h1 : k0_cond1 i = 1#1) : Elt F .i32 := wordAt c tb (k0_off61 i) (k0_off61_inb i h1)
theorem hw1_30 (htb : ∀ y, (tb y).toNat < 4096) (i : grid0.Coords) (h1 : k0_cond1 i = 1#1) : k0_chk31 i (W1_30 c tb i h1) := fun _ => rows_inb _ (word_lt c tb htb _ _)
abbrev s1A_30 (htb : ∀ y, (tb y).toNat < 4096) (i : grid0.Coords) (h1 : k0_cond1 i = 1#1) : Memref sig .tc .hbm S8x1024 .f32 := srcM aM (k0_off62 (W1_30 c tb i h1)) (k0_off62_inb i _ (hw1_30 c tb htb i h1) h1)
abbrev s1B_30 (htb : ∀ y, (tb y).toNat < 4096) (i : grid0.Coords) (h1 : k0_cond1 i = 1#1) : Memref sig .tc .hbm S8x1024 .f32 := srcM bM (k0_off62 (W1_30 c tb i h1)) (k0_off62_inb i _ (hw1_30 c tb htb i h1) h1)
abbrev W1_31 (i : grid0.Coords) (h1 : k0_cond1 i = 1#1) : Elt F .i32 := wordAt c tb (k0_off63 i) (k0_off63_inb i h1)
theorem hw1_31 (htb : ∀ y, (tb y).toNat < 4096) (i : grid0.Coords) (h1 : k0_cond1 i = 1#1) : k0_chk32 i (W1_31 c tb i h1) := fun _ => rows_inb _ (word_lt c tb htb _ _)
abbrev s1A_31 (htb : ∀ y, (tb y).toNat < 4096) (i : grid0.Coords) (h1 : k0_cond1 i = 1#1) : Memref sig .tc .hbm S8x1024 .f32 := srcM aM (k0_off64 (W1_31 c tb i h1)) (k0_off64_inb i _ (hw1_31 c tb htb i h1) h1)
abbrev s1B_31 (htb : ∀ y, (tb y).toNat < 4096) (i : grid0.Coords) (h1 : k0_cond1 i = 1#1) : Memref sig .tc .hbm S8x1024 .f32 := srcM bM (k0_off64 (W1_31 c tb i h1)) (k0_off64_inb i _ (hw1_31 c tb htb i h1) h1)
abbrev W1_32 (i : grid0.Coords) (h1 : k0_cond1 i = 1#1) : Elt F .i32 := wordAt c tb (k0_off65 i) (k0_off65_inb i h1)
theorem hw1_32 (htb : ∀ y, (tb y).toNat < 4096) (i : grid0.Coords) (h1 : k0_cond1 i = 1#1) : k0_chk33 i (W1_32 c tb i h1) := fun _ => rows_inb _ (word_lt c tb htb _ _)
abbrev s1A_32 (htb : ∀ y, (tb y).toNat < 4096) (i : grid0.Coords) (h1 : k0_cond1 i = 1#1) : Memref sig .tc .hbm S8x1024 .f32 := srcM aM (k0_off66 (W1_32 c tb i h1)) (k0_off66_inb i _ (hw1_32 c tb htb i h1) h1)
abbrev s1B_32 (htb : ∀ y, (tb y).toNat < 4096) (i : grid0.Coords) (h1 : k0_cond1 i = 1#1) : Memref sig .tc .hbm S8x1024 .f32 := srcM bM (k0_off66 (W1_32 c tb i h1)) (k0_off66_inb i _ (hw1_32 c tb htb i h1) h1)
abbrev W1_33 (i : grid0.Coords) (h1 : k0_cond1 i = 1#1) : Elt F .i32 := wordAt c tb (k0_off67 i) (k0_off67_inb i h1)
theorem hw1_33 (htb : ∀ y, (tb y).toNat < 4096) (i : grid0.Coords) (h1 : k0_cond1 i = 1#1) : k0_chk34 i (W1_33 c tb i h1) := fun _ => rows_inb _ (word_lt c tb htb _ _)
abbrev s1A_33 (htb : ∀ y, (tb y).toNat < 4096) (i : grid0.Coords) (h1 : k0_cond1 i = 1#1) : Memref sig .tc .hbm S8x1024 .f32 := srcM aM (k0_off68 (W1_33 c tb i h1)) (k0_off68_inb i _ (hw1_33 c tb htb i h1) h1)
abbrev s1B_33 (htb : ∀ y, (tb y).toNat < 4096) (i : grid0.Coords) (h1 : k0_cond1 i = 1#1) : Memref sig .tc .hbm S8x1024 .f32 := srcM bM (k0_off68 (W1_33 c tb i h1)) (k0_off68_inb i _ (hw1_33 c tb htb i h1) h1)
abbrev W1_34 (i : grid0.Coords) (h1 : k0_cond1 i = 1#1) : Elt F .i32 := wordAt c tb (k0_off69 i) (k0_off69_inb i h1)
theorem hw1_34 (htb : ∀ y, (tb y).toNat < 4096) (i : grid0.Coords) (h1 : k0_cond1 i = 1#1) : k0_chk35 i (W1_34 c tb i h1) := fun _ => rows_inb _ (word_lt c tb htb _ _)
abbrev s1A_34 (htb : ∀ y, (tb y).toNat < 4096) (i : grid0.Coords) (h1 : k0_cond1 i = 1#1) : Memref sig .tc .hbm S8x1024 .f32 := srcM aM (k0_off70 (W1_34 c tb i h1)) (k0_off70_inb i _ (hw1_34 c tb htb i h1) h1)
abbrev s1B_34 (htb : ∀ y, (tb y).toNat < 4096) (i : grid0.Coords) (h1 : k0_cond1 i = 1#1) : Memref sig .tc .hbm S8x1024 .f32 := srcM bM (k0_off70 (W1_34 c tb i h1)) (k0_off70_inb i _ (hw1_34 c tb htb i h1) h1)
abbrev W1_35 (i : grid0.Coords) (h1 : k0_cond1 i = 1#1) : Elt F .i32 := wordAt c tb (k0_off71 i) (k0_off71_inb i h1)
theorem hw1_35 (htb : ∀ y, (tb y).toNat < 4096) (i : grid0.Coords) (h1 : k0_cond1 i = 1#1) : k0_chk36 i (W1_35 c tb i h1) := fun _ => rows_inb _ (word_lt c tb htb _ _)
abbrev s1A_35 (htb : ∀ y, (tb y).toNat < 4096) (i : grid0.Coords) (h1 : k0_cond1 i = 1#1) : Memref sig .tc .hbm S8x1024 .f32 := srcM aM (k0_off72 (W1_35 c tb i h1)) (k0_off72_inb i _ (hw1_35 c tb htb i h1) h1)
abbrev s1B_35 (htb : ∀ y, (tb y).toNat < 4096) (i : grid0.Coords) (h1 : k0_cond1 i = 1#1) : Memref sig .tc .hbm S8x1024 .f32 := srcM bM (k0_off72 (W1_35 c tb i h1)) (k0_off72_inb i _ (hw1_35 c tb htb i h1) h1)
abbrev W1_36 (i : grid0.Coords) (h1 : k0_cond1 i = 1#1) : Elt F .i32 := wordAt c tb (k0_off73 i) (k0_off73_inb i h1)
theorem hw1_36 (htb : ∀ y, (tb y).toNat < 4096) (i : grid0.Coords) (h1 : k0_cond1 i = 1#1) : k0_chk37 i (W1_36 c tb i h1) := fun _ => rows_inb _ (word_lt c tb htb _ _)
abbrev s1A_36 (htb : ∀ y, (tb y).toNat < 4096) (i : grid0.Coords) (h1 : k0_cond1 i = 1#1) : Memref sig .tc .hbm S8x1024 .f32 := srcM aM (k0_off74 (W1_36 c tb i h1)) (k0_off74_inb i _ (hw1_36 c tb htb i h1) h1)
abbrev s1B_36 (htb : ∀ y, (tb y).toNat < 4096) (i : grid0.Coords) (h1 : k0_cond1 i = 1#1) : Memref sig .tc .hbm S8x1024 .f32 := srcM bM (k0_off74 (W1_36 c tb i h1)) (k0_off74_inb i _ (hw1_36 c tb htb i h1) h1)
abbrev W1_37 (i : grid0.Coords) (h1 : k0_cond1 i = 1#1) : Elt F .i32 := wordAt c tb (k0_off75 i) (k0_off75_inb i h1)
theorem hw1_37 (htb : ∀ y, (tb y).toNat < 4096) (i : grid0.Coords) (h1 : k0_cond1 i = 1#1) : k0_chk38 i (W1_37 c tb i h1) := fun _ => rows_inb _ (word_lt c tb htb _ _)
abbrev s1A_37 (htb : ∀ y, (tb y).toNat < 4096) (i : grid0.Coords) (h1 : k0_cond1 i = 1#1) : Memref sig .tc .hbm S8x1024 .f32 := srcM aM (k0_off76 (W1_37 c tb i h1)) (k0_off76_inb i _ (hw1_37 c tb htb i h1) h1)
abbrev s1B_37 (htb : ∀ y, (tb y).toNat < 4096) (i : grid0.Coords) (h1 : k0_cond1 i = 1#1) : Memref sig .tc .hbm S8x1024 .f32 := srcM bM (k0_off76 (W1_37 c tb i h1)) (k0_off76_inb i _ (hw1_37 c tb htb i h1) h1)
abbrev W1_38 (i : grid0.Coords) (h1 : k0_cond1 i = 1#1) : Elt F .i32 := wordAt c tb (k0_off77 i) (k0_off77_inb i h1)
theorem hw1_38 (htb : ∀ y, (tb y).toNat < 4096) (i : grid0.Coords) (h1 : k0_cond1 i = 1#1) : k0_chk39 i (W1_38 c tb i h1) := fun _ => rows_inb _ (word_lt c tb htb _ _)
abbrev s1A_38 (htb : ∀ y, (tb y).toNat < 4096) (i : grid0.Coords) (h1 : k0_cond1 i = 1#1) : Memref sig .tc .hbm S8x1024 .f32 := srcM aM (k0_off78 (W1_38 c tb i h1)) (k0_off78_inb i _ (hw1_38 c tb htb i h1) h1)
abbrev s1B_38 (htb : ∀ y, (tb y).toNat < 4096) (i : grid0.Coords) (h1 : k0_cond1 i = 1#1) : Memref sig .tc .hbm S8x1024 .f32 := srcM bM (k0_off78 (W1_38 c tb i h1)) (k0_off78_inb i _ (hw1_38 c tb htb i h1) h1)
abbrev W1_39 (i : grid0.Coords) (h1 : k0_cond1 i = 1#1) : Elt F .i32 := wordAt c tb (k0_off79 i) (k0_off79_inb i h1)
theorem hw1_39 (htb : ∀ y, (tb y).toNat < 4096) (i : grid0.Coords) (h1 : k0_cond1 i = 1#1) : k0_chk40 i (W1_39 c tb i h1) := fun _ => rows_inb _ (word_lt c tb htb _ _)
abbrev s1A_39 (htb : ∀ y, (tb y).toNat < 4096) (i : grid0.Coords) (h1 : k0_cond1 i = 1#1) : Memref sig .tc .hbm S8x1024 .f32 := srcM aM (k0_off80 (W1_39 c tb i h1)) (k0_off80_inb i _ (hw1_39 c tb htb i h1) h1)
abbrev s1B_39 (htb : ∀ y, (tb y).toNat < 4096) (i : grid0.Coords) (h1 : k0_cond1 i = 1#1) : Memref sig .tc .hbm S8x1024 .f32 := srcM bM (k0_off80 (W1_39 c tb i h1)) (k0_off80_inb i _ (hw1_39 c tb htb i h1) h1)
abbrev W1_40 (i : grid0.Coords) (h1 : k0_cond1 i = 1#1) : Elt F .i32 := wordAt c tb (k0_off81 i) (k0_off81_inb i h1)
theorem hw1_40 (htb : ∀ y, (tb y).toNat < 4096) (i : grid0.Coords) (h1 : k0_cond1 i = 1#1) : k0_chk41 i (W1_40 c tb i h1) := fun _ => rows_inb _ (word_lt c tb htb _ _)
abbrev s1A_40 (htb : ∀ y, (tb y).toNat < 4096) (i : grid0.Coords) (h1 : k0_cond1 i = 1#1) : Memref sig .tc .hbm S8x1024 .f32 := srcM aM (k0_off82 (W1_40 c tb i h1)) (k0_off82_inb i _ (hw1_40 c tb htb i h1) h1)
abbrev s1B_40 (htb : ∀ y, (tb y).toNat < 4096) (i : grid0.Coords) (h1 : k0_cond1 i = 1#1) : Memref sig .tc .hbm S8x1024 .f32 := srcM bM (k0_off82 (W1_40 c tb i h1)) (k0_off82_inb i _ (hw1_40 c tb htb i h1) h1)
abbrev W1_41 (i : grid0.Coords) (h1 : k0_cond1 i = 1#1) : Elt F .i32 := wordAt c tb (k0_off83 i) (k0_off83_inb i h1)
theorem hw1_41 (htb : ∀ y, (tb y).toNat < 4096) (i : grid0.Coords) (h1 : k0_cond1 i = 1#1) : k0_chk42 i (W1_41 c tb i h1) := fun _ => rows_inb _ (word_lt c tb htb _ _)
abbrev s1A_41 (htb : ∀ y, (tb y).toNat < 4096) (i : grid0.Coords) (h1 : k0_cond1 i = 1#1) : Memref sig .tc .hbm S8x1024 .f32 := srcM aM (k0_off84 (W1_41 c tb i h1)) (k0_off84_inb i _ (hw1_41 c tb htb i h1) h1)
abbrev s1B_41 (htb : ∀ y, (tb y).toNat < 4096) (i : grid0.Coords) (h1 : k0_cond1 i = 1#1) : Memref sig .tc .hbm S8x1024 .f32 := srcM bM (k0_off84 (W1_41 c tb i h1)) (k0_off84_inb i _ (hw1_41 c tb htb i h1) h1)
abbrev W1_42 (i : grid0.Coords) (h1 : k0_cond1 i = 1#1) : Elt F .i32 := wordAt c tb (k0_off85 i) (k0_off85_inb i h1)
theorem hw1_42 (htb : ∀ y, (tb y).toNat < 4096) (i : grid0.Coords) (h1 : k0_cond1 i = 1#1) : k0_chk43 i (W1_42 c tb i h1) := fun _ => rows_inb _ (word_lt c tb htb _ _)
abbrev s1A_42 (htb : ∀ y, (tb y).toNat < 4096) (i : grid0.Coords) (h1 : k0_cond1 i = 1#1) : Memref sig .tc .hbm S8x1024 .f32 := srcM aM (k0_off86 (W1_42 c tb i h1)) (k0_off86_inb i _ (hw1_42 c tb htb i h1) h1)
abbrev s1B_42 (htb : ∀ y, (tb y).toNat < 4096) (i : grid0.Coords) (h1 : k0_cond1 i = 1#1) : Memref sig .tc .hbm S8x1024 .f32 := srcM bM (k0_off86 (W1_42 c tb i h1)) (k0_off86_inb i _ (hw1_42 c tb htb i h1) h1)
abbrev W1_43 (i : grid0.Coords) (h1 : k0_cond1 i = 1#1) : Elt F .i32 := wordAt c tb (k0_off87 i) (k0_off87_inb i h1)
theorem hw1_43 (htb : ∀ y, (tb y).toNat < 4096) (i : grid0.Coords) (h1 : k0_cond1 i = 1#1) : k0_chk44 i (W1_43 c tb i h1) := fun _ => rows_inb _ (word_lt c tb htb _ _)
abbrev s1A_43 (htb : ∀ y, (tb y).toNat < 4096) (i : grid0.Coords) (h1 : k0_cond1 i = 1#1) : Memref sig .tc .hbm S8x1024 .f32 := srcM aM (k0_off88 (W1_43 c tb i h1)) (k0_off88_inb i _ (hw1_43 c tb htb i h1) h1)
abbrev s1B_43 (htb : ∀ y, (tb y).toNat < 4096) (i : grid0.Coords) (h1 : k0_cond1 i = 1#1) : Memref sig .tc .hbm S8x1024 .f32 := srcM bM (k0_off88 (W1_43 c tb i h1)) (k0_off88_inb i _ (hw1_43 c tb htb i h1) h1)
abbrev W1_44 (i : grid0.Coords) (h1 : k0_cond1 i = 1#1) : Elt F .i32 := wordAt c tb (k0_off89 i) (k0_off89_inb i h1)
theorem hw1_44 (htb : ∀ y, (tb y).toNat < 4096) (i : grid0.Coords) (h1 : k0_cond1 i = 1#1) : k0_chk45 i (W1_44 c tb i h1) := fun _ => rows_inb _ (word_lt c tb htb _ _)
abbrev s1A_44 (htb : ∀ y, (tb y).toNat < 4096) (i : grid0.Coords) (h1 : k0_cond1 i = 1#1) : Memref sig .tc .hbm S8x1024 .f32 := srcM aM (k0_off90 (W1_44 c tb i h1)) (k0_off90_inb i _ (hw1_44 c tb htb i h1) h1)
abbrev s1B_44 (htb : ∀ y, (tb y).toNat < 4096) (i : grid0.Coords) (h1 : k0_cond1 i = 1#1) : Memref sig .tc .hbm S8x1024 .f32 := srcM bM (k0_off90 (W1_44 c tb i h1)) (k0_off90_inb i _ (hw1_44 c tb htb i h1) h1)
abbrev W1_45 (i : grid0.Coords) (h1 : k0_cond1 i = 1#1) : Elt F .i32 := wordAt c tb (k0_off91 i) (k0_off91_inb i h1)
theorem hw1_45 (htb : ∀ y, (tb y).toNat < 4096) (i : grid0.Coords) (h1 : k0_cond1 i = 1#1) : k0_chk46 i (W1_45 c tb i h1) := fun _ => rows_inb _ (word_lt c tb htb _ _)
abbrev s1A_45 (htb : ∀ y, (tb y).toNat < 4096) (i : grid0.Coords) (h1 : k0_cond1 i = 1#1) : Memref sig .tc .hbm S8x1024 .f32 := srcM aM (k0_off92 (W1_45 c tb i h1)) (k0_off92_inb i _ (hw1_45 c tb htb i h1) h1)
abbrev s1B_45 (htb : ∀ y, (tb y).toNat < 4096) (i : grid0.Coords) (h1 : k0_cond1 i = 1#1) : Memref sig .tc .hbm S8x1024 .f32 := srcM bM (k0_off92 (W1_45 c tb i h1)) (k0_off92_inb i _ (hw1_45 c tb htb i h1) h1)
abbrev W1_46 (i : grid0.Coords) (h1 : k0_cond1 i = 1#1) : Elt F .i32 := wordAt c tb (k0_off93 i) (k0_off93_inb i h1)
theorem hw1_46 (htb : ∀ y, (tb y).toNat < 4096) (i : grid0.Coords) (h1 : k0_cond1 i = 1#1) : k0_chk47 i (W1_46 c tb i h1) := fun _ => rows_inb _ (word_lt c tb htb _ _)
abbrev s1A_46 (htb : ∀ y, (tb y).toNat < 4096) (i : grid0.Coords) (h1 : k0_cond1 i = 1#1) : Memref sig .tc .hbm S8x1024 .f32 := srcM aM (k0_off94 (W1_46 c tb i h1)) (k0_off94_inb i _ (hw1_46 c tb htb i h1) h1)
abbrev s1B_46 (htb : ∀ y, (tb y).toNat < 4096) (i : grid0.Coords) (h1 : k0_cond1 i = 1#1) : Memref sig .tc .hbm S8x1024 .f32 := srcM bM (k0_off94 (W1_46 c tb i h1)) (k0_off94_inb i _ (hw1_46 c tb htb i h1) h1)
abbrev W1_47 (i : grid0.Coords) (h1 : k0_cond1 i = 1#1) : Elt F .i32 := wordAt c tb (k0_off95 i) (k0_off95_inb i h1)
theorem hw1_47 (htb : ∀ y, (tb y).toNat < 4096) (i : grid0.Coords) (h1 : k0_cond1 i = 1#1) : k0_chk48 i (W1_47 c tb i h1) := fun _ => rows_inb _ (word_lt c tb htb _ _)
abbrev s1A_47 (htb : ∀ y, (tb y).toNat < 4096) (i : grid0.Coords) (h1 : k0_cond1 i = 1#1) : Memref sig .tc .hbm S8x1024 .f32 := srcM aM (k0_off96 (W1_47 c tb i h1)) (k0_off96_inb i _ (hw1_47 c tb htb i h1) h1)
abbrev s1B_47 (htb : ∀ y, (tb y).toNat < 4096) (i : grid0.Coords) (h1 : k0_cond1 i = 1#1) : Memref sig .tc .hbm S8x1024 .f32 := srcM bM (k0_off96 (W1_47 c tb i h1)) (k0_off96_inb i _ (hw1_47 c tb htb i h1) h1)
abbrev W1_48 (i : grid0.Coords) (h1 : k0_cond1 i = 1#1) : Elt F .i32 := wordAt c tb (k0_off97 i) (k0_off97_inb i h1)
theorem hw1_48 (htb : ∀ y, (tb y).toNat < 4096) (i : grid0.Coords) (h1 : k0_cond1 i = 1#1) : k0_chk49 i (W1_48 c tb i h1) := fun _ => rows_inb _ (word_lt c tb htb _ _)
abbrev s1A_48 (htb : ∀ y, (tb y).toNat < 4096) (i : grid0.Coords) (h1 : k0_cond1 i = 1#1) : Memref sig .tc .hbm S8x1024 .f32 := srcM aM (k0_off98 (W1_48 c tb i h1)) (k0_off98_inb i _ (hw1_48 c tb htb i h1) h1)
abbrev s1B_48 (htb : ∀ y, (tb y).toNat < 4096) (i : grid0.Coords) (h1 : k0_cond1 i = 1#1) : Memref sig .tc .hbm S8x1024 .f32 := srcM bM (k0_off98 (W1_48 c tb i h1)) (k0_off98_inb i _ (hw1_48 c tb htb i h1) h1)
abbrev W1_49 (i : grid0.Coords) (h1 : k0_cond1 i = 1#1) : Elt F .i32 := wordAt c tb (k0_off99 i) (k0_off99_inb i h1)
theorem hw1_49 (htb : ∀ y, (tb y).toNat < 4096) (i : grid0.Coords) (h1 : k0_cond1 i = 1#1) : k0_chk50 i (W1_49 c tb i h1) := fun _ => rows_inb _ (word_lt c tb htb _ _)
abbrev s1A_49 (htb : ∀ y, (tb y).toNat < 4096) (i : grid0.Coords) (h1 : k0_cond1 i = 1#1) : Memref sig .tc .hbm S8x1024 .f32 := srcM aM (k0_off100 (W1_49 c tb i h1)) (k0_off100_inb i _ (hw1_49 c tb htb i h1) h1)
abbrev s1B_49 (htb : ∀ y, (tb y).toNat < 4096) (i : grid0.Coords) (h1 : k0_cond1 i = 1#1) : Memref sig .tc .hbm S8x1024 .f32 := srcM bM (k0_off100 (W1_49 c tb i h1)) (k0_off100_inb i _ (hw1_49 c tb htb i h1) h1)
abbrev W1_50 (i : grid0.Coords) (h1 : k0_cond1 i = 1#1) : Elt F .i32 := wordAt c tb (k0_off101 i) (k0_off101_inb i h1)
theorem hw1_50 (htb : ∀ y, (tb y).toNat < 4096) (i : grid0.Coords) (h1 : k0_cond1 i = 1#1) : k0_chk51 i (W1_50 c tb i h1) := fun _ => rows_inb _ (word_lt c tb htb _ _)
abbrev s1A_50 (htb : ∀ y, (tb y).toNat < 4096) (i : grid0.Coords) (h1 : k0_cond1 i = 1#1) : Memref sig .tc .hbm S8x1024 .f32 := srcM aM (k0_off102 (W1_50 c tb i h1)) (k0_off102_inb i _ (hw1_50 c tb htb i h1) h1)
abbrev s1B_50 (htb : ∀ y, (tb y).toNat < 4096) (i : grid0.Coords) (h1 : k0_cond1 i = 1#1) : Memref sig .tc .hbm S8x1024 .f32 := srcM bM (k0_off102 (W1_50 c tb i h1)) (k0_off102_inb i _ (hw1_50 c tb htb i h1) h1)
abbrev W1_51 (i : grid0.Coords) (h1 : k0_cond1 i = 1#1) : Elt F .i32 := wordAt c tb (k0_off103 i) (k0_off103_inb i h1)
theorem hw1_51 (htb : ∀ y, (tb y).toNat < 4096) (i : grid0.Coords) (h1 : k0_cond1 i = 1#1) : k0_chk52 i (W1_51 c tb i h1) := fun _ => rows_inb _ (word_lt c tb htb _ _)
abbrev s1A_51 (htb : ∀ y, (tb y).toNat < 4096) (i : grid0.Coords) (h1 : k0_cond1 i = 1#1) : Memref sig .tc .hbm S8x1024 .f32 := srcM aM (k0_off104 (W1_51 c tb i h1)) (k0_off104_inb i _ (hw1_51 c tb htb i h1) h1)
abbrev s1B_51 (htb : ∀ y, (tb y).toNat < 4096) (i : grid0.Coords) (h1 : k0_cond1 i = 1#1) : Memref sig .tc .hbm S8x1024 .f32 := srcM bM (k0_off104 (W1_51 c tb i h1)) (k0_off104_inb i _ (hw1_51 c tb htb i h1) h1)
abbrev W1_52 (i : grid0.Coords) (h1 : k0_cond1 i = 1#1) : Elt F .i32 := wordAt c tb (k0_off105 i) (k0_off105_inb i h1)
theorem hw1_52 (htb : ∀ y, (tb y).toNat < 4096) (i : grid0.Coords) (h1 : k0_cond1 i = 1#1) : k0_chk53 i (W1_52 c tb i h1) := fun _ => rows_inb _ (word_lt c tb htb _ _)
abbrev s1A_52 (htb : ∀ y, (tb y).toNat < 4096) (i : grid0.Coords) (h1 : k0_cond1 i = 1#1) : Memref sig .tc .hbm S8x1024 .f32 := srcM aM (k0_off106 (W1_52 c tb i h1)) (k0_off106_inb i _ (hw1_52 c tb htb i h1) h1)
abbrev s1B_52 (htb : ∀ y, (tb y).toNat < 4096) (i : grid0.Coords) (h1 : k0_cond1 i = 1#1) : Memref sig .tc .hbm S8x1024 .f32 := srcM bM (k0_off106 (W1_52 c tb i h1)) (k0_off106_inb i _ (hw1_52 c tb htb i h1) h1)
abbrev W1_53 (i : grid0.Coords) (h1 : k0_cond1 i = 1#1) : Elt F .i32 := wordAt c tb (k0_off107 i) (k0_off107_inb i h1)
theorem hw1_53 (htb : ∀ y, (tb y).toNat < 4096) (i : grid0.Coords) (h1 : k0_cond1 i = 1#1) : k0_chk54 i (W1_53 c tb i h1) := fun _ => rows_inb _ (word_lt c tb htb _ _)
abbrev s1A_53 (htb : ∀ y, (tb y).toNat < 4096) (i : grid0.Coords) (h1 : k0_cond1 i = 1#1) : Memref sig .tc .hbm S8x1024 .f32 := srcM aM (k0_off108 (W1_53 c tb i h1)) (k0_off108_inb i _ (hw1_53 c tb htb i h1) h1)
abbrev s1B_53 (htb : ∀ y, (tb y).toNat < 4096) (i : grid0.Coords) (h1 : k0_cond1 i = 1#1) : Memref sig .tc .hbm S8x1024 .f32 := srcM bM (k0_off108 (W1_53 c tb i h1)) (k0_off108_inb i _ (hw1_53 c tb htb i h1) h1)
abbrev W1_54 (i : grid0.Coords) (h1 : k0_cond1 i = 1#1) : Elt F .i32 := wordAt c tb (k0_off109 i) (k0_off109_inb i h1)
theorem hw1_54 (htb : ∀ y, (tb y).toNat < 4096) (i : grid0.Coords) (h1 : k0_cond1 i = 1#1) : k0_chk55 i (W1_54 c tb i h1) := fun _ => rows_inb _ (word_lt c tb htb _ _)
abbrev s1A_54 (htb : ∀ y, (tb y).toNat < 4096) (i : grid0.Coords) (h1 : k0_cond1 i = 1#1) : Memref sig .tc .hbm S8x1024 .f32 := srcM aM (k0_off110 (W1_54 c tb i h1)) (k0_off110_inb i _ (hw1_54 c tb htb i h1) h1)
abbrev s1B_54 (htb : ∀ y, (tb y).toNat < 4096) (i : grid0.Coords) (h1 : k0_cond1 i = 1#1) : Memref sig .tc .hbm S8x1024 .f32 := srcM bM (k0_off110 (W1_54 c tb i h1)) (k0_off110_inb i _ (hw1_54 c tb htb i h1) h1)
abbrev W1_55 (i : grid0.Coords) (h1 : k0_cond1 i = 1#1) : Elt F .i32 := wordAt c tb (k0_off111 i) (k0_off111_inb i h1)
theorem hw1_55 (htb : ∀ y, (tb y).toNat < 4096) (i : grid0.Coords) (h1 : k0_cond1 i = 1#1) : k0_chk56 i (W1_55 c tb i h1) := fun _ => rows_inb _ (word_lt c tb htb _ _)
abbrev s1A_55 (htb : ∀ y, (tb y).toNat < 4096) (i : grid0.Coords) (h1 : k0_cond1 i = 1#1) : Memref sig .tc .hbm S8x1024 .f32 := srcM aM (k0_off112 (W1_55 c tb i h1)) (k0_off112_inb i _ (hw1_55 c tb htb i h1) h1)
abbrev s1B_55 (htb : ∀ y, (tb y).toNat < 4096) (i : grid0.Coords) (h1 : k0_cond1 i = 1#1) : Memref sig .tc .hbm S8x1024 .f32 := srcM bM (k0_off112 (W1_55 c tb i h1)) (k0_off112_inb i _ (hw1_55 c tb htb i h1) h1)
abbrev W1_56 (i : grid0.Coords) (h1 : k0_cond1 i = 1#1) : Elt F .i32 := wordAt c tb (k0_off113 i) (k0_off113_inb i h1)
theorem hw1_56 (htb : ∀ y, (tb y).toNat < 4096) (i : grid0.Coords) (h1 : k0_cond1 i = 1#1) : k0_chk57 i (W1_56 c tb i h1) := fun _ => rows_inb _ (word_lt c tb htb _ _)
abbrev s1A_56 (htb : ∀ y, (tb y).toNat < 4096) (i : grid0.Coords) (h1 : k0_cond1 i = 1#1) : Memref sig .tc .hbm S8x1024 .f32 := srcM aM (k0_off114 (W1_56 c tb i h1)) (k0_off114_inb i _ (hw1_56 c tb htb i h1) h1)
abbrev s1B_56 (htb : ∀ y, (tb y).toNat < 4096) (i : grid0.Coords) (h1 : k0_cond1 i = 1#1) : Memref sig .tc .hbm S8x1024 .f32 := srcM bM (k0_off114 (W1_56 c tb i h1)) (k0_off114_inb i _ (hw1_56 c tb htb i h1) h1)
abbrev W1_57 (i : grid0.Coords) (h1 : k0_cond1 i = 1#1) : Elt F .i32 := wordAt c tb (k0_off115 i) (k0_off115_inb i h1)
theorem hw1_57 (htb : ∀ y, (tb y).toNat < 4096) (i : grid0.Coords) (h1 : k0_cond1 i = 1#1) : k0_chk58 i (W1_57 c tb i h1) := fun _ => rows_inb _ (word_lt c tb htb _ _)
abbrev s1A_57 (htb : ∀ y, (tb y).toNat < 4096) (i : grid0.Coords) (h1 : k0_cond1 i = 1#1) : Memref sig .tc .hbm S8x1024 .f32 := srcM aM (k0_off116 (W1_57 c tb i h1)) (k0_off116_inb i _ (hw1_57 c tb htb i h1) h1)
abbrev s1B_57 (htb : ∀ y, (tb y).toNat < 4096) (i : grid0.Coords) (h1 : k0_cond1 i = 1#1) : Memref sig .tc .hbm S8x1024 .f32 := srcM bM (k0_off116 (W1_57 c tb i h1)) (k0_off116_inb i _ (hw1_57 c tb htb i h1) h1)
abbrev W1_58 (i : grid0.Coords) (h1 : k0_cond1 i = 1#1) : Elt F .i32 := wordAt c tb (k0_off117 i) (k0_off117_inb i h1)
theorem hw1_58 (htb : ∀ y, (tb y).toNat < 4096) (i : grid0.Coords) (h1 : k0_cond1 i = 1#1) : k0_chk59 i (W1_58 c tb i h1) := fun _ => rows_inb _ (word_lt c tb htb _ _)
abbrev s1A_58 (htb : ∀ y, (tb y).toNat < 4096) (i : grid0.Coords) (h1 : k0_cond1 i = 1#1) : Memref sig .tc .hbm S8x1024 .f32 := srcM aM (k0_off118 (W1_58 c tb i h1)) (k0_off118_inb i _ (hw1_58 c tb htb i h1) h1)
abbrev s1B_58 (htb : ∀ y, (tb y).toNat < 4096) (i : grid0.Coords) (h1 : k0_cond1 i = 1#1) : Memref sig .tc .hbm S8x1024 .f32 := srcM bM (k0_off118 (W1_58 c tb i h1)) (k0_off118_inb i _ (hw1_58 c tb htb i h1) h1)
abbrev W1_59 (i : grid0.Coords) (h1 : k0_cond1 i = 1#1) : Elt F .i32 := wordAt c tb (k0_off119 i) (k0_off119_inb i h1)
theorem hw1_59 (htb : ∀ y, (tb y).toNat < 4096) (i : grid0.Coords) (h1 : k0_cond1 i = 1#1) : k0_chk60 i (W1_59 c tb i h1) := fun _ => rows_inb _ (word_lt c tb htb _ _)
abbrev s1A_59 (htb : ∀ y, (tb y).toNat < 4096) (i : grid0.Coords) (h1 : k0_cond1 i = 1#1) : Memref sig .tc .hbm S8x1024 .f32 := srcM aM (k0_off120 (W1_59 c tb i h1)) (k0_off120_inb i _ (hw1_59 c tb htb i h1) h1)
abbrev s1B_59 (htb : ∀ y, (tb y).toNat < 4096) (i : grid0.Coords) (h1 : k0_cond1 i = 1#1) : Memref sig .tc .hbm S8x1024 .f32 := srcM bM (k0_off120 (W1_59 c tb i h1)) (k0_off120_inb i _ (hw1_59 c tb htb i h1) h1)
abbrev W1_60 (i : grid0.Coords) (h1 : k0_cond1 i = 1#1) : Elt F .i32 := wordAt c tb (k0_off121 i) (k0_off121_inb i h1)
theorem hw1_60 (htb : ∀ y, (tb y).toNat < 4096) (i : grid0.Coords) (h1 : k0_cond1 i = 1#1) : k0_chk61 i (W1_60 c tb i h1) := fun _ => rows_inb _ (word_lt c tb htb _ _)
abbrev s1A_60 (htb : ∀ y, (tb y).toNat < 4096) (i : grid0.Coords) (h1 : k0_cond1 i = 1#1) : Memref sig .tc .hbm S8x1024 .f32 := srcM aM (k0_off122 (W1_60 c tb i h1)) (k0_off122_inb i _ (hw1_60 c tb htb i h1) h1)
abbrev s1B_60 (htb : ∀ y, (tb y).toNat < 4096) (i : grid0.Coords) (h1 : k0_cond1 i = 1#1) : Memref sig .tc .hbm S8x1024 .f32 := srcM bM (k0_off122 (W1_60 c tb i h1)) (k0_off122_inb i _ (hw1_60 c tb htb i h1) h1)
abbrev W1_61 (i : grid0.Coords) (h1 : k0_cond1 i = 1#1) : Elt F .i32 := wordAt c tb (k0_off123 i) (k0_off123_inb i h1)
theorem hw1_61 (htb : ∀ y, (tb y).toNat < 4096) (i : grid0.Coords) (h1 : k0_cond1 i = 1#1) : k0_chk62 i (W1_61 c tb i h1) := fun _ => rows_inb _ (word_lt c tb htb _ _)
abbrev s1A_61 (htb : ∀ y, (tb y).toNat < 4096) (i : grid0.Coords) (h1 : k0_cond1 i = 1#1) : Memref sig .tc .hbm S8x1024 .f32 := srcM aM (k0_off124 (W1_61 c tb i h1)) (k0_off124_inb i _ (hw1_61 c tb htb i h1) h1)
abbrev s1B_61 (htb : ∀ y, (tb y).toNat < 4096) (i : grid0.Coords) (h1 : k0_cond1 i = 1#1) : Memref sig .tc .hbm S8x1024 .f32 := srcM bM (k0_off124 (W1_61 c tb i h1)) (k0_off124_inb i _ (hw1_61 c tb htb i h1) h1)
abbrev W1_62 (i : grid0.Coords) (h1 : k0_cond1 i = 1#1) : Elt F .i32 := wordAt c tb (k0_off125 i) (k0_off125_inb i h1)
theorem hw1_62 (htb : ∀ y, (tb y).toNat < 4096) (i : grid0.Coords) (h1 : k0_cond1 i = 1#1) : k0_chk63 i (W1_62 c tb i h1) := fun _ => rows_inb _ (word_lt c tb htb _ _)
abbrev s1A_62 (htb : ∀ y, (tb y).toNat < 4096) (i : grid0.Coords) (h1 : k0_cond1 i = 1#1) : Memref sig .tc .hbm S8x1024 .f32 := srcM aM (k0_off126 (W1_62 c tb i h1)) (k0_off126_inb i _ (hw1_62 c tb htb i h1) h1)
abbrev s1B_62 (htb : ∀ y, (tb y).toNat < 4096) (i : grid0.Coords) (h1 : k0_cond1 i = 1#1) : Memref sig .tc .hbm S8x1024 .f32 := srcM bM (k0_off126 (W1_62 c tb i h1)) (k0_off126_inb i _ (hw1_62 c tb htb i h1) h1)
abbrev W1_63 (i : grid0.Coords) (h1 : k0_cond1 i = 1#1) : Elt F .i32 := wordAt c tb (k0_off127 i) (k0_off127_inb i h1)
theorem hw1_63 (htb : ∀ y, (tb y).toNat < 4096) (i : grid0.Coords) (h1 : k0_cond1 i = 1#1) : k0_chk64 i (W1_63 c tb i h1) := fun _ => rows_inb _ (word_lt c tb htb _ _)
abbrev s1A_63 (htb : ∀ y, (tb y).toNat < 4096) (i : grid0.Coords) (h1 : k0_cond1 i = 1#1) : Memref sig .tc .hbm S8x1024 .f32 := srcM aM (k0_off128 (W1_63 c tb i h1)) (k0_off128_inb i _ (hw1_63 c tb htb i h1) h1)
abbrev s1B_63 (htb : ∀ y, (tb y).toNat < 4096) (i : grid0.Coords) (h1 : k0_cond1 i = 1#1) : Memref sig .tc .hbm S8x1024 .f32 := srcM bM (k0_off128 (W1_63 c tb i h1)) (k0_off128_inb i _ (hw1_63 c tb htb i h1) h1)
/-- The deliveries of the 64 copies of array A (fetch 1) into slot s, in the order the copies are started. -/
def D1A (htb : ∀ y, (tb y).toNat < 4096) (i : grid0.Coords) (h1 : k0_cond1 i = 1#1) (s : Fin 2) : Fin 64 → sProp 𝕄
  | ⟨0, _⟩ => deliv c (s1A_0 c tb htb i h1) (rowM scA s ⟨0, Nat.le_of_ble_eq_true rfl⟩) (qTok s ⟨0, Nat.le_of_ble_eq_true rfl⟩) fa
  | ⟨1, _⟩ => deliv c (s1A_1 c tb htb i h1) (rowM scA s ⟨1, Nat.le_of_ble_eq_true rfl⟩) (qTok s ⟨1, Nat.le_of_ble_eq_true rfl⟩) fa
  | ⟨2, _⟩ => deliv c (s1A_2 c tb htb i h1) (rowM scA s ⟨2, Nat.le_of_ble_eq_true rfl⟩) (qTok s ⟨2, Nat.le_of_ble_eq_true rfl⟩) fa
  | ⟨3, _⟩ => deliv c (s1A_3 c tb htb i h1) (rowM scA s ⟨3, Nat.le_of_ble_eq_true rfl⟩) (qTok s ⟨3, Nat.le_of_ble_eq_true rfl⟩) fa
  | ⟨4, _⟩ => deliv c (s1A_4 c tb htb i h1) (rowM scA s ⟨4, Nat.le_of_ble_eq_true rfl⟩) (qTok s ⟨4, Nat.le_of_ble_eq_true rfl⟩) fa
  | ⟨5, _⟩ => deliv c (s1A_5 c tb htb i h1) (rowM scA s ⟨5, Nat.le_of_ble_eq_true rfl⟩) (qTok s ⟨5, Nat.le_of_ble_eq_true rfl⟩) fa
  | ⟨6, _⟩ => deliv c (s1A_6 c tb htb i h1) (rowM scA s ⟨6, Nat.le_of_ble_eq_true rfl⟩) (qTok s ⟨6, Nat.le_of_ble_eq_true rfl⟩) fa
  | ⟨7, _⟩ => deliv c (s1A_7 c tb htb i h1) (rowM scA s ⟨7, Nat.le_of_ble_eq_true rfl⟩) (qTok s ⟨7, Nat.le_of_ble_eq_true rfl⟩) fa
  | ⟨8, _⟩ => deliv c (s1A_8 c tb htb i h1) (rowM scA s ⟨8, Nat.le_of_ble_eq_true rfl⟩) (qTok s ⟨8, Nat.le_of_ble_eq_true rfl⟩) fa
  | ⟨9, _⟩ => deliv c (s1A_9 c tb htb i h1) (rowM scA s ⟨9, Nat.le_of_ble_eq_true rfl⟩) (qTok s ⟨9, Nat.le_of_ble_eq_true rfl⟩) fa
  | ⟨10, _⟩ => deliv c (s1A_10 c tb htb i h1) (rowM scA s ⟨10, Nat.le_of_ble_eq_true rfl⟩) (qTok s ⟨10, Nat.le_of_ble_eq_true rfl⟩) fa
  | ⟨11, _⟩ => deliv c (s1A_11 c tb htb i h1) (rowM scA s ⟨11, Nat.le_of_ble_eq_true rfl⟩) (qTok s ⟨11, Nat.le_of_ble_eq_true rfl⟩) fa
  | ⟨12, _⟩ => deliv c (s1A_12 c tb htb i h1) (rowM scA s ⟨12, Nat.le_of_ble_eq_true rfl⟩) (qTok s ⟨12, Nat.le_of_ble_eq_true rfl⟩) fa
  | ⟨13, _⟩ => deliv c (s1A_13 c tb htb i h1) (rowM scA s ⟨13, Nat.le_of_ble_eq_true rfl⟩) (qTok s ⟨13, Nat.le_of_ble_eq_true rfl⟩) fa
  | ⟨14, _⟩ => deliv c (s1A_14 c tb htb i h1) (rowM scA s ⟨14, Nat.le_of_ble_eq_true rfl⟩) (qTok s ⟨14, Nat.le_of_ble_eq_true rfl⟩) fa
  | ⟨15, _⟩ => deliv c (s1A_15 c tb htb i h1) (rowM scA s ⟨15, Nat.le_of_ble_eq_true rfl⟩) (qTok s ⟨15, Nat.le_of_ble_eq_true rfl⟩) fa
  | ⟨16, _⟩ => deliv c (s1A_16 c tb htb i h1) (rowM scA s ⟨16, Nat.le_of_ble_eq_true rfl⟩) (qTok s ⟨16, Nat.le_of_ble_eq_true rfl⟩) fa
  | ⟨17, _⟩ => deliv c (s1A_17 c tb htb i h1) (rowM scA s ⟨17, Nat.le_of_ble_eq_true rfl⟩) (qTok s ⟨17, Nat.le_of_ble_eq_true rfl⟩) fa
  | ⟨18, _⟩ => deliv c (s1A_18 c tb htb i h1) (rowM scA s ⟨18, Nat.le_of_ble_eq_true rfl⟩) (qTok s ⟨18, Nat.le_of_ble_eq_true rfl⟩) fa
  | ⟨19, _⟩ => deliv c (s1A_19 c tb htb i h1) (rowM scA s ⟨19, Nat.le_of_ble_eq_true rfl⟩) (qTok s ⟨19, Nat.le_of_ble_eq_true rfl⟩) fa
  | ⟨20, _⟩ => deliv c (s1A_20 c tb htb i h1) (rowM scA s ⟨20, Nat.le_of_ble_eq_true rfl⟩) (qTok s ⟨20, Nat.le_of_ble_eq_true rfl⟩) fa
  | ⟨21, _⟩ => deliv c (s1A_21 c tb htb i h1) (rowM scA s ⟨21, Nat.le_of_ble_eq_true rfl⟩) (qTok s ⟨21, Nat.le_of_ble_eq_true rfl⟩) fa
  | ⟨22, _⟩ => deliv c (s1A_22 c tb htb i h1) (rowM scA s ⟨22, Nat.le_of_ble_eq_true rfl⟩) (qTok s ⟨22, Nat.le_of_ble_eq_true rfl⟩) fa
  | ⟨23, _⟩ => deliv c (s1A_23 c tb htb i h1) (rowM scA s ⟨23, Nat.le_of_ble_eq_true rfl⟩) (qTok s ⟨23, Nat.le_of_ble_eq_true rfl⟩) fa
  | ⟨24, _⟩ => deliv c (s1A_24 c tb htb i h1) (rowM scA s ⟨24, Nat.le_of_ble_eq_true rfl⟩) (qTok s ⟨24, Nat.le_of_ble_eq_true rfl⟩) fa
  | ⟨25, _⟩ => deliv c (s1A_25 c tb htb i h1) (rowM scA s ⟨25, Nat.le_of_ble_eq_true rfl⟩) (qTok s ⟨25, Nat.le_of_ble_eq_true rfl⟩) fa
  | ⟨26, _⟩ => deliv c (s1A_26 c tb htb i h1) (rowM scA s ⟨26, Nat.le_of_ble_eq_true rfl⟩) (qTok s ⟨26, Nat.le_of_ble_eq_true rfl⟩) fa
  | ⟨27, _⟩ => deliv c (s1A_27 c tb htb i h1) (rowM scA s ⟨27, Nat.le_of_ble_eq_true rfl⟩) (qTok s ⟨27, Nat.le_of_ble_eq_true rfl⟩) fa
  | ⟨28, _⟩ => deliv c (s1A_28 c tb htb i h1) (rowM scA s ⟨28, Nat.le_of_ble_eq_true rfl⟩) (qTok s ⟨28, Nat.le_of_ble_eq_true rfl⟩) fa
  | ⟨29, _⟩ => deliv c (s1A_29 c tb htb i h1) (rowM scA s ⟨29, Nat.le_of_ble_eq_true rfl⟩) (qTok s ⟨29, Nat.le_of_ble_eq_true rfl⟩) fa
  | ⟨30, _⟩ => deliv c (s1A_30 c tb htb i h1) (rowM scA s ⟨30, Nat.le_of_ble_eq_true rfl⟩) (qTok s ⟨30, Nat.le_of_ble_eq_true rfl⟩) fa
  | ⟨31, _⟩ => deliv c (s1A_31 c tb htb i h1) (rowM scA s ⟨31, Nat.le_of_ble_eq_true rfl⟩) (qTok s ⟨31, Nat.le_of_ble_eq_true rfl⟩) fa
  | ⟨32, _⟩ => deliv c (s1A_32 c tb htb i h1) (rowM scA s ⟨32, Nat.le_of_ble_eq_true rfl⟩) (qTok s ⟨32, Nat.le_of_ble_eq_true rfl⟩) fa
  | ⟨33, _⟩ => deliv c (s1A_33 c tb htb i h1) (rowM scA s ⟨33, Nat.le_of_ble_eq_true rfl⟩) (qTok s ⟨33, Nat.le_of_ble_eq_true rfl⟩) fa
  | ⟨34, _⟩ => deliv c (s1A_34 c tb htb i h1) (rowM scA s ⟨34, Nat.le_of_ble_eq_true rfl⟩) (qTok s ⟨34, Nat.le_of_ble_eq_true rfl⟩) fa
  | ⟨35, _⟩ => deliv c (s1A_35 c tb htb i h1) (rowM scA s ⟨35, Nat.le_of_ble_eq_true rfl⟩) (qTok s ⟨35, Nat.le_of_ble_eq_true rfl⟩) fa
  | ⟨36, _⟩ => deliv c (s1A_36 c tb htb i h1) (rowM scA s ⟨36, Nat.le_of_ble_eq_true rfl⟩) (qTok s ⟨36, Nat.le_of_ble_eq_true rfl⟩) fa
  | ⟨37, _⟩ => deliv c (s1A_37 c tb htb i h1) (rowM scA s ⟨37, Nat.le_of_ble_eq_true rfl⟩) (qTok s ⟨37, Nat.le_of_ble_eq_true rfl⟩) fa
  | ⟨38, _⟩ => deliv c (s1A_38 c tb htb i h1) (rowM scA s ⟨38, Nat.le_of_ble_eq_true rfl⟩) (qTok s ⟨38, Nat.le_of_ble_eq_true rfl⟩) fa
  | ⟨39, _⟩ => deliv c (s1A_39 c tb htb i h1) (rowM scA s ⟨39, Nat.le_of_ble_eq_true rfl⟩) (qTok s ⟨39, Nat.le_of_ble_eq_true rfl⟩) fa
  | ⟨40, _⟩ => deliv c (s1A_40 c tb htb i h1) (rowM scA s ⟨40, Nat.le_of_ble_eq_true rfl⟩) (qTok s ⟨40, Nat.le_of_ble_eq_true rfl⟩) fa
  | ⟨41, _⟩ => deliv c (s1A_41 c tb htb i h1) (rowM scA s ⟨41, Nat.le_of_ble_eq_true rfl⟩) (qTok s ⟨41, Nat.le_of_ble_eq_true rfl⟩) fa
  | ⟨42, _⟩ => deliv c (s1A_42 c tb htb i h1) (rowM scA s ⟨42, Nat.le_of_ble_eq_true rfl⟩) (qTok s ⟨42, Nat.le_of_ble_eq_true rfl⟩) fa
  | ⟨43, _⟩ => deliv c (s1A_43 c tb htb i h1) (rowM scA s ⟨43, Nat.le_of_ble_eq_true rfl⟩) (qTok s ⟨43, Nat.le_of_ble_eq_true rfl⟩) fa
  | ⟨44, _⟩ => deliv c (s1A_44 c tb htb i h1) (rowM scA s ⟨44, Nat.le_of_ble_eq_true rfl⟩) (qTok s ⟨44, Nat.le_of_ble_eq_true rfl⟩) fa
  | ⟨45, _⟩ => deliv c (s1A_45 c tb htb i h1) (rowM scA s ⟨45, Nat.le_of_ble_eq_true rfl⟩) (qTok s ⟨45, Nat.le_of_ble_eq_true rfl⟩) fa
  | ⟨46, _⟩ => deliv c (s1A_46 c tb htb i h1) (rowM scA s ⟨46, Nat.le_of_ble_eq_true rfl⟩) (qTok s ⟨46, Nat.le_of_ble_eq_true rfl⟩) fa
  | ⟨47, _⟩ => deliv c (s1A_47 c tb htb i h1) (rowM scA s ⟨47, Nat.le_of_ble_eq_true rfl⟩) (qTok s ⟨47, Nat.le_of_ble_eq_true rfl⟩) fa
  | ⟨48, _⟩ => deliv c (s1A_48 c tb htb i h1) (rowM scA s ⟨48, Nat.le_of_ble_eq_true rfl⟩) (qTok s ⟨48, Nat.le_of_ble_eq_true rfl⟩) fa
  | ⟨49, _⟩ => deliv c (s1A_49 c tb htb i h1) (rowM scA s ⟨49, Nat.le_of_ble_eq_true rfl⟩) (qTok s ⟨49, Nat.le_of_ble_eq_true rfl⟩) fa
  | ⟨50, _⟩ => deliv c (s1A_50 c tb htb i h1) (rowM scA s ⟨50, Nat.le_of_ble_eq_true rfl⟩) (qTok s ⟨50, Nat.le_of_ble_eq_true rfl⟩) fa
  | ⟨51, _⟩ => deliv c (s1A_51 c tb htb i h1) (rowM scA s ⟨51, Nat.le_of_ble_eq_true rfl⟩) (qTok s ⟨51, Nat.le_of_ble_eq_true rfl⟩) fa
  | ⟨52, _⟩ => deliv c (s1A_52 c tb htb i h1) (rowM scA s ⟨52, Nat.le_of_ble_eq_true rfl⟩) (qTok s ⟨52, Nat.le_of_ble_eq_true rfl⟩) fa
  | ⟨53, _⟩ => deliv c (s1A_53 c tb htb i h1) (rowM scA s ⟨53, Nat.le_of_ble_eq_true rfl⟩) (qTok s ⟨53, Nat.le_of_ble_eq_true rfl⟩) fa
  | ⟨54, _⟩ => deliv c (s1A_54 c tb htb i h1) (rowM scA s ⟨54, Nat.le_of_ble_eq_true rfl⟩) (qTok s ⟨54, Nat.le_of_ble_eq_true rfl⟩) fa
  | ⟨55, _⟩ => deliv c (s1A_55 c tb htb i h1) (rowM scA s ⟨55, Nat.le_of_ble_eq_true rfl⟩) (qTok s ⟨55, Nat.le_of_ble_eq_true rfl⟩) fa
  | ⟨56, _⟩ => deliv c (s1A_56 c tb htb i h1) (rowM scA s ⟨56, Nat.le_of_ble_eq_true rfl⟩) (qTok s ⟨56, Nat.le_of_ble_eq_true rfl⟩) fa
  | ⟨57, _⟩ => deliv c (s1A_57 c tb htb i h1) (rowM scA s ⟨57, Nat.le_of_ble_eq_true rfl⟩) (qTok s ⟨57, Nat.le_of_ble_eq_true rfl⟩) fa
  | ⟨58, _⟩ => deliv c (s1A_58 c tb htb i h1) (rowM scA s ⟨58, Nat.le_of_ble_eq_true rfl⟩) (qTok s ⟨58, Nat.le_of_ble_eq_true rfl⟩) fa
  | ⟨59, _⟩ => deliv c (s1A_59 c tb htb i h1) (rowM scA s ⟨59, Nat.le_of_ble_eq_true rfl⟩) (qTok s ⟨59, Nat.le_of_ble_eq_true rfl⟩) fa
  | ⟨60, _⟩ => deliv c (s1A_60 c tb htb i h1) (rowM scA s ⟨60, Nat.le_of_ble_eq_true rfl⟩) (qTok s ⟨60, Nat.le_of_ble_eq_true rfl⟩) fa
  | ⟨61, _⟩ => deliv c (s1A_61 c tb htb i h1) (rowM scA s ⟨61, Nat.le_of_ble_eq_true rfl⟩) (qTok s ⟨61, Nat.le_of_ble_eq_true rfl⟩) fa
  | ⟨62, _⟩ => deliv c (s1A_62 c tb htb i h1) (rowM scA s ⟨62, Nat.le_of_ble_eq_true rfl⟩) (qTok s ⟨62, Nat.le_of_ble_eq_true rfl⟩) fa
  | ⟨63, _⟩ => deliv c (s1A_63 c tb htb i h1) (rowM scA s ⟨63, Nat.le_of_ble_eq_true rfl⟩) (qTok s ⟨63, Nat.le_of_ble_eq_true rfl⟩) fa
  | ⟨_ + 64, h⟩ => absurd h (Nat.not_lt.2 (Nat.le_add_left _ _))
/-- What is left of each of slot s's read shares of array A while its array row is lent to copy r. -/
def R1A (htb : ∀ y, (tb y).toNat < 4096) (i : grid0.Coords) (h1 : k0_cond1 i = 1#1) (s : Fin 2) : Fin 64 → sProp 𝕄
  | ⟨0, _⟩ => (aM.view.loc (c : Thread nD τ) ↦[Finset.univ \ (s1A_0 c tb htb i h1).view.set]{qTok s ⟨0, Nat.le_of_ble_eq_true rfl⟩} fa)
  | ⟨1, _⟩ => (aM.view.loc (c : Thread nD τ) ↦[Finset.univ \ (s1A_1 c tb htb i h1).view.set]{qTok s ⟨1, Nat.le_of_ble_eq_true rfl⟩} fa)
  | ⟨2, _⟩ => (aM.view.loc (c : Thread nD τ) ↦[Finset.univ \ (s1A_2 c tb htb i h1).view.set]{qTok s ⟨2, Nat.le_of_ble_eq_true rfl⟩} fa)
  | ⟨3, _⟩ => (aM.view.loc (c : Thread nD τ) ↦[Finset.univ \ (s1A_3 c tb htb i h1).view.set]{qTok s ⟨3, Nat.le_of_ble_eq_true rfl⟩} fa)
  | ⟨4, _⟩ => (aM.view.loc (c : Thread nD τ) ↦[Finset.univ \ (s1A_4 c tb htb i h1).view.set]{qTok s ⟨4, Nat.le_of_ble_eq_true rfl⟩} fa)
  | ⟨5, _⟩ => (aM.view.loc (c : Thread nD τ) ↦[Finset.univ \ (s1A_5 c tb htb i h1).view.set]{qTok s ⟨5, Nat.le_of_ble_eq_true rfl⟩} fa)
  | ⟨6, _⟩ => (aM.view.loc (c : Thread nD τ) ↦[Finset.univ \ (s1A_6 c tb htb i h1).view.set]{qTok s ⟨6, Nat.le_of_ble_eq_true rfl⟩} fa)
  | ⟨7, _⟩ => (aM.view.loc (c : Thread nD τ) ↦[Finset.univ \ (s1A_7 c tb htb i h1).view.set]{qTok s ⟨7, Nat.le_of_ble_eq_true rfl⟩} fa)
  | ⟨8, _⟩ => (aM.view.loc (c : Thread nD τ) ↦[Finset.univ \ (s1A_8 c tb htb i h1).view.set]{qTok s ⟨8, Nat.le_of_ble_eq_true rfl⟩} fa)
  | ⟨9, _⟩ => (aM.view.loc (c : Thread nD τ) ↦[Finset.univ \ (s1A_9 c tb htb i h1).view.set]{qTok s ⟨9, Nat.le_of_ble_eq_true rfl⟩} fa)
  | ⟨10, _⟩ => (aM.view.loc (c : Thread nD τ) ↦[Finset.univ \ (s1A_10 c tb htb i h1).view.set]{qTok s ⟨10, Nat.le_of_ble_eq_true rfl⟩} fa)
  | ⟨11, _⟩ => (aM.view.loc (c : Thread nD τ) ↦[Finset.univ \ (s1A_11 c tb htb i h1).view.set]{qTok s ⟨11, Nat.le_of_ble_eq_true rfl⟩} fa)
  | ⟨12, _⟩ => (aM.view.loc (c : Thread nD τ) ↦[Finset.univ \ (s1A_12 c tb htb i h1).view.set]{qTok s ⟨12, Nat.le_of_ble_eq_true rfl⟩} fa)
  | ⟨13, _⟩ => (aM.view.loc (c : Thread nD τ) ↦[Finset.univ \ (s1A_13 c tb htb i h1).view.set]{qTok s ⟨13, Nat.le_of_ble_eq_true rfl⟩} fa)
  | ⟨14, _⟩ => (aM.view.loc (c : Thread nD τ) ↦[Finset.univ \ (s1A_14 c tb htb i h1).view.set]{qTok s ⟨14, Nat.le_of_ble_eq_true rfl⟩} fa)
  | ⟨15, _⟩ => (aM.view.loc (c : Thread nD τ) ↦[Finset.univ \ (s1A_15 c tb htb i h1).view.set]{qTok s ⟨15, Nat.le_of_ble_eq_true rfl⟩} fa)
  | ⟨16, _⟩ => (aM.view.loc (c : Thread nD τ) ↦[Finset.univ \ (s1A_16 c tb htb i h1).view.set]{qTok s ⟨16, Nat.le_of_ble_eq_true rfl⟩} fa)
  | ⟨17, _⟩ => (aM.view.loc (c : Thread nD τ) ↦[Finset.univ \ (s1A_17 c tb htb i h1).view.set]{qTok s ⟨17, Nat.le_of_ble_eq_true rfl⟩} fa)
  | ⟨18, _⟩ => (aM.view.loc (c : Thread nD τ) ↦[Finset.univ \ (s1A_18 c tb htb i h1).view.set]{qTok s ⟨18, Nat.le_of_ble_eq_true rfl⟩} fa)
  | ⟨19, _⟩ => (aM.view.loc (c : Thread nD τ) ↦[Finset.univ \ (s1A_19 c tb htb i h1).view.set]{qTok s ⟨19, Nat.le_of_ble_eq_true rfl⟩} fa)
  | ⟨20, _⟩ => (aM.view.loc (c : Thread nD τ) ↦[Finset.univ \ (s1A_20 c tb htb i h1).view.set]{qTok s ⟨20, Nat.le_of_ble_eq_true rfl⟩} fa)
  | ⟨21, _⟩ => (aM.view.loc (c : Thread nD τ) ↦[Finset.univ \ (s1A_21 c tb htb i h1).view.set]{qTok s ⟨21, Nat.le_of_ble_eq_true rfl⟩} fa)
  | ⟨22, _⟩ => (aM.view.loc (c : Thread nD τ) ↦[Finset.univ \ (s1A_22 c tb htb i h1).view.set]{qTok s ⟨22, Nat.le_of_ble_eq_true rfl⟩} fa)
  | ⟨23, _⟩ => (aM.view.loc (c : Thread nD τ) ↦[Finset.univ \ (s1A_23 c tb htb i h1).view.set]{qTok s ⟨23, Nat.le_of_ble_eq_true rfl⟩} fa)
  | ⟨24, _⟩ => (aM.view.loc (c : Thread nD τ) ↦[Finset.univ \ (s1A_24 c tb htb i h1).view.set]{qTok s ⟨24, Nat.le_of_ble_eq_true rfl⟩} fa)
  | ⟨25, _⟩ => (aM.view.loc (c : Thread nD τ) ↦[Finset.univ \ (s1A_25 c tb htb i h1).view.set]{qTok s ⟨25, Nat.le_of_ble_eq_true rfl⟩} fa)
  | ⟨26, _⟩ => (aM.view.loc (c : Thread nD τ) ↦[Finset.univ \ (s1A_26 c tb htb i h1).view.set]{qTok s ⟨26, Nat.le_of_ble_eq_true rfl⟩} fa)
  | ⟨27, _⟩ => (aM.view.loc (c : Thread nD τ) ↦[Finset.univ \ (s1A_27 c tb htb i h1).view.set]{qTok s ⟨27, Nat.le_of_ble_eq_true rfl⟩} fa)
  | ⟨28, _⟩ => (aM.view.loc (c : Thread nD τ) ↦[Finset.univ \ (s1A_28 c tb htb i h1).view.set]{qTok s ⟨28, Nat.le_of_ble_eq_true rfl⟩} fa)
  | ⟨29, _⟩ => (aM.view.loc (c : Thread nD τ) ↦[Finset.univ \ (s1A_29 c tb htb i h1).view.set]{qTok s ⟨29, Nat.le_of_ble_eq_true rfl⟩} fa)
  | ⟨30, _⟩ => (aM.view.loc (c : Thread nD τ) ↦[Finset.univ \ (s1A_30 c tb htb i h1).view.set]{qTok s ⟨30, Nat.le_of_ble_eq_true rfl⟩} fa)
  | ⟨31, _⟩ => (aM.view.loc (c : Thread nD τ) ↦[Finset.univ \ (s1A_31 c tb htb i h1).view.set]{qTok s ⟨31, Nat.le_of_ble_eq_true rfl⟩} fa)
  | ⟨32, _⟩ => (aM.view.loc (c : Thread nD τ) ↦[Finset.univ \ (s1A_32 c tb htb i h1).view.set]{qTok s ⟨32, Nat.le_of_ble_eq_true rfl⟩} fa)
  | ⟨33, _⟩ => (aM.view.loc (c : Thread nD τ) ↦[Finset.univ \ (s1A_33 c tb htb i h1).view.set]{qTok s ⟨33, Nat.le_of_ble_eq_true rfl⟩} fa)
  | ⟨34, _⟩ => (aM.view.loc (c : Thread nD τ) ↦[Finset.univ \ (s1A_34 c tb htb i h1).view.set]{qTok s ⟨34, Nat.le_of_ble_eq_true rfl⟩} fa)
  | ⟨35, _⟩ => (aM.view.loc (c : Thread nD τ) ↦[Finset.univ \ (s1A_35 c tb htb i h1).view.set]{qTok s ⟨35, Nat.le_of_ble_eq_true rfl⟩} fa)
  | ⟨36, _⟩ => (aM.view.loc (c : Thread nD τ) ↦[Finset.univ \ (s1A_36 c tb htb i h1).view.set]{qTok s ⟨36, Nat.le_of_ble_eq_true rfl⟩} fa)
  | ⟨37, _⟩ => (aM.view.loc (c : Thread nD τ) ↦[Finset.univ \ (s1A_37 c tb htb i h1).view.set]{qTok s ⟨37, Nat.le_of_ble_eq_true rfl⟩} fa)
  | ⟨38, _⟩ => (aM.view.loc (c : Thread nD τ) ↦[Finset.univ \ (s1A_38 c tb htb i h1).view.set]{qTok s ⟨38, Nat.le_of_ble_eq_true rfl⟩} fa)
  | ⟨39, _⟩ => (aM.view.loc (c : Thread nD τ) ↦[Finset.univ \ (s1A_39 c tb htb i h1).view.set]{qTok s ⟨39, Nat.le_of_ble_eq_true rfl⟩} fa)
  | ⟨40, _⟩ => (aM.view.loc (c : Thread nD τ) ↦[Finset.univ \ (s1A_40 c tb htb i h1).view.set]{qTok s ⟨40, Nat.le_of_ble_eq_true rfl⟩} fa)
  | ⟨41, _⟩ => (aM.view.loc (c : Thread nD τ) ↦[Finset.univ \ (s1A_41 c tb htb i h1).view.set]{qTok s ⟨41, Nat.le_of_ble_eq_true rfl⟩} fa)
  | ⟨42, _⟩ => (aM.view.loc (c : Thread nD τ) ↦[Finset.univ \ (s1A_42 c tb htb i h1).view.set]{qTok s ⟨42, Nat.le_of_ble_eq_true rfl⟩} fa)
  | ⟨43, _⟩ => (aM.view.loc (c : Thread nD τ) ↦[Finset.univ \ (s1A_43 c tb htb i h1).view.set]{qTok s ⟨43, Nat.le_of_ble_eq_true rfl⟩} fa)
  | ⟨44, _⟩ => (aM.view.loc (c : Thread nD τ) ↦[Finset.univ \ (s1A_44 c tb htb i h1).view.set]{qTok s ⟨44, Nat.le_of_ble_eq_true rfl⟩} fa)
  | ⟨45, _⟩ => (aM.view.loc (c : Thread nD τ) ↦[Finset.univ \ (s1A_45 c tb htb i h1).view.set]{qTok s ⟨45, Nat.le_of_ble_eq_true rfl⟩} fa)
  | ⟨46, _⟩ => (aM.view.loc (c : Thread nD τ) ↦[Finset.univ \ (s1A_46 c tb htb i h1).view.set]{qTok s ⟨46, Nat.le_of_ble_eq_true rfl⟩} fa)
  | ⟨47, _⟩ => (aM.view.loc (c : Thread nD τ) ↦[Finset.univ \ (s1A_47 c tb htb i h1).view.set]{qTok s ⟨47, Nat.le_of_ble_eq_true rfl⟩} fa)
  | ⟨48, _⟩ => (aM.view.loc (c : Thread nD τ) ↦[Finset.univ \ (s1A_48 c tb htb i h1).view.set]{qTok s ⟨48, Nat.le_of_ble_eq_true rfl⟩} fa)
  | ⟨49, _⟩ => (aM.view.loc (c : Thread nD τ) ↦[Finset.univ \ (s1A_49 c tb htb i h1).view.set]{qTok s ⟨49, Nat.le_of_ble_eq_true rfl⟩} fa)
  | ⟨50, _⟩ => (aM.view.loc (c : Thread nD τ) ↦[Finset.univ \ (s1A_50 c tb htb i h1).view.set]{qTok s ⟨50, Nat.le_of_ble_eq_true rfl⟩} fa)
  | ⟨51, _⟩ => (aM.view.loc (c : Thread nD τ) ↦[Finset.univ \ (s1A_51 c tb htb i h1).view.set]{qTok s ⟨51, Nat.le_of_ble_eq_true rfl⟩} fa)
  | ⟨52, _⟩ => (aM.view.loc (c : Thread nD τ) ↦[Finset.univ \ (s1A_52 c tb htb i h1).view.set]{qTok s ⟨52, Nat.le_of_ble_eq_true rfl⟩} fa)
  | ⟨53, _⟩ => (aM.view.loc (c : Thread nD τ) ↦[Finset.univ \ (s1A_53 c tb htb i h1).view.set]{qTok s ⟨53, Nat.le_of_ble_eq_true rfl⟩} fa)
  | ⟨54, _⟩ => (aM.view.loc (c : Thread nD τ) ↦[Finset.univ \ (s1A_54 c tb htb i h1).view.set]{qTok s ⟨54, Nat.le_of_ble_eq_true rfl⟩} fa)
  | ⟨55, _⟩ => (aM.view.loc (c : Thread nD τ) ↦[Finset.univ \ (s1A_55 c tb htb i h1).view.set]{qTok s ⟨55, Nat.le_of_ble_eq_true rfl⟩} fa)
  | ⟨56, _⟩ => (aM.view.loc (c : Thread nD τ) ↦[Finset.univ \ (s1A_56 c tb htb i h1).view.set]{qTok s ⟨56, Nat.le_of_ble_eq_true rfl⟩} fa)
  | ⟨57, _⟩ => (aM.view.loc (c : Thread nD τ) ↦[Finset.univ \ (s1A_57 c tb htb i h1).view.set]{qTok s ⟨57, Nat.le_of_ble_eq_true rfl⟩} fa)
  | ⟨58, _⟩ => (aM.view.loc (c : Thread nD τ) ↦[Finset.univ \ (s1A_58 c tb htb i h1).view.set]{qTok s ⟨58, Nat.le_of_ble_eq_true rfl⟩} fa)
  | ⟨59, _⟩ => (aM.view.loc (c : Thread nD τ) ↦[Finset.univ \ (s1A_59 c tb htb i h1).view.set]{qTok s ⟨59, Nat.le_of_ble_eq_true rfl⟩} fa)
  | ⟨60, _⟩ => (aM.view.loc (c : Thread nD τ) ↦[Finset.univ \ (s1A_60 c tb htb i h1).view.set]{qTok s ⟨60, Nat.le_of_ble_eq_true rfl⟩} fa)
  | ⟨61, _⟩ => (aM.view.loc (c : Thread nD τ) ↦[Finset.univ \ (s1A_61 c tb htb i h1).view.set]{qTok s ⟨61, Nat.le_of_ble_eq_true rfl⟩} fa)
  | ⟨62, _⟩ => (aM.view.loc (c : Thread nD τ) ↦[Finset.univ \ (s1A_62 c tb htb i h1).view.set]{qTok s ⟨62, Nat.le_of_ble_eq_true rfl⟩} fa)
  | ⟨63, _⟩ => (aM.view.loc (c : Thread nD τ) ↦[Finset.univ \ (s1A_63 c tb htb i h1).view.set]{qTok s ⟨63, Nat.le_of_ble_eq_true rfl⟩} fa)
  | ⟨_ + 64, h⟩ => absurd h (Nat.not_lt.2 (Nat.le_add_left _ _))
/-- What each row of slot s holds once copy r of array A (fetch 1) has landed. -/
def L1A (htb : ∀ y, (tb y).toNat < 4096) (i : grid0.Coords) (h1 : k0_cond1 i = 1#1) (s : Fin 2) : Fin 64 → MBuf (F := F) c scA
  | ⟨0, _⟩ => landedJ c (s1A_0 c tb htb i h1) (rowM scA s ⟨0, Nat.le_of_ble_eq_true rfl⟩) fa
  | ⟨1, _⟩ => landedJ c (s1A_1 c tb htb i h1) (rowM scA s ⟨1, Nat.le_of_ble_eq_true rfl⟩) fa
  | ⟨2, _⟩ => landedJ c (s1A_2 c tb htb i h1) (rowM scA s ⟨2, Nat.le_of_ble_eq_true rfl⟩) fa
  | ⟨3, _⟩ => landedJ c (s1A_3 c tb htb i h1) (rowM scA s ⟨3, Nat.le_of_ble_eq_true rfl⟩) fa
  | ⟨4, _⟩ => landedJ c (s1A_4 c tb htb i h1) (rowM scA s ⟨4, Nat.le_of_ble_eq_true rfl⟩) fa
  | ⟨5, _⟩ => landedJ c (s1A_5 c tb htb i h1) (rowM scA s ⟨5, Nat.le_of_ble_eq_true rfl⟩) fa
  | ⟨6, _⟩ => landedJ c (s1A_6 c tb htb i h1) (rowM scA s ⟨6, Nat.le_of_ble_eq_true rfl⟩) fa
  | ⟨7, _⟩ => landedJ c (s1A_7 c tb htb i h1) (rowM scA s ⟨7, Nat.le_of_ble_eq_true rfl⟩) fa
  | ⟨8, _⟩ => landedJ c (s1A_8 c tb htb i h1) (rowM scA s ⟨8, Nat.le_of_ble_eq_true rfl⟩) fa
  | ⟨9, _⟩ => landedJ c (s1A_9 c tb htb i h1) (rowM scA s ⟨9, Nat.le_of_ble_eq_true rfl⟩) fa
  | ⟨10, _⟩ => landedJ c (s1A_10 c tb htb i h1) (rowM scA s ⟨10, Nat.le_of_ble_eq_true rfl⟩) fa
  | ⟨11, _⟩ => landedJ c (s1A_11 c tb htb i h1) (rowM scA s ⟨11, Nat.le_of_ble_eq_true rfl⟩) fa
  | ⟨12, _⟩ => landedJ c (s1A_12 c tb htb i h1) (rowM scA s ⟨12, Nat.le_of_ble_eq_true rfl⟩) fa
  | ⟨13, _⟩ => landedJ c (s1A_13 c tb htb i h1) (rowM scA s ⟨13, Nat.le_of_ble_eq_true rfl⟩) fa
  | ⟨14, _⟩ => landedJ c (s1A_14 c tb htb i h1) (rowM scA s ⟨14, Nat.le_of_ble_eq_true rfl⟩) fa
  | ⟨15, _⟩ => landedJ c (s1A_15 c tb htb i h1) (rowM scA s ⟨15, Nat.le_of_ble_eq_true rfl⟩) fa
  | ⟨16, _⟩ => landedJ c (s1A_16 c tb htb i h1) (rowM scA s ⟨16, Nat.le_of_ble_eq_true rfl⟩) fa
  | ⟨17, _⟩ => landedJ c (s1A_17 c tb htb i h1) (rowM scA s ⟨17, Nat.le_of_ble_eq_true rfl⟩) fa
  | ⟨18, _⟩ => landedJ c (s1A_18 c tb htb i h1) (rowM scA s ⟨18, Nat.le_of_ble_eq_true rfl⟩) fa
  | ⟨19, _⟩ => landedJ c (s1A_19 c tb htb i h1) (rowM scA s ⟨19, Nat.le_of_ble_eq_true rfl⟩) fa
  | ⟨20, _⟩ => landedJ c (s1A_20 c tb htb i h1) (rowM scA s ⟨20, Nat.le_of_ble_eq_true rfl⟩) fa
  | ⟨21, _⟩ => landedJ c (s1A_21 c tb htb i h1) (rowM scA s ⟨21, Nat.le_of_ble_eq_true rfl⟩) fa
  | ⟨22, _⟩ => landedJ c (s1A_22 c tb htb i h1) (rowM scA s ⟨22, Nat.le_of_ble_eq_true rfl⟩) fa
  | ⟨23, _⟩ => landedJ c (s1A_23 c tb htb i h1) (rowM scA s ⟨23, Nat.le_of_ble_eq_true rfl⟩) fa
  | ⟨24, _⟩ => landedJ c (s1A_24 c tb htb i h1) (rowM scA s ⟨24, Nat.le_of_ble_eq_true rfl⟩) fa
  | ⟨25, _⟩ => landedJ c (s1A_25 c tb htb i h1) (rowM scA s ⟨25, Nat.le_of_ble_eq_true rfl⟩) fa
  | ⟨26, _⟩ => landedJ c (s1A_26 c tb htb i h1) (rowM scA s ⟨26, Nat.le_of_ble_eq_true rfl⟩) fa
  | ⟨27, _⟩ => landedJ c (s1A_27 c tb htb i h1) (rowM scA s ⟨27, Nat.le_of_ble_eq_true rfl⟩) fa
  | ⟨28, _⟩ => landedJ c (s1A_28 c tb htb i h1) (rowM scA s ⟨28, Nat.le_of_ble_eq_true rfl⟩) fa
  | ⟨29, _⟩ => landedJ c (s1A_29 c tb htb i h1) (rowM scA s ⟨29, Nat.le_of_ble_eq_true rfl⟩) fa
  | ⟨30, _⟩ => landedJ c (s1A_30 c tb htb i h1) (rowM scA s ⟨30, Nat.le_of_ble_eq_true rfl⟩) fa
  | ⟨31, _⟩ => landedJ c (s1A_31 c tb htb i h1) (rowM scA s ⟨31, Nat.le_of_ble_eq_true rfl⟩) fa
  | ⟨32, _⟩ => landedJ c (s1A_32 c tb htb i h1) (rowM scA s ⟨32, Nat.le_of_ble_eq_true rfl⟩) fa
  | ⟨33, _⟩ => landedJ c (s1A_33 c tb htb i h1) (rowM scA s ⟨33, Nat.le_of_ble_eq_true rfl⟩) fa
  | ⟨34, _⟩ => landedJ c (s1A_34 c tb htb i h1) (rowM scA s ⟨34, Nat.le_of_ble_eq_true rfl⟩) fa
  | ⟨35, _⟩ => landedJ c (s1A_35 c tb htb i h1) (rowM scA s ⟨35, Nat.le_of_ble_eq_true rfl⟩) fa
  | ⟨36, _⟩ => landedJ c (s1A_36 c tb htb i h1) (rowM scA s ⟨36, Nat.le_of_ble_eq_true rfl⟩) fa
  | ⟨37, _⟩ => landedJ c (s1A_37 c tb htb i h1) (rowM scA s ⟨37, Nat.le_of_ble_eq_true rfl⟩) fa
  | ⟨38, _⟩ => landedJ c (s1A_38 c tb htb i h1) (rowM scA s ⟨38, Nat.le_of_ble_eq_true rfl⟩) fa
  | ⟨39, _⟩ => landedJ c (s1A_39 c tb htb i h1) (rowM scA s ⟨39, Nat.le_of_ble_eq_true rfl⟩) fa
  | ⟨40, _⟩ => landedJ c (s1A_40 c tb htb i h1) (rowM scA s ⟨40, Nat.le_of_ble_eq_true rfl⟩) fa
  | ⟨41, _⟩ => landedJ c (s1A_41 c tb htb i h1) (rowM scA s ⟨41, Nat.le_of_ble_eq_true rfl⟩) fa
  | ⟨42, _⟩ => landedJ c (s1A_42 c tb htb i h1) (rowM scA s ⟨42, Nat.le_of_ble_eq_true rfl⟩) fa
  | ⟨43, _⟩ => landedJ c (s1A_43 c tb htb i h1) (rowM scA s ⟨43, Nat.le_of_ble_eq_true rfl⟩) fa
  | ⟨44, _⟩ => landedJ c (s1A_44 c tb htb i h1) (rowM scA s ⟨44, Nat.le_of_ble_eq_true rfl⟩) fa
  | ⟨45, _⟩ => landedJ c (s1A_45 c tb htb i h1) (rowM scA s ⟨45, Nat.le_of_ble_eq_true rfl⟩) fa
  | ⟨46, _⟩ => landedJ c (s1A_46 c tb htb i h1) (rowM scA s ⟨46, Nat.le_of_ble_eq_true rfl⟩) fa
  | ⟨47, _⟩ => landedJ c (s1A_47 c tb htb i h1) (rowM scA s ⟨47, Nat.le_of_ble_eq_true rfl⟩) fa
  | ⟨48, _⟩ => landedJ c (s1A_48 c tb htb i h1) (rowM scA s ⟨48, Nat.le_of_ble_eq_true rfl⟩) fa
  | ⟨49, _⟩ => landedJ c (s1A_49 c tb htb i h1) (rowM scA s ⟨49, Nat.le_of_ble_eq_true rfl⟩) fa
  | ⟨50, _⟩ => landedJ c (s1A_50 c tb htb i h1) (rowM scA s ⟨50, Nat.le_of_ble_eq_true rfl⟩) fa
  | ⟨51, _⟩ => landedJ c (s1A_51 c tb htb i h1) (rowM scA s ⟨51, Nat.le_of_ble_eq_true rfl⟩) fa
  | ⟨52, _⟩ => landedJ c (s1A_52 c tb htb i h1) (rowM scA s ⟨52, Nat.le_of_ble_eq_true rfl⟩) fa
  | ⟨53, _⟩ => landedJ c (s1A_53 c tb htb i h1) (rowM scA s ⟨53, Nat.le_of_ble_eq_true rfl⟩) fa
  | ⟨54, _⟩ => landedJ c (s1A_54 c tb htb i h1) (rowM scA s ⟨54, Nat.le_of_ble_eq_true rfl⟩) fa
  | ⟨55, _⟩ => landedJ c (s1A_55 c tb htb i h1) (rowM scA s ⟨55, Nat.le_of_ble_eq_true rfl⟩) fa
  | ⟨56, _⟩ => landedJ c (s1A_56 c tb htb i h1) (rowM scA s ⟨56, Nat.le_of_ble_eq_true rfl⟩) fa
  | ⟨57, _⟩ => landedJ c (s1A_57 c tb htb i h1) (rowM scA s ⟨57, Nat.le_of_ble_eq_true rfl⟩) fa
  | ⟨58, _⟩ => landedJ c (s1A_58 c tb htb i h1) (rowM scA s ⟨58, Nat.le_of_ble_eq_true rfl⟩) fa
  | ⟨59, _⟩ => landedJ c (s1A_59 c tb htb i h1) (rowM scA s ⟨59, Nat.le_of_ble_eq_true rfl⟩) fa
  | ⟨60, _⟩ => landedJ c (s1A_60 c tb htb i h1) (rowM scA s ⟨60, Nat.le_of_ble_eq_true rfl⟩) fa
  | ⟨61, _⟩ => landedJ c (s1A_61 c tb htb i h1) (rowM scA s ⟨61, Nat.le_of_ble_eq_true rfl⟩) fa
  | ⟨62, _⟩ => landedJ c (s1A_62 c tb htb i h1) (rowM scA s ⟨62, Nat.le_of_ble_eq_true rfl⟩) fa
  | ⟨63, _⟩ => landedJ c (s1A_63 c tb htb i h1) (rowM scA s ⟨63, Nat.le_of_ble_eq_true rfl⟩) fa
  | ⟨_ + 64, h⟩ => absurd h (Nat.not_lt.2 (Nat.le_add_left _ _))
/-- The deliveries of the 64 copies of array B (fetch 1) into slot s, in the order the copies are started. -/
def D1B (htb : ∀ y, (tb y).toNat < 4096) (i : grid0.Coords) (h1 : k0_cond1 i = 1#1) (s : Fin 2) : Fin 64 → sProp 𝕄
  | ⟨0, _⟩ => deliv c (s1B_0 c tb htb i h1) (rowM scB s ⟨0, Nat.le_of_ble_eq_true rfl⟩) (qTok s ⟨0, Nat.le_of_ble_eq_true rfl⟩) fb
  | ⟨1, _⟩ => deliv c (s1B_1 c tb htb i h1) (rowM scB s ⟨1, Nat.le_of_ble_eq_true rfl⟩) (qTok s ⟨1, Nat.le_of_ble_eq_true rfl⟩) fb
  | ⟨2, _⟩ => deliv c (s1B_2 c tb htb i h1) (rowM scB s ⟨2, Nat.le_of_ble_eq_true rfl⟩) (qTok s ⟨2, Nat.le_of_ble_eq_true rfl⟩) fb
  | ⟨3, _⟩ => deliv c (s1B_3 c tb htb i h1) (rowM scB s ⟨3, Nat.le_of_ble_eq_true rfl⟩) (qTok s ⟨3, Nat.le_of_ble_eq_true rfl⟩) fb
  | ⟨4, _⟩ => deliv c (s1B_4 c tb htb i h1) (rowM scB s ⟨4, Nat.le_of_ble_eq_true rfl⟩) (qTok s ⟨4, Nat.le_of_ble_eq_true rfl⟩) fb
  | ⟨5, _⟩ => deliv c (s1B_5 c tb htb i h1) (rowM scB s ⟨5, Nat.le_of_ble_eq_true rfl⟩) (qTok s ⟨5, Nat.le_of_ble_eq_true rfl⟩) fb
  | ⟨6, _⟩ => deliv c (s1B_6 c tb htb i h1) (rowM scB s ⟨6, Nat.le_of_ble_eq_true rfl⟩) (qTok s ⟨6, Nat.le_of_ble_eq_true rfl⟩) fb
  | ⟨7, _⟩ => deliv c (s1B_7 c tb htb i h1) (rowM scB s ⟨7, Nat.le_of_ble_eq_true rfl⟩) (qTok s ⟨7, Nat.le_of_ble_eq_true rfl⟩) fb
  | ⟨8, _⟩ => deliv c (s1B_8 c tb htb i h1) (rowM scB s ⟨8, Nat.le_of_ble_eq_true rfl⟩) (qTok s ⟨8, Nat.le_of_ble_eq_true rfl⟩) fb
  | ⟨9, _⟩ => deliv c (s1B_9 c tb htb i h1) (rowM scB s ⟨9, Nat.le_of_ble_eq_true rfl⟩) (qTok s ⟨9, Nat.le_of_ble_eq_true rfl⟩) fb
  | ⟨10, _⟩ => deliv c (s1B_10 c tb htb i h1) (rowM scB s ⟨10, Nat.le_of_ble_eq_true rfl⟩) (qTok s ⟨10, Nat.le_of_ble_eq_true rfl⟩) fb
  | ⟨11, _⟩ => deliv c (s1B_11 c tb htb i h1) (rowM scB s ⟨11, Nat.le_of_ble_eq_true rfl⟩) (qTok s ⟨11, Nat.le_of_ble_eq_true rfl⟩) fb
  | ⟨12, _⟩ => deliv c (s1B_12 c tb htb i h1) (rowM scB s ⟨12, Nat.le_of_ble_eq_true rfl⟩) (qTok s ⟨12, Nat.le_of_ble_eq_true rfl⟩) fb
  | ⟨13, _⟩ => deliv c (s1B_13 c tb htb i h1) (rowM scB s ⟨13, Nat.le_of_ble_eq_true rfl⟩) (qTok s ⟨13, Nat.le_of_ble_eq_true rfl⟩) fb
  | ⟨14, _⟩ => deliv c (s1B_14 c tb htb i h1) (rowM scB s ⟨14, Nat.le_of_ble_eq_true rfl⟩) (qTok s ⟨14, Nat.le_of_ble_eq_true rfl⟩) fb
  | ⟨15, _⟩ => deliv c (s1B_15 c tb htb i h1) (rowM scB s ⟨15, Nat.le_of_ble_eq_true rfl⟩) (qTok s ⟨15, Nat.le_of_ble_eq_true rfl⟩) fb
  | ⟨16, _⟩ => deliv c (s1B_16 c tb htb i h1) (rowM scB s ⟨16, Nat.le_of_ble_eq_true rfl⟩) (qTok s ⟨16, Nat.le_of_ble_eq_true rfl⟩) fb
  | ⟨17, _⟩ => deliv c (s1B_17 c tb htb i h1) (rowM scB s ⟨17, Nat.le_of_ble_eq_true rfl⟩) (qTok s ⟨17, Nat.le_of_ble_eq_true rfl⟩) fb
  | ⟨18, _⟩ => deliv c (s1B_18 c tb htb i h1) (rowM scB s ⟨18, Nat.le_of_ble_eq_true rfl⟩) (qTok s ⟨18, Nat.le_of_ble_eq_true rfl⟩) fb
  | ⟨19, _⟩ => deliv c (s1B_19 c tb htb i h1) (rowM scB s ⟨19, Nat.le_of_ble_eq_true rfl⟩) (qTok s ⟨19, Nat.le_of_ble_eq_true rfl⟩) fb
  | ⟨20, _⟩ => deliv c (s1B_20 c tb htb i h1) (rowM scB s ⟨20, Nat.le_of_ble_eq_true rfl⟩) (qTok s ⟨20, Nat.le_of_ble_eq_true rfl⟩) fb
  | ⟨21, _⟩ => deliv c (s1B_21 c tb htb i h1) (rowM scB s ⟨21, Nat.le_of_ble_eq_true rfl⟩) (qTok s ⟨21, Nat.le_of_ble_eq_true rfl⟩) fb
  | ⟨22, _⟩ => deliv c (s1B_22 c tb htb i h1) (rowM scB s ⟨22, Nat.le_of_ble_eq_true rfl⟩) (qTok s ⟨22, Nat.le_of_ble_eq_true rfl⟩) fb
  | ⟨23, _⟩ => deliv c (s1B_23 c tb htb i h1) (rowM scB s ⟨23, Nat.le_of_ble_eq_true rfl⟩) (qTok s ⟨23, Nat.le_of_ble_eq_true rfl⟩) fb
  | ⟨24, _⟩ => deliv c (s1B_24 c tb htb i h1) (rowM scB s ⟨24, Nat.le_of_ble_eq_true rfl⟩) (qTok s ⟨24, Nat.le_of_ble_eq_true rfl⟩) fb
  | ⟨25, _⟩ => deliv c (s1B_25 c tb htb i h1) (rowM scB s ⟨25, Nat.le_of_ble_eq_true rfl⟩) (qTok s ⟨25, Nat.le_of_ble_eq_true rfl⟩) fb
  | ⟨26, _⟩ => deliv c (s1B_26 c tb htb i h1) (rowM scB s ⟨26, Nat.le_of_ble_eq_true rfl⟩) (qTok s ⟨26, Nat.le_of_ble_eq_true rfl⟩) fb
  | ⟨27, _⟩ => deliv c (s1B_27 c tb htb i h1) (rowM scB s ⟨27, Nat.le_of_ble_eq_true rfl⟩) (qTok s ⟨27, Nat.le_of_ble_eq_true rfl⟩) fb
  | ⟨28, _⟩ => deliv c (s1B_28 c tb htb i h1) (rowM scB s ⟨28, Nat.le_of_ble_eq_true rfl⟩) (qTok s ⟨28, Nat.le_of_ble_eq_true rfl⟩) fb
  | ⟨29, _⟩ => deliv c (s1B_29 c tb htb i h1) (rowM scB s ⟨29, Nat.le_of_ble_eq_true rfl⟩) (qTok s ⟨29, Nat.le_of_ble_eq_true rfl⟩) fb
  | ⟨30, _⟩ => deliv c (s1B_30 c tb htb i h1) (rowM scB s ⟨30, Nat.le_of_ble_eq_true rfl⟩) (qTok s ⟨30, Nat.le_of_ble_eq_true rfl⟩) fb
  | ⟨31, _⟩ => deliv c (s1B_31 c tb htb i h1) (rowM scB s ⟨31, Nat.le_of_ble_eq_true rfl⟩) (qTok s ⟨31, Nat.le_of_ble_eq_true rfl⟩) fb
  | ⟨32, _⟩ => deliv c (s1B_32 c tb htb i h1) (rowM scB s ⟨32, Nat.le_of_ble_eq_true rfl⟩) (qTok s ⟨32, Nat.le_of_ble_eq_true rfl⟩) fb
  | ⟨33, _⟩ => deliv c (s1B_33 c tb htb i h1) (rowM scB s ⟨33, Nat.le_of_ble_eq_true rfl⟩) (qTok s ⟨33, Nat.le_of_ble_eq_true rfl⟩) fb
  | ⟨34, _⟩ => deliv c (s1B_34 c tb htb i h1) (rowM scB s ⟨34, Nat.le_of_ble_eq_true rfl⟩) (qTok s ⟨34, Nat.le_of_ble_eq_true rfl⟩) fb
  | ⟨35, _⟩ => deliv c (s1B_35 c tb htb i h1) (rowM scB s ⟨35, Nat.le_of_ble_eq_true rfl⟩) (qTok s ⟨35, Nat.le_of_ble_eq_true rfl⟩) fb
  | ⟨36, _⟩ => deliv c (s1B_36 c tb htb i h1) (rowM scB s ⟨36, Nat.le_of_ble_eq_true rfl⟩) (qTok s ⟨36, Nat.le_of_ble_eq_true rfl⟩) fb
  | ⟨37, _⟩ => deliv c (s1B_37 c tb htb i h1) (rowM scB s ⟨37, Nat.le_of_ble_eq_true rfl⟩) (qTok s ⟨37, Nat.le_of_ble_eq_true rfl⟩) fb
  | ⟨38, _⟩ => deliv c (s1B_38 c tb htb i h1) (rowM scB s ⟨38, Nat.le_of_ble_eq_true rfl⟩) (qTok s ⟨38, Nat.le_of_ble_eq_true rfl⟩) fb
  | ⟨39, _⟩ => deliv c (s1B_39 c tb htb i h1) (rowM scB s ⟨39, Nat.le_of_ble_eq_true rfl⟩) (qTok s ⟨39, Nat.le_of_ble_eq_true rfl⟩) fb
  | ⟨40, _⟩ => deliv c (s1B_40 c tb htb i h1) (rowM scB s ⟨40, Nat.le_of_ble_eq_true rfl⟩) (qTok s ⟨40, Nat.le_of_ble_eq_true rfl⟩) fb
  | ⟨41, _⟩ => deliv c (s1B_41 c tb htb i h1) (rowM scB s ⟨41, Nat.le_of_ble_eq_true rfl⟩) (qTok s ⟨41, Nat.le_of_ble_eq_true rfl⟩) fb
  | ⟨42, _⟩ => deliv c (s1B_42 c tb htb i h1) (rowM scB s ⟨42, Nat.le_of_ble_eq_true rfl⟩) (qTok s ⟨42, Nat.le_of_ble_eq_true rfl⟩) fb
  | ⟨43, _⟩ => deliv c (s1B_43 c tb htb i h1) (rowM scB s ⟨43, Nat.le_of_ble_eq_true rfl⟩) (qTok s ⟨43, Nat.le_of_ble_eq_true rfl⟩) fb
  | ⟨44, _⟩ => deliv c (s1B_44 c tb htb i h1) (rowM scB s ⟨44, Nat.le_of_ble_eq_true rfl⟩) (qTok s ⟨44, Nat.le_of_ble_eq_true rfl⟩) fb
  | ⟨45, _⟩ => deliv c (s1B_45 c tb htb i h1) (rowM scB s ⟨45, Nat.le_of_ble_eq_true rfl⟩) (qTok s ⟨45, Nat.le_of_ble_eq_true rfl⟩) fb
  | ⟨46, _⟩ => deliv c (s1B_46 c tb htb i h1) (rowM scB s ⟨46, Nat.le_of_ble_eq_true rfl⟩) (qTok s ⟨46, Nat.le_of_ble_eq_true rfl⟩) fb
  | ⟨47, _⟩ => deliv c (s1B_47 c tb htb i h1) (rowM scB s ⟨47, Nat.le_of_ble_eq_true rfl⟩) (qTok s ⟨47, Nat.le_of_ble_eq_true rfl⟩) fb
  | ⟨48, _⟩ => deliv c (s1B_48 c tb htb i h1) (rowM scB s ⟨48, Nat.le_of_ble_eq_true rfl⟩) (qTok s ⟨48, Nat.le_of_ble_eq_true rfl⟩) fb
  | ⟨49, _⟩ => deliv c (s1B_49 c tb htb i h1) (rowM scB s ⟨49, Nat.le_of_ble_eq_true rfl⟩) (qTok s ⟨49, Nat.le_of_ble_eq_true rfl⟩) fb
  | ⟨50, _⟩ => deliv c (s1B_50 c tb htb i h1) (rowM scB s ⟨50, Nat.le_of_ble_eq_true rfl⟩) (qTok s ⟨50, Nat.le_of_ble_eq_true rfl⟩) fb
  | ⟨51, _⟩ => deliv c (s1B_51 c tb htb i h1) (rowM scB s ⟨51, Nat.le_of_ble_eq_true rfl⟩) (qTok s ⟨51, Nat.le_of_ble_eq_true rfl⟩) fb
  | ⟨52, _⟩ => deliv c (s1B_52 c tb htb i h1) (rowM scB s ⟨52, Nat.le_of_ble_eq_true rfl⟩) (qTok s ⟨52, Nat.le_of_ble_eq_true rfl⟩) fb
  | ⟨53, _⟩ => deliv c (s1B_53 c tb htb i h1) (rowM scB s ⟨53, Nat.le_of_ble_eq_true rfl⟩) (qTok s ⟨53, Nat.le_of_ble_eq_true rfl⟩) fb
  | ⟨54, _⟩ => deliv c (s1B_54 c tb htb i h1) (rowM scB s ⟨54, Nat.le_of_ble_eq_true rfl⟩) (qTok s ⟨54, Nat.le_of_ble_eq_true rfl⟩) fb
  | ⟨55, _⟩ => deliv c (s1B_55 c tb htb i h1) (rowM scB s ⟨55, Nat.le_of_ble_eq_true rfl⟩) (qTok s ⟨55, Nat.le_of_ble_eq_true rfl⟩) fb
  | ⟨56, _⟩ => deliv c (s1B_56 c tb htb i h1) (rowM scB s ⟨56, Nat.le_of_ble_eq_true rfl⟩) (qTok s ⟨56, Nat.le_of_ble_eq_true rfl⟩) fb
  | ⟨57, _⟩ => deliv c (s1B_57 c tb htb i h1) (rowM scB s ⟨57, Nat.le_of_ble_eq_true rfl⟩) (qTok s ⟨57, Nat.le_of_ble_eq_true rfl⟩) fb
  | ⟨58, _⟩ => deliv c (s1B_58 c tb htb i h1) (rowM scB s ⟨58, Nat.le_of_ble_eq_true rfl⟩) (qTok s ⟨58, Nat.le_of_ble_eq_true rfl⟩) fb
  | ⟨59, _⟩ => deliv c (s1B_59 c tb htb i h1) (rowM scB s ⟨59, Nat.le_of_ble_eq_true rfl⟩) (qTok s ⟨59, Nat.le_of_ble_eq_true rfl⟩) fb
  | ⟨60, _⟩ => deliv c (s1B_60 c tb htb i h1) (rowM scB s ⟨60, Nat.le_of_ble_eq_true rfl⟩) (qTok s ⟨60, Nat.le_of_ble_eq_true rfl⟩) fb
  | ⟨61, _⟩ => deliv c (s1B_61 c tb htb i h1) (rowM scB s ⟨61, Nat.le_of_ble_eq_true rfl⟩) (qTok s ⟨61, Nat.le_of_ble_eq_true rfl⟩) fb
  | ⟨62, _⟩ => deliv c (s1B_62 c tb htb i h1) (rowM scB s ⟨62, Nat.le_of_ble_eq_true rfl⟩) (qTok s ⟨62, Nat.le_of_ble_eq_true rfl⟩) fb
  | ⟨63, _⟩ => deliv c (s1B_63 c tb htb i h1) (rowM scB s ⟨63, Nat.le_of_ble_eq_true rfl⟩) (qTok s ⟨63, Nat.le_of_ble_eq_true rfl⟩) fb
  | ⟨_ + 64, h⟩ => absurd h (Nat.not_lt.2 (Nat.le_add_left _ _))
/-- What is left of each of slot s's read shares of array B while its array row is lent to copy r. -/
def R1B (htb : ∀ y, (tb y).toNat < 4096) (i : grid0.Coords) (h1 : k0_cond1 i = 1#1) (s : Fin 2) : Fin 64 → sProp 𝕄
  | ⟨0, _⟩ => (bM.view.loc (c : Thread nD τ) ↦[Finset.univ \ (s1B_0 c tb htb i h1).view.set]{qTok s ⟨0, Nat.le_of_ble_eq_true rfl⟩} fb)
  | ⟨1, _⟩ => (bM.view.loc (c : Thread nD τ) ↦[Finset.univ \ (s1B_1 c tb htb i h1).view.set]{qTok s ⟨1, Nat.le_of_ble_eq_true rfl⟩} fb)
  | ⟨2, _⟩ => (bM.view.loc (c : Thread nD τ) ↦[Finset.univ \ (s1B_2 c tb htb i h1).view.set]{qTok s ⟨2, Nat.le_of_ble_eq_true rfl⟩} fb)
  | ⟨3, _⟩ => (bM.view.loc (c : Thread nD τ) ↦[Finset.univ \ (s1B_3 c tb htb i h1).view.set]{qTok s ⟨3, Nat.le_of_ble_eq_true rfl⟩} fb)
  | ⟨4, _⟩ => (bM.view.loc (c : Thread nD τ) ↦[Finset.univ \ (s1B_4 c tb htb i h1).view.set]{qTok s ⟨4, Nat.le_of_ble_eq_true rfl⟩} fb)
  | ⟨5, _⟩ => (bM.view.loc (c : Thread nD τ) ↦[Finset.univ \ (s1B_5 c tb htb i h1).view.set]{qTok s ⟨5, Nat.le_of_ble_eq_true rfl⟩} fb)
  | ⟨6, _⟩ => (bM.view.loc (c : Thread nD τ) ↦[Finset.univ \ (s1B_6 c tb htb i h1).view.set]{qTok s ⟨6, Nat.le_of_ble_eq_true rfl⟩} fb)
  | ⟨7, _⟩ => (bM.view.loc (c : Thread nD τ) ↦[Finset.univ \ (s1B_7 c tb htb i h1).view.set]{qTok s ⟨7, Nat.le_of_ble_eq_true rfl⟩} fb)
  | ⟨8, _⟩ => (bM.view.loc (c : Thread nD τ) ↦[Finset.univ \ (s1B_8 c tb htb i h1).view.set]{qTok s ⟨8, Nat.le_of_ble_eq_true rfl⟩} fb)
  | ⟨9, _⟩ => (bM.view.loc (c : Thread nD τ) ↦[Finset.univ \ (s1B_9 c tb htb i h1).view.set]{qTok s ⟨9, Nat.le_of_ble_eq_true rfl⟩} fb)
  | ⟨10, _⟩ => (bM.view.loc (c : Thread nD τ) ↦[Finset.univ \ (s1B_10 c tb htb i h1).view.set]{qTok s ⟨10, Nat.le_of_ble_eq_true rfl⟩} fb)
  | ⟨11, _⟩ => (bM.view.loc (c : Thread nD τ) ↦[Finset.univ \ (s1B_11 c tb htb i h1).view.set]{qTok s ⟨11, Nat.le_of_ble_eq_true rfl⟩} fb)
  | ⟨12, _⟩ => (bM.view.loc (c : Thread nD τ) ↦[Finset.univ \ (s1B_12 c tb htb i h1).view.set]{qTok s ⟨12, Nat.le_of_ble_eq_true rfl⟩} fb)
  | ⟨13, _⟩ => (bM.view.loc (c : Thread nD τ) ↦[Finset.univ \ (s1B_13 c tb htb i h1).view.set]{qTok s ⟨13, Nat.le_of_ble_eq_true rfl⟩} fb)
  | ⟨14, _⟩ => (bM.view.loc (c : Thread nD τ) ↦[Finset.univ \ (s1B_14 c tb htb i h1).view.set]{qTok s ⟨14, Nat.le_of_ble_eq_true rfl⟩} fb)
  | ⟨15, _⟩ => (bM.view.loc (c : Thread nD τ) ↦[Finset.univ \ (s1B_15 c tb htb i h1).view.set]{qTok s ⟨15, Nat.le_of_ble_eq_true rfl⟩} fb)
  | ⟨16, _⟩ => (bM.view.loc (c : Thread nD τ) ↦[Finset.univ \ (s1B_16 c tb htb i h1).view.set]{qTok s ⟨16, Nat.le_of_ble_eq_true rfl⟩} fb)
  | ⟨17, _⟩ => (bM.view.loc (c : Thread nD τ) ↦[Finset.univ \ (s1B_17 c tb htb i h1).view.set]{qTok s ⟨17, Nat.le_of_ble_eq_true rfl⟩} fb)
  | ⟨18, _⟩ => (bM.view.loc (c : Thread nD τ) ↦[Finset.univ \ (s1B_18 c tb htb i h1).view.set]{qTok s ⟨18, Nat.le_of_ble_eq_true rfl⟩} fb)
  | ⟨19, _⟩ => (bM.view.loc (c : Thread nD τ) ↦[Finset.univ \ (s1B_19 c tb htb i h1).view.set]{qTok s ⟨19, Nat.le_of_ble_eq_true rfl⟩} fb)
  | ⟨20, _⟩ => (bM.view.loc (c : Thread nD τ) ↦[Finset.univ \ (s1B_20 c tb htb i h1).view.set]{qTok s ⟨20, Nat.le_of_ble_eq_true rfl⟩} fb)
  | ⟨21, _⟩ => (bM.view.loc (c : Thread nD τ) ↦[Finset.univ \ (s1B_21 c tb htb i h1).view.set]{qTok s ⟨21, Nat.le_of_ble_eq_true rfl⟩} fb)
  | ⟨22, _⟩ => (bM.view.loc (c : Thread nD τ) ↦[Finset.univ \ (s1B_22 c tb htb i h1).view.set]{qTok s ⟨22, Nat.le_of_ble_eq_true rfl⟩} fb)
  | ⟨23, _⟩ => (bM.view.loc (c : Thread nD τ) ↦[Finset.univ \ (s1B_23 c tb htb i h1).view.set]{qTok s ⟨23, Nat.le_of_ble_eq_true rfl⟩} fb)
  | ⟨24, _⟩ => (bM.view.loc (c : Thread nD τ) ↦[Finset.univ \ (s1B_24 c tb htb i h1).view.set]{qTok s ⟨24, Nat.le_of_ble_eq_true rfl⟩} fb)
  | ⟨25, _⟩ => (bM.view.loc (c : Thread nD τ) ↦[Finset.univ \ (s1B_25 c tb htb i h1).view.set]{qTok s ⟨25, Nat.le_of_ble_eq_true rfl⟩} fb)
  | ⟨26, _⟩ => (bM.view.loc (c : Thread nD τ) ↦[Finset.univ \ (s1B_26 c tb htb i h1).view.set]{qTok s ⟨26, Nat.le_of_ble_eq_true rfl⟩} fb)
  | ⟨27, _⟩ => (bM.view.loc (c : Thread nD τ) ↦[Finset.univ \ (s1B_27 c tb htb i h1).view.set]{qTok s ⟨27, Nat.le_of_ble_eq_true rfl⟩} fb)
  | ⟨28, _⟩ => (bM.view.loc (c : Thread nD τ) ↦[Finset.univ \ (s1B_28 c tb htb i h1).view.set]{qTok s ⟨28, Nat.le_of_ble_eq_true rfl⟩} fb)
  | ⟨29, _⟩ => (bM.view.loc (c : Thread nD τ) ↦[Finset.univ \ (s1B_29 c tb htb i h1).view.set]{qTok s ⟨29, Nat.le_of_ble_eq_true rfl⟩} fb)
  | ⟨30, _⟩ => (bM.view.loc (c : Thread nD τ) ↦[Finset.univ \ (s1B_30 c tb htb i h1).view.set]{qTok s ⟨30, Nat.le_of_ble_eq_true rfl⟩} fb)
  | ⟨31, _⟩ => (bM.view.loc (c : Thread nD τ) ↦[Finset.univ \ (s1B_31 c tb htb i h1).view.set]{qTok s ⟨31, Nat.le_of_ble_eq_true rfl⟩} fb)
  | ⟨32, _⟩ => (bM.view.loc (c : Thread nD τ) ↦[Finset.univ \ (s1B_32 c tb htb i h1).view.set]{qTok s ⟨32, Nat.le_of_ble_eq_true rfl⟩} fb)
  | ⟨33, _⟩ => (bM.view.loc (c : Thread nD τ) ↦[Finset.univ \ (s1B_33 c tb htb i h1).view.set]{qTok s ⟨33, Nat.le_of_ble_eq_true rfl⟩} fb)
  | ⟨34, _⟩ => (bM.view.loc (c : Thread nD τ) ↦[Finset.univ \ (s1B_34 c tb htb i h1).view.set]{qTok s ⟨34, Nat.le_of_ble_eq_true rfl⟩} fb)
  | ⟨35, _⟩ => (bM.view.loc (c : Thread nD τ) ↦[Finset.univ \ (s1B_35 c tb htb i h1).view.set]{qTok s ⟨35, Nat.le_of_ble_eq_true rfl⟩} fb)
  | ⟨36, _⟩ => (bM.view.loc (c : Thread nD τ) ↦[Finset.univ \ (s1B_36 c tb htb i h1).view.set]{qTok s ⟨36, Nat.le_of_ble_eq_true rfl⟩} fb)
  | ⟨37, _⟩ => (bM.view.loc (c : Thread nD τ) ↦[Finset.univ \ (s1B_37 c tb htb i h1).view.set]{qTok s ⟨37, Nat.le_of_ble_eq_true rfl⟩} fb)
  | ⟨38, _⟩ => (bM.view.loc (c : Thread nD τ) ↦[Finset.univ \ (s1B_38 c tb htb i h1).view.set]{qTok s ⟨38, Nat.le_of_ble_eq_true rfl⟩} fb)
  | ⟨39, _⟩ => (bM.view.loc (c : Thread nD τ) ↦[Finset.univ \ (s1B_39 c tb htb i h1).view.set]{qTok s ⟨39, Nat.le_of_ble_eq_true rfl⟩} fb)
  | ⟨40, _⟩ => (bM.view.loc (c : Thread nD τ) ↦[Finset.univ \ (s1B_40 c tb htb i h1).view.set]{qTok s ⟨40, Nat.le_of_ble_eq_true rfl⟩} fb)
  | ⟨41, _⟩ => (bM.view.loc (c : Thread nD τ) ↦[Finset.univ \ (s1B_41 c tb htb i h1).view.set]{qTok s ⟨41, Nat.le_of_ble_eq_true rfl⟩} fb)
  | ⟨42, _⟩ => (bM.view.loc (c : Thread nD τ) ↦[Finset.univ \ (s1B_42 c tb htb i h1).view.set]{qTok s ⟨42, Nat.le_of_ble_eq_true rfl⟩} fb)
  | ⟨43, _⟩ => (bM.view.loc (c : Thread nD τ) ↦[Finset.univ \ (s1B_43 c tb htb i h1).view.set]{qTok s ⟨43, Nat.le_of_ble_eq_true rfl⟩} fb)
  | ⟨44, _⟩ => (bM.view.loc (c : Thread nD τ) ↦[Finset.univ \ (s1B_44 c tb htb i h1).view.set]{qTok s ⟨44, Nat.le_of_ble_eq_true rfl⟩} fb)
  | ⟨45, _⟩ => (bM.view.loc (c : Thread nD τ) ↦[Finset.univ \ (s1B_45 c tb htb i h1).view.set]{qTok s ⟨45, Nat.le_of_ble_eq_true rfl⟩} fb)
  | ⟨46, _⟩ => (bM.view.loc (c : Thread nD τ) ↦[Finset.univ \ (s1B_46 c tb htb i h1).view.set]{qTok s ⟨46, Nat.le_of_ble_eq_true rfl⟩} fb)
  | ⟨47, _⟩ => (bM.view.loc (c : Thread nD τ) ↦[Finset.univ \ (s1B_47 c tb htb i h1).view.set]{qTok s ⟨47, Nat.le_of_ble_eq_true rfl⟩} fb)
  | ⟨48, _⟩ => (bM.view.loc (c : Thread nD τ) ↦[Finset.univ \ (s1B_48 c tb htb i h1).view.set]{qTok s ⟨48, Nat.le_of_ble_eq_true rfl⟩} fb)
  | ⟨49, _⟩ => (bM.view.loc (c : Thread nD τ) ↦[Finset.univ \ (s1B_49 c tb htb i h1).view.set]{qTok s ⟨49, Nat.le_of_ble_eq_true rfl⟩} fb)
  | ⟨50, _⟩ => (bM.view.loc (c : Thread nD τ) ↦[Finset.univ \ (s1B_50 c tb htb i h1).view.set]{qTok s ⟨50, Nat.le_of_ble_eq_true rfl⟩} fb)
  | ⟨51, _⟩ => (bM.view.loc (c : Thread nD τ) ↦[Finset.univ \ (s1B_51 c tb htb i h1).view.set]{qTok s ⟨51, Nat.le_of_ble_eq_true rfl⟩} fb)
  | ⟨52, _⟩ => (bM.view.loc (c : Thread nD τ) ↦[Finset.univ \ (s1B_52 c tb htb i h1).view.set]{qTok s ⟨52, Nat.le_of_ble_eq_true rfl⟩} fb)
  | ⟨53, _⟩ => (bM.view.loc (c : Thread nD τ) ↦[Finset.univ \ (s1B_53 c tb htb i h1).view.set]{qTok s ⟨53, Nat.le_of_ble_eq_true rfl⟩} fb)
  | ⟨54, _⟩ => (bM.view.loc (c : Thread nD τ) ↦[Finset.univ \ (s1B_54 c tb htb i h1).view.set]{qTok s ⟨54, Nat.le_of_ble_eq_true rfl⟩} fb)
  | ⟨55, _⟩ => (bM.view.loc (c : Thread nD τ) ↦[Finset.univ \ (s1B_55 c tb htb i h1).view.set]{qTok s ⟨55, Nat.le_of_ble_eq_true rfl⟩} fb)
  | ⟨56, _⟩ => (bM.view.loc (c : Thread nD τ) ↦[Finset.univ \ (s1B_56 c tb htb i h1).view.set]{qTok s ⟨56, Nat.le_of_ble_eq_true rfl⟩} fb)
  | ⟨57, _⟩ => (bM.view.loc (c : Thread nD τ) ↦[Finset.univ \ (s1B_57 c tb htb i h1).view.set]{qTok s ⟨57, Nat.le_of_ble_eq_true rfl⟩} fb)
  | ⟨58, _⟩ => (bM.view.loc (c : Thread nD τ) ↦[Finset.univ \ (s1B_58 c tb htb i h1).view.set]{qTok s ⟨58, Nat.le_of_ble_eq_true rfl⟩} fb)
  | ⟨59, _⟩ => (bM.view.loc (c : Thread nD τ) ↦[Finset.univ \ (s1B_59 c tb htb i h1).view.set]{qTok s ⟨59, Nat.le_of_ble_eq_true rfl⟩} fb)
  | ⟨60, _⟩ => (bM.view.loc (c : Thread nD τ) ↦[Finset.univ \ (s1B_60 c tb htb i h1).view.set]{qTok s ⟨60, Nat.le_of_ble_eq_true rfl⟩} fb)
  | ⟨61, _⟩ => (bM.view.loc (c : Thread nD τ) ↦[Finset.univ \ (s1B_61 c tb htb i h1).view.set]{qTok s ⟨61, Nat.le_of_ble_eq_true rfl⟩} fb)
  | ⟨62, _⟩ => (bM.view.loc (c : Thread nD τ) ↦[Finset.univ \ (s1B_62 c tb htb i h1).view.set]{qTok s ⟨62, Nat.le_of_ble_eq_true rfl⟩} fb)
  | ⟨63, _⟩ => (bM.view.loc (c : Thread nD τ) ↦[Finset.univ \ (s1B_63 c tb htb i h1).view.set]{qTok s ⟨63, Nat.le_of_ble_eq_true rfl⟩} fb)
  | ⟨_ + 64, h⟩ => absurd h (Nat.not_lt.2 (Nat.le_add_left _ _))
/-- What each row of slot s holds once copy r of array B (fetch 1) has landed. -/
def L1B (htb : ∀ y, (tb y).toNat < 4096) (i : grid0.Coords) (h1 : k0_cond1 i = 1#1) (s : Fin 2) : Fin 64 → MBuf (F := F) c scB
  | ⟨0, _⟩ => landedJ c (s1B_0 c tb htb i h1) (rowM scB s ⟨0, Nat.le_of_ble_eq_true rfl⟩) fb
  | ⟨1, _⟩ => landedJ c (s1B_1 c tb htb i h1) (rowM scB s ⟨1, Nat.le_of_ble_eq_true rfl⟩) fb
  | ⟨2, _⟩ => landedJ c (s1B_2 c tb htb i h1) (rowM scB s ⟨2, Nat.le_of_ble_eq_true rfl⟩) fb
  | ⟨3, _⟩ => landedJ c (s1B_3 c tb htb i h1) (rowM scB s ⟨3, Nat.le_of_ble_eq_true rfl⟩) fb
  | ⟨4, _⟩ => landedJ c (s1B_4 c tb htb i h1) (rowM scB s ⟨4, Nat.le_of_ble_eq_true rfl⟩) fb
  | ⟨5, _⟩ => landedJ c (s1B_5 c tb htb i h1) (rowM scB s ⟨5, Nat.le_of_ble_eq_true rfl⟩) fb
  | ⟨6, _⟩ => landedJ c (s1B_6 c tb htb i h1) (rowM scB s ⟨6, Nat.le_of_ble_eq_true rfl⟩) fb
  | ⟨7, _⟩ => landedJ c (s1B_7 c tb htb i h1) (rowM scB s ⟨7, Nat.le_of_ble_eq_true rfl⟩) fb
  | ⟨8, _⟩ => landedJ c (s1B_8 c tb htb i h1) (rowM scB s ⟨8, Nat.le_of_ble_eq_true rfl⟩) fb
  | ⟨9, _⟩ => landedJ c (s1B_9 c tb htb i h1) (rowM scB s ⟨9, Nat.le_of_ble_eq_true rfl⟩) fb
  | ⟨10, _⟩ => landedJ c (s1B_10 c tb htb i h1) (rowM scB s ⟨10, Nat.le_of_ble_eq_true rfl⟩) fb
  | ⟨11, _⟩ => landedJ c (s1B_11 c tb htb i h1) (rowM scB s ⟨11, Nat.le_of_ble_eq_true rfl⟩) fb
  | ⟨12, _⟩ => landedJ c (s1B_12 c tb htb i h1) (rowM scB s ⟨12, Nat.le_of_ble_eq_true rfl⟩) fb
  | ⟨13, _⟩ => landedJ c (s1B_13 c tb htb i h1) (rowM scB s ⟨13, Nat.le_of_ble_eq_true rfl⟩) fb
  | ⟨14, _⟩ => landedJ c (s1B_14 c tb htb i h1) (rowM scB s ⟨14, Nat.le_of_ble_eq_true rfl⟩) fb
  | ⟨15, _⟩ => landedJ c (s1B_15 c tb htb i h1) (rowM scB s ⟨15, Nat.le_of_ble_eq_true rfl⟩) fb
  | ⟨16, _⟩ => landedJ c (s1B_16 c tb htb i h1) (rowM scB s ⟨16, Nat.le_of_ble_eq_true rfl⟩) fb
  | ⟨17, _⟩ => landedJ c (s1B_17 c tb htb i h1) (rowM scB s ⟨17, Nat.le_of_ble_eq_true rfl⟩) fb
  | ⟨18, _⟩ => landedJ c (s1B_18 c tb htb i h1) (rowM scB s ⟨18, Nat.le_of_ble_eq_true rfl⟩) fb
  | ⟨19, _⟩ => landedJ c (s1B_19 c tb htb i h1) (rowM scB s ⟨19, Nat.le_of_ble_eq_true rfl⟩) fb
  | ⟨20, _⟩ => landedJ c (s1B_20 c tb htb i h1) (rowM scB s ⟨20, Nat.le_of_ble_eq_true rfl⟩) fb
  | ⟨21, _⟩ => landedJ c (s1B_21 c tb htb i h1) (rowM scB s ⟨21, Nat.le_of_ble_eq_true rfl⟩) fb
  | ⟨22, _⟩ => landedJ c (s1B_22 c tb htb i h1) (rowM scB s ⟨22, Nat.le_of_ble_eq_true rfl⟩) fb
  | ⟨23, _⟩ => landedJ c (s1B_23 c tb htb i h1) (rowM scB s ⟨23, Nat.le_of_ble_eq_true rfl⟩) fb
  | ⟨24, _⟩ => landedJ c (s1B_24 c tb htb i h1) (rowM scB s ⟨24, Nat.le_of_ble_eq_true rfl⟩) fb
  | ⟨25, _⟩ => landedJ c (s1B_25 c tb htb i h1) (rowM scB s ⟨25, Nat.le_of_ble_eq_true rfl⟩) fb
  | ⟨26, _⟩ => landedJ c (s1B_26 c tb htb i h1) (rowM scB s ⟨26, Nat.le_of_ble_eq_true rfl⟩) fb
  | ⟨27, _⟩ => landedJ c (s1B_27 c tb htb i h1) (rowM scB s ⟨27, Nat.le_of_ble_eq_true rfl⟩) fb
  | ⟨28, _⟩ => landedJ c (s1B_28 c tb htb i h1) (rowM scB s ⟨28, Nat.le_of_ble_eq_true rfl⟩) fb
  | ⟨29, _⟩ => landedJ c (s1B_29 c tb htb i h1) (rowM scB s ⟨29, Nat.le_of_ble_eq_true rfl⟩) fb
  | ⟨30, _⟩ => landedJ c (s1B_30 c tb htb i h1) (rowM scB s ⟨30, Nat.le_of_ble_eq_true rfl⟩) fb
  | ⟨31, _⟩ => landedJ c (s1B_31 c tb htb i h1) (rowM scB s ⟨31, Nat.le_of_ble_eq_true rfl⟩) fb
  | ⟨32, _⟩ => landedJ c (s1B_32 c tb htb i h1) (rowM scB s ⟨32, Nat.le_of_ble_eq_true rfl⟩) fb
  | ⟨33, _⟩ => landedJ c (s1B_33 c tb htb i h1) (rowM scB s ⟨33, Nat.le_of_ble_eq_true rfl⟩) fb
  | ⟨34, _⟩ => landedJ c (s1B_34 c tb htb i h1) (rowM scB s ⟨34, Nat.le_of_ble_eq_true rfl⟩) fb
  | ⟨35, _⟩ => landedJ c (s1B_35 c tb htb i h1) (rowM scB s ⟨35, Nat.le_of_ble_eq_true rfl⟩) fb
  | ⟨36, _⟩ => landedJ c (s1B_36 c tb htb i h1) (rowM scB s ⟨36, Nat.le_of_ble_eq_true rfl⟩) fb
  | ⟨37, _⟩ => landedJ c (s1B_37 c tb htb i h1) (rowM scB s ⟨37, Nat.le_of_ble_eq_true rfl⟩) fb
  | ⟨38, _⟩ => landedJ c (s1B_38 c tb htb i h1) (rowM scB s ⟨38, Nat.le_of_ble_eq_true rfl⟩) fb
  | ⟨39, _⟩ => landedJ c (s1B_39 c tb htb i h1) (rowM scB s ⟨39, Nat.le_of_ble_eq_true rfl⟩) fb
  | ⟨40, _⟩ => landedJ c (s1B_40 c tb htb i h1) (rowM scB s ⟨40, Nat.le_of_ble_eq_true rfl⟩) fb
  | ⟨41, _⟩ => landedJ c (s1B_41 c tb htb i h1) (rowM scB s ⟨41, Nat.le_of_ble_eq_true rfl⟩) fb
  | ⟨42, _⟩ => landedJ c (s1B_42 c tb htb i h1) (rowM scB s ⟨42, Nat.le_of_ble_eq_true rfl⟩) fb
  | ⟨43, _⟩ => landedJ c (s1B_43 c tb htb i h1) (rowM scB s ⟨43, Nat.le_of_ble_eq_true rfl⟩) fb
  | ⟨44, _⟩ => landedJ c (s1B_44 c tb htb i h1) (rowM scB s ⟨44, Nat.le_of_ble_eq_true rfl⟩) fb
  | ⟨45, _⟩ => landedJ c (s1B_45 c tb htb i h1) (rowM scB s ⟨45, Nat.le_of_ble_eq_true rfl⟩) fb
  | ⟨46, _⟩ => landedJ c (s1B_46 c tb htb i h1) (rowM scB s ⟨46, Nat.le_of_ble_eq_true rfl⟩) fb
  | ⟨47, _⟩ => landedJ c (s1B_47 c tb htb i h1) (rowM scB s ⟨47, Nat.le_of_ble_eq_true rfl⟩) fb
  | ⟨48, _⟩ => landedJ c (s1B_48 c tb htb i h1) (rowM scB s ⟨48, Nat.le_of_ble_eq_true rfl⟩) fb
  | ⟨49, _⟩ => landedJ c (s1B_49 c tb htb i h1) (rowM scB s ⟨49, Nat.le_of_ble_eq_true rfl⟩) fb
  | ⟨50, _⟩ => landedJ c (s1B_50 c tb htb i h1) (rowM scB s ⟨50, Nat.le_of_ble_eq_true rfl⟩) fb
  | ⟨51, _⟩ => landedJ c (s1B_51 c tb htb i h1) (rowM scB s ⟨51, Nat.le_of_ble_eq_true rfl⟩) fb
  | ⟨52, _⟩ => landedJ c (s1B_52 c tb htb i h1) (rowM scB s ⟨52, Nat.le_of_ble_eq_true rfl⟩) fb
  | ⟨53, _⟩ => landedJ c (s1B_53 c tb htb i h1) (rowM scB s ⟨53, Nat.le_of_ble_eq_true rfl⟩) fb
  | ⟨54, _⟩ => landedJ c (s1B_54 c tb htb i h1) (rowM scB s ⟨54, Nat.le_of_ble_eq_true rfl⟩) fb
  | ⟨55, _⟩ => landedJ c (s1B_55 c tb htb i h1) (rowM scB s ⟨55, Nat.le_of_ble_eq_true rfl⟩) fb
  | ⟨56, _⟩ => landedJ c (s1B_56 c tb htb i h1) (rowM scB s ⟨56, Nat.le_of_ble_eq_true rfl⟩) fb
  | ⟨57, _⟩ => landedJ c (s1B_57 c tb htb i h1) (rowM scB s ⟨57, Nat.le_of_ble_eq_true rfl⟩) fb
  | ⟨58, _⟩ => landedJ c (s1B_58 c tb htb i h1) (rowM scB s ⟨58, Nat.le_of_ble_eq_true rfl⟩) fb
  | ⟨59, _⟩ => landedJ c (s1B_59 c tb htb i h1) (rowM scB s ⟨59, Nat.le_of_ble_eq_true rfl⟩) fb
  | ⟨60, _⟩ => landedJ c (s1B_60 c tb htb i h1) (rowM scB s ⟨60, Nat.le_of_ble_eq_true rfl⟩) fb
  | ⟨61, _⟩ => landedJ c (s1B_61 c tb htb i h1) (rowM scB s ⟨61, Nat.le_of_ble_eq_true rfl⟩) fb
  | ⟨62, _⟩ => landedJ c (s1B_62 c tb htb i h1) (rowM scB s ⟨62, Nat.le_of_ble_eq_true rfl⟩) fb
  | ⟨63, _⟩ => landedJ c (s1B_63 c tb htb i h1) (rowM scB s ⟨63, Nat.le_of_ble_eq_true rfl⟩) fb
  | ⟨_ + 64, h⟩ => absurd h (Nat.not_lt.2 (Nat.le_add_left _ _))
/-- The row numbers the 64 copies of fetch 1 read: the table's words, as naturals. -/
def N1 (i : grid0.Coords) (h1 : k0_cond1 i = 1#1) : Fin 64 → ℕ
  | ⟨0, _⟩ => (W1_0 c tb i h1).toNat
  | ⟨1, _⟩ => (W1_1 c tb i h1).toNat
  | ⟨2, _⟩ => (W1_2 c tb i h1).toNat
  | ⟨3, _⟩ => (W1_3 c tb i h1).toNat
  | ⟨4, _⟩ => (W1_4 c tb i h1).toNat
  | ⟨5, _⟩ => (W1_5 c tb i h1).toNat
  | ⟨6, _⟩ => (W1_6 c tb i h1).toNat
  | ⟨7, _⟩ => (W1_7 c tb i h1).toNat
  | ⟨8, _⟩ => (W1_8 c tb i h1).toNat
  | ⟨9, _⟩ => (W1_9 c tb i h1).toNat
  | ⟨10, _⟩ => (W1_10 c tb i h1).toNat
  | ⟨11, _⟩ => (W1_11 c tb i h1).toNat
  | ⟨12, _⟩ => (W1_12 c tb i h1).toNat
  | ⟨13, _⟩ => (W1_13 c tb i h1).toNat
  | ⟨14, _⟩ => (W1_14 c tb i h1).toNat
  | ⟨15, _⟩ => (W1_15 c tb i h1).toNat
  | ⟨16, _⟩ => (W1_16 c tb i h1).toNat
  | ⟨17, _⟩ => (W1_17 c tb i h1).toNat
  | ⟨18, _⟩ => (W1_18 c tb i h1).toNat
  | ⟨19, _⟩ => (W1_19 c tb i h1).toNat
  | ⟨20, _⟩ => (W1_20 c tb i h1).toNat
  | ⟨21, _⟩ => (W1_21 c tb i h1).toNat
  | ⟨22, _⟩ => (W1_22 c tb i h1).toNat
  | ⟨23, _⟩ => (W1_23 c tb i h1).toNat
  | ⟨24, _⟩ => (W1_24 c tb i h1).toNat
  | ⟨25, _⟩ => (W1_25 c tb i h1).toNat
  | ⟨26, _⟩ => (W1_26 c tb i h1).toNat
  | ⟨27, _⟩ => (W1_27 c tb i h1).toNat
  | ⟨28, _⟩ => (W1_28 c tb i h1).toNat
  | ⟨29, _⟩ => (W1_29 c tb i h1).toNat
  | ⟨30, _⟩ => (W1_30 c tb i h1).toNat
  | ⟨31, _⟩ => (W1_31 c tb i h1).toNat
  | ⟨32, _⟩ => (W1_32 c tb i h1).toNat
  | ⟨33, _⟩ => (W1_33 c tb i h1).toNat
  | ⟨34, _⟩ => (W1_34 c tb i h1).toNat
  | ⟨35, _⟩ => (W1_35 c tb i h1).toNat
  | ⟨36, _⟩ => (W1_36 c tb i h1).toNat
  | ⟨37, _⟩ => (W1_37 c tb i h1).toNat
  | ⟨38, _⟩ => (W1_38 c tb i h1).toNat
  | ⟨39, _⟩ => (W1_39 c tb i h1).toNat
  | ⟨40, _⟩ => (W1_40 c tb i h1).toNat
  | ⟨41, _⟩ => (W1_41 c tb i h1).toNat
  | ⟨42, _⟩ => (W1_42 c tb i h1).toNat
  | ⟨43, _⟩ => (W1_43 c tb i h1).toNat
  | ⟨44, _⟩ => (W1_44 c tb i h1).toNat
  | ⟨45, _⟩ => (W1_45 c tb i h1).toNat
  | ⟨46, _⟩ => (W1_46 c tb i h1).toNat
  | ⟨47, _⟩ => (W1_47 c tb i h1).toNat
  | ⟨48, _⟩ => (W1_48 c tb i h1).toNat
  | ⟨49, _⟩ => (W1_49 c tb i h1).toNat
  | ⟨50, _⟩ => (W1_50 c tb i h1).toNat
  | ⟨51, _⟩ => (W1_51 c tb i h1).toNat
  | ⟨52, _⟩ => (W1_52 c tb i h1).toNat
  | ⟨53, _⟩ => (W1_53 c tb i h1).toNat
  | ⟨54, _⟩ => (W1_54 c tb i h1).toNat
  | ⟨55, _⟩ => (W1_55 c tb i h1).toNat
  | ⟨56, _⟩ => (W1_56 c tb i h1).toNat
  | ⟨57, _⟩ => (W1_57 c tb i h1).toNat
  | ⟨58, _⟩ => (W1_58 c tb i h1).toNat
  | ⟨59, _⟩ => (W1_59 c tb i h1).toNat
  | ⟨60, _⟩ => (W1_60 c tb i h1).toNat
  | ⟨61, _⟩ => (W1_61 c tb i h1).toNat
  | ⟨62, _⟩ => (W1_62 c tb i h1).toNat
  | ⟨63, _⟩ => (W1_63 c tb i h1).toNat
  | ⟨_ + 64, h⟩ => absurd h (Nat.not_lt.2 (Nat.le_add_left _ _))
abbrev W2_0 (i : grid0.Coords) (h2 : k0_cond2 i = 1#1) : Elt F .i32 := wordAt c tb (k0_off194 i) (k0_off194_inb i h2)
theorem hw2_0 (htb : ∀ y, (tb y).toNat < 4096) (i : grid0.Coords) (h2 : k0_cond2 i = 1#1) : k0_chk65 i (W2_0 c tb i h2) := fun _ => rows_inb _ (word_lt c tb htb _ _)
abbrev s2A_0 (htb : ∀ y, (tb y).toNat < 4096) (i : grid0.Coords) (h2 : k0_cond2 i = 1#1) : Memref sig .tc .hbm S8x1024 .f32 := srcM aM (k0_off197 (W2_0 c tb i h2)) (k0_off197_inb i _ (hw2_0 c tb htb i h2) h2)
abbrev s2B_0 (htb : ∀ y, (tb y).toNat < 4096) (i : grid0.Coords) (h2 : k0_cond2 i = 1#1) : Memref sig .tc .hbm S8x1024 .f32 := srcM bM (k0_off197 (W2_0 c tb i h2)) (k0_off197_inb i _ (hw2_0 c tb htb i h2) h2)
abbrev W2_1 (i : grid0.Coords) (h2 : k0_cond2 i = 1#1) : Elt F .i32 := wordAt c tb (k0_off200 i) (k0_off200_inb i h2)
theorem hw2_1 (htb : ∀ y, (tb y).toNat < 4096) (i : grid0.Coords) (h2 : k0_cond2 i = 1#1) : k0_chk66 i (W2_1 c tb i h2) := fun _ => rows_inb _ (word_lt c tb htb _ _)
abbrev s2A_1 (htb : ∀ y, (tb y).toNat < 4096) (i : grid0.Coords) (h2 : k0_cond2 i = 1#1) : Memref sig .tc .hbm S8x1024 .f32 := srcM aM (k0_off202 (W2_1 c tb i h2)) (k0_off202_inb i _ (hw2_1 c tb htb i h2) h2)
abbrev s2B_1 (htb : ∀ y, (tb y).toNat < 4096) (i : grid0.Coords) (h2 : k0_cond2 i = 1#1) : Memref sig .tc .hbm S8x1024 .f32 := srcM bM (k0_off202 (W2_1 c tb i h2)) (k0_off202_inb i _ (hw2_1 c tb htb i h2) h2)
abbrev W2_2 (i : grid0.Coords) (h2 : k0_cond2 i = 1#1) : Elt F .i32 := wordAt c tb (k0_off205 i) (k0_off205_inb i h2)
theorem hw2_2 (htb : ∀ y, (tb y).toNat < 4096) (i : grid0.Coords) (h2 : k0_cond2 i = 1#1) : k0_chk67 i (W2_2 c tb i h2) := fun _ => rows_inb _ (word_lt c tb htb _ _)
abbrev s2A_2 (htb : ∀ y, (tb y).toNat < 4096) (i : grid0.Coords) (h2 : k0_cond2 i = 1#1) : Memref sig .tc .hbm S8x1024 .f32 := srcM aM (k0_off207 (W2_2 c tb i h2)) (k0_off207_inb i _ (hw2_2 c tb htb i h2) h2)
abbrev s2B_2 (htb : ∀ y, (tb y).toNat < 4096) (i : grid0.Coords) (h2 : k0_cond2 i = 1#1) : Memref sig .tc .hbm S8x1024 .f32 := srcM bM (k0_off207 (W2_2 c tb i h2)) (k0_off207_inb i _ (hw2_2 c tb htb i h2) h2)
abbrev W2_3 (i : grid0.Coords) (h2 : k0_cond2 i = 1#1) : Elt F .i32 := wordAt c tb (k0_off210 i) (k0_off210_inb i h2)
theorem hw2_3 (htb : ∀ y, (tb y).toNat < 4096) (i : grid0.Coords) (h2 : k0_cond2 i = 1#1) : k0_chk68 i (W2_3 c tb i h2) := fun _ => rows_inb _ (word_lt c tb htb _ _)
abbrev s2A_3 (htb : ∀ y, (tb y).toNat < 4096) (i : grid0.Coords) (h2 : k0_cond2 i = 1#1) : Memref sig .tc .hbm S8x1024 .f32 := srcM aM (k0_off212 (W2_3 c tb i h2)) (k0_off212_inb i _ (hw2_3 c tb htb i h2) h2)
abbrev s2B_3 (htb : ∀ y, (tb y).toNat < 4096) (i : grid0.Coords) (h2 : k0_cond2 i = 1#1) : Memref sig .tc .hbm S8x1024 .f32 := srcM bM (k0_off212 (W2_3 c tb i h2)) (k0_off212_inb i _ (hw2_3 c tb htb i h2) h2)
abbrev W2_4 (i : grid0.Coords) (h2 : k0_cond2 i = 1#1) : Elt F .i32 := wordAt c tb (k0_off215 i) (k0_off215_inb i h2)
theorem hw2_4 (htb : ∀ y, (tb y).toNat < 4096) (i : grid0.Coords) (h2 : k0_cond2 i = 1#1) : k0_chk69 i (W2_4 c tb i h2) := fun _ => rows_inb _ (word_lt c tb htb _ _)
abbrev s2A_4 (htb : ∀ y, (tb y).toNat < 4096) (i : grid0.Coords) (h2 : k0_cond2 i = 1#1) : Memref sig .tc .hbm S8x1024 .f32 := srcM aM (k0_off217 (W2_4 c tb i h2)) (k0_off217_inb i _ (hw2_4 c tb htb i h2) h2)
abbrev s2B_4 (htb : ∀ y, (tb y).toNat < 4096) (i : grid0.Coords) (h2 : k0_cond2 i = 1#1) : Memref sig .tc .hbm S8x1024 .f32 := srcM bM (k0_off217 (W2_4 c tb i h2)) (k0_off217_inb i _ (hw2_4 c tb htb i h2) h2)
abbrev W2_5 (i : grid0.Coords) (h2 : k0_cond2 i = 1#1) : Elt F .i32 := wordAt c tb (k0_off220 i) (k0_off220_inb i h2)
theorem hw2_5 (htb : ∀ y, (tb y).toNat < 4096) (i : grid0.Coords) (h2 : k0_cond2 i = 1#1) : k0_chk70 i (W2_5 c tb i h2) := fun _ => rows_inb _ (word_lt c tb htb _ _)
abbrev s2A_5 (htb : ∀ y, (tb y).toNat < 4096) (i : grid0.Coords) (h2 : k0_cond2 i = 1#1) : Memref sig .tc .hbm S8x1024 .f32 := srcM aM (k0_off222 (W2_5 c tb i h2)) (k0_off222_inb i _ (hw2_5 c tb htb i h2) h2)
abbrev s2B_5 (htb : ∀ y, (tb y).toNat < 4096) (i : grid0.Coords) (h2 : k0_cond2 i = 1#1) : Memref sig .tc .hbm S8x1024 .f32 := srcM bM (k0_off222 (W2_5 c tb i h2)) (k0_off222_inb i _ (hw2_5 c tb htb i h2) h2)
abbrev W2_6 (i : grid0.Coords) (h2 : k0_cond2 i = 1#1) : Elt F .i32 := wordAt c tb (k0_off225 i) (k0_off225_inb i h2)
theorem hw2_6 (htb : ∀ y, (tb y).toNat < 4096) (i : grid0.Coords) (h2 : k0_cond2 i = 1#1) : k0_chk71 i (W2_6 c tb i h2) := fun _ => rows_inb _ (word_lt c tb htb _ _)
abbrev s2A_6 (htb : ∀ y, (tb y).toNat < 4096) (i : grid0.Coords) (h2 : k0_cond2 i = 1#1) : Memref sig .tc .hbm S8x1024 .f32 := srcM aM (k0_off227 (W2_6 c tb i h2)) (k0_off227_inb i _ (hw2_6 c tb htb i h2) h2)
abbrev s2B_6 (htb : ∀ y, (tb y).toNat < 4096) (i : grid0.Coords) (h2 : k0_cond2 i = 1#1) : Memref sig .tc .hbm S8x1024 .f32 := srcM bM (k0_off227 (W2_6 c tb i h2)) (k0_off227_inb i _ (hw2_6 c tb htb i h2) h2)
abbrev W2_7 (i : grid0.Coords) (h2 : k0_cond2 i = 1#1) : Elt F .i32 := wordAt c tb (k0_off230 i) (k0_off230_inb i h2)
theorem hw2_7 (htb : ∀ y, (tb y).toNat < 4096) (i : grid0.Coords) (h2 : k0_cond2 i = 1#1) : k0_chk72 i (W2_7 c tb i h2) := fun _ => rows_inb _ (word_lt c tb htb _ _)
abbrev s2A_7 (htb : ∀ y, (tb y).toNat < 4096) (i : grid0.Coords) (h2 : k0_cond2 i = 1#1) : Memref sig .tc .hbm S8x1024 .f32 := srcM aM (k0_off232 (W2_7 c tb i h2)) (k0_off232_inb i _ (hw2_7 c tb htb i h2) h2)
abbrev s2B_7 (htb : ∀ y, (tb y).toNat < 4096) (i : grid0.Coords) (h2 : k0_cond2 i = 1#1) : Memref sig .tc .hbm S8x1024 .f32 := srcM bM (k0_off232 (W2_7 c tb i h2)) (k0_off232_inb i _ (hw2_7 c tb htb i h2) h2)
abbrev W2_8 (i : grid0.Coords) (h2 : k0_cond2 i = 1#1) : Elt F .i32 := wordAt c tb (k0_off235 i) (k0_off235_inb i h2)
theorem hw2_8 (htb : ∀ y, (tb y).toNat < 4096) (i : grid0.Coords) (h2 : k0_cond2 i = 1#1) : k0_chk73 i (W2_8 c tb i h2) := fun _ => rows_inb _ (word_lt c tb htb _ _)
abbrev s2A_8 (htb : ∀ y, (tb y).toNat < 4096) (i : grid0.Coords) (h2 : k0_cond2 i = 1#1) : Memref sig .tc .hbm S8x1024 .f32 := srcM aM (k0_off237 (W2_8 c tb i h2)) (k0_off237_inb i _ (hw2_8 c tb htb i h2) h2)
abbrev s2B_8 (htb : ∀ y, (tb y).toNat < 4096) (i : grid0.Coords) (h2 : k0_cond2 i = 1#1) : Memref sig .tc .hbm S8x1024 .f32 := srcM bM (k0_off237 (W2_8 c tb i h2)) (k0_off237_inb i _ (hw2_8 c tb htb i h2) h2)
abbrev W2_9 (i : grid0.Coords) (h2 : k0_cond2 i = 1#1) : Elt F .i32 := wordAt c tb (k0_off240 i) (k0_off240_inb i h2)
theorem hw2_9 (htb : ∀ y, (tb y).toNat < 4096) (i : grid0.Coords) (h2 : k0_cond2 i = 1#1) : k0_chk74 i (W2_9 c tb i h2) := fun _ => rows_inb _ (word_lt c tb htb _ _)
abbrev s2A_9 (htb : ∀ y, (tb y).toNat < 4096) (i : grid0.Coords) (h2 : k0_cond2 i = 1#1) : Memref sig .tc .hbm S8x1024 .f32 := srcM aM (k0_off242 (W2_9 c tb i h2)) (k0_off242_inb i _ (hw2_9 c tb htb i h2) h2)
abbrev s2B_9 (htb : ∀ y, (tb y).toNat < 4096) (i : grid0.Coords) (h2 : k0_cond2 i = 1#1) : Memref sig .tc .hbm S8x1024 .f32 := srcM bM (k0_off242 (W2_9 c tb i h2)) (k0_off242_inb i _ (hw2_9 c tb htb i h2) h2)
abbrev W2_10 (i : grid0.Coords) (h2 : k0_cond2 i = 1#1) : Elt F .i32 := wordAt c tb (k0_off245 i) (k0_off245_inb i h2)
theorem hw2_10 (htb : ∀ y, (tb y).toNat < 4096) (i : grid0.Coords) (h2 : k0_cond2 i = 1#1) : k0_chk75 i (W2_10 c tb i h2) := fun _ => rows_inb _ (word_lt c tb htb _ _)
abbrev s2A_10 (htb : ∀ y, (tb y).toNat < 4096) (i : grid0.Coords) (h2 : k0_cond2 i = 1#1) : Memref sig .tc .hbm S8x1024 .f32 := srcM aM (k0_off247 (W2_10 c tb i h2)) (k0_off247_inb i _ (hw2_10 c tb htb i h2) h2)
abbrev s2B_10 (htb : ∀ y, (tb y).toNat < 4096) (i : grid0.Coords) (h2 : k0_cond2 i = 1#1) : Memref sig .tc .hbm S8x1024 .f32 := srcM bM (k0_off247 (W2_10 c tb i h2)) (k0_off247_inb i _ (hw2_10 c tb htb i h2) h2)
abbrev W2_11 (i : grid0.Coords) (h2 : k0_cond2 i = 1#1) : Elt F .i32 := wordAt c tb (k0_off250 i) (k0_off250_inb i h2)
theorem hw2_11 (htb : ∀ y, (tb y).toNat < 4096) (i : grid0.Coords) (h2 : k0_cond2 i = 1#1) : k0_chk76 i (W2_11 c tb i h2) := fun _ => rows_inb _ (word_lt c tb htb _ _)
abbrev s2A_11 (htb : ∀ y, (tb y).toNat < 4096) (i : grid0.Coords) (h2 : k0_cond2 i = 1#1) : Memref sig .tc .hbm S8x1024 .f32 := srcM aM (k0_off252 (W2_11 c tb i h2)) (k0_off252_inb i _ (hw2_11 c tb htb i h2) h2)
abbrev s2B_11 (htb : ∀ y, (tb y).toNat < 4096) (i : grid0.Coords) (h2 : k0_cond2 i = 1#1) : Memref sig .tc .hbm S8x1024 .f32 := srcM bM (k0_off252 (W2_11 c tb i h2)) (k0_off252_inb i _ (hw2_11 c tb htb i h2) h2)
abbrev W2_12 (i : grid0.Coords) (h2 : k0_cond2 i = 1#1) : Elt F .i32 := wordAt c tb (k0_off255 i) (k0_off255_inb i h2)
theorem hw2_12 (htb : ∀ y, (tb y).toNat < 4096) (i : grid0.Coords) (h2 : k0_cond2 i = 1#1) : k0_chk77 i (W2_12 c tb i h2) := fun _ => rows_inb _ (word_lt c tb htb _ _)
abbrev s2A_12 (htb : ∀ y, (tb y).toNat < 4096) (i : grid0.Coords) (h2 : k0_cond2 i = 1#1) : Memref sig .tc .hbm S8x1024 .f32 := srcM aM (k0_off257 (W2_12 c tb i h2)) (k0_off257_inb i _ (hw2_12 c tb htb i h2) h2)
abbrev s2B_12 (htb : ∀ y, (tb y).toNat < 4096) (i : grid0.Coords) (h2 : k0_cond2 i = 1#1) : Memref sig .tc .hbm S8x1024 .f32 := srcM bM (k0_off257 (W2_12 c tb i h2)) (k0_off257_inb i _ (hw2_12 c tb htb i h2) h2)
abbrev W2_13 (i : grid0.Coords) (h2 : k0_cond2 i = 1#1) : Elt F .i32 := wordAt c tb (k0_off260 i) (k0_off260_inb i h2)
theorem hw2_13 (htb : ∀ y, (tb y).toNat < 4096) (i : grid0.Coords) (h2 : k0_cond2 i = 1#1) : k0_chk78 i (W2_13 c tb i h2) := fun _ => rows_inb _ (word_lt c tb htb _ _)
abbrev s2A_13 (htb : ∀ y, (tb y).toNat < 4096) (i : grid0.Coords) (h2 : k0_cond2 i = 1#1) : Memref sig .tc .hbm S8x1024 .f32 := srcM aM (k0_off262 (W2_13 c tb i h2)) (k0_off262_inb i _ (hw2_13 c tb htb i h2) h2)
abbrev s2B_13 (htb : ∀ y, (tb y).toNat < 4096) (i : grid0.Coords) (h2 : k0_cond2 i = 1#1) : Memref sig .tc .hbm S8x1024 .f32 := srcM bM (k0_off262 (W2_13 c tb i h2)) (k0_off262_inb i _ (hw2_13 c tb htb i h2) h2)
abbrev W2_14 (i : grid0.Coords) (h2 : k0_cond2 i = 1#1) : Elt F .i32 := wordAt c tb (k0_off265 i) (k0_off265_inb i h2)
theorem hw2_14 (htb : ∀ y, (tb y).toNat < 4096) (i : grid0.Coords) (h2 : k0_cond2 i = 1#1) : k0_chk79 i (W2_14 c tb i h2) := fun _ => rows_inb _ (word_lt c tb htb _ _)
abbrev s2A_14 (htb : ∀ y, (tb y).toNat < 4096) (i : grid0.Coords) (h2 : k0_cond2 i = 1#1) : Memref sig .tc .hbm S8x1024 .f32 := srcM aM (k0_off267 (W2_14 c tb i h2)) (k0_off267_inb i _ (hw2_14 c tb htb i h2) h2)
abbrev s2B_14 (htb : ∀ y, (tb y).toNat < 4096) (i : grid0.Coords) (h2 : k0_cond2 i = 1#1) : Memref sig .tc .hbm S8x1024 .f32 := srcM bM (k0_off267 (W2_14 c tb i h2)) (k0_off267_inb i _ (hw2_14 c tb htb i h2) h2)
abbrev W2_15 (i : grid0.Coords) (h2 : k0_cond2 i = 1#1) : Elt F .i32 := wordAt c tb (k0_off270 i) (k0_off270_inb i h2)
theorem hw2_15 (htb : ∀ y, (tb y).toNat < 4096) (i : grid0.Coords) (h2 : k0_cond2 i = 1#1) : k0_chk80 i (W2_15 c tb i h2) := fun _ => rows_inb _ (word_lt c tb htb _ _)
abbrev s2A_15 (htb : ∀ y, (tb y).toNat < 4096) (i : grid0.Coords) (h2 : k0_cond2 i = 1#1) : Memref sig .tc .hbm S8x1024 .f32 := srcM aM (k0_off272 (W2_15 c tb i h2)) (k0_off272_inb i _ (hw2_15 c tb htb i h2) h2)
abbrev s2B_15 (htb : ∀ y, (tb y).toNat < 4096) (i : grid0.Coords) (h2 : k0_cond2 i = 1#1) : Memref sig .tc .hbm S8x1024 .f32 := srcM bM (k0_off272 (W2_15 c tb i h2)) (k0_off272_inb i _ (hw2_15 c tb htb i h2) h2)
abbrev W2_16 (i : grid0.Coords) (h2 : k0_cond2 i = 1#1) : Elt F .i32 := wordAt c tb (k0_off275 i) (k0_off275_inb i h2)
theorem hw2_16 (htb : ∀ y, (tb y).toNat < 4096) (i : grid0.Coords) (h2 : k0_cond2 i = 1#1) : k0_chk81 i (W2_16 c tb i h2) := fun _ => rows_inb _ (word_lt c tb htb _ _)
abbrev s2A_16 (htb : ∀ y, (tb y).toNat < 4096) (i : grid0.Coords) (h2 : k0_cond2 i = 1#1) : Memref sig .tc .hbm S8x1024 .f32 := srcM aM (k0_off277 (W2_16 c tb i h2)) (k0_off277_inb i _ (hw2_16 c tb htb i h2) h2)
abbrev s2B_16 (htb : ∀ y, (tb y).toNat < 4096) (i : grid0.Coords) (h2 : k0_cond2 i = 1#1) : Memref sig .tc .hbm S8x1024 .f32 := srcM bM (k0_off277 (W2_16 c tb i h2)) (k0_off277_inb i _ (hw2_16 c tb htb i h2) h2)
abbrev W2_17 (i : grid0.Coords) (h2 : k0_cond2 i = 1#1) : Elt F .i32 := wordAt c tb (k0_off280 i) (k0_off280_inb i h2)
theorem hw2_17 (htb : ∀ y, (tb y).toNat < 4096) (i : grid0.Coords) (h2 : k0_cond2 i = 1#1) : k0_chk82 i (W2_17 c tb i h2) := fun _ => rows_inb _ (word_lt c tb htb _ _)
abbrev s2A_17 (htb : ∀ y, (tb y).toNat < 4096) (i : grid0.Coords) (h2 : k0_cond2 i = 1#1) : Memref sig .tc .hbm S8x1024 .f32 := srcM aM (k0_off282 (W2_17 c tb i h2)) (k0_off282_inb i _ (hw2_17 c tb htb i h2) h2)
abbrev s2B_17 (htb : ∀ y, (tb y).toNat < 4096) (i : grid0.Coords) (h2 : k0_cond2 i = 1#1) : Memref sig .tc .hbm S8x1024 .f32 := srcM bM (k0_off282 (W2_17 c tb i h2)) (k0_off282_inb i _ (hw2_17 c tb htb i h2) h2)
abbrev W2_18 (i : grid0.Coords) (h2 : k0_cond2 i = 1#1) : Elt F .i32 := wordAt c tb (k0_off285 i) (k0_off285_inb i h2)
theorem hw2_18 (htb : ∀ y, (tb y).toNat < 4096) (i : grid0.Coords) (h2 : k0_cond2 i = 1#1) : k0_chk83 i (W2_18 c tb i h2) := fun _ => rows_inb _ (word_lt c tb htb _ _)
abbrev s2A_18 (htb : ∀ y, (tb y).toNat < 4096) (i : grid0.Coords) (h2 : k0_cond2 i = 1#1) : Memref sig .tc .hbm S8x1024 .f32 := srcM aM (k0_off287 (W2_18 c tb i h2)) (k0_off287_inb i _ (hw2_18 c tb htb i h2) h2)
abbrev s2B_18 (htb : ∀ y, (tb y).toNat < 4096) (i : grid0.Coords) (h2 : k0_cond2 i = 1#1) : Memref sig .tc .hbm S8x1024 .f32 := srcM bM (k0_off287 (W2_18 c tb i h2)) (k0_off287_inb i _ (hw2_18 c tb htb i h2) h2)
abbrev W2_19 (i : grid0.Coords) (h2 : k0_cond2 i = 1#1) : Elt F .i32 := wordAt c tb (k0_off290 i) (k0_off290_inb i h2)
theorem hw2_19 (htb : ∀ y, (tb y).toNat < 4096) (i : grid0.Coords) (h2 : k0_cond2 i = 1#1) : k0_chk84 i (W2_19 c tb i h2) := fun _ => rows_inb _ (word_lt c tb htb _ _)
abbrev s2A_19 (htb : ∀ y, (tb y).toNat < 4096) (i : grid0.Coords) (h2 : k0_cond2 i = 1#1) : Memref sig .tc .hbm S8x1024 .f32 := srcM aM (k0_off292 (W2_19 c tb i h2)) (k0_off292_inb i _ (hw2_19 c tb htb i h2) h2)
abbrev s2B_19 (htb : ∀ y, (tb y).toNat < 4096) (i : grid0.Coords) (h2 : k0_cond2 i = 1#1) : Memref sig .tc .hbm S8x1024 .f32 := srcM bM (k0_off292 (W2_19 c tb i h2)) (k0_off292_inb i _ (hw2_19 c tb htb i h2) h2)
abbrev W2_20 (i : grid0.Coords) (h2 : k0_cond2 i = 1#1) : Elt F .i32 := wordAt c tb (k0_off295 i) (k0_off295_inb i h2)
theorem hw2_20 (htb : ∀ y, (tb y).toNat < 4096) (i : grid0.Coords) (h2 : k0_cond2 i = 1#1) : k0_chk85 i (W2_20 c tb i h2) := fun _ => rows_inb _ (word_lt c tb htb _ _)
abbrev s2A_20 (htb : ∀ y, (tb y).toNat < 4096) (i : grid0.Coords) (h2 : k0_cond2 i = 1#1) : Memref sig .tc .hbm S8x1024 .f32 := srcM aM (k0_off297 (W2_20 c tb i h2)) (k0_off297_inb i _ (hw2_20 c tb htb i h2) h2)
abbrev s2B_20 (htb : ∀ y, (tb y).toNat < 4096) (i : grid0.Coords) (h2 : k0_cond2 i = 1#1) : Memref sig .tc .hbm S8x1024 .f32 := srcM bM (k0_off297 (W2_20 c tb i h2)) (k0_off297_inb i _ (hw2_20 c tb htb i h2) h2)
abbrev W2_21 (i : grid0.Coords) (h2 : k0_cond2 i = 1#1) : Elt F .i32 := wordAt c tb (k0_off300 i) (k0_off300_inb i h2)
theorem hw2_21 (htb : ∀ y, (tb y).toNat < 4096) (i : grid0.Coords) (h2 : k0_cond2 i = 1#1) : k0_chk86 i (W2_21 c tb i h2) := fun _ => rows_inb _ (word_lt c tb htb _ _)
abbrev s2A_21 (htb : ∀ y, (tb y).toNat < 4096) (i : grid0.Coords) (h2 : k0_cond2 i = 1#1) : Memref sig .tc .hbm S8x1024 .f32 := srcM aM (k0_off302 (W2_21 c tb i h2)) (k0_off302_inb i _ (hw2_21 c tb htb i h2) h2)
abbrev s2B_21 (htb : ∀ y, (tb y).toNat < 4096) (i : grid0.Coords) (h2 : k0_cond2 i = 1#1) : Memref sig .tc .hbm S8x1024 .f32 := srcM bM (k0_off302 (W2_21 c tb i h2)) (k0_off302_inb i _ (hw2_21 c tb htb i h2) h2)
abbrev W2_22 (i : grid0.Coords) (h2 : k0_cond2 i = 1#1) : Elt F .i32 := wordAt c tb (k0_off305 i) (k0_off305_inb i h2)
theorem hw2_22 (htb : ∀ y, (tb y).toNat < 4096) (i : grid0.Coords) (h2 : k0_cond2 i = 1#1) : k0_chk87 i (W2_22 c tb i h2) := fun _ => rows_inb _ (word_lt c tb htb _ _)
abbrev s2A_22 (htb : ∀ y, (tb y).toNat < 4096) (i : grid0.Coords) (h2 : k0_cond2 i = 1#1) : Memref sig .tc .hbm S8x1024 .f32 := srcM aM (k0_off307 (W2_22 c tb i h2)) (k0_off307_inb i _ (hw2_22 c tb htb i h2) h2)
abbrev s2B_22 (htb : ∀ y, (tb y).toNat < 4096) (i : grid0.Coords) (h2 : k0_cond2 i = 1#1) : Memref sig .tc .hbm S8x1024 .f32 := srcM bM (k0_off307 (W2_22 c tb i h2)) (k0_off307_inb i _ (hw2_22 c tb htb i h2) h2)
abbrev W2_23 (i : grid0.Coords) (h2 : k0_cond2 i = 1#1) : Elt F .i32 := wordAt c tb (k0_off310 i) (k0_off310_inb i h2)
theorem hw2_23 (htb : ∀ y, (tb y).toNat < 4096) (i : grid0.Coords) (h2 : k0_cond2 i = 1#1) : k0_chk88 i (W2_23 c tb i h2) := fun _ => rows_inb _ (word_lt c tb htb _ _)
abbrev s2A_23 (htb : ∀ y, (tb y).toNat < 4096) (i : grid0.Coords) (h2 : k0_cond2 i = 1#1) : Memref sig .tc .hbm S8x1024 .f32 := srcM aM (k0_off312 (W2_23 c tb i h2)) (k0_off312_inb i _ (hw2_23 c tb htb i h2) h2)
abbrev s2B_23 (htb : ∀ y, (tb y).toNat < 4096) (i : grid0.Coords) (h2 : k0_cond2 i = 1#1) : Memref sig .tc .hbm S8x1024 .f32 := srcM bM (k0_off312 (W2_23 c tb i h2)) (k0_off312_inb i _ (hw2_23 c tb htb i h2) h2)
abbrev W2_24 (i : grid0.Coords) (h2 : k0_cond2 i = 1#1) : Elt F .i32 := wordAt c tb (k0_off315 i) (k0_off315_inb i h2)
theorem hw2_24 (htb : ∀ y, (tb y).toNat < 4096) (i : grid0.Coords) (h2 : k0_cond2 i = 1#1) : k0_chk89 i (W2_24 c tb i h2) := fun _ => rows_inb _ (word_lt c tb htb _ _)
abbrev s2A_24 (htb : ∀ y, (tb y).toNat < 4096) (i : grid0.Coords) (h2 : k0_cond2 i = 1#1) : Memref sig .tc .hbm S8x1024 .f32 := srcM aM (k0_off317 (W2_24 c tb i h2)) (k0_off317_inb i _ (hw2_24 c tb htb i h2) h2)
abbrev s2B_24 (htb : ∀ y, (tb y).toNat < 4096) (i : grid0.Coords) (h2 : k0_cond2 i = 1#1) : Memref sig .tc .hbm S8x1024 .f32 := srcM bM (k0_off317 (W2_24 c tb i h2)) (k0_off317_inb i _ (hw2_24 c tb htb i h2) h2)
abbrev W2_25 (i : grid0.Coords) (h2 : k0_cond2 i = 1#1) : Elt F .i32 := wordAt c tb (k0_off320 i) (k0_off320_inb i h2)
theorem hw2_25 (htb : ∀ y, (tb y).toNat < 4096) (i : grid0.Coords) (h2 : k0_cond2 i = 1#1) : k0_chk90 i (W2_25 c tb i h2) := fun _ => rows_inb _ (word_lt c tb htb _ _)
abbrev s2A_25 (htb : ∀ y, (tb y).toNat < 4096) (i : grid0.Coords) (h2 : k0_cond2 i = 1#1) : Memref sig .tc .hbm S8x1024 .f32 := srcM aM (k0_off322 (W2_25 c tb i h2)) (k0_off322_inb i _ (hw2_25 c tb htb i h2) h2)
abbrev s2B_25 (htb : ∀ y, (tb y).toNat < 4096) (i : grid0.Coords) (h2 : k0_cond2 i = 1#1) : Memref sig .tc .hbm S8x1024 .f32 := srcM bM (k0_off322 (W2_25 c tb i h2)) (k0_off322_inb i _ (hw2_25 c tb htb i h2) h2)
abbrev W2_26 (i : grid0.Coords) (h2 : k0_cond2 i = 1#1) : Elt F .i32 := wordAt c tb (k0_off325 i) (k0_off325_inb i h2)
theorem hw2_26 (htb : ∀ y, (tb y).toNat < 4096) (i : grid0.Coords) (h2 : k0_cond2 i = 1#1) : k0_chk91 i (W2_26 c tb i h2) := fun _ => rows_inb _ (word_lt c tb htb _ _)
abbrev s2A_26 (htb : ∀ y, (tb y).toNat < 4096) (i : grid0.Coords) (h2 : k0_cond2 i = 1#1) : Memref sig .tc .hbm S8x1024 .f32 := srcM aM (k0_off327 (W2_26 c tb i h2)) (k0_off327_inb i _ (hw2_26 c tb htb i h2) h2)
abbrev s2B_26 (htb : ∀ y, (tb y).toNat < 4096) (i : grid0.Coords) (h2 : k0_cond2 i = 1#1) : Memref sig .tc .hbm S8x1024 .f32 := srcM bM (k0_off327 (W2_26 c tb i h2)) (k0_off327_inb i _ (hw2_26 c tb htb i h2) h2)
abbrev W2_27 (i : grid0.Coords) (h2 : k0_cond2 i = 1#1) : Elt F .i32 := wordAt c tb (k0_off330 i) (k0_off330_inb i h2)
theorem hw2_27 (htb : ∀ y, (tb y).toNat < 4096) (i : grid0.Coords) (h2 : k0_cond2 i = 1#1) : k0_chk92 i (W2_27 c tb i h2) := fun _ => rows_inb _ (word_lt c tb htb _ _)
abbrev s2A_27 (htb : ∀ y, (tb y).toNat < 4096) (i : grid0.Coords) (h2 : k0_cond2 i = 1#1) : Memref sig .tc .hbm S8x1024 .f32 := srcM aM (k0_off332 (W2_27 c tb i h2)) (k0_off332_inb i _ (hw2_27 c tb htb i h2) h2)
abbrev s2B_27 (htb : ∀ y, (tb y).toNat < 4096) (i : grid0.Coords) (h2 : k0_cond2 i = 1#1) : Memref sig .tc .hbm S8x1024 .f32 := srcM bM (k0_off332 (W2_27 c tb i h2)) (k0_off332_inb i _ (hw2_27 c tb htb i h2) h2)
abbrev W2_28 (i : grid0.Coords) (h2 : k0_cond2 i = 1#1) : Elt F .i32 := wordAt c tb (k0_off335 i) (k0_off335_inb i h2)
theorem hw2_28 (htb : ∀ y, (tb y).toNat < 4096) (i : grid0.Coords) (h2 : k0_cond2 i = 1#1) : k0_chk93 i (W2_28 c tb i h2) := fun _ => rows_inb _ (word_lt c tb htb _ _)
abbrev s2A_28 (htb : ∀ y, (tb y).toNat < 4096) (i : grid0.Coords) (h2 : k0_cond2 i = 1#1) : Memref sig .tc .hbm S8x1024 .f32 := srcM aM (k0_off337 (W2_28 c tb i h2)) (k0_off337_inb i _ (hw2_28 c tb htb i h2) h2)
abbrev s2B_28 (htb : ∀ y, (tb y).toNat < 4096) (i : grid0.Coords) (h2 : k0_cond2 i = 1#1) : Memref sig .tc .hbm S8x1024 .f32 := srcM bM (k0_off337 (W2_28 c tb i h2)) (k0_off337_inb i _ (hw2_28 c tb htb i h2) h2)
abbrev W2_29 (i : grid0.Coords) (h2 : k0_cond2 i = 1#1) : Elt F .i32 := wordAt c tb (k0_off340 i) (k0_off340_inb i h2)
theorem hw2_29 (htb : ∀ y, (tb y).toNat < 4096) (i : grid0.Coords) (h2 : k0_cond2 i = 1#1) : k0_chk94 i (W2_29 c tb i h2) := fun _ => rows_inb _ (word_lt c tb htb _ _)
abbrev s2A_29 (htb : ∀ y, (tb y).toNat < 4096) (i : grid0.Coords) (h2 : k0_cond2 i = 1#1) : Memref sig .tc .hbm S8x1024 .f32 := srcM aM (k0_off342 (W2_29 c tb i h2)) (k0_off342_inb i _ (hw2_29 c tb htb i h2) h2)
abbrev s2B_29 (htb : ∀ y, (tb y).toNat < 4096) (i : grid0.Coords) (h2 : k0_cond2 i = 1#1) : Memref sig .tc .hbm S8x1024 .f32 := srcM bM (k0_off342 (W2_29 c tb i h2)) (k0_off342_inb i _ (hw2_29 c tb htb i h2) h2)
abbrev W2_30 (i : grid0.Coords) (h2 : k0_cond2 i = 1#1) : Elt F .i32 := wordAt c tb (k0_off345 i) (k0_off345_inb i h2)
theorem hw2_30 (htb : ∀ y, (tb y).toNat < 4096) (i : grid0.Coords) (h2 : k0_cond2 i = 1#1) : k0_chk95 i (W2_30 c tb i h2) := fun _ => rows_inb _ (word_lt c tb htb _ _)
abbrev s2A_30 (htb : ∀ y, (tb y).toNat < 4096) (i : grid0.Coords) (h2 : k0_cond2 i = 1#1) : Memref sig .tc .hbm S8x1024 .f32 := srcM aM (k0_off347 (W2_30 c tb i h2)) (k0_off347_inb i _ (hw2_30 c tb htb i h2) h2)
abbrev s2B_30 (htb : ∀ y, (tb y).toNat < 4096) (i : grid0.Coords) (h2 : k0_cond2 i = 1#1) : Memref sig .tc .hbm S8x1024 .f32 := srcM bM (k0_off347 (W2_30 c tb i h2)) (k0_off347_inb i _ (hw2_30 c tb htb i h2) h2)
abbrev W2_31 (i : grid0.Coords) (h2 : k0_cond2 i = 1#1) : Elt F .i32 := wordAt c tb (k0_off350 i) (k0_off350_inb i h2)
theorem hw2_31 (htb : ∀ y, (tb y).toNat < 4096) (i : grid0.Coords) (h2 : k0_cond2 i = 1#1) : k0_chk96 i (W2_31 c tb i h2) := fun _ => rows_inb _ (word_lt c tb htb _ _)
abbrev s2A_31 (htb : ∀ y, (tb y).toNat < 4096) (i : grid0.Coords) (h2 : k0_cond2 i = 1#1) : Memref sig .tc .hbm S8x1024 .f32 := srcM aM (k0_off352 (W2_31 c tb i h2)) (k0_off352_inb i _ (hw2_31 c tb htb i h2) h2)
abbrev s2B_31 (htb : ∀ y, (tb y).toNat < 4096) (i : grid0.Coords) (h2 : k0_cond2 i = 1#1) : Memref sig .tc .hbm S8x1024 .f32 := srcM bM (k0_off352 (W2_31 c tb i h2)) (k0_off352_inb i _ (hw2_31 c tb htb i h2) h2)
abbrev W2_32 (i : grid0.Coords) (h2 : k0_cond2 i = 1#1) : Elt F .i32 := wordAt c tb (k0_off355 i) (k0_off355_inb i h2)
theorem hw2_32 (htb : ∀ y, (tb y).toNat < 4096) (i : grid0.Coords) (h2 : k0_cond2 i = 1#1) : k0_chk97 i (W2_32 c tb i h2) := fun _ => rows_inb _ (word_lt c tb htb _ _)
abbrev s2A_32 (htb : ∀ y, (tb y).toNat < 4096) (i : grid0.Coords) (h2 : k0_cond2 i = 1#1) : Memref sig .tc .hbm S8x1024 .f32 := srcM aM (k0_off357 (W2_32 c tb i h2)) (k0_off357_inb i _ (hw2_32 c tb htb i h2) h2)
abbrev s2B_32 (htb : ∀ y, (tb y).toNat < 4096) (i : grid0.Coords) (h2 : k0_cond2 i = 1#1) : Memref sig .tc .hbm S8x1024 .f32 := srcM bM (k0_off357 (W2_32 c tb i h2)) (k0_off357_inb i _ (hw2_32 c tb htb i h2) h2)
abbrev W2_33 (i : grid0.Coords) (h2 : k0_cond2 i = 1#1) : Elt F .i32 := wordAt c tb (k0_off360 i) (k0_off360_inb i h2)
theorem hw2_33 (htb : ∀ y, (tb y).toNat < 4096) (i : grid0.Coords) (h2 : k0_cond2 i = 1#1) : k0_chk98 i (W2_33 c tb i h2) := fun _ => rows_inb _ (word_lt c tb htb _ _)
abbrev s2A_33 (htb : ∀ y, (tb y).toNat < 4096) (i : grid0.Coords) (h2 : k0_cond2 i = 1#1) : Memref sig .tc .hbm S8x1024 .f32 := srcM aM (k0_off362 (W2_33 c tb i h2)) (k0_off362_inb i _ (hw2_33 c tb htb i h2) h2)
abbrev s2B_33 (htb : ∀ y, (tb y).toNat < 4096) (i : grid0.Coords) (h2 : k0_cond2 i = 1#1) : Memref sig .tc .hbm S8x1024 .f32 := srcM bM (k0_off362 (W2_33 c tb i h2)) (k0_off362_inb i _ (hw2_33 c tb htb i h2) h2)
abbrev W2_34 (i : grid0.Coords) (h2 : k0_cond2 i = 1#1) : Elt F .i32 := wordAt c tb (k0_off365 i) (k0_off365_inb i h2)
theorem hw2_34 (htb : ∀ y, (tb y).toNat < 4096) (i : grid0.Coords) (h2 : k0_cond2 i = 1#1) : k0_chk99 i (W2_34 c tb i h2) := fun _ => rows_inb _ (word_lt c tb htb _ _)
abbrev s2A_34 (htb : ∀ y, (tb y).toNat < 4096) (i : grid0.Coords) (h2 : k0_cond2 i = 1#1) : Memref sig .tc .hbm S8x1024 .f32 := srcM aM (k0_off367 (W2_34 c tb i h2)) (k0_off367_inb i _ (hw2_34 c tb htb i h2) h2)
abbrev s2B_34 (htb : ∀ y, (tb y).toNat < 4096) (i : grid0.Coords) (h2 : k0_cond2 i = 1#1) : Memref sig .tc .hbm S8x1024 .f32 := srcM bM (k0_off367 (W2_34 c tb i h2)) (k0_off367_inb i _ (hw2_34 c tb htb i h2) h2)
abbrev W2_35 (i : grid0.Coords) (h2 : k0_cond2 i = 1#1) : Elt F .i32 := wordAt c tb (k0_off370 i) (k0_off370_inb i h2)
theorem hw2_35 (htb : ∀ y, (tb y).toNat < 4096) (i : grid0.Coords) (h2 : k0_cond2 i = 1#1) : k0_chk100 i (W2_35 c tb i h2) := fun _ => rows_inb _ (word_lt c tb htb _ _)
abbrev s2A_35 (htb : ∀ y, (tb y).toNat < 4096) (i : grid0.Coords) (h2 : k0_cond2 i = 1#1) : Memref sig .tc .hbm S8x1024 .f32 := srcM aM (k0_off372 (W2_35 c tb i h2)) (k0_off372_inb i _ (hw2_35 c tb htb i h2) h2)
abbrev s2B_35 (htb : ∀ y, (tb y).toNat < 4096) (i : grid0.Coords) (h2 : k0_cond2 i = 1#1) : Memref sig .tc .hbm S8x1024 .f32 := srcM bM (k0_off372 (W2_35 c tb i h2)) (k0_off372_inb i _ (hw2_35 c tb htb i h2) h2)
abbrev W2_36 (i : grid0.Coords) (h2 : k0_cond2 i = 1#1) : Elt F .i32 := wordAt c tb (k0_off375 i) (k0_off375_inb i h2)
theorem hw2_36 (htb : ∀ y, (tb y).toNat < 4096) (i : grid0.Coords) (h2 : k0_cond2 i = 1#1) : k0_chk101 i (W2_36 c tb i h2) := fun _ => rows_inb _ (word_lt c tb htb _ _)
abbrev s2A_36 (htb : ∀ y, (tb y).toNat < 4096) (i : grid0.Coords) (h2 : k0_cond2 i = 1#1) : Memref sig .tc .hbm S8x1024 .f32 := srcM aM (k0_off377 (W2_36 c tb i h2)) (k0_off377_inb i _ (hw2_36 c tb htb i h2) h2)
abbrev s2B_36 (htb : ∀ y, (tb y).toNat < 4096) (i : grid0.Coords) (h2 : k0_cond2 i = 1#1) : Memref sig .tc .hbm S8x1024 .f32 := srcM bM (k0_off377 (W2_36 c tb i h2)) (k0_off377_inb i _ (hw2_36 c tb htb i h2) h2)
abbrev W2_37 (i : grid0.Coords) (h2 : k0_cond2 i = 1#1) : Elt F .i32 := wordAt c tb (k0_off380 i) (k0_off380_inb i h2)
theorem hw2_37 (htb : ∀ y, (tb y).toNat < 4096) (i : grid0.Coords) (h2 : k0_cond2 i = 1#1) : k0_chk102 i (W2_37 c tb i h2) := fun _ => rows_inb _ (word_lt c tb htb _ _)
abbrev s2A_37 (htb : ∀ y, (tb y).toNat < 4096) (i : grid0.Coords) (h2 : k0_cond2 i = 1#1) : Memref sig .tc .hbm S8x1024 .f32 := srcM aM (k0_off382 (W2_37 c tb i h2)) (k0_off382_inb i _ (hw2_37 c tb htb i h2) h2)
abbrev s2B_37 (htb : ∀ y, (tb y).toNat < 4096) (i : grid0.Coords) (h2 : k0_cond2 i = 1#1) : Memref sig .tc .hbm S8x1024 .f32 := srcM bM (k0_off382 (W2_37 c tb i h2)) (k0_off382_inb i _ (hw2_37 c tb htb i h2) h2)
abbrev W2_38 (i : grid0.Coords) (h2 : k0_cond2 i = 1#1) : Elt F .i32 := wordAt c tb (k0_off385 i) (k0_off385_inb i h2)
theorem hw2_38 (htb : ∀ y, (tb y).toNat < 4096) (i : grid0.Coords) (h2 : k0_cond2 i = 1#1) : k0_chk103 i (W2_38 c tb i h2) := fun _ => rows_inb _ (word_lt c tb htb _ _)
abbrev s2A_38 (htb : ∀ y, (tb y).toNat < 4096) (i : grid0.Coords) (h2 : k0_cond2 i = 1#1) : Memref sig .tc .hbm S8x1024 .f32 := srcM aM (k0_off387 (W2_38 c tb i h2)) (k0_off387_inb i _ (hw2_38 c tb htb i h2) h2)
abbrev s2B_38 (htb : ∀ y, (tb y).toNat < 4096) (i : grid0.Coords) (h2 : k0_cond2 i = 1#1) : Memref sig .tc .hbm S8x1024 .f32 := srcM bM (k0_off387 (W2_38 c tb i h2)) (k0_off387_inb i _ (hw2_38 c tb htb i h2) h2)
abbrev W2_39 (i : grid0.Coords) (h2 : k0_cond2 i = 1#1) : Elt F .i32 := wordAt c tb (k0_off390 i) (k0_off390_inb i h2)
theorem hw2_39 (htb : ∀ y, (tb y).toNat < 4096) (i : grid0.Coords) (h2 : k0_cond2 i = 1#1) : k0_chk104 i (W2_39 c tb i h2) := fun _ => rows_inb _ (word_lt c tb htb _ _)
abbrev s2A_39 (htb : ∀ y, (tb y).toNat < 4096) (i : grid0.Coords) (h2 : k0_cond2 i = 1#1) : Memref sig .tc .hbm S8x1024 .f32 := srcM aM (k0_off392 (W2_39 c tb i h2)) (k0_off392_inb i _ (hw2_39 c tb htb i h2) h2)
abbrev s2B_39 (htb : ∀ y, (tb y).toNat < 4096) (i : grid0.Coords) (h2 : k0_cond2 i = 1#1) : Memref sig .tc .hbm S8x1024 .f32 := srcM bM (k0_off392 (W2_39 c tb i h2)) (k0_off392_inb i _ (hw2_39 c tb htb i h2) h2)
abbrev W2_40 (i : grid0.Coords) (h2 : k0_cond2 i = 1#1) : Elt F .i32 := wordAt c tb (k0_off395 i) (k0_off395_inb i h2)
theorem hw2_40 (htb : ∀ y, (tb y).toNat < 4096) (i : grid0.Coords) (h2 : k0_cond2 i = 1#1) : k0_chk105 i (W2_40 c tb i h2) := fun _ => rows_inb _ (word_lt c tb htb _ _)
abbrev s2A_40 (htb : ∀ y, (tb y).toNat < 4096) (i : grid0.Coords) (h2 : k0_cond2 i = 1#1) : Memref sig .tc .hbm S8x1024 .f32 := srcM aM (k0_off397 (W2_40 c tb i h2)) (k0_off397_inb i _ (hw2_40 c tb htb i h2) h2)
abbrev s2B_40 (htb : ∀ y, (tb y).toNat < 4096) (i : grid0.Coords) (h2 : k0_cond2 i = 1#1) : Memref sig .tc .hbm S8x1024 .f32 := srcM bM (k0_off397 (W2_40 c tb i h2)) (k0_off397_inb i _ (hw2_40 c tb htb i h2) h2)
abbrev W2_41 (i : grid0.Coords) (h2 : k0_cond2 i = 1#1) : Elt F .i32 := wordAt c tb (k0_off400 i) (k0_off400_inb i h2)
theorem hw2_41 (htb : ∀ y, (tb y).toNat < 4096) (i : grid0.Coords) (h2 : k0_cond2 i = 1#1) : k0_chk106 i (W2_41 c tb i h2) := fun _ => rows_inb _ (word_lt c tb htb _ _)
abbrev s2A_41 (htb : ∀ y, (tb y).toNat < 4096) (i : grid0.Coords) (h2 : k0_cond2 i = 1#1) : Memref sig .tc .hbm S8x1024 .f32 := srcM aM (k0_off402 (W2_41 c tb i h2)) (k0_off402_inb i _ (hw2_41 c tb htb i h2) h2)
abbrev s2B_41 (htb : ∀ y, (tb y).toNat < 4096) (i : grid0.Coords) (h2 : k0_cond2 i = 1#1) : Memref sig .tc .hbm S8x1024 .f32 := srcM bM (k0_off402 (W2_41 c tb i h2)) (k0_off402_inb i _ (hw2_41 c tb htb i h2) h2)
abbrev W2_42 (i : grid0.Coords) (h2 : k0_cond2 i = 1#1) : Elt F .i32 := wordAt c tb (k0_off405 i) (k0_off405_inb i h2)
theorem hw2_42 (htb : ∀ y, (tb y).toNat < 4096) (i : grid0.Coords) (h2 : k0_cond2 i = 1#1) : k0_chk107 i (W2_42 c tb i h2) := fun _ => rows_inb _ (word_lt c tb htb _ _)
abbrev s2A_42 (htb : ∀ y, (tb y).toNat < 4096) (i : grid0.Coords) (h2 : k0_cond2 i = 1#1) : Memref sig .tc .hbm S8x1024 .f32 := srcM aM (k0_off407 (W2_42 c tb i h2)) (k0_off407_inb i _ (hw2_42 c tb htb i h2) h2)
abbrev s2B_42 (htb : ∀ y, (tb y).toNat < 4096) (i : grid0.Coords) (h2 : k0_cond2 i = 1#1) : Memref sig .tc .hbm S8x1024 .f32 := srcM bM (k0_off407 (W2_42 c tb i h2)) (k0_off407_inb i _ (hw2_42 c tb htb i h2) h2)
abbrev W2_43 (i : grid0.Coords) (h2 : k0_cond2 i = 1#1) : Elt F .i32 := wordAt c tb (k0_off410 i) (k0_off410_inb i h2)
theorem hw2_43 (htb : ∀ y, (tb y).toNat < 4096) (i : grid0.Coords) (h2 : k0_cond2 i = 1#1) : k0_chk108 i (W2_43 c tb i h2) := fun _ => rows_inb _ (word_lt c tb htb _ _)
abbrev s2A_43 (htb : ∀ y, (tb y).toNat < 4096) (i : grid0.Coords) (h2 : k0_cond2 i = 1#1) : Memref sig .tc .hbm S8x1024 .f32 := srcM aM (k0_off412 (W2_43 c tb i h2)) (k0_off412_inb i _ (hw2_43 c tb htb i h2) h2)
abbrev s2B_43 (htb : ∀ y, (tb y).toNat < 4096) (i : grid0.Coords) (h2 : k0_cond2 i = 1#1) : Memref sig .tc .hbm S8x1024 .f32 := srcM bM (k0_off412 (W2_43 c tb i h2)) (k0_off412_inb i _ (hw2_43 c tb htb i h2) h2)
abbrev W2_44 (i : grid0.Coords) (h2 : k0_cond2 i = 1#1) : Elt F .i32 := wordAt c tb (k0_off415 i) (k0_off415_inb i h2)
theorem hw2_44 (htb : ∀ y, (tb y).toNat < 4096) (i : grid0.Coords) (h2 : k0_cond2 i = 1#1) : k0_chk109 i (W2_44 c tb i h2) := fun _ => rows_inb _ (word_lt c tb htb _ _)
abbrev s2A_44 (htb : ∀ y, (tb y).toNat < 4096) (i : grid0.Coords) (h2 : k0_cond2 i = 1#1) : Memref sig .tc .hbm S8x1024 .f32 := srcM aM (k0_off417 (W2_44 c tb i h2)) (k0_off417_inb i _ (hw2_44 c tb htb i h2) h2)
abbrev s2B_44 (htb : ∀ y, (tb y).toNat < 4096) (i : grid0.Coords) (h2 : k0_cond2 i = 1#1) : Memref sig .tc .hbm S8x1024 .f32 := srcM bM (k0_off417 (W2_44 c tb i h2)) (k0_off417_inb i _ (hw2_44 c tb htb i h2) h2)
abbrev W2_45 (i : grid0.Coords) (h2 : k0_cond2 i = 1#1) : Elt F .i32 := wordAt c tb (k0_off420 i) (k0_off420_inb i h2)
theorem hw2_45 (htb : ∀ y, (tb y).toNat < 4096) (i : grid0.Coords) (h2 : k0_cond2 i = 1#1) : k0_chk110 i (W2_45 c tb i h2) := fun _ => rows_inb _ (word_lt c tb htb _ _)
abbrev s2A_45 (htb : ∀ y, (tb y).toNat < 4096) (i : grid0.Coords) (h2 : k0_cond2 i = 1#1) : Memref sig .tc .hbm S8x1024 .f32 := srcM aM (k0_off422 (W2_45 c tb i h2)) (k0_off422_inb i _ (hw2_45 c tb htb i h2) h2)
abbrev s2B_45 (htb : ∀ y, (tb y).toNat < 4096) (i : grid0.Coords) (h2 : k0_cond2 i = 1#1) : Memref sig .tc .hbm S8x1024 .f32 := srcM bM (k0_off422 (W2_45 c tb i h2)) (k0_off422_inb i _ (hw2_45 c tb htb i h2) h2)
abbrev W2_46 (i : grid0.Coords) (h2 : k0_cond2 i = 1#1) : Elt F .i32 := wordAt c tb (k0_off425 i) (k0_off425_inb i h2)
theorem hw2_46 (htb : ∀ y, (tb y).toNat < 4096) (i : grid0.Coords) (h2 : k0_cond2 i = 1#1) : k0_chk111 i (W2_46 c tb i h2) := fun _ => rows_inb _ (word_lt c tb htb _ _)
abbrev s2A_46 (htb : ∀ y, (tb y).toNat < 4096) (i : grid0.Coords) (h2 : k0_cond2 i = 1#1) : Memref sig .tc .hbm S8x1024 .f32 := srcM aM (k0_off427 (W2_46 c tb i h2)) (k0_off427_inb i _ (hw2_46 c tb htb i h2) h2)
abbrev s2B_46 (htb : ∀ y, (tb y).toNat < 4096) (i : grid0.Coords) (h2 : k0_cond2 i = 1#1) : Memref sig .tc .hbm S8x1024 .f32 := srcM bM (k0_off427 (W2_46 c tb i h2)) (k0_off427_inb i _ (hw2_46 c tb htb i h2) h2)
abbrev W2_47 (i : grid0.Coords) (h2 : k0_cond2 i = 1#1) : Elt F .i32 := wordAt c tb (k0_off430 i) (k0_off430_inb i h2)
theorem hw2_47 (htb : ∀ y, (tb y).toNat < 4096) (i : grid0.Coords) (h2 : k0_cond2 i = 1#1) : k0_chk112 i (W2_47 c tb i h2) := fun _ => rows_inb _ (word_lt c tb htb _ _)
abbrev s2A_47 (htb : ∀ y, (tb y).toNat < 4096) (i : grid0.Coords) (h2 : k0_cond2 i = 1#1) : Memref sig .tc .hbm S8x1024 .f32 := srcM aM (k0_off432 (W2_47 c tb i h2)) (k0_off432_inb i _ (hw2_47 c tb htb i h2) h2)
abbrev s2B_47 (htb : ∀ y, (tb y).toNat < 4096) (i : grid0.Coords) (h2 : k0_cond2 i = 1#1) : Memref sig .tc .hbm S8x1024 .f32 := srcM bM (k0_off432 (W2_47 c tb i h2)) (k0_off432_inb i _ (hw2_47 c tb htb i h2) h2)
abbrev W2_48 (i : grid0.Coords) (h2 : k0_cond2 i = 1#1) : Elt F .i32 := wordAt c tb (k0_off435 i) (k0_off435_inb i h2)
theorem hw2_48 (htb : ∀ y, (tb y).toNat < 4096) (i : grid0.Coords) (h2 : k0_cond2 i = 1#1) : k0_chk113 i (W2_48 c tb i h2) := fun _ => rows_inb _ (word_lt c tb htb _ _)
abbrev s2A_48 (htb : ∀ y, (tb y).toNat < 4096) (i : grid0.Coords) (h2 : k0_cond2 i = 1#1) : Memref sig .tc .hbm S8x1024 .f32 := srcM aM (k0_off437 (W2_48 c tb i h2)) (k0_off437_inb i _ (hw2_48 c tb htb i h2) h2)
abbrev s2B_48 (htb : ∀ y, (tb y).toNat < 4096) (i : grid0.Coords) (h2 : k0_cond2 i = 1#1) : Memref sig .tc .hbm S8x1024 .f32 := srcM bM (k0_off437 (W2_48 c tb i h2)) (k0_off437_inb i _ (hw2_48 c tb htb i h2) h2)
abbrev W2_49 (i : grid0.Coords) (h2 : k0_cond2 i = 1#1) : Elt F .i32 := wordAt c tb (k0_off440 i) (k0_off440_inb i h2)
theorem hw2_49 (htb : ∀ y, (tb y).toNat < 4096) (i : grid0.Coords) (h2 : k0_cond2 i = 1#1) : k0_chk114 i (W2_49 c tb i h2) := fun _ => rows_inb _ (word_lt c tb htb _ _)
abbrev s2A_49 (htb : ∀ y, (tb y).toNat < 4096) (i : grid0.Coords) (h2 : k0_cond2 i = 1#1) : Memref sig .tc .hbm S8x1024 .f32 := srcM aM (k0_off442 (W2_49 c tb i h2)) (k0_off442_inb i _ (hw2_49 c tb htb i h2) h2)
abbrev s2B_49 (htb : ∀ y, (tb y).toNat < 4096) (i : grid0.Coords) (h2 : k0_cond2 i = 1#1) : Memref sig .tc .hbm S8x1024 .f32 := srcM bM (k0_off442 (W2_49 c tb i h2)) (k0_off442_inb i _ (hw2_49 c tb htb i h2) h2)
abbrev W2_50 (i : grid0.Coords) (h2 : k0_cond2 i = 1#1) : Elt F .i32 := wordAt c tb (k0_off445 i) (k0_off445_inb i h2)
theorem hw2_50 (htb : ∀ y, (tb y).toNat < 4096) (i : grid0.Coords) (h2 : k0_cond2 i = 1#1) : k0_chk115 i (W2_50 c tb i h2) := fun _ => rows_inb _ (word_lt c tb htb _ _)
abbrev s2A_50 (htb : ∀ y, (tb y).toNat < 4096) (i : grid0.Coords) (h2 : k0_cond2 i = 1#1) : Memref sig .tc .hbm S8x1024 .f32 := srcM aM (k0_off447 (W2_50 c tb i h2)) (k0_off447_inb i _ (hw2_50 c tb htb i h2) h2)
abbrev s2B_50 (htb : ∀ y, (tb y).toNat < 4096) (i : grid0.Coords) (h2 : k0_cond2 i = 1#1) : Memref sig .tc .hbm S8x1024 .f32 := srcM bM (k0_off447 (W2_50 c tb i h2)) (k0_off447_inb i _ (hw2_50 c tb htb i h2) h2)
abbrev W2_51 (i : grid0.Coords) (h2 : k0_cond2 i = 1#1) : Elt F .i32 := wordAt c tb (k0_off450 i) (k0_off450_inb i h2)
theorem hw2_51 (htb : ∀ y, (tb y).toNat < 4096) (i : grid0.Coords) (h2 : k0_cond2 i = 1#1) : k0_chk116 i (W2_51 c tb i h2) := fun _ => rows_inb _ (word_lt c tb htb _ _)
abbrev s2A_51 (htb : ∀ y, (tb y).toNat < 4096) (i : grid0.Coords) (h2 : k0_cond2 i = 1#1) : Memref sig .tc .hbm S8x1024 .f32 := srcM aM (k0_off452 (W2_51 c tb i h2)) (k0_off452_inb i _ (hw2_51 c tb htb i h2) h2)
abbrev s2B_51 (htb : ∀ y, (tb y).toNat < 4096) (i : grid0.Coords) (h2 : k0_cond2 i = 1#1) : Memref sig .tc .hbm S8x1024 .f32 := srcM bM (k0_off452 (W2_51 c tb i h2)) (k0_off452_inb i _ (hw2_51 c tb htb i h2) h2)
abbrev W2_52 (i : grid0.Coords) (h2 : k0_cond2 i = 1#1) : Elt F .i32 := wordAt c tb (k0_off455 i) (k0_off455_inb i h2)
theorem hw2_52 (htb : ∀ y, (tb y).toNat < 4096) (i : grid0.Coords) (h2 : k0_cond2 i = 1#1) : k0_chk117 i (W2_52 c tb i h2) := fun _ => rows_inb _ (word_lt c tb htb _ _)
abbrev s2A_52 (htb : ∀ y, (tb y).toNat < 4096) (i : grid0.Coords) (h2 : k0_cond2 i = 1#1) : Memref sig .tc .hbm S8x1024 .f32 := srcM aM (k0_off457 (W2_52 c tb i h2)) (k0_off457_inb i _ (hw2_52 c tb htb i h2) h2)
abbrev s2B_52 (htb : ∀ y, (tb y).toNat < 4096) (i : grid0.Coords) (h2 : k0_cond2 i = 1#1) : Memref sig .tc .hbm S8x1024 .f32 := srcM bM (k0_off457 (W2_52 c tb i h2)) (k0_off457_inb i _ (hw2_52 c tb htb i h2) h2)
abbrev W2_53 (i : grid0.Coords) (h2 : k0_cond2 i = 1#1) : Elt F .i32 := wordAt c tb (k0_off460 i) (k0_off460_inb i h2)
theorem hw2_53 (htb : ∀ y, (tb y).toNat < 4096) (i : grid0.Coords) (h2 : k0_cond2 i = 1#1) : k0_chk118 i (W2_53 c tb i h2) := fun _ => rows_inb _ (word_lt c tb htb _ _)
abbrev s2A_53 (htb : ∀ y, (tb y).toNat < 4096) (i : grid0.Coords) (h2 : k0_cond2 i = 1#1) : Memref sig .tc .hbm S8x1024 .f32 := srcM aM (k0_off462 (W2_53 c tb i h2)) (k0_off462_inb i _ (hw2_53 c tb htb i h2) h2)
abbrev s2B_53 (htb : ∀ y, (tb y).toNat < 4096) (i : grid0.Coords) (h2 : k0_cond2 i = 1#1) : Memref sig .tc .hbm S8x1024 .f32 := srcM bM (k0_off462 (W2_53 c tb i h2)) (k0_off462_inb i _ (hw2_53 c tb htb i h2) h2)
abbrev W2_54 (i : grid0.Coords) (h2 : k0_cond2 i = 1#1) : Elt F .i32 := wordAt c tb (k0_off465 i) (k0_off465_inb i h2)
theorem hw2_54 (htb : ∀ y, (tb y).toNat < 4096) (i : grid0.Coords) (h2 : k0_cond2 i = 1#1) : k0_chk119 i (W2_54 c tb i h2) := fun _ => rows_inb _ (word_lt c tb htb _ _)
abbrev s2A_54 (htb : ∀ y, (tb y).toNat < 4096) (i : grid0.Coords) (h2 : k0_cond2 i = 1#1) : Memref sig .tc .hbm S8x1024 .f32 := srcM aM (k0_off467 (W2_54 c tb i h2)) (k0_off467_inb i _ (hw2_54 c tb htb i h2) h2)
abbrev s2B_54 (htb : ∀ y, (tb y).toNat < 4096) (i : grid0.Coords) (h2 : k0_cond2 i = 1#1) : Memref sig .tc .hbm S8x1024 .f32 := srcM bM (k0_off467 (W2_54 c tb i h2)) (k0_off467_inb i _ (hw2_54 c tb htb i h2) h2)
abbrev W2_55 (i : grid0.Coords) (h2 : k0_cond2 i = 1#1) : Elt F .i32 := wordAt c tb (k0_off470 i) (k0_off470_inb i h2)
theorem hw2_55 (htb : ∀ y, (tb y).toNat < 4096) (i : grid0.Coords) (h2 : k0_cond2 i = 1#1) : k0_chk120 i (W2_55 c tb i h2) := fun _ => rows_inb _ (word_lt c tb htb _ _)
abbrev s2A_55 (htb : ∀ y, (tb y).toNat < 4096) (i : grid0.Coords) (h2 : k0_cond2 i = 1#1) : Memref sig .tc .hbm S8x1024 .f32 := srcM aM (k0_off472 (W2_55 c tb i h2)) (k0_off472_inb i _ (hw2_55 c tb htb i h2) h2)
abbrev s2B_55 (htb : ∀ y, (tb y).toNat < 4096) (i : grid0.Coords) (h2 : k0_cond2 i = 1#1) : Memref sig .tc .hbm S8x1024 .f32 := srcM bM (k0_off472 (W2_55 c tb i h2)) (k0_off472_inb i _ (hw2_55 c tb htb i h2) h2)
abbrev W2_56 (i : grid0.Coords) (h2 : k0_cond2 i = 1#1) : Elt F .i32 := wordAt c tb (k0_off475 i) (k0_off475_inb i h2)
theorem hw2_56 (htb : ∀ y, (tb y).toNat < 4096) (i : grid0.Coords) (h2 : k0_cond2 i = 1#1) : k0_chk121 i (W2_56 c tb i h2) := fun _ => rows_inb _ (word_lt c tb htb _ _)
abbrev s2A_56 (htb : ∀ y, (tb y).toNat < 4096) (i : grid0.Coords) (h2 : k0_cond2 i = 1#1) : Memref sig .tc .hbm S8x1024 .f32 := srcM aM (k0_off477 (W2_56 c tb i h2)) (k0_off477_inb i _ (hw2_56 c tb htb i h2) h2)
abbrev s2B_56 (htb : ∀ y, (tb y).toNat < 4096) (i : grid0.Coords) (h2 : k0_cond2 i = 1#1) : Memref sig .tc .hbm S8x1024 .f32 := srcM bM (k0_off477 (W2_56 c tb i h2)) (k0_off477_inb i _ (hw2_56 c tb htb i h2) h2)
abbrev W2_57 (i : grid0.Coords) (h2 : k0_cond2 i = 1#1) : Elt F .i32 := wordAt c tb (k0_off480 i) (k0_off480_inb i h2)
theorem hw2_57 (htb : ∀ y, (tb y).toNat < 4096) (i : grid0.Coords) (h2 : k0_cond2 i = 1#1) : k0_chk122 i (W2_57 c tb i h2) := fun _ => rows_inb _ (word_lt c tb htb _ _)
abbrev s2A_57 (htb : ∀ y, (tb y).toNat < 4096) (i : grid0.Coords) (h2 : k0_cond2 i = 1#1) : Memref sig .tc .hbm S8x1024 .f32 := srcM aM (k0_off482 (W2_57 c tb i h2)) (k0_off482_inb i _ (hw2_57 c tb htb i h2) h2)
abbrev s2B_57 (htb : ∀ y, (tb y).toNat < 4096) (i : grid0.Coords) (h2 : k0_cond2 i = 1#1) : Memref sig .tc .hbm S8x1024 .f32 := srcM bM (k0_off482 (W2_57 c tb i h2)) (k0_off482_inb i _ (hw2_57 c tb htb i h2) h2)
abbrev W2_58 (i : grid0.Coords) (h2 : k0_cond2 i = 1#1) : Elt F .i32 := wordAt c tb (k0_off485 i) (k0_off485_inb i h2)
theorem hw2_58 (htb : ∀ y, (tb y).toNat < 4096) (i : grid0.Coords) (h2 : k0_cond2 i = 1#1) : k0_chk123 i (W2_58 c tb i h2) := fun _ => rows_inb _ (word_lt c tb htb _ _)
abbrev s2A_58 (htb : ∀ y, (tb y).toNat < 4096) (i : grid0.Coords) (h2 : k0_cond2 i = 1#1) : Memref sig .tc .hbm S8x1024 .f32 := srcM aM (k0_off487 (W2_58 c tb i h2)) (k0_off487_inb i _ (hw2_58 c tb htb i h2) h2)
abbrev s2B_58 (htb : ∀ y, (tb y).toNat < 4096) (i : grid0.Coords) (h2 : k0_cond2 i = 1#1) : Memref sig .tc .hbm S8x1024 .f32 := srcM bM (k0_off487 (W2_58 c tb i h2)) (k0_off487_inb i _ (hw2_58 c tb htb i h2) h2)
abbrev W2_59 (i : grid0.Coords) (h2 : k0_cond2 i = 1#1) : Elt F .i32 := wordAt c tb (k0_off490 i) (k0_off490_inb i h2)
theorem hw2_59 (htb : ∀ y, (tb y).toNat < 4096) (i : grid0.Coords) (h2 : k0_cond2 i = 1#1) : k0_chk124 i (W2_59 c tb i h2) := fun _ => rows_inb _ (word_lt c tb htb _ _)
abbrev s2A_59 (htb : ∀ y, (tb y).toNat < 4096) (i : grid0.Coords) (h2 : k0_cond2 i = 1#1) : Memref sig .tc .hbm S8x1024 .f32 := srcM aM (k0_off492 (W2_59 c tb i h2)) (k0_off492_inb i _ (hw2_59 c tb htb i h2) h2)
abbrev s2B_59 (htb : ∀ y, (tb y).toNat < 4096) (i : grid0.Coords) (h2 : k0_cond2 i = 1#1) : Memref sig .tc .hbm S8x1024 .f32 := srcM bM (k0_off492 (W2_59 c tb i h2)) (k0_off492_inb i _ (hw2_59 c tb htb i h2) h2)
abbrev W2_60 (i : grid0.Coords) (h2 : k0_cond2 i = 1#1) : Elt F .i32 := wordAt c tb (k0_off495 i) (k0_off495_inb i h2)
theorem hw2_60 (htb : ∀ y, (tb y).toNat < 4096) (i : grid0.Coords) (h2 : k0_cond2 i = 1#1) : k0_chk125 i (W2_60 c tb i h2) := fun _ => rows_inb _ (word_lt c tb htb _ _)
abbrev s2A_60 (htb : ∀ y, (tb y).toNat < 4096) (i : grid0.Coords) (h2 : k0_cond2 i = 1#1) : Memref sig .tc .hbm S8x1024 .f32 := srcM aM (k0_off497 (W2_60 c tb i h2)) (k0_off497_inb i _ (hw2_60 c tb htb i h2) h2)
abbrev s2B_60 (htb : ∀ y, (tb y).toNat < 4096) (i : grid0.Coords) (h2 : k0_cond2 i = 1#1) : Memref sig .tc .hbm S8x1024 .f32 := srcM bM (k0_off497 (W2_60 c tb i h2)) (k0_off497_inb i _ (hw2_60 c tb htb i h2) h2)
abbrev W2_61 (i : grid0.Coords) (h2 : k0_cond2 i = 1#1) : Elt F .i32 := wordAt c tb (k0_off500 i) (k0_off500_inb i h2)
theorem hw2_61 (htb : ∀ y, (tb y).toNat < 4096) (i : grid0.Coords) (h2 : k0_cond2 i = 1#1) : k0_chk126 i (W2_61 c tb i h2) := fun _ => rows_inb _ (word_lt c tb htb _ _)
abbrev s2A_61 (htb : ∀ y, (tb y).toNat < 4096) (i : grid0.Coords) (h2 : k0_cond2 i = 1#1) : Memref sig .tc .hbm S8x1024 .f32 := srcM aM (k0_off502 (W2_61 c tb i h2)) (k0_off502_inb i _ (hw2_61 c tb htb i h2) h2)
abbrev s2B_61 (htb : ∀ y, (tb y).toNat < 4096) (i : grid0.Coords) (h2 : k0_cond2 i = 1#1) : Memref sig .tc .hbm S8x1024 .f32 := srcM bM (k0_off502 (W2_61 c tb i h2)) (k0_off502_inb i _ (hw2_61 c tb htb i h2) h2)
abbrev W2_62 (i : grid0.Coords) (h2 : k0_cond2 i = 1#1) : Elt F .i32 := wordAt c tb (k0_off505 i) (k0_off505_inb i h2)
theorem hw2_62 (htb : ∀ y, (tb y).toNat < 4096) (i : grid0.Coords) (h2 : k0_cond2 i = 1#1) : k0_chk127 i (W2_62 c tb i h2) := fun _ => rows_inb _ (word_lt c tb htb _ _)
abbrev s2A_62 (htb : ∀ y, (tb y).toNat < 4096) (i : grid0.Coords) (h2 : k0_cond2 i = 1#1) : Memref sig .tc .hbm S8x1024 .f32 := srcM aM (k0_off507 (W2_62 c tb i h2)) (k0_off507_inb i _ (hw2_62 c tb htb i h2) h2)
abbrev s2B_62 (htb : ∀ y, (tb y).toNat < 4096) (i : grid0.Coords) (h2 : k0_cond2 i = 1#1) : Memref sig .tc .hbm S8x1024 .f32 := srcM bM (k0_off507 (W2_62 c tb i h2)) (k0_off507_inb i _ (hw2_62 c tb htb i h2) h2)
abbrev W2_63 (i : grid0.Coords) (h2 : k0_cond2 i = 1#1) : Elt F .i32 := wordAt c tb (k0_off510 i) (k0_off510_inb i h2)
theorem hw2_63 (htb : ∀ y, (tb y).toNat < 4096) (i : grid0.Coords) (h2 : k0_cond2 i = 1#1) : k0_chk128 i (W2_63 c tb i h2) := fun _ => rows_inb _ (word_lt c tb htb _ _)
abbrev s2A_63 (htb : ∀ y, (tb y).toNat < 4096) (i : grid0.Coords) (h2 : k0_cond2 i = 1#1) : Memref sig .tc .hbm S8x1024 .f32 := srcM aM (k0_off512 (W2_63 c tb i h2)) (k0_off512_inb i _ (hw2_63 c tb htb i h2) h2)
abbrev s2B_63 (htb : ∀ y, (tb y).toNat < 4096) (i : grid0.Coords) (h2 : k0_cond2 i = 1#1) : Memref sig .tc .hbm S8x1024 .f32 := srcM bM (k0_off512 (W2_63 c tb i h2)) (k0_off512_inb i _ (hw2_63 c tb htb i h2) h2)
/-- The deliveries of the 64 copies of array A (fetch 2) into slot s, in the order the copies are started. -/
def D2A (htb : ∀ y, (tb y).toNat < 4096) (i : grid0.Coords) (h2 : k0_cond2 i = 1#1) (s : Fin 2) : Fin 64 → sProp 𝕄
  | ⟨0, _⟩ => deliv c (s2A_0 c tb htb i h2) (rowM scA s ⟨0, Nat.le_of_ble_eq_true rfl⟩) (qTok s ⟨0, Nat.le_of_ble_eq_true rfl⟩) fa
  | ⟨1, _⟩ => deliv c (s2A_1 c tb htb i h2) (rowM scA s ⟨1, Nat.le_of_ble_eq_true rfl⟩) (qTok s ⟨1, Nat.le_of_ble_eq_true rfl⟩) fa
  | ⟨2, _⟩ => deliv c (s2A_2 c tb htb i h2) (rowM scA s ⟨2, Nat.le_of_ble_eq_true rfl⟩) (qTok s ⟨2, Nat.le_of_ble_eq_true rfl⟩) fa
  | ⟨3, _⟩ => deliv c (s2A_3 c tb htb i h2) (rowM scA s ⟨3, Nat.le_of_ble_eq_true rfl⟩) (qTok s ⟨3, Nat.le_of_ble_eq_true rfl⟩) fa
  | ⟨4, _⟩ => deliv c (s2A_4 c tb htb i h2) (rowM scA s ⟨4, Nat.le_of_ble_eq_true rfl⟩) (qTok s ⟨4, Nat.le_of_ble_eq_true rfl⟩) fa
  | ⟨5, _⟩ => deliv c (s2A_5 c tb htb i h2) (rowM scA s ⟨5, Nat.le_of_ble_eq_true rfl⟩) (qTok s ⟨5, Nat.le_of_ble_eq_true rfl⟩) fa
  | ⟨6, _⟩ => deliv c (s2A_6 c tb htb i h2) (rowM scA s ⟨6, Nat.le_of_ble_eq_true rfl⟩) (qTok s ⟨6, Nat.le_of_ble_eq_true rfl⟩) fa
  | ⟨7, _⟩ => deliv c (s2A_7 c tb htb i h2) (rowM scA s ⟨7, Nat.le_of_ble_eq_true rfl⟩) (qTok s ⟨7, Nat.le_of_ble_eq_true rfl⟩) fa
  | ⟨8, _⟩ => deliv c (s2A_8 c tb htb i h2) (rowM scA s ⟨8, Nat.le_of_ble_eq_true rfl⟩) (qTok s ⟨8, Nat.le_of_ble_eq_true rfl⟩) fa
  | ⟨9, _⟩ => deliv c (s2A_9 c tb htb i h2) (rowM scA s ⟨9, Nat.le_of_ble_eq_true rfl⟩) (qTok s ⟨9, Nat.le_of_ble_eq_true rfl⟩) fa
  | ⟨10, _⟩ => deliv c (s2A_10 c tb htb i h2) (rowM scA s ⟨10, Nat.le_of_ble_eq_true rfl⟩) (qTok s ⟨10, Nat.le_of_ble_eq_true rfl⟩) fa
  | ⟨11, _⟩ => deliv c (s2A_11 c tb htb i h2) (rowM scA s ⟨11, Nat.le_of_ble_eq_true rfl⟩) (qTok s ⟨11, Nat.le_of_ble_eq_true rfl⟩) fa
  | ⟨12, _⟩ => deliv c (s2A_12 c tb htb i h2) (rowM scA s ⟨12, Nat.le_of_ble_eq_true rfl⟩) (qTok s ⟨12, Nat.le_of_ble_eq_true rfl⟩) fa
  | ⟨13, _⟩ => deliv c (s2A_13 c tb htb i h2) (rowM scA s ⟨13, Nat.le_of_ble_eq_true rfl⟩) (qTok s ⟨13, Nat.le_of_ble_eq_true rfl⟩) fa
  | ⟨14, _⟩ => deliv c (s2A_14 c tb htb i h2) (rowM scA s ⟨14, Nat.le_of_ble_eq_true rfl⟩) (qTok s ⟨14, Nat.le_of_ble_eq_true rfl⟩) fa
  | ⟨15, _⟩ => deliv c (s2A_15 c tb htb i h2) (rowM scA s ⟨15, Nat.le_of_ble_eq_true rfl⟩) (qTok s ⟨15, Nat.le_of_ble_eq_true rfl⟩) fa
  | ⟨16, _⟩ => deliv c (s2A_16 c tb htb i h2) (rowM scA s ⟨16, Nat.le_of_ble_eq_true rfl⟩) (qTok s ⟨16, Nat.le_of_ble_eq_true rfl⟩) fa
  | ⟨17, _⟩ => deliv c (s2A_17 c tb htb i h2) (rowM scA s ⟨17, Nat.le_of_ble_eq_true rfl⟩) (qTok s ⟨17, Nat.le_of_ble_eq_true rfl⟩) fa
  | ⟨18, _⟩ => deliv c (s2A_18 c tb htb i h2) (rowM scA s ⟨18, Nat.le_of_ble_eq_true rfl⟩) (qTok s ⟨18, Nat.le_of_ble_eq_true rfl⟩) fa
  | ⟨19, _⟩ => deliv c (s2A_19 c tb htb i h2) (rowM scA s ⟨19, Nat.le_of_ble_eq_true rfl⟩) (qTok s ⟨19, Nat.le_of_ble_eq_true rfl⟩) fa
  | ⟨20, _⟩ => deliv c (s2A_20 c tb htb i h2) (rowM scA s ⟨20, Nat.le_of_ble_eq_true rfl⟩) (qTok s ⟨20, Nat.le_of_ble_eq_true rfl⟩) fa
  | ⟨21, _⟩ => deliv c (s2A_21 c tb htb i h2) (rowM scA s ⟨21, Nat.le_of_ble_eq_true rfl⟩) (qTok s ⟨21, Nat.le_of_ble_eq_true rfl⟩) fa
  | ⟨22, _⟩ => deliv c (s2A_22 c tb htb i h2) (rowM scA s ⟨22, Nat.le_of_ble_eq_true rfl⟩) (qTok s ⟨22, Nat.le_of_ble_eq_true rfl⟩) fa
  | ⟨23, _⟩ => deliv c (s2A_23 c tb htb i h2) (rowM scA s ⟨23, Nat.le_of_ble_eq_true rfl⟩) (qTok s ⟨23, Nat.le_of_ble_eq_true rfl⟩) fa
  | ⟨24, _⟩ => deliv c (s2A_24 c tb htb i h2) (rowM scA s ⟨24, Nat.le_of_ble_eq_true rfl⟩) (qTok s ⟨24, Nat.le_of_ble_eq_true rfl⟩) fa
  | ⟨25, _⟩ => deliv c (s2A_25 c tb htb i h2) (rowM scA s ⟨25, Nat.le_of_ble_eq_true rfl⟩) (qTok s ⟨25, Nat.le_of_ble_eq_true rfl⟩) fa
  | ⟨26, _⟩ => deliv c (s2A_26 c tb htb i h2) (rowM scA s ⟨26, Nat.le_of_ble_eq_true rfl⟩) (qTok s ⟨26, Nat.le_of_ble_eq_true rfl⟩) fa
  | ⟨27, _⟩ => deliv c (s2A_27 c tb htb i h2) (rowM scA s ⟨27, Nat.le_of_ble_eq_true rfl⟩) (qTok s ⟨27, Nat.le_of_ble_eq_true rfl⟩) fa
  | ⟨28, _⟩ => deliv c (s2A_28 c tb htb i h2) (rowM scA s ⟨28, Nat.le_of_ble_eq_true rfl⟩) (qTok s ⟨28, Nat.le_of_ble_eq_true rfl⟩) fa
  | ⟨29, _⟩ => deliv c (s2A_29 c tb htb i h2) (rowM scA s ⟨29, Nat.le_of_ble_eq_true rfl⟩) (qTok s ⟨29, Nat.le_of_ble_eq_true rfl⟩) fa
  | ⟨30, _⟩ => deliv c (s2A_30 c tb htb i h2) (rowM scA s ⟨30, Nat.le_of_ble_eq_true rfl⟩) (qTok s ⟨30, Nat.le_of_ble_eq_true rfl⟩) fa
  | ⟨31, _⟩ => deliv c (s2A_31 c tb htb i h2) (rowM scA s ⟨31, Nat.le_of_ble_eq_true rfl⟩) (qTok s ⟨31, Nat.le_of_ble_eq_true rfl⟩) fa
  | ⟨32, _⟩ => deliv c (s2A_32 c tb htb i h2) (rowM scA s ⟨32, Nat.le_of_ble_eq_true rfl⟩) (qTok s ⟨32, Nat.le_of_ble_eq_true rfl⟩) fa
  | ⟨33, _⟩ => deliv c (s2A_33 c tb htb i h2) (rowM scA s ⟨33, Nat.le_of_ble_eq_true rfl⟩) (qTok s ⟨33, Nat.le_of_ble_eq_true rfl⟩) fa
  | ⟨34, _⟩ => deliv c (s2A_34 c tb htb i h2) (rowM scA s ⟨34, Nat.le_of_ble_eq_true rfl⟩) (qTok s ⟨34, Nat.le_of_ble_eq_true rfl⟩) fa
  | ⟨35, _⟩ => deliv c (s2A_35 c tb htb i h2) (rowM scA s ⟨35, Nat.le_of_ble_eq_true rfl⟩) (qTok s ⟨35, Nat.le_of_ble_eq_true rfl⟩) fa
  | ⟨36, _⟩ => deliv c (s2A_36 c tb htb i h2) (rowM scA s ⟨36, Nat.le_of_ble_eq_true rfl⟩) (qTok s ⟨36, Nat.le_of_ble_eq_true rfl⟩) fa
  | ⟨37, _⟩ => deliv c (s2A_37 c tb htb i h2) (rowM scA s ⟨37, Nat.le_of_ble_eq_true rfl⟩) (qTok s ⟨37, Nat.le_of_ble_eq_true rfl⟩) fa
  | ⟨38, _⟩ => deliv c (s2A_38 c tb htb i h2) (rowM scA s ⟨38, Nat.le_of_ble_eq_true rfl⟩) (qTok s ⟨38, Nat.le_of_ble_eq_true rfl⟩) fa
  | ⟨39, _⟩ => deliv c (s2A_39 c tb htb i h2) (rowM scA s ⟨39, Nat.le_of_ble_eq_true rfl⟩) (qTok s ⟨39, Nat.le_of_ble_eq_true rfl⟩) fa
  | ⟨40, _⟩ => deliv c (s2A_40 c tb htb i h2) (rowM scA s ⟨40, Nat.le_of_ble_eq_true rfl⟩) (qTok s ⟨40, Nat.le_of_ble_eq_true rfl⟩) fa
  | ⟨41, _⟩ => deliv c (s2A_41 c tb htb i h2) (rowM scA s ⟨41, Nat.le_of_ble_eq_true rfl⟩) (qTok s ⟨41, Nat.le_of_ble_eq_true rfl⟩) fa
  | ⟨42, _⟩ => deliv c (s2A_42 c tb htb i h2) (rowM scA s ⟨42, Nat.le_of_ble_eq_true rfl⟩) (qTok s ⟨42, Nat.le_of_ble_eq_true rfl⟩) fa
  | ⟨43, _⟩ => deliv c (s2A_43 c tb htb i h2) (rowM scA s ⟨43, Nat.le_of_ble_eq_true rfl⟩) (qTok s ⟨43, Nat.le_of_ble_eq_true rfl⟩) fa
  | ⟨44, _⟩ => deliv c (s2A_44 c tb htb i h2) (rowM scA s ⟨44, Nat.le_of_ble_eq_true rfl⟩) (qTok s ⟨44, Nat.le_of_ble_eq_true rfl⟩) fa
  | ⟨45, _⟩ => deliv c (s2A_45 c tb htb i h2) (rowM scA s ⟨45, Nat.le_of_ble_eq_true rfl⟩) (qTok s ⟨45, Nat.le_of_ble_eq_true rfl⟩) fa
  | ⟨46, _⟩ => deliv c (s2A_46 c tb htb i h2) (rowM scA s ⟨46, Nat.le_of_ble_eq_true rfl⟩) (qTok s ⟨46, Nat.le_of_ble_eq_true rfl⟩) fa
  | ⟨47, _⟩ => deliv c (s2A_47 c tb htb i h2) (rowM scA s ⟨47, Nat.le_of_ble_eq_true rfl⟩) (qTok s ⟨47, Nat.le_of_ble_eq_true rfl⟩) fa
  | ⟨48, _⟩ => deliv c (s2A_48 c tb htb i h2) (rowM scA s ⟨48, Nat.le_of_ble_eq_true rfl⟩) (qTok s ⟨48, Nat.le_of_ble_eq_true rfl⟩) fa
  | ⟨49, _⟩ => deliv c (s2A_49 c tb htb i h2) (rowM scA s ⟨49, Nat.le_of_ble_eq_true rfl⟩) (qTok s ⟨49, Nat.le_of_ble_eq_true rfl⟩) fa
  | ⟨50, _⟩ => deliv c (s2A_50 c tb htb i h2) (rowM scA s ⟨50, Nat.le_of_ble_eq_true rfl⟩) (qTok s ⟨50, Nat.le_of_ble_eq_true rfl⟩) fa
  | ⟨51, _⟩ => deliv c (s2A_51 c tb htb i h2) (rowM scA s ⟨51, Nat.le_of_ble_eq_true rfl⟩) (qTok s ⟨51, Nat.le_of_ble_eq_true rfl⟩) fa
  | ⟨52, _⟩ => deliv c (s2A_52 c tb htb i h2) (rowM scA s ⟨52, Nat.le_of_ble_eq_true rfl⟩) (qTok s ⟨52, Nat.le_of_ble_eq_true rfl⟩) fa
  | ⟨53, _⟩ => deliv c (s2A_53 c tb htb i h2) (rowM scA s ⟨53, Nat.le_of_ble_eq_true rfl⟩) (qTok s ⟨53, Nat.le_of_ble_eq_true rfl⟩) fa
  | ⟨54, _⟩ => deliv c (s2A_54 c tb htb i h2) (rowM scA s ⟨54, Nat.le_of_ble_eq_true rfl⟩) (qTok s ⟨54, Nat.le_of_ble_eq_true rfl⟩) fa
  | ⟨55, _⟩ => deliv c (s2A_55 c tb htb i h2) (rowM scA s ⟨55, Nat.le_of_ble_eq_true rfl⟩) (qTok s ⟨55, Nat.le_of_ble_eq_true rfl⟩) fa
  | ⟨56, _⟩ => deliv c (s2A_56 c tb htb i h2) (rowM scA s ⟨56, Nat.le_of_ble_eq_true rfl⟩) (qTok s ⟨56, Nat.le_of_ble_eq_true rfl⟩) fa
  | ⟨57, _⟩ => deliv c (s2A_57 c tb htb i h2) (rowM scA s ⟨57, Nat.le_of_ble_eq_true rfl⟩) (qTok s ⟨57, Nat.le_of_ble_eq_true rfl⟩) fa
  | ⟨58, _⟩ => deliv c (s2A_58 c tb htb i h2) (rowM scA s ⟨58, Nat.le_of_ble_eq_true rfl⟩) (qTok s ⟨58, Nat.le_of_ble_eq_true rfl⟩) fa
  | ⟨59, _⟩ => deliv c (s2A_59 c tb htb i h2) (rowM scA s ⟨59, Nat.le_of_ble_eq_true rfl⟩) (qTok s ⟨59, Nat.le_of_ble_eq_true rfl⟩) fa
  | ⟨60, _⟩ => deliv c (s2A_60 c tb htb i h2) (rowM scA s ⟨60, Nat.le_of_ble_eq_true rfl⟩) (qTok s ⟨60, Nat.le_of_ble_eq_true rfl⟩) fa
  | ⟨61, _⟩ => deliv c (s2A_61 c tb htb i h2) (rowM scA s ⟨61, Nat.le_of_ble_eq_true rfl⟩) (qTok s ⟨61, Nat.le_of_ble_eq_true rfl⟩) fa
  | ⟨62, _⟩ => deliv c (s2A_62 c tb htb i h2) (rowM scA s ⟨62, Nat.le_of_ble_eq_true rfl⟩) (qTok s ⟨62, Nat.le_of_ble_eq_true rfl⟩) fa
  | ⟨63, _⟩ => deliv c (s2A_63 c tb htb i h2) (rowM scA s ⟨63, Nat.le_of_ble_eq_true rfl⟩) (qTok s ⟨63, Nat.le_of_ble_eq_true rfl⟩) fa
  | ⟨_ + 64, h⟩ => absurd h (Nat.not_lt.2 (Nat.le_add_left _ _))
/-- What is left of each of slot s's read shares of array A while its array row is lent to copy r. -/
def R2A (htb : ∀ y, (tb y).toNat < 4096) (i : grid0.Coords) (h2 : k0_cond2 i = 1#1) (s : Fin 2) : Fin 64 → sProp 𝕄
  | ⟨0, _⟩ => (aM.view.loc (c : Thread nD τ) ↦[Finset.univ \ (s2A_0 c tb htb i h2).view.set]{qTok s ⟨0, Nat.le_of_ble_eq_true rfl⟩} fa)
  | ⟨1, _⟩ => (aM.view.loc (c : Thread nD τ) ↦[Finset.univ \ (s2A_1 c tb htb i h2).view.set]{qTok s ⟨1, Nat.le_of_ble_eq_true rfl⟩} fa)
  | ⟨2, _⟩ => (aM.view.loc (c : Thread nD τ) ↦[Finset.univ \ (s2A_2 c tb htb i h2).view.set]{qTok s ⟨2, Nat.le_of_ble_eq_true rfl⟩} fa)
  | ⟨3, _⟩ => (aM.view.loc (c : Thread nD τ) ↦[Finset.univ \ (s2A_3 c tb htb i h2).view.set]{qTok s ⟨3, Nat.le_of_ble_eq_true rfl⟩} fa)
  | ⟨4, _⟩ => (aM.view.loc (c : Thread nD τ) ↦[Finset.univ \ (s2A_4 c tb htb i h2).view.set]{qTok s ⟨4, Nat.le_of_ble_eq_true rfl⟩} fa)
  | ⟨5, _⟩ => (aM.view.loc (c : Thread nD τ) ↦[Finset.univ \ (s2A_5 c tb htb i h2).view.set]{qTok s ⟨5, Nat.le_of_ble_eq_true rfl⟩} fa)
  | ⟨6, _⟩ => (aM.view.loc (c : Thread nD τ) ↦[Finset.univ \ (s2A_6 c tb htb i h2).view.set]{qTok s ⟨6, Nat.le_of_ble_eq_true rfl⟩} fa)
  | ⟨7, _⟩ => (aM.view.loc (c : Thread nD τ) ↦[Finset.univ \ (s2A_7 c tb htb i h2).view.set]{qTok s ⟨7, Nat.le_of_ble_eq_true rfl⟩} fa)
  | ⟨8, _⟩ => (aM.view.loc (c : Thread nD τ) ↦[Finset.univ \ (s2A_8 c tb htb i h2).view.set]{qTok s ⟨8, Nat.le_of_ble_eq_true rfl⟩} fa)
  | ⟨9, _⟩ => (aM.view.loc (c : Thread nD τ) ↦[Finset.univ \ (s2A_9 c tb htb i h2).view.set]{qTok s ⟨9, Nat.le_of_ble_eq_true rfl⟩} fa)
  | ⟨10, _⟩ => (aM.view.loc (c : Thread nD τ) ↦[Finset.univ \ (s2A_10 c tb htb i h2).view.set]{qTok s ⟨10, Nat.le_of_ble_eq_true rfl⟩} fa)
  | ⟨11, _⟩ => (aM.view.loc (c : Thread nD τ) ↦[Finset.univ \ (s2A_11 c tb htb i h2).view.set]{qTok s ⟨11, Nat.le_of_ble_eq_true rfl⟩} fa)
  | ⟨12, _⟩ => (aM.view.loc (c : Thread nD τ) ↦[Finset.univ \ (s2A_12 c tb htb i h2).view.set]{qTok s ⟨12, Nat.le_of_ble_eq_true rfl⟩} fa)
  | ⟨13, _⟩ => (aM.view.loc (c : Thread nD τ) ↦[Finset.univ \ (s2A_13 c tb htb i h2).view.set]{qTok s ⟨13, Nat.le_of_ble_eq_true rfl⟩} fa)
  | ⟨14, _⟩ => (aM.view.loc (c : Thread nD τ) ↦[Finset.univ \ (s2A_14 c tb htb i h2).view.set]{qTok s ⟨14, Nat.le_of_ble_eq_true rfl⟩} fa)
  | ⟨15, _⟩ => (aM.view.loc (c : Thread nD τ) ↦[Finset.univ \ (s2A_15 c tb htb i h2).view.set]{qTok s ⟨15, Nat.le_of_ble_eq_true rfl⟩} fa)
  | ⟨16, _⟩ => (aM.view.loc (c : Thread nD τ) ↦[Finset.univ \ (s2A_16 c tb htb i h2).view.set]{qTok s ⟨16, Nat.le_of_ble_eq_true rfl⟩} fa)
  | ⟨17, _⟩ => (aM.view.loc (c : Thread nD τ) ↦[Finset.univ \ (s2A_17 c tb htb i h2).view.set]{qTok s ⟨17, Nat.le_of_ble_eq_true rfl⟩} fa)
  | ⟨18, _⟩ => (aM.view.loc (c : Thread nD τ) ↦[Finset.univ \ (s2A_18 c tb htb i h2).view.set]{qTok s ⟨18, Nat.le_of_ble_eq_true rfl⟩} fa)
  | ⟨19, _⟩ => (aM.view.loc (c : Thread nD τ) ↦[Finset.univ \ (s2A_19 c tb htb i h2).view.set]{qTok s ⟨19, Nat.le_of_ble_eq_true rfl⟩} fa)
  | ⟨20, _⟩ => (aM.view.loc (c : Thread nD τ) ↦[Finset.univ \ (s2A_20 c tb htb i h2).view.set]{qTok s ⟨20, Nat.le_of_ble_eq_true rfl⟩} fa)
  | ⟨21, _⟩ => (aM.view.loc (c : Thread nD τ) ↦[Finset.univ \ (s2A_21 c tb htb i h2).view.set]{qTok s ⟨21, Nat.le_of_ble_eq_true rfl⟩} fa)
  | ⟨22, _⟩ => (aM.view.loc (c : Thread nD τ) ↦[Finset.univ \ (s2A_22 c tb htb i h2).view.set]{qTok s ⟨22, Nat.le_of_ble_eq_true rfl⟩} fa)
  | ⟨23, _⟩ => (aM.view.loc (c : Thread nD τ) ↦[Finset.univ \ (s2A_23 c tb htb i h2).view.set]{qTok s ⟨23, Nat.le_of_ble_eq_true rfl⟩} fa)
  | ⟨24, _⟩ => (aM.view.loc (c : Thread nD τ) ↦[Finset.univ \ (s2A_24 c tb htb i h2).view.set]{qTok s ⟨24, Nat.le_of_ble_eq_true rfl⟩} fa)
  | ⟨25, _⟩ => (aM.view.loc (c : Thread nD τ) ↦[Finset.univ \ (s2A_25 c tb htb i h2).view.set]{qTok s ⟨25, Nat.le_of_ble_eq_true rfl⟩} fa)
  | ⟨26, _⟩ => (aM.view.loc (c : Thread nD τ) ↦[Finset.univ \ (s2A_26 c tb htb i h2).view.set]{qTok s ⟨26, Nat.le_of_ble_eq_true rfl⟩} fa)
  | ⟨27, _⟩ => (aM.view.loc (c : Thread nD τ) ↦[Finset.univ \ (s2A_27 c tb htb i h2).view.set]{qTok s ⟨27, Nat.le_of_ble_eq_true rfl⟩} fa)
  | ⟨28, _⟩ => (aM.view.loc (c : Thread nD τ) ↦[Finset.univ \ (s2A_28 c tb htb i h2).view.set]{qTok s ⟨28, Nat.le_of_ble_eq_true rfl⟩} fa)
  | ⟨29, _⟩ => (aM.view.loc (c : Thread nD τ) ↦[Finset.univ \ (s2A_29 c tb htb i h2).view.set]{qTok s ⟨29, Nat.le_of_ble_eq_true rfl⟩} fa)
  | ⟨30, _⟩ => (aM.view.loc (c : Thread nD τ) ↦[Finset.univ \ (s2A_30 c tb htb i h2).view.set]{qTok s ⟨30, Nat.le_of_ble_eq_true rfl⟩} fa)
  | ⟨31, _⟩ => (aM.view.loc (c : Thread nD τ) ↦[Finset.univ \ (s2A_31 c tb htb i h2).view.set]{qTok s ⟨31, Nat.le_of_ble_eq_true rfl⟩} fa)
  | ⟨32, _⟩ => (aM.view.loc (c : Thread nD τ) ↦[Finset.univ \ (s2A_32 c tb htb i h2).view.set]{qTok s ⟨32, Nat.le_of_ble_eq_true rfl⟩} fa)
  | ⟨33, _⟩ => (aM.view.loc (c : Thread nD τ) ↦[Finset.univ \ (s2A_33 c tb htb i h2).view.set]{qTok s ⟨33, Nat.le_of_ble_eq_true rfl⟩} fa)
  | ⟨34, _⟩ => (aM.view.loc (c : Thread nD τ) ↦[Finset.univ \ (s2A_34 c tb htb i h2).view.set]{qTok s ⟨34, Nat.le_of_ble_eq_true rfl⟩} fa)
  | ⟨35, _⟩ => (aM.view.loc (c : Thread nD τ) ↦[Finset.univ \ (s2A_35 c tb htb i h2).view.set]{qTok s ⟨35, Nat.le_of_ble_eq_true rfl⟩} fa)
  | ⟨36, _⟩ => (aM.view.loc (c : Thread nD τ) ↦[Finset.univ \ (s2A_36 c tb htb i h2).view.set]{qTok s ⟨36, Nat.le_of_ble_eq_true rfl⟩} fa)
  | ⟨37, _⟩ => (aM.view.loc (c : Thread nD τ) ↦[Finset.univ \ (s2A_37 c tb htb i h2).view.set]{qTok s ⟨37, Nat.le_of_ble_eq_true rfl⟩} fa)
  | ⟨38, _⟩ => (aM.view.loc (c : Thread nD τ) ↦[Finset.univ \ (s2A_38 c tb htb i h2).view.set]{qTok s ⟨38, Nat.le_of_ble_eq_true rfl⟩} fa)
  | ⟨39, _⟩ => (aM.view.loc (c : Thread nD τ) ↦[Finset.univ \ (s2A_39 c tb htb i h2).view.set]{qTok s ⟨39, Nat.le_of_ble_eq_true rfl⟩} fa)
  | ⟨40, _⟩ => (aM.view.loc (c : Thread nD τ) ↦[Finset.univ \ (s2A_40 c tb htb i h2).view.set]{qTok s ⟨40, Nat.le_of_ble_eq_true rfl⟩} fa)
  | ⟨41, _⟩ => (aM.view.loc (c : Thread nD τ) ↦[Finset.univ \ (s2A_41 c tb htb i h2).view.set]{qTok s ⟨41, Nat.le_of_ble_eq_true rfl⟩} fa)
  | ⟨42, _⟩ => (aM.view.loc (c : Thread nD τ) ↦[Finset.univ \ (s2A_42 c tb htb i h2).view.set]{qTok s ⟨42, Nat.le_of_ble_eq_true rfl⟩} fa)
  | ⟨43, _⟩ => (aM.view.loc (c : Thread nD τ) ↦[Finset.univ \ (s2A_43 c tb htb i h2).view.set]{qTok s ⟨43, Nat.le_of_ble_eq_true rfl⟩} fa)
  | ⟨44, _⟩ => (aM.view.loc (c : Thread nD τ) ↦[Finset.univ \ (s2A_44 c tb htb i h2).view.set]{qTok s ⟨44, Nat.le_of_ble_eq_true rfl⟩} fa)
  | ⟨45, _⟩ => (aM.view.loc (c : Thread nD τ) ↦[Finset.univ \ (s2A_45 c tb htb i h2).view.set]{qTok s ⟨45, Nat.le_of_ble_eq_true rfl⟩} fa)
  | ⟨46, _⟩ => (aM.view.loc (c : Thread nD τ) ↦[Finset.univ \ (s2A_46 c tb htb i h2).view.set]{qTok s ⟨46, Nat.le_of_ble_eq_true rfl⟩} fa)
  | ⟨47, _⟩ => (aM.view.loc (c : Thread nD τ) ↦[Finset.univ \ (s2A_47 c tb htb i h2).view.set]{qTok s ⟨47, Nat.le_of_ble_eq_true rfl⟩} fa)
  | ⟨48, _⟩ => (aM.view.loc (c : Thread nD τ) ↦[Finset.univ \ (s2A_48 c tb htb i h2).view.set]{qTok s ⟨48, Nat.le_of_ble_eq_true rfl⟩} fa)
  | ⟨49, _⟩ => (aM.view.loc (c : Thread nD τ) ↦[Finset.univ \ (s2A_49 c tb htb i h2).view.set]{qTok s ⟨49, Nat.le_of_ble_eq_true rfl⟩} fa)
  | ⟨50, _⟩ => (aM.view.loc (c : Thread nD τ) ↦[Finset.univ \ (s2A_50 c tb htb i h2).view.set]{qTok s ⟨50, Nat.le_of_ble_eq_true rfl⟩} fa)
  | ⟨51, _⟩ => (aM.view.loc (c : Thread nD τ) ↦[Finset.univ \ (s2A_51 c tb htb i h2).view.set]{qTok s ⟨51, Nat.le_of_ble_eq_true rfl⟩} fa)
  | ⟨52, _⟩ => (aM.view.loc (c : Thread nD τ) ↦[Finset.univ \ (s2A_52 c tb htb i h2).view.set]{qTok s ⟨52, Nat.le_of_ble_eq_true rfl⟩} fa)
  | ⟨53, _⟩ => (aM.view.loc (c : Thread nD τ) ↦[Finset.univ \ (s2A_53 c tb htb i h2).view.set]{qTok s ⟨53, Nat.le_of_ble_eq_true rfl⟩} fa)
  | ⟨54, _⟩ => (aM.view.loc (c : Thread nD τ) ↦[Finset.univ \ (s2A_54 c tb htb i h2).view.set]{qTok s ⟨54, Nat.le_of_ble_eq_true rfl⟩} fa)
  | ⟨55, _⟩ => (aM.view.loc (c : Thread nD τ) ↦[Finset.univ \ (s2A_55 c tb htb i h2).view.set]{qTok s ⟨55, Nat.le_of_ble_eq_true rfl⟩} fa)
  | ⟨56, _⟩ => (aM.view.loc (c : Thread nD τ) ↦[Finset.univ \ (s2A_56 c tb htb i h2).view.set]{qTok s ⟨56, Nat.le_of_ble_eq_true rfl⟩} fa)
  | ⟨57, _⟩ => (aM.view.loc (c : Thread nD τ) ↦[Finset.univ \ (s2A_57 c tb htb i h2).view.set]{qTok s ⟨57, Nat.le_of_ble_eq_true rfl⟩} fa)
  | ⟨58, _⟩ => (aM.view.loc (c : Thread nD τ) ↦[Finset.univ \ (s2A_58 c tb htb i h2).view.set]{qTok s ⟨58, Nat.le_of_ble_eq_true rfl⟩} fa)
  | ⟨59, _⟩ => (aM.view.loc (c : Thread nD τ) ↦[Finset.univ \ (s2A_59 c tb htb i h2).view.set]{qTok s ⟨59, Nat.le_of_ble_eq_true rfl⟩} fa)
  | ⟨60, _⟩ => (aM.view.loc (c : Thread nD τ) ↦[Finset.univ \ (s2A_60 c tb htb i h2).view.set]{qTok s ⟨60, Nat.le_of_ble_eq_true rfl⟩} fa)
  | ⟨61, _⟩ => (aM.view.loc (c : Thread nD τ) ↦[Finset.univ \ (s2A_61 c tb htb i h2).view.set]{qTok s ⟨61, Nat.le_of_ble_eq_true rfl⟩} fa)
  | ⟨62, _⟩ => (aM.view.loc (c : Thread nD τ) ↦[Finset.univ \ (s2A_62 c tb htb i h2).view.set]{qTok s ⟨62, Nat.le_of_ble_eq_true rfl⟩} fa)
  | ⟨63, _⟩ => (aM.view.loc (c : Thread nD τ) ↦[Finset.univ \ (s2A_63 c tb htb i h2).view.set]{qTok s ⟨63, Nat.le_of_ble_eq_true rfl⟩} fa)
  | ⟨_ + 64, h⟩ => absurd h (Nat.not_lt.2 (Nat.le_add_left _ _))
/-- What each row of slot s holds once copy r of array A (fetch 2) has landed. -/
def L2A (htb : ∀ y, (tb y).toNat < 4096) (i : grid0.Coords) (h2 : k0_cond2 i = 1#1) (s : Fin 2) : Fin 64 → MBuf (F := F) c scA
  | ⟨0, _⟩ => landedJ c (s2A_0 c tb htb i h2) (rowM scA s ⟨0, Nat.le_of_ble_eq_true rfl⟩) fa
  | ⟨1, _⟩ => landedJ c (s2A_1 c tb htb i h2) (rowM scA s ⟨1, Nat.le_of_ble_eq_true rfl⟩) fa
  | ⟨2, _⟩ => landedJ c (s2A_2 c tb htb i h2) (rowM scA s ⟨2, Nat.le_of_ble_eq_true rfl⟩) fa
  | ⟨3, _⟩ => landedJ c (s2A_3 c tb htb i h2) (rowM scA s ⟨3, Nat.le_of_ble_eq_true rfl⟩) fa
  | ⟨4, _⟩ => landedJ c (s2A_4 c tb htb i h2) (rowM scA s ⟨4, Nat.le_of_ble_eq_true rfl⟩) fa
  | ⟨5, _⟩ => landedJ c (s2A_5 c tb htb i h2) (rowM scA s ⟨5, Nat.le_of_ble_eq_true rfl⟩) fa
  | ⟨6, _⟩ => landedJ c (s2A_6 c tb htb i h2) (rowM scA s ⟨6, Nat.le_of_ble_eq_true rfl⟩) fa
  | ⟨7, _⟩ => landedJ c (s2A_7 c tb htb i h2) (rowM scA s ⟨7, Nat.le_of_ble_eq_true rfl⟩) fa
  | ⟨8, _⟩ => landedJ c (s2A_8 c tb htb i h2) (rowM scA s ⟨8, Nat.le_of_ble_eq_true rfl⟩) fa
  | ⟨9, _⟩ => landedJ c (s2A_9 c tb htb i h2) (rowM scA s ⟨9, Nat.le_of_ble_eq_true rfl⟩) fa
  | ⟨10, _⟩ => landedJ c (s2A_10 c tb htb i h2) (rowM scA s ⟨10, Nat.le_of_ble_eq_true rfl⟩) fa
  | ⟨11, _⟩ => landedJ c (s2A_11 c tb htb i h2) (rowM scA s ⟨11, Nat.le_of_ble_eq_true rfl⟩) fa
  | ⟨12, _⟩ => landedJ c (s2A_12 c tb htb i h2) (rowM scA s ⟨12, Nat.le_of_ble_eq_true rfl⟩) fa
  | ⟨13, _⟩ => landedJ c (s2A_13 c tb htb i h2) (rowM scA s ⟨13, Nat.le_of_ble_eq_true rfl⟩) fa
  | ⟨14, _⟩ => landedJ c (s2A_14 c tb htb i h2) (rowM scA s ⟨14, Nat.le_of_ble_eq_true rfl⟩) fa
  | ⟨15, _⟩ => landedJ c (s2A_15 c tb htb i h2) (rowM scA s ⟨15, Nat.le_of_ble_eq_true rfl⟩) fa
  | ⟨16, _⟩ => landedJ c (s2A_16 c tb htb i h2) (rowM scA s ⟨16, Nat.le_of_ble_eq_true rfl⟩) fa
  | ⟨17, _⟩ => landedJ c (s2A_17 c tb htb i h2) (rowM scA s ⟨17, Nat.le_of_ble_eq_true rfl⟩) fa
  | ⟨18, _⟩ => landedJ c (s2A_18 c tb htb i h2) (rowM scA s ⟨18, Nat.le_of_ble_eq_true rfl⟩) fa
  | ⟨19, _⟩ => landedJ c (s2A_19 c tb htb i h2) (rowM scA s ⟨19, Nat.le_of_ble_eq_true rfl⟩) fa
  | ⟨20, _⟩ => landedJ c (s2A_20 c tb htb i h2) (rowM scA s ⟨20, Nat.le_of_ble_eq_true rfl⟩) fa
  | ⟨21, _⟩ => landedJ c (s2A_21 c tb htb i h2) (rowM scA s ⟨21, Nat.le_of_ble_eq_true rfl⟩) fa
  | ⟨22, _⟩ => landedJ c (s2A_22 c tb htb i h2) (rowM scA s ⟨22, Nat.le_of_ble_eq_true rfl⟩) fa
  | ⟨23, _⟩ => landedJ c (s2A_23 c tb htb i h2) (rowM scA s ⟨23, Nat.le_of_ble_eq_true rfl⟩) fa
  | ⟨24, _⟩ => landedJ c (s2A_24 c tb htb i h2) (rowM scA s ⟨24, Nat.le_of_ble_eq_true rfl⟩) fa
  | ⟨25, _⟩ => landedJ c (s2A_25 c tb htb i h2) (rowM scA s ⟨25, Nat.le_of_ble_eq_true rfl⟩) fa
  | ⟨26, _⟩ => landedJ c (s2A_26 c tb htb i h2) (rowM scA s ⟨26, Nat.le_of_ble_eq_true rfl⟩) fa
  | ⟨27, _⟩ => landedJ c (s2A_27 c tb htb i h2) (rowM scA s ⟨27, Nat.le_of_ble_eq_true rfl⟩) fa
  | ⟨28, _⟩ => landedJ c (s2A_28 c tb htb i h2) (rowM scA s ⟨28, Nat.le_of_ble_eq_true rfl⟩) fa
  | ⟨29, _⟩ => landedJ c (s2A_29 c tb htb i h2) (rowM scA s ⟨29, Nat.le_of_ble_eq_true rfl⟩) fa
  | ⟨30, _⟩ => landedJ c (s2A_30 c tb htb i h2) (rowM scA s ⟨30, Nat.le_of_ble_eq_true rfl⟩) fa
  | ⟨31, _⟩ => landedJ c (s2A_31 c tb htb i h2) (rowM scA s ⟨31, Nat.le_of_ble_eq_true rfl⟩) fa
  | ⟨32, _⟩ => landedJ c (s2A_32 c tb htb i h2) (rowM scA s ⟨32, Nat.le_of_ble_eq_true rfl⟩) fa
  | ⟨33, _⟩ => landedJ c (s2A_33 c tb htb i h2) (rowM scA s ⟨33, Nat.le_of_ble_eq_true rfl⟩) fa
  | ⟨34, _⟩ => landedJ c (s2A_34 c tb htb i h2) (rowM scA s ⟨34, Nat.le_of_ble_eq_true rfl⟩) fa
  | ⟨35, _⟩ => landedJ c (s2A_35 c tb htb i h2) (rowM scA s ⟨35, Nat.le_of_ble_eq_true rfl⟩) fa
  | ⟨36, _⟩ => landedJ c (s2A_36 c tb htb i h2) (rowM scA s ⟨36, Nat.le_of_ble_eq_true rfl⟩) fa
  | ⟨37, _⟩ => landedJ c (s2A_37 c tb htb i h2) (rowM scA s ⟨37, Nat.le_of_ble_eq_true rfl⟩) fa
  | ⟨38, _⟩ => landedJ c (s2A_38 c tb htb i h2) (rowM scA s ⟨38, Nat.le_of_ble_eq_true rfl⟩) fa
  | ⟨39, _⟩ => landedJ c (s2A_39 c tb htb i h2) (rowM scA s ⟨39, Nat.le_of_ble_eq_true rfl⟩) fa
  | ⟨40, _⟩ => landedJ c (s2A_40 c tb htb i h2) (rowM scA s ⟨40, Nat.le_of_ble_eq_true rfl⟩) fa
  | ⟨41, _⟩ => landedJ c (s2A_41 c tb htb i h2) (rowM scA s ⟨41, Nat.le_of_ble_eq_true rfl⟩) fa
  | ⟨42, _⟩ => landedJ c (s2A_42 c tb htb i h2) (rowM scA s ⟨42, Nat.le_of_ble_eq_true rfl⟩) fa
  | ⟨43, _⟩ => landedJ c (s2A_43 c tb htb i h2) (rowM scA s ⟨43, Nat.le_of_ble_eq_true rfl⟩) fa
  | ⟨44, _⟩ => landedJ c (s2A_44 c tb htb i h2) (rowM scA s ⟨44, Nat.le_of_ble_eq_true rfl⟩) fa
  | ⟨45, _⟩ => landedJ c (s2A_45 c tb htb i h2) (rowM scA s ⟨45, Nat.le_of_ble_eq_true rfl⟩) fa
  | ⟨46, _⟩ => landedJ c (s2A_46 c tb htb i h2) (rowM scA s ⟨46, Nat.le_of_ble_eq_true rfl⟩) fa
  | ⟨47, _⟩ => landedJ c (s2A_47 c tb htb i h2) (rowM scA s ⟨47, Nat.le_of_ble_eq_true rfl⟩) fa
  | ⟨48, _⟩ => landedJ c (s2A_48 c tb htb i h2) (rowM scA s ⟨48, Nat.le_of_ble_eq_true rfl⟩) fa
  | ⟨49, _⟩ => landedJ c (s2A_49 c tb htb i h2) (rowM scA s ⟨49, Nat.le_of_ble_eq_true rfl⟩) fa
  | ⟨50, _⟩ => landedJ c (s2A_50 c tb htb i h2) (rowM scA s ⟨50, Nat.le_of_ble_eq_true rfl⟩) fa
  | ⟨51, _⟩ => landedJ c (s2A_51 c tb htb i h2) (rowM scA s ⟨51, Nat.le_of_ble_eq_true rfl⟩) fa
  | ⟨52, _⟩ => landedJ c (s2A_52 c tb htb i h2) (rowM scA s ⟨52, Nat.le_of_ble_eq_true rfl⟩) fa
  | ⟨53, _⟩ => landedJ c (s2A_53 c tb htb i h2) (rowM scA s ⟨53, Nat.le_of_ble_eq_true rfl⟩) fa
  | ⟨54, _⟩ => landedJ c (s2A_54 c tb htb i h2) (rowM scA s ⟨54, Nat.le_of_ble_eq_true rfl⟩) fa
  | ⟨55, _⟩ => landedJ c (s2A_55 c tb htb i h2) (rowM scA s ⟨55, Nat.le_of_ble_eq_true rfl⟩) fa
  | ⟨56, _⟩ => landedJ c (s2A_56 c tb htb i h2) (rowM scA s ⟨56, Nat.le_of_ble_eq_true rfl⟩) fa
  | ⟨57, _⟩ => landedJ c (s2A_57 c tb htb i h2) (rowM scA s ⟨57, Nat.le_of_ble_eq_true rfl⟩) fa
  | ⟨58, _⟩ => landedJ c (s2A_58 c tb htb i h2) (rowM scA s ⟨58, Nat.le_of_ble_eq_true rfl⟩) fa
  | ⟨59, _⟩ => landedJ c (s2A_59 c tb htb i h2) (rowM scA s ⟨59, Nat.le_of_ble_eq_true rfl⟩) fa
  | ⟨60, _⟩ => landedJ c (s2A_60 c tb htb i h2) (rowM scA s ⟨60, Nat.le_of_ble_eq_true rfl⟩) fa
  | ⟨61, _⟩ => landedJ c (s2A_61 c tb htb i h2) (rowM scA s ⟨61, Nat.le_of_ble_eq_true rfl⟩) fa
  | ⟨62, _⟩ => landedJ c (s2A_62 c tb htb i h2) (rowM scA s ⟨62, Nat.le_of_ble_eq_true rfl⟩) fa
  | ⟨63, _⟩ => landedJ c (s2A_63 c tb htb i h2) (rowM scA s ⟨63, Nat.le_of_ble_eq_true rfl⟩) fa
  | ⟨_ + 64, h⟩ => absurd h (Nat.not_lt.2 (Nat.le_add_left _ _))
/-- The deliveries of the 64 copies of array B (fetch 2) into slot s, in the order the copies are started. -/
def D2B (htb : ∀ y, (tb y).toNat < 4096) (i : grid0.Coords) (h2 : k0_cond2 i = 1#1) (s : Fin 2) : Fin 64 → sProp 𝕄
  | ⟨0, _⟩ => deliv c (s2B_0 c tb htb i h2) (rowM scB s ⟨0, Nat.le_of_ble_eq_true rfl⟩) (qTok s ⟨0, Nat.le_of_ble_eq_true rfl⟩) fb
  | ⟨1, _⟩ => deliv c (s2B_1 c tb htb i h2) (rowM scB s ⟨1, Nat.le_of_ble_eq_true rfl⟩) (qTok s ⟨1, Nat.le_of_ble_eq_true rfl⟩) fb
  | ⟨2, _⟩ => deliv c (s2B_2 c tb htb i h2) (rowM scB s ⟨2, Nat.le_of_ble_eq_true rfl⟩) (qTok s ⟨2, Nat.le_of_ble_eq_true rfl⟩) fb
  | ⟨3, _⟩ => deliv c (s2B_3 c tb htb i h2) (rowM scB s ⟨3, Nat.le_of_ble_eq_true rfl⟩) (qTok s ⟨3, Nat.le_of_ble_eq_true rfl⟩) fb
  | ⟨4, _⟩ => deliv c (s2B_4 c tb htb i h2) (rowM scB s ⟨4, Nat.le_of_ble_eq_true rfl⟩) (qTok s ⟨4, Nat.le_of_ble_eq_true rfl⟩) fb
  | ⟨5, _⟩ => deliv c (s2B_5 c tb htb i h2) (rowM scB s ⟨5, Nat.le_of_ble_eq_true rfl⟩) (qTok s ⟨5, Nat.le_of_ble_eq_true rfl⟩) fb
  | ⟨6, _⟩ => deliv c (s2B_6 c tb htb i h2) (rowM scB s ⟨6, Nat.le_of_ble_eq_true rfl⟩) (qTok s ⟨6, Nat.le_of_ble_eq_true rfl⟩) fb
  | ⟨7, _⟩ => deliv c (s2B_7 c tb htb i h2) (rowM scB s ⟨7, Nat.le_of_ble_eq_true rfl⟩) (qTok s ⟨7, Nat.le_of_ble_eq_true rfl⟩) fb
  | ⟨8, _⟩ => deliv c (s2B_8 c tb htb i h2) (rowM scB s ⟨8, Nat.le_of_ble_eq_true rfl⟩) (qTok s ⟨8, Nat.le_of_ble_eq_true rfl⟩) fb
  | ⟨9, _⟩ => deliv c (s2B_9 c tb htb i h2) (rowM scB s ⟨9, Nat.le_of_ble_eq_true rfl⟩) (qTok s ⟨9, Nat.le_of_ble_eq_true rfl⟩) fb
  | ⟨10, _⟩ => deliv c (s2B_10 c tb htb i h2) (rowM scB s ⟨10, Nat.le_of_ble_eq_true rfl⟩) (qTok s ⟨10, Nat.le_of_ble_eq_true rfl⟩) fb
  | ⟨11, _⟩ => deliv c (s2B_11 c tb htb i h2) (rowM scB s ⟨11, Nat.le_of_ble_eq_true rfl⟩) (qTok s ⟨11, Nat.le_of_ble_eq_true rfl⟩) fb
  | ⟨12, _⟩ => deliv c (s2B_12 c tb htb i h2) (rowM scB s ⟨12, Nat.le_of_ble_eq_true rfl⟩) (qTok s ⟨12, Nat.le_of_ble_eq_true rfl⟩) fb
  | ⟨13, _⟩ => deliv c (s2B_13 c tb htb i h2) (rowM scB s ⟨13, Nat.le_of_ble_eq_true rfl⟩) (qTok s ⟨13, Nat.le_of_ble_eq_true rfl⟩) fb
  | ⟨14, _⟩ => deliv c (s2B_14 c tb htb i h2) (rowM scB s ⟨14, Nat.le_of_ble_eq_true rfl⟩) (qTok s ⟨14, Nat.le_of_ble_eq_true rfl⟩) fb
  | ⟨15, _⟩ => deliv c (s2B_15 c tb htb i h2) (rowM scB s ⟨15, Nat.le_of_ble_eq_true rfl⟩) (qTok s ⟨15, Nat.le_of_ble_eq_true rfl⟩) fb
  | ⟨16, _⟩ => deliv c (s2B_16 c tb htb i h2) (rowM scB s ⟨16, Nat.le_of_ble_eq_true rfl⟩) (qTok s ⟨16, Nat.le_of_ble_eq_true rfl⟩) fb
  | ⟨17, _⟩ => deliv c (s2B_17 c tb htb i h2) (rowM scB s ⟨17, Nat.le_of_ble_eq_true rfl⟩) (qTok s ⟨17, Nat.le_of_ble_eq_true rfl⟩) fb
  | ⟨18, _⟩ => deliv c (s2B_18 c tb htb i h2) (rowM scB s ⟨18, Nat.le_of_ble_eq_true rfl⟩) (qTok s ⟨18, Nat.le_of_ble_eq_true rfl⟩) fb
  | ⟨19, _⟩ => deliv c (s2B_19 c tb htb i h2) (rowM scB s ⟨19, Nat.le_of_ble_eq_true rfl⟩) (qTok s ⟨19, Nat.le_of_ble_eq_true rfl⟩) fb
  | ⟨20, _⟩ => deliv c (s2B_20 c tb htb i h2) (rowM scB s ⟨20, Nat.le_of_ble_eq_true rfl⟩) (qTok s ⟨20, Nat.le_of_ble_eq_true rfl⟩) fb
  | ⟨21, _⟩ => deliv c (s2B_21 c tb htb i h2) (rowM scB s ⟨21, Nat.le_of_ble_eq_true rfl⟩) (qTok s ⟨21, Nat.le_of_ble_eq_true rfl⟩) fb
  | ⟨22, _⟩ => deliv c (s2B_22 c tb htb i h2) (rowM scB s ⟨22, Nat.le_of_ble_eq_true rfl⟩) (qTok s ⟨22, Nat.le_of_ble_eq_true rfl⟩) fb
  | ⟨23, _⟩ => deliv c (s2B_23 c tb htb i h2) (rowM scB s ⟨23, Nat.le_of_ble_eq_true rfl⟩) (qTok s ⟨23, Nat.le_of_ble_eq_true rfl⟩) fb
  | ⟨24, _⟩ => deliv c (s2B_24 c tb htb i h2) (rowM scB s ⟨24, Nat.le_of_ble_eq_true rfl⟩) (qTok s ⟨24, Nat.le_of_ble_eq_true rfl⟩) fb
  | ⟨25, _⟩ => deliv c (s2B_25 c tb htb i h2) (rowM scB s ⟨25, Nat.le_of_ble_eq_true rfl⟩) (qTok s ⟨25, Nat.le_of_ble_eq_true rfl⟩) fb
  | ⟨26, _⟩ => deliv c (s2B_26 c tb htb i h2) (rowM scB s ⟨26, Nat.le_of_ble_eq_true rfl⟩) (qTok s ⟨26, Nat.le_of_ble_eq_true rfl⟩) fb
  | ⟨27, _⟩ => deliv c (s2B_27 c tb htb i h2) (rowM scB s ⟨27, Nat.le_of_ble_eq_true rfl⟩) (qTok s ⟨27, Nat.le_of_ble_eq_true rfl⟩) fb
  | ⟨28, _⟩ => deliv c (s2B_28 c tb htb i h2) (rowM scB s ⟨28, Nat.le_of_ble_eq_true rfl⟩) (qTok s ⟨28, Nat.le_of_ble_eq_true rfl⟩) fb
  | ⟨29, _⟩ => deliv c (s2B_29 c tb htb i h2) (rowM scB s ⟨29, Nat.le_of_ble_eq_true rfl⟩) (qTok s ⟨29, Nat.le_of_ble_eq_true rfl⟩) fb
  | ⟨30, _⟩ => deliv c (s2B_30 c tb htb i h2) (rowM scB s ⟨30, Nat.le_of_ble_eq_true rfl⟩) (qTok s ⟨30, Nat.le_of_ble_eq_true rfl⟩) fb
  | ⟨31, _⟩ => deliv c (s2B_31 c tb htb i h2) (rowM scB s ⟨31, Nat.le_of_ble_eq_true rfl⟩) (qTok s ⟨31, Nat.le_of_ble_eq_true rfl⟩) fb
  | ⟨32, _⟩ => deliv c (s2B_32 c tb htb i h2) (rowM scB s ⟨32, Nat.le_of_ble_eq_true rfl⟩) (qTok s ⟨32, Nat.le_of_ble_eq_true rfl⟩) fb
  | ⟨33, _⟩ => deliv c (s2B_33 c tb htb i h2) (rowM scB s ⟨33, Nat.le_of_ble_eq_true rfl⟩) (qTok s ⟨33, Nat.le_of_ble_eq_true rfl⟩) fb
  | ⟨34, _⟩ => deliv c (s2B_34 c tb htb i h2) (rowM scB s ⟨34, Nat.le_of_ble_eq_true rfl⟩) (qTok s ⟨34, Nat.le_of_ble_eq_true rfl⟩) fb
  | ⟨35, _⟩ => deliv c (s2B_35 c tb htb i h2) (rowM scB s ⟨35, Nat.le_of_ble_eq_true rfl⟩) (qTok s ⟨35, Nat.le_of_ble_eq_true rfl⟩) fb
  | ⟨36, _⟩ => deliv c (s2B_36 c tb htb i h2) (rowM scB s ⟨36, Nat.le_of_ble_eq_true rfl⟩) (qTok s ⟨36, Nat.le_of_ble_eq_true rfl⟩) fb
  | ⟨37, _⟩ => deliv c (s2B_37 c tb htb i h2) (rowM scB s ⟨37, Nat.le_of_ble_eq_true rfl⟩) (qTok s ⟨37, Nat.le_of_ble_eq_true rfl⟩) fb
  | ⟨38, _⟩ => deliv c (s2B_38 c tb htb i h2) (rowM scB s ⟨38, Nat.le_of_ble_eq_true rfl⟩) (qTok s ⟨38, Nat.le_of_ble_eq_true rfl⟩) fb
  | ⟨39, _⟩ => deliv c (s2B_39 c tb htb i h2) (rowM scB s ⟨39, Nat.le_of_ble_eq_true rfl⟩) (qTok s ⟨39, Nat.le_of_ble_eq_true rfl⟩) fb
  | ⟨40, _⟩ => deliv c (s2B_40 c tb htb i h2) (rowM scB s ⟨40, Nat.le_of_ble_eq_true rfl⟩) (qTok s ⟨40, Nat.le_of_ble_eq_true rfl⟩) fb
  | ⟨41, _⟩ => deliv c (s2B_41 c tb htb i h2) (rowM scB s ⟨41, Nat.le_of_ble_eq_true rfl⟩) (qTok s ⟨41, Nat.le_of_ble_eq_true rfl⟩) fb
  | ⟨42, _⟩ => deliv c (s2B_42 c tb htb i h2) (rowM scB s ⟨42, Nat.le_of_ble_eq_true rfl⟩) (qTok s ⟨42, Nat.le_of_ble_eq_true rfl⟩) fb
  | ⟨43, _⟩ => deliv c (s2B_43 c tb htb i h2) (rowM scB s ⟨43, Nat.le_of_ble_eq_true rfl⟩) (qTok s ⟨43, Nat.le_of_ble_eq_true rfl⟩) fb
  | ⟨44, _⟩ => deliv c (s2B_44 c tb htb i h2) (rowM scB s ⟨44, Nat.le_of_ble_eq_true rfl⟩) (qTok s ⟨44, Nat.le_of_ble_eq_true rfl⟩) fb
  | ⟨45, _⟩ => deliv c (s2B_45 c tb htb i h2) (rowM scB s ⟨45, Nat.le_of_ble_eq_true rfl⟩) (qTok s ⟨45, Nat.le_of_ble_eq_true rfl⟩) fb
  | ⟨46, _⟩ => deliv c (s2B_46 c tb htb i h2) (rowM scB s ⟨46, Nat.le_of_ble_eq_true rfl⟩) (qTok s ⟨46, Nat.le_of_ble_eq_true rfl⟩) fb
  | ⟨47, _⟩ => deliv c (s2B_47 c tb htb i h2) (rowM scB s ⟨47, Nat.le_of_ble_eq_true rfl⟩) (qTok s ⟨47, Nat.le_of_ble_eq_true rfl⟩) fb
  | ⟨48, _⟩ => deliv c (s2B_48 c tb htb i h2) (rowM scB s ⟨48, Nat.le_of_ble_eq_true rfl⟩) (qTok s ⟨48, Nat.le_of_ble_eq_true rfl⟩) fb
  | ⟨49, _⟩ => deliv c (s2B_49 c tb htb i h2) (rowM scB s ⟨49, Nat.le_of_ble_eq_true rfl⟩) (qTok s ⟨49, Nat.le_of_ble_eq_true rfl⟩) fb
  | ⟨50, _⟩ => deliv c (s2B_50 c tb htb i h2) (rowM scB s ⟨50, Nat.le_of_ble_eq_true rfl⟩) (qTok s ⟨50, Nat.le_of_ble_eq_true rfl⟩) fb
  | ⟨51, _⟩ => deliv c (s2B_51 c tb htb i h2) (rowM scB s ⟨51, Nat.le_of_ble_eq_true rfl⟩) (qTok s ⟨51, Nat.le_of_ble_eq_true rfl⟩) fb
  | ⟨52, _⟩ => deliv c (s2B_52 c tb htb i h2) (rowM scB s ⟨52, Nat.le_of_ble_eq_true rfl⟩) (qTok s ⟨52, Nat.le_of_ble_eq_true rfl⟩) fb
  | ⟨53, _⟩ => deliv c (s2B_53 c tb htb i h2) (rowM scB s ⟨53, Nat.le_of_ble_eq_true rfl⟩) (qTok s ⟨53, Nat.le_of_ble_eq_true rfl⟩) fb
  | ⟨54, _⟩ => deliv c (s2B_54 c tb htb i h2) (rowM scB s ⟨54, Nat.le_of_ble_eq_true rfl⟩) (qTok s ⟨54, Nat.le_of_ble_eq_true rfl⟩) fb
  | ⟨55, _⟩ => deliv c (s2B_55 c tb htb i h2) (rowM scB s ⟨55, Nat.le_of_ble_eq_true rfl⟩) (qTok s ⟨55, Nat.le_of_ble_eq_true rfl⟩) fb
  | ⟨56, _⟩ => deliv c (s2B_56 c tb htb i h2) (rowM scB s ⟨56, Nat.le_of_ble_eq_true rfl⟩) (qTok s ⟨56, Nat.le_of_ble_eq_true rfl⟩) fb
  | ⟨57, _⟩ => deliv c (s2B_57 c tb htb i h2) (rowM scB s ⟨57, Nat.le_of_ble_eq_true rfl⟩) (qTok s ⟨57, Nat.le_of_ble_eq_true rfl⟩) fb
  | ⟨58, _⟩ => deliv c (s2B_58 c tb htb i h2) (rowM scB s ⟨58, Nat.le_of_ble_eq_true rfl⟩) (qTok s ⟨58, Nat.le_of_ble_eq_true rfl⟩) fb
  | ⟨59, _⟩ => deliv c (s2B_59 c tb htb i h2) (rowM scB s ⟨59, Nat.le_of_ble_eq_true rfl⟩) (qTok s ⟨59, Nat.le_of_ble_eq_true rfl⟩) fb
  | ⟨60, _⟩ => deliv c (s2B_60 c tb htb i h2) (rowM scB s ⟨60, Nat.le_of_ble_eq_true rfl⟩) (qTok s ⟨60, Nat.le_of_ble_eq_true rfl⟩) fb
  | ⟨61, _⟩ => deliv c (s2B_61 c tb htb i h2) (rowM scB s ⟨61, Nat.le_of_ble_eq_true rfl⟩) (qTok s ⟨61, Nat.le_of_ble_eq_true rfl⟩) fb
  | ⟨62, _⟩ => deliv c (s2B_62 c tb htb i h2) (rowM scB s ⟨62, Nat.le_of_ble_eq_true rfl⟩) (qTok s ⟨62, Nat.le_of_ble_eq_true rfl⟩) fb
  | ⟨63, _⟩ => deliv c (s2B_63 c tb htb i h2) (rowM scB s ⟨63, Nat.le_of_ble_eq_true rfl⟩) (qTok s ⟨63, Nat.le_of_ble_eq_true rfl⟩) fb
  | ⟨_ + 64, h⟩ => absurd h (Nat.not_lt.2 (Nat.le_add_left _ _))
/-- What is left of each of slot s's read shares of array B while its array row is lent to copy r. -/
def R2B (htb : ∀ y, (tb y).toNat < 4096) (i : grid0.Coords) (h2 : k0_cond2 i = 1#1) (s : Fin 2) : Fin 64 → sProp 𝕄
  | ⟨0, _⟩ => (bM.view.loc (c : Thread nD τ) ↦[Finset.univ \ (s2B_0 c tb htb i h2).view.set]{qTok s ⟨0, Nat.le_of_ble_eq_true rfl⟩} fb)
  | ⟨1, _⟩ => (bM.view.loc (c : Thread nD τ) ↦[Finset.univ \ (s2B_1 c tb htb i h2).view.set]{qTok s ⟨1, Nat.le_of_ble_eq_true rfl⟩} fb)
  | ⟨2, _⟩ => (bM.view.loc (c : Thread nD τ) ↦[Finset.univ \ (s2B_2 c tb htb i h2).view.set]{qTok s ⟨2, Nat.le_of_ble_eq_true rfl⟩} fb)
  | ⟨3, _⟩ => (bM.view.loc (c : Thread nD τ) ↦[Finset.univ \ (s2B_3 c tb htb i h2).view.set]{qTok s ⟨3, Nat.le_of_ble_eq_true rfl⟩} fb)
  | ⟨4, _⟩ => (bM.view.loc (c : Thread nD τ) ↦[Finset.univ \ (s2B_4 c tb htb i h2).view.set]{qTok s ⟨4, Nat.le_of_ble_eq_true rfl⟩} fb)
  | ⟨5, _⟩ => (bM.view.loc (c : Thread nD τ) ↦[Finset.univ \ (s2B_5 c tb htb i h2).view.set]{qTok s ⟨5, Nat.le_of_ble_eq_true rfl⟩} fb)
  | ⟨6, _⟩ => (bM.view.loc (c : Thread nD τ) ↦[Finset.univ \ (s2B_6 c tb htb i h2).view.set]{qTok s ⟨6, Nat.le_of_ble_eq_true rfl⟩} fb)
  | ⟨7, _⟩ => (bM.view.loc (c : Thread nD τ) ↦[Finset.univ \ (s2B_7 c tb htb i h2).view.set]{qTok s ⟨7, Nat.le_of_ble_eq_true rfl⟩} fb)
  | ⟨8, _⟩ => (bM.view.loc (c : Thread nD τ) ↦[Finset.univ \ (s2B_8 c tb htb i h2).view.set]{qTok s ⟨8, Nat.le_of_ble_eq_true rfl⟩} fb)
  | ⟨9, _⟩ => (bM.view.loc (c : Thread nD τ) ↦[Finset.univ \ (s2B_9 c tb htb i h2).view.set]{qTok s ⟨9, Nat.le_of_ble_eq_true rfl⟩} fb)
  | ⟨10, _⟩ => (bM.view.loc (c : Thread nD τ) ↦[Finset.univ \ (s2B_10 c tb htb i h2).view.set]{qTok s ⟨10, Nat.le_of_ble_eq_true rfl⟩} fb)
  | ⟨11, _⟩ => (bM.view.loc (c : Thread nD τ) ↦[Finset.univ \ (s2B_11 c tb htb i h2).view.set]{qTok s ⟨11, Nat.le_of_ble_eq_true rfl⟩} fb)
  | ⟨12, _⟩ => (bM.view.loc (c : Thread nD τ) ↦[Finset.univ \ (s2B_12 c tb htb i h2).view.set]{qTok s ⟨12, Nat.le_of_ble_eq_true rfl⟩} fb)
  | ⟨13, _⟩ => (bM.view.loc (c : Thread nD τ) ↦[Finset.univ \ (s2B_13 c tb htb i h2).view.set]{qTok s ⟨13, Nat.le_of_ble_eq_true rfl⟩} fb)
  | ⟨14, _⟩ => (bM.view.loc (c : Thread nD τ) ↦[Finset.univ \ (s2B_14 c tb htb i h2).view.set]{qTok s ⟨14, Nat.le_of_ble_eq_true rfl⟩} fb)
  | ⟨15, _⟩ => (bM.view.loc (c : Thread nD τ) ↦[Finset.univ \ (s2B_15 c tb htb i h2).view.set]{qTok s ⟨15, Nat.le_of_ble_eq_true rfl⟩} fb)
  | ⟨16, _⟩ => (bM.view.loc (c : Thread nD τ) ↦[Finset.univ \ (s2B_16 c tb htb i h2).view.set]{qTok s ⟨16, Nat.le_of_ble_eq_true rfl⟩} fb)
  | ⟨17, _⟩ => (bM.view.loc (c : Thread nD τ) ↦[Finset.univ \ (s2B_17 c tb htb i h2).view.set]{qTok s ⟨17, Nat.le_of_ble_eq_true rfl⟩} fb)
  | ⟨18, _⟩ => (bM.view.loc (c : Thread nD τ) ↦[Finset.univ \ (s2B_18 c tb htb i h2).view.set]{qTok s ⟨18, Nat.le_of_ble_eq_true rfl⟩} fb)
  | ⟨19, _⟩ => (bM.view.loc (c : Thread nD τ) ↦[Finset.univ \ (s2B_19 c tb htb i h2).view.set]{qTok s ⟨19, Nat.le_of_ble_eq_true rfl⟩} fb)
  | ⟨20, _⟩ => (bM.view.loc (c : Thread nD τ) ↦[Finset.univ \ (s2B_20 c tb htb i h2).view.set]{qTok s ⟨20, Nat.le_of_ble_eq_true rfl⟩} fb)
  | ⟨21, _⟩ => (bM.view.loc (c : Thread nD τ) ↦[Finset.univ \ (s2B_21 c tb htb i h2).view.set]{qTok s ⟨21, Nat.le_of_ble_eq_true rfl⟩} fb)
  | ⟨22, _⟩ => (bM.view.loc (c : Thread nD τ) ↦[Finset.univ \ (s2B_22 c tb htb i h2).view.set]{qTok s ⟨22, Nat.le_of_ble_eq_true rfl⟩} fb)
  | ⟨23, _⟩ => (bM.view.loc (c : Thread nD τ) ↦[Finset.univ \ (s2B_23 c tb htb i h2).view.set]{qTok s ⟨23, Nat.le_of_ble_eq_true rfl⟩} fb)
  | ⟨24, _⟩ => (bM.view.loc (c : Thread nD τ) ↦[Finset.univ \ (s2B_24 c tb htb i h2).view.set]{qTok s ⟨24, Nat.le_of_ble_eq_true rfl⟩} fb)
  | ⟨25, _⟩ => (bM.view.loc (c : Thread nD τ) ↦[Finset.univ \ (s2B_25 c tb htb i h2).view.set]{qTok s ⟨25, Nat.le_of_ble_eq_true rfl⟩} fb)
  | ⟨26, _⟩ => (bM.view.loc (c : Thread nD τ) ↦[Finset.univ \ (s2B_26 c tb htb i h2).view.set]{qTok s ⟨26, Nat.le_of_ble_eq_true rfl⟩} fb)
  | ⟨27, _⟩ => (bM.view.loc (c : Thread nD τ) ↦[Finset.univ \ (s2B_27 c tb htb i h2).view.set]{qTok s ⟨27, Nat.le_of_ble_eq_true rfl⟩} fb)
  | ⟨28, _⟩ => (bM.view.loc (c : Thread nD τ) ↦[Finset.univ \ (s2B_28 c tb htb i h2).view.set]{qTok s ⟨28, Nat.le_of_ble_eq_true rfl⟩} fb)
  | ⟨29, _⟩ => (bM.view.loc (c : Thread nD τ) ↦[Finset.univ \ (s2B_29 c tb htb i h2).view.set]{qTok s ⟨29, Nat.le_of_ble_eq_true rfl⟩} fb)
  | ⟨30, _⟩ => (bM.view.loc (c : Thread nD τ) ↦[Finset.univ \ (s2B_30 c tb htb i h2).view.set]{qTok s ⟨30, Nat.le_of_ble_eq_true rfl⟩} fb)
  | ⟨31, _⟩ => (bM.view.loc (c : Thread nD τ) ↦[Finset.univ \ (s2B_31 c tb htb i h2).view.set]{qTok s ⟨31, Nat.le_of_ble_eq_true rfl⟩} fb)
  | ⟨32, _⟩ => (bM.view.loc (c : Thread nD τ) ↦[Finset.univ \ (s2B_32 c tb htb i h2).view.set]{qTok s ⟨32, Nat.le_of_ble_eq_true rfl⟩} fb)
  | ⟨33, _⟩ => (bM.view.loc (c : Thread nD τ) ↦[Finset.univ \ (s2B_33 c tb htb i h2).view.set]{qTok s ⟨33, Nat.le_of_ble_eq_true rfl⟩} fb)
  | ⟨34, _⟩ => (bM.view.loc (c : Thread nD τ) ↦[Finset.univ \ (s2B_34 c tb htb i h2).view.set]{qTok s ⟨34, Nat.le_of_ble_eq_true rfl⟩} fb)
  | ⟨35, _⟩ => (bM.view.loc (c : Thread nD τ) ↦[Finset.univ \ (s2B_35 c tb htb i h2).view.set]{qTok s ⟨35, Nat.le_of_ble_eq_true rfl⟩} fb)
  | ⟨36, _⟩ => (bM.view.loc (c : Thread nD τ) ↦[Finset.univ \ (s2B_36 c tb htb i h2).view.set]{qTok s ⟨36, Nat.le_of_ble_eq_true rfl⟩} fb)
  | ⟨37, _⟩ => (bM.view.loc (c : Thread nD τ) ↦[Finset.univ \ (s2B_37 c tb htb i h2).view.set]{qTok s ⟨37, Nat.le_of_ble_eq_true rfl⟩} fb)
  | ⟨38, _⟩ => (bM.view.loc (c : Thread nD τ) ↦[Finset.univ \ (s2B_38 c tb htb i h2).view.set]{qTok s ⟨38, Nat.le_of_ble_eq_true rfl⟩} fb)
  | ⟨39, _⟩ => (bM.view.loc (c : Thread nD τ) ↦[Finset.univ \ (s2B_39 c tb htb i h2).view.set]{qTok s ⟨39, Nat.le_of_ble_eq_true rfl⟩} fb)
  | ⟨40, _⟩ => (bM.view.loc (c : Thread nD τ) ↦[Finset.univ \ (s2B_40 c tb htb i h2).view.set]{qTok s ⟨40, Nat.le_of_ble_eq_true rfl⟩} fb)
  | ⟨41, _⟩ => (bM.view.loc (c : Thread nD τ) ↦[Finset.univ \ (s2B_41 c tb htb i h2).view.set]{qTok s ⟨41, Nat.le_of_ble_eq_true rfl⟩} fb)
  | ⟨42, _⟩ => (bM.view.loc (c : Thread nD τ) ↦[Finset.univ \ (s2B_42 c tb htb i h2).view.set]{qTok s ⟨42, Nat.le_of_ble_eq_true rfl⟩} fb)
  | ⟨43, _⟩ => (bM.view.loc (c : Thread nD τ) ↦[Finset.univ \ (s2B_43 c tb htb i h2).view.set]{qTok s ⟨43, Nat.le_of_ble_eq_true rfl⟩} fb)
  | ⟨44, _⟩ => (bM.view.loc (c : Thread nD τ) ↦[Finset.univ \ (s2B_44 c tb htb i h2).view.set]{qTok s ⟨44, Nat.le_of_ble_eq_true rfl⟩} fb)
  | ⟨45, _⟩ => (bM.view.loc (c : Thread nD τ) ↦[Finset.univ \ (s2B_45 c tb htb i h2).view.set]{qTok s ⟨45, Nat.le_of_ble_eq_true rfl⟩} fb)
  | ⟨46, _⟩ => (bM.view.loc (c : Thread nD τ) ↦[Finset.univ \ (s2B_46 c tb htb i h2).view.set]{qTok s ⟨46, Nat.le_of_ble_eq_true rfl⟩} fb)
  | ⟨47, _⟩ => (bM.view.loc (c : Thread nD τ) ↦[Finset.univ \ (s2B_47 c tb htb i h2).view.set]{qTok s ⟨47, Nat.le_of_ble_eq_true rfl⟩} fb)
  | ⟨48, _⟩ => (bM.view.loc (c : Thread nD τ) ↦[Finset.univ \ (s2B_48 c tb htb i h2).view.set]{qTok s ⟨48, Nat.le_of_ble_eq_true rfl⟩} fb)
  | ⟨49, _⟩ => (bM.view.loc (c : Thread nD τ) ↦[Finset.univ \ (s2B_49 c tb htb i h2).view.set]{qTok s ⟨49, Nat.le_of_ble_eq_true rfl⟩} fb)
  | ⟨50, _⟩ => (bM.view.loc (c : Thread nD τ) ↦[Finset.univ \ (s2B_50 c tb htb i h2).view.set]{qTok s ⟨50, Nat.le_of_ble_eq_true rfl⟩} fb)
  | ⟨51, _⟩ => (bM.view.loc (c : Thread nD τ) ↦[Finset.univ \ (s2B_51 c tb htb i h2).view.set]{qTok s ⟨51, Nat.le_of_ble_eq_true rfl⟩} fb)
  | ⟨52, _⟩ => (bM.view.loc (c : Thread nD τ) ↦[Finset.univ \ (s2B_52 c tb htb i h2).view.set]{qTok s ⟨52, Nat.le_of_ble_eq_true rfl⟩} fb)
  | ⟨53, _⟩ => (bM.view.loc (c : Thread nD τ) ↦[Finset.univ \ (s2B_53 c tb htb i h2).view.set]{qTok s ⟨53, Nat.le_of_ble_eq_true rfl⟩} fb)
  | ⟨54, _⟩ => (bM.view.loc (c : Thread nD τ) ↦[Finset.univ \ (s2B_54 c tb htb i h2).view.set]{qTok s ⟨54, Nat.le_of_ble_eq_true rfl⟩} fb)
  | ⟨55, _⟩ => (bM.view.loc (c : Thread nD τ) ↦[Finset.univ \ (s2B_55 c tb htb i h2).view.set]{qTok s ⟨55, Nat.le_of_ble_eq_true rfl⟩} fb)
  | ⟨56, _⟩ => (bM.view.loc (c : Thread nD τ) ↦[Finset.univ \ (s2B_56 c tb htb i h2).view.set]{qTok s ⟨56, Nat.le_of_ble_eq_true rfl⟩} fb)
  | ⟨57, _⟩ => (bM.view.loc (c : Thread nD τ) ↦[Finset.univ \ (s2B_57 c tb htb i h2).view.set]{qTok s ⟨57, Nat.le_of_ble_eq_true rfl⟩} fb)
  | ⟨58, _⟩ => (bM.view.loc (c : Thread nD τ) ↦[Finset.univ \ (s2B_58 c tb htb i h2).view.set]{qTok s ⟨58, Nat.le_of_ble_eq_true rfl⟩} fb)
  | ⟨59, _⟩ => (bM.view.loc (c : Thread nD τ) ↦[Finset.univ \ (s2B_59 c tb htb i h2).view.set]{qTok s ⟨59, Nat.le_of_ble_eq_true rfl⟩} fb)
  | ⟨60, _⟩ => (bM.view.loc (c : Thread nD τ) ↦[Finset.univ \ (s2B_60 c tb htb i h2).view.set]{qTok s ⟨60, Nat.le_of_ble_eq_true rfl⟩} fb)
  | ⟨61, _⟩ => (bM.view.loc (c : Thread nD τ) ↦[Finset.univ \ (s2B_61 c tb htb i h2).view.set]{qTok s ⟨61, Nat.le_of_ble_eq_true rfl⟩} fb)
  | ⟨62, _⟩ => (bM.view.loc (c : Thread nD τ) ↦[Finset.univ \ (s2B_62 c tb htb i h2).view.set]{qTok s ⟨62, Nat.le_of_ble_eq_true rfl⟩} fb)
  | ⟨63, _⟩ => (bM.view.loc (c : Thread nD τ) ↦[Finset.univ \ (s2B_63 c tb htb i h2).view.set]{qTok s ⟨63, Nat.le_of_ble_eq_true rfl⟩} fb)
  | ⟨_ + 64, h⟩ => absurd h (Nat.not_lt.2 (Nat.le_add_left _ _))
/-- What each row of slot s holds once copy r of array B (fetch 2) has landed. -/
def L2B (htb : ∀ y, (tb y).toNat < 4096) (i : grid0.Coords) (h2 : k0_cond2 i = 1#1) (s : Fin 2) : Fin 64 → MBuf (F := F) c scB
  | ⟨0, _⟩ => landedJ c (s2B_0 c tb htb i h2) (rowM scB s ⟨0, Nat.le_of_ble_eq_true rfl⟩) fb
  | ⟨1, _⟩ => landedJ c (s2B_1 c tb htb i h2) (rowM scB s ⟨1, Nat.le_of_ble_eq_true rfl⟩) fb
  | ⟨2, _⟩ => landedJ c (s2B_2 c tb htb i h2) (rowM scB s ⟨2, Nat.le_of_ble_eq_true rfl⟩) fb
  | ⟨3, _⟩ => landedJ c (s2B_3 c tb htb i h2) (rowM scB s ⟨3, Nat.le_of_ble_eq_true rfl⟩) fb
  | ⟨4, _⟩ => landedJ c (s2B_4 c tb htb i h2) (rowM scB s ⟨4, Nat.le_of_ble_eq_true rfl⟩) fb
  | ⟨5, _⟩ => landedJ c (s2B_5 c tb htb i h2) (rowM scB s ⟨5, Nat.le_of_ble_eq_true rfl⟩) fb
  | ⟨6, _⟩ => landedJ c (s2B_6 c tb htb i h2) (rowM scB s ⟨6, Nat.le_of_ble_eq_true rfl⟩) fb
  | ⟨7, _⟩ => landedJ c (s2B_7 c tb htb i h2) (rowM scB s ⟨7, Nat.le_of_ble_eq_true rfl⟩) fb
  | ⟨8, _⟩ => landedJ c (s2B_8 c tb htb i h2) (rowM scB s ⟨8, Nat.le_of_ble_eq_true rfl⟩) fb
  | ⟨9, _⟩ => landedJ c (s2B_9 c tb htb i h2) (rowM scB s ⟨9, Nat.le_of_ble_eq_true rfl⟩) fb
  | ⟨10, _⟩ => landedJ c (s2B_10 c tb htb i h2) (rowM scB s ⟨10, Nat.le_of_ble_eq_true rfl⟩) fb
  | ⟨11, _⟩ => landedJ c (s2B_11 c tb htb i h2) (rowM scB s ⟨11, Nat.le_of_ble_eq_true rfl⟩) fb
  | ⟨12, _⟩ => landedJ c (s2B_12 c tb htb i h2) (rowM scB s ⟨12, Nat.le_of_ble_eq_true rfl⟩) fb
  | ⟨13, _⟩ => landedJ c (s2B_13 c tb htb i h2) (rowM scB s ⟨13, Nat.le_of_ble_eq_true rfl⟩) fb
  | ⟨14, _⟩ => landedJ c (s2B_14 c tb htb i h2) (rowM scB s ⟨14, Nat.le_of_ble_eq_true rfl⟩) fb
  | ⟨15, _⟩ => landedJ c (s2B_15 c tb htb i h2) (rowM scB s ⟨15, Nat.le_of_ble_eq_true rfl⟩) fb
  | ⟨16, _⟩ => landedJ c (s2B_16 c tb htb i h2) (rowM scB s ⟨16, Nat.le_of_ble_eq_true rfl⟩) fb
  | ⟨17, _⟩ => landedJ c (s2B_17 c tb htb i h2) (rowM scB s ⟨17, Nat.le_of_ble_eq_true rfl⟩) fb
  | ⟨18, _⟩ => landedJ c (s2B_18 c tb htb i h2) (rowM scB s ⟨18, Nat.le_of_ble_eq_true rfl⟩) fb
  | ⟨19, _⟩ => landedJ c (s2B_19 c tb htb i h2) (rowM scB s ⟨19, Nat.le_of_ble_eq_true rfl⟩) fb
  | ⟨20, _⟩ => landedJ c (s2B_20 c tb htb i h2) (rowM scB s ⟨20, Nat.le_of_ble_eq_true rfl⟩) fb
  | ⟨21, _⟩ => landedJ c (s2B_21 c tb htb i h2) (rowM scB s ⟨21, Nat.le_of_ble_eq_true rfl⟩) fb
  | ⟨22, _⟩ => landedJ c (s2B_22 c tb htb i h2) (rowM scB s ⟨22, Nat.le_of_ble_eq_true rfl⟩) fb
  | ⟨23, _⟩ => landedJ c (s2B_23 c tb htb i h2) (rowM scB s ⟨23, Nat.le_of_ble_eq_true rfl⟩) fb
  | ⟨24, _⟩ => landedJ c (s2B_24 c tb htb i h2) (rowM scB s ⟨24, Nat.le_of_ble_eq_true rfl⟩) fb
  | ⟨25, _⟩ => landedJ c (s2B_25 c tb htb i h2) (rowM scB s ⟨25, Nat.le_of_ble_eq_true rfl⟩) fb
  | ⟨26, _⟩ => landedJ c (s2B_26 c tb htb i h2) (rowM scB s ⟨26, Nat.le_of_ble_eq_true rfl⟩) fb
  | ⟨27, _⟩ => landedJ c (s2B_27 c tb htb i h2) (rowM scB s ⟨27, Nat.le_of_ble_eq_true rfl⟩) fb
  | ⟨28, _⟩ => landedJ c (s2B_28 c tb htb i h2) (rowM scB s ⟨28, Nat.le_of_ble_eq_true rfl⟩) fb
  | ⟨29, _⟩ => landedJ c (s2B_29 c tb htb i h2) (rowM scB s ⟨29, Nat.le_of_ble_eq_true rfl⟩) fb
  | ⟨30, _⟩ => landedJ c (s2B_30 c tb htb i h2) (rowM scB s ⟨30, Nat.le_of_ble_eq_true rfl⟩) fb
  | ⟨31, _⟩ => landedJ c (s2B_31 c tb htb i h2) (rowM scB s ⟨31, Nat.le_of_ble_eq_true rfl⟩) fb
  | ⟨32, _⟩ => landedJ c (s2B_32 c tb htb i h2) (rowM scB s ⟨32, Nat.le_of_ble_eq_true rfl⟩) fb
  | ⟨33, _⟩ => landedJ c (s2B_33 c tb htb i h2) (rowM scB s ⟨33, Nat.le_of_ble_eq_true rfl⟩) fb
  | ⟨34, _⟩ => landedJ c (s2B_34 c tb htb i h2) (rowM scB s ⟨34, Nat.le_of_ble_eq_true rfl⟩) fb
  | ⟨35, _⟩ => landedJ c (s2B_35 c tb htb i h2) (rowM scB s ⟨35, Nat.le_of_ble_eq_true rfl⟩) fb
  | ⟨36, _⟩ => landedJ c (s2B_36 c tb htb i h2) (rowM scB s ⟨36, Nat.le_of_ble_eq_true rfl⟩) fb
  | ⟨37, _⟩ => landedJ c (s2B_37 c tb htb i h2) (rowM scB s ⟨37, Nat.le_of_ble_eq_true rfl⟩) fb
  | ⟨38, _⟩ => landedJ c (s2B_38 c tb htb i h2) (rowM scB s ⟨38, Nat.le_of_ble_eq_true rfl⟩) fb
  | ⟨39, _⟩ => landedJ c (s2B_39 c tb htb i h2) (rowM scB s ⟨39, Nat.le_of_ble_eq_true rfl⟩) fb
  | ⟨40, _⟩ => landedJ c (s2B_40 c tb htb i h2) (rowM scB s ⟨40, Nat.le_of_ble_eq_true rfl⟩) fb
  | ⟨41, _⟩ => landedJ c (s2B_41 c tb htb i h2) (rowM scB s ⟨41, Nat.le_of_ble_eq_true rfl⟩) fb
  | ⟨42, _⟩ => landedJ c (s2B_42 c tb htb i h2) (rowM scB s ⟨42, Nat.le_of_ble_eq_true rfl⟩) fb
  | ⟨43, _⟩ => landedJ c (s2B_43 c tb htb i h2) (rowM scB s ⟨43, Nat.le_of_ble_eq_true rfl⟩) fb
  | ⟨44, _⟩ => landedJ c (s2B_44 c tb htb i h2) (rowM scB s ⟨44, Nat.le_of_ble_eq_true rfl⟩) fb
  | ⟨45, _⟩ => landedJ c (s2B_45 c tb htb i h2) (rowM scB s ⟨45, Nat.le_of_ble_eq_true rfl⟩) fb
  | ⟨46, _⟩ => landedJ c (s2B_46 c tb htb i h2) (rowM scB s ⟨46, Nat.le_of_ble_eq_true rfl⟩) fb
  | ⟨47, _⟩ => landedJ c (s2B_47 c tb htb i h2) (rowM scB s ⟨47, Nat.le_of_ble_eq_true rfl⟩) fb
  | ⟨48, _⟩ => landedJ c (s2B_48 c tb htb i h2) (rowM scB s ⟨48, Nat.le_of_ble_eq_true rfl⟩) fb
  | ⟨49, _⟩ => landedJ c (s2B_49 c tb htb i h2) (rowM scB s ⟨49, Nat.le_of_ble_eq_true rfl⟩) fb
  | ⟨50, _⟩ => landedJ c (s2B_50 c tb htb i h2) (rowM scB s ⟨50, Nat.le_of_ble_eq_true rfl⟩) fb
  | ⟨51, _⟩ => landedJ c (s2B_51 c tb htb i h2) (rowM scB s ⟨51, Nat.le_of_ble_eq_true rfl⟩) fb
  | ⟨52, _⟩ => landedJ c (s2B_52 c tb htb i h2) (rowM scB s ⟨52, Nat.le_of_ble_eq_true rfl⟩) fb
  | ⟨53, _⟩ => landedJ c (s2B_53 c tb htb i h2) (rowM scB s ⟨53, Nat.le_of_ble_eq_true rfl⟩) fb
  | ⟨54, _⟩ => landedJ c (s2B_54 c tb htb i h2) (rowM scB s ⟨54, Nat.le_of_ble_eq_true rfl⟩) fb
  | ⟨55, _⟩ => landedJ c (s2B_55 c tb htb i h2) (rowM scB s ⟨55, Nat.le_of_ble_eq_true rfl⟩) fb
  | ⟨56, _⟩ => landedJ c (s2B_56 c tb htb i h2) (rowM scB s ⟨56, Nat.le_of_ble_eq_true rfl⟩) fb
  | ⟨57, _⟩ => landedJ c (s2B_57 c tb htb i h2) (rowM scB s ⟨57, Nat.le_of_ble_eq_true rfl⟩) fb
  | ⟨58, _⟩ => landedJ c (s2B_58 c tb htb i h2) (rowM scB s ⟨58, Nat.le_of_ble_eq_true rfl⟩) fb
  | ⟨59, _⟩ => landedJ c (s2B_59 c tb htb i h2) (rowM scB s ⟨59, Nat.le_of_ble_eq_true rfl⟩) fb
  | ⟨60, _⟩ => landedJ c (s2B_60 c tb htb i h2) (rowM scB s ⟨60, Nat.le_of_ble_eq_true rfl⟩) fb
  | ⟨61, _⟩ => landedJ c (s2B_61 c tb htb i h2) (rowM scB s ⟨61, Nat.le_of_ble_eq_true rfl⟩) fb
  | ⟨62, _⟩ => landedJ c (s2B_62 c tb htb i h2) (rowM scB s ⟨62, Nat.le_of_ble_eq_true rfl⟩) fb
  | ⟨63, _⟩ => landedJ c (s2B_63 c tb htb i h2) (rowM scB s ⟨63, Nat.le_of_ble_eq_true rfl⟩) fb
  | ⟨_ + 64, h⟩ => absurd h (Nat.not_lt.2 (Nat.le_add_left _ _))
/-- The row numbers the 64 copies of fetch 2 read: the table's words, as naturals. -/
def N2 (i : grid0.Coords) (h2 : k0_cond2 i = 1#1) : Fin 64 → ℕ
  | ⟨0, _⟩ => (W2_0 c tb i h2).toNat
  | ⟨1, _⟩ => (W2_1 c tb i h2).toNat
  | ⟨2, _⟩ => (W2_2 c tb i h2).toNat
  | ⟨3, _⟩ => (W2_3 c tb i h2).toNat
  | ⟨4, _⟩ => (W2_4 c tb i h2).toNat
  | ⟨5, _⟩ => (W2_5 c tb i h2).toNat
  | ⟨6, _⟩ => (W2_6 c tb i h2).toNat
  | ⟨7, _⟩ => (W2_7 c tb i h2).toNat
  | ⟨8, _⟩ => (W2_8 c tb i h2).toNat
  | ⟨9, _⟩ => (W2_9 c tb i h2).toNat
  | ⟨10, _⟩ => (W2_10 c tb i h2).toNat
  | ⟨11, _⟩ => (W2_11 c tb i h2).toNat
  | ⟨12, _⟩ => (W2_12 c tb i h2).toNat
  | ⟨13, _⟩ => (W2_13 c tb i h2).toNat
  | ⟨14, _⟩ => (W2_14 c tb i h2).toNat
  | ⟨15, _⟩ => (W2_15 c tb i h2).toNat
  | ⟨16, _⟩ => (W2_16 c tb i h2).toNat
  | ⟨17, _⟩ => (W2_17 c tb i h2).toNat
  | ⟨18, _⟩ => (W2_18 c tb i h2).toNat
  | ⟨19, _⟩ => (W2_19 c tb i h2).toNat
  | ⟨20, _⟩ => (W2_20 c tb i h2).toNat
  | ⟨21, _⟩ => (W2_21 c tb i h2).toNat
  | ⟨22, _⟩ => (W2_22 c tb i h2).toNat
  | ⟨23, _⟩ => (W2_23 c tb i h2).toNat
  | ⟨24, _⟩ => (W2_24 c tb i h2).toNat
  | ⟨25, _⟩ => (W2_25 c tb i h2).toNat
  | ⟨26, _⟩ => (W2_26 c tb i h2).toNat
  | ⟨27, _⟩ => (W2_27 c tb i h2).toNat
  | ⟨28, _⟩ => (W2_28 c tb i h2).toNat
  | ⟨29, _⟩ => (W2_29 c tb i h2).toNat
  | ⟨30, _⟩ => (W2_30 c tb i h2).toNat
  | ⟨31, _⟩ => (W2_31 c tb i h2).toNat
  | ⟨32, _⟩ => (W2_32 c tb i h2).toNat
  | ⟨33, _⟩ => (W2_33 c tb i h2).toNat
  | ⟨34, _⟩ => (W2_34 c tb i h2).toNat
  | ⟨35, _⟩ => (W2_35 c tb i h2).toNat
  | ⟨36, _⟩ => (W2_36 c tb i h2).toNat
  | ⟨37, _⟩ => (W2_37 c tb i h2).toNat
  | ⟨38, _⟩ => (W2_38 c tb i h2).toNat
  | ⟨39, _⟩ => (W2_39 c tb i h2).toNat
  | ⟨40, _⟩ => (W2_40 c tb i h2).toNat
  | ⟨41, _⟩ => (W2_41 c tb i h2).toNat
  | ⟨42, _⟩ => (W2_42 c tb i h2).toNat
  | ⟨43, _⟩ => (W2_43 c tb i h2).toNat
  | ⟨44, _⟩ => (W2_44 c tb i h2).toNat
  | ⟨45, _⟩ => (W2_45 c tb i h2).toNat
  | ⟨46, _⟩ => (W2_46 c tb i h2).toNat
  | ⟨47, _⟩ => (W2_47 c tb i h2).toNat
  | ⟨48, _⟩ => (W2_48 c tb i h2).toNat
  | ⟨49, _⟩ => (W2_49 c tb i h2).toNat
  | ⟨50, _⟩ => (W2_50 c tb i h2).toNat
  | ⟨51, _⟩ => (W2_51 c tb i h2).toNat
  | ⟨52, _⟩ => (W2_52 c tb i h2).toNat
  | ⟨53, _⟩ => (W2_53 c tb i h2).toNat
  | ⟨54, _⟩ => (W2_54 c tb i h2).toNat
  | ⟨55, _⟩ => (W2_55 c tb i h2).toNat
  | ⟨56, _⟩ => (W2_56 c tb i h2).toNat
  | ⟨57, _⟩ => (W2_57 c tb i h2).toNat
  | ⟨58, _⟩ => (W2_58 c tb i h2).toNat
  | ⟨59, _⟩ => (W2_59 c tb i h2).toNat
  | ⟨60, _⟩ => (W2_60 c tb i h2).toNat
  | ⟨61, _⟩ => (W2_61 c tb i h2).toNat
  | ⟨62, _⟩ => (W2_62 c tb i h2).toNat
  | ⟨63, _⟩ => (W2_63 c tb i h2).toNat
  | ⟨_ + 64, h⟩ => absurd h (Nat.not_lt.2 (Nat.le_add_left _ _))

end

end Cert.Kernel.Hand

end
-- ==== Proof.K.Canon.lean ====
/-
  Closed forms of the offsets the body computes from the grid point, and each scratch row, slot counter and load box of the
  body restated under its uniform name: at grid point t the waits address slot t mod 2, the prefetch slot (t + 1) mod 2,
  row r of a slot sits at offset (slot, 0, r, 0). Every closed form is decided over the 32 grid points.
-/
import proofs.«422764_j1194000908612_2_alg».proof.Proof.Gen.Kernel.Launch
import proofs.«422764_j1194000908612_2_alg».proof.Proof.Gen.Kernel.Skeleton
import proofs.«422764_j1194000908612_2_alg».proof.Proof.K.Defs2
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

theorem hcond1 : ∀ t : Fin grid0.N, k0_cond1 (grid0.coords t) = 1#1 ↔ t.val % 16 = 0 := by decide +kernel
theorem hcond2 : ∀ t : Fin grid0.N, k0_cond2 (grid0.coords t) = 1#1 ↔ t.val % 16 ≠ 15 := by decide +kernel

/-! ## The waits: slot t mod 2 -/
theorem coff_Wsem : ∀ t : Fin grid0.N, k0_off129 (grid0.coords t) = ![(slN t.val).val] := by decide +kernel
@[sl_canon] theorem canon_WsemA (t : Fin grid0.N) :
    (cc0_scratch2.slice (Rect.unit (s := S2) (k0_off129 (grid0.coords t)) S1.size (k0_off129_inb (grid0.coords t)))).squeeze S_ squeezes_S1_S_ = semsA (slN t.val) :=
  congrArg (fun A : DmaSems sig S1 => A.squeeze S_ squeezes_S1_S_) (SemArray.slice_unit_congr _ (coff_Wsem t) _ _)
@[sl_canon] theorem canon_WsemB (t : Fin grid0.N) :
    (cc0_scratch3.slice (Rect.unit (s := S2) (k0_off129 (grid0.coords t)) S1.size (k0_off129_inb (grid0.coords t)))).squeeze S_ squeezes_S1_S_ = semsB (slN t.val) :=
  congrArg (fun A : DmaSems sig S1 => A.squeeze S_ squeezes_S1_S_) (SemArray.slice_unit_congr _ (coff_Wsem t) _ _)
theorem coff_W0 : ∀ t : Fin grid0.N, k0_off130 (grid0.coords t) = ![(slN t.val).val, 0, 0, 0] := by decide +kernel
@[sl_canon] theorem canon_WscA0 (t : Fin grid0.N) :
    (scA.slice (Rect.unit (s := S2x8x64x1024) (k0_off130 (grid0.coords t)) S1x8x1x1024.size (k0_off130_inb (grid0.coords t))) (fun _ => rfl)).squeeze S8x1024 squeezes_S1x8x1x1024_S8x1024 = rowM scA (slN t.val) ⟨0, Nat.le_of_ble_eq_true rfl⟩ :=
  congrArg (fun M : Memref sig .tc .vmem S1x8x1x1024 .f32 => M.squeeze S8x1024 squeezes_S1x8x1x1024_S8x1024) (Memref.slice_unit_congr _ (coff_W0 t) _ _ (fun _ => rfl) (fun _ => rfl))
@[sl_canon] theorem canon_WscB0 (t : Fin grid0.N) :
    (scB.slice (Rect.unit (s := S2x8x64x1024) (k0_off130 (grid0.coords t)) S1x8x1x1024.size (k0_off130_inb (grid0.coords t))) (fun _ => rfl)).squeeze S8x1024 squeezes_S1x8x1x1024_S8x1024 = rowM scB (slN t.val) ⟨0, Nat.le_of_ble_eq_true rfl⟩ :=
  congrArg (fun M : Memref sig .tc .vmem S1x8x1x1024 .f32 => M.squeeze S8x1024 squeezes_S1x8x1x1024_S8x1024) (Memref.slice_unit_congr _ (coff_W0 t) _ _ (fun _ => rfl) (fun _ => rfl))
theorem coff_W1 : ∀ t : Fin grid0.N, k0_off131 (grid0.coords t) = ![(slN t.val).val, 0, 1, 0] := by decide +kernel
@[sl_canon] theorem canon_WscA1 (t : Fin grid0.N) :
    (scA.slice (Rect.unit (s := S2x8x64x1024) (k0_off131 (grid0.coords t)) S1x8x1x1024.size (k0_off131_inb (grid0.coords t))) (fun _ => rfl)).squeeze S8x1024 squeezes_S1x8x1x1024_S8x1024 = rowM scA (slN t.val) ⟨1, Nat.le_of_ble_eq_true rfl⟩ :=
  congrArg (fun M : Memref sig .tc .vmem S1x8x1x1024 .f32 => M.squeeze S8x1024 squeezes_S1x8x1x1024_S8x1024) (Memref.slice_unit_congr _ (coff_W1 t) _ _ (fun _ => rfl) (fun _ => rfl))
@[sl_canon] theorem canon_WscB1 (t : Fin grid0.N) :
    (scB.slice (Rect.unit (s := S2x8x64x1024) (k0_off131 (grid0.coords t)) S1x8x1x1024.size (k0_off131_inb (grid0.coords t))) (fun _ => rfl)).squeeze S8x1024 squeezes_S1x8x1x1024_S8x1024 = rowM scB (slN t.val) ⟨1, Nat.le_of_ble_eq_true rfl⟩ :=
  congrArg (fun M : Memref sig .tc .vmem S1x8x1x1024 .f32 => M.squeeze S8x1024 squeezes_S1x8x1x1024_S8x1024) (Memref.slice_unit_congr _ (coff_W1 t) _ _ (fun _ => rfl) (fun _ => rfl))
theorem coff_W2 : ∀ t : Fin grid0.N, k0_off132 (grid0.coords t) = ![(slN t.val).val, 0, 2, 0] := by decide +kernel
@[sl_canon] theorem canon_WscA2 (t : Fin grid0.N) :
    (scA.slice (Rect.unit (s := S2x8x64x1024) (k0_off132 (grid0.coords t)) S1x8x1x1024.size (k0_off132_inb (grid0.coords t))) (fun _ => rfl)).squeeze S8x1024 squeezes_S1x8x1x1024_S8x1024 = rowM scA (slN t.val) ⟨2, Nat.le_of_ble_eq_true rfl⟩ :=
  congrArg (fun M : Memref sig .tc .vmem S1x8x1x1024 .f32 => M.squeeze S8x1024 squeezes_S1x8x1x1024_S8x1024) (Memref.slice_unit_congr _ (coff_W2 t) _ _ (fun _ => rfl) (fun _ => rfl))
@[sl_canon] theorem canon_WscB2 (t : Fin grid0.N) :
    (scB.slice (Rect.unit (s := S2x8x64x1024) (k0_off132 (grid0.coords t)) S1x8x1x1024.size (k0_off132_inb (grid0.coords t))) (fun _ => rfl)).squeeze S8x1024 squeezes_S1x8x1x1024_S8x1024 = rowM scB (slN t.val) ⟨2, Nat.le_of_ble_eq_true rfl⟩ :=
  congrArg (fun M : Memref sig .tc .vmem S1x8x1x1024 .f32 => M.squeeze S8x1024 squeezes_S1x8x1x1024_S8x1024) (Memref.slice_unit_congr _ (coff_W2 t) _ _ (fun _ => rfl) (fun _ => rfl))
theorem coff_W3 : ∀ t : Fin grid0.N, k0_off133 (grid0.coords t) = ![(slN t.val).val, 0, 3, 0] := by decide +kernel
@[sl_canon] theorem canon_WscA3 (t : Fin grid0.N) :
    (scA.slice (Rect.unit (s := S2x8x64x1024) (k0_off133 (grid0.coords t)) S1x8x1x1024.size (k0_off133_inb (grid0.coords t))) (fun _ => rfl)).squeeze S8x1024 squeezes_S1x8x1x1024_S8x1024 = rowM scA (slN t.val) ⟨3, Nat.le_of_ble_eq_true rfl⟩ :=
  congrArg (fun M : Memref sig .tc .vmem S1x8x1x1024 .f32 => M.squeeze S8x1024 squeezes_S1x8x1x1024_S8x1024) (Memref.slice_unit_congr _ (coff_W3 t) _ _ (fun _ => rfl) (fun _ => rfl))
@[sl_canon] theorem canon_WscB3 (t : Fin grid0.N) :
    (scB.slice (Rect.unit (s := S2x8x64x1024) (k0_off133 (grid0.coords t)) S1x8x1x1024.size (k0_off133_inb (grid0.coords t))) (fun _ => rfl)).squeeze S8x1024 squeezes_S1x8x1x1024_S8x1024 = rowM scB (slN t.val) ⟨3, Nat.le_of_ble_eq_true rfl⟩ :=
  congrArg (fun M : Memref sig .tc .vmem S1x8x1x1024 .f32 => M.squeeze S8x1024 squeezes_S1x8x1x1024_S8x1024) (Memref.slice_unit_congr _ (coff_W3 t) _ _ (fun _ => rfl) (fun _ => rfl))
theorem coff_W4 : ∀ t : Fin grid0.N, k0_off134 (grid0.coords t) = ![(slN t.val).val, 0, 4, 0] := by decide +kernel
@[sl_canon] theorem canon_WscA4 (t : Fin grid0.N) :
    (scA.slice (Rect.unit (s := S2x8x64x1024) (k0_off134 (grid0.coords t)) S1x8x1x1024.size (k0_off134_inb (grid0.coords t))) (fun _ => rfl)).squeeze S8x1024 squeezes_S1x8x1x1024_S8x1024 = rowM scA (slN t.val) ⟨4, Nat.le_of_ble_eq_true rfl⟩ :=
  congrArg (fun M : Memref sig .tc .vmem S1x8x1x1024 .f32 => M.squeeze S8x1024 squeezes_S1x8x1x1024_S8x1024) (Memref.slice_unit_congr _ (coff_W4 t) _ _ (fun _ => rfl) (fun _ => rfl))
@[sl_canon] theorem canon_WscB4 (t : Fin grid0.N) :
    (scB.slice (Rect.unit (s := S2x8x64x1024) (k0_off134 (grid0.coords t)) S1x8x1x1024.size (k0_off134_inb (grid0.coords t))) (fun _ => rfl)).squeeze S8x1024 squeezes_S1x8x1x1024_S8x1024 = rowM scB (slN t.val) ⟨4, Nat.le_of_ble_eq_true rfl⟩ :=
  congrArg (fun M : Memref sig .tc .vmem S1x8x1x1024 .f32 => M.squeeze S8x1024 squeezes_S1x8x1x1024_S8x1024) (Memref.slice_unit_congr _ (coff_W4 t) _ _ (fun _ => rfl) (fun _ => rfl))
theorem coff_W5 : ∀ t : Fin grid0.N, k0_off135 (grid0.coords t) = ![(slN t.val).val, 0, 5, 0] := by decide +kernel
@[sl_canon] theorem canon_WscA5 (t : Fin grid0.N) :
    (scA.slice (Rect.unit (s := S2x8x64x1024) (k0_off135 (grid0.coords t)) S1x8x1x1024.size (k0_off135_inb (grid0.coords t))) (fun _ => rfl)).squeeze S8x1024 squeezes_S1x8x1x1024_S8x1024 = rowM scA (slN t.val) ⟨5, Nat.le_of_ble_eq_true rfl⟩ :=
  congrArg (fun M : Memref sig .tc .vmem S1x8x1x1024 .f32 => M.squeeze S8x1024 squeezes_S1x8x1x1024_S8x1024) (Memref.slice_unit_congr _ (coff_W5 t) _ _ (fun _ => rfl) (fun _ => rfl))
@[sl_canon] theorem canon_WscB5 (t : Fin grid0.N) :
    (scB.slice (Rect.unit (s := S2x8x64x1024) (k0_off135 (grid0.coords t)) S1x8x1x1024.size (k0_off135_inb (grid0.coords t))) (fun _ => rfl)).squeeze S8x1024 squeezes_S1x8x1x1024_S8x1024 = rowM scB (slN t.val) ⟨5, Nat.le_of_ble_eq_true rfl⟩ :=
  congrArg (fun M : Memref sig .tc .vmem S1x8x1x1024 .f32 => M.squeeze S8x1024 squeezes_S1x8x1x1024_S8x1024) (Memref.slice_unit_congr _ (coff_W5 t) _ _ (fun _ => rfl) (fun _ => rfl))
theorem coff_W6 : ∀ t : Fin grid0.N, k0_off136 (grid0.coords t) = ![(slN t.val).val, 0, 6, 0] := by decide +kernel
@[sl_canon] theorem canon_WscA6 (t : Fin grid0.N) :
    (scA.slice (Rect.unit (s := S2x8x64x1024) (k0_off136 (grid0.coords t)) S1x8x1x1024.size (k0_off136_inb (grid0.coords t))) (fun _ => rfl)).squeeze S8x1024 squeezes_S1x8x1x1024_S8x1024 = rowM scA (slN t.val) ⟨6, Nat.le_of_ble_eq_true rfl⟩ :=
  congrArg (fun M : Memref sig .tc .vmem S1x8x1x1024 .f32 => M.squeeze S8x1024 squeezes_S1x8x1x1024_S8x1024) (Memref.slice_unit_congr _ (coff_W6 t) _ _ (fun _ => rfl) (fun _ => rfl))
@[sl_canon] theorem canon_WscB6 (t : Fin grid0.N) :
    (scB.slice (Rect.unit (s := S2x8x64x1024) (k0_off136 (grid0.coords t)) S1x8x1x1024.size (k0_off136_inb (grid0.coords t))) (fun _ => rfl)).squeeze S8x1024 squeezes_S1x8x1x1024_S8x1024 = rowM scB (slN t.val) ⟨6, Nat.le_of_ble_eq_true rfl⟩ :=
  congrArg (fun M : Memref sig .tc .vmem S1x8x1x1024 .f32 => M.squeeze S8x1024 squeezes_S1x8x1x1024_S8x1024) (Memref.slice_unit_congr _ (coff_W6 t) _ _ (fun _ => rfl) (fun _ => rfl))
theorem coff_W7 : ∀ t : Fin grid0.N, k0_off137 (grid0.coords t) = ![(slN t.val).val, 0, 7, 0] := by decide +kernel
@[sl_canon] theorem canon_WscA7 (t : Fin grid0.N) :
    (scA.slice (Rect.unit (s := S2x8x64x1024) (k0_off137 (grid0.coords t)) S1x8x1x1024.size (k0_off137_inb (grid0.coords t))) (fun _ => rfl)).squeeze S8x1024 squeezes_S1x8x1x1024_S8x1024 = rowM scA (slN t.val) ⟨7, Nat.le_of_ble_eq_true rfl⟩ :=
  congrArg (fun M : Memref sig .tc .vmem S1x8x1x1024 .f32 => M.squeeze S8x1024 squeezes_S1x8x1x1024_S8x1024) (Memref.slice_unit_congr _ (coff_W7 t) _ _ (fun _ => rfl) (fun _ => rfl))
@[sl_canon] theorem canon_WscB7 (t : Fin grid0.N) :
    (scB.slice (Rect.unit (s := S2x8x64x1024) (k0_off137 (grid0.coords t)) S1x8x1x1024.size (k0_off137_inb (grid0.coords t))) (fun _ => rfl)).squeeze S8x1024 squeezes_S1x8x1x1024_S8x1024 = rowM scB (slN t.val) ⟨7, Nat.le_of_ble_eq_true rfl⟩ :=
  congrArg (fun M : Memref sig .tc .vmem S1x8x1x1024 .f32 => M.squeeze S8x1024 squeezes_S1x8x1x1024_S8x1024) (Memref.slice_unit_congr _ (coff_W7 t) _ _ (fun _ => rfl) (fun _ => rfl))
theorem coff_W8 : ∀ t : Fin grid0.N, k0_off138 (grid0.coords t) = ![(slN t.val).val, 0, 8, 0] := by decide +kernel
@[sl_canon] theorem canon_WscA8 (t : Fin grid0.N) :
    (scA.slice (Rect.unit (s := S2x8x64x1024) (k0_off138 (grid0.coords t)) S1x8x1x1024.size (k0_off138_inb (grid0.coords t))) (fun _ => rfl)).squeeze S8x1024 squeezes_S1x8x1x1024_S8x1024 = rowM scA (slN t.val) ⟨8, Nat.le_of_ble_eq_true rfl⟩ :=
  congrArg (fun M : Memref sig .tc .vmem S1x8x1x1024 .f32 => M.squeeze S8x1024 squeezes_S1x8x1x1024_S8x1024) (Memref.slice_unit_congr _ (coff_W8 t) _ _ (fun _ => rfl) (fun _ => rfl))
@[sl_canon] theorem canon_WscB8 (t : Fin grid0.N) :
    (scB.slice (Rect.unit (s := S2x8x64x1024) (k0_off138 (grid0.coords t)) S1x8x1x1024.size (k0_off138_inb (grid0.coords t))) (fun _ => rfl)).squeeze S8x1024 squeezes_S1x8x1x1024_S8x1024 = rowM scB (slN t.val) ⟨8, Nat.le_of_ble_eq_true rfl⟩ :=
  congrArg (fun M : Memref sig .tc .vmem S1x8x1x1024 .f32 => M.squeeze S8x1024 squeezes_S1x8x1x1024_S8x1024) (Memref.slice_unit_congr _ (coff_W8 t) _ _ (fun _ => rfl) (fun _ => rfl))
theorem coff_W9 : ∀ t : Fin grid0.N, k0_off139 (grid0.coords t) = ![(slN t.val).val, 0, 9, 0] := by decide +kernel
@[sl_canon] theorem canon_WscA9 (t : Fin grid0.N) :
    (scA.slice (Rect.unit (s := S2x8x64x1024) (k0_off139 (grid0.coords t)) S1x8x1x1024.size (k0_off139_inb (grid0.coords t))) (fun _ => rfl)).squeeze S8x1024 squeezes_S1x8x1x1024_S8x1024 = rowM scA (slN t.val) ⟨9, Nat.le_of_ble_eq_true rfl⟩ :=
  congrArg (fun M : Memref sig .tc .vmem S1x8x1x1024 .f32 => M.squeeze S8x1024 squeezes_S1x8x1x1024_S8x1024) (Memref.slice_unit_congr _ (coff_W9 t) _ _ (fun _ => rfl) (fun _ => rfl))
@[sl_canon] theorem canon_WscB9 (t : Fin grid0.N) :
    (scB.slice (Rect.unit (s := S2x8x64x1024) (k0_off139 (grid0.coords t)) S1x8x1x1024.size (k0_off139_inb (grid0.coords t))) (fun _ => rfl)).squeeze S8x1024 squeezes_S1x8x1x1024_S8x1024 = rowM scB (slN t.val) ⟨9, Nat.le_of_ble_eq_true rfl⟩ :=
  congrArg (fun M : Memref sig .tc .vmem S1x8x1x1024 .f32 => M.squeeze S8x1024 squeezes_S1x8x1x1024_S8x1024) (Memref.slice_unit_congr _ (coff_W9 t) _ _ (fun _ => rfl) (fun _ => rfl))
theorem coff_W10 : ∀ t : Fin grid0.N, k0_off140 (grid0.coords t) = ![(slN t.val).val, 0, 10, 0] := by decide +kernel
@[sl_canon] theorem canon_WscA10 (t : Fin grid0.N) :
    (scA.slice (Rect.unit (s := S2x8x64x1024) (k0_off140 (grid0.coords t)) S1x8x1x1024.size (k0_off140_inb (grid0.coords t))) (fun _ => rfl)).squeeze S8x1024 squeezes_S1x8x1x1024_S8x1024 = rowM scA (slN t.val) ⟨10, Nat.le_of_ble_eq_true rfl⟩ :=
  congrArg (fun M : Memref sig .tc .vmem S1x8x1x1024 .f32 => M.squeeze S8x1024 squeezes_S1x8x1x1024_S8x1024) (Memref.slice_unit_congr _ (coff_W10 t) _ _ (fun _ => rfl) (fun _ => rfl))
@[sl_canon] theorem canon_WscB10 (t : Fin grid0.N) :
    (scB.slice (Rect.unit (s := S2x8x64x1024) (k0_off140 (grid0.coords t)) S1x8x1x1024.size (k0_off140_inb (grid0.coords t))) (fun _ => rfl)).squeeze S8x1024 squeezes_S1x8x1x1024_S8x1024 = rowM scB (slN t.val) ⟨10, Nat.le_of_ble_eq_true rfl⟩ :=
  congrArg (fun M : Memref sig .tc .vmem S1x8x1x1024 .f32 => M.squeeze S8x1024 squeezes_S1x8x1x1024_S8x1024) (Memref.slice_unit_congr _ (coff_W10 t) _ _ (fun _ => rfl) (fun _ => rfl))
theorem coff_W11 : ∀ t : Fin grid0.N, k0_off141 (grid0.coords t) = ![(slN t.val).val, 0, 11, 0] := by decide +kernel
@[sl_canon] theorem canon_WscA11 (t : Fin grid0.N) :
    (scA.slice (Rect.unit (s := S2x8x64x1024) (k0_off141 (grid0.coords t)) S1x8x1x1024.size (k0_off141_inb (grid0.coords t))) (fun _ => rfl)).squeeze S8x1024 squeezes_S1x8x1x1024_S8x1024 = rowM scA (slN t.val) ⟨11, Nat.le_of_ble_eq_true rfl⟩ :=
  congrArg (fun M : Memref sig .tc .vmem S1x8x1x1024 .f32 => M.squeeze S8x1024 squeezes_S1x8x1x1024_S8x1024) (Memref.slice_unit_congr _ (coff_W11 t) _ _ (fun _ => rfl) (fun _ => rfl))
@[sl_canon] theorem canon_WscB11 (t : Fin grid0.N) :
    (scB.slice (Rect.unit (s := S2x8x64x1024) (k0_off141 (grid0.coords t)) S1x8x1x1024.size (k0_off141_inb (grid0.coords t))) (fun _ => rfl)).squeeze S8x1024 squeezes_S1x8x1x1024_S8x1024 = rowM scB (slN t.val) ⟨11, Nat.le_of_ble_eq_true rfl⟩ :=
  congrArg (fun M : Memref sig .tc .vmem S1x8x1x1024 .f32 => M.squeeze S8x1024 squeezes_S1x8x1x1024_S8x1024) (Memref.slice_unit_congr _ (coff_W11 t) _ _ (fun _ => rfl) (fun _ => rfl))
theorem coff_W12 : ∀ t : Fin grid0.N, k0_off142 (grid0.coords t) = ![(slN t.val).val, 0, 12, 0] := by decide +kernel
@[sl_canon] theorem canon_WscA12 (t : Fin grid0.N) :
    (scA.slice (Rect.unit (s := S2x8x64x1024) (k0_off142 (grid0.coords t)) S1x8x1x1024.size (k0_off142_inb (grid0.coords t))) (fun _ => rfl)).squeeze S8x1024 squeezes_S1x8x1x1024_S8x1024 = rowM scA (slN t.val) ⟨12, Nat.le_of_ble_eq_true rfl⟩ :=
  congrArg (fun M : Memref sig .tc .vmem S1x8x1x1024 .f32 => M.squeeze S8x1024 squeezes_S1x8x1x1024_S8x1024) (Memref.slice_unit_congr _ (coff_W12 t) _ _ (fun _ => rfl) (fun _ => rfl))
@[sl_canon] theorem canon_WscB12 (t : Fin grid0.N) :
    (scB.slice (Rect.unit (s := S2x8x64x1024) (k0_off142 (grid0.coords t)) S1x8x1x1024.size (k0_off142_inb (grid0.coords t))) (fun _ => rfl)).squeeze S8x1024 squeezes_S1x8x1x1024_S8x1024 = rowM scB (slN t.val) ⟨12, Nat.le_of_ble_eq_true rfl⟩ :=
  congrArg (fun M : Memref sig .tc .vmem S1x8x1x1024 .f32 => M.squeeze S8x1024 squeezes_S1x8x1x1024_S8x1024) (Memref.slice_unit_congr _ (coff_W12 t) _ _ (fun _ => rfl) (fun _ => rfl))
theorem coff_W13 : ∀ t : Fin grid0.N, k0_off143 (grid0.coords t) = ![(slN t.val).val, 0, 13, 0] := by decide +kernel
@[sl_canon] theorem canon_WscA13 (t : Fin grid0.N) :
    (scA.slice (Rect.unit (s := S2x8x64x1024) (k0_off143 (grid0.coords t)) S1x8x1x1024.size (k0_off143_inb (grid0.coords t))) (fun _ => rfl)).squeeze S8x1024 squeezes_S1x8x1x1024_S8x1024 = rowM scA (slN t.val) ⟨13, Nat.le_of_ble_eq_true rfl⟩ :=
  congrArg (fun M : Memref sig .tc .vmem S1x8x1x1024 .f32 => M.squeeze S8x1024 squeezes_S1x8x1x1024_S8x1024) (Memref.slice_unit_congr _ (coff_W13 t) _ _ (fun _ => rfl) (fun _ => rfl))
@[sl_canon] theorem canon_WscB13 (t : Fin grid0.N) :
    (scB.slice (Rect.unit (s := S2x8x64x1024) (k0_off143 (grid0.coords t)) S1x8x1x1024.size (k0_off143_inb (grid0.coords t))) (fun _ => rfl)).squeeze S8x1024 squeezes_S1x8x1x1024_S8x1024 = rowM scB (slN t.val) ⟨13, Nat.le_of_ble_eq_true rfl⟩ :=
  congrArg (fun M : Memref sig .tc .vmem S1x8x1x1024 .f32 => M.squeeze S8x1024 squeezes_S1x8x1x1024_S8x1024) (Memref.slice_unit_congr _ (coff_W13 t) _ _ (fun _ => rfl) (fun _ => rfl))
theorem coff_W14 : ∀ t : Fin grid0.N, k0_off144 (grid0.coords t) = ![(slN t.val).val, 0, 14, 0] := by decide +kernel
@[sl_canon] theorem canon_WscA14 (t : Fin grid0.N) :
    (scA.slice (Rect.unit (s := S2x8x64x1024) (k0_off144 (grid0.coords t)) S1x8x1x1024.size (k0_off144_inb (grid0.coords t))) (fun _ => rfl)).squeeze S8x1024 squeezes_S1x8x1x1024_S8x1024 = rowM scA (slN t.val) ⟨14, Nat.le_of_ble_eq_true rfl⟩ :=
  congrArg (fun M : Memref sig .tc .vmem S1x8x1x1024 .f32 => M.squeeze S8x1024 squeezes_S1x8x1x1024_S8x1024) (Memref.slice_unit_congr _ (coff_W14 t) _ _ (fun _ => rfl) (fun _ => rfl))
@[sl_canon] theorem canon_WscB14 (t : Fin grid0.N) :
    (scB.slice (Rect.unit (s := S2x8x64x1024) (k0_off144 (grid0.coords t)) S1x8x1x1024.size (k0_off144_inb (grid0.coords t))) (fun _ => rfl)).squeeze S8x1024 squeezes_S1x8x1x1024_S8x1024 = rowM scB (slN t.val) ⟨14, Nat.le_of_ble_eq_true rfl⟩ :=
  congrArg (fun M : Memref sig .tc .vmem S1x8x1x1024 .f32 => M.squeeze S8x1024 squeezes_S1x8x1x1024_S8x1024) (Memref.slice_unit_congr _ (coff_W14 t) _ _ (fun _ => rfl) (fun _ => rfl))
theorem coff_W15 : ∀ t : Fin grid0.N, k0_off145 (grid0.coords t) = ![(slN t.val).val, 0, 15, 0] := by decide +kernel
@[sl_canon] theorem canon_WscA15 (t : Fin grid0.N) :
    (scA.slice (Rect.unit (s := S2x8x64x1024) (k0_off145 (grid0.coords t)) S1x8x1x1024.size (k0_off145_inb (grid0.coords t))) (fun _ => rfl)).squeeze S8x1024 squeezes_S1x8x1x1024_S8x1024 = rowM scA (slN t.val) ⟨15, Nat.le_of_ble_eq_true rfl⟩ :=
  congrArg (fun M : Memref sig .tc .vmem S1x8x1x1024 .f32 => M.squeeze S8x1024 squeezes_S1x8x1x1024_S8x1024) (Memref.slice_unit_congr _ (coff_W15 t) _ _ (fun _ => rfl) (fun _ => rfl))
@[sl_canon] theorem canon_WscB15 (t : Fin grid0.N) :
    (scB.slice (Rect.unit (s := S2x8x64x1024) (k0_off145 (grid0.coords t)) S1x8x1x1024.size (k0_off145_inb (grid0.coords t))) (fun _ => rfl)).squeeze S8x1024 squeezes_S1x8x1x1024_S8x1024 = rowM scB (slN t.val) ⟨15, Nat.le_of_ble_eq_true rfl⟩ :=
  congrArg (fun M : Memref sig .tc .vmem S1x8x1x1024 .f32 => M.squeeze S8x1024 squeezes_S1x8x1x1024_S8x1024) (Memref.slice_unit_congr _ (coff_W15 t) _ _ (fun _ => rfl) (fun _ => rfl))
theorem coff_W16 : ∀ t : Fin grid0.N, k0_off146 (grid0.coords t) = ![(slN t.val).val, 0, 16, 0] := by decide +kernel
@[sl_canon] theorem canon_WscA16 (t : Fin grid0.N) :
    (scA.slice (Rect.unit (s := S2x8x64x1024) (k0_off146 (grid0.coords t)) S1x8x1x1024.size (k0_off146_inb (grid0.coords t))) (fun _ => rfl)).squeeze S8x1024 squeezes_S1x8x1x1024_S8x1024 = rowM scA (slN t.val) ⟨16, Nat.le_of_ble_eq_true rfl⟩ :=
  congrArg (fun M : Memref sig .tc .vmem S1x8x1x1024 .f32 => M.squeeze S8x1024 squeezes_S1x8x1x1024_S8x1024) (Memref.slice_unit_congr _ (coff_W16 t) _ _ (fun _ => rfl) (fun _ => rfl))
@[sl_canon] theorem canon_WscB16 (t : Fin grid0.N) :
    (scB.slice (Rect.unit (s := S2x8x64x1024) (k0_off146 (grid0.coords t)) S1x8x1x1024.size (k0_off146_inb (grid0.coords t))) (fun _ => rfl)).squeeze S8x1024 squeezes_S1x8x1x1024_S8x1024 = rowM scB (slN t.val) ⟨16, Nat.le_of_ble_eq_true rfl⟩ :=
  congrArg (fun M : Memref sig .tc .vmem S1x8x1x1024 .f32 => M.squeeze S8x1024 squeezes_S1x8x1x1024_S8x1024) (Memref.slice_unit_congr _ (coff_W16 t) _ _ (fun _ => rfl) (fun _ => rfl))
theorem coff_W17 : ∀ t : Fin grid0.N, k0_off147 (grid0.coords t) = ![(slN t.val).val, 0, 17, 0] := by decide +kernel
@[sl_canon] theorem canon_WscA17 (t : Fin grid0.N) :
    (scA.slice (Rect.unit (s := S2x8x64x1024) (k0_off147 (grid0.coords t)) S1x8x1x1024.size (k0_off147_inb (grid0.coords t))) (fun _ => rfl)).squeeze S8x1024 squeezes_S1x8x1x1024_S8x1024 = rowM scA (slN t.val) ⟨17, Nat.le_of_ble_eq_true rfl⟩ :=
  congrArg (fun M : Memref sig .tc .vmem S1x8x1x1024 .f32 => M.squeeze S8x1024 squeezes_S1x8x1x1024_S8x1024) (Memref.slice_unit_congr _ (coff_W17 t) _ _ (fun _ => rfl) (fun _ => rfl))
@[sl_canon] theorem canon_WscB17 (t : Fin grid0.N) :
    (scB.slice (Rect.unit (s := S2x8x64x1024) (k0_off147 (grid0.coords t)) S1x8x1x1024.size (k0_off147_inb (grid0.coords t))) (fun _ => rfl)).squeeze S8x1024 squeezes_S1x8x1x1024_S8x1024 = rowM scB (slN t.val) ⟨17, Nat.le_of_ble_eq_true rfl⟩ :=
  congrArg (fun M : Memref sig .tc .vmem S1x8x1x1024 .f32 => M.squeeze S8x1024 squeezes_S1x8x1x1024_S8x1024) (Memref.slice_unit_congr _ (coff_W17 t) _ _ (fun _ => rfl) (fun _ => rfl))
theorem coff_W18 : ∀ t : Fin grid0.N, k0_off148 (grid0.coords t) = ![(slN t.val).val, 0, 18, 0] := by decide +kernel
@[sl_canon] theorem canon_WscA18 (t : Fin grid0.N) :
    (scA.slice (Rect.unit (s := S2x8x64x1024) (k0_off148 (grid0.coords t)) S1x8x1x1024.size (k0_off148_inb (grid0.coords t))) (fun _ => rfl)).squeeze S8x1024 squeezes_S1x8x1x1024_S8x1024 = rowM scA (slN t.val) ⟨18, Nat.le_of_ble_eq_true rfl⟩ :=
  congrArg (fun M : Memref sig .tc .vmem S1x8x1x1024 .f32 => M.squeeze S8x1024 squeezes_S1x8x1x1024_S8x1024) (Memref.slice_unit_congr _ (coff_W18 t) _ _ (fun _ => rfl) (fun _ => rfl))
@[sl_canon] theorem canon_WscB18 (t : Fin grid0.N) :
    (scB.slice (Rect.unit (s := S2x8x64x1024) (k0_off148 (grid0.coords t)) S1x8x1x1024.size (k0_off148_inb (grid0.coords t))) (fun _ => rfl)).squeeze S8x1024 squeezes_S1x8x1x1024_S8x1024 = rowM scB (slN t.val) ⟨18, Nat.le_of_ble_eq_true rfl⟩ :=
  congrArg (fun M : Memref sig .tc .vmem S1x8x1x1024 .f32 => M.squeeze S8x1024 squeezes_S1x8x1x1024_S8x1024) (Memref.slice_unit_congr _ (coff_W18 t) _ _ (fun _ => rfl) (fun _ => rfl))
theorem coff_W19 : ∀ t : Fin grid0.N, k0_off149 (grid0.coords t) = ![(slN t.val).val, 0, 19, 0] := by decide +kernel
@[sl_canon] theorem canon_WscA19 (t : Fin grid0.N) :
    (scA.slice (Rect.unit (s := S2x8x64x1024) (k0_off149 (grid0.coords t)) S1x8x1x1024.size (k0_off149_inb (grid0.coords t))) (fun _ => rfl)).squeeze S8x1024 squeezes_S1x8x1x1024_S8x1024 = rowM scA (slN t.val) ⟨19, Nat.le_of_ble_eq_true rfl⟩ :=
  congrArg (fun M : Memref sig .tc .vmem S1x8x1x1024 .f32 => M.squeeze S8x1024 squeezes_S1x8x1x1024_S8x1024) (Memref.slice_unit_congr _ (coff_W19 t) _ _ (fun _ => rfl) (fun _ => rfl))
@[sl_canon] theorem canon_WscB19 (t : Fin grid0.N) :
    (scB.slice (Rect.unit (s := S2x8x64x1024) (k0_off149 (grid0.coords t)) S1x8x1x1024.size (k0_off149_inb (grid0.coords t))) (fun _ => rfl)).squeeze S8x1024 squeezes_S1x8x1x1024_S8x1024 = rowM scB (slN t.val) ⟨19, Nat.le_of_ble_eq_true rfl⟩ :=
  congrArg (fun M : Memref sig .tc .vmem S1x8x1x1024 .f32 => M.squeeze S8x1024 squeezes_S1x8x1x1024_S8x1024) (Memref.slice_unit_congr _ (coff_W19 t) _ _ (fun _ => rfl) (fun _ => rfl))
theorem coff_W20 : ∀ t : Fin grid0.N, k0_off150 (grid0.coords t) = ![(slN t.val).val, 0, 20, 0] := by decide +kernel
@[sl_canon] theorem canon_WscA20 (t : Fin grid0.N) :
    (scA.slice (Rect.unit (s := S2x8x64x1024) (k0_off150 (grid0.coords t)) S1x8x1x1024.size (k0_off150_inb (grid0.coords t))) (fun _ => rfl)).squeeze S8x1024 squeezes_S1x8x1x1024_S8x1024 = rowM scA (slN t.val) ⟨20, Nat.le_of_ble_eq_true rfl⟩ :=
  congrArg (fun M : Memref sig .tc .vmem S1x8x1x1024 .f32 => M.squeeze S8x1024 squeezes_S1x8x1x1024_S8x1024) (Memref.slice_unit_congr _ (coff_W20 t) _ _ (fun _ => rfl) (fun _ => rfl))
@[sl_canon] theorem canon_WscB20 (t : Fin grid0.N) :
    (scB.slice (Rect.unit (s := S2x8x64x1024) (k0_off150 (grid0.coords t)) S1x8x1x1024.size (k0_off150_inb (grid0.coords t))) (fun _ => rfl)).squeeze S8x1024 squeezes_S1x8x1x1024_S8x1024 = rowM scB (slN t.val) ⟨20, Nat.le_of_ble_eq_true rfl⟩ :=
  congrArg (fun M : Memref sig .tc .vmem S1x8x1x1024 .f32 => M.squeeze S8x1024 squeezes_S1x8x1x1024_S8x1024) (Memref.slice_unit_congr _ (coff_W20 t) _ _ (fun _ => rfl) (fun _ => rfl))
theorem coff_W21 : ∀ t : Fin grid0.N, k0_off151 (grid0.coords t) = ![(slN t.val).val, 0, 21, 0] := by decide +kernel
@[sl_canon] theorem canon_WscA21 (t : Fin grid0.N) :
    (scA.slice (Rect.unit (s := S2x8x64x1024) (k0_off151 (grid0.coords t)) S1x8x1x1024.size (k0_off151_inb (grid0.coords t))) (fun _ => rfl)).squeeze S8x1024 squeezes_S1x8x1x1024_S8x1024 = rowM scA (slN t.val) ⟨21, Nat.le_of_ble_eq_true rfl⟩ :=
  congrArg (fun M : Memref sig .tc .vmem S1x8x1x1024 .f32 => M.squeeze S8x1024 squeezes_S1x8x1x1024_S8x1024) (Memref.slice_unit_congr _ (coff_W21 t) _ _ (fun _ => rfl) (fun _ => rfl))
@[sl_canon] theorem canon_WscB21 (t : Fin grid0.N) :
    (scB.slice (Rect.unit (s := S2x8x64x1024) (k0_off151 (grid0.coords t)) S1x8x1x1024.size (k0_off151_inb (grid0.coords t))) (fun _ => rfl)).squeeze S8x1024 squeezes_S1x8x1x1024_S8x1024 = rowM scB (slN t.val) ⟨21, Nat.le_of_ble_eq_true rfl⟩ :=
  congrArg (fun M : Memref sig .tc .vmem S1x8x1x1024 .f32 => M.squeeze S8x1024 squeezes_S1x8x1x1024_S8x1024) (Memref.slice_unit_congr _ (coff_W21 t) _ _ (fun _ => rfl) (fun _ => rfl))
theorem coff_W22 : ∀ t : Fin grid0.N, k0_off152 (grid0.coords t) = ![(slN t.val).val, 0, 22, 0] := by decide +kernel
@[sl_canon] theorem canon_WscA22 (t : Fin grid0.N) :
    (scA.slice (Rect.unit (s := S2x8x64x1024) (k0_off152 (grid0.coords t)) S1x8x1x1024.size (k0_off152_inb (grid0.coords t))) (fun _ => rfl)).squeeze S8x1024 squeezes_S1x8x1x1024_S8x1024 = rowM scA (slN t.val) ⟨22, Nat.le_of_ble_eq_true rfl⟩ :=
  congrArg (fun M : Memref sig .tc .vmem S1x8x1x1024 .f32 => M.squeeze S8x1024 squeezes_S1x8x1x1024_S8x1024) (Memref.slice_unit_congr _ (coff_W22 t) _ _ (fun _ => rfl) (fun _ => rfl))
@[sl_canon] theorem canon_WscB22 (t : Fin grid0.N) :
    (scB.slice (Rect.unit (s := S2x8x64x1024) (k0_off152 (grid0.coords t)) S1x8x1x1024.size (k0_off152_inb (grid0.coords t))) (fun _ => rfl)).squeeze S8x1024 squeezes_S1x8x1x1024_S8x1024 = rowM scB (slN t.val) ⟨22, Nat.le_of_ble_eq_true rfl⟩ :=
  congrArg (fun M : Memref sig .tc .vmem S1x8x1x1024 .f32 => M.squeeze S8x1024 squeezes_S1x8x1x1024_S8x1024) (Memref.slice_unit_congr _ (coff_W22 t) _ _ (fun _ => rfl) (fun _ => rfl))
theorem coff_W23 : ∀ t : Fin grid0.N, k0_off153 (grid0.coords t) = ![(slN t.val).val, 0, 23, 0] := by decide +kernel
@[sl_canon] theorem canon_WscA23 (t : Fin grid0.N) :
    (scA.slice (Rect.unit (s := S2x8x64x1024) (k0_off153 (grid0.coords t)) S1x8x1x1024.size (k0_off153_inb (grid0.coords t))) (fun _ => rfl)).squeeze S8x1024 squeezes_S1x8x1x1024_S8x1024 = rowM scA (slN t.val) ⟨23, Nat.le_of_ble_eq_true rfl⟩ :=
  congrArg (fun M : Memref sig .tc .vmem S1x8x1x1024 .f32 => M.squeeze S8x1024 squeezes_S1x8x1x1024_S8x1024) (Memref.slice_unit_congr _ (coff_W23 t) _ _ (fun _ => rfl) (fun _ => rfl))
@[sl_canon] theorem canon_WscB23 (t : Fin grid0.N) :
    (scB.slice (Rect.unit (s := S2x8x64x1024) (k0_off153 (grid0.coords t)) S1x8x1x1024.size (k0_off153_inb (grid0.coords t))) (fun _ => rfl)).squeeze S8x1024 squeezes_S1x8x1x1024_S8x1024 = rowM scB (slN t.val) ⟨23, Nat.le_of_ble_eq_true rfl⟩ :=
  congrArg (fun M : Memref sig .tc .vmem S1x8x1x1024 .f32 => M.squeeze S8x1024 squeezes_S1x8x1x1024_S8x1024) (Memref.slice_unit_congr _ (coff_W23 t) _ _ (fun _ => rfl) (fun _ => rfl))
theorem coff_W24 : ∀ t : Fin grid0.N, k0_off154 (grid0.coords t) = ![(slN t.val).val, 0, 24, 0] := by decide +kernel
@[sl_canon] theorem canon_WscA24 (t : Fin grid0.N) :
    (scA.slice (Rect.unit (s := S2x8x64x1024) (k0_off154 (grid0.coords t)) S1x8x1x1024.size (k0_off154_inb (grid0.coords t))) (fun _ => rfl)).squeeze S8x1024 squeezes_S1x8x1x1024_S8x1024 = rowM scA (slN t.val) ⟨24, Nat.le_of_ble_eq_true rfl⟩ :=
  congrArg (fun M : Memref sig .tc .vmem S1x8x1x1024 .f32 => M.squeeze S8x1024 squeezes_S1x8x1x1024_S8x1024) (Memref.slice_unit_congr _ (coff_W24 t) _ _ (fun _ => rfl) (fun _ => rfl))
@[sl_canon] theorem canon_WscB24 (t : Fin grid0.N) :
    (scB.slice (Rect.unit (s := S2x8x64x1024) (k0_off154 (grid0.coords t)) S1x8x1x1024.size (k0_off154_inb (grid0.coords t))) (fun _ => rfl)).squeeze S8x1024 squeezes_S1x8x1x1024_S8x1024 = rowM scB (slN t.val) ⟨24, Nat.le_of_ble_eq_true rfl⟩ :=
  congrArg (fun M : Memref sig .tc .vmem S1x8x1x1024 .f32 => M.squeeze S8x1024 squeezes_S1x8x1x1024_S8x1024) (Memref.slice_unit_congr _ (coff_W24 t) _ _ (fun _ => rfl) (fun _ => rfl))
theorem coff_W25 : ∀ t : Fin grid0.N, k0_off155 (grid0.coords t) = ![(slN t.val).val, 0, 25, 0] := by decide +kernel
@[sl_canon] theorem canon_WscA25 (t : Fin grid0.N) :
    (scA.slice (Rect.unit (s := S2x8x64x1024) (k0_off155 (grid0.coords t)) S1x8x1x1024.size (k0_off155_inb (grid0.coords t))) (fun _ => rfl)).squeeze S8x1024 squeezes_S1x8x1x1024_S8x1024 = rowM scA (slN t.val) ⟨25, Nat.le_of_ble_eq_true rfl⟩ :=
  congrArg (fun M : Memref sig .tc .vmem S1x8x1x1024 .f32 => M.squeeze S8x1024 squeezes_S1x8x1x1024_S8x1024) (Memref.slice_unit_congr _ (coff_W25 t) _ _ (fun _ => rfl) (fun _ => rfl))
@[sl_canon] theorem canon_WscB25 (t : Fin grid0.N) :
    (scB.slice (Rect.unit (s := S2x8x64x1024) (k0_off155 (grid0.coords t)) S1x8x1x1024.size (k0_off155_inb (grid0.coords t))) (fun _ => rfl)).squeeze S8x1024 squeezes_S1x8x1x1024_S8x1024 = rowM scB (slN t.val) ⟨25, Nat.le_of_ble_eq_true rfl⟩ :=
  congrArg (fun M : Memref sig .tc .vmem S1x8x1x1024 .f32 => M.squeeze S8x1024 squeezes_S1x8x1x1024_S8x1024) (Memref.slice_unit_congr _ (coff_W25 t) _ _ (fun _ => rfl) (fun _ => rfl))
theorem coff_W26 : ∀ t : Fin grid0.N, k0_off156 (grid0.coords t) = ![(slN t.val).val, 0, 26, 0] := by decide +kernel
@[sl_canon] theorem canon_WscA26 (t : Fin grid0.N) :
    (scA.slice (Rect.unit (s := S2x8x64x1024) (k0_off156 (grid0.coords t)) S1x8x1x1024.size (k0_off156_inb (grid0.coords t))) (fun _ => rfl)).squeeze S8x1024 squeezes_S1x8x1x1024_S8x1024 = rowM scA (slN t.val) ⟨26, Nat.le_of_ble_eq_true rfl⟩ :=
  congrArg (fun M : Memref sig .tc .vmem S1x8x1x1024 .f32 => M.squeeze S8x1024 squeezes_S1x8x1x1024_S8x1024) (Memref.slice_unit_congr _ (coff_W26 t) _ _ (fun _ => rfl) (fun _ => rfl))
@[sl_canon] theorem canon_WscB26 (t : Fin grid0.N) :
    (scB.slice (Rect.unit (s := S2x8x64x1024) (k0_off156 (grid0.coords t)) S1x8x1x1024.size (k0_off156_inb (grid0.coords t))) (fun _ => rfl)).squeeze S8x1024 squeezes_S1x8x1x1024_S8x1024 = rowM scB (slN t.val) ⟨26, Nat.le_of_ble_eq_true rfl⟩ :=
  congrArg (fun M : Memref sig .tc .vmem S1x8x1x1024 .f32 => M.squeeze S8x1024 squeezes_S1x8x1x1024_S8x1024) (Memref.slice_unit_congr _ (coff_W26 t) _ _ (fun _ => rfl) (fun _ => rfl))
theorem coff_W27 : ∀ t : Fin grid0.N, k0_off157 (grid0.coords t) = ![(slN t.val).val, 0, 27, 0] := by decide +kernel
@[sl_canon] theorem canon_WscA27 (t : Fin grid0.N) :
    (scA.slice (Rect.unit (s := S2x8x64x1024) (k0_off157 (grid0.coords t)) S1x8x1x1024.size (k0_off157_inb (grid0.coords t))) (fun _ => rfl)).squeeze S8x1024 squeezes_S1x8x1x1024_S8x1024 = rowM scA (slN t.val) ⟨27, Nat.le_of_ble_eq_true rfl⟩ :=
  congrArg (fun M : Memref sig .tc .vmem S1x8x1x1024 .f32 => M.squeeze S8x1024 squeezes_S1x8x1x1024_S8x1024) (Memref.slice_unit_congr _ (coff_W27 t) _ _ (fun _ => rfl) (fun _ => rfl))
@[sl_canon] theorem canon_WscB27 (t : Fin grid0.N) :
    (scB.slice (Rect.unit (s := S2x8x64x1024) (k0_off157 (grid0.coords t)) S1x8x1x1024.size (k0_off157_inb (grid0.coords t))) (fun _ => rfl)).squeeze S8x1024 squeezes_S1x8x1x1024_S8x1024 = rowM scB (slN t.val) ⟨27, Nat.le_of_ble_eq_true rfl⟩ :=
  congrArg (fun M : Memref sig .tc .vmem S1x8x1x1024 .f32 => M.squeeze S8x1024 squeezes_S1x8x1x1024_S8x1024) (Memref.slice_unit_congr _ (coff_W27 t) _ _ (fun _ => rfl) (fun _ => rfl))
theorem coff_W28 : ∀ t : Fin grid0.N, k0_off158 (grid0.coords t) = ![(slN t.val).val, 0, 28, 0] := by decide +kernel
@[sl_canon] theorem canon_WscA28 (t : Fin grid0.N) :
    (scA.slice (Rect.unit (s := S2x8x64x1024) (k0_off158 (grid0.coords t)) S1x8x1x1024.size (k0_off158_inb (grid0.coords t))) (fun _ => rfl)).squeeze S8x1024 squeezes_S1x8x1x1024_S8x1024 = rowM scA (slN t.val) ⟨28, Nat.le_of_ble_eq_true rfl⟩ :=
  congrArg (fun M : Memref sig .tc .vmem S1x8x1x1024 .f32 => M.squeeze S8x1024 squeezes_S1x8x1x1024_S8x1024) (Memref.slice_unit_congr _ (coff_W28 t) _ _ (fun _ => rfl) (fun _ => rfl))
@[sl_canon] theorem canon_WscB28 (t : Fin grid0.N) :
    (scB.slice (Rect.unit (s := S2x8x64x1024) (k0_off158 (grid0.coords t)) S1x8x1x1024.size (k0_off158_inb (grid0.coords t))) (fun _ => rfl)).squeeze S8x1024 squeezes_S1x8x1x1024_S8x1024 = rowM scB (slN t.val) ⟨28, Nat.le_of_ble_eq_true rfl⟩ :=
  congrArg (fun M : Memref sig .tc .vmem S1x8x1x1024 .f32 => M.squeeze S8x1024 squeezes_S1x8x1x1024_S8x1024) (Memref.slice_unit_congr _ (coff_W28 t) _ _ (fun _ => rfl) (fun _ => rfl))
theorem coff_W29 : ∀ t : Fin grid0.N, k0_off159 (grid0.coords t) = ![(slN t.val).val, 0, 29, 0] := by decide +kernel
@[sl_canon] theorem canon_WscA29 (t : Fin grid0.N) :
    (scA.slice (Rect.unit (s := S2x8x64x1024) (k0_off159 (grid0.coords t)) S1x8x1x1024.size (k0_off159_inb (grid0.coords t))) (fun _ => rfl)).squeeze S8x1024 squeezes_S1x8x1x1024_S8x1024 = rowM scA (slN t.val) ⟨29, Nat.le_of_ble_eq_true rfl⟩ :=
  congrArg (fun M : Memref sig .tc .vmem S1x8x1x1024 .f32 => M.squeeze S8x1024 squeezes_S1x8x1x1024_S8x1024) (Memref.slice_unit_congr _ (coff_W29 t) _ _ (fun _ => rfl) (fun _ => rfl))
@[sl_canon] theorem canon_WscB29 (t : Fin grid0.N) :
    (scB.slice (Rect.unit (s := S2x8x64x1024) (k0_off159 (grid0.coords t)) S1x8x1x1024.size (k0_off159_inb (grid0.coords t))) (fun _ => rfl)).squeeze S8x1024 squeezes_S1x8x1x1024_S8x1024 = rowM scB (slN t.val) ⟨29, Nat.le_of_ble_eq_true rfl⟩ :=
  congrArg (fun M : Memref sig .tc .vmem S1x8x1x1024 .f32 => M.squeeze S8x1024 squeezes_S1x8x1x1024_S8x1024) (Memref.slice_unit_congr _ (coff_W29 t) _ _ (fun _ => rfl) (fun _ => rfl))
theorem coff_W30 : ∀ t : Fin grid0.N, k0_off160 (grid0.coords t) = ![(slN t.val).val, 0, 30, 0] := by decide +kernel
@[sl_canon] theorem canon_WscA30 (t : Fin grid0.N) :
    (scA.slice (Rect.unit (s := S2x8x64x1024) (k0_off160 (grid0.coords t)) S1x8x1x1024.size (k0_off160_inb (grid0.coords t))) (fun _ => rfl)).squeeze S8x1024 squeezes_S1x8x1x1024_S8x1024 = rowM scA (slN t.val) ⟨30, Nat.le_of_ble_eq_true rfl⟩ :=
  congrArg (fun M : Memref sig .tc .vmem S1x8x1x1024 .f32 => M.squeeze S8x1024 squeezes_S1x8x1x1024_S8x1024) (Memref.slice_unit_congr _ (coff_W30 t) _ _ (fun _ => rfl) (fun _ => rfl))
@[sl_canon] theorem canon_WscB30 (t : Fin grid0.N) :
    (scB.slice (Rect.unit (s := S2x8x64x1024) (k0_off160 (grid0.coords t)) S1x8x1x1024.size (k0_off160_inb (grid0.coords t))) (fun _ => rfl)).squeeze S8x1024 squeezes_S1x8x1x1024_S8x1024 = rowM scB (slN t.val) ⟨30, Nat.le_of_ble_eq_true rfl⟩ :=
  congrArg (fun M : Memref sig .tc .vmem S1x8x1x1024 .f32 => M.squeeze S8x1024 squeezes_S1x8x1x1024_S8x1024) (Memref.slice_unit_congr _ (coff_W30 t) _ _ (fun _ => rfl) (fun _ => rfl))
theorem coff_W31 : ∀ t : Fin grid0.N, k0_off161 (grid0.coords t) = ![(slN t.val).val, 0, 31, 0] := by decide +kernel
@[sl_canon] theorem canon_WscA31 (t : Fin grid0.N) :
    (scA.slice (Rect.unit (s := S2x8x64x1024) (k0_off161 (grid0.coords t)) S1x8x1x1024.size (k0_off161_inb (grid0.coords t))) (fun _ => rfl)).squeeze S8x1024 squeezes_S1x8x1x1024_S8x1024 = rowM scA (slN t.val) ⟨31, Nat.le_of_ble_eq_true rfl⟩ :=
  congrArg (fun M : Memref sig .tc .vmem S1x8x1x1024 .f32 => M.squeeze S8x1024 squeezes_S1x8x1x1024_S8x1024) (Memref.slice_unit_congr _ (coff_W31 t) _ _ (fun _ => rfl) (fun _ => rfl))
@[sl_canon] theorem canon_WscB31 (t : Fin grid0.N) :
    (scB.slice (Rect.unit (s := S2x8x64x1024) (k0_off161 (grid0.coords t)) S1x8x1x1024.size (k0_off161_inb (grid0.coords t))) (fun _ => rfl)).squeeze S8x1024 squeezes_S1x8x1x1024_S8x1024 = rowM scB (slN t.val) ⟨31, Nat.le_of_ble_eq_true rfl⟩ :=
  congrArg (fun M : Memref sig .tc .vmem S1x8x1x1024 .f32 => M.squeeze S8x1024 squeezes_S1x8x1x1024_S8x1024) (Memref.slice_unit_congr _ (coff_W31 t) _ _ (fun _ => rfl) (fun _ => rfl))
theorem coff_W32 : ∀ t : Fin grid0.N, k0_off162 (grid0.coords t) = ![(slN t.val).val, 0, 32, 0] := by decide +kernel
@[sl_canon] theorem canon_WscA32 (t : Fin grid0.N) :
    (scA.slice (Rect.unit (s := S2x8x64x1024) (k0_off162 (grid0.coords t)) S1x8x1x1024.size (k0_off162_inb (grid0.coords t))) (fun _ => rfl)).squeeze S8x1024 squeezes_S1x8x1x1024_S8x1024 = rowM scA (slN t.val) ⟨32, Nat.le_of_ble_eq_true rfl⟩ :=
  congrArg (fun M : Memref sig .tc .vmem S1x8x1x1024 .f32 => M.squeeze S8x1024 squeezes_S1x8x1x1024_S8x1024) (Memref.slice_unit_congr _ (coff_W32 t) _ _ (fun _ => rfl) (fun _ => rfl))
@[sl_canon] theorem canon_WscB32 (t : Fin grid0.N) :
    (scB.slice (Rect.unit (s := S2x8x64x1024) (k0_off162 (grid0.coords t)) S1x8x1x1024.size (k0_off162_inb (grid0.coords t))) (fun _ => rfl)).squeeze S8x1024 squeezes_S1x8x1x1024_S8x1024 = rowM scB (slN t.val) ⟨32, Nat.le_of_ble_eq_true rfl⟩ :=
  congrArg (fun M : Memref sig .tc .vmem S1x8x1x1024 .f32 => M.squeeze S8x1024 squeezes_S1x8x1x1024_S8x1024) (Memref.slice_unit_congr _ (coff_W32 t) _ _ (fun _ => rfl) (fun _ => rfl))
theorem coff_W33 : ∀ t : Fin grid0.N, k0_off163 (grid0.coords t) = ![(slN t.val).val, 0, 33, 0] := by decide +kernel
@[sl_canon] theorem canon_WscA33 (t : Fin grid0.N) :
    (scA.slice (Rect.unit (s := S2x8x64x1024) (k0_off163 (grid0.coords t)) S1x8x1x1024.size (k0_off163_inb (grid0.coords t))) (fun _ => rfl)).squeeze S8x1024 squeezes_S1x8x1x1024_S8x1024 = rowM scA (slN t.val) ⟨33, Nat.le_of_ble_eq_true rfl⟩ :=
  congrArg (fun M : Memref sig .tc .vmem S1x8x1x1024 .f32 => M.squeeze S8x1024 squeezes_S1x8x1x1024_S8x1024) (Memref.slice_unit_congr _ (coff_W33 t) _ _ (fun _ => rfl) (fun _ => rfl))
@[sl_canon] theorem canon_WscB33 (t : Fin grid0.N) :
    (scB.slice (Rect.unit (s := S2x8x64x1024) (k0_off163 (grid0.coords t)) S1x8x1x1024.size (k0_off163_inb (grid0.coords t))) (fun _ => rfl)).squeeze S8x1024 squeezes_S1x8x1x1024_S8x1024 = rowM scB (slN t.val) ⟨33, Nat.le_of_ble_eq_true rfl⟩ :=
  congrArg (fun M : Memref sig .tc .vmem S1x8x1x1024 .f32 => M.squeeze S8x1024 squeezes_S1x8x1x1024_S8x1024) (Memref.slice_unit_congr _ (coff_W33 t) _ _ (fun _ => rfl) (fun _ => rfl))
theorem coff_W34 : ∀ t : Fin grid0.N, k0_off164 (grid0.coords t) = ![(slN t.val).val, 0, 34, 0] := by decide +kernel
@[sl_canon] theorem canon_WscA34 (t : Fin grid0.N) :
    (scA.slice (Rect.unit (s := S2x8x64x1024) (k0_off164 (grid0.coords t)) S1x8x1x1024.size (k0_off164_inb (grid0.coords t))) (fun _ => rfl)).squeeze S8x1024 squeezes_S1x8x1x1024_S8x1024 = rowM scA (slN t.val) ⟨34, Nat.le_of_ble_eq_true rfl⟩ :=
  congrArg (fun M : Memref sig .tc .vmem S1x8x1x1024 .f32 => M.squeeze S8x1024 squeezes_S1x8x1x1024_S8x1024) (Memref.slice_unit_congr _ (coff_W34 t) _ _ (fun _ => rfl) (fun _ => rfl))
@[sl_canon] theorem canon_WscB34 (t : Fin grid0.N) :
    (scB.slice (Rect.unit (s := S2x8x64x1024) (k0_off164 (grid0.coords t)) S1x8x1x1024.size (k0_off164_inb (grid0.coords t))) (fun _ => rfl)).squeeze S8x1024 squeezes_S1x8x1x1024_S8x1024 = rowM scB (slN t.val) ⟨34, Nat.le_of_ble_eq_true rfl⟩ :=
  congrArg (fun M : Memref sig .tc .vmem S1x8x1x1024 .f32 => M.squeeze S8x1024 squeezes_S1x8x1x1024_S8x1024) (Memref.slice_unit_congr _ (coff_W34 t) _ _ (fun _ => rfl) (fun _ => rfl))
theorem coff_W35 : ∀ t : Fin grid0.N, k0_off165 (grid0.coords t) = ![(slN t.val).val, 0, 35, 0] := by decide +kernel
@[sl_canon] theorem canon_WscA35 (t : Fin grid0.N) :
    (scA.slice (Rect.unit (s := S2x8x64x1024) (k0_off165 (grid0.coords t)) S1x8x1x1024.size (k0_off165_inb (grid0.coords t))) (fun _ => rfl)).squeeze S8x1024 squeezes_S1x8x1x1024_S8x1024 = rowM scA (slN t.val) ⟨35, Nat.le_of_ble_eq_true rfl⟩ :=
  congrArg (fun M : Memref sig .tc .vmem S1x8x1x1024 .f32 => M.squeeze S8x1024 squeezes_S1x8x1x1024_S8x1024) (Memref.slice_unit_congr _ (coff_W35 t) _ _ (fun _ => rfl) (fun _ => rfl))
@[sl_canon] theorem canon_WscB35 (t : Fin grid0.N) :
    (scB.slice (Rect.unit (s := S2x8x64x1024) (k0_off165 (grid0.coords t)) S1x8x1x1024.size (k0_off165_inb (grid0.coords t))) (fun _ => rfl)).squeeze S8x1024 squeezes_S1x8x1x1024_S8x1024 = rowM scB (slN t.val) ⟨35, Nat.le_of_ble_eq_true rfl⟩ :=
  congrArg (fun M : Memref sig .tc .vmem S1x8x1x1024 .f32 => M.squeeze S8x1024 squeezes_S1x8x1x1024_S8x1024) (Memref.slice_unit_congr _ (coff_W35 t) _ _ (fun _ => rfl) (fun _ => rfl))
theorem coff_W36 : ∀ t : Fin grid0.N, k0_off166 (grid0.coords t) = ![(slN t.val).val, 0, 36, 0] := by decide +kernel
@[sl_canon] theorem canon_WscA36 (t : Fin grid0.N) :
    (scA.slice (Rect.unit (s := S2x8x64x1024) (k0_off166 (grid0.coords t)) S1x8x1x1024.size (k0_off166_inb (grid0.coords t))) (fun _ => rfl)).squeeze S8x1024 squeezes_S1x8x1x1024_S8x1024 = rowM scA (slN t.val) ⟨36, Nat.le_of_ble_eq_true rfl⟩ :=
  congrArg (fun M : Memref sig .tc .vmem S1x8x1x1024 .f32 => M.squeeze S8x1024 squeezes_S1x8x1x1024_S8x1024) (Memref.slice_unit_congr _ (coff_W36 t) _ _ (fun _ => rfl) (fun _ => rfl))
@[sl_canon] theorem canon_WscB36 (t : Fin grid0.N) :
    (scB.slice (Rect.unit (s := S2x8x64x1024) (k0_off166 (grid0.coords t)) S1x8x1x1024.size (k0_off166_inb (grid0.coords t))) (fun _ => rfl)).squeeze S8x1024 squeezes_S1x8x1x1024_S8x1024 = rowM scB (slN t.val) ⟨36, Nat.le_of_ble_eq_true rfl⟩ :=
  congrArg (fun M : Memref sig .tc .vmem S1x8x1x1024 .f32 => M.squeeze S8x1024 squeezes_S1x8x1x1024_S8x1024) (Memref.slice_unit_congr _ (coff_W36 t) _ _ (fun _ => rfl) (fun _ => rfl))
theorem coff_W37 : ∀ t : Fin grid0.N, k0_off167 (grid0.coords t) = ![(slN t.val).val, 0, 37, 0] := by decide +kernel
@[sl_canon] theorem canon_WscA37 (t : Fin grid0.N) :
    (scA.slice (Rect.unit (s := S2x8x64x1024) (k0_off167 (grid0.coords t)) S1x8x1x1024.size (k0_off167_inb (grid0.coords t))) (fun _ => rfl)).squeeze S8x1024 squeezes_S1x8x1x1024_S8x1024 = rowM scA (slN t.val) ⟨37, Nat.le_of_ble_eq_true rfl⟩ :=
  congrArg (fun M : Memref sig .tc .vmem S1x8x1x1024 .f32 => M.squeeze S8x1024 squeezes_S1x8x1x1024_S8x1024) (Memref.slice_unit_congr _ (coff_W37 t) _ _ (fun _ => rfl) (fun _ => rfl))
@[sl_canon] theorem canon_WscB37 (t : Fin grid0.N) :
    (scB.slice (Rect.unit (s := S2x8x64x1024) (k0_off167 (grid0.coords t)) S1x8x1x1024.size (k0_off167_inb (grid0.coords t))) (fun _ => rfl)).squeeze S8x1024 squeezes_S1x8x1x1024_S8x1024 = rowM scB (slN t.val) ⟨37, Nat.le_of_ble_eq_true rfl⟩ :=
  congrArg (fun M : Memref sig .tc .vmem S1x8x1x1024 .f32 => M.squeeze S8x1024 squeezes_S1x8x1x1024_S8x1024) (Memref.slice_unit_congr _ (coff_W37 t) _ _ (fun _ => rfl) (fun _ => rfl))
theorem coff_W38 : ∀ t : Fin grid0.N, k0_off168 (grid0.coords t) = ![(slN t.val).val, 0, 38, 0] := by decide +kernel
@[sl_canon] theorem canon_WscA38 (t : Fin grid0.N) :
    (scA.slice (Rect.unit (s := S2x8x64x1024) (k0_off168 (grid0.coords t)) S1x8x1x1024.size (k0_off168_inb (grid0.coords t))) (fun _ => rfl)).squeeze S8x1024 squeezes_S1x8x1x1024_S8x1024 = rowM scA (slN t.val) ⟨38, Nat.le_of_ble_eq_true rfl⟩ :=
  congrArg (fun M : Memref sig .tc .vmem S1x8x1x1024 .f32 => M.squeeze S8x1024 squeezes_S1x8x1x1024_S8x1024) (Memref.slice_unit_congr _ (coff_W38 t) _ _ (fun _ => rfl) (fun _ => rfl))
@[sl_canon] theorem canon_WscB38 (t : Fin grid0.N) :
    (scB.slice (Rect.unit (s := S2x8x64x1024) (k0_off168 (grid0.coords t)) S1x8x1x1024.size (k0_off168_inb (grid0.coords t))) (fun _ => rfl)).squeeze S8x1024 squeezes_S1x8x1x1024_S8x1024 = rowM scB (slN t.val) ⟨38, Nat.le_of_ble_eq_true rfl⟩ :=
  congrArg (fun M : Memref sig .tc .vmem S1x8x1x1024 .f32 => M.squeeze S8x1024 squeezes_S1x8x1x1024_S8x1024) (Memref.slice_unit_congr _ (coff_W38 t) _ _ (fun _ => rfl) (fun _ => rfl))
theorem coff_W39 : ∀ t : Fin grid0.N, k0_off169 (grid0.coords t) = ![(slN t.val).val, 0, 39, 0] := by decide +kernel
@[sl_canon] theorem canon_WscA39 (t : Fin grid0.N) :
    (scA.slice (Rect.unit (s := S2x8x64x1024) (k0_off169 (grid0.coords t)) S1x8x1x1024.size (k0_off169_inb (grid0.coords t))) (fun _ => rfl)).squeeze S8x1024 squeezes_S1x8x1x1024_S8x1024 = rowM scA (slN t.val) ⟨39, Nat.le_of_ble_eq_true rfl⟩ :=
  congrArg (fun M : Memref sig .tc .vmem S1x8x1x1024 .f32 => M.squeeze S8x1024 squeezes_S1x8x1x1024_S8x1024) (Memref.slice_unit_congr _ (coff_W39 t) _ _ (fun _ => rfl) (fun _ => rfl))
@[sl_canon] theorem canon_WscB39 (t : Fin grid0.N) :
    (scB.slice (Rect.unit (s := S2x8x64x1024) (k0_off169 (grid0.coords t)) S1x8x1x1024.size (k0_off169_inb (grid0.coords t))) (fun _ => rfl)).squeeze S8x1024 squeezes_S1x8x1x1024_S8x1024 = rowM scB (slN t.val) ⟨39, Nat.le_of_ble_eq_true rfl⟩ :=
  congrArg (fun M : Memref sig .tc .vmem S1x8x1x1024 .f32 => M.squeeze S8x1024 squeezes_S1x8x1x1024_S8x1024) (Memref.slice_unit_congr _ (coff_W39 t) _ _ (fun _ => rfl) (fun _ => rfl))
theorem coff_W40 : ∀ t : Fin grid0.N, k0_off170 (grid0.coords t) = ![(slN t.val).val, 0, 40, 0] := by decide +kernel
@[sl_canon] theorem canon_WscA40 (t : Fin grid0.N) :
    (scA.slice (Rect.unit (s := S2x8x64x1024) (k0_off170 (grid0.coords t)) S1x8x1x1024.size (k0_off170_inb (grid0.coords t))) (fun _ => rfl)).squeeze S8x1024 squeezes_S1x8x1x1024_S8x1024 = rowM scA (slN t.val) ⟨40, Nat.le_of_ble_eq_true rfl⟩ :=
  congrArg (fun M : Memref sig .tc .vmem S1x8x1x1024 .f32 => M.squeeze S8x1024 squeezes_S1x8x1x1024_S8x1024) (Memref.slice_unit_congr _ (coff_W40 t) _ _ (fun _ => rfl) (fun _ => rfl))
@[sl_canon] theorem canon_WscB40 (t : Fin grid0.N) :
    (scB.slice (Rect.unit (s := S2x8x64x1024) (k0_off170 (grid0.coords t)) S1x8x1x1024.size (k0_off170_inb (grid0.coords t))) (fun _ => rfl)).squeeze S8x1024 squeezes_S1x8x1x1024_S8x1024 = rowM scB (slN t.val) ⟨40, Nat.le_of_ble_eq_true rfl⟩ :=
  congrArg (fun M : Memref sig .tc .vmem S1x8x1x1024 .f32 => M.squeeze S8x1024 squeezes_S1x8x1x1024_S8x1024) (Memref.slice_unit_congr _ (coff_W40 t) _ _ (fun _ => rfl) (fun _ => rfl))
theorem coff_W41 : ∀ t : Fin grid0.N, k0_off171 (grid0.coords t) = ![(slN t.val).val, 0, 41, 0] := by decide +kernel
@[sl_canon] theorem canon_WscA41 (t : Fin grid0.N) :
    (scA.slice (Rect.unit (s := S2x8x64x1024) (k0_off171 (grid0.coords t)) S1x8x1x1024.size (k0_off171_inb (grid0.coords t))) (fun _ => rfl)).squeeze S8x1024 squeezes_S1x8x1x1024_S8x1024 = rowM scA (slN t.val) ⟨41, Nat.le_of_ble_eq_true rfl⟩ :=
  congrArg (fun M : Memref sig .tc .vmem S1x8x1x1024 .f32 => M.squeeze S8x1024 squeezes_S1x8x1x1024_S8x1024) (Memref.slice_unit_congr _ (coff_W41 t) _ _ (fun _ => rfl) (fun _ => rfl))
@[sl_canon] theorem canon_WscB41 (t : Fin grid0.N) :
    (scB.slice (Rect.unit (s := S2x8x64x1024) (k0_off171 (grid0.coords t)) S1x8x1x1024.size (k0_off171_inb (grid0.coords t))) (fun _ => rfl)).squeeze S8x1024 squeezes_S1x8x1x1024_S8x1024 = rowM scB (slN t.val) ⟨41, Nat.le_of_ble_eq_true rfl⟩ :=
  congrArg (fun M : Memref sig .tc .vmem S1x8x1x1024 .f32 => M.squeeze S8x1024 squeezes_S1x8x1x1024_S8x1024) (Memref.slice_unit_congr _ (coff_W41 t) _ _ (fun _ => rfl) (fun _ => rfl))
theorem coff_W42 : ∀ t : Fin grid0.N, k0_off172 (grid0.coords t) = ![(slN t.val).val, 0, 42, 0] := by decide +kernel
@[sl_canon] theorem canon_WscA42 (t : Fin grid0.N) :
    (scA.slice (Rect.unit (s := S2x8x64x1024) (k0_off172 (grid0.coords t)) S1x8x1x1024.size (k0_off172_inb (grid0.coords t))) (fun _ => rfl)).squeeze S8x1024 squeezes_S1x8x1x1024_S8x1024 = rowM scA (slN t.val) ⟨42, Nat.le_of_ble_eq_true rfl⟩ :=
  congrArg (fun M : Memref sig .tc .vmem S1x8x1x1024 .f32 => M.squeeze S8x1024 squeezes_S1x8x1x1024_S8x1024) (Memref.slice_unit_congr _ (coff_W42 t) _ _ (fun _ => rfl) (fun _ => rfl))
@[sl_canon] theorem canon_WscB42 (t : Fin grid0.N) :
    (scB.slice (Rect.unit (s := S2x8x64x1024) (k0_off172 (grid0.coords t)) S1x8x1x1024.size (k0_off172_inb (grid0.coords t))) (fun _ => rfl)).squeeze S8x1024 squeezes_S1x8x1x1024_S8x1024 = rowM scB (slN t.val) ⟨42, Nat.le_of_ble_eq_true rfl⟩ :=
  congrArg (fun M : Memref sig .tc .vmem S1x8x1x1024 .f32 => M.squeeze S8x1024 squeezes_S1x8x1x1024_S8x1024) (Memref.slice_unit_congr _ (coff_W42 t) _ _ (fun _ => rfl) (fun _ => rfl))
theorem coff_W43 : ∀ t : Fin grid0.N, k0_off173 (grid0.coords t) = ![(slN t.val).val, 0, 43, 0] := by decide +kernel
@[sl_canon] theorem canon_WscA43 (t : Fin grid0.N) :
    (scA.slice (Rect.unit (s := S2x8x64x1024) (k0_off173 (grid0.coords t)) S1x8x1x1024.size (k0_off173_inb (grid0.coords t))) (fun _ => rfl)).squeeze S8x1024 squeezes_S1x8x1x1024_S8x1024 = rowM scA (slN t.val) ⟨43, Nat.le_of_ble_eq_true rfl⟩ :=
  congrArg (fun M : Memref sig .tc .vmem S1x8x1x1024 .f32 => M.squeeze S8x1024 squeezes_S1x8x1x1024_S8x1024) (Memref.slice_unit_congr _ (coff_W43 t) _ _ (fun _ => rfl) (fun _ => rfl))
@[sl_canon] theorem canon_WscB43 (t : Fin grid0.N) :
    (scB.slice (Rect.unit (s := S2x8x64x1024) (k0_off173 (grid0.coords t)) S1x8x1x1024.size (k0_off173_inb (grid0.coords t))) (fun _ => rfl)).squeeze S8x1024 squeezes_S1x8x1x1024_S8x1024 = rowM scB (slN t.val) ⟨43, Nat.le_of_ble_eq_true rfl⟩ :=
  congrArg (fun M : Memref sig .tc .vmem S1x8x1x1024 .f32 => M.squeeze S8x1024 squeezes_S1x8x1x1024_S8x1024) (Memref.slice_unit_congr _ (coff_W43 t) _ _ (fun _ => rfl) (fun _ => rfl))
theorem coff_W44 : ∀ t : Fin grid0.N, k0_off174 (grid0.coords t) = ![(slN t.val).val, 0, 44, 0] := by decide +kernel
@[sl_canon] theorem canon_WscA44 (t : Fin grid0.N) :
    (scA.slice (Rect.unit (s := S2x8x64x1024) (k0_off174 (grid0.coords t)) S1x8x1x1024.size (k0_off174_inb (grid0.coords t))) (fun _ => rfl)).squeeze S8x1024 squeezes_S1x8x1x1024_S8x1024 = rowM scA (slN t.val) ⟨44, Nat.le_of_ble_eq_true rfl⟩ :=
  congrArg (fun M : Memref sig .tc .vmem S1x8x1x1024 .f32 => M.squeeze S8x1024 squeezes_S1x8x1x1024_S8x1024) (Memref.slice_unit_congr _ (coff_W44 t) _ _ (fun _ => rfl) (fun _ => rfl))
@[sl_canon] theorem canon_WscB44 (t : Fin grid0.N) :
    (scB.slice (Rect.unit (s := S2x8x64x1024) (k0_off174 (grid0.coords t)) S1x8x1x1024.size (k0_off174_inb (grid0.coords t))) (fun _ => rfl)).squeeze S8x1024 squeezes_S1x8x1x1024_S8x1024 = rowM scB (slN t.val) ⟨44, Nat.le_of_ble_eq_true rfl⟩ :=
  congrArg (fun M : Memref sig .tc .vmem S1x8x1x1024 .f32 => M.squeeze S8x1024 squeezes_S1x8x1x1024_S8x1024) (Memref.slice_unit_congr _ (coff_W44 t) _ _ (fun _ => rfl) (fun _ => rfl))
theorem coff_W45 : ∀ t : Fin grid0.N, k0_off175 (grid0.coords t) = ![(slN t.val).val, 0, 45, 0] := by decide +kernel
@[sl_canon] theorem canon_WscA45 (t : Fin grid0.N) :
    (scA.slice (Rect.unit (s := S2x8x64x1024) (k0_off175 (grid0.coords t)) S1x8x1x1024.size (k0_off175_inb (grid0.coords t))) (fun _ => rfl)).squeeze S8x1024 squeezes_S1x8x1x1024_S8x1024 = rowM scA (slN t.val) ⟨45, Nat.le_of_ble_eq_true rfl⟩ :=
  congrArg (fun M : Memref sig .tc .vmem S1x8x1x1024 .f32 => M.squeeze S8x1024 squeezes_S1x8x1x1024_S8x1024) (Memref.slice_unit_congr _ (coff_W45 t) _ _ (fun _ => rfl) (fun _ => rfl))
@[sl_canon] theorem canon_WscB45 (t : Fin grid0.N) :
    (scB.slice (Rect.unit (s := S2x8x64x1024) (k0_off175 (grid0.coords t)) S1x8x1x1024.size (k0_off175_inb (grid0.coords t))) (fun _ => rfl)).squeeze S8x1024 squeezes_S1x8x1x1024_S8x1024 = rowM scB (slN t.val) ⟨45, Nat.le_of_ble_eq_true rfl⟩ :=
  congrArg (fun M : Memref sig .tc .vmem S1x8x1x1024 .f32 => M.squeeze S8x1024 squeezes_S1x8x1x1024_S8x1024) (Memref.slice_unit_congr _ (coff_W45 t) _ _ (fun _ => rfl) (fun _ => rfl))
theorem coff_W46 : ∀ t : Fin grid0.N, k0_off176 (grid0.coords t) = ![(slN t.val).val, 0, 46, 0] := by decide +kernel
@[sl_canon] theorem canon_WscA46 (t : Fin grid0.N) :
    (scA.slice (Rect.unit (s := S2x8x64x1024) (k0_off176 (grid0.coords t)) S1x8x1x1024.size (k0_off176_inb (grid0.coords t))) (fun _ => rfl)).squeeze S8x1024 squeezes_S1x8x1x1024_S8x1024 = rowM scA (slN t.val) ⟨46, Nat.le_of_ble_eq_true rfl⟩ :=
  congrArg (fun M : Memref sig .tc .vmem S1x8x1x1024 .f32 => M.squeeze S8x1024 squeezes_S1x8x1x1024_S8x1024) (Memref.slice_unit_congr _ (coff_W46 t) _ _ (fun _ => rfl) (fun _ => rfl))
@[sl_canon] theorem canon_WscB46 (t : Fin grid0.N) :
    (scB.slice (Rect.unit (s := S2x8x64x1024) (k0_off176 (grid0.coords t)) S1x8x1x1024.size (k0_off176_inb (grid0.coords t))) (fun _ => rfl)).squeeze S8x1024 squeezes_S1x8x1x1024_S8x1024 = rowM scB (slN t.val) ⟨46, Nat.le_of_ble_eq_true rfl⟩ :=
  congrArg (fun M : Memref sig .tc .vmem S1x8x1x1024 .f32 => M.squeeze S8x1024 squeezes_S1x8x1x1024_S8x1024) (Memref.slice_unit_congr _ (coff_W46 t) _ _ (fun _ => rfl) (fun _ => rfl))
theorem coff_W47 : ∀ t : Fin grid0.N, k0_off177 (grid0.coords t) = ![(slN t.val).val, 0, 47, 0] := by decide +kernel
@[sl_canon] theorem canon_WscA47 (t : Fin grid0.N) :
    (scA.slice (Rect.unit (s := S2x8x64x1024) (k0_off177 (grid0.coords t)) S1x8x1x1024.size (k0_off177_inb (grid0.coords t))) (fun _ => rfl)).squeeze S8x1024 squeezes_S1x8x1x1024_S8x1024 = rowM scA (slN t.val) ⟨47, Nat.le_of_ble_eq_true rfl⟩ :=
  congrArg (fun M : Memref sig .tc .vmem S1x8x1x1024 .f32 => M.squeeze S8x1024 squeezes_S1x8x1x1024_S8x1024) (Memref.slice_unit_congr _ (coff_W47 t) _ _ (fun _ => rfl) (fun _ => rfl))
@[sl_canon] theorem canon_WscB47 (t : Fin grid0.N) :
    (scB.slice (Rect.unit (s := S2x8x64x1024) (k0_off177 (grid0.coords t)) S1x8x1x1024.size (k0_off177_inb (grid0.coords t))) (fun _ => rfl)).squeeze S8x1024 squeezes_S1x8x1x1024_S8x1024 = rowM scB (slN t.val) ⟨47, Nat.le_of_ble_eq_true rfl⟩ :=
  congrArg (fun M : Memref sig .tc .vmem S1x8x1x1024 .f32 => M.squeeze S8x1024 squeezes_S1x8x1x1024_S8x1024) (Memref.slice_unit_congr _ (coff_W47 t) _ _ (fun _ => rfl) (fun _ => rfl))
theorem coff_W48 : ∀ t : Fin grid0.N, k0_off178 (grid0.coords t) = ![(slN t.val).val, 0, 48, 0] := by decide +kernel
@[sl_canon] theorem canon_WscA48 (t : Fin grid0.N) :
    (scA.slice (Rect.unit (s := S2x8x64x1024) (k0_off178 (grid0.coords t)) S1x8x1x1024.size (k0_off178_inb (grid0.coords t))) (fun _ => rfl)).squeeze S8x1024 squeezes_S1x8x1x1024_S8x1024 = rowM scA (slN t.val) ⟨48, Nat.le_of_ble_eq_true rfl⟩ :=
  congrArg (fun M : Memref sig .tc .vmem S1x8x1x1024 .f32 => M.squeeze S8x1024 squeezes_S1x8x1x1024_S8x1024) (Memref.slice_unit_congr _ (coff_W48 t) _ _ (fun _ => rfl) (fun _ => rfl))
@[sl_canon] theorem canon_WscB48 (t : Fin grid0.N) :
    (scB.slice (Rect.unit (s := S2x8x64x1024) (k0_off178 (grid0.coords t)) S1x8x1x1024.size (k0_off178_inb (grid0.coords t))) (fun _ => rfl)).squeeze S8x1024 squeezes_S1x8x1x1024_S8x1024 = rowM scB (slN t.val) ⟨48, Nat.le_of_ble_eq_true rfl⟩ :=
  congrArg (fun M : Memref sig .tc .vmem S1x8x1x1024 .f32 => M.squeeze S8x1024 squeezes_S1x8x1x1024_S8x1024) (Memref.slice_unit_congr _ (coff_W48 t) _ _ (fun _ => rfl) (fun _ => rfl))
theorem coff_W49 : ∀ t : Fin grid0.N, k0_off179 (grid0.coords t) = ![(slN t.val).val, 0, 49, 0] := by decide +kernel
@[sl_canon] theorem canon_WscA49 (t : Fin grid0.N) :
    (scA.slice (Rect.unit (s := S2x8x64x1024) (k0_off179 (grid0.coords t)) S1x8x1x1024.size (k0_off179_inb (grid0.coords t))) (fun _ => rfl)).squeeze S8x1024 squeezes_S1x8x1x1024_S8x1024 = rowM scA (slN t.val) ⟨49, Nat.le_of_ble_eq_true rfl⟩ :=
  congrArg (fun M : Memref sig .tc .vmem S1x8x1x1024 .f32 => M.squeeze S8x1024 squeezes_S1x8x1x1024_S8x1024) (Memref.slice_unit_congr _ (coff_W49 t) _ _ (fun _ => rfl) (fun _ => rfl))
@[sl_canon] theorem canon_WscB49 (t : Fin grid0.N) :
    (scB.slice (Rect.unit (s := S2x8x64x1024) (k0_off179 (grid0.coords t)) S1x8x1x1024.size (k0_off179_inb (grid0.coords t))) (fun _ => rfl)).squeeze S8x1024 squeezes_S1x8x1x1024_S8x1024 = rowM scB (slN t.val) ⟨49, Nat.le_of_ble_eq_true rfl⟩ :=
  congrArg (fun M : Memref sig .tc .vmem S1x8x1x1024 .f32 => M.squeeze S8x1024 squeezes_S1x8x1x1024_S8x1024) (Memref.slice_unit_congr _ (coff_W49 t) _ _ (fun _ => rfl) (fun _ => rfl))
theorem coff_W50 : ∀ t : Fin grid0.N, k0_off180 (grid0.coords t) = ![(slN t.val).val, 0, 50, 0] := by decide +kernel
@[sl_canon] theorem canon_WscA50 (t : Fin grid0.N) :
    (scA.slice (Rect.unit (s := S2x8x64x1024) (k0_off180 (grid0.coords t)) S1x8x1x1024.size (k0_off180_inb (grid0.coords t))) (fun _ => rfl)).squeeze S8x1024 squeezes_S1x8x1x1024_S8x1024 = rowM scA (slN t.val) ⟨50, Nat.le_of_ble_eq_true rfl⟩ :=
  congrArg (fun M : Memref sig .tc .vmem S1x8x1x1024 .f32 => M.squeeze S8x1024 squeezes_S1x8x1x1024_S8x1024) (Memref.slice_unit_congr _ (coff_W50 t) _ _ (fun _ => rfl) (fun _ => rfl))
@[sl_canon] theorem canon_WscB50 (t : Fin grid0.N) :
    (scB.slice (Rect.unit (s := S2x8x64x1024) (k0_off180 (grid0.coords t)) S1x8x1x1024.size (k0_off180_inb (grid0.coords t))) (fun _ => rfl)).squeeze S8x1024 squeezes_S1x8x1x1024_S8x1024 = rowM scB (slN t.val) ⟨50, Nat.le_of_ble_eq_true rfl⟩ :=
  congrArg (fun M : Memref sig .tc .vmem S1x8x1x1024 .f32 => M.squeeze S8x1024 squeezes_S1x8x1x1024_S8x1024) (Memref.slice_unit_congr _ (coff_W50 t) _ _ (fun _ => rfl) (fun _ => rfl))
theorem coff_W51 : ∀ t : Fin grid0.N, k0_off181 (grid0.coords t) = ![(slN t.val).val, 0, 51, 0] := by decide +kernel
@[sl_canon] theorem canon_WscA51 (t : Fin grid0.N) :
    (scA.slice (Rect.unit (s := S2x8x64x1024) (k0_off181 (grid0.coords t)) S1x8x1x1024.size (k0_off181_inb (grid0.coords t))) (fun _ => rfl)).squeeze S8x1024 squeezes_S1x8x1x1024_S8x1024 = rowM scA (slN t.val) ⟨51, Nat.le_of_ble_eq_true rfl⟩ :=
  congrArg (fun M : Memref sig .tc .vmem S1x8x1x1024 .f32 => M.squeeze S8x1024 squeezes_S1x8x1x1024_S8x1024) (Memref.slice_unit_congr _ (coff_W51 t) _ _ (fun _ => rfl) (fun _ => rfl))
@[sl_canon] theorem canon_WscB51 (t : Fin grid0.N) :
    (scB.slice (Rect.unit (s := S2x8x64x1024) (k0_off181 (grid0.coords t)) S1x8x1x1024.size (k0_off181_inb (grid0.coords t))) (fun _ => rfl)).squeeze S8x1024 squeezes_S1x8x1x1024_S8x1024 = rowM scB (slN t.val) ⟨51, Nat.le_of_ble_eq_true rfl⟩ :=
  congrArg (fun M : Memref sig .tc .vmem S1x8x1x1024 .f32 => M.squeeze S8x1024 squeezes_S1x8x1x1024_S8x1024) (Memref.slice_unit_congr _ (coff_W51 t) _ _ (fun _ => rfl) (fun _ => rfl))
theorem coff_W52 : ∀ t : Fin grid0.N, k0_off182 (grid0.coords t) = ![(slN t.val).val, 0, 52, 0] := by decide +kernel
@[sl_canon] theorem canon_WscA52 (t : Fin grid0.N) :
    (scA.slice (Rect.unit (s := S2x8x64x1024) (k0_off182 (grid0.coords t)) S1x8x1x1024.size (k0_off182_inb (grid0.coords t))) (fun _ => rfl)).squeeze S8x1024 squeezes_S1x8x1x1024_S8x1024 = rowM scA (slN t.val) ⟨52, Nat.le_of_ble_eq_true rfl⟩ :=
  congrArg (fun M : Memref sig .tc .vmem S1x8x1x1024 .f32 => M.squeeze S8x1024 squeezes_S1x8x1x1024_S8x1024) (Memref.slice_unit_congr _ (coff_W52 t) _ _ (fun _ => rfl) (fun _ => rfl))
@[sl_canon] theorem canon_WscB52 (t : Fin grid0.N) :
    (scB.slice (Rect.unit (s := S2x8x64x1024) (k0_off182 (grid0.coords t)) S1x8x1x1024.size (k0_off182_inb (grid0.coords t))) (fun _ => rfl)).squeeze S8x1024 squeezes_S1x8x1x1024_S8x1024 = rowM scB (slN t.val) ⟨52, Nat.le_of_ble_eq_true rfl⟩ :=
  congrArg (fun M : Memref sig .tc .vmem S1x8x1x1024 .f32 => M.squeeze S8x1024 squeezes_S1x8x1x1024_S8x1024) (Memref.slice_unit_congr _ (coff_W52 t) _ _ (fun _ => rfl) (fun _ => rfl))
theorem coff_W53 : ∀ t : Fin grid0.N, k0_off183 (grid0.coords t) = ![(slN t.val).val, 0, 53, 0] := by decide +kernel
@[sl_canon] theorem canon_WscA53 (t : Fin grid0.N) :
    (scA.slice (Rect.unit (s := S2x8x64x1024) (k0_off183 (grid0.coords t)) S1x8x1x1024.size (k0_off183_inb (grid0.coords t))) (fun _ => rfl)).squeeze S8x1024 squeezes_S1x8x1x1024_S8x1024 = rowM scA (slN t.val) ⟨53, Nat.le_of_ble_eq_true rfl⟩ :=
  congrArg (fun M : Memref sig .tc .vmem S1x8x1x1024 .f32 => M.squeeze S8x1024 squeezes_S1x8x1x1024_S8x1024) (Memref.slice_unit_congr _ (coff_W53 t) _ _ (fun _ => rfl) (fun _ => rfl))
@[sl_canon] theorem canon_WscB53 (t : Fin grid0.N) :
    (scB.slice (Rect.unit (s := S2x8x64x1024) (k0_off183 (grid0.coords t)) S1x8x1x1024.size (k0_off183_inb (grid0.coords t))) (fun _ => rfl)).squeeze S8x1024 squeezes_S1x8x1x1024_S8x1024 = rowM scB (slN t.val) ⟨53, Nat.le_of_ble_eq_true rfl⟩ :=
  congrArg (fun M : Memref sig .tc .vmem S1x8x1x1024 .f32 => M.squeeze S8x1024 squeezes_S1x8x1x1024_S8x1024) (Memref.slice_unit_congr _ (coff_W53 t) _ _ (fun _ => rfl) (fun _ => rfl))
theorem coff_W54 : ∀ t : Fin grid0.N, k0_off184 (grid0.coords t) = ![(slN t.val).val, 0, 54, 0] := by decide +kernel
@[sl_canon] theorem canon_WscA54 (t : Fin grid0.N) :
    (scA.slice (Rect.unit (s := S2x8x64x1024) (k0_off184 (grid0.coords t)) S1x8x1x1024.size (k0_off184_inb (grid0.coords t))) (fun _ => rfl)).squeeze S8x1024 squeezes_S1x8x1x1024_S8x1024 = rowM scA (slN t.val) ⟨54, Nat.le_of_ble_eq_true rfl⟩ :=
  congrArg (fun M : Memref sig .tc .vmem S1x8x1x1024 .f32 => M.squeeze S8x1024 squeezes_S1x8x1x1024_S8x1024) (Memref.slice_unit_congr _ (coff_W54 t) _ _ (fun _ => rfl) (fun _ => rfl))
@[sl_canon] theorem canon_WscB54 (t : Fin grid0.N) :
    (scB.slice (Rect.unit (s := S2x8x64x1024) (k0_off184 (grid0.coords t)) S1x8x1x1024.size (k0_off184_inb (grid0.coords t))) (fun _ => rfl)).squeeze S8x1024 squeezes_S1x8x1x1024_S8x1024 = rowM scB (slN t.val) ⟨54, Nat.le_of_ble_eq_true rfl⟩ :=
  congrArg (fun M : Memref sig .tc .vmem S1x8x1x1024 .f32 => M.squeeze S8x1024 squeezes_S1x8x1x1024_S8x1024) (Memref.slice_unit_congr _ (coff_W54 t) _ _ (fun _ => rfl) (fun _ => rfl))
theorem coff_W55 : ∀ t : Fin grid0.N, k0_off185 (grid0.coords t) = ![(slN t.val).val, 0, 55, 0] := by decide +kernel
@[sl_canon] theorem canon_WscA55 (t : Fin grid0.N) :
    (scA.slice (Rect.unit (s := S2x8x64x1024) (k0_off185 (grid0.coords t)) S1x8x1x1024.size (k0_off185_inb (grid0.coords t))) (fun _ => rfl)).squeeze S8x1024 squeezes_S1x8x1x1024_S8x1024 = rowM scA (slN t.val) ⟨55, Nat.le_of_ble_eq_true rfl⟩ :=
  congrArg (fun M : Memref sig .tc .vmem S1x8x1x1024 .f32 => M.squeeze S8x1024 squeezes_S1x8x1x1024_S8x1024) (Memref.slice_unit_congr _ (coff_W55 t) _ _ (fun _ => rfl) (fun _ => rfl))
@[sl_canon] theorem canon_WscB55 (t : Fin grid0.N) :
    (scB.slice (Rect.unit (s := S2x8x64x1024) (k0_off185 (grid0.coords t)) S1x8x1x1024.size (k0_off185_inb (grid0.coords t))) (fun _ => rfl)).squeeze S8x1024 squeezes_S1x8x1x1024_S8x1024 = rowM scB (slN t.val) ⟨55, Nat.le_of_ble_eq_true rfl⟩ :=
  congrArg (fun M : Memref sig .tc .vmem S1x8x1x1024 .f32 => M.squeeze S8x1024 squeezes_S1x8x1x1024_S8x1024) (Memref.slice_unit_congr _ (coff_W55 t) _ _ (fun _ => rfl) (fun _ => rfl))
theorem coff_W56 : ∀ t : Fin grid0.N, k0_off186 (grid0.coords t) = ![(slN t.val).val, 0, 56, 0] := by decide +kernel
@[sl_canon] theorem canon_WscA56 (t : Fin grid0.N) :
    (scA.slice (Rect.unit (s := S2x8x64x1024) (k0_off186 (grid0.coords t)) S1x8x1x1024.size (k0_off186_inb (grid0.coords t))) (fun _ => rfl)).squeeze S8x1024 squeezes_S1x8x1x1024_S8x1024 = rowM scA (slN t.val) ⟨56, Nat.le_of_ble_eq_true rfl⟩ :=
  congrArg (fun M : Memref sig .tc .vmem S1x8x1x1024 .f32 => M.squeeze S8x1024 squeezes_S1x8x1x1024_S8x1024) (Memref.slice_unit_congr _ (coff_W56 t) _ _ (fun _ => rfl) (fun _ => rfl))
@[sl_canon] theorem canon_WscB56 (t : Fin grid0.N) :
    (scB.slice (Rect.unit (s := S2x8x64x1024) (k0_off186 (grid0.coords t)) S1x8x1x1024.size (k0_off186_inb (grid0.coords t))) (fun _ => rfl)).squeeze S8x1024 squeezes_S1x8x1x1024_S8x1024 = rowM scB (slN t.val) ⟨56, Nat.le_of_ble_eq_true rfl⟩ :=
  congrArg (fun M : Memref sig .tc .vmem S1x8x1x1024 .f32 => M.squeeze S8x1024 squeezes_S1x8x1x1024_S8x1024) (Memref.slice_unit_congr _ (coff_W56 t) _ _ (fun _ => rfl) (fun _ => rfl))
theorem coff_W57 : ∀ t : Fin grid0.N, k0_off187 (grid0.coords t) = ![(slN t.val).val, 0, 57, 0] := by decide +kernel
@[sl_canon] theorem canon_WscA57 (t : Fin grid0.N) :
    (scA.slice (Rect.unit (s := S2x8x64x1024) (k0_off187 (grid0.coords t)) S1x8x1x1024.size (k0_off187_inb (grid0.coords t))) (fun _ => rfl)).squeeze S8x1024 squeezes_S1x8x1x1024_S8x1024 = rowM scA (slN t.val) ⟨57, Nat.le_of_ble_eq_true rfl⟩ :=
  congrArg (fun M : Memref sig .tc .vmem S1x8x1x1024 .f32 => M.squeeze S8x1024 squeezes_S1x8x1x1024_S8x1024) (Memref.slice_unit_congr _ (coff_W57 t) _ _ (fun _ => rfl) (fun _ => rfl))
@[sl_canon] theorem canon_WscB57 (t : Fin grid0.N) :
    (scB.slice (Rect.unit (s := S2x8x64x1024) (k0_off187 (grid0.coords t)) S1x8x1x1024.size (k0_off187_inb (grid0.coords t))) (fun _ => rfl)).squeeze S8x1024 squeezes_S1x8x1x1024_S8x1024 = rowM scB (slN t.val) ⟨57, Nat.le_of_ble_eq_true rfl⟩ :=
  congrArg (fun M : Memref sig .tc .vmem S1x8x1x1024 .f32 => M.squeeze S8x1024 squeezes_S1x8x1x1024_S8x1024) (Memref.slice_unit_congr _ (coff_W57 t) _ _ (fun _ => rfl) (fun _ => rfl))
theorem coff_W58 : ∀ t : Fin grid0.N, k0_off188 (grid0.coords t) = ![(slN t.val).val, 0, 58, 0] := by decide +kernel
@[sl_canon] theorem canon_WscA58 (t : Fin grid0.N) :
    (scA.slice (Rect.unit (s := S2x8x64x1024) (k0_off188 (grid0.coords t)) S1x8x1x1024.size (k0_off188_inb (grid0.coords t))) (fun _ => rfl)).squeeze S8x1024 squeezes_S1x8x1x1024_S8x1024 = rowM scA (slN t.val) ⟨58, Nat.le_of_ble_eq_true rfl⟩ :=
  congrArg (fun M : Memref sig .tc .vmem S1x8x1x1024 .f32 => M.squeeze S8x1024 squeezes_S1x8x1x1024_S8x1024) (Memref.slice_unit_congr _ (coff_W58 t) _ _ (fun _ => rfl) (fun _ => rfl))
@[sl_canon] theorem canon_WscB58 (t : Fin grid0.N) :
    (scB.slice (Rect.unit (s := S2x8x64x1024) (k0_off188 (grid0.coords t)) S1x8x1x1024.size (k0_off188_inb (grid0.coords t))) (fun _ => rfl)).squeeze S8x1024 squeezes_S1x8x1x1024_S8x1024 = rowM scB (slN t.val) ⟨58, Nat.le_of_ble_eq_true rfl⟩ :=
  congrArg (fun M : Memref sig .tc .vmem S1x8x1x1024 .f32 => M.squeeze S8x1024 squeezes_S1x8x1x1024_S8x1024) (Memref.slice_unit_congr _ (coff_W58 t) _ _ (fun _ => rfl) (fun _ => rfl))
theorem coff_W59 : ∀ t : Fin grid0.N, k0_off189 (grid0.coords t) = ![(slN t.val).val, 0, 59, 0] := by decide +kernel
@[sl_canon] theorem canon_WscA59 (t : Fin grid0.N) :
    (scA.slice (Rect.unit (s := S2x8x64x1024) (k0_off189 (grid0.coords t)) S1x8x1x1024.size (k0_off189_inb (grid0.coords t))) (fun _ => rfl)).squeeze S8x1024 squeezes_S1x8x1x1024_S8x1024 = rowM scA (slN t.val) ⟨59, Nat.le_of_ble_eq_true rfl⟩ :=
  congrArg (fun M : Memref sig .tc .vmem S1x8x1x1024 .f32 => M.squeeze S8x1024 squeezes_S1x8x1x1024_S8x1024) (Memref.slice_unit_congr _ (coff_W59 t) _ _ (fun _ => rfl) (fun _ => rfl))
@[sl_canon] theorem canon_WscB59 (t : Fin grid0.N) :
    (scB.slice (Rect.unit (s := S2x8x64x1024) (k0_off189 (grid0.coords t)) S1x8x1x1024.size (k0_off189_inb (grid0.coords t))) (fun _ => rfl)).squeeze S8x1024 squeezes_S1x8x1x1024_S8x1024 = rowM scB (slN t.val) ⟨59, Nat.le_of_ble_eq_true rfl⟩ :=
  congrArg (fun M : Memref sig .tc .vmem S1x8x1x1024 .f32 => M.squeeze S8x1024 squeezes_S1x8x1x1024_S8x1024) (Memref.slice_unit_congr _ (coff_W59 t) _ _ (fun _ => rfl) (fun _ => rfl))
theorem coff_W60 : ∀ t : Fin grid0.N, k0_off190 (grid0.coords t) = ![(slN t.val).val, 0, 60, 0] := by decide +kernel
@[sl_canon] theorem canon_WscA60 (t : Fin grid0.N) :
    (scA.slice (Rect.unit (s := S2x8x64x1024) (k0_off190 (grid0.coords t)) S1x8x1x1024.size (k0_off190_inb (grid0.coords t))) (fun _ => rfl)).squeeze S8x1024 squeezes_S1x8x1x1024_S8x1024 = rowM scA (slN t.val) ⟨60, Nat.le_of_ble_eq_true rfl⟩ :=
  congrArg (fun M : Memref sig .tc .vmem S1x8x1x1024 .f32 => M.squeeze S8x1024 squeezes_S1x8x1x1024_S8x1024) (Memref.slice_unit_congr _ (coff_W60 t) _ _ (fun _ => rfl) (fun _ => rfl))
@[sl_canon] theorem canon_WscB60 (t : Fin grid0.N) :
    (scB.slice (Rect.unit (s := S2x8x64x1024) (k0_off190 (grid0.coords t)) S1x8x1x1024.size (k0_off190_inb (grid0.coords t))) (fun _ => rfl)).squeeze S8x1024 squeezes_S1x8x1x1024_S8x1024 = rowM scB (slN t.val) ⟨60, Nat.le_of_ble_eq_true rfl⟩ :=
  congrArg (fun M : Memref sig .tc .vmem S1x8x1x1024 .f32 => M.squeeze S8x1024 squeezes_S1x8x1x1024_S8x1024) (Memref.slice_unit_congr _ (coff_W60 t) _ _ (fun _ => rfl) (fun _ => rfl))
theorem coff_W61 : ∀ t : Fin grid0.N, k0_off191 (grid0.coords t) = ![(slN t.val).val, 0, 61, 0] := by decide +kernel
@[sl_canon] theorem canon_WscA61 (t : Fin grid0.N) :
    (scA.slice (Rect.unit (s := S2x8x64x1024) (k0_off191 (grid0.coords t)) S1x8x1x1024.size (k0_off191_inb (grid0.coords t))) (fun _ => rfl)).squeeze S8x1024 squeezes_S1x8x1x1024_S8x1024 = rowM scA (slN t.val) ⟨61, Nat.le_of_ble_eq_true rfl⟩ :=
  congrArg (fun M : Memref sig .tc .vmem S1x8x1x1024 .f32 => M.squeeze S8x1024 squeezes_S1x8x1x1024_S8x1024) (Memref.slice_unit_congr _ (coff_W61 t) _ _ (fun _ => rfl) (fun _ => rfl))
@[sl_canon] theorem canon_WscB61 (t : Fin grid0.N) :
    (scB.slice (Rect.unit (s := S2x8x64x1024) (k0_off191 (grid0.coords t)) S1x8x1x1024.size (k0_off191_inb (grid0.coords t))) (fun _ => rfl)).squeeze S8x1024 squeezes_S1x8x1x1024_S8x1024 = rowM scB (slN t.val) ⟨61, Nat.le_of_ble_eq_true rfl⟩ :=
  congrArg (fun M : Memref sig .tc .vmem S1x8x1x1024 .f32 => M.squeeze S8x1024 squeezes_S1x8x1x1024_S8x1024) (Memref.slice_unit_congr _ (coff_W61 t) _ _ (fun _ => rfl) (fun _ => rfl))
theorem coff_W62 : ∀ t : Fin grid0.N, k0_off192 (grid0.coords t) = ![(slN t.val).val, 0, 62, 0] := by decide +kernel
@[sl_canon] theorem canon_WscA62 (t : Fin grid0.N) :
    (scA.slice (Rect.unit (s := S2x8x64x1024) (k0_off192 (grid0.coords t)) S1x8x1x1024.size (k0_off192_inb (grid0.coords t))) (fun _ => rfl)).squeeze S8x1024 squeezes_S1x8x1x1024_S8x1024 = rowM scA (slN t.val) ⟨62, Nat.le_of_ble_eq_true rfl⟩ :=
  congrArg (fun M : Memref sig .tc .vmem S1x8x1x1024 .f32 => M.squeeze S8x1024 squeezes_S1x8x1x1024_S8x1024) (Memref.slice_unit_congr _ (coff_W62 t) _ _ (fun _ => rfl) (fun _ => rfl))
@[sl_canon] theorem canon_WscB62 (t : Fin grid0.N) :
    (scB.slice (Rect.unit (s := S2x8x64x1024) (k0_off192 (grid0.coords t)) S1x8x1x1024.size (k0_off192_inb (grid0.coords t))) (fun _ => rfl)).squeeze S8x1024 squeezes_S1x8x1x1024_S8x1024 = rowM scB (slN t.val) ⟨62, Nat.le_of_ble_eq_true rfl⟩ :=
  congrArg (fun M : Memref sig .tc .vmem S1x8x1x1024 .f32 => M.squeeze S8x1024 squeezes_S1x8x1x1024_S8x1024) (Memref.slice_unit_congr _ (coff_W62 t) _ _ (fun _ => rfl) (fun _ => rfl))
theorem coff_W63 : ∀ t : Fin grid0.N, k0_off193 (grid0.coords t) = ![(slN t.val).val, 0, 63, 0] := by decide +kernel
@[sl_canon] theorem canon_WscA63 (t : Fin grid0.N) :
    (scA.slice (Rect.unit (s := S2x8x64x1024) (k0_off193 (grid0.coords t)) S1x8x1x1024.size (k0_off193_inb (grid0.coords t))) (fun _ => rfl)).squeeze S8x1024 squeezes_S1x8x1x1024_S8x1024 = rowM scA (slN t.val) ⟨63, Nat.le_of_ble_eq_true rfl⟩ :=
  congrArg (fun M : Memref sig .tc .vmem S1x8x1x1024 .f32 => M.squeeze S8x1024 squeezes_S1x8x1x1024_S8x1024) (Memref.slice_unit_congr _ (coff_W63 t) _ _ (fun _ => rfl) (fun _ => rfl))
@[sl_canon] theorem canon_WscB63 (t : Fin grid0.N) :
    (scB.slice (Rect.unit (s := S2x8x64x1024) (k0_off193 (grid0.coords t)) S1x8x1x1024.size (k0_off193_inb (grid0.coords t))) (fun _ => rfl)).squeeze S8x1024 squeezes_S1x8x1x1024_S8x1024 = rowM scB (slN t.val) ⟨63, Nat.le_of_ble_eq_true rfl⟩ :=
  congrArg (fun M : Memref sig .tc .vmem S1x8x1x1024 .f32 => M.squeeze S8x1024 squeezes_S1x8x1x1024_S8x1024) (Memref.slice_unit_congr _ (coff_W63 t) _ _ (fun _ => rfl) (fun _ => rfl))

/-! ## The prefetch: slot (t + 1) mod 2 -/
theorem coff_Fsem195 : ∀ t : Fin grid0.N, k0_cond2 (grid0.coords t) = 1#1 → k0_off195 (grid0.coords t) = ![(slN (t.val + 1)).val] := by decide +kernel
@[sl_canon] theorem canon_Fsem_semsA195 (t : Fin grid0.N) (h2 : k0_cond2 (grid0.coords t) = 1#1) :
    (cc0_scratch2.slice (Rect.unit (s := S2) (k0_off195 (grid0.coords t)) S1.size (k0_off195_inb (grid0.coords t) h2))).squeeze S_ squeezes_S1_S_ = semsA (slN (t.val + 1)) :=
  congrArg (fun A : DmaSems sig S1 => A.squeeze S_ squeezes_S1_S_) (SemArray.slice_unit_congr _ (coff_Fsem195 t h2) _ _)
theorem coff_Fsem198 : ∀ t : Fin grid0.N, k0_cond2 (grid0.coords t) = 1#1 → k0_off198 (grid0.coords t) = ![(slN (t.val + 1)).val] := by decide +kernel
@[sl_canon] theorem canon_Fsem_semsB198 (t : Fin grid0.N) (h2 : k0_cond2 (grid0.coords t) = 1#1) :
    (cc0_scratch3.slice (Rect.unit (s := S2) (k0_off198 (grid0.coords t)) S1.size (k0_off198_inb (grid0.coords t) h2))).squeeze S_ squeezes_S1_S_ = semsB (slN (t.val + 1)) :=
  congrArg (fun A : DmaSems sig S1 => A.squeeze S_ squeezes_S1_S_) (SemArray.slice_unit_congr _ (coff_Fsem198 t h2) _ _)
theorem coff_FA0 : ∀ t : Fin grid0.N, k0_cond2 (grid0.coords t) = 1#1 → k0_off196 (grid0.coords t) = ![(slN (t.val + 1)).val, 0, 0, 0] := by decide +kernel
@[sl_canon] theorem canon_FA0 (t : Fin grid0.N) (h2 : k0_cond2 (grid0.coords t) = 1#1) :
    (scA.slice (Rect.unit (s := S2x8x64x1024) (k0_off196 (grid0.coords t)) S1x8x1x1024.size (k0_off196_inb (grid0.coords t) h2)) (fun _ => rfl)).squeeze S8x1024 squeezes_S1x8x1x1024_S8x1024 = rowM scA (slN (t.val + 1)) ⟨0, Nat.le_of_ble_eq_true rfl⟩ :=
  congrArg (fun M : Memref sig .tc .vmem S1x8x1x1024 .f32 => M.squeeze S8x1024 squeezes_S1x8x1x1024_S8x1024) (Memref.slice_unit_congr _ (coff_FA0 t h2) _ _ (fun _ => rfl) (fun _ => rfl))
theorem coff_FB0 : ∀ t : Fin grid0.N, k0_cond2 (grid0.coords t) = 1#1 → k0_off199 (grid0.coords t) = ![(slN (t.val + 1)).val, 0, 0, 0] := by decide +kernel
@[sl_canon] theorem canon_FB0 (t : Fin grid0.N) (h2 : k0_cond2 (grid0.coords t) = 1#1) :
    (scB.slice (Rect.unit (s := S2x8x64x1024) (k0_off199 (grid0.coords t)) S1x8x1x1024.size (k0_off199_inb (grid0.coords t) h2)) (fun _ => rfl)).squeeze S8x1024 squeezes_S1x8x1x1024_S8x1024 = rowM scB (slN (t.val + 1)) ⟨0, Nat.le_of_ble_eq_true rfl⟩ :=
  congrArg (fun M : Memref sig .tc .vmem S1x8x1x1024 .f32 => M.squeeze S8x1024 squeezes_S1x8x1x1024_S8x1024) (Memref.slice_unit_congr _ (coff_FB0 t h2) _ _ (fun _ => rfl) (fun _ => rfl))
@[sl_canon] theorem canon_Fsem_semsA198 (t : Fin grid0.N) (h2 : k0_cond2 (grid0.coords t) = 1#1) :
    (cc0_scratch2.slice (Rect.unit (s := S2) (k0_off198 (grid0.coords t)) S1.size (k0_off198_inb (grid0.coords t) h2))).squeeze S_ squeezes_S1_S_ = semsA (slN (t.val + 1)) :=
  congrArg (fun A : DmaSems sig S1 => A.squeeze S_ squeezes_S1_S_) (SemArray.slice_unit_congr _ (coff_Fsem198 t h2) _ _)
theorem coff_Fsem203 : ∀ t : Fin grid0.N, k0_cond2 (grid0.coords t) = 1#1 → k0_off203 (grid0.coords t) = ![(slN (t.val + 1)).val] := by decide +kernel
@[sl_canon] theorem canon_Fsem_semsB203 (t : Fin grid0.N) (h2 : k0_cond2 (grid0.coords t) = 1#1) :
    (cc0_scratch3.slice (Rect.unit (s := S2) (k0_off203 (grid0.coords t)) S1.size (k0_off203_inb (grid0.coords t) h2))).squeeze S_ squeezes_S1_S_ = semsB (slN (t.val + 1)) :=
  congrArg (fun A : DmaSems sig S1 => A.squeeze S_ squeezes_S1_S_) (SemArray.slice_unit_congr _ (coff_Fsem203 t h2) _ _)
theorem coff_FA1 : ∀ t : Fin grid0.N, k0_cond2 (grid0.coords t) = 1#1 → k0_off201 (grid0.coords t) = ![(slN (t.val + 1)).val, 0, 1, 0] := by decide +kernel
@[sl_canon] theorem canon_FA1 (t : Fin grid0.N) (h2 : k0_cond2 (grid0.coords t) = 1#1) :
    (scA.slice (Rect.unit (s := S2x8x64x1024) (k0_off201 (grid0.coords t)) S1x8x1x1024.size (k0_off201_inb (grid0.coords t) h2)) (fun _ => rfl)).squeeze S8x1024 squeezes_S1x8x1x1024_S8x1024 = rowM scA (slN (t.val + 1)) ⟨1, Nat.le_of_ble_eq_true rfl⟩ :=
  congrArg (fun M : Memref sig .tc .vmem S1x8x1x1024 .f32 => M.squeeze S8x1024 squeezes_S1x8x1x1024_S8x1024) (Memref.slice_unit_congr _ (coff_FA1 t h2) _ _ (fun _ => rfl) (fun _ => rfl))
theorem coff_FB1 : ∀ t : Fin grid0.N, k0_cond2 (grid0.coords t) = 1#1 → k0_off204 (grid0.coords t) = ![(slN (t.val + 1)).val, 0, 1, 0] := by decide +kernel
@[sl_canon] theorem canon_FB1 (t : Fin grid0.N) (h2 : k0_cond2 (grid0.coords t) = 1#1) :
    (scB.slice (Rect.unit (s := S2x8x64x1024) (k0_off204 (grid0.coords t)) S1x8x1x1024.size (k0_off204_inb (grid0.coords t) h2)) (fun _ => rfl)).squeeze S8x1024 squeezes_S1x8x1x1024_S8x1024 = rowM scB (slN (t.val + 1)) ⟨1, Nat.le_of_ble_eq_true rfl⟩ :=
  congrArg (fun M : Memref sig .tc .vmem S1x8x1x1024 .f32 => M.squeeze S8x1024 squeezes_S1x8x1x1024_S8x1024) (Memref.slice_unit_congr _ (coff_FB1 t h2) _ _ (fun _ => rfl) (fun _ => rfl))
@[sl_canon] theorem canon_Fsem_semsA203 (t : Fin grid0.N) (h2 : k0_cond2 (grid0.coords t) = 1#1) :
    (cc0_scratch2.slice (Rect.unit (s := S2) (k0_off203 (grid0.coords t)) S1.size (k0_off203_inb (grid0.coords t) h2))).squeeze S_ squeezes_S1_S_ = semsA (slN (t.val + 1)) :=
  congrArg (fun A : DmaSems sig S1 => A.squeeze S_ squeezes_S1_S_) (SemArray.slice_unit_congr _ (coff_Fsem203 t h2) _ _)
theorem coff_Fsem208 : ∀ t : Fin grid0.N, k0_cond2 (grid0.coords t) = 1#1 → k0_off208 (grid0.coords t) = ![(slN (t.val + 1)).val] := by decide +kernel
@[sl_canon] theorem canon_Fsem_semsB208 (t : Fin grid0.N) (h2 : k0_cond2 (grid0.coords t) = 1#1) :
    (cc0_scratch3.slice (Rect.unit (s := S2) (k0_off208 (grid0.coords t)) S1.size (k0_off208_inb (grid0.coords t) h2))).squeeze S_ squeezes_S1_S_ = semsB (slN (t.val + 1)) :=
  congrArg (fun A : DmaSems sig S1 => A.squeeze S_ squeezes_S1_S_) (SemArray.slice_unit_congr _ (coff_Fsem208 t h2) _ _)
theorem coff_FA2 : ∀ t : Fin grid0.N, k0_cond2 (grid0.coords t) = 1#1 → k0_off206 (grid0.coords t) = ![(slN (t.val + 1)).val, 0, 2, 0] := by decide +kernel
@[sl_canon] theorem canon_FA2 (t : Fin grid0.N) (h2 : k0_cond2 (grid0.coords t) = 1#1) :
    (scA.slice (Rect.unit (s := S2x8x64x1024) (k0_off206 (grid0.coords t)) S1x8x1x1024.size (k0_off206_inb (grid0.coords t) h2)) (fun _ => rfl)).squeeze S8x1024 squeezes_S1x8x1x1024_S8x1024 = rowM scA (slN (t.val + 1)) ⟨2, Nat.le_of_ble_eq_true rfl⟩ :=
  congrArg (fun M : Memref sig .tc .vmem S1x8x1x1024 .f32 => M.squeeze S8x1024 squeezes_S1x8x1x1024_S8x1024) (Memref.slice_unit_congr _ (coff_FA2 t h2) _ _ (fun _ => rfl) (fun _ => rfl))
theorem coff_FB2 : ∀ t : Fin grid0.N, k0_cond2 (grid0.coords t) = 1#1 → k0_off209 (grid0.coords t) = ![(slN (t.val + 1)).val, 0, 2, 0] := by decide +kernel
@[sl_canon] theorem canon_FB2 (t : Fin grid0.N) (h2 : k0_cond2 (grid0.coords t) = 1#1) :
    (scB.slice (Rect.unit (s := S2x8x64x1024) (k0_off209 (grid0.coords t)) S1x8x1x1024.size (k0_off209_inb (grid0.coords t) h2)) (fun _ => rfl)).squeeze S8x1024 squeezes_S1x8x1x1024_S8x1024 = rowM scB (slN (t.val + 1)) ⟨2, Nat.le_of_ble_eq_true rfl⟩ :=
  congrArg (fun M : Memref sig .tc .vmem S1x8x1x1024 .f32 => M.squeeze S8x1024 squeezes_S1x8x1x1024_S8x1024) (Memref.slice_unit_congr _ (coff_FB2 t h2) _ _ (fun _ => rfl) (fun _ => rfl))
@[sl_canon] theorem canon_Fsem_semsA208 (t : Fin grid0.N) (h2 : k0_cond2 (grid0.coords t) = 1#1) :
    (cc0_scratch2.slice (Rect.unit (s := S2) (k0_off208 (grid0.coords t)) S1.size (k0_off208_inb (grid0.coords t) h2))).squeeze S_ squeezes_S1_S_ = semsA (slN (t.val + 1)) :=
  congrArg (fun A : DmaSems sig S1 => A.squeeze S_ squeezes_S1_S_) (SemArray.slice_unit_congr _ (coff_Fsem208 t h2) _ _)
theorem coff_Fsem213 : ∀ t : Fin grid0.N, k0_cond2 (grid0.coords t) = 1#1 → k0_off213 (grid0.coords t) = ![(slN (t.val + 1)).val] := by decide +kernel
@[sl_canon] theorem canon_Fsem_semsB213 (t : Fin grid0.N) (h2 : k0_cond2 (grid0.coords t) = 1#1) :
    (cc0_scratch3.slice (Rect.unit (s := S2) (k0_off213 (grid0.coords t)) S1.size (k0_off213_inb (grid0.coords t) h2))).squeeze S_ squeezes_S1_S_ = semsB (slN (t.val + 1)) :=
  congrArg (fun A : DmaSems sig S1 => A.squeeze S_ squeezes_S1_S_) (SemArray.slice_unit_congr _ (coff_Fsem213 t h2) _ _)
theorem coff_FA3 : ∀ t : Fin grid0.N, k0_cond2 (grid0.coords t) = 1#1 → k0_off211 (grid0.coords t) = ![(slN (t.val + 1)).val, 0, 3, 0] := by decide +kernel
@[sl_canon] theorem canon_FA3 (t : Fin grid0.N) (h2 : k0_cond2 (grid0.coords t) = 1#1) :
    (scA.slice (Rect.unit (s := S2x8x64x1024) (k0_off211 (grid0.coords t)) S1x8x1x1024.size (k0_off211_inb (grid0.coords t) h2)) (fun _ => rfl)).squeeze S8x1024 squeezes_S1x8x1x1024_S8x1024 = rowM scA (slN (t.val + 1)) ⟨3, Nat.le_of_ble_eq_true rfl⟩ :=
  congrArg (fun M : Memref sig .tc .vmem S1x8x1x1024 .f32 => M.squeeze S8x1024 squeezes_S1x8x1x1024_S8x1024) (Memref.slice_unit_congr _ (coff_FA3 t h2) _ _ (fun _ => rfl) (fun _ => rfl))
theorem coff_FB3 : ∀ t : Fin grid0.N, k0_cond2 (grid0.coords t) = 1#1 → k0_off214 (grid0.coords t) = ![(slN (t.val + 1)).val, 0, 3, 0] := by decide +kernel
@[sl_canon] theorem canon_FB3 (t : Fin grid0.N) (h2 : k0_cond2 (grid0.coords t) = 1#1) :
    (scB.slice (Rect.unit (s := S2x8x64x1024) (k0_off214 (grid0.coords t)) S1x8x1x1024.size (k0_off214_inb (grid0.coords t) h2)) (fun _ => rfl)).squeeze S8x1024 squeezes_S1x8x1x1024_S8x1024 = rowM scB (slN (t.val + 1)) ⟨3, Nat.le_of_ble_eq_true rfl⟩ :=
  congrArg (fun M : Memref sig .tc .vmem S1x8x1x1024 .f32 => M.squeeze S8x1024 squeezes_S1x8x1x1024_S8x1024) (Memref.slice_unit_congr _ (coff_FB3 t h2) _ _ (fun _ => rfl) (fun _ => rfl))
@[sl_canon] theorem canon_Fsem_semsA213 (t : Fin grid0.N) (h2 : k0_cond2 (grid0.coords t) = 1#1) :
    (cc0_scratch2.slice (Rect.unit (s := S2) (k0_off213 (grid0.coords t)) S1.size (k0_off213_inb (grid0.coords t) h2))).squeeze S_ squeezes_S1_S_ = semsA (slN (t.val + 1)) :=
  congrArg (fun A : DmaSems sig S1 => A.squeeze S_ squeezes_S1_S_) (SemArray.slice_unit_congr _ (coff_Fsem213 t h2) _ _)
theorem coff_Fsem218 : ∀ t : Fin grid0.N, k0_cond2 (grid0.coords t) = 1#1 → k0_off218 (grid0.coords t) = ![(slN (t.val + 1)).val] := by decide +kernel
@[sl_canon] theorem canon_Fsem_semsB218 (t : Fin grid0.N) (h2 : k0_cond2 (grid0.coords t) = 1#1) :
    (cc0_scratch3.slice (Rect.unit (s := S2) (k0_off218 (grid0.coords t)) S1.size (k0_off218_inb (grid0.coords t) h2))).squeeze S_ squeezes_S1_S_ = semsB (slN (t.val + 1)) :=
  congrArg (fun A : DmaSems sig S1 => A.squeeze S_ squeezes_S1_S_) (SemArray.slice_unit_congr _ (coff_Fsem218 t h2) _ _)
theorem coff_FA4 : ∀ t : Fin grid0.N, k0_cond2 (grid0.coords t) = 1#1 → k0_off216 (grid0.coords t) = ![(slN (t.val + 1)).val, 0, 4, 0] := by decide +kernel
@[sl_canon] theorem canon_FA4 (t : Fin grid0.N) (h2 : k0_cond2 (grid0.coords t) = 1#1) :
    (scA.slice (Rect.unit (s := S2x8x64x1024) (k0_off216 (grid0.coords t)) S1x8x1x1024.size (k0_off216_inb (grid0.coords t) h2)) (fun _ => rfl)).squeeze S8x1024 squeezes_S1x8x1x1024_S8x1024 = rowM scA (slN (t.val + 1)) ⟨4, Nat.le_of_ble_eq_true rfl⟩ :=
  congrArg (fun M : Memref sig .tc .vmem S1x8x1x1024 .f32 => M.squeeze S8x1024 squeezes_S1x8x1x1024_S8x1024) (Memref.slice_unit_congr _ (coff_FA4 t h2) _ _ (fun _ => rfl) (fun _ => rfl))
theorem coff_FB4 : ∀ t : Fin grid0.N, k0_cond2 (grid0.coords t) = 1#1 → k0_off219 (grid0.coords t) = ![(slN (t.val + 1)).val, 0, 4, 0] := by decide +kernel
@[sl_canon] theorem canon_FB4 (t : Fin grid0.N) (h2 : k0_cond2 (grid0.coords t) = 1#1) :
    (scB.slice (Rect.unit (s := S2x8x64x1024) (k0_off219 (grid0.coords t)) S1x8x1x1024.size (k0_off219_inb (grid0.coords t) h2)) (fun _ => rfl)).squeeze S8x1024 squeezes_S1x8x1x1024_S8x1024 = rowM scB (slN (t.val + 1)) ⟨4, Nat.le_of_ble_eq_true rfl⟩ :=
  congrArg (fun M : Memref sig .tc .vmem S1x8x1x1024 .f32 => M.squeeze S8x1024 squeezes_S1x8x1x1024_S8x1024) (Memref.slice_unit_congr _ (coff_FB4 t h2) _ _ (fun _ => rfl) (fun _ => rfl))
@[sl_canon] theorem canon_Fsem_semsA218 (t : Fin grid0.N) (h2 : k0_cond2 (grid0.coords t) = 1#1) :
    (cc0_scratch2.slice (Rect.unit (s := S2) (k0_off218 (grid0.coords t)) S1.size (k0_off218_inb (grid0.coords t) h2))).squeeze S_ squeezes_S1_S_ = semsA (slN (t.val + 1)) :=
  congrArg (fun A : DmaSems sig S1 => A.squeeze S_ squeezes_S1_S_) (SemArray.slice_unit_congr _ (coff_Fsem218 t h2) _ _)
theorem coff_Fsem223 : ∀ t : Fin grid0.N, k0_cond2 (grid0.coords t) = 1#1 → k0_off223 (grid0.coords t) = ![(slN (t.val + 1)).val] := by decide +kernel
@[sl_canon] theorem canon_Fsem_semsB223 (t : Fin grid0.N) (h2 : k0_cond2 (grid0.coords t) = 1#1) :
    (cc0_scratch3.slice (Rect.unit (s := S2) (k0_off223 (grid0.coords t)) S1.size (k0_off223_inb (grid0.coords t) h2))).squeeze S_ squeezes_S1_S_ = semsB (slN (t.val + 1)) :=
  congrArg (fun A : DmaSems sig S1 => A.squeeze S_ squeezes_S1_S_) (SemArray.slice_unit_congr _ (coff_Fsem223 t h2) _ _)
theorem coff_FA5 : ∀ t : Fin grid0.N, k0_cond2 (grid0.coords t) = 1#1 → k0_off221 (grid0.coords t) = ![(slN (t.val + 1)).val, 0, 5, 0] := by decide +kernel
@[sl_canon] theorem canon_FA5 (t : Fin grid0.N) (h2 : k0_cond2 (grid0.coords t) = 1#1) :
    (scA.slice (Rect.unit (s := S2x8x64x1024) (k0_off221 (grid0.coords t)) S1x8x1x1024.size (k0_off221_inb (grid0.coords t) h2)) (fun _ => rfl)).squeeze S8x1024 squeezes_S1x8x1x1024_S8x1024 = rowM scA (slN (t.val + 1)) ⟨5, Nat.le_of_ble_eq_true rfl⟩ :=
  congrArg (fun M : Memref sig .tc .vmem S1x8x1x1024 .f32 => M.squeeze S8x1024 squeezes_S1x8x1x1024_S8x1024) (Memref.slice_unit_congr _ (coff_FA5 t h2) _ _ (fun _ => rfl) (fun _ => rfl))
theorem coff_FB5 : ∀ t : Fin grid0.N, k0_cond2 (grid0.coords t) = 1#1 → k0_off224 (grid0.coords t) = ![(slN (t.val + 1)).val, 0, 5, 0] := by decide +kernel
@[sl_canon] theorem canon_FB5 (t : Fin grid0.N) (h2 : k0_cond2 (grid0.coords t) = 1#1) :
    (scB.slice (Rect.unit (s := S2x8x64x1024) (k0_off224 (grid0.coords t)) S1x8x1x1024.size (k0_off224_inb (grid0.coords t) h2)) (fun _ => rfl)).squeeze S8x1024 squeezes_S1x8x1x1024_S8x1024 = rowM scB (slN (t.val + 1)) ⟨5, Nat.le_of_ble_eq_true rfl⟩ :=
  congrArg (fun M : Memref sig .tc .vmem S1x8x1x1024 .f32 => M.squeeze S8x1024 squeezes_S1x8x1x1024_S8x1024) (Memref.slice_unit_congr _ (coff_FB5 t h2) _ _ (fun _ => rfl) (fun _ => rfl))
@[sl_canon] theorem canon_Fsem_semsA223 (t : Fin grid0.N) (h2 : k0_cond2 (grid0.coords t) = 1#1) :
    (cc0_scratch2.slice (Rect.unit (s := S2) (k0_off223 (grid0.coords t)) S1.size (k0_off223_inb (grid0.coords t) h2))).squeeze S_ squeezes_S1_S_ = semsA (slN (t.val + 1)) :=
  congrArg (fun A : DmaSems sig S1 => A.squeeze S_ squeezes_S1_S_) (SemArray.slice_unit_congr _ (coff_Fsem223 t h2) _ _)
theorem coff_Fsem228 : ∀ t : Fin grid0.N, k0_cond2 (grid0.coords t) = 1#1 → k0_off228 (grid0.coords t) = ![(slN (t.val + 1)).val] := by decide +kernel
@[sl_canon] theorem canon_Fsem_semsB228 (t : Fin grid0.N) (h2 : k0_cond2 (grid0.coords t) = 1#1) :
    (cc0_scratch3.slice (Rect.unit (s := S2) (k0_off228 (grid0.coords t)) S1.size (k0_off228_inb (grid0.coords t) h2))).squeeze S_ squeezes_S1_S_ = semsB (slN (t.val + 1)) :=
  congrArg (fun A : DmaSems sig S1 => A.squeeze S_ squeezes_S1_S_) (SemArray.slice_unit_congr _ (coff_Fsem228 t h2) _ _)
theorem coff_FA6 : ∀ t : Fin grid0.N, k0_cond2 (grid0.coords t) = 1#1 → k0_off226 (grid0.coords t) = ![(slN (t.val + 1)).val, 0, 6, 0] := by decide +kernel
@[sl_canon] theorem canon_FA6 (t : Fin grid0.N) (h2 : k0_cond2 (grid0.coords t) = 1#1) :
    (scA.slice (Rect.unit (s := S2x8x64x1024) (k0_off226 (grid0.coords t)) S1x8x1x1024.size (k0_off226_inb (grid0.coords t) h2)) (fun _ => rfl)).squeeze S8x1024 squeezes_S1x8x1x1024_S8x1024 = rowM scA (slN (t.val + 1)) ⟨6, Nat.le_of_ble_eq_true rfl⟩ :=
  congrArg (fun M : Memref sig .tc .vmem S1x8x1x1024 .f32 => M.squeeze S8x1024 squeezes_S1x8x1x1024_S8x1024) (Memref.slice_unit_congr _ (coff_FA6 t h2) _ _ (fun _ => rfl) (fun _ => rfl))
theorem coff_FB6 : ∀ t : Fin grid0.N, k0_cond2 (grid0.coords t) = 1#1 → k0_off229 (grid0.coords t) = ![(slN (t.val + 1)).val, 0, 6, 0] := by decide +kernel
@[sl_canon] theorem canon_FB6 (t : Fin grid0.N) (h2 : k0_cond2 (grid0.coords t) = 1#1) :
    (scB.slice (Rect.unit (s := S2x8x64x1024) (k0_off229 (grid0.coords t)) S1x8x1x1024.size (k0_off229_inb (grid0.coords t) h2)) (fun _ => rfl)).squeeze S8x1024 squeezes_S1x8x1x1024_S8x1024 = rowM scB (slN (t.val + 1)) ⟨6, Nat.le_of_ble_eq_true rfl⟩ :=
  congrArg (fun M : Memref sig .tc .vmem S1x8x1x1024 .f32 => M.squeeze S8x1024 squeezes_S1x8x1x1024_S8x1024) (Memref.slice_unit_congr _ (coff_FB6 t h2) _ _ (fun _ => rfl) (fun _ => rfl))
@[sl_canon] theorem canon_Fsem_semsA228 (t : Fin grid0.N) (h2 : k0_cond2 (grid0.coords t) = 1#1) :
    (cc0_scratch2.slice (Rect.unit (s := S2) (k0_off228 (grid0.coords t)) S1.size (k0_off228_inb (grid0.coords t) h2))).squeeze S_ squeezes_S1_S_ = semsA (slN (t.val + 1)) :=
  congrArg (fun A : DmaSems sig S1 => A.squeeze S_ squeezes_S1_S_) (SemArray.slice_unit_congr _ (coff_Fsem228 t h2) _ _)
theorem coff_Fsem233 : ∀ t : Fin grid0.N, k0_cond2 (grid0.coords t) = 1#1 → k0_off233 (grid0.coords t) = ![(slN (t.val + 1)).val] := by decide +kernel
@[sl_canon] theorem canon_Fsem_semsB233 (t : Fin grid0.N) (h2 : k0_cond2 (grid0.coords t) = 1#1) :
    (cc0_scratch3.slice (Rect.unit (s := S2) (k0_off233 (grid0.coords t)) S1.size (k0_off233_inb (grid0.coords t) h2))).squeeze S_ squeezes_S1_S_ = semsB (slN (t.val + 1)) :=
  congrArg (fun A : DmaSems sig S1 => A.squeeze S_ squeezes_S1_S_) (SemArray.slice_unit_congr _ (coff_Fsem233 t h2) _ _)
theorem coff_FA7 : ∀ t : Fin grid0.N, k0_cond2 (grid0.coords t) = 1#1 → k0_off231 (grid0.coords t) = ![(slN (t.val + 1)).val, 0, 7, 0] := by decide +kernel
@[sl_canon] theorem canon_FA7 (t : Fin grid0.N) (h2 : k0_cond2 (grid0.coords t) = 1#1) :
    (scA.slice (Rect.unit (s := S2x8x64x1024) (k0_off231 (grid0.coords t)) S1x8x1x1024.size (k0_off231_inb (grid0.coords t) h2)) (fun _ => rfl)).squeeze S8x1024 squeezes_S1x8x1x1024_S8x1024 = rowM scA (slN (t.val + 1)) ⟨7, Nat.le_of_ble_eq_true rfl⟩ :=
  congrArg (fun M : Memref sig .tc .vmem S1x8x1x1024 .f32 => M.squeeze S8x1024 squeezes_S1x8x1x1024_S8x1024) (Memref.slice_unit_congr _ (coff_FA7 t h2) _ _ (fun _ => rfl) (fun _ => rfl))
theorem coff_FB7 : ∀ t : Fin grid0.N, k0_cond2 (grid0.coords t) = 1#1 → k0_off234 (grid0.coords t) = ![(slN (t.val + 1)).val, 0, 7, 0] := by decide +kernel
@[sl_canon] theorem canon_FB7 (t : Fin grid0.N) (h2 : k0_cond2 (grid0.coords t) = 1#1) :
    (scB.slice (Rect.unit (s := S2x8x64x1024) (k0_off234 (grid0.coords t)) S1x8x1x1024.size (k0_off234_inb (grid0.coords t) h2)) (fun _ => rfl)).squeeze S8x1024 squeezes_S1x8x1x1024_S8x1024 = rowM scB (slN (t.val + 1)) ⟨7, Nat.le_of_ble_eq_true rfl⟩ :=
  congrArg (fun M : Memref sig .tc .vmem S1x8x1x1024 .f32 => M.squeeze S8x1024 squeezes_S1x8x1x1024_S8x1024) (Memref.slice_unit_congr _ (coff_FB7 t h2) _ _ (fun _ => rfl) (fun _ => rfl))
@[sl_canon] theorem canon_Fsem_semsA233 (t : Fin grid0.N) (h2 : k0_cond2 (grid0.coords t) = 1#1) :
    (cc0_scratch2.slice (Rect.unit (s := S2) (k0_off233 (grid0.coords t)) S1.size (k0_off233_inb (grid0.coords t) h2))).squeeze S_ squeezes_S1_S_ = semsA (slN (t.val + 1)) :=
  congrArg (fun A : DmaSems sig S1 => A.squeeze S_ squeezes_S1_S_) (SemArray.slice_unit_congr _ (coff_Fsem233 t h2) _ _)
theorem coff_Fsem238 : ∀ t : Fin grid0.N, k0_cond2 (grid0.coords t) = 1#1 → k0_off238 (grid0.coords t) = ![(slN (t.val + 1)).val] := by decide +kernel
@[sl_canon] theorem canon_Fsem_semsB238 (t : Fin grid0.N) (h2 : k0_cond2 (grid0.coords t) = 1#1) :
    (cc0_scratch3.slice (Rect.unit (s := S2) (k0_off238 (grid0.coords t)) S1.size (k0_off238_inb (grid0.coords t) h2))).squeeze S_ squeezes_S1_S_ = semsB (slN (t.val + 1)) :=
  congrArg (fun A : DmaSems sig S1 => A.squeeze S_ squeezes_S1_S_) (SemArray.slice_unit_congr _ (coff_Fsem238 t h2) _ _)
theorem coff_FA8 : ∀ t : Fin grid0.N, k0_cond2 (grid0.coords t) = 1#1 → k0_off236 (grid0.coords t) = ![(slN (t.val + 1)).val, 0, 8, 0] := by decide +kernel
@[sl_canon] theorem canon_FA8 (t : Fin grid0.N) (h2 : k0_cond2 (grid0.coords t) = 1#1) :
    (scA.slice (Rect.unit (s := S2x8x64x1024) (k0_off236 (grid0.coords t)) S1x8x1x1024.size (k0_off236_inb (grid0.coords t) h2)) (fun _ => rfl)).squeeze S8x1024 squeezes_S1x8x1x1024_S8x1024 = rowM scA (slN (t.val + 1)) ⟨8, Nat.le_of_ble_eq_true rfl⟩ :=
  congrArg (fun M : Memref sig .tc .vmem S1x8x1x1024 .f32 => M.squeeze S8x1024 squeezes_S1x8x1x1024_S8x1024) (Memref.slice_unit_congr _ (coff_FA8 t h2) _ _ (fun _ => rfl) (fun _ => rfl))
theorem coff_FB8 : ∀ t : Fin grid0.N, k0_cond2 (grid0.coords t) = 1#1 → k0_off239 (grid0.coords t) = ![(slN (t.val + 1)).val, 0, 8, 0] := by decide +kernel
@[sl_canon] theorem canon_FB8 (t : Fin grid0.N) (h2 : k0_cond2 (grid0.coords t) = 1#1) :
    (scB.slice (Rect.unit (s := S2x8x64x1024) (k0_off239 (grid0.coords t)) S1x8x1x1024.size (k0_off239_inb (grid0.coords t) h2)) (fun _ => rfl)).squeeze S8x1024 squeezes_S1x8x1x1024_S8x1024 = rowM scB (slN (t.val + 1)) ⟨8, Nat.le_of_ble_eq_true rfl⟩ :=
  congrArg (fun M : Memref sig .tc .vmem S1x8x1x1024 .f32 => M.squeeze S8x1024 squeezes_S1x8x1x1024_S8x1024) (Memref.slice_unit_congr _ (coff_FB8 t h2) _ _ (fun _ => rfl) (fun _ => rfl))
@[sl_canon] theorem canon_Fsem_semsA238 (t : Fin grid0.N) (h2 : k0_cond2 (grid0.coords t) = 1#1) :
    (cc0_scratch2.slice (Rect.unit (s := S2) (k0_off238 (grid0.coords t)) S1.size (k0_off238_inb (grid0.coords t) h2))).squeeze S_ squeezes_S1_S_ = semsA (slN (t.val + 1)) :=
  congrArg (fun A : DmaSems sig S1 => A.squeeze S_ squeezes_S1_S_) (SemArray.slice_unit_congr _ (coff_Fsem238 t h2) _ _)
theorem coff_Fsem243 : ∀ t : Fin grid0.N, k0_cond2 (grid0.coords t) = 1#1 → k0_off243 (grid0.coords t) = ![(slN (t.val + 1)).val] := by decide +kernel
@[sl_canon] theorem canon_Fsem_semsB243 (t : Fin grid0.N) (h2 : k0_cond2 (grid0.coords t) = 1#1) :
    (cc0_scratch3.slice (Rect.unit (s := S2) (k0_off243 (grid0.coords t)) S1.size (k0_off243_inb (grid0.coords t) h2))).squeeze S_ squeezes_S1_S_ = semsB (slN (t.val + 1)) :=
  congrArg (fun A : DmaSems sig S1 => A.squeeze S_ squeezes_S1_S_) (SemArray.slice_unit_congr _ (coff_Fsem243 t h2) _ _)
theorem coff_FA9 : ∀ t : Fin grid0.N, k0_cond2 (grid0.coords t) = 1#1 → k0_off241 (grid0.coords t) = ![(slN (t.val + 1)).val, 0, 9, 0] := by decide +kernel
@[sl_canon] theorem canon_FA9 (t : Fin grid0.N) (h2 : k0_cond2 (grid0.coords t) = 1#1) :
    (scA.slice (Rect.unit (s := S2x8x64x1024) (k0_off241 (grid0.coords t)) S1x8x1x1024.size (k0_off241_inb (grid0.coords t) h2)) (fun _ => rfl)).squeeze S8x1024 squeezes_S1x8x1x1024_S8x1024 = rowM scA (slN (t.val + 1)) ⟨9, Nat.le_of_ble_eq_true rfl⟩ :=
  congrArg (fun M : Memref sig .tc .vmem S1x8x1x1024 .f32 => M.squeeze S8x1024 squeezes_S1x8x1x1024_S8x1024) (Memref.slice_unit_congr _ (coff_FA9 t h2) _ _ (fun _ => rfl) (fun _ => rfl))
theorem coff_FB9 : ∀ t : Fin grid0.N, k0_cond2 (grid0.coords t) = 1#1 → k0_off244 (grid0.coords t) = ![(slN (t.val + 1)).val, 0, 9, 0] := by decide +kernel
@[sl_canon] theorem canon_FB9 (t : Fin grid0.N) (h2 : k0_cond2 (grid0.coords t) = 1#1) :
    (scB.slice (Rect.unit (s := S2x8x64x1024) (k0_off244 (grid0.coords t)) S1x8x1x1024.size (k0_off244_inb (grid0.coords t) h2)) (fun _ => rfl)).squeeze S8x1024 squeezes_S1x8x1x1024_S8x1024 = rowM scB (slN (t.val + 1)) ⟨9, Nat.le_of_ble_eq_true rfl⟩ :=
  congrArg (fun M : Memref sig .tc .vmem S1x8x1x1024 .f32 => M.squeeze S8x1024 squeezes_S1x8x1x1024_S8x1024) (Memref.slice_unit_congr _ (coff_FB9 t h2) _ _ (fun _ => rfl) (fun _ => rfl))
@[sl_canon] theorem canon_Fsem_semsA243 (t : Fin grid0.N) (h2 : k0_cond2 (grid0.coords t) = 1#1) :
    (cc0_scratch2.slice (Rect.unit (s := S2) (k0_off243 (grid0.coords t)) S1.size (k0_off243_inb (grid0.coords t) h2))).squeeze S_ squeezes_S1_S_ = semsA (slN (t.val + 1)) :=
  congrArg (fun A : DmaSems sig S1 => A.squeeze S_ squeezes_S1_S_) (SemArray.slice_unit_congr _ (coff_Fsem243 t h2) _ _)
theorem coff_Fsem248 : ∀ t : Fin grid0.N, k0_cond2 (grid0.coords t) = 1#1 → k0_off248 (grid0.coords t) = ![(slN (t.val + 1)).val] := by decide +kernel
@[sl_canon] theorem canon_Fsem_semsB248 (t : Fin grid0.N) (h2 : k0_cond2 (grid0.coords t) = 1#1) :
    (cc0_scratch3.slice (Rect.unit (s := S2) (k0_off248 (grid0.coords t)) S1.size (k0_off248_inb (grid0.coords t) h2))).squeeze S_ squeezes_S1_S_ = semsB (slN (t.val + 1)) :=
  congrArg (fun A : DmaSems sig S1 => A.squeeze S_ squeezes_S1_S_) (SemArray.slice_unit_congr _ (coff_Fsem248 t h2) _ _)
theorem coff_FA10 : ∀ t : Fin grid0.N, k0_cond2 (grid0.coords t) = 1#1 → k0_off246 (grid0.coords t) = ![(slN (t.val + 1)).val, 0, 10, 0] := by decide +kernel
@[sl_canon] theorem canon_FA10 (t : Fin grid0.N) (h2 : k0_cond2 (grid0.coords t) = 1#1) :
    (scA.slice (Rect.unit (s := S2x8x64x1024) (k0_off246 (grid0.coords t)) S1x8x1x1024.size (k0_off246_inb (grid0.coords t) h2)) (fun _ => rfl)).squeeze S8x1024 squeezes_S1x8x1x1024_S8x1024 = rowM scA (slN (t.val + 1)) ⟨10, Nat.le_of_ble_eq_true rfl⟩ :=
  congrArg (fun M : Memref sig .tc .vmem S1x8x1x1024 .f32 => M.squeeze S8x1024 squeezes_S1x8x1x1024_S8x1024) (Memref.slice_unit_congr _ (coff_FA10 t h2) _ _ (fun _ => rfl) (fun _ => rfl))
theorem coff_FB10 : ∀ t : Fin grid0.N, k0_cond2 (grid0.coords t) = 1#1 → k0_off249 (grid0.coords t) = ![(slN (t.val + 1)).val, 0, 10, 0] := by decide +kernel
@[sl_canon] theorem canon_FB10 (t : Fin grid0.N) (h2 : k0_cond2 (grid0.coords t) = 1#1) :
    (scB.slice (Rect.unit (s := S2x8x64x1024) (k0_off249 (grid0.coords t)) S1x8x1x1024.size (k0_off249_inb (grid0.coords t) h2)) (fun _ => rfl)).squeeze S8x1024 squeezes_S1x8x1x1024_S8x1024 = rowM scB (slN (t.val + 1)) ⟨10, Nat.le_of_ble_eq_true rfl⟩ :=
  congrArg (fun M : Memref sig .tc .vmem S1x8x1x1024 .f32 => M.squeeze S8x1024 squeezes_S1x8x1x1024_S8x1024) (Memref.slice_unit_congr _ (coff_FB10 t h2) _ _ (fun _ => rfl) (fun _ => rfl))
@[sl_canon] theorem canon_Fsem_semsA248 (t : Fin grid0.N) (h2 : k0_cond2 (grid0.coords t) = 1#1) :
    (cc0_scratch2.slice (Rect.unit (s := S2) (k0_off248 (grid0.coords t)) S1.size (k0_off248_inb (grid0.coords t) h2))).squeeze S_ squeezes_S1_S_ = semsA (slN (t.val + 1)) :=
  congrArg (fun A : DmaSems sig S1 => A.squeeze S_ squeezes_S1_S_) (SemArray.slice_unit_congr _ (coff_Fsem248 t h2) _ _)
theorem coff_Fsem253 : ∀ t : Fin grid0.N, k0_cond2 (grid0.coords t) = 1#1 → k0_off253 (grid0.coords t) = ![(slN (t.val + 1)).val] := by decide +kernel
@[sl_canon] theorem canon_Fsem_semsB253 (t : Fin grid0.N) (h2 : k0_cond2 (grid0.coords t) = 1#1) :
    (cc0_scratch3.slice (Rect.unit (s := S2) (k0_off253 (grid0.coords t)) S1.size (k0_off253_inb (grid0.coords t) h2))).squeeze S_ squeezes_S1_S_ = semsB (slN (t.val + 1)) :=
  congrArg (fun A : DmaSems sig S1 => A.squeeze S_ squeezes_S1_S_) (SemArray.slice_unit_congr _ (coff_Fsem253 t h2) _ _)
theorem coff_FA11 : ∀ t : Fin grid0.N, k0_cond2 (grid0.coords t) = 1#1 → k0_off251 (grid0.coords t) = ![(slN (t.val + 1)).val, 0, 11, 0] := by decide +kernel
@[sl_canon] theorem canon_FA11 (t : Fin grid0.N) (h2 : k0_cond2 (grid0.coords t) = 1#1) :
    (scA.slice (Rect.unit (s := S2x8x64x1024) (k0_off251 (grid0.coords t)) S1x8x1x1024.size (k0_off251_inb (grid0.coords t) h2)) (fun _ => rfl)).squeeze S8x1024 squeezes_S1x8x1x1024_S8x1024 = rowM scA (slN (t.val + 1)) ⟨11, Nat.le_of_ble_eq_true rfl⟩ :=
  congrArg (fun M : Memref sig .tc .vmem S1x8x1x1024 .f32 => M.squeeze S8x1024 squeezes_S1x8x1x1024_S8x1024) (Memref.slice_unit_congr _ (coff_FA11 t h2) _ _ (fun _ => rfl) (fun _ => rfl))
theorem coff_FB11 : ∀ t : Fin grid0.N, k0_cond2 (grid0.coords t) = 1#1 → k0_off254 (grid0.coords t) = ![(slN (t.val + 1)).val, 0, 11, 0] := by decide +kernel
@[sl_canon] theorem canon_FB11 (t : Fin grid0.N) (h2 : k0_cond2 (grid0.coords t) = 1#1) :
    (scB.slice (Rect.unit (s := S2x8x64x1024) (k0_off254 (grid0.coords t)) S1x8x1x1024.size (k0_off254_inb (grid0.coords t) h2)) (fun _ => rfl)).squeeze S8x1024 squeezes_S1x8x1x1024_S8x1024 = rowM scB (slN (t.val + 1)) ⟨11, Nat.le_of_ble_eq_true rfl⟩ :=
  congrArg (fun M : Memref sig .tc .vmem S1x8x1x1024 .f32 => M.squeeze S8x1024 squeezes_S1x8x1x1024_S8x1024) (Memref.slice_unit_congr _ (coff_FB11 t h2) _ _ (fun _ => rfl) (fun _ => rfl))
@[sl_canon] theorem canon_Fsem_semsA253 (t : Fin grid0.N) (h2 : k0_cond2 (grid0.coords t) = 1#1) :
    (cc0_scratch2.slice (Rect.unit (s := S2) (k0_off253 (grid0.coords t)) S1.size (k0_off253_inb (grid0.coords t) h2))).squeeze S_ squeezes_S1_S_ = semsA (slN (t.val + 1)) :=
  congrArg (fun A : DmaSems sig S1 => A.squeeze S_ squeezes_S1_S_) (SemArray.slice_unit_congr _ (coff_Fsem253 t h2) _ _)
theorem coff_Fsem258 : ∀ t : Fin grid0.N, k0_cond2 (grid0.coords t) = 1#1 → k0_off258 (grid0.coords t) = ![(slN (t.val + 1)).val] := by decide +kernel
@[sl_canon] theorem canon_Fsem_semsB258 (t : Fin grid0.N) (h2 : k0_cond2 (grid0.coords t) = 1#1) :
    (cc0_scratch3.slice (Rect.unit (s := S2) (k0_off258 (grid0.coords t)) S1.size (k0_off258_inb (grid0.coords t) h2))).squeeze S_ squeezes_S1_S_ = semsB (slN (t.val + 1)) :=
  congrArg (fun A : DmaSems sig S1 => A.squeeze S_ squeezes_S1_S_) (SemArray.slice_unit_congr _ (coff_Fsem258 t h2) _ _)
theorem coff_FA12 : ∀ t : Fin grid0.N, k0_cond2 (grid0.coords t) = 1#1 → k0_off256 (grid0.coords t) = ![(slN (t.val + 1)).val, 0, 12, 0] := by decide +kernel
@[sl_canon] theorem canon_FA12 (t : Fin grid0.N) (h2 : k0_cond2 (grid0.coords t) = 1#1) :
    (scA.slice (Rect.unit (s := S2x8x64x1024) (k0_off256 (grid0.coords t)) S1x8x1x1024.size (k0_off256_inb (grid0.coords t) h2)) (fun _ => rfl)).squeeze S8x1024 squeezes_S1x8x1x1024_S8x1024 = rowM scA (slN (t.val + 1)) ⟨12, Nat.le_of_ble_eq_true rfl⟩ :=
  congrArg (fun M : Memref sig .tc .vmem S1x8x1x1024 .f32 => M.squeeze S8x1024 squeezes_S1x8x1x1024_S8x1024) (Memref.slice_unit_congr _ (coff_FA12 t h2) _ _ (fun _ => rfl) (fun _ => rfl))
theorem coff_FB12 : ∀ t : Fin grid0.N, k0_cond2 (grid0.coords t) = 1#1 → k0_off259 (grid0.coords t) = ![(slN (t.val + 1)).val, 0, 12, 0] := by decide +kernel
@[sl_canon] theorem canon_FB12 (t : Fin grid0.N) (h2 : k0_cond2 (grid0.coords t) = 1#1) :
    (scB.slice (Rect.unit (s := S2x8x64x1024) (k0_off259 (grid0.coords t)) S1x8x1x1024.size (k0_off259_inb (grid0.coords t) h2)) (fun _ => rfl)).squeeze S8x1024 squeezes_S1x8x1x1024_S8x1024 = rowM scB (slN (t.val + 1)) ⟨12, Nat.le_of_ble_eq_true rfl⟩ :=
  congrArg (fun M : Memref sig .tc .vmem S1x8x1x1024 .f32 => M.squeeze S8x1024 squeezes_S1x8x1x1024_S8x1024) (Memref.slice_unit_congr _ (coff_FB12 t h2) _ _ (fun _ => rfl) (fun _ => rfl))
@[sl_canon] theorem canon_Fsem_semsA258 (t : Fin grid0.N) (h2 : k0_cond2 (grid0.coords t) = 1#1) :
    (cc0_scratch2.slice (Rect.unit (s := S2) (k0_off258 (grid0.coords t)) S1.size (k0_off258_inb (grid0.coords t) h2))).squeeze S_ squeezes_S1_S_ = semsA (slN (t.val + 1)) :=
  congrArg (fun A : DmaSems sig S1 => A.squeeze S_ squeezes_S1_S_) (SemArray.slice_unit_congr _ (coff_Fsem258 t h2) _ _)
theorem coff_Fsem263 : ∀ t : Fin grid0.N, k0_cond2 (grid0.coords t) = 1#1 → k0_off263 (grid0.coords t) = ![(slN (t.val + 1)).val] := by decide +kernel
@[sl_canon] theorem canon_Fsem_semsB263 (t : Fin grid0.N) (h2 : k0_cond2 (grid0.coords t) = 1#1) :
    (cc0_scratch3.slice (Rect.unit (s := S2) (k0_off263 (grid0.coords t)) S1.size (k0_off263_inb (grid0.coords t) h2))).squeeze S_ squeezes_S1_S_ = semsB (slN (t.val + 1)) :=
  congrArg (fun A : DmaSems sig S1 => A.squeeze S_ squeezes_S1_S_) (SemArray.slice_unit_congr _ (coff_Fsem263 t h2) _ _)
theorem coff_FA13 : ∀ t : Fin grid0.N, k0_cond2 (grid0.coords t) = 1#1 → k0_off261 (grid0.coords t) = ![(slN (t.val + 1)).val, 0, 13, 0] := by decide +kernel
@[sl_canon] theorem canon_FA13 (t : Fin grid0.N) (h2 : k0_cond2 (grid0.coords t) = 1#1) :
    (scA.slice (Rect.unit (s := S2x8x64x1024) (k0_off261 (grid0.coords t)) S1x8x1x1024.size (k0_off261_inb (grid0.coords t) h2)) (fun _ => rfl)).squeeze S8x1024 squeezes_S1x8x1x1024_S8x1024 = rowM scA (slN (t.val + 1)) ⟨13, Nat.le_of_ble_eq_true rfl⟩ :=
  congrArg (fun M : Memref sig .tc .vmem S1x8x1x1024 .f32 => M.squeeze S8x1024 squeezes_S1x8x1x1024_S8x1024) (Memref.slice_unit_congr _ (coff_FA13 t h2) _ _ (fun _ => rfl) (fun _ => rfl))
theorem coff_FB13 : ∀ t : Fin grid0.N, k0_cond2 (grid0.coords t) = 1#1 → k0_off264 (grid0.coords t) = ![(slN (t.val + 1)).val, 0, 13, 0] := by decide +kernel
@[sl_canon] theorem canon_FB13 (t : Fin grid0.N) (h2 : k0_cond2 (grid0.coords t) = 1#1) :
    (scB.slice (Rect.unit (s := S2x8x64x1024) (k0_off264 (grid0.coords t)) S1x8x1x1024.size (k0_off264_inb (grid0.coords t) h2)) (fun _ => rfl)).squeeze S8x1024 squeezes_S1x8x1x1024_S8x1024 = rowM scB (slN (t.val + 1)) ⟨13, Nat.le_of_ble_eq_true rfl⟩ :=
  congrArg (fun M : Memref sig .tc .vmem S1x8x1x1024 .f32 => M.squeeze S8x1024 squeezes_S1x8x1x1024_S8x1024) (Memref.slice_unit_congr _ (coff_FB13 t h2) _ _ (fun _ => rfl) (fun _ => rfl))
@[sl_canon] theorem canon_Fsem_semsA263 (t : Fin grid0.N) (h2 : k0_cond2 (grid0.coords t) = 1#1) :
    (cc0_scratch2.slice (Rect.unit (s := S2) (k0_off263 (grid0.coords t)) S1.size (k0_off263_inb (grid0.coords t) h2))).squeeze S_ squeezes_S1_S_ = semsA (slN (t.val + 1)) :=
  congrArg (fun A : DmaSems sig S1 => A.squeeze S_ squeezes_S1_S_) (SemArray.slice_unit_congr _ (coff_Fsem263 t h2) _ _)
theorem coff_Fsem268 : ∀ t : Fin grid0.N, k0_cond2 (grid0.coords t) = 1#1 → k0_off268 (grid0.coords t) = ![(slN (t.val + 1)).val] := by decide +kernel
@[sl_canon] theorem canon_Fsem_semsB268 (t : Fin grid0.N) (h2 : k0_cond2 (grid0.coords t) = 1#1) :
    (cc0_scratch3.slice (Rect.unit (s := S2) (k0_off268 (grid0.coords t)) S1.size (k0_off268_inb (grid0.coords t) h2))).squeeze S_ squeezes_S1_S_ = semsB (slN (t.val + 1)) :=
  congrArg (fun A : DmaSems sig S1 => A.squeeze S_ squeezes_S1_S_) (SemArray.slice_unit_congr _ (coff_Fsem268 t h2) _ _)
theorem coff_FA14 : ∀ t : Fin grid0.N, k0_cond2 (grid0.coords t) = 1#1 → k0_off266 (grid0.coords t) = ![(slN (t.val + 1)).val, 0, 14, 0] := by decide +kernel
@[sl_canon] theorem canon_FA14 (t : Fin grid0.N) (h2 : k0_cond2 (grid0.coords t) = 1#1) :
    (scA.slice (Rect.unit (s := S2x8x64x1024) (k0_off266 (grid0.coords t)) S1x8x1x1024.size (k0_off266_inb (grid0.coords t) h2)) (fun _ => rfl)).squeeze S8x1024 squeezes_S1x8x1x1024_S8x1024 = rowM scA (slN (t.val + 1)) ⟨14, Nat.le_of_ble_eq_true rfl⟩ :=
  congrArg (fun M : Memref sig .tc .vmem S1x8x1x1024 .f32 => M.squeeze S8x1024 squeezes_S1x8x1x1024_S8x1024) (Memref.slice_unit_congr _ (coff_FA14 t h2) _ _ (fun _ => rfl) (fun _ => rfl))
theorem coff_FB14 : ∀ t : Fin grid0.N, k0_cond2 (grid0.coords t) = 1#1 → k0_off269 (grid0.coords t) = ![(slN (t.val + 1)).val, 0, 14, 0] := by decide +kernel
@[sl_canon] theorem canon_FB14 (t : Fin grid0.N) (h2 : k0_cond2 (grid0.coords t) = 1#1) :
    (scB.slice (Rect.unit (s := S2x8x64x1024) (k0_off269 (grid0.coords t)) S1x8x1x1024.size (k0_off269_inb (grid0.coords t) h2)) (fun _ => rfl)).squeeze S8x1024 squeezes_S1x8x1x1024_S8x1024 = rowM scB (slN (t.val + 1)) ⟨14, Nat.le_of_ble_eq_true rfl⟩ :=
  congrArg (fun M : Memref sig .tc .vmem S1x8x1x1024 .f32 => M.squeeze S8x1024 squeezes_S1x8x1x1024_S8x1024) (Memref.slice_unit_congr _ (coff_FB14 t h2) _ _ (fun _ => rfl) (fun _ => rfl))
@[sl_canon] theorem canon_Fsem_semsA268 (t : Fin grid0.N) (h2 : k0_cond2 (grid0.coords t) = 1#1) :
    (cc0_scratch2.slice (Rect.unit (s := S2) (k0_off268 (grid0.coords t)) S1.size (k0_off268_inb (grid0.coords t) h2))).squeeze S_ squeezes_S1_S_ = semsA (slN (t.val + 1)) :=
  congrArg (fun A : DmaSems sig S1 => A.squeeze S_ squeezes_S1_S_) (SemArray.slice_unit_congr _ (coff_Fsem268 t h2) _ _)
theorem coff_Fsem273 : ∀ t : Fin grid0.N, k0_cond2 (grid0.coords t) = 1#1 → k0_off273 (grid0.coords t) = ![(slN (t.val + 1)).val] := by decide +kernel
@[sl_canon] theorem canon_Fsem_semsB273 (t : Fin grid0.N) (h2 : k0_cond2 (grid0.coords t) = 1#1) :
    (cc0_scratch3.slice (Rect.unit (s := S2) (k0_off273 (grid0.coords t)) S1.size (k0_off273_inb (grid0.coords t) h2))).squeeze S_ squeezes_S1_S_ = semsB (slN (t.val + 1)) :=
  congrArg (fun A : DmaSems sig S1 => A.squeeze S_ squeezes_S1_S_) (SemArray.slice_unit_congr _ (coff_Fsem273 t h2) _ _)
theorem coff_FA15 : ∀ t : Fin grid0.N, k0_cond2 (grid0.coords t) = 1#1 → k0_off271 (grid0.coords t) = ![(slN (t.val + 1)).val, 0, 15, 0] := by decide +kernel
@[sl_canon] theorem canon_FA15 (t : Fin grid0.N) (h2 : k0_cond2 (grid0.coords t) = 1#1) :
    (scA.slice (Rect.unit (s := S2x8x64x1024) (k0_off271 (grid0.coords t)) S1x8x1x1024.size (k0_off271_inb (grid0.coords t) h2)) (fun _ => rfl)).squeeze S8x1024 squeezes_S1x8x1x1024_S8x1024 = rowM scA (slN (t.val + 1)) ⟨15, Nat.le_of_ble_eq_true rfl⟩ :=
  congrArg (fun M : Memref sig .tc .vmem S1x8x1x1024 .f32 => M.squeeze S8x1024 squeezes_S1x8x1x1024_S8x1024) (Memref.slice_unit_congr _ (coff_FA15 t h2) _ _ (fun _ => rfl) (fun _ => rfl))
theorem coff_FB15 : ∀ t : Fin grid0.N, k0_cond2 (grid0.coords t) = 1#1 → k0_off274 (grid0.coords t) = ![(slN (t.val + 1)).val, 0, 15, 0] := by decide +kernel
@[sl_canon] theorem canon_FB15 (t : Fin grid0.N) (h2 : k0_cond2 (grid0.coords t) = 1#1) :
    (scB.slice (Rect.unit (s := S2x8x64x1024) (k0_off274 (grid0.coords t)) S1x8x1x1024.size (k0_off274_inb (grid0.coords t) h2)) (fun _ => rfl)).squeeze S8x1024 squeezes_S1x8x1x1024_S8x1024 = rowM scB (slN (t.val + 1)) ⟨15, Nat.le_of_ble_eq_true rfl⟩ :=
  congrArg (fun M : Memref sig .tc .vmem S1x8x1x1024 .f32 => M.squeeze S8x1024 squeezes_S1x8x1x1024_S8x1024) (Memref.slice_unit_congr _ (coff_FB15 t h2) _ _ (fun _ => rfl) (fun _ => rfl))
@[sl_canon] theorem canon_Fsem_semsA273 (t : Fin grid0.N) (h2 : k0_cond2 (grid0.coords t) = 1#1) :
    (cc0_scratch2.slice (Rect.unit (s := S2) (k0_off273 (grid0.coords t)) S1.size (k0_off273_inb (grid0.coords t) h2))).squeeze S_ squeezes_S1_S_ = semsA (slN (t.val + 1)) :=
  congrArg (fun A : DmaSems sig S1 => A.squeeze S_ squeezes_S1_S_) (SemArray.slice_unit_congr _ (coff_Fsem273 t h2) _ _)
theorem coff_Fsem278 : ∀ t : Fin grid0.N, k0_cond2 (grid0.coords t) = 1#1 → k0_off278 (grid0.coords t) = ![(slN (t.val + 1)).val] := by decide +kernel
@[sl_canon] theorem canon_Fsem_semsB278 (t : Fin grid0.N) (h2 : k0_cond2 (grid0.coords t) = 1#1) :
    (cc0_scratch3.slice (Rect.unit (s := S2) (k0_off278 (grid0.coords t)) S1.size (k0_off278_inb (grid0.coords t) h2))).squeeze S_ squeezes_S1_S_ = semsB (slN (t.val + 1)) :=
  congrArg (fun A : DmaSems sig S1 => A.squeeze S_ squeezes_S1_S_) (SemArray.slice_unit_congr _ (coff_Fsem278 t h2) _ _)
theorem coff_FA16 : ∀ t : Fin grid0.N, k0_cond2 (grid0.coords t) = 1#1 → k0_off276 (grid0.coords t) = ![(slN (t.val + 1)).val, 0, 16, 0] := by decide +kernel
@[sl_canon] theorem canon_FA16 (t : Fin grid0.N) (h2 : k0_cond2 (grid0.coords t) = 1#1) :
    (scA.slice (Rect.unit (s := S2x8x64x1024) (k0_off276 (grid0.coords t)) S1x8x1x1024.size (k0_off276_inb (grid0.coords t) h2)) (fun _ => rfl)).squeeze S8x1024 squeezes_S1x8x1x1024_S8x1024 = rowM scA (slN (t.val + 1)) ⟨16, Nat.le_of_ble_eq_true rfl⟩ :=
  congrArg (fun M : Memref sig .tc .vmem S1x8x1x1024 .f32 => M.squeeze S8x1024 squeezes_S1x8x1x1024_S8x1024) (Memref.slice_unit_congr _ (coff_FA16 t h2) _ _ (fun _ => rfl) (fun _ => rfl))
theorem coff_FB16 : ∀ t : Fin grid0.N, k0_cond2 (grid0.coords t) = 1#1 → k0_off279 (grid0.coords t) = ![(slN (t.val + 1)).val, 0, 16, 0] := by decide +kernel
@[sl_canon] theorem canon_FB16 (t : Fin grid0.N) (h2 : k0_cond2 (grid0.coords t) = 1#1) :
    (scB.slice (Rect.unit (s := S2x8x64x1024) (k0_off279 (grid0.coords t)) S1x8x1x1024.size (k0_off279_inb (grid0.coords t) h2)) (fun _ => rfl)).squeeze S8x1024 squeezes_S1x8x1x1024_S8x1024 = rowM scB (slN (t.val + 1)) ⟨16, Nat.le_of_ble_eq_true rfl⟩ :=
  congrArg (fun M : Memref sig .tc .vmem S1x8x1x1024 .f32 => M.squeeze S8x1024 squeezes_S1x8x1x1024_S8x1024) (Memref.slice_unit_congr _ (coff_FB16 t h2) _ _ (fun _ => rfl) (fun _ => rfl))
@[sl_canon] theorem canon_Fsem_semsA278 (t : Fin grid0.N) (h2 : k0_cond2 (grid0.coords t) = 1#1) :
    (cc0_scratch2.slice (Rect.unit (s := S2) (k0_off278 (grid0.coords t)) S1.size (k0_off278_inb (grid0.coords t) h2))).squeeze S_ squeezes_S1_S_ = semsA (slN (t.val + 1)) :=
  congrArg (fun A : DmaSems sig S1 => A.squeeze S_ squeezes_S1_S_) (SemArray.slice_unit_congr _ (coff_Fsem278 t h2) _ _)
theorem coff_Fsem283 : ∀ t : Fin grid0.N, k0_cond2 (grid0.coords t) = 1#1 → k0_off283 (grid0.coords t) = ![(slN (t.val + 1)).val] := by decide +kernel
@[sl_canon] theorem canon_Fsem_semsB283 (t : Fin grid0.N) (h2 : k0_cond2 (grid0.coords t) = 1#1) :
    (cc0_scratch3.slice (Rect.unit (s := S2) (k0_off283 (grid0.coords t)) S1.size (k0_off283_inb (grid0.coords t) h2))).squeeze S_ squeezes_S1_S_ = semsB (slN (t.val + 1)) :=
  congrArg (fun A : DmaSems sig S1 => A.squeeze S_ squeezes_S1_S_) (SemArray.slice_unit_congr _ (coff_Fsem283 t h2) _ _)
theorem coff_FA17 : ∀ t : Fin grid0.N, k0_cond2 (grid0.coords t) = 1#1 → k0_off281 (grid0.coords t) = ![(slN (t.val + 1)).val, 0, 17, 0] := by decide +kernel
@[sl_canon] theorem canon_FA17 (t : Fin grid0.N) (h2 : k0_cond2 (grid0.coords t) = 1#1) :
    (scA.slice (Rect.unit (s := S2x8x64x1024) (k0_off281 (grid0.coords t)) S1x8x1x1024.size (k0_off281_inb (grid0.coords t) h2)) (fun _ => rfl)).squeeze S8x1024 squeezes_S1x8x1x1024_S8x1024 = rowM scA (slN (t.val + 1)) ⟨17, Nat.le_of_ble_eq_true rfl⟩ :=
  congrArg (fun M : Memref sig .tc .vmem S1x8x1x1024 .f32 => M.squeeze S8x1024 squeezes_S1x8x1x1024_S8x1024) (Memref.slice_unit_congr _ (coff_FA17 t h2) _ _ (fun _ => rfl) (fun _ => rfl))
theorem coff_FB17 : ∀ t : Fin grid0.N, k0_cond2 (grid0.coords t) = 1#1 → k0_off284 (grid0.coords t) = ![(slN (t.val + 1)).val, 0, 17, 0] := by decide +kernel
@[sl_canon] theorem canon_FB17 (t : Fin grid0.N) (h2 : k0_cond2 (grid0.coords t) = 1#1) :
    (scB.slice (Rect.unit (s := S2x8x64x1024) (k0_off284 (grid0.coords t)) S1x8x1x1024.size (k0_off284_inb (grid0.coords t) h2)) (fun _ => rfl)).squeeze S8x1024 squeezes_S1x8x1x1024_S8x1024 = rowM scB (slN (t.val + 1)) ⟨17, Nat.le_of_ble_eq_true rfl⟩ :=
  congrArg (fun M : Memref sig .tc .vmem S1x8x1x1024 .f32 => M.squeeze S8x1024 squeezes_S1x8x1x1024_S8x1024) (Memref.slice_unit_congr _ (coff_FB17 t h2) _ _ (fun _ => rfl) (fun _ => rfl))
@[sl_canon] theorem canon_Fsem_semsA283 (t : Fin grid0.N) (h2 : k0_cond2 (grid0.coords t) = 1#1) :
    (cc0_scratch2.slice (Rect.unit (s := S2) (k0_off283 (grid0.coords t)) S1.size (k0_off283_inb (grid0.coords t) h2))).squeeze S_ squeezes_S1_S_ = semsA (slN (t.val + 1)) :=
  congrArg (fun A : DmaSems sig S1 => A.squeeze S_ squeezes_S1_S_) (SemArray.slice_unit_congr _ (coff_Fsem283 t h2) _ _)
theorem coff_Fsem288 : ∀ t : Fin grid0.N, k0_cond2 (grid0.coords t) = 1#1 → k0_off288 (grid0.coords t) = ![(slN (t.val + 1)).val] := by decide +kernel
@[sl_canon] theorem canon_Fsem_semsB288 (t : Fin grid0.N) (h2 : k0_cond2 (grid0.coords t) = 1#1) :
    (cc0_scratch3.slice (Rect.unit (s := S2) (k0_off288 (grid0.coords t)) S1.size (k0_off288_inb (grid0.coords t) h2))).squeeze S_ squeezes_S1_S_ = semsB (slN (t.val + 1)) :=
  congrArg (fun A : DmaSems sig S1 => A.squeeze S_ squeezes_S1_S_) (SemArray.slice_unit_congr _ (coff_Fsem288 t h2) _ _)
theorem coff_FA18 : ∀ t : Fin grid0.N, k0_cond2 (grid0.coords t) = 1#1 → k0_off286 (grid0.coords t) = ![(slN (t.val + 1)).val, 0, 18, 0] := by decide +kernel
@[sl_canon] theorem canon_FA18 (t : Fin grid0.N) (h2 : k0_cond2 (grid0.coords t) = 1#1) :
    (scA.slice (Rect.unit (s := S2x8x64x1024) (k0_off286 (grid0.coords t)) S1x8x1x1024.size (k0_off286_inb (grid0.coords t) h2)) (fun _ => rfl)).squeeze S8x1024 squeezes_S1x8x1x1024_S8x1024 = rowM scA (slN (t.val + 1)) ⟨18, Nat.le_of_ble_eq_true rfl⟩ :=
  congrArg (fun M : Memref sig .tc .vmem S1x8x1x1024 .f32 => M.squeeze S8x1024 squeezes_S1x8x1x1024_S8x1024) (Memref.slice_unit_congr _ (coff_FA18 t h2) _ _ (fun _ => rfl) (fun _ => rfl))
theorem coff_FB18 : ∀ t : Fin grid0.N, k0_cond2 (grid0.coords t) = 1#1 → k0_off289 (grid0.coords t) = ![(slN (t.val + 1)).val, 0, 18, 0] := by decide +kernel
@[sl_canon] theorem canon_FB18 (t : Fin grid0.N) (h2 : k0_cond2 (grid0.coords t) = 1#1) :
    (scB.slice (Rect.unit (s := S2x8x64x1024) (k0_off289 (grid0.coords t)) S1x8x1x1024.size (k0_off289_inb (grid0.coords t) h2)) (fun _ => rfl)).squeeze S8x1024 squeezes_S1x8x1x1024_S8x1024 = rowM scB (slN (t.val + 1)) ⟨18, Nat.le_of_ble_eq_true rfl⟩ :=
  congrArg (fun M : Memref sig .tc .vmem S1x8x1x1024 .f32 => M.squeeze S8x1024 squeezes_S1x8x1x1024_S8x1024) (Memref.slice_unit_congr _ (coff_FB18 t h2) _ _ (fun _ => rfl) (fun _ => rfl))
@[sl_canon] theorem canon_Fsem_semsA288 (t : Fin grid0.N) (h2 : k0_cond2 (grid0.coords t) = 1#1) :
    (cc0_scratch2.slice (Rect.unit (s := S2) (k0_off288 (grid0.coords t)) S1.size (k0_off288_inb (grid0.coords t) h2))).squeeze S_ squeezes_S1_S_ = semsA (slN (t.val + 1)) :=
  congrArg (fun A : DmaSems sig S1 => A.squeeze S_ squeezes_S1_S_) (SemArray.slice_unit_congr _ (coff_Fsem288 t h2) _ _)
theorem coff_Fsem293 : ∀ t : Fin grid0.N, k0_cond2 (grid0.coords t) = 1#1 → k0_off293 (grid0.coords t) = ![(slN (t.val + 1)).val] := by decide +kernel
@[sl_canon] theorem canon_Fsem_semsB293 (t : Fin grid0.N) (h2 : k0_cond2 (grid0.coords t) = 1#1) :
    (cc0_scratch3.slice (Rect.unit (s := S2) (k0_off293 (grid0.coords t)) S1.size (k0_off293_inb (grid0.coords t) h2))).squeeze S_ squeezes_S1_S_ = semsB (slN (t.val + 1)) :=
  congrArg (fun A : DmaSems sig S1 => A.squeeze S_ squeezes_S1_S_) (SemArray.slice_unit_congr _ (coff_Fsem293 t h2) _ _)
theorem coff_FA19 : ∀ t : Fin grid0.N, k0_cond2 (grid0.coords t) = 1#1 → k0_off291 (grid0.coords t) = ![(slN (t.val + 1)).val, 0, 19, 0] := by decide +kernel
@[sl_canon] theorem canon_FA19 (t : Fin grid0.N) (h2 : k0_cond2 (grid0.coords t) = 1#1) :
    (scA.slice (Rect.unit (s := S2x8x64x1024) (k0_off291 (grid0.coords t)) S1x8x1x1024.size (k0_off291_inb (grid0.coords t) h2)) (fun _ => rfl)).squeeze S8x1024 squeezes_S1x8x1x1024_S8x1024 = rowM scA (slN (t.val + 1)) ⟨19, Nat.le_of_ble_eq_true rfl⟩ :=
  congrArg (fun M : Memref sig .tc .vmem S1x8x1x1024 .f32 => M.squeeze S8x1024 squeezes_S1x8x1x1024_S8x1024) (Memref.slice_unit_congr _ (coff_FA19 t h2) _ _ (fun _ => rfl) (fun _ => rfl))
theorem coff_FB19 : ∀ t : Fin grid0.N, k0_cond2 (grid0.coords t) = 1#1 → k0_off294 (grid0.coords t) = ![(slN (t.val + 1)).val, 0, 19, 0] := by decide +kernel
@[sl_canon] theorem canon_FB19 (t : Fin grid0.N) (h2 : k0_cond2 (grid0.coords t) = 1#1) :
    (scB.slice (Rect.unit (s := S2x8x64x1024) (k0_off294 (grid0.coords t)) S1x8x1x1024.size (k0_off294_inb (grid0.coords t) h2)) (fun _ => rfl)).squeeze S8x1024 squeezes_S1x8x1x1024_S8x1024 = rowM scB (slN (t.val + 1)) ⟨19, Nat.le_of_ble_eq_true rfl⟩ :=
  congrArg (fun M : Memref sig .tc .vmem S1x8x1x1024 .f32 => M.squeeze S8x1024 squeezes_S1x8x1x1024_S8x1024) (Memref.slice_unit_congr _ (coff_FB19 t h2) _ _ (fun _ => rfl) (fun _ => rfl))
@[sl_canon] theorem canon_Fsem_semsA293 (t : Fin grid0.N) (h2 : k0_cond2 (grid0.coords t) = 1#1) :
    (cc0_scratch2.slice (Rect.unit (s := S2) (k0_off293 (grid0.coords t)) S1.size (k0_off293_inb (grid0.coords t) h2))).squeeze S_ squeezes_S1_S_ = semsA (slN (t.val + 1)) :=
  congrArg (fun A : DmaSems sig S1 => A.squeeze S_ squeezes_S1_S_) (SemArray.slice_unit_congr _ (coff_Fsem293 t h2) _ _)
theorem coff_Fsem298 : ∀ t : Fin grid0.N, k0_cond2 (grid0.coords t) = 1#1 → k0_off298 (grid0.coords t) = ![(slN (t.val + 1)).val] := by decide +kernel
@[sl_canon] theorem canon_Fsem_semsB298 (t : Fin grid0.N) (h2 : k0_cond2 (grid0.coords t) = 1#1) :
    (cc0_scratch3.slice (Rect.unit (s := S2) (k0_off298 (grid0.coords t)) S1.size (k0_off298_inb (grid0.coords t) h2))).squeeze S_ squeezes_S1_S_ = semsB (slN (t.val + 1)) :=
  congrArg (fun A : DmaSems sig S1 => A.squeeze S_ squeezes_S1_S_) (SemArray.slice_unit_congr _ (coff_Fsem298 t h2) _ _)
theorem coff_FA20 : ∀ t : Fin grid0.N, k0_cond2 (grid0.coords t) = 1#1 → k0_off296 (grid0.coords t) = ![(slN (t.val + 1)).val, 0, 20, 0] := by decide +kernel
@[sl_canon] theorem canon_FA20 (t : Fin grid0.N) (h2 : k0_cond2 (grid0.coords t) = 1#1) :
    (scA.slice (Rect.unit (s := S2x8x64x1024) (k0_off296 (grid0.coords t)) S1x8x1x1024.size (k0_off296_inb (grid0.coords t) h2)) (fun _ => rfl)).squeeze S8x1024 squeezes_S1x8x1x1024_S8x1024 = rowM scA (slN (t.val + 1)) ⟨20, Nat.le_of_ble_eq_true rfl⟩ :=
  congrArg (fun M : Memref sig .tc .vmem S1x8x1x1024 .f32 => M.squeeze S8x1024 squeezes_S1x8x1x1024_S8x1024) (Memref.slice_unit_congr _ (coff_FA20 t h2) _ _ (fun _ => rfl) (fun _ => rfl))
theorem coff_FB20 : ∀ t : Fin grid0.N, k0_cond2 (grid0.coords t) = 1#1 → k0_off299 (grid0.coords t) = ![(slN (t.val + 1)).val, 0, 20, 0] := by decide +kernel
@[sl_canon] theorem canon_FB20 (t : Fin grid0.N) (h2 : k0_cond2 (grid0.coords t) = 1#1) :
    (scB.slice (Rect.unit (s := S2x8x64x1024) (k0_off299 (grid0.coords t)) S1x8x1x1024.size (k0_off299_inb (grid0.coords t) h2)) (fun _ => rfl)).squeeze S8x1024 squeezes_S1x8x1x1024_S8x1024 = rowM scB (slN (t.val + 1)) ⟨20, Nat.le_of_ble_eq_true rfl⟩ :=
  congrArg (fun M : Memref sig .tc .vmem S1x8x1x1024 .f32 => M.squeeze S8x1024 squeezes_S1x8x1x1024_S8x1024) (Memref.slice_unit_congr _ (coff_FB20 t h2) _ _ (fun _ => rfl) (fun _ => rfl))
@[sl_canon] theorem canon_Fsem_semsA298 (t : Fin grid0.N) (h2 : k0_cond2 (grid0.coords t) = 1#1) :
    (cc0_scratch2.slice (Rect.unit (s := S2) (k0_off298 (grid0.coords t)) S1.size (k0_off298_inb (grid0.coords t) h2))).squeeze S_ squeezes_S1_S_ = semsA (slN (t.val + 1)) :=
  congrArg (fun A : DmaSems sig S1 => A.squeeze S_ squeezes_S1_S_) (SemArray.slice_unit_congr _ (coff_Fsem298 t h2) _ _)
theorem coff_Fsem303 : ∀ t : Fin grid0.N, k0_cond2 (grid0.coords t) = 1#1 → k0_off303 (grid0.coords t) = ![(slN (t.val + 1)).val] := by decide +kernel
@[sl_canon] theorem canon_Fsem_semsB303 (t : Fin grid0.N) (h2 : k0_cond2 (grid0.coords t) = 1#1) :
    (cc0_scratch3.slice (Rect.unit (s := S2) (k0_off303 (grid0.coords t)) S1.size (k0_off303_inb (grid0.coords t) h2))).squeeze S_ squeezes_S1_S_ = semsB (slN (t.val + 1)) :=
  congrArg (fun A : DmaSems sig S1 => A.squeeze S_ squeezes_S1_S_) (SemArray.slice_unit_congr _ (coff_Fsem303 t h2) _ _)
theorem coff_FA21 : ∀ t : Fin grid0.N, k0_cond2 (grid0.coords t) = 1#1 → k0_off301 (grid0.coords t) = ![(slN (t.val + 1)).val, 0, 21, 0] := by decide +kernel
@[sl_canon] theorem canon_FA21 (t : Fin grid0.N) (h2 : k0_cond2 (grid0.coords t) = 1#1) :
    (scA.slice (Rect.unit (s := S2x8x64x1024) (k0_off301 (grid0.coords t)) S1x8x1x1024.size (k0_off301_inb (grid0.coords t) h2)) (fun _ => rfl)).squeeze S8x1024 squeezes_S1x8x1x1024_S8x1024 = rowM scA (slN (t.val + 1)) ⟨21, Nat.le_of_ble_eq_true rfl⟩ :=
  congrArg (fun M : Memref sig .tc .vmem S1x8x1x1024 .f32 => M.squeeze S8x1024 squeezes_S1x8x1x1024_S8x1024) (Memref.slice_unit_congr _ (coff_FA21 t h2) _ _ (fun _ => rfl) (fun _ => rfl))
theorem coff_FB21 : ∀ t : Fin grid0.N, k0_cond2 (grid0.coords t) = 1#1 → k0_off304 (grid0.coords t) = ![(slN (t.val + 1)).val, 0, 21, 0] := by decide +kernel
@[sl_canon] theorem canon_FB21 (t : Fin grid0.N) (h2 : k0_cond2 (grid0.coords t) = 1#1) :
    (scB.slice (Rect.unit (s := S2x8x64x1024) (k0_off304 (grid0.coords t)) S1x8x1x1024.size (k0_off304_inb (grid0.coords t) h2)) (fun _ => rfl)).squeeze S8x1024 squeezes_S1x8x1x1024_S8x1024 = rowM scB (slN (t.val + 1)) ⟨21, Nat.le_of_ble_eq_true rfl⟩ :=
  congrArg (fun M : Memref sig .tc .vmem S1x8x1x1024 .f32 => M.squeeze S8x1024 squeezes_S1x8x1x1024_S8x1024) (Memref.slice_unit_congr _ (coff_FB21 t h2) _ _ (fun _ => rfl) (fun _ => rfl))
@[sl_canon] theorem canon_Fsem_semsA303 (t : Fin grid0.N) (h2 : k0_cond2 (grid0.coords t) = 1#1) :
    (cc0_scratch2.slice (Rect.unit (s := S2) (k0_off303 (grid0.coords t)) S1.size (k0_off303_inb (grid0.coords t) h2))).squeeze S_ squeezes_S1_S_ = semsA (slN (t.val + 1)) :=
  congrArg (fun A : DmaSems sig S1 => A.squeeze S_ squeezes_S1_S_) (SemArray.slice_unit_congr _ (coff_Fsem303 t h2) _ _)
theorem coff_Fsem308 : ∀ t : Fin grid0.N, k0_cond2 (grid0.coords t) = 1#1 → k0_off308 (grid0.coords t) = ![(slN (t.val + 1)).val] := by decide +kernel
@[sl_canon] theorem canon_Fsem_semsB308 (t : Fin grid0.N) (h2 : k0_cond2 (grid0.coords t) = 1#1) :
    (cc0_scratch3.slice (Rect.unit (s := S2) (k0_off308 (grid0.coords t)) S1.size (k0_off308_inb (grid0.coords t) h2))).squeeze S_ squeezes_S1_S_ = semsB (slN (t.val + 1)) :=
  congrArg (fun A : DmaSems sig S1 => A.squeeze S_ squeezes_S1_S_) (SemArray.slice_unit_congr _ (coff_Fsem308 t h2) _ _)
theorem coff_FA22 : ∀ t : Fin grid0.N, k0_cond2 (grid0.coords t) = 1#1 → k0_off306 (grid0.coords t) = ![(slN (t.val + 1)).val, 0, 22, 0] := by decide +kernel
@[sl_canon] theorem canon_FA22 (t : Fin grid0.N) (h2 : k0_cond2 (grid0.coords t) = 1#1) :
    (scA.slice (Rect.unit (s := S2x8x64x1024) (k0_off306 (grid0.coords t)) S1x8x1x1024.size (k0_off306_inb (grid0.coords t) h2)) (fun _ => rfl)).squeeze S8x1024 squeezes_S1x8x1x1024_S8x1024 = rowM scA (slN (t.val + 1)) ⟨22, Nat.le_of_ble_eq_true rfl⟩ :=
  congrArg (fun M : Memref sig .tc .vmem S1x8x1x1024 .f32 => M.squeeze S8x1024 squeezes_S1x8x1x1024_S8x1024) (Memref.slice_unit_congr _ (coff_FA22 t h2) _ _ (fun _ => rfl) (fun _ => rfl))
theorem coff_FB22 : ∀ t : Fin grid0.N, k0_cond2 (grid0.coords t) = 1#1 → k0_off309 (grid0.coords t) = ![(slN (t.val + 1)).val, 0, 22, 0] := by decide +kernel
@[sl_canon] theorem canon_FB22 (t : Fin grid0.N) (h2 : k0_cond2 (grid0.coords t) = 1#1) :
    (scB.slice (Rect.unit (s := S2x8x64x1024) (k0_off309 (grid0.coords t)) S1x8x1x1024.size (k0_off309_inb (grid0.coords t) h2)) (fun _ => rfl)).squeeze S8x1024 squeezes_S1x8x1x1024_S8x1024 = rowM scB (slN (t.val + 1)) ⟨22, Nat.le_of_ble_eq_true rfl⟩ :=
  congrArg (fun M : Memref sig .tc .vmem S1x8x1x1024 .f32 => M.squeeze S8x1024 squeezes_S1x8x1x1024_S8x1024) (Memref.slice_unit_congr _ (coff_FB22 t h2) _ _ (fun _ => rfl) (fun _ => rfl))
@[sl_canon] theorem canon_Fsem_semsA308 (t : Fin grid0.N) (h2 : k0_cond2 (grid0.coords t) = 1#1) :
    (cc0_scratch2.slice (Rect.unit (s := S2) (k0_off308 (grid0.coords t)) S1.size (k0_off308_inb (grid0.coords t) h2))).squeeze S_ squeezes_S1_S_ = semsA (slN (t.val + 1)) :=
  congrArg (fun A : DmaSems sig S1 => A.squeeze S_ squeezes_S1_S_) (SemArray.slice_unit_congr _ (coff_Fsem308 t h2) _ _)
theorem coff_Fsem313 : ∀ t : Fin grid0.N, k0_cond2 (grid0.coords t) = 1#1 → k0_off313 (grid0.coords t) = ![(slN (t.val + 1)).val] := by decide +kernel
@[sl_canon] theorem canon_Fsem_semsB313 (t : Fin grid0.N) (h2 : k0_cond2 (grid0.coords t) = 1#1) :
    (cc0_scratch3.slice (Rect.unit (s := S2) (k0_off313 (grid0.coords t)) S1.size (k0_off313_inb (grid0.coords t) h2))).squeeze S_ squeezes_S1_S_ = semsB (slN (t.val + 1)) :=
  congrArg (fun A : DmaSems sig S1 => A.squeeze S_ squeezes_S1_S_) (SemArray.slice_unit_congr _ (coff_Fsem313 t h2) _ _)
theorem coff_FA23 : ∀ t : Fin grid0.N, k0_cond2 (grid0.coords t) = 1#1 → k0_off311 (grid0.coords t) = ![(slN (t.val + 1)).val, 0, 23, 0] := by decide +kernel
@[sl_canon] theorem canon_FA23 (t : Fin grid0.N) (h2 : k0_cond2 (grid0.coords t) = 1#1) :
    (scA.slice (Rect.unit (s := S2x8x64x1024) (k0_off311 (grid0.coords t)) S1x8x1x1024.size (k0_off311_inb (grid0.coords t) h2)) (fun _ => rfl)).squeeze S8x1024 squeezes_S1x8x1x1024_S8x1024 = rowM scA (slN (t.val + 1)) ⟨23, Nat.le_of_ble_eq_true rfl⟩ :=
  congrArg (fun M : Memref sig .tc .vmem S1x8x1x1024 .f32 => M.squeeze S8x1024 squeezes_S1x8x1x1024_S8x1024) (Memref.slice_unit_congr _ (coff_FA23 t h2) _ _ (fun _ => rfl) (fun _ => rfl))
theorem coff_FB23 : ∀ t : Fin grid0.N, k0_cond2 (grid0.coords t) = 1#1 → k0_off314 (grid0.coords t) = ![(slN (t.val + 1)).val, 0, 23, 0] := by decide +kernel
@[sl_canon] theorem canon_FB23 (t : Fin grid0.N) (h2 : k0_cond2 (grid0.coords t) = 1#1) :
    (scB.slice (Rect.unit (s := S2x8x64x1024) (k0_off314 (grid0.coords t)) S1x8x1x1024.size (k0_off314_inb (grid0.coords t) h2)) (fun _ => rfl)).squeeze S8x1024 squeezes_S1x8x1x1024_S8x1024 = rowM scB (slN (t.val + 1)) ⟨23, Nat.le_of_ble_eq_true rfl⟩ :=
  congrArg (fun M : Memref sig .tc .vmem S1x8x1x1024 .f32 => M.squeeze S8x1024 squeezes_S1x8x1x1024_S8x1024) (Memref.slice_unit_congr _ (coff_FB23 t h2) _ _ (fun _ => rfl) (fun _ => rfl))
@[sl_canon] theorem canon_Fsem_semsA313 (t : Fin grid0.N) (h2 : k0_cond2 (grid0.coords t) = 1#1) :
    (cc0_scratch2.slice (Rect.unit (s := S2) (k0_off313 (grid0.coords t)) S1.size (k0_off313_inb (grid0.coords t) h2))).squeeze S_ squeezes_S1_S_ = semsA (slN (t.val + 1)) :=
  congrArg (fun A : DmaSems sig S1 => A.squeeze S_ squeezes_S1_S_) (SemArray.slice_unit_congr _ (coff_Fsem313 t h2) _ _)
theorem coff_Fsem318 : ∀ t : Fin grid0.N, k0_cond2 (grid0.coords t) = 1#1 → k0_off318 (grid0.coords t) = ![(slN (t.val + 1)).val] := by decide +kernel
@[sl_canon] theorem canon_Fsem_semsB318 (t : Fin grid0.N) (h2 : k0_cond2 (grid0.coords t) = 1#1) :
    (cc0_scratch3.slice (Rect.unit (s := S2) (k0_off318 (grid0.coords t)) S1.size (k0_off318_inb (grid0.coords t) h2))).squeeze S_ squeezes_S1_S_ = semsB (slN (t.val + 1)) :=
  congrArg (fun A : DmaSems sig S1 => A.squeeze S_ squeezes_S1_S_) (SemArray.slice_unit_congr _ (coff_Fsem318 t h2) _ _)
theorem coff_FA24 : ∀ t : Fin grid0.N, k0_cond2 (grid0.coords t) = 1#1 → k0_off316 (grid0.coords t) = ![(slN (t.val + 1)).val, 0, 24, 0] := by decide +kernel
@[sl_canon] theorem canon_FA24 (t : Fin grid0.N) (h2 : k0_cond2 (grid0.coords t) = 1#1) :
    (scA.slice (Rect.unit (s := S2x8x64x1024) (k0_off316 (grid0.coords t)) S1x8x1x1024.size (k0_off316_inb (grid0.coords t) h2)) (fun _ => rfl)).squeeze S8x1024 squeezes_S1x8x1x1024_S8x1024 = rowM scA (slN (t.val + 1)) ⟨24, Nat.le_of_ble_eq_true rfl⟩ :=
  congrArg (fun M : Memref sig .tc .vmem S1x8x1x1024 .f32 => M.squeeze S8x1024 squeezes_S1x8x1x1024_S8x1024) (Memref.slice_unit_congr _ (coff_FA24 t h2) _ _ (fun _ => rfl) (fun _ => rfl))
theorem coff_FB24 : ∀ t : Fin grid0.N, k0_cond2 (grid0.coords t) = 1#1 → k0_off319 (grid0.coords t) = ![(slN (t.val + 1)).val, 0, 24, 0] := by decide +kernel
@[sl_canon] theorem canon_FB24 (t : Fin grid0.N) (h2 : k0_cond2 (grid0.coords t) = 1#1) :
    (scB.slice (Rect.unit (s := S2x8x64x1024) (k0_off319 (grid0.coords t)) S1x8x1x1024.size (k0_off319_inb (grid0.coords t) h2)) (fun _ => rfl)).squeeze S8x1024 squeezes_S1x8x1x1024_S8x1024 = rowM scB (slN (t.val + 1)) ⟨24, Nat.le_of_ble_eq_true rfl⟩ :=
  congrArg (fun M : Memref sig .tc .vmem S1x8x1x1024 .f32 => M.squeeze S8x1024 squeezes_S1x8x1x1024_S8x1024) (Memref.slice_unit_congr _ (coff_FB24 t h2) _ _ (fun _ => rfl) (fun _ => rfl))
@[sl_canon] theorem canon_Fsem_semsA318 (t : Fin grid0.N) (h2 : k0_cond2 (grid0.coords t) = 1#1) :
    (cc0_scratch2.slice (Rect.unit (s := S2) (k0_off318 (grid0.coords t)) S1.size (k0_off318_inb (grid0.coords t) h2))).squeeze S_ squeezes_S1_S_ = semsA (slN (t.val + 1)) :=
  congrArg (fun A : DmaSems sig S1 => A.squeeze S_ squeezes_S1_S_) (SemArray.slice_unit_congr _ (coff_Fsem318 t h2) _ _)
theorem coff_Fsem323 : ∀ t : Fin grid0.N, k0_cond2 (grid0.coords t) = 1#1 → k0_off323 (grid0.coords t) = ![(slN (t.val + 1)).val] := by decide +kernel
@[sl_canon] theorem canon_Fsem_semsB323 (t : Fin grid0.N) (h2 : k0_cond2 (grid0.coords t) = 1#1) :
    (cc0_scratch3.slice (Rect.unit (s := S2) (k0_off323 (grid0.coords t)) S1.size (k0_off323_inb (grid0.coords t) h2))).squeeze S_ squeezes_S1_S_ = semsB (slN (t.val + 1)) :=
  congrArg (fun A : DmaSems sig S1 => A.squeeze S_ squeezes_S1_S_) (SemArray.slice_unit_congr _ (coff_Fsem323 t h2) _ _)
theorem coff_FA25 : ∀ t : Fin grid0.N, k0_cond2 (grid0.coords t) = 1#1 → k0_off321 (grid0.coords t) = ![(slN (t.val + 1)).val, 0, 25, 0] := by decide +kernel
@[sl_canon] theorem canon_FA25 (t : Fin grid0.N) (h2 : k0_cond2 (grid0.coords t) = 1#1) :
    (scA.slice (Rect.unit (s := S2x8x64x1024) (k0_off321 (grid0.coords t)) S1x8x1x1024.size (k0_off321_inb (grid0.coords t) h2)) (fun _ => rfl)).squeeze S8x1024 squeezes_S1x8x1x1024_S8x1024 = rowM scA (slN (t.val + 1)) ⟨25, Nat.le_of_ble_eq_true rfl⟩ :=
  congrArg (fun M : Memref sig .tc .vmem S1x8x1x1024 .f32 => M.squeeze S8x1024 squeezes_S1x8x1x1024_S8x1024) (Memref.slice_unit_congr _ (coff_FA25 t h2) _ _ (fun _ => rfl) (fun _ => rfl))
theorem coff_FB25 : ∀ t : Fin grid0.N, k0_cond2 (grid0.coords t) = 1#1 → k0_off324 (grid0.coords t) = ![(slN (t.val + 1)).val, 0, 25, 0] := by decide +kernel
@[sl_canon] theorem canon_FB25 (t : Fin grid0.N) (h2 : k0_cond2 (grid0.coords t) = 1#1) :
    (scB.slice (Rect.unit (s := S2x8x64x1024) (k0_off324 (grid0.coords t)) S1x8x1x1024.size (k0_off324_inb (grid0.coords t) h2)) (fun _ => rfl)).squeeze S8x1024 squeezes_S1x8x1x1024_S8x1024 = rowM scB (slN (t.val + 1)) ⟨25, Nat.le_of_ble_eq_true rfl⟩ :=
  congrArg (fun M : Memref sig .tc .vmem S1x8x1x1024 .f32 => M.squeeze S8x1024 squeezes_S1x8x1x1024_S8x1024) (Memref.slice_unit_congr _ (coff_FB25 t h2) _ _ (fun _ => rfl) (fun _ => rfl))
@[sl_canon] theorem canon_Fsem_semsA323 (t : Fin grid0.N) (h2 : k0_cond2 (grid0.coords t) = 1#1) :
    (cc0_scratch2.slice (Rect.unit (s := S2) (k0_off323 (grid0.coords t)) S1.size (k0_off323_inb (grid0.coords t) h2))).squeeze S_ squeezes_S1_S_ = semsA (slN (t.val + 1)) :=
  congrArg (fun A : DmaSems sig S1 => A.squeeze S_ squeezes_S1_S_) (SemArray.slice_unit_congr _ (coff_Fsem323 t h2) _ _)
theorem coff_Fsem328 : ∀ t : Fin grid0.N, k0_cond2 (grid0.coords t) = 1#1 → k0_off328 (grid0.coords t) = ![(slN (t.val + 1)).val] := by decide +kernel
@[sl_canon] theorem canon_Fsem_semsB328 (t : Fin grid0.N) (h2 : k0_cond2 (grid0.coords t) = 1#1) :
    (cc0_scratch3.slice (Rect.unit (s := S2) (k0_off328 (grid0.coords t)) S1.size (k0_off328_inb (grid0.coords t) h2))).squeeze S_ squeezes_S1_S_ = semsB (slN (t.val + 1)) :=
  congrArg (fun A : DmaSems sig S1 => A.squeeze S_ squeezes_S1_S_) (SemArray.slice_unit_congr _ (coff_Fsem328 t h2) _ _)
theorem coff_FA26 : ∀ t : Fin grid0.N, k0_cond2 (grid0.coords t) = 1#1 → k0_off326 (grid0.coords t) = ![(slN (t.val + 1)).val, 0, 26, 0] := by decide +kernel
@[sl_canon] theorem canon_FA26 (t : Fin grid0.N) (h2 : k0_cond2 (grid0.coords t) = 1#1) :
    (scA.slice (Rect.unit (s := S2x8x64x1024) (k0_off326 (grid0.coords t)) S1x8x1x1024.size (k0_off326_inb (grid0.coords t) h2)) (fun _ => rfl)).squeeze S8x1024 squeezes_S1x8x1x1024_S8x1024 = rowM scA (slN (t.val + 1)) ⟨26, Nat.le_of_ble_eq_true rfl⟩ :=
  congrArg (fun M : Memref sig .tc .vmem S1x8x1x1024 .f32 => M.squeeze S8x1024 squeezes_S1x8x1x1024_S8x1024) (Memref.slice_unit_congr _ (coff_FA26 t h2) _ _ (fun _ => rfl) (fun _ => rfl))
theorem coff_FB26 : ∀ t : Fin grid0.N, k0_cond2 (grid0.coords t) = 1#1 → k0_off329 (grid0.coords t) = ![(slN (t.val + 1)).val, 0, 26, 0] := by decide +kernel
@[sl_canon] theorem canon_FB26 (t : Fin grid0.N) (h2 : k0_cond2 (grid0.coords t) = 1#1) :
    (scB.slice (Rect.unit (s := S2x8x64x1024) (k0_off329 (grid0.coords t)) S1x8x1x1024.size (k0_off329_inb (grid0.coords t) h2)) (fun _ => rfl)).squeeze S8x1024 squeezes_S1x8x1x1024_S8x1024 = rowM scB (slN (t.val + 1)) ⟨26, Nat.le_of_ble_eq_true rfl⟩ :=
  congrArg (fun M : Memref sig .tc .vmem S1x8x1x1024 .f32 => M.squeeze S8x1024 squeezes_S1x8x1x1024_S8x1024) (Memref.slice_unit_congr _ (coff_FB26 t h2) _ _ (fun _ => rfl) (fun _ => rfl))
@[sl_canon] theorem canon_Fsem_semsA328 (t : Fin grid0.N) (h2 : k0_cond2 (grid0.coords t) = 1#1) :
    (cc0_scratch2.slice (Rect.unit (s := S2) (k0_off328 (grid0.coords t)) S1.size (k0_off328_inb (grid0.coords t) h2))).squeeze S_ squeezes_S1_S_ = semsA (slN (t.val + 1)) :=
  congrArg (fun A : DmaSems sig S1 => A.squeeze S_ squeezes_S1_S_) (SemArray.slice_unit_congr _ (coff_Fsem328 t h2) _ _)
theorem coff_Fsem333 : ∀ t : Fin grid0.N, k0_cond2 (grid0.coords t) = 1#1 → k0_off333 (grid0.coords t) = ![(slN (t.val + 1)).val] := by decide +kernel
@[sl_canon] theorem canon_Fsem_semsB333 (t : Fin grid0.N) (h2 : k0_cond2 (grid0.coords t) = 1#1) :
    (cc0_scratch3.slice (Rect.unit (s := S2) (k0_off333 (grid0.coords t)) S1.size (k0_off333_inb (grid0.coords t) h2))).squeeze S_ squeezes_S1_S_ = semsB (slN (t.val + 1)) :=
  congrArg (fun A : DmaSems sig S1 => A.squeeze S_ squeezes_S1_S_) (SemArray.slice_unit_congr _ (coff_Fsem333 t h2) _ _)
theorem coff_FA27 : ∀ t : Fin grid0.N, k0_cond2 (grid0.coords t) = 1#1 → k0_off331 (grid0.coords t) = ![(slN (t.val + 1)).val, 0, 27, 0] := by decide +kernel
@[sl_canon] theorem canon_FA27 (t : Fin grid0.N) (h2 : k0_cond2 (grid0.coords t) = 1#1) :
    (scA.slice (Rect.unit (s := S2x8x64x1024) (k0_off331 (grid0.coords t)) S1x8x1x1024.size (k0_off331_inb (grid0.coords t) h2)) (fun _ => rfl)).squeeze S8x1024 squeezes_S1x8x1x1024_S8x1024 = rowM scA (slN (t.val + 1)) ⟨27, Nat.le_of_ble_eq_true rfl⟩ :=
  congrArg (fun M : Memref sig .tc .vmem S1x8x1x1024 .f32 => M.squeeze S8x1024 squeezes_S1x8x1x1024_S8x1024) (Memref.slice_unit_congr _ (coff_FA27 t h2) _ _ (fun _ => rfl) (fun _ => rfl))
theorem coff_FB27 : ∀ t : Fin grid0.N, k0_cond2 (grid0.coords t) = 1#1 → k0_off334 (grid0.coords t) = ![(slN (t.val + 1)).val, 0, 27, 0] := by decide +kernel
@[sl_canon] theorem canon_FB27 (t : Fin grid0.N) (h2 : k0_cond2 (grid0.coords t) = 1#1) :
    (scB.slice (Rect.unit (s := S2x8x64x1024) (k0_off334 (grid0.coords t)) S1x8x1x1024.size (k0_off334_inb (grid0.coords t) h2)) (fun _ => rfl)).squeeze S8x1024 squeezes_S1x8x1x1024_S8x1024 = rowM scB (slN (t.val + 1)) ⟨27, Nat.le_of_ble_eq_true rfl⟩ :=
  congrArg (fun M : Memref sig .tc .vmem S1x8x1x1024 .f32 => M.squeeze S8x1024 squeezes_S1x8x1x1024_S8x1024) (Memref.slice_unit_congr _ (coff_FB27 t h2) _ _ (fun _ => rfl) (fun _ => rfl))
@[sl_canon] theorem canon_Fsem_semsA333 (t : Fin grid0.N) (h2 : k0_cond2 (grid0.coords t) = 1#1) :
    (cc0_scratch2.slice (Rect.unit (s := S2) (k0_off333 (grid0.coords t)) S1.size (k0_off333_inb (grid0.coords t) h2))).squeeze S_ squeezes_S1_S_ = semsA (slN (t.val + 1)) :=
  congrArg (fun A : DmaSems sig S1 => A.squeeze S_ squeezes_S1_S_) (SemArray.slice_unit_congr _ (coff_Fsem333 t h2) _ _)
theorem coff_Fsem338 : ∀ t : Fin grid0.N, k0_cond2 (grid0.coords t) = 1#1 → k0_off338 (grid0.coords t) = ![(slN (t.val + 1)).val] := by decide +kernel
@[sl_canon] theorem canon_Fsem_semsB338 (t : Fin grid0.N) (h2 : k0_cond2 (grid0.coords t) = 1#1) :
    (cc0_scratch3.slice (Rect.unit (s := S2) (k0_off338 (grid0.coords t)) S1.size (k0_off338_inb (grid0.coords t) h2))).squeeze S_ squeezes_S1_S_ = semsB (slN (t.val + 1)) :=
  congrArg (fun A : DmaSems sig S1 => A.squeeze S_ squeezes_S1_S_) (SemArray.slice_unit_congr _ (coff_Fsem338 t h2) _ _)
theorem coff_FA28 : ∀ t : Fin grid0.N, k0_cond2 (grid0.coords t) = 1#1 → k0_off336 (grid0.coords t) = ![(slN (t.val + 1)).val, 0, 28, 0] := by decide +kernel
@[sl_canon] theorem canon_FA28 (t : Fin grid0.N) (h2 : k0_cond2 (grid0.coords t) = 1#1) :
    (scA.slice (Rect.unit (s := S2x8x64x1024) (k0_off336 (grid0.coords t)) S1x8x1x1024.size (k0_off336_inb (grid0.coords t) h2)) (fun _ => rfl)).squeeze S8x1024 squeezes_S1x8x1x1024_S8x1024 = rowM scA (slN (t.val + 1)) ⟨28, Nat.le_of_ble_eq_true rfl⟩ :=
  congrArg (fun M : Memref sig .tc .vmem S1x8x1x1024 .f32 => M.squeeze S8x1024 squeezes_S1x8x1x1024_S8x1024) (Memref.slice_unit_congr _ (coff_FA28 t h2) _ _ (fun _ => rfl) (fun _ => rfl))
theorem coff_FB28 : ∀ t : Fin grid0.N, k0_cond2 (grid0.coords t) = 1#1 → k0_off339 (grid0.coords t) = ![(slN (t.val + 1)).val, 0, 28, 0] := by decide +kernel
@[sl_canon] theorem canon_FB28 (t : Fin grid0.N) (h2 : k0_cond2 (grid0.coords t) = 1#1) :
    (scB.slice (Rect.unit (s := S2x8x64x1024) (k0_off339 (grid0.coords t)) S1x8x1x1024.size (k0_off339_inb (grid0.coords t) h2)) (fun _ => rfl)).squeeze S8x1024 squeezes_S1x8x1x1024_S8x1024 = rowM scB (slN (t.val + 1)) ⟨28, Nat.le_of_ble_eq_true rfl⟩ :=
  congrArg (fun M : Memref sig .tc .vmem S1x8x1x1024 .f32 => M.squeeze S8x1024 squeezes_S1x8x1x1024_S8x1024) (Memref.slice_unit_congr _ (coff_FB28 t h2) _ _ (fun _ => rfl) (fun _ => rfl))
@[sl_canon] theorem canon_Fsem_semsA338 (t : Fin grid0.N) (h2 : k0_cond2 (grid0.coords t) = 1#1) :
    (cc0_scratch2.slice (Rect.unit (s := S2) (k0_off338 (grid0.coords t)) S1.size (k0_off338_inb (grid0.coords t) h2))).squeeze S_ squeezes_S1_S_ = semsA (slN (t.val + 1)) :=
  congrArg (fun A : DmaSems sig S1 => A.squeeze S_ squeezes_S1_S_) (SemArray.slice_unit_congr _ (coff_Fsem338 t h2) _ _)
theorem coff_Fsem343 : ∀ t : Fin grid0.N, k0_cond2 (grid0.coords t) = 1#1 → k0_off343 (grid0.coords t) = ![(slN (t.val + 1)).val] := by decide +kernel
@[sl_canon] theorem canon_Fsem_semsB343 (t : Fin grid0.N) (h2 : k0_cond2 (grid0.coords t) = 1#1) :
    (cc0_scratch3.slice (Rect.unit (s := S2) (k0_off343 (grid0.coords t)) S1.size (k0_off343_inb (grid0.coords t) h2))).squeeze S_ squeezes_S1_S_ = semsB (slN (t.val + 1)) :=
  congrArg (fun A : DmaSems sig S1 => A.squeeze S_ squeezes_S1_S_) (SemArray.slice_unit_congr _ (coff_Fsem343 t h2) _ _)
theorem coff_FA29 : ∀ t : Fin grid0.N, k0_cond2 (grid0.coords t) = 1#1 → k0_off341 (grid0.coords t) = ![(slN (t.val + 1)).val, 0, 29, 0] := by decide +kernel
@[sl_canon] theorem canon_FA29 (t : Fin grid0.N) (h2 : k0_cond2 (grid0.coords t) = 1#1) :
    (scA.slice (Rect.unit (s := S2x8x64x1024) (k0_off341 (grid0.coords t)) S1x8x1x1024.size (k0_off341_inb (grid0.coords t) h2)) (fun _ => rfl)).squeeze S8x1024 squeezes_S1x8x1x1024_S8x1024 = rowM scA (slN (t.val + 1)) ⟨29, Nat.le_of_ble_eq_true rfl⟩ :=
  congrArg (fun M : Memref sig .tc .vmem S1x8x1x1024 .f32 => M.squeeze S8x1024 squeezes_S1x8x1x1024_S8x1024) (Memref.slice_unit_congr _ (coff_FA29 t h2) _ _ (fun _ => rfl) (fun _ => rfl))
theorem coff_FB29 : ∀ t : Fin grid0.N, k0_cond2 (grid0.coords t) = 1#1 → k0_off344 (grid0.coords t) = ![(slN (t.val + 1)).val, 0, 29, 0] := by decide +kernel
@[sl_canon] theorem canon_FB29 (t : Fin grid0.N) (h2 : k0_cond2 (grid0.coords t) = 1#1) :
    (scB.slice (Rect.unit (s := S2x8x64x1024) (k0_off344 (grid0.coords t)) S1x8x1x1024.size (k0_off344_inb (grid0.coords t) h2)) (fun _ => rfl)).squeeze S8x1024 squeezes_S1x8x1x1024_S8x1024 = rowM scB (slN (t.val + 1)) ⟨29, Nat.le_of_ble_eq_true rfl⟩ :=
  congrArg (fun M : Memref sig .tc .vmem S1x8x1x1024 .f32 => M.squeeze S8x1024 squeezes_S1x8x1x1024_S8x1024) (Memref.slice_unit_congr _ (coff_FB29 t h2) _ _ (fun _ => rfl) (fun _ => rfl))
@[sl_canon] theorem canon_Fsem_semsA343 (t : Fin grid0.N) (h2 : k0_cond2 (grid0.coords t) = 1#1) :
    (cc0_scratch2.slice (Rect.unit (s := S2) (k0_off343 (grid0.coords t)) S1.size (k0_off343_inb (grid0.coords t) h2))).squeeze S_ squeezes_S1_S_ = semsA (slN (t.val + 1)) :=
  congrArg (fun A : DmaSems sig S1 => A.squeeze S_ squeezes_S1_S_) (SemArray.slice_unit_congr _ (coff_Fsem343 t h2) _ _)
theorem coff_Fsem348 : ∀ t : Fin grid0.N, k0_cond2 (grid0.coords t) = 1#1 → k0_off348 (grid0.coords t) = ![(slN (t.val + 1)).val] := by decide +kernel
@[sl_canon] theorem canon_Fsem_semsB348 (t : Fin grid0.N) (h2 : k0_cond2 (grid0.coords t) = 1#1) :
    (cc0_scratch3.slice (Rect.unit (s := S2) (k0_off348 (grid0.coords t)) S1.size (k0_off348_inb (grid0.coords t) h2))).squeeze S_ squeezes_S1_S_ = semsB (slN (t.val + 1)) :=
  congrArg (fun A : DmaSems sig S1 => A.squeeze S_ squeezes_S1_S_) (SemArray.slice_unit_congr _ (coff_Fsem348 t h2) _ _)
theorem coff_FA30 : ∀ t : Fin grid0.N, k0_cond2 (grid0.coords t) = 1#1 → k0_off346 (grid0.coords t) = ![(slN (t.val + 1)).val, 0, 30, 0] := by decide +kernel
@[sl_canon] theorem canon_FA30 (t : Fin grid0.N) (h2 : k0_cond2 (grid0.coords t) = 1#1) :
    (scA.slice (Rect.unit (s := S2x8x64x1024) (k0_off346 (grid0.coords t)) S1x8x1x1024.size (k0_off346_inb (grid0.coords t) h2)) (fun _ => rfl)).squeeze S8x1024 squeezes_S1x8x1x1024_S8x1024 = rowM scA (slN (t.val + 1)) ⟨30, Nat.le_of_ble_eq_true rfl⟩ :=
  congrArg (fun M : Memref sig .tc .vmem S1x8x1x1024 .f32 => M.squeeze S8x1024 squeezes_S1x8x1x1024_S8x1024) (Memref.slice_unit_congr _ (coff_FA30 t h2) _ _ (fun _ => rfl) (fun _ => rfl))
theorem coff_FB30 : ∀ t : Fin grid0.N, k0_cond2 (grid0.coords t) = 1#1 → k0_off349 (grid0.coords t) = ![(slN (t.val + 1)).val, 0, 30, 0] := by decide +kernel
@[sl_canon] theorem canon_FB30 (t : Fin grid0.N) (h2 : k0_cond2 (grid0.coords t) = 1#1) :
    (scB.slice (Rect.unit (s := S2x8x64x1024) (k0_off349 (grid0.coords t)) S1x8x1x1024.size (k0_off349_inb (grid0.coords t) h2)) (fun _ => rfl)).squeeze S8x1024 squeezes_S1x8x1x1024_S8x1024 = rowM scB (slN (t.val + 1)) ⟨30, Nat.le_of_ble_eq_true rfl⟩ :=
  congrArg (fun M : Memref sig .tc .vmem S1x8x1x1024 .f32 => M.squeeze S8x1024 squeezes_S1x8x1x1024_S8x1024) (Memref.slice_unit_congr _ (coff_FB30 t h2) _ _ (fun _ => rfl) (fun _ => rfl))
@[sl_canon] theorem canon_Fsem_semsA348 (t : Fin grid0.N) (h2 : k0_cond2 (grid0.coords t) = 1#1) :
    (cc0_scratch2.slice (Rect.unit (s := S2) (k0_off348 (grid0.coords t)) S1.size (k0_off348_inb (grid0.coords t) h2))).squeeze S_ squeezes_S1_S_ = semsA (slN (t.val + 1)) :=
  congrArg (fun A : DmaSems sig S1 => A.squeeze S_ squeezes_S1_S_) (SemArray.slice_unit_congr _ (coff_Fsem348 t h2) _ _)
theorem coff_Fsem353 : ∀ t : Fin grid0.N, k0_cond2 (grid0.coords t) = 1#1 → k0_off353 (grid0.coords t) = ![(slN (t.val + 1)).val] := by decide +kernel
@[sl_canon] theorem canon_Fsem_semsB353 (t : Fin grid0.N) (h2 : k0_cond2 (grid0.coords t) = 1#1) :
    (cc0_scratch3.slice (Rect.unit (s := S2) (k0_off353 (grid0.coords t)) S1.size (k0_off353_inb (grid0.coords t) h2))).squeeze S_ squeezes_S1_S_ = semsB (slN (t.val + 1)) :=
  congrArg (fun A : DmaSems sig S1 => A.squeeze S_ squeezes_S1_S_) (SemArray.slice_unit_congr _ (coff_Fsem353 t h2) _ _)
theorem coff_FA31 : ∀ t : Fin grid0.N, k0_cond2 (grid0.coords t) = 1#1 → k0_off351 (grid0.coords t) = ![(slN (t.val + 1)).val, 0, 31, 0] := by decide +kernel
@[sl_canon] theorem canon_FA31 (t : Fin grid0.N) (h2 : k0_cond2 (grid0.coords t) = 1#1) :
    (scA.slice (Rect.unit (s := S2x8x64x1024) (k0_off351 (grid0.coords t)) S1x8x1x1024.size (k0_off351_inb (grid0.coords t) h2)) (fun _ => rfl)).squeeze S8x1024 squeezes_S1x8x1x1024_S8x1024 = rowM scA (slN (t.val + 1)) ⟨31, Nat.le_of_ble_eq_true rfl⟩ :=
  congrArg (fun M : Memref sig .tc .vmem S1x8x1x1024 .f32 => M.squeeze S8x1024 squeezes_S1x8x1x1024_S8x1024) (Memref.slice_unit_congr _ (coff_FA31 t h2) _ _ (fun _ => rfl) (fun _ => rfl))
theorem coff_FB31 : ∀ t : Fin grid0.N, k0_cond2 (grid0.coords t) = 1#1 → k0_off354 (grid0.coords t) = ![(slN (t.val + 1)).val, 0, 31, 0] := by decide +kernel
@[sl_canon] theorem canon_FB31 (t : Fin grid0.N) (h2 : k0_cond2 (grid0.coords t) = 1#1) :
    (scB.slice (Rect.unit (s := S2x8x64x1024) (k0_off354 (grid0.coords t)) S1x8x1x1024.size (k0_off354_inb (grid0.coords t) h2)) (fun _ => rfl)).squeeze S8x1024 squeezes_S1x8x1x1024_S8x1024 = rowM scB (slN (t.val + 1)) ⟨31, Nat.le_of_ble_eq_true rfl⟩ :=
  congrArg (fun M : Memref sig .tc .vmem S1x8x1x1024 .f32 => M.squeeze S8x1024 squeezes_S1x8x1x1024_S8x1024) (Memref.slice_unit_congr _ (coff_FB31 t h2) _ _ (fun _ => rfl) (fun _ => rfl))
@[sl_canon] theorem canon_Fsem_semsA353 (t : Fin grid0.N) (h2 : k0_cond2 (grid0.coords t) = 1#1) :
    (cc0_scratch2.slice (Rect.unit (s := S2) (k0_off353 (grid0.coords t)) S1.size (k0_off353_inb (grid0.coords t) h2))).squeeze S_ squeezes_S1_S_ = semsA (slN (t.val + 1)) :=
  congrArg (fun A : DmaSems sig S1 => A.squeeze S_ squeezes_S1_S_) (SemArray.slice_unit_congr _ (coff_Fsem353 t h2) _ _)
theorem coff_Fsem358 : ∀ t : Fin grid0.N, k0_cond2 (grid0.coords t) = 1#1 → k0_off358 (grid0.coords t) = ![(slN (t.val + 1)).val] := by decide +kernel
@[sl_canon] theorem canon_Fsem_semsB358 (t : Fin grid0.N) (h2 : k0_cond2 (grid0.coords t) = 1#1) :
    (cc0_scratch3.slice (Rect.unit (s := S2) (k0_off358 (grid0.coords t)) S1.size (k0_off358_inb (grid0.coords t) h2))).squeeze S_ squeezes_S1_S_ = semsB (slN (t.val + 1)) :=
  congrArg (fun A : DmaSems sig S1 => A.squeeze S_ squeezes_S1_S_) (SemArray.slice_unit_congr _ (coff_Fsem358 t h2) _ _)
theorem coff_FA32 : ∀ t : Fin grid0.N, k0_cond2 (grid0.coords t) = 1#1 → k0_off356 (grid0.coords t) = ![(slN (t.val + 1)).val, 0, 32, 0] := by decide +kernel
@[sl_canon] theorem canon_FA32 (t : Fin grid0.N) (h2 : k0_cond2 (grid0.coords t) = 1#1) :
    (scA.slice (Rect.unit (s := S2x8x64x1024) (k0_off356 (grid0.coords t)) S1x8x1x1024.size (k0_off356_inb (grid0.coords t) h2)) (fun _ => rfl)).squeeze S8x1024 squeezes_S1x8x1x1024_S8x1024 = rowM scA (slN (t.val + 1)) ⟨32, Nat.le_of_ble_eq_true rfl⟩ :=
  congrArg (fun M : Memref sig .tc .vmem S1x8x1x1024 .f32 => M.squeeze S8x1024 squeezes_S1x8x1x1024_S8x1024) (Memref.slice_unit_congr _ (coff_FA32 t h2) _ _ (fun _ => rfl) (fun _ => rfl))
theorem coff_FB32 : ∀ t : Fin grid0.N, k0_cond2 (grid0.coords t) = 1#1 → k0_off359 (grid0.coords t) = ![(slN (t.val + 1)).val, 0, 32, 0] := by decide +kernel
@[sl_canon] theorem canon_FB32 (t : Fin grid0.N) (h2 : k0_cond2 (grid0.coords t) = 1#1) :
    (scB.slice (Rect.unit (s := S2x8x64x1024) (k0_off359 (grid0.coords t)) S1x8x1x1024.size (k0_off359_inb (grid0.coords t) h2)) (fun _ => rfl)).squeeze S8x1024 squeezes_S1x8x1x1024_S8x1024 = rowM scB (slN (t.val + 1)) ⟨32, Nat.le_of_ble_eq_true rfl⟩ :=
  congrArg (fun M : Memref sig .tc .vmem S1x8x1x1024 .f32 => M.squeeze S8x1024 squeezes_S1x8x1x1024_S8x1024) (Memref.slice_unit_congr _ (coff_FB32 t h2) _ _ (fun _ => rfl) (fun _ => rfl))
@[sl_canon] theorem canon_Fsem_semsA358 (t : Fin grid0.N) (h2 : k0_cond2 (grid0.coords t) = 1#1) :
    (cc0_scratch2.slice (Rect.unit (s := S2) (k0_off358 (grid0.coords t)) S1.size (k0_off358_inb (grid0.coords t) h2))).squeeze S_ squeezes_S1_S_ = semsA (slN (t.val + 1)) :=
  congrArg (fun A : DmaSems sig S1 => A.squeeze S_ squeezes_S1_S_) (SemArray.slice_unit_congr _ (coff_Fsem358 t h2) _ _)
theorem coff_Fsem363 : ∀ t : Fin grid0.N, k0_cond2 (grid0.coords t) = 1#1 → k0_off363 (grid0.coords t) = ![(slN (t.val + 1)).val] := by decide +kernel
@[sl_canon] theorem canon_Fsem_semsB363 (t : Fin grid0.N) (h2 : k0_cond2 (grid0.coords t) = 1#1) :
    (cc0_scratch3.slice (Rect.unit (s := S2) (k0_off363 (grid0.coords t)) S1.size (k0_off363_inb (grid0.coords t) h2))).squeeze S_ squeezes_S1_S_ = semsB (slN (t.val + 1)) :=
  congrArg (fun A : DmaSems sig S1 => A.squeeze S_ squeezes_S1_S_) (SemArray.slice_unit_congr _ (coff_Fsem363 t h2) _ _)
theorem coff_FA33 : ∀ t : Fin grid0.N, k0_cond2 (grid0.coords t) = 1#1 → k0_off361 (grid0.coords t) = ![(slN (t.val + 1)).val, 0, 33, 0] := by decide +kernel
@[sl_canon] theorem canon_FA33 (t : Fin grid0.N) (h2 : k0_cond2 (grid0.coords t) = 1#1) :
    (scA.slice (Rect.unit (s := S2x8x64x1024) (k0_off361 (grid0.coords t)) S1x8x1x1024.size (k0_off361_inb (grid0.coords t) h2)) (fun _ => rfl)).squeeze S8x1024 squeezes_S1x8x1x1024_S8x1024 = rowM scA (slN (t.val + 1)) ⟨33, Nat.le_of_ble_eq_true rfl⟩ :=
  congrArg (fun M : Memref sig .tc .vmem S1x8x1x1024 .f32 => M.squeeze S8x1024 squeezes_S1x8x1x1024_S8x1024) (Memref.slice_unit_congr _ (coff_FA33 t h2) _ _ (fun _ => rfl) (fun _ => rfl))
theorem coff_FB33 : ∀ t : Fin grid0.N, k0_cond2 (grid0.coords t) = 1#1 → k0_off364 (grid0.coords t) = ![(slN (t.val + 1)).val, 0, 33, 0] := by decide +kernel
@[sl_canon] theorem canon_FB33 (t : Fin grid0.N) (h2 : k0_cond2 (grid0.coords t) = 1#1) :
    (scB.slice (Rect.unit (s := S2x8x64x1024) (k0_off364 (grid0.coords t)) S1x8x1x1024.size (k0_off364_inb (grid0.coords t) h2)) (fun _ => rfl)).squeeze S8x1024 squeezes_S1x8x1x1024_S8x1024 = rowM scB (slN (t.val + 1)) ⟨33, Nat.le_of_ble_eq_true rfl⟩ :=
  congrArg (fun M : Memref sig .tc .vmem S1x8x1x1024 .f32 => M.squeeze S8x1024 squeezes_S1x8x1x1024_S8x1024) (Memref.slice_unit_congr _ (coff_FB33 t h2) _ _ (fun _ => rfl) (fun _ => rfl))
@[sl_canon] theorem canon_Fsem_semsA363 (t : Fin grid0.N) (h2 : k0_cond2 (grid0.coords t) = 1#1) :
    (cc0_scratch2.slice (Rect.unit (s := S2) (k0_off363 (grid0.coords t)) S1.size (k0_off363_inb (grid0.coords t) h2))).squeeze S_ squeezes_S1_S_ = semsA (slN (t.val + 1)) :=
  congrArg (fun A : DmaSems sig S1 => A.squeeze S_ squeezes_S1_S_) (SemArray.slice_unit_congr _ (coff_Fsem363 t h2) _ _)
theorem coff_Fsem368 : ∀ t : Fin grid0.N, k0_cond2 (grid0.coords t) = 1#1 → k0_off368 (grid0.coords t) = ![(slN (t.val + 1)).val] := by decide +kernel
@[sl_canon] theorem canon_Fsem_semsB368 (t : Fin grid0.N) (h2 : k0_cond2 (grid0.coords t) = 1#1) :
    (cc0_scratch3.slice (Rect.unit (s := S2) (k0_off368 (grid0.coords t)) S1.size (k0_off368_inb (grid0.coords t) h2))).squeeze S_ squeezes_S1_S_ = semsB (slN (t.val + 1)) :=
  congrArg (fun A : DmaSems sig S1 => A.squeeze S_ squeezes_S1_S_) (SemArray.slice_unit_congr _ (coff_Fsem368 t h2) _ _)
theorem coff_FA34 : ∀ t : Fin grid0.N, k0_cond2 (grid0.coords t) = 1#1 → k0_off366 (grid0.coords t) = ![(slN (t.val + 1)).val, 0, 34, 0] := by decide +kernel
@[sl_canon] theorem canon_FA34 (t : Fin grid0.N) (h2 : k0_cond2 (grid0.coords t) = 1#1) :
    (scA.slice (Rect.unit (s := S2x8x64x1024) (k0_off366 (grid0.coords t)) S1x8x1x1024.size (k0_off366_inb (grid0.coords t) h2)) (fun _ => rfl)).squeeze S8x1024 squeezes_S1x8x1x1024_S8x1024 = rowM scA (slN (t.val + 1)) ⟨34, Nat.le_of_ble_eq_true rfl⟩ :=
  congrArg (fun M : Memref sig .tc .vmem S1x8x1x1024 .f32 => M.squeeze S8x1024 squeezes_S1x8x1x1024_S8x1024) (Memref.slice_unit_congr _ (coff_FA34 t h2) _ _ (fun _ => rfl) (fun _ => rfl))
theorem coff_FB34 : ∀ t : Fin grid0.N, k0_cond2 (grid0.coords t) = 1#1 → k0_off369 (grid0.coords t) = ![(slN (t.val + 1)).val, 0, 34, 0] := by decide +kernel
@[sl_canon] theorem canon_FB34 (t : Fin grid0.N) (h2 : k0_cond2 (grid0.coords t) = 1#1) :
    (scB.slice (Rect.unit (s := S2x8x64x1024) (k0_off369 (grid0.coords t)) S1x8x1x1024.size (k0_off369_inb (grid0.coords t) h2)) (fun _ => rfl)).squeeze S8x1024 squeezes_S1x8x1x1024_S8x1024 = rowM scB (slN (t.val + 1)) ⟨34, Nat.le_of_ble_eq_true rfl⟩ :=
  congrArg (fun M : Memref sig .tc .vmem S1x8x1x1024 .f32 => M.squeeze S8x1024 squeezes_S1x8x1x1024_S8x1024) (Memref.slice_unit_congr _ (coff_FB34 t h2) _ _ (fun _ => rfl) (fun _ => rfl))
@[sl_canon] theorem canon_Fsem_semsA368 (t : Fin grid0.N) (h2 : k0_cond2 (grid0.coords t) = 1#1) :
    (cc0_scratch2.slice (Rect.unit (s := S2) (k0_off368 (grid0.coords t)) S1.size (k0_off368_inb (grid0.coords t) h2))).squeeze S_ squeezes_S1_S_ = semsA (slN (t.val + 1)) :=
  congrArg (fun A : DmaSems sig S1 => A.squeeze S_ squeezes_S1_S_) (SemArray.slice_unit_congr _ (coff_Fsem368 t h2) _ _)
theorem coff_Fsem373 : ∀ t : Fin grid0.N, k0_cond2 (grid0.coords t) = 1#1 → k0_off373 (grid0.coords t) = ![(slN (t.val + 1)).val] := by decide +kernel
@[sl_canon] theorem canon_Fsem_semsB373 (t : Fin grid0.N) (h2 : k0_cond2 (grid0.coords t) = 1#1) :
    (cc0_scratch3.slice (Rect.unit (s := S2) (k0_off373 (grid0.coords t)) S1.size (k0_off373_inb (grid0.coords t) h2))).squeeze S_ squeezes_S1_S_ = semsB (slN (t.val + 1)) :=
  congrArg (fun A : DmaSems sig S1 => A.squeeze S_ squeezes_S1_S_) (SemArray.slice_unit_congr _ (coff_Fsem373 t h2) _ _)
theorem coff_FA35 : ∀ t : Fin grid0.N, k0_cond2 (grid0.coords t) = 1#1 → k0_off371 (grid0.coords t) = ![(slN (t.val + 1)).val, 0, 35, 0] := by decide +kernel
@[sl_canon] theorem canon_FA35 (t : Fin grid0.N) (h2 : k0_cond2 (grid0.coords t) = 1#1) :
    (scA.slice (Rect.unit (s := S2x8x64x1024) (k0_off371 (grid0.coords t)) S1x8x1x1024.size (k0_off371_inb (grid0.coords t) h2)) (fun _ => rfl)).squeeze S8x1024 squeezes_S1x8x1x1024_S8x1024 = rowM scA (slN (t.val + 1)) ⟨35, Nat.le_of_ble_eq_true rfl⟩ :=
  congrArg (fun M : Memref sig .tc .vmem S1x8x1x1024 .f32 => M.squeeze S8x1024 squeezes_S1x8x1x1024_S8x1024) (Memref.slice_unit_congr _ (coff_FA35 t h2) _ _ (fun _ => rfl) (fun _ => rfl))
theorem coff_FB35 : ∀ t : Fin grid0.N, k0_cond2 (grid0.coords t) = 1#1 → k0_off374 (grid0.coords t) = ![(slN (t.val + 1)).val, 0, 35, 0] := by decide +kernel
@[sl_canon] theorem canon_FB35 (t : Fin grid0.N) (h2 : k0_cond2 (grid0.coords t) = 1#1) :
    (scB.slice (Rect.unit (s := S2x8x64x1024) (k0_off374 (grid0.coords t)) S1x8x1x1024.size (k0_off374_inb (grid0.coords t) h2)) (fun _ => rfl)).squeeze S8x1024 squeezes_S1x8x1x1024_S8x1024 = rowM scB (slN (t.val + 1)) ⟨35, Nat.le_of_ble_eq_true rfl⟩ :=
  congrArg (fun M : Memref sig .tc .vmem S1x8x1x1024 .f32 => M.squeeze S8x1024 squeezes_S1x8x1x1024_S8x1024) (Memref.slice_unit_congr _ (coff_FB35 t h2) _ _ (fun _ => rfl) (fun _ => rfl))
@[sl_canon] theorem canon_Fsem_semsA373 (t : Fin grid0.N) (h2 : k0_cond2 (grid0.coords t) = 1#1) :
    (cc0_scratch2.slice (Rect.unit (s := S2) (k0_off373 (grid0.coords t)) S1.size (k0_off373_inb (grid0.coords t) h2))).squeeze S_ squeezes_S1_S_ = semsA (slN (t.val + 1)) :=
  congrArg (fun A : DmaSems sig S1 => A.squeeze S_ squeezes_S1_S_) (SemArray.slice_unit_congr _ (coff_Fsem373 t h2) _ _)
theorem coff_Fsem378 : ∀ t : Fin grid0.N, k0_cond2 (grid0.coords t) = 1#1 → k0_off378 (grid0.coords t) = ![(slN (t.val + 1)).val] := by decide +kernel
@[sl_canon] theorem canon_Fsem_semsB378 (t : Fin grid0.N) (h2 : k0_cond2 (grid0.coords t) = 1#1) :
    (cc0_scratch3.slice (Rect.unit (s := S2) (k0_off378 (grid0.coords t)) S1.size (k0_off378_inb (grid0.coords t) h2))).squeeze S_ squeezes_S1_S_ = semsB (slN (t.val + 1)) :=
  congrArg (fun A : DmaSems sig S1 => A.squeeze S_ squeezes_S1_S_) (SemArray.slice_unit_congr _ (coff_Fsem378 t h2) _ _)
theorem coff_FA36 : ∀ t : Fin grid0.N, k0_cond2 (grid0.coords t) = 1#1 → k0_off376 (grid0.coords t) = ![(slN (t.val + 1)).val, 0, 36, 0] := by decide +kernel
@[sl_canon] theorem canon_FA36 (t : Fin grid0.N) (h2 : k0_cond2 (grid0.coords t) = 1#1) :
    (scA.slice (Rect.unit (s := S2x8x64x1024) (k0_off376 (grid0.coords t)) S1x8x1x1024.size (k0_off376_inb (grid0.coords t) h2)) (fun _ => rfl)).squeeze S8x1024 squeezes_S1x8x1x1024_S8x1024 = rowM scA (slN (t.val + 1)) ⟨36, Nat.le_of_ble_eq_true rfl⟩ :=
  congrArg (fun M : Memref sig .tc .vmem S1x8x1x1024 .f32 => M.squeeze S8x1024 squeezes_S1x8x1x1024_S8x1024) (Memref.slice_unit_congr _ (coff_FA36 t h2) _ _ (fun _ => rfl) (fun _ => rfl))
theorem coff_FB36 : ∀ t : Fin grid0.N, k0_cond2 (grid0.coords t) = 1#1 → k0_off379 (grid0.coords t) = ![(slN (t.val + 1)).val, 0, 36, 0] := by decide +kernel
@[sl_canon] theorem canon_FB36 (t : Fin grid0.N) (h2 : k0_cond2 (grid0.coords t) = 1#1) :
    (scB.slice (Rect.unit (s := S2x8x64x1024) (k0_off379 (grid0.coords t)) S1x8x1x1024.size (k0_off379_inb (grid0.coords t) h2)) (fun _ => rfl)).squeeze S8x1024 squeezes_S1x8x1x1024_S8x1024 = rowM scB (slN (t.val + 1)) ⟨36, Nat.le_of_ble_eq_true rfl⟩ :=
  congrArg (fun M : Memref sig .tc .vmem S1x8x1x1024 .f32 => M.squeeze S8x1024 squeezes_S1x8x1x1024_S8x1024) (Memref.slice_unit_congr _ (coff_FB36 t h2) _ _ (fun _ => rfl) (fun _ => rfl))
@[sl_canon] theorem canon_Fsem_semsA378 (t : Fin grid0.N) (h2 : k0_cond2 (grid0.coords t) = 1#1) :
    (cc0_scratch2.slice (Rect.unit (s := S2) (k0_off378 (grid0.coords t)) S1.size (k0_off378_inb (grid0.coords t) h2))).squeeze S_ squeezes_S1_S_ = semsA (slN (t.val + 1)) :=
  congrArg (fun A : DmaSems sig S1 => A.squeeze S_ squeezes_S1_S_) (SemArray.slice_unit_congr _ (coff_Fsem378 t h2) _ _)
theorem coff_Fsem383 : ∀ t : Fin grid0.N, k0_cond2 (grid0.coords t) = 1#1 → k0_off383 (grid0.coords t) = ![(slN (t.val + 1)).val] := by decide +kernel
@[sl_canon] theorem canon_Fsem_semsB383 (t : Fin grid0.N) (h2 : k0_cond2 (grid0.coords t) = 1#1) :
    (cc0_scratch3.slice (Rect.unit (s := S2) (k0_off383 (grid0.coords t)) S1.size (k0_off383_inb (grid0.coords t) h2))).squeeze S_ squeezes_S1_S_ = semsB (slN (t.val + 1)) :=
  congrArg (fun A : DmaSems sig S1 => A.squeeze S_ squeezes_S1_S_) (SemArray.slice_unit_congr _ (coff_Fsem383 t h2) _ _)
theorem coff_FA37 : ∀ t : Fin grid0.N, k0_cond2 (grid0.coords t) = 1#1 → k0_off381 (grid0.coords t) = ![(slN (t.val + 1)).val, 0, 37, 0] := by decide +kernel
@[sl_canon] theorem canon_FA37 (t : Fin grid0.N) (h2 : k0_cond2 (grid0.coords t) = 1#1) :
    (scA.slice (Rect.unit (s := S2x8x64x1024) (k0_off381 (grid0.coords t)) S1x8x1x1024.size (k0_off381_inb (grid0.coords t) h2)) (fun _ => rfl)).squeeze S8x1024 squeezes_S1x8x1x1024_S8x1024 = rowM scA (slN (t.val + 1)) ⟨37, Nat.le_of_ble_eq_true rfl⟩ :=
  congrArg (fun M : Memref sig .tc .vmem S1x8x1x1024 .f32 => M.squeeze S8x1024 squeezes_S1x8x1x1024_S8x1024) (Memref.slice_unit_congr _ (coff_FA37 t h2) _ _ (fun _ => rfl) (fun _ => rfl))
theorem coff_FB37 : ∀ t : Fin grid0.N, k0_cond2 (grid0.coords t) = 1#1 → k0_off384 (grid0.coords t) = ![(slN (t.val + 1)).val, 0, 37, 0] := by decide +kernel
@[sl_canon] theorem canon_FB37 (t : Fin grid0.N) (h2 : k0_cond2 (grid0.coords t) = 1#1) :
    (scB.slice (Rect.unit (s := S2x8x64x1024) (k0_off384 (grid0.coords t)) S1x8x1x1024.size (k0_off384_inb (grid0.coords t) h2)) (fun _ => rfl)).squeeze S8x1024 squeezes_S1x8x1x1024_S8x1024 = rowM scB (slN (t.val + 1)) ⟨37, Nat.le_of_ble_eq_true rfl⟩ :=
  congrArg (fun M : Memref sig .tc .vmem S1x8x1x1024 .f32 => M.squeeze S8x1024 squeezes_S1x8x1x1024_S8x1024) (Memref.slice_unit_congr _ (coff_FB37 t h2) _ _ (fun _ => rfl) (fun _ => rfl))
@[sl_canon] theorem canon_Fsem_semsA383 (t : Fin grid0.N) (h2 : k0_cond2 (grid0.coords t) = 1#1) :
    (cc0_scratch2.slice (Rect.unit (s := S2) (k0_off383 (grid0.coords t)) S1.size (k0_off383_inb (grid0.coords t) h2))).squeeze S_ squeezes_S1_S_ = semsA (slN (t.val + 1)) :=
  congrArg (fun A : DmaSems sig S1 => A.squeeze S_ squeezes_S1_S_) (SemArray.slice_unit_congr _ (coff_Fsem383 t h2) _ _)
theorem coff_Fsem388 : ∀ t : Fin grid0.N, k0_cond2 (grid0.coords t) = 1#1 → k0_off388 (grid0.coords t) = ![(slN (t.val + 1)).val] := by decide +kernel
@[sl_canon] theorem canon_Fsem_semsB388 (t : Fin grid0.N) (h2 : k0_cond2 (grid0.coords t) = 1#1) :
    (cc0_scratch3.slice (Rect.unit (s := S2) (k0_off388 (grid0.coords t)) S1.size (k0_off388_inb (grid0.coords t) h2))).squeeze S_ squeezes_S1_S_ = semsB (slN (t.val + 1)) :=
  congrArg (fun A : DmaSems sig S1 => A.squeeze S_ squeezes_S1_S_) (SemArray.slice_unit_congr _ (coff_Fsem388 t h2) _ _)
theorem coff_FA38 : ∀ t : Fin grid0.N, k0_cond2 (grid0.coords t) = 1#1 → k0_off386 (grid0.coords t) = ![(slN (t.val + 1)).val, 0, 38, 0] := by decide +kernel
@[sl_canon] theorem canon_FA38 (t : Fin grid0.N) (h2 : k0_cond2 (grid0.coords t) = 1#1) :
    (scA.slice (Rect.unit (s := S2x8x64x1024) (k0_off386 (grid0.coords t)) S1x8x1x1024.size (k0_off386_inb (grid0.coords t) h2)) (fun _ => rfl)).squeeze S8x1024 squeezes_S1x8x1x1024_S8x1024 = rowM scA (slN (t.val + 1)) ⟨38, Nat.le_of_ble_eq_true rfl⟩ :=
  congrArg (fun M : Memref sig .tc .vmem S1x8x1x1024 .f32 => M.squeeze S8x1024 squeezes_S1x8x1x1024_S8x1024) (Memref.slice_unit_congr _ (coff_FA38 t h2) _ _ (fun _ => rfl) (fun _ => rfl))
theorem coff_FB38 : ∀ t : Fin grid0.N, k0_cond2 (grid0.coords t) = 1#1 → k0_off389 (grid0.coords t) = ![(slN (t.val + 1)).val, 0, 38, 0] := by decide +kernel
@[sl_canon] theorem canon_FB38 (t : Fin grid0.N) (h2 : k0_cond2 (grid0.coords t) = 1#1) :
    (scB.slice (Rect.unit (s := S2x8x64x1024) (k0_off389 (grid0.coords t)) S1x8x1x1024.size (k0_off389_inb (grid0.coords t) h2)) (fun _ => rfl)).squeeze S8x1024 squeezes_S1x8x1x1024_S8x1024 = rowM scB (slN (t.val + 1)) ⟨38, Nat.le_of_ble_eq_true rfl⟩ :=
  congrArg (fun M : Memref sig .tc .vmem S1x8x1x1024 .f32 => M.squeeze S8x1024 squeezes_S1x8x1x1024_S8x1024) (Memref.slice_unit_congr _ (coff_FB38 t h2) _ _ (fun _ => rfl) (fun _ => rfl))
@[sl_canon] theorem canon_Fsem_semsA388 (t : Fin grid0.N) (h2 : k0_cond2 (grid0.coords t) = 1#1) :
    (cc0_scratch2.slice (Rect.unit (s := S2) (k0_off388 (grid0.coords t)) S1.size (k0_off388_inb (grid0.coords t) h2))).squeeze S_ squeezes_S1_S_ = semsA (slN (t.val + 1)) :=
  congrArg (fun A : DmaSems sig S1 => A.squeeze S_ squeezes_S1_S_) (SemArray.slice_unit_congr _ (coff_Fsem388 t h2) _ _)
theorem coff_Fsem393 : ∀ t : Fin grid0.N, k0_cond2 (grid0.coords t) = 1#1 → k0_off393 (grid0.coords t) = ![(slN (t.val + 1)).val] := by decide +kernel
@[sl_canon] theorem canon_Fsem_semsB393 (t : Fin grid0.N) (h2 : k0_cond2 (grid0.coords t) = 1#1) :
    (cc0_scratch3.slice (Rect.unit (s := S2) (k0_off393 (grid0.coords t)) S1.size (k0_off393_inb (grid0.coords t) h2))).squeeze S_ squeezes_S1_S_ = semsB (slN (t.val + 1)) :=
  congrArg (fun A : DmaSems sig S1 => A.squeeze S_ squeezes_S1_S_) (SemArray.slice_unit_congr _ (coff_Fsem393 t h2) _ _)
theorem coff_FA39 : ∀ t : Fin grid0.N, k0_cond2 (grid0.coords t) = 1#1 → k0_off391 (grid0.coords t) = ![(slN (t.val + 1)).val, 0, 39, 0] := by decide +kernel
@[sl_canon] theorem canon_FA39 (t : Fin grid0.N) (h2 : k0_cond2 (grid0.coords t) = 1#1) :
    (scA.slice (Rect.unit (s := S2x8x64x1024) (k0_off391 (grid0.coords t)) S1x8x1x1024.size (k0_off391_inb (grid0.coords t) h2)) (fun _ => rfl)).squeeze S8x1024 squeezes_S1x8x1x1024_S8x1024 = rowM scA (slN (t.val + 1)) ⟨39, Nat.le_of_ble_eq_true rfl⟩ :=
  congrArg (fun M : Memref sig .tc .vmem S1x8x1x1024 .f32 => M.squeeze S8x1024 squeezes_S1x8x1x1024_S8x1024) (Memref.slice_unit_congr _ (coff_FA39 t h2) _ _ (fun _ => rfl) (fun _ => rfl))
theorem coff_FB39 : ∀ t : Fin grid0.N, k0_cond2 (grid0.coords t) = 1#1 → k0_off394 (grid0.coords t) = ![(slN (t.val + 1)).val, 0, 39, 0] := by decide +kernel
@[sl_canon] theorem canon_FB39 (t : Fin grid0.N) (h2 : k0_cond2 (grid0.coords t) = 1#1) :
    (scB.slice (Rect.unit (s := S2x8x64x1024) (k0_off394 (grid0.coords t)) S1x8x1x1024.size (k0_off394_inb (grid0.coords t) h2)) (fun _ => rfl)).squeeze S8x1024 squeezes_S1x8x1x1024_S8x1024 = rowM scB (slN (t.val + 1)) ⟨39, Nat.le_of_ble_eq_true rfl⟩ :=
  congrArg (fun M : Memref sig .tc .vmem S1x8x1x1024 .f32 => M.squeeze S8x1024 squeezes_S1x8x1x1024_S8x1024) (Memref.slice_unit_congr _ (coff_FB39 t h2) _ _ (fun _ => rfl) (fun _ => rfl))
@[sl_canon] theorem canon_Fsem_semsA393 (t : Fin grid0.N) (h2 : k0_cond2 (grid0.coords t) = 1#1) :
    (cc0_scratch2.slice (Rect.unit (s := S2) (k0_off393 (grid0.coords t)) S1.size (k0_off393_inb (grid0.coords t) h2))).squeeze S_ squeezes_S1_S_ = semsA (slN (t.val + 1)) :=
  congrArg (fun A : DmaSems sig S1 => A.squeeze S_ squeezes_S1_S_) (SemArray.slice_unit_congr _ (coff_Fsem393 t h2) _ _)
theorem coff_Fsem398 : ∀ t : Fin grid0.N, k0_cond2 (grid0.coords t) = 1#1 → k0_off398 (grid0.coords t) = ![(slN (t.val + 1)).val] := by decide +kernel
@[sl_canon] theorem canon_Fsem_semsB398 (t : Fin grid0.N) (h2 : k0_cond2 (grid0.coords t) = 1#1) :
    (cc0_scratch3.slice (Rect.unit (s := S2) (k0_off398 (grid0.coords t)) S1.size (k0_off398_inb (grid0.coords t) h2))).squeeze S_ squeezes_S1_S_ = semsB (slN (t.val + 1)) :=
  congrArg (fun A : DmaSems sig S1 => A.squeeze S_ squeezes_S1_S_) (SemArray.slice_unit_congr _ (coff_Fsem398 t h2) _ _)
theorem coff_FA40 : ∀ t : Fin grid0.N, k0_cond2 (grid0.coords t) = 1#1 → k0_off396 (grid0.coords t) = ![(slN (t.val + 1)).val, 0, 40, 0] := by decide +kernel
@[sl_canon] theorem canon_FA40 (t : Fin grid0.N) (h2 : k0_cond2 (grid0.coords t) = 1#1) :
    (scA.slice (Rect.unit (s := S2x8x64x1024) (k0_off396 (grid0.coords t)) S1x8x1x1024.size (k0_off396_inb (grid0.coords t) h2)) (fun _ => rfl)).squeeze S8x1024 squeezes_S1x8x1x1024_S8x1024 = rowM scA (slN (t.val + 1)) ⟨40, Nat.le_of_ble_eq_true rfl⟩ :=
  congrArg (fun M : Memref sig .tc .vmem S1x8x1x1024 .f32 => M.squeeze S8x1024 squeezes_S1x8x1x1024_S8x1024) (Memref.slice_unit_congr _ (coff_FA40 t h2) _ _ (fun _ => rfl) (fun _ => rfl))
theorem coff_FB40 : ∀ t : Fin grid0.N, k0_cond2 (grid0.coords t) = 1#1 → k0_off399 (grid0.coords t) = ![(slN (t.val + 1)).val, 0, 40, 0] := by decide +kernel
@[sl_canon] theorem canon_FB40 (t : Fin grid0.N) (h2 : k0_cond2 (grid0.coords t) = 1#1) :
    (scB.slice (Rect.unit (s := S2x8x64x1024) (k0_off399 (grid0.coords t)) S1x8x1x1024.size (k0_off399_inb (grid0.coords t) h2)) (fun _ => rfl)).squeeze S8x1024 squeezes_S1x8x1x1024_S8x1024 = rowM scB (slN (t.val + 1)) ⟨40, Nat.le_of_ble_eq_true rfl⟩ :=
  congrArg (fun M : Memref sig .tc .vmem S1x8x1x1024 .f32 => M.squeeze S8x1024 squeezes_S1x8x1x1024_S8x1024) (Memref.slice_unit_congr _ (coff_FB40 t h2) _ _ (fun _ => rfl) (fun _ => rfl))
@[sl_canon] theorem canon_Fsem_semsA398 (t : Fin grid0.N) (h2 : k0_cond2 (grid0.coords t) = 1#1) :
    (cc0_scratch2.slice (Rect.unit (s := S2) (k0_off398 (grid0.coords t)) S1.size (k0_off398_inb (grid0.coords t) h2))).squeeze S_ squeezes_S1_S_ = semsA (slN (t.val + 1)) :=
  congrArg (fun A : DmaSems sig S1 => A.squeeze S_ squeezes_S1_S_) (SemArray.slice_unit_congr _ (coff_Fsem398 t h2) _ _)
theorem coff_Fsem403 : ∀ t : Fin grid0.N, k0_cond2 (grid0.coords t) = 1#1 → k0_off403 (grid0.coords t) = ![(slN (t.val + 1)).val] := by decide +kernel
@[sl_canon] theorem canon_Fsem_semsB403 (t : Fin grid0.N) (h2 : k0_cond2 (grid0.coords t) = 1#1) :
    (cc0_scratch3.slice (Rect.unit (s := S2) (k0_off403 (grid0.coords t)) S1.size (k0_off403_inb (grid0.coords t) h2))).squeeze S_ squeezes_S1_S_ = semsB (slN (t.val + 1)) :=
  congrArg (fun A : DmaSems sig S1 => A.squeeze S_ squeezes_S1_S_) (SemArray.slice_unit_congr _ (coff_Fsem403 t h2) _ _)
theorem coff_FA41 : ∀ t : Fin grid0.N, k0_cond2 (grid0.coords t) = 1#1 → k0_off401 (grid0.coords t) = ![(slN (t.val + 1)).val, 0, 41, 0] := by decide +kernel
@[sl_canon] theorem canon_FA41 (t : Fin grid0.N) (h2 : k0_cond2 (grid0.coords t) = 1#1) :
    (scA.slice (Rect.unit (s := S2x8x64x1024) (k0_off401 (grid0.coords t)) S1x8x1x1024.size (k0_off401_inb (grid0.coords t) h2)) (fun _ => rfl)).squeeze S8x1024 squeezes_S1x8x1x1024_S8x1024 = rowM scA (slN (t.val + 1)) ⟨41, Nat.le_of_ble_eq_true rfl⟩ :=
  congrArg (fun M : Memref sig .tc .vmem S1x8x1x1024 .f32 => M.squeeze S8x1024 squeezes_S1x8x1x1024_S8x1024) (Memref.slice_unit_congr _ (coff_FA41 t h2) _ _ (fun _ => rfl) (fun _ => rfl))
theorem coff_FB41 : ∀ t : Fin grid0.N, k0_cond2 (grid0.coords t) = 1#1 → k0_off404 (grid0.coords t) = ![(slN (t.val + 1)).val, 0, 41, 0] := by decide +kernel
@[sl_canon] theorem canon_FB41 (t : Fin grid0.N) (h2 : k0_cond2 (grid0.coords t) = 1#1) :
    (scB.slice (Rect.unit (s := S2x8x64x1024) (k0_off404 (grid0.coords t)) S1x8x1x1024.size (k0_off404_inb (grid0.coords t) h2)) (fun _ => rfl)).squeeze S8x1024 squeezes_S1x8x1x1024_S8x1024 = rowM scB (slN (t.val + 1)) ⟨41, Nat.le_of_ble_eq_true rfl⟩ :=
  congrArg (fun M : Memref sig .tc .vmem S1x8x1x1024 .f32 => M.squeeze S8x1024 squeezes_S1x8x1x1024_S8x1024) (Memref.slice_unit_congr _ (coff_FB41 t h2) _ _ (fun _ => rfl) (fun _ => rfl))
@[sl_canon] theorem canon_Fsem_semsA403 (t : Fin grid0.N) (h2 : k0_cond2 (grid0.coords t) = 1#1) :
    (cc0_scratch2.slice (Rect.unit (s := S2) (k0_off403 (grid0.coords t)) S1.size (k0_off403_inb (grid0.coords t) h2))).squeeze S_ squeezes_S1_S_ = semsA (slN (t.val + 1)) :=
  congrArg (fun A : DmaSems sig S1 => A.squeeze S_ squeezes_S1_S_) (SemArray.slice_unit_congr _ (coff_Fsem403 t h2) _ _)
theorem coff_Fsem408 : ∀ t : Fin grid0.N, k0_cond2 (grid0.coords t) = 1#1 → k0_off408 (grid0.coords t) = ![(slN (t.val + 1)).val] := by decide +kernel
@[sl_canon] theorem canon_Fsem_semsB408 (t : Fin grid0.N) (h2 : k0_cond2 (grid0.coords t) = 1#1) :
    (cc0_scratch3.slice (Rect.unit (s := S2) (k0_off408 (grid0.coords t)) S1.size (k0_off408_inb (grid0.coords t) h2))).squeeze S_ squeezes_S1_S_ = semsB (slN (t.val + 1)) :=
  congrArg (fun A : DmaSems sig S1 => A.squeeze S_ squeezes_S1_S_) (SemArray.slice_unit_congr _ (coff_Fsem408 t h2) _ _)
theorem coff_FA42 : ∀ t : Fin grid0.N, k0_cond2 (grid0.coords t) = 1#1 → k0_off406 (grid0.coords t) = ![(slN (t.val + 1)).val, 0, 42, 0] := by decide +kernel
@[sl_canon] theorem canon_FA42 (t : Fin grid0.N) (h2 : k0_cond2 (grid0.coords t) = 1#1) :
    (scA.slice (Rect.unit (s := S2x8x64x1024) (k0_off406 (grid0.coords t)) S1x8x1x1024.size (k0_off406_inb (grid0.coords t) h2)) (fun _ => rfl)).squeeze S8x1024 squeezes_S1x8x1x1024_S8x1024 = rowM scA (slN (t.val + 1)) ⟨42, Nat.le_of_ble_eq_true rfl⟩ :=
  congrArg (fun M : Memref sig .tc .vmem S1x8x1x1024 .f32 => M.squeeze S8x1024 squeezes_S1x8x1x1024_S8x1024) (Memref.slice_unit_congr _ (coff_FA42 t h2) _ _ (fun _ => rfl) (fun _ => rfl))
theorem coff_FB42 : ∀ t : Fin grid0.N, k0_cond2 (grid0.coords t) = 1#1 → k0_off409 (grid0.coords t) = ![(slN (t.val + 1)).val, 0, 42, 0] := by decide +kernel
@[sl_canon] theorem canon_FB42 (t : Fin grid0.N) (h2 : k0_cond2 (grid0.coords t) = 1#1) :
    (scB.slice (Rect.unit (s := S2x8x64x1024) (k0_off409 (grid0.coords t)) S1x8x1x1024.size (k0_off409_inb (grid0.coords t) h2)) (fun _ => rfl)).squeeze S8x1024 squeezes_S1x8x1x1024_S8x1024 = rowM scB (slN (t.val + 1)) ⟨42, Nat.le_of_ble_eq_true rfl⟩ :=
  congrArg (fun M : Memref sig .tc .vmem S1x8x1x1024 .f32 => M.squeeze S8x1024 squeezes_S1x8x1x1024_S8x1024) (Memref.slice_unit_congr _ (coff_FB42 t h2) _ _ (fun _ => rfl) (fun _ => rfl))
@[sl_canon] theorem canon_Fsem_semsA408 (t : Fin grid0.N) (h2 : k0_cond2 (grid0.coords t) = 1#1) :
    (cc0_scratch2.slice (Rect.unit (s := S2) (k0_off408 (grid0.coords t)) S1.size (k0_off408_inb (grid0.coords t) h2))).squeeze S_ squeezes_S1_S_ = semsA (slN (t.val + 1)) :=
  congrArg (fun A : DmaSems sig S1 => A.squeeze S_ squeezes_S1_S_) (SemArray.slice_unit_congr _ (coff_Fsem408 t h2) _ _)
theorem coff_Fsem413 : ∀ t : Fin grid0.N, k0_cond2 (grid0.coords t) = 1#1 → k0_off413 (grid0.coords t) = ![(slN (t.val + 1)).val] := by decide +kernel
@[sl_canon] theorem canon_Fsem_semsB413 (t : Fin grid0.N) (h2 : k0_cond2 (grid0.coords t) = 1#1) :
    (cc0_scratch3.slice (Rect.unit (s := S2) (k0_off413 (grid0.coords t)) S1.size (k0_off413_inb (grid0.coords t) h2))).squeeze S_ squeezes_S1_S_ = semsB (slN (t.val + 1)) :=
  congrArg (fun A : DmaSems sig S1 => A.squeeze S_ squeezes_S1_S_) (SemArray.slice_unit_congr _ (coff_Fsem413 t h2) _ _)
theorem coff_FA43 : ∀ t : Fin grid0.N, k0_cond2 (grid0.coords t) = 1#1 → k0_off411 (grid0.coords t) = ![(slN (t.val + 1)).val, 0, 43, 0] := by decide +kernel
@[sl_canon] theorem canon_FA43 (t : Fin grid0.N) (h2 : k0_cond2 (grid0.coords t) = 1#1) :
    (scA.slice (Rect.unit (s := S2x8x64x1024) (k0_off411 (grid0.coords t)) S1x8x1x1024.size (k0_off411_inb (grid0.coords t) h2)) (fun _ => rfl)).squeeze S8x1024 squeezes_S1x8x1x1024_S8x1024 = rowM scA (slN (t.val + 1)) ⟨43, Nat.le_of_ble_eq_true rfl⟩ :=
  congrArg (fun M : Memref sig .tc .vmem S1x8x1x1024 .f32 => M.squeeze S8x1024 squeezes_S1x8x1x1024_S8x1024) (Memref.slice_unit_congr _ (coff_FA43 t h2) _ _ (fun _ => rfl) (fun _ => rfl))
theorem coff_FB43 : ∀ t : Fin grid0.N, k0_cond2 (grid0.coords t) = 1#1 → k0_off414 (grid0.coords t) = ![(slN (t.val + 1)).val, 0, 43, 0] := by decide +kernel
@[sl_canon] theorem canon_FB43 (t : Fin grid0.N) (h2 : k0_cond2 (grid0.coords t) = 1#1) :
    (scB.slice (Rect.unit (s := S2x8x64x1024) (k0_off414 (grid0.coords t)) S1x8x1x1024.size (k0_off414_inb (grid0.coords t) h2)) (fun _ => rfl)).squeeze S8x1024 squeezes_S1x8x1x1024_S8x1024 = rowM scB (slN (t.val + 1)) ⟨43, Nat.le_of_ble_eq_true rfl⟩ :=
  congrArg (fun M : Memref sig .tc .vmem S1x8x1x1024 .f32 => M.squeeze S8x1024 squeezes_S1x8x1x1024_S8x1024) (Memref.slice_unit_congr _ (coff_FB43 t h2) _ _ (fun _ => rfl) (fun _ => rfl))
@[sl_canon] theorem canon_Fsem_semsA413 (t : Fin grid0.N) (h2 : k0_cond2 (grid0.coords t) = 1#1) :
    (cc0_scratch2.slice (Rect.unit (s := S2) (k0_off413 (grid0.coords t)) S1.size (k0_off413_inb (grid0.coords t) h2))).squeeze S_ squeezes_S1_S_ = semsA (slN (t.val + 1)) :=
  congrArg (fun A : DmaSems sig S1 => A.squeeze S_ squeezes_S1_S_) (SemArray.slice_unit_congr _ (coff_Fsem413 t h2) _ _)
theorem coff_Fsem418 : ∀ t : Fin grid0.N, k0_cond2 (grid0.coords t) = 1#1 → k0_off418 (grid0.coords t) = ![(slN (t.val + 1)).val] := by decide +kernel
@[sl_canon] theorem canon_Fsem_semsB418 (t : Fin grid0.N) (h2 : k0_cond2 (grid0.coords t) = 1#1) :
    (cc0_scratch3.slice (Rect.unit (s := S2) (k0_off418 (grid0.coords t)) S1.size (k0_off418_inb (grid0.coords t) h2))).squeeze S_ squeezes_S1_S_ = semsB (slN (t.val + 1)) :=
  congrArg (fun A : DmaSems sig S1 => A.squeeze S_ squeezes_S1_S_) (SemArray.slice_unit_congr _ (coff_Fsem418 t h2) _ _)
theorem coff_FA44 : ∀ t : Fin grid0.N, k0_cond2 (grid0.coords t) = 1#1 → k0_off416 (grid0.coords t) = ![(slN (t.val + 1)).val, 0, 44, 0] := by decide +kernel
@[sl_canon] theorem canon_FA44 (t : Fin grid0.N) (h2 : k0_cond2 (grid0.coords t) = 1#1) :
    (scA.slice (Rect.unit (s := S2x8x64x1024) (k0_off416 (grid0.coords t)) S1x8x1x1024.size (k0_off416_inb (grid0.coords t) h2)) (fun _ => rfl)).squeeze S8x1024 squeezes_S1x8x1x1024_S8x1024 = rowM scA (slN (t.val + 1)) ⟨44, Nat.le_of_ble_eq_true rfl⟩ :=
  congrArg (fun M : Memref sig .tc .vmem S1x8x1x1024 .f32 => M.squeeze S8x1024 squeezes_S1x8x1x1024_S8x1024) (Memref.slice_unit_congr _ (coff_FA44 t h2) _ _ (fun _ => rfl) (fun _ => rfl))
theorem coff_FB44 : ∀ t : Fin grid0.N, k0_cond2 (grid0.coords t) = 1#1 → k0_off419 (grid0.coords t) = ![(slN (t.val + 1)).val, 0, 44, 0] := by decide +kernel
@[sl_canon] theorem canon_FB44 (t : Fin grid0.N) (h2 : k0_cond2 (grid0.coords t) = 1#1) :
    (scB.slice (Rect.unit (s := S2x8x64x1024) (k0_off419 (grid0.coords t)) S1x8x1x1024.size (k0_off419_inb (grid0.coords t) h2)) (fun _ => rfl)).squeeze S8x1024 squeezes_S1x8x1x1024_S8x1024 = rowM scB (slN (t.val + 1)) ⟨44, Nat.le_of_ble_eq_true rfl⟩ :=
  congrArg (fun M : Memref sig .tc .vmem S1x8x1x1024 .f32 => M.squeeze S8x1024 squeezes_S1x8x1x1024_S8x1024) (Memref.slice_unit_congr _ (coff_FB44 t h2) _ _ (fun _ => rfl) (fun _ => rfl))
@[sl_canon] theorem canon_Fsem_semsA418 (t : Fin grid0.N) (h2 : k0_cond2 (grid0.coords t) = 1#1) :
    (cc0_scratch2.slice (Rect.unit (s := S2) (k0_off418 (grid0.coords t)) S1.size (k0_off418_inb (grid0.coords t) h2))).squeeze S_ squeezes_S1_S_ = semsA (slN (t.val + 1)) :=
  congrArg (fun A : DmaSems sig S1 => A.squeeze S_ squeezes_S1_S_) (SemArray.slice_unit_congr _ (coff_Fsem418 t h2) _ _)
theorem coff_Fsem423 : ∀ t : Fin grid0.N, k0_cond2 (grid0.coords t) = 1#1 → k0_off423 (grid0.coords t) = ![(slN (t.val + 1)).val] := by decide +kernel
@[sl_canon] theorem canon_Fsem_semsB423 (t : Fin grid0.N) (h2 : k0_cond2 (grid0.coords t) = 1#1) :
    (cc0_scratch3.slice (Rect.unit (s := S2) (k0_off423 (grid0.coords t)) S1.size (k0_off423_inb (grid0.coords t) h2))).squeeze S_ squeezes_S1_S_ = semsB (slN (t.val + 1)) :=
  congrArg (fun A : DmaSems sig S1 => A.squeeze S_ squeezes_S1_S_) (SemArray.slice_unit_congr _ (coff_Fsem423 t h2) _ _)
theorem coff_FA45 : ∀ t : Fin grid0.N, k0_cond2 (grid0.coords t) = 1#1 → k0_off421 (grid0.coords t) = ![(slN (t.val + 1)).val, 0, 45, 0] := by decide +kernel
@[sl_canon] theorem canon_FA45 (t : Fin grid0.N) (h2 : k0_cond2 (grid0.coords t) = 1#1) :
    (scA.slice (Rect.unit (s := S2x8x64x1024) (k0_off421 (grid0.coords t)) S1x8x1x1024.size (k0_off421_inb (grid0.coords t) h2)) (fun _ => rfl)).squeeze S8x1024 squeezes_S1x8x1x1024_S8x1024 = rowM scA (slN (t.val + 1)) ⟨45, Nat.le_of_ble_eq_true rfl⟩ :=
  congrArg (fun M : Memref sig .tc .vmem S1x8x1x1024 .f32 => M.squeeze S8x1024 squeezes_S1x8x1x1024_S8x1024) (Memref.slice_unit_congr _ (coff_FA45 t h2) _ _ (fun _ => rfl) (fun _ => rfl))
theorem coff_FB45 : ∀ t : Fin grid0.N, k0_cond2 (grid0.coords t) = 1#1 → k0_off424 (grid0.coords t) = ![(slN (t.val + 1)).val, 0, 45, 0] := by decide +kernel
@[sl_canon] theorem canon_FB45 (t : Fin grid0.N) (h2 : k0_cond2 (grid0.coords t) = 1#1) :
    (scB.slice (Rect.unit (s := S2x8x64x1024) (k0_off424 (grid0.coords t)) S1x8x1x1024.size (k0_off424_inb (grid0.coords t) h2)) (fun _ => rfl)).squeeze S8x1024 squeezes_S1x8x1x1024_S8x1024 = rowM scB (slN (t.val + 1)) ⟨45, Nat.le_of_ble_eq_true rfl⟩ :=
  congrArg (fun M : Memref sig .tc .vmem S1x8x1x1024 .f32 => M.squeeze S8x1024 squeezes_S1x8x1x1024_S8x1024) (Memref.slice_unit_congr _ (coff_FB45 t h2) _ _ (fun _ => rfl) (fun _ => rfl))
@[sl_canon] theorem canon_Fsem_semsA423 (t : Fin grid0.N) (h2 : k0_cond2 (grid0.coords t) = 1#1) :
    (cc0_scratch2.slice (Rect.unit (s := S2) (k0_off423 (grid0.coords t)) S1.size (k0_off423_inb (grid0.coords t) h2))).squeeze S_ squeezes_S1_S_ = semsA (slN (t.val + 1)) :=
  congrArg (fun A : DmaSems sig S1 => A.squeeze S_ squeezes_S1_S_) (SemArray.slice_unit_congr _ (coff_Fsem423 t h2) _ _)
theorem coff_Fsem428 : ∀ t : Fin grid0.N, k0_cond2 (grid0.coords t) = 1#1 → k0_off428 (grid0.coords t) = ![(slN (t.val + 1)).val] := by decide +kernel
@[sl_canon] theorem canon_Fsem_semsB428 (t : Fin grid0.N) (h2 : k0_cond2 (grid0.coords t) = 1#1) :
    (cc0_scratch3.slice (Rect.unit (s := S2) (k0_off428 (grid0.coords t)) S1.size (k0_off428_inb (grid0.coords t) h2))).squeeze S_ squeezes_S1_S_ = semsB (slN (t.val + 1)) :=
  congrArg (fun A : DmaSems sig S1 => A.squeeze S_ squeezes_S1_S_) (SemArray.slice_unit_congr _ (coff_Fsem428 t h2) _ _)
theorem coff_FA46 : ∀ t : Fin grid0.N, k0_cond2 (grid0.coords t) = 1#1 → k0_off426 (grid0.coords t) = ![(slN (t.val + 1)).val, 0, 46, 0] := by decide +kernel
@[sl_canon] theorem canon_FA46 (t : Fin grid0.N) (h2 : k0_cond2 (grid0.coords t) = 1#1) :
    (scA.slice (Rect.unit (s := S2x8x64x1024) (k0_off426 (grid0.coords t)) S1x8x1x1024.size (k0_off426_inb (grid0.coords t) h2)) (fun _ => rfl)).squeeze S8x1024 squeezes_S1x8x1x1024_S8x1024 = rowM scA (slN (t.val + 1)) ⟨46, Nat.le_of_ble_eq_true rfl⟩ :=
  congrArg (fun M : Memref sig .tc .vmem S1x8x1x1024 .f32 => M.squeeze S8x1024 squeezes_S1x8x1x1024_S8x1024) (Memref.slice_unit_congr _ (coff_FA46 t h2) _ _ (fun _ => rfl) (fun _ => rfl))
theorem coff_FB46 : ∀ t : Fin grid0.N, k0_cond2 (grid0.coords t) = 1#1 → k0_off429 (grid0.coords t) = ![(slN (t.val + 1)).val, 0, 46, 0] := by decide +kernel
@[sl_canon] theorem canon_FB46 (t : Fin grid0.N) (h2 : k0_cond2 (grid0.coords t) = 1#1) :
    (scB.slice (Rect.unit (s := S2x8x64x1024) (k0_off429 (grid0.coords t)) S1x8x1x1024.size (k0_off429_inb (grid0.coords t) h2)) (fun _ => rfl)).squeeze S8x1024 squeezes_S1x8x1x1024_S8x1024 = rowM scB (slN (t.val + 1)) ⟨46, Nat.le_of_ble_eq_true rfl⟩ :=
  congrArg (fun M : Memref sig .tc .vmem S1x8x1x1024 .f32 => M.squeeze S8x1024 squeezes_S1x8x1x1024_S8x1024) (Memref.slice_unit_congr _ (coff_FB46 t h2) _ _ (fun _ => rfl) (fun _ => rfl))
@[sl_canon] theorem canon_Fsem_semsA428 (t : Fin grid0.N) (h2 : k0_cond2 (grid0.coords t) = 1#1) :
    (cc0_scratch2.slice (Rect.unit (s := S2) (k0_off428 (grid0.coords t)) S1.size (k0_off428_inb (grid0.coords t) h2))).squeeze S_ squeezes_S1_S_ = semsA (slN (t.val + 1)) :=
  congrArg (fun A : DmaSems sig S1 => A.squeeze S_ squeezes_S1_S_) (SemArray.slice_unit_congr _ (coff_Fsem428 t h2) _ _)
theorem coff_Fsem433 : ∀ t : Fin grid0.N, k0_cond2 (grid0.coords t) = 1#1 → k0_off433 (grid0.coords t) = ![(slN (t.val + 1)).val] := by decide +kernel
@[sl_canon] theorem canon_Fsem_semsB433 (t : Fin grid0.N) (h2 : k0_cond2 (grid0.coords t) = 1#1) :
    (cc0_scratch3.slice (Rect.unit (s := S2) (k0_off433 (grid0.coords t)) S1.size (k0_off433_inb (grid0.coords t) h2))).squeeze S_ squeezes_S1_S_ = semsB (slN (t.val + 1)) :=
  congrArg (fun A : DmaSems sig S1 => A.squeeze S_ squeezes_S1_S_) (SemArray.slice_unit_congr _ (coff_Fsem433 t h2) _ _)
theorem coff_FA47 : ∀ t : Fin grid0.N, k0_cond2 (grid0.coords t) = 1#1 → k0_off431 (grid0.coords t) = ![(slN (t.val + 1)).val, 0, 47, 0] := by decide +kernel
@[sl_canon] theorem canon_FA47 (t : Fin grid0.N) (h2 : k0_cond2 (grid0.coords t) = 1#1) :
    (scA.slice (Rect.unit (s := S2x8x64x1024) (k0_off431 (grid0.coords t)) S1x8x1x1024.size (k0_off431_inb (grid0.coords t) h2)) (fun _ => rfl)).squeeze S8x1024 squeezes_S1x8x1x1024_S8x1024 = rowM scA (slN (t.val + 1)) ⟨47, Nat.le_of_ble_eq_true rfl⟩ :=
  congrArg (fun M : Memref sig .tc .vmem S1x8x1x1024 .f32 => M.squeeze S8x1024 squeezes_S1x8x1x1024_S8x1024) (Memref.slice_unit_congr _ (coff_FA47 t h2) _ _ (fun _ => rfl) (fun _ => rfl))
theorem coff_FB47 : ∀ t : Fin grid0.N, k0_cond2 (grid0.coords t) = 1#1 → k0_off434 (grid0.coords t) = ![(slN (t.val + 1)).val, 0, 47, 0] := by decide +kernel
@[sl_canon] theorem canon_FB47 (t : Fin grid0.N) (h2 : k0_cond2 (grid0.coords t) = 1#1) :
    (scB.slice (Rect.unit (s := S2x8x64x1024) (k0_off434 (grid0.coords t)) S1x8x1x1024.size (k0_off434_inb (grid0.coords t) h2)) (fun _ => rfl)).squeeze S8x1024 squeezes_S1x8x1x1024_S8x1024 = rowM scB (slN (t.val + 1)) ⟨47, Nat.le_of_ble_eq_true rfl⟩ :=
  congrArg (fun M : Memref sig .tc .vmem S1x8x1x1024 .f32 => M.squeeze S8x1024 squeezes_S1x8x1x1024_S8x1024) (Memref.slice_unit_congr _ (coff_FB47 t h2) _ _ (fun _ => rfl) (fun _ => rfl))
@[sl_canon] theorem canon_Fsem_semsA433 (t : Fin grid0.N) (h2 : k0_cond2 (grid0.coords t) = 1#1) :
    (cc0_scratch2.slice (Rect.unit (s := S2) (k0_off433 (grid0.coords t)) S1.size (k0_off433_inb (grid0.coords t) h2))).squeeze S_ squeezes_S1_S_ = semsA (slN (t.val + 1)) :=
  congrArg (fun A : DmaSems sig S1 => A.squeeze S_ squeezes_S1_S_) (SemArray.slice_unit_congr _ (coff_Fsem433 t h2) _ _)
theorem coff_Fsem438 : ∀ t : Fin grid0.N, k0_cond2 (grid0.coords t) = 1#1 → k0_off438 (grid0.coords t) = ![(slN (t.val + 1)).val] := by decide +kernel
@[sl_canon] theorem canon_Fsem_semsB438 (t : Fin grid0.N) (h2 : k0_cond2 (grid0.coords t) = 1#1) :
    (cc0_scratch3.slice (Rect.unit (s := S2) (k0_off438 (grid0.coords t)) S1.size (k0_off438_inb (grid0.coords t) h2))).squeeze S_ squeezes_S1_S_ = semsB (slN (t.val + 1)) :=
  congrArg (fun A : DmaSems sig S1 => A.squeeze S_ squeezes_S1_S_) (SemArray.slice_unit_congr _ (coff_Fsem438 t h2) _ _)
theorem coff_FA48 : ∀ t : Fin grid0.N, k0_cond2 (grid0.coords t) = 1#1 → k0_off436 (grid0.coords t) = ![(slN (t.val + 1)).val, 0, 48, 0] := by decide +kernel
@[sl_canon] theorem canon_FA48 (t : Fin grid0.N) (h2 : k0_cond2 (grid0.coords t) = 1#1) :
    (scA.slice (Rect.unit (s := S2x8x64x1024) (k0_off436 (grid0.coords t)) S1x8x1x1024.size (k0_off436_inb (grid0.coords t) h2)) (fun _ => rfl)).squeeze S8x1024 squeezes_S1x8x1x1024_S8x1024 = rowM scA (slN (t.val + 1)) ⟨48, Nat.le_of_ble_eq_true rfl⟩ :=
  congrArg (fun M : Memref sig .tc .vmem S1x8x1x1024 .f32 => M.squeeze S8x1024 squeezes_S1x8x1x1024_S8x1024) (Memref.slice_unit_congr _ (coff_FA48 t h2) _ _ (fun _ => rfl) (fun _ => rfl))
theorem coff_FB48 : ∀ t : Fin grid0.N, k0_cond2 (grid0.coords t) = 1#1 → k0_off439 (grid0.coords t) = ![(slN (t.val + 1)).val, 0, 48, 0] := by decide +kernel
@[sl_canon] theorem canon_FB48 (t : Fin grid0.N) (h2 : k0_cond2 (grid0.coords t) = 1#1) :
    (scB.slice (Rect.unit (s := S2x8x64x1024) (k0_off439 (grid0.coords t)) S1x8x1x1024.size (k0_off439_inb (grid0.coords t) h2)) (fun _ => rfl)).squeeze S8x1024 squeezes_S1x8x1x1024_S8x1024 = rowM scB (slN (t.val + 1)) ⟨48, Nat.le_of_ble_eq_true rfl⟩ :=
  congrArg (fun M : Memref sig .tc .vmem S1x8x1x1024 .f32 => M.squeeze S8x1024 squeezes_S1x8x1x1024_S8x1024) (Memref.slice_unit_congr _ (coff_FB48 t h2) _ _ (fun _ => rfl) (fun _ => rfl))
@[sl_canon] theorem canon_Fsem_semsA438 (t : Fin grid0.N) (h2 : k0_cond2 (grid0.coords t) = 1#1) :
    (cc0_scratch2.slice (Rect.unit (s := S2) (k0_off438 (grid0.coords t)) S1.size (k0_off438_inb (grid0.coords t) h2))).squeeze S_ squeezes_S1_S_ = semsA (slN (t.val + 1)) :=
  congrArg (fun A : DmaSems sig S1 => A.squeeze S_ squeezes_S1_S_) (SemArray.slice_unit_congr _ (coff_Fsem438 t h2) _ _)
theorem coff_Fsem443 : ∀ t : Fin grid0.N, k0_cond2 (grid0.coords t) = 1#1 → k0_off443 (grid0.coords t) = ![(slN (t.val + 1)).val] := by decide +kernel
@[sl_canon] theorem canon_Fsem_semsB443 (t : Fin grid0.N) (h2 : k0_cond2 (grid0.coords t) = 1#1) :
    (cc0_scratch3.slice (Rect.unit (s := S2) (k0_off443 (grid0.coords t)) S1.size (k0_off443_inb (grid0.coords t) h2))).squeeze S_ squeezes_S1_S_ = semsB (slN (t.val + 1)) :=
  congrArg (fun A : DmaSems sig S1 => A.squeeze S_ squeezes_S1_S_) (SemArray.slice_unit_congr _ (coff_Fsem443 t h2) _ _)
theorem coff_FA49 : ∀ t : Fin grid0.N, k0_cond2 (grid0.coords t) = 1#1 → k0_off441 (grid0.coords t) = ![(slN (t.val + 1)).val, 0, 49, 0] := by decide +kernel
@[sl_canon] theorem canon_FA49 (t : Fin grid0.N) (h2 : k0_cond2 (grid0.coords t) = 1#1) :
    (scA.slice (Rect.unit (s := S2x8x64x1024) (k0_off441 (grid0.coords t)) S1x8x1x1024.size (k0_off441_inb (grid0.coords t) h2)) (fun _ => rfl)).squeeze S8x1024 squeezes_S1x8x1x1024_S8x1024 = rowM scA (slN (t.val + 1)) ⟨49, Nat.le_of_ble_eq_true rfl⟩ :=
  congrArg (fun M : Memref sig .tc .vmem S1x8x1x1024 .f32 => M.squeeze S8x1024 squeezes_S1x8x1x1024_S8x1024) (Memref.slice_unit_congr _ (coff_FA49 t h2) _ _ (fun _ => rfl) (fun _ => rfl))
theorem coff_FB49 : ∀ t : Fin grid0.N, k0_cond2 (grid0.coords t) = 1#1 → k0_off444 (grid0.coords t) = ![(slN (t.val + 1)).val, 0, 49, 0] := by decide +kernel
@[sl_canon] theorem canon_FB49 (t : Fin grid0.N) (h2 : k0_cond2 (grid0.coords t) = 1#1) :
    (scB.slice (Rect.unit (s := S2x8x64x1024) (k0_off444 (grid0.coords t)) S1x8x1x1024.size (k0_off444_inb (grid0.coords t) h2)) (fun _ => rfl)).squeeze S8x1024 squeezes_S1x8x1x1024_S8x1024 = rowM scB (slN (t.val + 1)) ⟨49, Nat.le_of_ble_eq_true rfl⟩ :=
  congrArg (fun M : Memref sig .tc .vmem S1x8x1x1024 .f32 => M.squeeze S8x1024 squeezes_S1x8x1x1024_S8x1024) (Memref.slice_unit_congr _ (coff_FB49 t h2) _ _ (fun _ => rfl) (fun _ => rfl))
@[sl_canon] theorem canon_Fsem_semsA443 (t : Fin grid0.N) (h2 : k0_cond2 (grid0.coords t) = 1#1) :
    (cc0_scratch2.slice (Rect.unit (s := S2) (k0_off443 (grid0.coords t)) S1.size (k0_off443_inb (grid0.coords t) h2))).squeeze S_ squeezes_S1_S_ = semsA (slN (t.val + 1)) :=
  congrArg (fun A : DmaSems sig S1 => A.squeeze S_ squeezes_S1_S_) (SemArray.slice_unit_congr _ (coff_Fsem443 t h2) _ _)
theorem coff_Fsem448 : ∀ t : Fin grid0.N, k0_cond2 (grid0.coords t) = 1#1 → k0_off448 (grid0.coords t) = ![(slN (t.val + 1)).val] := by decide +kernel
@[sl_canon] theorem canon_Fsem_semsB448 (t : Fin grid0.N) (h2 : k0_cond2 (grid0.coords t) = 1#1) :
    (cc0_scratch3.slice (Rect.unit (s := S2) (k0_off448 (grid0.coords t)) S1.size (k0_off448_inb (grid0.coords t) h2))).squeeze S_ squeezes_S1_S_ = semsB (slN (t.val + 1)) :=
  congrArg (fun A : DmaSems sig S1 => A.squeeze S_ squeezes_S1_S_) (SemArray.slice_unit_congr _ (coff_Fsem448 t h2) _ _)
theorem coff_FA50 : ∀ t : Fin grid0.N, k0_cond2 (grid0.coords t) = 1#1 → k0_off446 (grid0.coords t) = ![(slN (t.val + 1)).val, 0, 50, 0] := by decide +kernel
@[sl_canon] theorem canon_FA50 (t : Fin grid0.N) (h2 : k0_cond2 (grid0.coords t) = 1#1) :
    (scA.slice (Rect.unit (s := S2x8x64x1024) (k0_off446 (grid0.coords t)) S1x8x1x1024.size (k0_off446_inb (grid0.coords t) h2)) (fun _ => rfl)).squeeze S8x1024 squeezes_S1x8x1x1024_S8x1024 = rowM scA (slN (t.val + 1)) ⟨50, Nat.le_of_ble_eq_true rfl⟩ :=
  congrArg (fun M : Memref sig .tc .vmem S1x8x1x1024 .f32 => M.squeeze S8x1024 squeezes_S1x8x1x1024_S8x1024) (Memref.slice_unit_congr _ (coff_FA50 t h2) _ _ (fun _ => rfl) (fun _ => rfl))
theorem coff_FB50 : ∀ t : Fin grid0.N, k0_cond2 (grid0.coords t) = 1#1 → k0_off449 (grid0.coords t) = ![(slN (t.val + 1)).val, 0, 50, 0] := by decide +kernel
@[sl_canon] theorem canon_FB50 (t : Fin grid0.N) (h2 : k0_cond2 (grid0.coords t) = 1#1) :
    (scB.slice (Rect.unit (s := S2x8x64x1024) (k0_off449 (grid0.coords t)) S1x8x1x1024.size (k0_off449_inb (grid0.coords t) h2)) (fun _ => rfl)).squeeze S8x1024 squeezes_S1x8x1x1024_S8x1024 = rowM scB (slN (t.val + 1)) ⟨50, Nat.le_of_ble_eq_true rfl⟩ :=
  congrArg (fun M : Memref sig .tc .vmem S1x8x1x1024 .f32 => M.squeeze S8x1024 squeezes_S1x8x1x1024_S8x1024) (Memref.slice_unit_congr _ (coff_FB50 t h2) _ _ (fun _ => rfl) (fun _ => rfl))
@[sl_canon] theorem canon_Fsem_semsA448 (t : Fin grid0.N) (h2 : k0_cond2 (grid0.coords t) = 1#1) :
    (cc0_scratch2.slice (Rect.unit (s := S2) (k0_off448 (grid0.coords t)) S1.size (k0_off448_inb (grid0.coords t) h2))).squeeze S_ squeezes_S1_S_ = semsA (slN (t.val + 1)) :=
  congrArg (fun A : DmaSems sig S1 => A.squeeze S_ squeezes_S1_S_) (SemArray.slice_unit_congr _ (coff_Fsem448 t h2) _ _)
theorem coff_Fsem453 : ∀ t : Fin grid0.N, k0_cond2 (grid0.coords t) = 1#1 → k0_off453 (grid0.coords t) = ![(slN (t.val + 1)).val] := by decide +kernel
@[sl_canon] theorem canon_Fsem_semsB453 (t : Fin grid0.N) (h2 : k0_cond2 (grid0.coords t) = 1#1) :
    (cc0_scratch3.slice (Rect.unit (s := S2) (k0_off453 (grid0.coords t)) S1.size (k0_off453_inb (grid0.coords t) h2))).squeeze S_ squeezes_S1_S_ = semsB (slN (t.val + 1)) :=
  congrArg (fun A : DmaSems sig S1 => A.squeeze S_ squeezes_S1_S_) (SemArray.slice_unit_congr _ (coff_Fsem453 t h2) _ _)
theorem coff_FA51 : ∀ t : Fin grid0.N, k0_cond2 (grid0.coords t) = 1#1 → k0_off451 (grid0.coords t) = ![(slN (t.val + 1)).val, 0, 51, 0] := by decide +kernel
@[sl_canon] theorem canon_FA51 (t : Fin grid0.N) (h2 : k0_cond2 (grid0.coords t) = 1#1) :
    (scA.slice (Rect.unit (s := S2x8x64x1024) (k0_off451 (grid0.coords t)) S1x8x1x1024.size (k0_off451_inb (grid0.coords t) h2)) (fun _ => rfl)).squeeze S8x1024 squeezes_S1x8x1x1024_S8x1024 = rowM scA (slN (t.val + 1)) ⟨51, Nat.le_of_ble_eq_true rfl⟩ :=
  congrArg (fun M : Memref sig .tc .vmem S1x8x1x1024 .f32 => M.squeeze S8x1024 squeezes_S1x8x1x1024_S8x1024) (Memref.slice_unit_congr _ (coff_FA51 t h2) _ _ (fun _ => rfl) (fun _ => rfl))
theorem coff_FB51 : ∀ t : Fin grid0.N, k0_cond2 (grid0.coords t) = 1#1 → k0_off454 (grid0.coords t) = ![(slN (t.val + 1)).val, 0, 51, 0] := by decide +kernel
@[sl_canon] theorem canon_FB51 (t : Fin grid0.N) (h2 : k0_cond2 (grid0.coords t) = 1#1) :
    (scB.slice (Rect.unit (s := S2x8x64x1024) (k0_off454 (grid0.coords t)) S1x8x1x1024.size (k0_off454_inb (grid0.coords t) h2)) (fun _ => rfl)).squeeze S8x1024 squeezes_S1x8x1x1024_S8x1024 = rowM scB (slN (t.val + 1)) ⟨51, Nat.le_of_ble_eq_true rfl⟩ :=
  congrArg (fun M : Memref sig .tc .vmem S1x8x1x1024 .f32 => M.squeeze S8x1024 squeezes_S1x8x1x1024_S8x1024) (Memref.slice_unit_congr _ (coff_FB51 t h2) _ _ (fun _ => rfl) (fun _ => rfl))
@[sl_canon] theorem canon_Fsem_semsA453 (t : Fin grid0.N) (h2 : k0_cond2 (grid0.coords t) = 1#1) :
    (cc0_scratch2.slice (Rect.unit (s := S2) (k0_off453 (grid0.coords t)) S1.size (k0_off453_inb (grid0.coords t) h2))).squeeze S_ squeezes_S1_S_ = semsA (slN (t.val + 1)) :=
  congrArg (fun A : DmaSems sig S1 => A.squeeze S_ squeezes_S1_S_) (SemArray.slice_unit_congr _ (coff_Fsem453 t h2) _ _)
theorem coff_Fsem458 : ∀ t : Fin grid0.N, k0_cond2 (grid0.coords t) = 1#1 → k0_off458 (grid0.coords t) = ![(slN (t.val + 1)).val] := by decide +kernel
@[sl_canon] theorem canon_Fsem_semsB458 (t : Fin grid0.N) (h2 : k0_cond2 (grid0.coords t) = 1#1) :
    (cc0_scratch3.slice (Rect.unit (s := S2) (k0_off458 (grid0.coords t)) S1.size (k0_off458_inb (grid0.coords t) h2))).squeeze S_ squeezes_S1_S_ = semsB (slN (t.val + 1)) :=
  congrArg (fun A : DmaSems sig S1 => A.squeeze S_ squeezes_S1_S_) (SemArray.slice_unit_congr _ (coff_Fsem458 t h2) _ _)
theorem coff_FA52 : ∀ t : Fin grid0.N, k0_cond2 (grid0.coords t) = 1#1 → k0_off456 (grid0.coords t) = ![(slN (t.val + 1)).val, 0, 52, 0] := by decide +kernel
@[sl_canon] theorem canon_FA52 (t : Fin grid0.N) (h2 : k0_cond2 (grid0.coords t) = 1#1) :
    (scA.slice (Rect.unit (s := S2x8x64x1024) (k0_off456 (grid0.coords t)) S1x8x1x1024.size (k0_off456_inb (grid0.coords t) h2)) (fun _ => rfl)).squeeze S8x1024 squeezes_S1x8x1x1024_S8x1024 = rowM scA (slN (t.val + 1)) ⟨52, Nat.le_of_ble_eq_true rfl⟩ :=
  congrArg (fun M : Memref sig .tc .vmem S1x8x1x1024 .f32 => M.squeeze S8x1024 squeezes_S1x8x1x1024_S8x1024) (Memref.slice_unit_congr _ (coff_FA52 t h2) _ _ (fun _ => rfl) (fun _ => rfl))
theorem coff_FB52 : ∀ t : Fin grid0.N, k0_cond2 (grid0.coords t) = 1#1 → k0_off459 (grid0.coords t) = ![(slN (t.val + 1)).val, 0, 52, 0] := by decide +kernel
@[sl_canon] theorem canon_FB52 (t : Fin grid0.N) (h2 : k0_cond2 (grid0.coords t) = 1#1) :
    (scB.slice (Rect.unit (s := S2x8x64x1024) (k0_off459 (grid0.coords t)) S1x8x1x1024.size (k0_off459_inb (grid0.coords t) h2)) (fun _ => rfl)).squeeze S8x1024 squeezes_S1x8x1x1024_S8x1024 = rowM scB (slN (t.val + 1)) ⟨52, Nat.le_of_ble_eq_true rfl⟩ :=
  congrArg (fun M : Memref sig .tc .vmem S1x8x1x1024 .f32 => M.squeeze S8x1024 squeezes_S1x8x1x1024_S8x1024) (Memref.slice_unit_congr _ (coff_FB52 t h2) _ _ (fun _ => rfl) (fun _ => rfl))
@[sl_canon] theorem canon_Fsem_semsA458 (t : Fin grid0.N) (h2 : k0_cond2 (grid0.coords t) = 1#1) :
    (cc0_scratch2.slice (Rect.unit (s := S2) (k0_off458 (grid0.coords t)) S1.size (k0_off458_inb (grid0.coords t) h2))).squeeze S_ squeezes_S1_S_ = semsA (slN (t.val + 1)) :=
  congrArg (fun A : DmaSems sig S1 => A.squeeze S_ squeezes_S1_S_) (SemArray.slice_unit_congr _ (coff_Fsem458 t h2) _ _)
theorem coff_Fsem463 : ∀ t : Fin grid0.N, k0_cond2 (grid0.coords t) = 1#1 → k0_off463 (grid0.coords t) = ![(slN (t.val + 1)).val] := by decide +kernel
@[sl_canon] theorem canon_Fsem_semsB463 (t : Fin grid0.N) (h2 : k0_cond2 (grid0.coords t) = 1#1) :
    (cc0_scratch3.slice (Rect.unit (s := S2) (k0_off463 (grid0.coords t)) S1.size (k0_off463_inb (grid0.coords t) h2))).squeeze S_ squeezes_S1_S_ = semsB (slN (t.val + 1)) :=
  congrArg (fun A : DmaSems sig S1 => A.squeeze S_ squeezes_S1_S_) (SemArray.slice_unit_congr _ (coff_Fsem463 t h2) _ _)
theorem coff_FA53 : ∀ t : Fin grid0.N, k0_cond2 (grid0.coords t) = 1#1 → k0_off461 (grid0.coords t) = ![(slN (t.val + 1)).val, 0, 53, 0] := by decide +kernel
@[sl_canon] theorem canon_FA53 (t : Fin grid0.N) (h2 : k0_cond2 (grid0.coords t) = 1#1) :
    (scA.slice (Rect.unit (s := S2x8x64x1024) (k0_off461 (grid0.coords t)) S1x8x1x1024.size (k0_off461_inb (grid0.coords t) h2)) (fun _ => rfl)).squeeze S8x1024 squeezes_S1x8x1x1024_S8x1024 = rowM scA (slN (t.val + 1)) ⟨53, Nat.le_of_ble_eq_true rfl⟩ :=
  congrArg (fun M : Memref sig .tc .vmem S1x8x1x1024 .f32 => M.squeeze S8x1024 squeezes_S1x8x1x1024_S8x1024) (Memref.slice_unit_congr _ (coff_FA53 t h2) _ _ (fun _ => rfl) (fun _ => rfl))
theorem coff_FB53 : ∀ t : Fin grid0.N, k0_cond2 (grid0.coords t) = 1#1 → k0_off464 (grid0.coords t) = ![(slN (t.val + 1)).val, 0, 53, 0] := by decide +kernel
@[sl_canon] theorem canon_FB53 (t : Fin grid0.N) (h2 : k0_cond2 (grid0.coords t) = 1#1) :
    (scB.slice (Rect.unit (s := S2x8x64x1024) (k0_off464 (grid0.coords t)) S1x8x1x1024.size (k0_off464_inb (grid0.coords t) h2)) (fun _ => rfl)).squeeze S8x1024 squeezes_S1x8x1x1024_S8x1024 = rowM scB (slN (t.val + 1)) ⟨53, Nat.le_of_ble_eq_true rfl⟩ :=
  congrArg (fun M : Memref sig .tc .vmem S1x8x1x1024 .f32 => M.squeeze S8x1024 squeezes_S1x8x1x1024_S8x1024) (Memref.slice_unit_congr _ (coff_FB53 t h2) _ _ (fun _ => rfl) (fun _ => rfl))
@[sl_canon] theorem canon_Fsem_semsA463 (t : Fin grid0.N) (h2 : k0_cond2 (grid0.coords t) = 1#1) :
    (cc0_scratch2.slice (Rect.unit (s := S2) (k0_off463 (grid0.coords t)) S1.size (k0_off463_inb (grid0.coords t) h2))).squeeze S_ squeezes_S1_S_ = semsA (slN (t.val + 1)) :=
  congrArg (fun A : DmaSems sig S1 => A.squeeze S_ squeezes_S1_S_) (SemArray.slice_unit_congr _ (coff_Fsem463 t h2) _ _)
theorem coff_Fsem468 : ∀ t : Fin grid0.N, k0_cond2 (grid0.coords t) = 1#1 → k0_off468 (grid0.coords t) = ![(slN (t.val + 1)).val] := by decide +kernel
@[sl_canon] theorem canon_Fsem_semsB468 (t : Fin grid0.N) (h2 : k0_cond2 (grid0.coords t) = 1#1) :
    (cc0_scratch3.slice (Rect.unit (s := S2) (k0_off468 (grid0.coords t)) S1.size (k0_off468_inb (grid0.coords t) h2))).squeeze S_ squeezes_S1_S_ = semsB (slN (t.val + 1)) :=
  congrArg (fun A : DmaSems sig S1 => A.squeeze S_ squeezes_S1_S_) (SemArray.slice_unit_congr _ (coff_Fsem468 t h2) _ _)
theorem coff_FA54 : ∀ t : Fin grid0.N, k0_cond2 (grid0.coords t) = 1#1 → k0_off466 (grid0.coords t) = ![(slN (t.val + 1)).val, 0, 54, 0] := by decide +kernel
@[sl_canon] theorem canon_FA54 (t : Fin grid0.N) (h2 : k0_cond2 (grid0.coords t) = 1#1) :
    (scA.slice (Rect.unit (s := S2x8x64x1024) (k0_off466 (grid0.coords t)) S1x8x1x1024.size (k0_off466_inb (grid0.coords t) h2)) (fun _ => rfl)).squeeze S8x1024 squeezes_S1x8x1x1024_S8x1024 = rowM scA (slN (t.val + 1)) ⟨54, Nat.le_of_ble_eq_true rfl⟩ :=
  congrArg (fun M : Memref sig .tc .vmem S1x8x1x1024 .f32 => M.squeeze S8x1024 squeezes_S1x8x1x1024_S8x1024) (Memref.slice_unit_congr _ (coff_FA54 t h2) _ _ (fun _ => rfl) (fun _ => rfl))
theorem coff_FB54 : ∀ t : Fin grid0.N, k0_cond2 (grid0.coords t) = 1#1 → k0_off469 (grid0.coords t) = ![(slN (t.val + 1)).val, 0, 54, 0] := by decide +kernel
@[sl_canon] theorem canon_FB54 (t : Fin grid0.N) (h2 : k0_cond2 (grid0.coords t) = 1#1) :
    (scB.slice (Rect.unit (s := S2x8x64x1024) (k0_off469 (grid0.coords t)) S1x8x1x1024.size (k0_off469_inb (grid0.coords t) h2)) (fun _ => rfl)).squeeze S8x1024 squeezes_S1x8x1x1024_S8x1024 = rowM scB (slN (t.val + 1)) ⟨54, Nat.le_of_ble_eq_true rfl⟩ :=
  congrArg (fun M : Memref sig .tc .vmem S1x8x1x1024 .f32 => M.squeeze S8x1024 squeezes_S1x8x1x1024_S8x1024) (Memref.slice_unit_congr _ (coff_FB54 t h2) _ _ (fun _ => rfl) (fun _ => rfl))
@[sl_canon] theorem canon_Fsem_semsA468 (t : Fin grid0.N) (h2 : k0_cond2 (grid0.coords t) = 1#1) :
    (cc0_scratch2.slice (Rect.unit (s := S2) (k0_off468 (grid0.coords t)) S1.size (k0_off468_inb (grid0.coords t) h2))).squeeze S_ squeezes_S1_S_ = semsA (slN (t.val + 1)) :=
  congrArg (fun A : DmaSems sig S1 => A.squeeze S_ squeezes_S1_S_) (SemArray.slice_unit_congr _ (coff_Fsem468 t h2) _ _)
theorem coff_Fsem473 : ∀ t : Fin grid0.N, k0_cond2 (grid0.coords t) = 1#1 → k0_off473 (grid0.coords t) = ![(slN (t.val + 1)).val] := by decide +kernel
@[sl_canon] theorem canon_Fsem_semsB473 (t : Fin grid0.N) (h2 : k0_cond2 (grid0.coords t) = 1#1) :
    (cc0_scratch3.slice (Rect.unit (s := S2) (k0_off473 (grid0.coords t)) S1.size (k0_off473_inb (grid0.coords t) h2))).squeeze S_ squeezes_S1_S_ = semsB (slN (t.val + 1)) :=
  congrArg (fun A : DmaSems sig S1 => A.squeeze S_ squeezes_S1_S_) (SemArray.slice_unit_congr _ (coff_Fsem473 t h2) _ _)
theorem coff_FA55 : ∀ t : Fin grid0.N, k0_cond2 (grid0.coords t) = 1#1 → k0_off471 (grid0.coords t) = ![(slN (t.val + 1)).val, 0, 55, 0] := by decide +kernel
@[sl_canon] theorem canon_FA55 (t : Fin grid0.N) (h2 : k0_cond2 (grid0.coords t) = 1#1) :
    (scA.slice (Rect.unit (s := S2x8x64x1024) (k0_off471 (grid0.coords t)) S1x8x1x1024.size (k0_off471_inb (grid0.coords t) h2)) (fun _ => rfl)).squeeze S8x1024 squeezes_S1x8x1x1024_S8x1024 = rowM scA (slN (t.val + 1)) ⟨55, Nat.le_of_ble_eq_true rfl⟩ :=
  congrArg (fun M : Memref sig .tc .vmem S1x8x1x1024 .f32 => M.squeeze S8x1024 squeezes_S1x8x1x1024_S8x1024) (Memref.slice_unit_congr _ (coff_FA55 t h2) _ _ (fun _ => rfl) (fun _ => rfl))
theorem coff_FB55 : ∀ t : Fin grid0.N, k0_cond2 (grid0.coords t) = 1#1 → k0_off474 (grid0.coords t) = ![(slN (t.val + 1)).val, 0, 55, 0] := by decide +kernel
@[sl_canon] theorem canon_FB55 (t : Fin grid0.N) (h2 : k0_cond2 (grid0.coords t) = 1#1) :
    (scB.slice (Rect.unit (s := S2x8x64x1024) (k0_off474 (grid0.coords t)) S1x8x1x1024.size (k0_off474_inb (grid0.coords t) h2)) (fun _ => rfl)).squeeze S8x1024 squeezes_S1x8x1x1024_S8x1024 = rowM scB (slN (t.val + 1)) ⟨55, Nat.le_of_ble_eq_true rfl⟩ :=
  congrArg (fun M : Memref sig .tc .vmem S1x8x1x1024 .f32 => M.squeeze S8x1024 squeezes_S1x8x1x1024_S8x1024) (Memref.slice_unit_congr _ (coff_FB55 t h2) _ _ (fun _ => rfl) (fun _ => rfl))
@[sl_canon] theorem canon_Fsem_semsA473 (t : Fin grid0.N) (h2 : k0_cond2 (grid0.coords t) = 1#1) :
    (cc0_scratch2.slice (Rect.unit (s := S2) (k0_off473 (grid0.coords t)) S1.size (k0_off473_inb (grid0.coords t) h2))).squeeze S_ squeezes_S1_S_ = semsA (slN (t.val + 1)) :=
  congrArg (fun A : DmaSems sig S1 => A.squeeze S_ squeezes_S1_S_) (SemArray.slice_unit_congr _ (coff_Fsem473 t h2) _ _)
theorem coff_Fsem478 : ∀ t : Fin grid0.N, k0_cond2 (grid0.coords t) = 1#1 → k0_off478 (grid0.coords t) = ![(slN (t.val + 1)).val] := by decide +kernel
@[sl_canon] theorem canon_Fsem_semsB478 (t : Fin grid0.N) (h2 : k0_cond2 (grid0.coords t) = 1#1) :
    (cc0_scratch3.slice (Rect.unit (s := S2) (k0_off478 (grid0.coords t)) S1.size (k0_off478_inb (grid0.coords t) h2))).squeeze S_ squeezes_S1_S_ = semsB (slN (t.val + 1)) :=
  congrArg (fun A : DmaSems sig S1 => A.squeeze S_ squeezes_S1_S_) (SemArray.slice_unit_congr _ (coff_Fsem478 t h2) _ _)
theorem coff_FA56 : ∀ t : Fin grid0.N, k0_cond2 (grid0.coords t) = 1#1 → k0_off476 (grid0.coords t) = ![(slN (t.val + 1)).val, 0, 56, 0] := by decide +kernel
@[sl_canon] theorem canon_FA56 (t : Fin grid0.N) (h2 : k0_cond2 (grid0.coords t) = 1#1) :
    (scA.slice (Rect.unit (s := S2x8x64x1024) (k0_off476 (grid0.coords t)) S1x8x1x1024.size (k0_off476_inb (grid0.coords t) h2)) (fun _ => rfl)).squeeze S8x1024 squeezes_S1x8x1x1024_S8x1024 = rowM scA (slN (t.val + 1)) ⟨56, Nat.le_of_ble_eq_true rfl⟩ :=
  congrArg (fun M : Memref sig .tc .vmem S1x8x1x1024 .f32 => M.squeeze S8x1024 squeezes_S1x8x1x1024_S8x1024) (Memref.slice_unit_congr _ (coff_FA56 t h2) _ _ (fun _ => rfl) (fun _ => rfl))
theorem coff_FB56 : ∀ t : Fin grid0.N, k0_cond2 (grid0.coords t) = 1#1 → k0_off479 (grid0.coords t) = ![(slN (t.val + 1)).val, 0, 56, 0] := by decide +kernel
@[sl_canon] theorem canon_FB56 (t : Fin grid0.N) (h2 : k0_cond2 (grid0.coords t) = 1#1) :
    (scB.slice (Rect.unit (s := S2x8x64x1024) (k0_off479 (grid0.coords t)) S1x8x1x1024.size (k0_off479_inb (grid0.coords t) h2)) (fun _ => rfl)).squeeze S8x1024 squeezes_S1x8x1x1024_S8x1024 = rowM scB (slN (t.val + 1)) ⟨56, Nat.le_of_ble_eq_true rfl⟩ :=
  congrArg (fun M : Memref sig .tc .vmem S1x8x1x1024 .f32 => M.squeeze S8x1024 squeezes_S1x8x1x1024_S8x1024) (Memref.slice_unit_congr _ (coff_FB56 t h2) _ _ (fun _ => rfl) (fun _ => rfl))
@[sl_canon] theorem canon_Fsem_semsA478 (t : Fin grid0.N) (h2 : k0_cond2 (grid0.coords t) = 1#1) :
    (cc0_scratch2.slice (Rect.unit (s := S2) (k0_off478 (grid0.coords t)) S1.size (k0_off478_inb (grid0.coords t) h2))).squeeze S_ squeezes_S1_S_ = semsA (slN (t.val + 1)) :=
  congrArg (fun A : DmaSems sig S1 => A.squeeze S_ squeezes_S1_S_) (SemArray.slice_unit_congr _ (coff_Fsem478 t h2) _ _)
theorem coff_Fsem483 : ∀ t : Fin grid0.N, k0_cond2 (grid0.coords t) = 1#1 → k0_off483 (grid0.coords t) = ![(slN (t.val + 1)).val] := by decide +kernel
@[sl_canon] theorem canon_Fsem_semsB483 (t : Fin grid0.N) (h2 : k0_cond2 (grid0.coords t) = 1#1) :
    (cc0_scratch3.slice (Rect.unit (s := S2) (k0_off483 (grid0.coords t)) S1.size (k0_off483_inb (grid0.coords t) h2))).squeeze S_ squeezes_S1_S_ = semsB (slN (t.val + 1)) :=
  congrArg (fun A : DmaSems sig S1 => A.squeeze S_ squeezes_S1_S_) (SemArray.slice_unit_congr _ (coff_Fsem483 t h2) _ _)
theorem coff_FA57 : ∀ t : Fin grid0.N, k0_cond2 (grid0.coords t) = 1#1 → k0_off481 (grid0.coords t) = ![(slN (t.val + 1)).val, 0, 57, 0] := by decide +kernel
@[sl_canon] theorem canon_FA57 (t : Fin grid0.N) (h2 : k0_cond2 (grid0.coords t) = 1#1) :
    (scA.slice (Rect.unit (s := S2x8x64x1024) (k0_off481 (grid0.coords t)) S1x8x1x1024.size (k0_off481_inb (grid0.coords t) h2)) (fun _ => rfl)).squeeze S8x1024 squeezes_S1x8x1x1024_S8x1024 = rowM scA (slN (t.val + 1)) ⟨57, Nat.le_of_ble_eq_true rfl⟩ :=
  congrArg (fun M : Memref sig .tc .vmem S1x8x1x1024 .f32 => M.squeeze S8x1024 squeezes_S1x8x1x1024_S8x1024) (Memref.slice_unit_congr _ (coff_FA57 t h2) _ _ (fun _ => rfl) (fun _ => rfl))
theorem coff_FB57 : ∀ t : Fin grid0.N, k0_cond2 (grid0.coords t) = 1#1 → k0_off484 (grid0.coords t) = ![(slN (t.val + 1)).val, 0, 57, 0] := by decide +kernel
@[sl_canon] theorem canon_FB57 (t : Fin grid0.N) (h2 : k0_cond2 (grid0.coords t) = 1#1) :
    (scB.slice (Rect.unit (s := S2x8x64x1024) (k0_off484 (grid0.coords t)) S1x8x1x1024.size (k0_off484_inb (grid0.coords t) h2)) (fun _ => rfl)).squeeze S8x1024 squeezes_S1x8x1x1024_S8x1024 = rowM scB (slN (t.val + 1)) ⟨57, Nat.le_of_ble_eq_true rfl⟩ :=
  congrArg (fun M : Memref sig .tc .vmem S1x8x1x1024 .f32 => M.squeeze S8x1024 squeezes_S1x8x1x1024_S8x1024) (Memref.slice_unit_congr _ (coff_FB57 t h2) _ _ (fun _ => rfl) (fun _ => rfl))
@[sl_canon] theorem canon_Fsem_semsA483 (t : Fin grid0.N) (h2 : k0_cond2 (grid0.coords t) = 1#1) :
    (cc0_scratch2.slice (Rect.unit (s := S2) (k0_off483 (grid0.coords t)) S1.size (k0_off483_inb (grid0.coords t) h2))).squeeze S_ squeezes_S1_S_ = semsA (slN (t.val + 1)) :=
  congrArg (fun A : DmaSems sig S1 => A.squeeze S_ squeezes_S1_S_) (SemArray.slice_unit_congr _ (coff_Fsem483 t h2) _ _)
theorem coff_Fsem488 : ∀ t : Fin grid0.N, k0_cond2 (grid0.coords t) = 1#1 → k0_off488 (grid0.coords t) = ![(slN (t.val + 1)).val] := by decide +kernel
@[sl_canon] theorem canon_Fsem_semsB488 (t : Fin grid0.N) (h2 : k0_cond2 (grid0.coords t) = 1#1) :
    (cc0_scratch3.slice (Rect.unit (s := S2) (k0_off488 (grid0.coords t)) S1.size (k0_off488_inb (grid0.coords t) h2))).squeeze S_ squeezes_S1_S_ = semsB (slN (t.val + 1)) :=
  congrArg (fun A : DmaSems sig S1 => A.squeeze S_ squeezes_S1_S_) (SemArray.slice_unit_congr _ (coff_Fsem488 t h2) _ _)
theorem coff_FA58 : ∀ t : Fin grid0.N, k0_cond2 (grid0.coords t) = 1#1 → k0_off486 (grid0.coords t) = ![(slN (t.val + 1)).val, 0, 58, 0] := by decide +kernel
@[sl_canon] theorem canon_FA58 (t : Fin grid0.N) (h2 : k0_cond2 (grid0.coords t) = 1#1) :
    (scA.slice (Rect.unit (s := S2x8x64x1024) (k0_off486 (grid0.coords t)) S1x8x1x1024.size (k0_off486_inb (grid0.coords t) h2)) (fun _ => rfl)).squeeze S8x1024 squeezes_S1x8x1x1024_S8x1024 = rowM scA (slN (t.val + 1)) ⟨58, Nat.le_of_ble_eq_true rfl⟩ :=
  congrArg (fun M : Memref sig .tc .vmem S1x8x1x1024 .f32 => M.squeeze S8x1024 squeezes_S1x8x1x1024_S8x1024) (Memref.slice_unit_congr _ (coff_FA58 t h2) _ _ (fun _ => rfl) (fun _ => rfl))
theorem coff_FB58 : ∀ t : Fin grid0.N, k0_cond2 (grid0.coords t) = 1#1 → k0_off489 (grid0.coords t) = ![(slN (t.val + 1)).val, 0, 58, 0] := by decide +kernel
@[sl_canon] theorem canon_FB58 (t : Fin grid0.N) (h2 : k0_cond2 (grid0.coords t) = 1#1) :
    (scB.slice (Rect.unit (s := S2x8x64x1024) (k0_off489 (grid0.coords t)) S1x8x1x1024.size (k0_off489_inb (grid0.coords t) h2)) (fun _ => rfl)).squeeze S8x1024 squeezes_S1x8x1x1024_S8x1024 = rowM scB (slN (t.val + 1)) ⟨58, Nat.le_of_ble_eq_true rfl⟩ :=
  congrArg (fun M : Memref sig .tc .vmem S1x8x1x1024 .f32 => M.squeeze S8x1024 squeezes_S1x8x1x1024_S8x1024) (Memref.slice_unit_congr _ (coff_FB58 t h2) _ _ (fun _ => rfl) (fun _ => rfl))
@[sl_canon] theorem canon_Fsem_semsA488 (t : Fin grid0.N) (h2 : k0_cond2 (grid0.coords t) = 1#1) :
    (cc0_scratch2.slice (Rect.unit (s := S2) (k0_off488 (grid0.coords t)) S1.size (k0_off488_inb (grid0.coords t) h2))).squeeze S_ squeezes_S1_S_ = semsA (slN (t.val + 1)) :=
  congrArg (fun A : DmaSems sig S1 => A.squeeze S_ squeezes_S1_S_) (SemArray.slice_unit_congr _ (coff_Fsem488 t h2) _ _)
theorem coff_Fsem493 : ∀ t : Fin grid0.N, k0_cond2 (grid0.coords t) = 1#1 → k0_off493 (grid0.coords t) = ![(slN (t.val + 1)).val] := by decide +kernel
@[sl_canon] theorem canon_Fsem_semsB493 (t : Fin grid0.N) (h2 : k0_cond2 (grid0.coords t) = 1#1) :
    (cc0_scratch3.slice (Rect.unit (s := S2) (k0_off493 (grid0.coords t)) S1.size (k0_off493_inb (grid0.coords t) h2))).squeeze S_ squeezes_S1_S_ = semsB (slN (t.val + 1)) :=
  congrArg (fun A : DmaSems sig S1 => A.squeeze S_ squeezes_S1_S_) (SemArray.slice_unit_congr _ (coff_Fsem493 t h2) _ _)
theorem coff_FA59 : ∀ t : Fin grid0.N, k0_cond2 (grid0.coords t) = 1#1 → k0_off491 (grid0.coords t) = ![(slN (t.val + 1)).val, 0, 59, 0] := by decide +kernel
@[sl_canon] theorem canon_FA59 (t : Fin grid0.N) (h2 : k0_cond2 (grid0.coords t) = 1#1) :
    (scA.slice (Rect.unit (s := S2x8x64x1024) (k0_off491 (grid0.coords t)) S1x8x1x1024.size (k0_off491_inb (grid0.coords t) h2)) (fun _ => rfl)).squeeze S8x1024 squeezes_S1x8x1x1024_S8x1024 = rowM scA (slN (t.val + 1)) ⟨59, Nat.le_of_ble_eq_true rfl⟩ :=
  congrArg (fun M : Memref sig .tc .vmem S1x8x1x1024 .f32 => M.squeeze S8x1024 squeezes_S1x8x1x1024_S8x1024) (Memref.slice_unit_congr _ (coff_FA59 t h2) _ _ (fun _ => rfl) (fun _ => rfl))
theorem coff_FB59 : ∀ t : Fin grid0.N, k0_cond2 (grid0.coords t) = 1#1 → k0_off494 (grid0.coords t) = ![(slN (t.val + 1)).val, 0, 59, 0] := by decide +kernel
@[sl_canon] theorem canon_FB59 (t : Fin grid0.N) (h2 : k0_cond2 (grid0.coords t) = 1#1) :
    (scB.slice (Rect.unit (s := S2x8x64x1024) (k0_off494 (grid0.coords t)) S1x8x1x1024.size (k0_off494_inb (grid0.coords t) h2)) (fun _ => rfl)).squeeze S8x1024 squeezes_S1x8x1x1024_S8x1024 = rowM scB (slN (t.val + 1)) ⟨59, Nat.le_of_ble_eq_true rfl⟩ :=
  congrArg (fun M : Memref sig .tc .vmem S1x8x1x1024 .f32 => M.squeeze S8x1024 squeezes_S1x8x1x1024_S8x1024) (Memref.slice_unit_congr _ (coff_FB59 t h2) _ _ (fun _ => rfl) (fun _ => rfl))
@[sl_canon] theorem canon_Fsem_semsA493 (t : Fin grid0.N) (h2 : k0_cond2 (grid0.coords t) = 1#1) :
    (cc0_scratch2.slice (Rect.unit (s := S2) (k0_off493 (grid0.coords t)) S1.size (k0_off493_inb (grid0.coords t) h2))).squeeze S_ squeezes_S1_S_ = semsA (slN (t.val + 1)) :=
  congrArg (fun A : DmaSems sig S1 => A.squeeze S_ squeezes_S1_S_) (SemArray.slice_unit_congr _ (coff_Fsem493 t h2) _ _)
theorem coff_Fsem498 : ∀ t : Fin grid0.N, k0_cond2 (grid0.coords t) = 1#1 → k0_off498 (grid0.coords t) = ![(slN (t.val + 1)).val] := by decide +kernel
@[sl_canon] theorem canon_Fsem_semsB498 (t : Fin grid0.N) (h2 : k0_cond2 (grid0.coords t) = 1#1) :
    (cc0_scratch3.slice (Rect.unit (s := S2) (k0_off498 (grid0.coords t)) S1.size (k0_off498_inb (grid0.coords t) h2))).squeeze S_ squeezes_S1_S_ = semsB (slN (t.val + 1)) :=
  congrArg (fun A : DmaSems sig S1 => A.squeeze S_ squeezes_S1_S_) (SemArray.slice_unit_congr _ (coff_Fsem498 t h2) _ _)
theorem coff_FA60 : ∀ t : Fin grid0.N, k0_cond2 (grid0.coords t) = 1#1 → k0_off496 (grid0.coords t) = ![(slN (t.val + 1)).val, 0, 60, 0] := by decide +kernel
@[sl_canon] theorem canon_FA60 (t : Fin grid0.N) (h2 : k0_cond2 (grid0.coords t) = 1#1) :
    (scA.slice (Rect.unit (s := S2x8x64x1024) (k0_off496 (grid0.coords t)) S1x8x1x1024.size (k0_off496_inb (grid0.coords t) h2)) (fun _ => rfl)).squeeze S8x1024 squeezes_S1x8x1x1024_S8x1024 = rowM scA (slN (t.val + 1)) ⟨60, Nat.le_of_ble_eq_true rfl⟩ :=
  congrArg (fun M : Memref sig .tc .vmem S1x8x1x1024 .f32 => M.squeeze S8x1024 squeezes_S1x8x1x1024_S8x1024) (Memref.slice_unit_congr _ (coff_FA60 t h2) _ _ (fun _ => rfl) (fun _ => rfl))
theorem coff_FB60 : ∀ t : Fin grid0.N, k0_cond2 (grid0.coords t) = 1#1 → k0_off499 (grid0.coords t) = ![(slN (t.val + 1)).val, 0, 60, 0] := by decide +kernel
@[sl_canon] theorem canon_FB60 (t : Fin grid0.N) (h2 : k0_cond2 (grid0.coords t) = 1#1) :
    (scB.slice (Rect.unit (s := S2x8x64x1024) (k0_off499 (grid0.coords t)) S1x8x1x1024.size (k0_off499_inb (grid0.coords t) h2)) (fun _ => rfl)).squeeze S8x1024 squeezes_S1x8x1x1024_S8x1024 = rowM scB (slN (t.val + 1)) ⟨60, Nat.le_of_ble_eq_true rfl⟩ :=
  congrArg (fun M : Memref sig .tc .vmem S1x8x1x1024 .f32 => M.squeeze S8x1024 squeezes_S1x8x1x1024_S8x1024) (Memref.slice_unit_congr _ (coff_FB60 t h2) _ _ (fun _ => rfl) (fun _ => rfl))
@[sl_canon] theorem canon_Fsem_semsA498 (t : Fin grid0.N) (h2 : k0_cond2 (grid0.coords t) = 1#1) :
    (cc0_scratch2.slice (Rect.unit (s := S2) (k0_off498 (grid0.coords t)) S1.size (k0_off498_inb (grid0.coords t) h2))).squeeze S_ squeezes_S1_S_ = semsA (slN (t.val + 1)) :=
  congrArg (fun A : DmaSems sig S1 => A.squeeze S_ squeezes_S1_S_) (SemArray.slice_unit_congr _ (coff_Fsem498 t h2) _ _)
theorem coff_Fsem503 : ∀ t : Fin grid0.N, k0_cond2 (grid0.coords t) = 1#1 → k0_off503 (grid0.coords t) = ![(slN (t.val + 1)).val] := by decide +kernel
@[sl_canon] theorem canon_Fsem_semsB503 (t : Fin grid0.N) (h2 : k0_cond2 (grid0.coords t) = 1#1) :
    (cc0_scratch3.slice (Rect.unit (s := S2) (k0_off503 (grid0.coords t)) S1.size (k0_off503_inb (grid0.coords t) h2))).squeeze S_ squeezes_S1_S_ = semsB (slN (t.val + 1)) :=
  congrArg (fun A : DmaSems sig S1 => A.squeeze S_ squeezes_S1_S_) (SemArray.slice_unit_congr _ (coff_Fsem503 t h2) _ _)
theorem coff_FA61 : ∀ t : Fin grid0.N, k0_cond2 (grid0.coords t) = 1#1 → k0_off501 (grid0.coords t) = ![(slN (t.val + 1)).val, 0, 61, 0] := by decide +kernel
@[sl_canon] theorem canon_FA61 (t : Fin grid0.N) (h2 : k0_cond2 (grid0.coords t) = 1#1) :
    (scA.slice (Rect.unit (s := S2x8x64x1024) (k0_off501 (grid0.coords t)) S1x8x1x1024.size (k0_off501_inb (grid0.coords t) h2)) (fun _ => rfl)).squeeze S8x1024 squeezes_S1x8x1x1024_S8x1024 = rowM scA (slN (t.val + 1)) ⟨61, Nat.le_of_ble_eq_true rfl⟩ :=
  congrArg (fun M : Memref sig .tc .vmem S1x8x1x1024 .f32 => M.squeeze S8x1024 squeezes_S1x8x1x1024_S8x1024) (Memref.slice_unit_congr _ (coff_FA61 t h2) _ _ (fun _ => rfl) (fun _ => rfl))
theorem coff_FB61 : ∀ t : Fin grid0.N, k0_cond2 (grid0.coords t) = 1#1 → k0_off504 (grid0.coords t) = ![(slN (t.val + 1)).val, 0, 61, 0] := by decide +kernel
@[sl_canon] theorem canon_FB61 (t : Fin grid0.N) (h2 : k0_cond2 (grid0.coords t) = 1#1) :
    (scB.slice (Rect.unit (s := S2x8x64x1024) (k0_off504 (grid0.coords t)) S1x8x1x1024.size (k0_off504_inb (grid0.coords t) h2)) (fun _ => rfl)).squeeze S8x1024 squeezes_S1x8x1x1024_S8x1024 = rowM scB (slN (t.val + 1)) ⟨61, Nat.le_of_ble_eq_true rfl⟩ :=
  congrArg (fun M : Memref sig .tc .vmem S1x8x1x1024 .f32 => M.squeeze S8x1024 squeezes_S1x8x1x1024_S8x1024) (Memref.slice_unit_congr _ (coff_FB61 t h2) _ _ (fun _ => rfl) (fun _ => rfl))
@[sl_canon] theorem canon_Fsem_semsA503 (t : Fin grid0.N) (h2 : k0_cond2 (grid0.coords t) = 1#1) :
    (cc0_scratch2.slice (Rect.unit (s := S2) (k0_off503 (grid0.coords t)) S1.size (k0_off503_inb (grid0.coords t) h2))).squeeze S_ squeezes_S1_S_ = semsA (slN (t.val + 1)) :=
  congrArg (fun A : DmaSems sig S1 => A.squeeze S_ squeezes_S1_S_) (SemArray.slice_unit_congr _ (coff_Fsem503 t h2) _ _)
theorem coff_Fsem508 : ∀ t : Fin grid0.N, k0_cond2 (grid0.coords t) = 1#1 → k0_off508 (grid0.coords t) = ![(slN (t.val + 1)).val] := by decide +kernel
@[sl_canon] theorem canon_Fsem_semsB508 (t : Fin grid0.N) (h2 : k0_cond2 (grid0.coords t) = 1#1) :
    (cc0_scratch3.slice (Rect.unit (s := S2) (k0_off508 (grid0.coords t)) S1.size (k0_off508_inb (grid0.coords t) h2))).squeeze S_ squeezes_S1_S_ = semsB (slN (t.val + 1)) :=
  congrArg (fun A : DmaSems sig S1 => A.squeeze S_ squeezes_S1_S_) (SemArray.slice_unit_congr _ (coff_Fsem508 t h2) _ _)
theorem coff_FA62 : ∀ t : Fin grid0.N, k0_cond2 (grid0.coords t) = 1#1 → k0_off506 (grid0.coords t) = ![(slN (t.val + 1)).val, 0, 62, 0] := by decide +kernel
@[sl_canon] theorem canon_FA62 (t : Fin grid0.N) (h2 : k0_cond2 (grid0.coords t) = 1#1) :
    (scA.slice (Rect.unit (s := S2x8x64x1024) (k0_off506 (grid0.coords t)) S1x8x1x1024.size (k0_off506_inb (grid0.coords t) h2)) (fun _ => rfl)).squeeze S8x1024 squeezes_S1x8x1x1024_S8x1024 = rowM scA (slN (t.val + 1)) ⟨62, Nat.le_of_ble_eq_true rfl⟩ :=
  congrArg (fun M : Memref sig .tc .vmem S1x8x1x1024 .f32 => M.squeeze S8x1024 squeezes_S1x8x1x1024_S8x1024) (Memref.slice_unit_congr _ (coff_FA62 t h2) _ _ (fun _ => rfl) (fun _ => rfl))
theorem coff_FB62 : ∀ t : Fin grid0.N, k0_cond2 (grid0.coords t) = 1#1 → k0_off509 (grid0.coords t) = ![(slN (t.val + 1)).val, 0, 62, 0] := by decide +kernel
@[sl_canon] theorem canon_FB62 (t : Fin grid0.N) (h2 : k0_cond2 (grid0.coords t) = 1#1) :
    (scB.slice (Rect.unit (s := S2x8x64x1024) (k0_off509 (grid0.coords t)) S1x8x1x1024.size (k0_off509_inb (grid0.coords t) h2)) (fun _ => rfl)).squeeze S8x1024 squeezes_S1x8x1x1024_S8x1024 = rowM scB (slN (t.val + 1)) ⟨62, Nat.le_of_ble_eq_true rfl⟩ :=
  congrArg (fun M : Memref sig .tc .vmem S1x8x1x1024 .f32 => M.squeeze S8x1024 squeezes_S1x8x1x1024_S8x1024) (Memref.slice_unit_congr _ (coff_FB62 t h2) _ _ (fun _ => rfl) (fun _ => rfl))
@[sl_canon] theorem canon_Fsem_semsA508 (t : Fin grid0.N) (h2 : k0_cond2 (grid0.coords t) = 1#1) :
    (cc0_scratch2.slice (Rect.unit (s := S2) (k0_off508 (grid0.coords t)) S1.size (k0_off508_inb (grid0.coords t) h2))).squeeze S_ squeezes_S1_S_ = semsA (slN (t.val + 1)) :=
  congrArg (fun A : DmaSems sig S1 => A.squeeze S_ squeezes_S1_S_) (SemArray.slice_unit_congr _ (coff_Fsem508 t h2) _ _)
theorem coff_Fsem513 : ∀ t : Fin grid0.N, k0_cond2 (grid0.coords t) = 1#1 → k0_off513 (grid0.coords t) = ![(slN (t.val + 1)).val] := by decide +kernel
@[sl_canon] theorem canon_Fsem_semsB513 (t : Fin grid0.N) (h2 : k0_cond2 (grid0.coords t) = 1#1) :
    (cc0_scratch3.slice (Rect.unit (s := S2) (k0_off513 (grid0.coords t)) S1.size (k0_off513_inb (grid0.coords t) h2))).squeeze S_ squeezes_S1_S_ = semsB (slN (t.val + 1)) :=
  congrArg (fun A : DmaSems sig S1 => A.squeeze S_ squeezes_S1_S_) (SemArray.slice_unit_congr _ (coff_Fsem513 t h2) _ _)
theorem coff_FA63 : ∀ t : Fin grid0.N, k0_cond2 (grid0.coords t) = 1#1 → k0_off511 (grid0.coords t) = ![(slN (t.val + 1)).val, 0, 63, 0] := by decide +kernel
@[sl_canon] theorem canon_FA63 (t : Fin grid0.N) (h2 : k0_cond2 (grid0.coords t) = 1#1) :
    (scA.slice (Rect.unit (s := S2x8x64x1024) (k0_off511 (grid0.coords t)) S1x8x1x1024.size (k0_off511_inb (grid0.coords t) h2)) (fun _ => rfl)).squeeze S8x1024 squeezes_S1x8x1x1024_S8x1024 = rowM scA (slN (t.val + 1)) ⟨63, Nat.le_of_ble_eq_true rfl⟩ :=
  congrArg (fun M : Memref sig .tc .vmem S1x8x1x1024 .f32 => M.squeeze S8x1024 squeezes_S1x8x1x1024_S8x1024) (Memref.slice_unit_congr _ (coff_FA63 t h2) _ _ (fun _ => rfl) (fun _ => rfl))
theorem coff_FB63 : ∀ t : Fin grid0.N, k0_cond2 (grid0.coords t) = 1#1 → k0_off514 (grid0.coords t) = ![(slN (t.val + 1)).val, 0, 63, 0] := by decide +kernel
@[sl_canon] theorem canon_FB63 (t : Fin grid0.N) (h2 : k0_cond2 (grid0.coords t) = 1#1) :
    (scB.slice (Rect.unit (s := S2x8x64x1024) (k0_off514 (grid0.coords t)) S1x8x1x1024.size (k0_off514_inb (grid0.coords t) h2)) (fun _ => rfl)).squeeze S8x1024 squeezes_S1x8x1x1024_S8x1024 = rowM scB (slN (t.val + 1)) ⟨63, Nat.le_of_ble_eq_true rfl⟩ :=
  congrArg (fun M : Memref sig .tc .vmem S1x8x1x1024 .f32 => M.squeeze S8x1024 squeezes_S1x8x1x1024_S8x1024) (Memref.slice_unit_congr _ (coff_FB63 t h2) _ _ (fun _ => rfl) (fun _ => rfl))

/-! ## The first fetch of a row group: slot 0, literal offsets -/
@[sl_canon] theorem canon_IsemA : (cc0_scratch2.slice (Rect.unit (s := S2) ![0] S1.size inb_S2_S1_0)).squeeze S_ squeezes_S1_S_ = semsA 0 := rfl
@[sl_canon] theorem canon_IsemB : (cc0_scratch3.slice (Rect.unit (s := S2) ![0] S1.size inb_S2_S1_0)).squeeze S_ squeezes_S1_S_ = semsB 0 := rfl
@[sl_canon] theorem canon_IscA0 : (scA.slice (Rect.unit (s := S2x8x64x1024) ![0, 0, 0, 0] S1x8x1x1024.size inb_S2x8x64x1024_S1x8x1x1024_0_0_0_0) (fun _ => rfl)).squeeze S8x1024 squeezes_S1x8x1x1024_S8x1024 = rowM scA 0 ⟨0, Nat.le_of_ble_eq_true rfl⟩ := rfl
@[sl_canon] theorem canon_IscB0 : (scB.slice (Rect.unit (s := S2x8x64x1024) ![0, 0, 0, 0] S1x8x1x1024.size inb_S2x8x64x1024_S1x8x1x1024_0_0_0_0) (fun _ => rfl)).squeeze S8x1024 squeezes_S1x8x1x1024_S8x1024 = rowM scB 0 ⟨0, Nat.le_of_ble_eq_true rfl⟩ := rfl
@[sl_canon] theorem canon_IscA1 : (scA.slice (Rect.unit (s := S2x8x64x1024) ![0, 0, 1, 0] S1x8x1x1024.size inb_S2x8x64x1024_S1x8x1x1024_0_0_1_0) (fun _ => rfl)).squeeze S8x1024 squeezes_S1x8x1x1024_S8x1024 = rowM scA 0 ⟨1, Nat.le_of_ble_eq_true rfl⟩ := rfl
@[sl_canon] theorem canon_IscB1 : (scB.slice (Rect.unit (s := S2x8x64x1024) ![0, 0, 1, 0] S1x8x1x1024.size inb_S2x8x64x1024_S1x8x1x1024_0_0_1_0) (fun _ => rfl)).squeeze S8x1024 squeezes_S1x8x1x1024_S8x1024 = rowM scB 0 ⟨1, Nat.le_of_ble_eq_true rfl⟩ := rfl
@[sl_canon] theorem canon_IscA2 : (scA.slice (Rect.unit (s := S2x8x64x1024) ![0, 0, 2, 0] S1x8x1x1024.size inb_S2x8x64x1024_S1x8x1x1024_0_0_2_0) (fun _ => rfl)).squeeze S8x1024 squeezes_S1x8x1x1024_S8x1024 = rowM scA 0 ⟨2, Nat.le_of_ble_eq_true rfl⟩ := rfl
@[sl_canon] theorem canon_IscB2 : (scB.slice (Rect.unit (s := S2x8x64x1024) ![0, 0, 2, 0] S1x8x1x1024.size inb_S2x8x64x1024_S1x8x1x1024_0_0_2_0) (fun _ => rfl)).squeeze S8x1024 squeezes_S1x8x1x1024_S8x1024 = rowM scB 0 ⟨2, Nat.le_of_ble_eq_true rfl⟩ := rfl
@[sl_canon] theorem canon_IscA3 : (scA.slice (Rect.unit (s := S2x8x64x1024) ![0, 0, 3, 0] S1x8x1x1024.size inb_S2x8x64x1024_S1x8x1x1024_0_0_3_0) (fun _ => rfl)).squeeze S8x1024 squeezes_S1x8x1x1024_S8x1024 = rowM scA 0 ⟨3, Nat.le_of_ble_eq_true rfl⟩ := rfl
@[sl_canon] theorem canon_IscB3 : (scB.slice (Rect.unit (s := S2x8x64x1024) ![0, 0, 3, 0] S1x8x1x1024.size inb_S2x8x64x1024_S1x8x1x1024_0_0_3_0) (fun _ => rfl)).squeeze S8x1024 squeezes_S1x8x1x1024_S8x1024 = rowM scB 0 ⟨3, Nat.le_of_ble_eq_true rfl⟩ := rfl
@[sl_canon] theorem canon_IscA4 : (scA.slice (Rect.unit (s := S2x8x64x1024) ![0, 0, 4, 0] S1x8x1x1024.size inb_S2x8x64x1024_S1x8x1x1024_0_0_4_0) (fun _ => rfl)).squeeze S8x1024 squeezes_S1x8x1x1024_S8x1024 = rowM scA 0 ⟨4, Nat.le_of_ble_eq_true rfl⟩ := rfl
@[sl_canon] theorem canon_IscB4 : (scB.slice (Rect.unit (s := S2x8x64x1024) ![0, 0, 4, 0] S1x8x1x1024.size inb_S2x8x64x1024_S1x8x1x1024_0_0_4_0) (fun _ => rfl)).squeeze S8x1024 squeezes_S1x8x1x1024_S8x1024 = rowM scB 0 ⟨4, Nat.le_of_ble_eq_true rfl⟩ := rfl
@[sl_canon] theorem canon_IscA5 : (scA.slice (Rect.unit (s := S2x8x64x1024) ![0, 0, 5, 0] S1x8x1x1024.size inb_S2x8x64x1024_S1x8x1x1024_0_0_5_0) (fun _ => rfl)).squeeze S8x1024 squeezes_S1x8x1x1024_S8x1024 = rowM scA 0 ⟨5, Nat.le_of_ble_eq_true rfl⟩ := rfl
@[sl_canon] theorem canon_IscB5 : (scB.slice (Rect.unit (s := S2x8x64x1024) ![0, 0, 5, 0] S1x8x1x1024.size inb_S2x8x64x1024_S1x8x1x1024_0_0_5_0) (fun _ => rfl)).squeeze S8x1024 squeezes_S1x8x1x1024_S8x1024 = rowM scB 0 ⟨5, Nat.le_of_ble_eq_true rfl⟩ := rfl
@[sl_canon] theorem canon_IscA6 : (scA.slice (Rect.unit (s := S2x8x64x1024) ![0, 0, 6, 0] S1x8x1x1024.size inb_S2x8x64x1024_S1x8x1x1024_0_0_6_0) (fun _ => rfl)).squeeze S8x1024 squeezes_S1x8x1x1024_S8x1024 = rowM scA 0 ⟨6, Nat.le_of_ble_eq_true rfl⟩ := rfl
@[sl_canon] theorem canon_IscB6 : (scB.slice (Rect.unit (s := S2x8x64x1024) ![0, 0, 6, 0] S1x8x1x1024.size inb_S2x8x64x1024_S1x8x1x1024_0_0_6_0) (fun _ => rfl)).squeeze S8x1024 squeezes_S1x8x1x1024_S8x1024 = rowM scB 0 ⟨6, Nat.le_of_ble_eq_true rfl⟩ := rfl
@[sl_canon] theorem canon_IscA7 : (scA.slice (Rect.unit (s := S2x8x64x1024) ![0, 0, 7, 0] S1x8x1x1024.size inb_S2x8x64x1024_S1x8x1x1024_0_0_7_0) (fun _ => rfl)).squeeze S8x1024 squeezes_S1x8x1x1024_S8x1024 = rowM scA 0 ⟨7, Nat.le_of_ble_eq_true rfl⟩ := rfl
@[sl_canon] theorem canon_IscB7 : (scB.slice (Rect.unit (s := S2x8x64x1024) ![0, 0, 7, 0] S1x8x1x1024.size inb_S2x8x64x1024_S1x8x1x1024_0_0_7_0) (fun _ => rfl)).squeeze S8x1024 squeezes_S1x8x1x1024_S8x1024 = rowM scB 0 ⟨7, Nat.le_of_ble_eq_true rfl⟩ := rfl
@[sl_canon] theorem canon_IscA8 : (scA.slice (Rect.unit (s := S2x8x64x1024) ![0, 0, 8, 0] S1x8x1x1024.size inb_S2x8x64x1024_S1x8x1x1024_0_0_8_0) (fun _ => rfl)).squeeze S8x1024 squeezes_S1x8x1x1024_S8x1024 = rowM scA 0 ⟨8, Nat.le_of_ble_eq_true rfl⟩ := rfl
@[sl_canon] theorem canon_IscB8 : (scB.slice (Rect.unit (s := S2x8x64x1024) ![0, 0, 8, 0] S1x8x1x1024.size inb_S2x8x64x1024_S1x8x1x1024_0_0_8_0) (fun _ => rfl)).squeeze S8x1024 squeezes_S1x8x1x1024_S8x1024 = rowM scB 0 ⟨8, Nat.le_of_ble_eq_true rfl⟩ := rfl
@[sl_canon] theorem canon_IscA9 : (scA.slice (Rect.unit (s := S2x8x64x1024) ![0, 0, 9, 0] S1x8x1x1024.size inb_S2x8x64x1024_S1x8x1x1024_0_0_9_0) (fun _ => rfl)).squeeze S8x1024 squeezes_S1x8x1x1024_S8x1024 = rowM scA 0 ⟨9, Nat.le_of_ble_eq_true rfl⟩ := rfl
@[sl_canon] theorem canon_IscB9 : (scB.slice (Rect.unit (s := S2x8x64x1024) ![0, 0, 9, 0] S1x8x1x1024.size inb_S2x8x64x1024_S1x8x1x1024_0_0_9_0) (fun _ => rfl)).squeeze S8x1024 squeezes_S1x8x1x1024_S8x1024 = rowM scB 0 ⟨9, Nat.le_of_ble_eq_true rfl⟩ := rfl
@[sl_canon] theorem canon_IscA10 : (scA.slice (Rect.unit (s := S2x8x64x1024) ![0, 0, 10, 0] S1x8x1x1024.size inb_S2x8x64x1024_S1x8x1x1024_0_0_10_0) (fun _ => rfl)).squeeze S8x1024 squeezes_S1x8x1x1024_S8x1024 = rowM scA 0 ⟨10, Nat.le_of_ble_eq_true rfl⟩ := rfl
@[sl_canon] theorem canon_IscB10 : (scB.slice (Rect.unit (s := S2x8x64x1024) ![0, 0, 10, 0] S1x8x1x1024.size inb_S2x8x64x1024_S1x8x1x1024_0_0_10_0) (fun _ => rfl)).squeeze S8x1024 squeezes_S1x8x1x1024_S8x1024 = rowM scB 0 ⟨10, Nat.le_of_ble_eq_true rfl⟩ := rfl
@[sl_canon] theorem canon_IscA11 : (scA.slice (Rect.unit (s := S2x8x64x1024) ![0, 0, 11, 0] S1x8x1x1024.size inb_S2x8x64x1024_S1x8x1x1024_0_0_11_0) (fun _ => rfl)).squeeze S8x1024 squeezes_S1x8x1x1024_S8x1024 = rowM scA 0 ⟨11, Nat.le_of_ble_eq_true rfl⟩ := rfl
@[sl_canon] theorem canon_IscB11 : (scB.slice (Rect.unit (s := S2x8x64x1024) ![0, 0, 11, 0] S1x8x1x1024.size inb_S2x8x64x1024_S1x8x1x1024_0_0_11_0) (fun _ => rfl)).squeeze S8x1024 squeezes_S1x8x1x1024_S8x1024 = rowM scB 0 ⟨11, Nat.le_of_ble_eq_true rfl⟩ := rfl
@[sl_canon] theorem canon_IscA12 : (scA.slice (Rect.unit (s := S2x8x64x1024) ![0, 0, 12, 0] S1x8x1x1024.size inb_S2x8x64x1024_S1x8x1x1024_0_0_12_0) (fun _ => rfl)).squeeze S8x1024 squeezes_S1x8x1x1024_S8x1024 = rowM scA 0 ⟨12, Nat.le_of_ble_eq_true rfl⟩ := rfl
@[sl_canon] theorem canon_IscB12 : (scB.slice (Rect.unit (s := S2x8x64x1024) ![0, 0, 12, 0] S1x8x1x1024.size inb_S2x8x64x1024_S1x8x1x1024_0_0_12_0) (fun _ => rfl)).squeeze S8x1024 squeezes_S1x8x1x1024_S8x1024 = rowM scB 0 ⟨12, Nat.le_of_ble_eq_true rfl⟩ := rfl
@[sl_canon] theorem canon_IscA13 : (scA.slice (Rect.unit (s := S2x8x64x1024) ![0, 0, 13, 0] S1x8x1x1024.size inb_S2x8x64x1024_S1x8x1x1024_0_0_13_0) (fun _ => rfl)).squeeze S8x1024 squeezes_S1x8x1x1024_S8x1024 = rowM scA 0 ⟨13, Nat.le_of_ble_eq_true rfl⟩ := rfl
@[sl_canon] theorem canon_IscB13 : (scB.slice (Rect.unit (s := S2x8x64x1024) ![0, 0, 13, 0] S1x8x1x1024.size inb_S2x8x64x1024_S1x8x1x1024_0_0_13_0) (fun _ => rfl)).squeeze S8x1024 squeezes_S1x8x1x1024_S8x1024 = rowM scB 0 ⟨13, Nat.le_of_ble_eq_true rfl⟩ := rfl
@[sl_canon] theorem canon_IscA14 : (scA.slice (Rect.unit (s := S2x8x64x1024) ![0, 0, 14, 0] S1x8x1x1024.size inb_S2x8x64x1024_S1x8x1x1024_0_0_14_0) (fun _ => rfl)).squeeze S8x1024 squeezes_S1x8x1x1024_S8x1024 = rowM scA 0 ⟨14, Nat.le_of_ble_eq_true rfl⟩ := rfl
@[sl_canon] theorem canon_IscB14 : (scB.slice (Rect.unit (s := S2x8x64x1024) ![0, 0, 14, 0] S1x8x1x1024.size inb_S2x8x64x1024_S1x8x1x1024_0_0_14_0) (fun _ => rfl)).squeeze S8x1024 squeezes_S1x8x1x1024_S8x1024 = rowM scB 0 ⟨14, Nat.le_of_ble_eq_true rfl⟩ := rfl
@[sl_canon] theorem canon_IscA15 : (scA.slice (Rect.unit (s := S2x8x64x1024) ![0, 0, 15, 0] S1x8x1x1024.size inb_S2x8x64x1024_S1x8x1x1024_0_0_15_0) (fun _ => rfl)).squeeze S8x1024 squeezes_S1x8x1x1024_S8x1024 = rowM scA 0 ⟨15, Nat.le_of_ble_eq_true rfl⟩ := rfl
@[sl_canon] theorem canon_IscB15 : (scB.slice (Rect.unit (s := S2x8x64x1024) ![0, 0, 15, 0] S1x8x1x1024.size inb_S2x8x64x1024_S1x8x1x1024_0_0_15_0) (fun _ => rfl)).squeeze S8x1024 squeezes_S1x8x1x1024_S8x1024 = rowM scB 0 ⟨15, Nat.le_of_ble_eq_true rfl⟩ := rfl
@[sl_canon] theorem canon_IscA16 : (scA.slice (Rect.unit (s := S2x8x64x1024) ![0, 0, 16, 0] S1x8x1x1024.size inb_S2x8x64x1024_S1x8x1x1024_0_0_16_0) (fun _ => rfl)).squeeze S8x1024 squeezes_S1x8x1x1024_S8x1024 = rowM scA 0 ⟨16, Nat.le_of_ble_eq_true rfl⟩ := rfl
@[sl_canon] theorem canon_IscB16 : (scB.slice (Rect.unit (s := S2x8x64x1024) ![0, 0, 16, 0] S1x8x1x1024.size inb_S2x8x64x1024_S1x8x1x1024_0_0_16_0) (fun _ => rfl)).squeeze S8x1024 squeezes_S1x8x1x1024_S8x1024 = rowM scB 0 ⟨16, Nat.le_of_ble_eq_true rfl⟩ := rfl
@[sl_canon] theorem canon_IscA17 : (scA.slice (Rect.unit (s := S2x8x64x1024) ![0, 0, 17, 0] S1x8x1x1024.size inb_S2x8x64x1024_S1x8x1x1024_0_0_17_0) (fun _ => rfl)).squeeze S8x1024 squeezes_S1x8x1x1024_S8x1024 = rowM scA 0 ⟨17, Nat.le_of_ble_eq_true rfl⟩ := rfl
@[sl_canon] theorem canon_IscB17 : (scB.slice (Rect.unit (s := S2x8x64x1024) ![0, 0, 17, 0] S1x8x1x1024.size inb_S2x8x64x1024_S1x8x1x1024_0_0_17_0) (fun _ => rfl)).squeeze S8x1024 squeezes_S1x8x1x1024_S8x1024 = rowM scB 0 ⟨17, Nat.le_of_ble_eq_true rfl⟩ := rfl
@[sl_canon] theorem canon_IscA18 : (scA.slice (Rect.unit (s := S2x8x64x1024) ![0, 0, 18, 0] S1x8x1x1024.size inb_S2x8x64x1024_S1x8x1x1024_0_0_18_0) (fun _ => rfl)).squeeze S8x1024 squeezes_S1x8x1x1024_S8x1024 = rowM scA 0 ⟨18, Nat.le_of_ble_eq_true rfl⟩ := rfl
@[sl_canon] theorem canon_IscB18 : (scB.slice (Rect.unit (s := S2x8x64x1024) ![0, 0, 18, 0] S1x8x1x1024.size inb_S2x8x64x1024_S1x8x1x1024_0_0_18_0) (fun _ => rfl)).squeeze S8x1024 squeezes_S1x8x1x1024_S8x1024 = rowM scB 0 ⟨18, Nat.le_of_ble_eq_true rfl⟩ := rfl
@[sl_canon] theorem canon_IscA19 : (scA.slice (Rect.unit (s := S2x8x64x1024) ![0, 0, 19, 0] S1x8x1x1024.size inb_S2x8x64x1024_S1x8x1x1024_0_0_19_0) (fun _ => rfl)).squeeze S8x1024 squeezes_S1x8x1x1024_S8x1024 = rowM scA 0 ⟨19, Nat.le_of_ble_eq_true rfl⟩ := rfl
@[sl_canon] theorem canon_IscB19 : (scB.slice (Rect.unit (s := S2x8x64x1024) ![0, 0, 19, 0] S1x8x1x1024.size inb_S2x8x64x1024_S1x8x1x1024_0_0_19_0) (fun _ => rfl)).squeeze S8x1024 squeezes_S1x8x1x1024_S8x1024 = rowM scB 0 ⟨19, Nat.le_of_ble_eq_true rfl⟩ := rfl
@[sl_canon] theorem canon_IscA20 : (scA.slice (Rect.unit (s := S2x8x64x1024) ![0, 0, 20, 0] S1x8x1x1024.size inb_S2x8x64x1024_S1x8x1x1024_0_0_20_0) (fun _ => rfl)).squeeze S8x1024 squeezes_S1x8x1x1024_S8x1024 = rowM scA 0 ⟨20, Nat.le_of_ble_eq_true rfl⟩ := rfl
@[sl_canon] theorem canon_IscB20 : (scB.slice (Rect.unit (s := S2x8x64x1024) ![0, 0, 20, 0] S1x8x1x1024.size inb_S2x8x64x1024_S1x8x1x1024_0_0_20_0) (fun _ => rfl)).squeeze S8x1024 squeezes_S1x8x1x1024_S8x1024 = rowM scB 0 ⟨20, Nat.le_of_ble_eq_true rfl⟩ := rfl
@[sl_canon] theorem canon_IscA21 : (scA.slice (Rect.unit (s := S2x8x64x1024) ![0, 0, 21, 0] S1x8x1x1024.size inb_S2x8x64x1024_S1x8x1x1024_0_0_21_0) (fun _ => rfl)).squeeze S8x1024 squeezes_S1x8x1x1024_S8x1024 = rowM scA 0 ⟨21, Nat.le_of_ble_eq_true rfl⟩ := rfl
@[sl_canon] theorem canon_IscB21 : (scB.slice (Rect.unit (s := S2x8x64x1024) ![0, 0, 21, 0] S1x8x1x1024.size inb_S2x8x64x1024_S1x8x1x1024_0_0_21_0) (fun _ => rfl)).squeeze S8x1024 squeezes_S1x8x1x1024_S8x1024 = rowM scB 0 ⟨21, Nat.le_of_ble_eq_true rfl⟩ := rfl
@[sl_canon] theorem canon_IscA22 : (scA.slice (Rect.unit (s := S2x8x64x1024) ![0, 0, 22, 0] S1x8x1x1024.size inb_S2x8x64x1024_S1x8x1x1024_0_0_22_0) (fun _ => rfl)).squeeze S8x1024 squeezes_S1x8x1x1024_S8x1024 = rowM scA 0 ⟨22, Nat.le_of_ble_eq_true rfl⟩ := rfl
@[sl_canon] theorem canon_IscB22 : (scB.slice (Rect.unit (s := S2x8x64x1024) ![0, 0, 22, 0] S1x8x1x1024.size inb_S2x8x64x1024_S1x8x1x1024_0_0_22_0) (fun _ => rfl)).squeeze S8x1024 squeezes_S1x8x1x1024_S8x1024 = rowM scB 0 ⟨22, Nat.le_of_ble_eq_true rfl⟩ := rfl
@[sl_canon] theorem canon_IscA23 : (scA.slice (Rect.unit (s := S2x8x64x1024) ![0, 0, 23, 0] S1x8x1x1024.size inb_S2x8x64x1024_S1x8x1x1024_0_0_23_0) (fun _ => rfl)).squeeze S8x1024 squeezes_S1x8x1x1024_S8x1024 = rowM scA 0 ⟨23, Nat.le_of_ble_eq_true rfl⟩ := rfl
@[sl_canon] theorem canon_IscB23 : (scB.slice (Rect.unit (s := S2x8x64x1024) ![0, 0, 23, 0] S1x8x1x1024.size inb_S2x8x64x1024_S1x8x1x1024_0_0_23_0) (fun _ => rfl)).squeeze S8x1024 squeezes_S1x8x1x1024_S8x1024 = rowM scB 0 ⟨23, Nat.le_of_ble_eq_true rfl⟩ := rfl
@[sl_canon] theorem canon_IscA24 : (scA.slice (Rect.unit (s := S2x8x64x1024) ![0, 0, 24, 0] S1x8x1x1024.size inb_S2x8x64x1024_S1x8x1x1024_0_0_24_0) (fun _ => rfl)).squeeze S8x1024 squeezes_S1x8x1x1024_S8x1024 = rowM scA 0 ⟨24, Nat.le_of_ble_eq_true rfl⟩ := rfl
@[sl_canon] theorem canon_IscB24 : (scB.slice (Rect.unit (s := S2x8x64x1024) ![0, 0, 24, 0] S1x8x1x1024.size inb_S2x8x64x1024_S1x8x1x1024_0_0_24_0) (fun _ => rfl)).squeeze S8x1024 squeezes_S1x8x1x1024_S8x1024 = rowM scB 0 ⟨24, Nat.le_of_ble_eq_true rfl⟩ := rfl
@[sl_canon] theorem canon_IscA25 : (scA.slice (Rect.unit (s := S2x8x64x1024) ![0, 0, 25, 0] S1x8x1x1024.size inb_S2x8x64x1024_S1x8x1x1024_0_0_25_0) (fun _ => rfl)).squeeze S8x1024 squeezes_S1x8x1x1024_S8x1024 = rowM scA 0 ⟨25, Nat.le_of_ble_eq_true rfl⟩ := rfl
@[sl_canon] theorem canon_IscB25 : (scB.slice (Rect.unit (s := S2x8x64x1024) ![0, 0, 25, 0] S1x8x1x1024.size inb_S2x8x64x1024_S1x8x1x1024_0_0_25_0) (fun _ => rfl)).squeeze S8x1024 squeezes_S1x8x1x1024_S8x1024 = rowM scB 0 ⟨25, Nat.le_of_ble_eq_true rfl⟩ := rfl
@[sl_canon] theorem canon_IscA26 : (scA.slice (Rect.unit (s := S2x8x64x1024) ![0, 0, 26, 0] S1x8x1x1024.size inb_S2x8x64x1024_S1x8x1x1024_0_0_26_0) (fun _ => rfl)).squeeze S8x1024 squeezes_S1x8x1x1024_S8x1024 = rowM scA 0 ⟨26, Nat.le_of_ble_eq_true rfl⟩ := rfl
@[sl_canon] theorem canon_IscB26 : (scB.slice (Rect.unit (s := S2x8x64x1024) ![0, 0, 26, 0] S1x8x1x1024.size inb_S2x8x64x1024_S1x8x1x1024_0_0_26_0) (fun _ => rfl)).squeeze S8x1024 squeezes_S1x8x1x1024_S8x1024 = rowM scB 0 ⟨26, Nat.le_of_ble_eq_true rfl⟩ := rfl
@[sl_canon] theorem canon_IscA27 : (scA.slice (Rect.unit (s := S2x8x64x1024) ![0, 0, 27, 0] S1x8x1x1024.size inb_S2x8x64x1024_S1x8x1x1024_0_0_27_0) (fun _ => rfl)).squeeze S8x1024 squeezes_S1x8x1x1024_S8x1024 = rowM scA 0 ⟨27, Nat.le_of_ble_eq_true rfl⟩ := rfl
@[sl_canon] theorem canon_IscB27 : (scB.slice (Rect.unit (s := S2x8x64x1024) ![0, 0, 27, 0] S1x8x1x1024.size inb_S2x8x64x1024_S1x8x1x1024_0_0_27_0) (fun _ => rfl)).squeeze S8x1024 squeezes_S1x8x1x1024_S8x1024 = rowM scB 0 ⟨27, Nat.le_of_ble_eq_true rfl⟩ := rfl
@[sl_canon] theorem canon_IscA28 : (scA.slice (Rect.unit (s := S2x8x64x1024) ![0, 0, 28, 0] S1x8x1x1024.size inb_S2x8x64x1024_S1x8x1x1024_0_0_28_0) (fun _ => rfl)).squeeze S8x1024 squeezes_S1x8x1x1024_S8x1024 = rowM scA 0 ⟨28, Nat.le_of_ble_eq_true rfl⟩ := rfl
@[sl_canon] theorem canon_IscB28 : (scB.slice (Rect.unit (s := S2x8x64x1024) ![0, 0, 28, 0] S1x8x1x1024.size inb_S2x8x64x1024_S1x8x1x1024_0_0_28_0) (fun _ => rfl)).squeeze S8x1024 squeezes_S1x8x1x1024_S8x1024 = rowM scB 0 ⟨28, Nat.le_of_ble_eq_true rfl⟩ := rfl
@[sl_canon] theorem canon_IscA29 : (scA.slice (Rect.unit (s := S2x8x64x1024) ![0, 0, 29, 0] S1x8x1x1024.size inb_S2x8x64x1024_S1x8x1x1024_0_0_29_0) (fun _ => rfl)).squeeze S8x1024 squeezes_S1x8x1x1024_S8x1024 = rowM scA 0 ⟨29, Nat.le_of_ble_eq_true rfl⟩ := rfl
@[sl_canon] theorem canon_IscB29 : (scB.slice (Rect.unit (s := S2x8x64x1024) ![0, 0, 29, 0] S1x8x1x1024.size inb_S2x8x64x1024_S1x8x1x1024_0_0_29_0) (fun _ => rfl)).squeeze S8x1024 squeezes_S1x8x1x1024_S8x1024 = rowM scB 0 ⟨29, Nat.le_of_ble_eq_true rfl⟩ := rfl
@[sl_canon] theorem canon_IscA30 : (scA.slice (Rect.unit (s := S2x8x64x1024) ![0, 0, 30, 0] S1x8x1x1024.size inb_S2x8x64x1024_S1x8x1x1024_0_0_30_0) (fun _ => rfl)).squeeze S8x1024 squeezes_S1x8x1x1024_S8x1024 = rowM scA 0 ⟨30, Nat.le_of_ble_eq_true rfl⟩ := rfl
@[sl_canon] theorem canon_IscB30 : (scB.slice (Rect.unit (s := S2x8x64x1024) ![0, 0, 30, 0] S1x8x1x1024.size inb_S2x8x64x1024_S1x8x1x1024_0_0_30_0) (fun _ => rfl)).squeeze S8x1024 squeezes_S1x8x1x1024_S8x1024 = rowM scB 0 ⟨30, Nat.le_of_ble_eq_true rfl⟩ := rfl
@[sl_canon] theorem canon_IscA31 : (scA.slice (Rect.unit (s := S2x8x64x1024) ![0, 0, 31, 0] S1x8x1x1024.size inb_S2x8x64x1024_S1x8x1x1024_0_0_31_0) (fun _ => rfl)).squeeze S8x1024 squeezes_S1x8x1x1024_S8x1024 = rowM scA 0 ⟨31, Nat.le_of_ble_eq_true rfl⟩ := rfl
@[sl_canon] theorem canon_IscB31 : (scB.slice (Rect.unit (s := S2x8x64x1024) ![0, 0, 31, 0] S1x8x1x1024.size inb_S2x8x64x1024_S1x8x1x1024_0_0_31_0) (fun _ => rfl)).squeeze S8x1024 squeezes_S1x8x1x1024_S8x1024 = rowM scB 0 ⟨31, Nat.le_of_ble_eq_true rfl⟩ := rfl
@[sl_canon] theorem canon_IscA32 : (scA.slice (Rect.unit (s := S2x8x64x1024) ![0, 0, 32, 0] S1x8x1x1024.size inb_S2x8x64x1024_S1x8x1x1024_0_0_32_0) (fun _ => rfl)).squeeze S8x1024 squeezes_S1x8x1x1024_S8x1024 = rowM scA 0 ⟨32, Nat.le_of_ble_eq_true rfl⟩ := rfl
@[sl_canon] theorem canon_IscB32 : (scB.slice (Rect.unit (s := S2x8x64x1024) ![0, 0, 32, 0] S1x8x1x1024.size inb_S2x8x64x1024_S1x8x1x1024_0_0_32_0) (fun _ => rfl)).squeeze S8x1024 squeezes_S1x8x1x1024_S8x1024 = rowM scB 0 ⟨32, Nat.le_of_ble_eq_true rfl⟩ := rfl
@[sl_canon] theorem canon_IscA33 : (scA.slice (Rect.unit (s := S2x8x64x1024) ![0, 0, 33, 0] S1x8x1x1024.size inb_S2x8x64x1024_S1x8x1x1024_0_0_33_0) (fun _ => rfl)).squeeze S8x1024 squeezes_S1x8x1x1024_S8x1024 = rowM scA 0 ⟨33, Nat.le_of_ble_eq_true rfl⟩ := rfl
@[sl_canon] theorem canon_IscB33 : (scB.slice (Rect.unit (s := S2x8x64x1024) ![0, 0, 33, 0] S1x8x1x1024.size inb_S2x8x64x1024_S1x8x1x1024_0_0_33_0) (fun _ => rfl)).squeeze S8x1024 squeezes_S1x8x1x1024_S8x1024 = rowM scB 0 ⟨33, Nat.le_of_ble_eq_true rfl⟩ := rfl
@[sl_canon] theorem canon_IscA34 : (scA.slice (Rect.unit (s := S2x8x64x1024) ![0, 0, 34, 0] S1x8x1x1024.size inb_S2x8x64x1024_S1x8x1x1024_0_0_34_0) (fun _ => rfl)).squeeze S8x1024 squeezes_S1x8x1x1024_S8x1024 = rowM scA 0 ⟨34, Nat.le_of_ble_eq_true rfl⟩ := rfl
@[sl_canon] theorem canon_IscB34 : (scB.slice (Rect.unit (s := S2x8x64x1024) ![0, 0, 34, 0] S1x8x1x1024.size inb_S2x8x64x1024_S1x8x1x1024_0_0_34_0) (fun _ => rfl)).squeeze S8x1024 squeezes_S1x8x1x1024_S8x1024 = rowM scB 0 ⟨34, Nat.le_of_ble_eq_true rfl⟩ := rfl
@[sl_canon] theorem canon_IscA35 : (scA.slice (Rect.unit (s := S2x8x64x1024) ![0, 0, 35, 0] S1x8x1x1024.size inb_S2x8x64x1024_S1x8x1x1024_0_0_35_0) (fun _ => rfl)).squeeze S8x1024 squeezes_S1x8x1x1024_S8x1024 = rowM scA 0 ⟨35, Nat.le_of_ble_eq_true rfl⟩ := rfl
@[sl_canon] theorem canon_IscB35 : (scB.slice (Rect.unit (s := S2x8x64x1024) ![0, 0, 35, 0] S1x8x1x1024.size inb_S2x8x64x1024_S1x8x1x1024_0_0_35_0) (fun _ => rfl)).squeeze S8x1024 squeezes_S1x8x1x1024_S8x1024 = rowM scB 0 ⟨35, Nat.le_of_ble_eq_true rfl⟩ := rfl
@[sl_canon] theorem canon_IscA36 : (scA.slice (Rect.unit (s := S2x8x64x1024) ![0, 0, 36, 0] S1x8x1x1024.size inb_S2x8x64x1024_S1x8x1x1024_0_0_36_0) (fun _ => rfl)).squeeze S8x1024 squeezes_S1x8x1x1024_S8x1024 = rowM scA 0 ⟨36, Nat.le_of_ble_eq_true rfl⟩ := rfl
@[sl_canon] theorem canon_IscB36 : (scB.slice (Rect.unit (s := S2x8x64x1024) ![0, 0, 36, 0] S1x8x1x1024.size inb_S2x8x64x1024_S1x8x1x1024_0_0_36_0) (fun _ => rfl)).squeeze S8x1024 squeezes_S1x8x1x1024_S8x1024 = rowM scB 0 ⟨36, Nat.le_of_ble_eq_true rfl⟩ := rfl
@[sl_canon] theorem canon_IscA37 : (scA.slice (Rect.unit (s := S2x8x64x1024) ![0, 0, 37, 0] S1x8x1x1024.size inb_S2x8x64x1024_S1x8x1x1024_0_0_37_0) (fun _ => rfl)).squeeze S8x1024 squeezes_S1x8x1x1024_S8x1024 = rowM scA 0 ⟨37, Nat.le_of_ble_eq_true rfl⟩ := rfl
@[sl_canon] theorem canon_IscB37 : (scB.slice (Rect.unit (s := S2x8x64x1024) ![0, 0, 37, 0] S1x8x1x1024.size inb_S2x8x64x1024_S1x8x1x1024_0_0_37_0) (fun _ => rfl)).squeeze S8x1024 squeezes_S1x8x1x1024_S8x1024 = rowM scB 0 ⟨37, Nat.le_of_ble_eq_true rfl⟩ := rfl
@[sl_canon] theorem canon_IscA38 : (scA.slice (Rect.unit (s := S2x8x64x1024) ![0, 0, 38, 0] S1x8x1x1024.size inb_S2x8x64x1024_S1x8x1x1024_0_0_38_0) (fun _ => rfl)).squeeze S8x1024 squeezes_S1x8x1x1024_S8x1024 = rowM scA 0 ⟨38, Nat.le_of_ble_eq_true rfl⟩ := rfl
@[sl_canon] theorem canon_IscB38 : (scB.slice (Rect.unit (s := S2x8x64x1024) ![0, 0, 38, 0] S1x8x1x1024.size inb_S2x8x64x1024_S1x8x1x1024_0_0_38_0) (fun _ => rfl)).squeeze S8x1024 squeezes_S1x8x1x1024_S8x1024 = rowM scB 0 ⟨38, Nat.le_of_ble_eq_true rfl⟩ := rfl
@[sl_canon] theorem canon_IscA39 : (scA.slice (Rect.unit (s := S2x8x64x1024) ![0, 0, 39, 0] S1x8x1x1024.size inb_S2x8x64x1024_S1x8x1x1024_0_0_39_0) (fun _ => rfl)).squeeze S8x1024 squeezes_S1x8x1x1024_S8x1024 = rowM scA 0 ⟨39, Nat.le_of_ble_eq_true rfl⟩ := rfl
@[sl_canon] theorem canon_IscB39 : (scB.slice (Rect.unit (s := S2x8x64x1024) ![0, 0, 39, 0] S1x8x1x1024.size inb_S2x8x64x1024_S1x8x1x1024_0_0_39_0) (fun _ => rfl)).squeeze S8x1024 squeezes_S1x8x1x1024_S8x1024 = rowM scB 0 ⟨39, Nat.le_of_ble_eq_true rfl⟩ := rfl
@[sl_canon] theorem canon_IscA40 : (scA.slice (Rect.unit (s := S2x8x64x1024) ![0, 0, 40, 0] S1x8x1x1024.size inb_S2x8x64x1024_S1x8x1x1024_0_0_40_0) (fun _ => rfl)).squeeze S8x1024 squeezes_S1x8x1x1024_S8x1024 = rowM scA 0 ⟨40, Nat.le_of_ble_eq_true rfl⟩ := rfl
@[sl_canon] theorem canon_IscB40 : (scB.slice (Rect.unit (s := S2x8x64x1024) ![0, 0, 40, 0] S1x8x1x1024.size inb_S2x8x64x1024_S1x8x1x1024_0_0_40_0) (fun _ => rfl)).squeeze S8x1024 squeezes_S1x8x1x1024_S8x1024 = rowM scB 0 ⟨40, Nat.le_of_ble_eq_true rfl⟩ := rfl
@[sl_canon] theorem canon_IscA41 : (scA.slice (Rect.unit (s := S2x8x64x1024) ![0, 0, 41, 0] S1x8x1x1024.size inb_S2x8x64x1024_S1x8x1x1024_0_0_41_0) (fun _ => rfl)).squeeze S8x1024 squeezes_S1x8x1x1024_S8x1024 = rowM scA 0 ⟨41, Nat.le_of_ble_eq_true rfl⟩ := rfl
@[sl_canon] theorem canon_IscB41 : (scB.slice (Rect.unit (s := S2x8x64x1024) ![0, 0, 41, 0] S1x8x1x1024.size inb_S2x8x64x1024_S1x8x1x1024_0_0_41_0) (fun _ => rfl)).squeeze S8x1024 squeezes_S1x8x1x1024_S8x1024 = rowM scB 0 ⟨41, Nat.le_of_ble_eq_true rfl⟩ := rfl
@[sl_canon] theorem canon_IscA42 : (scA.slice (Rect.unit (s := S2x8x64x1024) ![0, 0, 42, 0] S1x8x1x1024.size inb_S2x8x64x1024_S1x8x1x1024_0_0_42_0) (fun _ => rfl)).squeeze S8x1024 squeezes_S1x8x1x1024_S8x1024 = rowM scA 0 ⟨42, Nat.le_of_ble_eq_true rfl⟩ := rfl
@[sl_canon] theorem canon_IscB42 : (scB.slice (Rect.unit (s := S2x8x64x1024) ![0, 0, 42, 0] S1x8x1x1024.size inb_S2x8x64x1024_S1x8x1x1024_0_0_42_0) (fun _ => rfl)).squeeze S8x1024 squeezes_S1x8x1x1024_S8x1024 = rowM scB 0 ⟨42, Nat.le_of_ble_eq_true rfl⟩ := rfl
@[sl_canon] theorem canon_IscA43 : (scA.slice (Rect.unit (s := S2x8x64x1024) ![0, 0, 43, 0] S1x8x1x1024.size inb_S2x8x64x1024_S1x8x1x1024_0_0_43_0) (fun _ => rfl)).squeeze S8x1024 squeezes_S1x8x1x1024_S8x1024 = rowM scA 0 ⟨43, Nat.le_of_ble_eq_true rfl⟩ := rfl
@[sl_canon] theorem canon_IscB43 : (scB.slice (Rect.unit (s := S2x8x64x1024) ![0, 0, 43, 0] S1x8x1x1024.size inb_S2x8x64x1024_S1x8x1x1024_0_0_43_0) (fun _ => rfl)).squeeze S8x1024 squeezes_S1x8x1x1024_S8x1024 = rowM scB 0 ⟨43, Nat.le_of_ble_eq_true rfl⟩ := rfl
@[sl_canon] theorem canon_IscA44 : (scA.slice (Rect.unit (s := S2x8x64x1024) ![0, 0, 44, 0] S1x8x1x1024.size inb_S2x8x64x1024_S1x8x1x1024_0_0_44_0) (fun _ => rfl)).squeeze S8x1024 squeezes_S1x8x1x1024_S8x1024 = rowM scA 0 ⟨44, Nat.le_of_ble_eq_true rfl⟩ := rfl
@[sl_canon] theorem canon_IscB44 : (scB.slice (Rect.unit (s := S2x8x64x1024) ![0, 0, 44, 0] S1x8x1x1024.size inb_S2x8x64x1024_S1x8x1x1024_0_0_44_0) (fun _ => rfl)).squeeze S8x1024 squeezes_S1x8x1x1024_S8x1024 = rowM scB 0 ⟨44, Nat.le_of_ble_eq_true rfl⟩ := rfl
@[sl_canon] theorem canon_IscA45 : (scA.slice (Rect.unit (s := S2x8x64x1024) ![0, 0, 45, 0] S1x8x1x1024.size inb_S2x8x64x1024_S1x8x1x1024_0_0_45_0) (fun _ => rfl)).squeeze S8x1024 squeezes_S1x8x1x1024_S8x1024 = rowM scA 0 ⟨45, Nat.le_of_ble_eq_true rfl⟩ := rfl
@[sl_canon] theorem canon_IscB45 : (scB.slice (Rect.unit (s := S2x8x64x1024) ![0, 0, 45, 0] S1x8x1x1024.size inb_S2x8x64x1024_S1x8x1x1024_0_0_45_0) (fun _ => rfl)).squeeze S8x1024 squeezes_S1x8x1x1024_S8x1024 = rowM scB 0 ⟨45, Nat.le_of_ble_eq_true rfl⟩ := rfl
@[sl_canon] theorem canon_IscA46 : (scA.slice (Rect.unit (s := S2x8x64x1024) ![0, 0, 46, 0] S1x8x1x1024.size inb_S2x8x64x1024_S1x8x1x1024_0_0_46_0) (fun _ => rfl)).squeeze S8x1024 squeezes_S1x8x1x1024_S8x1024 = rowM scA 0 ⟨46, Nat.le_of_ble_eq_true rfl⟩ := rfl
@[sl_canon] theorem canon_IscB46 : (scB.slice (Rect.unit (s := S2x8x64x1024) ![0, 0, 46, 0] S1x8x1x1024.size inb_S2x8x64x1024_S1x8x1x1024_0_0_46_0) (fun _ => rfl)).squeeze S8x1024 squeezes_S1x8x1x1024_S8x1024 = rowM scB 0 ⟨46, Nat.le_of_ble_eq_true rfl⟩ := rfl
@[sl_canon] theorem canon_IscA47 : (scA.slice (Rect.unit (s := S2x8x64x1024) ![0, 0, 47, 0] S1x8x1x1024.size inb_S2x8x64x1024_S1x8x1x1024_0_0_47_0) (fun _ => rfl)).squeeze S8x1024 squeezes_S1x8x1x1024_S8x1024 = rowM scA 0 ⟨47, Nat.le_of_ble_eq_true rfl⟩ := rfl
@[sl_canon] theorem canon_IscB47 : (scB.slice (Rect.unit (s := S2x8x64x1024) ![0, 0, 47, 0] S1x8x1x1024.size inb_S2x8x64x1024_S1x8x1x1024_0_0_47_0) (fun _ => rfl)).squeeze S8x1024 squeezes_S1x8x1x1024_S8x1024 = rowM scB 0 ⟨47, Nat.le_of_ble_eq_true rfl⟩ := rfl
@[sl_canon] theorem canon_IscA48 : (scA.slice (Rect.unit (s := S2x8x64x1024) ![0, 0, 48, 0] S1x8x1x1024.size inb_S2x8x64x1024_S1x8x1x1024_0_0_48_0) (fun _ => rfl)).squeeze S8x1024 squeezes_S1x8x1x1024_S8x1024 = rowM scA 0 ⟨48, Nat.le_of_ble_eq_true rfl⟩ := rfl
@[sl_canon] theorem canon_IscB48 : (scB.slice (Rect.unit (s := S2x8x64x1024) ![0, 0, 48, 0] S1x8x1x1024.size inb_S2x8x64x1024_S1x8x1x1024_0_0_48_0) (fun _ => rfl)).squeeze S8x1024 squeezes_S1x8x1x1024_S8x1024 = rowM scB 0 ⟨48, Nat.le_of_ble_eq_true rfl⟩ := rfl
@[sl_canon] theorem canon_IscA49 : (scA.slice (Rect.unit (s := S2x8x64x1024) ![0, 0, 49, 0] S1x8x1x1024.size inb_S2x8x64x1024_S1x8x1x1024_0_0_49_0) (fun _ => rfl)).squeeze S8x1024 squeezes_S1x8x1x1024_S8x1024 = rowM scA 0 ⟨49, Nat.le_of_ble_eq_true rfl⟩ := rfl
@[sl_canon] theorem canon_IscB49 : (scB.slice (Rect.unit (s := S2x8x64x1024) ![0, 0, 49, 0] S1x8x1x1024.size inb_S2x8x64x1024_S1x8x1x1024_0_0_49_0) (fun _ => rfl)).squeeze S8x1024 squeezes_S1x8x1x1024_S8x1024 = rowM scB 0 ⟨49, Nat.le_of_ble_eq_true rfl⟩ := rfl
@[sl_canon] theorem canon_IscA50 : (scA.slice (Rect.unit (s := S2x8x64x1024) ![0, 0, 50, 0] S1x8x1x1024.size inb_S2x8x64x1024_S1x8x1x1024_0_0_50_0) (fun _ => rfl)).squeeze S8x1024 squeezes_S1x8x1x1024_S8x1024 = rowM scA 0 ⟨50, Nat.le_of_ble_eq_true rfl⟩ := rfl
@[sl_canon] theorem canon_IscB50 : (scB.slice (Rect.unit (s := S2x8x64x1024) ![0, 0, 50, 0] S1x8x1x1024.size inb_S2x8x64x1024_S1x8x1x1024_0_0_50_0) (fun _ => rfl)).squeeze S8x1024 squeezes_S1x8x1x1024_S8x1024 = rowM scB 0 ⟨50, Nat.le_of_ble_eq_true rfl⟩ := rfl
@[sl_canon] theorem canon_IscA51 : (scA.slice (Rect.unit (s := S2x8x64x1024) ![0, 0, 51, 0] S1x8x1x1024.size inb_S2x8x64x1024_S1x8x1x1024_0_0_51_0) (fun _ => rfl)).squeeze S8x1024 squeezes_S1x8x1x1024_S8x1024 = rowM scA 0 ⟨51, Nat.le_of_ble_eq_true rfl⟩ := rfl
@[sl_canon] theorem canon_IscB51 : (scB.slice (Rect.unit (s := S2x8x64x1024) ![0, 0, 51, 0] S1x8x1x1024.size inb_S2x8x64x1024_S1x8x1x1024_0_0_51_0) (fun _ => rfl)).squeeze S8x1024 squeezes_S1x8x1x1024_S8x1024 = rowM scB 0 ⟨51, Nat.le_of_ble_eq_true rfl⟩ := rfl
@[sl_canon] theorem canon_IscA52 : (scA.slice (Rect.unit (s := S2x8x64x1024) ![0, 0, 52, 0] S1x8x1x1024.size inb_S2x8x64x1024_S1x8x1x1024_0_0_52_0) (fun _ => rfl)).squeeze S8x1024 squeezes_S1x8x1x1024_S8x1024 = rowM scA 0 ⟨52, Nat.le_of_ble_eq_true rfl⟩ := rfl
@[sl_canon] theorem canon_IscB52 : (scB.slice (Rect.unit (s := S2x8x64x1024) ![0, 0, 52, 0] S1x8x1x1024.size inb_S2x8x64x1024_S1x8x1x1024_0_0_52_0) (fun _ => rfl)).squeeze S8x1024 squeezes_S1x8x1x1024_S8x1024 = rowM scB 0 ⟨52, Nat.le_of_ble_eq_true rfl⟩ := rfl
@[sl_canon] theorem canon_IscA53 : (scA.slice (Rect.unit (s := S2x8x64x1024) ![0, 0, 53, 0] S1x8x1x1024.size inb_S2x8x64x1024_S1x8x1x1024_0_0_53_0) (fun _ => rfl)).squeeze S8x1024 squeezes_S1x8x1x1024_S8x1024 = rowM scA 0 ⟨53, Nat.le_of_ble_eq_true rfl⟩ := rfl
@[sl_canon] theorem canon_IscB53 : (scB.slice (Rect.unit (s := S2x8x64x1024) ![0, 0, 53, 0] S1x8x1x1024.size inb_S2x8x64x1024_S1x8x1x1024_0_0_53_0) (fun _ => rfl)).squeeze S8x1024 squeezes_S1x8x1x1024_S8x1024 = rowM scB 0 ⟨53, Nat.le_of_ble_eq_true rfl⟩ := rfl
@[sl_canon] theorem canon_IscA54 : (scA.slice (Rect.unit (s := S2x8x64x1024) ![0, 0, 54, 0] S1x8x1x1024.size inb_S2x8x64x1024_S1x8x1x1024_0_0_54_0) (fun _ => rfl)).squeeze S8x1024 squeezes_S1x8x1x1024_S8x1024 = rowM scA 0 ⟨54, Nat.le_of_ble_eq_true rfl⟩ := rfl
@[sl_canon] theorem canon_IscB54 : (scB.slice (Rect.unit (s := S2x8x64x1024) ![0, 0, 54, 0] S1x8x1x1024.size inb_S2x8x64x1024_S1x8x1x1024_0_0_54_0) (fun _ => rfl)).squeeze S8x1024 squeezes_S1x8x1x1024_S8x1024 = rowM scB 0 ⟨54, Nat.le_of_ble_eq_true rfl⟩ := rfl
@[sl_canon] theorem canon_IscA55 : (scA.slice (Rect.unit (s := S2x8x64x1024) ![0, 0, 55, 0] S1x8x1x1024.size inb_S2x8x64x1024_S1x8x1x1024_0_0_55_0) (fun _ => rfl)).squeeze S8x1024 squeezes_S1x8x1x1024_S8x1024 = rowM scA 0 ⟨55, Nat.le_of_ble_eq_true rfl⟩ := rfl
@[sl_canon] theorem canon_IscB55 : (scB.slice (Rect.unit (s := S2x8x64x1024) ![0, 0, 55, 0] S1x8x1x1024.size inb_S2x8x64x1024_S1x8x1x1024_0_0_55_0) (fun _ => rfl)).squeeze S8x1024 squeezes_S1x8x1x1024_S8x1024 = rowM scB 0 ⟨55, Nat.le_of_ble_eq_true rfl⟩ := rfl
@[sl_canon] theorem canon_IscA56 : (scA.slice (Rect.unit (s := S2x8x64x1024) ![0, 0, 56, 0] S1x8x1x1024.size inb_S2x8x64x1024_S1x8x1x1024_0_0_56_0) (fun _ => rfl)).squeeze S8x1024 squeezes_S1x8x1x1024_S8x1024 = rowM scA 0 ⟨56, Nat.le_of_ble_eq_true rfl⟩ := rfl
@[sl_canon] theorem canon_IscB56 : (scB.slice (Rect.unit (s := S2x8x64x1024) ![0, 0, 56, 0] S1x8x1x1024.size inb_S2x8x64x1024_S1x8x1x1024_0_0_56_0) (fun _ => rfl)).squeeze S8x1024 squeezes_S1x8x1x1024_S8x1024 = rowM scB 0 ⟨56, Nat.le_of_ble_eq_true rfl⟩ := rfl
@[sl_canon] theorem canon_IscA57 : (scA.slice (Rect.unit (s := S2x8x64x1024) ![0, 0, 57, 0] S1x8x1x1024.size inb_S2x8x64x1024_S1x8x1x1024_0_0_57_0) (fun _ => rfl)).squeeze S8x1024 squeezes_S1x8x1x1024_S8x1024 = rowM scA 0 ⟨57, Nat.le_of_ble_eq_true rfl⟩ := rfl
@[sl_canon] theorem canon_IscB57 : (scB.slice (Rect.unit (s := S2x8x64x1024) ![0, 0, 57, 0] S1x8x1x1024.size inb_S2x8x64x1024_S1x8x1x1024_0_0_57_0) (fun _ => rfl)).squeeze S8x1024 squeezes_S1x8x1x1024_S8x1024 = rowM scB 0 ⟨57, Nat.le_of_ble_eq_true rfl⟩ := rfl
@[sl_canon] theorem canon_IscA58 : (scA.slice (Rect.unit (s := S2x8x64x1024) ![0, 0, 58, 0] S1x8x1x1024.size inb_S2x8x64x1024_S1x8x1x1024_0_0_58_0) (fun _ => rfl)).squeeze S8x1024 squeezes_S1x8x1x1024_S8x1024 = rowM scA 0 ⟨58, Nat.le_of_ble_eq_true rfl⟩ := rfl
@[sl_canon] theorem canon_IscB58 : (scB.slice (Rect.unit (s := S2x8x64x1024) ![0, 0, 58, 0] S1x8x1x1024.size inb_S2x8x64x1024_S1x8x1x1024_0_0_58_0) (fun _ => rfl)).squeeze S8x1024 squeezes_S1x8x1x1024_S8x1024 = rowM scB 0 ⟨58, Nat.le_of_ble_eq_true rfl⟩ := rfl
@[sl_canon] theorem canon_IscA59 : (scA.slice (Rect.unit (s := S2x8x64x1024) ![0, 0, 59, 0] S1x8x1x1024.size inb_S2x8x64x1024_S1x8x1x1024_0_0_59_0) (fun _ => rfl)).squeeze S8x1024 squeezes_S1x8x1x1024_S8x1024 = rowM scA 0 ⟨59, Nat.le_of_ble_eq_true rfl⟩ := rfl
@[sl_canon] theorem canon_IscB59 : (scB.slice (Rect.unit (s := S2x8x64x1024) ![0, 0, 59, 0] S1x8x1x1024.size inb_S2x8x64x1024_S1x8x1x1024_0_0_59_0) (fun _ => rfl)).squeeze S8x1024 squeezes_S1x8x1x1024_S8x1024 = rowM scB 0 ⟨59, Nat.le_of_ble_eq_true rfl⟩ := rfl
@[sl_canon] theorem canon_IscA60 : (scA.slice (Rect.unit (s := S2x8x64x1024) ![0, 0, 60, 0] S1x8x1x1024.size inb_S2x8x64x1024_S1x8x1x1024_0_0_60_0) (fun _ => rfl)).squeeze S8x1024 squeezes_S1x8x1x1024_S8x1024 = rowM scA 0 ⟨60, Nat.le_of_ble_eq_true rfl⟩ := rfl
@[sl_canon] theorem canon_IscB60 : (scB.slice (Rect.unit (s := S2x8x64x1024) ![0, 0, 60, 0] S1x8x1x1024.size inb_S2x8x64x1024_S1x8x1x1024_0_0_60_0) (fun _ => rfl)).squeeze S8x1024 squeezes_S1x8x1x1024_S8x1024 = rowM scB 0 ⟨60, Nat.le_of_ble_eq_true rfl⟩ := rfl
@[sl_canon] theorem canon_IscA61 : (scA.slice (Rect.unit (s := S2x8x64x1024) ![0, 0, 61, 0] S1x8x1x1024.size inb_S2x8x64x1024_S1x8x1x1024_0_0_61_0) (fun _ => rfl)).squeeze S8x1024 squeezes_S1x8x1x1024_S8x1024 = rowM scA 0 ⟨61, Nat.le_of_ble_eq_true rfl⟩ := rfl
@[sl_canon] theorem canon_IscB61 : (scB.slice (Rect.unit (s := S2x8x64x1024) ![0, 0, 61, 0] S1x8x1x1024.size inb_S2x8x64x1024_S1x8x1x1024_0_0_61_0) (fun _ => rfl)).squeeze S8x1024 squeezes_S1x8x1x1024_S8x1024 = rowM scB 0 ⟨61, Nat.le_of_ble_eq_true rfl⟩ := rfl
@[sl_canon] theorem canon_IscA62 : (scA.slice (Rect.unit (s := S2x8x64x1024) ![0, 0, 62, 0] S1x8x1x1024.size inb_S2x8x64x1024_S1x8x1x1024_0_0_62_0) (fun _ => rfl)).squeeze S8x1024 squeezes_S1x8x1x1024_S8x1024 = rowM scA 0 ⟨62, Nat.le_of_ble_eq_true rfl⟩ := rfl
@[sl_canon] theorem canon_IscB62 : (scB.slice (Rect.unit (s := S2x8x64x1024) ![0, 0, 62, 0] S1x8x1x1024.size inb_S2x8x64x1024_S1x8x1x1024_0_0_62_0) (fun _ => rfl)).squeeze S8x1024 squeezes_S1x8x1x1024_S8x1024 = rowM scB 0 ⟨62, Nat.le_of_ble_eq_true rfl⟩ := rfl
@[sl_canon] theorem canon_IscA63 : (scA.slice (Rect.unit (s := S2x8x64x1024) ![0, 0, 63, 0] S1x8x1x1024.size inb_S2x8x64x1024_S1x8x1x1024_0_0_63_0) (fun _ => rfl)).squeeze S8x1024 squeezes_S1x8x1x1024_S8x1024 = rowM scA 0 ⟨63, Nat.le_of_ble_eq_true rfl⟩ := rfl
@[sl_canon] theorem canon_IscB63 : (scB.slice (Rect.unit (s := S2x8x64x1024) ![0, 0, 63, 0] S1x8x1x1024.size inb_S2x8x64x1024_S1x8x1x1024_0_0_63_0) (fun _ => rfl)).squeeze S8x1024 squeezes_S1x8x1x1024_S8x1024 = rowM scB 0 ⟨63, Nat.le_of_ble_eq_true rfl⟩ := rfl

/-! ## The loads: the box of slot t mod 2 -/
theorem coff_L : ∀ t : Fin grid0.N, k0_off515 (grid0.coords t) = ![(slN t.val).val, 0, 0, 0] := by decide +kernel
instance (priority := high) closedOff_L (t : Fin grid0.N) : ClosedOff (k0_off515 (grid0.coords t)) := ⟨![(slN t.val).val, 0, 0, 0], coff_L t⟩

/-! ## The table cells: copy r of grid point t reads cell 64·t + r, the prefetch cell 64·(t + 1) + r -/
theorem coff_C1_0 : ∀ t : Fin grid0.N, k0_cond1 (grid0.coords t) = 1#1 → k0_off1 (grid0.coords t) = ![64 * t.val + 0] := by decide +kernel
theorem coff_C1_1 : ∀ t : Fin grid0.N, k0_cond1 (grid0.coords t) = 1#1 → k0_off3 (grid0.coords t) = ![64 * t.val + 1] := by decide +kernel
theorem coff_C1_2 : ∀ t : Fin grid0.N, k0_cond1 (grid0.coords t) = 1#1 → k0_off5 (grid0.coords t) = ![64 * t.val + 2] := by decide +kernel
theorem coff_C1_3 : ∀ t : Fin grid0.N, k0_cond1 (grid0.coords t) = 1#1 → k0_off7 (grid0.coords t) = ![64 * t.val + 3] := by decide +kernel
theorem coff_C1_4 : ∀ t : Fin grid0.N, k0_cond1 (grid0.coords t) = 1#1 → k0_off9 (grid0.coords t) = ![64 * t.val + 4] := by decide +kernel
theorem coff_C1_5 : ∀ t : Fin grid0.N, k0_cond1 (grid0.coords t) = 1#1 → k0_off11 (grid0.coords t) = ![64 * t.val + 5] := by decide +kernel
theorem coff_C1_6 : ∀ t : Fin grid0.N, k0_cond1 (grid0.coords t) = 1#1 → k0_off13 (grid0.coords t) = ![64 * t.val + 6] := by decide +kernel
theorem coff_C1_7 : ∀ t : Fin grid0.N, k0_cond1 (grid0.coords t) = 1#1 → k0_off15 (grid0.coords t) = ![64 * t.val + 7] := by decide +kernel
theorem coff_C1_8 : ∀ t : Fin grid0.N, k0_cond1 (grid0.coords t) = 1#1 → k0_off17 (grid0.coords t) = ![64 * t.val + 8] := by decide +kernel
theorem coff_C1_9 : ∀ t : Fin grid0.N, k0_cond1 (grid0.coords t) = 1#1 → k0_off19 (grid0.coords t) = ![64 * t.val + 9] := by decide +kernel
theorem coff_C1_10 : ∀ t : Fin grid0.N, k0_cond1 (grid0.coords t) = 1#1 → k0_off21 (grid0.coords t) = ![64 * t.val + 10] := by decide +kernel
theorem coff_C1_11 : ∀ t : Fin grid0.N, k0_cond1 (grid0.coords t) = 1#1 → k0_off23 (grid0.coords t) = ![64 * t.val + 11] := by decide +kernel
theorem coff_C1_12 : ∀ t : Fin grid0.N, k0_cond1 (grid0.coords t) = 1#1 → k0_off25 (grid0.coords t) = ![64 * t.val + 12] := by decide +kernel
theorem coff_C1_13 : ∀ t : Fin grid0.N, k0_cond1 (grid0.coords t) = 1#1 → k0_off27 (grid0.coords t) = ![64 * t.val + 13] := by decide +kernel
theorem coff_C1_14 : ∀ t : Fin grid0.N, k0_cond1 (grid0.coords t) = 1#1 → k0_off29 (grid0.coords t) = ![64 * t.val + 14] := by decide +kernel
theorem coff_C1_15 : ∀ t : Fin grid0.N, k0_cond1 (grid0.coords t) = 1#1 → k0_off31 (grid0.coords t) = ![64 * t.val + 15] := by decide +kernel
theorem coff_C1_16 : ∀ t : Fin grid0.N, k0_cond1 (grid0.coords t) = 1#1 → k0_off33 (grid0.coords t) = ![64 * t.val + 16] := by decide +kernel
theorem coff_C1_17 : ∀ t : Fin grid0.N, k0_cond1 (grid0.coords t) = 1#1 → k0_off35 (grid0.coords t) = ![64 * t.val + 17] := by decide +kernel
theorem coff_C1_18 : ∀ t : Fin grid0.N, k0_cond1 (grid0.coords t) = 1#1 → k0_off37 (grid0.coords t) = ![64 * t.val + 18] := by decide +kernel
theorem coff_C1_19 : ∀ t : Fin grid0.N, k0_cond1 (grid0.coords t) = 1#1 → k0_off39 (grid0.coords t) = ![64 * t.val + 19] := by decide +kernel
theorem coff_C1_20 : ∀ t : Fin grid0.N, k0_cond1 (grid0.coords t) = 1#1 → k0_off41 (grid0.coords t) = ![64 * t.val + 20] := by decide +kernel
theorem coff_C1_21 : ∀ t : Fin grid0.N, k0_cond1 (grid0.coords t) = 1#1 → k0_off43 (grid0.coords t) = ![64 * t.val + 21] := by decide +kernel
theorem coff_C1_22 : ∀ t : Fin grid0.N, k0_cond1 (grid0.coords t) = 1#1 → k0_off45 (grid0.coords t) = ![64 * t.val + 22] := by decide +kernel
theorem coff_C1_23 : ∀ t : Fin grid0.N, k0_cond1 (grid0.coords t) = 1#1 → k0_off47 (grid0.coords t) = ![64 * t.val + 23] := by decide +kernel
theorem coff_C1_24 : ∀ t : Fin grid0.N, k0_cond1 (grid0.coords t) = 1#1 → k0_off49 (grid0.coords t) = ![64 * t.val + 24] := by decide +kernel
theorem coff_C1_25 : ∀ t : Fin grid0.N, k0_cond1 (grid0.coords t) = 1#1 → k0_off51 (grid0.coords t) = ![64 * t.val + 25] := by decide +kernel
theorem coff_C1_26 : ∀ t : Fin grid0.N, k0_cond1 (grid0.coords t) = 1#1 → k0_off53 (grid0.coords t) = ![64 * t.val + 26] := by decide +kernel
theorem coff_C1_27 : ∀ t : Fin grid0.N, k0_cond1 (grid0.coords t) = 1#1 → k0_off55 (grid0.coords t) = ![64 * t.val + 27] := by decide +kernel
theorem coff_C1_28 : ∀ t : Fin grid0.N, k0_cond1 (grid0.coords t) = 1#1 → k0_off57 (grid0.coords t) = ![64 * t.val + 28] := by decide +kernel
theorem coff_C1_29 : ∀ t : Fin grid0.N, k0_cond1 (grid0.coords t) = 1#1 → k0_off59 (grid0.coords t) = ![64 * t.val + 29] := by decide +kernel
theorem coff_C1_30 : ∀ t : Fin grid0.N, k0_cond1 (grid0.coords t) = 1#1 → k0_off61 (grid0.coords t) = ![64 * t.val + 30] := by decide +kernel
theorem coff_C1_31 : ∀ t : Fin grid0.N, k0_cond1 (grid0.coords t) = 1#1 → k0_off63 (grid0.coords t) = ![64 * t.val + 31] := by decide +kernel
theorem coff_C1_32 : ∀ t : Fin grid0.N, k0_cond1 (grid0.coords t) = 1#1 → k0_off65 (grid0.coords t) = ![64 * t.val + 32] := by decide +kernel
theorem coff_C1_33 : ∀ t : Fin grid0.N, k0_cond1 (grid0.coords t) = 1#1 → k0_off67 (grid0.coords t) = ![64 * t.val + 33] := by decide +kernel
theorem coff_C1_34 : ∀ t : Fin grid0.N, k0_cond1 (grid0.coords t) = 1#1 → k0_off69 (grid0.coords t) = ![64 * t.val + 34] := by decide +kernel
theorem coff_C1_35 : ∀ t : Fin grid0.N, k0_cond1 (grid0.coords t) = 1#1 → k0_off71 (grid0.coords t) = ![64 * t.val + 35] := by decide +kernel
theorem coff_C1_36 : ∀ t : Fin grid0.N, k0_cond1 (grid0.coords t) = 1#1 → k0_off73 (grid0.coords t) = ![64 * t.val + 36] := by decide +kernel
theorem coff_C1_37 : ∀ t : Fin grid0.N, k0_cond1 (grid0.coords t) = 1#1 → k0_off75 (grid0.coords t) = ![64 * t.val + 37] := by decide +kernel
theorem coff_C1_38 : ∀ t : Fin grid0.N, k0_cond1 (grid0.coords t) = 1#1 → k0_off77 (grid0.coords t) = ![64 * t.val + 38] := by decide +kernel
theorem coff_C1_39 : ∀ t : Fin grid0.N, k0_cond1 (grid0.coords t) = 1#1 → k0_off79 (grid0.coords t) = ![64 * t.val + 39] := by decide +kernel
theorem coff_C1_40 : ∀ t : Fin grid0.N, k0_cond1 (grid0.coords t) = 1#1 → k0_off81 (grid0.coords t) = ![64 * t.val + 40] := by decide +kernel
theorem coff_C1_41 : ∀ t : Fin grid0.N, k0_cond1 (grid0.coords t) = 1#1 → k0_off83 (grid0.coords t) = ![64 * t.val + 41] := by decide +kernel
theorem coff_C1_42 : ∀ t : Fin grid0.N, k0_cond1 (grid0.coords t) = 1#1 → k0_off85 (grid0.coords t) = ![64 * t.val + 42] := by decide +kernel
theorem coff_C1_43 : ∀ t : Fin grid0.N, k0_cond1 (grid0.coords t) = 1#1 → k0_off87 (grid0.coords t) = ![64 * t.val + 43] := by decide +kernel
theorem coff_C1_44 : ∀ t : Fin grid0.N, k0_cond1 (grid0.coords t) = 1#1 → k0_off89 (grid0.coords t) = ![64 * t.val + 44] := by decide +kernel
theorem coff_C1_45 : ∀ t : Fin grid0.N, k0_cond1 (grid0.coords t) = 1#1 → k0_off91 (grid0.coords t) = ![64 * t.val + 45] := by decide +kernel
theorem coff_C1_46 : ∀ t : Fin grid0.N, k0_cond1 (grid0.coords t) = 1#1 → k0_off93 (grid0.coords t) = ![64 * t.val + 46] := by decide +kernel
theorem coff_C1_47 : ∀ t : Fin grid0.N, k0_cond1 (grid0.coords t) = 1#1 → k0_off95 (grid0.coords t) = ![64 * t.val + 47] := by decide +kernel
theorem coff_C1_48 : ∀ t : Fin grid0.N, k0_cond1 (grid0.coords t) = 1#1 → k0_off97 (grid0.coords t) = ![64 * t.val + 48] := by decide +kernel
theorem coff_C1_49 : ∀ t : Fin grid0.N, k0_cond1 (grid0.coords t) = 1#1 → k0_off99 (grid0.coords t) = ![64 * t.val + 49] := by decide +kernel
theorem coff_C1_50 : ∀ t : Fin grid0.N, k0_cond1 (grid0.coords t) = 1#1 → k0_off101 (grid0.coords t) = ![64 * t.val + 50] := by decide +kernel
theorem coff_C1_51 : ∀ t : Fin grid0.N, k0_cond1 (grid0.coords t) = 1#1 → k0_off103 (grid0.coords t) = ![64 * t.val + 51] := by decide +kernel
theorem coff_C1_52 : ∀ t : Fin grid0.N, k0_cond1 (grid0.coords t) = 1#1 → k0_off105 (grid0.coords t) = ![64 * t.val + 52] := by decide +kernel
theorem coff_C1_53 : ∀ t : Fin grid0.N, k0_cond1 (grid0.coords t) = 1#1 → k0_off107 (grid0.coords t) = ![64 * t.val + 53] := by decide +kernel
theorem coff_C1_54 : ∀ t : Fin grid0.N, k0_cond1 (grid0.coords t) = 1#1 → k0_off109 (grid0.coords t) = ![64 * t.val + 54] := by decide +kernel
theorem coff_C1_55 : ∀ t : Fin grid0.N, k0_cond1 (grid0.coords t) = 1#1 → k0_off111 (grid0.coords t) = ![64 * t.val + 55] := by decide +kernel
theorem coff_C1_56 : ∀ t : Fin grid0.N, k0_cond1 (grid0.coords t) = 1#1 → k0_off113 (grid0.coords t) = ![64 * t.val + 56] := by decide +kernel
theorem coff_C1_57 : ∀ t : Fin grid0.N, k0_cond1 (grid0.coords t) = 1#1 → k0_off115 (grid0.coords t) = ![64 * t.val + 57] := by decide +kernel
theorem coff_C1_58 : ∀ t : Fin grid0.N, k0_cond1 (grid0.coords t) = 1#1 → k0_off117 (grid0.coords t) = ![64 * t.val + 58] := by decide +kernel
theorem coff_C1_59 : ∀ t : Fin grid0.N, k0_cond1 (grid0.coords t) = 1#1 → k0_off119 (grid0.coords t) = ![64 * t.val + 59] := by decide +kernel
theorem coff_C1_60 : ∀ t : Fin grid0.N, k0_cond1 (grid0.coords t) = 1#1 → k0_off121 (grid0.coords t) = ![64 * t.val + 60] := by decide +kernel
theorem coff_C1_61 : ∀ t : Fin grid0.N, k0_cond1 (grid0.coords t) = 1#1 → k0_off123 (grid0.coords t) = ![64 * t.val + 61] := by decide +kernel
theorem coff_C1_62 : ∀ t : Fin grid0.N, k0_cond1 (grid0.coords t) = 1#1 → k0_off125 (grid0.coords t) = ![64 * t.val + 62] := by decide +kernel
theorem coff_C1_63 : ∀ t : Fin grid0.N, k0_cond1 (grid0.coords t) = 1#1 → k0_off127 (grid0.coords t) = ![64 * t.val + 63] := by decide +kernel
theorem coff_C2_0 : ∀ t : Fin grid0.N, k0_cond2 (grid0.coords t) = 1#1 → k0_off194 (grid0.coords t) = ![64 * (t.val + 1) + 0] := by decide +kernel
theorem coff_C2_1 : ∀ t : Fin grid0.N, k0_cond2 (grid0.coords t) = 1#1 → k0_off200 (grid0.coords t) = ![64 * (t.val + 1) + 1] := by decide +kernel
theorem coff_C2_2 : ∀ t : Fin grid0.N, k0_cond2 (grid0.coords t) = 1#1 → k0_off205 (grid0.coords t) = ![64 * (t.val + 1) + 2] := by decide +kernel
theorem coff_C2_3 : ∀ t : Fin grid0.N, k0_cond2 (grid0.coords t) = 1#1 → k0_off210 (grid0.coords t) = ![64 * (t.val + 1) + 3] := by decide +kernel
theorem coff_C2_4 : ∀ t : Fin grid0.N, k0_cond2 (grid0.coords t) = 1#1 → k0_off215 (grid0.coords t) = ![64 * (t.val + 1) + 4] := by decide +kernel
theorem coff_C2_5 : ∀ t : Fin grid0.N, k0_cond2 (grid0.coords t) = 1#1 → k0_off220 (grid0.coords t) = ![64 * (t.val + 1) + 5] := by decide +kernel
theorem coff_C2_6 : ∀ t : Fin grid0.N, k0_cond2 (grid0.coords t) = 1#1 → k0_off225 (grid0.coords t) = ![64 * (t.val + 1) + 6] := by decide +kernel
theorem coff_C2_7 : ∀ t : Fin grid0.N, k0_cond2 (grid0.coords t) = 1#1 → k0_off230 (grid0.coords t) = ![64 * (t.val + 1) + 7] := by decide +kernel
theorem coff_C2_8 : ∀ t : Fin grid0.N, k0_cond2 (grid0.coords t) = 1#1 → k0_off235 (grid0.coords t) = ![64 * (t.val + 1) + 8] := by decide +kernel
theorem coff_C2_9 : ∀ t : Fin grid0.N, k0_cond2 (grid0.coords t) = 1#1 → k0_off240 (grid0.coords t) = ![64 * (t.val + 1) + 9] := by decide +kernel
theorem coff_C2_10 : ∀ t : Fin grid0.N, k0_cond2 (grid0.coords t) = 1#1 → k0_off245 (grid0.coords t) = ![64 * (t.val + 1) + 10] := by decide +kernel
theorem coff_C2_11 : ∀ t : Fin grid0.N, k0_cond2 (grid0.coords t) = 1#1 → k0_off250 (grid0.coords t) = ![64 * (t.val + 1) + 11] := by decide +kernel
theorem coff_C2_12 : ∀ t : Fin grid0.N, k0_cond2 (grid0.coords t) = 1#1 → k0_off255 (grid0.coords t) = ![64 * (t.val + 1) + 12] := by decide +kernel
theorem coff_C2_13 : ∀ t : Fin grid0.N, k0_cond2 (grid0.coords t) = 1#1 → k0_off260 (grid0.coords t) = ![64 * (t.val + 1) + 13] := by decide +kernel
theorem coff_C2_14 : ∀ t : Fin grid0.N, k0_cond2 (grid0.coords t) = 1#1 → k0_off265 (grid0.coords t) = ![64 * (t.val + 1) + 14] := by decide +kernel
theorem coff_C2_15 : ∀ t : Fin grid0.N, k0_cond2 (grid0.coords t) = 1#1 → k0_off270 (grid0.coords t) = ![64 * (t.val + 1) + 15] := by decide +kernel
theorem coff_C2_16 : ∀ t : Fin grid0.N, k0_cond2 (grid0.coords t) = 1#1 → k0_off275 (grid0.coords t) = ![64 * (t.val + 1) + 16] := by decide +kernel
theorem coff_C2_17 : ∀ t : Fin grid0.N, k0_cond2 (grid0.coords t) = 1#1 → k0_off280 (grid0.coords t) = ![64 * (t.val + 1) + 17] := by decide +kernel
theorem coff_C2_18 : ∀ t : Fin grid0.N, k0_cond2 (grid0.coords t) = 1#1 → k0_off285 (grid0.coords t) = ![64 * (t.val + 1) + 18] := by decide +kernel
theorem coff_C2_19 : ∀ t : Fin grid0.N, k0_cond2 (grid0.coords t) = 1#1 → k0_off290 (grid0.coords t) = ![64 * (t.val + 1) + 19] := by decide +kernel
theorem coff_C2_20 : ∀ t : Fin grid0.N, k0_cond2 (grid0.coords t) = 1#1 → k0_off295 (grid0.coords t) = ![64 * (t.val + 1) + 20] := by decide +kernel
theorem coff_C2_21 : ∀ t : Fin grid0.N, k0_cond2 (grid0.coords t) = 1#1 → k0_off300 (grid0.coords t) = ![64 * (t.val + 1) + 21] := by decide +kernel
theorem coff_C2_22 : ∀ t : Fin grid0.N, k0_cond2 (grid0.coords t) = 1#1 → k0_off305 (grid0.coords t) = ![64 * (t.val + 1) + 22] := by decide +kernel
theorem coff_C2_23 : ∀ t : Fin grid0.N, k0_cond2 (grid0.coords t) = 1#1 → k0_off310 (grid0.coords t) = ![64 * (t.val + 1) + 23] := by decide +kernel
theorem coff_C2_24 : ∀ t : Fin grid0.N, k0_cond2 (grid0.coords t) = 1#1 → k0_off315 (grid0.coords t) = ![64 * (t.val + 1) + 24] := by decide +kernel
theorem coff_C2_25 : ∀ t : Fin grid0.N, k0_cond2 (grid0.coords t) = 1#1 → k0_off320 (grid0.coords t) = ![64 * (t.val + 1) + 25] := by decide +kernel
theorem coff_C2_26 : ∀ t : Fin grid0.N, k0_cond2 (grid0.coords t) = 1#1 → k0_off325 (grid0.coords t) = ![64 * (t.val + 1) + 26] := by decide +kernel
theorem coff_C2_27 : ∀ t : Fin grid0.N, k0_cond2 (grid0.coords t) = 1#1 → k0_off330 (grid0.coords t) = ![64 * (t.val + 1) + 27] := by decide +kernel
theorem coff_C2_28 : ∀ t : Fin grid0.N, k0_cond2 (grid0.coords t) = 1#1 → k0_off335 (grid0.coords t) = ![64 * (t.val + 1) + 28] := by decide +kernel
theorem coff_C2_29 : ∀ t : Fin grid0.N, k0_cond2 (grid0.coords t) = 1#1 → k0_off340 (grid0.coords t) = ![64 * (t.val + 1) + 29] := by decide +kernel
theorem coff_C2_30 : ∀ t : Fin grid0.N, k0_cond2 (grid0.coords t) = 1#1 → k0_off345 (grid0.coords t) = ![64 * (t.val + 1) + 30] := by decide +kernel
theorem coff_C2_31 : ∀ t : Fin grid0.N, k0_cond2 (grid0.coords t) = 1#1 → k0_off350 (grid0.coords t) = ![64 * (t.val + 1) + 31] := by decide +kernel
theorem coff_C2_32 : ∀ t : Fin grid0.N, k0_cond2 (grid0.coords t) = 1#1 → k0_off355 (grid0.coords t) = ![64 * (t.val + 1) + 32] := by decide +kernel
theorem coff_C2_33 : ∀ t : Fin grid0.N, k0_cond2 (grid0.coords t) = 1#1 → k0_off360 (grid0.coords t) = ![64 * (t.val + 1) + 33] := by decide +kernel
theorem coff_C2_34 : ∀ t : Fin grid0.N, k0_cond2 (grid0.coords t) = 1#1 → k0_off365 (grid0.coords t) = ![64 * (t.val + 1) + 34] := by decide +kernel
theorem coff_C2_35 : ∀ t : Fin grid0.N, k0_cond2 (grid0.coords t) = 1#1 → k0_off370 (grid0.coords t) = ![64 * (t.val + 1) + 35] := by decide +kernel
theorem coff_C2_36 : ∀ t : Fin grid0.N, k0_cond2 (grid0.coords t) = 1#1 → k0_off375 (grid0.coords t) = ![64 * (t.val + 1) + 36] := by decide +kernel
theorem coff_C2_37 : ∀ t : Fin grid0.N, k0_cond2 (grid0.coords t) = 1#1 → k0_off380 (grid0.coords t) = ![64 * (t.val + 1) + 37] := by decide +kernel
theorem coff_C2_38 : ∀ t : Fin grid0.N, k0_cond2 (grid0.coords t) = 1#1 → k0_off385 (grid0.coords t) = ![64 * (t.val + 1) + 38] := by decide +kernel
theorem coff_C2_39 : ∀ t : Fin grid0.N, k0_cond2 (grid0.coords t) = 1#1 → k0_off390 (grid0.coords t) = ![64 * (t.val + 1) + 39] := by decide +kernel
theorem coff_C2_40 : ∀ t : Fin grid0.N, k0_cond2 (grid0.coords t) = 1#1 → k0_off395 (grid0.coords t) = ![64 * (t.val + 1) + 40] := by decide +kernel
theorem coff_C2_41 : ∀ t : Fin grid0.N, k0_cond2 (grid0.coords t) = 1#1 → k0_off400 (grid0.coords t) = ![64 * (t.val + 1) + 41] := by decide +kernel
theorem coff_C2_42 : ∀ t : Fin grid0.N, k0_cond2 (grid0.coords t) = 1#1 → k0_off405 (grid0.coords t) = ![64 * (t.val + 1) + 42] := by decide +kernel
theorem coff_C2_43 : ∀ t : Fin grid0.N, k0_cond2 (grid0.coords t) = 1#1 → k0_off410 (grid0.coords t) = ![64 * (t.val + 1) + 43] := by decide +kernel
theorem coff_C2_44 : ∀ t : Fin grid0.N, k0_cond2 (grid0.coords t) = 1#1 → k0_off415 (grid0.coords t) = ![64 * (t.val + 1) + 44] := by decide +kernel
theorem coff_C2_45 : ∀ t : Fin grid0.N, k0_cond2 (grid0.coords t) = 1#1 → k0_off420 (grid0.coords t) = ![64 * (t.val + 1) + 45] := by decide +kernel
theorem coff_C2_46 : ∀ t : Fin grid0.N, k0_cond2 (grid0.coords t) = 1#1 → k0_off425 (grid0.coords t) = ![64 * (t.val + 1) + 46] := by decide +kernel
theorem coff_C2_47 : ∀ t : Fin grid0.N, k0_cond2 (grid0.coords t) = 1#1 → k0_off430 (grid0.coords t) = ![64 * (t.val + 1) + 47] := by decide +kernel
theorem coff_C2_48 : ∀ t : Fin grid0.N, k0_cond2 (grid0.coords t) = 1#1 → k0_off435 (grid0.coords t) = ![64 * (t.val + 1) + 48] := by decide +kernel
theorem coff_C2_49 : ∀ t : Fin grid0.N, k0_cond2 (grid0.coords t) = 1#1 → k0_off440 (grid0.coords t) = ![64 * (t.val + 1) + 49] := by decide +kernel
theorem coff_C2_50 : ∀ t : Fin grid0.N, k0_cond2 (grid0.coords t) = 1#1 → k0_off445 (grid0.coords t) = ![64 * (t.val + 1) + 50] := by decide +kernel
theorem coff_C2_51 : ∀ t : Fin grid0.N, k0_cond2 (grid0.coords t) = 1#1 → k0_off450 (grid0.coords t) = ![64 * (t.val + 1) + 51] := by decide +kernel
theorem coff_C2_52 : ∀ t : Fin grid0.N, k0_cond2 (grid0.coords t) = 1#1 → k0_off455 (grid0.coords t) = ![64 * (t.val + 1) + 52] := by decide +kernel
theorem coff_C2_53 : ∀ t : Fin grid0.N, k0_cond2 (grid0.coords t) = 1#1 → k0_off460 (grid0.coords t) = ![64 * (t.val + 1) + 53] := by decide +kernel
theorem coff_C2_54 : ∀ t : Fin grid0.N, k0_cond2 (grid0.coords t) = 1#1 → k0_off465 (grid0.coords t) = ![64 * (t.val + 1) + 54] := by decide +kernel
theorem coff_C2_55 : ∀ t : Fin grid0.N, k0_cond2 (grid0.coords t) = 1#1 → k0_off470 (grid0.coords t) = ![64 * (t.val + 1) + 55] := by decide +kernel
theorem coff_C2_56 : ∀ t : Fin grid0.N, k0_cond2 (grid0.coords t) = 1#1 → k0_off475 (grid0.coords t) = ![64 * (t.val + 1) + 56] := by decide +kernel
theorem coff_C2_57 : ∀ t : Fin grid0.N, k0_cond2 (grid0.coords t) = 1#1 → k0_off480 (grid0.coords t) = ![64 * (t.val + 1) + 57] := by decide +kernel
theorem coff_C2_58 : ∀ t : Fin grid0.N, k0_cond2 (grid0.coords t) = 1#1 → k0_off485 (grid0.coords t) = ![64 * (t.val + 1) + 58] := by decide +kernel
theorem coff_C2_59 : ∀ t : Fin grid0.N, k0_cond2 (grid0.coords t) = 1#1 → k0_off490 (grid0.coords t) = ![64 * (t.val + 1) + 59] := by decide +kernel
theorem coff_C2_60 : ∀ t : Fin grid0.N, k0_cond2 (grid0.coords t) = 1#1 → k0_off495 (grid0.coords t) = ![64 * (t.val + 1) + 60] := by decide +kernel
theorem coff_C2_61 : ∀ t : Fin grid0.N, k0_cond2 (grid0.coords t) = 1#1 → k0_off500 (grid0.coords t) = ![64 * (t.val + 1) + 61] := by decide +kernel
theorem coff_C2_62 : ∀ t : Fin grid0.N, k0_cond2 (grid0.coords t) = 1#1 → k0_off505 (grid0.coords t) = ![64 * (t.val + 1) + 62] := by decide +kernel
theorem coff_C2_63 : ∀ t : Fin grid0.N, k0_cond2 (grid0.coords t) = 1#1 → k0_off510 (grid0.coords t) = ![64 * (t.val + 1) + 63] := by decide +kernel

end Cert.Kernel.Hand

end
-- ==== Proof.K.Geom.lean ====
/-
  The geometry of a [2, 8, 64, 1024] scratch buffer: slot s is the indices with first coordinate s, row r of slot s those
  with first coordinate s and third coordinate r. The 64 rows of a slot are pairwise disjoint and cover it; the two slots
  are disjoint and cover the buffer. So a points-to over a slot is the separating conjunction of the points-tos over its
  rows, at one contents, and rows held at contents of their own are the slot held at the contents glued row by row.
  An argument array at the full share is n read tokens and a remainder; at any share it is one row and the rest.
-/
import proofs.«422764_j1194000908612_2_alg».proof.Proof.Gen.Kernel.Launch
import proofs.«422764_j1194000908612_2_alg».proof.Proof.Gen.Kernel.Skeleton
import proofs.«422764_j1194000908612_2_alg».proof.Proof.K.Names
import proofs.«422764_j1194000908612_2_alg».proof.Proof.K.Out
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The element sets: row r of slot s, and slot s, of a [2, 8, 64, 1024] buffer -/

abbrev rowSet (s : Fin 2) (r : Fin 64) : Finset S2x8x64x1024.Idx :=
  (Rect.unit (s := S2x8x64x1024) ![s.val, 0, r.val, 0] S1x8x1x1024.size (inb_row s r)).set
abbrev slotSet (s : Fin 2) : Finset S2x8x64x1024.Idx :=
  (Rect.unit (s := S2x8x64x1024) ![s.val, 0, 0, 0] S1x8x64x1024.size (inb_slot s)).set

/-- An index lies in row r of slot s exactly when its first coordinate is s and its third is r. -/
theorem mem_rowSet {s : Fin 2} {r : Fin 64} {i : S2x8x64x1024.Idx} : i ∈ rowSet s r ↔ (i 0).val = s.val ∧ (i 2).val = r.val := by
  rw [Rect.mem_set_unit]
  have h1 : (i 1).val < 8 := (i 1).isLt
  have h3 : (i 3).val < 1024 := (i 3).isLt
  constructor
  · intro h
    have a0 := h 0
    have a2 := h 2
    simp at a0 a2
    omega
  · rintro ⟨e0, e2⟩ a
    fin_cases a <;> simp <;> omega
/-- An index lies in slot s exactly when its first coordinate is s. -/
theorem mem_slotSet {s : Fin 2} {i : S2x8x64x1024.Idx} : i ∈ slotSet s ↔ (i 0).val = s.val := by
  rw [Rect.mem_set_unit]
  have h1 : (i 1).val < 8 := (i 1).isLt
  have h2 : (i 2).val < 64 := (i 2).isLt
  have h3 : (i 3).val < 1024 := (i 3).isLt
  constructor
  · intro h
    have a0 := h 0
    simp at a0
    omega
  · intro e0 a
    fin_cases a <;> simp <;> omega

theorem rows_disjoint (s : Fin 2) (r r' : Fin 64) (h : r ≠ r') : Disjoint (rowSet s r) (rowSet s r') := by
  rw [Finset.disjoint_left]
  intro i hi hi'
  exact h (Fin.ext ((mem_rowSet.mp hi).2.symm.trans (mem_rowSet.mp hi').2))
theorem rows_inter (s : Fin 2) (r r' : Fin 64) (h : r ≠ r') : rowSet s r ∩ rowSet s r' = ∅ :=
  Finset.disjoint_iff_inter_eq_empty.mp (rows_disjoint s r r' h)
theorem rows_cover (s : Fin 2) : Finset.univ.biUnion (rowSet s) = slotSet s := by
  ext i
  simp only [Finset.mem_biUnion, Finset.mem_univ, true_and]
  constructor
  · rintro ⟨r, hr⟩; exact mem_slotSet.mpr (mem_rowSet.mp hr).1
  · intro hi; exact ⟨i 2, mem_rowSet.mpr ⟨mem_slotSet.mp hi, rfl⟩⟩
theorem slots_disjoint (s s' : Fin 2) (h : s ≠ s') : Disjoint (slotSet s) (slotSet s') := by
  rw [Finset.disjoint_left]
  intro i hi hi'
  exact h (Fin.ext ((mem_slotSet.mp hi).symm.trans (mem_slotSet.mp hi')))
theorem slots_cover : Finset.univ.biUnion slotSet = Finset.univ := by
  ext i
  simp only [Finset.mem_biUnion, Finset.mem_univ, true_and, iff_true]
  exact ⟨i 0, mem_slotSet.mpr rfl⟩
theorem slots_union : slotSet 0 ∪ slotSet 1 = Finset.univ := by
  ext i
  simp only [Finset.mem_union, Finset.mem_univ, iff_true]
  have h0 : (i 0).val < 2 := (i 0).isLt
  rcases Nat.lt_or_ge (i 0).val 1 with h | h
  · left; exact mem_slotSet.mpr (by show (i 0).val = 0; omega)
  · right; exact mem_slotSet.mpr (by show (i 0).val = 1; omega)

/-! ## A buffer's points-to along a family of pairwise disjoint element sets -/

section Generic
variable {ℓ : Loc nD τ sig}

/-- Elements I held at one contents, I the disjoint union of the sets K b: each K b held at that contents. -/
theorem pt_family {B : Type} [Fintype B] [DecidableEq B] (I : Finset (Idx ℓ)) (K : B → Finset (Idx ℓ))
    (hd : ∀ b b', b ≠ b' → Disjoint (K b) (K b')) (hc : Finset.univ.biUnion K = I) (q : PosShare TreeShare) (g : Buf (Elt F) ℓ) :
    (ℓ ↦[I]{q} g : sProp 𝕄) = bigSep Finset.univ (fun b => ℓ ↦[K b]{q} g) := by
  rw [← hc]; exact pointsTo_biUnion Finset.univ K (fun b _ b' _ h => hd b b' h)

/-- Contents glued along a choice of piece: at an index, the contents of the piece chosen there. -/
def glueBy {B : Type} (pick : Idx ℓ → B) (f : B → Buf (Elt F) ℓ) : Buf (Elt F) ℓ := fun i => f (pick i) i

/-- Each K b held at contents f b of its own, the choice landing in b on K b: I held at the glued contents. -/
theorem pt_family_glue {B : Type} [Fintype B] [DecidableEq B] (I : Finset (Idx ℓ)) (K : B → Finset (Idx ℓ))
    (hd : ∀ b b', b ≠ b' → Disjoint (K b) (K b')) (hc : Finset.univ.biUnion K = I) (pick : Idx ℓ → B)
    (hp : ∀ b, ∀ i ∈ K b, pick i = b) (q : PosShare TreeShare) (f : B → Buf (Elt F) ℓ) :
    bigSep Finset.univ (fun b => (ℓ ↦[K b]{q} f b : sProp 𝕄)) = (ℓ ↦[I]{q} glueBy pick f) := by
  rw [pt_family I K hd hc q (glueBy pick f)]
  refine BI.bigSep_congr fun b _ => pointsTo_congr fun i hi => ?_
  show f b i = f (pick i) i
  rw [hp b i hi]

end Generic

/-! ## Scratch buffer scA -/

theorem rowM_set_A (s : Fin 2) (r : Fin 64) : (rowM scA s r).view.set = rowSet s r := by
  simp only [rowM, dstM, Memref.view_squeeze, View.set_reshape]; exact View.set_slice_whole _ _
theorem slotM_set_A (s : Fin 2) : (slotM scA s).view.set = slotSet s := by
  simp only [slotM]; exact View.set_slice_whole _ _
theorem heldQ_rowM_A (c : Dev nD) (s : Fin 2) (r : Fin 64) (q : PosShare TreeShare) (f : MBuf (F := F) c scA) :
    heldQ (F := F) c (rowM scA s r) q f = (scA.view.loc (c : Thread nD τ) ↦[rowSet s r]{q} f : sProp 𝕄) := by
  unfold heldQ; rw [rowM_set_A]; rfl
theorem heldQ_slotM_A (c : Dev nD) (s : Fin 2) (q : PosShare TreeShare) (f : MBuf (F := F) c scA) :
    heldQ (F := F) c (slotM scA s) q f = (scA.view.loc (c : Thread nD τ) ↦[slotSet s]{q} f : sProp 𝕄) := by
  unfold heldQ; rw [slotM_set_A]; rfl

/-- A slot held at one contents is its 64 rows held at that contents. -/
theorem slot_rows_A (c : Dev nD) (s : Fin 2) (q : PosShare TreeShare) (g : MBuf (F := F) c scA) :
    (scA.view.loc (c : Thread nD τ) ↦[slotSet s]{q} g : sProp 𝕄)
      ⊣⊢ bigSep (Finset.univ : Finset (Fin 64)) (fun r => scA.view.loc (c : Thread nD τ) ↦[rowSet s r]{q} g) := by
  have e := pt_family (F := F) (ℓ := scA.view.loc (c : Thread nD τ)) (slotSet s) (rowSet s) (rows_disjoint s) (rows_cover s) q g
  exact ⟨Entails.of_eq e, Entails.of_eq e.symm⟩
/-- The buffer held whole is its two slots. -/
theorem whole_slots_A (c : Dev nD) (q : PosShare TreeShare) (g : MBuf (F := F) c scA) :
    (scA.view.loc (c : Thread nD τ) ↦{q} g : sProp 𝕄)
      ⊣⊢ iprop((scA.view.loc (c : Thread nD τ) ↦[slotSet 0]{q} g) ∗ (scA.view.loc (c : Thread nD τ) ↦[slotSet 1]{q} g)) := by
  have e : (scA.view.loc (c : Thread nD τ) ↦[slotSet 0 ∪ slotSet 1]{q} g : sProp 𝕄)
      ⊣⊢ iprop((scA.view.loc (c : Thread nD τ) ↦[slotSet 0]{q} g) ∗ (scA.view.loc (c : Thread nD τ) ↦[slotSet 1]{q} g)) :=
    pointsTo_union (slots_disjoint 0 1 (by decide))
  rw [slots_union] at e
  exact e

/-- The row an index lies in. -/
def rowOfIdx_A (c : Dev nD) (idx : Idx (scA.view.loc (c : Thread nD τ))) : Fin 64 :=
  ⟨((idx : S2x8x64x1024.Idx) 2).val % 64, Nat.mod_lt _ (by decide)⟩
/-- Contents glued row by row: at an index, the contents of the row the index lies in. -/
def glue_A (c : Dev nD) (f : Fin 64 → MBuf (F := F) c scA) : MBuf (F := F) c scA :=
  glueBy (rowOfIdx_A c) f
theorem rowOfIdx_on_A (c : Dev nD) (s : Fin 2) (r : Fin 64) : ∀ idx ∈ rowSet s r, rowOfIdx_A c idx = r := by
  intro idx hidx
  apply Fin.ext
  show ((idx : S2x8x64x1024.Idx) 2).val % 64 = r.val
  rw [(mem_rowSet.mp hidx).2]
  exact Nat.mod_eq_of_lt r.isLt
theorem glue_on_A (c : Dev nD) (s : Fin 2) (f : Fin 64 → MBuf (F := F) c scA) (r : Fin 64) :
    ∀ idx ∈ rowSet s r, glue_A c f idx = f r idx := by
  intro idx hidx
  show f (rowOfIdx_A c idx) idx = f r idx
  rw [rowOfIdx_on_A c s r idx hidx]
/-- Rows held at contents of their own are the slot held at the glued contents. -/
theorem rows_glue_eq_A (c : Dev nD) (s : Fin 2) (q : PosShare TreeShare) (f : Fin 64 → MBuf (F := F) c scA) :
    bigSep Finset.univ (fun r : Fin 64 => (scA.view.loc (c : Thread nD τ) ↦[rowSet s r]{q} f r : sProp 𝕄))
      = (scA.view.loc (c : Thread nD τ) ↦[slotSet s]{q} glue_A c f) :=
  pt_family_glue (F := F) (ℓ := scA.view.loc (c : Thread nD τ)) (slotSet s) (rowSet s) (rows_disjoint s) (rows_cover s)
    (rowOfIdx_A c) (rowOfIdx_on_A c s) q f
theorem rows_glue_A (c : Dev nD) (s : Fin 2) (q : PosShare TreeShare) (f : Fin 64 → MBuf (F := F) c scA) :
    bigSep Finset.univ (fun r : Fin 64 => (scA.view.loc (c : Thread nD τ) ↦[rowSet s r]{q} f r : sProp 𝕄))
      ⊢ scA.view.loc (c : Thread nD τ) ↦[slotSet s]{q} glue_A c f :=
  Entails.of_eq (rows_glue_eq_A c s q f)
theorem glue_rows_A (c : Dev nD) (s : Fin 2) (q : PosShare TreeShare) (f : Fin 64 → MBuf (F := F) c scA) :
    (scA.view.loc (c : Thread nD τ) ↦[slotSet s]{q} glue_A c f : sProp 𝕄)
      ⊢ bigSep Finset.univ (fun r : Fin 64 => scA.view.loc (c : Thread nD τ) ↦[rowSet s r]{q} f r) :=
  Entails.of_eq (rows_glue_eq_A c s q f).symm

/-! ## Scratch buffer scB -/

theorem rowM_set_B (s : Fin 2) (r : Fin 64) : (rowM scB s r).view.set = rowSet s r := by
  simp only [rowM, dstM, Memref.view_squeeze, View.set_reshape]; exact View.set_slice_whole _ _
theorem slotM_set_B (s : Fin 2) : (slotM scB s).view.set = slotSet s := by
  simp only [slotM]; exact View.set_slice_whole _ _
theorem heldQ_rowM_B (c : Dev nD) (s : Fin 2) (r : Fin 64) (q : PosShare TreeShare) (f : MBuf (F := F) c scB) :
    heldQ (F := F) c (rowM scB s r) q f = (scB.view.loc (c : Thread nD τ) ↦[rowSet s r]{q} f : sProp 𝕄) := by
  unfold heldQ; rw [rowM_set_B]; rfl
theorem heldQ_slotM_B (c : Dev nD) (s : Fin 2) (q : PosShare TreeShare) (f : MBuf (F := F) c scB) :
    heldQ (F := F) c (slotM scB s) q f = (scB.view.loc (c : Thread nD τ) ↦[slotSet s]{q} f : sProp 𝕄) := by
  unfold heldQ; rw [slotM_set_B]; rfl

/-- A slot held at one contents is its 64 rows held at that contents. -/
theorem slot_rows_B (c : Dev nD) (s : Fin 2) (q : PosShare TreeShare) (g : MBuf (F := F) c scB) :
    (scB.view.loc (c : Thread nD τ) ↦[slotSet s]{q} g : sProp 𝕄)
      ⊣⊢ bigSep (Finset.univ : Finset (Fin 64)) (fun r => scB.view.loc (c : Thread nD τ) ↦[rowSet s r]{q} g) := by
  have e := pt_family (F := F) (ℓ := scB.view.loc (c : Thread nD τ)) (slotSet s) (rowSet s) (rows_disjoint s) (rows_cover s) q g
  exact ⟨Entails.of_eq e, Entails.of_eq e.symm⟩
/-- The buffer held whole is its two slots. -/
theorem whole_slots_B (c : Dev nD) (q : PosShare TreeShare) (g : MBuf (F := F) c scB) :
    (scB.view.loc (c : Thread nD τ) ↦{q} g : sProp 𝕄)
      ⊣⊢ iprop((scB.view.loc (c : Thread nD τ) ↦[slotSet 0]{q} g) ∗ (scB.view.loc (c : Thread nD τ) ↦[slotSet 1]{q} g)) := by
  have e : (scB.view.loc (c : Thread nD τ) ↦[slotSet 0 ∪ slotSet 1]{q} g : sProp 𝕄)
      ⊣⊢ iprop((scB.view.loc (c : Thread nD τ) ↦[slotSet 0]{q} g) ∗ (scB.view.loc (c : Thread nD τ) ↦[slotSet 1]{q} g)) :=
    pointsTo_union (slots_disjoint 0 1 (by decide))
  rw [slots_union] at e
  exact e

/-- The row an index lies in. -/
def rowOfIdx_B (c : Dev nD) (idx : Idx (scB.view.loc (c : Thread nD τ))) : Fin 64 :=
  ⟨((idx : S2x8x64x1024.Idx) 2).val % 64, Nat.mod_lt _ (by decide)⟩
/-- Contents glued row by row: at an index, the contents of the row the index lies in. -/
def glue_B (c : Dev nD) (f : Fin 64 → MBuf (F := F) c scB) : MBuf (F := F) c scB :=
  glueBy (rowOfIdx_B c) f
theorem rowOfIdx_on_B (c : Dev nD) (s : Fin 2) (r : Fin 64) : ∀ idx ∈ rowSet s r, rowOfIdx_B c idx = r := by
  intro idx hidx
  apply Fin.ext
  show ((idx : S2x8x64x1024.Idx) 2).val % 64 = r.val
  rw [(mem_rowSet.mp hidx).2]
  exact Nat.mod_eq_of_lt r.isLt
theorem glue_on_B (c : Dev nD) (s : Fin 2) (f : Fin 64 → MBuf (F := F) c scB) (r : Fin 64) :
    ∀ idx ∈ rowSet s r, glue_B c f idx = f r idx := by
  intro idx hidx
  show f (rowOfIdx_B c idx) idx = f r idx
  rw [rowOfIdx_on_B c s r idx hidx]
/-- Rows held at contents of their own are the slot held at the glued contents. -/
theorem rows_glue_eq_B (c : Dev nD) (s : Fin 2) (q : PosShare TreeShare) (f : Fin 64 → MBuf (F := F) c scB) :
    bigSep Finset.univ (fun r : Fin 64 => (scB.view.loc (c : Thread nD τ) ↦[rowSet s r]{q} f r : sProp 𝕄))
      = (scB.view.loc (c : Thread nD τ) ↦[slotSet s]{q} glue_B c f) :=
  pt_family_glue (F := F) (ℓ := scB.view.loc (c : Thread nD τ)) (slotSet s) (rowSet s) (rows_disjoint s) (rows_cover s)
    (rowOfIdx_B c) (rowOfIdx_on_B c s) q f
theorem rows_glue_B (c : Dev nD) (s : Fin 2) (q : PosShare TreeShare) (f : Fin 64 → MBuf (F := F) c scB) :
    bigSep Finset.univ (fun r : Fin 64 => (scB.view.loc (c : Thread nD τ) ↦[rowSet s r]{q} f r : sProp 𝕄))
      ⊢ scB.view.loc (c : Thread nD τ) ↦[slotSet s]{q} glue_B c f :=
  Entails.of_eq (rows_glue_eq_B c s q f)
theorem glue_rows_B (c : Dev nD) (s : Fin 2) (q : PosShare TreeShare) (f : Fin 64 → MBuf (F := F) c scB) :
    (scB.view.loc (c : Thread nD τ) ↦[slotSet s]{q} glue_B c f : sProp 𝕄)
      ⊢ bigSep Finset.univ (fun r : Fin 64 => scB.view.loc (c : Thread nD τ) ↦[rowSet s r]{q} f r) :=
  Entails.of_eq (rows_glue_eq_B c s q f).symm

/-! ## Argument array aM: read tokens, and one row set apart -/

/-- The array at the full share is what is left after n read tokens, and the n tokens. -/
theorem arg_toks_a (c : Dev nD) (n : ℕ) (fx : MBuf (F := F) c aM) :
    (aM.view.loc (c : Thread nD τ) ↦{fullShare} fx : sProp 𝕄)
      ⊣⊢ iprop((aM.view.loc (c : Thread nD τ) ↦{Transfers.shareDrop fullShare n} fx)
          ∗ bigSep (Finset.range n) (fun i => aM.view.loc (c : Thread nD τ) ↦{Transfers.shareTokN fullShare i} fx)) :=
  Transfers.pointsTo_toks_range fullShare n
/-- The array at a share is one row's elements and the rest, at that share. -/
theorem arg_row_a (c : Dev nD) (q : PosShare TreeShare) (w : BitVec 32) (hw : w.toNat < 4096) (fx : MBuf (F := F) c aM) :
    (aM.view.loc (c : Thread nD τ) ↦{q} fx : sProp 𝕄)
      ⊣⊢ iprop(heldQ (F := F) c (srcM aM ![0, w.toNat, 0] (rows_inb w hw)) q fx
          ∗ (aM.view.loc (c : Thread nD τ) ↦[Finset.univ \ (srcM aM ![0, w.toNat, 0] (rows_inb w hw)).view.set]{q} fx)) :=
  pointsTo_split_subset (Finset.subset_univ _)

/-! ## Argument array bM: read tokens, and one row set apart -/

/-- The array at the full share is what is left after n read tokens, and the n tokens. -/
theorem arg_toks_b (c : Dev nD) (n : ℕ) (fx : MBuf (F := F) c bM) :
    (bM.view.loc (c : Thread nD τ) ↦{fullShare} fx : sProp 𝕄)
      ⊣⊢ iprop((bM.view.loc (c : Thread nD τ) ↦{Transfers.shareDrop fullShare n} fx)
          ∗ bigSep (Finset.range n) (fun i => bM.view.loc (c : Thread nD τ) ↦{Transfers.shareTokN fullShare i} fx)) :=
  Transfers.pointsTo_toks_range fullShare n
/-- The array at a share is one row's elements and the rest, at that share. -/
theorem arg_row_b (c : Dev nD) (q : PosShare TreeShare) (w : BitVec 32) (hw : w.toNat < 4096) (fx : MBuf (F := F) c bM) :
    (bM.view.loc (c : Thread nD τ) ↦{q} fx : sProp 𝕄)
      ⊣⊢ iprop(heldQ (F := F) c (srcM bM ![0, w.toNat, 0] (rows_inb w hw)) q fx
          ∗ (bM.view.loc (c : Thread nD τ) ↦[Finset.univ \ (srcM bM ![0, w.toNat, 0] (rows_inb w hw)).view.set]{q} fx)) :=
  pointsTo_split_subset (Finset.subset_univ _)

end Cert.Kernel.Hand

end
-- ==== Proof.K.Phi.lean ====
/-
  The state of the two scratch slots between grid points.
-/
import proofs.«422764_j1194000908612_2_alg».proof.Proof.Gen.Kernel.Launch
import proofs.«422764_j1194000908612_2_alg».proof.Proof.Gen.Kernel.Skeleton
import proofs.«422764_j1194000908612_2_alg».proof.Proof.K.Tab
import proofs.«422764_j1194000908612_2_alg».proof.Proof.K.Canon
import proofs.«422764_j1194000908612_2_alg».proof.Proof.K.Geom
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (htb : ∀ y, (tb y).toNat < 4096) (fa : MBuf (F := F) c aM) (fb : MBuf (F := F) c bM)

/-- Slot s of array A's scratch FREE: its counter at zero, the slot's 64 rows owned at some contents, and the slot's 64
    read shares of the array whole. -/
def freeA (s : Fin 2) : sProp 𝕄 :=
  iprop(semVal ((c : Thread nD τ), cA s) 0 ∗ (∃ g : MBuf (F := F) c scA, scA.view.loc (c : Thread nD τ) ↦[slotSet s]{fullShare} g)
    ∗ bigSep Finset.univ (fun r : Fin 64 => (aM.view.loc (c : Thread nD τ) ↦{qTok s r} fa : sProp 𝕄)))
def freeB (s : Fin 2) : sProp 𝕄 :=
  iprop(semVal ((c : Thread nD τ), cB s) 0 ∗ (∃ g : MBuf (F := F) c scB, scB.view.loc (c : Thread nD τ) ↦[slotSet s]{fullShare} g)
    ∗ bigSep Finset.univ (fun r : Fin 64 => (bM.view.loc (c : Thread nD τ) ↦{qTok s r} fb : sProp 𝕄)))

/-- Slot s IN FLIGHT with the 64 rows the prefetch of the grid point at coordinates i started: the batch of 64 copies, all
    started and none waited for, and what is left of each read share once its array row is lent. -/
def flightA (i : grid0.Coords) (h2 : k0_cond2 i = 1#1) (s : Fin 2) : sProp 𝕄 :=
  iprop(Transfers.Batch countersEmb (c : Thread nD τ) (cA s) () rowCredit (D2A c tb fa htb i h2 s) 64 0
    ∗ bigSep Finset.univ (R2A c tb fa htb i h2 s))
def flightB (i : grid0.Coords) (h2 : k0_cond2 i = 1#1) (s : Fin 2) : sProp 𝕄 :=
  iprop(Transfers.Batch countersEmb (c : Thread nD τ) (cB s) () rowCredit (D2B c tb fb htb i h2 s) 64 0
    ∗ bigSep Finset.univ (R2B c tb fb htb i h2 s))

/-- What does not change from point to point: the generator register, the table's half share, and the remainder of each
    array's share once the 128 read shares are taken off. -/
def steady : sProp 𝕄 :=
  iprop((∃ r, prngReg c r) ∗ tbPt c tb ∗ (aM.view.loc (c : Thread nD τ) ↦{Transfers.shareDrop fullShare 128} fa)
    ∗ (bM.view.loc (c : Thread nD τ) ↦{Transfers.shareDrop fullShare 128} fb))

/-- The slots before grid point k: at the first point of a row group (k a multiple of 16) both slots are free; otherwise the
    block of point k is in flight into slot k mod 2, started by the prefetch of point k − 1, and the other slot is free. -/
def slots (k : ℕ) : sProp 𝕄 :=
  if h0 : k % 16 = 0 then iprop(freeA c fa 0 ∗ freeA c fa 1 ∗ freeB c fb 0 ∗ freeB c fb 1)
  else if hk : k ≤ 32 then
    iprop(flightA c tb htb fa (grid0.coords ⟨k - 1, by rw [N_0]; omega⟩) ((hcond2 ⟨k - 1, by rw [N_0]; omega⟩).mpr (by simp only; omega)) (slN k)
      ∗ flightB c tb htb fb (grid0.coords ⟨k - 1, by rw [N_0]; omega⟩) ((hcond2 ⟨k - 1, by rw [N_0]; omega⟩).mpr (by simp only; omega)) (slN k)
      ∗ freeA c fa (slN (k + 1)) ∗ freeB c fb (slN (k + 1)))
  else iprop(emp)

/-- The invariant of the region before grid point k. -/
def Phi (k : ℕ) : sProp 𝕄 := iprop(steady c tb fa fb ∗ slots c tb htb fa fb k)

end

end Cert.Kernel.Hand

end
-- ==== Proof.K.PhiIO.lean ====
/-
  Into the invariant and out of it, and the slots of a point unfolded.

  At the entry of the region the two scratch buffers are whole, the four counters at zero and the two arrays whole at the
  full share. Each scratch buffer is its two slots; each array's full share is a remainder and 128 read shares, 64 for
  slot 0 (the shares numbered r) and 64 for slot 1 (those numbered 64 + r). That is the invariant before point 0: both slots
  of both arrays free. Before point 32 (32 = 2 · 16) both are free again, and the pieces join back.
-/
import proofs.«422764_j1194000908612_2_alg».proof.Proof.Gen.Kernel.Launch
import proofs.«422764_j1194000908612_2_alg».proof.Proof.Gen.Kernel.Skeleton
import proofs.«422764_j1194000908612_2_alg».proof.Proof.K.Phi
import proofs.«422764_j1194000908612_2_alg».proof.Proof.K.Kit
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

/-! ## Re-indexing a separating conjunction over a range -/

/-- Over the first n naturals, or over Fin n by value. -/
theorem bigSep_range_fin (n : ℕ) (Φ : ℕ → sProp 𝕄) :
    bigSep (Finset.range n) Φ = bigSep Finset.univ (fun i : Fin n => Φ i.val) := by
  rw [← Nat.Iio_eq_range, ← Fin.map_valEmbedding_univ, BI.bigSep_map]; rfl

/-- The first a + b naturals are the first a, then b more from a on. -/
theorem bigSep_range_add (a b : ℕ) (Φ : ℕ → sProp 𝕄) :
    bigSep (Finset.range (a + b)) Φ = iprop(bigSep (Finset.range a) Φ ∗ bigSep (Finset.range b) (fun i => Φ (a + i))) := by
  rw [Finset.range_add, BI.bigSep_union (Finset.disjoint_range_addLeftEmbedding a (Finset.range b)), BI.bigSep_map]
  rfl

/-! ## The 128 read shares of an array dealt to the two slots, 64 each -/

section Deal
variable {ℓ : Loc nD τ sig}

theorem toks_deal (fx : Buf (Elt F) ℓ) :
    bigSep (Finset.range 128) (fun i => (ℓ ↦{Transfers.shareTokN fullShare i} fx : sProp 𝕄))
      = iprop(bigSep Finset.univ (fun r : Fin 64 => (ℓ ↦{qTok 0 r} fx : sProp 𝕄)) ∗ bigSep Finset.univ (fun r : Fin 64 => (ℓ ↦{qTok 1 r} fx : sProp 𝕄))) := by
  rw [show (128 : ℕ) = 64 + 64 from rfl, bigSep_range_add, bigSep_range_fin, bigSep_range_fin]
  refine congrArg₂ _ (BI.bigSep_congr fun r _ => ?_) (BI.bigSep_congr fun r _ => ?_)
  · show _ = (ℓ ↦{Transfers.shareTokN fullShare (64 * (0 : Fin 2).val + r.val)} fx : sProp 𝕄)
    rw [show 64 * (0 : Fin 2).val + r.val = r.val from by simp]
  · show _ = (ℓ ↦{Transfers.shareTokN fullShare (64 * (1 : Fin 2).val + r.val)} fx : sProp 𝕄)
    rw [show 64 * (1 : Fin 2).val + r.val = 64 + r.val from by simp]

/-- An array whole at the full share: the remainder after 128 read shares, slot 0's 64 shares, slot 1's 64 shares. -/
theorem arr_deal (fx : Buf (Elt F) ℓ) :
    (ℓ ↦{fullShare} fx : sProp 𝕄)
      ⊣⊢ iprop((ℓ ↦{Transfers.shareDrop fullShare 128} fx)
          ∗ bigSep Finset.univ (fun r : Fin 64 => (ℓ ↦{qTok 0 r} fx : sProp 𝕄)) ∗ bigSep Finset.univ (fun r : Fin 64 => (ℓ ↦{qTok 1 r} fx : sProp 𝕄))) := by
  have e := Transfers.pointsTo_toks_range (Ix := Unit) (Name := ℕ) (U := Pipeline.UD sig nD τ) (Lvl := ℕ) (ℓ := ℓ) (S := Finset.univ) (f := fx) fullShare 128
  rw [toks_deal] at e
  exact e

end Deal

/-! ## A scratch buffer's two slots, at contents of their own, joined -/

theorem scratch_join_A (c : Dev nD) (g0 g1 : MBuf (F := F) c scA) :
    iprop((scA.view.loc (c : Thread nD τ) ↦[slotSet 0]{fullShare} g0) ∗ (scA.view.loc (c : Thread nD τ) ↦[slotSet 1]{fullShare} g1))
      ⊢ (iprop(∃ f : MBuf (F := F) c scA, scA.view.loc (c : Thread nD τ) ↦{fullShare} f) : sProp 𝕄) := by
  refine (pointsTo_join (slots_disjoint 0 1 (by decide))).trans ?_
  rw [slots_union]
  iintro H
  iexists (slotSet 1).piecewise g1 g0
  iexact H
theorem scratch_join_B (c : Dev nD) (g0 g1 : MBuf (F := F) c scB) :
    iprop((scB.view.loc (c : Thread nD τ) ↦[slotSet 0]{fullShare} g0) ∗ (scB.view.loc (c : Thread nD τ) ↦[slotSet 1]{fullShare} g1))
      ⊢ (iprop(∃ f : MBuf (F := F) c scB, scB.view.loc (c : Thread nD τ) ↦{fullShare} f) : sProp 𝕄) := by
  refine (pointsTo_join (slots_disjoint 0 1 (by decide))).trans ?_
  rw [slots_union]
  iintro H
  iexists (slotSet 1).piecewise g1 g0
  iexact H

/-! ## The slots at a point, unfolded -/

section
variable (c : Dev nD) (tb : MBuf (F := F) c tbM) (htb : ∀ y, (tb y).toNat < 4096) (fa : MBuf (F := F) c aM) (fb : MBuf (F := F) c bM)

/-- At the first point of a row group both slots of both arrays are free. -/
theorem slots_free (k : ℕ) (h0 : k % 16 = 0) :
    slots c tb htb fa fb k = iprop(freeA c fa 0 ∗ freeA c fa 1 ∗ freeB c fb 0 ∗ freeB c fb 1) := by
  unfold slots; rw [dif_pos h0]

/-- A flight depends on the grid coordinates only, not on how the condition was shown. -/
theorem flightA_congr (i i' : grid0.Coords) (e : i = i') (h2 : k0_cond2 i = 1#1) (h2' : k0_cond2 i' = 1#1) (s : Fin 2) :
    flightA c tb htb fa i h2 s = flightA c tb htb fa i' h2' s := by subst e; rfl
theorem flightB_congr (i i' : grid0.Coords) (e : i = i') (h2 : k0_cond2 i = 1#1) (h2' : k0_cond2 i' = 1#1) (s : Fin 2) :
    flightB c tb htb fb i h2 s = flightB c tb htb fb i' h2' s := by subst e; rfl

/-- After a point that prefetches: the next point's rows in flight into its slot, the other slot free. -/
theorem slots_flight (t : Fin grid0.N) (h0 : (t.val + 1) % 16 ≠ 0) (h2 : k0_cond2 (grid0.coords t) = 1#1) :
    slots c tb htb fa fb (t.val + 1)
      = iprop(flightA c tb htb fa (grid0.coords t) h2 (slN (t.val + 1)) ∗ flightB c tb htb fb (grid0.coords t) h2 (slN (t.val + 1))
          ∗ freeA c fa (slN (t.val + 1 + 1)) ∗ freeB c fb (slN (t.val + 1 + 1))) := by
  have ht : t.val + 1 ≤ 32 := by have := lt_of_lt_of_eq t.isLt N_0; omega
  have et : ∀ p, (⟨t.val + 1 - 1, p⟩ : Fin grid0.N) = t := fun p => Fin.ext (Nat.add_sub_cancel t.val 1)
  unfold slots
  rw [dif_neg h0, dif_pos ht]
  rw [flightA_congr c tb htb fa _ (grid0.coords t) (congrArg grid0.coords (et _)) _ h2,
    flightB_congr c tb htb fb _ (grid0.coords t) (congrArg grid0.coords (et _)) _ h2]

/-- Before a point that is not the first of its row group: its rows are in flight, started by the point before it. -/
theorem slots_flight' (t : Fin grid0.N) (h0 : t.val % 16 ≠ 0) :
    ∃ (t' : Fin grid0.N) (h2' : k0_cond2 (grid0.coords t') = 1#1), t'.val + 1 = t.val ∧
      slots c tb htb fa fb t.val
        = iprop(flightA c tb htb fa (grid0.coords t') h2' (slN t.val) ∗ flightB c tb htb fb (grid0.coords t') h2' (slN t.val)
            ∗ freeA c fa (slN (t.val + 1)) ∗ freeB c fb (slN (t.val + 1))) := by
  have ht : t.val ≤ 32 := by have := lt_of_lt_of_eq t.isLt N_0; omega
  have hp : 0 < t.val := Nat.pos_of_ne_zero fun e => h0 (by rw [e])
  refine ⟨⟨t.val - 1, by have := t.isLt; omega⟩, (hcond2 ⟨t.val - 1, by have := t.isLt; omega⟩).mpr (by simp only; omega), by simp only; omega, ?_⟩
  unfold slots
  rw [dif_neg h0, dif_pos ht]

/-! ## Into the invariant, and out of it -/

theorem phi_in :
    iprop((((∃ f : MBuf (F := F) c scA, scA.view.loc (c : Thread nD τ) ↦{fullShare} f) ∗ (∃ f : MBuf (F := F) c scB, scB.view.loc (c : Thread nD τ) ↦{fullShare} f))
        ∗ (∃ r, prngReg c r)
        ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)
        ∗ ((aM.view.loc (c : Thread nD τ) ↦{fullShare} fa) ∗ (bM.view.loc (c : Thread nD τ) ↦{fullShare} fb)))
      ∗ tbPt c tb) ⊢ Phi c tb htb fa fb 0 := by
  unfold Phi steady
  rw [slots_free c tb htb fa fb 0 (Nat.zero_mod 16)]
  unfold freeA freeB
  rw [cA_0, cA_1, cB_0, cB_1]
  iintro ⟨⟨HS, Hr, Hc, HAB⟩, HT⟩
  icases HS with ⟨⟨%gA, HSA⟩, ⟨%gB, HSB⟩⟩
  icases Hc with ⟨H2, H3, H4, H5⟩
  icases HAB with ⟨HA, HB⟩
  ihave HSA' := (whole_slots_A (F := F) c fullShare gA).1 $$ HSA
  icases HSA' with ⟨HSA0, HSA1⟩
  ihave HSB' := (whole_slots_B (F := F) c fullShare gB).1 $$ HSB
  icases HSB' with ⟨HSB0, HSB1⟩
  ihave HA' := (arr_deal (F := F) fa).1 $$ HA
  icases HA' with ⟨HAd, HA0, HA1⟩
  ihave HB' := (arr_deal (F := F) fb).1 $$ HB
  icases HB' with ⟨HBd, HB0, HB1⟩
  isplitl [Hr HT HAd HBd]
  · isplitl [Hr]; · iexact Hr
    isplitl [HT]; · iexact HT
    isplitl [HAd]; · iexact HAd
    iexact HBd
  isplitl [H2 HSA0 HA0]
  · isplitl [H2]; · iexact H2
    isplitl [HSA0]; · iexists gA; iexact HSA0
    iexact HA0
  isplitl [H3 HSA1 HA1]
  · isplitl [H3]; · iexact H3
    isplitl [HSA1]; · iexists gA; iexact HSA1
    iexact HA1
  isplitl [H4 HSB0 HB0]
  · isplitl [H4]; · iexact H4
    isplitl [HSB0]; · iexists gB; iexact HSB0
    iexact HB0
  · isplitl [H5]; · iexact H5
    isplitl [HSB1]; · iexists gB; iexact HSB1
    iexact HB1

theorem phi_out :
    Phi c tb htb fa fb 32 ⊢
      iprop(((∃ f : MBuf (F := F) c scA, scA.view.loc (c : Thread nD τ) ↦{fullShare} f) ∗ (∃ f : MBuf (F := F) c scB, scB.view.loc (c : Thread nD τ) ↦{fullShare} f))
        ∗ (∃ r, prngReg c r)
        ∗ (semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0)
        ∗ ((aM.view.loc (c : Thread nD τ) ↦{fullShare} fa) ∗ (bM.view.loc (c : Thread nD τ) ↦{fullShare} fb))) := by
  unfold Phi steady
  rw [slots_free c tb htb fa fb 32 (by decide)]
  unfold freeA freeB
  rw [cA_0, cA_1, cB_0, cB_1]
  iintro ⟨⟨Hr, -, HAd, HBd⟩, ⟨H2, ⟨%gA0, HSA0⟩, HA0⟩, ⟨H3, ⟨%gA1, HSA1⟩, HA1⟩, ⟨H4, ⟨%gB0, HSB0⟩, HB0⟩, ⟨H5, ⟨%gB1, HSB1⟩, HB1⟩⟩
  isplitl [HSA0 HSA1 HSB0 HSB1]
  · isplitl [HSA0 HSA1]
    · iapply (scratch_join_A (F := F) c gA0 gA1)
      isplitl [HSA0]; · iexact HSA0
      iexact HSA1
    · iapply (scratch_join_B (F := F) c gB0 gB1)
      isplitl [HSB0]; · iexact HSB0
      iexact HSB1
  isplitl [Hr]; · iexact Hr
  isplitl [H2 H3 H4 H5]
  · isplitl [H2]; · iexact H2
    isplitl [H3]; · iexact H3
    isplitl [H4]; · iexact H4
    iexact H5
  isplitl [HAd HA0 HA1]
  · iapply (arr_deal (F := F) fa).2
    isplitl [HAd]; · iexact HAd
    isplitl [HA0]; · iexact HA0
    iexact HA1
  · iapply (arr_deal (F := F) fb).2
    isplitl [HBd]; · iexact HBd
    isplitl [HB0]; · iexact HB0
    iexact HB1

end

end Cert.Kernel.Hand

end
-- ==== Proof.K.SlotRead.lean ====
/-
  Reading a slot whose 64 rows each hold a row of an argument array.

  Row r of slot s of the scratch is the rectangle at (s, 0, r, 0) of extents [1, 8, 1, 1024] re-indexed as [8, 1024]; row n
  of the array is the rectangle at (0, n, 0) of extents [8, 1, 1024] re-indexed as [8, 1024]. Re-indexing matches (p, d)
  with (0, p, 0, d) and with (p, 0, d) (equal row-major positions). So after row n of the array is written whole over
  row r of slot s, the scratch's element (s, p, r, d) is the array's element (p, n, d). Gluing the 64 rows and reading
  the slot through the whole buffer gives entry (0, p, r, d) ↦ array (p, n r, d): the gathered block.
-/
import proofs.«422764_j1194000908612_2_alg».proof.Proof.Gen.Kernel.Launch
import proofs.«422764_j1194000908612_2_alg».proof.Proof.Gen.Kernel.Skeleton
import proofs.«422764_j1194000908612_2_alg».proof.Proof.K.Names
import proofs.«422764_j1194000908612_2_alg».proof.Proof.K.Out
import proofs.«422764_j1194000908612_2_alg».proof.Proof.K.Geom
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## A squeeze's index map at the two row shapes -/

/-- An index (x, y) of [a, b] matched with [1, a, 1, b] is (0, x, 0, y). -/
theorem reshapeEquiv_ix2_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

/-- An index (x, y) of [a, b] matched with [a, 1, b] is (x, 0, y). -/
theorem reshapeEquiv_ix2_a1b {a b : ℕ} (h : (⟨2, ![a, b]⟩ : Shape).numel = (⟨3, ![a, 1, b]⟩ : Shape).numel)
    (x : Fin a) (y : Fin b) :
    Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

/-- A view of a rectangle re-indexed reads the underlying view at the rectangle's index of the matched index. -/
theorem read_reshape_slice {κ : Kind} {sp : Space} {s s' : Shape} {e : EltTy} {Val : EltTy → Type} (v : View sig κ sp s e) (R : Rect s)
    (h : s'.numel = R.shape.numel) (g : v.ty.Contents Val) (x : s'.Idx) :
    ((v.slice R).reshape s' h).read Val g x = v.read Val g (R.emb (Shape.reshapeEquiv h x)) := rfl

/-! ## Scratch scA filled from array aM -/

/-- Element (p, d) of row r of slot s, after row n of the array has been written whole over the row: the array's (p, n, d). -/
theorem landed_read_A (c : Dev nD) (s : Fin 2) (r : Fin 64) (n : ℕ) (hn : n < 4096)
    (hin : ∀ a, (![0, n, 0] : Fin 3 → ℕ) a + S8x1x1024.size a ≤ S8x4096x1024.size a)
    (fx : MBuf (F := F) c aM) (fd : MBuf (F := F) c scA) (p : Fin 8) (d : Fin 1024) :
    scA.view.read (Elt F) (landedR (F := F) c (srcM aM ![0, n, 0] hin) (rowM scA s r) fx fd) (ix4 s p r d)
      = aM.view.read (Elt F) fx (ix3 p ⟨n, hn⟩ d) := by
  have e1 : (ix4 s p r d : S2x8x64x1024.Idx)
      = (Rect.unit (s := S2x8x64x1024) ![s.val, 0, r.val, 0] S1x8x1x1024.size (inb_row s r)).emb
          (Shape.reshapeEquiv squeezes_S1x8x1x1024_S8x1024.numel_eq (ix2 p d)) := by
    rw [reshapeEquiv_ix2_1a1b]
    funext a
    apply Fin.ext
    fin_cases a <;> simp
  have e2 : (ix3 p ⟨n, hn⟩ d : S8x4096x1024.Idx)
      = (Rect.unit (s := S8x4096x1024) ![0, n, 0] S8x1x1024.size hin).emb
          (Shape.reshapeEquiv squeezes_S8x1x1024_S8x1024.numel_eq (ix2 p d)) := by
    rw [reshapeEquiv_ix2_a1b]
    funext a
    apply Fin.ext
    fin_cases a <;> simp
  rw [e1, e2]
  refine (read_reshape_slice scA.view _ squeezes_S1x8x1x1024_S8x1024.numel_eq _ (ix2 p d)).symm.trans ?_
  refine Eq.trans ?_ (read_reshape_slice aM.view _ squeezes_S8x1x1024_S8x1024.numel_eq fx (ix2 p d))
  exact congrFun (View.read_writes_whole (rowM scA s r).view fd ((srcM aM ![0, n, 0] hin).view.read (Elt F) fx)) (ix2 p d)

/-- The slot read whole through the buffer, its 64 rows holding rows n r of the array: the gathered block. -/
theorem read_glue_A (c : Dev nD) (s : Fin 2) (n : Fin 64 → ℕ) (hn : ∀ r, n r < 4096)
    (hin : ∀ r a, (![0, n r, 0] : Fin 3 → ℕ) a + S8x1x1024.size a ≤ S8x4096x1024.size a)
    (xs : FVec F S8x4096x1024 .f32) (fx : MBuf (F := F) c aM) (hfx : aM.view.read (Elt F) fx = xs)
    (fd : Fin 64 → MBuf (F := F) c scA) :
    scA.view.readAt (Elt F) (Rect.unit (s := S2x8x64x1024) ![s.val, 0, 0, 0] S1x8x64x1024.size (inb_slot s)).toLoadRect
        (glue_A c (fun r => landedR (F := F) c (srcM aM ![0, n r, 0] (hin r)) (rowM scA s r) fx (fd r)))
      = gath xs (fun r => ⟨n r, hn r⟩) := by
  funext y
  rw [View.readAt_apply]
  have ei : (Rect.unit (s := S2x8x64x1024) ![s.val, 0, 0, 0] S1x8x64x1024.size (inb_slot s)).toLoadRect.idx y = ix4 s (y 1) (y 2) (y 3) := by
    funext a
    apply Fin.ext
    have h0 : (y 0).val = 0 := by have h1 : (y 0).val < 1 := (y 0).isLt; omega
    fin_cases a <;> simp [h0]
  rw [ei]
  refine (View.read_congr_at (ix4 s (y 1) (y 2) (y 3)) (glue_on_A c s _ (y 2) (ix4 s (y 1) (y 2) (y 3)) (mem_rowSet.mpr ⟨rfl, rfl⟩))).trans ?_
  refine (landed_read_A c s (y 2) (n (y 2)) (hn _) (hin _) fx (fd _) (y 1) (y 3)).trans ?_
  rw [hfx]
  rfl

/-! ## Scratch scB filled from array bM -/

/-- Element (p, d) of row r of slot s, after row n of the array has been written whole over the row: the array's (p, n, d). -/
theorem landed_read_B (c : Dev nD) (s : Fin 2) (r : Fin 64) (n : ℕ) (hn : n < 4096)
    (hin : ∀ a, (![0, n, 0] : Fin 3 → ℕ) a + S8x1x1024.size a ≤ S8x4096x1024.size a)
    (fx : MBuf (F := F) c bM) (fd : MBuf (F := F) c scB) (p : Fin 8) (d : Fin 1024) :
    scB.view.read (Elt F) (landedR (F := F) c (srcM bM ![0, n, 0] hin) (rowM scB s r) fx fd) (ix4 s p r d)
      = bM.view.read (Elt F) fx (ix3 p ⟨n, hn⟩ d) := by
  have e1 : (ix4 s p r d : S2x8x64x1024.Idx)
      = (Rect.unit (s := S2x8x64x1024) ![s.val, 0, r.val, 0] S1x8x1x1024.size (inb_row s r)).emb
          (Shape.reshapeEquiv squeezes_S1x8x1x1024_S8x1024.numel_eq (ix2 p d)) := by
    rw [reshapeEquiv_ix2_1a1b]
    funext a
    apply Fin.ext
    fin_cases a <;> simp
  have e2 : (ix3 p ⟨n, hn⟩ d : S8x4096x1024.Idx)
      = (Rect.unit (s := S8x4096x1024) ![0, n, 0] S8x1x1024.size hin).emb
          (Shape.reshapeEquiv squeezes_S8x1x1024_S8x1024.numel_eq (ix2 p d)) := by
    rw [reshapeEquiv_ix2_a1b]
    funext a
    apply Fin.ext
    fin_cases a <;> simp
  rw [e1, e2]
  refine (read_reshape_slice scB.view _ squeezes_S1x8x1x1024_S8x1024.numel_eq _ (ix2 p d)).symm.trans ?_
  refine Eq.trans ?_ (read_reshape_slice bM.view _ squeezes_S8x1x1024_S8x1024.numel_eq fx (ix2 p d))
  exact congrFun (View.read_writes_whole (rowM scB s r).view fd ((srcM bM ![0, n, 0] hin).view.read (Elt F) fx)) (ix2 p d)

/-- The slot read whole through the buffer, its 64 rows holding rows n r of the array: the gathered block. -/
theorem read_glue_B (c : Dev nD) (s : Fin 2) (n : Fin 64 → ℕ) (hn : ∀ r, n r < 4096)
    (hin : ∀ r a, (![0, n r, 0] : Fin 3 → ℕ) a + S8x1x1024.size a ≤ S8x4096x1024.size a)
    (xs : FVec F S8x4096x1024 .f32) (fx : MBuf (F := F) c bM) (hfx : bM.view.read (Elt F) fx = xs)
    (fd : Fin 64 → MBuf (F := F) c scB) :
    scB.view.readAt (Elt F) (Rect.unit (s := S2x8x64x1024) ![s.val, 0, 0, 0] S1x8x64x1024.size (inb_slot s)).toLoadRect
        (glue_B c (fun r => landedR (F := F) c (srcM bM ![0, n r, 0] (hin r)) (rowM scB s r) fx (fd r)))
      = gath xs (fun r => ⟨n r, hn r⟩) := by
  funext y
  rw [View.readAt_apply]
  have ei : (Rect.unit (s := S2x8x64x1024) ![s.val, 0, 0, 0] S1x8x64x1024.size (inb_slot s)).toLoadRect.idx y = ix4 s (y 1) (y 2) (y 3) := by
    funext a
    apply Fin.ext
    have h0 : (y 0).val = 0 := by have h1 : (y 0).val < 1 := (y 0).isLt; omega
    fin_cases a <;> simp [h0]
  rw [ei]
  refine (View.read_congr_at (ix4 s (y 1) (y 2) (y 3)) (glue_on_B c s _ (y 2) (ix4 s (y 1) (y 2) (y 3)) (mem_rowSet.mpr ⟨rfl, rfl⟩))).trans ?_
  refine (landed_read_B c s (y 2) (n (y 2)) (hn _) (hin _) fx (fd _) (y 1) (y 3)).trans ?_
  rw [hfx]
  rfl

end Cert.Kernel.Hand

end
-- ==== Proof.K.Plumb.lean ====
/-
  Small facts between two stretches of the body's run: the 64-fold star written out, a slot and its 64 rows, the box the
  body loads, the table's word at a cell, and an argument array with one row lent.
  Also the row a table cell names.
-/
import proofs.«422764_j1194000908612_2_alg».proof.Proof.Gen.Kernel.Launch
import proofs.«422764_j1194000908612_2_alg».proof.Proof.Gen.Kernel.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.K.Names
import proofs.«422764_j1194000908612_2_alg».proof.Proof.K.Geom
import proofs.«422764_j1194000908612_2_alg».proof.Proof.K.SlotRead
import proofs.«422764_j1194000908612_2_alg».proof.Proof.K.Defs2
import proofs.«422764_j1194000908612_2_alg».proof.Proof.K.Canon
import Idealize.ShloMosaic.Lib.ValueIdx
import Idealize.ShloMosaic.Lib.Pipeline.Kit
import proofs.«422764_j1194000908612_2_alg».proof.Proof.K.Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## A star over 64 indices, written out -/

/-- The separating conjunction over the 64 row numbers is the chain of its 64 terms in order. -/
theorem star64 {M : Type} [URA M] (Φ : Fin 64 → sProp M) :
    bigSep Finset.univ Φ
      = iprop(Φ ⟨0, Nat.le_of_ble_eq_true rfl⟩ ∗ Φ ⟨1, Nat.le_of_ble_eq_true rfl⟩ ∗
      Φ ⟨2, Nat.le_of_ble_eq_true rfl⟩ ∗ Φ ⟨3, Nat.le_of_ble_eq_true rfl⟩ ∗
      Φ ⟨4, Nat.le_of_ble_eq_true rfl⟩ ∗ Φ ⟨5, Nat.le_of_ble_eq_true rfl⟩ ∗
      Φ ⟨6, Nat.le_of_ble_eq_true rfl⟩ ∗ Φ ⟨7, Nat.le_of_ble_eq_true rfl⟩ ∗
      Φ ⟨8, Nat.le_of_ble_eq_true rfl⟩ ∗ Φ ⟨9, Nat.le_of_ble_eq_true rfl⟩ ∗
      Φ ⟨10, Nat.le_of_ble_eq_true rfl⟩ ∗ Φ ⟨11, Nat.le_of_ble_eq_true rfl⟩ ∗
      Φ ⟨12, Nat.le_of_ble_eq_true rfl⟩ ∗ Φ ⟨13, Nat.le_of_ble_eq_true rfl⟩ ∗
      Φ ⟨14, Nat.le_of_ble_eq_true rfl⟩ ∗ Φ ⟨15, Nat.le_of_ble_eq_true rfl⟩ ∗
      Φ ⟨16, Nat.le_of_ble_eq_true rfl⟩ ∗ Φ ⟨17, Nat.le_of_ble_eq_true rfl⟩ ∗
      Φ ⟨18, Nat.le_of_ble_eq_true rfl⟩ ∗ Φ ⟨19, Nat.le_of_ble_eq_true rfl⟩ ∗
      Φ ⟨20, Nat.le_of_ble_eq_true rfl⟩ ∗ Φ ⟨21, Nat.le_of_ble_eq_true rfl⟩ ∗
      Φ ⟨22, Nat.le_of_ble_eq_true rfl⟩ ∗ Φ ⟨23, Nat.le_of_ble_eq_true rfl⟩ ∗
      Φ ⟨24, Nat.le_of_ble_eq_true rfl⟩ ∗ Φ ⟨25, Nat.le_of_ble_eq_true rfl⟩ ∗
      Φ ⟨26, Nat.le_of_ble_eq_true rfl⟩ ∗ Φ ⟨27, Nat.le_of_ble_eq_true rfl⟩ ∗
      Φ ⟨28, Nat.le_of_ble_eq_true rfl⟩ ∗ Φ ⟨29, Nat.le_of_ble_eq_true rfl⟩ ∗
      Φ ⟨30, Nat.le_of_ble_eq_true rfl⟩ ∗ Φ ⟨31, Nat.le_of_ble_eq_true rfl⟩ ∗
      Φ ⟨32, Nat.le_of_ble_eq_true rfl⟩ ∗ Φ ⟨33, Nat.le_of_ble_eq_true rfl⟩ ∗
      Φ ⟨34, Nat.le_of_ble_eq_true rfl⟩ ∗ Φ ⟨35, Nat.le_of_ble_eq_true rfl⟩ ∗
      Φ ⟨36, Nat.le_of_ble_eq_true rfl⟩ ∗ Φ ⟨37, Nat.le_of_ble_eq_true rfl⟩ ∗
      Φ ⟨38, Nat.le_of_ble_eq_true rfl⟩ ∗ Φ ⟨39, Nat.le_of_ble_eq_true rfl⟩ ∗
      Φ ⟨40, Nat.le_of_ble_eq_true rfl⟩ ∗ Φ ⟨41, Nat.le_of_ble_eq_true rfl⟩ ∗
      Φ ⟨42, Nat.le_of_ble_eq_true rfl⟩ ∗ Φ ⟨43, Nat.le_of_ble_eq_true rfl⟩ ∗
      Φ ⟨44, Nat.le_of_ble_eq_true rfl⟩ ∗ Φ ⟨45, Nat.le_of_ble_eq_true rfl⟩ ∗
      Φ ⟨46, Nat.le_of_ble_eq_true rfl⟩ ∗ Φ ⟨47, Nat.le_of_ble_eq_true rfl⟩ ∗
      Φ ⟨48, Nat.le_of_ble_eq_true rfl⟩ ∗ Φ ⟨49, Nat.le_of_ble_eq_true rfl⟩ ∗
      Φ ⟨50, Nat.le_of_ble_eq_true rfl⟩ ∗ Φ ⟨51, Nat.le_of_ble_eq_true rfl⟩ ∗
      Φ ⟨52, Nat.le_of_ble_eq_true rfl⟩ ∗ Φ ⟨53, Nat.le_of_ble_eq_true rfl⟩ ∗
      Φ ⟨54, Nat.le_of_ble_eq_true rfl⟩ ∗ Φ ⟨55, Nat.le_of_ble_eq_true rfl⟩ ∗
      Φ ⟨56, Nat.le_of_ble_eq_true rfl⟩ ∗ Φ ⟨57, Nat.le_of_ble_eq_true rfl⟩ ∗
      Φ ⟨58, Nat.le_of_ble_eq_true rfl⟩ ∗ Φ ⟨59, Nat.le_of_ble_eq_true rfl⟩ ∗
      Φ ⟨60, Nat.le_of_ble_eq_true rfl⟩ ∗ Φ ⟨61, Nat.le_of_ble_eq_true rfl⟩ ∗
      Φ ⟨62, Nat.le_of_ble_eq_true rfl⟩ ∗ Φ ⟨63, Nat.le_of_ble_eq_true rfl⟩) :=
  bigSep_univ_eq_bigSepL
    [(⟨0, Nat.le_of_ble_eq_true rfl⟩ : Fin 64), (⟨1, Nat.le_of_ble_eq_true rfl⟩ : Fin 64), (⟨2, Nat.le_of_ble_eq_true rfl⟩ : Fin 64), (⟨3, Nat.le_of_ble_eq_true rfl⟩ : Fin 64),
     (⟨4, Nat.le_of_ble_eq_true rfl⟩ : Fin 64), (⟨5, Nat.le_of_ble_eq_true rfl⟩ : Fin 64), (⟨6, Nat.le_of_ble_eq_true rfl⟩ : Fin 64), (⟨7, Nat.le_of_ble_eq_true rfl⟩ : Fin 64),
     (⟨8, Nat.le_of_ble_eq_true rfl⟩ : Fin 64), (⟨9, Nat.le_of_ble_eq_true rfl⟩ : Fin 64), (⟨10, Nat.le_of_ble_eq_true rfl⟩ : Fin 64), (⟨11, Nat.le_of_ble_eq_true rfl⟩ : Fin 64),
     (⟨12, Nat.le_of_ble_eq_true rfl⟩ : Fin 64), (⟨13, Nat.le_of_ble_eq_true rfl⟩ : Fin 64), (⟨14, Nat.le_of_ble_eq_true rfl⟩ : Fin 64), (⟨15, Nat.le_of_ble_eq_true rfl⟩ : Fin 64),
     (⟨16, Nat.le_of_ble_eq_true rfl⟩ : Fin 64), (⟨17, Nat.le_of_ble_eq_true rfl⟩ : Fin 64), (⟨18, Nat.le_of_ble_eq_true rfl⟩ : Fin 64), (⟨19, Nat.le_of_ble_eq_true rfl⟩ : Fin 64),
     (⟨20, Nat.le_of_ble_eq_true rfl⟩ : Fin 64), (⟨21, Nat.le_of_ble_eq_true rfl⟩ : Fin 64), (⟨22, Nat.le_of_ble_eq_true rfl⟩ : Fin 64), (⟨23, Nat.le_of_ble_eq_true rfl⟩ : Fin 64),
     (⟨24, Nat.le_of_ble_eq_true rfl⟩ : Fin 64), (⟨25, Nat.le_of_ble_eq_true rfl⟩ : Fin 64), (⟨26, Nat.le_of_ble_eq_true rfl⟩ : Fin 64), (⟨27, Nat.le_of_ble_eq_true rfl⟩ : Fin 64),
     (⟨28, Nat.le_of_ble_eq_true rfl⟩ : Fin 64), (⟨29, Nat.le_of_ble_eq_true rfl⟩ : Fin 64), (⟨30, Nat.le_of_ble_eq_true rfl⟩ : Fin 64), (⟨31, Nat.le_of_ble_eq_true rfl⟩ : Fin 64),
     (⟨32, Nat.le_of_ble_eq_true rfl⟩ : Fin 64), (⟨33, Nat.le_of_ble_eq_true rfl⟩ : Fin 64), (⟨34, Nat.le_of_ble_eq_true rfl⟩ : Fin 64), (⟨35, Nat.le_of_ble_eq_true rfl⟩ : Fin 64),
     (⟨36, Nat.le_of_ble_eq_true rfl⟩ : Fin 64), (⟨37, Nat.le_of_ble_eq_true rfl⟩ : Fin 64), (⟨38, Nat.le_of_ble_eq_true rfl⟩ : Fin 64), (⟨39, Nat.le_of_ble_eq_true rfl⟩ : Fin 64),
     (⟨40, Nat.le_of_ble_eq_true rfl⟩ : Fin 64), (⟨41, Nat.le_of_ble_eq_true rfl⟩ : Fin 64), (⟨42, Nat.le_of_ble_eq_true rfl⟩ : Fin 64), (⟨43, Nat.le_of_ble_eq_true rfl⟩ : Fin 64),
     (⟨44, Nat.le_of_ble_eq_true rfl⟩ : Fin 64), (⟨45, Nat.le_of_ble_eq_true rfl⟩ : Fin 64), (⟨46, Nat.le_of_ble_eq_true rfl⟩ : Fin 64), (⟨47, Nat.le_of_ble_eq_true rfl⟩ : Fin 64),
     (⟨48, Nat.le_of_ble_eq_true rfl⟩ : Fin 64), (⟨49, Nat.le_of_ble_eq_true rfl⟩ : Fin 64), (⟨50, Nat.le_of_ble_eq_true rfl⟩ : Fin 64), (⟨51, Nat.le_of_ble_eq_true rfl⟩ : Fin 64),
     (⟨52, Nat.le_of_ble_eq_true rfl⟩ : Fin 64), (⟨53, Nat.le_of_ble_eq_true rfl⟩ : Fin 64), (⟨54, Nat.le_of_ble_eq_true rfl⟩ : Fin 64), (⟨55, Nat.le_of_ble_eq_true rfl⟩ : Fin 64),
     (⟨56, Nat.le_of_ble_eq_true rfl⟩ : Fin 64), (⟨57, Nat.le_of_ble_eq_true rfl⟩ : Fin 64), (⟨58, Nat.le_of_ble_eq_true rfl⟩ : Fin 64), (⟨59, Nat.le_of_ble_eq_true rfl⟩ : Fin 64),
     (⟨60, Nat.le_of_ble_eq_true rfl⟩ : Fin 64), (⟨61, Nat.le_of_ble_eq_true rfl⟩ : Fin 64), (⟨62, Nat.le_of_ble_eq_true rfl⟩ : Fin 64), (⟨63, Nat.le_of_ble_eq_true rfl⟩ : Fin 64)]
    (by decide) (by decide) Φ

/-! ## Scratch buffer scA: a slot and its 64 rows, written out -/

/-- The 64 rows of slot s, each held whole at contents of its own, are the slot held at the contents glued row by row. -/
theorem rows64_A (c : Dev nD) (s : Fin 2) (f : Fin 64 → MBuf (F := F) c scA) :
    (iprop(heldQ (F := F) c (rowM scA s ⟨0, Nat.le_of_ble_eq_true rfl⟩) fullShare (f ⟨0, Nat.le_of_ble_eq_true rfl⟩) ∗ heldQ (F := F) c (rowM scA s ⟨1, Nat.le_of_ble_eq_true rfl⟩) fullShare (f ⟨1, Nat.le_of_ble_eq_true rfl⟩) ∗
      heldQ (F := F) c (rowM scA s ⟨2, Nat.le_of_ble_eq_true rfl⟩) fullShare (f ⟨2, Nat.le_of_ble_eq_true rfl⟩) ∗ heldQ (F := F) c (rowM scA s ⟨3, Nat.le_of_ble_eq_true rfl⟩) fullShare (f ⟨3, Nat.le_of_ble_eq_true rfl⟩) ∗
      heldQ (F := F) c (rowM scA s ⟨4, Nat.le_of_ble_eq_true rfl⟩) fullShare (f ⟨4, Nat.le_of_ble_eq_true rfl⟩) ∗ heldQ (F := F) c (rowM scA s ⟨5, Nat.le_of_ble_eq_true rfl⟩) fullShare (f ⟨5, Nat.le_of_ble_eq_true rfl⟩) ∗
      heldQ (F := F) c (rowM scA s ⟨6, Nat.le_of_ble_eq_true rfl⟩) fullShare (f ⟨6, Nat.le_of_ble_eq_true rfl⟩) ∗ heldQ (F := F) c (rowM scA s ⟨7, Nat.le_of_ble_eq_true rfl⟩) fullShare (f ⟨7, Nat.le_of_ble_eq_true rfl⟩) ∗
      heldQ (F := F) c (rowM scA s ⟨8, Nat.le_of_ble_eq_true rfl⟩) fullShare (f ⟨8, Nat.le_of_ble_eq_true rfl⟩) ∗ heldQ (F := F) c (rowM scA s ⟨9, Nat.le_of_ble_eq_true rfl⟩) fullShare (f ⟨9, Nat.le_of_ble_eq_true rfl⟩) ∗
      heldQ (F := F) c (rowM scA s ⟨10, Nat.le_of_ble_eq_true rfl⟩) fullShare (f ⟨10, Nat.le_of_ble_eq_true rfl⟩) ∗ heldQ (F := F) c (rowM scA s ⟨11, Nat.le_of_ble_eq_true rfl⟩) fullShare (f ⟨11, Nat.le_of_ble_eq_true rfl⟩) ∗
      heldQ (F := F) c (rowM scA s ⟨12, Nat.le_of_ble_eq_true rfl⟩) fullShare (f ⟨12, Nat.le_of_ble_eq_true rfl⟩) ∗ heldQ (F := F) c (rowM scA s ⟨13, Nat.le_of_ble_eq_true rfl⟩) fullShare (f ⟨13, Nat.le_of_ble_eq_true rfl⟩) ∗
      heldQ (F := F) c (rowM scA s ⟨14, Nat.le_of_ble_eq_true rfl⟩) fullShare (f ⟨14, Nat.le_of_ble_eq_true rfl⟩) ∗ heldQ (F := F) c (rowM scA s ⟨15, Nat.le_of_ble_eq_true rfl⟩) fullShare (f ⟨15, Nat.le_of_ble_eq_true rfl⟩) ∗
      heldQ (F := F) c (rowM scA s ⟨16, Nat.le_of_ble_eq_true rfl⟩) fullShare (f ⟨16, Nat.le_of_ble_eq_true rfl⟩) ∗ heldQ (F := F) c (rowM scA s ⟨17, Nat.le_of_ble_eq_true rfl⟩) fullShare (f ⟨17, Nat.le_of_ble_eq_true rfl⟩) ∗
      heldQ (F := F) c (rowM scA s ⟨18, Nat.le_of_ble_eq_true rfl⟩) fullShare (f ⟨18, Nat.le_of_ble_eq_true rfl⟩) ∗ heldQ (F := F) c (rowM scA s ⟨19, Nat.le_of_ble_eq_true rfl⟩) fullShare (f ⟨19, Nat.le_of_ble_eq_true rfl⟩) ∗
      heldQ (F := F) c (rowM scA s ⟨20, Nat.le_of_ble_eq_true rfl⟩) fullShare (f ⟨20, Nat.le_of_ble_eq_true rfl⟩) ∗ heldQ (F := F) c (rowM scA s ⟨21, Nat.le_of_ble_eq_true rfl⟩) fullShare (f ⟨21, Nat.le_of_ble_eq_true rfl⟩) ∗
      heldQ (F := F) c (rowM scA s ⟨22, Nat.le_of_ble_eq_true rfl⟩) fullShare (f ⟨22, Nat.le_of_ble_eq_true rfl⟩) ∗ heldQ (F := F) c (rowM scA s ⟨23, Nat.le_of_ble_eq_true rfl⟩) fullShare (f ⟨23, Nat.le_of_ble_eq_true rfl⟩) ∗
      heldQ (F := F) c (rowM scA s ⟨24, Nat.le_of_ble_eq_true rfl⟩) fullShare (f ⟨24, Nat.le_of_ble_eq_true rfl⟩) ∗ heldQ (F := F) c (rowM scA s ⟨25, Nat.le_of_ble_eq_true rfl⟩) fullShare (f ⟨25, Nat.le_of_ble_eq_true rfl⟩) ∗
      heldQ (F := F) c (rowM scA s ⟨26, Nat.le_of_ble_eq_true rfl⟩) fullShare (f ⟨26, Nat.le_of_ble_eq_true rfl⟩) ∗ heldQ (F := F) c (rowM scA s ⟨27, Nat.le_of_ble_eq_true rfl⟩) fullShare (f ⟨27, Nat.le_of_ble_eq_true rfl⟩) ∗
      heldQ (F := F) c (rowM scA s ⟨28, Nat.le_of_ble_eq_true rfl⟩) fullShare (f ⟨28, Nat.le_of_ble_eq_true rfl⟩) ∗ heldQ (F := F) c (rowM scA s ⟨29, Nat.le_of_ble_eq_true rfl⟩) fullShare (f ⟨29, Nat.le_of_ble_eq_true rfl⟩) ∗
      heldQ (F := F) c (rowM scA s ⟨30, Nat.le_of_ble_eq_true rfl⟩) fullShare (f ⟨30, Nat.le_of_ble_eq_true rfl⟩) ∗ heldQ (F := F) c (rowM scA s ⟨31, Nat.le_of_ble_eq_true rfl⟩) fullShare (f ⟨31, Nat.le_of_ble_eq_true rfl⟩) ∗
      heldQ (F := F) c (rowM scA s ⟨32, Nat.le_of_ble_eq_true rfl⟩) fullShare (f ⟨32, Nat.le_of_ble_eq_true rfl⟩) ∗ heldQ (F := F) c (rowM scA s ⟨33, Nat.le_of_ble_eq_true rfl⟩) fullShare (f ⟨33, Nat.le_of_ble_eq_true rfl⟩) ∗
      heldQ (F := F) c (rowM scA s ⟨34, Nat.le_of_ble_eq_true rfl⟩) fullShare (f ⟨34, Nat.le_of_ble_eq_true rfl⟩) ∗ heldQ (F := F) c (rowM scA s ⟨35, Nat.le_of_ble_eq_true rfl⟩) fullShare (f ⟨35, Nat.le_of_ble_eq_true rfl⟩) ∗
      heldQ (F := F) c (rowM scA s ⟨36, Nat.le_of_ble_eq_true rfl⟩) fullShare (f ⟨36, Nat.le_of_ble_eq_true rfl⟩) ∗ heldQ (F := F) c (rowM scA s ⟨37, Nat.le_of_ble_eq_true rfl⟩) fullShare (f ⟨37, Nat.le_of_ble_eq_true rfl⟩) ∗
      heldQ (F := F) c (rowM scA s ⟨38, Nat.le_of_ble_eq_true rfl⟩) fullShare (f ⟨38, Nat.le_of_ble_eq_true rfl⟩) ∗ heldQ (F := F) c (rowM scA s ⟨39, Nat.le_of_ble_eq_true rfl⟩) fullShare (f ⟨39, Nat.le_of_ble_eq_true rfl⟩) ∗
      heldQ (F := F) c (rowM scA s ⟨40, Nat.le_of_ble_eq_true rfl⟩) fullShare (f ⟨40, Nat.le_of_ble_eq_true rfl⟩) ∗ heldQ (F := F) c (rowM scA s ⟨41, Nat.le_of_ble_eq_true rfl⟩) fullShare (f ⟨41, Nat.le_of_ble_eq_true rfl⟩) ∗
      heldQ (F := F) c (rowM scA s ⟨42, Nat.le_of_ble_eq_true rfl⟩) fullShare (f ⟨42, Nat.le_of_ble_eq_true rfl⟩) ∗ heldQ (F := F) c (rowM scA s ⟨43, Nat.le_of_ble_eq_true rfl⟩) fullShare (f ⟨43, Nat.le_of_ble_eq_true rfl⟩) ∗
      heldQ (F := F) c (rowM scA s ⟨44, Nat.le_of_ble_eq_true rfl⟩) fullShare (f ⟨44, Nat.le_of_ble_eq_true rfl⟩) ∗ heldQ (F := F) c (rowM scA s ⟨45, Nat.le_of_ble_eq_true rfl⟩) fullShare (f ⟨45, Nat.le_of_ble_eq_true rfl⟩) ∗
      heldQ (F := F) c (rowM scA s ⟨46, Nat.le_of_ble_eq_true rfl⟩) fullShare (f ⟨46, Nat.le_of_ble_eq_true rfl⟩) ∗ heldQ (F := F) c (rowM scA s ⟨47, Nat.le_of_ble_eq_true rfl⟩) fullShare (f ⟨47, Nat.le_of_ble_eq_true rfl⟩) ∗
      heldQ (F := F) c (rowM scA s ⟨48, Nat.le_of_ble_eq_true rfl⟩) fullShare (f ⟨48, Nat.le_of_ble_eq_true rfl⟩) ∗ heldQ (F := F) c (rowM scA s ⟨49, Nat.le_of_ble_eq_true rfl⟩) fullShare (f ⟨49, Nat.le_of_ble_eq_true rfl⟩) ∗
      heldQ (F := F) c (rowM scA s ⟨50, Nat.le_of_ble_eq_true rfl⟩) fullShare (f ⟨50, Nat.le_of_ble_eq_true rfl⟩) ∗ heldQ (F := F) c (rowM scA s ⟨51, Nat.le_of_ble_eq_true rfl⟩) fullShare (f ⟨51, Nat.le_of_ble_eq_true rfl⟩) ∗
      heldQ (F := F) c (rowM scA s ⟨52, Nat.le_of_ble_eq_true rfl⟩) fullShare (f ⟨52, Nat.le_of_ble_eq_true rfl⟩) ∗ heldQ (F := F) c (rowM scA s ⟨53, Nat.le_of_ble_eq_true rfl⟩) fullShare (f ⟨53, Nat.le_of_ble_eq_true rfl⟩) ∗
      heldQ (F := F) c (rowM scA s ⟨54, Nat.le_of_ble_eq_true rfl⟩) fullShare (f ⟨54, Nat.le_of_ble_eq_true rfl⟩) ∗ heldQ (F := F) c (rowM scA s ⟨55, Nat.le_of_ble_eq_true rfl⟩) fullShare (f ⟨55, Nat.le_of_ble_eq_true rfl⟩) ∗
      heldQ (F := F) c (rowM scA s ⟨56, Nat.le_of_ble_eq_true rfl⟩) fullShare (f ⟨56, Nat.le_of_ble_eq_true rfl⟩) ∗ heldQ (F := F) c (rowM scA s ⟨57, Nat.le_of_ble_eq_true rfl⟩) fullShare (f ⟨57, Nat.le_of_ble_eq_true rfl⟩) ∗
      heldQ (F := F) c (rowM scA s ⟨58, Nat.le_of_ble_eq_true rfl⟩) fullShare (f ⟨58, Nat.le_of_ble_eq_true rfl⟩) ∗ heldQ (F := F) c (rowM scA s ⟨59, Nat.le_of_ble_eq_true rfl⟩) fullShare (f ⟨59, Nat.le_of_ble_eq_true rfl⟩) ∗
      heldQ (F := F) c (rowM scA s ⟨60, Nat.le_of_ble_eq_true rfl⟩) fullShare (f ⟨60, Nat.le_of_ble_eq_true rfl⟩) ∗ heldQ (F := F) c (rowM scA s ⟨61, Nat.le_of_ble_eq_true rfl⟩) fullShare (f ⟨61, Nat.le_of_ble_eq_true rfl⟩) ∗
      heldQ (F := F) c (rowM scA s ⟨62, Nat.le_of_ble_eq_true rfl⟩) fullShare (f ⟨62, Nat.le_of_ble_eq_true rfl⟩) ∗ heldQ (F := F) c (rowM scA s ⟨63, Nat.le_of_ble_eq_true rfl⟩) fullShare (f ⟨63, Nat.le_of_ble_eq_true rfl⟩)) : sProp 𝕄)
      = heldQ (F := F) c (slotM scA s) fullShare (glue_A c f) := by
  refine (star64 (fun r : Fin 64 => heldQ (F := F) c (rowM scA s r) fullShare (f r))).symm.trans ?_
  have e : (fun r : Fin 64 => heldQ (F := F) c (rowM scA s r) fullShare (f r))
      = fun r : Fin 64 => (scA.view.loc (c : Thread nD τ) ↦[rowSet s r]{fullShare} f r : sProp 𝕄) :=
    funext fun r => heldQ_rowM_A c s r fullShare (f r)
  rw [e, rows_glue_eq_A, heldQ_slotM_A]

/-- A slot held at one contents is its 64 rows, each held at that contents. -/
theorem slot64_A (c : Dev nD) (s : Fin 2) (g : MBuf (F := F) c scA) :
    (scA.view.loc (c : Thread nD τ) ↦[slotSet s]{fullShare} g : sProp 𝕄)
      = iprop(heldQ (F := F) c (rowM scA s ⟨0, Nat.le_of_ble_eq_true rfl⟩) fullShare g ∗ heldQ (F := F) c (rowM scA s ⟨1, Nat.le_of_ble_eq_true rfl⟩) fullShare g ∗
      heldQ (F := F) c (rowM scA s ⟨2, Nat.le_of_ble_eq_true rfl⟩) fullShare g ∗ heldQ (F := F) c (rowM scA s ⟨3, Nat.le_of_ble_eq_true rfl⟩) fullShare g ∗
      heldQ (F := F) c (rowM scA s ⟨4, Nat.le_of_ble_eq_true rfl⟩) fullShare g ∗ heldQ (F := F) c (rowM scA s ⟨5, Nat.le_of_ble_eq_true rfl⟩) fullShare g ∗
      heldQ (F := F) c (rowM scA s ⟨6, Nat.le_of_ble_eq_true rfl⟩) fullShare g ∗ heldQ (F := F) c (rowM scA s ⟨7, Nat.le_of_ble_eq_true rfl⟩) fullShare g ∗
      heldQ (F := F) c (rowM scA s ⟨8, Nat.le_of_ble_eq_true rfl⟩) fullShare g ∗ heldQ (F := F) c (rowM scA s ⟨9, Nat.le_of_ble_eq_true rfl⟩) fullShare g ∗
      heldQ (F := F) c (rowM scA s ⟨10, Nat.le_of_ble_eq_true rfl⟩) fullShare g ∗ heldQ (F := F) c (rowM scA s ⟨11, Nat.le_of_ble_eq_true rfl⟩) fullShare g ∗
      heldQ (F := F) c (rowM scA s ⟨12, Nat.le_of_ble_eq_true rfl⟩) fullShare g ∗ heldQ (F := F) c (rowM scA s ⟨13, Nat.le_of_ble_eq_true rfl⟩) fullShare g ∗
      heldQ (F := F) c (rowM scA s ⟨14, Nat.le_of_ble_eq_true rfl⟩) fullShare g ∗ heldQ (F := F) c (rowM scA s ⟨15, Nat.le_of_ble_eq_true rfl⟩) fullShare g ∗
      heldQ (F := F) c (rowM scA s ⟨16, Nat.le_of_ble_eq_true rfl⟩) fullShare g ∗ heldQ (F := F) c (rowM scA s ⟨17, Nat.le_of_ble_eq_true rfl⟩) fullShare g ∗
      heldQ (F := F) c (rowM scA s ⟨18, Nat.le_of_ble_eq_true rfl⟩) fullShare g ∗ heldQ (F := F) c (rowM scA s ⟨19, Nat.le_of_ble_eq_true rfl⟩) fullShare g ∗
      heldQ (F := F) c (rowM scA s ⟨20, Nat.le_of_ble_eq_true rfl⟩) fullShare g ∗ heldQ (F := F) c (rowM scA s ⟨21, Nat.le_of_ble_eq_true rfl⟩) fullShare g ∗
      heldQ (F := F) c (rowM scA s ⟨22, Nat.le_of_ble_eq_true rfl⟩) fullShare g ∗ heldQ (F := F) c (rowM scA s ⟨23, Nat.le_of_ble_eq_true rfl⟩) fullShare g ∗
      heldQ (F := F) c (rowM scA s ⟨24, Nat.le_of_ble_eq_true rfl⟩) fullShare g ∗ heldQ (F := F) c (rowM scA s ⟨25, Nat.le_of_ble_eq_true rfl⟩) fullShare g ∗
      heldQ (F := F) c (rowM scA s ⟨26, Nat.le_of_ble_eq_true rfl⟩) fullShare g ∗ heldQ (F := F) c (rowM scA s ⟨27, Nat.le_of_ble_eq_true rfl⟩) fullShare g ∗
      heldQ (F := F) c (rowM scA s ⟨28, Nat.le_of_ble_eq_true rfl⟩) fullShare g ∗ heldQ (F := F) c (rowM scA s ⟨29, Nat.le_of_ble_eq_true rfl⟩) fullShare g ∗
      heldQ (F := F) c (rowM scA s ⟨30, Nat.le_of_ble_eq_true rfl⟩) fullShare g ∗ heldQ (F := F) c (rowM scA s ⟨31, Nat.le_of_ble_eq_true rfl⟩) fullShare g ∗
      heldQ (F := F) c (rowM scA s ⟨32, Nat.le_of_ble_eq_true rfl⟩) fullShare g ∗ heldQ (F := F) c (rowM scA s ⟨33, Nat.le_of_ble_eq_true rfl⟩) fullShare g ∗
      heldQ (F := F) c (rowM scA s ⟨34, Nat.le_of_ble_eq_true rfl⟩) fullShare g ∗ heldQ (F := F) c (rowM scA s ⟨35, Nat.le_of_ble_eq_true rfl⟩) fullShare g ∗
      heldQ (F := F) c (rowM scA s ⟨36, Nat.le_of_ble_eq_true rfl⟩) fullShare g ∗ heldQ (F := F) c (rowM scA s ⟨37, Nat.le_of_ble_eq_true rfl⟩) fullShare g ∗
      heldQ (F := F) c (rowM scA s ⟨38, Nat.le_of_ble_eq_true rfl⟩) fullShare g ∗ heldQ (F := F) c (rowM scA s ⟨39, Nat.le_of_ble_eq_true rfl⟩) fullShare g ∗
      heldQ (F := F) c (rowM scA s ⟨40, Nat.le_of_ble_eq_true rfl⟩) fullShare g ∗ heldQ (F := F) c (rowM scA s ⟨41, Nat.le_of_ble_eq_true rfl⟩) fullShare g ∗
      heldQ (F := F) c (rowM scA s ⟨42, Nat.le_of_ble_eq_true rfl⟩) fullShare g ∗ heldQ (F := F) c (rowM scA s ⟨43, Nat.le_of_ble_eq_true rfl⟩) fullShare g ∗
      heldQ (F := F) c (rowM scA s ⟨44, Nat.le_of_ble_eq_true rfl⟩) fullShare g ∗ heldQ (F := F) c (rowM scA s ⟨45, Nat.le_of_ble_eq_true rfl⟩) fullShare g ∗
      heldQ (F := F) c (rowM scA s ⟨46, Nat.le_of_ble_eq_true rfl⟩) fullShare g ∗ heldQ (F := F) c (rowM scA s ⟨47, Nat.le_of_ble_eq_true rfl⟩) fullShare g ∗
      heldQ (F := F) c (rowM scA s ⟨48, Nat.le_of_ble_eq_true rfl⟩) fullShare g ∗ heldQ (F := F) c (rowM scA s ⟨49, Nat.le_of_ble_eq_true rfl⟩) fullShare g ∗
      heldQ (F := F) c (rowM scA s ⟨50, Nat.le_of_ble_eq_true rfl⟩) fullShare g ∗ heldQ (F := F) c (rowM scA s ⟨51, Nat.le_of_ble_eq_true rfl⟩) fullShare g ∗
      heldQ (F := F) c (rowM scA s ⟨52, Nat.le_of_ble_eq_true rfl⟩) fullShare g ∗ heldQ (F := F) c (rowM scA s ⟨53, Nat.le_of_ble_eq_true rfl⟩) fullShare g ∗
      heldQ (F := F) c (rowM scA s ⟨54, Nat.le_of_ble_eq_true rfl⟩) fullShare g ∗ heldQ (F := F) c (rowM scA s ⟨55, Nat.le_of_ble_eq_true rfl⟩) fullShare g ∗
      heldQ (F := F) c (rowM scA s ⟨56, Nat.le_of_ble_eq_true rfl⟩) fullShare g ∗ heldQ (F := F) c (rowM scA s ⟨57, Nat.le_of_ble_eq_true rfl⟩) fullShare g ∗
      heldQ (F := F) c (rowM scA s ⟨58, Nat.le_of_ble_eq_true rfl⟩) fullShare g ∗ heldQ (F := F) c (rowM scA s ⟨59, Nat.le_of_ble_eq_true rfl⟩) fullShare g ∗
      heldQ (F := F) c (rowM scA s ⟨60, Nat.le_of_ble_eq_true rfl⟩) fullShare g ∗ heldQ (F := F) c (rowM scA s ⟨61, Nat.le_of_ble_eq_true rfl⟩) fullShare g ∗
      heldQ (F := F) c (rowM scA s ⟨62, Nat.le_of_ble_eq_true rfl⟩) fullShare g ∗ heldQ (F := F) c (rowM scA s ⟨63, Nat.le_of_ble_eq_true rfl⟩) fullShare g) := by
  refine (pt_family (F := F) (ℓ := scA.view.loc (c : Thread nD τ)) (slotSet s) (rowSet s) (rows_disjoint s) (rows_cover s) fullShare g).trans ?_
  have e : (fun r : Fin 64 => (scA.view.loc (c : Thread nD τ) ↦[rowSet s r]{fullShare} g : sProp 𝕄))
      = fun r : Fin 64 => heldQ (F := F) c (rowM scA s r) fullShare g :=
    funext fun r => (heldQ_rowM_A c s r fullShare g).symm
  rw [e]
  exact star64 _

/-! ## The box the body loads from scA at point t is slot t mod 2 -/

/-- The elements the load at point t goes through are exactly slot t mod 2. -/
theorem box_eq_slot_A (t : Fin grid0.N) :
    (scA.access (Rect.unit (s := S2x8x64x1024) (k0_off515 (grid0.coords t)) S1x8x64x1024.size (k0_off515_inb (grid0.coords t)))).set
      = slotSet (slN t.val) := by
  rw [Rect.unit_congr (coff_L t) (k0_off515_inb (grid0.coords t)) (inb_slot (slN t.val))]
  exact View.set_slice_whole _ _

theorem box_in_slot_A (t : Fin grid0.N) :
    (scA.access (Rect.unit (s := S2x8x64x1024) (k0_off515 (grid0.coords t)) S1x8x64x1024.size (k0_off515_inb (grid0.coords t)))).set
      ⊆ (slotM scA (slN t.val)).view.set := by
  rw [box_eq_slot_A, slotM_set_A]

/-- The same through the whole buffer's own indices. -/
theorem box_on_slot_A (t : Fin grid0.N) :
    scA.view.setOn (Rect.unit (s := S2x8x64x1024) (k0_off515 (grid0.coords t)) S1x8x64x1024.size (k0_off515_inb (grid0.coords t))).set
      ⊆ (slotM scA (slN t.val)).view.set := by
  rw [Rect.unit_congr (coff_L t) (k0_off515_inb (grid0.coords t)) (inb_slot (slN t.val)), slotM_set_A]
  intro i hi
  obtain ⟨j, hj, rfl⟩ := Finset.mem_map.mp hi
  exact hj

/-! ## Scratch buffer scB: a slot and its 64 rows, written out -/

/-- The 64 rows of slot s, each held whole at contents of its own, are the slot held at the contents glued row by row. -/
theorem rows64_B (c : Dev nD) (s : Fin 2) (f : Fin 64 → MBuf (F := F) c scB) :
    (iprop(heldQ (F := F) c (rowM scB s ⟨0, Nat.le_of_ble_eq_true rfl⟩) fullShare (f ⟨0, Nat.le_of_ble_eq_true rfl⟩) ∗ heldQ (F := F) c (rowM scB s ⟨1, Nat.le_of_ble_eq_true rfl⟩) fullShare (f ⟨1, Nat.le_of_ble_eq_true rfl⟩) ∗
      heldQ (F := F) c (rowM scB s ⟨2, Nat.le_of_ble_eq_true rfl⟩) fullShare (f ⟨2, Nat.le_of_ble_eq_true rfl⟩) ∗ heldQ (F := F) c (rowM scB s ⟨3, Nat.le_of_ble_eq_true rfl⟩) fullShare (f ⟨3, Nat.le_of_ble_eq_true rfl⟩) ∗
      heldQ (F := F) c (rowM scB s ⟨4, Nat.le_of_ble_eq_true rfl⟩) fullShare (f ⟨4, Nat.le_of_ble_eq_true rfl⟩) ∗ heldQ (F := F) c (rowM scB s ⟨5, Nat.le_of_ble_eq_true rfl⟩) fullShare (f ⟨5, Nat.le_of_ble_eq_true rfl⟩) ∗
      heldQ (F := F) c (rowM scB s ⟨6, Nat.le_of_ble_eq_true rfl⟩) fullShare (f ⟨6, Nat.le_of_ble_eq_true rfl⟩) ∗ heldQ (F := F) c (rowM scB s ⟨7, Nat.le_of_ble_eq_true rfl⟩) fullShare (f ⟨7, Nat.le_of_ble_eq_true rfl⟩) ∗
      heldQ (F := F) c (rowM scB s ⟨8, Nat.le_of_ble_eq_true rfl⟩) fullShare (f ⟨8, Nat.le_of_ble_eq_true rfl⟩) ∗ heldQ (F := F) c (rowM scB s ⟨9, Nat.le_of_ble_eq_true rfl⟩) fullShare (f ⟨9, Nat.le_of_ble_eq_true rfl⟩) ∗
      heldQ (F := F) c (rowM scB s ⟨10, Nat.le_of_ble_eq_true rfl⟩) fullShare (f ⟨10, Nat.le_of_ble_eq_true rfl⟩) ∗ heldQ (F := F) c (rowM scB s ⟨11, Nat.le_of_ble_eq_true rfl⟩) fullShare (f ⟨11, Nat.le_of_ble_eq_true rfl⟩) ∗
      heldQ (F := F) c (rowM scB s ⟨12, Nat.le_of_ble_eq_true rfl⟩) fullShare (f ⟨12, Nat.le_of_ble_eq_true rfl⟩) ∗ heldQ (F := F) c (rowM scB s ⟨13, Nat.le_of_ble_eq_true rfl⟩) fullShare (f ⟨13, Nat.le_of_ble_eq_true rfl⟩) ∗
      heldQ (F := F) c (rowM scB s ⟨14, Nat.le_of_ble_eq_true rfl⟩) fullShare (f ⟨14, Nat.le_of_ble_eq_true rfl⟩) ∗ heldQ (F := F) c (rowM scB s ⟨15, Nat.le_of_ble_eq_true rfl⟩) fullShare (f ⟨15, Nat.le_of_ble_eq_true rfl⟩) ∗
      heldQ (F := F) c (rowM scB s ⟨16, Nat.le_of_ble_eq_true rfl⟩) fullShare (f ⟨16, Nat.le_of_ble_eq_true rfl⟩) ∗ heldQ (F := F) c (rowM scB s ⟨17, Nat.le_of_ble_eq_true rfl⟩) fullShare (f ⟨17, Nat.le_of_ble_eq_true rfl⟩) ∗
      heldQ (F := F) c (rowM scB s ⟨18, Nat.le_of_ble_eq_true rfl⟩) fullShare (f ⟨18, Nat.le_of_ble_eq_true rfl⟩) ∗ heldQ (F := F) c (rowM scB s ⟨19, Nat.le_of_ble_eq_true rfl⟩) fullShare (f ⟨19, Nat.le_of_ble_eq_true rfl⟩) ∗
      heldQ (F := F) c (rowM scB s ⟨20, Nat.le_of_ble_eq_true rfl⟩) fullShare (f ⟨20, Nat.le_of_ble_eq_true rfl⟩) ∗ heldQ (F := F) c (rowM scB s ⟨21, Nat.le_of_ble_eq_true rfl⟩) fullShare (f ⟨21, Nat.le_of_ble_eq_true rfl⟩) ∗
      heldQ (F := F) c (rowM scB s ⟨22, Nat.le_of_ble_eq_true rfl⟩) fullShare (f ⟨22, Nat.le_of_ble_eq_true rfl⟩) ∗ heldQ (F := F) c (rowM scB s ⟨23, Nat.le_of_ble_eq_true rfl⟩) fullShare (f ⟨23, Nat.le_of_ble_eq_true rfl⟩) ∗
      heldQ (F := F) c (rowM scB s ⟨24, Nat.le_of_ble_eq_true rfl⟩) fullShare (f ⟨24, Nat.le_of_ble_eq_true rfl⟩) ∗ heldQ (F := F) c (rowM scB s ⟨25, Nat.le_of_ble_eq_true rfl⟩) fullShare (f ⟨25, Nat.le_of_ble_eq_true rfl⟩) ∗
      heldQ (F := F) c (rowM scB s ⟨26, Nat.le_of_ble_eq_true rfl⟩) fullShare (f ⟨26, Nat.le_of_ble_eq_true rfl⟩) ∗ heldQ (F := F) c (rowM scB s ⟨27, Nat.le_of_ble_eq_true rfl⟩) fullShare (f ⟨27, Nat.le_of_ble_eq_true rfl⟩) ∗
      heldQ (F := F) c (rowM scB s ⟨28, Nat.le_of_ble_eq_true rfl⟩) fullShare (f ⟨28, Nat.le_of_ble_eq_true rfl⟩) ∗ heldQ (F := F) c (rowM scB s ⟨29, Nat.le_of_ble_eq_true rfl⟩) fullShare (f ⟨29, Nat.le_of_ble_eq_true rfl⟩) ∗
      heldQ (F := F) c (rowM scB s ⟨30, Nat.le_of_ble_eq_true rfl⟩) fullShare (f ⟨30, Nat.le_of_ble_eq_true rfl⟩) ∗ heldQ (F := F) c (rowM scB s ⟨31, Nat.le_of_ble_eq_true rfl⟩) fullShare (f ⟨31, Nat.le_of_ble_eq_true rfl⟩) ∗
      heldQ (F := F) c (rowM scB s ⟨32, Nat.le_of_ble_eq_true rfl⟩) fullShare (f ⟨32, Nat.le_of_ble_eq_true rfl⟩) ∗ heldQ (F := F) c (rowM scB s ⟨33, Nat.le_of_ble_eq_true rfl⟩) fullShare (f ⟨33, Nat.le_of_ble_eq_true rfl⟩) ∗
      heldQ (F := F) c (rowM scB s ⟨34, Nat.le_of_ble_eq_true rfl⟩) fullShare (f ⟨34, Nat.le_of_ble_eq_true rfl⟩) ∗ heldQ (F := F) c (rowM scB s ⟨35, Nat.le_of_ble_eq_true rfl⟩) fullShare (f ⟨35, Nat.le_of_ble_eq_true rfl⟩) ∗
      heldQ (F := F) c (rowM scB s ⟨36, Nat.le_of_ble_eq_true rfl⟩) fullShare (f ⟨36, Nat.le_of_ble_eq_true rfl⟩) ∗ heldQ (F := F) c (rowM scB s ⟨37, Nat.le_of_ble_eq_true rfl⟩) fullShare (f ⟨37, Nat.le_of_ble_eq_true rfl⟩) ∗
      heldQ (F := F) c (rowM scB s ⟨38, Nat.le_of_ble_eq_true rfl⟩) fullShare (f ⟨38, Nat.le_of_ble_eq_true rfl⟩) ∗ heldQ (F := F) c (rowM scB s ⟨39, Nat.le_of_ble_eq_true rfl⟩) fullShare (f ⟨39, Nat.le_of_ble_eq_true rfl⟩) ∗
      heldQ (F := F) c (rowM scB s ⟨40, Nat.le_of_ble_eq_true rfl⟩) fullShare (f ⟨40, Nat.le_of_ble_eq_true rfl⟩) ∗ heldQ (F := F) c (rowM scB s ⟨41, Nat.le_of_ble_eq_true rfl⟩) fullShare (f ⟨41, Nat.le_of_ble_eq_true rfl⟩) ∗
      heldQ (F := F) c (rowM scB s ⟨42, Nat.le_of_ble_eq_true rfl⟩) fullShare (f ⟨42, Nat.le_of_ble_eq_true rfl⟩) ∗ heldQ (F := F) c (rowM scB s ⟨43, Nat.le_of_ble_eq_true rfl⟩) fullShare (f ⟨43, Nat.le_of_ble_eq_true rfl⟩) ∗
      heldQ (F := F) c (rowM scB s ⟨44, Nat.le_of_ble_eq_true rfl⟩) fullShare (f ⟨44, Nat.le_of_ble_eq_true rfl⟩) ∗ heldQ (F := F) c (rowM scB s ⟨45, Nat.le_of_ble_eq_true rfl⟩) fullShare (f ⟨45, Nat.le_of_ble_eq_true rfl⟩) ∗
      heldQ (F := F) c (rowM scB s ⟨46, Nat.le_of_ble_eq_true rfl⟩) fullShare (f ⟨46, Nat.le_of_ble_eq_true rfl⟩) ∗ heldQ (F := F) c (rowM scB s ⟨47, Nat.le_of_ble_eq_true rfl⟩) fullShare (f ⟨47, Nat.le_of_ble_eq_true rfl⟩) ∗
      heldQ (F := F) c (rowM scB s ⟨48, Nat.le_of_ble_eq_true rfl⟩) fullShare (f ⟨48, Nat.le_of_ble_eq_true rfl⟩) ∗ heldQ (F := F) c (rowM scB s ⟨49, Nat.le_of_ble_eq_true rfl⟩) fullShare (f ⟨49, Nat.le_of_ble_eq_true rfl⟩) ∗
      heldQ (F := F) c (rowM scB s ⟨50, Nat.le_of_ble_eq_true rfl⟩) fullShare (f ⟨50, Nat.le_of_ble_eq_true rfl⟩) ∗ heldQ (F := F) c (rowM scB s ⟨51, Nat.le_of_ble_eq_true rfl⟩) fullShare (f ⟨51, Nat.le_of_ble_eq_true rfl⟩) ∗
      heldQ (F := F) c (rowM scB s ⟨52, Nat.le_of_ble_eq_true rfl⟩) fullShare (f ⟨52, Nat.le_of_ble_eq_true rfl⟩) ∗ heldQ (F := F) c (rowM scB s ⟨53, Nat.le_of_ble_eq_true rfl⟩) fullShare (f ⟨53, Nat.le_of_ble_eq_true rfl⟩) ∗
      heldQ (F := F) c (rowM scB s ⟨54, Nat.le_of_ble_eq_true rfl⟩) fullShare (f ⟨54, Nat.le_of_ble_eq_true rfl⟩) ∗ heldQ (F := F) c (rowM scB s ⟨55, Nat.le_of_ble_eq_true rfl⟩) fullShare (f ⟨55, Nat.le_of_ble_eq_true rfl⟩) ∗
      heldQ (F := F) c (rowM scB s ⟨56, Nat.le_of_ble_eq_true rfl⟩) fullShare (f ⟨56, Nat.le_of_ble_eq_true rfl⟩) ∗ heldQ (F := F) c (rowM scB s ⟨57, Nat.le_of_ble_eq_true rfl⟩) fullShare (f ⟨57, Nat.le_of_ble_eq_true rfl⟩) ∗
      heldQ (F := F) c (rowM scB s ⟨58, Nat.le_of_ble_eq_true rfl⟩) fullShare (f ⟨58, Nat.le_of_ble_eq_true rfl⟩) ∗ heldQ (F := F) c (rowM scB s ⟨59, Nat.le_of_ble_eq_true rfl⟩) fullShare (f ⟨59, Nat.le_of_ble_eq_true rfl⟩) ∗
      heldQ (F := F) c (rowM scB s ⟨60, Nat.le_of_ble_eq_true rfl⟩) fullShare (f ⟨60, Nat.le_of_ble_eq_true rfl⟩) ∗ heldQ (F := F) c (rowM scB s ⟨61, Nat.le_of_ble_eq_true rfl⟩) fullShare (f ⟨61, Nat.le_of_ble_eq_true rfl⟩) ∗
      heldQ (F := F) c (rowM scB s ⟨62, Nat.le_of_ble_eq_true rfl⟩) fullShare (f ⟨62, Nat.le_of_ble_eq_true rfl⟩) ∗ heldQ (F := F) c (rowM scB s ⟨63, Nat.le_of_ble_eq_true rfl⟩) fullShare (f ⟨63, Nat.le_of_ble_eq_true rfl⟩)) : sProp 𝕄)
      = heldQ (F := F) c (slotM scB s) fullShare (glue_B c f) := by
  refine (star64 (fun r : Fin 64 => heldQ (F := F) c (rowM scB s r) fullShare (f r))).symm.trans ?_
  have e : (fun r : Fin 64 => heldQ (F := F) c (rowM scB s r) fullShare (f r))
      = fun r : Fin 64 => (scB.view.loc (c : Thread nD τ) ↦[rowSet s r]{fullShare} f r : sProp 𝕄) :=
    funext fun r => heldQ_rowM_B c s r fullShare (f r)
  rw [e, rows_glue_eq_B, heldQ_slotM_B]

/-- A slot held at one contents is its 64 rows, each held at that contents. -/
theorem slot64_B (c : Dev nD) (s : Fin 2) (g : MBuf (F := F) c scB) :
    (scB.view.loc (c : Thread nD τ) ↦[slotSet s]{fullShare} g : sProp 𝕄)
      = iprop(heldQ (F := F) c (rowM scB s ⟨0, Nat.le_of_ble_eq_true rfl⟩) fullShare g ∗ heldQ (F := F) c (rowM scB s ⟨1, Nat.le_of_ble_eq_true rfl⟩) fullShare g ∗
      heldQ (F := F) c (rowM scB s ⟨2, Nat.le_of_ble_eq_true rfl⟩) fullShare g ∗ heldQ (F := F) c (rowM scB s ⟨3, Nat.le_of_ble_eq_true rfl⟩) fullShare g ∗
      heldQ (F := F) c (rowM scB s ⟨4, Nat.le_of_ble_eq_true rfl⟩) fullShare g ∗ heldQ (F := F) c (rowM scB s ⟨5, Nat.le_of_ble_eq_true rfl⟩) fullShare g ∗
      heldQ (F := F) c (rowM scB s ⟨6, Nat.le_of_ble_eq_true rfl⟩) fullShare g ∗ heldQ (F := F) c (rowM scB s ⟨7, Nat.le_of_ble_eq_true rfl⟩) fullShare g ∗
      heldQ (F := F) c (rowM scB s ⟨8, Nat.le_of_ble_eq_true rfl⟩) fullShare g ∗ heldQ (F := F) c (rowM scB s ⟨9, Nat.le_of_ble_eq_true rfl⟩) fullShare g ∗
      heldQ (F := F) c (rowM scB s ⟨10, Nat.le_of_ble_eq_true rfl⟩) fullShare g ∗ heldQ (F := F) c (rowM scB s ⟨11, Nat.le_of_ble_eq_true rfl⟩) fullShare g ∗
      heldQ (F := F) c (rowM scB s ⟨12, Nat.le_of_ble_eq_true rfl⟩) fullShare g ∗ heldQ (F := F) c (rowM scB s ⟨13, Nat.le_of_ble_eq_true rfl⟩) fullShare g ∗
      heldQ (F := F) c (rowM scB s ⟨14, Nat.le_of_ble_eq_true rfl⟩) fullShare g ∗ heldQ (F := F) c (rowM scB s ⟨15, Nat.le_of_ble_eq_true rfl⟩) fullShare g ∗
      heldQ (F := F) c (rowM scB s ⟨16, Nat.le_of_ble_eq_true rfl⟩) fullShare g ∗ heldQ (F := F) c (rowM scB s ⟨17, Nat.le_of_ble_eq_true rfl⟩) fullShare g ∗
      heldQ (F := F) c (rowM scB s ⟨18, Nat.le_of_ble_eq_true rfl⟩) fullShare g ∗ heldQ (F := F) c (rowM scB s ⟨19, Nat.le_of_ble_eq_true rfl⟩) fullShare g ∗
      heldQ (F := F) c (rowM scB s ⟨20, Nat.le_of_ble_eq_true rfl⟩) fullShare g ∗ heldQ (F := F) c (rowM scB s ⟨21, Nat.le_of_ble_eq_true rfl⟩) fullShare g ∗
      heldQ (F := F) c (rowM scB s ⟨22, Nat.le_of_ble_eq_true rfl⟩) fullShare g ∗ heldQ (F := F) c (rowM scB s ⟨23, Nat.le_of_ble_eq_true rfl⟩) fullShare g ∗
      heldQ (F := F) c (rowM scB s ⟨24, Nat.le_of_ble_eq_true rfl⟩) fullShare g ∗ heldQ (F := F) c (rowM scB s ⟨25, Nat.le_of_ble_eq_true rfl⟩) fullShare g ∗
      heldQ (F := F) c (rowM scB s ⟨26, Nat.le_of_ble_eq_true rfl⟩) fullShare g ∗ heldQ (F := F) c (rowM scB s ⟨27, Nat.le_of_ble_eq_true rfl⟩) fullShare g ∗
      heldQ (F := F) c (rowM scB s ⟨28, Nat.le_of_ble_eq_true rfl⟩) fullShare g ∗ heldQ (F := F) c (rowM scB s ⟨29, Nat.le_of_ble_eq_true rfl⟩) fullShare g ∗
      heldQ (F := F) c (rowM scB s ⟨30, Nat.le_of_ble_eq_true rfl⟩) fullShare g ∗ heldQ (F := F) c (rowM scB s ⟨31, Nat.le_of_ble_eq_true rfl⟩) fullShare g ∗
      heldQ (F := F) c (rowM scB s ⟨32, Nat.le_of_ble_eq_true rfl⟩) fullShare g ∗ heldQ (F := F) c (rowM scB s ⟨33, Nat.le_of_ble_eq_true rfl⟩) fullShare g ∗
      heldQ (F := F) c (rowM scB s ⟨34, Nat.le_of_ble_eq_true rfl⟩) fullShare g ∗ heldQ (F := F) c (rowM scB s ⟨35, Nat.le_of_ble_eq_true rfl⟩) fullShare g ∗
      heldQ (F := F) c (rowM scB s ⟨36, Nat.le_of_ble_eq_true rfl⟩) fullShare g ∗ heldQ (F := F) c (rowM scB s ⟨37, Nat.le_of_ble_eq_true rfl⟩) fullShare g ∗
      heldQ (F := F) c (rowM scB s ⟨38, Nat.le_of_ble_eq_true rfl⟩) fullShare g ∗ heldQ (F := F) c (rowM scB s ⟨39, Nat.le_of_ble_eq_true rfl⟩) fullShare g ∗
      heldQ (F := F) c (rowM scB s ⟨40, Nat.le_of_ble_eq_true rfl⟩) fullShare g ∗ heldQ (F := F) c (rowM scB s ⟨41, Nat.le_of_ble_eq_true rfl⟩) fullShare g ∗
      heldQ (F := F) c (rowM scB s ⟨42, Nat.le_of_ble_eq_true rfl⟩) fullShare g ∗ heldQ (F := F) c (rowM scB s ⟨43, Nat.le_of_ble_eq_true rfl⟩) fullShare g ∗
      heldQ (F := F) c (rowM scB s ⟨44, Nat.le_of_ble_eq_true rfl⟩) fullShare g ∗ heldQ (F := F) c (rowM scB s ⟨45, Nat.le_of_ble_eq_true rfl⟩) fullShare g ∗
      heldQ (F := F) c (rowM scB s ⟨46, Nat.le_of_ble_eq_true rfl⟩) fullShare g ∗ heldQ (F := F) c (rowM scB s ⟨47, Nat.le_of_ble_eq_true rfl⟩) fullShare g ∗
      heldQ (F := F) c (rowM scB s ⟨48, Nat.le_of_ble_eq_true rfl⟩) fullShare g ∗ heldQ (F := F) c (rowM scB s ⟨49, Nat.le_of_ble_eq_true rfl⟩) fullShare g ∗
      heldQ (F := F) c (rowM scB s ⟨50, Nat.le_of_ble_eq_true rfl⟩) fullShare g ∗ heldQ (F := F) c (rowM scB s ⟨51, Nat.le_of_ble_eq_true rfl⟩) fullShare g ∗
      heldQ (F := F) c (rowM scB s ⟨52, Nat.le_of_ble_eq_true rfl⟩) fullShare g ∗ heldQ (F := F) c (rowM scB s ⟨53, Nat.le_of_ble_eq_true rfl⟩) fullShare g ∗
      heldQ (F := F) c (rowM scB s ⟨54, Nat.le_of_ble_eq_true rfl⟩) fullShare g ∗ heldQ (F := F) c (rowM scB s ⟨55, Nat.le_of_ble_eq_true rfl⟩) fullShare g ∗
      heldQ (F := F) c (rowM scB s ⟨56, Nat.le_of_ble_eq_true rfl⟩) fullShare g ∗ heldQ (F := F) c (rowM scB s ⟨57, Nat.le_of_ble_eq_true rfl⟩) fullShare g ∗
      heldQ (F := F) c (rowM scB s ⟨58, Nat.le_of_ble_eq_true rfl⟩) fullShare g ∗ heldQ (F := F) c (rowM scB s ⟨59, Nat.le_of_ble_eq_true rfl⟩) fullShare g ∗
      heldQ (F := F) c (rowM scB s ⟨60, Nat.le_of_ble_eq_true rfl⟩) fullShare g ∗ heldQ (F := F) c (rowM scB s ⟨61, Nat.le_of_ble_eq_true rfl⟩) fullShare g ∗
      heldQ (F := F) c (rowM scB s ⟨62, Nat.le_of_ble_eq_true rfl⟩) fullShare g ∗ heldQ (F := F) c (rowM scB s ⟨63, Nat.le_of_ble_eq_true rfl⟩) fullShare g) := by
  refine (pt_family (F := F) (ℓ := scB.view.loc (c : Thread nD τ)) (slotSet s) (rowSet s) (rows_disjoint s) (rows_cover s) fullShare g).trans ?_
  have e : (fun r : Fin 64 => (scB.view.loc (c : Thread nD τ) ↦[rowSet s r]{fullShare} g : sProp 𝕄))
      = fun r : Fin 64 => heldQ (F := F) c (rowM scB s r) fullShare g :=
    funext fun r => (heldQ_rowM_B c s r fullShare g).symm
  rw [e]
  exact star64 _

/-! ## The box the body loads from scB at point t is slot t mod 2 -/

/-- The elements the load at point t goes through are exactly slot t mod 2. -/
theorem box_eq_slot_B (t : Fin grid0.N) :
    (scB.access (Rect.unit (s := S2x8x64x1024) (k0_off515 (grid0.coords t)) S1x8x64x1024.size (k0_off515_inb (grid0.coords t)))).set
      = slotSet (slN t.val) := by
  rw [Rect.unit_congr (coff_L t) (k0_off515_inb (grid0.coords t)) (inb_slot (slN t.val))]
  exact View.set_slice_whole _ _

theorem box_in_slot_B (t : Fin grid0.N) :
    (scB.access (Rect.unit (s := S2x8x64x1024) (k0_off515 (grid0.coords t)) S1x8x64x1024.size (k0_off515_inb (grid0.coords t)))).set
      ⊆ (slotM scB (slN t.val)).view.set := by
  rw [box_eq_slot_B, slotM_set_B]

/-- The same through the whole buffer's own indices. -/
theorem box_on_slot_B (t : Fin grid0.N) :
    scB.view.setOn (Rect.unit (s := S2x8x64x1024) (k0_off515 (grid0.coords t)) S1x8x64x1024.size (k0_off515_inb (grid0.coords t))).set
      ⊆ (slotM scB (slN t.val)).view.set := by
  rw [Rect.unit_congr (coff_L t) (k0_off515_inb (grid0.coords t)) (inb_slot (slN t.val)), slotM_set_B]
  intro i hi
  obtain ⟨j, hj, rfl⟩ := Finset.mem_map.mp hi
  exact hj

/-! ## The table's word at a cell -/

/-- The word read at the one-cell box at offset n is the table's n-th word. -/
theorem wordAt_eq (c : Dev nD) (tb : MBuf (F := F) c tbM) (cell : Fin 1 → ℕ) (h : ∀ a, cell a + S1.size a ≤ S2048.size a)
    (n : ℕ) (hn : n < 2048) (hc : cell = ![n]) :
    wordAt (F := F) c tb cell h = tb (ix1 (⟨n, hn⟩ : Fin 2048)) := by
  subst hc
  show tbM.view.readAt (Elt F) (Rect.unit (s := S2048) ![n] S1.size h).toLoadRect tb (Shape.Idx.first (numel1_S1.symm ▸ Nat.one_pos)) = _
  rw [View.readAt_apply]
  show tb ((Rect.unit (s := S2048) ![n] S1.size h).toLoadRect.idx (Shape.Idx.first (numel1_S1.symm ▸ Nat.one_pos))) = tb (ix1 (⟨n, hn⟩ : Fin 2048))
  congr 1
  funext a
  apply Fin.ext
  fin_cases a
  simp [Shape.Idx.first]

/-! ## An argument array at a share: one row lent, the rest kept -/

/-- The array aM at a share is one row's elements, the row spelled by any offset vector, and the rest, at that share. -/
theorem tok_split_a (c : Dev nD) (q : PosShare TreeShare) (off : Fin 3 → ℕ)
    (h : ∀ a, off a + S8x1x1024.size a ≤ S8x4096x1024.size a) (fx : MBuf (F := F) c aM) :
    (aM.view.loc (c : Thread nD τ) ↦{q} fx : sProp 𝕄)
      ⊣⊢ iprop(heldQ (F := F) c (srcM aM off h) q fx
          ∗ (aM.view.loc (c : Thread nD τ) ↦[Finset.univ \ (srcM aM off h).view.set]{q} fx)) :=
  pointsTo_split_subset (Finset.subset_univ _)

/-- The array bM at a share is one row's elements, the row spelled by any offset vector, and the rest, at that share. -/
theorem tok_split_b (c : Dev nD) (q : PosShare TreeShare) (off : Fin 3 → ℕ)
    (h : ∀ a, off a + S8x1x1024.size a ≤ S8x4096x1024.size a) (fx : MBuf (F := F) c bM) :
    (bM.view.loc (c : Thread nD τ) ↦{q} fx : sProp 𝕄)
      ⊣⊢ iprop(heldQ (F := F) c (srcM bM off h) q fx
          ∗ (bM.view.loc (c : Thread nD τ) ↦[Finset.univ \ (srcM bM off h).view.set]{q} fx)) :=
  pointsTo_split_subset (Finset.subset_univ _)

/-! ## The row a table cell names -/

/-- A number below 4096 names a row of an argument array. -/
theorem rows_inb_nat (n : ℕ) (h : n < 4096) : ∀ a, (![0, n, 0] : Fin 3 → ℕ) a + S8x1x1024.size a ≤ S8x4096x1024.size a := by
  intro a; fin_cases a <;> simp <;> omega

/-- The word at cell 64·β + r, when every word of the table is below 4096, is the row grid point β gathers into its row r:
    the cell is below 2048 and the word below 4096, so neither fold moves it. -/
theorem row_of_cell (c : Dev nD) (tb : MBuf (F := F) c tbM) (htb : ∀ y, (tb y).toNat < 4096) (cell : Fin 1 → ℕ)
    (h : ∀ a, cell a + S1.size a ≤ S2048.size a) (β : ℕ) (r : Fin 64) (hb : β < 32) (hc : cell = ![64 * β + r.val])
    {hlt : (wordAt (F := F) c tb cell h).toNat < 4096} :
    (⟨(wordAt (F := F) c tb cell h).toNat, hlt⟩ : Fin 4096) = rowsOf tb β r := by
  have hr : r.val < 64 := r.isLt
  have hn : 64 * β + r.val < 2048 := by omega
  have hw := wordAt_eq (F := F) c tb cell h (64 * β + r.val) hn hc
  have hi : (⟨(64 * β + r.val) % 2048, Nat.mod_lt _ (by decide)⟩ : Fin 2048) = ⟨64 * β + r.val, hn⟩ :=
    Fin.ext (Nat.mod_eq_of_lt hn)
  apply Fin.ext
  show (wordAt (F := F) c tb cell h).toNat
      = (tb (ix1 (⟨(64 * β + r.val) % 2048, Nat.mod_lt _ (by decide)⟩ : Fin 2048))).toNat % 4096
  rw [hi, ← hw]
  exact (Nat.mod_eq_of_lt hlt).symm

end Cert.Kernel.Hand

end
-- ==== Proof.K.ReadsLib.lean ====
/-
  Reading back a slot whose 64 rows each hold a landed array row, with the rows' contents typed at the whole scratch buffer:
  the form a 64-case table of landed contents instantiates row by row.
-/
import proofs.«422764_j1194000908612_2_alg».proof.Proof.Gen.Kernel.Launch
import proofs.«422764_j1194000908612_2_alg».proof.Proof.Gen.Kernel.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.K.Names
import proofs.«422764_j1194000908612_2_alg».proof.Proof.K.Out
import proofs.«422764_j1194000908612_2_alg».proof.Proof.K.Geom
import proofs.«422764_j1194000908612_2_alg».proof.Proof.K.SlotRead
import proofs.«422764_j1194000908612_2_alg».proof.Proof.K.Defs2
import proofs.«422764_j1194000908612_2_alg».proof.Proof.K.Plumb
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

/-! ## Scratch scA filled from array aM -/

/-- Row r of slot s of the scratch once row n of the array has landed in it, whatever the row held before — as contents of
    the whole scratch buffer (a row's buffer is the scratch's own). -/
def landA (c : Dev nD) (s : Fin 2) (r : Fin 64) (n : ℕ) (hn : n < 4096) (fx : MBuf (F := F) c aM) : MBuf (F := F) c scA :=
  landedR (F := F) c (srcM aM ![0, n, 0] (rows_inb_nat n hn)) (rowM scA s r) fx (rowM scA s r).view.junk

/-- Row n of the array landed over a scratch row whatever it held: the landed row at n. -/
theorem landJ_A (c : Dev nD) (s : Fin 2) (r : Fin 64) (n : ℕ) (hn : n < 4096) (fx : MBuf (F := F) c aM) :
    (landedJ (F := F) c (srcM aM ![0, n, 0] (rows_inb_nat n hn)) (rowM scA s r) fx : MBuf (F := F) c scA) = landA c s r n hn fx := by
  unfold landA
  rfl

/-- A family of 64 contents, the r-th being row r of slot s with row n r of the array landed in it: the slot read whole
    at the contents glued row by row is the rows n r of the array, gathered. -/
theorem read_landA (c : Dev nD) (s : Fin 2) (n : Fin 64 → ℕ) (hn : ∀ r, n r < 4096) (fx : MBuf (F := F) c aM)
    (f : Fin 64 → MBuf (F := F) c scA) (hf : ∀ r, f r = landA c s r (n r) (hn r) fx) :
    scA.view.readAt (Elt F) (Rect.unit (s := S2x8x64x1024) ![s.val, 0, 0, 0] S1x8x64x1024.size (inb_slot s)).toLoadRect (glue_A c f)
      = gath fx (fun r => ⟨n r, hn r⟩) := by
  have e : f = fun r => landA c s r (n r) (hn r) fx := funext hf
  rw [e]
  unfold landA
  exact read_glue_A c s n hn (fun r => rows_inb_nat (n r) (hn r)) fx fx rfl (fun r => (rowM scA s r).view.junk)

/-! ## Scratch scB filled from array bM -/

/-- Row r of slot s of the scratch once row n of the array has landed in it, whatever the row held before — as contents of
    the whole scratch buffer (a row's buffer is the scratch's own). -/
def landB (c : Dev nD) (s : Fin 2) (r : Fin 64) (n : ℕ) (hn : n < 4096) (fx : MBuf (F := F) c bM) : MBuf (F := F) c scB :=
  landedR (F := F) c (srcM bM ![0, n, 0] (rows_inb_nat n hn)) (rowM scB s r) fx (rowM scB s r).view.junk

/-- Row n of the array landed over a scratch row whatever it held: the landed row at n. -/
theorem landJ_B (c : Dev nD) (s : Fin 2) (r : Fin 64) (n : ℕ) (hn : n < 4096) (fx : MBuf (F := F) c bM) :
    (landedJ (F := F) c (srcM bM ![0, n, 0] (rows_inb_nat n hn)) (rowM scB s r) fx : MBuf (F := F) c scB) = landB c s r n hn fx := by
  unfold landB
  rfl

/-- A family of 64 contents, the r-th being row r of slot s with row n r of the array landed in it: the slot read whole
    at the contents glued row by row is the rows n r of the array, gathered. -/
theorem read_landB (c : Dev nD) (s : Fin 2) (n : Fin 64 → ℕ) (hn : ∀ r, n r < 4096) (fx : MBuf (F := F) c bM)
    (f : Fin 64 → MBuf (F := F) c scB) (hf : ∀ r, f r = landB c s r (n r) (hn r) fx) :
    scB.view.readAt (Elt F) (Rect.unit (s := S2x8x64x1024) ![s.val, 0, 0, 0] S1x8x64x1024.size (inb_slot s)).toLoadRect (glue_B c f)
      = gath fx (fun r => ⟨n r, hn r⟩) := by
  have e : f = fun r => landB c s r (n r) (hn r) fx := funext hf
  rw [e]
  unfold landB
  exact read_glue_B c s n hn (fun r => rows_inb_nat (n r) (hn r)) fx fx rfl (fun r => (rowM scB s r).view.junk)

end Cert.Kernel.Hand

end
-- ==== Proof.K.Reads.lean ====
/-
  What a slot reads back once its 64 copies have landed — the gathered rows —, once per fetch and per array. This text only lays out tables of
  64 cases (the row numbers' bounds, the rows as the table's words, each landed contents as an instance of the generic landed row) and instantiates
  the generic lemmas of the hand modules KI/ReadsLib.lean (landJ_A, landJ_B, read_landA, read_landB) and KI/Plumb.lean (row_of_cell); no mathematical step is made here.
-/
import proofs.«422764_j1194000908612_2_alg».proof.Proof.Gen.Kernel.Launch
import proofs.«422764_j1194000908612_2_alg».proof.Proof.Gen.Kernel.Skeleton
import proofs.«422764_j1194000908612_2_alg».proof.Proof.K.Tab
import proofs.«422764_j1194000908612_2_alg».proof.Proof.K.Canon
import proofs.«422764_j1194000908612_2_alg».proof.Proof.K.Plumb
import proofs.«422764_j1194000908612_2_alg».proof.Proof.K.SlotRead
import proofs.«422764_j1194000908612_2_alg».proof.Proof.K.ReadsLib
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (fa : MBuf (F := F) c aM) (fb : MBuf (F := F) c bM)

/-! ## What a slot reads back once its 64 copies have landed -/

theorem N1_lt (htb : ∀ y, (tb y).toNat < 4096) (i : grid0.Coords) (h1 : k0_cond1 i = 1#1) : ∀ r : Fin 64, N1 c tb i h1 r < 4096
  | ⟨0, _⟩ => word_lt c tb htb _ _
  | ⟨1, _⟩ => word_lt c tb htb _ _
  | ⟨2, _⟩ => word_lt c tb htb _ _
  | ⟨3, _⟩ => word_lt c tb htb _ _
  | ⟨4, _⟩ => word_lt c tb htb _ _
  | ⟨5, _⟩ => word_lt c tb htb _ _
  | ⟨6, _⟩ => word_lt c tb htb _ _
  | ⟨7, _⟩ => word_lt c tb htb _ _
  | ⟨8, _⟩ => word_lt c tb htb _ _
  | ⟨9, _⟩ => word_lt c tb htb _ _
  | ⟨10, _⟩ => word_lt c tb htb _ _
  | ⟨11, _⟩ => word_lt c tb htb _ _
  | ⟨12, _⟩ => word_lt c tb htb _ _
  | ⟨13, _⟩ => word_lt c tb htb _ _
  | ⟨14, _⟩ => word_lt c tb htb _ _
  | ⟨15, _⟩ => word_lt c tb htb _ _
  | ⟨16, _⟩ => word_lt c tb htb _ _
  | ⟨17, _⟩ => word_lt c tb htb _ _
  | ⟨18, _⟩ => word_lt c tb htb _ _
  | ⟨19, _⟩ => word_lt c tb htb _ _
  | ⟨20, _⟩ => word_lt c tb htb _ _
  | ⟨21, _⟩ => word_lt c tb htb _ _
  | ⟨22, _⟩ => word_lt c tb htb _ _
  | ⟨23, _⟩ => word_lt c tb htb _ _
  | ⟨24, _⟩ => word_lt c tb htb _ _
  | ⟨25, _⟩ => word_lt c tb htb _ _
  | ⟨26, _⟩ => word_lt c tb htb _ _
  | ⟨27, _⟩ => word_lt c tb htb _ _
  | ⟨28, _⟩ => word_lt c tb htb _ _
  | ⟨29, _⟩ => word_lt c tb htb _ _
  | ⟨30, _⟩ => word_lt c tb htb _ _
  | ⟨31, _⟩ => word_lt c tb htb _ _
  | ⟨32, _⟩ => word_lt c tb htb _ _
  | ⟨33, _⟩ => word_lt c tb htb _ _
  | ⟨34, _⟩ => word_lt c tb htb _ _
  | ⟨35, _⟩ => word_lt c tb htb _ _
  | ⟨36, _⟩ => word_lt c tb htb _ _
  | ⟨37, _⟩ => word_lt c tb htb _ _
  | ⟨38, _⟩ => word_lt c tb htb _ _
  | ⟨39, _⟩ => word_lt c tb htb _ _
  | ⟨40, _⟩ => word_lt c tb htb _ _
  | ⟨41, _⟩ => word_lt c tb htb _ _
  | ⟨42, _⟩ => word_lt c tb htb _ _
  | ⟨43, _⟩ => word_lt c tb htb _ _
  | ⟨44, _⟩ => word_lt c tb htb _ _
  | ⟨45, _⟩ => word_lt c tb htb _ _
  | ⟨46, _⟩ => word_lt c tb htb _ _
  | ⟨47, _⟩ => word_lt c tb htb _ _
  | ⟨48, _⟩ => word_lt c tb htb _ _
  | ⟨49, _⟩ => word_lt c tb htb _ _
  | ⟨50, _⟩ => word_lt c tb htb _ _
  | ⟨51, _⟩ => word_lt c tb htb _ _
  | ⟨52, _⟩ => word_lt c tb htb _ _
  | ⟨53, _⟩ => word_lt c tb htb _ _
  | ⟨54, _⟩ => word_lt c tb htb _ _
  | ⟨55, _⟩ => word_lt c tb htb _ _
  | ⟨56, _⟩ => word_lt c tb htb _ _
  | ⟨57, _⟩ => word_lt c tb htb _ _
  | ⟨58, _⟩ => word_lt c tb htb _ _
  | ⟨59, _⟩ => word_lt c tb htb _ _
  | ⟨60, _⟩ => word_lt c tb htb _ _
  | ⟨61, _⟩ => word_lt c tb htb _ _
  | ⟨62, _⟩ => word_lt c tb htb _ _
  | ⟨63, _⟩ => word_lt c tb htb _ _
  | ⟨_ + 64, h⟩ => absurd h (Nat.not_lt.2 (Nat.le_add_left _ _))
/-- The rows fetch 1 of grid point t gathers are the table's words at cells 64·t + r. -/
theorem rows1_eq (htb : ∀ y, (tb y).toNat < 4096) (t : Fin grid0.N) (h1 : k0_cond1 (grid0.coords t) = 1#1) (hb : t.val < 32) : ∀ r : Fin 64, (⟨N1 c tb (grid0.coords t) h1 r, N1_lt c tb htb (grid0.coords t) h1 r⟩ : Fin 4096) = rowsOf tb t.val r
  | ⟨0, _⟩ => row_of_cell c tb htb _ _ t.val ⟨0, Nat.le_of_ble_eq_true rfl⟩ hb (coff_C1_0 t h1)
  | ⟨1, _⟩ => row_of_cell c tb htb _ _ t.val ⟨1, Nat.le_of_ble_eq_true rfl⟩ hb (coff_C1_1 t h1)
  | ⟨2, _⟩ => row_of_cell c tb htb _ _ t.val ⟨2, Nat.le_of_ble_eq_true rfl⟩ hb (coff_C1_2 t h1)
  | ⟨3, _⟩ => row_of_cell c tb htb _ _ t.val ⟨3, Nat.le_of_ble_eq_true rfl⟩ hb (coff_C1_3 t h1)
  | ⟨4, _⟩ => row_of_cell c tb htb _ _ t.val ⟨4, Nat.le_of_ble_eq_true rfl⟩ hb (coff_C1_4 t h1)
  | ⟨5, _⟩ => row_of_cell c tb htb _ _ t.val ⟨5, Nat.le_of_ble_eq_true rfl⟩ hb (coff_C1_5 t h1)
  | ⟨6, _⟩ => row_of_cell c tb htb _ _ t.val ⟨6, Nat.le_of_ble_eq_true rfl⟩ hb (coff_C1_6 t h1)
  | ⟨7, _⟩ => row_of_cell c tb htb _ _ t.val ⟨7, Nat.le_of_ble_eq_true rfl⟩ hb (coff_C1_7 t h1)
  | ⟨8, _⟩ => row_of_cell c tb htb _ _ t.val ⟨8, Nat.le_of_ble_eq_true rfl⟩ hb (coff_C1_8 t h1)
  | ⟨9, _⟩ => row_of_cell c tb htb _ _ t.val ⟨9, Nat.le_of_ble_eq_true rfl⟩ hb (coff_C1_9 t h1)
  | ⟨10, _⟩ => row_of_cell c tb htb _ _ t.val ⟨10, Nat.le_of_ble_eq_true rfl⟩ hb (coff_C1_10 t h1)
  | ⟨11, _⟩ => row_of_cell c tb htb _ _ t.val ⟨11, Nat.le_of_ble_eq_true rfl⟩ hb (coff_C1_11 t h1)
  | ⟨12, _⟩ => row_of_cell c tb htb _ _ t.val ⟨12, Nat.le_of_ble_eq_true rfl⟩ hb (coff_C1_12 t h1)
  | ⟨13, _⟩ => row_of_cell c tb htb _ _ t.val ⟨13, Nat.le_of_ble_eq_true rfl⟩ hb (coff_C1_13 t h1)
  | ⟨14, _⟩ => row_of_cell c tb htb _ _ t.val ⟨14, Nat.le_of_ble_eq_true rfl⟩ hb (coff_C1_14 t h1)
  | ⟨15, _⟩ => row_of_cell c tb htb _ _ t.val ⟨15, Nat.le_of_ble_eq_true rfl⟩ hb (coff_C1_15 t h1)
  | ⟨16, _⟩ => row_of_cell c tb htb _ _ t.val ⟨16, Nat.le_of_ble_eq_true rfl⟩ hb (coff_C1_16 t h1)
  | ⟨17, _⟩ => row_of_cell c tb htb _ _ t.val ⟨17, Nat.le_of_ble_eq_true rfl⟩ hb (coff_C1_17 t h1)
  | ⟨18, _⟩ => row_of_cell c tb htb _ _ t.val ⟨18, Nat.le_of_ble_eq_true rfl⟩ hb (coff_C1_18 t h1)
  | ⟨19, _⟩ => row_of_cell c tb htb _ _ t.val ⟨19, Nat.le_of_ble_eq_true rfl⟩ hb (coff_C1_19 t h1)
  | ⟨20, _⟩ => row_of_cell c tb htb _ _ t.val ⟨20, Nat.le_of_ble_eq_true rfl⟩ hb (coff_C1_20 t h1)
  | ⟨21, _⟩ => row_of_cell c tb htb _ _ t.val ⟨21, Nat.le_of_ble_eq_true rfl⟩ hb (coff_C1_21 t h1)
  | ⟨22, _⟩ => row_of_cell c tb htb _ _ t.val ⟨22, Nat.le_of_ble_eq_true rfl⟩ hb (coff_C1_22 t h1)
  | ⟨23, _⟩ => row_of_cell c tb htb _ _ t.val ⟨23, Nat.le_of_ble_eq_true rfl⟩ hb (coff_C1_23 t h1)
  | ⟨24, _⟩ => row_of_cell c tb htb _ _ t.val ⟨24, Nat.le_of_ble_eq_true rfl⟩ hb (coff_C1_24 t h1)
  | ⟨25, _⟩ => row_of_cell c tb htb _ _ t.val ⟨25, Nat.le_of_ble_eq_true rfl⟩ hb (coff_C1_25 t h1)
  | ⟨26, _⟩ => row_of_cell c tb htb _ _ t.val ⟨26, Nat.le_of_ble_eq_true rfl⟩ hb (coff_C1_26 t h1)
  | ⟨27, _⟩ => row_of_cell c tb htb _ _ t.val ⟨27, Nat.le_of_ble_eq_true rfl⟩ hb (coff_C1_27 t h1)
  | ⟨28, _⟩ => row_of_cell c tb htb _ _ t.val ⟨28, Nat.le_of_ble_eq_true rfl⟩ hb (coff_C1_28 t h1)
  | ⟨29, _⟩ => row_of_cell c tb htb _ _ t.val ⟨29, Nat.le_of_ble_eq_true rfl⟩ hb (coff_C1_29 t h1)
  | ⟨30, _⟩ => row_of_cell c tb htb _ _ t.val ⟨30, Nat.le_of_ble_eq_true rfl⟩ hb (coff_C1_30 t h1)
  | ⟨31, _⟩ => row_of_cell c tb htb _ _ t.val ⟨31, Nat.le_of_ble_eq_true rfl⟩ hb (coff_C1_31 t h1)
  | ⟨32, _⟩ => row_of_cell c tb htb _ _ t.val ⟨32, Nat.le_of_ble_eq_true rfl⟩ hb (coff_C1_32 t h1)
  | ⟨33, _⟩ => row_of_cell c tb htb _ _ t.val ⟨33, Nat.le_of_ble_eq_true rfl⟩ hb (coff_C1_33 t h1)
  | ⟨34, _⟩ => row_of_cell c tb htb _ _ t.val ⟨34, Nat.le_of_ble_eq_true rfl⟩ hb (coff_C1_34 t h1)
  | ⟨35, _⟩ => row_of_cell c tb htb _ _ t.val ⟨35, Nat.le_of_ble_eq_true rfl⟩ hb (coff_C1_35 t h1)
  | ⟨36, _⟩ => row_of_cell c tb htb _ _ t.val ⟨36, Nat.le_of_ble_eq_true rfl⟩ hb (coff_C1_36 t h1)
  | ⟨37, _⟩ => row_of_cell c tb htb _ _ t.val ⟨37, Nat.le_of_ble_eq_true rfl⟩ hb (coff_C1_37 t h1)
  | ⟨38, _⟩ => row_of_cell c tb htb _ _ t.val ⟨38, Nat.le_of_ble_eq_true rfl⟩ hb (coff_C1_38 t h1)
  | ⟨39, _⟩ => row_of_cell c tb htb _ _ t.val ⟨39, Nat.le_of_ble_eq_true rfl⟩ hb (coff_C1_39 t h1)
  | ⟨40, _⟩ => row_of_cell c tb htb _ _ t.val ⟨40, Nat.le_of_ble_eq_true rfl⟩ hb (coff_C1_40 t h1)
  | ⟨41, _⟩ => row_of_cell c tb htb _ _ t.val ⟨41, Nat.le_of_ble_eq_true rfl⟩ hb (coff_C1_41 t h1)
  | ⟨42, _⟩ => row_of_cell c tb htb _ _ t.val ⟨42, Nat.le_of_ble_eq_true rfl⟩ hb (coff_C1_42 t h1)
  | ⟨43, _⟩ => row_of_cell c tb htb _ _ t.val ⟨43, Nat.le_of_ble_eq_true rfl⟩ hb (coff_C1_43 t h1)
  | ⟨44, _⟩ => row_of_cell c tb htb _ _ t.val ⟨44, Nat.le_of_ble_eq_true rfl⟩ hb (coff_C1_44 t h1)
  | ⟨45, _⟩ => row_of_cell c tb htb _ _ t.val ⟨45, Nat.le_of_ble_eq_true rfl⟩ hb (coff_C1_45 t h1)
  | ⟨46, _⟩ => row_of_cell c tb htb _ _ t.val ⟨46, Nat.le_of_ble_eq_true rfl⟩ hb (coff_C1_46 t h1)
  | ⟨47, _⟩ => row_of_cell c tb htb _ _ t.val ⟨47, Nat.le_of_ble_eq_true rfl⟩ hb (coff_C1_47 t h1)
  | ⟨48, _⟩ => row_of_cell c tb htb _ _ t.val ⟨48, Nat.le_of_ble_eq_true rfl⟩ hb (coff_C1_48 t h1)
  | ⟨49, _⟩ => row_of_cell c tb htb _ _ t.val ⟨49, Nat.le_of_ble_eq_true rfl⟩ hb (coff_C1_49 t h1)
  | ⟨50, _⟩ => row_of_cell c tb htb _ _ t.val ⟨50, Nat.le_of_ble_eq_true rfl⟩ hb (coff_C1_50 t h1)
  | ⟨51, _⟩ => row_of_cell c tb htb _ _ t.val ⟨51, Nat.le_of_ble_eq_true rfl⟩ hb (coff_C1_51 t h1)
  | ⟨52, _⟩ => row_of_cell c tb htb _ _ t.val ⟨52, Nat.le_of_ble_eq_true rfl⟩ hb (coff_C1_52 t h1)
  | ⟨53, _⟩ => row_of_cell c tb htb _ _ t.val ⟨53, Nat.le_of_ble_eq_true rfl⟩ hb (coff_C1_53 t h1)
  | ⟨54, _⟩ => row_of_cell c tb htb _ _ t.val ⟨54, Nat.le_of_ble_eq_true rfl⟩ hb (coff_C1_54 t h1)
  | ⟨55, _⟩ => row_of_cell c tb htb _ _ t.val ⟨55, Nat.le_of_ble_eq_true rfl⟩ hb (coff_C1_55 t h1)
  | ⟨56, _⟩ => row_of_cell c tb htb _ _ t.val ⟨56, Nat.le_of_ble_eq_true rfl⟩ hb (coff_C1_56 t h1)
  | ⟨57, _⟩ => row_of_cell c tb htb _ _ t.val ⟨57, Nat.le_of_ble_eq_true rfl⟩ hb (coff_C1_57 t h1)
  | ⟨58, _⟩ => row_of_cell c tb htb _ _ t.val ⟨58, Nat.le_of_ble_eq_true rfl⟩ hb (coff_C1_58 t h1)
  | ⟨59, _⟩ => row_of_cell c tb htb _ _ t.val ⟨59, Nat.le_of_ble_eq_true rfl⟩ hb (coff_C1_59 t h1)
  | ⟨60, _⟩ => row_of_cell c tb htb _ _ t.val ⟨60, Nat.le_of_ble_eq_true rfl⟩ hb (coff_C1_60 t h1)
  | ⟨61, _⟩ => row_of_cell c tb htb _ _ t.val ⟨61, Nat.le_of_ble_eq_true rfl⟩ hb (coff_C1_61 t h1)
  | ⟨62, _⟩ => row_of_cell c tb htb _ _ t.val ⟨62, Nat.le_of_ble_eq_true rfl⟩ hb (coff_C1_62 t h1)
  | ⟨63, _⟩ => row_of_cell c tb htb _ _ t.val ⟨63, Nat.le_of_ble_eq_true rfl⟩ hb (coff_C1_63 t h1)
  | ⟨_ + 64, h⟩ => absurd h (Nat.not_lt.2 (Nat.le_add_left _ _))
theorem L1A_at_0 (htb : ∀ y, (tb y).toNat < 4096) (i : grid0.Coords) (h1 : k0_cond1 i = 1#1) (s : Fin 2) (hk : 0 < 64) :
    L1A c tb fa htb i h1 s ⟨0, hk⟩ = landA c s ⟨0, hk⟩ (N1 c tb i h1 ⟨0, hk⟩) (N1_lt c tb htb i h1 ⟨0, hk⟩) fa :=
  (by unfold L1A; rfl : L1A c tb fa htb i h1 s ⟨0, hk⟩ = landedJ c (s1A_0 c tb htb i h1) (rowM scA s ⟨0, Nat.le_of_ble_eq_true rfl⟩) fa).trans (landJ_A c s _ _ (N1_lt c tb htb i h1 ⟨0, hk⟩) fa)
theorem L1A_at_1 (htb : ∀ y, (tb y).toNat < 4096) (i : grid0.Coords) (h1 : k0_cond1 i = 1#1) (s : Fin 2) (hk : 1 < 64) :
    L1A c tb fa htb i h1 s ⟨1, hk⟩ = landA c s ⟨1, hk⟩ (N1 c tb i h1 ⟨1, hk⟩) (N1_lt c tb htb i h1 ⟨1, hk⟩) fa :=
  (by unfold L1A; rfl : L1A c tb fa htb i h1 s ⟨1, hk⟩ = landedJ c (s1A_1 c tb htb i h1) (rowM scA s ⟨1, Nat.le_of_ble_eq_true rfl⟩) fa).trans (landJ_A c s _ _ (N1_lt c tb htb i h1 ⟨1, hk⟩) fa)
theorem L1A_at_2 (htb : ∀ y, (tb y).toNat < 4096) (i : grid0.Coords) (h1 : k0_cond1 i = 1#1) (s : Fin 2) (hk : 2 < 64) :
    L1A c tb fa htb i h1 s ⟨2, hk⟩ = landA c s ⟨2, hk⟩ (N1 c tb i h1 ⟨2, hk⟩) (N1_lt c tb htb i h1 ⟨2, hk⟩) fa :=
  (by unfold L1A; rfl : L1A c tb fa htb i h1 s ⟨2, hk⟩ = landedJ c (s1A_2 c tb htb i h1) (rowM scA s ⟨2, Nat.le_of_ble_eq_true rfl⟩) fa).trans (landJ_A c s _ _ (N1_lt c tb htb i h1 ⟨2, hk⟩) fa)
theorem L1A_at_3 (htb : ∀ y, (tb y).toNat < 4096) (i : grid0.Coords) (h1 : k0_cond1 i = 1#1) (s : Fin 2) (hk : 3 < 64) :
    L1A c tb fa htb i h1 s ⟨3, hk⟩ = landA c s ⟨3, hk⟩ (N1 c tb i h1 ⟨3, hk⟩) (N1_lt c tb htb i h1 ⟨3, hk⟩) fa :=
  (by unfold L1A; rfl : L1A c tb fa htb i h1 s ⟨3, hk⟩ = landedJ c (s1A_3 c tb htb i h1) (rowM scA s ⟨3, Nat.le_of_ble_eq_true rfl⟩) fa).trans (landJ_A c s _ _ (N1_lt c tb htb i h1 ⟨3, hk⟩) fa)
theorem L1A_at_4 (htb : ∀ y, (tb y).toNat < 4096) (i : grid0.Coords) (h1 : k0_cond1 i = 1#1) (s : Fin 2) (hk : 4 < 64) :
    L1A c tb fa htb i h1 s ⟨4, hk⟩ = landA c s ⟨4, hk⟩ (N1 c tb i h1 ⟨4, hk⟩) (N1_lt c tb htb i h1 ⟨4, hk⟩) fa :=
  (by unfold L1A; rfl : L1A c tb fa htb i h1 s ⟨4, hk⟩ = landedJ c (s1A_4 c tb htb i h1) (rowM scA s ⟨4, Nat.le_of_ble_eq_true rfl⟩) fa).trans (landJ_A c s _ _ (N1_lt c tb htb i h1 ⟨4, hk⟩) fa)
theorem L1A_at_5 (htb : ∀ y, (tb y).toNat < 4096) (i : grid0.Coords) (h1 : k0_cond1 i = 1#1) (s : Fin 2) (hk : 5 < 64) :
    L1A c tb fa htb i h1 s ⟨5, hk⟩ = landA c s ⟨5, hk⟩ (N1 c tb i h1 ⟨5, hk⟩) (N1_lt c tb htb i h1 ⟨5, hk⟩) fa :=
  (by unfold L1A; rfl : L1A c tb fa htb i h1 s ⟨5, hk⟩ = landedJ c (s1A_5 c tb htb i h1) (rowM scA s ⟨5, Nat.le_of_ble_eq_true rfl⟩) fa).trans (landJ_A c s _ _ (N1_lt c tb htb i h1 ⟨5, hk⟩) fa)
theorem L1A_at_6 (htb : ∀ y, (tb y).toNat < 4096) (i : grid0.Coords) (h1 : k0_cond1 i = 1#1) (s : Fin 2) (hk : 6 < 64) :
    L1A c tb fa htb i h1 s ⟨6, hk⟩ = landA c s ⟨6, hk⟩ (N1 c tb i h1 ⟨6, hk⟩) (N1_lt c tb htb i h1 ⟨6, hk⟩) fa :=
  (by unfold L1A; rfl : L1A c tb fa htb i h1 s ⟨6, hk⟩ = landedJ c (s1A_6 c tb htb i h1) (rowM scA s ⟨6, Nat.le_of_ble_eq_true rfl⟩) fa).trans (landJ_A c s _ _ (N1_lt c tb htb i h1 ⟨6, hk⟩) fa)
theorem L1A_at_7 (htb : ∀ y, (tb y).toNat < 4096) (i : grid0.Coords) (h1 : k0_cond1 i = 1#1) (s : Fin 2) (hk : 7 < 64) :
    L1A c tb fa htb i h1 s ⟨7, hk⟩ = landA c s ⟨7, hk⟩ (N1 c tb i h1 ⟨7, hk⟩) (N1_lt c tb htb i h1 ⟨7, hk⟩) fa :=
  (by unfold L1A; rfl : L1A c tb fa htb i h1 s ⟨7, hk⟩ = landedJ c (s1A_7 c tb htb i h1) (rowM scA s ⟨7, Nat.le_of_ble_eq_true rfl⟩) fa).trans (landJ_A c s _ _ (N1_lt c tb htb i h1 ⟨7, hk⟩) fa)
theorem L1A_at_8 (htb : ∀ y, (tb y).toNat < 4096) (i : grid0.Coords) (h1 : k0_cond1 i = 1#1) (s : Fin 2) (hk : 8 < 64) :
    L1A c tb fa htb i h1 s ⟨8, hk⟩ = landA c s ⟨8, hk⟩ (N1 c tb i h1 ⟨8, hk⟩) (N1_lt c tb htb i h1 ⟨8, hk⟩) fa :=
  (by unfold L1A; rfl : L1A c tb fa htb i h1 s ⟨8, hk⟩ = landedJ c (s1A_8 c tb htb i h1) (rowM scA s ⟨8, Nat.le_of_ble_eq_true rfl⟩) fa).trans (landJ_A c s _ _ (N1_lt c tb htb i h1 ⟨8, hk⟩) fa)
theorem L1A_at_9 (htb : ∀ y, (tb y).toNat < 4096) (i : grid0.Coords) (h1 : k0_cond1 i = 1#1) (s : Fin 2) (hk : 9 < 64) :
    L1A c tb fa htb i h1 s ⟨9, hk⟩ = landA c s ⟨9, hk⟩ (N1 c tb i h1 ⟨9, hk⟩) (N1_lt c tb htb i h1 ⟨9, hk⟩) fa :=
  (by unfold L1A; rfl : L1A c tb fa htb i h1 s ⟨9, hk⟩ = landedJ c (s1A_9 c tb htb i h1) (rowM scA s ⟨9, Nat.le_of_ble_eq_true rfl⟩) fa).trans (landJ_A c s _ _ (N1_lt c tb htb i h1 ⟨9, hk⟩) fa)
theorem L1A_at_10 (htb : ∀ y, (tb y).toNat < 4096) (i : grid0.Coords) (h1 : k0_cond1 i = 1#1) (s : Fin 2) (hk : 10 < 64) :
    L1A c tb fa htb i h1 s ⟨10, hk⟩ = landA c s ⟨10, hk⟩ (N1 c tb i h1 ⟨10, hk⟩) (N1_lt c tb htb i h1 ⟨10, hk⟩) fa :=
  (by unfold L1A; rfl : L1A c tb fa htb i h1 s ⟨10, hk⟩ = landedJ c (s1A_10 c tb htb i h1) (rowM scA s ⟨10, Nat.le_of_ble_eq_true rfl⟩) fa).trans (landJ_A c s _ _ (N1_lt c tb htb i h1 ⟨10, hk⟩) fa)
theorem L1A_at_11 (htb : ∀ y, (tb y).toNat < 4096) (i : grid0.Coords) (h1 : k0_cond1 i = 1#1) (s : Fin 2) (hk : 11 < 64) :
    L1A c tb fa htb i h1 s ⟨11, hk⟩ = landA c s ⟨11, hk⟩ (N1 c tb i h1 ⟨11, hk⟩) (N1_lt c tb htb i h1 ⟨11, hk⟩) fa :=
  (by unfold L1A; rfl : L1A c tb fa htb i h1 s ⟨11, hk⟩ = landedJ c (s1A_11 c tb htb i h1) (rowM scA s ⟨11, Nat.le_of_ble_eq_true rfl⟩) fa).trans (landJ_A c s _ _ (N1_lt c tb htb i h1 ⟨11, hk⟩) fa)
theorem L1A_at_12 (htb : ∀ y, (tb y).toNat < 4096) (i : grid0.Coords) (h1 : k0_cond1 i = 1#1) (s : Fin 2) (hk : 12 < 64) :
    L1A c tb fa htb i h1 s ⟨12, hk⟩ = landA c s ⟨12, hk⟩ (N1 c tb i h1 ⟨12, hk⟩) (N1_lt c tb htb i h1 ⟨12, hk⟩) fa :=
  (by unfold L1A; rfl : L1A c tb fa htb i h1 s ⟨12, hk⟩ = landedJ c (s1A_12 c tb htb i h1) (rowM scA s ⟨12, Nat.le_of_ble_eq_true rfl⟩) fa).trans (landJ_A c s _ _ (N1_lt c tb htb i h1 ⟨12, hk⟩) fa)
theorem L1A_at_13 (htb : ∀ y, (tb y).toNat < 4096) (i : grid0.Coords) (h1 : k0_cond1 i = 1#1) (s : Fin 2) (hk : 13 < 64) :
    L1A c tb fa htb i h1 s ⟨13, hk⟩ = landA c s ⟨13, hk⟩ (N1 c tb i h1 ⟨13, hk⟩) (N1_lt c tb htb i h1 ⟨13, hk⟩) fa :=
  (by unfold L1A; rfl : L1A c tb fa htb i h1 s ⟨13, hk⟩ = landedJ c (s1A_13 c tb htb i h1) (rowM scA s ⟨13, Nat.le_of_ble_eq_true rfl⟩) fa).trans (landJ_A c s _ _ (N1_lt c tb htb i h1 ⟨13, hk⟩) fa)
theorem L1A_at_14 (htb : ∀ y, (tb y).toNat < 4096) (i : grid0.Coords) (h1 : k0_cond1 i = 1#1) (s : Fin 2) (hk : 14 < 64) :
    L1A c tb fa htb i h1 s ⟨14, hk⟩ = landA c s ⟨14, hk⟩ (N1 c tb i h1 ⟨14, hk⟩) (N1_lt c tb htb i h1 ⟨14, hk⟩) fa :=
  (by unfold L1A; rfl : L1A c tb fa htb i h1 s ⟨14, hk⟩ = landedJ c (s1A_14 c tb htb i h1) (rowM scA s ⟨14, Nat.le_of_ble_eq_true rfl⟩) fa).trans (landJ_A c s _ _ (N1_lt c tb htb i h1 ⟨14, hk⟩) fa)
theorem L1A_at_15 (htb : ∀ y, (tb y).toNat < 4096) (i : grid0.Coords) (h1 : k0_cond1 i = 1#1) (s : Fin 2) (hk : 15 < 64) :
    L1A c tb fa htb i h1 s ⟨15, hk⟩ = landA c s ⟨15, hk⟩ (N1 c tb i h1 ⟨15, hk⟩) (N1_lt c tb htb i h1 ⟨15, hk⟩) fa :=
  (by unfold L1A; rfl : L1A c tb fa htb i h1 s ⟨15, hk⟩ = landedJ c (s1A_15 c tb htb i h1) (rowM scA s ⟨15, Nat.le_of_ble_eq_true rfl⟩) fa).trans (landJ_A c s _ _ (N1_lt c tb htb i h1 ⟨15, hk⟩) fa)
theorem L1A_at_16 (htb : ∀ y, (tb y).toNat < 4096) (i : grid0.Coords) (h1 : k0_cond1 i = 1#1) (s : Fin 2) (hk : 16 < 64) :
    L1A c tb fa htb i h1 s ⟨16, hk⟩ = landA c s ⟨16, hk⟩ (N1 c tb i h1 ⟨16, hk⟩) (N1_lt c tb htb i h1 ⟨16, hk⟩) fa :=
  (by unfold L1A; rfl : L1A c tb fa htb i h1 s ⟨16, hk⟩ = landedJ c (s1A_16 c tb htb i h1) (rowM scA s ⟨16, Nat.le_of_ble_eq_true rfl⟩) fa).trans (landJ_A c s _ _ (N1_lt c tb htb i h1 ⟨16, hk⟩) fa)
theorem L1A_at_17 (htb : ∀ y, (tb y).toNat < 4096) (i : grid0.Coords) (h1 : k0_cond1 i = 1#1) (s : Fin 2) (hk : 17 < 64) :
    L1A c tb fa htb i h1 s ⟨17, hk⟩ = landA c s ⟨17, hk⟩ (N1 c tb i h1 ⟨17, hk⟩) (N1_lt c tb htb i h1 ⟨17, hk⟩) fa :=
  (by unfold L1A; rfl : L1A c tb fa htb i h1 s ⟨17, hk⟩ = landedJ c (s1A_17 c tb htb i h1) (rowM scA s ⟨17, Nat.le_of_ble_eq_true rfl⟩) fa).trans (landJ_A c s _ _ (N1_lt c tb htb i h1 ⟨17, hk⟩) fa)
theorem L1A_at_18 (htb : ∀ y, (tb y).toNat < 4096) (i : grid0.Coords) (h1 : k0_cond1 i = 1#1) (s : Fin 2) (hk : 18 < 64) :
    L1A c tb fa htb i h1 s ⟨18, hk⟩ = landA c s ⟨18, hk⟩ (N1 c tb i h1 ⟨18, hk⟩) (N1_lt c tb htb i h1 ⟨18, hk⟩) fa :=
  (by unfold L1A; rfl : L1A c tb fa htb i h1 s ⟨18, hk⟩ = landedJ c (s1A_18 c tb htb i h1) (rowM scA s ⟨18, Nat.le_of_ble_eq_true rfl⟩) fa).trans (landJ_A c s _ _ (N1_lt c tb htb i h1 ⟨18, hk⟩) fa)
theorem L1A_at_19 (htb : ∀ y, (tb y).toNat < 4096) (i : grid0.Coords) (h1 : k0_cond1 i = 1#1) (s : Fin 2) (hk : 19 < 64) :
    L1A c tb fa htb i h1 s ⟨19, hk⟩ = landA c s ⟨19, hk⟩ (N1 c tb i h1 ⟨19, hk⟩) (N1_lt c tb htb i h1 ⟨19, hk⟩) fa :=
  (by unfold L1A; rfl : L1A c tb fa htb i h1 s ⟨19, hk⟩ = landedJ c (s1A_19 c tb htb i h1) (rowM scA s ⟨19, Nat.le_of_ble_eq_true rfl⟩) fa).trans (landJ_A c s _ _ (N1_lt c tb htb i h1 ⟨19, hk⟩) fa)
theorem L1A_at_20 (htb : ∀ y, (tb y).toNat < 4096) (i : grid0.Coords) (h1 : k0_cond1 i = 1#1) (s : Fin 2) (hk : 20 < 64) :
    L1A c tb fa htb i h1 s ⟨20, hk⟩ = landA c s ⟨20, hk⟩ (N1 c tb i h1 ⟨20, hk⟩) (N1_lt c tb htb i h1 ⟨20, hk⟩) fa :=
  (by unfold L1A; rfl : L1A c tb fa htb i h1 s ⟨20, hk⟩ = landedJ c (s1A_20 c tb htb i h1) (rowM scA s ⟨20, Nat.le_of_ble_eq_true rfl⟩) fa).trans (landJ_A c s _ _ (N1_lt c tb htb i h1 ⟨20, hk⟩) fa)
theorem L1A_at_21 (htb : ∀ y, (tb y).toNat < 4096) (i : grid0.Coords) (h1 : k0_cond1 i = 1#1) (s : Fin 2) (hk : 21 < 64) :
    L1A c tb fa htb i h1 s ⟨21, hk⟩ = landA c s ⟨21, hk⟩ (N1 c tb i h1 ⟨21, hk⟩) (N1_lt c tb htb i h1 ⟨21, hk⟩) fa :=
  (by unfold L1A; rfl : L1A c tb fa htb i h1 s ⟨21, hk⟩ = landedJ c (s1A_21 c tb htb i h1) (rowM scA s ⟨21, Nat.le_of_ble_eq_true rfl⟩) fa).trans (landJ_A c s _ _ (N1_lt c tb htb i h1 ⟨21, hk⟩) fa)
theorem L1A_at_22 (htb : ∀ y, (tb y).toNat < 4096) (i : grid0.Coords) (h1 : k0_cond1 i = 1#1) (s : Fin 2) (hk : 22 < 64) :
    L1A c tb fa htb i h1 s ⟨22, hk⟩ = landA c s ⟨22, hk⟩ (N1 c tb i h1 ⟨22, hk⟩) (N1_lt c tb htb i h1 ⟨22, hk⟩) fa :=
  (by unfold L1A; rfl : L1A c tb fa htb i h1 s ⟨22, hk⟩ = landedJ c (s1A_22 c tb htb i h1) (rowM scA s ⟨22, Nat.le_of_ble_eq_true rfl⟩) fa).trans (landJ_A c s _ _ (N1_lt c tb htb i h1 ⟨22, hk⟩) fa)
theorem L1A_at_23 (htb : ∀ y, (tb y).toNat < 4096) (i : grid0.Coords) (h1 : k0_cond1 i = 1#1) (s : Fin 2) (hk : 23 < 64) :
    L1A c tb fa htb i h1 s ⟨23, hk⟩ = landA c s ⟨23, hk⟩ (N1 c tb i h1 ⟨23, hk⟩) (N1_lt c tb htb i h1 ⟨23, hk⟩) fa :=
  (by unfold L1A; rfl : L1A c tb fa htb i h1 s ⟨23, hk⟩ = landedJ c (s1A_23 c tb htb i h1) (rowM scA s ⟨23, Nat.le_of_ble_eq_true rfl⟩) fa).trans (landJ_A c s _ _ (N1_lt c tb htb i h1 ⟨23, hk⟩) fa)
theorem L1A_at_24 (htb : ∀ y, (tb y).toNat < 4096) (i : grid0.Coords) (h1 : k0_cond1 i = 1#1) (s : Fin 2) (hk : 24 < 64) :
    L1A c tb fa htb i h1 s ⟨24, hk⟩ = landA c s ⟨24, hk⟩ (N1 c tb i h1 ⟨24, hk⟩) (N1_lt c tb htb i h1 ⟨24, hk⟩) fa :=
  (by unfold L1A; rfl : L1A c tb fa htb i h1 s ⟨24, hk⟩ = landedJ c (s1A_24 c tb htb i h1) (rowM scA s ⟨24, Nat.le_of_ble_eq_true rfl⟩) fa).trans (landJ_A c s _ _ (N1_lt c tb htb i h1 ⟨24, hk⟩) fa)
theorem L1A_at_25 (htb : ∀ y, (tb y).toNat < 4096) (i : grid0.Coords) (h1 : k0_cond1 i = 1#1) (s : Fin 2) (hk : 25 < 64) :
    L1A c tb fa htb i h1 s ⟨25, hk⟩ = landA c s ⟨25, hk⟩ (N1 c tb i h1 ⟨25, hk⟩) (N1_lt c tb htb i h1 ⟨25, hk⟩) fa :=
  (by unfold L1A; rfl : L1A c tb fa htb i h1 s ⟨25, hk⟩ = landedJ c (s1A_25 c tb htb i h1) (rowM scA s ⟨25, Nat.le_of_ble_eq_true rfl⟩) fa).trans (landJ_A c s _ _ (N1_lt c tb htb i h1 ⟨25, hk⟩) fa)
theorem L1A_at_26 (htb : ∀ y, (tb y).toNat < 4096) (i : grid0.Coords) (h1 : k0_cond1 i = 1#1) (s : Fin 2) (hk : 26 < 64) :
    L1A c tb fa htb i h1 s ⟨26, hk⟩ = landA c s ⟨26, hk⟩ (N1 c tb i h1 ⟨26, hk⟩) (N1_lt c tb htb i h1 ⟨26, hk⟩) fa :=
  (by unfold L1A; rfl : L1A c tb fa htb i h1 s ⟨26, hk⟩ = landedJ c (s1A_26 c tb htb i h1) (rowM scA s ⟨26, Nat.le_of_ble_eq_true rfl⟩) fa).trans (landJ_A c s _ _ (N1_lt c tb htb i h1 ⟨26, hk⟩) fa)
theorem L1A_at_27 (htb : ∀ y, (tb y).toNat < 4096) (i : grid0.Coords) (h1 : k0_cond1 i = 1#1) (s : Fin 2) (hk : 27 < 64) :
    L1A c tb fa htb i h1 s ⟨27, hk⟩ = landA c s ⟨27, hk⟩ (N1 c tb i h1 ⟨27, hk⟩) (N1_lt c tb htb i h1 ⟨27, hk⟩) fa :=
  (by unfold L1A; rfl : L1A c tb fa htb i h1 s ⟨27, hk⟩ = landedJ c (s1A_27 c tb htb i h1) (rowM scA s ⟨27, Nat.le_of_ble_eq_true rfl⟩) fa).trans (landJ_A c s _ _ (N1_lt c tb htb i h1 ⟨27, hk⟩) fa)
theorem L1A_at_28 (htb : ∀ y, (tb y).toNat < 4096) (i : grid0.Coords) (h1 : k0_cond1 i = 1#1) (s : Fin 2) (hk : 28 < 64) :
    L1A c tb fa htb i h1 s ⟨28, hk⟩ = landA c s ⟨28, hk⟩ (N1 c tb i h1 ⟨28, hk⟩) (N1_lt c tb htb i h1 ⟨28, hk⟩) fa :=
  (by unfold L1A; rfl : L1A c tb fa htb i h1 s ⟨28, hk⟩ = landedJ c (s1A_28 c tb htb i h1) (rowM scA s ⟨28, Nat.le_of_ble_eq_true rfl⟩) fa).trans (landJ_A c s _ _ (N1_lt c tb htb i h1 ⟨28, hk⟩) fa)
theorem L1A_at_29 (htb : ∀ y, (tb y).toNat < 4096) (i : grid0.Coords) (h1 : k0_cond1 i = 1#1) (s : Fin 2) (hk : 29 < 64) :
    L1A c tb fa htb i h1 s ⟨29, hk⟩ = landA c s ⟨29, hk⟩ (N1 c tb i h1 ⟨29, hk⟩) (N1_lt c tb htb i h1 ⟨29, hk⟩) fa :=
  (by unfold L1A; rfl : L1A c tb fa htb i h1 s ⟨29, hk⟩ = landedJ c (s1A_29 c tb htb i h1) (rowM scA s ⟨29, Nat.le_of_ble_eq_true rfl⟩) fa).trans (landJ_A c s _ _ (N1_lt c tb htb i h1 ⟨29, hk⟩) fa)
theorem L1A_at_30 (htb : ∀ y, (tb y).toNat < 4096) (i : grid0.Coords) (h1 : k0_cond1 i = 1#1) (s : Fin 2) (hk : 30 < 64) :
    L1A c tb fa htb i h1 s ⟨30, hk⟩ = landA c s ⟨30, hk⟩ (N1 c tb i h1 ⟨30, hk⟩) (N1_lt c tb htb i h1 ⟨30, hk⟩) fa :=
  (by unfold L1A; rfl : L1A c tb fa htb i h1 s ⟨30, hk⟩ = landedJ c (s1A_30 c tb htb i h1) (rowM scA s ⟨30, Nat.le_of_ble_eq_true rfl⟩) fa).trans (landJ_A c s _ _ (N1_lt c tb htb i h1 ⟨30, hk⟩) fa)
theorem L1A_at_31 (htb : ∀ y, (tb y).toNat < 4096) (i : grid0.Coords) (h1 : k0_cond1 i = 1#1) (s : Fin 2) (hk : 31 < 64) :
    L1A c tb fa htb i h1 s ⟨31, hk⟩ = landA c s ⟨31, hk⟩ (N1 c tb i h1 ⟨31, hk⟩) (N1_lt c tb htb i h1 ⟨31, hk⟩) fa :=
  (by unfold L1A; rfl : L1A c tb fa htb i h1 s ⟨31, hk⟩ = landedJ c (s1A_31 c tb htb i h1) (rowM scA s ⟨31, Nat.le_of_ble_eq_true rfl⟩) fa).trans (landJ_A c s _ _ (N1_lt c tb htb i h1 ⟨31, hk⟩) fa)
theorem L1A_at_32 (htb : ∀ y, (tb y).toNat < 4096) (i : grid0.Coords) (h1 : k0_cond1 i = 1#1) (s : Fin 2) (hk : 32 < 64) :
    L1A c tb fa htb i h1 s ⟨32, hk⟩ = landA c s ⟨32, hk⟩ (N1 c tb i h1 ⟨32, hk⟩) (N1_lt c tb htb i h1 ⟨32, hk⟩) fa :=
  (by unfold L1A; rfl : L1A c tb fa htb i h1 s ⟨32, hk⟩ = landedJ c (s1A_32 c tb htb i h1) (rowM scA s ⟨32, Nat.le_of_ble_eq_true rfl⟩) fa).trans (landJ_A c s _ _ (N1_lt c tb htb i h1 ⟨32, hk⟩) fa)
theorem L1A_at_33 (htb : ∀ y, (tb y).toNat < 4096) (i : grid0.Coords) (h1 : k0_cond1 i = 1#1) (s : Fin 2) (hk : 33 < 64) :
    L1A c tb fa htb i h1 s ⟨33, hk⟩ = landA c s ⟨33, hk⟩ (N1 c tb i h1 ⟨33, hk⟩) (N1_lt c tb htb i h1 ⟨33, hk⟩) fa :=
  (by unfold L1A; rfl : L1A c tb fa htb i h1 s ⟨33, hk⟩ = landedJ c (s1A_33 c tb htb i h1) (rowM scA s ⟨33, Nat.le_of_ble_eq_true rfl⟩) fa).trans (landJ_A c s _ _ (N1_lt c tb htb i h1 ⟨33, hk⟩) fa)
theorem L1A_at_34 (htb : ∀ y, (tb y).toNat < 4096) (i : grid0.Coords) (h1 : k0_cond1 i = 1#1) (s : Fin 2) (hk : 34 < 64) :
    L1A c tb fa htb i h1 s ⟨34, hk⟩ = landA c s ⟨34, hk⟩ (N1 c tb i h1 ⟨34, hk⟩) (N1_lt c tb htb i h1 ⟨34, hk⟩) fa :=
  (by unfold L1A; rfl : L1A c tb fa htb i h1 s ⟨34, hk⟩ = landedJ c (s1A_34 c tb htb i h1) (rowM scA s ⟨34, Nat.le_of_ble_eq_true rfl⟩) fa).trans (landJ_A c s _ _ (N1_lt c tb htb i h1 ⟨34, hk⟩) fa)
theorem L1A_at_35 (htb : ∀ y, (tb y).toNat < 4096) (i : grid0.Coords) (h1 : k0_cond1 i = 1#1) (s : Fin 2) (hk : 35 < 64) :
    L1A c tb fa htb i h1 s ⟨35, hk⟩ = landA c s ⟨35, hk⟩ (N1 c tb i h1 ⟨35, hk⟩) (N1_lt c tb htb i h1 ⟨35, hk⟩) fa :=
  (by unfold L1A; rfl : L1A c tb fa htb i h1 s ⟨35, hk⟩ = landedJ c (s1A_35 c tb htb i h1) (rowM scA s ⟨35, Nat.le_of_ble_eq_true rfl⟩) fa).trans (landJ_A c s _ _ (N1_lt c tb htb i h1 ⟨35, hk⟩) fa)
theorem L1A_at_36 (htb : ∀ y, (tb y).toNat < 4096) (i : grid0.Coords) (h1 : k0_cond1 i = 1#1) (s : Fin 2) (hk : 36 < 64) :
    L1A c tb fa htb i h1 s ⟨36, hk⟩ = landA c s ⟨36, hk⟩ (N1 c tb i h1 ⟨36, hk⟩) (N1_lt c tb htb i h1 ⟨36, hk⟩) fa :=
  (by unfold L1A; rfl : L1A c tb fa htb i h1 s ⟨36, hk⟩ = landedJ c (s1A_36 c tb htb i h1) (rowM scA s ⟨36, Nat.le_of_ble_eq_true rfl⟩) fa).trans (landJ_A c s _ _ (N1_lt c tb htb i h1 ⟨36, hk⟩) fa)
theorem L1A_at_37 (htb : ∀ y, (tb y).toNat < 4096) (i : grid0.Coords) (h1 : k0_cond1 i = 1#1) (s : Fin 2) (hk : 37 < 64) :
    L1A c tb fa htb i h1 s ⟨37, hk⟩ = landA c s ⟨37, hk⟩ (N1 c tb i h1 ⟨37, hk⟩) (N1_lt c tb htb i h1 ⟨37, hk⟩) fa :=
  (by unfold L1A; rfl : L1A c tb fa htb i h1 s ⟨37, hk⟩ = landedJ c (s1A_37 c tb htb i h1) (rowM scA s ⟨37, Nat.le_of_ble_eq_true rfl⟩) fa).trans (landJ_A c s _ _ (N1_lt c tb htb i h1 ⟨37, hk⟩) fa)
theorem L1A_at_38 (htb : ∀ y, (tb y).toNat < 4096) (i : grid0.Coords) (h1 : k0_cond1 i = 1#1) (s : Fin 2) (hk : 38 < 64) :
    L1A c tb fa htb i h1 s ⟨38, hk⟩ = landA c s ⟨38, hk⟩ (N1 c tb i h1 ⟨38, hk⟩) (N1_lt c tb htb i h1 ⟨38, hk⟩) fa :=
  (by unfold L1A; rfl : L1A c tb fa htb i h1 s ⟨38, hk⟩ = landedJ c (s1A_38 c tb htb i h1) (rowM scA s ⟨38, Nat.le_of_ble_eq_true rfl⟩) fa).trans (landJ_A c s _ _ (N1_lt c tb htb i h1 ⟨38, hk⟩) fa)
theorem L1A_at_39 (htb : ∀ y, (tb y).toNat < 4096) (i : grid0.Coords) (h1 : k0_cond1 i = 1#1) (s : Fin 2) (hk : 39 < 64) :
    L1A c tb fa htb i h1 s ⟨39, hk⟩ = landA c s ⟨39, hk⟩ (N1 c tb i h1 ⟨39, hk⟩) (N1_lt c tb htb i h1 ⟨39, hk⟩) fa :=
  (by unfold L1A; rfl : L1A c tb fa htb i h1 s ⟨39, hk⟩ = landedJ c (s1A_39 c tb htb i h1) (rowM scA s ⟨39, Nat.le_of_ble_eq_true rfl⟩) fa).trans (landJ_A c s _ _ (N1_lt c tb htb i h1 ⟨39, hk⟩) fa)
theorem L1A_at_40 (htb : ∀ y, (tb y).toNat < 4096) (i : grid0.Coords) (h1 : k0_cond1 i = 1#1) (s : Fin 2) (hk : 40 < 64) :
    L1A c tb fa htb i h1 s ⟨40, hk⟩ = landA c s ⟨40, hk⟩ (N1 c tb i h1 ⟨40, hk⟩) (N1_lt c tb htb i h1 ⟨40, hk⟩) fa :=
  (by unfold L1A; rfl : L1A c tb fa htb i h1 s ⟨40, hk⟩ = landedJ c (s1A_40 c tb htb i h1) (rowM scA s ⟨40, Nat.le_of_ble_eq_true rfl⟩) fa).trans (landJ_A c s _ _ (N1_lt c tb htb i h1 ⟨40, hk⟩) fa)
theorem L1A_at_41 (htb : ∀ y, (tb y).toNat < 4096) (i : grid0.Coords) (h1 : k0_cond1 i = 1#1) (s : Fin 2) (hk : 41 < 64) :
    L1A c tb fa htb i h1 s ⟨41, hk⟩ = landA c s ⟨41, hk⟩ (N1 c tb i h1 ⟨41, hk⟩) (N1_lt c tb htb i h1 ⟨41, hk⟩) fa :=
  (by unfold L1A; rfl : L1A c tb fa htb i h1 s ⟨41, hk⟩ = landedJ c (s1A_41 c tb htb i h1) (rowM scA s ⟨41, Nat.le_of_ble_eq_true rfl⟩) fa).trans (landJ_A c s _ _ (N1_lt c tb htb i h1 ⟨41, hk⟩) fa)
theorem L1A_at_42 (htb : ∀ y, (tb y).toNat < 4096) (i : grid0.Coords) (h1 : k0_cond1 i = 1#1) (s : Fin 2) (hk : 42 < 64) :
    L1A c tb fa htb i h1 s ⟨42, hk⟩ = landA c s ⟨42, hk⟩ (N1 c tb i h1 ⟨42, hk⟩) (N1_lt c tb htb i h1 ⟨42, hk⟩) fa :=
  (by unfold L1A; rfl : L1A c tb fa htb i h1 s ⟨42, hk⟩ = landedJ c (s1A_42 c tb htb i h1) (rowM scA s ⟨42, Nat.le_of_ble_eq_true rfl⟩) fa).trans (landJ_A c s _ _ (N1_lt c tb htb i h1 ⟨42, hk⟩) fa)
theorem L1A_at_43 (htb : ∀ y, (tb y).toNat < 4096) (i : grid0.Coords) (h1 : k0_cond1 i = 1#1) (s : Fin 2) (hk : 43 < 64) :
    L1A c tb fa htb i h1 s ⟨43, hk⟩ = landA c s ⟨43, hk⟩ (N1 c tb i h1 ⟨43, hk⟩) (N1_lt c tb htb i h1 ⟨43, hk⟩) fa :=
  (by unfold L1A; rfl : L1A c tb fa htb i h1 s ⟨43, hk⟩ = landedJ c (s1A_43 c tb htb i h1) (rowM scA s ⟨43, Nat.le_of_ble_eq_true rfl⟩) fa).trans (landJ_A c s _ _ (N1_lt c tb htb i h1 ⟨43, hk⟩) fa)
theorem L1A_at_44 (htb : ∀ y, (tb y).toNat < 4096) (i : grid0.Coords) (h1 : k0_cond1 i = 1#1) (s : Fin 2) (hk : 44 < 64) :
    L1A c tb fa htb i h1 s ⟨44, hk⟩ = landA c s ⟨44, hk⟩ (N1 c tb i h1 ⟨44, hk⟩) (N1_lt c tb htb i h1 ⟨44, hk⟩) fa :=
  (by unfold L1A; rfl : L1A c tb fa htb i h1 s ⟨44, hk⟩ = landedJ c (s1A_44 c tb htb i h1) (rowM scA s ⟨44, Nat.le_of_ble_eq_true rfl⟩) fa).trans (landJ_A c s _ _ (N1_lt c tb htb i h1 ⟨44, hk⟩) fa)
theorem L1A_at_45 (htb : ∀ y, (tb y).toNat < 4096) (i : grid0.Coords) (h1 : k0_cond1 i = 1#1) (s : Fin 2) (hk : 45 < 64) :
    L1A c tb fa htb i h1 s ⟨45, hk⟩ = landA c s ⟨45, hk⟩ (N1 c tb i h1 ⟨45, hk⟩) (N1_lt c tb htb i h1 ⟨45, hk⟩) fa :=
  (by unfold L1A; rfl : L1A c tb fa htb i h1 s ⟨45, hk⟩ = landedJ c (s1A_45 c tb htb i h1) (rowM scA s ⟨45, Nat.le_of_ble_eq_true rfl⟩) fa).trans (landJ_A c s _ _ (N1_lt c tb htb i h1 ⟨45, hk⟩) fa)
theorem L1A_at_46 (htb : ∀ y, (tb y).toNat < 4096) (i : grid0.Coords) (h1 : k0_cond1 i = 1#1) (s : Fin 2) (hk : 46 < 64) :
    L1A c tb fa htb i h1 s ⟨46, hk⟩ = landA c s ⟨46, hk⟩ (N1 c tb i h1 ⟨46, hk⟩) (N1_lt c tb htb i h1 ⟨46, hk⟩) fa :=
  (by unfold L1A; rfl : L1A c tb fa htb i h1 s ⟨46, hk⟩ = landedJ c (s1A_46 c tb htb i h1) (rowM scA s ⟨46, Nat.le_of_ble_eq_true rfl⟩) fa).trans (landJ_A c s _ _ (N1_lt c tb htb i h1 ⟨46, hk⟩) fa)
theorem L1A_at_47 (htb : ∀ y, (tb y).toNat < 4096) (i : grid0.Coords) (h1 : k0_cond1 i = 1#1) (s : Fin 2) (hk : 47 < 64) :
    L1A c tb fa htb i h1 s ⟨47, hk⟩ = landA c s ⟨47, hk⟩ (N1 c tb i h1 ⟨47, hk⟩) (N1_lt c tb htb i h1 ⟨47, hk⟩) fa :=
  (by unfold L1A; rfl : L1A c tb fa htb i h1 s ⟨47, hk⟩ = landedJ c (s1A_47 c tb htb i h1) (rowM scA s ⟨47, Nat.le_of_ble_eq_true rfl⟩) fa).trans (landJ_A c s _ _ (N1_lt c tb htb i h1 ⟨47, hk⟩) fa)
theorem L1A_at_48 (htb : ∀ y, (tb y).toNat < 4096) (i : grid0.Coords) (h1 : k0_cond1 i = 1#1) (s : Fin 2) (hk : 48 < 64) :
    L1A c tb fa htb i h1 s ⟨48, hk⟩ = landA c s ⟨48, hk⟩ (N1 c tb i h1 ⟨48, hk⟩) (N1_lt c tb htb i h1 ⟨48, hk⟩) fa :=
  (by unfold L1A; rfl : L1A c tb fa htb i h1 s ⟨48, hk⟩ = landedJ c (s1A_48 c tb htb i h1) (rowM scA s ⟨48, Nat.le_of_ble_eq_true rfl⟩) fa).trans (landJ_A c s _ _ (N1_lt c tb htb i h1 ⟨48, hk⟩) fa)
theorem L1A_at_49 (htb : ∀ y, (tb y).toNat < 4096) (i : grid0.Coords) (h1 : k0_cond1 i = 1#1) (s : Fin 2) (hk : 49 < 64) :
    L1A c tb fa htb i h1 s ⟨49, hk⟩ = landA c s ⟨49, hk⟩ (N1 c tb i h1 ⟨49, hk⟩) (N1_lt c tb htb i h1 ⟨49, hk⟩) fa :=
  (by unfold L1A; rfl : L1A c tb fa htb i h1 s ⟨49, hk⟩ = landedJ c (s1A_49 c tb htb i h1) (rowM scA s ⟨49, Nat.le_of_ble_eq_true rfl⟩) fa).trans (landJ_A c s _ _ (N1_lt c tb htb i h1 ⟨49, hk⟩) fa)
theorem L1A_at_50 (htb : ∀ y, (tb y).toNat < 4096) (i : grid0.Coords) (h1 : k0_cond1 i = 1#1) (s : Fin 2) (hk : 50 < 64) :
    L1A c tb fa htb i h1 s ⟨50, hk⟩ = landA c s ⟨50, hk⟩ (N1 c tb i h1 ⟨50, hk⟩) (N1_lt c tb htb i h1 ⟨50, hk⟩) fa :=
  (by unfold L1A; rfl : L1A c tb fa htb i h1 s ⟨50, hk⟩ = landedJ c (s1A_50 c tb htb i h1) (rowM scA s ⟨50, Nat.le_of_ble_eq_true rfl⟩) fa).trans (landJ_A c s _ _ (N1_lt c tb htb i h1 ⟨50, hk⟩) fa)
theorem L1A_at_51 (htb : ∀ y, (tb y).toNat < 4096) (i : grid0.Coords) (h1 : k0_cond1 i = 1#1) (s : Fin 2) (hk : 51 < 64) :
    L1A c tb fa htb i h1 s ⟨51, hk⟩ = landA c s ⟨51, hk⟩ (N1 c tb i h1 ⟨51, hk⟩) (N1_lt c tb htb i h1 ⟨51, hk⟩) fa :=
  (by unfold L1A; rfl : L1A c tb fa htb i h1 s ⟨51, hk⟩ = landedJ c (s1A_51 c tb htb i h1) (rowM scA s ⟨51, Nat.le_of_ble_eq_true rfl⟩) fa).trans (landJ_A c s _ _ (N1_lt c tb htb i h1 ⟨51, hk⟩) fa)
theorem L1A_at_52 (htb : ∀ y, (tb y).toNat < 4096) (i : grid0.Coords) (h1 : k0_cond1 i = 1#1) (s : Fin 2) (hk : 52 < 64) :
    L1A c tb fa htb i h1 s ⟨52, hk⟩ = landA c s ⟨52, hk⟩ (N1 c tb i h1 ⟨52, hk⟩) (N1_lt c tb htb i h1 ⟨52, hk⟩) fa :=
  (by unfold L1A; rfl : L1A c tb fa htb i h1 s ⟨52, hk⟩ = landedJ c (s1A_52 c tb htb i h1) (rowM scA s ⟨52, Nat.le_of_ble_eq_true rfl⟩) fa).trans (landJ_A c s _ _ (N1_lt c tb htb i h1 ⟨52, hk⟩) fa)
theorem L1A_at_53 (htb : ∀ y, (tb y).toNat < 4096) (i : grid0.Coords) (h1 : k0_cond1 i = 1#1) (s : Fin 2) (hk : 53 < 64) :
    L1A c tb fa htb i h1 s ⟨53, hk⟩ = landA c s ⟨53, hk⟩ (N1 c tb i h1 ⟨53, hk⟩) (N1_lt c tb htb i h1 ⟨53, hk⟩) fa :=
  (by unfold L1A; rfl : L1A c tb fa htb i h1 s ⟨53, hk⟩ = landedJ c (s1A_53 c tb htb i h1) (rowM scA s ⟨53, Nat.le_of_ble_eq_true rfl⟩) fa).trans (landJ_A c s _ _ (N1_lt c tb htb i h1 ⟨53, hk⟩) fa)
theorem L1A_at_54 (htb : ∀ y, (tb y).toNat < 4096) (i : grid0.Coords) (h1 : k0_cond1 i = 1#1) (s : Fin 2) (hk : 54 < 64) :
    L1A c tb fa htb i h1 s ⟨54, hk⟩ = landA c s ⟨54, hk⟩ (N1 c tb i h1 ⟨54, hk⟩) (N1_lt c tb htb i h1 ⟨54, hk⟩) fa :=
  (by unfold L1A; rfl : L1A c tb fa htb i h1 s ⟨54, hk⟩ = landedJ c (s1A_54 c tb htb i h1) (rowM scA s ⟨54, Nat.le_of_ble_eq_true rfl⟩) fa).trans (landJ_A c s _ _ (N1_lt c tb htb i h1 ⟨54, hk⟩) fa)
theorem L1A_at_55 (htb : ∀ y, (tb y).toNat < 4096) (i : grid0.Coords) (h1 : k0_cond1 i = 1#1) (s : Fin 2) (hk : 55 < 64) :
    L1A c tb fa htb i h1 s ⟨55, hk⟩ = landA c s ⟨55, hk⟩ (N1 c tb i h1 ⟨55, hk⟩) (N1_lt c tb htb i h1 ⟨55, hk⟩) fa :=
  (by unfold L1A; rfl : L1A c tb fa htb i h1 s ⟨55, hk⟩ = landedJ c (s1A_55 c tb htb i h1) (rowM scA s ⟨55, Nat.le_of_ble_eq_true rfl⟩) fa).trans (landJ_A c s _ _ (N1_lt c tb htb i h1 ⟨55, hk⟩) fa)
theorem L1A_at_56 (htb : ∀ y, (tb y).toNat < 4096) (i : grid0.Coords) (h1 : k0_cond1 i = 1#1) (s : Fin 2) (hk : 56 < 64) :
    L1A c tb fa htb i h1 s ⟨56, hk⟩ = landA c s ⟨56, hk⟩ (N1 c tb i h1 ⟨56, hk⟩) (N1_lt c tb htb i h1 ⟨56, hk⟩) fa :=
  (by unfold L1A; rfl : L1A c tb fa htb i h1 s ⟨56, hk⟩ = landedJ c (s1A_56 c tb htb i h1) (rowM scA s ⟨56, Nat.le_of_ble_eq_true rfl⟩) fa).trans (landJ_A c s _ _ (N1_lt c tb htb i h1 ⟨56, hk⟩) fa)
theorem L1A_at_57 (htb : ∀ y, (tb y).toNat < 4096) (i : grid0.Coords) (h1 : k0_cond1 i = 1#1) (s : Fin 2) (hk : 57 < 64) :
    L1A c tb fa htb i h1 s ⟨57, hk⟩ = landA c s ⟨57, hk⟩ (N1 c tb i h1 ⟨57, hk⟩) (N1_lt c tb htb i h1 ⟨57, hk⟩) fa :=
  (by unfold L1A; rfl : L1A c tb fa htb i h1 s ⟨57, hk⟩ = landedJ c (s1A_57 c tb htb i h1) (rowM scA s ⟨57, Nat.le_of_ble_eq_true rfl⟩) fa).trans (landJ_A c s _ _ (N1_lt c tb htb i h1 ⟨57, hk⟩) fa)
theorem L1A_at_58 (htb : ∀ y, (tb y).toNat < 4096) (i : grid0.Coords) (h1 : k0_cond1 i = 1#1) (s : Fin 2) (hk : 58 < 64) :
    L1A c tb fa htb i h1 s ⟨58, hk⟩ = landA c s ⟨58, hk⟩ (N1 c tb i h1 ⟨58, hk⟩) (N1_lt c tb htb i h1 ⟨58, hk⟩) fa :=
  (by unfold L1A; rfl : L1A c tb fa htb i h1 s ⟨58, hk⟩ = landedJ c (s1A_58 c tb htb i h1) (rowM scA s ⟨58, Nat.le_of_ble_eq_true rfl⟩) fa).trans (landJ_A c s _ _ (N1_lt c tb htb i h1 ⟨58, hk⟩) fa)
theorem L1A_at_59 (htb : ∀ y, (tb y).toNat < 4096) (i : grid0.Coords) (h1 : k0_cond1 i = 1#1) (s : Fin 2) (hk : 59 < 64) :
    L1A c tb fa htb i h1 s ⟨59, hk⟩ = landA c s ⟨59, hk⟩ (N1 c tb i h1 ⟨59, hk⟩) (N1_lt c tb htb i h1 ⟨59, hk⟩) fa :=
  (by unfold L1A; rfl : L1A c tb fa htb i h1 s ⟨59, hk⟩ = landedJ c (s1A_59 c tb htb i h1) (rowM scA s ⟨59, Nat.le_of_ble_eq_true rfl⟩) fa).trans (landJ_A c s _ _ (N1_lt c tb htb i h1 ⟨59, hk⟩) fa)
theorem L1A_at_60 (htb : ∀ y, (tb y).toNat < 4096) (i : grid0.Coords) (h1 : k0_cond1 i = 1#1) (s : Fin 2) (hk : 60 < 64) :
    L1A c tb fa htb i h1 s ⟨60, hk⟩ = landA c s ⟨60, hk⟩ (N1 c tb i h1 ⟨60, hk⟩) (N1_lt c tb htb i h1 ⟨60, hk⟩) fa :=
  (by unfold L1A; rfl : L1A c tb fa htb i h1 s ⟨60, hk⟩ = landedJ c (s1A_60 c tb htb i h1) (rowM scA s ⟨60, Nat.le_of_ble_eq_true rfl⟩) fa).trans (landJ_A c s _ _ (N1_lt c tb htb i h1 ⟨60, hk⟩) fa)
theorem L1A_at_61 (htb : ∀ y, (tb y).toNat < 4096) (i : grid0.Coords) (h1 : k0_cond1 i = 1#1) (s : Fin 2) (hk : 61 < 64) :
    L1A c tb fa htb i h1 s ⟨61, hk⟩ = landA c s ⟨61, hk⟩ (N1 c tb i h1 ⟨61, hk⟩) (N1_lt c tb htb i h1 ⟨61, hk⟩) fa :=
  (by unfold L1A; rfl : L1A c tb fa htb i h1 s ⟨61, hk⟩ = landedJ c (s1A_61 c tb htb i h1) (rowM scA s ⟨61, Nat.le_of_ble_eq_true rfl⟩) fa).trans (landJ_A c s _ _ (N1_lt c tb htb i h1 ⟨61, hk⟩) fa)
theorem L1A_at_62 (htb : ∀ y, (tb y).toNat < 4096) (i : grid0.Coords) (h1 : k0_cond1 i = 1#1) (s : Fin 2) (hk : 62 < 64) :
    L1A c tb fa htb i h1 s ⟨62, hk⟩ = landA c s ⟨62, hk⟩ (N1 c tb i h1 ⟨62, hk⟩) (N1_lt c tb htb i h1 ⟨62, hk⟩) fa :=
  (by unfold L1A; rfl : L1A c tb fa htb i h1 s ⟨62, hk⟩ = landedJ c (s1A_62 c tb htb i h1) (rowM scA s ⟨62, Nat.le_of_ble_eq_true rfl⟩) fa).trans (landJ_A c s _ _ (N1_lt c tb htb i h1 ⟨62, hk⟩) fa)
theorem L1A_at_63 (htb : ∀ y, (tb y).toNat < 4096) (i : grid0.Coords) (h1 : k0_cond1 i = 1#1) (s : Fin 2) (hk : 63 < 64) :
    L1A c tb fa htb i h1 s ⟨63, hk⟩ = landA c s ⟨63, hk⟩ (N1 c tb i h1 ⟨63, hk⟩) (N1_lt c tb htb i h1 ⟨63, hk⟩) fa :=
  (by unfold L1A; rfl : L1A c tb fa htb i h1 s ⟨63, hk⟩ = landedJ c (s1A_63 c tb htb i h1) (rowM scA s ⟨63, Nat.le_of_ble_eq_true rfl⟩) fa).trans (landJ_A c s _ _ (N1_lt c tb htb i h1 ⟨63, hk⟩) fa)
/-- Each of the 64 landed contents of fetch 1, array A, is the generic landed row at its row number. -/
theorem L1A_at (htb : ∀ y, (tb y).toNat < 4096) (i : grid0.Coords) (h1 : k0_cond1 i = 1#1) (s : Fin 2) : ∀ r : Fin 64, L1A c tb fa htb i h1 s r = landA c s r (N1 c tb i h1 r) (N1_lt c tb htb i h1 r) fa
  | ⟨0, hk⟩ => L1A_at_0 c tb fa htb i h1 s hk
  | ⟨1, hk⟩ => L1A_at_1 c tb fa htb i h1 s hk
  | ⟨2, hk⟩ => L1A_at_2 c tb fa htb i h1 s hk
  | ⟨3, hk⟩ => L1A_at_3 c tb fa htb i h1 s hk
  | ⟨4, hk⟩ => L1A_at_4 c tb fa htb i h1 s hk
  | ⟨5, hk⟩ => L1A_at_5 c tb fa htb i h1 s hk
  | ⟨6, hk⟩ => L1A_at_6 c tb fa htb i h1 s hk
  | ⟨7, hk⟩ => L1A_at_7 c tb fa htb i h1 s hk
  | ⟨8, hk⟩ => L1A_at_8 c tb fa htb i h1 s hk
  | ⟨9, hk⟩ => L1A_at_9 c tb fa htb i h1 s hk
  | ⟨10, hk⟩ => L1A_at_10 c tb fa htb i h1 s hk
  | ⟨11, hk⟩ => L1A_at_11 c tb fa htb i h1 s hk
  | ⟨12, hk⟩ => L1A_at_12 c tb fa htb i h1 s hk
  | ⟨13, hk⟩ => L1A_at_13 c tb fa htb i h1 s hk
  | ⟨14, hk⟩ => L1A_at_14 c tb fa htb i h1 s hk
  | ⟨15, hk⟩ => L1A_at_15 c tb fa htb i h1 s hk
  | ⟨16, hk⟩ => L1A_at_16 c tb fa htb i h1 s hk
  | ⟨17, hk⟩ => L1A_at_17 c tb fa htb i h1 s hk
  | ⟨18, hk⟩ => L1A_at_18 c tb fa htb i h1 s hk
  | ⟨19, hk⟩ => L1A_at_19 c tb fa htb i h1 s hk
  | ⟨20, hk⟩ => L1A_at_20 c tb fa htb i h1 s hk
  | ⟨21, hk⟩ => L1A_at_21 c tb fa htb i h1 s hk
  | ⟨22, hk⟩ => L1A_at_22 c tb fa htb i h1 s hk
  | ⟨23, hk⟩ => L1A_at_23 c tb fa htb i h1 s hk
  | ⟨24, hk⟩ => L1A_at_24 c tb fa htb i h1 s hk
  | ⟨25, hk⟩ => L1A_at_25 c tb fa htb i h1 s hk
  | ⟨26, hk⟩ => L1A_at_26 c tb fa htb i h1 s hk
  | ⟨27, hk⟩ => L1A_at_27 c tb fa htb i h1 s hk
  | ⟨28, hk⟩ => L1A_at_28 c tb fa htb i h1 s hk
  | ⟨29, hk⟩ => L1A_at_29 c tb fa htb i h1 s hk
  | ⟨30, hk⟩ => L1A_at_30 c tb fa htb i h1 s hk
  | ⟨31, hk⟩ => L1A_at_31 c tb fa htb i h1 s hk
  | ⟨32, hk⟩ => L1A_at_32 c tb fa htb i h1 s hk
  | ⟨33, hk⟩ => L1A_at_33 c tb fa htb i h1 s hk
  | ⟨34, hk⟩ => L1A_at_34 c tb fa htb i h1 s hk
  | ⟨35, hk⟩ => L1A_at_35 c tb fa htb i h1 s hk
  | ⟨36, hk⟩ => L1A_at_36 c tb fa htb i h1 s hk
  | ⟨37, hk⟩ => L1A_at_37 c tb fa htb i h1 s hk
  | ⟨38, hk⟩ => L1A_at_38 c tb fa htb i h1 s hk
  | ⟨39, hk⟩ => L1A_at_39 c tb fa htb i h1 s hk
  | ⟨40, hk⟩ => L1A_at_40 c tb fa htb i h1 s hk
  | ⟨41, hk⟩ => L1A_at_41 c tb fa htb i h1 s hk
  | ⟨42, hk⟩ => L1A_at_42 c tb fa htb i h1 s hk
  | ⟨43, hk⟩ => L1A_at_43 c tb fa htb i h1 s hk
  | ⟨44, hk⟩ => L1A_at_44 c tb fa htb i h1 s hk
  | ⟨45, hk⟩ => L1A_at_45 c tb fa htb i h1 s hk
  | ⟨46, hk⟩ => L1A_at_46 c tb fa htb i h1 s hk
  | ⟨47, hk⟩ => L1A_at_47 c tb fa htb i h1 s hk
  | ⟨48, hk⟩ => L1A_at_48 c tb fa htb i h1 s hk
  | ⟨49, hk⟩ => L1A_at_49 c tb fa htb i h1 s hk
  | ⟨50, hk⟩ => L1A_at_50 c tb fa htb i h1 s hk
  | ⟨51, hk⟩ => L1A_at_51 c tb fa htb i h1 s hk
  | ⟨52, hk⟩ => L1A_at_52 c tb fa htb i h1 s hk
  | ⟨53, hk⟩ => L1A_at_53 c tb fa htb i h1 s hk
  | ⟨54, hk⟩ => L1A_at_54 c tb fa htb i h1 s hk
  | ⟨55, hk⟩ => L1A_at_55 c tb fa htb i h1 s hk
  | ⟨56, hk⟩ => L1A_at_56 c tb fa htb i h1 s hk
  | ⟨57, hk⟩ => L1A_at_57 c tb fa htb i h1 s hk
  | ⟨58, hk⟩ => L1A_at_58 c tb fa htb i h1 s hk
  | ⟨59, hk⟩ => L1A_at_59 c tb fa htb i h1 s hk
  | ⟨60, hk⟩ => L1A_at_60 c tb fa htb i h1 s hk
  | ⟨61, hk⟩ => L1A_at_61 c tb fa htb i h1 s hk
  | ⟨62, hk⟩ => L1A_at_62 c tb fa htb i h1 s hk
  | ⟨63, hk⟩ => L1A_at_63 c tb fa htb i h1 s hk
  | ⟨_ + 64, h⟩ => absurd h (Nat.not_lt.2 (Nat.le_add_left _ _))
/-- Slot s of array A's scratch, read whole once the copies of fetch 1 of grid point t have landed, is the gathered rows. -/
theorem read1A (htb : ∀ y, (tb y).toNat < 4096) (t : Fin grid0.N) (h1 : k0_cond1 (grid0.coords t) = 1#1) (hb : t.val < 32) (s : Fin 2) :
    scA.view.readAt (Elt F) (Rect.unit (s := S2x8x64x1024) ![s.val, 0, 0, 0] S1x8x64x1024.size (inb_slot s)).toLoadRect (glue_A c (L1A c tb fa htb (grid0.coords t) h1 s)) = gath fa (rowsOf tb t.val) :=
  (read_landA c s (N1 c tb (grid0.coords t) h1) (N1_lt c tb htb (grid0.coords t) h1) fa (L1A c tb fa htb (grid0.coords t) h1 s) (L1A_at c tb fa htb (grid0.coords t) h1 s)).trans
    (congrArg (gath fa) (funext (rows1_eq c tb htb t h1 hb)))
theorem L1B_at_0 (htb : ∀ y, (tb y).toNat < 4096) (i : grid0.Coords) (h1 : k0_cond1 i = 1#1) (s : Fin 2) (hk : 0 < 64) :
    L1B c tb fb htb i h1 s ⟨0, hk⟩ = landB c s ⟨0, hk⟩ (N1 c tb i h1 ⟨0, hk⟩) (N1_lt c tb htb i h1 ⟨0, hk⟩) fb :=
  (by unfold L1B; rfl : L1B c tb fb htb i h1 s ⟨0, hk⟩ = landedJ c (s1B_0 c tb htb i h1) (rowM scB s ⟨0, Nat.le_of_ble_eq_true rfl⟩) fb).trans (landJ_B c s _ _ (N1_lt c tb htb i h1 ⟨0, hk⟩) fb)
theorem L1B_at_1 (htb : ∀ y, (tb y).toNat < 4096) (i : grid0.Coords) (h1 : k0_cond1 i = 1#1) (s : Fin 2) (hk : 1 < 64) :
    L1B c tb fb htb i h1 s ⟨1, hk⟩ = landB c s ⟨1, hk⟩ (N1 c tb i h1 ⟨1, hk⟩) (N1_lt c tb htb i h1 ⟨1, hk⟩) fb :=
  (by unfold L1B; rfl : L1B c tb fb htb i h1 s ⟨1, hk⟩ = landedJ c (s1B_1 c tb htb i h1) (rowM scB s ⟨1, Nat.le_of_ble_eq_true rfl⟩) fb).trans (landJ_B c s _ _ (N1_lt c tb htb i h1 ⟨1, hk⟩) fb)
theorem L1B_at_2 (htb : ∀ y, (tb y).toNat < 4096) (i : grid0.Coords) (h1 : k0_cond1 i = 1#1) (s : Fin 2) (hk : 2 < 64) :
    L1B c tb fb htb i h1 s ⟨2, hk⟩ = landB c s ⟨2, hk⟩ (N1 c tb i h1 ⟨2, hk⟩) (N1_lt c tb htb i h1 ⟨2, hk⟩) fb :=
  (by unfold L1B; rfl : L1B c tb fb htb i h1 s ⟨2, hk⟩ = landedJ c (s1B_2 c tb htb i h1) (rowM scB s ⟨2, Nat.le_of_ble_eq_true rfl⟩) fb).trans (landJ_B c s _ _ (N1_lt c tb htb i h1 ⟨2, hk⟩) fb)
theorem L1B_at_3 (htb : ∀ y, (tb y).toNat < 4096) (i : grid0.Coords) (h1 : k0_cond1 i = 1#1) (s : Fin 2) (hk : 3 < 64) :
    L1B c tb fb htb i h1 s ⟨3, hk⟩ = landB c s ⟨3, hk⟩ (N1 c tb i h1 ⟨3, hk⟩) (N1_lt c tb htb i h1 ⟨3, hk⟩) fb :=
  (by unfold L1B; rfl : L1B c tb fb htb i h1 s ⟨3, hk⟩ = landedJ c (s1B_3 c tb htb i h1) (rowM scB s ⟨3, Nat.le_of_ble_eq_true rfl⟩) fb).trans (landJ_B c s _ _ (N1_lt c tb htb i h1 ⟨3, hk⟩) fb)
theorem L1B_at_4 (htb : ∀ y, (tb y).toNat < 4096) (i : grid0.Coords) (h1 : k0_cond1 i = 1#1) (s : Fin 2) (hk : 4 < 64) :
    L1B c tb fb htb i h1 s ⟨4, hk⟩ = landB c s ⟨4, hk⟩ (N1 c tb i h1 ⟨4, hk⟩) (N1_lt c tb htb i h1 ⟨4, hk⟩) fb :=
  (by unfold L1B; rfl : L1B c tb fb htb i h1 s ⟨4, hk⟩ = landedJ c (s1B_4 c tb htb i h1) (rowM scB s ⟨4, Nat.le_of_ble_eq_true rfl⟩) fb).trans (landJ_B c s _ _ (N1_lt c tb htb i h1 ⟨4, hk⟩) fb)
theorem L1B_at_5 (htb : ∀ y, (tb y).toNat < 4096) (i : grid0.Coords) (h1 : k0_cond1 i = 1#1) (s : Fin 2) (hk : 5 < 64) :
    L1B c tb fb htb i h1 s ⟨5, hk⟩ = landB c s ⟨5, hk⟩ (N1 c tb i h1 ⟨5, hk⟩) (N1_lt c tb htb i h1 ⟨5, hk⟩) fb :=
  (by unfold L1B; rfl : L1B c tb fb htb i h1 s ⟨5, hk⟩ = landedJ c (s1B_5 c tb htb i h1) (rowM scB s ⟨5, Nat.le_of_ble_eq_true rfl⟩) fb).trans (landJ_B c s _ _ (N1_lt c tb htb i h1 ⟨5, hk⟩) fb)
theorem L1B_at_6 (htb : ∀ y, (tb y).toNat < 4096) (i : grid0.Coords) (h1 : k0_cond1 i = 1#1) (s : Fin 2) (hk : 6 < 64) :
    L1B c tb fb htb i h1 s ⟨6, hk⟩ = landB c s ⟨6, hk⟩ (N1 c tb i h1 ⟨6, hk⟩) (N1_lt c tb htb i h1 ⟨6, hk⟩) fb :=
  (by unfold L1B; rfl : L1B c tb fb htb i h1 s ⟨6, hk⟩ = landedJ c (s1B_6 c tb htb i h1) (rowM scB s ⟨6, Nat.le_of_ble_eq_true rfl⟩) fb).trans (landJ_B c s _ _ (N1_lt c tb htb i h1 ⟨6, hk⟩) fb)
theorem L1B_at_7 (htb : ∀ y, (tb y).toNat < 4096) (i : grid0.Coords) (h1 : k0_cond1 i = 1#1) (s : Fin 2) (hk : 7 < 64) :
    L1B c tb fb htb i h1 s ⟨7, hk⟩ = landB c s ⟨7, hk⟩ (N1 c tb i h1 ⟨7, hk⟩) (N1_lt c tb htb i h1 ⟨7, hk⟩) fb :=
  (by unfold L1B; rfl : L1B c tb fb htb i h1 s ⟨7, hk⟩ = landedJ c (s1B_7 c tb htb i h1) (rowM scB s ⟨7, Nat.le_of_ble_eq_true rfl⟩) fb).trans (landJ_B c s _ _ (N1_lt c tb htb i h1 ⟨7, hk⟩) fb)
theorem L1B_at_8 (htb : ∀ y, (tb y).toNat < 4096) (i : grid0.Coords) (h1 : k0_cond1 i = 1#1) (s : Fin 2) (hk : 8 < 64) :
    L1B c tb fb htb i h1 s ⟨8, hk⟩ = landB c s ⟨8, hk⟩ (N1 c tb i h1 ⟨8, hk⟩) (N1_lt c tb htb i h1 ⟨8, hk⟩) fb :=
  (by unfold L1B; rfl : L1B c tb fb htb i h1 s ⟨8, hk⟩ = landedJ c (s1B_8 c tb htb i h1) (rowM scB s ⟨8, Nat.le_of_ble_eq_true rfl⟩) fb).trans (landJ_B c s _ _ (N1_lt c tb htb i h1 ⟨8, hk⟩) fb)
theorem L1B_at_9 (htb : ∀ y, (tb y).toNat < 4096) (i : grid0.Coords) (h1 : k0_cond1 i = 1#1) (s : Fin 2) (hk : 9 < 64) :
    L1B c tb fb htb i h1 s ⟨9, hk⟩ = landB c s ⟨9, hk⟩ (N1 c tb i h1 ⟨9, hk⟩) (N1_lt c tb htb i h1 ⟨9, hk⟩) fb :=
  (by unfold L1B; rfl : L1B c tb fb htb i h1 s ⟨9, hk⟩ = landedJ c (s1B_9 c tb htb i h1) (rowM scB s ⟨9, Nat.le_of_ble_eq_true rfl⟩) fb).trans (landJ_B c s _ _ (N1_lt c tb htb i h1 ⟨9, hk⟩) fb)
theorem L1B_at_10 (htb : ∀ y, (tb y).toNat < 4096) (i : grid0.Coords) (h1 : k0_cond1 i = 1#1) (s : Fin 2) (hk : 10 < 64) :
    L1B c tb fb htb i h1 s ⟨10, hk⟩ = landB c s ⟨10, hk⟩ (N1 c tb i h1 ⟨10, hk⟩) (N1_lt c tb htb i h1 ⟨10, hk⟩) fb :=
  (by unfold L1B; rfl : L1B c tb fb htb i h1 s ⟨10, hk⟩ = landedJ c (s1B_10 c tb htb i h1) (rowM scB s ⟨10, Nat.le_of_ble_eq_true rfl⟩) fb).trans (landJ_B c s _ _ (N1_lt c tb htb i h1 ⟨10, hk⟩) fb)
theorem L1B_at_11 (htb : ∀ y, (tb y).toNat < 4096) (i : grid0.Coords) (h1 : k0_cond1 i = 1#1) (s : Fin 2) (hk : 11 < 64) :
    L1B c tb fb htb i h1 s ⟨11, hk⟩ = landB c s ⟨11, hk⟩ (N1 c tb i h1 ⟨11, hk⟩) (N1_lt c tb htb i h1 ⟨11, hk⟩) fb :=
  (by unfold L1B; rfl : L1B c tb fb htb i h1 s ⟨11, hk⟩ = landedJ c (s1B_11 c tb htb i h1) (rowM scB s ⟨11, Nat.le_of_ble_eq_true rfl⟩) fb).trans (landJ_B c s _ _ (N1_lt c tb htb i h1 ⟨11, hk⟩) fb)
theorem L1B_at_12 (htb : ∀ y, (tb y).toNat < 4096) (i : grid0.Coords) (h1 : k0_cond1 i = 1#1) (s : Fin 2) (hk : 12 < 64) :
    L1B c tb fb htb i h1 s ⟨12, hk⟩ = landB c s ⟨12, hk⟩ (N1 c tb i h1 ⟨12, hk⟩) (N1_lt c tb htb i h1 ⟨12, hk⟩) fb :=
  (by unfold L1B; rfl : L1B c tb fb htb i h1 s ⟨12, hk⟩ = landedJ c (s1B_12 c tb htb i h1) (rowM scB s ⟨12, Nat.le_of_ble_eq_true rfl⟩) fb).trans (landJ_B c s _ _ (N1_lt c tb htb i h1 ⟨12, hk⟩) fb)
theorem L1B_at_13 (htb : ∀ y, (tb y).toNat < 4096) (i : grid0.Coords) (h1 : k0_cond1 i = 1#1) (s : Fin 2) (hk : 13 < 64) :
    L1B c tb fb htb i h1 s ⟨13, hk⟩ = landB c s ⟨13, hk⟩ (N1 c tb i h1 ⟨13, hk⟩) (N1_lt c tb htb i h1 ⟨13, hk⟩) fb :=
  (by unfold L1B; rfl : L1B c tb fb htb i h1 s ⟨13, hk⟩ = landedJ c (s1B_13 c tb htb i h1) (rowM scB s ⟨13, Nat.le_of_ble_eq_true rfl⟩) fb).trans (landJ_B c s _ _ (N1_lt c tb htb i h1 ⟨13, hk⟩) fb)
theorem L1B_at_14 (htb : ∀ y, (tb y).toNat < 4096) (i : grid0.Coords) (h1 : k0_cond1 i = 1#1) (s : Fin 2) (hk : 14 < 64) :
    L1B c tb fb htb i h1 s ⟨14, hk⟩ = landB c s ⟨14, hk⟩ (N1 c tb i h1 ⟨14, hk⟩) (N1_lt c tb htb i h1 ⟨14, hk⟩) fb :=
  (by unfold L1B; rfl : L1B c tb fb htb i h1 s ⟨14, hk⟩ = landedJ c (s1B_14 c tb htb i h1) (rowM scB s ⟨14, Nat.le_of_ble_eq_true rfl⟩) fb).trans (landJ_B c s _ _ (N1_lt c tb htb i h1 ⟨14, hk⟩) fb)
theorem L1B_at_15 (htb : ∀ y, (tb y).toNat < 4096) (i : grid0.Coords) (h1 : k0_cond1 i = 1#1) (s : Fin 2) (hk : 15 < 64) :
    L1B c tb fb htb i h1 s ⟨15, hk⟩ = landB c s ⟨15, hk⟩ (N1 c tb i h1 ⟨15, hk⟩) (N1_lt c tb htb i h1 ⟨15, hk⟩) fb :=
  (by unfold L1B; rfl : L1B c tb fb htb i h1 s ⟨15, hk⟩ = landedJ c (s1B_15 c tb htb i h1) (rowM scB s ⟨15, Nat.le_of_ble_eq_true rfl⟩) fb).trans (landJ_B c s _ _ (N1_lt c tb htb i h1 ⟨15, hk⟩) fb)
theorem L1B_at_16 (htb : ∀ y, (tb y).toNat < 4096) (i : grid0.Coords) (h1 : k0_cond1 i = 1#1) (s : Fin 2) (hk : 16 < 64) :
    L1B c tb fb htb i h1 s ⟨16, hk⟩ = landB c s ⟨16, hk⟩ (N1 c tb i h1 ⟨16, hk⟩) (N1_lt c tb htb i h1 ⟨16, hk⟩) fb :=
  (by unfold L1B; rfl : L1B c tb fb htb i h1 s ⟨16, hk⟩ = landedJ c (s1B_16 c tb htb i h1) (rowM scB s ⟨16, Nat.le_of_ble_eq_true rfl⟩) fb).trans (landJ_B c s _ _ (N1_lt c tb htb i h1 ⟨16, hk⟩) fb)
theorem L1B_at_17 (htb : ∀ y, (tb y).toNat < 4096) (i : grid0.Coords) (h1 : k0_cond1 i = 1#1) (s : Fin 2) (hk : 17 < 64) :
    L1B c tb fb htb i h1 s ⟨17, hk⟩ = landB c s ⟨17, hk⟩ (N1 c tb i h1 ⟨17, hk⟩) (N1_lt c tb htb i h1 ⟨17, hk⟩) fb :=
  (by unfold L1B; rfl : L1B c tb fb htb i h1 s ⟨17, hk⟩ = landedJ c (s1B_17 c tb htb i h1) (rowM scB s ⟨17, Nat.le_of_ble_eq_true rfl⟩) fb).trans (landJ_B c s _ _ (N1_lt c tb htb i h1 ⟨17, hk⟩) fb)
theorem L1B_at_18 (htb : ∀ y, (tb y).toNat < 4096) (i : grid0.Coords) (h1 : k0_cond1 i = 1#1) (s : Fin 2) (hk : 18 < 64) :
    L1B c tb fb htb i h1 s ⟨18, hk⟩ = landB c s ⟨18, hk⟩ (N1 c tb i h1 ⟨18, hk⟩) (N1_lt c tb htb i h1 ⟨18, hk⟩) fb :=
  (by unfold L1B; rfl : L1B c tb fb htb i h1 s ⟨18, hk⟩ = landedJ c (s1B_18 c tb htb i h1) (rowM scB s ⟨18, Nat.le_of_ble_eq_true rfl⟩) fb).trans (landJ_B c s _ _ (N1_lt c tb htb i h1 ⟨18, hk⟩) fb)
theorem L1B_at_19 (htb : ∀ y, (tb y).toNat < 4096) (i : grid0.Coords) (h1 : k0_cond1 i = 1#1) (s : Fin 2) (hk : 19 < 64) :
    L1B c tb fb htb i h1 s ⟨19, hk⟩ = landB c s ⟨19, hk⟩ (N1 c tb i h1 ⟨19, hk⟩) (N1_lt c tb htb i h1 ⟨19, hk⟩) fb :=
  (by unfold L1B; rfl : L1B c tb fb htb i h1 s ⟨19, hk⟩ = landedJ c (s1B_19 c tb htb i h1) (rowM scB s ⟨19, Nat.le_of_ble_eq_true rfl⟩) fb).trans (landJ_B c s _ _ (N1_lt c tb htb i h1 ⟨19, hk⟩) fb)
theorem L1B_at_20 (htb : ∀ y, (tb y).toNat < 4096) (i : grid0.Coords) (h1 : k0_cond1 i = 1#1) (s : Fin 2) (hk : 20 < 64) :
    L1B c tb fb htb i h1 s ⟨20, hk⟩ = landB c s ⟨20, hk⟩ (N1 c tb i h1 ⟨20, hk⟩) (N1_lt c tb htb i h1 ⟨20, hk⟩) fb :=
  (by unfold L1B; rfl : L1B c tb fb htb i h1 s ⟨20, hk⟩ = landedJ c (s1B_20 c tb htb i h1) (rowM scB s ⟨20, Nat.le_of_ble_eq_true rfl⟩) fb).trans (landJ_B c s _ _ (N1_lt c tb htb i h1 ⟨20, hk⟩) fb)
theorem L1B_at_21 (htb : ∀ y, (tb y).toNat < 4096) (i : grid0.Coords) (h1 : k0_cond1 i = 1#1) (s : Fin 2) (hk : 21 < 64) :
    L1B c tb fb htb i h1 s ⟨21, hk⟩ = landB c s ⟨21, hk⟩ (N1 c tb i h1 ⟨21, hk⟩) (N1_lt c tb htb i h1 ⟨21, hk⟩) fb :=
  (by unfold L1B; rfl : L1B c tb fb htb i h1 s ⟨21, hk⟩ = landedJ c (s1B_21 c tb htb i h1) (rowM scB s ⟨21, Nat.le_of_ble_eq_true rfl⟩) fb).trans (landJ_B c s _ _ (N1_lt c tb htb i h1 ⟨21, hk⟩) fb)
theorem L1B_at_22 (htb : ∀ y, (tb y).toNat < 4096) (i : grid0.Coords) (h1 : k0_cond1 i = 1#1) (s : Fin 2) (hk : 22 < 64) :
    L1B c tb fb htb i h1 s ⟨22, hk⟩ = landB c s ⟨22, hk⟩ (N1 c tb i h1 ⟨22, hk⟩) (N1_lt c tb htb i h1 ⟨22, hk⟩) fb :=
  (by unfold L1B; rfl : L1B c tb fb htb i h1 s ⟨22, hk⟩ = landedJ c (s1B_22 c tb htb i h1) (rowM scB s ⟨22, Nat.le_of_ble_eq_true rfl⟩) fb).trans (landJ_B c s _ _ (N1_lt c tb htb i h1 ⟨22, hk⟩) fb)
theorem L1B_at_23 (htb : ∀ y, (tb y).toNat < 4096) (i : grid0.Coords) (h1 : k0_cond1 i = 1#1) (s : Fin 2) (hk : 23 < 64) :
    L1B c tb fb htb i h1 s ⟨23, hk⟩ = landB c s ⟨23, hk⟩ (N1 c tb i h1 ⟨23, hk⟩) (N1_lt c tb htb i h1 ⟨23, hk⟩) fb :=
  (by unfold L1B; rfl : L1B c tb fb htb i h1 s ⟨23, hk⟩ = landedJ c (s1B_23 c tb htb i h1) (rowM scB s ⟨23, Nat.le_of_ble_eq_true rfl⟩) fb).trans (landJ_B c s _ _ (N1_lt c tb htb i h1 ⟨23, hk⟩) fb)
theorem L1B_at_24 (htb : ∀ y, (tb y).toNat < 4096) (i : grid0.Coords) (h1 : k0_cond1 i = 1#1) (s : Fin 2) (hk : 24 < 64) :
    L1B c tb fb htb i h1 s ⟨24, hk⟩ = landB c s ⟨24, hk⟩ (N1 c tb i h1 ⟨24, hk⟩) (N1_lt c tb htb i h1 ⟨24, hk⟩) fb :=
  (by unfold L1B; rfl : L1B c tb fb htb i h1 s ⟨24, hk⟩ = landedJ c (s1B_24 c tb htb i h1) (rowM scB s ⟨24, Nat.le_of_ble_eq_true rfl⟩) fb).trans (landJ_B c s _ _ (N1_lt c tb htb i h1 ⟨24, hk⟩) fb)
theorem L1B_at_25 (htb : ∀ y, (tb y).toNat < 4096) (i : grid0.Coords) (h1 : k0_cond1 i = 1#1) (s : Fin 2) (hk : 25 < 64) :
    L1B c tb fb htb i h1 s ⟨25, hk⟩ = landB c s ⟨25, hk⟩ (N1 c tb i h1 ⟨25, hk⟩) (N1_lt c tb htb i h1 ⟨25, hk⟩) fb :=
  (by unfold L1B; rfl : L1B c tb fb htb i h1 s ⟨25, hk⟩ = landedJ c (s1B_25 c tb htb i h1) (rowM scB s ⟨25, Nat.le_of_ble_eq_true rfl⟩) fb).trans (landJ_B c s _ _ (N1_lt c tb htb i h1 ⟨25, hk⟩) fb)
theorem L1B_at_26 (htb : ∀ y, (tb y).toNat < 4096) (i : grid0.Coords) (h1 : k0_cond1 i = 1#1) (s : Fin 2) (hk : 26 < 64) :
    L1B c tb fb htb i h1 s ⟨26, hk⟩ = landB c s ⟨26, hk⟩ (N1 c tb i h1 ⟨26, hk⟩) (N1_lt c tb htb i h1 ⟨26, hk⟩) fb :=
  (by unfold L1B; rfl : L1B c tb fb htb i h1 s ⟨26, hk⟩ = landedJ c (s1B_26 c tb htb i h1) (rowM scB s ⟨26, Nat.le_of_ble_eq_true rfl⟩) fb).trans (landJ_B c s _ _ (N1_lt c tb htb i h1 ⟨26, hk⟩) fb)
theorem L1B_at_27 (htb : ∀ y, (tb y).toNat < 4096) (i : grid0.Coords) (h1 : k0_cond1 i = 1#1) (s : Fin 2) (hk : 27 < 64) :
    L1B c tb fb htb i h1 s ⟨27, hk⟩ = landB c s ⟨27, hk⟩ (N1 c tb i h1 ⟨27, hk⟩) (N1_lt c tb htb i h1 ⟨27, hk⟩) fb :=
  (by unfold L1B; rfl : L1B c tb fb htb i h1 s ⟨27, hk⟩ = landedJ c (s1B_27 c tb htb i h1) (rowM scB s ⟨27, Nat.le_of_ble_eq_true rfl⟩) fb).trans (landJ_B c s _ _ (N1_lt c tb htb i h1 ⟨27, hk⟩) fb)
theorem L1B_at_28 (htb : ∀ y, (tb y).toNat < 4096) (i : grid0.Coords) (h1 : k0_cond1 i = 1#1) (s : Fin 2) (hk : 28 < 64) :
    L1B c tb fb htb i h1 s ⟨28, hk⟩ = landB c s ⟨28, hk⟩ (N1 c tb i h1 ⟨28, hk⟩) (N1_lt c tb htb i h1 ⟨28, hk⟩) fb :=
  (by unfold L1B; rfl : L1B c tb fb htb i h1 s ⟨28, hk⟩ = landedJ c (s1B_28 c tb htb i h1) (rowM scB s ⟨28, Nat.le_of_ble_eq_true rfl⟩) fb).trans (landJ_B c s _ _ (N1_lt c tb htb i h1 ⟨28, hk⟩) fb)
theorem L1B_at_29 (htb : ∀ y, (tb y).toNat < 4096) (i : grid0.Coords) (h1 : k0_cond1 i = 1#1) (s : Fin 2) (hk : 29 < 64) :
    L1B c tb fb htb i h1 s ⟨29, hk⟩ = landB c s ⟨29, hk⟩ (N1 c tb i h1 ⟨29, hk⟩) (N1_lt c tb htb i h1 ⟨29, hk⟩) fb :=
  (by unfold L1B; rfl : L1B c tb fb htb i h1 s ⟨29, hk⟩ = landedJ c (s1B_29 c tb htb i h1) (rowM scB s ⟨29, Nat.le_of_ble_eq_true rfl⟩) fb).trans (landJ_B c s _ _ (N1_lt c tb htb i h1 ⟨29, hk⟩) fb)
theorem L1B_at_30 (htb : ∀ y, (tb y).toNat < 4096) (i : grid0.Coords) (h1 : k0_cond1 i = 1#1) (s : Fin 2) (hk : 30 < 64) :
    L1B c tb fb htb i h1 s ⟨30, hk⟩ = landB c s ⟨30, hk⟩ (N1 c tb i h1 ⟨30, hk⟩) (N1_lt c tb htb i h1 ⟨30, hk⟩) fb :=
  (by unfold L1B; rfl : L1B c tb fb htb i h1 s ⟨30, hk⟩ = landedJ c (s1B_30 c tb htb i h1) (rowM scB s ⟨30, Nat.le_of_ble_eq_true rfl⟩) fb).trans (landJ_B c s _ _ (N1_lt c tb htb i h1 ⟨30, hk⟩) fb)
theorem L1B_at_31 (htb : ∀ y, (tb y).toNat < 4096) (i : grid0.Coords) (h1 : k0_cond1 i = 1#1) (s : Fin 2) (hk : 31 < 64) :
    L1B c tb fb htb i h1 s ⟨31, hk⟩ = landB c s ⟨31, hk⟩ (N1 c tb i h1 ⟨31, hk⟩) (N1_lt c tb htb i h1 ⟨31, hk⟩) fb :=
  (by unfold L1B; rfl : L1B c tb fb htb i h1 s ⟨31, hk⟩ = landedJ c (s1B_31 c tb htb i h1) (rowM scB s ⟨31, Nat.le_of_ble_eq_true rfl⟩) fb).trans (landJ_B c s _ _ (N1_lt c tb htb i h1 ⟨31, hk⟩) fb)
theorem L1B_at_32 (htb : ∀ y, (tb y).toNat < 4096) (i : grid0.Coords) (h1 : k0_cond1 i = 1#1) (s : Fin 2) (hk : 32 < 64) :
    L1B c tb fb htb i h1 s ⟨32, hk⟩ = landB c s ⟨32, hk⟩ (N1 c tb i h1 ⟨32, hk⟩) (N1_lt c tb htb i h1 ⟨32, hk⟩) fb :=
  (by unfold L1B; rfl : L1B c tb fb htb i h1 s ⟨32, hk⟩ = landedJ c (s1B_32 c tb htb i h1) (rowM scB s ⟨32, Nat.le_of_ble_eq_true rfl⟩) fb).trans (landJ_B c s _ _ (N1_lt c tb htb i h1 ⟨32, hk⟩) fb)
theorem L1B_at_33 (htb : ∀ y, (tb y).toNat < 4096) (i : grid0.Coords) (h1 : k0_cond1 i = 1#1) (s : Fin 2) (hk : 33 < 64) :
    L1B c tb fb htb i h1 s ⟨33, hk⟩ = landB c s ⟨33, hk⟩ (N1 c tb i h1 ⟨33, hk⟩) (N1_lt c tb htb i h1 ⟨33, hk⟩) fb :=
  (by unfold L1B; rfl : L1B c tb fb htb i h1 s ⟨33, hk⟩ = landedJ c (s1B_33 c tb htb i h1) (rowM scB s ⟨33, Nat.le_of_ble_eq_true rfl⟩) fb).trans (landJ_B c s _ _ (N1_lt c tb htb i h1 ⟨33, hk⟩) fb)
theorem L1B_at_34 (htb : ∀ y, (tb y).toNat < 4096) (i : grid0.Coords) (h1 : k0_cond1 i = 1#1) (s : Fin 2) (hk : 34 < 64) :
    L1B c tb fb htb i h1 s ⟨34, hk⟩ = landB c s ⟨34, hk⟩ (N1 c tb i h1 ⟨34, hk⟩) (N1_lt c tb htb i h1 ⟨34, hk⟩) fb :=
  (by unfold L1B; rfl : L1B c tb fb htb i h1 s ⟨34, hk⟩ = landedJ c (s1B_34 c tb htb i h1) (rowM scB s ⟨34, Nat.le_of_ble_eq_true rfl⟩) fb).trans (landJ_B c s _ _ (N1_lt c tb htb i h1 ⟨34, hk⟩) fb)
theorem L1B_at_35 (htb : ∀ y, (tb y).toNat < 4096) (i : grid0.Coords) (h1 : k0_cond1 i = 1#1) (s : Fin 2) (hk : 35 < 64) :
    L1B c tb fb htb i h1 s ⟨35, hk⟩ = landB c s ⟨35, hk⟩ (N1 c tb i h1 ⟨35, hk⟩) (N1_lt c tb htb i h1 ⟨35, hk⟩) fb :=
  (by unfold L1B; rfl : L1B c tb fb htb i h1 s ⟨35, hk⟩ = landedJ c (s1B_35 c tb htb i h1) (rowM scB s ⟨35, Nat.le_of_ble_eq_true rfl⟩) fb).trans (landJ_B c s _ _ (N1_lt c tb htb i h1 ⟨35, hk⟩) fb)
theorem L1B_at_36 (htb : ∀ y, (tb y).toNat < 4096) (i : grid0.Coords) (h1 : k0_cond1 i = 1#1) (s : Fin 2) (hk : 36 < 64) :
    L1B c tb fb htb i h1 s ⟨36, hk⟩ = landB c s ⟨36, hk⟩ (N1 c tb i h1 ⟨36, hk⟩) (N1_lt c tb htb i h1 ⟨36, hk⟩) fb :=
  (by unfold L1B; rfl : L1B c tb fb htb i h1 s ⟨36, hk⟩ = landedJ c (s1B_36 c tb htb i h1) (rowM scB s ⟨36, Nat.le_of_ble_eq_true rfl⟩) fb).trans (landJ_B c s _ _ (N1_lt c tb htb i h1 ⟨36, hk⟩) fb)
theorem L1B_at_37 (htb : ∀ y, (tb y).toNat < 4096) (i : grid0.Coords) (h1 : k0_cond1 i = 1#1) (s : Fin 2) (hk : 37 < 64) :
    L1B c tb fb htb i h1 s ⟨37, hk⟩ = landB c s ⟨37, hk⟩ (N1 c tb i h1 ⟨37, hk⟩) (N1_lt c tb htb i h1 ⟨37, hk⟩) fb :=
  (by unfold L1B; rfl : L1B c tb fb htb i h1 s ⟨37, hk⟩ = landedJ c (s1B_37 c tb htb i h1) (rowM scB s ⟨37, Nat.le_of_ble_eq_true rfl⟩) fb).trans (landJ_B c s _ _ (N1_lt c tb htb i h1 ⟨37, hk⟩) fb)
theorem L1B_at_38 (htb : ∀ y, (tb y).toNat < 4096) (i : grid0.Coords) (h1 : k0_cond1 i = 1#1) (s : Fin 2) (hk : 38 < 64) :
    L1B c tb fb htb i h1 s ⟨38, hk⟩ = landB c s ⟨38, hk⟩ (N1 c tb i h1 ⟨38, hk⟩) (N1_lt c tb htb i h1 ⟨38, hk⟩) fb :=
  (by unfold L1B; rfl : L1B c tb fb htb i h1 s ⟨38, hk⟩ = landedJ c (s1B_38 c tb htb i h1) (rowM scB s ⟨38, Nat.le_of_ble_eq_true rfl⟩) fb).trans (landJ_B c s _ _ (N1_lt c tb htb i h1 ⟨38, hk⟩) fb)
theorem L1B_at_39 (htb : ∀ y, (tb y).toNat < 4096) (i : grid0.Coords) (h1 : k0_cond1 i = 1#1) (s : Fin 2) (hk : 39 < 64) :
    L1B c tb fb htb i h1 s ⟨39, hk⟩ = landB c s ⟨39, hk⟩ (N1 c tb i h1 ⟨39, hk⟩) (N1_lt c tb htb i h1 ⟨39, hk⟩) fb :=
  (by unfold L1B; rfl : L1B c tb fb htb i h1 s ⟨39, hk⟩ = landedJ c (s1B_39 c tb htb i h1) (rowM scB s ⟨39, Nat.le_of_ble_eq_true rfl⟩) fb).trans (landJ_B c s _ _ (N1_lt c tb htb i h1 ⟨39, hk⟩) fb)
theorem L1B_at_40 (htb : ∀ y, (tb y).toNat < 4096) (i : grid0.Coords) (h1 : k0_cond1 i = 1#1) (s : Fin 2) (hk : 40 < 64) :
    L1B c tb fb htb i h1 s ⟨40, hk⟩ = landB c s ⟨40, hk⟩ (N1 c tb i h1 ⟨40, hk⟩) (N1_lt c tb htb i h1 ⟨40, hk⟩) fb :=
  (by unfold L1B; rfl : L1B c tb fb htb i h1 s ⟨40, hk⟩ = landedJ c (s1B_40 c tb htb i h1) (rowM scB s ⟨40, Nat.le_of_ble_eq_true rfl⟩) fb).trans (landJ_B c s _ _ (N1_lt c tb htb i h1 ⟨40, hk⟩) fb)
theorem L1B_at_41 (htb : ∀ y, (tb y).toNat < 4096) (i : grid0.Coords) (h1 : k0_cond1 i = 1#1) (s : Fin 2) (hk : 41 < 64) :
    L1B c tb fb htb i h1 s ⟨41, hk⟩ = landB c s ⟨41, hk⟩ (N1 c tb i h1 ⟨41, hk⟩) (N1_lt c tb htb i h1 ⟨41, hk⟩) fb :=
  (by unfold L1B; rfl : L1B c tb fb htb i h1 s ⟨41, hk⟩ = landedJ c (s1B_41 c tb htb i h1) (rowM scB s ⟨41, Nat.le_of_ble_eq_true rfl⟩) fb).trans (landJ_B c s _ _ (N1_lt c tb htb i h1 ⟨41, hk⟩) fb)
theorem L1B_at_42 (htb : ∀ y, (tb y).toNat < 4096) (i : grid0.Coords) (h1 : k0_cond1 i = 1#1) (s : Fin 2) (hk : 42 < 64) :
    L1B c tb fb htb i h1 s ⟨42, hk⟩ = landB c s ⟨42, hk⟩ (N1 c tb i h1 ⟨42, hk⟩) (N1_lt c tb htb i h1 ⟨42, hk⟩) fb :=
  (by unfold L1B; rfl : L1B c tb fb htb i h1 s ⟨42, hk⟩ = landedJ c (s1B_42 c tb htb i h1) (rowM scB s ⟨42, Nat.le_of_ble_eq_true rfl⟩) fb).trans (landJ_B c s _ _ (N1_lt c tb htb i h1 ⟨42, hk⟩) fb)
theorem L1B_at_43 (htb : ∀ y, (tb y).toNat < 4096) (i : grid0.Coords) (h1 : k0_cond1 i = 1#1) (s : Fin 2) (hk : 43 < 64) :
    L1B c tb fb htb i h1 s ⟨43, hk⟩ = landB c s ⟨43, hk⟩ (N1 c tb i h1 ⟨43, hk⟩) (N1_lt c tb htb i h1 ⟨43, hk⟩) fb :=
  (by unfold L1B; rfl : L1B c tb fb htb i h1 s ⟨43, hk⟩ = landedJ c (s1B_43 c tb htb i h1) (rowM scB s ⟨43, Nat.le_of_ble_eq_true rfl⟩) fb).trans (landJ_B c s _ _ (N1_lt c tb htb i h1 ⟨43, hk⟩) fb)
theorem L1B_at_44 (htb : ∀ y, (tb y).toNat < 4096) (i : grid0.Coords) (h1 : k0_cond1 i = 1#1) (s : Fin 2) (hk : 44 < 64) :
    L1B c tb fb htb i h1 s ⟨44, hk⟩ = landB c s ⟨44, hk⟩ (N1 c tb i h1 ⟨44, hk⟩) (N1_lt c tb htb i h1 ⟨44, hk⟩) fb :=
  (by unfold L1B; rfl : L1B c tb fb htb i h1 s ⟨44, hk⟩ = landedJ c (s1B_44 c tb htb i h1) (rowM scB s ⟨44, Nat.le_of_ble_eq_true rfl⟩) fb).trans (landJ_B c s _ _ (N1_lt c tb htb i h1 ⟨44, hk⟩) fb)
theorem L1B_at_45 (htb : ∀ y, (tb y).toNat < 4096) (i : grid0.Coords) (h1 : k0_cond1 i = 1#1) (s : Fin 2) (hk : 45 < 64) :
    L1B c tb fb htb i h1 s ⟨45, hk⟩ = landB c s ⟨45, hk⟩ (N1 c tb i h1 ⟨45, hk⟩) (N1_lt c tb htb i h1 ⟨45, hk⟩) fb :=
  (by unfold L1B; rfl : L1B c tb fb htb i h1 s ⟨45, hk⟩ = landedJ c (s1B_45 c tb htb i h1) (rowM scB s ⟨45, Nat.le_of_ble_eq_true rfl⟩) fb).trans (landJ_B c s _ _ (N1_lt c tb htb i h1 ⟨45, hk⟩) fb)
theorem L1B_at_46 (htb : ∀ y, (tb y).toNat < 4096) (i : grid0.Coords) (h1 : k0_cond1 i = 1#1) (s : Fin 2) (hk : 46 < 64) :
    L1B c tb fb htb i h1 s ⟨46, hk⟩ = landB c s ⟨46, hk⟩ (N1 c tb i h1 ⟨46, hk⟩) (N1_lt c tb htb i h1 ⟨46, hk⟩) fb :=
  (by unfold L1B; rfl : L1B c tb fb htb i h1 s ⟨46, hk⟩ = landedJ c (s1B_46 c tb htb i h1) (rowM scB s ⟨46, Nat.le_of_ble_eq_true rfl⟩) fb).trans (landJ_B c s _ _ (N1_lt c tb htb i h1 ⟨46, hk⟩) fb)
theorem L1B_at_47 (htb : ∀ y, (tb y).toNat < 4096) (i : grid0.Coords) (h1 : k0_cond1 i = 1#1) (s : Fin 2) (hk : 47 < 64) :
    L1B c tb fb htb i h1 s ⟨47, hk⟩ = landB c s ⟨47, hk⟩ (N1 c tb i h1 ⟨47, hk⟩) (N1_lt c tb htb i h1 ⟨47, hk⟩) fb :=
  (by unfold L1B; rfl : L1B c tb fb htb i h1 s ⟨47, hk⟩ = landedJ c (s1B_47 c tb htb i h1) (rowM scB s ⟨47, Nat.le_of_ble_eq_true rfl⟩) fb).trans (landJ_B c s _ _ (N1_lt c tb htb i h1 ⟨47, hk⟩) fb)
theorem L1B_at_48 (htb : ∀ y, (tb y).toNat < 4096) (i : grid0.Coords) (h1 : k0_cond1 i = 1#1) (s : Fin 2) (hk : 48 < 64) :
    L1B c tb fb htb i h1 s ⟨48, hk⟩ = landB c s ⟨48, hk⟩ (N1 c tb i h1 ⟨48, hk⟩) (N1_lt c tb htb i h1 ⟨48, hk⟩) fb :=
  (by unfold L1B; rfl : L1B c tb fb htb i h1 s ⟨48, hk⟩ = landedJ c (s1B_48 c tb htb i h1) (rowM scB s ⟨48, Nat.le_of_ble_eq_true rfl⟩) fb).trans (landJ_B c s _ _ (N1_lt c tb htb i h1 ⟨48, hk⟩) fb)
theorem L1B_at_49 (htb : ∀ y, (tb y).toNat < 4096) (i : grid0.Coords) (h1 : k0_cond1 i = 1#1) (s : Fin 2) (hk : 49 < 64) :
    L1B c tb fb htb i h1 s ⟨49, hk⟩ = landB c s ⟨49, hk⟩ (N1 c tb i h1 ⟨49, hk⟩) (N1_lt c tb htb i h1 ⟨49, hk⟩) fb :=
  (by unfold L1B; rfl : L1B c tb fb htb i h1 s ⟨49, hk⟩ = landedJ c (s1B_49 c tb htb i h1) (rowM scB s ⟨49, Nat.le_of_ble_eq_true rfl⟩) fb).trans (landJ_B c s _ _ (N1_lt c tb htb i h1 ⟨49, hk⟩) fb)
theorem L1B_at_50 (htb : ∀ y, (tb y).toNat < 4096) (i : grid0.Coords) (h1 : k0_cond1 i = 1#1) (s : Fin 2) (hk : 50 < 64) :
    L1B c tb fb htb i h1 s ⟨50, hk⟩ = landB c s ⟨50, hk⟩ (N1 c tb i h1 ⟨50, hk⟩) (N1_lt c tb htb i h1 ⟨50, hk⟩) fb :=
  (by unfold L1B; rfl : L1B c tb fb htb i h1 s ⟨50, hk⟩ = landedJ c (s1B_50 c tb htb i h1) (rowM scB s ⟨50, Nat.le_of_ble_eq_true rfl⟩) fb).trans (landJ_B c s _ _ (N1_lt c tb htb i h1 ⟨50, hk⟩) fb)
theorem L1B_at_51 (htb : ∀ y, (tb y).toNat < 4096) (i : grid0.Coords) (h1 : k0_cond1 i = 1#1) (s : Fin 2) (hk : 51 < 64) :
    L1B c tb fb htb i h1 s ⟨51, hk⟩ = landB c s ⟨51, hk⟩ (N1 c tb i h1 ⟨51, hk⟩) (N1_lt c tb htb i h1 ⟨51, hk⟩) fb :=
  (by unfold L1B; rfl : L1B c tb fb htb i h1 s ⟨51, hk⟩ = landedJ c (s1B_51 c tb htb i h1) (rowM scB s ⟨51, Nat.le_of_ble_eq_true rfl⟩) fb).trans (landJ_B c s _ _ (N1_lt c tb htb i h1 ⟨51, hk⟩) fb)
theorem L1B_at_52 (htb : ∀ y, (tb y).toNat < 4096) (i : grid0.Coords) (h1 : k0_cond1 i = 1#1) (s : Fin 2) (hk : 52 < 64) :
    L1B c tb fb htb i h1 s ⟨52, hk⟩ = landB c s ⟨52, hk⟩ (N1 c tb i h1 ⟨52, hk⟩) (N1_lt c tb htb i h1 ⟨52, hk⟩) fb :=
  (by unfold L1B; rfl : L1B c tb fb htb i h1 s ⟨52, hk⟩ = landedJ c (s1B_52 c tb htb i h1) (rowM scB s ⟨52, Nat.le_of_ble_eq_true rfl⟩) fb).trans (landJ_B c s _ _ (N1_lt c tb htb i h1 ⟨52, hk⟩) fb)
theorem L1B_at_53 (htb : ∀ y, (tb y).toNat < 4096) (i : grid0.Coords) (h1 : k0_cond1 i = 1#1) (s : Fin 2) (hk : 53 < 64) :
    L1B c tb fb htb i h1 s ⟨53, hk⟩ = landB c s ⟨53, hk⟩ (N1 c tb i h1 ⟨53, hk⟩) (N1_lt c tb htb i h1 ⟨53, hk⟩) fb :=
  (by unfold L1B; rfl : L1B c tb fb htb i h1 s ⟨53, hk⟩ = landedJ c (s1B_53 c tb htb i h1) (rowM scB s ⟨53, Nat.le_of_ble_eq_true rfl⟩) fb).trans (landJ_B c s _ _ (N1_lt c tb htb i h1 ⟨53, hk⟩) fb)
theorem L1B_at_54 (htb : ∀ y, (tb y).toNat < 4096) (i : grid0.Coords) (h1 : k0_cond1 i = 1#1) (s : Fin 2) (hk : 54 < 64) :
    L1B c tb fb htb i h1 s ⟨54, hk⟩ = landB c s ⟨54, hk⟩ (N1 c tb i h1 ⟨54, hk⟩) (N1_lt c tb htb i h1 ⟨54, hk⟩) fb :=
  (by unfold L1B; rfl : L1B c tb fb htb i h1 s ⟨54, hk⟩ = landedJ c (s1B_54 c tb htb i h1) (rowM scB s ⟨54, Nat.le_of_ble_eq_true rfl⟩) fb).trans (landJ_B c s _ _ (N1_lt c tb htb i h1 ⟨54, hk⟩) fb)
theorem L1B_at_55 (htb : ∀ y, (tb y).toNat < 4096) (i : grid0.Coords) (h1 : k0_cond1 i = 1#1) (s : Fin 2) (hk : 55 < 64) :
    L1B c tb fb htb i h1 s ⟨55, hk⟩ = landB c s ⟨55, hk⟩ (N1 c tb i h1 ⟨55, hk⟩) (N1_lt c tb htb i h1 ⟨55, hk⟩) fb :=
  (by unfold L1B; rfl : L1B c tb fb htb i h1 s ⟨55, hk⟩ = landedJ c (s1B_55 c tb htb i h1) (rowM scB s ⟨55, Nat.le_of_ble_eq_true rfl⟩) fb).trans (landJ_B c s _ _ (N1_lt c tb htb i h1 ⟨55, hk⟩) fb)
theorem L1B_at_56 (htb : ∀ y, (tb y).toNat < 4096) (i : grid0.Coords) (h1 : k0_cond1 i = 1#1) (s : Fin 2) (hk : 56 < 64) :
    L1B c tb fb htb i h1 s ⟨56, hk⟩ = landB c s ⟨56, hk⟩ (N1 c tb i h1 ⟨56, hk⟩) (N1_lt c tb htb i h1 ⟨56, hk⟩) fb :=
  (by unfold L1B; rfl : L1B c tb fb htb i h1 s ⟨56, hk⟩ = landedJ c (s1B_56 c tb htb i h1) (rowM scB s ⟨56, Nat.le_of_ble_eq_true rfl⟩) fb).trans (landJ_B c s _ _ (N1_lt c tb htb i h1 ⟨56, hk⟩) fb)
theorem L1B_at_57 (htb : ∀ y, (tb y).toNat < 4096) (i : grid0.Coords) (h1 : k0_cond1 i = 1#1) (s : Fin 2) (hk : 57 < 64) :
    L1B c tb fb htb i h1 s ⟨57, hk⟩ = landB c s ⟨57, hk⟩ (N1 c tb i h1 ⟨57, hk⟩) (N1_lt c tb htb i h1 ⟨57, hk⟩) fb :=
  (by unfold L1B; rfl : L1B c tb fb htb i h1 s ⟨57, hk⟩ = landedJ c (s1B_57 c tb htb i h1) (rowM scB s ⟨57, Nat.le_of_ble_eq_true rfl⟩) fb).trans (landJ_B c s _ _ (N1_lt c tb htb i h1 ⟨57, hk⟩) fb)
theorem L1B_at_58 (htb : ∀ y, (tb y).toNat < 4096) (i : grid0.Coords) (h1 : k0_cond1 i = 1#1) (s : Fin 2) (hk : 58 < 64) :
    L1B c tb fb htb i h1 s ⟨58, hk⟩ = landB c s ⟨58, hk⟩ (N1 c tb i h1 ⟨58, hk⟩) (N1_lt c tb htb i h1 ⟨58, hk⟩) fb :=
  (by unfold L1B; rfl : L1B c tb fb htb i h1 s ⟨58, hk⟩ = landedJ c (s1B_58 c tb htb i h1) (rowM scB s ⟨58, Nat.le_of_ble_eq_true rfl⟩) fb).trans (landJ_B c s _ _ (N1_lt c tb htb i h1 ⟨58, hk⟩) fb)
theorem L1B_at_59 (htb : ∀ y, (tb y).toNat < 4096) (i : grid0.Coords) (h1 : k0_cond1 i = 1#1) (s : Fin 2) (hk : 59 < 64) :
    L1B c tb fb htb i h1 s ⟨59, hk⟩ = landB c s ⟨59, hk⟩ (N1 c tb i h1 ⟨59, hk⟩) (N1_lt c tb htb i h1 ⟨59, hk⟩) fb :=
  (by unfold L1B; rfl : L1B c tb fb htb i h1 s ⟨59, hk⟩ = landedJ c (s1B_59 c tb htb i h1) (rowM scB s ⟨59, Nat.le_of_ble_eq_true rfl⟩) fb).trans (landJ_B c s _ _ (N1_lt c tb htb i h1 ⟨59, hk⟩) fb)
theorem L1B_at_60 (htb : ∀ y, (tb y).toNat < 4096) (i : grid0.Coords) (h1 : k0_cond1 i = 1#1) (s : Fin 2) (hk : 60 < 64) :
    L1B c tb fb htb i h1 s ⟨60, hk⟩ = landB c s ⟨60, hk⟩ (N1 c tb i h1 ⟨60, hk⟩) (N1_lt c tb htb i h1 ⟨60, hk⟩) fb :=
  (by unfold L1B; rfl : L1B c tb fb htb i h1 s ⟨60, hk⟩ = landedJ c (s1B_60 c tb htb i h1) (rowM scB s ⟨60, Nat.le_of_ble_eq_true rfl⟩) fb).trans (landJ_B c s _ _ (N1_lt c tb htb i h1 ⟨60, hk⟩) fb)
theorem L1B_at_61 (htb : ∀ y, (tb y).toNat < 4096) (i : grid0.Coords) (h1 : k0_cond1 i = 1#1) (s : Fin 2) (hk : 61 < 64) :
    L1B c tb fb htb i h1 s ⟨61, hk⟩ = landB c s ⟨61, hk⟩ (N1 c tb i h1 ⟨61, hk⟩) (N1_lt c tb htb i h1 ⟨61, hk⟩) fb :=
  (by unfold L1B; rfl : L1B c tb fb htb i h1 s ⟨61, hk⟩ = landedJ c (s1B_61 c tb htb i h1) (rowM scB s ⟨61, Nat.le_of_ble_eq_true rfl⟩) fb).trans (landJ_B c s _ _ (N1_lt c tb htb i h1 ⟨61, hk⟩) fb)
theorem L1B_at_62 (htb : ∀ y, (tb y).toNat < 4096) (i : grid0.Coords) (h1 : k0_cond1 i = 1#1) (s : Fin 2) (hk : 62 < 64) :
    L1B c tb fb htb i h1 s ⟨62, hk⟩ = landB c s ⟨62, hk⟩ (N1 c tb i h1 ⟨62, hk⟩) (N1_lt c tb htb i h1 ⟨62, hk⟩) fb :=
  (by unfold L1B; rfl : L1B c tb fb htb i h1 s ⟨62, hk⟩ = landedJ c (s1B_62 c tb htb i h1) (rowM scB s ⟨62, Nat.le_of_ble_eq_true rfl⟩) fb).trans (landJ_B c s _ _ (N1_lt c tb htb i h1 ⟨62, hk⟩) fb)
theorem L1B_at_63 (htb : ∀ y, (tb y).toNat < 4096) (i : grid0.Coords) (h1 : k0_cond1 i = 1#1) (s : Fin 2) (hk : 63 < 64) :
    L1B c tb fb htb i h1 s ⟨63, hk⟩ = landB c s ⟨63, hk⟩ (N1 c tb i h1 ⟨63, hk⟩) (N1_lt c tb htb i h1 ⟨63, hk⟩) fb :=
  (by unfold L1B; rfl : L1B c tb fb htb i h1 s ⟨63, hk⟩ = landedJ c (s1B_63 c tb htb i h1) (rowM scB s ⟨63, Nat.le_of_ble_eq_true rfl⟩) fb).trans (landJ_B c s _ _ (N1_lt c tb htb i h1 ⟨63, hk⟩) fb)
/-- Each of the 64 landed contents of fetch 1, array B, is the generic landed row at its row number. -/
theorem L1B_at (htb : ∀ y, (tb y).toNat < 4096) (i : grid0.Coords) (h1 : k0_cond1 i = 1#1) (s : Fin 2) : ∀ r : Fin 64, L1B c tb fb htb i h1 s r = landB c s r (N1 c tb i h1 r) (N1_lt c tb htb i h1 r) fb
  | ⟨0, hk⟩ => L1B_at_0 c tb fb htb i h1 s hk
  | ⟨1, hk⟩ => L1B_at_1 c tb fb htb i h1 s hk
  | ⟨2, hk⟩ => L1B_at_2 c tb fb htb i h1 s hk
  | ⟨3, hk⟩ => L1B_at_3 c tb fb htb i h1 s hk
  | ⟨4, hk⟩ => L1B_at_4 c tb fb htb i h1 s hk
  | ⟨5, hk⟩ => L1B_at_5 c tb fb htb i h1 s hk
  | ⟨6, hk⟩ => L1B_at_6 c tb fb htb i h1 s hk
  | ⟨7, hk⟩ => L1B_at_7 c tb fb htb i h1 s hk
  | ⟨8, hk⟩ => L1B_at_8 c tb fb htb i h1 s hk
  | ⟨9, hk⟩ => L1B_at_9 c tb fb htb i h1 s hk
  | ⟨10, hk⟩ => L1B_at_10 c tb fb htb i h1 s hk
  | ⟨11, hk⟩ => L1B_at_11 c tb fb htb i h1 s hk
  | ⟨12, hk⟩ => L1B_at_12 c tb fb htb i h1 s hk
  | ⟨13, hk⟩ => L1B_at_13 c tb fb htb i h1 s hk
  | ⟨14, hk⟩ => L1B_at_14 c tb fb htb i h1 s hk
  | ⟨15, hk⟩ => L1B_at_15 c tb fb htb i h1 s hk
  | ⟨16, hk⟩ => L1B_at_16 c tb fb htb i h1 s hk
  | ⟨17, hk⟩ => L1B_at_17 c tb fb htb i h1 s hk
  | ⟨18, hk⟩ => L1B_at_18 c tb fb htb i h1 s hk
  | ⟨19, hk⟩ => L1B_at_19 c tb fb htb i h1 s hk
  | ⟨20, hk⟩ => L1B_at_20 c tb fb htb i h1 s hk
  | ⟨21, hk⟩ => L1B_at_21 c tb fb htb i h1 s hk
  | ⟨22, hk⟩ => L1B_at_22 c tb fb htb i h1 s hk
  | ⟨23, hk⟩ => L1B_at_23 c tb fb htb i h1 s hk
  | ⟨24, hk⟩ => L1B_at_24 c tb fb htb i h1 s hk
  | ⟨25, hk⟩ => L1B_at_25 c tb fb htb i h1 s hk
  | ⟨26, hk⟩ => L1B_at_26 c tb fb htb i h1 s hk
  | ⟨27, hk⟩ => L1B_at_27 c tb fb htb i h1 s hk
  | ⟨28, hk⟩ => L1B_at_28 c tb fb htb i h1 s hk
  | ⟨29, hk⟩ => L1B_at_29 c tb fb htb i h1 s hk
  | ⟨30, hk⟩ => L1B_at_30 c tb fb htb i h1 s hk
  | ⟨31, hk⟩ => L1B_at_31 c tb fb htb i h1 s hk
  | ⟨32, hk⟩ => L1B_at_32 c tb fb htb i h1 s hk
  | ⟨33, hk⟩ => L1B_at_33 c tb fb htb i h1 s hk
  | ⟨34, hk⟩ => L1B_at_34 c tb fb htb i h1 s hk
  | ⟨35, hk⟩ => L1B_at_35 c tb fb htb i h1 s hk
  | ⟨36, hk⟩ => L1B_at_36 c tb fb htb i h1 s hk
  | ⟨37, hk⟩ => L1B_at_37 c tb fb htb i h1 s hk
  | ⟨38, hk⟩ => L1B_at_38 c tb fb htb i h1 s hk
  | ⟨39, hk⟩ => L1B_at_39 c tb fb htb i h1 s hk
  | ⟨40, hk⟩ => L1B_at_40 c tb fb htb i h1 s hk
  | ⟨41, hk⟩ => L1B_at_41 c tb fb htb i h1 s hk
  | ⟨42, hk⟩ => L1B_at_42 c tb fb htb i h1 s hk
  | ⟨43, hk⟩ => L1B_at_43 c tb fb htb i h1 s hk
  | ⟨44, hk⟩ => L1B_at_44 c tb fb htb i h1 s hk
  | ⟨45, hk⟩ => L1B_at_45 c tb fb htb i h1 s hk
  | ⟨46, hk⟩ => L1B_at_46 c tb fb htb i h1 s hk
  | ⟨47, hk⟩ => L1B_at_47 c tb fb htb i h1 s hk
  | ⟨48, hk⟩ => L1B_at_48 c tb fb htb i h1 s hk
  | ⟨49, hk⟩ => L1B_at_49 c tb fb htb i h1 s hk
  | ⟨50, hk⟩ => L1B_at_50 c tb fb htb i h1 s hk
  | ⟨51, hk⟩ => L1B_at_51 c tb fb htb i h1 s hk
  | ⟨52, hk⟩ => L1B_at_52 c tb fb htb i h1 s hk
  | ⟨53, hk⟩ => L1B_at_53 c tb fb htb i h1 s hk
  | ⟨54, hk⟩ => L1B_at_54 c tb fb htb i h1 s hk
  | ⟨55, hk⟩ => L1B_at_55 c tb fb htb i h1 s hk
  | ⟨56, hk⟩ => L1B_at_56 c tb fb htb i h1 s hk
  | ⟨57, hk⟩ => L1B_at_57 c tb fb htb i h1 s hk
  | ⟨58, hk⟩ => L1B_at_58 c tb fb htb i h1 s hk
  | ⟨59, hk⟩ => L1B_at_59 c tb fb htb i h1 s hk
  | ⟨60, hk⟩ => L1B_at_60 c tb fb htb i h1 s hk
  | ⟨61, hk⟩ => L1B_at_61 c tb fb htb i h1 s hk
  | ⟨62, hk⟩ => L1B_at_62 c tb fb htb i h1 s hk
  | ⟨63, hk⟩ => L1B_at_63 c tb fb htb i h1 s hk
  | ⟨_ + 64, h⟩ => absurd h (Nat.not_lt.2 (Nat.le_add_left _ _))
/-- Slot s of array B's scratch, read whole once the copies of fetch 1 of grid point t have landed, is the gathered rows. -/
theorem read1B (htb : ∀ y, (tb y).toNat < 4096) (t : Fin grid0.N) (h1 : k0_cond1 (grid0.coords t) = 1#1) (hb : t.val < 32) (s : Fin 2) :
    scB.view.readAt (Elt F) (Rect.unit (s := S2x8x64x1024) ![s.val, 0, 0, 0] S1x8x64x1024.size (inb_slot s)).toLoadRect (glue_B c (L1B c tb fb htb (grid0.coords t) h1 s)) = gath fb (rowsOf tb t.val) :=
  (read_landB c s (N1 c tb (grid0.coords t) h1) (N1_lt c tb htb (grid0.coords t) h1) fb (L1B c tb fb htb (grid0.coords t) h1 s) (L1B_at c tb fb htb (grid0.coords t) h1 s)).trans
    (congrArg (gath fb) (funext (rows1_eq c tb htb t h1 hb)))
theorem N2_lt (htb : ∀ y, (tb y).toNat < 4096) (i : grid0.Coords) (h2 : k0_cond2 i = 1#1) : ∀ r : Fin 64, N2 c tb i h2 r < 4096
  | ⟨0, _⟩ => word_lt c tb htb _ _
  | ⟨1, _⟩ => word_lt c tb htb _ _
  | ⟨2, _⟩ => word_lt c tb htb _ _
  | ⟨3, _⟩ => word_lt c tb htb _ _
  | ⟨4, _⟩ => word_lt c tb htb _ _
  | ⟨5, _⟩ => word_lt c tb htb _ _
  | ⟨6, _⟩ => word_lt c tb htb _ _
  | ⟨7, _⟩ => word_lt c tb htb _ _
  | ⟨8, _⟩ => word_lt c tb htb _ _
  | ⟨9, _⟩ => word_lt c tb htb _ _
  | ⟨10, _⟩ => word_lt c tb htb _ _
  | ⟨11, _⟩ => word_lt c tb htb _ _
  | ⟨12, _⟩ => word_lt c tb htb _ _
  | ⟨13, _⟩ => word_lt c tb htb _ _
  | ⟨14, _⟩ => word_lt c tb htb _ _
  | ⟨15, _⟩ => word_lt c tb htb _ _
  | ⟨16, _⟩ => word_lt c tb htb _ _
  | ⟨17, _⟩ => word_lt c tb htb _ _
  | ⟨18, _⟩ => word_lt c tb htb _ _
  | ⟨19, _⟩ => word_lt c tb htb _ _
  | ⟨20, _⟩ => word_lt c tb htb _ _
  | ⟨21, _⟩ => word_lt c tb htb _ _
  | ⟨22, _⟩ => word_lt c tb htb _ _
  | ⟨23, _⟩ => word_lt c tb htb _ _
  | ⟨24, _⟩ => word_lt c tb htb _ _
  | ⟨25, _⟩ => word_lt c tb htb _ _
  | ⟨26, _⟩ => word_lt c tb htb _ _
  | ⟨27, _⟩ => word_lt c tb htb _ _
  | ⟨28, _⟩ => word_lt c tb htb _ _
  | ⟨29, _⟩ => word_lt c tb htb _ _
  | ⟨30, _⟩ => word_lt c tb htb _ _
  | ⟨31, _⟩ => word_lt c tb htb _ _
  | ⟨32, _⟩ => word_lt c tb htb _ _
  | ⟨33, _⟩ => word_lt c tb htb _ _
  | ⟨34, _⟩ => word_lt c tb htb _ _
  | ⟨35, _⟩ => word_lt c tb htb _ _
  | ⟨36, _⟩ => word_lt c tb htb _ _
  | ⟨37, _⟩ => word_lt c tb htb _ _
  | ⟨38, _⟩ => word_lt c tb htb _ _
  | ⟨39, _⟩ => word_lt c tb htb _ _
  | ⟨40, _⟩ => word_lt c tb htb _ _
  | ⟨41, _⟩ => word_lt c tb htb _ _
  | ⟨42, _⟩ => word_lt c tb htb _ _
  | ⟨43, _⟩ => word_lt c tb htb _ _
  | ⟨44, _⟩ => word_lt c tb htb _ _
  | ⟨45, _⟩ => word_lt c tb htb _ _
  | ⟨46, _⟩ => word_lt c tb htb _ _
  | ⟨47, _⟩ => word_lt c tb htb _ _
  | ⟨48, _⟩ => word_lt c tb htb _ _
  | ⟨49, _⟩ => word_lt c tb htb _ _
  | ⟨50, _⟩ => word_lt c tb htb _ _
  | ⟨51, _⟩ => word_lt c tb htb _ _
  | ⟨52, _⟩ => word_lt c tb htb _ _
  | ⟨53, _⟩ => word_lt c tb htb _ _
  | ⟨54, _⟩ => word_lt c tb htb _ _
  | ⟨55, _⟩ => word_lt c tb htb _ _
  | ⟨56, _⟩ => word_lt c tb htb _ _
  | ⟨57, _⟩ => word_lt c tb htb _ _
  | ⟨58, _⟩ => word_lt c tb htb _ _
  | ⟨59, _⟩ => word_lt c tb htb _ _
  | ⟨60, _⟩ => word_lt c tb htb _ _
  | ⟨61, _⟩ => word_lt c tb htb _ _
  | ⟨62, _⟩ => word_lt c tb htb _ _
  | ⟨63, _⟩ => word_lt c tb htb _ _
  | ⟨_ + 64, h⟩ => absurd h (Nat.not_lt.2 (Nat.le_add_left _ _))
/-- The rows fetch 2 of grid point t gathers are the table's words at cells 64·(t + 1) + r. -/
theorem rows2_eq (htb : ∀ y, (tb y).toNat < 4096) (t : Fin grid0.N) (h2 : k0_cond2 (grid0.coords t) = 1#1) (hb : (t.val + 1) < 32) : ∀ r : Fin 64, (⟨N2 c tb (grid0.coords t) h2 r, N2_lt c tb htb (grid0.coords t) h2 r⟩ : Fin 4096) = rowsOf tb (t.val + 1) r
  | ⟨0, _⟩ => row_of_cell c tb htb _ _ (t.val + 1) ⟨0, Nat.le_of_ble_eq_true rfl⟩ hb (coff_C2_0 t h2)
  | ⟨1, _⟩ => row_of_cell c tb htb _ _ (t.val + 1) ⟨1, Nat.le_of_ble_eq_true rfl⟩ hb (coff_C2_1 t h2)
  | ⟨2, _⟩ => row_of_cell c tb htb _ _ (t.val + 1) ⟨2, Nat.le_of_ble_eq_true rfl⟩ hb (coff_C2_2 t h2)
  | ⟨3, _⟩ => row_of_cell c tb htb _ _ (t.val + 1) ⟨3, Nat.le_of_ble_eq_true rfl⟩ hb (coff_C2_3 t h2)
  | ⟨4, _⟩ => row_of_cell c tb htb _ _ (t.val + 1) ⟨4, Nat.le_of_ble_eq_true rfl⟩ hb (coff_C2_4 t h2)
  | ⟨5, _⟩ => row_of_cell c tb htb _ _ (t.val + 1) ⟨5, Nat.le_of_ble_eq_true rfl⟩ hb (coff_C2_5 t h2)
  | ⟨6, _⟩ => row_of_cell c tb htb _ _ (t.val + 1) ⟨6, Nat.le_of_ble_eq_true rfl⟩ hb (coff_C2_6 t h2)
  | ⟨7, _⟩ => row_of_cell c tb htb _ _ (t.val + 1) ⟨7, Nat.le_of_ble_eq_true rfl⟩ hb (coff_C2_7 t h2)
  | ⟨8, _⟩ => row_of_cell c tb htb _ _ (t.val + 1) ⟨8, Nat.le_of_ble_eq_true rfl⟩ hb (coff_C2_8 t h2)
  | ⟨9, _⟩ => row_of_cell c tb htb _ _ (t.val + 1) ⟨9, Nat.le_of_ble_eq_true rfl⟩ hb (coff_C2_9 t h2)
  | ⟨10, _⟩ => row_of_cell c tb htb _ _ (t.val + 1) ⟨10, Nat.le_of_ble_eq_true rfl⟩ hb (coff_C2_10 t h2)
  | ⟨11, _⟩ => row_of_cell c tb htb _ _ (t.val + 1) ⟨11, Nat.le_of_ble_eq_true rfl⟩ hb (coff_C2_11 t h2)
  | ⟨12, _⟩ => row_of_cell c tb htb _ _ (t.val + 1) ⟨12, Nat.le_of_ble_eq_true rfl⟩ hb (coff_C2_12 t h2)
  | ⟨13, _⟩ => row_of_cell c tb htb _ _ (t.val + 1) ⟨13, Nat.le_of_ble_eq_true rfl⟩ hb (coff_C2_13 t h2)
  | ⟨14, _⟩ => row_of_cell c tb htb _ _ (t.val + 1) ⟨14, Nat.le_of_ble_eq_true rfl⟩ hb (coff_C2_14 t h2)
  | ⟨15, _⟩ => row_of_cell c tb htb _ _ (t.val + 1) ⟨15, Nat.le_of_ble_eq_true rfl⟩ hb (coff_C2_15 t h2)
  | ⟨16, _⟩ => row_of_cell c tb htb _ _ (t.val + 1) ⟨16, Nat.le_of_ble_eq_true rfl⟩ hb (coff_C2_16 t h2)
  | ⟨17, _⟩ => row_of_cell c tb htb _ _ (t.val + 1) ⟨17, Nat.le_of_ble_eq_true rfl⟩ hb (coff_C2_17 t h2)
  | ⟨18, _⟩ => row_of_cell c tb htb _ _ (t.val + 1) ⟨18, Nat.le_of_ble_eq_true rfl⟩ hb (coff_C2_18 t h2)
  | ⟨19, _⟩ => row_of_cell c tb htb _ _ (t.val + 1) ⟨19, Nat.le_of_ble_eq_true rfl⟩ hb (coff_C2_19 t h2)
  | ⟨20, _⟩ => row_of_cell c tb htb _ _ (t.val + 1) ⟨20, Nat.le_of_ble_eq_true rfl⟩ hb (coff_C2_20 t h2)
  | ⟨21, _⟩ => row_of_cell c tb htb _ _ (t.val + 1) ⟨21, Nat.le_of_ble_eq_true rfl⟩ hb (coff_C2_21 t h2)
  | ⟨22, _⟩ => row_of_cell c tb htb _ _ (t.val + 1) ⟨22, Nat.le_of_ble_eq_true rfl⟩ hb (coff_C2_22 t h2)
  | ⟨23, _⟩ => row_of_cell c tb htb _ _ (t.val + 1) ⟨23, Nat.le_of_ble_eq_true rfl⟩ hb (coff_C2_23 t h2)
  | ⟨24, _⟩ => row_of_cell c tb htb _ _ (t.val + 1) ⟨24, Nat.le_of_ble_eq_true rfl⟩ hb (coff_C2_24 t h2)
  | ⟨25, _⟩ => row_of_cell c tb htb _ _ (t.val + 1) ⟨25, Nat.le_of_ble_eq_true rfl⟩ hb (coff_C2_25 t h2)
  | ⟨26, _⟩ => row_of_cell c tb htb _ _ (t.val + 1) ⟨26, Nat.le_of_ble_eq_true rfl⟩ hb (coff_C2_26 t h2)
  | ⟨27, _⟩ => row_of_cell c tb htb _ _ (t.val + 1) ⟨27, Nat.le_of_ble_eq_true rfl⟩ hb (coff_C2_27 t h2)
  | ⟨28, _⟩ => row_of_cell c tb htb _ _ (t.val + 1) ⟨28, Nat.le_of_ble_eq_true rfl⟩ hb (coff_C2_28 t h2)
  | ⟨29, _⟩ => row_of_cell c tb htb _ _ (t.val + 1) ⟨29, Nat.le_of_ble_eq_true rfl⟩ hb (coff_C2_29 t h2)
  | ⟨30, _⟩ => row_of_cell c tb htb _ _ (t.val + 1) ⟨30, Nat.le_of_ble_eq_true rfl⟩ hb (coff_C2_30 t h2)
  | ⟨31, _⟩ => row_of_cell c tb htb _ _ (t.val + 1) ⟨31, Nat.le_of_ble_eq_true rfl⟩ hb (coff_C2_31 t h2)
  | ⟨32, _⟩ => row_of_cell c tb htb _ _ (t.val + 1) ⟨32, Nat.le_of_ble_eq_true rfl⟩ hb (coff_C2_32 t h2)
  | ⟨33, _⟩ => row_of_cell c tb htb _ _ (t.val + 1) ⟨33, Nat.le_of_ble_eq_true rfl⟩ hb (coff_C2_33 t h2)
  | ⟨34, _⟩ => row_of_cell c tb htb _ _ (t.val + 1) ⟨34, Nat.le_of_ble_eq_true rfl⟩ hb (coff_C2_34 t h2)
  | ⟨35, _⟩ => row_of_cell c tb htb _ _ (t.val + 1) ⟨35, Nat.le_of_ble_eq_true rfl⟩ hb (coff_C2_35 t h2)
  | ⟨36, _⟩ => row_of_cell c tb htb _ _ (t.val + 1) ⟨36, Nat.le_of_ble_eq_true rfl⟩ hb (coff_C2_36 t h2)
  | ⟨37, _⟩ => row_of_cell c tb htb _ _ (t.val + 1) ⟨37, Nat.le_of_ble_eq_true rfl⟩ hb (coff_C2_37 t h2)
  | ⟨38, _⟩ => row_of_cell c tb htb _ _ (t.val + 1) ⟨38, Nat.le_of_ble_eq_true rfl⟩ hb (coff_C2_38 t h2)
  | ⟨39, _⟩ => row_of_cell c tb htb _ _ (t.val + 1) ⟨39, Nat.le_of_ble_eq_true rfl⟩ hb (coff_C2_39 t h2)
  | ⟨40, _⟩ => row_of_cell c tb htb _ _ (t.val + 1) ⟨40, Nat.le_of_ble_eq_true rfl⟩ hb (coff_C2_40 t h2)
  | ⟨41, _⟩ => row_of_cell c tb htb _ _ (t.val + 1) ⟨41, Nat.le_of_ble_eq_true rfl⟩ hb (coff_C2_41 t h2)
  | ⟨42, _⟩ => row_of_cell c tb htb _ _ (t.val + 1) ⟨42, Nat.le_of_ble_eq_true rfl⟩ hb (coff_C2_42 t h2)
  | ⟨43, _⟩ => row_of_cell c tb htb _ _ (t.val + 1) ⟨43, Nat.le_of_ble_eq_true rfl⟩ hb (coff_C2_43 t h2)
  | ⟨44, _⟩ => row_of_cell c tb htb _ _ (t.val + 1) ⟨44, Nat.le_of_ble_eq_true rfl⟩ hb (coff_C2_44 t h2)
  | ⟨45, _⟩ => row_of_cell c tb htb _ _ (t.val + 1) ⟨45, Nat.le_of_ble_eq_true rfl⟩ hb (coff_C2_45 t h2)
  | ⟨46, _⟩ => row_of_cell c tb htb _ _ (t.val + 1) ⟨46, Nat.le_of_ble_eq_true rfl⟩ hb (coff_C2_46 t h2)
  | ⟨47, _⟩ => row_of_cell c tb htb _ _ (t.val + 1) ⟨47, Nat.le_of_ble_eq_true rfl⟩ hb (coff_C2_47 t h2)
  | ⟨48, _⟩ => row_of_cell c tb htb _ _ (t.val + 1) ⟨48, Nat.le_of_ble_eq_true rfl⟩ hb (coff_C2_48 t h2)
  | ⟨49, _⟩ => row_of_cell c tb htb _ _ (t.val + 1) ⟨49, Nat.le_of_ble_eq_true rfl⟩ hb (coff_C2_49 t h2)
  | ⟨50, _⟩ => row_of_cell c tb htb _ _ (t.val + 1) ⟨50, Nat.le_of_ble_eq_true rfl⟩ hb (coff_C2_50 t h2)
  | ⟨51, _⟩ => row_of_cell c tb htb _ _ (t.val + 1) ⟨51, Nat.le_of_ble_eq_true rfl⟩ hb (coff_C2_51 t h2)
  | ⟨52, _⟩ => row_of_cell c tb htb _ _ (t.val + 1) ⟨52, Nat.le_of_ble_eq_true rfl⟩ hb (coff_C2_52 t h2)
  | ⟨53, _⟩ => row_of_cell c tb htb _ _ (t.val + 1) ⟨53, Nat.le_of_ble_eq_true rfl⟩ hb (coff_C2_53 t h2)
  | ⟨54, _⟩ => row_of_cell c tb htb _ _ (t.val + 1) ⟨54, Nat.le_of_ble_eq_true rfl⟩ hb (coff_C2_54 t h2)
  | ⟨55, _⟩ => row_of_cell c tb htb _ _ (t.val + 1) ⟨55, Nat.le_of_ble_eq_true rfl⟩ hb (coff_C2_55 t h2)
  | ⟨56, _⟩ => row_of_cell c tb htb _ _ (t.val + 1) ⟨56, Nat.le_of_ble_eq_true rfl⟩ hb (coff_C2_56 t h2)
  | ⟨57, _⟩ => row_of_cell c tb htb _ _ (t.val + 1) ⟨57, Nat.le_of_ble_eq_true rfl⟩ hb (coff_C2_57 t h2)
  | ⟨58, _⟩ => row_of_cell c tb htb _ _ (t.val + 1) ⟨58, Nat.le_of_ble_eq_true rfl⟩ hb (coff_C2_58 t h2)
  | ⟨59, _⟩ => row_of_cell c tb htb _ _ (t.val + 1) ⟨59, Nat.le_of_ble_eq_true rfl⟩ hb (coff_C2_59 t h2)
  | ⟨60, _⟩ => row_of_cell c tb htb _ _ (t.val + 1) ⟨60, Nat.le_of_ble_eq_true rfl⟩ hb (coff_C2_60 t h2)
  | ⟨61, _⟩ => row_of_cell c tb htb _ _ (t.val + 1) ⟨61, Nat.le_of_ble_eq_true rfl⟩ hb (coff_C2_61 t h2)
  | ⟨62, _⟩ => row_of_cell c tb htb _ _ (t.val + 1) ⟨62, Nat.le_of_ble_eq_true rfl⟩ hb (coff_C2_62 t h2)
  | ⟨63, _⟩ => row_of_cell c tb htb _ _ (t.val + 1) ⟨63, Nat.le_of_ble_eq_true rfl⟩ hb (coff_C2_63 t h2)
  | ⟨_ + 64, h⟩ => absurd h (Nat.not_lt.2 (Nat.le_add_left _ _))
theorem L2A_at_0 (htb : ∀ y, (tb y).toNat < 4096) (i : grid0.Coords) (h2 : k0_cond2 i = 1#1) (s : Fin 2) (hk : 0 < 64) :
    L2A c tb fa htb i h2 s ⟨0, hk⟩ = landA c s ⟨0, hk⟩ (N2 c tb i h2 ⟨0, hk⟩) (N2_lt c tb htb i h2 ⟨0, hk⟩) fa :=
  (by unfold L2A; rfl : L2A c tb fa htb i h2 s ⟨0, hk⟩ = landedJ c (s2A_0 c tb htb i h2) (rowM scA s ⟨0, Nat.le_of_ble_eq_true rfl⟩) fa).trans (landJ_A c s _ _ (N2_lt c tb htb i h2 ⟨0, hk⟩) fa)
theorem L2A_at_1 (htb : ∀ y, (tb y).toNat < 4096) (i : grid0.Coords) (h2 : k0_cond2 i = 1#1) (s : Fin 2) (hk : 1 < 64) :
    L2A c tb fa htb i h2 s ⟨1, hk⟩ = landA c s ⟨1, hk⟩ (N2 c tb i h2 ⟨1, hk⟩) (N2_lt c tb htb i h2 ⟨1, hk⟩) fa :=
  (by unfold L2A; rfl : L2A c tb fa htb i h2 s ⟨1, hk⟩ = landedJ c (s2A_1 c tb htb i h2) (rowM scA s ⟨1, Nat.le_of_ble_eq_true rfl⟩) fa).trans (landJ_A c s _ _ (N2_lt c tb htb i h2 ⟨1, hk⟩) fa)
theorem L2A_at_2 (htb : ∀ y, (tb y).toNat < 4096) (i : grid0.Coords) (h2 : k0_cond2 i = 1#1) (s : Fin 2) (hk : 2 < 64) :
    L2A c tb fa htb i h2 s ⟨2, hk⟩ = landA c s ⟨2, hk⟩ (N2 c tb i h2 ⟨2, hk⟩) (N2_lt c tb htb i h2 ⟨2, hk⟩) fa :=
  (by unfold L2A; rfl : L2A c tb fa htb i h2 s ⟨2, hk⟩ = landedJ c (s2A_2 c tb htb i h2) (rowM scA s ⟨2, Nat.le_of_ble_eq_true rfl⟩) fa).trans (landJ_A c s _ _ (N2_lt c tb htb i h2 ⟨2, hk⟩) fa)
theorem L2A_at_3 (htb : ∀ y, (tb y).toNat < 4096) (i : grid0.Coords) (h2 : k0_cond2 i = 1#1) (s : Fin 2) (hk : 3 < 64) :
    L2A c tb fa htb i h2 s ⟨3, hk⟩ = landA c s ⟨3, hk⟩ (N2 c tb i h2 ⟨3, hk⟩) (N2_lt c tb htb i h2 ⟨3, hk⟩) fa :=
  (by unfold L2A; rfl : L2A c tb fa htb i h2 s ⟨3, hk⟩ = landedJ c (s2A_3 c tb htb i h2) (rowM scA s ⟨3, Nat.le_of_ble_eq_true rfl⟩) fa).trans (landJ_A c s _ _ (N2_lt c tb htb i h2 ⟨3, hk⟩) fa)
theorem L2A_at_4 (htb : ∀ y, (tb y).toNat < 4096) (i : grid0.Coords) (h2 : k0_cond2 i = 1#1) (s : Fin 2) (hk : 4 < 64) :
    L2A c tb fa htb i h2 s ⟨4, hk⟩ = landA c s ⟨4, hk⟩ (N2 c tb i h2 ⟨4, hk⟩) (N2_lt c tb htb i h2 ⟨4, hk⟩) fa :=
  (by unfold L2A; rfl : L2A c tb fa htb i h2 s ⟨4, hk⟩ = landedJ c (s2A_4 c tb htb i h2) (rowM scA s ⟨4, Nat.le_of_ble_eq_true rfl⟩) fa).trans (landJ_A c s _ _ (N2_lt c tb htb i h2 ⟨4, hk⟩) fa)
theorem L2A_at_5 (htb : ∀ y, (tb y).toNat < 4096) (i : grid0.Coords) (h2 : k0_cond2 i = 1#1) (s : Fin 2) (hk : 5 < 64) :
    L2A c tb fa htb i h2 s ⟨5, hk⟩ = landA c s ⟨5, hk⟩ (N2 c tb i h2 ⟨5, hk⟩) (N2_lt c tb htb i h2 ⟨5, hk⟩) fa :=
  (by unfold L2A; rfl : L2A c tb fa htb i h2 s ⟨5, hk⟩ = landedJ c (s2A_5 c tb htb i h2) (rowM scA s ⟨5, Nat.le_of_ble_eq_true rfl⟩) fa).trans (landJ_A c s _ _ (N2_lt c tb htb i h2 ⟨5, hk⟩) fa)
theorem L2A_at_6 (htb : ∀ y, (tb y).toNat < 4096) (i : grid0.Coords) (h2 : k0_cond2 i = 1#1) (s : Fin 2) (hk : 6 < 64) :
    L2A c tb fa htb i h2 s ⟨6, hk⟩ = landA c s ⟨6, hk⟩ (N2 c tb i h2 ⟨6, hk⟩) (N2_lt c tb htb i h2 ⟨6, hk⟩) fa :=
  (by unfold L2A; rfl : L2A c tb fa htb i h2 s ⟨6, hk⟩ = landedJ c (s2A_6 c tb htb i h2) (rowM scA s ⟨6, Nat.le_of_ble_eq_true rfl⟩) fa).trans (landJ_A c s _ _ (N2_lt c tb htb i h2 ⟨6, hk⟩) fa)
theorem L2A_at_7 (htb : ∀ y, (tb y).toNat < 4096) (i : grid0.Coords) (h2 : k0_cond2 i = 1#1) (s : Fin 2) (hk : 7 < 64) :
    L2A c tb fa htb i h2 s ⟨7, hk⟩ = landA c s ⟨7, hk⟩ (N2 c tb i h2 ⟨7, hk⟩) (N2_lt c tb htb i h2 ⟨7, hk⟩) fa :=
  (by unfold L2A; rfl : L2A c tb fa htb i h2 s ⟨7, hk⟩ = landedJ c (s2A_7 c tb htb i h2) (rowM scA s ⟨7, Nat.le_of_ble_eq_true rfl⟩) fa).trans (landJ_A c s _ _ (N2_lt c tb htb i h2 ⟨7, hk⟩) fa)
theorem L2A_at_8 (htb : ∀ y, (tb y).toNat < 4096) (i : grid0.Coords) (h2 : k0_cond2 i = 1#1) (s : Fin 2) (hk : 8 < 64) :
    L2A c tb fa htb i h2 s ⟨8, hk⟩ = landA c s ⟨8, hk⟩ (N2 c tb i h2 ⟨8, hk⟩) (N2_lt c tb htb i h2 ⟨8, hk⟩) fa :=
  (by unfold L2A; rfl : L2A c tb fa htb i h2 s ⟨8, hk⟩ = landedJ c (s2A_8 c tb htb i h2) (rowM scA s ⟨8, Nat.le_of_ble_eq_true rfl⟩) fa).trans (landJ_A c s _ _ (N2_lt c tb htb i h2 ⟨8, hk⟩) fa)
theorem L2A_at_9 (htb : ∀ y, (tb y).toNat < 4096) (i : grid0.Coords) (h2 : k0_cond2 i = 1#1) (s : Fin 2) (hk : 9 < 64) :
    L2A c tb fa htb i h2 s ⟨9, hk⟩ = landA c s ⟨9, hk⟩ (N2 c tb i h2 ⟨9, hk⟩) (N2_lt c tb htb i h2 ⟨9, hk⟩) fa :=
  (by unfold L2A; rfl : L2A c tb fa htb i h2 s ⟨9, hk⟩ = landedJ c (s2A_9 c tb htb i h2) (rowM scA s ⟨9, Nat.le_of_ble_eq_true rfl⟩) fa).trans (landJ_A c s _ _ (N2_lt c tb htb i h2 ⟨9, hk⟩) fa)
theorem L2A_at_10 (htb : ∀ y, (tb y).toNat < 4096) (i : grid0.Coords) (h2 : k0_cond2 i = 1#1) (s : Fin 2) (hk : 10 < 64) :
    L2A c tb fa htb i h2 s ⟨10, hk⟩ = landA c s ⟨10, hk⟩ (N2 c tb i h2 ⟨10, hk⟩) (N2_lt c tb htb i h2 ⟨10, hk⟩) fa :=
  (by unfold L2A; rfl : L2A c tb fa htb i h2 s ⟨10, hk⟩ = landedJ c (s2A_10 c tb htb i h2) (rowM scA s ⟨10, Nat.le_of_ble_eq_true rfl⟩) fa).trans (landJ_A c s _ _ (N2_lt c tb htb i h2 ⟨10, hk⟩) fa)
theorem L2A_at_11 (htb : ∀ y, (tb y).toNat < 4096) (i : grid0.Coords) (h2 : k0_cond2 i = 1#1) (s : Fin 2) (hk : 11 < 64) :
    L2A c tb fa htb i h2 s ⟨11, hk⟩ = landA c s ⟨11, hk⟩ (N2 c tb i h2 ⟨11, hk⟩) (N2_lt c tb htb i h2 ⟨11, hk⟩) fa :=
  (by unfold L2A; rfl : L2A c tb fa htb i h2 s ⟨11, hk⟩ = landedJ c (s2A_11 c tb htb i h2) (rowM scA s ⟨11, Nat.le_of_ble_eq_true rfl⟩) fa).trans (landJ_A c s _ _ (N2_lt c tb htb i h2 ⟨11, hk⟩) fa)
theorem L2A_at_12 (htb : ∀ y, (tb y).toNat < 4096) (i : grid0.Coords) (h2 : k0_cond2 i = 1#1) (s : Fin 2) (hk : 12 < 64) :
    L2A c tb fa htb i h2 s ⟨12, hk⟩ = landA c s ⟨12, hk⟩ (N2 c tb i h2 ⟨12, hk⟩) (N2_lt c tb htb i h2 ⟨12, hk⟩) fa :=
  (by unfold L2A; rfl : L2A c tb fa htb i h2 s ⟨12, hk⟩ = landedJ c (s2A_12 c tb htb i h2) (rowM scA s ⟨12, Nat.le_of_ble_eq_true rfl⟩) fa).trans (landJ_A c s _ _ (N2_lt c tb htb i h2 ⟨12, hk⟩) fa)
theorem L2A_at_13 (htb : ∀ y, (tb y).toNat < 4096) (i : grid0.Coords) (h2 : k0_cond2 i = 1#1) (s : Fin 2) (hk : 13 < 64) :
    L2A c tb fa htb i h2 s ⟨13, hk⟩ = landA c s ⟨13, hk⟩ (N2 c tb i h2 ⟨13, hk⟩) (N2_lt c tb htb i h2 ⟨13, hk⟩) fa :=
  (by unfold L2A; rfl : L2A c tb fa htb i h2 s ⟨13, hk⟩ = landedJ c (s2A_13 c tb htb i h2) (rowM scA s ⟨13, Nat.le_of_ble_eq_true rfl⟩) fa).trans (landJ_A c s _ _ (N2_lt c tb htb i h2 ⟨13, hk⟩) fa)
theorem L2A_at_14 (htb : ∀ y, (tb y).toNat < 4096) (i : grid0.Coords) (h2 : k0_cond2 i = 1#1) (s : Fin 2) (hk : 14 < 64) :
    L2A c tb fa htb i h2 s ⟨14, hk⟩ = landA c s ⟨14, hk⟩ (N2 c tb i h2 ⟨14, hk⟩) (N2_lt c tb htb i h2 ⟨14, hk⟩) fa :=
  (by unfold L2A; rfl : L2A c tb fa htb i h2 s ⟨14, hk⟩ = landedJ c (s2A_14 c tb htb i h2) (rowM scA s ⟨14, Nat.le_of_ble_eq_true rfl⟩) fa).trans (landJ_A c s _ _ (N2_lt c tb htb i h2 ⟨14, hk⟩) fa)
theorem L2A_at_15 (htb : ∀ y, (tb y).toNat < 4096) (i : grid0.Coords) (h2 : k0_cond2 i = 1#1) (s : Fin 2) (hk : 15 < 64) :
    L2A c tb fa htb i h2 s ⟨15, hk⟩ = landA c s ⟨15, hk⟩ (N2 c tb i h2 ⟨15, hk⟩) (N2_lt c tb htb i h2 ⟨15, hk⟩) fa :=
  (by unfold L2A; rfl : L2A c tb fa htb i h2 s ⟨15, hk⟩ = landedJ c (s2A_15 c tb htb i h2) (rowM scA s ⟨15, Nat.le_of_ble_eq_true rfl⟩) fa).trans (landJ_A c s _ _ (N2_lt c tb htb i h2 ⟨15, hk⟩) fa)
theorem L2A_at_16 (htb : ∀ y, (tb y).toNat < 4096) (i : grid0.Coords) (h2 : k0_cond2 i = 1#1) (s : Fin 2) (hk : 16 < 64) :
    L2A c tb fa htb i h2 s ⟨16, hk⟩ = landA c s ⟨16, hk⟩ (N2 c tb i h2 ⟨16, hk⟩) (N2_lt c tb htb i h2 ⟨16, hk⟩) fa :=
  (by unfold L2A; rfl : L2A c tb fa htb i h2 s ⟨16, hk⟩ = landedJ c (s2A_16 c tb htb i h2) (rowM scA s ⟨16, Nat.le_of_ble_eq_true rfl⟩) fa).trans (landJ_A c s _ _ (N2_lt c tb htb i h2 ⟨16, hk⟩) fa)
theorem L2A_at_17 (htb : ∀ y, (tb y).toNat < 4096) (i : grid0.Coords) (h2 : k0_cond2 i = 1#1) (s : Fin 2) (hk : 17 < 64) :
    L2A c tb fa htb i h2 s ⟨17, hk⟩ = landA c s ⟨17, hk⟩ (N2 c tb i h2 ⟨17, hk⟩) (N2_lt c tb htb i h2 ⟨17, hk⟩) fa :=
  (by unfold L2A; rfl : L2A c tb fa htb i h2 s ⟨17, hk⟩ = landedJ c (s2A_17 c tb htb i h2) (rowM scA s ⟨17, Nat.le_of_ble_eq_true rfl⟩) fa).trans (landJ_A c s _ _ (N2_lt c tb htb i h2 ⟨17, hk⟩) fa)
theorem L2A_at_18 (htb : ∀ y, (tb y).toNat < 4096) (i : grid0.Coords) (h2 : k0_cond2 i = 1#1) (s : Fin 2) (hk : 18 < 64) :
    L2A c tb fa htb i h2 s ⟨18, hk⟩ = landA c s ⟨18, hk⟩ (N2 c tb i h2 ⟨18, hk⟩) (N2_lt c tb htb i h2 ⟨18, hk⟩) fa :=
  (by unfold L2A; rfl : L2A c tb fa htb i h2 s ⟨18, hk⟩ = landedJ c (s2A_18 c tb htb i h2) (rowM scA s ⟨18, Nat.le_of_ble_eq_true rfl⟩) fa).trans (landJ_A c s _ _ (N2_lt c tb htb i h2 ⟨18, hk⟩) fa)
theorem L2A_at_19 (htb : ∀ y, (tb y).toNat < 4096) (i : grid0.Coords) (h2 : k0_cond2 i = 1#1) (s : Fin 2) (hk : 19 < 64) :
    L2A c tb fa htb i h2 s ⟨19, hk⟩ = landA c s ⟨19, hk⟩ (N2 c tb i h2 ⟨19, hk⟩) (N2_lt c tb htb i h2 ⟨19, hk⟩) fa :=
  (by unfold L2A; rfl : L2A c tb fa htb i h2 s ⟨19, hk⟩ = landedJ c (s2A_19 c tb htb i h2) (rowM scA s ⟨19, Nat.le_of_ble_eq_true rfl⟩) fa).trans (landJ_A c s _ _ (N2_lt c tb htb i h2 ⟨19, hk⟩) fa)
theorem L2A_at_20 (htb : ∀ y, (tb y).toNat < 4096) (i : grid0.Coords) (h2 : k0_cond2 i = 1#1) (s : Fin 2) (hk : 20 < 64) :
    L2A c tb fa htb i h2 s ⟨20, hk⟩ = landA c s ⟨20, hk⟩ (N2 c tb i h2 ⟨20, hk⟩) (N2_lt c tb htb i h2 ⟨20, hk⟩) fa :=
  (by unfold L2A; rfl : L2A c tb fa htb i h2 s ⟨20, hk⟩ = landedJ c (s2A_20 c tb htb i h2) (rowM scA s ⟨20, Nat.le_of_ble_eq_true rfl⟩) fa).trans (landJ_A c s _ _ (N2_lt c tb htb i h2 ⟨20, hk⟩) fa)
theorem L2A_at_21 (htb : ∀ y, (tb y).toNat < 4096) (i : grid0.Coords) (h2 : k0_cond2 i = 1#1) (s : Fin 2) (hk : 21 < 64) :
    L2A c tb fa htb i h2 s ⟨21, hk⟩ = landA c s ⟨21, hk⟩ (N2 c tb i h2 ⟨21, hk⟩) (N2_lt c tb htb i h2 ⟨21, hk⟩) fa :=
  (by unfold L2A; rfl : L2A c tb fa htb i h2 s ⟨21, hk⟩ = landedJ c (s2A_21 c tb htb i h2) (rowM scA s ⟨21, Nat.le_of_ble_eq_true rfl⟩) fa).trans (landJ_A c s _ _ (N2_lt c tb htb i h2 ⟨21, hk⟩) fa)
theorem L2A_at_22 (htb : ∀ y, (tb y).toNat < 4096) (i : grid0.Coords) (h2 : k0_cond2 i = 1#1) (s : Fin 2) (hk : 22 < 64) :
    L2A c tb fa htb i h2 s ⟨22, hk⟩ = landA c s ⟨22, hk⟩ (N2 c tb i h2 ⟨22, hk⟩) (N2_lt c tb htb i h2 ⟨22, hk⟩) fa :=
  (by unfold L2A; rfl : L2A c tb fa htb i h2 s ⟨22, hk⟩ = landedJ c (s2A_22 c tb htb i h2) (rowM scA s ⟨22, Nat.le_of_ble_eq_true rfl⟩) fa).trans (landJ_A c s _ _ (N2_lt c tb htb i h2 ⟨22, hk⟩) fa)
theorem L2A_at_23 (htb : ∀ y, (tb y).toNat < 4096) (i : grid0.Coords) (h2 : k0_cond2 i = 1#1) (s : Fin 2) (hk : 23 < 64) :
    L2A c tb fa htb i h2 s ⟨23, hk⟩ = landA c s ⟨23, hk⟩ (N2 c tb i h2 ⟨23, hk⟩) (N2_lt c tb htb i h2 ⟨23, hk⟩) fa :=
  (by unfold L2A; rfl : L2A c tb fa htb i h2 s ⟨23, hk⟩ = landedJ c (s2A_23 c tb htb i h2) (rowM scA s ⟨23, Nat.le_of_ble_eq_true rfl⟩) fa).trans (landJ_A c s _ _ (N2_lt c tb htb i h2 ⟨23, hk⟩) fa)
theorem L2A_at_24 (htb : ∀ y, (tb y).toNat < 4096) (i : grid0.Coords) (h2 : k0_cond2 i = 1#1) (s : Fin 2) (hk : 24 < 64) :
    L2A c tb fa htb i h2 s ⟨24, hk⟩ = landA c s ⟨24, hk⟩ (N2 c tb i h2 ⟨24, hk⟩) (N2_lt c tb htb i h2 ⟨24, hk⟩) fa :=
  (by unfold L2A; rfl : L2A c tb fa htb i h2 s ⟨24, hk⟩ = landedJ c (s2A_24 c tb htb i h2) (rowM scA s ⟨24, Nat.le_of_ble_eq_true rfl⟩) fa).trans (landJ_A c s _ _ (N2_lt c tb htb i h2 ⟨24, hk⟩) fa)
theorem L2A_at_25 (htb : ∀ y, (tb y).toNat < 4096) (i : grid0.Coords) (h2 : k0_cond2 i = 1#1) (s : Fin 2) (hk : 25 < 64) :
    L2A c tb fa htb i h2 s ⟨25, hk⟩ = landA c s ⟨25, hk⟩ (N2 c tb i h2 ⟨25, hk⟩) (N2_lt c tb htb i h2 ⟨25, hk⟩) fa :=
  (by unfold L2A; rfl : L2A c tb fa htb i h2 s ⟨25, hk⟩ = landedJ c (s2A_25 c tb htb i h2) (rowM scA s ⟨25, Nat.le_of_ble_eq_true rfl⟩) fa).trans (landJ_A c s _ _ (N2_lt c tb htb i h2 ⟨25, hk⟩) fa)
theorem L2A_at_26 (htb : ∀ y, (tb y).toNat < 4096) (i : grid0.Coords) (h2 : k0_cond2 i = 1#1) (s : Fin 2) (hk : 26 < 64) :
    L2A c tb fa htb i h2 s ⟨26, hk⟩ = landA c s ⟨26, hk⟩ (N2 c tb i h2 ⟨26, hk⟩) (N2_lt c tb htb i h2 ⟨26, hk⟩) fa :=
  (by unfold L2A; rfl : L2A c tb fa htb i h2 s ⟨26, hk⟩ = landedJ c (s2A_26 c tb htb i h2) (rowM scA s ⟨26, Nat.le_of_ble_eq_true rfl⟩) fa).trans (landJ_A c s _ _ (N2_lt c tb htb i h2 ⟨26, hk⟩) fa)
theorem L2A_at_27 (htb : ∀ y, (tb y).toNat < 4096) (i : grid0.Coords) (h2 : k0_cond2 i = 1#1) (s : Fin 2) (hk : 27 < 64) :
    L2A c tb fa htb i h2 s ⟨27, hk⟩ = landA c s ⟨27, hk⟩ (N2 c tb i h2 ⟨27, hk⟩) (N2_lt c tb htb i h2 ⟨27, hk⟩) fa :=
  (by unfold L2A; rfl : L2A c tb fa htb i h2 s ⟨27, hk⟩ = landedJ c (s2A_27 c tb htb i h2) (rowM scA s ⟨27, Nat.le_of_ble_eq_true rfl⟩) fa).trans (landJ_A c s _ _ (N2_lt c tb htb i h2 ⟨27, hk⟩) fa)
theorem L2A_at_28 (htb : ∀ y, (tb y).toNat < 4096) (i : grid0.Coords) (h2 : k0_cond2 i = 1#1) (s : Fin 2) (hk : 28 < 64) :
    L2A c tb fa htb i h2 s ⟨28, hk⟩ = landA c s ⟨28, hk⟩ (N2 c tb i h2 ⟨28, hk⟩) (N2_lt c tb htb i h2 ⟨28, hk⟩) fa :=
  (by unfold L2A; rfl : L2A c tb fa htb i h2 s ⟨28, hk⟩ = landedJ c (s2A_28 c tb htb i h2) (rowM scA s ⟨28, Nat.le_of_ble_eq_true rfl⟩) fa).trans (landJ_A c s _ _ (N2_lt c tb htb i h2 ⟨28, hk⟩) fa)
theorem L2A_at_29 (htb : ∀ y, (tb y).toNat < 4096) (i : grid0.Coords) (h2 : k0_cond2 i = 1#1) (s : Fin 2) (hk : 29 < 64) :
    L2A c tb fa htb i h2 s ⟨29, hk⟩ = landA c s ⟨29, hk⟩ (N2 c tb i h2 ⟨29, hk⟩) (N2_lt c tb htb i h2 ⟨29, hk⟩) fa :=
  (by unfold L2A; rfl : L2A c tb fa htb i h2 s ⟨29, hk⟩ = landedJ c (s2A_29 c tb htb i h2) (rowM scA s ⟨29, Nat.le_of_ble_eq_true rfl⟩) fa).trans (landJ_A c s _ _ (N2_lt c tb htb i h2 ⟨29, hk⟩) fa)
theorem L2A_at_30 (htb : ∀ y, (tb y).toNat < 4096) (i : grid0.Coords) (h2 : k0_cond2 i = 1#1) (s : Fin 2) (hk : 30 < 64) :
    L2A c tb fa htb i h2 s ⟨30, hk⟩ = landA c s ⟨30, hk⟩ (N2 c tb i h2 ⟨30, hk⟩) (N2_lt c tb htb i h2 ⟨30, hk⟩) fa :=
  (by unfold L2A; rfl : L2A c tb fa htb i h2 s ⟨30, hk⟩ = landedJ c (s2A_30 c tb htb i h2) (rowM scA s ⟨30, Nat.le_of_ble_eq_true rfl⟩) fa).trans (landJ_A c s _ _ (N2_lt c tb htb i h2 ⟨30, hk⟩) fa)
theorem L2A_at_31 (htb : ∀ y, (tb y).toNat < 4096) (i : grid0.Coords) (h2 : k0_cond2 i = 1#1) (s : Fin 2) (hk : 31 < 64) :
    L2A c tb fa htb i h2 s ⟨31, hk⟩ = landA c s ⟨31, hk⟩ (N2 c tb i h2 ⟨31, hk⟩) (N2_lt c tb htb i h2 ⟨31, hk⟩) fa :=
  (by unfold L2A; rfl : L2A c tb fa htb i h2 s ⟨31, hk⟩ = landedJ c (s2A_31 c tb htb i h2) (rowM scA s ⟨31, Nat.le_of_ble_eq_true rfl⟩) fa).trans (landJ_A c s _ _ (N2_lt c tb htb i h2 ⟨31, hk⟩) fa)
theorem L2A_at_32 (htb : ∀ y, (tb y).toNat < 4096) (i : grid0.Coords) (h2 : k0_cond2 i = 1#1) (s : Fin 2) (hk : 32 < 64) :
    L2A c tb fa htb i h2 s ⟨32, hk⟩ = landA c s ⟨32, hk⟩ (N2 c tb i h2 ⟨32, hk⟩) (N2_lt c tb htb i h2 ⟨32, hk⟩) fa :=
  (by unfold L2A; rfl : L2A c tb fa htb i h2 s ⟨32, hk⟩ = landedJ c (s2A_32 c tb htb i h2) (rowM scA s ⟨32, Nat.le_of_ble_eq_true rfl⟩) fa).trans (landJ_A c s _ _ (N2_lt c tb htb i h2 ⟨32, hk⟩) fa)
theorem L2A_at_33 (htb : ∀ y, (tb y).toNat < 4096) (i : grid0.Coords) (h2 : k0_cond2 i = 1#1) (s : Fin 2) (hk : 33 < 64) :
    L2A c tb fa htb i h2 s ⟨33, hk⟩ = landA c s ⟨33, hk⟩ (N2 c tb i h2 ⟨33, hk⟩) (N2_lt c tb htb i h2 ⟨33, hk⟩) fa :=
  (by unfold L2A; rfl : L2A c tb fa htb i h2 s ⟨33, hk⟩ = landedJ c (s2A_33 c tb htb i h2) (rowM scA s ⟨33, Nat.le_of_ble_eq_true rfl⟩) fa).trans (landJ_A c s _ _ (N2_lt c tb htb i h2 ⟨33, hk⟩) fa)
theorem L2A_at_34 (htb : ∀ y, (tb y).toNat < 4096) (i : grid0.Coords) (h2 : k0_cond2 i = 1#1) (s : Fin 2) (hk : 34 < 64) :
    L2A c tb fa htb i h2 s ⟨34, hk⟩ = landA c s ⟨34, hk⟩ (N2 c tb i h2 ⟨34, hk⟩) (N2_lt c tb htb i h2 ⟨34, hk⟩) fa :=
  (by unfold L2A; rfl : L2A c tb fa htb i h2 s ⟨34, hk⟩ = landedJ c (s2A_34 c tb htb i h2) (rowM scA s ⟨34, Nat.le_of_ble_eq_true rfl⟩) fa).trans (landJ_A c s _ _ (N2_lt c tb htb i h2 ⟨34, hk⟩) fa)
theorem L2A_at_35 (htb : ∀ y, (tb y).toNat < 4096) (i : grid0.Coords) (h2 : k0_cond2 i = 1#1) (s : Fin 2) (hk : 35 < 64) :
    L2A c tb fa htb i h2 s ⟨35, hk⟩ = landA c s ⟨35, hk⟩ (N2 c tb i h2 ⟨35, hk⟩) (N2_lt c tb htb i h2 ⟨35, hk⟩) fa :=
  (by unfold L2A; rfl : L2A c tb fa htb i h2 s ⟨35, hk⟩ = landedJ c (s2A_35 c tb htb i h2) (rowM scA s ⟨35, Nat.le_of_ble_eq_true rfl⟩) fa).trans (landJ_A c s _ _ (N2_lt c tb htb i h2 ⟨35, hk⟩) fa)
theorem L2A_at_36 (htb : ∀ y, (tb y).toNat < 4096) (i : grid0.Coords) (h2 : k0_cond2 i = 1#1) (s : Fin 2) (hk : 36 < 64) :
    L2A c tb fa htb i h2 s ⟨36, hk⟩ = landA c s ⟨36, hk⟩ (N2 c tb i h2 ⟨36, hk⟩) (N2_lt c tb htb i h2 ⟨36, hk⟩) fa :=
  (by unfold L2A; rfl : L2A c tb fa htb i h2 s ⟨36, hk⟩ = landedJ c (s2A_36 c tb htb i h2) (rowM scA s ⟨36, Nat.le_of_ble_eq_true rfl⟩) fa).trans (landJ_A c s _ _ (N2_lt c tb htb i h2 ⟨36, hk⟩) fa)
theorem L2A_at_37 (htb : ∀ y, (tb y).toNat < 4096) (i : grid0.Coords) (h2 : k0_cond2 i = 1#1) (s : Fin 2) (hk : 37 < 64) :
    L2A c tb fa htb i h2 s ⟨37, hk⟩ = landA c s ⟨37, hk⟩ (N2 c tb i h2 ⟨37, hk⟩) (N2_lt c tb htb i h2 ⟨37, hk⟩) fa :=
  (by unfold L2A; rfl : L2A c tb fa htb i h2 s ⟨37, hk⟩ = landedJ c (s2A_37 c tb htb i h2) (rowM scA s ⟨37, Nat.le_of_ble_eq_true rfl⟩) fa).trans (landJ_A c s _ _ (N2_lt c tb htb i h2 ⟨37, hk⟩) fa)
theorem L2A_at_38 (htb : ∀ y, (tb y).toNat < 4096) (i : grid0.Coords) (h2 : k0_cond2 i = 1#1) (s : Fin 2) (hk : 38 < 64) :
    L2A c tb fa htb i h2 s ⟨38, hk⟩ = landA c s ⟨38, hk⟩ (N2 c tb i h2 ⟨38, hk⟩) (N2_lt c tb htb i h2 ⟨38, hk⟩) fa :=
  (by unfold L2A; rfl : L2A c tb fa htb i h2 s ⟨38, hk⟩ = landedJ c (s2A_38 c tb htb i h2) (rowM scA s ⟨38, Nat.le_of_ble_eq_true rfl⟩) fa).trans (landJ_A c s _ _ (N2_lt c tb htb i h2 ⟨38, hk⟩) fa)
theorem L2A_at_39 (htb : ∀ y, (tb y).toNat < 4096) (i : grid0.Coords) (h2 : k0_cond2 i = 1#1) (s : Fin 2) (hk : 39 < 64) :
    L2A c tb fa htb i h2 s ⟨39, hk⟩ = landA c s ⟨39, hk⟩ (N2 c tb i h2 ⟨39, hk⟩) (N2_lt c tb htb i h2 ⟨39, hk⟩) fa :=
  (by unfold L2A; rfl : L2A c tb fa htb i h2 s ⟨39, hk⟩ = landedJ c (s2A_39 c tb htb i h2) (rowM scA s ⟨39, Nat.le_of_ble_eq_true rfl⟩) fa).trans (landJ_A c s _ _ (N2_lt c tb htb i h2 ⟨39, hk⟩) fa)
theorem L2A_at_40 (htb : ∀ y, (tb y).toNat < 4096) (i : grid0.Coords) (h2 : k0_cond2 i = 1#1) (s : Fin 2) (hk : 40 < 64) :
    L2A c tb fa htb i h2 s ⟨40, hk⟩ = landA c s ⟨40, hk⟩ (N2 c tb i h2 ⟨40, hk⟩) (N2_lt c tb htb i h2 ⟨40, hk⟩) fa :=
  (by unfold L2A; rfl : L2A c tb fa htb i h2 s ⟨40, hk⟩ = landedJ c (s2A_40 c tb htb i h2) (rowM scA s ⟨40, Nat.le_of_ble_eq_true rfl⟩) fa).trans (landJ_A c s _ _ (N2_lt c tb htb i h2 ⟨40, hk⟩) fa)
theorem L2A_at_41 (htb : ∀ y, (tb y).toNat < 4096) (i : grid0.Coords) (h2 : k0_cond2 i = 1#1) (s : Fin 2) (hk : 41 < 64) :
    L2A c tb fa htb i h2 s ⟨41, hk⟩ = landA c s ⟨41, hk⟩ (N2 c tb i h2 ⟨41, hk⟩) (N2_lt c tb htb i h2 ⟨41, hk⟩) fa :=
  (by unfold L2A; rfl : L2A c tb fa htb i h2 s ⟨41, hk⟩ = landedJ c (s2A_41 c tb htb i h2) (rowM scA s ⟨41, Nat.le_of_ble_eq_true rfl⟩) fa).trans (landJ_A c s _ _ (N2_lt c tb htb i h2 ⟨41, hk⟩) fa)
theorem L2A_at_42 (htb : ∀ y, (tb y).toNat < 4096) (i : grid0.Coords) (h2 : k0_cond2 i = 1#1) (s : Fin 2) (hk : 42 < 64) :
    L2A c tb fa htb i h2 s ⟨42, hk⟩ = landA c s ⟨42, hk⟩ (N2 c tb i h2 ⟨42, hk⟩) (N2_lt c tb htb i h2 ⟨42, hk⟩) fa :=
  (by unfold L2A; rfl : L2A c tb fa htb i h2 s ⟨42, hk⟩ = landedJ c (s2A_42 c tb htb i h2) (rowM scA s ⟨42, Nat.le_of_ble_eq_true rfl⟩) fa).trans (landJ_A c s _ _ (N2_lt c tb htb i h2 ⟨42, hk⟩) fa)
theorem L2A_at_43 (htb : ∀ y, (tb y).toNat < 4096) (i : grid0.Coords) (h2 : k0_cond2 i = 1#1) (s : Fin 2) (hk : 43 < 64) :
    L2A c tb fa htb i h2 s ⟨43, hk⟩ = landA c s ⟨43, hk⟩ (N2 c tb i h2 ⟨43, hk⟩) (N2_lt c tb htb i h2 ⟨43, hk⟩) fa :=
  (by unfold L2A; rfl : L2A c tb fa htb i h2 s ⟨43, hk⟩ = landedJ c (s2A_43 c tb htb i h2) (rowM scA s ⟨43, Nat.le_of_ble_eq_true rfl⟩) fa).trans (landJ_A c s _ _ (N2_lt c tb htb i h2 ⟨43, hk⟩) fa)
theorem L2A_at_44 (htb : ∀ y, (tb y).toNat < 4096) (i : grid0.Coords) (h2 : k0_cond2 i = 1#1) (s : Fin 2) (hk : 44 < 64) :
    L2A c tb fa htb i h2 s ⟨44, hk⟩ = landA c s ⟨44, hk⟩ (N2 c tb i h2 ⟨44, hk⟩) (N2_lt c tb htb i h2 ⟨44, hk⟩) fa :=
  (by unfold L2A; rfl : L2A c tb fa htb i h2 s ⟨44, hk⟩ = landedJ c (s2A_44 c tb htb i h2) (rowM scA s ⟨44, Nat.le_of_ble_eq_true rfl⟩) fa).trans (landJ_A c s _ _ (N2_lt c tb htb i h2 ⟨44, hk⟩) fa)
theorem L2A_at_45 (htb : ∀ y, (tb y).toNat < 4096) (i : grid0.Coords) (h2 : k0_cond2 i = 1#1) (s : Fin 2) (hk : 45 < 64) :
    L2A c tb fa htb i h2 s ⟨45, hk⟩ = landA c s ⟨45, hk⟩ (N2 c tb i h2 ⟨45, hk⟩) (N2_lt c tb htb i h2 ⟨45, hk⟩) fa :=
  (by unfold L2A; rfl : L2A c tb fa htb i h2 s ⟨45, hk⟩ = landedJ c (s2A_45 c tb htb i h2) (rowM scA s ⟨45, Nat.le_of_ble_eq_true rfl⟩) fa).trans (landJ_A c s _ _ (N2_lt c tb htb i h2 ⟨45, hk⟩) fa)
theorem L2A_at_46 (htb : ∀ y, (tb y).toNat < 4096) (i : grid0.Coords) (h2 : k0_cond2 i = 1#1) (s : Fin 2) (hk : 46 < 64) :
    L2A c tb fa htb i h2 s ⟨46, hk⟩ = landA c s ⟨46, hk⟩ (N2 c tb i h2 ⟨46, hk⟩) (N2_lt c tb htb i h2 ⟨46, hk⟩) fa :=
  (by unfold L2A; rfl : L2A c tb fa htb i h2 s ⟨46, hk⟩ = landedJ c (s2A_46 c tb htb i h2) (rowM scA s ⟨46, Nat.le_of_ble_eq_true rfl⟩) fa).trans (landJ_A c s _ _ (N2_lt c tb htb i h2 ⟨46, hk⟩) fa)
theorem L2A_at_47 (htb : ∀ y, (tb y).toNat < 4096) (i : grid0.Coords) (h2 : k0_cond2 i = 1#1) (s : Fin 2) (hk : 47 < 64) :
    L2A c tb fa htb i h2 s ⟨47, hk⟩ = landA c s ⟨47, hk⟩ (N2 c tb i h2 ⟨47, hk⟩) (N2_lt c tb htb i h2 ⟨47, hk⟩) fa :=
  (by unfold L2A; rfl : L2A c tb fa htb i h2 s ⟨47, hk⟩ = landedJ c (s2A_47 c tb htb i h2) (rowM scA s ⟨47, Nat.le_of_ble_eq_true rfl⟩) fa).trans (landJ_A c s _ _ (N2_lt c tb htb i h2 ⟨47, hk⟩) fa)
theorem L2A_at_48 (htb : ∀ y, (tb y).toNat < 4096) (i : grid0.Coords) (h2 : k0_cond2 i = 1#1) (s : Fin 2) (hk : 48 < 64) :
    L2A c tb fa htb i h2 s ⟨48, hk⟩ = landA c s ⟨48, hk⟩ (N2 c tb i h2 ⟨48, hk⟩) (N2_lt c tb htb i h2 ⟨48, hk⟩) fa :=
  (by unfold L2A; rfl : L2A c tb fa htb i h2 s ⟨48, hk⟩ = landedJ c (s2A_48 c tb htb i h2) (rowM scA s ⟨48, Nat.le_of_ble_eq_true rfl⟩) fa).trans (landJ_A c s _ _ (N2_lt c tb htb i h2 ⟨48, hk⟩) fa)
theorem L2A_at_49 (htb : ∀ y, (tb y).toNat < 4096) (i : grid0.Coords) (h2 : k0_cond2 i = 1#1) (s : Fin 2) (hk : 49 < 64) :
    L2A c tb fa htb i h2 s ⟨49, hk⟩ = landA c s ⟨49, hk⟩ (N2 c tb i h2 ⟨49, hk⟩) (N2_lt c tb htb i h2 ⟨49, hk⟩) fa :=
  (by unfold L2A; rfl : L2A c tb fa htb i h2 s ⟨49, hk⟩ = landedJ c (s2A_49 c tb htb i h2) (rowM scA s ⟨49, Nat.le_of_ble_eq_true rfl⟩) fa).trans (landJ_A c s _ _ (N2_lt c tb htb i h2 ⟨49, hk⟩) fa)
theorem L2A_at_50 (htb : ∀ y, (tb y).toNat < 4096) (i : grid0.Coords) (h2 : k0_cond2 i = 1#1) (s : Fin 2) (hk : 50 < 64) :
    L2A c tb fa htb i h2 s ⟨50, hk⟩ = landA c s ⟨50, hk⟩ (N2 c tb i h2 ⟨50, hk⟩) (N2_lt c tb htb i h2 ⟨50, hk⟩) fa :=
  (by unfold L2A; rfl : L2A c tb fa htb i h2 s ⟨50, hk⟩ = landedJ c (s2A_50 c tb htb i h2) (rowM scA s ⟨50, Nat.le_of_ble_eq_true rfl⟩) fa).trans (landJ_A c s _ _ (N2_lt c tb htb i h2 ⟨50, hk⟩) fa)
theorem L2A_at_51 (htb : ∀ y, (tb y).toNat < 4096) (i : grid0.Coords) (h2 : k0_cond2 i = 1#1) (s : Fin 2) (hk : 51 < 64) :
    L2A c tb fa htb i h2 s ⟨51, hk⟩ = landA c s ⟨51, hk⟩ (N2 c tb i h2 ⟨51, hk⟩) (N2_lt c tb htb i h2 ⟨51, hk⟩) fa :=
  (by unfold L2A; rfl : L2A c tb fa htb i h2 s ⟨51, hk⟩ = landedJ c (s2A_51 c tb htb i h2) (rowM scA s ⟨51, Nat.le_of_ble_eq_true rfl⟩) fa).trans (landJ_A c s _ _ (N2_lt c tb htb i h2 ⟨51, hk⟩) fa)
theorem L2A_at_52 (htb : ∀ y, (tb y).toNat < 4096) (i : grid0.Coords) (h2 : k0_cond2 i = 1#1) (s : Fin 2) (hk : 52 < 64) :
    L2A c tb fa htb i h2 s ⟨52, hk⟩ = landA c s ⟨52, hk⟩ (N2 c tb i h2 ⟨52, hk⟩) (N2_lt c tb htb i h2 ⟨52, hk⟩) fa :=
  (by unfold L2A; rfl : L2A c tb fa htb i h2 s ⟨52, hk⟩ = landedJ c (s2A_52 c tb htb i h2) (rowM scA s ⟨52, Nat.le_of_ble_eq_true rfl⟩) fa).trans (landJ_A c s _ _ (N2_lt c tb htb i h2 ⟨52, hk⟩) fa)
theorem L2A_at_53 (htb : ∀ y, (tb y).toNat < 4096) (i : grid0.Coords) (h2 : k0_cond2 i = 1#1) (s : Fin 2) (hk : 53 < 64) :
    L2A c tb fa htb i h2 s ⟨53, hk⟩ = landA c s ⟨53, hk⟩ (N2 c tb i h2 ⟨53, hk⟩) (N2_lt c tb htb i h2 ⟨53, hk⟩) fa :=
  (by unfold L2A; rfl : L2A c tb fa htb i h2 s ⟨53, hk⟩ = landedJ c (s2A_53 c tb htb i h2) (rowM scA s ⟨53, Nat.le_of_ble_eq_true rfl⟩) fa).trans (landJ_A c s _ _ (N2_lt c tb htb i h2 ⟨53, hk⟩) fa)
theorem L2A_at_54 (htb : ∀ y, (tb y).toNat < 4096) (i : grid0.Coords) (h2 : k0_cond2 i = 1#1) (s : Fin 2) (hk : 54 < 64) :
    L2A c tb fa htb i h2 s ⟨54, hk⟩ = landA c s ⟨54, hk⟩ (N2 c tb i h2 ⟨54, hk⟩) (N2_lt c tb htb i h2 ⟨54, hk⟩) fa :=
  (by unfold L2A; rfl : L2A c tb fa htb i h2 s ⟨54, hk⟩ = landedJ c (s2A_54 c tb htb i h2) (rowM scA s ⟨54, Nat.le_of_ble_eq_true rfl⟩) fa).trans (landJ_A c s _ _ (N2_lt c tb htb i h2 ⟨54, hk⟩) fa)
theorem L2A_at_55 (htb : ∀ y, (tb y).toNat < 4096) (i : grid0.Coords) (h2 : k0_cond2 i = 1#1) (s : Fin 2) (hk : 55 < 64) :
    L2A c tb fa htb i h2 s ⟨55, hk⟩ = landA c s ⟨55, hk⟩ (N2 c tb i h2 ⟨55, hk⟩) (N2_lt c tb htb i h2 ⟨55, hk⟩) fa :=
  (by unfold L2A; rfl : L2A c tb fa htb i h2 s ⟨55, hk⟩ = landedJ c (s2A_55 c tb htb i h2) (rowM scA s ⟨55, Nat.le_of_ble_eq_true rfl⟩) fa).trans (landJ_A c s _ _ (N2_lt c tb htb i h2 ⟨55, hk⟩) fa)
theorem L2A_at_56 (htb : ∀ y, (tb y).toNat < 4096) (i : grid0.Coords) (h2 : k0_cond2 i = 1#1) (s : Fin 2) (hk : 56 < 64) :
    L2A c tb fa htb i h2 s ⟨56, hk⟩ = landA c s ⟨56, hk⟩ (N2 c tb i h2 ⟨56, hk⟩) (N2_lt c tb htb i h2 ⟨56, hk⟩) fa :=
  (by unfold L2A; rfl : L2A c tb fa htb i h2 s ⟨56, hk⟩ = landedJ c (s2A_56 c tb htb i h2) (rowM scA s ⟨56, Nat.le_of_ble_eq_true rfl⟩) fa).trans (landJ_A c s _ _ (N2_lt c tb htb i h2 ⟨56, hk⟩) fa)
theorem L2A_at_57 (htb : ∀ y, (tb y).toNat < 4096) (i : grid0.Coords) (h2 : k0_cond2 i = 1#1) (s : Fin 2) (hk : 57 < 64) :
    L2A c tb fa htb i h2 s ⟨57, hk⟩ = landA c s ⟨57, hk⟩ (N2 c tb i h2 ⟨57, hk⟩) (N2_lt c tb htb i h2 ⟨57, hk⟩) fa :=
  (by unfold L2A; rfl : L2A c tb fa htb i h2 s ⟨57, hk⟩ = landedJ c (s2A_57 c tb htb i h2) (rowM scA s ⟨57, Nat.le_of_ble_eq_true rfl⟩) fa).trans (landJ_A c s _ _ (N2_lt c tb htb i h2 ⟨57, hk⟩) fa)
theorem L2A_at_58 (htb : ∀ y, (tb y).toNat < 4096) (i : grid0.Coords) (h2 : k0_cond2 i = 1#1) (s : Fin 2) (hk : 58 < 64) :
    L2A c tb fa htb i h2 s ⟨58, hk⟩ = landA c s ⟨58, hk⟩ (N2 c tb i h2 ⟨58, hk⟩) (N2_lt c tb htb i h2 ⟨58, hk⟩) fa :=
  (by unfold L2A; rfl : L2A c tb fa htb i h2 s ⟨58, hk⟩ = landedJ c (s2A_58 c tb htb i h2) (rowM scA s ⟨58, Nat.le_of_ble_eq_true rfl⟩) fa).trans (landJ_A c s _ _ (N2_lt c tb htb i h2 ⟨58, hk⟩) fa)
theorem L2A_at_59 (htb : ∀ y, (tb y).toNat < 4096) (i : grid0.Coords) (h2 : k0_cond2 i = 1#1) (s : Fin 2) (hk : 59 < 64) :
    L2A c tb fa htb i h2 s ⟨59, hk⟩ = landA c s ⟨59, hk⟩ (N2 c tb i h2 ⟨59, hk⟩) (N2_lt c tb htb i h2 ⟨59, hk⟩) fa :=
  (by unfold L2A; rfl : L2A c tb fa htb i h2 s ⟨59, hk⟩ = landedJ c (s2A_59 c tb htb i h2) (rowM scA s ⟨59, Nat.le_of_ble_eq_true rfl⟩) fa).trans (landJ_A c s _ _ (N2_lt c tb htb i h2 ⟨59, hk⟩) fa)
theorem L2A_at_60 (htb : ∀ y, (tb y).toNat < 4096) (i : grid0.Coords) (h2 : k0_cond2 i = 1#1) (s : Fin 2) (hk : 60 < 64) :
    L2A c tb fa htb i h2 s ⟨60, hk⟩ = landA c s ⟨60, hk⟩ (N2 c tb i h2 ⟨60, hk⟩) (N2_lt c tb htb i h2 ⟨60, hk⟩) fa :=
  (by unfold L2A; rfl : L2A c tb fa htb i h2 s ⟨60, hk⟩ = landedJ c (s2A_60 c tb htb i h2) (rowM scA s ⟨60, Nat.le_of_ble_eq_true rfl⟩) fa).trans (landJ_A c s _ _ (N2_lt c tb htb i h2 ⟨60, hk⟩) fa)
theorem L2A_at_61 (htb : ∀ y, (tb y).toNat < 4096) (i : grid0.Coords) (h2 : k0_cond2 i = 1#1) (s : Fin 2) (hk : 61 < 64) :
    L2A c tb fa htb i h2 s ⟨61, hk⟩ = landA c s ⟨61, hk⟩ (N2 c tb i h2 ⟨61, hk⟩) (N2_lt c tb htb i h2 ⟨61, hk⟩) fa :=
  (by unfold L2A; rfl : L2A c tb fa htb i h2 s ⟨61, hk⟩ = landedJ c (s2A_61 c tb htb i h2) (rowM scA s ⟨61, Nat.le_of_ble_eq_true rfl⟩) fa).trans (landJ_A c s _ _ (N2_lt c tb htb i h2 ⟨61, hk⟩) fa)
theorem L2A_at_62 (htb : ∀ y, (tb y).toNat < 4096) (i : grid0.Coords) (h2 : k0_cond2 i = 1#1) (s : Fin 2) (hk : 62 < 64) :
    L2A c tb fa htb i h2 s ⟨62, hk⟩ = landA c s ⟨62, hk⟩ (N2 c tb i h2 ⟨62, hk⟩) (N2_lt c tb htb i h2 ⟨62, hk⟩) fa :=
  (by unfold L2A; rfl : L2A c tb fa htb i h2 s ⟨62, hk⟩ = landedJ c (s2A_62 c tb htb i h2) (rowM scA s ⟨62, Nat.le_of_ble_eq_true rfl⟩) fa).trans (landJ_A c s _ _ (N2_lt c tb htb i h2 ⟨62, hk⟩) fa)
theorem L2A_at_63 (htb : ∀ y, (tb y).toNat < 4096) (i : grid0.Coords) (h2 : k0_cond2 i = 1#1) (s : Fin 2) (hk : 63 < 64) :
    L2A c tb fa htb i h2 s ⟨63, hk⟩ = landA c s ⟨63, hk⟩ (N2 c tb i h2 ⟨63, hk⟩) (N2_lt c tb htb i h2 ⟨63, hk⟩) fa :=
  (by unfold L2A; rfl : L2A c tb fa htb i h2 s ⟨63, hk⟩ = landedJ c (s2A_63 c tb htb i h2) (rowM scA s ⟨63, Nat.le_of_ble_eq_true rfl⟩) fa).trans (landJ_A c s _ _ (N2_lt c tb htb i h2 ⟨63, hk⟩) fa)
/-- Each of the 64 landed contents of fetch 2, array A, is the generic landed row at its row number. -/
theorem L2A_at (htb : ∀ y, (tb y).toNat < 4096) (i : grid0.Coords) (h2 : k0_cond2 i = 1#1) (s : Fin 2) : ∀ r : Fin 64, L2A c tb fa htb i h2 s r = landA c s r (N2 c tb i h2 r) (N2_lt c tb htb i h2 r) fa
  | ⟨0, hk⟩ => L2A_at_0 c tb fa htb i h2 s hk
  | ⟨1, hk⟩ => L2A_at_1 c tb fa htb i h2 s hk
  | ⟨2, hk⟩ => L2A_at_2 c tb fa htb i h2 s hk
  | ⟨3, hk⟩ => L2A_at_3 c tb fa htb i h2 s hk
  | ⟨4, hk⟩ => L2A_at_4 c tb fa htb i h2 s hk
  | ⟨5, hk⟩ => L2A_at_5 c tb fa htb i h2 s hk
  | ⟨6, hk⟩ => L2A_at_6 c tb fa htb i h2 s hk
  | ⟨7, hk⟩ => L2A_at_7 c tb fa htb i h2 s hk
  | ⟨8, hk⟩ => L2A_at_8 c tb fa htb i h2 s hk
  | ⟨9, hk⟩ => L2A_at_9 c tb fa htb i h2 s hk
  | ⟨10, hk⟩ => L2A_at_10 c tb fa htb i h2 s hk
  | ⟨11, hk⟩ => L2A_at_11 c tb fa htb i h2 s hk
  | ⟨12, hk⟩ => L2A_at_12 c tb fa htb i h2 s hk
  | ⟨13, hk⟩ => L2A_at_13 c tb fa htb i h2 s hk
  | ⟨14, hk⟩ => L2A_at_14 c tb fa htb i h2 s hk
  | ⟨15, hk⟩ => L2A_at_15 c tb fa htb i h2 s hk
  | ⟨16, hk⟩ => L2A_at_16 c tb fa htb i h2 s hk
  | ⟨17, hk⟩ => L2A_at_17 c tb fa htb i h2 s hk
  | ⟨18, hk⟩ => L2A_at_18 c tb fa htb i h2 s hk
  | ⟨19, hk⟩ => L2A_at_19 c tb fa htb i h2 s hk
  | ⟨20, hk⟩ => L2A_at_20 c tb fa htb i h2 s hk
  | ⟨21, hk⟩ => L2A_at_21 c tb fa htb i h2 s hk
  | ⟨22, hk⟩ => L2A_at_22 c tb fa htb i h2 s hk
  | ⟨23, hk⟩ => L2A_at_23 c tb fa htb i h2 s hk
  | ⟨24, hk⟩ => L2A_at_24 c tb fa htb i h2 s hk
  | ⟨25, hk⟩ => L2A_at_25 c tb fa htb i h2 s hk
  | ⟨26, hk⟩ => L2A_at_26 c tb fa htb i h2 s hk
  | ⟨27, hk⟩ => L2A_at_27 c tb fa htb i h2 s hk
  | ⟨28, hk⟩ => L2A_at_28 c tb fa htb i h2 s hk
  | ⟨29, hk⟩ => L2A_at_29 c tb fa htb i h2 s hk
  | ⟨30, hk⟩ => L2A_at_30 c tb fa htb i h2 s hk
  | ⟨31, hk⟩ => L2A_at_31 c tb fa htb i h2 s hk
  | ⟨32, hk⟩ => L2A_at_32 c tb fa htb i h2 s hk
  | ⟨33, hk⟩ => L2A_at_33 c tb fa htb i h2 s hk
  | ⟨34, hk⟩ => L2A_at_34 c tb fa htb i h2 s hk
  | ⟨35, hk⟩ => L2A_at_35 c tb fa htb i h2 s hk
  | ⟨36, hk⟩ => L2A_at_36 c tb fa htb i h2 s hk
  | ⟨37, hk⟩ => L2A_at_37 c tb fa htb i h2 s hk
  | ⟨38, hk⟩ => L2A_at_38 c tb fa htb i h2 s hk
  | ⟨39, hk⟩ => L2A_at_39 c tb fa htb i h2 s hk
  | ⟨40, hk⟩ => L2A_at_40 c tb fa htb i h2 s hk
  | ⟨41, hk⟩ => L2A_at_41 c tb fa htb i h2 s hk
  | ⟨42, hk⟩ => L2A_at_42 c tb fa htb i h2 s hk
  | ⟨43, hk⟩ => L2A_at_43 c tb fa htb i h2 s hk
  | ⟨44, hk⟩ => L2A_at_44 c tb fa htb i h2 s hk
  | ⟨45, hk⟩ => L2A_at_45 c tb fa htb i h2 s hk
  | ⟨46, hk⟩ => L2A_at_46 c tb fa htb i h2 s hk
  | ⟨47, hk⟩ => L2A_at_47 c tb fa htb i h2 s hk
  | ⟨48, hk⟩ => L2A_at_48 c tb fa htb i h2 s hk
  | ⟨49, hk⟩ => L2A_at_49 c tb fa htb i h2 s hk
  | ⟨50, hk⟩ => L2A_at_50 c tb fa htb i h2 s hk
  | ⟨51, hk⟩ => L2A_at_51 c tb fa htb i h2 s hk
  | ⟨52, hk⟩ => L2A_at_52 c tb fa htb i h2 s hk
  | ⟨53, hk⟩ => L2A_at_53 c tb fa htb i h2 s hk
  | ⟨54, hk⟩ => L2A_at_54 c tb fa htb i h2 s hk
  | ⟨55, hk⟩ => L2A_at_55 c tb fa htb i h2 s hk
  | ⟨56, hk⟩ => L2A_at_56 c tb fa htb i h2 s hk
  | ⟨57, hk⟩ => L2A_at_57 c tb fa htb i h2 s hk
  | ⟨58, hk⟩ => L2A_at_58 c tb fa htb i h2 s hk
  | ⟨59, hk⟩ => L2A_at_59 c tb fa htb i h2 s hk
  | ⟨60, hk⟩ => L2A_at_60 c tb fa htb i h2 s hk
  | ⟨61, hk⟩ => L2A_at_61 c tb fa htb i h2 s hk
  | ⟨62, hk⟩ => L2A_at_62 c tb fa htb i h2 s hk
  | ⟨63, hk⟩ => L2A_at_63 c tb fa htb i h2 s hk
  | ⟨_ + 64, h⟩ => absurd h (Nat.not_lt.2 (Nat.le_add_left _ _))
/-- Slot s of array A's scratch, read whole once the copies of fetch 2 of grid point t have landed, is the gathered rows. -/
theorem read2A (htb : ∀ y, (tb y).toNat < 4096) (t : Fin grid0.N) (h2 : k0_cond2 (grid0.coords t) = 1#1) (hb : (t.val + 1) < 32) (s : Fin 2) :
    scA.view.readAt (Elt F) (Rect.unit (s := S2x8x64x1024) ![s.val, 0, 0, 0] S1x8x64x1024.size (inb_slot s)).toLoadRect (glue_A c (L2A c tb fa htb (grid0.coords t) h2 s)) = gath fa (rowsOf tb (t.val + 1)) :=
  (read_landA c s (N2 c tb (grid0.coords t) h2) (N2_lt c tb htb (grid0.coords t) h2) fa (L2A c tb fa htb (grid0.coords t) h2 s) (L2A_at c tb fa htb (grid0.coords t) h2 s)).trans
    (congrArg (gath fa) (funext (rows2_eq c tb htb t h2 hb)))
theorem L2B_at_0 (htb : ∀ y, (tb y).toNat < 4096) (i : grid0.Coords) (h2 : k0_cond2 i = 1#1) (s : Fin 2) (hk : 0 < 64) :
    L2B c tb fb htb i h2 s ⟨0, hk⟩ = landB c s ⟨0, hk⟩ (N2 c tb i h2 ⟨0, hk⟩) (N2_lt c tb htb i h2 ⟨0, hk⟩) fb :=
  (by unfold L2B; rfl : L2B c tb fb htb i h2 s ⟨0, hk⟩ = landedJ c (s2B_0 c tb htb i h2) (rowM scB s ⟨0, Nat.le_of_ble_eq_true rfl⟩) fb).trans (landJ_B c s _ _ (N2_lt c tb htb i h2 ⟨0, hk⟩) fb)
theorem L2B_at_1 (htb : ∀ y, (tb y).toNat < 4096) (i : grid0.Coords) (h2 : k0_cond2 i = 1#1) (s : Fin 2) (hk : 1 < 64) :
    L2B c tb fb htb i h2 s ⟨1, hk⟩ = landB c s ⟨1, hk⟩ (N2 c tb i h2 ⟨1, hk⟩) (N2_lt c tb htb i h2 ⟨1, hk⟩) fb :=
  (by unfold L2B; rfl : L2B c tb fb htb i h2 s ⟨1, hk⟩ = landedJ c (s2B_1 c tb htb i h2) (rowM scB s ⟨1, Nat.le_of_ble_eq_true rfl⟩) fb).trans (landJ_B c s _ _ (N2_lt c tb htb i h2 ⟨1, hk⟩) fb)
theorem L2B_at_2 (htb : ∀ y, (tb y).toNat < 4096) (i : grid0.Coords) (h2 : k0_cond2 i = 1#1) (s : Fin 2) (hk : 2 < 64) :
    L2B c tb fb htb i h2 s ⟨2, hk⟩ = landB c s ⟨2, hk⟩ (N2 c tb i h2 ⟨2, hk⟩) (N2_lt c tb htb i h2 ⟨2, hk⟩) fb :=
  (by unfold L2B; rfl : L2B c tb fb htb i h2 s ⟨2, hk⟩ = landedJ c (s2B_2 c tb htb i h2) (rowM scB s ⟨2, Nat.le_of_ble_eq_true rfl⟩) fb).trans (landJ_B c s _ _ (N2_lt c tb htb i h2 ⟨2, hk⟩) fb)
theorem L2B_at_3 (htb : ∀ y, (tb y).toNat < 4096) (i : grid0.Coords) (h2 : k0_cond2 i = 1#1) (s : Fin 2) (hk : 3 < 64) :
    L2B c tb fb htb i h2 s ⟨3, hk⟩ = landB c s ⟨3, hk⟩ (N2 c tb i h2 ⟨3, hk⟩) (N2_lt c tb htb i h2 ⟨3, hk⟩) fb :=
  (by unfold L2B; rfl : L2B c tb fb htb i h2 s ⟨3, hk⟩ = landedJ c (s2B_3 c tb htb i h2) (rowM scB s ⟨3, Nat.le_of_ble_eq_true rfl⟩) fb).trans (landJ_B c s _ _ (N2_lt c tb htb i h2 ⟨3, hk⟩) fb)
theorem L2B_at_4 (htb : ∀ y, (tb y).toNat < 4096) (i : grid0.Coords) (h2 : k0_cond2 i = 1#1) (s : Fin 2) (hk : 4 < 64) :
    L2B c tb fb htb i h2 s ⟨4, hk⟩ = landB c s ⟨4, hk⟩ (N2 c tb i h2 ⟨4, hk⟩) (N2_lt c tb htb i h2 ⟨4, hk⟩) fb :=
  (by unfold L2B; rfl : L2B c tb fb htb i h2 s ⟨4, hk⟩ = landedJ c (s2B_4 c tb htb i h2) (rowM scB s ⟨4, Nat.le_of_ble_eq_true rfl⟩) fb).trans (landJ_B c s _ _ (N2_lt c tb htb i h2 ⟨4, hk⟩) fb)
theorem L2B_at_5 (htb : ∀ y, (tb y).toNat < 4096) (i : grid0.Coords) (h2 : k0_cond2 i = 1#1) (s : Fin 2) (hk : 5 < 64) :
    L2B c tb fb htb i h2 s ⟨5, hk⟩ = landB c s ⟨5, hk⟩ (N2 c tb i h2 ⟨5, hk⟩) (N2_lt c tb htb i h2 ⟨5, hk⟩) fb :=
  (by unfold L2B; rfl : L2B c tb fb htb i h2 s ⟨5, hk⟩ = landedJ c (s2B_5 c tb htb i h2) (rowM scB s ⟨5, Nat.le_of_ble_eq_true rfl⟩) fb).trans (landJ_B c s _ _ (N2_lt c tb htb i h2 ⟨5, hk⟩) fb)
theorem L2B_at_6 (htb : ∀ y, (tb y).toNat < 4096) (i : grid0.Coords) (h2 : k0_cond2 i = 1#1) (s : Fin 2) (hk : 6 < 64) :
    L2B c tb fb htb i h2 s ⟨6, hk⟩ = landB c s ⟨6, hk⟩ (N2 c tb i h2 ⟨6, hk⟩) (N2_lt c tb htb i h2 ⟨6, hk⟩) fb :=
  (by unfold L2B; rfl : L2B c tb fb htb i h2 s ⟨6, hk⟩ = landedJ c (s2B_6 c tb htb i h2) (rowM scB s ⟨6, Nat.le_of_ble_eq_true rfl⟩) fb).trans (landJ_B c s _ _ (N2_lt c tb htb i h2 ⟨6, hk⟩) fb)
theorem L2B_at_7 (htb : ∀ y, (tb y).toNat < 4096) (i : grid0.Coords) (h2 : k0_cond2 i = 1#1) (s : Fin 2) (hk : 7 < 64) :
    L2B c tb fb htb i h2 s ⟨7, hk⟩ = landB c s ⟨7, hk⟩ (N2 c tb i h2 ⟨7, hk⟩) (N2_lt c tb htb i h2 ⟨7, hk⟩) fb :=
  (by unfold L2B; rfl : L2B c tb fb htb i h2 s ⟨7, hk⟩ = landedJ c (s2B_7 c tb htb i h2) (rowM scB s ⟨7, Nat.le_of_ble_eq_true rfl⟩) fb).trans (landJ_B c s _ _ (N2_lt c tb htb i h2 ⟨7, hk⟩) fb)
theorem L2B_at_8 (htb : ∀ y, (tb y).toNat < 4096) (i : grid0.Coords) (h2 : k0_cond2 i = 1#1) (s : Fin 2) (hk : 8 < 64) :
    L2B c tb fb htb i h2 s ⟨8, hk⟩ = landB c s ⟨8, hk⟩ (N2 c tb i h2 ⟨8, hk⟩) (N2_lt c tb htb i h2 ⟨8, hk⟩) fb :=
  (by unfold L2B; rfl : L2B c tb fb htb i h2 s ⟨8, hk⟩ = landedJ c (s2B_8 c tb htb i h2) (rowM scB s ⟨8, Nat.le_of_ble_eq_true rfl⟩) fb).trans (landJ_B c s _ _ (N2_lt c tb htb i h2 ⟨8, hk⟩) fb)
theorem L2B_at_9 (htb : ∀ y, (tb y).toNat < 4096) (i : grid0.Coords) (h2 : k0_cond2 i = 1#1) (s : Fin 2) (hk : 9 < 64) :
    L2B c tb fb htb i h2 s ⟨9, hk⟩ = landB c s ⟨9, hk⟩ (N2 c tb i h2 ⟨9, hk⟩) (N2_lt c tb htb i h2 ⟨9, hk⟩) fb :=
  (by unfold L2B; rfl : L2B c tb fb htb i h2 s ⟨9, hk⟩ = landedJ c (s2B_9 c tb htb i h2) (rowM scB s ⟨9, Nat.le_of_ble_eq_true rfl⟩) fb).trans (landJ_B c s _ _ (N2_lt c tb htb i h2 ⟨9, hk⟩) fb)
theorem L2B_at_10 (htb : ∀ y, (tb y).toNat < 4096) (i : grid0.Coords) (h2 : k0_cond2 i = 1#1) (s : Fin 2) (hk : 10 < 64) :
    L2B c tb fb htb i h2 s ⟨10, hk⟩ = landB c s ⟨10, hk⟩ (N2 c tb i h2 ⟨10, hk⟩) (N2_lt c tb htb i h2 ⟨10, hk⟩) fb :=
  (by unfold L2B; rfl : L2B c tb fb htb i h2 s ⟨10, hk⟩ = landedJ c (s2B_10 c tb htb i h2) (rowM scB s ⟨10, Nat.le_of_ble_eq_true rfl⟩) fb).trans (landJ_B c s _ _ (N2_lt c tb htb i h2 ⟨10, hk⟩) fb)
theorem L2B_at_11 (htb : ∀ y, (tb y).toNat < 4096) (i : grid0.Coords) (h2 : k0_cond2 i = 1#1) (s : Fin 2) (hk : 11 < 64) :
    L2B c tb fb htb i h2 s ⟨11, hk⟩ = landB c s ⟨11, hk⟩ (N2 c tb i h2 ⟨11, hk⟩) (N2_lt c tb htb i h2 ⟨11, hk⟩) fb :=
  (by unfold L2B; rfl : L2B c tb fb htb i h2 s ⟨11, hk⟩ = landedJ c (s2B_11 c tb htb i h2) (rowM scB s ⟨11, Nat.le_of_ble_eq_true rfl⟩) fb).trans (landJ_B c s _ _ (N2_lt c tb htb i h2 ⟨11, hk⟩) fb)
theorem L2B_at_12 (htb : ∀ y, (tb y).toNat < 4096) (i : grid0.Coords) (h2 : k0_cond2 i = 1#1) (s : Fin 2) (hk : 12 < 64) :
    L2B c tb fb htb i h2 s ⟨12, hk⟩ = landB c s ⟨12, hk⟩ (N2 c tb i h2 ⟨12, hk⟩) (N2_lt c tb htb i h2 ⟨12, hk⟩) fb :=
  (by unfold L2B; rfl : L2B c tb fb htb i h2 s ⟨12, hk⟩ = landedJ c (s2B_12 c tb htb i h2) (rowM scB s ⟨12, Nat.le_of_ble_eq_true rfl⟩) fb).trans (landJ_B c s _ _ (N2_lt c tb htb i h2 ⟨12, hk⟩) fb)
theorem L2B_at_13 (htb : ∀ y, (tb y).toNat < 4096) (i : grid0.Coords) (h2 : k0_cond2 i = 1#1) (s : Fin 2) (hk : 13 < 64) :
    L2B c tb fb htb i h2 s ⟨13, hk⟩ = landB c s ⟨13, hk⟩ (N2 c tb i h2 ⟨13, hk⟩) (N2_lt c tb htb i h2 ⟨13, hk⟩) fb :=
  (by unfold L2B; rfl : L2B c tb fb htb i h2 s ⟨13, hk⟩ = landedJ c (s2B_13 c tb htb i h2) (rowM scB s ⟨13, Nat.le_of_ble_eq_true rfl⟩) fb).trans (landJ_B c s _ _ (N2_lt c tb htb i h2 ⟨13, hk⟩) fb)
theorem L2B_at_14 (htb : ∀ y, (tb y).toNat < 4096) (i : grid0.Coords) (h2 : k0_cond2 i = 1#1) (s : Fin 2) (hk : 14 < 64) :
    L2B c tb fb htb i h2 s ⟨14, hk⟩ = landB c s ⟨14, hk⟩ (N2 c tb i h2 ⟨14, hk⟩) (N2_lt c tb htb i h2 ⟨14, hk⟩) fb :=
  (by unfold L2B; rfl : L2B c tb fb htb i h2 s ⟨14, hk⟩ = landedJ c (s2B_14 c tb htb i h2) (rowM scB s ⟨14, Nat.le_of_ble_eq_true rfl⟩) fb).trans (landJ_B c s _ _ (N2_lt c tb htb i h2 ⟨14, hk⟩) fb)
theorem L2B_at_15 (htb : ∀ y, (tb y).toNat < 4096) (i : grid0.Coords) (h2 : k0_cond2 i = 1#1) (s : Fin 2) (hk : 15 < 64) :
    L2B c tb fb htb i h2 s ⟨15, hk⟩ = landB c s ⟨15, hk⟩ (N2 c tb i h2 ⟨15, hk⟩) (N2_lt c tb htb i h2 ⟨15, hk⟩) fb :=
  (by unfold L2B; rfl : L2B c tb fb htb i h2 s ⟨15, hk⟩ = landedJ c (s2B_15 c tb htb i h2) (rowM scB s ⟨15, Nat.le_of_ble_eq_true rfl⟩) fb).trans (landJ_B c s _ _ (N2_lt c tb htb i h2 ⟨15, hk⟩) fb)
theorem L2B_at_16 (htb : ∀ y, (tb y).toNat < 4096) (i : grid0.Coords) (h2 : k0_cond2 i = 1#1) (s : Fin 2) (hk : 16 < 64) :
    L2B c tb fb htb i h2 s ⟨16, hk⟩ = landB c s ⟨16, hk⟩ (N2 c tb i h2 ⟨16, hk⟩) (N2_lt c tb htb i h2 ⟨16, hk⟩) fb :=
  (by unfold L2B; rfl : L2B c tb fb htb i h2 s ⟨16, hk⟩ = landedJ c (s2B_16 c tb htb i h2) (rowM scB s ⟨16, Nat.le_of_ble_eq_true rfl⟩) fb).trans (landJ_B c s _ _ (N2_lt c tb htb i h2 ⟨16, hk⟩) fb)
theorem L2B_at_17 (htb : ∀ y, (tb y).toNat < 4096) (i : grid0.Coords) (h2 : k0_cond2 i = 1#1) (s : Fin 2) (hk : 17 < 64) :
    L2B c tb fb htb i h2 s ⟨17, hk⟩ = landB c s ⟨17, hk⟩ (N2 c tb i h2 ⟨17, hk⟩) (N2_lt c tb htb i h2 ⟨17, hk⟩) fb :=
  (by unfold L2B; rfl : L2B c tb fb htb i h2 s ⟨17, hk⟩ = landedJ c (s2B_17 c tb htb i h2) (rowM scB s ⟨17, Nat.le_of_ble_eq_true rfl⟩) fb).trans (landJ_B c s _ _ (N2_lt c tb htb i h2 ⟨17, hk⟩) fb)
theorem L2B_at_18 (htb : ∀ y, (tb y).toNat < 4096) (i : grid0.Coords) (h2 : k0_cond2 i = 1#1) (s : Fin 2) (hk : 18 < 64) :
    L2B c tb fb htb i h2 s ⟨18, hk⟩ = landB c s ⟨18, hk⟩ (N2 c tb i h2 ⟨18, hk⟩) (N2_lt c tb htb i h2 ⟨18, hk⟩) fb :=
  (by unfold L2B; rfl : L2B c tb fb htb i h2 s ⟨18, hk⟩ = landedJ c (s2B_18 c tb htb i h2) (rowM scB s ⟨18, Nat.le_of_ble_eq_true rfl⟩) fb).trans (landJ_B c s _ _ (N2_lt c tb htb i h2 ⟨18, hk⟩) fb)
theorem L2B_at_19 (htb : ∀ y, (tb y).toNat < 4096) (i : grid0.Coords) (h2 : k0_cond2 i = 1#1) (s : Fin 2) (hk : 19 < 64) :
    L2B c tb fb htb i h2 s ⟨19, hk⟩ = landB c s ⟨19, hk⟩ (N2 c tb i h2 ⟨19, hk⟩) (N2_lt c tb htb i h2 ⟨19, hk⟩) fb :=
  (by unfold L2B; rfl : L2B c tb fb htb i h2 s ⟨19, hk⟩ = landedJ c (s2B_19 c tb htb i h2) (rowM scB s ⟨19, Nat.le_of_ble_eq_true rfl⟩) fb).trans (landJ_B c s _ _ (N2_lt c tb htb i h2 ⟨19, hk⟩) fb)
theorem L2B_at_20 (htb : ∀ y, (tb y).toNat < 4096) (i : grid0.Coords) (h2 : k0_cond2 i = 1#1) (s : Fin 2) (hk : 20 < 64) :
    L2B c tb fb htb i h2 s ⟨20, hk⟩ = landB c s ⟨20, hk⟩ (N2 c tb i h2 ⟨20, hk⟩) (N2_lt c tb htb i h2 ⟨20, hk⟩) fb :=
  (by unfold L2B; rfl : L2B c tb fb htb i h2 s ⟨20, hk⟩ = landedJ c (s2B_20 c tb htb i h2) (rowM scB s ⟨20, Nat.le_of_ble_eq_true rfl⟩) fb).trans (landJ_B c s _ _ (N2_lt c tb htb i h2 ⟨20, hk⟩) fb)
theorem L2B_at_21 (htb : ∀ y, (tb y).toNat < 4096) (i : grid0.Coords) (h2 : k0_cond2 i = 1#1) (s : Fin 2) (hk : 21 < 64) :
    L2B c tb fb htb i h2 s ⟨21, hk⟩ = landB c s ⟨21, hk⟩ (N2 c tb i h2 ⟨21, hk⟩) (N2_lt c tb htb i h2 ⟨21, hk⟩) fb :=
  (by unfold L2B; rfl : L2B c tb fb htb i h2 s ⟨21, hk⟩ = landedJ c (s2B_21 c tb htb i h2) (rowM scB s ⟨21, Nat.le_of_ble_eq_true rfl⟩) fb).trans (landJ_B c s _ _ (N2_lt c tb htb i h2 ⟨21, hk⟩) fb)
theorem L2B_at_22 (htb : ∀ y, (tb y).toNat < 4096) (i : grid0.Coords) (h2 : k0_cond2 i = 1#1) (s : Fin 2) (hk : 22 < 64) :
    L2B c tb fb htb i h2 s ⟨22, hk⟩ = landB c s ⟨22, hk⟩ (N2 c tb i h2 ⟨22, hk⟩) (N2_lt c tb htb i h2 ⟨22, hk⟩) fb :=
  (by unfold L2B; rfl : L2B c tb fb htb i h2 s ⟨22, hk⟩ = landedJ c (s2B_22 c tb htb i h2) (rowM scB s ⟨22, Nat.le_of_ble_eq_true rfl⟩) fb).trans (landJ_B c s _ _ (N2_lt c tb htb i h2 ⟨22, hk⟩) fb)
theorem L2B_at_23 (htb : ∀ y, (tb y).toNat < 4096) (i : grid0.Coords) (h2 : k0_cond2 i = 1#1) (s : Fin 2) (hk : 23 < 64) :
    L2B c tb fb htb i h2 s ⟨23, hk⟩ = landB c s ⟨23, hk⟩ (N2 c tb i h2 ⟨23, hk⟩) (N2_lt c tb htb i h2 ⟨23, hk⟩) fb :=
  (by unfold L2B; rfl : L2B c tb fb htb i h2 s ⟨23, hk⟩ = landedJ c (s2B_23 c tb htb i h2) (rowM scB s ⟨23, Nat.le_of_ble_eq_true rfl⟩) fb).trans (landJ_B c s _ _ (N2_lt c tb htb i h2 ⟨23, hk⟩) fb)
theorem L2B_at_24 (htb : ∀ y, (tb y).toNat < 4096) (i : grid0.Coords) (h2 : k0_cond2 i = 1#1) (s : Fin 2) (hk : 24 < 64) :
    L2B c tb fb htb i h2 s ⟨24, hk⟩ = landB c s ⟨24, hk⟩ (N2 c tb i h2 ⟨24, hk⟩) (N2_lt c tb htb i h2 ⟨24, hk⟩) fb :=
  (by unfold L2B; rfl : L2B c tb fb htb i h2 s ⟨24, hk⟩ = landedJ c (s2B_24 c tb htb i h2) (rowM scB s ⟨24, Nat.le_of_ble_eq_true rfl⟩) fb).trans (landJ_B c s _ _ (N2_lt c tb htb i h2 ⟨24, hk⟩) fb)
theorem L2B_at_25 (htb : ∀ y, (tb y).toNat < 4096) (i : grid0.Coords) (h2 : k0_cond2 i = 1#1) (s : Fin 2) (hk : 25 < 64) :
    L2B c tb fb htb i h2 s ⟨25, hk⟩ = landB c s ⟨25, hk⟩ (N2 c tb i h2 ⟨25, hk⟩) (N2_lt c tb htb i h2 ⟨25, hk⟩) fb :=
  (by unfold L2B; rfl : L2B c tb fb htb i h2 s ⟨25, hk⟩ = landedJ c (s2B_25 c tb htb i h2) (rowM scB s ⟨25, Nat.le_of_ble_eq_true rfl⟩) fb).trans (landJ_B c s _ _ (N2_lt c tb htb i h2 ⟨25, hk⟩) fb)
theorem L2B_at_26 (htb : ∀ y, (tb y).toNat < 4096) (i : grid0.Coords) (h2 : k0_cond2 i = 1#1) (s : Fin 2) (hk : 26 < 64) :
    L2B c tb fb htb i h2 s ⟨26, hk⟩ = landB c s ⟨26, hk⟩ (N2 c tb i h2 ⟨26, hk⟩) (N2_lt c tb htb i h2 ⟨26, hk⟩) fb :=
  (by unfold L2B; rfl : L2B c tb fb htb i h2 s ⟨26, hk⟩ = landedJ c (s2B_26 c tb htb i h2) (rowM scB s ⟨26, Nat.le_of_ble_eq_true rfl⟩) fb).trans (landJ_B c s _ _ (N2_lt c tb htb i h2 ⟨26, hk⟩) fb)
theorem L2B_at_27 (htb : ∀ y, (tb y).toNat < 4096) (i : grid0.Coords) (h2 : k0_cond2 i = 1#1) (s : Fin 2) (hk : 27 < 64) :
    L2B c tb fb htb i h2 s ⟨27, hk⟩ = landB c s ⟨27, hk⟩ (N2 c tb i h2 ⟨27, hk⟩) (N2_lt c tb htb i h2 ⟨27, hk⟩) fb :=
  (by unfold L2B; rfl : L2B c tb fb htb i h2 s ⟨27, hk⟩ = landedJ c (s2B_27 c tb htb i h2) (rowM scB s ⟨27, Nat.le_of_ble_eq_true rfl⟩) fb).trans (landJ_B c s _ _ (N2_lt c tb htb i h2 ⟨27, hk⟩) fb)
theorem L2B_at_28 (htb : ∀ y, (tb y).toNat < 4096) (i : grid0.Coords) (h2 : k0_cond2 i = 1#1) (s : Fin 2) (hk : 28 < 64) :
    L2B c tb fb htb i h2 s ⟨28, hk⟩ = landB c s ⟨28, hk⟩ (N2 c tb i h2 ⟨28, hk⟩) (N2_lt c tb htb i h2 ⟨28, hk⟩) fb :=
  (by unfold L2B; rfl : L2B c tb fb htb i h2 s ⟨28, hk⟩ = landedJ c (s2B_28 c tb htb i h2) (rowM scB s ⟨28, Nat.le_of_ble_eq_true rfl⟩) fb).trans (landJ_B c s _ _ (N2_lt c tb htb i h2 ⟨28, hk⟩) fb)
theorem L2B_at_29 (htb : ∀ y, (tb y).toNat < 4096) (i : grid0.Coords) (h2 : k0_cond2 i = 1#1) (s : Fin 2) (hk : 29 < 64) :
    L2B c tb fb htb i h2 s ⟨29, hk⟩ = landB c s ⟨29, hk⟩ (N2 c tb i h2 ⟨29, hk⟩) (N2_lt c tb htb i h2 ⟨29, hk⟩) fb :=
  (by unfold L2B; rfl : L2B c tb fb htb i h2 s ⟨29, hk⟩ = landedJ c (s2B_29 c tb htb i h2) (rowM scB s ⟨29, Nat.le_of_ble_eq_true rfl⟩) fb).trans (landJ_B c s _ _ (N2_lt c tb htb i h2 ⟨29, hk⟩) fb)
theorem L2B_at_30 (htb : ∀ y, (tb y).toNat < 4096) (i : grid0.Coords) (h2 : k0_cond2 i = 1#1) (s : Fin 2) (hk : 30 < 64) :
    L2B c tb fb htb i h2 s ⟨30, hk⟩ = landB c s ⟨30, hk⟩ (N2 c tb i h2 ⟨30, hk⟩) (N2_lt c tb htb i h2 ⟨30, hk⟩) fb :=
  (by unfold L2B; rfl : L2B c tb fb htb i h2 s ⟨30, hk⟩ = landedJ c (s2B_30 c tb htb i h2) (rowM scB s ⟨30, Nat.le_of_ble_eq_true rfl⟩) fb).trans (landJ_B c s _ _ (N2_lt c tb htb i h2 ⟨30, hk⟩) fb)
theorem L2B_at_31 (htb : ∀ y, (tb y).toNat < 4096) (i : grid0.Coords) (h2 : k0_cond2 i = 1#1) (s : Fin 2) (hk : 31 < 64) :
    L2B c tb fb htb i h2 s ⟨31, hk⟩ = landB c s ⟨31, hk⟩ (N2 c tb i h2 ⟨31, hk⟩) (N2_lt c tb htb i h2 ⟨31, hk⟩) fb :=
  (by unfold L2B; rfl : L2B c tb fb htb i h2 s ⟨31, hk⟩ = landedJ c (s2B_31 c tb htb i h2) (rowM scB s ⟨31, Nat.le_of_ble_eq_true rfl⟩) fb).trans (landJ_B c s _ _ (N2_lt c tb htb i h2 ⟨31, hk⟩) fb)
theorem L2B_at_32 (htb : ∀ y, (tb y).toNat < 4096) (i : grid0.Coords) (h2 : k0_cond2 i = 1#1) (s : Fin 2) (hk : 32 < 64) :
    L2B c tb fb htb i h2 s ⟨32, hk⟩ = landB c s ⟨32, hk⟩ (N2 c tb i h2 ⟨32, hk⟩) (N2_lt c tb htb i h2 ⟨32, hk⟩) fb :=
  (by unfold L2B; rfl : L2B c tb fb htb i h2 s ⟨32, hk⟩ = landedJ c (s2B_32 c tb htb i h2) (rowM scB s ⟨32, Nat.le_of_ble_eq_true rfl⟩) fb).trans (landJ_B c s _ _ (N2_lt c tb htb i h2 ⟨32, hk⟩) fb)
theorem L2B_at_33 (htb : ∀ y, (tb y).toNat < 4096) (i : grid0.Coords) (h2 : k0_cond2 i = 1#1) (s : Fin 2) (hk : 33 < 64) :
    L2B c tb fb htb i h2 s ⟨33, hk⟩ = landB c s ⟨33, hk⟩ (N2 c tb i h2 ⟨33, hk⟩) (N2_lt c tb htb i h2 ⟨33, hk⟩) fb :=
  (by unfold L2B; rfl : L2B c tb fb htb i h2 s ⟨33, hk⟩ = landedJ c (s2B_33 c tb htb i h2) (rowM scB s ⟨33, Nat.le_of_ble_eq_true rfl⟩) fb).trans (landJ_B c s _ _ (N2_lt c tb htb i h2 ⟨33, hk⟩) fb)
theorem L2B_at_34 (htb : ∀ y, (tb y).toNat < 4096) (i : grid0.Coords) (h2 : k0_cond2 i = 1#1) (s : Fin 2) (hk : 34 < 64) :
    L2B c tb fb htb i h2 s ⟨34, hk⟩ = landB c s ⟨34, hk⟩ (N2 c tb i h2 ⟨34, hk⟩) (N2_lt c tb htb i h2 ⟨34, hk⟩) fb :=
  (by unfold L2B; rfl : L2B c tb fb htb i h2 s ⟨34, hk⟩ = landedJ c (s2B_34 c tb htb i h2) (rowM scB s ⟨34, Nat.le_of_ble_eq_true rfl⟩) fb).trans (landJ_B c s _ _ (N2_lt c tb htb i h2 ⟨34, hk⟩) fb)
theorem L2B_at_35 (htb : ∀ y, (tb y).toNat < 4096) (i : grid0.Coords) (h2 : k0_cond2 i = 1#1) (s : Fin 2) (hk : 35 < 64) :
    L2B c tb fb htb i h2 s ⟨35, hk⟩ = landB c s ⟨35, hk⟩ (N2 c tb i h2 ⟨35, hk⟩) (N2_lt c tb htb i h2 ⟨35, hk⟩) fb :=
  (by unfold L2B; rfl : L2B c tb fb htb i h2 s ⟨35, hk⟩ = landedJ c (s2B_35 c tb htb i h2) (rowM scB s ⟨35, Nat.le_of_ble_eq_true rfl⟩) fb).trans (landJ_B c s _ _ (N2_lt c tb htb i h2 ⟨35, hk⟩) fb)
theorem L2B_at_36 (htb : ∀ y, (tb y).toNat < 4096) (i : grid0.Coords) (h2 : k0_cond2 i = 1#1) (s : Fin 2) (hk : 36 < 64) :
    L2B c tb fb htb i h2 s ⟨36, hk⟩ = landB c s ⟨36, hk⟩ (N2 c tb i h2 ⟨36, hk⟩) (N2_lt c tb htb i h2 ⟨36, hk⟩) fb :=
  (by unfold L2B; rfl : L2B c tb fb htb i h2 s ⟨36, hk⟩ = landedJ c (s2B_36 c tb htb i h2) (rowM scB s ⟨36, Nat.le_of_ble_eq_true rfl⟩) fb).trans (landJ_B c s _ _ (N2_lt c tb htb i h2 ⟨36, hk⟩) fb)
theorem L2B_at_37 (htb : ∀ y, (tb y).toNat < 4096) (i : grid0.Coords) (h2 : k0_cond2 i = 1#1) (s : Fin 2) (hk : 37 < 64) :
    L2B c tb fb htb i h2 s ⟨37, hk⟩ = landB c s ⟨37, hk⟩ (N2 c tb i h2 ⟨37, hk⟩) (N2_lt c tb htb i h2 ⟨37, hk⟩) fb :=
  (by unfold L2B; rfl : L2B c tb fb htb i h2 s ⟨37, hk⟩ = landedJ c (s2B_37 c tb htb i h2) (rowM scB s ⟨37, Nat.le_of_ble_eq_true rfl⟩) fb).trans (landJ_B c s _ _ (N2_lt c tb htb i h2 ⟨37, hk⟩) fb)
theorem L2B_at_38 (htb : ∀ y, (tb y).toNat < 4096) (i : grid0.Coords) (h2 : k0_cond2 i = 1#1) (s : Fin 2) (hk : 38 < 64) :
    L2B c tb fb htb i h2 s ⟨38, hk⟩ = landB c s ⟨38, hk⟩ (N2 c tb i h2 ⟨38, hk⟩) (N2_lt c tb htb i h2 ⟨38, hk⟩) fb :=
  (by unfold L2B; rfl : L2B c tb fb htb i h2 s ⟨38, hk⟩ = landedJ c (s2B_38 c tb htb i h2) (rowM scB s ⟨38, Nat.le_of_ble_eq_true rfl⟩) fb).trans (landJ_B c s _ _ (N2_lt c tb htb i h2 ⟨38, hk⟩) fb)
theorem L2B_at_39 (htb : ∀ y, (tb y).toNat < 4096) (i : grid0.Coords) (h2 : k0_cond2 i = 1#1) (s : Fin 2) (hk : 39 < 64) :
    L2B c tb fb htb i h2 s ⟨39, hk⟩ = landB c s ⟨39, hk⟩ (N2 c tb i h2 ⟨39, hk⟩) (N2_lt c tb htb i h2 ⟨39, hk⟩) fb :=
  (by unfold L2B; rfl : L2B c tb fb htb i h2 s ⟨39, hk⟩ = landedJ c (s2B_39 c tb htb i h2) (rowM scB s ⟨39, Nat.le_of_ble_eq_true rfl⟩) fb).trans (landJ_B c s _ _ (N2_lt c tb htb i h2 ⟨39, hk⟩) fb)
theorem L2B_at_40 (htb : ∀ y, (tb y).toNat < 4096) (i : grid0.Coords) (h2 : k0_cond2 i = 1#1) (s : Fin 2) (hk : 40 < 64) :
    L2B c tb fb htb i h2 s ⟨40, hk⟩ = landB c s ⟨40, hk⟩ (N2 c tb i h2 ⟨40, hk⟩) (N2_lt c tb htb i h2 ⟨40, hk⟩) fb :=
  (by unfold L2B; rfl : L2B c tb fb htb i h2 s ⟨40, hk⟩ = landedJ c (s2B_40 c tb htb i h2) (rowM scB s ⟨40, Nat.le_of_ble_eq_true rfl⟩) fb).trans (landJ_B c s _ _ (N2_lt c tb htb i h2 ⟨40, hk⟩) fb)
theorem L2B_at_41 (htb : ∀ y, (tb y).toNat < 4096) (i : grid0.Coords) (h2 : k0_cond2 i = 1#1) (s : Fin 2) (hk : 41 < 64) :
    L2B c tb fb htb i h2 s ⟨41, hk⟩ = landB c s ⟨41, hk⟩ (N2 c tb i h2 ⟨41, hk⟩) (N2_lt c tb htb i h2 ⟨41, hk⟩) fb :=
  (by unfold L2B; rfl : L2B c tb fb htb i h2 s ⟨41, hk⟩ = landedJ c (s2B_41 c tb htb i h2) (rowM scB s ⟨41, Nat.le_of_ble_eq_true rfl⟩) fb).trans (landJ_B c s _ _ (N2_lt c tb htb i h2 ⟨41, hk⟩) fb)
theorem L2B_at_42 (htb : ∀ y, (tb y).toNat < 4096) (i : grid0.Coords) (h2 : k0_cond2 i = 1#1) (s : Fin 2) (hk : 42 < 64) :
    L2B c tb fb htb i h2 s ⟨42, hk⟩ = landB c s ⟨42, hk⟩ (N2 c tb i h2 ⟨42, hk⟩) (N2_lt c tb htb i h2 ⟨42, hk⟩) fb :=
  (by unfold L2B; rfl : L2B c tb fb htb i h2 s ⟨42, hk⟩ = landedJ c (s2B_42 c tb htb i h2) (rowM scB s ⟨42, Nat.le_of_ble_eq_true rfl⟩) fb).trans (landJ_B c s _ _ (N2_lt c tb htb i h2 ⟨42, hk⟩) fb)
theorem L2B_at_43 (htb : ∀ y, (tb y).toNat < 4096) (i : grid0.Coords) (h2 : k0_cond2 i = 1#1) (s : Fin 2) (hk : 43 < 64) :
    L2B c tb fb htb i h2 s ⟨43, hk⟩ = landB c s ⟨43, hk⟩ (N2 c tb i h2 ⟨43, hk⟩) (N2_lt c tb htb i h2 ⟨43, hk⟩) fb :=
  (by unfold L2B; rfl : L2B c tb fb htb i h2 s ⟨43, hk⟩ = landedJ c (s2B_43 c tb htb i h2) (rowM scB s ⟨43, Nat.le_of_ble_eq_true rfl⟩) fb).trans (landJ_B c s _ _ (N2_lt c tb htb i h2 ⟨43, hk⟩) fb)
theorem L2B_at_44 (htb : ∀ y, (tb y).toNat < 4096) (i : grid0.Coords) (h2 : k0_cond2 i = 1#1) (s : Fin 2) (hk : 44 < 64) :
    L2B c tb fb htb i h2 s ⟨44, hk⟩ = landB c s ⟨44, hk⟩ (N2 c tb i h2 ⟨44, hk⟩) (N2_lt c tb htb i h2 ⟨44, hk⟩) fb :=
  (by unfold L2B; rfl : L2B c tb fb htb i h2 s ⟨44, hk⟩ = landedJ c (s2B_44 c tb htb i h2) (rowM scB s ⟨44, Nat.le_of_ble_eq_true rfl⟩) fb).trans (landJ_B c s _ _ (N2_lt c tb htb i h2 ⟨44, hk⟩) fb)
theorem L2B_at_45 (htb : ∀ y, (tb y).toNat < 4096) (i : grid0.Coords) (h2 : k0_cond2 i = 1#1) (s : Fin 2) (hk : 45 < 64) :
    L2B c tb fb htb i h2 s ⟨45, hk⟩ = landB c s ⟨45, hk⟩ (N2 c tb i h2 ⟨45, hk⟩) (N2_lt c tb htb i h2 ⟨45, hk⟩) fb :=
  (by unfold L2B; rfl : L2B c tb fb htb i h2 s ⟨45, hk⟩ = landedJ c (s2B_45 c tb htb i h2) (rowM scB s ⟨45, Nat.le_of_ble_eq_true rfl⟩) fb).trans (landJ_B c s _ _ (N2_lt c tb htb i h2 ⟨45, hk⟩) fb)
theorem L2B_at_46 (htb : ∀ y, (tb y).toNat < 4096) (i : grid0.Coords) (h2 : k0_cond2 i = 1#1) (s : Fin 2) (hk : 46 < 64) :
    L2B c tb fb htb i h2 s ⟨46, hk⟩ = landB c s ⟨46, hk⟩ (N2 c tb i h2 ⟨46, hk⟩) (N2_lt c tb htb i h2 ⟨46, hk⟩) fb :=
  (by unfold L2B; rfl : L2B c tb fb htb i h2 s ⟨46, hk⟩ = landedJ c (s2B_46 c tb htb i h2) (rowM scB s ⟨46, Nat.le_of_ble_eq_true rfl⟩) fb).trans (landJ_B c s _ _ (N2_lt c tb htb i h2 ⟨46, hk⟩) fb)
theorem L2B_at_47 (htb : ∀ y, (tb y).toNat < 4096) (i : grid0.Coords) (h2 : k0_cond2 i = 1#1) (s : Fin 2) (hk : 47 < 64) :
    L2B c tb fb htb i h2 s ⟨47, hk⟩ = landB c s ⟨47, hk⟩ (N2 c tb i h2 ⟨47, hk⟩) (N2_lt c tb htb i h2 ⟨47, hk⟩) fb :=
  (by unfold L2B; rfl : L2B c tb fb htb i h2 s ⟨47, hk⟩ = landedJ c (s2B_47 c tb htb i h2) (rowM scB s ⟨47, Nat.le_of_ble_eq_true rfl⟩) fb).trans (landJ_B c s _ _ (N2_lt c tb htb i h2 ⟨47, hk⟩) fb)
theorem L2B_at_48 (htb : ∀ y, (tb y).toNat < 4096) (i : grid0.Coords) (h2 : k0_cond2 i = 1#1) (s : Fin 2) (hk : 48 < 64) :
    L2B c tb fb htb i h2 s ⟨48, hk⟩ = landB c s ⟨48, hk⟩ (N2 c tb i h2 ⟨48, hk⟩) (N2_lt c tb htb i h2 ⟨48, hk⟩) fb :=
  (by unfold L2B; rfl : L2B c tb fb htb i h2 s ⟨48, hk⟩ = landedJ c (s2B_48 c tb htb i h2) (rowM scB s ⟨48, Nat.le_of_ble_eq_true rfl⟩) fb).trans (landJ_B c s _ _ (N2_lt c tb htb i h2 ⟨48, hk⟩) fb)
theorem L2B_at_49 (htb : ∀ y, (tb y).toNat < 4096) (i : grid0.Coords) (h2 : k0_cond2 i = 1#1) (s : Fin 2) (hk : 49 < 64) :
    L2B c tb fb htb i h2 s ⟨49, hk⟩ = landB c s ⟨49, hk⟩ (N2 c tb i h2 ⟨49, hk⟩) (N2_lt c tb htb i h2 ⟨49, hk⟩) fb :=
  (by unfold L2B; rfl : L2B c tb fb htb i h2 s ⟨49, hk⟩ = landedJ c (s2B_49 c tb htb i h2) (rowM scB s ⟨49, Nat.le_of_ble_eq_true rfl⟩) fb).trans (landJ_B c s _ _ (N2_lt c tb htb i h2 ⟨49, hk⟩) fb)
theorem L2B_at_50 (htb : ∀ y, (tb y).toNat < 4096) (i : grid0.Coords) (h2 : k0_cond2 i = 1#1) (s : Fin 2) (hk : 50 < 64) :
    L2B c tb fb htb i h2 s ⟨50, hk⟩ = landB c s ⟨50, hk⟩ (N2 c tb i h2 ⟨50, hk⟩) (N2_lt c tb htb i h2 ⟨50, hk⟩) fb :=
  (by unfold L2B; rfl : L2B c tb fb htb i h2 s ⟨50, hk⟩ = landedJ c (s2B_50 c tb htb i h2) (rowM scB s ⟨50, Nat.le_of_ble_eq_true rfl⟩) fb).trans (landJ_B c s _ _ (N2_lt c tb htb i h2 ⟨50, hk⟩) fb)
theorem L2B_at_51 (htb : ∀ y, (tb y).toNat < 4096) (i : grid0.Coords) (h2 : k0_cond2 i = 1#1) (s : Fin 2) (hk : 51 < 64) :
    L2B c tb fb htb i h2 s ⟨51, hk⟩ = landB c s ⟨51, hk⟩ (N2 c tb i h2 ⟨51, hk⟩) (N2_lt c tb htb i h2 ⟨51, hk⟩) fb :=
  (by unfold L2B; rfl : L2B c tb fb htb i h2 s ⟨51, hk⟩ = landedJ c (s2B_51 c tb htb i h2) (rowM scB s ⟨51, Nat.le_of_ble_eq_true rfl⟩) fb).trans (landJ_B c s _ _ (N2_lt c tb htb i h2 ⟨51, hk⟩) fb)
theorem L2B_at_52 (htb : ∀ y, (tb y).toNat < 4096) (i : grid0.Coords) (h2 : k0_cond2 i = 1#1) (s : Fin 2) (hk : 52 < 64) :
    L2B c tb fb htb i h2 s ⟨52, hk⟩ = landB c s ⟨52, hk⟩ (N2 c tb i h2 ⟨52, hk⟩) (N2_lt c tb htb i h2 ⟨52, hk⟩) fb :=
  (by unfold L2B; rfl : L2B c tb fb htb i h2 s ⟨52, hk⟩ = landedJ c (s2B_52 c tb htb i h2) (rowM scB s ⟨52, Nat.le_of_ble_eq_true rfl⟩) fb).trans (landJ_B c s _ _ (N2_lt c tb htb i h2 ⟨52, hk⟩) fb)
theorem L2B_at_53 (htb : ∀ y, (tb y).toNat < 4096) (i : grid0.Coords) (h2 : k0_cond2 i = 1#1) (s : Fin 2) (hk : 53 < 64) :
    L2B c tb fb htb i h2 s ⟨53, hk⟩ = landB c s ⟨53, hk⟩ (N2 c tb i h2 ⟨53, hk⟩) (N2_lt c tb htb i h2 ⟨53, hk⟩) fb :=
  (by unfold L2B; rfl : L2B c tb fb htb i h2 s ⟨53, hk⟩ = landedJ c (s2B_53 c tb htb i h2) (rowM scB s ⟨53, Nat.le_of_ble_eq_true rfl⟩) fb).trans (landJ_B c s _ _ (N2_lt c tb htb i h2 ⟨53, hk⟩) fb)
theorem L2B_at_54 (htb : ∀ y, (tb y).toNat < 4096) (i : grid0.Coords) (h2 : k0_cond2 i = 1#1) (s : Fin 2) (hk : 54 < 64) :
    L2B c tb fb htb i h2 s ⟨54, hk⟩ = landB c s ⟨54, hk⟩ (N2 c tb i h2 ⟨54, hk⟩) (N2_lt c tb htb i h2 ⟨54, hk⟩) fb :=
  (by unfold L2B; rfl : L2B c tb fb htb i h2 s ⟨54, hk⟩ = landedJ c (s2B_54 c tb htb i h2) (rowM scB s ⟨54, Nat.le_of_ble_eq_true rfl⟩) fb).trans (landJ_B c s _ _ (N2_lt c tb htb i h2 ⟨54, hk⟩) fb)
theorem L2B_at_55 (htb : ∀ y, (tb y).toNat < 4096) (i : grid0.Coords) (h2 : k0_cond2 i = 1#1) (s : Fin 2) (hk : 55 < 64) :
    L2B c tb fb htb i h2 s ⟨55, hk⟩ = landB c s ⟨55, hk⟩ (N2 c tb i h2 ⟨55, hk⟩) (N2_lt c tb htb i h2 ⟨55, hk⟩) fb :=
  (by unfold L2B; rfl : L2B c tb fb htb i h2 s ⟨55, hk⟩ = landedJ c (s2B_55 c tb htb i h2) (rowM scB s ⟨55, Nat.le_of_ble_eq_true rfl⟩) fb).trans (landJ_B c s _ _ (N2_lt c tb htb i h2 ⟨55, hk⟩) fb)
theorem L2B_at_56 (htb : ∀ y, (tb y).toNat < 4096) (i : grid0.Coords) (h2 : k0_cond2 i = 1#1) (s : Fin 2) (hk : 56 < 64) :
    L2B c tb fb htb i h2 s ⟨56, hk⟩ = landB c s ⟨56, hk⟩ (N2 c tb i h2 ⟨56, hk⟩) (N2_lt c tb htb i h2 ⟨56, hk⟩) fb :=
  (by unfold L2B; rfl : L2B c tb fb htb i h2 s ⟨56, hk⟩ = landedJ c (s2B_56 c tb htb i h2) (rowM scB s ⟨56, Nat.le_of_ble_eq_true rfl⟩) fb).trans (landJ_B c s _ _ (N2_lt c tb htb i h2 ⟨56, hk⟩) fb)
theorem L2B_at_57 (htb : ∀ y, (tb y).toNat < 4096) (i : grid0.Coords) (h2 : k0_cond2 i = 1#1) (s : Fin 2) (hk : 57 < 64) :
    L2B c tb fb htb i h2 s ⟨57, hk⟩ = landB c s ⟨57, hk⟩ (N2 c tb i h2 ⟨57, hk⟩) (N2_lt c tb htb i h2 ⟨57, hk⟩) fb :=
  (by unfold L2B; rfl : L2B c tb fb htb i h2 s ⟨57, hk⟩ = landedJ c (s2B_57 c tb htb i h2) (rowM scB s ⟨57, Nat.le_of_ble_eq_true rfl⟩) fb).trans (landJ_B c s _ _ (N2_lt c tb htb i h2 ⟨57, hk⟩) fb)
theorem L2B_at_58 (htb : ∀ y, (tb y).toNat < 4096) (i : grid0.Coords) (h2 : k0_cond2 i = 1#1) (s : Fin 2) (hk : 58 < 64) :
    L2B c tb fb htb i h2 s ⟨58, hk⟩ = landB c s ⟨58, hk⟩ (N2 c tb i h2 ⟨58, hk⟩) (N2_lt c tb htb i h2 ⟨58, hk⟩) fb :=
  (by unfold L2B; rfl : L2B c tb fb htb i h2 s ⟨58, hk⟩ = landedJ c (s2B_58 c tb htb i h2) (rowM scB s ⟨58, Nat.le_of_ble_eq_true rfl⟩) fb).trans (landJ_B c s _ _ (N2_lt c tb htb i h2 ⟨58, hk⟩) fb)
theorem L2B_at_59 (htb : ∀ y, (tb y).toNat < 4096) (i : grid0.Coords) (h2 : k0_cond2 i = 1#1) (s : Fin 2) (hk : 59 < 64) :
    L2B c tb fb htb i h2 s ⟨59, hk⟩ = landB c s ⟨59, hk⟩ (N2 c tb i h2 ⟨59, hk⟩) (N2_lt c tb htb i h2 ⟨59, hk⟩) fb :=
  (by unfold L2B; rfl : L2B c tb fb htb i h2 s ⟨59, hk⟩ = landedJ c (s2B_59 c tb htb i h2) (rowM scB s ⟨59, Nat.le_of_ble_eq_true rfl⟩) fb).trans (landJ_B c s _ _ (N2_lt c tb htb i h2 ⟨59, hk⟩) fb)
theorem L2B_at_60 (htb : ∀ y, (tb y).toNat < 4096) (i : grid0.Coords) (h2 : k0_cond2 i = 1#1) (s : Fin 2) (hk : 60 < 64) :
    L2B c tb fb htb i h2 s ⟨60, hk⟩ = landB c s ⟨60, hk⟩ (N2 c tb i h2 ⟨60, hk⟩) (N2_lt c tb htb i h2 ⟨60, hk⟩) fb :=
  (by unfold L2B; rfl : L2B c tb fb htb i h2 s ⟨60, hk⟩ = landedJ c (s2B_60 c tb htb i h2) (rowM scB s ⟨60, Nat.le_of_ble_eq_true rfl⟩) fb).trans (landJ_B c s _ _ (N2_lt c tb htb i h2 ⟨60, hk⟩) fb)
theorem L2B_at_61 (htb : ∀ y, (tb y).toNat < 4096) (i : grid0.Coords) (h2 : k0_cond2 i = 1#1) (s : Fin 2) (hk : 61 < 64) :
    L2B c tb fb htb i h2 s ⟨61, hk⟩ = landB c s ⟨61, hk⟩ (N2 c tb i h2 ⟨61, hk⟩) (N2_lt c tb htb i h2 ⟨61, hk⟩) fb :=
  (by unfold L2B; rfl : L2B c tb fb htb i h2 s ⟨61, hk⟩ = landedJ c (s2B_61 c tb htb i h2) (rowM scB s ⟨61, Nat.le_of_ble_eq_true rfl⟩) fb).trans (landJ_B c s _ _ (N2_lt c tb htb i h2 ⟨61, hk⟩) fb)
theorem L2B_at_62 (htb : ∀ y, (tb y).toNat < 4096) (i : grid0.Coords) (h2 : k0_cond2 i = 1#1) (s : Fin 2) (hk : 62 < 64) :
    L2B c tb fb htb i h2 s ⟨62, hk⟩ = landB c s ⟨62, hk⟩ (N2 c tb i h2 ⟨62, hk⟩) (N2_lt c tb htb i h2 ⟨62, hk⟩) fb :=
  (by unfold L2B; rfl : L2B c tb fb htb i h2 s ⟨62, hk⟩ = landedJ c (s2B_62 c tb htb i h2) (rowM scB s ⟨62, Nat.le_of_ble_eq_true rfl⟩) fb).trans (landJ_B c s _ _ (N2_lt c tb htb i h2 ⟨62, hk⟩) fb)
theorem L2B_at_63 (htb : ∀ y, (tb y).toNat < 4096) (i : grid0.Coords) (h2 : k0_cond2 i = 1#1) (s : Fin 2) (hk : 63 < 64) :
    L2B c tb fb htb i h2 s ⟨63, hk⟩ = landB c s ⟨63, hk⟩ (N2 c tb i h2 ⟨63, hk⟩) (N2_lt c tb htb i h2 ⟨63, hk⟩) fb :=
  (by unfold L2B; rfl : L2B c tb fb htb i h2 s ⟨63, hk⟩ = landedJ c (s2B_63 c tb htb i h2) (rowM scB s ⟨63, Nat.le_of_ble_eq_true rfl⟩) fb).trans (landJ_B c s _ _ (N2_lt c tb htb i h2 ⟨63, hk⟩) fb)
/-- Each of the 64 landed contents of fetch 2, array B, is the generic landed row at its row number. -/
theorem L2B_at (htb : ∀ y, (tb y).toNat < 4096) (i : grid0.Coords) (h2 : k0_cond2 i = 1#1) (s : Fin 2) : ∀ r : Fin 64, L2B c tb fb htb i h2 s r = landB c s r (N2 c tb i h2 r) (N2_lt c tb htb i h2 r) fb
  | ⟨0, hk⟩ => L2B_at_0 c tb fb htb i h2 s hk
  | ⟨1, hk⟩ => L2B_at_1 c tb fb htb i h2 s hk
  | ⟨2, hk⟩ => L2B_at_2 c tb fb htb i h2 s hk
  | ⟨3, hk⟩ => L2B_at_3 c tb fb htb i h2 s hk
  | ⟨4, hk⟩ => L2B_at_4 c tb fb htb i h2 s hk
  | ⟨5, hk⟩ => L2B_at_5 c tb fb htb i h2 s hk
  | ⟨6, hk⟩ => L2B_at_6 c tb fb htb i h2 s hk
  | ⟨7, hk⟩ => L2B_at_7 c tb fb htb i h2 s hk
  | ⟨8, hk⟩ => L2B_at_8 c tb fb htb i h2 s hk
  | ⟨9, hk⟩ => L2B_at_9 c tb fb htb i h2 s hk
  | ⟨10, hk⟩ => L2B_at_10 c tb fb htb i h2 s hk
  | ⟨11, hk⟩ => L2B_at_11 c tb fb htb i h2 s hk
  | ⟨12, hk⟩ => L2B_at_12 c tb fb htb i h2 s hk
  | ⟨13, hk⟩ => L2B_at_13 c tb fb htb i h2 s hk
  | ⟨14, hk⟩ => L2B_at_14 c tb fb htb i h2 s hk
  | ⟨15, hk⟩ => L2B_at_15 c tb fb htb i h2 s hk
  | ⟨16, hk⟩ => L2B_at_16 c tb fb htb i h2 s hk
  | ⟨17, hk⟩ => L2B_at_17 c tb fb htb i h2 s hk
  | ⟨18, hk⟩ => L2B_at_18 c tb fb htb i h2 s hk
  | ⟨19, hk⟩ => L2B_at_19 c tb fb htb i h2 s hk
  | ⟨20, hk⟩ => L2B_at_20 c tb fb htb i h2 s hk
  | ⟨21, hk⟩ => L2B_at_21 c tb fb htb i h2 s hk
  | ⟨22, hk⟩ => L2B_at_22 c tb fb htb i h2 s hk
  | ⟨23, hk⟩ => L2B_at_23 c tb fb htb i h2 s hk
  | ⟨24, hk⟩ => L2B_at_24 c tb fb htb i h2 s hk
  | ⟨25, hk⟩ => L2B_at_25 c tb fb htb i h2 s hk
  | ⟨26, hk⟩ => L2B_at_26 c tb fb htb i h2 s hk
  | ⟨27, hk⟩ => L2B_at_27 c tb fb htb i h2 s hk
  | ⟨28, hk⟩ => L2B_at_28 c tb fb htb i h2 s hk
  | ⟨29, hk⟩ => L2B_at_29 c tb fb htb i h2 s hk
  | ⟨30, hk⟩ => L2B_at_30 c tb fb htb i h2 s hk
  | ⟨31, hk⟩ => L2B_at_31 c tb fb htb i h2 s hk
  | ⟨32, hk⟩ => L2B_at_32 c tb fb htb i h2 s hk
  | ⟨33, hk⟩ => L2B_at_33 c tb fb htb i h2 s hk
  | ⟨34, hk⟩ => L2B_at_34 c tb fb htb i h2 s hk
  | ⟨35, hk⟩ => L2B_at_35 c tb fb htb i h2 s hk
  | ⟨36, hk⟩ => L2B_at_36 c tb fb htb i h2 s hk
  | ⟨37, hk⟩ => L2B_at_37 c tb fb htb i h2 s hk
  | ⟨38, hk⟩ => L2B_at_38 c tb fb htb i h2 s hk
  | ⟨39, hk⟩ => L2B_at_39 c tb fb htb i h2 s hk
  | ⟨40, hk⟩ => L2B_at_40 c tb fb htb i h2 s hk
  | ⟨41, hk⟩ => L2B_at_41 c tb fb htb i h2 s hk
  | ⟨42, hk⟩ => L2B_at_42 c tb fb htb i h2 s hk
  | ⟨43, hk⟩ => L2B_at_43 c tb fb htb i h2 s hk
  | ⟨44, hk⟩ => L2B_at_44 c tb fb htb i h2 s hk
  | ⟨45, hk⟩ => L2B_at_45 c tb fb htb i h2 s hk
  | ⟨46, hk⟩ => L2B_at_46 c tb fb htb i h2 s hk
  | ⟨47, hk⟩ => L2B_at_47 c tb fb htb i h2 s hk
  | ⟨48, hk⟩ => L2B_at_48 c tb fb htb i h2 s hk
  | ⟨49, hk⟩ => L2B_at_49 c tb fb htb i h2 s hk
  | ⟨50, hk⟩ => L2B_at_50 c tb fb htb i h2 s hk
  | ⟨51, hk⟩ => L2B_at_51 c tb fb htb i h2 s hk
  | ⟨52, hk⟩ => L2B_at_52 c tb fb htb i h2 s hk
  | ⟨53, hk⟩ => L2B_at_53 c tb fb htb i h2 s hk
  | ⟨54, hk⟩ => L2B_at_54 c tb fb htb i h2 s hk
  | ⟨55, hk⟩ => L2B_at_55 c tb fb htb i h2 s hk
  | ⟨56, hk⟩ => L2B_at_56 c tb fb htb i h2 s hk
  | ⟨57, hk⟩ => L2B_at_57 c tb fb htb i h2 s hk
  | ⟨58, hk⟩ => L2B_at_58 c tb fb htb i h2 s hk
  | ⟨59, hk⟩ => L2B_at_59 c tb fb htb i h2 s hk
  | ⟨60, hk⟩ => L2B_at_60 c tb fb htb i h2 s hk
  | ⟨61, hk⟩ => L2B_at_61 c tb fb htb i h2 s hk
  | ⟨62, hk⟩ => L2B_at_62 c tb fb htb i h2 s hk
  | ⟨63, hk⟩ => L2B_at_63 c tb fb htb i h2 s hk
  | ⟨_ + 64, h⟩ => absurd h (Nat.not_lt.2 (Nat.le_add_left _ _))
/-- Slot s of array B's scratch, read whole once the copies of fetch 2 of grid point t have landed, is the gathered rows. -/
theorem read2B (htb : ∀ y, (tb y).toNat < 4096) (t : Fin grid0.N) (h2 : k0_cond2 (grid0.coords t) = 1#1) (hb : (t.val + 1) < 32) (s : Fin 2) :
    scB.view.readAt (Elt F) (Rect.unit (s := S2x8x64x1024) ![s.val, 0, 0, 0] S1x8x64x1024.size (inb_slot s)).toLoadRect (glue_B c (L2B c tb fb htb (grid0.coords t) h2 s)) = gath fb (rowsOf tb (t.val + 1)) :=
  (read_landB c s (N2 c tb (grid0.coords t) h2) (N2_lt c tb htb (grid0.coords t) h2) fb (L2B c tb fb htb (grid0.coords t) h2 s) (L2B_at c tb fb htb (grid0.coords t) h2 s)).trans
    (congrArg (gath fb) (funext (rows2_eq c tb htb t h2 hb)))

end

end Cert.Kernel.Hand

end
-- ==== Proof.K.TokFam.lean ====
/-
  A slot's 64 read shares of an argument array, each split into the array row its copy borrows and the rest of the share.

  Share by share this is the split of a points-to along a subset (the row's elements and their complement); under the
  separating conjunction over the 64 row numbers the 64 splits are one equation, and the conjunction of the pairs is the
  pair of the conjunctions. The last lemma restates such an equation when the two conjunctions are spelt otherwise.
-/
import proofs.«422764_j1194000908612_2_alg».proof.Proof.Gen.Kernel.Launch
import proofs.«422764_j1194000908612_2_alg».proof.Proof.Gen.Kernel.Skeleton
import proofs.«422764_j1194000908612_2_alg».proof.Proof.K.Names
import proofs.«422764_j1194000908612_2_alg».proof.Proof.K.Plumb
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The 64 shares q r of array aM whole: the 64 rows at offsets off r, each at its share, and what is left of each share. -/
theorem toks_family_a (c : Dev nD) (q : Fin 64 → PosShare TreeShare) (off : Fin 64 → Fin 3 → ℕ)
    (h : ∀ r a, off r a + S8x1x1024.size a ≤ S8x4096x1024.size a) (fx : MBuf (F := F) c aM) :
    bigSep Finset.univ (fun r : Fin 64 => (aM.view.loc (c : Thread nD τ) ↦{q r} fx : sProp 𝕄))
      = iprop(bigSep Finset.univ (fun r : Fin 64 => heldQ (F := F) c (srcM aM (off r) (h r)) (q r) fx)
          ∗ bigSep Finset.univ (fun r : Fin 64 => (aM.view.loc (c : Thread nD τ) ↦[Finset.univ \ (srcM aM (off r) (h r)).view.set]{q r} fx : sProp 𝕄))) := by
  refine Eq.trans (BI.bigSep_congr fun r _ => BI.equiv_iff.mp ⟨(tok_split_a c (q r) (off r) (h r) fx).1, (tok_split_a c (q r) (off r) (h r) fx).2⟩) ?_
  exact BI.bigSep_sep _ _ _

/-- The same for array bM. -/
theorem toks_family_b (c : Dev nD) (q : Fin 64 → PosShare TreeShare) (off : Fin 64 → Fin 3 → ℕ)
    (h : ∀ r a, off r a + S8x1x1024.size a ≤ S8x4096x1024.size a) (fx : MBuf (F := F) c bM) :
    bigSep Finset.univ (fun r : Fin 64 => (bM.view.loc (c : Thread nD τ) ↦{q r} fx : sProp 𝕄))
      = iprop(bigSep Finset.univ (fun r : Fin 64 => heldQ (F := F) c (srcM bM (off r) (h r)) (q r) fx)
          ∗ bigSep Finset.univ (fun r : Fin 64 => (bM.view.loc (c : Thread nD τ) ↦[Finset.univ \ (srcM bM (off r) (h r)).view.set]{q r} fx : sProp 𝕄))) := by
  refine Eq.trans (BI.bigSep_congr fun r _ => BI.equiv_iff.mp ⟨(tok_split_b c (q r) (off r) (h r) fx).1, (tok_split_b c (q r) (off r) (h r) fx).2⟩) ?_
  exact BI.bigSep_sep _ _ _

/-- An equation P = (∗ S) ∗ (∗ R), its first conjunction written out as a chain and its second family renamed. -/
theorem equiv_of_family {M : Type} [URA M] {P chain : sProp M} {S R R' : Fin 64 → sProp M}
    (e : P = iprop(bigSep Finset.univ S ∗ bigSep Finset.univ R)) (hS : bigSep Finset.univ S = chain) (hR : R = R') :
    P ⊣⊢ iprop(chain ∗ bigSep Finset.univ R') := by
  subst hS hR
  exact ⟨Entails.of_eq e, Entails.of_eq e.symm⟩

end Cert.Kernel.Hand

end
-- ==== Proof.K.Toks.lean ====
/-
  A slot's 64 read shares of an array and the 64 array rows its copies borrow, once per fetch and per array. This module is a TABLE:
  the 64 offset vectors of a fetch's copies with their in-bounds facts, and for each of the four statements the instance of the hand lemmas
  toks_family_a / toks_family_b and equiv_of_family (KI/TokFam.lean) and star64 (KI/Plumb.lean) at that table; every arm of a table is rfl.
-/
import proofs.«422764_j1194000908612_2_alg».proof.Proof.Gen.Kernel.Launch
import proofs.«422764_j1194000908612_2_alg».proof.Proof.Gen.Kernel.Skeleton
import proofs.«422764_j1194000908612_2_alg».proof.Proof.K.Tab
import proofs.«422764_j1194000908612_2_alg».proof.Proof.K.Canon
import proofs.«422764_j1194000908612_2_alg».proof.Proof.K.Plumb
import proofs.«422764_j1194000908612_2_alg».proof.Proof.K.TokFam
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (fa : MBuf (F := F) c aM) (fb : MBuf (F := F) c bM)

/-- The offset vectors of the array rows the 64 copies of fetch 1 read, in the order the copies are started. -/
def O1 (i : grid0.Coords) (h1 : k0_cond1 i = 1#1) : Fin 64 → Fin 3 → ℕ
  | ⟨0, _⟩ => k0_off2 (W1_0 c tb i h1)
  | ⟨1, _⟩ => k0_off4 (W1_1 c tb i h1)
  | ⟨2, _⟩ => k0_off6 (W1_2 c tb i h1)
  | ⟨3, _⟩ => k0_off8 (W1_3 c tb i h1)
  | ⟨4, _⟩ => k0_off10 (W1_4 c tb i h1)
  | ⟨5, _⟩ => k0_off12 (W1_5 c tb i h1)
  | ⟨6, _⟩ => k0_off14 (W1_6 c tb i h1)
  | ⟨7, _⟩ => k0_off16 (W1_7 c tb i h1)
  | ⟨8, _⟩ => k0_off18 (W1_8 c tb i h1)
  | ⟨9, _⟩ => k0_off20 (W1_9 c tb i h1)
  | ⟨10, _⟩ => k0_off22 (W1_10 c tb i h1)
  | ⟨11, _⟩ => k0_off24 (W1_11 c tb i h1)
  | ⟨12, _⟩ => k0_off26 (W1_12 c tb i h1)
  | ⟨13, _⟩ => k0_off28 (W1_13 c tb i h1)
  | ⟨14, _⟩ => k0_off30 (W1_14 c tb i h1)
  | ⟨15, _⟩ => k0_off32 (W1_15 c tb i h1)
  | ⟨16, _⟩ => k0_off34 (W1_16 c tb i h1)
  | ⟨17, _⟩ => k0_off36 (W1_17 c tb i h1)
  | ⟨18, _⟩ => k0_off38 (W1_18 c tb i h1)
  | ⟨19, _⟩ => k0_off40 (W1_19 c tb i h1)
  | ⟨20, _⟩ => k0_off42 (W1_20 c tb i h1)
  | ⟨21, _⟩ => k0_off44 (W1_21 c tb i h1)
  | ⟨22, _⟩ => k0_off46 (W1_22 c tb i h1)
  | ⟨23, _⟩ => k0_off48 (W1_23 c tb i h1)
  | ⟨24, _⟩ => k0_off50 (W1_24 c tb i h1)
  | ⟨25, _⟩ => k0_off52 (W1_25 c tb i h1)
  | ⟨26, _⟩ => k0_off54 (W1_26 c tb i h1)
  | ⟨27, _⟩ => k0_off56 (W1_27 c tb i h1)
  | ⟨28, _⟩ => k0_off58 (W1_28 c tb i h1)
  | ⟨29, _⟩ => k0_off60 (W1_29 c tb i h1)
  | ⟨30, _⟩ => k0_off62 (W1_30 c tb i h1)
  | ⟨31, _⟩ => k0_off64 (W1_31 c tb i h1)
  | ⟨32, _⟩ => k0_off66 (W1_32 c tb i h1)
  | ⟨33, _⟩ => k0_off68 (W1_33 c tb i h1)
  | ⟨34, _⟩ => k0_off70 (W1_34 c tb i h1)
  | ⟨35, _⟩ => k0_off72 (W1_35 c tb i h1)
  | ⟨36, _⟩ => k0_off74 (W1_36 c tb i h1)
  | ⟨37, _⟩ => k0_off76 (W1_37 c tb i h1)
  | ⟨38, _⟩ => k0_off78 (W1_38 c tb i h1)
  | ⟨39, _⟩ => k0_off80 (W1_39 c tb i h1)
  | ⟨40, _⟩ => k0_off82 (W1_40 c tb i h1)
  | ⟨41, _⟩ => k0_off84 (W1_41 c tb i h1)
  | ⟨42, _⟩ => k0_off86 (W1_42 c tb i h1)
  | ⟨43, _⟩ => k0_off88 (W1_43 c tb i h1)
  | ⟨44, _⟩ => k0_off90 (W1_44 c tb i h1)
  | ⟨45, _⟩ => k0_off92 (W1_45 c tb i h1)
  | ⟨46, _⟩ => k0_off94 (W1_46 c tb i h1)
  | ⟨47, _⟩ => k0_off96 (W1_47 c tb i h1)
  | ⟨48, _⟩ => k0_off98 (W1_48 c tb i h1)
  | ⟨49, _⟩ => k0_off100 (W1_49 c tb i h1)
  | ⟨50, _⟩ => k0_off102 (W1_50 c tb i h1)
  | ⟨51, _⟩ => k0_off104 (W1_51 c tb i h1)
  | ⟨52, _⟩ => k0_off106 (W1_52 c tb i h1)
  | ⟨53, _⟩ => k0_off108 (W1_53 c tb i h1)
  | ⟨54, _⟩ => k0_off110 (W1_54 c tb i h1)
  | ⟨55, _⟩ => k0_off112 (W1_55 c tb i h1)
  | ⟨56, _⟩ => k0_off114 (W1_56 c tb i h1)
  | ⟨57, _⟩ => k0_off116 (W1_57 c tb i h1)
  | ⟨58, _⟩ => k0_off118 (W1_58 c tb i h1)
  | ⟨59, _⟩ => k0_off120 (W1_59 c tb i h1)
  | ⟨60, _⟩ => k0_off122 (W1_60 c tb i h1)
  | ⟨61, _⟩ => k0_off124 (W1_61 c tb i h1)
  | ⟨62, _⟩ => k0_off126 (W1_62 c tb i h1)
  | ⟨63, _⟩ => k0_off128 (W1_63 c tb i h1)
  | ⟨_ + 64, h⟩ => absurd h (Nat.not_lt.2 (Nat.le_add_left _ _))
/-- Each names a row inside the array. -/
theorem H1 (htb : ∀ y, (tb y).toNat < 4096) (i : grid0.Coords) (h1 : k0_cond1 i = 1#1) : ∀ (r : Fin 64) (a : Fin 3), O1 c tb i h1 r a + S8x1x1024.size a ≤ S8x4096x1024.size a
  | ⟨0, _⟩ => k0_off2_inb i _ (hw1_0 c tb htb i h1) h1
  | ⟨1, _⟩ => k0_off4_inb i _ (hw1_1 c tb htb i h1) h1
  | ⟨2, _⟩ => k0_off6_inb i _ (hw1_2 c tb htb i h1) h1
  | ⟨3, _⟩ => k0_off8_inb i _ (hw1_3 c tb htb i h1) h1
  | ⟨4, _⟩ => k0_off10_inb i _ (hw1_4 c tb htb i h1) h1
  | ⟨5, _⟩ => k0_off12_inb i _ (hw1_5 c tb htb i h1) h1
  | ⟨6, _⟩ => k0_off14_inb i _ (hw1_6 c tb htb i h1) h1
  | ⟨7, _⟩ => k0_off16_inb i _ (hw1_7 c tb htb i h1) h1
  | ⟨8, _⟩ => k0_off18_inb i _ (hw1_8 c tb htb i h1) h1
  | ⟨9, _⟩ => k0_off20_inb i _ (hw1_9 c tb htb i h1) h1
  | ⟨10, _⟩ => k0_off22_inb i _ (hw1_10 c tb htb i h1) h1
  | ⟨11, _⟩ => k0_off24_inb i _ (hw1_11 c tb htb i h1) h1
  | ⟨12, _⟩ => k0_off26_inb i _ (hw1_12 c tb htb i h1) h1
  | ⟨13, _⟩ => k0_off28_inb i _ (hw1_13 c tb htb i h1) h1
  | ⟨14, _⟩ => k0_off30_inb i _ (hw1_14 c tb htb i h1) h1
  | ⟨15, _⟩ => k0_off32_inb i _ (hw1_15 c tb htb i h1) h1
  | ⟨16, _⟩ => k0_off34_inb i _ (hw1_16 c tb htb i h1) h1
  | ⟨17, _⟩ => k0_off36_inb i _ (hw1_17 c tb htb i h1) h1
  | ⟨18, _⟩ => k0_off38_inb i _ (hw1_18 c tb htb i h1) h1
  | ⟨19, _⟩ => k0_off40_inb i _ (hw1_19 c tb htb i h1) h1
  | ⟨20, _⟩ => k0_off42_inb i _ (hw1_20 c tb htb i h1) h1
  | ⟨21, _⟩ => k0_off44_inb i _ (hw1_21 c tb htb i h1) h1
  | ⟨22, _⟩ => k0_off46_inb i _ (hw1_22 c tb htb i h1) h1
  | ⟨23, _⟩ => k0_off48_inb i _ (hw1_23 c tb htb i h1) h1
  | ⟨24, _⟩ => k0_off50_inb i _ (hw1_24 c tb htb i h1) h1
  | ⟨25, _⟩ => k0_off52_inb i _ (hw1_25 c tb htb i h1) h1
  | ⟨26, _⟩ => k0_off54_inb i _ (hw1_26 c tb htb i h1) h1
  | ⟨27, _⟩ => k0_off56_inb i _ (hw1_27 c tb htb i h1) h1
  | ⟨28, _⟩ => k0_off58_inb i _ (hw1_28 c tb htb i h1) h1
  | ⟨29, _⟩ => k0_off60_inb i _ (hw1_29 c tb htb i h1) h1
  | ⟨30, _⟩ => k0_off62_inb i _ (hw1_30 c tb htb i h1) h1
  | ⟨31, _⟩ => k0_off64_inb i _ (hw1_31 c tb htb i h1) h1
  | ⟨32, _⟩ => k0_off66_inb i _ (hw1_32 c tb htb i h1) h1
  | ⟨33, _⟩ => k0_off68_inb i _ (hw1_33 c tb htb i h1) h1
  | ⟨34, _⟩ => k0_off70_inb i _ (hw1_34 c tb htb i h1) h1
  | ⟨35, _⟩ => k0_off72_inb i _ (hw1_35 c tb htb i h1) h1
  | ⟨36, _⟩ => k0_off74_inb i _ (hw1_36 c tb htb i h1) h1
  | ⟨37, _⟩ => k0_off76_inb i _ (hw1_37 c tb htb i h1) h1
  | ⟨38, _⟩ => k0_off78_inb i _ (hw1_38 c tb htb i h1) h1
  | ⟨39, _⟩ => k0_off80_inb i _ (hw1_39 c tb htb i h1) h1
  | ⟨40, _⟩ => k0_off82_inb i _ (hw1_40 c tb htb i h1) h1
  | ⟨41, _⟩ => k0_off84_inb i _ (hw1_41 c tb htb i h1) h1
  | ⟨42, _⟩ => k0_off86_inb i _ (hw1_42 c tb htb i h1) h1
  | ⟨43, _⟩ => k0_off88_inb i _ (hw1_43 c tb htb i h1) h1
  | ⟨44, _⟩ => k0_off90_inb i _ (hw1_44 c tb htb i h1) h1
  | ⟨45, _⟩ => k0_off92_inb i _ (hw1_45 c tb htb i h1) h1
  | ⟨46, _⟩ => k0_off94_inb i _ (hw1_46 c tb htb i h1) h1
  | ⟨47, _⟩ => k0_off96_inb i _ (hw1_47 c tb htb i h1) h1
  | ⟨48, _⟩ => k0_off98_inb i _ (hw1_48 c tb htb i h1) h1
  | ⟨49, _⟩ => k0_off100_inb i _ (hw1_49 c tb htb i h1) h1
  | ⟨50, _⟩ => k0_off102_inb i _ (hw1_50 c tb htb i h1) h1
  | ⟨51, _⟩ => k0_off104_inb i _ (hw1_51 c tb htb i h1) h1
  | ⟨52, _⟩ => k0_off106_inb i _ (hw1_52 c tb htb i h1) h1
  | ⟨53, _⟩ => k0_off108_inb i _ (hw1_53 c tb htb i h1) h1
  | ⟨54, _⟩ => k0_off110_inb i _ (hw1_54 c tb htb i h1) h1
  | ⟨55, _⟩ => k0_off112_inb i _ (hw1_55 c tb htb i h1) h1
  | ⟨56, _⟩ => k0_off114_inb i _ (hw1_56 c tb htb i h1) h1
  | ⟨57, _⟩ => k0_off116_inb i _ (hw1_57 c tb htb i h1) h1
  | ⟨58, _⟩ => k0_off118_inb i _ (hw1_58 c tb htb i h1) h1
  | ⟨59, _⟩ => k0_off120_inb i _ (hw1_59 c tb htb i h1) h1
  | ⟨60, _⟩ => k0_off122_inb i _ (hw1_60 c tb htb i h1) h1
  | ⟨61, _⟩ => k0_off124_inb i _ (hw1_61 c tb htb i h1) h1
  | ⟨62, _⟩ => k0_off126_inb i _ (hw1_62 c tb htb i h1) h1
  | ⟨63, _⟩ => k0_off128_inb i _ (hw1_63 c tb htb i h1) h1
  | ⟨_ + 64, h⟩ => absurd h (Nat.not_lt.2 (Nat.le_add_left _ _))
/-- The offset vectors of the array rows the 64 copies of fetch 2 read, in the order the copies are started. -/
def O2 (i : grid0.Coords) (h2 : k0_cond2 i = 1#1) : Fin 64 → Fin 3 → ℕ
  | ⟨0, _⟩ => k0_off197 (W2_0 c tb i h2)
  | ⟨1, _⟩ => k0_off202 (W2_1 c tb i h2)
  | ⟨2, _⟩ => k0_off207 (W2_2 c tb i h2)
  | ⟨3, _⟩ => k0_off212 (W2_3 c tb i h2)
  | ⟨4, _⟩ => k0_off217 (W2_4 c tb i h2)
  | ⟨5, _⟩ => k0_off222 (W2_5 c tb i h2)
  | ⟨6, _⟩ => k0_off227 (W2_6 c tb i h2)
  | ⟨7, _⟩ => k0_off232 (W2_7 c tb i h2)
  | ⟨8, _⟩ => k0_off237 (W2_8 c tb i h2)
  | ⟨9, _⟩ => k0_off242 (W2_9 c tb i h2)
  | ⟨10, _⟩ => k0_off247 (W2_10 c tb i h2)
  | ⟨11, _⟩ => k0_off252 (W2_11 c tb i h2)
  | ⟨12, _⟩ => k0_off257 (W2_12 c tb i h2)
  | ⟨13, _⟩ => k0_off262 (W2_13 c tb i h2)
  | ⟨14, _⟩ => k0_off267 (W2_14 c tb i h2)
  | ⟨15, _⟩ => k0_off272 (W2_15 c tb i h2)
  | ⟨16, _⟩ => k0_off277 (W2_16 c tb i h2)
  | ⟨17, _⟩ => k0_off282 (W2_17 c tb i h2)
  | ⟨18, _⟩ => k0_off287 (W2_18 c tb i h2)
  | ⟨19, _⟩ => k0_off292 (W2_19 c tb i h2)
  | ⟨20, _⟩ => k0_off297 (W2_20 c tb i h2)
  | ⟨21, _⟩ => k0_off302 (W2_21 c tb i h2)
  | ⟨22, _⟩ => k0_off307 (W2_22 c tb i h2)
  | ⟨23, _⟩ => k0_off312 (W2_23 c tb i h2)
  | ⟨24, _⟩ => k0_off317 (W2_24 c tb i h2)
  | ⟨25, _⟩ => k0_off322 (W2_25 c tb i h2)
  | ⟨26, _⟩ => k0_off327 (W2_26 c tb i h2)
  | ⟨27, _⟩ => k0_off332 (W2_27 c tb i h2)
  | ⟨28, _⟩ => k0_off337 (W2_28 c tb i h2)
  | ⟨29, _⟩ => k0_off342 (W2_29 c tb i h2)
  | ⟨30, _⟩ => k0_off347 (W2_30 c tb i h2)
  | ⟨31, _⟩ => k0_off352 (W2_31 c tb i h2)
  | ⟨32, _⟩ => k0_off357 (W2_32 c tb i h2)
  | ⟨33, _⟩ => k0_off362 (W2_33 c tb i h2)
  | ⟨34, _⟩ => k0_off367 (W2_34 c tb i h2)
  | ⟨35, _⟩ => k0_off372 (W2_35 c tb i h2)
  | ⟨36, _⟩ => k0_off377 (W2_36 c tb i h2)
  | ⟨37, _⟩ => k0_off382 (W2_37 c tb i h2)
  | ⟨38, _⟩ => k0_off387 (W2_38 c tb i h2)
  | ⟨39, _⟩ => k0_off392 (W2_39 c tb i h2)
  | ⟨40, _⟩ => k0_off397 (W2_40 c tb i h2)
  | ⟨41, _⟩ => k0_off402 (W2_41 c tb i h2)
  | ⟨42, _⟩ => k0_off407 (W2_42 c tb i h2)
  | ⟨43, _⟩ => k0_off412 (W2_43 c tb i h2)
  | ⟨44, _⟩ => k0_off417 (W2_44 c tb i h2)
  | ⟨45, _⟩ => k0_off422 (W2_45 c tb i h2)
  | ⟨46, _⟩ => k0_off427 (W2_46 c tb i h2)
  | ⟨47, _⟩ => k0_off432 (W2_47 c tb i h2)
  | ⟨48, _⟩ => k0_off437 (W2_48 c tb i h2)
  | ⟨49, _⟩ => k0_off442 (W2_49 c tb i h2)
  | ⟨50, _⟩ => k0_off447 (W2_50 c tb i h2)
  | ⟨51, _⟩ => k0_off452 (W2_51 c tb i h2)
  | ⟨52, _⟩ => k0_off457 (W2_52 c tb i h2)
  | ⟨53, _⟩ => k0_off462 (W2_53 c tb i h2)
  | ⟨54, _⟩ => k0_off467 (W2_54 c tb i h2)
  | ⟨55, _⟩ => k0_off472 (W2_55 c tb i h2)
  | ⟨56, _⟩ => k0_off477 (W2_56 c tb i h2)
  | ⟨57, _⟩ => k0_off482 (W2_57 c tb i h2)
  | ⟨58, _⟩ => k0_off487 (W2_58 c tb i h2)
  | ⟨59, _⟩ => k0_off492 (W2_59 c tb i h2)
  | ⟨60, _⟩ => k0_off497 (W2_60 c tb i h2)
  | ⟨61, _⟩ => k0_off502 (W2_61 c tb i h2)
  | ⟨62, _⟩ => k0_off507 (W2_62 c tb i h2)
  | ⟨63, _⟩ => k0_off512 (W2_63 c tb i h2)
  | ⟨_ + 64, h⟩ => absurd h (Nat.not_lt.2 (Nat.le_add_left _ _))
/-- Each names a row inside the array. -/
theorem H2 (htb : ∀ y, (tb y).toNat < 4096) (i : grid0.Coords) (h2 : k0_cond2 i = 1#1) : ∀ (r : Fin 64) (a : Fin 3), O2 c tb i h2 r a + S8x1x1024.size a ≤ S8x4096x1024.size a
  | ⟨0, _⟩ => k0_off197_inb i _ (hw2_0 c tb htb i h2) h2
  | ⟨1, _⟩ => k0_off202_inb i _ (hw2_1 c tb htb i h2) h2
  | ⟨2, _⟩ => k0_off207_inb i _ (hw2_2 c tb htb i h2) h2
  | ⟨3, _⟩ => k0_off212_inb i _ (hw2_3 c tb htb i h2) h2
  | ⟨4, _⟩ => k0_off217_inb i _ (hw2_4 c tb htb i h2) h2
  | ⟨5, _⟩ => k0_off222_inb i _ (hw2_5 c tb htb i h2) h2
  | ⟨6, _⟩ => k0_off227_inb i _ (hw2_6 c tb htb i h2) h2
  | ⟨7, _⟩ => k0_off232_inb i _ (hw2_7 c tb htb i h2) h2
  | ⟨8, _⟩ => k0_off237_inb i _ (hw2_8 c tb htb i h2) h2
  | ⟨9, _⟩ => k0_off242_inb i _ (hw2_9 c tb htb i h2) h2
  | ⟨10, _⟩ => k0_off247_inb i _ (hw2_10 c tb htb i h2) h2
  | ⟨11, _⟩ => k0_off252_inb i _ (hw2_11 c tb htb i h2) h2
  | ⟨12, _⟩ => k0_off257_inb i _ (hw2_12 c tb htb i h2) h2
  | ⟨13, _⟩ => k0_off262_inb i _ (hw2_13 c tb htb i h2) h2
  | ⟨14, _⟩ => k0_off267_inb i _ (hw2_14 c tb htb i h2) h2
  | ⟨15, _⟩ => k0_off272_inb i _ (hw2_15 c tb htb i h2) h2
  | ⟨16, _⟩ => k0_off277_inb i _ (hw2_16 c tb htb i h2) h2
  | ⟨17, _⟩ => k0_off282_inb i _ (hw2_17 c tb htb i h2) h2
  | ⟨18, _⟩ => k0_off287_inb i _ (hw2_18 c tb htb i h2) h2
  | ⟨19, _⟩ => k0_off292_inb i _ (hw2_19 c tb htb i h2) h2
  | ⟨20, _⟩ => k0_off297_inb i _ (hw2_20 c tb htb i h2) h2
  | ⟨21, _⟩ => k0_off302_inb i _ (hw2_21 c tb htb i h2) h2
  | ⟨22, _⟩ => k0_off307_inb i _ (hw2_22 c tb htb i h2) h2
  | ⟨23, _⟩ => k0_off312_inb i _ (hw2_23 c tb htb i h2) h2
  | ⟨24, _⟩ => k0_off317_inb i _ (hw2_24 c tb htb i h2) h2
  | ⟨25, _⟩ => k0_off322_inb i _ (hw2_25 c tb htb i h2) h2
  | ⟨26, _⟩ => k0_off327_inb i _ (hw2_26 c tb htb i h2) h2
  | ⟨27, _⟩ => k0_off332_inb i _ (hw2_27 c tb htb i h2) h2
  | ⟨28, _⟩ => k0_off337_inb i _ (hw2_28 c tb htb i h2) h2
  | ⟨29, _⟩ => k0_off342_inb i _ (hw2_29 c tb htb i h2) h2
  | ⟨30, _⟩ => k0_off347_inb i _ (hw2_30 c tb htb i h2) h2
  | ⟨31, _⟩ => k0_off352_inb i _ (hw2_31 c tb htb i h2) h2
  | ⟨32, _⟩ => k0_off357_inb i _ (hw2_32 c tb htb i h2) h2
  | ⟨33, _⟩ => k0_off362_inb i _ (hw2_33 c tb htb i h2) h2
  | ⟨34, _⟩ => k0_off367_inb i _ (hw2_34 c tb htb i h2) h2
  | ⟨35, _⟩ => k0_off372_inb i _ (hw2_35 c tb htb i h2) h2
  | ⟨36, _⟩ => k0_off377_inb i _ (hw2_36 c tb htb i h2) h2
  | ⟨37, _⟩ => k0_off382_inb i _ (hw2_37 c tb htb i h2) h2
  | ⟨38, _⟩ => k0_off387_inb i _ (hw2_38 c tb htb i h2) h2
  | ⟨39, _⟩ => k0_off392_inb i _ (hw2_39 c tb htb i h2) h2
  | ⟨40, _⟩ => k0_off397_inb i _ (hw2_40 c tb htb i h2) h2
  | ⟨41, _⟩ => k0_off402_inb i _ (hw2_41 c tb htb i h2) h2
  | ⟨42, _⟩ => k0_off407_inb i _ (hw2_42 c tb htb i h2) h2
  | ⟨43, _⟩ => k0_off412_inb i _ (hw2_43 c tb htb i h2) h2
  | ⟨44, _⟩ => k0_off417_inb i _ (hw2_44 c tb htb i h2) h2
  | ⟨45, _⟩ => k0_off422_inb i _ (hw2_45 c tb htb i h2) h2
  | ⟨46, _⟩ => k0_off427_inb i _ (hw2_46 c tb htb i h2) h2
  | ⟨47, _⟩ => k0_off432_inb i _ (hw2_47 c tb htb i h2) h2
  | ⟨48, _⟩ => k0_off437_inb i _ (hw2_48 c tb htb i h2) h2
  | ⟨49, _⟩ => k0_off442_inb i _ (hw2_49 c tb htb i h2) h2
  | ⟨50, _⟩ => k0_off447_inb i _ (hw2_50 c tb htb i h2) h2
  | ⟨51, _⟩ => k0_off452_inb i _ (hw2_51 c tb htb i h2) h2
  | ⟨52, _⟩ => k0_off457_inb i _ (hw2_52 c tb htb i h2) h2
  | ⟨53, _⟩ => k0_off462_inb i _ (hw2_53 c tb htb i h2) h2
  | ⟨54, _⟩ => k0_off467_inb i _ (hw2_54 c tb htb i h2) h2
  | ⟨55, _⟩ => k0_off472_inb i _ (hw2_55 c tb htb i h2) h2
  | ⟨56, _⟩ => k0_off477_inb i _ (hw2_56 c tb htb i h2) h2
  | ⟨57, _⟩ => k0_off482_inb i _ (hw2_57 c tb htb i h2) h2
  | ⟨58, _⟩ => k0_off487_inb i _ (hw2_58 c tb htb i h2) h2
  | ⟨59, _⟩ => k0_off492_inb i _ (hw2_59 c tb htb i h2) h2
  | ⟨60, _⟩ => k0_off497_inb i _ (hw2_60 c tb htb i h2) h2
  | ⟨61, _⟩ => k0_off502_inb i _ (hw2_61 c tb htb i h2) h2
  | ⟨62, _⟩ => k0_off507_inb i _ (hw2_62 c tb htb i h2) h2
  | ⟨63, _⟩ => k0_off512_inb i _ (hw2_63 c tb htb i h2) h2
  | ⟨_ + 64, h⟩ => absurd h (Nat.not_lt.2 (Nat.le_add_left _ _))
/-- Slot s's 64 read shares of array A, whole, are the 64 array rows the copies of fetch 1 borrow and what is left of each share. -/
theorem toks1A (htb : ∀ y, (tb y).toNat < 4096) (i : grid0.Coords) (h1 : k0_cond1 i = 1#1) (s : Fin 2) :
    (bigSep Finset.univ (fun r : Fin 64 => (aM.view.loc (c : Thread nD τ) ↦{qTok s r} fa : sProp 𝕄)))
      ⊣⊢ iprop(iprop(heldQ c (s1A_0 c tb htb i h1) (qTok s ⟨0, Nat.le_of_ble_eq_true rfl⟩) fa ∗ heldQ c (s1A_1 c tb htb i h1) (qTok s ⟨1, Nat.le_of_ble_eq_true rfl⟩) fa ∗ heldQ c (s1A_2 c tb htb i h1) (qTok s ⟨2, Nat.le_of_ble_eq_true rfl⟩) fa ∗ heldQ c (s1A_3 c tb htb i h1) (qTok s ⟨3, Nat.le_of_ble_eq_true rfl⟩) fa ∗ heldQ c (s1A_4 c tb htb i h1) (qTok s ⟨4, Nat.le_of_ble_eq_true rfl⟩) fa ∗ heldQ c (s1A_5 c tb htb i h1) (qTok s ⟨5, Nat.le_of_ble_eq_true rfl⟩) fa ∗ heldQ c (s1A_6 c tb htb i h1) (qTok s ⟨6, Nat.le_of_ble_eq_true rfl⟩) fa ∗ heldQ c (s1A_7 c tb htb i h1) (qTok s ⟨7, Nat.le_of_ble_eq_true rfl⟩) fa ∗ heldQ c (s1A_8 c tb htb i h1) (qTok s ⟨8, Nat.le_of_ble_eq_true rfl⟩) fa ∗ heldQ c (s1A_9 c tb htb i h1) (qTok s ⟨9, Nat.le_of_ble_eq_true rfl⟩) fa ∗ heldQ c (s1A_10 c tb htb i h1) (qTok s ⟨10, Nat.le_of_ble_eq_true rfl⟩) fa ∗ heldQ c (s1A_11 c tb htb i h1) (qTok s ⟨11, Nat.le_of_ble_eq_true rfl⟩) fa ∗ heldQ c (s1A_12 c tb htb i h1) (qTok s ⟨12, Nat.le_of_ble_eq_true rfl⟩) fa ∗ heldQ c (s1A_13 c tb htb i h1) (qTok s ⟨13, Nat.le_of_ble_eq_true rfl⟩) fa ∗ heldQ c (s1A_14 c tb htb i h1) (qTok s ⟨14, Nat.le_of_ble_eq_true rfl⟩) fa ∗ heldQ c (s1A_15 c tb htb i h1) (qTok s ⟨15, Nat.le_of_ble_eq_true rfl⟩) fa ∗ heldQ c (s1A_16 c tb htb i h1) (qTok s ⟨16, Nat.le_of_ble_eq_true rfl⟩) fa ∗ heldQ c (s1A_17 c tb htb i h1) (qTok s ⟨17, Nat.le_of_ble_eq_true rfl⟩) fa ∗ heldQ c (s1A_18 c tb htb i h1) (qTok s ⟨18, Nat.le_of_ble_eq_true rfl⟩) fa ∗ heldQ c (s1A_19 c tb htb i h1) (qTok s ⟨19, Nat.le_of_ble_eq_true rfl⟩) fa ∗ heldQ c (s1A_20 c tb htb i h1) (qTok s ⟨20, Nat.le_of_ble_eq_true rfl⟩) fa ∗ heldQ c (s1A_21 c tb htb i h1) (qTok s ⟨21, Nat.le_of_ble_eq_true rfl⟩) fa ∗ heldQ c (s1A_22 c tb htb i h1) (qTok s ⟨22, Nat.le_of_ble_eq_true rfl⟩) fa ∗ heldQ c (s1A_23 c tb htb i h1) (qTok s ⟨23, Nat.le_of_ble_eq_true rfl⟩) fa ∗ heldQ c (s1A_24 c tb htb i h1) (qTok s ⟨24, Nat.le_of_ble_eq_true rfl⟩) fa ∗ heldQ c (s1A_25 c tb htb i h1) (qTok s ⟨25, Nat.le_of_ble_eq_true rfl⟩) fa ∗ heldQ c (s1A_26 c tb htb i h1) (qTok s ⟨26, Nat.le_of_ble_eq_true rfl⟩) fa ∗ heldQ c (s1A_27 c tb htb i h1) (qTok s ⟨27, Nat.le_of_ble_eq_true rfl⟩) fa ∗ heldQ c (s1A_28 c tb htb i h1) (qTok s ⟨28, Nat.le_of_ble_eq_true rfl⟩) fa ∗ heldQ c (s1A_29 c tb htb i h1) (qTok s ⟨29, Nat.le_of_ble_eq_true rfl⟩) fa ∗ heldQ c (s1A_30 c tb htb i h1) (qTok s ⟨30, Nat.le_of_ble_eq_true rfl⟩) fa ∗ heldQ c (s1A_31 c tb htb i h1) (qTok s ⟨31, Nat.le_of_ble_eq_true rfl⟩) fa ∗ heldQ c (s1A_32 c tb htb i h1) (qTok s ⟨32, Nat.le_of_ble_eq_true rfl⟩) fa ∗ heldQ c (s1A_33 c tb htb i h1) (qTok s ⟨33, Nat.le_of_ble_eq_true rfl⟩) fa ∗ heldQ c (s1A_34 c tb htb i h1) (qTok s ⟨34, Nat.le_of_ble_eq_true rfl⟩) fa ∗ heldQ c (s1A_35 c tb htb i h1) (qTok s ⟨35, Nat.le_of_ble_eq_true rfl⟩) fa ∗ heldQ c (s1A_36 c tb htb i h1) (qTok s ⟨36, Nat.le_of_ble_eq_true rfl⟩) fa ∗ heldQ c (s1A_37 c tb htb i h1) (qTok s ⟨37, Nat.le_of_ble_eq_true rfl⟩) fa ∗ heldQ c (s1A_38 c tb htb i h1) (qTok s ⟨38, Nat.le_of_ble_eq_true rfl⟩) fa ∗ heldQ c (s1A_39 c tb htb i h1) (qTok s ⟨39, Nat.le_of_ble_eq_true rfl⟩) fa ∗ heldQ c (s1A_40 c tb htb i h1) (qTok s ⟨40, Nat.le_of_ble_eq_true rfl⟩) fa ∗ heldQ c (s1A_41 c tb htb i h1) (qTok s ⟨41, Nat.le_of_ble_eq_true rfl⟩) fa ∗ heldQ c (s1A_42 c tb htb i h1) (qTok s ⟨42, Nat.le_of_ble_eq_true rfl⟩) fa ∗ heldQ c (s1A_43 c tb htb i h1) (qTok s ⟨43, Nat.le_of_ble_eq_true rfl⟩) fa ∗ heldQ c (s1A_44 c tb htb i h1) (qTok s ⟨44, Nat.le_of_ble_eq_true rfl⟩) fa ∗ heldQ c (s1A_45 c tb htb i h1) (qTok s ⟨45, Nat.le_of_ble_eq_true rfl⟩) fa ∗ heldQ c (s1A_46 c tb htb i h1) (qTok s ⟨46, Nat.le_of_ble_eq_true rfl⟩) fa ∗ heldQ c (s1A_47 c tb htb i h1) (qTok s ⟨47, Nat.le_of_ble_eq_true rfl⟩) fa ∗ heldQ c (s1A_48 c tb htb i h1) (qTok s ⟨48, Nat.le_of_ble_eq_true rfl⟩) fa ∗ heldQ c (s1A_49 c tb htb i h1) (qTok s ⟨49, Nat.le_of_ble_eq_true rfl⟩) fa ∗ heldQ c (s1A_50 c tb htb i h1) (qTok s ⟨50, Nat.le_of_ble_eq_true rfl⟩) fa ∗ heldQ c (s1A_51 c tb htb i h1) (qTok s ⟨51, Nat.le_of_ble_eq_true rfl⟩) fa ∗ heldQ c (s1A_52 c tb htb i h1) (qTok s ⟨52, Nat.le_of_ble_eq_true rfl⟩) fa ∗ heldQ c (s1A_53 c tb htb i h1) (qTok s ⟨53, Nat.le_of_ble_eq_true rfl⟩) fa ∗ heldQ c (s1A_54 c tb htb i h1) (qTok s ⟨54, Nat.le_of_ble_eq_true rfl⟩) fa ∗ heldQ c (s1A_55 c tb htb i h1) (qTok s ⟨55, Nat.le_of_ble_eq_true rfl⟩) fa ∗ heldQ c (s1A_56 c tb htb i h1) (qTok s ⟨56, Nat.le_of_ble_eq_true rfl⟩) fa ∗ heldQ c (s1A_57 c tb htb i h1) (qTok s ⟨57, Nat.le_of_ble_eq_true rfl⟩) fa ∗ heldQ c (s1A_58 c tb htb i h1) (qTok s ⟨58, Nat.le_of_ble_eq_true rfl⟩) fa ∗ heldQ c (s1A_59 c tb htb i h1) (qTok s ⟨59, Nat.le_of_ble_eq_true rfl⟩) fa ∗ heldQ c (s1A_60 c tb htb i h1) (qTok s ⟨60, Nat.le_of_ble_eq_true rfl⟩) fa ∗ heldQ c (s1A_61 c tb htb i h1) (qTok s ⟨61, Nat.le_of_ble_eq_true rfl⟩) fa ∗ heldQ c (s1A_62 c tb htb i h1) (qTok s ⟨62, Nat.le_of_ble_eq_true rfl⟩) fa ∗ heldQ c (s1A_63 c tb htb i h1) (qTok s ⟨63, Nat.le_of_ble_eq_true rfl⟩) fa) ∗ bigSep Finset.univ (R1A c tb fa htb i h1 s)) := by
  refine equiv_of_family (toks_family_a (F := F) c (qTok s) (O1 c tb i h1) (H1 c tb htb i h1) fa) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))
/-- Slot s's 64 read shares of array B, whole, are the 64 array rows the copies of fetch 1 borrow and what is left of each share. -/
theorem toks1B (htb : ∀ y, (tb y).toNat < 4096) (i : grid0.Coords) (h1 : k0_cond1 i = 1#1) (s : Fin 2) :
    (bigSep Finset.univ (fun r : Fin 64 => (bM.view.loc (c : Thread nD τ) ↦{qTok s r} fb : sProp 𝕄)))
      ⊣⊢ iprop(iprop(heldQ c (s1B_0 c tb htb i h1) (qTok s ⟨0, Nat.le_of_ble_eq_true rfl⟩) fb ∗ heldQ c (s1B_1 c tb htb i h1) (qTok s ⟨1, Nat.le_of_ble_eq_true rfl⟩) fb ∗ heldQ c (s1B_2 c tb htb i h1) (qTok s ⟨2, Nat.le_of_ble_eq_true rfl⟩) fb ∗ heldQ c (s1B_3 c tb htb i h1) (qTok s ⟨3, Nat.le_of_ble_eq_true rfl⟩) fb ∗ heldQ c (s1B_4 c tb htb i h1) (qTok s ⟨4, Nat.le_of_ble_eq_true rfl⟩) fb ∗ heldQ c (s1B_5 c tb htb i h1) (qTok s ⟨5, Nat.le_of_ble_eq_true rfl⟩) fb ∗ heldQ c (s1B_6 c tb htb i h1) (qTok s ⟨6, Nat.le_of_ble_eq_true rfl⟩) fb ∗ heldQ c (s1B_7 c tb htb i h1) (qTok s ⟨7, Nat.le_of_ble_eq_true rfl⟩) fb ∗ heldQ c (s1B_8 c tb htb i h1) (qTok s ⟨8, Nat.le_of_ble_eq_true rfl⟩) fb ∗ heldQ c (s1B_9 c tb htb i h1) (qTok s ⟨9, Nat.le_of_ble_eq_true rfl⟩) fb ∗ heldQ c (s1B_10 c tb htb i h1) (qTok s ⟨10, Nat.le_of_ble_eq_true rfl⟩) fb ∗ heldQ c (s1B_11 c tb htb i h1) (qTok s ⟨11, Nat.le_of_ble_eq_true rfl⟩) fb ∗ heldQ c (s1B_12 c tb htb i h1) (qTok s ⟨12, Nat.le_of_ble_eq_true rfl⟩) fb ∗ heldQ c (s1B_13 c tb htb i h1) (qTok s ⟨13, Nat.le_of_ble_eq_true rfl⟩) fb ∗ heldQ c (s1B_14 c tb htb i h1) (qTok s ⟨14, Nat.le_of_ble_eq_true rfl⟩) fb ∗ heldQ c (s1B_15 c tb htb i h1) (qTok s ⟨15, Nat.le_of_ble_eq_true rfl⟩) fb ∗ heldQ c (s1B_16 c tb htb i h1) (qTok s ⟨16, Nat.le_of_ble_eq_true rfl⟩) fb ∗ heldQ c (s1B_17 c tb htb i h1) (qTok s ⟨17, Nat.le_of_ble_eq_true rfl⟩) fb ∗ heldQ c (s1B_18 c tb htb i h1) (qTok s ⟨18, Nat.le_of_ble_eq_true rfl⟩) fb ∗ heldQ c (s1B_19 c tb htb i h1) (qTok s ⟨19, Nat.le_of_ble_eq_true rfl⟩) fb ∗ heldQ c (s1B_20 c tb htb i h1) (qTok s ⟨20, Nat.le_of_ble_eq_true rfl⟩) fb ∗ heldQ c (s1B_21 c tb htb i h1) (qTok s ⟨21, Nat.le_of_ble_eq_true rfl⟩) fb ∗ heldQ c (s1B_22 c tb htb i h1) (qTok s ⟨22, Nat.le_of_ble_eq_true rfl⟩) fb ∗ heldQ c (s1B_23 c tb htb i h1) (qTok s ⟨23, Nat.le_of_ble_eq_true rfl⟩) fb ∗ heldQ c (s1B_24 c tb htb i h1) (qTok s ⟨24, Nat.le_of_ble_eq_true rfl⟩) fb ∗ heldQ c (s1B_25 c tb htb i h1) (qTok s ⟨25, Nat.le_of_ble_eq_true rfl⟩) fb ∗ heldQ c (s1B_26 c tb htb i h1) (qTok s ⟨26, Nat.le_of_ble_eq_true rfl⟩) fb ∗ heldQ c (s1B_27 c tb htb i h1) (qTok s ⟨27, Nat.le_of_ble_eq_true rfl⟩) fb ∗ heldQ c (s1B_28 c tb htb i h1) (qTok s ⟨28, Nat.le_of_ble_eq_true rfl⟩) fb ∗ heldQ c (s1B_29 c tb htb i h1) (qTok s ⟨29, Nat.le_of_ble_eq_true rfl⟩) fb ∗ heldQ c (s1B_30 c tb htb i h1) (qTok s ⟨30, Nat.le_of_ble_eq_true rfl⟩) fb ∗ heldQ c (s1B_31 c tb htb i h1) (qTok s ⟨31, Nat.le_of_ble_eq_true rfl⟩) fb ∗ heldQ c (s1B_32 c tb htb i h1) (qTok s ⟨32, Nat.le_of_ble_eq_true rfl⟩) fb ∗ heldQ c (s1B_33 c tb htb i h1) (qTok s ⟨33, Nat.le_of_ble_eq_true rfl⟩) fb ∗ heldQ c (s1B_34 c tb htb i h1) (qTok s ⟨34, Nat.le_of_ble_eq_true rfl⟩) fb ∗ heldQ c (s1B_35 c tb htb i h1) (qTok s ⟨35, Nat.le_of_ble_eq_true rfl⟩) fb ∗ heldQ c (s1B_36 c tb htb i h1) (qTok s ⟨36, Nat.le_of_ble_eq_true rfl⟩) fb ∗ heldQ c (s1B_37 c tb htb i h1) (qTok s ⟨37, Nat.le_of_ble_eq_true rfl⟩) fb ∗ heldQ c (s1B_38 c tb htb i h1) (qTok s ⟨38, Nat.le_of_ble_eq_true rfl⟩) fb ∗ heldQ c (s1B_39 c tb htb i h1) (qTok s ⟨39, Nat.le_of_ble_eq_true rfl⟩) fb ∗ heldQ c (s1B_40 c tb htb i h1) (qTok s ⟨40, Nat.le_of_ble_eq_true rfl⟩) fb ∗ heldQ c (s1B_41 c tb htb i h1) (qTok s ⟨41, Nat.le_of_ble_eq_true rfl⟩) fb ∗ heldQ c (s1B_42 c tb htb i h1) (qTok s ⟨42, Nat.le_of_ble_eq_true rfl⟩) fb ∗ heldQ c (s1B_43 c tb htb i h1) (qTok s ⟨43, Nat.le_of_ble_eq_true rfl⟩) fb ∗ heldQ c (s1B_44 c tb htb i h1) (qTok s ⟨44, Nat.le_of_ble_eq_true rfl⟩) fb ∗ heldQ c (s1B_45 c tb htb i h1) (qTok s ⟨45, Nat.le_of_ble_eq_true rfl⟩) fb ∗ heldQ c (s1B_46 c tb htb i h1) (qTok s ⟨46, Nat.le_of_ble_eq_true rfl⟩) fb ∗ heldQ c (s1B_47 c tb htb i h1) (qTok s ⟨47, Nat.le_of_ble_eq_true rfl⟩) fb ∗ heldQ c (s1B_48 c tb htb i h1) (qTok s ⟨48, Nat.le_of_ble_eq_true rfl⟩) fb ∗ heldQ c (s1B_49 c tb htb i h1) (qTok s ⟨49, Nat.le_of_ble_eq_true rfl⟩) fb ∗ heldQ c (s1B_50 c tb htb i h1) (qTok s ⟨50, Nat.le_of_ble_eq_true rfl⟩) fb ∗ heldQ c (s1B_51 c tb htb i h1) (qTok s ⟨51, Nat.le_of_ble_eq_true rfl⟩) fb ∗ heldQ c (s1B_52 c tb htb i h1) (qTok s ⟨52, Nat.le_of_ble_eq_true rfl⟩) fb ∗ heldQ c (s1B_53 c tb htb i h1) (qTok s ⟨53, Nat.le_of_ble_eq_true rfl⟩) fb ∗ heldQ c (s1B_54 c tb htb i h1) (qTok s ⟨54, Nat.le_of_ble_eq_true rfl⟩) fb ∗ heldQ c (s1B_55 c tb htb i h1) (qTok s ⟨55, Nat.le_of_ble_eq_true rfl⟩) fb ∗ heldQ c (s1B_56 c tb htb i h1) (qTok s ⟨56, Nat.le_of_ble_eq_true rfl⟩) fb ∗ heldQ c (s1B_57 c tb htb i h1) (qTok s ⟨57, Nat.le_of_ble_eq_true rfl⟩) fb ∗ heldQ c (s1B_58 c tb htb i h1) (qTok s ⟨58, Nat.le_of_ble_eq_true rfl⟩) fb ∗ heldQ c (s1B_59 c tb htb i h1) (qTok s ⟨59, Nat.le_of_ble_eq_true rfl⟩) fb ∗ heldQ c (s1B_60 c tb htb i h1) (qTok s ⟨60, Nat.le_of_ble_eq_true rfl⟩) fb ∗ heldQ c (s1B_61 c tb htb i h1) (qTok s ⟨61, Nat.le_of_ble_eq_true rfl⟩) fb ∗ heldQ c (s1B_62 c tb htb i h1) (qTok s ⟨62, Nat.le_of_ble_eq_true rfl⟩) fb ∗ heldQ c (s1B_63 c tb htb i h1) (qTok s ⟨63, Nat.le_of_ble_eq_true rfl⟩) fb) ∗ bigSep Finset.univ (R1B c tb fb htb i h1 s)) := by
  refine equiv_of_family (toks_family_b (F := F) c (qTok s) (O1 c tb i h1) (H1 c tb htb i h1) fb) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))
/-- Slot s's 64 read shares of array A, whole, are the 64 array rows the copies of fetch 2 borrow and what is left of each share. -/
theorem toks2A (htb : ∀ y, (tb y).toNat < 4096) (i : grid0.Coords) (h2 : k0_cond2 i = 1#1) (s : Fin 2) :
    (bigSep Finset.univ (fun r : Fin 64 => (aM.view.loc (c : Thread nD τ) ↦{qTok s r} fa : sProp 𝕄)))
      ⊣⊢ iprop(iprop(heldQ c (s2A_0 c tb htb i h2) (qTok s ⟨0, Nat.le_of_ble_eq_true rfl⟩) fa ∗ heldQ c (s2A_1 c tb htb i h2) (qTok s ⟨1, Nat.le_of_ble_eq_true rfl⟩) fa ∗ heldQ c (s2A_2 c tb htb i h2) (qTok s ⟨2, Nat.le_of_ble_eq_true rfl⟩) fa ∗ heldQ c (s2A_3 c tb htb i h2) (qTok s ⟨3, Nat.le_of_ble_eq_true rfl⟩) fa ∗ heldQ c (s2A_4 c tb htb i h2) (qTok s ⟨4, Nat.le_of_ble_eq_true rfl⟩) fa ∗ heldQ c (s2A_5 c tb htb i h2) (qTok s ⟨5, Nat.le_of_ble_eq_true rfl⟩) fa ∗ heldQ c (s2A_6 c tb htb i h2) (qTok s ⟨6, Nat.le_of_ble_eq_true rfl⟩) fa ∗ heldQ c (s2A_7 c tb htb i h2) (qTok s ⟨7, Nat.le_of_ble_eq_true rfl⟩) fa ∗ heldQ c (s2A_8 c tb htb i h2) (qTok s ⟨8, Nat.le_of_ble_eq_true rfl⟩) fa ∗ heldQ c (s2A_9 c tb htb i h2) (qTok s ⟨9, Nat.le_of_ble_eq_true rfl⟩) fa ∗ heldQ c (s2A_10 c tb htb i h2) (qTok s ⟨10, Nat.le_of_ble_eq_true rfl⟩) fa ∗ heldQ c (s2A_11 c tb htb i h2) (qTok s ⟨11, Nat.le_of_ble_eq_true rfl⟩) fa ∗ heldQ c (s2A_12 c tb htb i h2) (qTok s ⟨12, Nat.le_of_ble_eq_true rfl⟩) fa ∗ heldQ c (s2A_13 c tb htb i h2) (qTok s ⟨13, Nat.le_of_ble_eq_true rfl⟩) fa ∗ heldQ c (s2A_14 c tb htb i h2) (qTok s ⟨14, Nat.le_of_ble_eq_true rfl⟩) fa ∗ heldQ c (s2A_15 c tb htb i h2) (qTok s ⟨15, Nat.le_of_ble_eq_true rfl⟩) fa ∗ heldQ c (s2A_16 c tb htb i h2) (qTok s ⟨16, Nat.le_of_ble_eq_true rfl⟩) fa ∗ heldQ c (s2A_17 c tb htb i h2) (qTok s ⟨17, Nat.le_of_ble_eq_true rfl⟩) fa ∗ heldQ c (s2A_18 c tb htb i h2) (qTok s ⟨18, Nat.le_of_ble_eq_true rfl⟩) fa ∗ heldQ c (s2A_19 c tb htb i h2) (qTok s ⟨19, Nat.le_of_ble_eq_true rfl⟩) fa ∗ heldQ c (s2A_20 c tb htb i h2) (qTok s ⟨20, Nat.le_of_ble_eq_true rfl⟩) fa ∗ heldQ c (s2A_21 c tb htb i h2) (qTok s ⟨21, Nat.le_of_ble_eq_true rfl⟩) fa ∗ heldQ c (s2A_22 c tb htb i h2) (qTok s ⟨22, Nat.le_of_ble_eq_true rfl⟩) fa ∗ heldQ c (s2A_23 c tb htb i h2) (qTok s ⟨23, Nat.le_of_ble_eq_true rfl⟩) fa ∗ heldQ c (s2A_24 c tb htb i h2) (qTok s ⟨24, Nat.le_of_ble_eq_true rfl⟩) fa ∗ heldQ c (s2A_25 c tb htb i h2) (qTok s ⟨25, Nat.le_of_ble_eq_true rfl⟩) fa ∗ heldQ c (s2A_26 c tb htb i h2) (qTok s ⟨26, Nat.le_of_ble_eq_true rfl⟩) fa ∗ heldQ c (s2A_27 c tb htb i h2) (qTok s ⟨27, Nat.le_of_ble_eq_true rfl⟩) fa ∗ heldQ c (s2A_28 c tb htb i h2) (qTok s ⟨28, Nat.le_of_ble_eq_true rfl⟩) fa ∗ heldQ c (s2A_29 c tb htb i h2) (qTok s ⟨29, Nat.le_of_ble_eq_true rfl⟩) fa ∗ heldQ c (s2A_30 c tb htb i h2) (qTok s ⟨30, Nat.le_of_ble_eq_true rfl⟩) fa ∗ heldQ c (s2A_31 c tb htb i h2) (qTok s ⟨31, Nat.le_of_ble_eq_true rfl⟩) fa ∗ heldQ c (s2A_32 c tb htb i h2) (qTok s ⟨32, Nat.le_of_ble_eq_true rfl⟩) fa ∗ heldQ c (s2A_33 c tb htb i h2) (qTok s ⟨33, Nat.le_of_ble_eq_true rfl⟩) fa ∗ heldQ c (s2A_34 c tb htb i h2) (qTok s ⟨34, Nat.le_of_ble_eq_true rfl⟩) fa ∗ heldQ c (s2A_35 c tb htb i h2) (qTok s ⟨35, Nat.le_of_ble_eq_true rfl⟩) fa ∗ heldQ c (s2A_36 c tb htb i h2) (qTok s ⟨36, Nat.le_of_ble_eq_true rfl⟩) fa ∗ heldQ c (s2A_37 c tb htb i h2) (qTok s ⟨37, Nat.le_of_ble_eq_true rfl⟩) fa ∗ heldQ c (s2A_38 c tb htb i h2) (qTok s ⟨38, Nat.le_of_ble_eq_true rfl⟩) fa ∗ heldQ c (s2A_39 c tb htb i h2) (qTok s ⟨39, Nat.le_of_ble_eq_true rfl⟩) fa ∗ heldQ c (s2A_40 c tb htb i h2) (qTok s ⟨40, Nat.le_of_ble_eq_true rfl⟩) fa ∗ heldQ c (s2A_41 c tb htb i h2) (qTok s ⟨41, Nat.le_of_ble_eq_true rfl⟩) fa ∗ heldQ c (s2A_42 c tb htb i h2) (qTok s ⟨42, Nat.le_of_ble_eq_true rfl⟩) fa ∗ heldQ c (s2A_43 c tb htb i h2) (qTok s ⟨43, Nat.le_of_ble_eq_true rfl⟩) fa ∗ heldQ c (s2A_44 c tb htb i h2) (qTok s ⟨44, Nat.le_of_ble_eq_true rfl⟩) fa ∗ heldQ c (s2A_45 c tb htb i h2) (qTok s ⟨45, Nat.le_of_ble_eq_true rfl⟩) fa ∗ heldQ c (s2A_46 c tb htb i h2) (qTok s ⟨46, Nat.le_of_ble_eq_true rfl⟩) fa ∗ heldQ c (s2A_47 c tb htb i h2) (qTok s ⟨47, Nat.le_of_ble_eq_true rfl⟩) fa ∗ heldQ c (s2A_48 c tb htb i h2) (qTok s ⟨48, Nat.le_of_ble_eq_true rfl⟩) fa ∗ heldQ c (s2A_49 c tb htb i h2) (qTok s ⟨49, Nat.le_of_ble_eq_true rfl⟩) fa ∗ heldQ c (s2A_50 c tb htb i h2) (qTok s ⟨50, Nat.le_of_ble_eq_true rfl⟩) fa ∗ heldQ c (s2A_51 c tb htb i h2) (qTok s ⟨51, Nat.le_of_ble_eq_true rfl⟩) fa ∗ heldQ c (s2A_52 c tb htb i h2) (qTok s ⟨52, Nat.le_of_ble_eq_true rfl⟩) fa ∗ heldQ c (s2A_53 c tb htb i h2) (qTok s ⟨53, Nat.le_of_ble_eq_true rfl⟩) fa ∗ heldQ c (s2A_54 c tb htb i h2) (qTok s ⟨54, Nat.le_of_ble_eq_true rfl⟩) fa ∗ heldQ c (s2A_55 c tb htb i h2) (qTok s ⟨55, Nat.le_of_ble_eq_true rfl⟩) fa ∗ heldQ c (s2A_56 c tb htb i h2) (qTok s ⟨56, Nat.le_of_ble_eq_true rfl⟩) fa ∗ heldQ c (s2A_57 c tb htb i h2) (qTok s ⟨57, Nat.le_of_ble_eq_true rfl⟩) fa ∗ heldQ c (s2A_58 c tb htb i h2) (qTok s ⟨58, Nat.le_of_ble_eq_true rfl⟩) fa ∗ heldQ c (s2A_59 c tb htb i h2) (qTok s ⟨59, Nat.le_of_ble_eq_true rfl⟩) fa ∗ heldQ c (s2A_60 c tb htb i h2) (qTok s ⟨60, Nat.le_of_ble_eq_true rfl⟩) fa ∗ heldQ c (s2A_61 c tb htb i h2) (qTok s ⟨61, Nat.le_of_ble_eq_true rfl⟩) fa ∗ heldQ c (s2A_62 c tb htb i h2) (qTok s ⟨62, Nat.le_of_ble_eq_true rfl⟩) fa ∗ heldQ c (s2A_63 c tb htb i h2) (qTok s ⟨63, Nat.le_of_ble_eq_true rfl⟩) fa) ∗ bigSep Finset.univ (R2A c tb fa htb i h2 s)) := by
  refine equiv_of_family (toks_family_a (F := F) c (qTok s) (O2 c tb i h2) (H2 c tb htb i h2) fa) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))
/-- Slot s's 64 read shares of array B, whole, are the 64 array rows the copies of fetch 2 borrow and what is left of each share. -/
theorem toks2B (htb : ∀ y, (tb y).toNat < 4096) (i : grid0.Coords) (h2 : k0_cond2 i = 1#1) (s : Fin 2) :
    (bigSep Finset.univ (fun r : Fin 64 => (bM.view.loc (c : Thread nD τ) ↦{qTok s r} fb : sProp 𝕄)))
      ⊣⊢ iprop(iprop(heldQ c (s2B_0 c tb htb i h2) (qTok s ⟨0, Nat.le_of_ble_eq_true rfl⟩) fb ∗ heldQ c (s2B_1 c tb htb i h2) (qTok s ⟨1, Nat.le_of_ble_eq_true rfl⟩) fb ∗ heldQ c (s2B_2 c tb htb i h2) (qTok s ⟨2, Nat.le_of_ble_eq_true rfl⟩) fb ∗ heldQ c (s2B_3 c tb htb i h2) (qTok s ⟨3, Nat.le_of_ble_eq_true rfl⟩) fb ∗ heldQ c (s2B_4 c tb htb i h2) (qTok s ⟨4, Nat.le_of_ble_eq_true rfl⟩) fb ∗ heldQ c (s2B_5 c tb htb i h2) (qTok s ⟨5, Nat.le_of_ble_eq_true rfl⟩) fb ∗ heldQ c (s2B_6 c tb htb i h2) (qTok s ⟨6, Nat.le_of_ble_eq_true rfl⟩) fb ∗ heldQ c (s2B_7 c tb htb i h2) (qTok s ⟨7, Nat.le_of_ble_eq_true rfl⟩) fb ∗ heldQ c (s2B_8 c tb htb i h2) (qTok s ⟨8, Nat.le_of_ble_eq_true rfl⟩) fb ∗ heldQ c (s2B_9 c tb htb i h2) (qTok s ⟨9, Nat.le_of_ble_eq_true rfl⟩) fb ∗ heldQ c (s2B_10 c tb htb i h2) (qTok s ⟨10, Nat.le_of_ble_eq_true rfl⟩) fb ∗ heldQ c (s2B_11 c tb htb i h2) (qTok s ⟨11, Nat.le_of_ble_eq_true rfl⟩) fb ∗ heldQ c (s2B_12 c tb htb i h2) (qTok s ⟨12, Nat.le_of_ble_eq_true rfl⟩) fb ∗ heldQ c (s2B_13 c tb htb i h2) (qTok s ⟨13, Nat.le_of_ble_eq_true rfl⟩) fb ∗ heldQ c (s2B_14 c tb htb i h2) (qTok s ⟨14, Nat.le_of_ble_eq_true rfl⟩) fb ∗ heldQ c (s2B_15 c tb htb i h2) (qTok s ⟨15, Nat.le_of_ble_eq_true rfl⟩) fb ∗ heldQ c (s2B_16 c tb htb i h2) (qTok s ⟨16, Nat.le_of_ble_eq_true rfl⟩) fb ∗ heldQ c (s2B_17 c tb htb i h2) (qTok s ⟨17, Nat.le_of_ble_eq_true rfl⟩) fb ∗ heldQ c (s2B_18 c tb htb i h2) (qTok s ⟨18, Nat.le_of_ble_eq_true rfl⟩) fb ∗ heldQ c (s2B_19 c tb htb i h2) (qTok s ⟨19, Nat.le_of_ble_eq_true rfl⟩) fb ∗ heldQ c (s2B_20 c tb htb i h2) (qTok s ⟨20, Nat.le_of_ble_eq_true rfl⟩) fb ∗ heldQ c (s2B_21 c tb htb i h2) (qTok s ⟨21, Nat.le_of_ble_eq_true rfl⟩) fb ∗ heldQ c (s2B_22 c tb htb i h2) (qTok s ⟨22, Nat.le_of_ble_eq_true rfl⟩) fb ∗ heldQ c (s2B_23 c tb htb i h2) (qTok s ⟨23, Nat.le_of_ble_eq_true rfl⟩) fb ∗ heldQ c (s2B_24 c tb htb i h2) (qTok s ⟨24, Nat.le_of_ble_eq_true rfl⟩) fb ∗ heldQ c (s2B_25 c tb htb i h2) (qTok s ⟨25, Nat.le_of_ble_eq_true rfl⟩) fb ∗ heldQ c (s2B_26 c tb htb i h2) (qTok s ⟨26, Nat.le_of_ble_eq_true rfl⟩) fb ∗ heldQ c (s2B_27 c tb htb i h2) (qTok s ⟨27, Nat.le_of_ble_eq_true rfl⟩) fb ∗ heldQ c (s2B_28 c tb htb i h2) (qTok s ⟨28, Nat.le_of_ble_eq_true rfl⟩) fb ∗ heldQ c (s2B_29 c tb htb i h2) (qTok s ⟨29, Nat.le_of_ble_eq_true rfl⟩) fb ∗ heldQ c (s2B_30 c tb htb i h2) (qTok s ⟨30, Nat.le_of_ble_eq_true rfl⟩) fb ∗ heldQ c (s2B_31 c tb htb i h2) (qTok s ⟨31, Nat.le_of_ble_eq_true rfl⟩) fb ∗ heldQ c (s2B_32 c tb htb i h2) (qTok s ⟨32, Nat.le_of_ble_eq_true rfl⟩) fb ∗ heldQ c (s2B_33 c tb htb i h2) (qTok s ⟨33, Nat.le_of_ble_eq_true rfl⟩) fb ∗ heldQ c (s2B_34 c tb htb i h2) (qTok s ⟨34, Nat.le_of_ble_eq_true rfl⟩) fb ∗ heldQ c (s2B_35 c tb htb i h2) (qTok s ⟨35, Nat.le_of_ble_eq_true rfl⟩) fb ∗ heldQ c (s2B_36 c tb htb i h2) (qTok s ⟨36, Nat.le_of_ble_eq_true rfl⟩) fb ∗ heldQ c (s2B_37 c tb htb i h2) (qTok s ⟨37, Nat.le_of_ble_eq_true rfl⟩) fb ∗ heldQ c (s2B_38 c tb htb i h2) (qTok s ⟨38, Nat.le_of_ble_eq_true rfl⟩) fb ∗ heldQ c (s2B_39 c tb htb i h2) (qTok s ⟨39, Nat.le_of_ble_eq_true rfl⟩) fb ∗ heldQ c (s2B_40 c tb htb i h2) (qTok s ⟨40, Nat.le_of_ble_eq_true rfl⟩) fb ∗ heldQ c (s2B_41 c tb htb i h2) (qTok s ⟨41, Nat.le_of_ble_eq_true rfl⟩) fb ∗ heldQ c (s2B_42 c tb htb i h2) (qTok s ⟨42, Nat.le_of_ble_eq_true rfl⟩) fb ∗ heldQ c (s2B_43 c tb htb i h2) (qTok s ⟨43, Nat.le_of_ble_eq_true rfl⟩) fb ∗ heldQ c (s2B_44 c tb htb i h2) (qTok s ⟨44, Nat.le_of_ble_eq_true rfl⟩) fb ∗ heldQ c (s2B_45 c tb htb i h2) (qTok s ⟨45, Nat.le_of_ble_eq_true rfl⟩) fb ∗ heldQ c (s2B_46 c tb htb i h2) (qTok s ⟨46, Nat.le_of_ble_eq_true rfl⟩) fb ∗ heldQ c (s2B_47 c tb htb i h2) (qTok s ⟨47, Nat.le_of_ble_eq_true rfl⟩) fb ∗ heldQ c (s2B_48 c tb htb i h2) (qTok s ⟨48, Nat.le_of_ble_eq_true rfl⟩) fb ∗ heldQ c (s2B_49 c tb htb i h2) (qTok s ⟨49, Nat.le_of_ble_eq_true rfl⟩) fb ∗ heldQ c (s2B_50 c tb htb i h2) (qTok s ⟨50, Nat.le_of_ble_eq_true rfl⟩) fb ∗ heldQ c (s2B_51 c tb htb i h2) (qTok s ⟨51, Nat.le_of_ble_eq_true rfl⟩) fb ∗ heldQ c (s2B_52 c tb htb i h2) (qTok s ⟨52, Nat.le_of_ble_eq_true rfl⟩) fb ∗ heldQ c (s2B_53 c tb htb i h2) (qTok s ⟨53, Nat.le_of_ble_eq_true rfl⟩) fb ∗ heldQ c (s2B_54 c tb htb i h2) (qTok s ⟨54, Nat.le_of_ble_eq_true rfl⟩) fb ∗ heldQ c (s2B_55 c tb htb i h2) (qTok s ⟨55, Nat.le_of_ble_eq_true rfl⟩) fb ∗ heldQ c (s2B_56 c tb htb i h2) (qTok s ⟨56, Nat.le_of_ble_eq_true rfl⟩) fb ∗ heldQ c (s2B_57 c tb htb i h2) (qTok s ⟨57, Nat.le_of_ble_eq_true rfl⟩) fb ∗ heldQ c (s2B_58 c tb htb i h2) (qTok s ⟨58, Nat.le_of_ble_eq_true rfl⟩) fb ∗ heldQ c (s2B_59 c tb htb i h2) (qTok s ⟨59, Nat.le_of_ble_eq_true rfl⟩) fb ∗ heldQ c (s2B_60 c tb htb i h2) (qTok s ⟨60, Nat.le_of_ble_eq_true rfl⟩) fb ∗ heldQ c (s2B_61 c tb htb i h2) (qTok s ⟨61, Nat.le_of_ble_eq_true rfl⟩) fb ∗ heldQ c (s2B_62 c tb htb i h2) (qTok s ⟨62, Nat.le_of_ble_eq_true rfl⟩) fb ∗ heldQ c (s2B_63 c tb htb i h2) (qTok s ⟨63, Nat.le_of_ble_eq_true rfl⟩) fb) ∗ bigSep Finset.univ (R2B c tb fb htb i h2 s)) := by
  refine equiv_of_family (toks_family_b (F := F) c (qTok s) (O2 c tb i h2) (H2 c tb htb i h2) fb) ?_ ?_
  · exact star64 _
  · funext r
    match r with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
    | ⟨9, _⟩ => rfl
    | ⟨10, _⟩ => rfl
    | ⟨11, _⟩ => rfl
    | ⟨12, _⟩ => rfl
    | ⟨13, _⟩ => rfl
    | ⟨14, _⟩ => rfl
    | ⟨15, _⟩ => rfl
    | ⟨16, _⟩ => rfl
    | ⟨17, _⟩ => rfl
    | ⟨18, _⟩ => rfl
    | ⟨19, _⟩ => rfl
    | ⟨20, _⟩ => rfl
    | ⟨21, _⟩ => rfl
    | ⟨22, _⟩ => rfl
    | ⟨23, _⟩ => rfl
    | ⟨24, _⟩ => rfl
    | ⟨25, _⟩ => rfl
    | ⟨26, _⟩ => rfl
    | ⟨27, _⟩ => rfl
    | ⟨28, _⟩ => rfl
    | ⟨29, _⟩ => rfl
    | ⟨30, _⟩ => rfl
    | ⟨31, _⟩ => rfl
    | ⟨32, _⟩ => rfl
    | ⟨33, _⟩ => rfl
    | ⟨34, _⟩ => rfl
    | ⟨35, _⟩ => rfl
    | ⟨36, _⟩ => rfl
    | ⟨37, _⟩ => rfl
    | ⟨38, _⟩ => rfl
    | ⟨39, _⟩ => rfl
    | ⟨40, _⟩ => rfl
    | ⟨41, _⟩ => rfl
    | ⟨42, _⟩ => rfl
    | ⟨43, _⟩ => rfl
    | ⟨44, _⟩ => rfl
    | ⟨45, _⟩ => rfl
    | ⟨46, _⟩ => rfl
    | ⟨47, _⟩ => rfl
    | ⟨48, _⟩ => rfl
    | ⟨49, _⟩ => rfl
    | ⟨50, _⟩ => rfl
    | ⟨51, _⟩ => rfl
    | ⟨52, _⟩ => rfl
    | ⟨53, _⟩ => rfl
    | ⟨54, _⟩ => rfl
    | ⟨55, _⟩ => rfl
    | ⟨56, _⟩ => rfl
    | ⟨57, _⟩ => rfl
    | ⟨58, _⟩ => rfl
    | ⟨59, _⟩ => rfl
    | ⟨60, _⟩ => rfl
    | ⟨61, _⟩ => rfl
    | ⟨62, _⟩ => rfl
    | ⟨63, _⟩ => rfl
    | ⟨_ + 64, h⟩ => exact absurd h (Nat.not_lt.2 (Nat.le_add_left _ _))

end

end Cert.Kernel.Hand

end
-- ==== Proof.K.PhiLemmas.lean ====
/-
  Folding the pieces a grid point holds at its end back into free and in-flight slots.
-/
import proofs.«422764_j1194000908612_2_alg».proof.Proof.Gen.Kernel.Launch
import proofs.«422764_j1194000908612_2_alg».proof.Proof.Gen.Kernel.Skeleton
import proofs.«422764_j1194000908612_2_alg».proof.Proof.K.Phi
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

section
variable (c : Dev nD) (tb : MBuf (F := F) c tbM) (htb : ∀ y, (tb y).toNat < 4096) (fa : MBuf (F := F) c aM) (fb : MBuf (F := F) c bM)

/-- A slot is free once its counter is at zero, its 64 rows are owned (here as one slot) and its 64 read shares are whole. -/
theorem freeA_intro (s s' : Fin 2) (e : s = s') (g : MBuf (F := F) c scA) :
    iprop(semVal ((c : Thread nD τ), cA s) 0 ∗ heldQ c (slotM scA s) fullShare g
      ∗ bigSep Finset.univ (fun r : Fin 64 => (aM.view.loc (c : Thread nD τ) ↦{qTok s r} fa : sProp 𝕄))) ⊢ freeA c fa s' := by
  subst e; unfold freeA; rw [heldQ_slotM_A]
  iintro ⟨H1, H2, H3⟩
  isplitl [H1]; · iexact H1
  isplitl [H2]; · iexists g; iexact H2
  iexact H3
theorem freeB_intro (s s' : Fin 2) (e : s = s') (g : MBuf (F := F) c scB) :
    iprop(semVal ((c : Thread nD τ), cB s) 0 ∗ heldQ c (slotM scB s) fullShare g
      ∗ bigSep Finset.univ (fun r : Fin 64 => (bM.view.loc (c : Thread nD τ) ↦{qTok s r} fb : sProp 𝕄))) ⊢ freeB c fb s' := by
  subst e; unfold freeB; rw [heldQ_slotM_B]
  iintro ⟨H1, H2, H3⟩
  isplitl [H1]; · iexact H1
  isplitl [H2]; · iexists g; iexact H2
  iexact H3
theorem freeA_cast (s s' : Fin 2) (e : s = s') : freeA c fa s ⊢ freeA c fa s' := by subst e; exact Idealize.SL.BI.Entails.refl _
theorem freeB_cast (s s' : Fin 2) (e : s = s') : freeB c fb s ⊢ freeB c fb s' := by subst e; exact Idealize.SL.BI.Entails.refl _
/-- A slot is in flight once its batch has all 64 copies started and none waited for. -/
theorem flightA_intro (i : grid0.Coords) (h2 : k0_cond2 i = 1#1) (s : Fin 2) :
    iprop(Transfers.Batch countersEmb (c : Thread nD τ) (cA s) () rowCredit (D2A c tb fa htb i h2 s) 64 0 ∗ bigSep Finset.univ (R2A c tb fa htb i h2 s)) ⊢ flightA c tb htb fa i h2 s := by
  unfold flightA; exact Idealize.SL.BI.Entails.refl _
theorem flightB_intro (i : grid0.Coords) (h2 : k0_cond2 i = 1#1) (s : Fin 2) :
    iprop(Transfers.Batch countersEmb (c : Thread nD τ) (cB s) () rowCredit (D2B c tb fb htb i h2 s) 64 0 ∗ bigSep Finset.univ (R2B c tb fb htb i h2 s)) ⊢ flightB c tb htb fb i h2 s := by
  unfold flightB; exact Idealize.SL.BI.Entails.refl _
end

/-- A load's box may be named by any offset vector equal to its own. -/
theorem readAt_box_congr {sp : Space} (M : Memref sig .tc sp S2x8x64x1024 .f32) (o o' : Fin 4 → ℕ) (e : o = o')
    (h : ∀ a, o a + S1x8x64x1024.size a ≤ S2x8x64x1024.size a) (h' : ∀ a, o' a + S1x8x64x1024.size a ≤ S2x8x64x1024.size a)
    (G : M.view.ty.Contents (Elt F)) :
    M.view.readAt (Elt F) (Rect.unit (s := S2x8x64x1024) o S1x8x64x1024.size h).toLoadRect G
      = M.view.readAt (Elt F) (Rect.unit (s := S2x8x64x1024) o' S1x8x64x1024.size h').toLoadRect G := by
  subst e; rfl

end Cert.Kernel.Hand
end
-- ==== Proof.K.Stor.lean ====
/-
  The deliveries of the copies can be stored in a batch's invariant.
-/
import proofs.«422764_j1194000908612_2_alg».proof.Proof.Gen.Kernel.Launch
import proofs.«422764_j1194000908612_2_alg».proof.Proof.Gen.Kernel.Skeleton
import proofs.«422764_j1194000908612_2_alg».proof.Proof.K.Tab
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable [∀ e, Nonempty (Elt F e)]

section
variable (c : Dev nD) (tb : MBuf (F := F) c tbM) (fa : MBuf (F := F) c aM) (fb : MBuf (F := F) c bM)
/-- Each delivery is made of points-to assertions only, so it can be kept inside the batch's invariant. -/
instance storD1A (htb : ∀ y, (tb y).toNat < 4096) (i : grid0.Coords) (h1 : k0_cond1 i = 1#1) (s : Fin 2) : ∀ r, Storable (upEmb : UEmb _ 𝕄) (D1A c tb fa htb i h1 s r) := by
  intro r; unfold D1A
  split <;> first | infer_instance | (rename_i h; exact absurd h (Nat.not_lt.2 (Nat.le_add_left _ _)))
instance storD1B (htb : ∀ y, (tb y).toNat < 4096) (i : grid0.Coords) (h1 : k0_cond1 i = 1#1) (s : Fin 2) : ∀ r, Storable (upEmb : UEmb _ 𝕄) (D1B c tb fb htb i h1 s r) := by
  intro r; unfold D1B
  split <;> first | infer_instance | (rename_i h; exact absurd h (Nat.not_lt.2 (Nat.le_add_left _ _)))
instance storD2A (htb : ∀ y, (tb y).toNat < 4096) (i : grid0.Coords) (h2 : k0_cond2 i = 1#1) (s : Fin 2) : ∀ r, Storable (upEmb : UEmb _ 𝕄) (D2A c tb fa htb i h2 s r) := by
  intro r; unfold D2A
  split <;> first | infer_instance | (rename_i h; exact absurd h (Nat.not_lt.2 (Nat.le_add_left _ _)))
instance storD2B (htb : ∀ y, (tb y).toNat < 4096) (i : grid0.Coords) (h2 : k0_cond2 i = 1#1) (s : Fin 2) : ∀ r, Storable (upEmb : UEmb _ 𝕄) (D2B c tb fb htb i h2 s r) := by
  intro r; unfold D2B
  split <;> first | infer_instance | (rename_i h; exact absurd h (Nat.not_lt.2 (Nat.le_add_left _ _)))
end

end Cert.Kernel.Hand
end
-- ==== Proof.K.StoreRead.lean ====
/-
  The staging buffer of the output window, read back after the body's store of its whole block.
-/
import proofs.«422764_j1194000908612_2_alg».proof.Proof.Gen.Kernel.Launch
import proofs.«422764_j1194000908612_2_alg».proof.Proof.Gen.Kernel.Skeleton
import Idealize.ShloMosaic.Lib.Pipeline.FrameBody
import Idealize.ShloMosaic.Lib.Ring
import Idealize.ShloMosaic.Lib.Batch
import Idealize.ShloMosaic.Lib.Tactic
import proofs.«422764_j1194000908612_2_alg».proof.Proof.K.Names
import Idealize.ShloMosaic.Lib.Writes
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

/-! ## The block read back after the body's one whole store

The body ends by storing its block through the whole staging buffer, at offset (0, 0, 0) with the buffer's own extents. The store's
rectangle is the identity on indices, so the buffer read back is the stored block, whatever it held before. -/

/-- The rectangle at offset (0, 0, 0) of full extents sends an index to itself. -/
theorem emb_full_S8x64x1024 (x : S8x64x1024.Idx) :
    (Rect.unit (s := S8x64x1024) ![0, 0, 0] S8x64x1024.size inb_S8x64x1024_S8x64x1024_0_0_0).emb x = x := by
  funext a
  apply Fin.ext
  rw [Rect.emb_apply]
  fin_cases a <;> simp

/-- A staging buffer after one store of v through the full rectangle reads back v. -/
theorem read_store_whole (stg : Memref sig .tc .vmem S8x64x1024 .f32) (hstg : stg.IsWhole) (f : stg.view.ty.Contents (Elt F))
    (v : Vec F S8x64x1024 .f32) :
    stg.view.read (Elt F) (stg.view.writes (Elt F) f
        [⟨Rect.unit (s := S8x64x1024) ![0, 0, 0] S8x64x1024.size inb_S8x64x1024_S8x64x1024_0_0_0, v⟩]) = v := by
  funext x
  have h := View.read_writes_cons_emb stg.view f
    (Rect.unit (s := S8x64x1024) ![0, 0, 0] S8x64x1024.size inb_S8x64x1024_S8x64x1024_0_0_0) v [] x
  rw [emb_full_S8x64x1024] at h
  exact h

end Cert.Kernel.Hand

end
-- ==== Proof.K.RunA.lean ====
/-
  The first grid point of a row group (t mod 16 = 0): both slots are free; the point starts the 128 copies of its own rows into slot 0,
  waits for them, starts the 128 copies of point t + 1 into slot 1, reads slot 0 back as the gathered rows and stores the elementwise
  function of them.
-/
import proofs.«422764_j1194000908612_2_alg».proof.Proof.Gen.Kernel.Launch
import proofs.«422764_j1194000908612_2_alg».proof.Proof.Gen.Kernel.Skeleton
import proofs.«422764_j1194000908612_2_alg».proof.Proof.K.Reads
import proofs.«422764_j1194000908612_2_alg».proof.Proof.K.Toks
import proofs.«422764_j1194000908612_2_alg».proof.Proof.K.PhiIO
import proofs.«422764_j1194000908612_2_alg».proof.Proof.K.PhiLemmas
import proofs.«422764_j1194000908612_2_alg».proof.Proof.K.Stor
import proofs.«422764_j1194000908612_2_alg».proof.Proof.K.StoreRead
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

/-- At the first point of a row group the waited slot is slot 0. -/
@[local sl_canon] theorem slN_first (t : Fin grid0.N) (ht : t.val % 16 = 0) : slN t.val = 0 := Fin.ext (by show t.val % 2 = 0; omega)

set_option maxHeartbeats 8000000 in
theorem runA (c : Dev nD) (t : Fin grid0.N) (ht : t.val % 16 = 0)
    (stg : Memref sig .tc .vmem S8x64x1024 .f32) (hstg : stg.IsWhole) (x0 : Vec F S8x64x1024 .f32)
    (tb : MBuf (F := F) c tbM) (htb : ∀ y, (tb y).toNat < 4096) (fa : MBuf (F := F) c aM) (fb : MBuf (F := F) c bM) (W : Waits sig Unit) :
    iprop(Phi c tb htb fa fb t.val ∗ owes (c : Thread nD τ) 0 W ∗ owns (c : Thread nD τ) stg fullShare x0)
      ⊢ wp frame (wpE (defs₀ (F := F)) Variants.none (c : Thread nD τ) none) Set.univ
          (cc0_kernel (F := F) (grid0.coords t) tbM (Memref.isWhole_whole _) aM (Memref.isWhole_whole _) bM (Memref.isWhole_whole _) stg hstg scA (Memref.isWhole_whole _) scB (Memref.isWhole_whole _) cc0_scratch2 cc0_scratch3)
          (fun _ => iprop(Phi c tb htb fa fb (t.val + 1) ∗ (∃ W', owes (c : Thread nD τ) 0 W') ∗ owns (c : Thread nD τ) stg fullShare (outBlk (F := F) fa fb (rowsOf tb t.val)))) := by
  have h1 : k0_cond1 (grid0.coords t) = 1#1 := (hcond1 t).mpr ht
  have h2 : k0_cond2 (grid0.coords t) = 1#1 := (hcond2 t).mpr (by omega)
  have e0 : slN t.val = 0 := Fin.ext (by show t.val % 2 = 0; omega)
  have e1 : (1 : Fin 2) = slN (t.val + 1) := Fin.ext (by show 1 = (t.val + 1) % 2; omega)
  have e2 : (0 : Fin 2) = slN (t.val + 1 + 1) := Fin.ext (by show 0 = (t.val + 1 + 1) % 2; omega)
  have hbt : t.val < 32 := lt_of_lt_of_eq t.isLt N_0
  unfold Phi
  rw [slots_free c tb htb fa fb t.val ht, slots_flight c tb htb fa fb t (by omega) h2]
  unfold steady owns
  iintro ⟨⟨⟨Hg, HT, HdA, HdB⟩, H0A, H1A, H0B, H1B⟩, HO, ⟨%f1, -, H1⟩⟩
  ihave H1A' := (freeA_cast c fa 1 (slN (t.val + 1)) e1) $$ H1A
  ihave H1B' := (freeB_cast c fb 1 (slN (t.val + 1)) e1) $$ H1B
  conv => lhs; unfold freeA freeB
  icases H0A with ⟨Hc0A, ⟨%g0A, Hg0A⟩, Ht0A⟩
  icases H0B with ⟨Hc0B, ⟨%g0B, Hg0B⟩, Ht0B⟩
  icases H1A' with ⟨HcA, ⟨%gA, HgA⟩, HtA⟩
  icases H1B' with ⟨HcB, ⟨%gB, HgB⟩, HtB⟩
  imod (Transfers.batch_alloc' (Lvl := ℕ) countersEmb (c : Thread nD τ) () rowCredit (D1A c tb fa htb (grid0.coords t) h1 0) (sm := cA 0) (E := Set.univ)) $$ Hc0A with HMA
  imod (Transfers.batch_alloc' (Lvl := ℕ) countersEmb (c : Thread nD τ) () rowCredit (D1B c tb fb htb (grid0.coords t) h1 0) (sm := cB 0) (E := Set.univ)) $$ Hc0B with HMB
  ihave Hr0A := (Entails.of_eq (slot64_A c 0 g0A)) $$ Hg0A
  icases Hr0A with ⟨GA0, GA1, GA2, GA3, GA4, GA5, GA6, GA7, GA8, GA9, GA10, GA11, GA12, GA13, GA14, GA15, GA16, GA17, GA18, GA19, GA20, GA21, GA22, GA23, GA24, GA25, GA26, GA27, GA28, GA29, GA30, GA31, GA32, GA33, GA34, GA35, GA36, GA37, GA38, GA39, GA40, GA41, GA42, GA43, GA44, GA45, GA46, GA47, GA48, GA49, GA50, GA51, GA52, GA53, GA54, GA55, GA56, GA57, GA58, GA59, GA60, GA61, GA62, GA63⟩
  ihave Hr0B := (Entails.of_eq (slot64_B c 0 g0B)) $$ Hg0B
  icases Hr0B with ⟨GB0, GB1, GB2, GB3, GB4, GB5, GB6, GB7, GB8, GB9, GB10, GB11, GB12, GB13, GB14, GB15, GB16, GB17, GB18, GB19, GB20, GB21, GB22, GB23, GB24, GB25, GB26, GB27, GB28, GB29, GB30, GB31, GB32, GB33, GB34, GB35, GB36, GB37, GB38, GB39, GB40, GB41, GB42, GB43, GB44, GB45, GB46, GB47, GB48, GB49, GB50, GB51, GB52, GB53, GB54, GB55, GB56, GB57, GB58, GB59, GB60, GB61, GB62, GB63⟩
  ihave Hx0A := ((toks1A c tb fa htb (grid0.coords t) h1 0).1) $$ Ht0A
  icases Hx0A with ⟨⟨YA0, YA1, YA2, YA3, YA4, YA5, YA6, YA7, YA8, YA9, YA10, YA11, YA12, YA13, YA14, YA15, YA16, YA17, YA18, YA19, YA20, YA21, YA22, YA23, YA24, YA25, YA26, YA27, YA28, YA29, YA30, YA31, YA32, YA33, YA34, YA35, YA36, YA37, YA38, YA39, YA40, YA41, YA42, YA43, YA44, YA45, YA46, YA47, YA48, YA49, YA50, YA51, YA52, YA53, YA54, YA55, YA56, YA57, YA58, YA59, YA60, YA61, YA62, YA63⟩, HRA1⟩
  ihave Hx0B := ((toks1B c tb fb htb (grid0.coords t) h1 0).1) $$ Ht0B
  icases Hx0B with ⟨⟨YB0, YB1, YB2, YB3, YB4, YB5, YB6, YB7, YB8, YB9, YB10, YB11, YB12, YB13, YB14, YB15, YB16, YB17, YB18, YB19, YB20, YB21, YB22, YB23, YB24, YB25, YB26, YB27, YB28, YB29, YB30, YB31, YB32, YB33, YB34, YB35, YB36, YB37, YB38, YB39, YB40, YB41, YB42, YB43, YB44, YB45, YB46, YB47, YB48, YB49, YB50, YB51, YB52, YB53, YB54, YB55, YB56, YB57, YB58, YB59, YB60, YB61, YB62, YB63⟩, HRB1⟩
  imod (Transfers.batch_alloc' (Lvl := ℕ) countersEmb (c : Thread nD τ) () rowCredit (D2A c tb fa htb (grid0.coords t) h2 (slN (t.val + 1))) (sm := cA (slN (t.val + 1))) (E := Set.univ)) $$ HcA with HNA
  imod (Transfers.batch_alloc' (Lvl := ℕ) countersEmb (c : Thread nD τ) () rowCredit (D2B c tb fb htb (grid0.coords t) h2 (slN (t.val + 1))) (sm := cB (slN (t.val + 1))) (E := Set.univ)) $$ HcB with HNB
  ihave HrA := (Entails.of_eq (slot64_A c (slN (t.val + 1)) gA)) $$ HgA
  icases HrA with ⟨FA0, FA1, FA2, FA3, FA4, FA5, FA6, FA7, FA8, FA9, FA10, FA11, FA12, FA13, FA14, FA15, FA16, FA17, FA18, FA19, FA20, FA21, FA22, FA23, FA24, FA25, FA26, FA27, FA28, FA29, FA30, FA31, FA32, FA33, FA34, FA35, FA36, FA37, FA38, FA39, FA40, FA41, FA42, FA43, FA44, FA45, FA46, FA47, FA48, FA49, FA50, FA51, FA52, FA53, FA54, FA55, FA56, FA57, FA58, FA59, FA60, FA61, FA62, FA63⟩
  ihave HrB := (Entails.of_eq (slot64_B c (slN (t.val + 1)) gB)) $$ HgB
  icases HrB with ⟨FB0, FB1, FB2, FB3, FB4, FB5, FB6, FB7, FB8, FB9, FB10, FB11, FB12, FB13, FB14, FB15, FB16, FB17, FB18, FB19, FB20, FB21, FB22, FB23, FB24, FB25, FB26, FB27, FB28, FB29, FB30, FB31, FB32, FB33, FB34, FB35, FB36, FB37, FB38, FB39, FB40, FB41, FB42, FB43, FB44, FB45, FB46, FB47, FB48, FB49, FB50, FB51, FB52, FB53, FB54, FB55, FB56, FB57, FB58, FB59, FB60, FB61, FB62, FB63⟩
  ihave HxA := ((toks2A c tb fa htb (grid0.coords t) h2 (slN (t.val + 1))).1) $$ HtA
  icases HxA with ⟨⟨XA0, XA1, XA2, XA3, XA4, XA5, XA6, XA7, XA8, XA9, XA10, XA11, XA12, XA13, XA14, XA15, XA16, XA17, XA18, XA19, XA20, XA21, XA22, XA23, XA24, XA25, XA26, XA27, XA28, XA29, XA30, XA31, XA32, XA33, XA34, XA35, XA36, XA37, XA38, XA39, XA40, XA41, XA42, XA43, XA44, XA45, XA46, XA47, XA48, XA49, XA50, XA51, XA52, XA53, XA54, XA55, XA56, XA57, XA58, XA59, XA60, XA61, XA62, XA63⟩, HRA2⟩
  ihave HxB := ((toks2B c tb fb htb (grid0.coords t) h2 (slN (t.val + 1))).1) $$ HtB
  icases HxB with ⟨⟨XB0, XB1, XB2, XB3, XB4, XB5, XB6, XB7, XB8, XB9, XB10, XB11, XB12, XB13, XB14, XB15, XB16, XB17, XB18, XB19, XB20, XB21, XB22, XB23, XB24, XB25, XB26, XB27, XB28, XB29, XB30, XB31, XB32, XB33, XB34, XB35, XB36, XB37, XB38, XB39, XB40, XB41, XB42, XB43, XB44, XB45, XB46, XB47, XB48, XB49, XB50, XB51, XB52, XB53, XB54, XB55, XB56, XB57, XB58, XB59, XB60, XB61, XB62, XB63⟩, HRB2⟩
  rw [cc0_kernel_eq_skeleton]; unfold cc0_kernel_skel
  sl_exec (disch := first | exact h1 | exact h2 | exact ht | exact (fun _ => rows_inb _ (htb _)))
  ihave HSA := (Entails.of_eq (rows64_A c 0 (L1A c tb fa htb (grid0.coords t) h1 0))) $$ [HMA_dst0 HMA_dst1 HMA_dst2 HMA_dst3 HMA_dst4 HMA_dst5 HMA_dst6 HMA_dst7 HMA_dst8 HMA_dst9 HMA_dst10 HMA_dst11 HMA_dst12 HMA_dst13 HMA_dst14 HMA_dst15 HMA_dst16 HMA_dst17 HMA_dst18 HMA_dst19 HMA_dst20 HMA_dst21 HMA_dst22 HMA_dst23 HMA_dst24 HMA_dst25 HMA_dst26 HMA_dst27 HMA_dst28 HMA_dst29 HMA_dst30 HMA_dst31 HMA_dst32 HMA_dst33 HMA_dst34 HMA_dst35 HMA_dst36 HMA_dst37 HMA_dst38 HMA_dst39 HMA_dst40 HMA_dst41 HMA_dst42 HMA_dst43 HMA_dst44 HMA_dst45 HMA_dst46 HMA_dst47 HMA_dst48 HMA_dst49 HMA_dst50 HMA_dst51 HMA_dst52 HMA_dst53 HMA_dst54 HMA_dst55 HMA_dst56 HMA_dst57 HMA_dst58 HMA_dst59 HMA_dst60 HMA_dst61 HMA_dst62 HMA_dst63]
  · dsimp only [L1A]; iframe
  ihave HSB := (Entails.of_eq (rows64_B c 0 (L1B c tb fb htb (grid0.coords t) h1 0))) $$ [HMB_dst0 HMB_dst1 HMB_dst2 HMB_dst3 HMB_dst4 HMB_dst5 HMB_dst6 HMB_dst7 HMB_dst8 HMB_dst9 HMB_dst10 HMB_dst11 HMB_dst12 HMB_dst13 HMB_dst14 HMB_dst15 HMB_dst16 HMB_dst17 HMB_dst18 HMB_dst19 HMB_dst20 HMB_dst21 HMB_dst22 HMB_dst23 HMB_dst24 HMB_dst25 HMB_dst26 HMB_dst27 HMB_dst28 HMB_dst29 HMB_dst30 HMB_dst31 HMB_dst32 HMB_dst33 HMB_dst34 HMB_dst35 HMB_dst36 HMB_dst37 HMB_dst38 HMB_dst39 HMB_dst40 HMB_dst41 HMB_dst42 HMB_dst43 HMB_dst44 HMB_dst45 HMB_dst46 HMB_dst47 HMB_dst48 HMB_dst49 HMB_dst50 HMB_dst51 HMB_dst52 HMB_dst53 HMB_dst54 HMB_dst55 HMB_dst56 HMB_dst57 HMB_dst58 HMB_dst59 HMB_dst60 HMB_dst61 HMB_dst62 HMB_dst63]
  · dsimp only [L1B]; iframe
  have hboxA : (scA.access (Rect.unit (s := S2x8x64x1024) (k0_off515 (grid0.coords t)) S1x8x64x1024.size (k0_off515_inb (grid0.coords t)))).set ⊆ (slotM scA 0).view.set := e0 ▸ box_in_slot_A t
  have hboxB : (scB.access (Rect.unit (s := S2x8x64x1024) (k0_off515 (grid0.coords t)) S1x8x64x1024.size (k0_off515_inb (grid0.coords t)))).set ⊆ (slotM scB 0).view.set := e0 ▸ box_in_slot_B t
  have hboxA' : scA.view.setOn (Rect.unit (s := S2x8x64x1024) (k0_off515 (grid0.coords t)) S1x8x64x1024.size (k0_off515_inb (grid0.coords t))).set ⊆ (slotM scA 0).view.set := e0 ▸ box_on_slot_A t
  have hboxB' : scB.view.setOn (Rect.unit (s := S2x8x64x1024) (k0_off515 (grid0.coords t)) S1x8x64x1024.size (k0_off515_inb (grid0.coords t))).set ⊆ (slotM scB 0).view.set := e0 ▸ box_on_slot_B t
  sl_exec (disch := first | exact h1 | exact h2 | exact ht)
  sl_step
  ihave Ht0A' := ((toks1A c tb fa htb (grid0.coords t) h1 0).2) $$ [HMA_src0 HMA_src1 HMA_src2 HMA_src3 HMA_src4 HMA_src5 HMA_src6 HMA_src7 HMA_src8 HMA_src9 HMA_src10 HMA_src11 HMA_src12 HMA_src13 HMA_src14 HMA_src15 HMA_src16 HMA_src17 HMA_src18 HMA_src19 HMA_src20 HMA_src21 HMA_src22 HMA_src23 HMA_src24 HMA_src25 HMA_src26 HMA_src27 HMA_src28 HMA_src29 HMA_src30 HMA_src31 HMA_src32 HMA_src33 HMA_src34 HMA_src35 HMA_src36 HMA_src37 HMA_src38 HMA_src39 HMA_src40 HMA_src41 HMA_src42 HMA_src43 HMA_src44 HMA_src45 HMA_src46 HMA_src47 HMA_src48 HMA_src49 HMA_src50 HMA_src51 HMA_src52 HMA_src53 HMA_src54 HMA_src55 HMA_src56 HMA_src57 HMA_src58 HMA_src59 HMA_src60 HMA_src61 HMA_src62 HMA_src63 HRA1]
  · iframe
  ihave Ht0B' := ((toks1B c tb fb htb (grid0.coords t) h1 0).2) $$ [HMB_src0 HMB_src1 HMB_src2 HMB_src3 HMB_src4 HMB_src5 HMB_src6 HMB_src7 HMB_src8 HMB_src9 HMB_src10 HMB_src11 HMB_src12 HMB_src13 HMB_src14 HMB_src15 HMB_src16 HMB_src17 HMB_src18 HMB_src19 HMB_src20 HMB_src21 HMB_src22 HMB_src23 HMB_src24 HMB_src25 HMB_src26 HMB_src27 HMB_src28 HMB_src29 HMB_src30 HMB_src31 HMB_src32 HMB_src33 HMB_src34 HMB_src35 HMB_src36 HMB_src37 HMB_src38 HMB_src39 HMB_src40 HMB_src41 HMB_src42 HMB_src43 HMB_src44 HMB_src45 HMB_src46 HMB_src47 HMB_src48 HMB_src49 HMB_src50 HMB_src51 HMB_src52 HMB_src53 HMB_src54 HMB_src55 HMB_src56 HMB_src57 HMB_src58 HMB_src59 HMB_src60 HMB_src61 HMB_src62 HMB_src63 HRB1]
  · iframe
  ihave HFA := (freeA_intro c fa 0 (slN (t.val + 1 + 1)) e2 _) $$ [HMA HSA Ht0A']
  · isplitl [HMA]; · iexact HMA
    isplitl [HSA]; · iexact HSA
    iexact Ht0A'
  ihave HFB := (freeB_intro c fb 0 (slN (t.val + 1 + 1)) e2 _) $$ [HMB HSB Ht0B']
  · isplitl [HMB]; · iexact HMB
    isplitl [HSB]; · iexact HSB
    iexact Ht0B'
  ihave HLA := (flightA_intro c tb htb fa (grid0.coords t) h2 (slN (t.val + 1))) $$ [HNA HRA2]
  · iframe
  ihave HLB := (flightB_intro c tb htb fb (grid0.coords t) h2 (slN (t.val + 1))) $$ [HNB HRB2]
  · iframe
  isplitl [Hg HT HdA HdB HFA HFB HLA HLB]
  · iframe
  isplitl [HO]; · iexists _; iexact HO
  iexists _; isplitr; swap; · iexact H1
  ipureintro
  refine (read_store_whole stg hstg f1 _).trans ?_
  unfold outBlk
  have hA := (readAt_box_congr scA _ _ ((coff_L t).trans (by rw [e0])) (k0_off515_inb (grid0.coords t)) (inb_slot 0) (glue_A c (L1A c tb fa htb (grid0.coords t) h1 0))).trans (read1A c tb fa htb t h1 hbt 0)
  have hB := (readAt_box_congr scB _ _ ((coff_L t).trans (by rw [e0])) (k0_off515_inb (grid0.coords t)) (inb_slot 0) (glue_B c (L1B c tb fb htb (grid0.coords t) h1 0))).trans (read1B c tb fb htb t h1 hbt 0)
  show k0_pay1 (k0_pay2 (scA.view.readAt (Elt F) (Rect.unit (s := S2x8x64x1024) (k0_off515 (grid0.coords t)) S1x8x64x1024.size (k0_off515_inb (grid0.coords t))).toLoadRect (glue_A c (L1A c tb fa htb (grid0.coords t) h1 0)))) (k0_pay3 (scB.view.readAt (Elt F) (Rect.unit (s := S2x8x64x1024) (k0_off515 (grid0.coords t)) S1x8x64x1024.size (k0_off515_inb (grid0.coords t))).toLoadRect (glue_B c (L1B c tb fb htb (grid0.coords t) h1 0)))) (k0_pay4 (scA.view.readAt (Elt F) (Rect.unit (s := S2x8x64x1024) (k0_off515 (grid0.coords t)) S1x8x64x1024.size (k0_off515_inb (grid0.coords t))).toLoadRect (glue_A c (L1A c tb fa htb (grid0.coords t) h1 0))) (scB.view.readAt (Elt F) (Rect.unit (s := S2x8x64x1024) (k0_off515 (grid0.coords t)) S1x8x64x1024.size (k0_off515_inb (grid0.coords t))).toLoadRect (glue_B c (L1B c tb fb htb (grid0.coords t) h1 0)))) = _
  rw [hA, hB]

end Cert.Kernel.Hand

end
-- ==== Proof.K.RunB.lean ====
/-
  A middle grid point of a row group (t mod 16 ≠ 0, 15): the block of point t is in flight into slot t mod 2 and the other slot is
  free; the point waits for its 128 copies, starts the 128 copies of point t + 1 into the free slot, reads the waited slot back as
  the gathered rows and stores the elementwise function of them.
-/
import proofs.«422764_j1194000908612_2_alg».proof.Proof.Gen.Kernel.Launch
import proofs.«422764_j1194000908612_2_alg».proof.Proof.Gen.Kernel.Skeleton
import proofs.«422764_j1194000908612_2_alg».proof.Proof.K.Reads
import proofs.«422764_j1194000908612_2_alg».proof.Proof.K.Toks
import proofs.«422764_j1194000908612_2_alg».proof.Proof.K.PhiIO
import proofs.«422764_j1194000908612_2_alg».proof.Proof.K.PhiLemmas
import proofs.«422764_j1194000908612_2_alg».proof.Proof.K.Stor
import proofs.«422764_j1194000908612_2_alg».proof.Proof.K.StoreRead
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

set_option maxHeartbeats 8000000 in
theorem runB (c : Dev nD) (t : Fin grid0.N) (ht : t.val % 16 ≠ 0 ∧ t.val % 16 ≠ 15)
    (stg : Memref sig .tc .vmem S8x64x1024 .f32) (hstg : stg.IsWhole) (x0 : Vec F S8x64x1024 .f32)
    (tb : MBuf (F := F) c tbM) (htb : ∀ y, (tb y).toNat < 4096) (fa : MBuf (F := F) c aM) (fb : MBuf (F := F) c bM) (W : Waits sig Unit) :
    iprop(Phi c tb htb fa fb t.val ∗ owes (c : Thread nD τ) 0 W ∗ owns (c : Thread nD τ) stg fullShare x0)
      ⊢ wp frame (wpE (defs₀ (F := F)) Variants.none (c : Thread nD τ) none) Set.univ
          (cc0_kernel (F := F) (grid0.coords t) tbM (Memref.isWhole_whole _) aM (Memref.isWhole_whole _) bM (Memref.isWhole_whole _) stg hstg scA (Memref.isWhole_whole _) scB (Memref.isWhole_whole _) cc0_scratch2 cc0_scratch3)
          (fun _ => iprop(Phi c tb htb fa fb (t.val + 1) ∗ (∃ W', owes (c : Thread nD τ) 0 W') ∗ owns (c : Thread nD τ) stg fullShare (outBlk (F := F) fa fb (rowsOf tb t.val)))) := by
  have hc1 : ¬ k0_cond1 (grid0.coords t) = 1#1 := fun h => by have := (hcond1 t).mp h; omega
  have h2 : k0_cond2 (grid0.coords t) = 1#1 := (hcond2 t).mpr (by omega)
  have e2 : slN t.val = slN (t.val + 1 + 1) := Fin.ext (by show t.val % 2 = (t.val + 1 + 1) % 2; omega)
  have hbt : t.val < 32 := lt_of_lt_of_eq t.isLt N_0
  obtain ⟨t', h2', ht', hsl⟩ := slots_flight' c tb htb fa fb t (by omega)
  unfold Phi
  rw [hsl, slots_flight c tb htb fa fb t (by omega) h2]
  unfold steady owns
  conv => lhs; unfold flightA flightB freeA freeB
  iintro ⟨⟨⟨Hg, HT, HdA, HdB⟩, ⟨HBA, HRA⟩, ⟨HBB, HRB⟩, ⟨HcA, ⟨%gA, HgA⟩, HtA⟩, ⟨HcB, ⟨%gB, HgB⟩, HtB⟩⟩, HO, ⟨%f1, -, H1⟩⟩
  imod (Transfers.batch_alloc' (Lvl := ℕ) countersEmb (c : Thread nD τ) () rowCredit (D2A c tb fa htb (grid0.coords t) h2 (slN (t.val + 1))) (sm := cA (slN (t.val + 1))) (E := Set.univ)) $$ HcA with HNA
  imod (Transfers.batch_alloc' (Lvl := ℕ) countersEmb (c : Thread nD τ) () rowCredit (D2B c tb fb htb (grid0.coords t) h2 (slN (t.val + 1))) (sm := cB (slN (t.val + 1))) (E := Set.univ)) $$ HcB with HNB
  ihave HrA := (Entails.of_eq (slot64_A c (slN (t.val + 1)) gA)) $$ HgA
  icases HrA with ⟨FA0, FA1, FA2, FA3, FA4, FA5, FA6, FA7, FA8, FA9, FA10, FA11, FA12, FA13, FA14, FA15, FA16, FA17, FA18, FA19, FA20, FA21, FA22, FA23, FA24, FA25, FA26, FA27, FA28, FA29, FA30, FA31, FA32, FA33, FA34, FA35, FA36, FA37, FA38, FA39, FA40, FA41, FA42, FA43, FA44, FA45, FA46, FA47, FA48, FA49, FA50, FA51, FA52, FA53, FA54, FA55, FA56, FA57, FA58, FA59, FA60, FA61, FA62, FA63⟩
  ihave HrB := (Entails.of_eq (slot64_B c (slN (t.val + 1)) gB)) $$ HgB
  icases HrB with ⟨FB0, FB1, FB2, FB3, FB4, FB5, FB6, FB7, FB8, FB9, FB10, FB11, FB12, FB13, FB14, FB15, FB16, FB17, FB18, FB19, FB20, FB21, FB22, FB23, FB24, FB25, FB26, FB27, FB28, FB29, FB30, FB31, FB32, FB33, FB34, FB35, FB36, FB37, FB38, FB39, FB40, FB41, FB42, FB43, FB44, FB45, FB46, FB47, FB48, FB49, FB50, FB51, FB52, FB53, FB54, FB55, FB56, FB57, FB58, FB59, FB60, FB61, FB62, FB63⟩
  ihave HxA := ((toks2A c tb fa htb (grid0.coords t) h2 (slN (t.val + 1))).1) $$ HtA
  icases HxA with ⟨⟨XA0, XA1, XA2, XA3, XA4, XA5, XA6, XA7, XA8, XA9, XA10, XA11, XA12, XA13, XA14, XA15, XA16, XA17, XA18, XA19, XA20, XA21, XA22, XA23, XA24, XA25, XA26, XA27, XA28, XA29, XA30, XA31, XA32, XA33, XA34, XA35, XA36, XA37, XA38, XA39, XA40, XA41, XA42, XA43, XA44, XA45, XA46, XA47, XA48, XA49, XA50, XA51, XA52, XA53, XA54, XA55, XA56, XA57, XA58, XA59, XA60, XA61, XA62, XA63⟩, HRA2⟩
  ihave HxB := ((toks2B c tb fb htb (grid0.coords t) h2 (slN (t.val + 1))).1) $$ HtB
  icases HxB with ⟨⟨XB0, XB1, XB2, XB3, XB4, XB5, XB6, XB7, XB8, XB9, XB10, XB11, XB12, XB13, XB14, XB15, XB16, XB17, XB18, XB19, XB20, XB21, XB22, XB23, XB24, XB25, XB26, XB27, XB28, XB29, XB30, XB31, XB32, XB33, XB34, XB35, XB36, XB37, XB38, XB39, XB40, XB41, XB42, XB43, XB44, XB45, XB46, XB47, XB48, XB49, XB50, XB51, XB52, XB53, XB54, XB55, XB56, XB57, XB58, XB59, XB60, XB61, XB62, XB63⟩, HRB2⟩
  rw [cc0_kernel_eq_skeleton]; unfold cc0_kernel_skel
  sl_exec (disch := first | exact hc1 | exact h2 | exact (fun _ => rows_inb _ (htb _)))
  ihave HSA := (Entails.of_eq (rows64_A c (slN t.val) (L2A c tb fa htb (grid0.coords t') h2' (slN t.val)))) $$ [HBA_dst0 HBA_dst1 HBA_dst2 HBA_dst3 HBA_dst4 HBA_dst5 HBA_dst6 HBA_dst7 HBA_dst8 HBA_dst9 HBA_dst10 HBA_dst11 HBA_dst12 HBA_dst13 HBA_dst14 HBA_dst15 HBA_dst16 HBA_dst17 HBA_dst18 HBA_dst19 HBA_dst20 HBA_dst21 HBA_dst22 HBA_dst23 HBA_dst24 HBA_dst25 HBA_dst26 HBA_dst27 HBA_dst28 HBA_dst29 HBA_dst30 HBA_dst31 HBA_dst32 HBA_dst33 HBA_dst34 HBA_dst35 HBA_dst36 HBA_dst37 HBA_dst38 HBA_dst39 HBA_dst40 HBA_dst41 HBA_dst42 HBA_dst43 HBA_dst44 HBA_dst45 HBA_dst46 HBA_dst47 HBA_dst48 HBA_dst49 HBA_dst50 HBA_dst51 HBA_dst52 HBA_dst53 HBA_dst54 HBA_dst55 HBA_dst56 HBA_dst57 HBA_dst58 HBA_dst59 HBA_dst60 HBA_dst61 HBA_dst62 HBA_dst63]
  · dsimp only [L2A]; iframe
  ihave HSB := (Entails.of_eq (rows64_B c (slN t.val) (L2B c tb fb htb (grid0.coords t') h2' (slN t.val)))) $$ [HBB_dst0 HBB_dst1 HBB_dst2 HBB_dst3 HBB_dst4 HBB_dst5 HBB_dst6 HBB_dst7 HBB_dst8 HBB_dst9 HBB_dst10 HBB_dst11 HBB_dst12 HBB_dst13 HBB_dst14 HBB_dst15 HBB_dst16 HBB_dst17 HBB_dst18 HBB_dst19 HBB_dst20 HBB_dst21 HBB_dst22 HBB_dst23 HBB_dst24 HBB_dst25 HBB_dst26 HBB_dst27 HBB_dst28 HBB_dst29 HBB_dst30 HBB_dst31 HBB_dst32 HBB_dst33 HBB_dst34 HBB_dst35 HBB_dst36 HBB_dst37 HBB_dst38 HBB_dst39 HBB_dst40 HBB_dst41 HBB_dst42 HBB_dst43 HBB_dst44 HBB_dst45 HBB_dst46 HBB_dst47 HBB_dst48 HBB_dst49 HBB_dst50 HBB_dst51 HBB_dst52 HBB_dst53 HBB_dst54 HBB_dst55 HBB_dst56 HBB_dst57 HBB_dst58 HBB_dst59 HBB_dst60 HBB_dst61 HBB_dst62 HBB_dst63]
  · dsimp only [L2B]; iframe
  have hboxA := box_in_slot_A t
  have hboxB := box_in_slot_B t
  have hboxA' := box_on_slot_A t
  have hboxB' := box_on_slot_B t
  sl_exec
  sl_step
  ihave HtA' := ((toks2A c tb fa htb (grid0.coords t') h2' (slN t.val)).2) $$ [HBA_src0 HBA_src1 HBA_src2 HBA_src3 HBA_src4 HBA_src5 HBA_src6 HBA_src7 HBA_src8 HBA_src9 HBA_src10 HBA_src11 HBA_src12 HBA_src13 HBA_src14 HBA_src15 HBA_src16 HBA_src17 HBA_src18 HBA_src19 HBA_src20 HBA_src21 HBA_src22 HBA_src23 HBA_src24 HBA_src25 HBA_src26 HBA_src27 HBA_src28 HBA_src29 HBA_src30 HBA_src31 HBA_src32 HBA_src33 HBA_src34 HBA_src35 HBA_src36 HBA_src37 HBA_src38 HBA_src39 HBA_src40 HBA_src41 HBA_src42 HBA_src43 HBA_src44 HBA_src45 HBA_src46 HBA_src47 HBA_src48 HBA_src49 HBA_src50 HBA_src51 HBA_src52 HBA_src53 HBA_src54 HBA_src55 HBA_src56 HBA_src57 HBA_src58 HBA_src59 HBA_src60 HBA_src61 HBA_src62 HBA_src63 HRA]
  · iframe
  ihave HtB' := ((toks2B c tb fb htb (grid0.coords t') h2' (slN t.val)).2) $$ [HBB_src0 HBB_src1 HBB_src2 HBB_src3 HBB_src4 HBB_src5 HBB_src6 HBB_src7 HBB_src8 HBB_src9 HBB_src10 HBB_src11 HBB_src12 HBB_src13 HBB_src14 HBB_src15 HBB_src16 HBB_src17 HBB_src18 HBB_src19 HBB_src20 HBB_src21 HBB_src22 HBB_src23 HBB_src24 HBB_src25 HBB_src26 HBB_src27 HBB_src28 HBB_src29 HBB_src30 HBB_src31 HBB_src32 HBB_src33 HBB_src34 HBB_src35 HBB_src36 HBB_src37 HBB_src38 HBB_src39 HBB_src40 HBB_src41 HBB_src42 HBB_src43 HBB_src44 HBB_src45 HBB_src46 HBB_src47 HBB_src48 HBB_src49 HBB_src50 HBB_src51 HBB_src52 HBB_src53 HBB_src54 HBB_src55 HBB_src56 HBB_src57 HBB_src58 HBB_src59 HBB_src60 HBB_src61 HBB_src62 HBB_src63 HRB]
  · iframe
  ihave HFA := (freeA_intro c fa (slN t.val) (slN (t.val + 1 + 1)) e2 _) $$ [HBA HSA HtA']
  · iframe
  ihave HFB := (freeB_intro c fb (slN t.val) (slN (t.val + 1 + 1)) e2 _) $$ [HBB HSB HtB']
  · iframe
  ihave HLA := (flightA_intro c tb htb fa (grid0.coords t) h2 (slN (t.val + 1))) $$ [HNA HRA2]
  · iframe
  ihave HLB := (flightB_intro c tb htb fb (grid0.coords t) h2 (slN (t.val + 1))) $$ [HNB HRB2]
  · iframe
  isplitl [Hg HT HdA HdB HFA HFB HLA HLB]
  · iframe
  isplitl [HO]; · iexists _; iexact HO
  iexists _; isplitr; swap; · iexact H1
  ipureintro
  refine (read_store_whole stg hstg f1 _).trans ?_
  unfold outBlk
  have hA := (readAt_box_congr scA _ _ (coff_L t) (k0_off515_inb (grid0.coords t)) (inb_slot (slN t.val)) (glue_A c (L2A c tb fa htb (grid0.coords t') h2' (slN t.val)))).trans (read2A c tb fa htb t' h2' (by omega) (slN t.val))
  have hB := (readAt_box_congr scB _ _ (coff_L t) (k0_off515_inb (grid0.coords t)) (inb_slot (slN t.val)) (glue_B c (L2B c tb fb htb (grid0.coords t') h2' (slN t.val)))).trans (read2B c tb fb htb t' h2' (by omega) (slN t.val))
  show k0_pay1 (k0_pay2 (scA.view.readAt (Elt F) (Rect.unit (s := S2x8x64x1024) (k0_off515 (grid0.coords t)) S1x8x64x1024.size (k0_off515_inb (grid0.coords t))).toLoadRect (glue_A c (L2A c tb fa htb (grid0.coords t') h2' (slN t.val))))) (k0_pay3 (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) (k0_pay4 (scA.view.readAt (Elt F) (Rect.unit (s := S2x8x64x1024) (k0_off515 (grid0.coords t)) S1x8x64x1024.size (k0_off515_inb (grid0.coords t))).toLoadRect (glue_A c (L2A c tb fa htb (grid0.coords t') h2' (slN t.val)))) (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) = _
  rw [hA, hB]
  rw [ht']

end Cert.Kernel.Hand

end
-- ==== Proof.K.RunC.lean ====
/-
  The last grid point of a row group (t mod 16 = 15): the block of point t is in flight into slot 1; the point waits for
  its 128 copies, reads the two slots back as the gathered rows, stores the elementwise function of them, and starts nothing.
-/
import proofs.«422764_j1194000908612_2_alg».proof.Proof.Gen.Kernel.Launch
import proofs.«422764_j1194000908612_2_alg».proof.Proof.Gen.Kernel.Skeleton
import proofs.«422764_j1194000908612_2_alg».proof.Proof.K.Reads
import proofs.«422764_j1194000908612_2_alg».proof.Proof.K.Toks
import proofs.«422764_j1194000908612_2_alg».proof.Proof.K.PhiIO
import proofs.«422764_j1194000908612_2_alg».proof.Proof.K.PhiLemmas
import proofs.«422764_j1194000908612_2_alg».proof.Proof.K.Stor
import proofs.«422764_j1194000908612_2_alg».proof.Proof.K.StoreRead
import Idealize.ShloMosaic.Lib.ValueIdx
import Idealize.ShloMosaic.Lib.Pipeline.FrameBody
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

set_option maxHeartbeats 8000000 in
theorem runC (c : Dev nD) (t : Fin grid0.N) (ht : t.val % 16 = 15)
    (stg : Memref sig .tc .vmem S8x64x1024 .f32) (hstg : stg.IsWhole) (x0 : Vec F S8x64x1024 .f32)
    (tb : MBuf (F := F) c tbM) (htb : ∀ y, (tb y).toNat < 4096) (fa : MBuf (F := F) c aM) (fb : MBuf (F := F) c bM) (W : Waits sig Unit) :
    iprop(Phi c tb htb fa fb t.val ∗ owes (c : Thread nD τ) 0 W ∗ owns (c : Thread nD τ) stg fullShare x0)
      ⊢ wp frame (wpE (defs₀ (F := F)) Variants.none (c : Thread nD τ) none) Set.univ
          (cc0_kernel (F := F) (grid0.coords t) tbM (Memref.isWhole_whole _) aM (Memref.isWhole_whole _) bM (Memref.isWhole_whole _) stg hstg scA (Memref.isWhole_whole _) scB (Memref.isWhole_whole _) cc0_scratch2 cc0_scratch3)
          (fun _ => iprop(Phi c tb htb fa fb (t.val + 1) ∗ (∃ W', owes (c : Thread nD τ) 0 W') ∗ owns (c : Thread nD τ) stg fullShare (outBlk (F := F) fa fb (rowsOf tb t.val)))) := by
  have hc1 : ¬ k0_cond1 (grid0.coords t) = 1#1 := fun h => by have := (hcond1 t).mp h; omega
  have hc2 : ¬ k0_cond2 (grid0.coords t) = 1#1 := fun h => by have := (hcond2 t).mp h; omega
  have e1 : slN t.val = 1 := Fin.ext (by show t.val % 2 = 1; omega)
  have e0 : slN (t.val + 1) = 0 := Fin.ext (by show (t.val + 1) % 2 = 0; omega)
  have hbt : t.val < 32 := lt_of_lt_of_eq t.isLt N_0
  obtain ⟨t', h2', ht', hsl⟩ := slots_flight' c tb htb fa fb t (by omega)
  unfold Phi
  rw [hsl, slots_free c tb htb fa fb (t.val + 1) (by omega)]
  unfold steady flightA flightB owns
  iintro ⟨⟨⟨Hg, HT, HdA, HdB⟩, ⟨HBA, HRA⟩, ⟨HBB, HRB⟩, HfA, HfB⟩, HO, ⟨%f1, -, H1⟩⟩
  rw [cc0_kernel_eq_skeleton]; unfold cc0_kernel_skel
  sl_exec (disch := first | exact hc1 | exact hc2 | exact (fun _ => rows_inb _ (htb _)))
  ihave HSA := (Entails.of_eq (rows64_A c (slN t.val) (L2A c tb fa htb (grid0.coords t') h2' (slN t.val)))) $$ [HBA_dst0 HBA_dst1 HBA_dst2 HBA_dst3 HBA_dst4 HBA_dst5 HBA_dst6 HBA_dst7 HBA_dst8 HBA_dst9 HBA_dst10 HBA_dst11 HBA_dst12 HBA_dst13 HBA_dst14 HBA_dst15 HBA_dst16 HBA_dst17 HBA_dst18 HBA_dst19 HBA_dst20 HBA_dst21 HBA_dst22 HBA_dst23 HBA_dst24 HBA_dst25 HBA_dst26 HBA_dst27 HBA_dst28 HBA_dst29 HBA_dst30 HBA_dst31 HBA_dst32 HBA_dst33 HBA_dst34 HBA_dst35 HBA_dst36 HBA_dst37 HBA_dst38 HBA_dst39 HBA_dst40 HBA_dst41 HBA_dst42 HBA_dst43 HBA_dst44 HBA_dst45 HBA_dst46 HBA_dst47 HBA_dst48 HBA_dst49 HBA_dst50 HBA_dst51 HBA_dst52 HBA_dst53 HBA_dst54 HBA_dst55 HBA_dst56 HBA_dst57 HBA_dst58 HBA_dst59 HBA_dst60 HBA_dst61 HBA_dst62 HBA_dst63]
  · dsimp only [L2A]; iframe
  ihave HSB := (Entails.of_eq (rows64_B c (slN t.val) (L2B c tb fb htb (grid0.coords t') h2' (slN t.val)))) $$ [HBB_dst0 HBB_dst1 HBB_dst2 HBB_dst3 HBB_dst4 HBB_dst5 HBB_dst6 HBB_dst7 HBB_dst8 HBB_dst9 HBB_dst10 HBB_dst11 HBB_dst12 HBB_dst13 HBB_dst14 HBB_dst15 HBB_dst16 HBB_dst17 HBB_dst18 HBB_dst19 HBB_dst20 HBB_dst21 HBB_dst22 HBB_dst23 HBB_dst24 HBB_dst25 HBB_dst26 HBB_dst27 HBB_dst28 HBB_dst29 HBB_dst30 HBB_dst31 HBB_dst32 HBB_dst33 HBB_dst34 HBB_dst35 HBB_dst36 HBB_dst37 HBB_dst38 HBB_dst39 HBB_dst40 HBB_dst41 HBB_dst42 HBB_dst43 HBB_dst44 HBB_dst45 HBB_dst46 HBB_dst47 HBB_dst48 HBB_dst49 HBB_dst50 HBB_dst51 HBB_dst52 HBB_dst53 HBB_dst54 HBB_dst55 HBB_dst56 HBB_dst57 HBB_dst58 HBB_dst59 HBB_dst60 HBB_dst61 HBB_dst62 HBB_dst63]
  · dsimp only [L2B]; iframe
  have hboxA := box_in_slot_A t
  have hboxB := box_in_slot_B t
  have hboxA' := box_on_slot_A t
  have hboxB' := box_on_slot_B t
  sl_exec
  sl_step
  ihave HtA := ((toks2A c tb fa htb (grid0.coords t') h2' (slN t.val)).2) $$ [HBA_src0 HBA_src1 HBA_src2 HBA_src3 HBA_src4 HBA_src5 HBA_src6 HBA_src7 HBA_src8 HBA_src9 HBA_src10 HBA_src11 HBA_src12 HBA_src13 HBA_src14 HBA_src15 HBA_src16 HBA_src17 HBA_src18 HBA_src19 HBA_src20 HBA_src21 HBA_src22 HBA_src23 HBA_src24 HBA_src25 HBA_src26 HBA_src27 HBA_src28 HBA_src29 HBA_src30 HBA_src31 HBA_src32 HBA_src33 HBA_src34 HBA_src35 HBA_src36 HBA_src37 HBA_src38 HBA_src39 HBA_src40 HBA_src41 HBA_src42 HBA_src43 HBA_src44 HBA_src45 HBA_src46 HBA_src47 HBA_src48 HBA_src49 HBA_src50 HBA_src51 HBA_src52 HBA_src53 HBA_src54 HBA_src55 HBA_src56 HBA_src57 HBA_src58 HBA_src59 HBA_src60 HBA_src61 HBA_src62 HBA_src63 HRA]
  · iframe
  ihave HtB := ((toks2B c tb fb htb (grid0.coords t') h2' (slN t.val)).2) $$ [HBB_src0 HBB_src1 HBB_src2 HBB_src3 HBB_src4 HBB_src5 HBB_src6 HBB_src7 HBB_src8 HBB_src9 HBB_src10 HBB_src11 HBB_src12 HBB_src13 HBB_src14 HBB_src15 HBB_src16 HBB_src17 HBB_src18 HBB_src19 HBB_src20 HBB_src21 HBB_src22 HBB_src23 HBB_src24 HBB_src25 HBB_src26 HBB_src27 HBB_src28 HBB_src29 HBB_src30 HBB_src31 HBB_src32 HBB_src33 HBB_src34 HBB_src35 HBB_src36 HBB_src37 HBB_src38 HBB_src39 HBB_src40 HBB_src41 HBB_src42 HBB_src43 HBB_src44 HBB_src45 HBB_src46 HBB_src47 HBB_src48 HBB_src49 HBB_src50 HBB_src51 HBB_src52 HBB_src53 HBB_src54 HBB_src55 HBB_src56 HBB_src57 HBB_src58 HBB_src59 HBB_src60 HBB_src61 HBB_src62 HBB_src63 HRB]
  · iframe
  ihave HF1A := (freeA_intro c fa (slN t.val) 1 e1 _) $$ [HBA HSA HtA]
  · iframe
  ihave HF1B := (freeB_intro c fb (slN t.val) 1 e1 _) $$ [HBB HSB HtB]
  · iframe
  ihave HF0A := (freeA_cast c fa (slN (t.val + 1)) 0 e0) $$ HfA
  ihave HF0B := (freeB_cast c fb (slN (t.val + 1)) 0 e0) $$ HfB
  isplitl [Hg HT HdA HdB HF0A HF1A HF0B HF1B]
  · iframe
  isplitl [HO]; · iexists _; iexact HO
  iexists _; isplitr; swap; · iexact H1
  ipureintro
  refine (read_store_whole stg hstg f1 _).trans ?_
  unfold outBlk
  have hA := (readAt_box_congr scA _ _ (coff_L t) (k0_off515_inb (grid0.coords t)) (inb_slot (slN t.val)) (glue_A c (L2A c tb fa htb (grid0.coords t') h2' (slN t.val)))).trans (read2A c tb fa htb t' h2' (by omega) (slN t.val))
  have hB := (readAt_box_congr scB _ _ (coff_L t) (k0_off515_inb (grid0.coords t)) (inb_slot (slN t.val)) (glue_B c (L2B c tb fb htb (grid0.coords t') h2' (slN t.val)))).trans (read2B c tb fb htb t' h2' (by omega) (slN t.val))
  show k0_pay1 (k0_pay2 (scA.view.readAt (Elt F) (Rect.unit (s := S2x8x64x1024) (k0_off515 (grid0.coords t)) S1x8x64x1024.size (k0_off515_inb (grid0.coords t))).toLoadRect (glue_A c (L2A c tb fa htb (grid0.coords t') h2' (slN t.val))))) (k0_pay3 (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) (k0_pay4 (scA.view.readAt (Elt F) (Rect.unit (s := S2x8x64x1024) (k0_off515 (grid0.coords t)) S1x8x64x1024.size (k0_off515_inb (grid0.coords t))).toLoadRect (glue_A c (L2A c tb fa htb (grid0.coords t') h2' (slN t.val)))) (scB.view.readAt (Elt F) (Rect.unit (s := S2x8x64x1024) (k0_off515 (grid0.coords t)) S1x8x64x1024.size (k0_off515_inb (grid0.coords t))).toLoadRect (glue_B c (L2B c tb fb htb (grid0.coords t') h2' (slN t.val))))) = _
  rw [hA, hB]
  rw [ht']

end Cert.Kernel.Hand

end
-- ==== Proof.K.Main.lean ====
/-
  The kernel side assembled: the table's words are below 4096; the proof data of the one pipeline (each grid point leaves
  the block of the rows it gathered; the invariant is the state of the two scratch slots between points); the body's
  triple at every point from the three cases' runs; the run of the whole program; and the frame.
-/
import proofs.«422764_j1194000908612_2_alg».proof.Proof.Gen.Kernel.Launch
import proofs.«422764_j1194000908612_2_alg».proof.Proof.Gen.Kernel.Skeleton
import proofs.«422764_j1194000908612_2_alg».proof.Proof.K.Names
import proofs.«422764_j1194000908612_2_alg».proof.Proof.PreRows
import proofs.«422764_j1194000908612_2_alg».proof.Proof.K.Out
import proofs.«422764_j1194000908612_2_alg».proof.Proof.K.Kit
import proofs.«422764_j1194000908612_2_alg».proof.Proof.K.Phi
import proofs.«422764_j1194000908612_2_alg».proof.Proof.K.PhiIO
import proofs.«422764_j1194000908612_2_alg».proof.Proof.K.RunA
import proofs.«422764_j1194000908612_2_alg».proof.Proof.K.RunB
import proofs.«422764_j1194000908612_2_alg».proof.Proof.K.RunC
import Idealize.ShloMosaic.Lib.Pipeline.Frame
import Idealize.ShloMosaic.Lib.Pipeline.FrameBody
import Idealize.ShloMosaic.Lib.StableHlo.Run
import Idealize.ShloMosaic.Lib.Ring
import Idealize.ShloMosaic.Lib.Batch
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable [∀ e, Nonempty (Elt F e)]

variable (m : (ℓ : Loc nD τ sig) → Buf (Elt F) ℓ) (ρ : Dev nD → PrngReg)

/-! ## The table's words -/

/-- Every word of the table the region reads is below 4096: it is a clip into [0, 4095]. -/
theorem htbl (c : Dev nD) : ∀ y, ((V m c main_v0) y).toNat < 4096 := by
  intro y
  rw [V_tbl, eq_ix1 y]
  exact Cert.PreRows.clipTbl_lt bcast_S_S2048 _ (y 0)

/-! ## The proof data -/

/-- The proof data of the one pipeline on core c: the result array as the region finds it; after the body at point t the
    staging buffer at the block of the rows the point gathered; the invariant the state of the slots before the point;
    nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => outBlk (V m c main_arg0) (V m c main_arg1) (rowsOf (V m c main_v0) t.val)
  Φ t := Phi c (V m c main_v0) (htbl m c) (V m c main_arg0) (V m c main_arg1) t.val
  q _ := fullShare
  owed _ := 0

theorem A_eq (c : Dev nD) (w : Fin (cfgM m).W) : (dats m 0 c).A w = V m c (Pipeline.arrRef spec0 w) := by
  dsimp only [dats]
theorem Phi_castSucc (c : Dev nD) (t : Fin (cfgM m).N) :
    (dats m 0 c).Φ t.castSucc = Phi c (V m c main_v0) (htbl m c) (V m c main_arg0) (V m c main_arg1) t.val := by
  dsimp only [dats]; simp only [Fin.coe_castSucc]
theorem Phi_succ (c : Dev nD) (t : Fin (cfgM m).N) :
    (dats m 0 c).Φ t.succ = Phi c (V m c main_v0) (htbl m c) (V m c main_arg0) (V m c main_arg1) (t.val + 1) := by
  dsimp only [dats]; simp only [Fin.val_succ]
theorem after0_0 (c : Dev nD) (t : Fin (cfgM m).N) :
    (dats m 0 c).after 0 t = outBlk (V m c main_arg0) (V m c main_arg1) (rowsOf (V m c main_v0) t.val) := by
  dsimp only [dats]; rfl

/-! ## The body at every point -/

theorem sound_body (c : Dev nD) (t : Fin (cfgM m).N) :
    iprop((dats m 0 c).Φ t.castSucc ∗ (dats m 0 c).owesAt () t.castSucc ∗ (∃ d, owns (c : Thread nD τ) (ms0_0 m t) fullShare ((dats m 0 c).before 0 t d)))
      ⊢ wp frame (wpE (defs₀ (F := F)) Variants.none c none) Set.univ (bodyAt0 m t)
          (fun _ => iprop((dats m 0 c).Φ t.succ ∗ (dats m 0 c).owesAt () t.succ ∗ owns (c : Thread nD τ) (ms0_0 m t) fullShare ((dats m 0 c).after 0 t))) := by
  rw [Phi_castSucc, Phi_succ, after0_0]
  unfold Dat.owesAt Pipeline.owesWithin bodyAt0
  rw [show (dats m 0 c).owed t.castSucc = 0 from rfl, show (dats m 0 c).owed t.succ = 0 from rfl]
  iintro ⟨HΦ, ⟨%W, -, HW⟩, ⟨%d, H0⟩⟩
  iapply (wp_wand_r frame (wpE (defs₀ (F := F)) Variants.none c none) Set.univ
    (Q := fun _ => iprop(Phi c (V m c main_v0) (htbl m c) (V m c main_arg0) (V m c main_arg1) (t.val + 1) ∗ (∃ W', owes (c : Thread nD τ) 0 W')
      ∗ owns (c : Thread nD τ) (ms0_0 m t) fullShare (outBlk (V m c main_arg0) (V m c main_arg1) (rowsOf (V m c main_v0) t.val)))))
  isplitl [HΦ HW H0]
  · by_cases hA : t.val % 16 = 0
    · iapply (runA c t hA (ms0_0 m t) (hs0_0 m t) _ (V m c main_v0) (htbl m c) (V m c main_arg0) (V m c main_arg1) W)
      isplitl [HΦ]; · iexact HΦ
      isplitl [HW]; · iexact HW
      iexact H0
    · by_cases hC : t.val % 16 = 15
      · iapply (runC c t hC (ms0_0 m t) (hs0_0 m t) _ (V m c main_v0) (htbl m c) (V m c main_arg0) (V m c main_arg1) W)
        isplitl [HΦ]; · iexact HΦ
        isplitl [HW]; · iexact HW
        iexact H0
      · iapply (runB c t ⟨hA, hC⟩ (ms0_0 m t) (hs0_0 m t) _ (V m c main_v0) (htbl m c) (V m c main_arg0) (V m c main_arg1) W)
        isplitl [HΦ]; · iexact HΦ
        isplitl [HW]; · iexact HW
        iexact H0
  iintro %_ ⟨HΦ', ⟨%W', HW'⟩, H0'⟩
  isplitl [HΦ']; · iexact HΦ'
  isplitl [HW']
  · iexists W'; isplitr; · ipureintro; exact fun _ _ => Or.inl trivial
    iexact HW'
  iexact H0'

theorem body_obligation (c : Dev nD) : BodyObligation (dats (F := F) m 0 c) (defs₀ (F := F)) Variants.none () Set.univ :=
  body_obligation_of m c (dats m 0 c) (sound_body m c)

/-! ## The invariant's two ends -/

theorem hin (c : Dev nD) : iprop(Pipeline.ΦD osem0 spec0 H0 (V m) c ∗ Pipeline.ΦT pre0 (tbl m) c) ⊢ (dats m 0 c).Φ 0 := by
  rw [PhiD0_eq, PhiT0_eq, ← V_pre m c 0,
    show (dats m 0 c).Φ 0 = Phi c (V m c main_v0) (htbl m c) (V m c main_arg0) (V m c main_arg1) 0 from rfl]
  exact phi_in c (V m c main_v0) (htbl m c) (V m c main_arg0) (V m c main_arg1)
theorem hout (c : Dev nD) : (dats m 0 c).Φ (Fin.last (cfgM m).N) ⊢ Pipeline.ΦD osem0 spec0 H0 (V m) c := by
  rw [PhiD0_eq,
    show (dats m 0 c).Φ (Fin.last (cfgM m).N) = Phi c (V m c main_v0) (htbl m c) (V m c main_arg0) (V m c main_arg1) 32 from by
      dsimp only [dats]; simp only [Fin.val_last]; rw [N_cfgM]]
  exact phi_out c (V m c main_v0) (htbl m c) (V m c main_arg0) (V m c main_arg1)

/-! ## The run and the frame -/

set_option backward.isDefEq.respectTransparency.types false in
theorem run_main : θ_run defs (onTc (τ := τ) (main (F := F))) (s₀ m ρ) (Pipeline.FramePost (Pipeline.pin pcfgs fun _ => adm m) (dats m) 0 (V m)) :=
  Pipeline.θ_run_frameP_dma pcfgs (fun _ => adm m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (frame_of m ρ (dats m) (A_eq m) (run_main m ρ))

end Cert.Kernel.Hand

end
-- ==== Proof.RefRun.lean ====
/-
  The reference program's run, written as one straight line of its thirty-three host operations (the two
  module-local functions unfolded at their calls over the calls' buffer records), and the composed term
  the result buffer holds at the end: the elementwise value exp(a·b + (a − b)·½) of the two arrays, its rows
  selected by the index words through the gather, guarded by the range mask, plus one.
-/
import proofs.«422764_j1194000908612_2_alg».proof.ReferenceIdeal
import proofs.«422764_j1194000908612_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The straight line: the seven operations before the call, the twenty-three of the row selection (the
    inner select at its place, seventh of them), the three after it. -/
abbrev ops : List (HloOp τ sig (Elt F)) :=
  [ binary main_arg0 main_arg1 main_v0 (mulf : (⟨S8x4096x1024, .f32⟩ : BufTy).Contents (Elt F) → (⟨S8x4096x1024, .f32⟩ : BufTy).Contents (Elt F) → (⟨S8x4096x1024, .f32⟩ : BufTy).Contents (Elt F)),
    binary main_arg0 main_arg1 main_v1 (subf : (⟨S8x4096x1024, .f32⟩ : BufTy).Contents (Elt F) → (⟨S8x4096x1024, .f32⟩ : BufTy).Contents (Elt F) → (⟨S8x4096x1024, .f32⟩ : BufTy).Contents (Elt F)),
    nullary main_cst (constant S_ .f32 0x3F000000#32),
    unary main_cst main_v2 (broadcastInDim S8x4096x1024 ![] bcast_S_S8x4096x1024 : (⟨S_, .f32⟩ : BufTy).Contents (Elt F) → (⟨S8x4096x1024, .f32⟩ : BufTy).Contents (Elt F)),
    binary main_v1 main_v2 main_v3 (mulf : (⟨S8x4096x1024, .f32⟩ : BufTy).Contents (Elt F) → (⟨S8x4096x1024, .f32⟩ : BufTy).Contents (Elt F) → (⟨S8x4096x1024, .f32⟩ : BufTy).Contents (Elt F)),
    binary main_v0 main_v3 main_v4 (addf : (⟨S8x4096x1024, .f32⟩ : BufTy).Contents (Elt F) → (⟨S8x4096x1024, .f32⟩ : BufTy).Contents (Elt F) → (⟨S8x4096x1024, .f32⟩ : BufTy).Contents (Elt F)),
    unary main_v4 main_v5 (Host.exp : (⟨S8x4096x1024, .f32⟩ : BufTy).Contents (Elt F) → (⟨S8x4096x1024, .f32⟩ : BufTy).Contents (Elt F)),
    TRef.nullary main_call0.c (constantI S_ 32 0#32),
    TRef.unary main_call0.c main_call0.v0 (broadcastInDim S2048 ![] bcast_S_S2048),
    TRef.binary (.of main_arg2) main_call0.v0 main_call0.v1 (cmpi .slt),
    TRef.nullary main_call0.c_0 (constantI S_ 32 4096#32),
    TRef.unary main_call0.c_0 main_call0.v2 (broadcastInDim S2048 ![] bcast_S_S2048),
    TRef.binary (.of main_arg2) main_call0.v2 main_call0.v3 addi,
    TRef.ternary main_call0.v1 main_call0.v3 (.of main_arg2) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_v5) main_call0.v5 main_call0.v13 (fun x i => Host.gather gather_S8x4096x1024_S2048x1_S8x2048x1024_02_1_n_n_1_1_811024 x i),
    TRef.unary main_call0.v12 main_call0.v14 (broadcastInDim S8x2048x1024 ![1] bcast_S2048_S8x2048x1024_1),
    TRef.nullary main_call0.cst (constant S_ .f32 0x7FC00000#32),
    TRef.unary main_call0.cst main_call0.v15 (broadcastInDim S8x2048x1024 ![] bcast_S_S8x2048x1024),
    TRef.ternary main_call0.v14 main_call0.v13 main_call0.v15 main_call0.v16 select,
    nullary main_cst_0 (constant S_ .f32 0x3F800000#32),
    unary main_cst_0 main_v7 (broadcastInDim S8x2048x1024 ![] bcast_S_S8x2048x1024 : (⟨S_, .f32⟩ : BufTy).Contents (Elt F) → (⟨S8x2048x1024, .f32⟩ : BufTy).Contents (Elt F)),
    binary main_v6 main_v7 main_v8 (addf : (⟨S8x2048x1024, .f32⟩ : BufTy).Contents (Elt F) → (⟨S8x2048x1024, .f32⟩ : BufTy).Contents (Elt F) → (⟨S8x2048x1024, .f32⟩ : BufTy).Contents (Elt F)) ]

-- thirty-three binds re-associated: the rewrite under the chain recurses once per statement
set_option maxRecDepth 1024 in
/-- The program is that straight line: the two functions unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., nullary_bufs_sub .., unary_bufs_sub .., binary_bufs_sub .., binary_bufs_sub ..,
    unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

/-- The elementwise stage over the whole arrays: exp(a·b + (a − b)·½). -/
def refE (a b : FVec F S8x4096x1024 .f32) : FVec F S8x4096x1024 .f32 :=
  Host.exp (addf (mulf a b) (mulf (subf a b) (broadcastInDim S8x4096x1024 ![] bcast_S_S8x4096x1024 (constant S_ .f32 0x3F000000#32))))

/-- The index words as the row selection reads them: a word below zero (signed) moved up by 4096. -/
def refIdx (w : IVec S2048 32) : IVec S2048 32 :=
  select (cmpi .slt w (broadcastInDim S2048 ![] bcast_S_S2048 (constantI S_ 32 0#32)))
    (addi w (broadcastInDim S2048 ![] bcast_S_S2048 (constantI S_ 32 4096#32))) w

/-- The same as a one-column table, the gather's index operand. -/
def refIdx2 (w : IVec S2048 32) : IVec S2048x1 32 :=
  broadcastInDim S2048x1 ![0] bcast_S2048_S2048x1_0 (refIdx w)

/-- The range mask per selected row: 0 ≤ word ≤ 4095 (signed), folded over the one column. -/
def refMask (w : IVec S2048 32) : IVec S2048 1 :=
  Host.reduce IntOp.andi
    (andi (cmpi .sge (refIdx2 w) (broadcastInDim S2048x1 ![] bcast_S_S2048x1 (constantI S_ 32 0#32)))
      (cmpi .sle (refIdx2 w) (broadcastInDim S2048x1 ![0, 1] bcast_S1x1_S2048x1_0_1
        (broadcastInDim S1x1 ![1] bcast_S1_S1x1_1 (constantI S1 32 4095#32)))))
    (constantI S_ 1 1#1) reducesTo_S2048x1_S2048_d1 h_S_

/-- The result buffer's contents as the operations compose them. -/
def refOutF (a b : FVec F S8x4096x1024 .f32) (w : IVec S2048 32) : FVec F S8x2048x1024 .f32 :=
  addf
    (select (broadcastInDim S8x2048x1024 ![1] bcast_S2048_S8x2048x1024_1 (refMask w))
      (Host.gather gather_S8x4096x1024_S2048x1_S8x2048x1024_02_1_n_n_1_1_811024 (refE a b) (refIdx2 w))
      (broadcastInDim S8x2048x1024 ![] bcast_S_S8x2048x1024 (constant S_ .f32 0x7FC00000#32)))
    (broadcastInDim S8x2048x1024 ![] bcast_S_S8x2048x1024 (constant S_ .f32 0x3F800000#32))

/-- The same at the extended reals. -/
def refOut (a b : FVec Ideal S8x4096x1024 .f32) (w : IVec S2048 32) : FVec Ideal S8x2048x1024 .f32 :=
  refOutF (F := Ideal) a b w

attribute [local irreducible] Host.reduce Host.gather in
/-- On the device, from any memory with zero counters: every weakly fair execution of the program terminates with
    the result buffer at the operations' composed term of the three arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c main_v8).trans (by after_results_simp; rfl),
      (h c main_arg0).trans (by after_results_simp),
      (h c main_arg1).trans (by after_results_simp),
      (h c main_arg2).trans (by after_results_simp)⟩)
    (run_seq scopedRefs_eq scopedSems_eq (defs (F := Ideal)) (main (F := Ideal)) (fun _ => ops (F := Ideal)) main_eq (fun _ => ops_sub) m ρ)

end Cert.ReferenceIdeal.RefValue

end
-- ==== Proof.RefValue.lean ====
/-
  The reference's composed term, read index by index: under the hypothesis that every index word, read
  signed, lies in [0, 4096), the comparison with zero fails and the inner select keeps the word; the range
  mask is one at every row, so the outer select keeps the gathered value; the gather at (p, g, d) reads its
  operand at (p, row g, d); and the elementwise stage reads through pointwise. Entry (p, g, d) of the result
  is therefore e(a[p, row g, d], b[p, row g, d]) with e(u, v) = exp(u·v + (u − v)·½) + 1.
-/
import proofs.«422764_j1194000908612_2_alg».proof.ReferenceIdeal
import proofs.«422764_j1194000908612_2_alg».proof.Proof.Gen.ReferenceIdeal
import proofs.«422764_j1194000908612_2_alg».proof.Proof.Spec
import proofs.«422764_j1194000908612_2_alg».proof.Proof.RefRun
import Idealize.ShloMosaic.Lib.ValueIdx
import Idealize.ShloMosaic.Lib.StableHlo.Predicate
import Idealize.ShloMosaic.PureOps.Reduce
import Idealize.ShloMosaic.PureOps.Ideal

noncomputable section

namespace Cert.ReferenceIdeal.RefValue

open Cert.ReferenceIdeal Cert.ReferenceIdeal.Gen Idealize.ShloMosaic Idealize.ShloMosaic.ValueIdx
  Idealize.ShloMosaic.StableHlo.Predicate

/-! ## The gather read at an index -/

/-- The printed dimension numbers: operand [8, 4096, 1024], start indices [2048, 1], result [8, 2048, 1024]. -/
abbrev GD : GatherDims S8x4096x1024 S2048x1 S8x2048x1024 := gather_S8x4096x1024_S2048x1_S8x2048x1024_02_1_n_n_1_1_811024

/-- Result index (p, g, d) reads its one start-index component at (g, 0) of the table. -/
theorem siIdx_eq (p : Fin 8) (g : Fin 2048) (d : Fin 1024) (c : Fin GD.startIndexMap.length) :
    GD.siIdx (ix3 p g d) c = ix2 g (0 : Fin 1) := by
  funext b
  match b with
  | ⟨0, _⟩ => rfl
  | ⟨1, _⟩ => exact Fin.ext (by have := c.isLt; change c.val < 1 at this; show c.val = 0; omega)

/-- The gather at (p, g, d) is the operand at (p, r, d), r the start index at (g, 0) read signed and clamped
    into [0, 4095]: axes 0 and 2 are offset axes carrying p and d, axis 1 is collapsed and start-indexed. -/
theorem gather_row {α : Type} (x : S8x4096x1024.Idx → α) (idx : IVec S2048x1 32) (p : Fin 8) (g : Fin 2048) (d : Fin 1024) :
    Host.gather GD x idx (ix3 p g d)
      = x (ix3 p (⟨min (idx (ix2 g (0 : Fin 1))).toInt.toNat 4095, by omega⟩ : Fin 4096) d) := by
  unfold Host.gather
  congr 1
  funext a
  apply Fin.ext
  match a with
  | ⟨0, _⟩ =>
    have h1 : GD.start (ix3 p g d) idx 0 = 0 := rfl
    have h2 : GD.batchCoord (ix3 p g d) 0 = 0 := rfl
    have h3 : GD.offCoord (ix3 p g d) 0 = p.val := rfl
    show GD.start (ix3 p g d) idx 0 + GD.batchCoord (ix3 p g d) 0 + GD.offCoord (ix3 p g d) 0 = p.val
    rw [h1, h2, h3, Nat.add_zero, Nat.zero_add]
  | ⟨1, _⟩ =>
    have h2 : GD.batchCoord (ix3 p g d) 1 = 0 := rfl
    have h3 : GD.offCoord (ix3 p g d) 1 = 0 := rfl
    have h1 : GD.start (ix3 p g d) idx 1 = min (idx (ix2 g (0 : Fin 1))).toInt.toNat 4095 := by
      unfold GatherDims.start
      rw [dif_pos (show (1 : Fin 3) ∈ GD.startIndexMap from List.mem_singleton.mpr rfl), siIdx_eq]
      rfl
    show GD.start (ix3 p g d) idx 1 + GD.batchCoord (ix3 p g d) 1 + GD.offCoord (ix3 p g d) 1 = _
    rw [h1, h2, h3]
    rfl
  | ⟨2, _⟩ =>
    have h1 : GD.start (ix3 p g d) idx 2 = 0 := rfl
    have h2 : GD.batchCoord (ix3 p g d) 2 = 0 := rfl
    have h3 : GD.offCoord (ix3 p g d) 2 = d.val := rfl
    show GD.start (ix3 p g d) idx 2 + GD.batchCoord (ix3 p g d) 2 + GD.offCoord (ix3 p g d) 2 = d.val
    rw [h1, h2, h3, Nat.add_zero, Nat.zero_add]

/-! ## The two broadcasts of a vector of 2048 -/

/-- A vector laid along the middle axis reads, at (p, g, d), the vector at g. -/
theorem bcast_mid {α : Type} (h : S2048.BroadcastsInDim S8x2048x1024 (![1] : Fin 1 → Fin S8x2048x1024.rank))
    (v : S2048.Idx → α) (p : Fin 8) (g : Fin 2048) (d : Fin 1024) :
    broadcastInDim S8x2048x1024 ![1] h v (ix3 p g d) = v (ix1 g) := by
  simp only [broadcastInDim]
  congr 1
  funext a
  obtain rfl : a = 0 := Subsingleton.elim _ _
  apply Fin.ext
  split
  · next h1 => exact absurd h1 (by decide)
  · rfl

/-- A vector as a one-column table reads, at (g, 0), the vector at g. -/
theorem bcast_col {α : Type} (h : S2048.BroadcastsInDim S2048x1 (![0] : Fin 1 → Fin S2048x1.rank))
    (v : S2048.Idx → α) (g : Fin 2048) (q : Fin 1) :
    broadcastInDim S2048x1 ![0] h v (ix2 g q) = v (ix1 g) := by
  simp only [broadcastInDim]
  congr 1
  funext a
  obtain rfl : a = 0 := Subsingleton.elim _ _
  apply Fin.ext
  split
  · next h1 => exact absurd h1 (by decide)
  · rfl

/-! ## A reduction by and of ones -/

/-- A left fold by and over one-bit words that are all 1, from 1, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]; rfl

/-- A reduction by and of a table of ones, from one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_one x _ _ (hi _) (fun n _ => hx n)

/-! ## A word in [0, 4096): its three comparisons and its clamp -/

section Words
variable {x : BitVec 32}

/-- It is not below zero, read signed. -/
theorem slt_zero (hx : x.toNat < 4096) : IntOp.cmpi .slt x 0#32 = 0#1 :=
  eq_zero_of_ne_one fun h => by
    have := (slt_iff_toNat (a := x) (b := 0#32) (by omega) (by decide)).1 h
    simp at this

/-- It is at least zero, read signed. -/
theorem sge_zero (hx : x.toNat < 4096) : IntOp.cmpi .sge x 0#32 = 1#1 :=
  (sge_iff_toNat (a := x) (b := 0#32) (by omega) (by decide)).2 (by simp)

/-- It is at most 4095, read signed. -/
theorem sle_4095 (hx : x.toNat < 4096) : IntOp.cmpi .sle x 4095#32 = 1#1 :=
  (sle_iff_toNat (a := x) (b := 4095#32) (by omega) (by decide)).2 (by
    show x.toNat ≤ 4095
    omega)

/-- Read signed and clamped into [0, 4095] it is its own value. -/
theorem clamp_id (hx : x.toNat < 4096) : min x.toInt.toNat 4095 = x.toNat := by
  rw [toInt_eq_toNat_of_lt (by omega), Int.toNat_natCast]
  omega

end Words

/-! ## The composed term at an index -/

section Value
variable (a b : FVec Ideal S8x4096x1024 .f32) (w : IVec S2048 32)
  (hw : ∀ g : Fin 2048, (w (ix1 g)).toNat < 4096)
include hw

/-- The start-index table at (g, q) is the word itself: the comparison with zero fails. -/
theorem refIdx2_apply (g : Fin 2048) (q : Fin 1) : refIdx2 w (ix2 g q) = w (ix1 g) := by
  unfold refIdx2
  rw [bcast_col]
  unfold refIdx
  rw [select_apply]
  show Scalar.select (IntOp.cmpi .slt (w (ix1 g)) 0#32) _ (w (ix1 g)) = w (ix1 g)
  rw [slt_zero (hw g), select_zero]

/-- The range mask is one at every row. -/
theorem refMask_one (k : S2048.Idx) : refMask w k = 1#1 := by
  unfold refMask
  refine reduce_andi_ones _ _ _ _ (fun i => ?_) (fun _ => rfl) k
  obtain ⟨g, q, rfl⟩ : ∃ g q, i = ix2 g q := ⟨i 0, i 1, eq_ix2 i⟩
  show IntOp.andi (IntOp.cmpi .sge (refIdx2 w (ix2 g q)) 0#32) (IntOp.cmpi .sle (refIdx2 w (ix2 g q)) 4095#32) = 1#1
  rw [refIdx2_apply w hw, sge_zero (hw g), sle_4095 (hw g)]
  rfl

/-- The row the gather reads for result row g is the row the word names. -/
theorem row_eq (g : Fin 2048) :
    (⟨min (refIdx2 w (ix2 g (0 : Fin 1))).toInt.toNat 4095, by omega⟩ : Fin 4096) = Cert.Spec.rowOf w g :=
  Fin.ext (by
    show min (refIdx2 w (ix2 g (0 : Fin 1))).toInt.toNat 4095 = (w (ix1 g)).toNat % 4096
    rw [refIdx2_apply w hw, clamp_id (hw g), Nat.mod_eq_of_lt (hw g)])

/-- The reference's result is the specification's function of the two arrays and the rows the words name. -/
theorem refOut_eq_G : refOut a b w = Cert.Spec.G a b (Cert.Spec.rowOf w) := by
  funext j
  obtain ⟨p, g, d, rfl⟩ : ∃ p g d, j = ix3 p g d := ⟨j 0, j 1, j 2, eq_ix3 j⟩
  rw [Cert.Spec.G_apply]
  unfold refOut refOutF
  rw [addf_apply, select_apply, bcast_mid, refMask_one w hw, select_one]
  show Host.gather GD (refE a b) (refIdx2 w) (ix3 p g d) + _ = _
  rw [gather_row, row_eq w hw]
  rfl

end Value

end Cert.ReferenceIdeal.RefValue

end
-- ==== Proof.lean ====
/-
  The kernel computes, for 2048 row numbers r(g) and two arrays x, y of shape [8, 4096, 1024], the array whose entry
  (p, g, d) is e(x[p, r(g), d], y[p, r(g), d]) with e(u, v) = exp(u·v + (u − v)·½) + 1: it gathers the rows first and applies
  e to the gathered rows; the reference applies e to every row and gathers afterwards.  Gathering rows commutes with an
  elementwise function, so both are one function of (x, y, r) and no algebraic law is needed.  The precondition puts every
  row number, read signed, in [0, 4096): there the kernel's clamp into [0, 4095] and the reference's wrap of negative
  numbers and range mask are all the identity, and both programs read row r(g) itself.
-/
import proofs.«422764_j1194000908612_2_alg».proof.Defs
import proofs.«422764_j1194000908612_2_alg».proof.Proof.Gen.Kernel
import proofs.«422764_j1194000908612_2_alg».proof.Proof.Gen.Kernel.Skeleton
import proofs.«422764_j1194000908612_2_alg».proof.Proof.Gen.Kernel.Launch
import proofs.«422764_j1194000908612_2_alg».proof.Proof.Gen.Kernel.Flash
import proofs.«422764_j1194000908612_2_alg».proof.Proof.Gen.KernelIdeal
import proofs.«422764_j1194000908612_2_alg».proof.Proof.Gen.KernelIdeal.Skeleton
import proofs.«422764_j1194000908612_2_alg».proof.Proof.Gen.KernelIdeal.Launch
import proofs.«422764_j1194000908612_2_alg».proof.Proof.Gen.KernelIdeal.Flash
import proofs.«422764_j1194000908612_2_alg».proof.Proof.Gen.ReferenceIdeal
import proofs.«422764_j1194000908612_2_alg».proof.Proof.Gen.Pre_finite_inputs
import proofs.«422764_j1194000908612_2_alg».proof.Proof.KI.Main
import proofs.«422764_j1194000908612_2_alg».proof.Proof.KI.MainValue
import proofs.«422764_j1194000908612_2_alg».proof.Proof.K.Main
import proofs.«422764_j1194000908612_2_alg».proof.Proof.RefRun
import proofs.«422764_j1194000908612_2_alg».proof.Proof.RefValue
import proofs.«422764_j1194000908612_2_alg».proof.Proof.PreRows
import proofs.«422764_j1194000908612_2_alg».proof.Proof.Spec
import Idealize.ShloMosaic.Adequacy
import Idealize.ShloMosaic.Init

noncomputable section

namespace Cert.Proof

open Idealize.ShloMosaic Idealize.SL.Sem

/-- The word-level program runs and leaves its arguments unchanged. -/
theorem frame_Kernel : Cert.frame_Kernel (hKernel := Cert.Kernel.Gen.facts) (hPre_finite_inputs := Cert.Pre_finite_inputs.Gen.facts) :=
  fun m ρ _ => Cert.Kernel.Hand.frame m ρ

/-- The idealized program runs and leaves its arguments unchanged. -/
theorem frame_KernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments unchanged: its run with the result's clause dropped. -/
theorem frame_ReferenceIdeal : Cert.frame_ReferenceIdeal (hReferenceIdeal := Cert.ReferenceIdeal.Gen.facts) (hPre_finite_inputs := Cert.Pre_finite_inputs.Gen.facts) :=
  fun m ρ _ => (θ_run _ _ _).mono (fun _ h c => (h c).2) (Cert.ReferenceIdeal.RefValue.run m ρ)

/-- Both programs end with the specification's function of the two arrays and the row numbers: under the precondition every
    row number is below 4096, so the kernel's clipped table is the table of row numbers itself, and the reference's select and
    mask keep the row the number names. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hw : ∀ c : Dev Cert.KernelIdeal.nD, ∀ j : Fin 2048,
      ((m ((c.tc : Thread Cert.KernelIdeal.nD Cert.KernelIdeal.τ).loc Cert.KernelIdeal.main_arg2)) (ValueIdx.ix1 j)).toNat < 4096 :=
    fun c => Cert.PreRows.rows_lt _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.Spec.rowOf (m ((c.tc : Thread Cert.KernelIdeal.nD Cert.KernelIdeal.τ).loc Cert.KernelIdeal.main_arg2))), ?_, ?_⟩
  · refine (θ_run _ _ _).mono (fun r h c => ?_) (Cert.KernelIdeal.Hand.value m g)
    obtain ⟨h1, h2⟩ := h c
    refine ⟨?_, h2⟩
    have e : Cert.PreRows.clipTbl Cert.KernelIdeal.Gen.bcast_S_S2048 (m ((c.tc : Thread Cert.KernelIdeal.nD Cert.KernelIdeal.τ).loc Cert.KernelIdeal.main_arg2))
        = m ((c.tc : Thread Cert.KernelIdeal.nD Cert.KernelIdeal.τ).loc Cert.KernelIdeal.main_arg2) :=
      Cert.PreRows.clipTbl_eq_self _ _ (hw c)
    rw [h1, e]
  · refine (θ_run _ _ _).mono (fun r h c => ?_) (Cert.ReferenceIdeal.RefValue.run m' g')
    obtain ⟨h1, h2⟩ := h c
    obtain ⟨e0, e1, e2⟩ := hagree c
    refine ⟨?_, h2⟩
    rw [h1, Cert.ReferenceIdeal.RefValue.refOut_eq_G _ _ _ (by rw [e2]; exact hw c), e0, e1, e2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
